-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S4096 : Shape := ⟨1, ![4096]⟩
abbrev S4096x10 : Shape := ⟨2, ![4096, 10]⟩
abbrev S40960x10 : Shape := ⟨2, ![40960, 10]⟩
abbrev S128x128 : Shape := ⟨2, ![128, 128]⟩
abbrev S128 : Shape := ⟨1, ![128]⟩
abbrev S256x128 : Shape := ⟨2, ![256, 128]⟩
abbrev S_ : Shape := ⟨0, ![]⟩
abbrev S4096x1 : Shape := ⟨2, ![4096, 1]⟩
abbrev S4096x128 : Shape := ⟨2, ![4096, 128]⟩
abbrev S40960 : Shape := ⟨1, ![40960]⟩
abbrev S40960x1 : Shape := ⟨2, ![40960, 1]⟩
abbrev S40960x128 : Shape := ⟨2, ![40960, 128]⟩
abbrev S4096x10x128 : Shape := ⟨3, ![4096, 10, 128]⟩
abbrev S409600 : Shape := ⟨1, ![409600]⟩
abbrev S409600x1 : Shape := ⟨2, ![409600, 1]⟩
abbrev S409600x128 : Shape := ⟨2, ![409600, 128]⟩
abbrev S40960x10x128 : Shape := ⟨3, ![40960, 10, 128]⟩
abbrev S1x128 : Shape := ⟨2, ![1, 128]⟩
abbrev S1x1x128 : Shape := ⟨3, ![1, 1, 128]⟩
abbrev S4096x256 : Shape := ⟨2, ![4096, 256]⟩
abbrev S40960x256 : Shape := ⟨2, ![40960, 256]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x10 : S_.BroadcastsInDim S4096x10 (![] : Fin 0 → Fin S4096x10.rank)
  reducesTo_S4096x10_S_d0_1 : S4096x10.ReducesTo [0, 1] S_
  bcast_S_S40960x10 : S_.BroadcastsInDim S40960x10 (![] : Fin 0 → Fin S40960x10.rank)
  reducesTo_S40960x10_S_d0_1 : S40960x10.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S4096 : S_.BroadcastsInDim S4096 (![] : Fin 0 → Fin S4096.rank)
  reducesTo_S4096_S_d0 : S4096.ReducesTo [0] S_
  shapeCasts_S4096_S4096x1 : S4096.ShapeCasts S4096x1
  shapeCasts_S4096x10_S40960 : S4096x10.ShapeCasts S40960
  shapeCasts_S40960_S40960x1 : S40960.ShapeCasts S40960x1
  shapeCasts_S40960x128_S4096x10x128 : S40960x128.ShapeCasts S4096x10x128
  shapeCasts_S40960x10_S409600 : S40960x10.ShapeCasts S409600
  shapeCasts_S409600_S409600x1 : S409600.ShapeCasts S409600x1
  shapeCasts_S409600x128_S40960x10x128 : S409600x128.ShapeCasts S40960x10x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S128_S1x1x128_2 : S128.BroadcastsInDim S1x1x128 (![2] : Fin 1 → Fin S1x1x128.rank)
  bcast_S1x1x128_S4096x10x128_0_1_2 : S1x1x128.BroadcastsInDim S4096x10x128 (![0, 1, 2] : Fin 3 → Fin S4096x10x128.rank)
  bcast_S_S4096x10x128 : S_.BroadcastsInDim S4096x10x128 (![] : Fin 0 → Fin S4096x10x128.rank)
  concatenates_S4096x128_S4096x128_S4096x256_d1 : Shape.Concatenates [S4096x128, S4096x128] S4096x256 1
  reducesTo_S4096x128_S_d0_1 : S4096x128.ReducesTo [0, 1] S_
  shapeCasts_S4096x10x128_S40960x128 : S4096x10x128.ShapeCasts S40960x128
  bcast_S1x128_S40960x128_0_1 : S1x128.BroadcastsInDim S40960x128 (![0, 1] : Fin 2 → Fin S40960x128.rank)
  bcast_S_S40960x128 : S_.BroadcastsInDim S40960x128 (![] : Fin 0 → Fin S40960x128.rank)
  bcast_S1x1x128_S40960x10x128_0_1_2 : S1x1x128.BroadcastsInDim S40960x10x128 (![0, 1, 2] : Fin 3 → Fin S40960x10x128.rank)
  bcast_S_S40960x10x128 : S_.BroadcastsInDim S40960x10x128 (![] : Fin 0 → Fin S40960x10x128.rank)
  concatenates_S40960x128_S40960x128_S40960x256_d1 : Shape.Concatenates [S40960x128, S40960x128] S40960x256 1
  reducesTo_S40960x128_S_d0_1 : S40960x128.ReducesTo [0, 1] S_
  gather_S100000x128_S4096x1_S4096x128_1_0_n_n_0_1_1128_wf : GatherDims.WF S100000x128 S4096x1 S4096x128 [1] [0] [] [0] [] 1 ![1, 128]
  gather_S100000x128_S40960x1_S40960x128_1_0_n_n_0_1_1128_wf : GatherDims.WF S100000x128 S40960x1 S40960x128 [1] [0] [] [0] [] 1 ![1, 128]
  gather_S100000x128_S409600x1_S409600x128_1_0_n_n_0_1_1128_wf : GatherDims.WF S100000x128 S409600x1 S409600x128 [1] [0] [] [0] [] 1 ![1, 128]
  dot_S4096x128_S128x128_S4096x128_1_0_0_1_n_n_wf : DotDims.WF S4096x128 S128x128 S4096x128 [1] [0] [0] [1] [] []
  dot_S4096x10x128_S128x128_S4096x10x128_2_0_01_1_n_n_wf : DotDims.WF S4096x10x128 S128x128 S4096x10x128 [2] [0] [0, 1] [1] [] []
  dot_S4096x10_S4096x10x128_S4096x128_1_1_n_2_0_0_wf : DotDims.WF S4096x10 S4096x10x128 S4096x128 [1] [1] [] [2] [0] [0]
  dot_S4096x256_S256x128_S4096x128_1_0_0_1_n_n_wf : DotDims.WF S4096x256 S256x128 S4096x128 [1] [0] [0] [1] [] []
  dot_S40960x128_S128x128_S40960x128_1_0_0_1_n_n_wf : DotDims.WF S40960x128 S128x128 S40960x128 [1] [0] [0] [1] [] []
  dot_S40960x10x128_S128x128_S40960x10x128_2_0_01_1_n_n_wf : DotDims.WF S40960x10x128 S128x128 S40960x10x128 [2] [0] [0, 1] [1] [] []
  dot_S40960x10_S40960x10x128_S40960x128_1_1_n_2_0_0_wf : DotDims.WF S40960x10 S40960x10x128 S40960x128 [1] [1] [] [2] [0] [0]
  dot_S40960x256_S256x128_S40960x128_1_0_0_1_n_n_wf : DotDims.WF S40960x256 S256x128 S40960x128 [1] [0] [0] [1] [] []

variable [Facts]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S100000x128_S40960x1_S40960x128_1_0_n_n_0_1_1128 : GatherDims S100000x128 S40960x1 S40960x128 where
  offsetDims := [1]
  collapsedSliceDims := [0]
  operandBatchingDims := []
  startIndicesBatchingDims := []
  startIndexMap := [0]
  indexVectorDim := 1
  sliceSizes := ![1, 128]
  wf := gather_S100000x128_S40960x1_S40960x128_1_0_n_n_0_1_1128_wf
def gather_S100000x128_S409600x1_S409600x128_1_0_n_n_0_1_1128 : GatherDims S100000x128 S409600x1 S409600x128 where
  offsetDims := [1]
  collapsedSliceDims := [0]
  operandBatchingDims := []
  startIndicesBatchingDims := []
  startIndexMap := [0]
  indexVectorDim := 1
  sliceSizes := ![1, 128]
  wf := gather_S100000x128_S409600x1_S409600x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x10x128_S128x128_S4096x10x128_2_0_01_1_n_n : DotDims S4096x10x128 S128x128 S4096x10x128 where
  lhsContracting := [2]
  rhsContracting := [0]
  lhsNonContracting := [0, 1]
  rhsNonContracting := [1]
  lhsBatch := []
  rhsBatch := []
  wf := dot_S4096x10x128_S128x128_S4096x10x128_2_0_01_1_n_n_wf
def dot_S4096x10_S4096x10x128_S4096x128_1_1_n_2_0_0 : DotDims S4096x10 S4096x10x128 S4096x128 where
  lhsContracting := [1]
  rhsContracting := [1]
  lhsNonContracting := []
  rhsNonContracting := [2]
  lhsBatch := [0]
  rhsBatch := [0]
  wf := dot_S4096x10_S4096x10x128_S4096x128_1_1_n_2_0_0_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S40960x128_S128x128_S40960x128_1_0_0_1_n_n : DotDims S40960x128 S128x128 S40960x128 where
  lhsContracting := [1]
  rhsContracting := [0]
  lhsNonContracting := [0]
  rhsNonContracting := [1]
  lhsBatch := []
  rhsBatch := []
  wf := dot_S40960x128_S128x128_S40960x128_1_0_0_1_n_n_wf
def dot_S40960x10x128_S128x128_S40960x10x128_2_0_01_1_n_n : DotDims S40960x10x128 S128x128 S40960x10x128 where
  lhsContracting := [2]
  rhsContracting := [0]
  lhsNonContracting := [0, 1]
  rhsNonContracting := [1]
  lhsBatch := []
  rhsBatch := []
  wf := dot_S40960x10x128_S128x128_S40960x10x128_2_0_01_1_n_n_wf
def dot_S40960x10_S40960x10x128_S40960x128_1_1_n_2_0_0 : DotDims S40960x10 S40960x10x128 S40960x128 where
  lhsContracting := [1]
  rhsContracting := [1]
  lhsNonContracting := []
  rhsNonContracting := [2]
  lhsBatch := [0]
  rhsBatch := [0]
  wf := dot_S40960x10_S40960x10x128_S40960x128_1_1_n_2_0_0_wf
def dot_S40960x256_S256x128_S40960x128_1_0_0_1_n_n : DotDims S40960x256 S256x128 S40960x128 where
  lhsContracting := [1]
  rhsContracting := [0]
  lhsNonContracting := [0]
  rhsNonContracting := [1]
  lhsBatch := []
  rhsBatch := []
  wf := dot_S40960x256_S256x128_S40960x128_1_0_0_1_n_n_wf
def fn_part10 {F : FTy → Type} [FloatOps F] (main_v104 : IVec S_ 1) (main_v137 : FVec F S_ .f32) (main_v161 : FVec F S_ .f32) (main_v184 : FVec F S4096x128 .f32) (main_v185 : FVec F S4096x128 .f32) : IVec S_ 1 :=
  let main_v186 : FVec F S4096x128 .f32 := maximumf main_v184 main_v185
  let main_v187 : FVec F S4096x128 .f32 := mulf main_v186 main_v186
  let main_cst_52 : FVec F S_ .f32 := constant S_ .f32 0x00000000#32
  let main_v188 : FVec F S_ .f32 := (fun x v => Host.reduceAdd x v reducesTo_S4096x128_S_d0_1 h_S_) main_v187 main_cst_52
  let main_v189 : FVec F S_ .f32 := Host.sqrt main_v188
  let main_cst_53 : FVec F S_ .f32 := constant S_ .f32 0x00000000#32
  let main_v190 : IVec S_ 1 := cmpf .ogt main_v137 main_cst_53
  let main_cst_54 : FVec F S_ .f32 := constant S_ .f32 0x00000000#32
  let main_v191 : IVec S_ 1 := cmpf .ogt main_v161 main_cst_54
  let main_v192 : IVec S_ 1 := andi main_v190 main_v191
  let main_cst_55 : FVec F S_ .f32 := constant S_ .f32 0x00000000#32
  let main_v193 : IVec S_ 1 := cmpf .ogt main_v189 main_cst_55
  let main_v194 : IVec S_ 1 := andi main_v192 main_v193
  let main_v195 : IVec S_ 1 := andi main_v104 main_v194
  main_v195

def fn_part9 {F : FTy → Type} [FloatOps F] (main_arg3 : FVec F S4096x10 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_v104 : IVec S_ 1) (main_v137 : FVec F S_ .f32) (main_v158 : FVec F S40960x128 .f32) (main_v161 : FVec F S_ .f32) (main_v163 : FVec F S4096x128 .f32) (main_v164 : FVec F S40960x128 .f32) : IVec S_ 1 :=
  let main_v165 : FVec F S40960x128 .f32 := Host.divf main_v158 main_v164
  let main_v166 : FVec F S4096x10x128 .f32 := shapeCast S4096x10x128 main_v165 shapeCasts_S40960x128_S4096x10x128
  let main_v167 : FVec F S4096x128 .f32 := (fun l r => Host.dotGeneral dot_S4096x128_S128x128_S4096x128_1_0_0_1_n_n none l r) main_v163 main_arg12
  let main_v168 : FVec F S1x128 .f32 := broadcastInDim S1x128 ![1] bcast_S128_S1x128_1 main_arg13
  let main_v169 : FVec F S4096x128 .f32 := broadcastInDim S4096x128 ![0, 1] bcast_S1x128_S4096x128_0_1 main_v168
  let main_v170 : FVec F S4096x128 .f32 := addf main_v167 main_v169
  let main_cst_49 : FVec F S_ .f32 := constant S_ .f32 0x00000000#32
  let main_v171 : FVec F S4096x128 .f32 := broadcastInDim S4096x128 ![] bcast_S_S4096x128 main_cst_49
  let main_v172 : FVec F S4096x128 .f32 := maximumf main_v170 main_v171
  let main_v173 : FVec F S4096x10x128 .f32 := (fun l r => Host.dotGeneral dot_S4096x10x128_S128x128_S4096x10x128_2_0_01_1_n_n none l r) main_v166 main_arg14
  let main_v174 : FVec F S1x1x128 .f32 := broadcastInDim S1x1x128 ![2] bcast_S128_S1x1x128_2 main_arg15
  let main_v175 : FVec F S4096x10x128 .f32 := broadcastInDim S4096x10x128 ![0, 1, 2] bcast_S1x1x128_S4096x10x128_0_1_2 main_v174
  let main_v176 : FVec F S4096x10x128 .f32 := addf main_v173 main_v175
  let main_cst_50 : FVec F S_ .f32 := constant S_ .f32 0x00000000#32
  let main_v177 : FVec F S4096x10x128 .f32 := broadcastInDim S4096x10x128 ![] bcast_S_S4096x10x128 main_cst_50
  let main_v178 : FVec F S4096x10x128 .f32 := maximumf main_v176 main_v177
  let main_v179 : FVec F S4096x128 .f32 := (fun l r => Host.dotGeneral dot_S4096x10_S4096x10x128_S4096x128_1_1_n_2_0_0 none l r) main_arg3 main_v178
  let main_v180 : FVec F S4096x256 .f32 := (fun a b => concatenate S4096x256 1 [⟨S4096x128, a⟩, ⟨S4096x128, b⟩] concatenates_S4096x128_S4096x128_S4096x256_d1) main_v172 main_v179
  let main_v181 : FVec F S4096x128 .f32 := (fun l r => Host.dotGeneral dot_S4096x256_S256x128_S4096x128_1_0_0_1_n_n none l r) main_v180 main_arg16
  let main_v182 : FVec F S1x128 .f32 := broadcastInDim S1x128 ![1] bcast_S128_S1x128_1 main_arg17
  let main_v183 : FVec F S4096x128 .f32 := broadcastInDim S4096x128 ![0, 1] bcast_S1x128_S4096x128_0_1 main_v182
  let main_v184 : FVec F S4096x128 .f32 := addf main_v181 main_v183
  let main_cst_51 : FVec F S_ .f32 := constant S_ .f32 0x00000000#32
  let main_v185 : FVec F S4096x128 .f32 := broadcastInDim S4096x128 ![] bcast_S_S4096x128 main_cst_51
  fn_part10 (F := F) main_v104 main_v137 main_v161 main_v184 main_v185

def fn_part8 {F : FTy → Type} [FloatOps F] (main_arg3 : FVec F S4096x10 .f32) (main_arg5 : FVec F S40960x10 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_v104 : IVec S_ 1) (main_v114 : FVec F S40960x10x128 .f32) (main_v134 : FVec F S4096x128 .f32) (main_v137 : FVec F S_ .f32) (main_v142 : FVec F S40960x128 .f32) (main_v143 : FVec F S40960x128 .f32) : IVec S_ 1 :=
  let main_v144 : FVec F S40960x128 .f32 := maximumf main_v142 main_v143
  let main_v145 : FVec F S40960x10x128 .f32 := (fun l r => Host.dotGeneral dot_S40960x10x128_S128x128_S40960x10x128_2_0_01_1_n_n none l r) main_v114 main_arg8
  let main_v146 : FVec F S1x1x128 .f32 := broadcastInDim S1x1x128 ![2] bcast_S128_S1x1x128_2 main_arg9
  let main_v147 : FVec F S40960x10x128 .f32 := broadcastInDim S40960x10x128 ![0, 1, 2] bcast_S1x1x128_S40960x10x128_0_1_2 main_v146
  let main_v148 : FVec F S40960x10x128 .f32 := addf main_v145 main_v147
  let main_cst_46 : FVec F S_ .f32 := constant S_ .f32 0x00000000#32
  let main_v149 : FVec F S40960x10x128 .f32 := broadcastInDim S40960x10x128 ![] bcast_S_S40960x10x128 main_cst_46
  let main_v150 : FVec F S40960x10x128 .f32 := maximumf main_v148 main_v149
  let main_v151 : FVec F S40960x128 .f32 := (fun l r => Host.dotGeneral dot_S40960x10_S40960x10x128_S40960x128_1_1_n_2_0_0 none l r) main_arg5 main_v150
  let main_v152 : FVec F S40960x256 .f32 := (fun a b => concatenate S40960x256 1 [⟨S40960x128, a⟩, ⟨S40960x128, b⟩] concatenates_S40960x128_S40960x128_S40960x256_d1) main_v144 main_v151
  let main_v153 : FVec F S40960x128 .f32 := (fun l r => Host.dotGeneral dot_S40960x256_S256x128_S40960x128_1_0_0_1_n_n none l r) main_v152 main_arg10
  let main_v154 : FVec F S1x128 .f32 := broadcastInDim S1x128 ![1] bcast_S128_S1x128_1 main_arg11
  let main_v155 : FVec F S40960x128 .f32 := broadcastInDim S40960x128 ![0, 1] bcast_S1x128_S40960x128_0_1 main_v154
  let main_v156 : FVec F S40960x128 .f32 := addf main_v153 main_v155
  let main_cst_47 : FVec F S_ .f32 := constant S_ .f32 0x00000000#32
  let main_v157 : FVec F S40960x128 .f32 := broadcastInDim S40960x128 ![] bcast_S_S40960x128 main_cst_47
  let main_v158 : FVec F S40960x128 .f32 := maximumf main_v156 main_v157
  let main_v159 : FVec F S40960x128 .f32 := mulf main_v158 main_v158
  let main_cst_48 : FVec F S_ .f32 := constant S_ .f32 0x00000000#32
  let main_v160 : FVec F S_ .f32 := (fun x v => Host.reduceAdd x v reducesTo_S40960x128_S_d0_1 h_S_) main_v159 main_cst_48
  let main_v161 : FVec F S_ .f32 := Host.sqrt main_v160
  let main_v162 : FVec F S4096x128 .f32 := broadcastInDim S4096x128 ![] bcast_S_S4096x128 main_v137
  let main_v163 : FVec F S4096x128 .f32 := Host.divf main_v134 main_v162
  let main_v164 : FVec F S40960x128 .f32 := broadcastInDim S40960x128 ![] bcast_S_S40960x128 main_v161
  fn_part9 (F := F) main_arg3 main_arg12 main_arg13 main_arg14 main_arg15 main_arg16 main_arg17 main_v104 main_v137 main_v158 main_v161 main_v163 main_v164

def fn_part7 {F : FTy → Type} [FloatOps F] (main_arg3 : FVec F S4096x10 .f32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_v104 : IVec S_ 1) (main_v110 : FVec F S4096x10x128 .f32) (main_v114 : FVec F S40960x10x128 .f32) (main_v120 : FVec F S4096x128 .f32) (main_v121 : FVec F S4096x10x128 .f32) (main_v123 : FVec F S4096x10x128 .f32) : IVec S_ 1 :=
  let main_v124 : FVec F S4096x10x128 .f32 := addf main_v121 main_v123
  let main_cst_42 : FVec F S_ .f32 := constant S_ .f32 0x00000000#32
  let main_v125 : FVec F S4096x10x128 .f32 := broadcastInDim S4096x10x128 ![] bcast_S_S4096x10x128 main_cst_42
  let main_v126 : FVec F S4096x10x128 .f32 := maximumf main_v124 main_v125
  let main_v127 : FVec F S4096x128 .f32 := (fun l r => Host.dotGeneral dot_S4096x10_S4096x10x128_S4096x128_1_1_n_2_0_0 none l r) main_arg3 main_v126
  let main_v128 : FVec F S4096x256 .f32 := (fun a b => concatenate S4096x256 1 [⟨S4096x128, a⟩, ⟨S4096x128, b⟩] concatenates_S4096x128_S4096x128_S4096x256_d1) main_v120 main_v127
  let main_v129 : FVec F S4096x128 .f32 := (fun l r => Host.dotGeneral dot_S4096x256_S256x128_S4096x128_1_0_0_1_n_n none l r) main_v128 main_arg10
  let main_v130 : FVec F S1x128 .f32 := broadcastInDim S1x128 ![1] bcast_S128_S1x128_1 main_arg11
  let main_v131 : FVec F S4096x128 .f32 := broadcastInDim S4096x128 ![0, 1] bcast_S1x128_S4096x128_0_1 main_v130
  let main_v132 : FVec F S4096x128 .f32 := addf main_v129 main_v131
  let main_cst_43 : FVec F S_ .f32 := constant S_ .f32 0x00000000#32
  let main_v133 : FVec F S4096x128 .f32 := broadcastInDim S4096x128 ![] bcast_S_S4096x128 main_cst_43
  let main_v134 : FVec F S4096x128 .f32 := maximumf main_v132 main_v133
  let main_v135 : FVec F S4096x128 .f32 := mulf main_v134 main_v134
  let main_cst_44 : FVec F S_ .f32 := constant S_ .f32 0x00000000#32
  let main_v136 : FVec F S_ .f32 := (fun x v => Host.reduceAdd x v reducesTo_S4096x128_S_d0_1 h_S_) main_v135 main_cst_44
  let main_v137 : FVec F S_ .f32 := Host.sqrt main_v136
  let main_v138 : FVec F S40960x128 .f32 := shapeCast S40960x128 main_v110 shapeCasts_S4096x10x128_S40960x128
  let main_v139 : FVec F S40960x128 .f32 := (fun l r => Host.dotGeneral dot_S40960x128_S128x128_S40960x128_1_0_0_1_n_n none l r) main_v138 main_arg6
  let main_v140 : FVec F S1x128 .f32 := broadcastInDim S1x128 ![1] bcast_S128_S1x128_1 main_arg7
  let main_v141 : FVec F S40960x128 .f32 := broadcastInDim S40960x128 ![0, 1] bcast_S1x128_S40960x128_0_1 main_v140
  let main_v142 : FVec F S40960x128 .f32 := addf main_v139 main_v141
  let main_cst_45 : FVec F S_ .f32 := constant S_ .f32 0x00000000#32
  let main_v143 : FVec F S40960x128 .f32 := broadcastInDim S40960x128 ![] bcast_S_S40960x128 main_cst_45
  fn_part8 (F := F) main_arg3 main_arg5 main_arg8 main_arg9 main_arg10 main_arg11 main_arg12 main_arg13 main_arg14 main_arg15 main_arg16 main_arg17 main_v104 main_v114 main_v134 main_v137 main_v142 main_v143

def fn_part6 {F : FTy → Type} [FloatOps F] (main_arg0 : FVec F S100000x128 .f32) (main_arg1 : IVec S4096 32) (main_arg2 : IVec S4096x10 32) (main_arg3 : FVec F S4096x10 .f32) (main_arg4 : IVec S40960x10 32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_v97 : IVec S_ 1) (main_v99 : IVec S40960x10 1) (main_v101 : IVec S40960x10 1) : IVec S_ 1 :=
  let main_v102 : IVec S40960x10 1 := andi main_v99 main_v101
  let main_c_40 : IVec S_ 1 := constantI S_ 1 1#1
  let main_v103 : IVec S_ 1 := (fun x v => Host.reduce IntOp.andi x v reducesTo_S40960x10_S_d0_1 h_S_) main_v102 main_c_40
  let main_v104 : IVec S_ 1 := andi main_v97 main_v103
  let main_v105 : IVec S4096x1 32 := shapeCast S4096x1 main_arg1 shapeCasts_S4096_S4096x1
  let main_v106 : FVec F S4096x128 .f32 := (fun x i => Host.gather gather_S100000x128_S4096x1_S4096x128_1_0_n_n_0_1_1128 x i) main_arg0 main_v105
  let main_v107 : IVec S40960 32 := shapeCast S40960 main_arg2 shapeCasts_S4096x10_S40960
  let main_v108 : IVec S40960x1 32 := shapeCast S40960x1 main_v107 shapeCasts_S40960_S40960x1
  let main_v109 : FVec F S40960x128 .f32 := (fun x i => Host.gather gather_S100000x128_S40960x1_S40960x128_1_0_n_n_0_1_1128 x i) main_arg0 main_v108
  let main_v110 : FVec F S4096x10x128 .f32 := shapeCast S4096x10x128 main_v109 shapeCasts_S40960x128_S4096x10x128
  let main_v111 : IVec S409600 32 := shapeCast S409600 main_arg4 shapeCasts_S40960x10_S409600
  let main_v112 : IVec S409600x1 32 := shapeCast S409600x1 main_v111 shapeCasts_S409600_S409600x1
  let main_v113 : FVec F S409600x128 .f32 := (fun x i => Host.gather gather_S100000x128_S409600x1_S409600x128_1_0_n_n_0_1_1128 x i) main_arg0 main_v112
  let main_v114 : FVec F S40960x10x128 .f32 := shapeCast S40960x10x128 main_v113 shapeCasts_S409600x128_S40960x10x128
  let main_v115 : FVec F S4096x128 .f32 := (fun l r => Host.dotGeneral dot_S4096x128_S128x128_S4096x128_1_0_0_1_n_n none l r) main_v106 main_arg6
  let main_v116 : FVec F S1x128 .f32 := broadcastInDim S1x128 ![1] bcast_S128_S1x128_1 main_arg7
  let main_v117 : FVec F S4096x128 .f32 := broadcastInDim S4096x128 ![0, 1] bcast_S1x128_S4096x128_0_1 main_v116
  let main_v118 : FVec F S4096x128 .f32 := addf main_v115 main_v117
  let main_cst_41 : FVec F S_ .f32 := constant S_ .f32 0x00000000#32
  let main_v119 : FVec F S4096x128 .f32 := broadcastInDim S4096x128 ![] bcast_S_S4096x128 main_cst_41
  let main_v120 : FVec F S4096x128 .f32 := maximumf main_v118 main_v119
  let main_v121 : FVec F S4096x10x128 .f32 := (fun l r => Host.dotGeneral dot_S4096x10x128_S128x128_S4096x10x128_2_0_01_1_n_n none l r) main_v110 main_arg8
  let main_v122 : FVec F S1x1x128 .f32 := broadcastInDim S1x1x128 ![2] bcast_S128_S1x1x128_2 main_arg9
  let main_v123 : FVec F S4096x10x128 .f32 := broadcastInDim S4096x10x128 ![0, 1, 2] bcast_S1x1x128_S4096x10x128_0_1_2 main_v122
  fn_part7 (F := F) main_arg3 main_arg5 main_arg6 main_arg7 main_arg8 main_arg9 main_arg10 main_arg11 main_arg12 main_arg13 main_arg14 main_arg15 main_arg16 main_arg17 main_v104 main_v110 main_v114 main_v120 main_v121 main_v123

def fn_part5 {F : FTy → Type} [FloatOps F] (main_arg0 : FVec F S100000x128 .f32) (main_arg1 : IVec S4096 32) (main_arg2 : IVec S4096x10 32) (main_arg3 : FVec F S4096x10 .f32) (main_arg4 : IVec S40960x10 32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_v83 : IVec S_ 1) (main_v84 : IVec S4096 32) : IVec S_ 1 :=
  let main_v85 : IVec S4096 1 := cmpi .sge main_arg1 main_v84
  let main_c_33 : IVec S_ 32 := constantI S_ 32 99999#32
  let main_v86 : IVec S4096 32 := broadcastInDim S4096 ![] bcast_S_S4096 main_c_33
  let main_v87 : IVec S4096 1 := cmpi .sle main_arg1 main_v86
  let main_v88 : IVec S4096 1 := andi main_v85 main_v87
  let main_c_34 : IVec S_ 1 := constantI S_ 1 1#1
  let main_v89 : IVec S_ 1 := (fun x v => Host.reduce IntOp.andi x v reducesTo_S4096_S_d0 h_S_) main_v88 main_c_34
  let main_v90 : IVec S_ 1 := andi main_v83 main_v89
  let main_c_35 : IVec S_ 32 := constantI S_ 32 0#32
  let main_v91 : IVec S4096x10 32 := broadcastInDim S4096x10 ![] bcast_S_S4096x10 main_c_35
  let main_v92 : IVec S4096x10 1 := cmpi .sge main_arg2 main_v91
  let main_c_36 : IVec S_ 32 := constantI S_ 32 99999#32
  let main_v93 : IVec S4096x10 32 := broadcastInDim S4096x10 ![] bcast_S_S4096x10 main_c_36
  let main_v94 : IVec S4096x10 1 := cmpi .sle main_arg2 main_v93
  let main_v95 : IVec S4096x10 1 := andi main_v92 main_v94
  let main_c_37 : IVec S_ 1 := constantI S_ 1 1#1
  let main_v96 : IVec S_ 1 := (fun x v => Host.reduce IntOp.andi x v reducesTo_S4096x10_S_d0_1 h_S_) main_v95 main_c_37
  let main_v97 : IVec S_ 1 := andi main_v90 main_v96
  let main_c_38 : IVec S_ 32 := constantI S_ 32 0#32
  let main_v98 : IVec S40960x10 32 := broadcastInDim S40960x10 ![] bcast_S_S40960x10 main_c_38
  let main_v99 : IVec S40960x10 1 := cmpi .sge main_arg4 main_v98
  let main_c_39 : IVec S_ 32 := constantI S_ 32 99999#32
  let main_v100 : IVec S40960x10 32 := broadcastInDim S40960x10 ![] bcast_S_S40960x10 main_c_39
  let main_v101 : IVec S40960x10 1 := cmpi .sle main_arg4 main_v100
  fn_part6 (F := F) main_arg0 main_arg1 main_arg2 main_arg3 main_arg4 main_arg5 main_arg6 main_arg7 main_arg8 main_arg9 main_arg10 main_arg11 main_arg12 main_arg13 main_arg14 main_arg15 main_arg16 main_arg17 main_v97 main_v99 main_v101

def fn_part4 {F : FTy → Type} [FloatOps F] (main_arg0 : FVec F S100000x128 .f32) (main_arg1 : IVec S4096 32) (main_arg2 : IVec S4096x10 32) (main_arg3 : FVec F S4096x10 .f32) (main_arg4 : IVec S40960x10 32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_c_32 : IVec S_ 32 := constantI S_ 32 0#32
  let main_v84 : IVec S4096 32 := broadcastInDim S4096 ![] bcast_S_S4096 main_c_32
  fn_part5 (F := F) main_arg0 main_arg1 main_arg2 main_arg3 main_arg4 main_arg5 main_arg6 main_arg7 main_arg8 main_arg9 main_arg10 main_arg11 main_arg12 main_arg13 main_arg14 main_arg15 main_arg16 main_arg17 main_v83 main_v84

def fn_part3 {F : FTy → Type} [FloatOps F] (main_arg0 : FVec F S100000x128 .f32) (main_arg1 : IVec S4096 32) (main_arg2 : IVec S4096x10 32) (main_arg3 : FVec F S4096x10 .f32) (main_arg4 : IVec S40960x10 32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg16
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v63 main_v67

def fn_part2 {F : FTy → Type} [FloatOps F] (main_arg0 : FVec F S100000x128 .f32) (main_arg1 : IVec S4096 32) (main_arg2 : IVec S4096x10 32) (main_arg3 : FVec F S4096x10 .f32) (main_arg4 : IVec S40960x10 32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v48 main_v49 main_v50

def fn_part1 {F : FTy → Type} [FloatOps F] (main_arg0 : FVec F S100000x128 .f32) (main_arg1 : IVec S4096 32) (main_arg2 : IVec S4096x10 32) (main_arg3 : FVec F S4096x10 .f32) (main_arg4 : IVec S40960x10 32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S4096 32) (main_arg2 : IVec S4096x10 32) (main_arg3 : FVec F S4096x10 .f32) (main_arg4 : IVec S40960x10 32) (main_arg5 : FVec F S40960x10 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4096x10 .f32 := Host.absf main_arg3
  let main_cst_0 : FVec F S_ .f32 := constant S_ .f32 0x7F800000#32
  let main_v5 : FVec F S4096x10 .f32 := broadcastInDim S4096x10 ![] bcast_S_S4096x10 main_cst_0
  let main_v6 : IVec S4096x10 1 := cmpf .olt main_v4 main_v5
  let main_c_1 : IVec S_ 1 := constantI S_ 1 1#1
  let main_v7 : IVec S_ 1 := (fun x v => Host.reduce IntOp.andi x v reducesTo_S4096x10_S_d0_1 h_S_) main_v6 main_c_1
  let main_v8 : IVec S_ 1 := andi main_v3 main_v7
  let main_v9 : FVec F S40960x10 .f32 := Host.absf main_arg5
  let main_cst_2 : FVec F S_ .f32 := constant S_ .f32 0x7F800000#32
  let main_v10 : FVec F S40960x10 .f32 := broadcastInDim S40960x10 ![] bcast_S_S40960x10 main_cst_2
  let main_v11 : IVec S40960x10 1 := cmpf .olt main_v9 main_v10
  let main_c_3 : IVec S_ 1 := constantI S_ 1 1#1
  let main_v12 : IVec S_ 1 := (fun x v => Host.reduce IntOp.andi x v reducesTo_S40960x10_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S4096 : Shape := ⟨1, ![4096]⟩
abbrev S4096x10 : Shape := ⟨2, ![4096, 10]⟩
abbrev S40960x10 : Shape := ⟨2, ![40960, 10]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S2000x128 : Shape := ⟨2, ![2000, 128]⟩
abbrev S40960 : Shape := ⟨1, ![40960]⟩
abbrev S409600 : Shape := ⟨1, ![409600]⟩
abbrev S4096x128 : Shape := ⟨2, ![4096, 128]⟩
abbrev S40960x128 : Shape := ⟨2, ![40960, 128]⟩
abbrev S32x16 : Shape := ⟨2, ![32, 16]⟩
abbrev S32 : Shape := ⟨1, ![32]⟩
abbrev S320 : Shape := ⟨1, ![320]⟩
abbrev S336 : Shape := ⟨1, ![336]⟩
abbrev S32x128 : Shape := ⟨2, ![32, 128]⟩
abbrev S320x128 : Shape := ⟨2, ![320, 128]⟩
abbrev S2x16 : Shape := ⟨2, ![2, 16]⟩
abbrev S_ : Shape := ⟨0, ![]⟩
abbrev S16 : Shape := ⟨1, ![16]⟩
abbrev S1x16 : Shape := ⟨2, ![1, 16]⟩
abbrev S1 : Shape := ⟨1, ![1]⟩
abbrev S4096x10x128 : Shape := ⟨3, ![4096, 10, 128]⟩
abbrev S512x128 : Shape := ⟨2, ![512, 128]⟩
abbrev S512x10x128 : Shape := ⟨3, ![512, 10, 128]⟩
abbrev S512x10 : Shape := ⟨2, ![512, 10]⟩
abbrev S1x32x16 : Shape := ⟨3, ![1, 32, 16]⟩
abbrev S1x1x1 : Shape := ⟨3, ![1, 1, 1]⟩
abbrev S512x1x128 : Shape := ⟨3, ![512, 1, 128]⟩
abbrev S512x1 : Shape := ⟨2, ![512, 1]⟩
abbrev S2048x128 : Shape := ⟨2, ![2048, 128]⟩
abbrev S1x1x128 : Shape := ⟨3, ![1, 1, 128]⟩

abbrev nBuf : Table → Nat
  | .hbm => 44
  | .local .tc .vmem => 37
  | .local .scVector .vmem => 14
  | _ => 0

abbrev bufTy : (tb : Table) → Fin (nBuf tb) → BufTy
  | .hbm, ⟨0, _⟩ => ⟨S100000x128, .f32⟩
  | .hbm, ⟨1, _⟩ => ⟨S4096, .i32⟩
  | .hbm, ⟨2, _⟩ => ⟨S4096x10, .i32⟩
  | .hbm, ⟨3, _⟩ => ⟨S4096x10, .f32⟩
  | .hbm, ⟨4, _⟩ => ⟨S40960x10, .i32⟩
  | .hbm, ⟨5, _⟩ => ⟨S40960x10, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S1x128, .f32⟩
  | .hbm, ⟨22, _⟩ => ⟨S128x128, .f32⟩
  | .hbm, ⟨23, _⟩ => ⟨S128x128, .f32⟩
  | .hbm, ⟨24, _⟩ => ⟨S100000x128, .f32⟩
  | .hbm, ⟨25, _⟩ => ⟨S100000x128, .f32⟩
  | .hbm, ⟨26, _⟩ => ⟨S40960, .i32⟩
  | .hbm, ⟨27, _⟩ => ⟨S409600, .i32⟩
  | .hbm, ⟨28, _⟩ => ⟨S40960, .f32⟩
  | .hbm, ⟨29, _⟩ => ⟨S409600, .f32⟩
  | .hbm, ⟨30, _⟩ => ⟨S4096x128, .f32⟩
  | .hbm, ⟨31, _⟩ => ⟨S40960x128, .f32⟩
  | .hbm, ⟨32, _⟩ => ⟨S32x16, .f32⟩
  | .hbm, ⟨33, _⟩ => ⟨S32x16, .f32⟩
  | .hbm, ⟨34, _⟩ => ⟨S4096x10x128, .f32⟩
  | .hbm, ⟨35, _⟩ => ⟨S1x128, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S4096x128, .f32⟩
  | .hbm, ⟨41, _⟩ => ⟨S1x128, .f32⟩
  | .hbm, ⟨42, _⟩ => ⟨S1x128, .f32⟩
  | .hbm, ⟨43, _⟩ => ⟨S4096x128, .f32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S1x128, .f32⟩
  | .local .tc .vmem, ⟨4, _⟩ => ⟨S128x128, .f32⟩
  | .local .tc .vmem, ⟨5, _⟩ => ⟨S1x128, .f32⟩
  | .local .tc .vmem, ⟨6, _⟩ => ⟨S128x128, .f32⟩
  | .local .tc .vmem, ⟨7, _⟩ => ⟨S128x128, .f32⟩
  | .local .tc .vmem, ⟨8, _⟩ => ⟨S2000x128, .f32⟩
  | .local .tc .vmem, ⟨9, _⟩ => ⟨S2000x128, .f32⟩
  | .local .tc .vmem, ⟨10, _⟩ => ⟨S2000x128, .f32⟩
  | .local .tc .vmem, ⟨11, _⟩ => ⟨S2000x128, .f32⟩
  | .local .tc .vmem, ⟨12, _⟩ => ⟨S512x128, .f32⟩
  | .local .tc .vmem, ⟨13, _⟩ => ⟨S512x128, .f32⟩
  | .local .tc .vmem, ⟨14, _⟩ => ⟨S512x10x128, .f32⟩
  | .local .tc .vmem, ⟨15, _⟩ => ⟨S512x10x128, .f32⟩
  | .local .tc .vmem, ⟨16, _⟩ => ⟨S512x10, .f32⟩
  | .local .tc .vmem, ⟨17, _⟩ => ⟨S512x10, .f32⟩
  | .local .tc .vmem, ⟨18, _⟩ => ⟨S128x128, .f32⟩
  | .local .tc .vmem, ⟨19, _⟩ => ⟨S1x128, .f32⟩
  | .local .tc .vmem, ⟨20, _⟩ => ⟨S128x128, .f32⟩
  | .local .tc .vmem, ⟨21, _⟩ => ⟨S1x128, .f32⟩
  | .local .tc .vmem, ⟨22, _⟩ => ⟨S128x128, .f32⟩
  | .local .tc .vmem, ⟨23, _⟩ => ⟨S128x128, .f32⟩
  | .local .tc .vmem, ⟨24, _⟩ => ⟨S1x128, .f32⟩
  | .local .tc .vmem, ⟨25, _⟩ => ⟨S32x16, .f32⟩
  | .local .tc .vmem, ⟨26, _⟩ => ⟨S32x16, .f32⟩
  | .local .tc .vmem, ⟨27, _⟩ => ⟨S512x128, .f32⟩
  | .local .tc .vmem, ⟨28, _⟩ => ⟨S512x128, .f32⟩
  | .local .tc .vmem, ⟨29, _⟩ => ⟨S1x128, .f32⟩
  | .local .tc .vmem, ⟨30, _⟩ => ⟨S2048x128, .f32⟩
  | .local .tc .vmem, ⟨31, _⟩ => ⟨S2048x128, .f32⟩
  | .local .tc .vmem, ⟨32, _⟩ => ⟨S128x128, .f32⟩
  | .local .tc .vmem, ⟨33, _⟩ => ⟨S1x128, .f32⟩
  | .local .tc .vmem, ⟨34, _⟩ => ⟨S1x128, .f32⟩
  | .local .tc .vmem, ⟨35, _⟩ => ⟨S2048x128, .f32⟩
  | .local .tc .vmem, ⟨36, _⟩ => ⟨S2048x128, .f32⟩
  | .local .scVector .vmem, ⟨0, _⟩ => ⟨S32, .i32⟩
  | .local .scVector .vmem, ⟨1, _⟩ => ⟨S32, .i32⟩
  | .local .scVector .vmem, ⟨2, _⟩ => ⟨S320, .i32⟩
  | .local .scVector .vmem, ⟨3, _⟩ => ⟨S320, .i32⟩
  | .local .scVector .vmem, ⟨4, _⟩ => ⟨S336, .f32⟩
  | .local .scVector .vmem, ⟨5, _⟩ => ⟨S336, .f32⟩
  | .local .scVector .vmem, ⟨6, _⟩ => ⟨S32x128, .f32⟩
  | .local .scVector .vmem, ⟨7, _⟩ => ⟨S32x128, .f32⟩
  | .local .scVector .vmem, ⟨8, _⟩ => ⟨S320x128, .f32⟩
  | .local .scVector .vmem, ⟨9, _⟩ => ⟨S320x128, .f32⟩
  | .local .scVector .vmem, ⟨10, _⟩ => ⟨S32x128, .f32⟩
  | .local .scVector .vmem, ⟨11, _⟩ => ⟨S32x128, .f32⟩
  | .local .scVector .vmem, ⟨12, _⟩ => ⟨S128, .f32⟩
  | .local .scVector .vmem, ⟨13, _⟩ => ⟨S2x16, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTables nBuf rfl bufTy 4 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4_0 : Ref sig .tc := ⟨.hbm, 24, rfl⟩
abbrev main_v4_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev main_v9_2 : Ref sig .tc := ⟨.hbm, 32, rfl⟩
abbrev main_v9_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v17 : Ref sig .tc := ⟨.hbm, 42, rfl⟩
abbrev main_v18 : Ref sig .tc := ⟨.hbm, 43, rfl⟩
abbrev main_v4_0_scv : Ref sig .scVector := ⟨.hbm, 24, rfl⟩
abbrev main_v4_1_scv : Ref sig .scVector := ⟨.hbm, 25, rfl⟩
abbrev main_arg1_scv : Ref sig .scVector := ⟨.hbm, 1, rfl⟩
abbrev main_v5_scv : Ref sig .scVector := ⟨.hbm, 26, rfl⟩
abbrev main_v6_scv : Ref sig .scVector := ⟨.hbm, 27, rfl⟩
abbrev main_v7_scv : Ref sig .scVector := ⟨.hbm, 28, rfl⟩
abbrev main_v8_scv : Ref sig .scVector := ⟨.hbm, 29, rfl⟩
abbrev main_arg11_scv : Ref sig .scVector := ⟨.hbm, 11, rfl⟩
abbrev main_v9_0_scv : Ref sig .scVector := ⟨.hbm, 30, rfl⟩
abbrev main_v9_1_scv : Ref sig .scVector := ⟨.hbm, 31, rfl⟩
abbrev main_v9_2_scv : Ref sig .scVector := ⟨.hbm, 32, rfl⟩
abbrev main_v9_3_scv : Ref sig .scVector := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg12_1 : Ref sig .tc := ⟨.vmem, 28, rfl⟩
abbrev cc2_stg13_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc2_sem0_0 : DmaSem sig := 39
abbrev cc2_sem0_1 : DmaSem sig := 40
abbrev cc2_sem1_0 : DmaSem sig := 41
abbrev cc2_sem1_1 : DmaSem sig := 42
abbrev cc2_sem2_0 : DmaSem sig := 43
abbrev cc2_sem2_1 : DmaSem sig := 44
abbrev cc2_sem3_0 : DmaSem sig := 45
abbrev cc2_sem4_0 : DmaSem sig := 46
abbrev cc2_sem5_0 : DmaSem sig := 47
abbrev cc2_sem6_0 : DmaSem sig := 48
abbrev cc2_sem7_0 : DmaSem sig := 49
abbrev cc2_sem8_0 : DmaSem sig := 50
abbrev cc2_sem9_0 : DmaSem sig := 51
abbrev cc2_sem10_0 : DmaSem sig := 52
abbrev cc2_sem11_0 : DmaSem sig := 53
abbrev cc2_sem12_0 : DmaSem sig := 54
abbrev cc2_sem12_1 : DmaSem sig := 55
abbrev cc2_sem13_0 : DmaSem sig := 56
abbrev cc3_sem0_0 : DmaSem sig := 57
abbrev cc3_sem0_1 : DmaSem sig := 58
abbrev cc3_sem1_0 : DmaSem sig := 59
abbrev cc3_sem2_0 : DmaSem sig := 60
abbrev cc3_sem3_0 : DmaSem sig := 61
abbrev cc3_sem4_0 : DmaSem sig := 62
abbrev cc3_sem4_1 : DmaSem sig := 63
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c4096_i32 : BitVec 32 := 4096#32
  let v13 : BitVec 1 := Scalar.cmpi .slt v2 c4096_i32
  let v14 : BitVec 32 := Scalar.extui v13
  let c0_i32_2 : BitVec 32 := 0#32
  let v15 : BitVec 1 := Scalar.cmpi .ne v14 c0_i32_2
  v15

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c10_i32 : BitVec 32 := 10#32
  let v26 : BitVec 32 := Scalar.muli v2 c10_i32
  ![v26.toNat]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c4096_i32_3 : BitVec 32 := 4096#32
  let v16 : BitVec 1 := Scalar.cmpi .sge v2 c4096_i32_3
  let v17 : BitVec 32 := Scalar.extui v16
  let c0_i32_4 : BitVec 32 := 0#32
  let v18 : BitVec 1 := Scalar.cmpi .ne v17 c0_i32_4
  v18

def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c4096_i32_23 : BitVec 32 := 4096#32
  let v26 : BitVec 32 := Scalar.subi v2 c4096_i32_23
  ![v26.toNat]
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c4096_i32_23 : BitVec 32 := 4096#32
  let v26 : BitVec 32 := Scalar.subi v2 c4096_i32_23
  let c10_i32 : BitVec 32 := 10#32
  let v27 : BitVec 32 := Scalar.muli v26 c10_i32
  ![v27.toNat]
@[reducible] def k1_t1_loop : Scf.Loop 32 :=
  let c0_i32_10 : BitVec 32 := 0#32
  let c22_i32 : BitVec 32 := 22#32
  let v21 : BitVec 32 := Scalar.addi c0_i32_10 c22_i32
  let c1_i32_11 : BitVec 32 := 1#32
  ⟨c0_i32_10, v21, c1_i32_11⟩
def k1_cond3 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c4096_i32_25 : BitVec 32 := 4096#32
  let v30 : BitVec 1 := Scalar.cmpi .slt v29 c4096_i32_25
  let v31 : BitVec 32 := Scalar.extui v30
  let c0_i32_26 : BitVec 32 := 0#32
  let v32 : BitVec 1 := Scalar.cmpi .ne v31 c0_i32_26
  v32

def k1_off5 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  ![v29.toNat]
def k1_off6 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c10_i32 : BitVec 32 := 10#32
  let v72 : BitVec 32 := Scalar.muli v29 c10_i32
  ![v72.toNat]
def k1_cond4 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c4096_i32_27 : BitVec 32 := 4096#32
  let v33 : BitVec 1 := Scalar.cmpi .sge v29 c4096_i32_27
  let v34 : BitVec 32 := Scalar.extui v33
  let c0_i32_28 : BitVec 32 := 0#32
  let v35 : BitVec 1 := Scalar.cmpi .ne v34 c0_i32_28
  v35

def k1_off7 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c4096_i32_67 : BitVec 32 := 4096#32
  let v72 : BitVec 32 := Scalar.subi v29 c4096_i32_67
  ![v72.toNat]
def k1_off8 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c4096_i32_67 : BitVec 32 := 4096#32
  let v72 : BitVec 32 := Scalar.subi v29 c4096_i32_67
  let c10_i32 : BitVec 32 := 10#32
  let v73 : BitVec 32 := Scalar.muli v72 c10_i32
  ![v73.toNat]
@[reducible] def k1_t2_loop : Scf.Loop 32 :=
  let c0_i32_40 : BitVec 32 := 0#32
  let c32_i32_41 : BitVec 32 := 32#32
  let v45 : BitVec 32 := Scalar.addi c0_i32_40 c32_i32_41
  let c1_i32_42 : BitVec 32 := 1#32
  ⟨c0_i32_40, v45, c1_i32_42⟩
def k1_off9 (k1_t2 : Fin k1_t2_loop.trips) : Fin 1 → Nat :=
  let c0_i32_40 : BitVec 32 := 0#32
  let c1_i32_42 : BitVec 32 := 1#32
  let arg35 : BitVec 32 := Scf.iv c0_i32_40 c1_i32_42 k1_t2
  let c10_i32 : BitVec 32 := 10#32
  let v72 : BitVec 32 := Scalar.muli arg35 c10_i32
  let v73 : Index := Scalar.indexCast v72
  ![v73.toNat]
def k1_off10 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v96 : Index := Scalar.indexCast arg35
  let c0_67 : Index := 0#32
  ![v96.toNat, 0]
def k1_off11 (k1_t2 : Fin k1_t2_loop.trips) (c0_i32_70 : BitVec 32) : Fin 2 → Nat :=
  let c0_i32_40 : BitVec 32 := 0#32
  let c1_i32_42 : BitVec 32 := 1#32
  let arg35 : BitVec 32 := Scf.iv c0_i32_40 c1_i32_42 k1_t2
  let c10_i32_69 : BitVec 32 := 10#32
  let v102 : BitVec 32 := Scalar.muli arg35 c10_i32_69
  let v103 : BitVec 32 := Scalar.addi v102 c0_i32_70
  let v104 : Index := Scalar.indexCast v103
  let c0_71 : Index := 0#32
  ![v104.toNat, 0]
def k1_off12 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v190 : Index := Scalar.indexCast arg35
  let c16 : Index := 16#32
  ![v190.toNat, 16]
def k1_off13 (k1_t2 : Fin k1_t2_loop.trips) (c0_i32_96 : BitVec 32) : Fin 2 → Nat :=
  let c0_i32_40 : BitVec 32 := 0#32
  let c1_i32_42 : BitVec 32 := 1#32
  let arg35 : BitVec 32 := Scf.iv c0_i32_40 c1_i32_42 k1_t2
  let c10_i32_95 : BitVec 32 := 10#32
  let v196 : BitVec 32 := Scalar.muli arg35 c10_i32_95
  let v197 : BitVec 32 := Scalar.addi v196 c0_i32_96
  let v198 : Index := Scalar.indexCast v197
  let c16_97 : Index := 16#32
  ![v198.toNat, 16]
def k1_off14 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v284 : Index := Scalar.indexCast arg35
  let c32 : Index := 32#32
  ![v284.toNat, 32]
def k1_off15 (k1_t2 : Fin k1_t2_loop.trips) (c0_i32_129 : BitVec 32) : Fin 2 → Nat :=
  let c0_i32_40 : BitVec 32 := 0#32
  let c1_i32_42 : BitVec 32 := 1#32
  let arg35 : BitVec 32 := Scf.iv c0_i32_40 c1_i32_42 k1_t2
  let c10_i32_128 : BitVec 32 := 10#32
  let v290 : BitVec 32 := Scalar.muli arg35 c10_i32_128
  let v291 : BitVec 32 := Scalar.addi v290 c0_i32_129
  let v292 : Index := Scalar.indexCast v291
  let c32_130 : Index := 32#32
  ![v292.toNat, 32]
def k1_off16 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v378 : Index := Scalar.indexCast arg35
  let c48 : Index := 48#32
  ![v378.toNat, 48]
def k1_off17 (k1_t2 : Fin k1_t2_loop.trips) (c0_i32_162 : BitVec 32) : Fin 2 → Nat :=
  let c0_i32_40 : BitVec 32 := 0#32
  let c1_i32_42 : BitVec 32 := 1#32
  let arg35 : BitVec 32 := Scf.iv c0_i32_40 c1_i32_42 k1_t2
  let c10_i32_161 : BitVec 32 := 10#32
  let v384 : BitVec 32 := Scalar.muli arg35 c10_i32_161
  let v385 : BitVec 32 := Scalar.addi v384 c0_i32_162
  let v386 : Index := Scalar.indexCast v385
  let c48_163 : Index := 48#32
  ![v386.toNat, 48]
def k1_off18 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v472 : Index := Scalar.indexCast arg35
  let c64 : Index := 64#32
  ![v472.toNat, 64]
def k1_off19 (k1_t2 : Fin k1_t2_loop.trips) (c0_i32_195 : BitVec 32) : Fin 2 → Nat :=
  let c0_i32_40 : BitVec 32 := 0#32
  let c1_i32_42 : BitVec 32 := 1#32
  let arg35 : BitVec 32 := Scf.iv c0_i32_40 c1_i32_42 k1_t2
  let c10_i32_194 : BitVec 32 := 10#32
  let v478 : BitVec 32 := Scalar.muli arg35 c10_i32_194
  let v479 : BitVec 32 := Scalar.addi v478 c0_i32_195
  let v480 : Index := Scalar.indexCast v479
  let c64_196 : Index := 64#32
  ![v480.toNat, 64]
def k1_off20 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v566 : Index := Scalar.indexCast arg35
  let c80 : Index := 80#32
  ![v566.toNat, 80]
def k1_off21 (k1_t2 : Fin k1_t2_loop.trips) (c0_i32_228 : BitVec 32) : Fin 2 → Nat :=
  let c0_i32_40 : BitVec 32 := 0#32
  let c1_i32_42 : BitVec 32 := 1#32
  let arg35 : BitVec 32 := Scf.iv c0_i32_40 c1_i32_42 k1_t2
  let c10_i32_227 : BitVec 32 := 10#32
  let v572 : BitVec 32 := Scalar.muli arg35 c10_i32_227
  let v573 : BitVec 32 := Scalar.addi v572 c0_i32_228
  let v574 : Index := Scalar.indexCast v573
  let c80_229 : Index := 80#32
  ![v574.toNat, 80]
def k1_off22 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v660 : Index := Scalar.indexCast arg35
  let c96 : Index := 96#32
  ![v660.toNat, 96]
def k1_off23 (k1_t2 : Fin k1_t2_loop.trips) (c0_i32_261 : BitVec 32) : Fin 2 → Nat :=
  let c0_i32_40 : BitVec 32 := 0#32
  let c1_i32_42 : BitVec 32 := 1#32
  let arg35 : BitVec 32 := Scf.iv c0_i32_40 c1_i32_42 k1_t2
  let c10_i32_260 : BitVec 32 := 10#32
  let v666 : BitVec 32 := Scalar.muli arg35 c10_i32_260
  let v667 : BitVec 32 := Scalar.addi v666 c0_i32_261
  let v668 : Index := Scalar.indexCast v667
  let c96_262 : Index := 96#32
  ![v668.toNat, 96]
def k1_off24 (k1_t2 : Fin k1_t2_loop.trips) : Fin 2 → Nat :=
  let c0_i32_40 : BitVec 32 := 0#32
  let c1_i32_42 : BitVec 32 := 1#32
  let arg35 : BitVec 32 := Scf.iv c0_i32_40 c1_i32_42 k1_t2
  let v754 : Index := Scalar.indexCast arg35
  let c112 : Index := 112#32
  ![v754.toNat, 112]
def k1_off25 (k1_t2 : Fin k1_t2_loop.trips) (c0_i32_294 : BitVec 32) : Fin 2 → Nat :=
  let c0_i32_40 : BitVec 32 := 0#32
  let c1_i32_42 : BitVec 32 := 1#32
  let arg35 : BitVec 32 := Scf.iv c0_i32_40 c1_i32_42 k1_t2
  let c10_i32_293 : BitVec 32 := 10#32
  let v760 : BitVec 32 := Scalar.muli arg35 c10_i32_293
  let v761 : BitVec 32 := Scalar.addi v760 c0_i32_294
  let v762 : Index := Scalar.indexCast v761
  let c112_295 : Index := 112#32
  ![v762.toNat, 112]
def k1_cond6 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c4096_i32_44 : BitVec 32 := 4096#32
  let v47 : BitVec 1 := Scalar.cmpi .slt v28 c4096_i32_44
  let v48 : BitVec 32 := Scalar.extui v47
  let c0_i32_45 : BitVec 32 := 0#32
  let v49 : BitVec 1 := Scalar.cmpi .ne v48 c0_i32_45
  v49

def k1_off26 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c0_i32_71 : BitVec 32 := 0#32
  ![v28.toNat, 0]
def k1_cond7 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c4096_i32_46 : BitVec 32 := 4096#32
  let v50 : BitVec 1 := Scalar.cmpi .sge v28 c4096_i32_46
  let v51 : BitVec 32 := Scalar.extui v50
  let c0_i32_47 : BitVec 32 := 0#32
  let v52 : BitVec 1 := Scalar.cmpi .ne v51 c0_i32_47
  v52

def k1_off27 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c4096_i32_71 : BitVec 32 := 4096#32
  let v80 : BitVec 32 := Scalar.subi v28 c4096_i32_71
  let c0_i32_72 : BitVec 32 := 0#32
  ![v80.toNat, 0]
def k1_cond8 (k1_t1 : Fin k1_t1_loop.trips) : BitVec 1 :=
  let c0_i32_10 : BitVec 32 := 0#32
  let c1_i32_11 : BitVec 32 := 1#32
  let arg34 : BitVec 32 := Scf.iv c0_i32_10 c1_i32_11 k1_t1
  let c1_i32_48 : BitVec 32 := 1#32
  let v53 : BitVec 32 := Scalar.addi arg34 c1_i32_48
  let c22_i32_49 : BitVec 32 := 22#32
  let v54 : BitVec 1 := Scalar.cmpi .slt v53 c22_i32_49
  let v55 : BitVec 32 := Scalar.extui v54
  let c0_i32_50 : BitVec 32 := 0#32
  let v56 : BitVec 1 := Scalar.cmpi .ne v55 c0_i32_50
  v56

def k1_cond9 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c32_i32_67 : BitVec 32 := 32#32
  let v72 : BitVec 32 := Scalar.addi v29 c32_i32_67
  let c4096_i32_68 : BitVec 32 := 4096#32
  let v73 : BitVec 1 := Scalar.cmpi .slt v72 c4096_i32_68
  let v74 : BitVec 32 := Scalar.extui v73
  let c0_i32_69 : BitVec 32 := 0#32
  let v75 : BitVec 1 := Scalar.cmpi .ne v74 c0_i32_69
  v75

def k1_off28 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c32_i32_67 : BitVec 32 := 32#32
  let v72 : BitVec 32 := Scalar.addi v29 c32_i32_67
  ![v72.toNat]
def k1_off29 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c32_i32_67 : BitVec 32 := 32#32
  let v72 : BitVec 32 := Scalar.addi v29 c32_i32_67
  let c10_i32 : BitVec 32 := 10#32
  let v81 : BitVec 32 := Scalar.muli v72 c10_i32
  ![v81.toNat]
def k1_cond10 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c32_i32_67 : BitVec 32 := 32#32
  let v72 : BitVec 32 := Scalar.addi v29 c32_i32_67
  let c4096_i32_70 : BitVec 32 := 4096#32
  let v76 : BitVec 1 := Scalar.cmpi .sge v72 c4096_i32_70
  let v77 : BitVec 32 := Scalar.extui v76
  let c0_i32_71 : BitVec 32 := 0#32
  let v78 : BitVec 1 := Scalar.cmpi .ne v77 c0_i32_71
  v78

def k1_off30 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c32_i32_67 : BitVec 32 := 32#32
  let v72 : BitVec 32 := Scalar.addi v29 c32_i32_67
  let c4096_i32_76 : BitVec 32 := 4096#32
  let v81 : BitVec 32 := Scalar.subi v72 c4096_i32_76
  ![v81.toNat]
def k1_off31 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c32_i32_67 : BitVec 32 := 32#32
  let v72 : BitVec 32 := Scalar.addi v29 c32_i32_67
  let c4096_i32_76 : BitVec 32 := 4096#32
  let v81 : BitVec 32 := Scalar.subi v72 c4096_i32_76
  let c10_i32 : BitVec 32 := 10#32
  let v82 : BitVec 32 := Scalar.muli v81 c10_i32
  ![v82.toNat]
@[reducible] def k1_t3_loop : Scf.Loop 32 :=
  let c0_i32_59 : BitVec 32 := 0#32
  let c32_i32_60 : BitVec 32 := 32#32
  let v64 : BitVec 32 := Scalar.addi c0_i32_59 c32_i32_60
  let c1_i32_61 : BitVec 32 := 1#32
  ⟨c0_i32_59, v64, c1_i32_61⟩
def k1_off32 (k1_t3 : Fin k1_t3_loop.trips) : Fin 1 → Nat :=
  let c0_i32_59 : BitVec 32 := 0#32
  let c1_i32_61 : BitVec 32 := 1#32
  let arg35 : BitVec 32 := Scf.iv c0_i32_59 c1_i32_61 k1_t3
  let c10_i32 : BitVec 32 := 10#32
  let v72 : BitVec 32 := Scalar.muli arg35 c10_i32
  let v73 : Index := Scalar.indexCast v72
  ![v73.toNat]
def k1_off33 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v96 : Index := Scalar.indexCast arg35
  let c0_67 : Index := 0#32
  ![v96.toNat, 0]
def k1_off34 (k1_t3 : Fin k1_t3_loop.trips) (c0_i32_70 : BitVec 32) : Fin 2 → Nat :=
  let c0_i32_59 : BitVec 32 := 0#32
  let c1_i32_61 : BitVec 32 := 1#32
  let arg35 : BitVec 32 := Scf.iv c0_i32_59 c1_i32_61 k1_t3
  let c10_i32_69 : BitVec 32 := 10#32
  let v102 : BitVec 32 := Scalar.muli arg35 c10_i32_69
  let v103 : BitVec 32 := Scalar.addi v102 c0_i32_70
  let v104 : Index := Scalar.indexCast v103
  let c0_71 : Index := 0#32
  ![v104.toNat, 0]
def k1_off35 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v190 : Index := Scalar.indexCast arg35
  let c16 : Index := 16#32
  ![v190.toNat, 16]
def k1_off36 (k1_t3 : Fin k1_t3_loop.trips) (c0_i32_96 : BitVec 32) : Fin 2 → Nat :=
  let c0_i32_59 : BitVec 32 := 0#32
  let c1_i32_61 : BitVec 32 := 1#32
  let arg35 : BitVec 32 := Scf.iv c0_i32_59 c1_i32_61 k1_t3
  let c10_i32_95 : BitVec 32 := 10#32
  let v196 : BitVec 32 := Scalar.muli arg35 c10_i32_95
  let v197 : BitVec 32 := Scalar.addi v196 c0_i32_96
  let v198 : Index := Scalar.indexCast v197
  let c16_97 : Index := 16#32
  ![v198.toNat, 16]
def k1_off37 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v284 : Index := Scalar.indexCast arg35
  let c32 : Index := 32#32
  ![v284.toNat, 32]
def k1_off38 (k1_t3 : Fin k1_t3_loop.trips) (c0_i32_129 : BitVec 32) : Fin 2 → Nat :=
  let c0_i32_59 : BitVec 32 := 0#32
  let c1_i32_61 : BitVec 32 := 1#32
  let arg35 : BitVec 32 := Scf.iv c0_i32_59 c1_i32_61 k1_t3
  let c10_i32_128 : BitVec 32 := 10#32
  let v290 : BitVec 32 := Scalar.muli arg35 c10_i32_128
  let v291 : BitVec 32 := Scalar.addi v290 c0_i32_129
  let v292 : Index := Scalar.indexCast v291
  let c32_130 : Index := 32#32
  ![v292.toNat, 32]
def k1_off39 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v378 : Index := Scalar.indexCast arg35
  let c48 : Index := 48#32
  ![v378.toNat, 48]
def k1_off40 (k1_t3 : Fin k1_t3_loop.trips) (c0_i32_162 : BitVec 32) : Fin 2 → Nat :=
  let c0_i32_59 : BitVec 32 := 0#32
  let c1_i32_61 : BitVec 32 := 1#32
  let arg35 : BitVec 32 := Scf.iv c0_i32_59 c1_i32_61 k1_t3
  let c10_i32_161 : BitVec 32 := 10#32
  let v384 : BitVec 32 := Scalar.muli arg35 c10_i32_161
  let v385 : BitVec 32 := Scalar.addi v384 c0_i32_162
  let v386 : Index := Scalar.indexCast v385
  let c48_163 : Index := 48#32
  ![v386.toNat, 48]
def k1_off41 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v472 : Index := Scalar.indexCast arg35
  let c64 : Index := 64#32
  ![v472.toNat, 64]
def k1_off42 (k1_t3 : Fin k1_t3_loop.trips) (c0_i32_195 : BitVec 32) : Fin 2 → Nat :=
  let c0_i32_59 : BitVec 32 := 0#32
  let c1_i32_61 : BitVec 32 := 1#32
  let arg35 : BitVec 32 := Scf.iv c0_i32_59 c1_i32_61 k1_t3
  let c10_i32_194 : BitVec 32 := 10#32
  let v478 : BitVec 32 := Scalar.muli arg35 c10_i32_194
  let v479 : BitVec 32 := Scalar.addi v478 c0_i32_195
  let v480 : Index := Scalar.indexCast v479
  let c64_196 : Index := 64#32
  ![v480.toNat, 64]
def k1_off43 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v566 : Index := Scalar.indexCast arg35
  let c80 : Index := 80#32
  ![v566.toNat, 80]
def k1_off44 (k1_t3 : Fin k1_t3_loop.trips) (c0_i32_228 : BitVec 32) : Fin 2 → Nat :=
  let c0_i32_59 : BitVec 32 := 0#32
  let c1_i32_61 : BitVec 32 := 1#32
  let arg35 : BitVec 32 := Scf.iv c0_i32_59 c1_i32_61 k1_t3
  let c10_i32_227 : BitVec 32 := 10#32
  let v572 : BitVec 32 := Scalar.muli arg35 c10_i32_227
  let v573 : BitVec 32 := Scalar.addi v572 c0_i32_228
  let v574 : Index := Scalar.indexCast v573
  let c80_229 : Index := 80#32
  ![v574.toNat, 80]
def k1_off45 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v660 : Index := Scalar.indexCast arg35
  let c96 : Index := 96#32
  ![v660.toNat, 96]
def k1_off46 (k1_t3 : Fin k1_t3_loop.trips) (c0_i32_261 : BitVec 32) : Fin 2 → Nat :=
  let c0_i32_59 : BitVec 32 := 0#32
  let c1_i32_61 : BitVec 32 := 1#32
  let arg35 : BitVec 32 := Scf.iv c0_i32_59 c1_i32_61 k1_t3
  let c10_i32_260 : BitVec 32 := 10#32
  let v666 : BitVec 32 := Scalar.muli arg35 c10_i32_260
  let v667 : BitVec 32 := Scalar.addi v666 c0_i32_261
  let v668 : Index := Scalar.indexCast v667
  let c96_262 : Index := 96#32
  ![v668.toNat, 96]
def k1_off47 (k1_t3 : Fin k1_t3_loop.trips) : Fin 2 → Nat :=
  let c0_i32_59 : BitVec 32 := 0#32
  let c1_i32_61 : BitVec 32 := 1#32
  let arg35 : BitVec 32 := Scf.iv c0_i32_59 c1_i32_61 k1_t3
  let v754 : Index := Scalar.indexCast arg35
  let c112 : Index := 112#32
  ![v754.toNat, 112]
def k1_off48 (k1_t3 : Fin k1_t3_loop.trips) (c0_i32_294 : BitVec 32) : Fin 2 → Nat :=
  let c0_i32_59 : BitVec 32 := 0#32
  let c1_i32_61 : BitVec 32 := 1#32
  let arg35 : BitVec 32 := Scf.iv c0_i32_59 c1_i32_61 k1_t3
  let c10_i32_293 : BitVec 32 := 10#32
  let v760 : BitVec 32 := Scalar.muli arg35 c10_i32_293
  let v761 : BitVec 32 := Scalar.addi v760 c0_i32_294
  let v762 : Index := Scalar.indexCast v761
  let c112_295 : Index := 112#32
  ![v762.toNat, 112]
def k1_cond12 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c4096_i32_63 : BitVec 32 := 4096#32
  let v66 : BitVec 1 := Scalar.cmpi .slt v29 c4096_i32_63
  let v67 : BitVec 32 := Scalar.extui v66
  let c0_i32_64 : BitVec 32 := 0#32
  let v68 : BitVec 1 := Scalar.cmpi .ne v67 c0_i32_64
  v68

def k1_off49 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c0_i32_71 : BitVec 32 := 0#32
  ![v29.toNat, 0]
def k1_cond13 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c4096_i32_65 : BitVec 32 := 4096#32
  let v69 : BitVec 1 := Scalar.cmpi .sge v29 c4096_i32_65
  let v70 : BitVec 32 := Scalar.extui v69
  let c0_i32_66 : BitVec 32 := 0#32
  let v71 : BitVec 1 := Scalar.cmpi .ne v70 c0_i32_66
  v71

def k1_off50 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1408_i32 : BitVec 32 := 1408#32
  let v2 : BitVec 32 := Scalar.muli v1 c1408_i32
  let c2_i32_23 : BitVec 32 := 2#32
  let c0_i32_10 : BitVec 32 := 0#32
  let c1_i32_11 : BitVec 32 := 1#32
  let arg34 : BitVec 32 := Scf.iv c0_i32_10 c1_i32_11 k1_t1
  let v26 : BitVec 32 := Scalar.muli c2_i32_23 arg34
  let c32_i32 : BitVec 32 := 32#32
  let v27 : BitVec 32 := Scalar.muli v26 c32_i32
  let v28 : BitVec 32 := Scalar.addi v2 v27
  let c32_i32_24 : BitVec 32 := 32#32
  let v29 : BitVec 32 := Scalar.addi v28 c32_i32_24
  let c4096_i32_71 : BitVec 32 := 4096#32
  let v80 : BitVec 32 := Scalar.subi v29 c4096_i32_71
  let c0_i32_72 : BitVec 32 := 0#32
  ![v80.toNat, 0]
def k1_off51 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r19 : BitVec 32 := 0#32
  ![v1.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x10x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S32x16 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S32x16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S512x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  shapeCasts_S4096x10_S40960 : S4096x10.ShapeCasts S40960
  shapeCasts_S40960x10_S409600 : S40960x10.ShapeCasts S409600
  inb_S2x16_S1x16_0_0 : ∀ a, (![0, 0] : Fin 2 → Nat) a + S1x16.size a ≤ S2x16.size a
  h_S1x16 : 0 < S1x16.numel
  shapeCasts_S1x16_S16 : S1x16.ShapeCasts S16
  shapeCasts_S16_S1x16 : S16.ShapeCasts S1x16
  inb_S2x16_S1x16_1_0 : ∀ a, (![1, 0] : Fin 2 → Nat) a + S1x16.size a ≤ S2x16.size a
  inb_S336_S320_0 : ∀ a, (![0] : Fin 1 → Nat) a + S320.size a ≤ S336.size a
  inb_S100000x128_S100000x128_0_0 : ∀ a, (![0, 0] : Fin 2 → Nat) a + S100000x128.size a ≤ S100000x128.size a
  gathers_S100000x128_S32x128 : S100000x128.Gathers 0 S32x128
  gathers_S100000x128_S320x128 : S100000x128.Gathers 0 S320x128
  inb_S4096x128_S32x128_0_0 : ∀ a, (![0, 0] : Fin 2 → Nat) a + S32x128.size a ≤ S4096x128.size a
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  inb_S128_S16_0 : ∀ a, (![0] : Fin 1 → Nat) a + S16.size a ≤ S128.size a
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  squeezes_S1x16_S16 : S1x16.Squeezes S16
  shapeCasts_S40960x128_S4096x10x128 : S40960x128.ShapeCasts S4096x10x128
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S32x16_S1x32x16 : S32x16.ShapeCasts S1x32x16
  reduces_S1x32x16_S1 : S1x32x16.Reduces [1, 2] S1
  shapeCasts_S1_S1x1x1 : S1.ShapeCasts S1x1x1
  inpos_S1x1x1_p0_0_0 : ∀ a, (![0, 0, 0] : Fin 3 → Nat) a < S1x1x1.size a
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S512x10_S512x10_0_0 : ∀ a, (![0, 0] : Fin 2 → Nat) a + S512x10.size a ≤ S512x10.size a
  h_S512x10 : 0 < S512x10.numel
  inb_S512x10x128_S512x1x128_0_0_0 : ∀ a, (![0, 0, 0] : Fin 3 → Nat) a + S512x1x128.size a ≤ S512x10x128.size a
  h_S512x1x128 : 0 < S512x1x128.numel
  shapeCasts_S512x1x128_S512x128 : S512x1x128.ShapeCasts S512x128
  slices_S512x10_o0_0_S512x1 : S512x10.Slices ![0, 0] S512x1
  broadcasts_S512x1_S512x128 : S512x1.Broadcasts S512x128
  inb_S512x10x128_S512x1x128_0_1_0 : ∀ a, (![0, 1, 0] : Fin 3 → Nat) a + S512x1x128.size a ≤ S512x10x128.size a
  slices_S512x10_o0_1_S512x1 : S512x10.Slices ![0, 1] S512x1
  inb_S512x10x128_S512x1x128_0_2_0 : ∀ a, (![0, 2, 0] : Fin 3 → Nat) a + S512x1x128.size a ≤ S512x10x128.size a
  slices_S512x10_o0_2_S512x1 : S512x10.Slices ![0, 2] S512x1
  inb_S512x10x128_S512x1x128_0_3_0 : ∀ a, (![0, 3, 0] : Fin 3 → Nat) a + S512x1x128.size a ≤ S512x10x128.size a
  slices_S512x10_o0_3_S512x1 : S512x10.Slices ![0, 3] S512x1
  inb_S512x10x128_S512x1x128_0_4_0 : ∀ a, (![0, 4, 0] : Fin 3 → Nat) a + S512x1x128.size a ≤ S512x10x128.size a
  slices_S512x10_o0_4_S512x1 : S512x10.Slices ![0, 4] S512x1
  inb_S512x10x128_S512x1x128_0_5_0 : ∀ a, (![0, 5, 0] : Fin 3 → Nat) a + S512x1x128.size a ≤ S512x10x128.size a
  slices_S512x10_o0_5_S512x1 : S512x10.Slices ![0, 5] S512x1
  inb_S512x10x128_S512x1x128_0_6_0 : ∀ a, (![0, 6, 0] : Fin 3 → Nat) a + S512x1x128.size a ≤ S512x10x128.size a
  slices_S512x10_o0_6_S512x1 : S512x10.Slices ![0, 6] S512x1
  inb_S512x10x128_S512x1x128_0_7_0 : ∀ a, (![0, 7, 0] : Fin 3 → Nat) a + S512x1x128.size a ≤ S512x10x128.size a
  slices_S512x10_o0_7_S512x1 : S512x10.Slices ![0, 7] S512x1
  inb_S512x10x128_S512x1x128_0_8_0 : ∀ a, (![0, 8, 0] : Fin 3 → Nat) a + S512x1x128.size a ≤ S512x10x128.size a
  slices_S512x10_o0_8_S512x1 : S512x10.Slices ![0, 8] S512x1
  inb_S512x10x128_S512x1x128_0_9_0 : ∀ a, (![0, 9, 0] : Fin 3 → Nat) a + S512x1x128.size a ≤ S512x10x128.size a
  slices_S512x10_o0_9_S512x1 : S512x10.Slices ![0, 9] S512x1
  reduces_S512x128_S128 : S512x128.Reduces [0] S128
  shapeCasts_S1x128_S1x1x128 : S1x128.ShapeCasts S1x1x128
  reduces_S1x1x128_S1 : S1x1x128.Reduces [1, 2] S1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  dot_S2000x128_S128x128_S2000x128_1_0_0_1_n_n_wf : DotDims.WF S2000x128 S128x128 S2000x128 [1] [0] [0] [1] [] []
  dot_S512x128_S128x128_S512x128_1_0_0_1_n_n_wf : DotDims.WF S512x128 S128x128 S512x128 [1] [0] [0] [1] [] []
  dot_S2048x128_S128x128_S2048x128_1_0_0_1_n_n_wf : DotDims.WF S2048x128 S128x128 S2048x128 [1] [0] [0] [1] [] []
  hcc1_scratch14 : 12 + S_.numel ≤ 64
  hcc1_scratch15 : 13 + S_.numel ≤ 64
  hcc1_scratch16 : 14 + S_.numel ≤ 64
  hcc1_scratch17 : 15 + S_.numel ≤ 64
  hcc1_scratch18 : 16 + S_.numel ≤ 64
  hcc1_scratch19 : 17 + S_.numel ≤ 64
  hcc1_scoped0 : 18 + S_.numel ≤ 64
  hcc1_scoped1 : 19 + S_.numel ≤ 64
  hcc1_scoped2 : 20 + S_.numel ≤ 64
  hcc1_scoped3 : 21 + S_.numel ≤ 64
  hcc1_scoped4 : 22 + S_.numel ≤ 64
  hcc1_scoped5 : 23 + S_.numel ≤ 64
  hcc1_scoped6 : 24 + S_.numel ≤ 64
  hcc1_scoped7 : 25 + S_.numel ≤ 64
  hcc1_scoped8 : 26 + S_.numel ≤ 64
  hcc1_scoped9 : 27 + S_.numel ≤ 64
  hcc1_scoped10 : 28 + S_.numel ≤ 64
  hcc1_scoped11 : 29 + S_.numel ≤ 64
  hcc1_scoped12 : 30 + S_.numel ≤ 64
  hcc1_scoped13 : 31 + S_.numel ≤ 64
  hcc1_scoped14 : 32 + S_.numel ≤ 64
  hcc1_scoped15 : 33 + S_.numel ≤ 64
  hcc1_scoped16 : 34 + S_.numel ≤ 64
  hcc1_scoped17 : 35 + S_.numel ≤ 64
  hcc1_scoped18 : 36 + S_.numel ≤ 64
  hcc1_scoped19 : 37 + S_.numel ≤ 64
  hcc1_scoped20 : 38 + S_.numel ≤ 64
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, (k1_off1 i) a + S32.size a ≤ S4096.size a
  k1_off2_inb : ∀ i : grid1.Coords, ∀ (k1_h1 : k1_cond1 i = 1#1), ∀ a, (k1_off2 i) a + S320.size a ≤ S40960.size a
  k1_off3_inb : ∀ i : grid1.Coords, ∀ (k1_h2 : k1_cond2 i = 1#1), ∀ a, (k1_off3 i) a + S32.size a ≤ S40960.size a
  k1_off4_inb : ∀ i : grid1.Coords, ∀ (k1_h2 : k1_cond2 i = 1#1), ∀ a, (k1_off4 i) a + S320.size a ≤ S409600.size a
  k1_t1_ok : k1_t1_loop.OK
  k1_off5_inb : ∀ (i : grid1.Coords) (k1_t1 : Fin k1_t1_loop.trips), ∀ (k1_h3 : k1_cond3 i k1_t1 = 1#1), ∀ a, (k1_off5 i k1_t1) a + S32.size a ≤ S4096.size a
  k1_off6_inb : ∀ (i : grid1.Coords) (k1_t1 : Fin k1_t1_loop.trips), ∀ (k1_h3 : k1_cond3 i k1_t1 = 1#1), ∀ a, (k1_off6 i k1_t1) a + S320.size a ≤ S40960.size a
  k1_off7_inb : ∀ (i : grid1.Coords) (k1_t1 : Fin k1_t1_loop.trips), ∀ (k1_h4 : k1_cond4 i k1_t1 = 1#1), ∀ a, (k1_off7 i k1_t1) a + S32.size a ≤ S40960.size a
  k1_off8_inb : ∀ (i : grid1.Coords) (k1_t1 : Fin k1_t1_loop.trips), ∀ (k1_h4 : k1_cond4 i k1_t1 = 1#1), ∀ a, (k1_off8 i k1_t1) a + S320.size a ≤ S409600.size a
  k1_t2_ok : k1_t2_loop.OK
  k1_off9_inb : ∀ k1_t2 : Fin k1_t2_loop.trips, ∀ a, (k1_off9 k1_t2) a + S16.size a ≤ S336.size a
  k1_off10_inb : ∀ k1_t2 : Fin k1_t2_loop.trips, ∀ a, (k1_off10 k1_t2) a + S1x16.size a ≤ S32x128.size a
  k1_off11_inb : ∀ k1_t2 : Fin k1_t2_loop.trips, ∀ (r : Fin 10), ∀ a, (k1_off11 k1_t2 (BitVec.ofNat 32 r.val)) a + S1x16.size a ≤ S320x128.size a
  k1_off12_inb : ∀ k1_t2 : Fin k1_t2_loop.trips, ∀ a, (k1_off12 k1_t2) a + S1x16.size a ≤ S32x128.size a
  k1_off13_inb : ∀ k1_t2 : Fin k1_t2_loop.trips, ∀ (r : Fin 10), ∀ a, (k1_off13 k1_t2 (BitVec.ofNat 32 r.val)) a + S1x16.size a ≤ S320x128.size a
  k1_off14_inb : ∀ k1_t2 : Fin k1_t2_loop.trips, ∀ a, (k1_off14 k1_t2) a + S1x16.size a ≤ S32x128.size a
  k1_off15_inb : ∀ k1_t2 : Fin k1_t2_loop.trips, ∀ (r : Fin 10), ∀ a, (k1_off15 k1_t2 (BitVec.ofNat 32 r.val)) a + S1x16.size a ≤ S320x128.size a
  k1_off16_inb : ∀ k1_t2 : Fin k1_t2_loop.trips, ∀ a, (k1_off16 k1_t2) a + S1x16.size a ≤ S32x128.size a
  k1_off17_inb : ∀ k1_t2 : Fin k1_t2_loop.trips, ∀ (r : Fin 10), ∀ a, (k1_off17 k1_t2 (BitVec.ofNat 32 r.val)) a + S1x16.size a ≤ S320x128.size a
  k1_off18_inb : ∀ k1_t2 : Fin k1_t2_loop.trips, ∀ a, (k1_off18 k1_t2) a + S1x16.size a ≤ S32x128.size a
  k1_off19_inb : ∀ k1_t2 : Fin k1_t2_loop.trips, ∀ (r : Fin 10), ∀ a, (k1_off19 k1_t2 (BitVec.ofNat 32 r.val)) a + S1x16.size a ≤ S320x128.size a
  k1_off20_inb : ∀ k1_t2 : Fin k1_t2_loop.trips, ∀ a, (k1_off20 k1_t2) a + S1x16.size a ≤ S32x128.size a
  k1_off21_inb : ∀ k1_t2 : Fin k1_t2_loop.trips, ∀ (r : Fin 10), ∀ a, (k1_off21 k1_t2 (BitVec.ofNat 32 r.val)) a + S1x16.size a ≤ S320x128.size a
  k1_off22_inb : ∀ k1_t2 : Fin k1_t2_loop.trips, ∀ a, (k1_off22 k1_t2) a + S1x16.size a ≤ S32x128.size a
  k1_off23_inb : ∀ k1_t2 : Fin k1_t2_loop.trips, ∀ (r : Fin 10), ∀ a, (k1_off23 k1_t2 (BitVec.ofNat 32 r.val)) a + S1x16.size a ≤ S320x128.size a
  k1_off24_inb : ∀ k1_t2 : Fin k1_t2_loop.trips, ∀ a, (k1_off24 k1_t2) a + S1x16.size a ≤ S32x128.size a
  k1_off25_inb : ∀ k1_t2 : Fin k1_t2_loop.trips, ∀ (r : Fin 10), ∀ a, (k1_off25 k1_t2 (BitVec.ofNat 32 r.val)) a + S1x16.size a ≤ S320x128.size a
  k1_off26_inb : ∀ (i : grid1.Coords) (k1_t1 : Fin k1_t1_loop.trips), ∀ (k1_h6 : k1_cond6 i k1_t1 = 1#1), ∀ a, (k1_off26 i k1_t1) a + S32x128.size a ≤ S4096x128.size a
  k1_off27_inb : ∀ (i : grid1.Coords) (k1_t1 : Fin k1_t1_loop.trips), ∀ (k1_h7 : k1_cond7 i k1_t1 = 1#1), ∀ a, (k1_off27 i k1_t1) a + S32x128.size a ≤ S40960x128.size a
  k1_off28_inb : ∀ (i : grid1.Coords) (k1_t1 : Fin k1_t1_loop.trips), ∀ (k1_h8 : k1_cond8 k1_t1 = 1#1), ∀ (k1_h9 : k1_cond9 i k1_t1 = 1#1), ∀ a, (k1_off28 i k1_t1) a + S32.size a ≤ S4096.size a
  k1_off29_inb : ∀ (i : grid1.Coords) (k1_t1 : Fin k1_t1_loop.trips), ∀ (k1_h8 : k1_cond8 k1_t1 = 1#1), ∀ (k1_h9 : k1_cond9 i k1_t1 = 1#1), ∀ a, (k1_off29 i k1_t1) a + S320.size a ≤ S40960.size a
  k1_off30_inb : ∀ (i : grid1.Coords) (k1_t1 : Fin k1_t1_loop.trips), ∀ (k1_h8 : k1_cond8 k1_t1 = 1#1), ∀ (k1_h10 : k1_cond10 i k1_t1 = 1#1), ∀ a, (k1_off30 i k1_t1) a + S32.size a ≤ S40960.size a
  k1_off31_inb : ∀ (i : grid1.Coords) (k1_t1 : Fin k1_t1_loop.trips), ∀ (k1_h8 : k1_cond8 k1_t1 = 1#1), ∀ (k1_h10 : k1_cond10 i k1_t1 = 1#1), ∀ a, (k1_off31 i k1_t1) a + S320.size a ≤ S409600.size a
  k1_t3_ok : k1_t3_loop.OK
  k1_off32_inb : ∀ k1_t3 : Fin k1_t3_loop.trips, ∀ a, (k1_off32 k1_t3) a + S16.size a ≤ S336.size a
  k1_off33_inb : ∀ k1_t3 : Fin k1_t3_loop.trips, ∀ a, (k1_off33 k1_t3) a + S1x16.size a ≤ S32x128.size a
  k1_off34_inb : ∀ k1_t3 : Fin k1_t3_loop.trips, ∀ (r : Fin 10), ∀ a, (k1_off34 k1_t3 (BitVec.ofNat 32 r.val)) a + S1x16.size a ≤ S320x128.size a
  k1_off35_inb : ∀ k1_t3 : Fin k1_t3_loop.trips, ∀ a, (k1_off35 k1_t3) a + S1x16.size a ≤ S32x128.size a
  k1_off36_inb : ∀ k1_t3 : Fin k1_t3_loop.trips, ∀ (r : Fin 10), ∀ a, (k1_off36 k1_t3 (BitVec.ofNat 32 r.val)) a + S1x16.size a ≤ S320x128.size a
  k1_off37_inb : ∀ k1_t3 : Fin k1_t3_loop.trips, ∀ a, (k1_off37 k1_t3) a + S1x16.size a ≤ S32x128.size a
  k1_off38_inb : ∀ k1_t3 : Fin k1_t3_loop.trips, ∀ (r : Fin 10), ∀ a, (k1_off38 k1_t3 (BitVec.ofNat 32 r.val)) a + S1x16.size a ≤ S320x128.size a
  k1_off39_inb : ∀ k1_t3 : Fin k1_t3_loop.trips, ∀ a, (k1_off39 k1_t3) a + S1x16.size a ≤ S32x128.size a
  k1_off40_inb : ∀ k1_t3 : Fin k1_t3_loop.trips, ∀ (r : Fin 10), ∀ a, (k1_off40 k1_t3 (BitVec.ofNat 32 r.val)) a + S1x16.size a ≤ S320x128.size a
  k1_off41_inb : ∀ k1_t3 : Fin k1_t3_loop.trips, ∀ a, (k1_off41 k1_t3) a + S1x16.size a ≤ S32x128.size a
  k1_off42_inb : ∀ k1_t3 : Fin k1_t3_loop.trips, ∀ (r : Fin 10), ∀ a, (k1_off42 k1_t3 (BitVec.ofNat 32 r.val)) a + S1x16.size a ≤ S320x128.size a
  k1_off43_inb : ∀ k1_t3 : Fin k1_t3_loop.trips, ∀ a, (k1_off43 k1_t3) a + S1x16.size a ≤ S32x128.size a
  k1_off44_inb : ∀ k1_t3 : Fin k1_t3_loop.trips, ∀ (r : Fin 10), ∀ a, (k1_off44 k1_t3 (BitVec.ofNat 32 r.val)) a + S1x16.size a ≤ S320x128.size a
  k1_off45_inb : ∀ k1_t3 : Fin k1_t3_loop.trips, ∀ a, (k1_off45 k1_t3) a + S1x16.size a ≤ S32x128.size a
  k1_off46_inb : ∀ k1_t3 : Fin k1_t3_loop.trips, ∀ (r : Fin 10), ∀ a, (k1_off46 k1_t3 (BitVec.ofNat 32 r.val)) a + S1x16.size a ≤ S320x128.size a
  k1_off47_inb : ∀ k1_t3 : Fin k1_t3_loop.trips, ∀ a, (k1_off47 k1_t3) a + S1x16.size a ≤ S32x128.size a
  k1_off48_inb : ∀ k1_t3 : Fin k1_t3_loop.trips, ∀ (r : Fin 10), ∀ a, (k1_off48 k1_t3 (BitVec.ofNat 32 r.val)) a + S1x16.size a ≤ S320x128.size a
  k1_off49_inb : ∀ (i : grid1.Coords) (k1_t1 : Fin k1_t1_loop.trips), ∀ (k1_h12 : k1_cond12 i k1_t1 = 1#1), ∀ a, (k1_off49 i k1_t1) a + S32x128.size a ≤ S4096x128.size a
  k1_off50_inb : ∀ (i : grid1.Coords) (k1_t1 : Fin k1_t1_loop.trips), ∀ (k1_h13 : k1_cond13 i k1_t1 = 1#1), ∀ a, (k1_off50 i k1_t1) a + S32x128.size a ≤ S40960x128.size a
  k1_off51_inb : ∀ i : grid1.Coords, ∀ a, (k1_off51 i) a + S1x16.size a ≤ S32x16.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S4096x128.size a
  hwx2_0 : ∀ i : grid2.Coords, EltTy.bits .f32 = 32 ∨ (Rect.block (s := S4096x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x10x128.size a ≤ S4096x10x128.size a
  hwx2_1 : ∀ i : grid2.Coords, EltTy.bits .f32 = 32 ∨ (Rect.block (s := S4096x10x128) S512x10x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x10.size a ≤ S4096x10.size a
  hwx2_2 : ∀ i : grid2.Coords, EltTy.bits .f32 = 32 ∨ (Rect.block (s := S4096x10) S512x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S32x16.size a ≤ S32x16.size a
  hwx2_10 : ∀ i : grid2.Coords, EltTy.bits .f32 = 32 ∨ (Rect.block (s := S32x16) S32x16.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S32x16.size a ≤ S32x16.size a
  hwx2_11 : ∀ i : grid2.Coords, EltTy.bits .f32 = 32 ∨ (Rect.block (s := S32x16) S32x16.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S512x128.size a ≤ S4096x128.size a
  hwx2_12 : ∀ i : grid2.Coords, EltTy.bits .f32 = 32 ∨ (Rect.block (s := S4096x128) S512x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S4096x128.size a
  hwx3_0 : ∀ i : grid3.Coords, EltTy.bits .f32 = 32 ∨ (Rect.block (s := S4096x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S4096x128.size a
  hwx3_4 : ∀ i : grid3.Coords, EltTy.bits .f32 = 32 ∨ (Rect.block (s := S4096x128) S2048x128.size (cc3_transform_4 i) (hinb3_4 i)).WholeWords (EltTy.packing .f32)

variable [Facts₀]

abbrev cc1_scratch14 : DmaSems sig S_ := SemArray.consecutive 12 S_ hcc1_scratch14
abbrev cc1_scratch15 : DmaSems sig S_ := SemArray.consecutive 13 S_ hcc1_scratch15
abbrev cc1_scratch16 : DmaSems sig S_ := SemArray.consecutive 14 S_ hcc1_scratch16
abbrev cc1_scratch17 : DmaSems sig S_ := SemArray.consecutive 15 S_ hcc1_scratch17
abbrev cc1_scratch18 : DmaSems sig S_ := SemArray.consecutive 16 S_ hcc1_scratch18
abbrev cc1_scratch19 : DmaSems sig S_ := SemArray.consecutive 17 S_ hcc1_scratch19
abbrev cc1_scoped0 : DmaSems sig S_ := SemArray.consecutive 18 S_ hcc1_scoped0
abbrev cc1_scoped1 : DmaSems sig S_ := SemArray.consecutive 19 S_ hcc1_scoped1
abbrev cc1_scoped2 : DmaSems sig S_ := SemArray.consecutive 20 S_ hcc1_scoped2
abbrev cc1_scoped3 : DmaSems sig S_ := SemArray.consecutive 21 S_ hcc1_scoped3
abbrev cc1_scoped4 : DmaSems sig S_ := SemArray.consecutive 22 S_ hcc1_scoped4
abbrev cc1_scoped5 : DmaSems sig S_ := SemArray.consecutive 23 S_ hcc1_scoped5
abbrev cc1_scoped6 : DmaSems sig S_ := SemArray.consecutive 24 S_ hcc1_scoped6
abbrev cc1_scoped7 : DmaSems sig S_ := SemArray.consecutive 25 S_ hcc1_scoped7
abbrev cc1_scoped8 : DmaSems sig S_ := SemArray.consecutive 26 S_ hcc1_scoped8
abbrev cc1_scoped9 : DmaSems sig S_ := SemArray.consecutive 27 S_ hcc1_scoped9
abbrev cc1_scoped10 : DmaSems sig S_ := SemArray.consecutive 28 S_ hcc1_scoped10
abbrev cc1_scoped11 : DmaSems sig S_ := SemArray.consecutive 29 S_ hcc1_scoped11
abbrev cc1_scoped12 : DmaSems sig S_ := SemArray.consecutive 30 S_ hcc1_scoped12
abbrev cc1_scoped13 : DmaSems sig S_ := SemArray.consecutive 31 S_ hcc1_scoped13
abbrev cc1_scoped14 : DmaSems sig S_ := SemArray.consecutive 32 S_ hcc1_scoped14
abbrev cc1_scoped15 : DmaSems sig S_ := SemArray.consecutive 33 S_ hcc1_scoped15
abbrev cc1_scoped16 : DmaSems sig S_ := SemArray.consecutive 34 S_ hcc1_scoped16
abbrev cc1_scoped17 : DmaSems sig S_ := SemArray.consecutive 35 S_ hcc1_scoped17
abbrev cc1_scoped18 : DmaSems sig S_ := SemArray.consecutive 36 S_ hcc1_scoped18
abbrev cc1_scoped19 : DmaSems sig S_ := SemArray.consecutive 37 S_ hcc1_scoped19
abbrev cc1_scoped20 : DmaSems sig S_ := SemArray.consecutive 38 S_ hcc1_scoped20
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win2_0 : Pipeline.Window sig grid2 :=
  Pipeline.Window.ofSpec (Memref.whole main_v9_0) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S512x10x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512x10.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v15) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v9_2) S32x16.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v9_3) S32x16.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v16_0) S512x128.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v16_1) S1x128.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v16_0) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg18) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16_1) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S2048x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S4096 : Shape := ⟨1, ![4096]⟩
abbrev S4096x10 : Shape := ⟨2, ![4096, 10]⟩
abbrev S40960x10 : Shape := ⟨2, ![40960, 10]⟩
abbrev S128x128 : Shape := ⟨2, ![128, 128]⟩
abbrev S128 : Shape := ⟨1, ![128]⟩
abbrev S256x128 : Shape := ⟨2, ![256, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S40960 : Shape := ⟨1, ![40960]⟩
abbrev S40960x1 : Shape := ⟨2, ![40960, 1]⟩
abbrev S40960x128 : Shape := ⟨2, ![40960, 128]⟩
abbrev S4096x10x128 : Shape := ⟨3, ![4096, 10, 128]⟩
abbrev S409600 : Shape := ⟨1, ![409600]⟩
abbrev S409600x1 : Shape := ⟨2, ![409600, 1]⟩
abbrev S409600x128 : Shape := ⟨2, ![409600, 128]⟩
abbrev S40960x10x128 : Shape := ⟨3, ![40960, 10, 128]⟩
abbrev S1x128 : Shape := ⟨2, ![1, 128]⟩
abbrev S1x1x128 : Shape := ⟨3, ![1, 1, 128]⟩
abbrev S4096x256 : Shape := ⟨2, ![4096, 256]⟩
abbrev S40960x256 : Shape := ⟨2, ![40960, 256]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S4096, .i32⟩
  | 2 => ⟨S4096x10, .i32⟩
  | 3 => ⟨S4096x10, .f32⟩
  | 4 => ⟨S40960x10, .i32⟩
  | 5 => ⟨S40960x10, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S1, .i32⟩
  | 29 => ⟨S_, .i32⟩
  | 30 => ⟨S4096x1, .i32⟩
  | 31 => ⟨S4096x1, .i1⟩
  | 32 => ⟨S1x1, .i32⟩
  | 33 => ⟨S4096x1, .i32⟩
  | 34 => ⟨S4096x1, .i1⟩
  | 35 => ⟨S4096x1, .i1⟩
  | 36 => ⟨S_, .i1⟩
  | 37 => ⟨S4096, .i1⟩
  | 38 => ⟨S4096x128, .f32⟩
  | 39 => ⟨S4096x128, .i1⟩
  | 40 => ⟨S_, .f32⟩
  | 41 => ⟨S4096x128, .f32⟩
  | 42 => ⟨S4096x128, .f32⟩
  | 43 => ⟨S40960, .i32⟩
  | 44 => ⟨S_, .i32⟩
  | 45 => ⟨S40960, .i32⟩
  | 46 => ⟨S40960, .i1⟩
  | 47 => ⟨S_, .i32⟩
  | 48 => ⟨S40960, .i32⟩
  | 49 => ⟨S40960, .i32⟩
  | 50 => ⟨S40960, .i32⟩
  | 51 => ⟨S40960x1, .i32⟩
  | 52 => ⟨S1, .i32⟩
  | 53 => ⟨S_, .i32⟩
  | 54 => ⟨S40960x1, .i32⟩
  | 55 => ⟨S40960x1, .i1⟩
  | 56 => ⟨S1x1, .i32⟩
  | 57 => ⟨S40960x1, .i32⟩
  | 58 => ⟨S40960x1, .i1⟩
  | 59 => ⟨S40960x1, .i1⟩
  | 60 => ⟨S_, .i1⟩
  | 61 => ⟨S40960, .i1⟩
  | 62 => ⟨S40960x128, .f32⟩
  | 63 => ⟨S40960x128, .i1⟩
  | 64 => ⟨S_, .f32⟩
  | 65 => ⟨S40960x128, .f32⟩
  | 66 => ⟨S40960x128, .f32⟩
  | 67 => ⟨S4096x10x128, .f32⟩
  | 68 => ⟨S409600, .i32⟩
  | 69 => ⟨S_, .i32⟩
  | 70 => ⟨S409600, .i32⟩
  | 71 => ⟨S409600, .i1⟩
  | 72 => ⟨S_, .i32⟩
  | 73 => ⟨S409600, .i32⟩
  | 74 => ⟨S409600, .i32⟩
  | 75 => ⟨S409600, .i32⟩
  | 76 => ⟨S409600x1, .i32⟩
  | 77 => ⟨S1, .i32⟩
  | 78 => ⟨S_, .i32⟩
  | 79 => ⟨S409600x1, .i32⟩
  | 80 => ⟨S409600x1, .i1⟩
  | 81 => ⟨S1x1, .i32⟩
  | 82 => ⟨S409600x1, .i32⟩
  | 83 => ⟨S409600x1, .i1⟩
  | 84 => ⟨S409600x1, .i1⟩
  | 85 => ⟨S_, .i1⟩
  | 86 => ⟨S409600, .i1⟩
  | 87 => ⟨S409600x128, .f32⟩
  | 88 => ⟨S409600x128, .i1⟩
  | 89 => ⟨S_, .f32⟩
  | 90 => ⟨S409600x128, .f32⟩
  | 91 => ⟨S409600x128, .f32⟩
  | 92 => ⟨S40960x10x128, .f32⟩
  | 93 => ⟨S4096x128, .f32⟩
  | 94 => ⟨S1x128, .f32⟩
  | 95 => ⟨S4096x128, .f32⟩
  | 96 => ⟨S4096x128, .f32⟩
  | 97 => ⟨S_, .f32⟩
  | 98 => ⟨S4096x128, .f32⟩
  | 99 => ⟨S4096x128, .f32⟩
  | 100 => ⟨S4096x10x128, .f32⟩
  | 101 => ⟨S1x1x128, .f32⟩
  | 102 => ⟨S4096x10x128, .f32⟩
  | 103 => ⟨S4096x10x128, .f32⟩
  | 104 => ⟨S_, .f32⟩
  | 105 => ⟨S4096x10x128, .f32⟩
  | 106 => ⟨S4096x10x128, .f32⟩
  | 107 => ⟨S4096x128, .f32⟩
  | 108 => ⟨S4096x256, .f32⟩
  | 109 => ⟨S4096x128, .f32⟩
  | 110 => ⟨S1x128, .f32⟩
  | 111 => ⟨S4096x128, .f32⟩
  | 112 => ⟨S4096x128, .f32⟩
  | 113 => ⟨S_, .f32⟩
  | 114 => ⟨S4096x128, .f32⟩
  | 115 => ⟨S4096x128, .f32⟩
  | 116 => ⟨S4096x128, .f32⟩
  | 117 => ⟨S_, .f32⟩
  | 118 => ⟨S_, .f32⟩
  | 119 => ⟨S_, .f32⟩
  | 120 => ⟨S4096x128, .f32⟩
  | 121 => ⟨S4096x128, .f32⟩
  | 122 => ⟨S40960x128, .f32⟩
  | 123 => ⟨S40960x128, .f32⟩
  | 124 => ⟨S1x128, .f32⟩
  | 125 => ⟨S40960x128, .f32⟩
  | 126 => ⟨S40960x128, .f32⟩
  | 127 => ⟨S_, .f32⟩
  | _ => ⟨S100000x128, .f32⟩

abbrev hbmTy0_1 (i : Nat) : BufTy := match i % 128 with
  | 0 => ⟨S40960x128, .f32⟩
  | 1 => ⟨S40960x128, .f32⟩
  | 2 => ⟨S40960x10x128, .f32⟩
  | 3 => ⟨S1x1x128, .f32⟩
  | 4 => ⟨S40960x10x128, .f32⟩
  | 5 => ⟨S40960x10x128, .f32⟩
  | 6 => ⟨S_, .f32⟩
  | 7 => ⟨S40960x10x128, .f32⟩
  | 8 => ⟨S40960x10x128, .f32⟩
  | 9 => ⟨S40960x128, .f32⟩
  | 10 => ⟨S40960x256, .f32⟩
  | 11 => ⟨S40960x128, .f32⟩
  | 12 => ⟨S1x128, .f32⟩
  | 13 => ⟨S40960x128, .f32⟩
  | 14 => ⟨S40960x128, .f32⟩
  | 15 => ⟨S_, .f32⟩
  | 16 => ⟨S40960x128, .f32⟩
  | 17 => ⟨S40960x128, .f32⟩
  | 18 => ⟨S40960x128, .f32⟩
  | 19 => ⟨S_, .f32⟩
  | 20 => ⟨S_, .f32⟩
  | 21 => ⟨S_, .f32⟩
  | 22 => ⟨S40960x128, .f32⟩
  | 23 => ⟨S40960x128, .f32⟩
  | 24 => ⟨S4096x10x128, .f32⟩
  | 25 => ⟨S4096x128, .f32⟩
  | 26 => ⟨S1x128, .f32⟩
  | 27 => ⟨S4096x128, .f32⟩
  | 28 => ⟨S4096x128, .f32⟩
  | 29 => ⟨S_, .f32⟩
  | 30 => ⟨S4096x128, .f32⟩
  | 31 => ⟨S4096x128, .f32⟩
  | 32 => ⟨S4096x10x128, .f32⟩
  | 33 => ⟨S1x1x128, .f32⟩
  | 34 => ⟨S4096x10x128, .f32⟩
  | 35 => ⟨S4096x10x128, .f32⟩
  | 36 => ⟨S_, .f32⟩
  | 37 => ⟨S4096x10x128, .f32⟩
  | 38 => ⟨S4096x10x128, .f32⟩
  | 39 => ⟨S4096x128, .f32⟩
  | 40 => ⟨S4096x256, .f32⟩
  | 41 => ⟨S4096x128, .f32⟩
  | 42 => ⟨S1x128, .f32⟩
  | 43 => ⟨S4096x128, .f32⟩
  | 44 => ⟨S4096x128, .f32⟩
  | 45 => ⟨S_, .f32⟩
  | 46 => ⟨S4096x128, .f32⟩
  | 47 => ⟨S4096x128, .f32⟩
  | 48 => ⟨S4096x128, .f32⟩
  | 49 => ⟨S_, .f32⟩
  | 50 => ⟨S_, .f32⟩
  | 51 => ⟨S_, .f32⟩
  | 52 => ⟨S4096x128, .f32⟩
  | 53 => ⟨S4096x128, .f32⟩
  | 54 => ⟨S4096x128, .f32⟩
  | 55 => ⟨S1x128, .f32⟩
  | 56 => ⟨S4096x128, .f32⟩
  | 57 => ⟨S4096x128, .f32⟩
  | 58 => ⟨S_, .f32⟩
  | 59 => ⟨S4096x128, .f32⟩
  | 60 => ⟨S4096x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_v1 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v2 : Ref sig .tc := ⟨.hbm, 66, rfl⟩
abbrev main_v3 : Ref sig .tc := ⟨.hbm, 67, rfl⟩
abbrev main_v4 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v5 : Ref sig .tc := ⟨.hbm, 91, rfl⟩
abbrev main_v6 : Ref sig .tc := ⟨.hbm, 92, rfl⟩
abbrev main_v7 : Ref sig .tc := ⟨.hbm, 93, rfl⟩
abbrev main_v8 : Ref sig .tc := ⟨.hbm, 94, rfl⟩
abbrev main_v9 : Ref sig .tc := ⟨.hbm, 95, rfl⟩
abbrev main_v10 : Ref sig .tc := ⟨.hbm, 96, rfl⟩
abbrev main_call3_cst : Ref sig .tc := ⟨.hbm, 97, rfl⟩
abbrev main_call3_v0 : Ref sig .tc := ⟨.hbm, 98, rfl⟩
abbrev main_v11 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_call4_cst : Ref sig .tc := ⟨.hbm, 104, rfl⟩
abbrev main_call4_v0 : Ref sig .tc := ⟨.hbm, 105, rfl⟩
abbrev main_v16 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_call5_cst : Ref sig .tc := ⟨.hbm, 113, rfl⟩
abbrev main_call5_v0 : Ref sig .tc := ⟨.hbm, 114, rfl⟩
abbrev main_v23 : Ref sig .tc := ⟨.hbm, 115, rfl⟩
abbrev main_call6_v0 : Ref sig .tc := ⟨.hbm, 116, rfl⟩
abbrev main_call6_cst : Ref sig .tc := ⟨.hbm, 117, rfl⟩
abbrev main_call6_v1 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_call7_cst : Ref sig .tc := ⟨.hbm, 127, rfl⟩
abbrev main_call7_v0 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_call8_cst : Ref sig .tc := ⟨.hbm, 134, rfl⟩
abbrev main_call8_v0 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_call9_cst : Ref sig .tc := ⟨.hbm, 143, rfl⟩
abbrev main_call9_v0 : Ref sig .tc := ⟨.hbm, 144, rfl⟩
abbrev main_v44 : Ref sig .tc := ⟨.hbm, 145, rfl⟩
abbrev main_call10_v0 : Ref sig .tc := ⟨.hbm, 146, rfl⟩
abbrev main_call10_cst : Ref sig .tc := ⟨.hbm, 147, rfl⟩
abbrev main_call10_v1 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_call11_cst : Ref sig .tc := ⟨.hbm, 157, rfl⟩
abbrev main_call11_v0 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_call12_cst : Ref sig .tc := ⟨.hbm, 164, rfl⟩
abbrev main_call12_v0 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_call13_cst : Ref sig .tc := ⟨.hbm, 173, rfl⟩
abbrev main_call13_v0 : Ref sig .tc := ⟨.hbm, 174, rfl⟩
abbrev main_v65 : Ref sig .tc := ⟨.hbm, 175, rfl⟩
abbrev main_call14_v0 : Ref sig .tc := ⟨.hbm, 176, rfl⟩
abbrev main_call14_cst : Ref sig .tc := ⟨.hbm, 177, rfl⟩
abbrev main_call14_v1 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_call15_cst : Ref sig .tc := ⟨.hbm, 186, rfl⟩
abbrev main_call15_v0 : Ref sig .tc := ⟨.hbm, 187, rfl⟩
abbrev main_v73 : Ref sig .tc := ⟨.hbm, 188, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  shapeCasts_S4096x10_S40960 : S4096x10.ShapeCasts S40960
  bcast_S_S40960 : S_.BroadcastsInDim S40960 (![] : Fin 0 → Fin S40960.rank)
  bcast_S40960_S40960x1_0 : S40960.BroadcastsInDim S40960x1 (![0] : Fin 1 → Fin S40960x1.rank)
  bcast_S_S40960x1 : S_.BroadcastsInDim S40960x1 (![] : Fin 0 → Fin S40960x1.rank)
  bcast_S1x1_S40960x1_0_1 : S1x1.BroadcastsInDim S40960x1 (![0, 1] : Fin 2 → Fin S40960x1.rank)
  reducesTo_S40960x1_S40960_d1 : S40960x1.ReducesTo [1] S40960
  bcast_S40960_S40960x128_0 : S40960.BroadcastsInDim S40960x128 (![0] : Fin 1 → Fin S40960x128.rank)
  bcast_S_S40960x128 : S_.BroadcastsInDim S40960x128 (![] : Fin 0 → Fin S40960x128.rank)
  shapeCasts_S40960x128_S4096x10x128 : S40960x128.ShapeCasts S4096x10x128
  shapeCasts_S40960x10_S409600 : S40960x10.ShapeCasts S409600
  bcast_S_S409600 : S_.BroadcastsInDim S409600 (![] : Fin 0 → Fin S409600.rank)
  bcast_S409600_S409600x1_0 : S409600.BroadcastsInDim S409600x1 (![0] : Fin 1 → Fin S409600x1.rank)
  bcast_S_S409600x1 : S_.BroadcastsInDim S409600x1 (![] : Fin 0 → Fin S409600x1.rank)
  bcast_S1x1_S409600x1_0_1 : S1x1.BroadcastsInDim S409600x1 (![0, 1] : Fin 2 → Fin S409600x1.rank)
  reducesTo_S409600x1_S409600_d1 : S409600x1.ReducesTo [1] S409600
  bcast_S409600_S409600x128_0 : S409600.BroadcastsInDim S409600x128 (![0] : Fin 1 → Fin S409600x128.rank)
  bcast_S_S409600x128 : S_.BroadcastsInDim S409600x128 (![] : Fin 0 → Fin S409600x128.rank)
  shapeCasts_S409600x128_S40960x10x128 : S409600x128.ShapeCasts S40960x10x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S128_S1x1x128_2 : S128.BroadcastsInDim S1x1x128 (![2] : Fin 1 → Fin S1x1x128.rank)
  bcast_S1x1x128_S4096x10x128_0_1_2 : S1x1x128.BroadcastsInDim S4096x10x128 (![0, 1, 2] : Fin 3 → Fin S4096x10x128.rank)
  bcast_S_S4096x10x128 : S_.BroadcastsInDim S4096x10x128 (![] : Fin 0 → Fin S4096x10x128.rank)
  concatenates_S4096x128_S4096x128_S4096x256_d1 : Shape.Concatenates [S4096x128, S4096x128] S4096x256 1
  reducesTo_S4096x128_S_d0_1 : S4096x128.ReducesTo [0, 1] S_
  shapeCasts_S4096x10x128_S40960x128 : S4096x10x128.ShapeCasts S40960x128
  bcast_S1x128_S40960x128_0_1 : S1x128.BroadcastsInDim S40960x128 (![0, 1] : Fin 2 → Fin S40960x128.rank)
  bcast_S1x1x128_S40960x10x128_0_1_2 : S1x1x128.BroadcastsInDim S40960x10x128 (![0, 1, 2] : Fin 3 → Fin S40960x10x128.rank)
  bcast_S_S40960x10x128 : S_.BroadcastsInDim S40960x10x128 (![] : Fin 0 → Fin S40960x10x128.rank)
  concatenates_S40960x128_S40960x128_S40960x256_d1 : Shape.Concatenates [S40960x128, S40960x128] S40960x256 1
  reducesTo_S40960x128_S_d0_1 : S40960x128.ReducesTo [0, 1] S_
  gather_S100000x128_S4096x1_S4096x128_1_0_n_n_0_1_1128_wf : GatherDims.WF S100000x128 S4096x1 S4096x128 [1] [0] [] [0] [] 1 ![1, 128]
  gather_S100000x128_S40960x1_S40960x128_1_0_n_n_0_1_1128_wf : GatherDims.WF S100000x128 S40960x1 S40960x128 [1] [0] [] [0] [] 1 ![1, 128]
  gather_S100000x128_S409600x1_S409600x128_1_0_n_n_0_1_1128_wf : GatherDims.WF S100000x128 S409600x1 S409600x128 [1] [0] [] [0] [] 1 ![1, 128]
  dot_S4096x128_S128x128_S4096x128_1_0_0_1_n_n_wf : DotDims.WF S4096x128 S128x128 S4096x128 [1] [0] [0] [1] [] []
  dot_S4096x10x128_S128x128_S4096x10x128_2_0_01_1_n_n_wf : DotDims.WF S4096x10x128 S128x128 S4096x10x128 [2] [0] [0, 1] [1] [] []
  dot_S4096x10_S4096x10x128_S4096x128_1_1_n_2_0_0_wf : DotDims.WF S4096x10 S4096x10x128 S4096x128 [1] [1] [] [2] [0] [0]
  dot_S4096x256_S256x128_S4096x128_1_0_0_1_n_n_wf : DotDims.WF S4096x256 S256x128 S4096x128 [1] [0] [0] [1] [] []
  dot_S40960x128_S128x128_S40960x128_1_0_0_1_n_n_wf : DotDims.WF S40960x128 S128x128 S40960x128 [1] [0] [0] [1] [] []
  dot_S40960x10x128_S128x128_S40960x10x128_2_0_01_1_n_n_wf : DotDims.WF S40960x10x128 S128x128 S40960x10x128 [2] [0] [0, 1] [1] [] []
  dot_S40960x10_S40960x10x128_S40960x128_1_1_n_2_0_0_wf : DotDims.WF S40960x10 S40960x10x128 S40960x128 [1] [1] [] [2] [0] [0]
  dot_S40960x256_S256x128_S40960x128_1_0_0_1_n_n_wf : DotDims.WF S40960x256 S256x128 S40960x128 [1] [0] [0] [1] [] []

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S100000x128_S40960x1_S40960x128_1_0_n_n_0_1_1128 : GatherDims S100000x128 S40960x1 S40960x128 where
  offsetDims := [1]
  collapsedSliceDims := [0]
  operandBatchingDims := []
  startIndicesBatchingDims := []
  startIndexMap := [0]
  indexVectorDim := 1
  sliceSizes := ![1, 128]
  wf := gather_S100000x128_S40960x1_S40960x128_1_0_n_n_0_1_1128_wf
def gather_S100000x128_S409600x1_S409600x128_1_0_n_n_0_1_1128 : GatherDims S100000x128 S409600x1 S409600x128 where
  offsetDims := [1]
  collapsedSliceDims := [0]
  operandBatchingDims := []
  startIndicesBatchingDims := []
  startIndexMap := [0]
  indexVectorDim := 1
  sliceSizes := ![1, 128]
  wf := gather_S100000x128_S409600x1_S409600x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x10x128_S128x128_S4096x10x128_2_0_01_1_n_n : DotDims S4096x10x128 S128x128 S4096x10x128 where
  lhsContracting := [2]
  rhsContracting := [0]
  lhsNonContracting := [0, 1]
  rhsNonContracting := [1]
  lhsBatch := []
  rhsBatch := []
  wf := dot_S4096x10x128_S128x128_S4096x10x128_2_0_01_1_n_n_wf
def dot_S4096x10_S4096x10x128_S4096x128_1_1_n_2_0_0 : DotDims S4096x10 S4096x10x128 S4096x128 where
  lhsContracting := [1]
  rhsContracting := [1]
  lhsNonContracting := []
  rhsNonContracting := [2]
  lhsBatch := [0]
  rhsBatch := [0]
  wf := dot_S4096x10_S4096x10x128_S4096x128_1_1_n_2_0_0_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S40960x128_S128x128_S40960x128_1_0_0_1_n_n : DotDims S40960x128 S128x128 S40960x128 where
  lhsContracting := [1]
  rhsContracting := [0]
  lhsNonContracting := [0]
  rhsNonContracting := [1]
  lhsBatch := []
  rhsBatch := []
  wf := dot_S40960x128_S128x128_S40960x128_1_0_0_1_n_n_wf
def dot_S40960x10x128_S128x128_S40960x10x128_2_0_01_1_n_n : DotDims S40960x10x128 S128x128 S40960x10x128 where
  lhsContracting := [2]
  rhsContracting := [0]
  lhsNonContracting := [0, 1]
  rhsNonContracting := [1]
  lhsBatch := []
  rhsBatch := []
  wf := dot_S40960x10x128_S128x128_S40960x10x128_2_0_01_1_n_n_wf
def dot_S40960x10_S40960x10x128_S40960x128_1_1_n_2_0_0 : DotDims S40960x10 S40960x10x128 S40960x128 where
  lhsContracting := [1]
  rhsContracting := [1]
  lhsNonContracting := []
  rhsNonContracting := [2]
  lhsBatch := [0]
  rhsBatch := [0]
  wf := dot_S40960x10_S40960x10x128_S40960x128_1_1_n_2_0_0_wf
def dot_S40960x256_S256x128_S40960x128_1_0_0_1_n_n : DotDims S40960x256 S256x128 S40960x128 where
  lhsContracting := [1]
  rhsContracting := [0]
  lhsNonContracting := [0]
  rhsNonContracting := [1]
  lhsBatch := []
  rhsBatch := []
  wf := dot_S40960x256_S256x128_S40960x128_1_0_0_1_n_n_wf

class Facts : Prop extends Facts₀ where

variable [Facts]
-- ==== Proof.Ghost.lean ====
/-
  The kernel program as the SparseCore launch theorem sees it, and the ghost state every module of this
  certificate shares: the launch handshakes' rounds (indexed by the call), the three TensorCore pipelines' staging cells' rounds, and
  the counters of the tile kernel's own transfers (its six DMA semaphores carry one transfer at a time and signal
  no other thread, so they need no schedule), each with its embedding into the model's resource algebra.
-/
import proofs.«213116_g69346541961480_cont_9to1_m_612_34_alg».proof.Defs
import Idealize.ShloMosaic.Lib.SparseCore.Launch
import Idealize.ShloMosaic.Lib.Pipeline.Regions
import Idealize.ShloMosaic.Lib.Transfers
import proofs.«213116_g69346541961480_cont_9to1_m_612_34_alg».proof.Proof.Gen.KernelIdeal

noncomputable section

namespace Cert.KernelIdeal.Ghost

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the inner body table: the kernels' own and the three pipelines'. -/
abbrev ΛP : Labels := Pipeline.Sig Λ₀ (Fin 3) fun p => (pcfgs (F := F) p).Adm
/-- The one SparseCore call of @main. -/
abbrev K : SparseCore.Cfg τ sig (ΛP (F := F)) 1 := sc (F := F)
/-- The inner body table: the four kernel functions and the three pipelines' regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-! ## The resource algebra -/

/-- The launch handshakes' rounds, a round per call. -/
abbrev UH : Type := URounds (GSem nD τ sig) ℕ
/-- The TensorCore pipelines' staging cells' rounds. -/
abbrev UP : Type := URounds (GSem nD τ sig) Unit
/-- Handshakes, pipelines, and last the counters of the tile kernel's own transfers. -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The counters sit where the symbolic executor looks for them. -/
example : CountersIn UU := inferInstance

end Cert.KernelIdeal.Ghost

end
-- ==== Proof.MainHost.lean ====
/-
  @main of the kernel program, cut where the SparseCore call stands. Over the inner labels (the kernels' and the
  three pipelines') its first half is: four host operations (two bias reshapes, the two halves of W_out1), the
  first TensorCore region, four reshapes that flatten the neighbour and weight tables; its second half: six host
  operations (the level-1 neighbour embeddings regrouped by target, two bias reshapes, the two halves of W_out0,
  a bias reshape), the second region, one bias reshape, the third region. @main itself is the first half lifted
  to the program's labels, the SparseCore call, the second half lifted: an equation of programs that holds by
  unfolding.
-/
import proofs.«213116_g69346541961480_cont_9to1_m_612_34_alg».proof.Proof.Ghost
import proofs.«213116_g69346541961480_cont_9to1_m_612_34_alg».proof.Proof.Gen.KernelIdeal.Launch

noncomputable section

namespace Cert.KernelIdeal.Main

open Cert.KernelIdeal Cert.KernelIdeal.Gen Cert.KernelIdeal.Ghost Cert.KernelIdeal.Facts
open Idealize.ShloMosaic
open Idealize.ShloMosaic.SparseCore (S V T)
open Idealize.ShloMosaic.SparseCore.Cfg (HIx)
open Idealize.SL Idealize.SL.Sem

variable {F : FTy → Type} [FloatOps F]

/-! ## The host stretches -/

/-- Host stretch 0 of @main. -/
abbrev hostOpsA : List (HloOp τ sig (Elt F)) :=
  [StableHlo.reshape main_arg7 main_v0 rfl shapeCasts_S128_S1x128,
   StableHlo.reshape main_arg9 main_v1 rfl shapeCasts_S128_S1x128,
   StableHlo.unary main_arg10 main_v2 ((extractStridedSlice S128x128 ![0, 0] · slices_S256x128_S128x128_0_0) : (⟨S256x128, .f32⟩ : BufTy).Contents (Elt F) → (⟨S128x128, .f32⟩ : BufTy).Contents (Elt F)),
   StableHlo.unary main_arg10 main_v3 ((extractStridedSlice S128x128 ![128, 0] · slices_S256x128_S128x128_128_0) : (⟨S256x128, .f32⟩ : BufTy).Contents (Elt F) → (⟨S128x128, .f32⟩ : BufTy).Contents (Elt F))]

/-- Host stretch 1 of @main. -/
abbrev hostOpsB : List (HloOp τ sig (Elt F)) :=
  [StableHlo.reshape main_arg2 main_v5 rfl shapeCasts_S4096x10_S40960,
   StableHlo.reshape main_arg4 main_v6 rfl shapeCasts_S40960x10_S409600,
   StableHlo.reshape main_arg3 main_v7 rfl shapeCasts_S4096x10_S40960,
   StableHlo.reshape main_arg5 main_v8 rfl shapeCasts_S40960x10_S409600]

/-- Host stretch 2 of @main. -/
abbrev hostOpsC : List (HloOp τ sig (Elt F)) :=
  [StableHlo.reshape main_v9_1 main_v10 rfl shapeCasts_S40960x128_S4096x10x128,
   StableHlo.reshape main_arg13 main_v11 rfl shapeCasts_S128_S1x128,
   StableHlo.reshape main_arg15 main_v12 rfl shapeCasts_S128_S1x128,
   StableHlo.unary main_arg16 main_v13 ((extractStridedSlice S128x128 ![0, 0] · slices_S256x128_S128x128_0_0) : (⟨S256x128, .f32⟩ : BufTy).Contents (Elt F) → (⟨S128x128, .f32⟩ : BufTy).Contents (Elt F)),
   StableHlo.unary main_arg16 main_v14 ((extractStridedSlice S128x128 ![128, 0] · slices_S256x128_S128x128_128_0) : (⟨S256x128, .f32⟩ : BufTy).Contents (Elt F) → (⟨S128x128, .f32⟩ : BufTy).Contents (Elt F)),
   StableHlo.reshape main_arg17 main_v15 rfl shapeCasts_S128_S1x128]

/-- Host stretch 3 of @main. -/
abbrev hostOpsD : List (HloOp τ sig (Elt F)) :=
  [StableHlo.reshape main_arg19 main_v17 rfl shapeCasts_S128_S1x128]

/-! ## The two halves of @main over the inner labels -/

/-- @main up to the SparseCore call: stretch A, region 0, stretch B. -/
def progA : Prog (TpuEff nD τ sig (Elt F) (ΛP (F := F)) .tc) PUnit :=
  StableHlo.seq hostOpsA >>= fun _ => Prog.op (.customCall (Pipeline.entry 0) ()) fun _ =>
    StableHlo.seq hostOpsB >>= fun _ => Prog.ret ⟨⟩
/-- @main after the SparseCore call: stretch C, region 1, stretch D, region 2. -/
def progB : Prog (TpuEff nD τ sig (Elt F) (ΛP (F := F)) .tc) PUnit :=
  StableHlo.seq hostOpsC >>= fun _ => Prog.op (.customCall (Pipeline.entry 1) ()) fun _ =>
    StableHlo.seq hostOpsD >>= fun _ => Prog.op (.customCall (Pipeline.entry 2) ()) fun _ => Prog.ret ⟨⟩

/-- @main is its first half, the SparseCore call, its second half. -/
theorem main_eq (d : Dev nD) :
    main (F := F) d = (SparseCore.liftProg progA >>= fun _ => (sc (F := F)).run d 0 >>= fun _ => SparseCore.liftProg progB) := by
  rfl

/-- No pipeline has a prefetched table. -/
abbrev adm : (p : Fin 3) → (pcfgs (F := F) p).Adm := fun p => (cfgs p).toPCfg_adm

/-! ## The recorded pairs below a level -/

/-- The (semaphore, index) pairs of the TensorCore of `d` whose level is at most `8 n`: what its waits may have
    recorded before call `n`. The pipelines' own waits are recorded at the index `none`, level 0, so they stay
    inside it. -/
def Bn (d : Dev nD) (n : ℕ) : Set (SemLoc sig × HIx 1) := {p | (K (F := F)).lev (T d, p.1) p.2 ≤ 8 * n}

theorem waitPairs_sub_Bn (cfg : Pipeline.Cfg sig Λ₀) (d : Dev nD) (n : ℕ) :
    cfg.waitPairs (none : HIx 1) ⊆ Bn (F := F) d n := by
  rintro p ⟨w, s, rfl⟩
  show (K (F := F)).lev _ none ≤ _
  rw [SparseCore.Cfg.lev_none]; exact Nat.zero_le _

theorem bound_sub_Bn (cfg : Pipeline.Cfg sig Λ₀) (d : Dev nD) (n : ℕ) :
    Bn (F := F) d n ∪ cfg.waitPairs (none : HIx 1) ⊆ Bn (F := F) d n :=
  Set.union_subset (Set.Subset.refl _) (waitPairs_sub_Bn cfg d n)

end Cert.KernelIdeal.Main

end
-- ==== Proof.TileDefs.lean ====
/-
  One vector subcore's task of the graph-convolution kernel: what it reads, what it writes, and the values it
  leaves, as pure functions of the contents its operands hold when the SparseCore call is entered.

  The 45056 rows (4096 targets, then 40960 one-hop neighbours) are dealt to 32 workers, 1408 consecutive rows
  each, worker number `2 s + c` for subcore `s` of core `c`. Row `r` of the result is
  `max (((self + b) + a₀ n₀) + … + a₉ n₉) 0`, per column, where `self` is the row of the first table its index names,
  `n_t` the rows of the second table its ten neighbour indices name and `a_t` its ten weights; beside the rows
  each worker leaves two 16-lane sums of squares, one over its target rows and one over its neighbour rows.
-/
import proofs.«213116_g69346541961480_cont_9to1_m_612_34_alg».proof.Proof.Ghost
import Idealize.ShloMosaic.Lib.Transfers

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays of the call -/

abbrev spLoc (d : Dev nD) : Loc nD τ sig := (SparseCore.T d).loc main_v4_0
abbrev apLoc (d : Dev nD) : Loc nD τ sig := (SparseCore.T d).loc main_v4_1
abbrev nidLoc (d : Dev nD) : Loc nD τ sig := (SparseCore.T d).loc main_arg1
abbrev n1Loc (d : Dev nD) : Loc nD τ sig := (SparseCore.T d).loc main_v5
abbrev n2Loc (d : Dev nD) : Loc nD τ sig := (SparseCore.T d).loc main_v6
abbrev a1Loc (d : Dev nD) : Loc nD τ sig := (SparseCore.T d).loc main_v7
abbrev a2Loc (d : Dev nD) : Loc nD τ sig := (SparseCore.T d).loc main_v8
abbrev bLoc (d : Dev nD) : Loc nD τ sig := (SparseCore.T d).loc main_arg11
abbrev e1tLoc (d : Dev nD) : Loc nD τ sig := (SparseCore.T d).loc main_v9_0
abbrev e1nLoc (d : Dev nD) : Loc nD τ sig := (SparseCore.T d).loc main_v9_1
abbrev sqtLoc (d : Dev nD) : Loc nD τ sig := (SparseCore.T d).loc main_v9_2
abbrev sqnLoc (d : Dev nD) : Loc nD τ sig := (SparseCore.T d).loc main_v9_3

/-- What the call's eight read-only operands hold when the call is entered: the two tables, the three index
    arrays (targets, one-hop and two-hop neighbours, flat), the two weight arrays (flat) and the bias. -/
structure Ins (F : FTy → Type) where
  sp : (d : Dev nD) → Buf (Elt F) (spLoc d)
  ap : (d : Dev nD) → Buf (Elt F) (apLoc d)
  nid : (d : Dev nD) → Buf (Elt F) (nidLoc d)
  n1 : (d : Dev nD) → Buf (Elt F) (n1Loc d)
  n2 : (d : Dev nD) → Buf (Elt F) (n2Loc d)
  a1 : (d : Dev nD) → Buf (Elt F) (a1Loc d)
  a2 : (d : Dev nD) → Buf (Elt F) (a2Loc d)
  b : (d : Dev nD) → Buf (Elt F) (bLoc d)

variable (I : Ins F)

/-- Every index names a row of the 100000-row tables. -/
def PreOK : Prop :=
  ∀ d : Dev nD, (∀ x, (I.nid d x).toNat < 100000) ∧ (∀ x, (I.n1 d x).toNat < 100000) ∧ (∀ x, (I.n2 d x).toNat < 100000)

/-! ## Indices from numbers -/

/-- The multi-index with coordinates `v`, each reduced modulo its axis (in range: itself). -/
def mkIdx (s : Shape) (hpos : ∀ a, 0 < s.size a) (v : Fin s.rank → ℕ) : s.Idx :=
  fun a => ⟨v a % s.size a, Nat.mod_lt _ (hpos a)⟩

theorem mkIdx_val (s : Shape) (hpos : ∀ a, 0 < s.size a) (v : Fin s.rank → ℕ) (a : Fin s.rank) (h : v a < s.size a) :
    (mkIdx s hpos v a).val = v a := Nat.mod_eq_of_lt h

def ixTab (r c : ℕ) : S100000x128.Idx := mkIdx S100000x128 (by decide) ![r, c]
def ix4096 (r : ℕ) : S4096.Idx := mkIdx S4096 (by decide) ![r]
def ix40960 (r : ℕ) : S40960.Idx := mkIdx S40960 (by decide) ![r]
def ix409600 (r : ℕ) : S409600.Idx := mkIdx S409600 (by decide) ![r]
def ix128 (c : ℕ) : S128.Idx := mkIdx S128 (by decide) ![c]

/-! ## The values -/

section Values

variable [FloatOps F]

/-- One entry of a row: the self entry plus the bias, then the ten weighted neighbour entries added in order, then
    the maximum with zero — the kernel's own association. -/
def rowVal (s b : F .f32) (al n : Fin 10 → F .f32) : F .f32 :=
  FloatOps.maximumf
    (FloatOps.addf (FloatOps.addf (FloatOps.addf (FloatOps.addf (FloatOps.addf (FloatOps.addf (FloatOps.addf (FloatOps.addf (FloatOps.addf (FloatOps.addf
      (FloatOps.addf s b)
      (FloatOps.mulf (al 0) (n 0))) (FloatOps.mulf (al 1) (n 1))) (FloatOps.mulf (al 2) (n 2))) (FloatOps.mulf (al 3) (n 3)))
      (FloatOps.mulf (al 4) (n 4))) (FloatOps.mulf (al 5) (n 5))) (FloatOps.mulf (al 6) (n 6))) (FloatOps.mulf (al 7) (n 7)))
      (FloatOps.mulf (al 8) (n 8))) (FloatOps.mulf (al 9) (n 9)))
    (Scalar.ofBits .f32 0x00000000#32)

/-- Entry `(r, col)` of the 45056 result rows: rows below 4096 are targets (self index `nid[r]`, neighbours
    `n1[10 r + t]`, weights `a1[10 r + t]`), the others one-hop neighbours at `e = r - 4096` (self index `n1[e]`,
    neighbours `n2[10 e + t]`, weights `a2[10 e + t]`). -/
def E1 (d : Dev nD) (r col : ℕ) : F .f32 :=
  if r < 4096 then
    rowVal (I.sp d (ixTab (I.nid d (ix4096 r)).toNat col)) (I.b d (ix128 col))
      (fun t => I.a1 d (ix40960 (r * 10 + t.val))) (fun t => I.ap d (ixTab (I.n1 d (ix40960 (r * 10 + t.val))).toNat col))
  else
    rowVal (I.sp d (ixTab (I.n1 d (ix40960 (r - 4096))).toNat col)) (I.b d (ix128 col))
      (fun t => I.a2 d (ix409600 ((r - 4096) * 10 + t.val))) (fun t => I.ap d (ixTab (I.n2 d (ix409600 ((r - 4096) * 10 + t.val))).toNat col))

/-- The first result whole: the target rows. -/
def E1t (d : Dev nD) : Buf (Elt F) (e1tLoc d) := fun x => E1 I d (x 0).val (x 1).val
/-- The second result whole: the neighbour rows. -/
def E1n (d : Dev nD) : Buf (Elt F) (e1nLoc d) := fun x => E1 I d (4096 + (x 0).val) (x 1).val

/-- A chunk's 16-lane sum of squares: over its 32 rows in order, per row over the eight 16-column slices in order,
    `acc + v · v`, from zero. -/
def chunkSq (d : Dev nD) (r0 lane : ℕ) : F .f32 :=
  (List.range 32).foldl (fun acc i => (List.range 8).foldl
      (fun acc c => FloatOps.addf acc (FloatOps.mulf (E1 I d (r0 + i) (16 * c + lane)) (E1 I d (r0 + i) (16 * c + lane)))) acc)
    (Scalar.ofBits .f32 0x00000000#32)

/-- Worker `w`'s accumulated sum of squares over its chunks of one kind (`tgt`: the target chunks, those starting
    below row 4096; else the neighbour chunks), in the order of the chunks, `acc + chunk`, from zero. -/
def tileSq (d : Dev nD) (w : ℕ) (tgt : Bool) (lane : ℕ) : F .f32 :=
  (List.range 44).foldl (fun acc j => if decide (w * 1408 + 32 * j < 4096) = tgt then FloatOps.addf acc (chunkSq I d (w * 1408 + 32 * j) lane) else acc)
    (Scalar.ofBits .f32 0x00000000#32)

/-- The third and fourth results whole: row `w` is worker `w`'s sums. -/
def Sqt (d : Dev nD) : Buf (Elt F) (sqtLoc d) := fun x => tileSq I d (x 0).val true (x 1).val
def Sqn (d : Dev nD) : Buf (Elt F) (sqnLoc d) := fun x => tileSq I d (x 0).val false (x 1).val

end Values

/-! ## Who holds what -/

/-- Worker number of subcore `i` of core `c`. -/
def wid (c : Fin 2) (i : Fin 16) : ℕ := i.val * 2 + c.val

/-- The entries of the first result in worker `w`'s rows; -/
def tSet (w : ℕ) : Finset S4096x128.Idx := Finset.univ.filter fun x => w * 1408 ≤ (x 0).val ∧ (x 0).val < w * 1408 + 1408
/-- of the second; -/
def nSet (w : ℕ) : Finset S40960x128.Idx := Finset.univ.filter fun x => w * 1408 ≤ 4096 + (x 0).val ∧ 4096 + (x 0).val < w * 1408 + 1408
/-- row `w` of a 32 × 16 array. -/
def sqRow (w : ℕ) : Finset S32x16.Idx := Finset.univ.filter fun x => (x 0).val = w

/-- The read share worker `w` holds of each read-only operand: one of 32 tokens of the whole. -/
abbrev rsh (w : ℕ) : PosShare TreeShare := Transfers.shareTokN fullShare w

/-- The read-only operands at worker `w`'s share. -/
def readsAt (d : Dev nD) (q : PosShare TreeShare) : sProp 𝕄 :=
  iprop((spLoc d ↦{q} I.sp d) ∗ (apLoc d ↦{q} I.ap d) ∗ (nidLoc d ↦{q} I.nid d) ∗ (n1Loc d ↦{q} I.n1 d) ∗ (n2Loc d ↦{q} I.n2 d)
    ∗ (a1Loc d ↦{q} I.a1 d) ∗ (a2Loc d ↦{q} I.a2 d) ∗ (bLoc d ↦{q} I.b d))

/-- What a task is handed: its read shares, and its rows of the four results at whatever they hold. -/
def goAt (d : Dev nD) (w : ℕ) : sProp 𝕄 :=
  iprop(readsAt I d (rsh w) ∗ (∃ f, e1tLoc d ↦[tSet w]{fullShare} f) ∗ (∃ f, e1nLoc d ↦[nSet w]{fullShare} f)
    ∗ (∃ f, sqtLoc d ↦[sqRow w]{fullShare} f) ∗ (∃ f, sqnLoc d ↦[sqRow w]{fullShare} f))

/-- What it hands back: the same shares, its rows of the results at their values. -/
def tdAt [FloatOps F] (d : Dev nD) (w : ℕ) : sProp 𝕄 :=
  iprop(readsAt I d (rsh w) ∗ (e1tLoc d ↦[tSet w]{fullShare} E1t I d) ∗ (e1nLoc d ↦[nSet w]{fullShare} E1n I d)
    ∗ (sqtLoc d ↦[sqRow w]{fullShare} Sqt I d) ∗ (sqnLoc d ↦[sqRow w]{fullShare} Sqn I d))

end Cert.KernelIdeal.Tile

end
-- ==== Proof.TilePay.lean ====
/-
  What the handshakes of the one SparseCore call carry for the graph-convolution kernel: each task its operands,
  each task's results at their values back.
-/
import proofs.«213116_g69346541961480_cont_9to1_m_612_34_alg».proof.Proof.TileDefs
import Idealize.ShloMosaic.Lib.SparseCore.Launch

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (I : Ins F) [FloatOps F]

set_option synthInstance.maxHeartbeats 400000 in
instance readsAt_storable (d : Dev nD) (q : PosShare TreeShare) : BI.Storable (upEmb : UEmb _ 𝕄) (readsAt I d q) := by
  unfold readsAt; infer_instance
set_option synthInstance.maxHeartbeats 400000 in
instance goAt_storable (d : Dev nD) (w : ℕ) : BI.Storable (upEmb : UEmb _ 𝕄) (goAt I d w) := by
  unfold goAt; infer_instance
set_option synthInstance.maxHeartbeats 400000 in
instance tdAt_storable (d : Dev nD) (w : ℕ) : BI.Storable (upEmb : UEmb _ 𝕄) (tdAt I d w) := by
  unfold tdAt; infer_instance

/-- The one call hands core `c`'s sequencer its sixteen tasks' operands, each task its own, and takes the same back at
    the values; the kernel's own semaphores need no ghost state from the launch. -/
def P : (K (F := F)).Pay (nD := nD) (Val := Elt F) (Name := ℕ) (U := UU) where
  st := fun q d c => match q with | 0 => bigSep Finset.univ fun i : Fin 16 => goAt I d (wid (Fin.cast nCore_zero c) i)
  dn := fun q d c => match q with | 0 => bigSep Finset.univ fun i : Fin 16 => tdAt I d (wid (Fin.cast nCore_zero c) i)
  go := fun q d c i => match q with | 0 => goAt I d (wid (Fin.cast nCore_zero c) (Fin.cast nSub_zero i))
  td := fun q d c i => match q with | 0 => tdAt I d (wid (Fin.cast nCore_zero c) (Fin.cast nSub_zero i))
  x := fun _ _ => iprop(emp)

instance P_storable : (P I).IsStorable where
  st q d c := match q with | 0 => (inferInstance : BI.Storable (upEmb : UEmb _ 𝕄) (bigSep Finset.univ fun i : Fin 16 => goAt I d (wid (Fin.cast nCore_zero c) i)))
  dn q d c := match q with | 0 => (inferInstance : BI.Storable (upEmb : UEmb _ 𝕄) (bigSep Finset.univ fun i : Fin 16 => tdAt I d (wid (Fin.cast nCore_zero c) i)))
  go q d c i := match q with | 0 => (inferInstance : BI.Storable (upEmb : UEmb _ 𝕄) (goAt I d (wid (Fin.cast nCore_zero c) (Fin.cast nSub_zero i))))
  td q d c i := match q with | 0 => (inferInstance : BI.Storable (upEmb : UEmb _ 𝕄) (tdAt I d (wid (Fin.cast nCore_zero c) (Fin.cast nSub_zero i))))

end Cert.KernelIdeal.Tile

end
-- ==== Proof.MainCall.lean ====
/-
  The SparseCore call inside @main on the TensorCore. The thread holds every unscoped buffer at known contents;
  the call's twelve operands are taken out of that set — the eight it only reads (the two tables the first region
  wrote, the target indices, the flattened neighbour tables and weights, the output bias) at the contents they hold,
  the four it writes at whatever they hold —, dealt to the two SparseCores, and after the call put back: the eight as
  they were, the four at the kernel's values (the rows of level-1 embeddings, unnormalised, and the workers' sums of
  squares). Every other buffer is untouched, so the thread again holds every unscoped buffer, at the contents updated
  in those four places.
-/
import proofs.«213116_g69346541961480_cont_9to1_m_612_34_alg».proof.Proof.MainHost
import proofs.«213116_g69346541961480_cont_9to1_m_612_34_alg».proof.Proof.TilePay
import Idealize.ShloMosaic.Lib.Pipeline.Frame

noncomputable section

namespace Cert.KernelIdeal.Main

open Cert.KernelIdeal Cert.KernelIdeal.Gen Cert.KernelIdeal.Ghost
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## One buffer replaced in a valuation -/

/-- The contents `V` with buffer `b₀` at `x`. -/
def setBuf (V : Valuation τ sig (Elt F)) (b₀ : DevRef τ sig) (x : b₀.ty.Contents (Elt F)) : Valuation τ sig (Elt F) :=
  fun b => if h : b₀ = b then cast (congrArg (fun b' : DevRef τ sig => b'.ty.Contents (Elt F)) h) x else V b

theorem setBuf_self (V : Valuation τ sig (Elt F)) (b₀ : DevRef τ sig) (x : b₀.ty.Contents (Elt F)) : setBuf V b₀ x b₀ = x := by
  unfold setBuf; rw [dif_pos rfl]; rfl
theorem setBuf_of_ne (V : Valuation τ sig (Elt F)) {b₀ b : DevRef τ sig} (x : b₀.ty.Contents (Elt F)) (h : b₀ ≠ b) : setBuf V b₀ x b = V b :=
  dif_neg h

/-! ## The call's operands -/

abbrev rSp : DevRef τ sig := Proc.devRef .tc main_v4_0
abbrev rAp : DevRef τ sig := Proc.devRef .tc main_v4_1
abbrev rNid : DevRef τ sig := Proc.devRef .tc main_arg1
abbrev rN1 : DevRef τ sig := Proc.devRef .tc main_v5
abbrev rN2 : DevRef τ sig := Proc.devRef .tc main_v6
abbrev rA1 : DevRef τ sig := Proc.devRef .tc main_v7
abbrev rA2 : DevRef τ sig := Proc.devRef .tc main_v8
abbrev rB : DevRef τ sig := Proc.devRef .tc main_arg11
abbrev rE1t : DevRef τ sig := Proc.devRef .tc main_v9_0
abbrev rE1n : DevRef τ sig := Proc.devRef .tc main_v9_1
abbrev rSqt : DevRef τ sig := Proc.devRef .tc main_v9_2
abbrev rSqn : DevRef τ sig := Proc.devRef .tc main_v9_3

/-- The twelve buffers the call is handed. -/
def scRefs : Finset (DevRef τ sig) := {rSp, rAp, rNid, rN1, rN2, rA1, rA2, rB, rE1t, rE1n, rSqt, rSqn}

theorem scRefs_sub : scRefs ⊆ Pipeline.ucRefs τ sig := by decide

/-- What the eight read-only operands hold when the call is entered, read off the thread's contents. -/
def insOf (W : Dev nD → Valuation τ sig (Elt F)) : Tile.Ins F where
  sp d := W d rSp
  ap d := W d rAp
  nid d := W d rNid
  n1 d := W d rN1
  n2 d := W d rN2
  a1 d := W d rA1
  a2 d := W d rA2
  b d := W d rB

variable [FloatOps F]

/-- The contents after the call: the four results at the kernel's values, everything else as before. -/
def afterCall (W : Dev nD → Valuation τ sig (Elt F)) (d : Dev nD) : Valuation τ sig (Elt F) :=
  setBuf (setBuf (setBuf (setBuf (W d) rE1t (Tile.E1t (insOf W) d)) rE1n (Tile.E1n (insOf W) d)) rSqt (Tile.Sqt (insOf W) d)) rSqn (Tile.Sqn (insOf W) d)

/-! ## The held set at the call's operands -/

/-- The twelve operands' buffers, one by one. -/
theorem held_scRefs (d : Dev nD) (V : Valuation τ sig (Elt F)) :
    (StableHlo.held (T d) scRefs V : sProp 𝕄)
      = iprop((Tile.spLoc d ↦{fullShare} V rSp) ∗ (Tile.apLoc d ↦{fullShare} V rAp) ∗ (Tile.nidLoc d ↦{fullShare} V rNid)
          ∗ (Tile.n1Loc d ↦{fullShare} V rN1) ∗ (Tile.n2Loc d ↦{fullShare} V rN2) ∗ (Tile.a1Loc d ↦{fullShare} V rA1)
          ∗ (Tile.a2Loc d ↦{fullShare} V rA2) ∗ (Tile.bLoc d ↦{fullShare} V rB) ∗ (Tile.e1tLoc d ↦{fullShare} V rE1t)
          ∗ (Tile.e1nLoc d ↦{fullShare} V rE1n) ∗ (Tile.sqtLoc d ↦{fullShare} V rSqt) ∗ (Tile.sqnLoc d ↦{fullShare} V rSqn)) := by
  unfold StableHlo.held scRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Outside the four results the contents after the call are the contents before it. -/
theorem afterCall_of_notMem (W : Dev nD → Valuation τ sig (Elt F)) (d : Dev nD) {b : DevRef τ sig}
    (h1 : rE1t ≠ b) (h2 : rE1n ≠ b) (h3 : rSqt ≠ b) (h4 : rSqn ≠ b) : afterCall W d b = W d b := by
  unfold afterCall
  rw [setBuf_of_ne _ _ h4, setBuf_of_ne _ _ h3, setBuf_of_ne _ _ h2, setBuf_of_ne _ _ h1]

theorem afterCall_e1t (W : Dev nD → Valuation τ sig (Elt F)) (d : Dev nD) : afterCall W d rE1t = Tile.E1t (insOf W) d := by
  unfold afterCall
  rw [setBuf_of_ne _ _ (by decide), setBuf_of_ne _ _ (by decide), setBuf_of_ne _ _ (by decide), setBuf_self]
theorem afterCall_e1n (W : Dev nD → Valuation τ sig (Elt F)) (d : Dev nD) : afterCall W d rE1n = Tile.E1n (insOf W) d := by
  unfold afterCall
  rw [setBuf_of_ne _ _ (by decide), setBuf_of_ne _ _ (by decide), setBuf_self]
theorem afterCall_sqt (W : Dev nD → Valuation τ sig (Elt F)) (d : Dev nD) : afterCall W d rSqt = Tile.Sqt (insOf W) d := by
  unfold afterCall
  rw [setBuf_of_ne _ _ (by decide), setBuf_self]
theorem afterCall_sqn (W : Dev nD → Valuation τ sig (Elt F)) (d : Dev nD) : afterCall W d rSqn = Tile.Sqn (insOf W) d := by
  unfold afterCall
  rw [setBuf_self]

/-! ## The call -/

/-- The SparseCore call from the thread's held buffers: the operands dealt, the call run, the results put back.
    The dealing and the gathering of the operands among the workers enter as the two entailments `hst`, `hdn`. -/
theorem wp_call (W : Dev nD → Valuation τ sig (Elt F))
    (hst : ∀ d : Dev nD, iprop(Tile.readsAt (insOf W) d fullShare ∗ (∃ f, Tile.e1tLoc d ↦{fullShare} f) ∗ (∃ f, Tile.e1nLoc d ↦{fullShare} f)
        ∗ (∃ f, Tile.sqtLoc d ↦{fullShare} f) ∗ (∃ f, Tile.sqnLoc d ↦{fullShare} f))
      ⊢ iprop(Tile.readsAt (insOf W) d (Transfers.shareDrop fullShare 32)
          ∗ bigSep Finset.univ fun c : Fin ((K (F := F)).nCore 0) => (Tile.P (insOf W)).st 0 d c))
    (hdn : ∀ d : Dev nD, iprop(Tile.readsAt (insOf W) d (Transfers.shareDrop fullShare 32)
          ∗ bigSep Finset.univ fun c : Fin ((K (F := F)).nCore 0) => (Tile.P (insOf W)).dn 0 d c)
      ⊢ iprop(Tile.readsAt (insOf W) d fullShare ∗ (Tile.e1tLoc d ↦{fullShare} Tile.E1t (insOf W) d) ∗ (Tile.e1nLoc d ↦{fullShare} Tile.E1n (insOf W) d)
          ∗ (Tile.sqtLoc d ↦{fullShare} Tile.Sqt (insOf W) d) ∗ (Tile.sqnLoc d ↦{fullShare} Tile.Sqn (insOf W) d)))
    (κ : GSem nD τ sig → ℕ) (d : Dev nD) {Φ : PUnit → sProp 𝕄} :
    iprop((K (F := F)).ctx EH (Tile.P (insOf W)) κ ∗ (K (F := F)).tcSt EH d 0
        ∗ StableHlo.held (T d) (Pipeline.ucRefs τ sig) (W d)
        ∗ (((K (F := F)).tcSt EH d 1 ∗ StableHlo.held (T d) (Pipeline.ucRefs τ sig) (afterCall W d)) -∗ Φ ⟨⟩))
      ⊢ wp frame (wpE ((K (F := F)).defs (D (F := F))) 𝒱 (T d) none) Set.univ ((sc (F := F)).run d 0) Φ := by
  have hrest : (StableHlo.held (T d) (Pipeline.ucRefs τ sig \ scRefs) (afterCall W d) : sProp 𝕄)
      = StableHlo.held (T d) (Pipeline.ucRefs τ sig \ scRefs) (W d) :=
    StableHlo.held_congr (c := T d) fun b hb => by
      have hb' : b ∉ scRefs := (Finset.mem_sdiff.mp hb).2
      refine afterCall_of_notMem W d ?_ ?_ ?_ ?_ <;> (intro e; apply hb'; rw [← e]; decide)
  rw [StableHlo.held_sub_split (c := T d) scRefs_sub (W d), StableHlo.held_sub_split (c := T d) scRefs_sub (afterCall W d), hrest, held_scRefs, held_scRefs,
    afterCall_e1t, afterCall_e1n, afterCall_sqt, afterCall_sqn,
    afterCall_of_notMem W d (b := rSp) (by decide) (by decide) (by decide) (by decide),
    afterCall_of_notMem W d (b := rAp) (by decide) (by decide) (by decide) (by decide),
    afterCall_of_notMem W d (b := rNid) (by decide) (by decide) (by decide) (by decide),
    afterCall_of_notMem W d (b := rN1) (by decide) (by decide) (by decide) (by decide),
    afterCall_of_notMem W d (b := rN2) (by decide) (by decide) (by decide) (by decide),
    afterCall_of_notMem W d (b := rA1) (by decide) (by decide) (by decide) (by decide),
    afterCall_of_notMem W d (b := rA2) (by decide) (by decide) (by decide) (by decide),
    afterCall_of_notMem W d (b := rB) (by decide) (by decide) (by decide) (by decide)]
  iintro ⟨#Hctx, Hst, ⟨⟨Hsp, Hap, Hnid, Hn1, Hn2, Ha1, Ha2, Hb, He1t, He1n, Hsqt, Hsqn⟩, Hrest⟩, Hk⟩
  ihave Hdeal := (hst d) $$ [Hsp Hap Hnid Hn1 Hn2 Ha1 Ha2 Hb He1t He1n Hsqt Hsqn]
  · unfold Tile.readsAt
    isplitl [Hsp Hap Hnid Hn1 Hn2 Ha1 Ha2 Hb]
    · isplitl [Hsp]; · iexact Hsp
      isplitl [Hap]; · iexact Hap
      isplitl [Hnid]; · iexact Hnid
      isplitl [Hn1]; · iexact Hn1
      isplitl [Hn2]; · iexact Hn2
      isplitl [Ha1]; · iexact Ha1
      isplitl [Ha2]; · iexact Ha2
      iexact Hb
    isplitl [He1t]; · iexists _; iexact He1t
    isplitl [He1n]; · iexists _; iexact He1n
    isplitl [Hsqt]; · iexists _; iexact Hsqt
    iexists _; iexact Hsqn
  icases Hdeal with ⟨Hdrop, Hops⟩
  iapply ((K (F := F)).wp_run (D (F := F)) 𝒱 (EH := EH) (P := Tile.P (insOf W)) κ d 0) $$ [Hst Hops Hdrop Hrest Hk]
  isplitr; · iexact Hctx
  isplitl [Hst]; · iexact Hst
  isplitl [Hops]; · iexact Hops
  iintro ⟨Hst, Hdn⟩
  ihave Hback := (hdn d) $$ [Hdrop Hdn]
  · isplitl [Hdrop]; · iexact Hdrop
    iexact Hdn
  icases Hback with ⟨Hreads, He1t, He1n, Hsqt, Hsqn⟩
  unfold Tile.readsAt
  icases Hreads with ⟨Hsp, Hap, Hnid, Hn1, Hn2, Ha1, Ha2, Hb⟩
  iapply Hk
  isplitl [Hst]; · iexact Hst
  isplitr [Hrest]
  · isplitl [Hsp]; · iexact Hsp
    isplitl [Hap]; · iexact Hap
    isplitl [Hnid]; · iexact Hnid
    isplitl [Hn1]; · iexact Hn1
    isplitl [Hn2]; · iexact Hn2
    isplitl [Ha1]; · iexact Ha1
    isplitl [Ha2]; · iexact Ha2
    isplitl [Hb]; · iexact Hb
    isplitl [He1t]; · iexact He1t
    isplitl [He1n]; · iexact He1n
    isplitl [Hsqt]; · iexact Hsqt
    iexact Hsqn
  iexact Hrest

end Cert.KernelIdeal.Main

end
-- ==== Proof.Region0.lean ====
import proofs.«213116_g69346541961480_cont_9to1_m_612_34_alg».proof.Proof.Gen.KernelIdeal.Launch
import proofs.«213116_g69346541961480_cont_9to1_m_612_34_alg».proof.Proof.Gen.KernelIdeal.Skeleton
import proofs.«213116_g69346541961480_cont_9to1_m_612_34_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

/-!
# The first dense stage as a pipelined region

The first TensorCore call runs over the 50 row blocks of the node table `x` (2000 rows each). At block `t` it reads
the block `x_t` and six whole parameter arrays (two hidden-layer weight matrices with their bias rows, and the two
halves of the output weight matrix) and writes two blocks,

* `Sp_t = relu(x_t · W_self + b_self) · W_out[:128]`,
* `Ap_t = relu(x_t · W_agg + b_agg) · W_out[128:]`,

each a function of `x_t` and the parameters alone: nothing is carried from block to block. This module gives the
pipeline rule its data for that call — what every window's buffer holds after the body at every block, as a closed
function of the arrays' contents `V` when the call is entered — proves the body's triple at a symbolic block, and reads
the two result arrays after the last block back, block by block.
-/

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The prefetched tables' admissible contents: no pipeline of the program has a table. -/
abbrev adm : (p : Fin 3) → (pcfgs (F := F) p).Adm := fun p => (cfgs p).toPCfg_adm

section Region
-- the TensorCore's buffer contents when the call is entered, what the core owes other threads throughout it, and the
-- bound on the pairs its waits have recorded
variable (V : (c : Dev nD) → (b : Ref sig .tc) → Buf (Elt F) ((c : Thread nD τ).loc b))
variable (O : CellTallies nD τ sig Ix) (B : Set (SemLoc sig × Ix))

/-! ## The windows' blocks -/

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in the two result windows -/

/-- The whole 2000×128 block, the whole 128×128 matrix, the whole bias row: the body's every access. -/
abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The self-branch block: `relu(x · W_self + b_self) · W_out[:128]`, the one store into window 7. -/
def outSp (x : Vec F S2000x128 .f32) (ws : Vec F S128x128 .f32) (bs : Vec F S1x128 .f32) (wo : Vec F S128x128 .f32) : Vec F S2000x128 .f32 :=
  View.canon [⟨rX, k0_pay1 (View.ld x rX) (View.ld ws rW) (View.ld bs rB) (View.ld wo rW)⟩]

/-- The neighbour-branch block: `relu(x · W_agg + b_agg) · W_out[128:]`, the one store into window 8. -/
def outAp (x : Vec F S2000x128 .f32) (wa : Vec F S128x128 .f32) (ba : Vec F S1x128 .f32) (wo : Vec F S128x128 .f32) : Vec F S2000x128 .f32 :=
  View.canon [⟨rX, k0_pay2 (View.ld x rX) (View.ld wa rW) (View.ld ba rB) (View.ld wo rW)⟩]

/-! ## The two result blocks in closed form

Every access of the body is through the whole-buffer rectangle at zero offsets, through which a load reads the contents
and one store leaves its payload: the result blocks are the payloads themselves, of the input blocks. -/

theorem hz2 : (![0, 0] : Fin 2 → Nat) = fun _ => 0 := funext fun a => by fin_cases a <;> rfl

theorem outSp_eq (x : Vec F S2000x128 .f32) (ws : Vec F S128x128 .f32) (bs : Vec F S1x128 .f32) (wo : Vec F S128x128 .f32) :
    outSp x ws bs wo = k0_pay1 x ws bs wo := by
  unfold outSp
  rw [View.canon_unit_zero hz2]
  simp only [View.ld_unit_zero (S := S2000x128) hz2, View.ld_unit_zero (S := S128x128) hz2, View.ld_unit_zero (S := S1x128) hz2]

theorem outAp_eq (x : Vec F S2000x128 .f32) (wa : Vec F S128x128 .f32) (ba : Vec F S1x128 .f32) (wo : Vec F S128x128 .f32) :
    outAp x wa ba wo = k0_pay2 x wa ba wo := by
  unfold outAp
  rw [View.canon_unit_zero hz2]
  simp only [View.ld_unit_zero (S := S2000x128) hz2, View.ld_unit_zero (S := S128x128) hz2, View.ld_unit_zero (S := S1x128) hz2]

/-- A single store through the whole-block rectangle covers the block. -/
theorem coverX (p : Vec F S2000x128 .f32) (y : S2000x128.Idx) :
    ∃ pc ∈ ([⟨rX, p⟩] : List (View.Piece (Elt F) S2000x128 .f32)), y ∈ pc.1.set :=
  View.cover_of_tiled [⟨rX, p⟩] S2000x128.size (by rfl) y

/-! ## The body's triple -/

set_option maxHeartbeats 1000000 in
/-- The body on whole staging memrefs — the seven inputs' at read contents, the two results' at anything — runs to the
    continuation holding the inputs' as they were and each result's at its closed form: nine loads (two of them of the
    result buffers, their values unused) and two whole-block stores. -/
theorem sound_kernel0 (𝒱₀ : Variants) (c : Dev nD) (E : Set Name) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole) (arg8 : Memref sig .tc .vmem S2000x128 .f32) (harg8 : arg8.IsWhole)
    (arg9 : Memref sig .tc .vmem S2000x128 .f32) (harg9 : arg9.IsWhole)
    (x : Vec F S2000x128 .f32) (ws : Vec F S128x128 .f32) (bs : Vec F S1x128 .f32) (wa : Vec F S128x128 .f32) (ba : Vec F S1x128 .f32)
    (wo1 : Vec F S128x128 .f32) (wo2 : Vec F S128x128 .f32) (K : PUnit → sProp 𝕄) :
    iprop(owns (c : Thread nD τ) arg1 fullShare x ∗ owns (c : Thread nD τ) arg2 fullShare ws ∗ owns (c : Thread nD τ) arg3 fullShare bs
        ∗ owns (c : Thread nD τ) arg4 fullShare wa ∗ owns (c : Thread nD τ) arg5 fullShare ba ∗ owns (c : Thread nD τ) arg6 fullShare wo1
        ∗ owns (c : Thread nD τ) arg7 fullShare wo2 ∗ (∃ d, owns (c : Thread nD τ) arg8 fullShare d) ∗ (∃ d, owns (c : Thread nD τ) arg9 fullShare d)
        ∗ (iprop(owns (c : Thread nD τ) arg1 fullShare x ∗ owns (c : Thread nD τ) arg2 fullShare ws ∗ owns (c : Thread nD τ) arg3 fullShare bs
            ∗ owns (c : Thread nD τ) arg4 fullShare wa ∗ owns (c : Thread nD τ) arg5 fullShare ba ∗ owns (c : Thread nD τ) arg6 fullShare wo1
            ∗ owns (c : Thread nD τ) arg7 fullShare wo2 ∗ owns (c : Thread nD τ) arg8 fullShare (outSp x ws bs wo1)
            ∗ owns (c : Thread nD τ) arg9 fullShare (outAp x wa ba wo2)) -∗ K ⟨⟩))
      ⊢ wp frame (wpE (defs₀ (F := F)) 𝒱₀ c none) E
          (cc0__t1_body i arg1 harg1 arg2 harg2 arg3 harg3 arg4 harg4 arg5 harg5 arg6 harg6 arg7 harg7 arg8 harg8 arg9 harg9) K := by
  simp only [cc0__t1_body_eq_skeleton]; unfold cc0__t1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  iexists _; isplitr
  swap; · iexact H9
  ipureintro
  exact View.read_writes_eq_canon _ _ _ (coverX _)

/-! ## The pipeline's proof data -/

/-- The call's proof data on core `c`: the arrays as the call finds them; after the body at point `t` each input's
    buffer at its block and each result's at its closed form of the input blocks; between points nothing but the core's
    scoped buffers no window stages, untouched; full shares; the core owing `O` throughout (the body signals nothing), its
    recorded pairs within `B` throughout (the body waits for nothing). -/
def dat (c : Dev nD) : Dat τ (Elt F) Ix Name U Lvl cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outSp (blk V c 0 t) (blk V c 1 t) (blk V c 2 t) (blk V c 5 t)
    | ⟨8, _⟩ => outAp (blk V c 0 t) (blk V c 3 t) (blk V c 4 t) (blk V c 6 t)
  Φ _ := Pipeline.scopedRest (Ix := Ix) (Name := Name) (U := U) (Lvl := Lvl) (Val := Elt F) spec0 c
  q _ := fullShare
  owed _ := O
  recorded _ := B

-- the proof data with its ghost-state parameters pinned to the section's
local notation "𝔡" => dat (Name := Name) (U := U) (Lvl := Lvl) V O B

/-- The proof data's arrays are the entry contents; its other fields are the parameters. -/
theorem A_eq (c : Dev nD) (w : Fin cfg0.W) : (𝔡 c).A w = V c (Pipeline.arrRef spec0 w) := by
  dsimp only [dat]
theorem q_eq (c : Dev nD) (w : Fin cfg0.W) : (𝔡 c).q w = fullShare := rfl
theorem owed_eq (c : Dev nD) (t : Fin (cfg0.N + 1)) : (𝔡 c).owed t = O := rfl
theorem recorded_eq (c : Dev nD) (t : Fin (cfg0.N + 1)) : (𝔡 c).recorded t = B := rfl
theorem Φ_eq (c : Dev nD) (t : Fin (cfg0.N + 1)) : (𝔡 c).Φ t
    = Pipeline.scopedRest (Ix := Ix) (Name := Name) (U := U) (Lvl := Lvl) (Val := Elt F) spec0 c := rfl

/-- What the body leaves, window by window (the proof data's `match` reduced by `dsimp`). -/
theorem after_0 (c : Dev nD) (t : Fin cfg0.N) : (𝔡 c).after 0 t = blk V c 0 t := by dsimp only [dat]
theorem after_1 (c : Dev nD) (t : Fin cfg0.N) : (𝔡 c).after 1 t = blk V c 1 t := by dsimp only [dat]
theorem after_2 (c : Dev nD) (t : Fin cfg0.N) : (𝔡 c).after 2 t = blk V c 2 t := by dsimp only [dat]
theorem after_3 (c : Dev nD) (t : Fin cfg0.N) : (𝔡 c).after 3 t = blk V c 3 t := by dsimp only [dat]
theorem after_4 (c : Dev nD) (t : Fin cfg0.N) : (𝔡 c).after 4 t = blk V c 4 t := by dsimp only [dat]
theorem after_5 (c : Dev nD) (t : Fin cfg0.N) : (𝔡 c).after 5 t = blk V c 5 t := by dsimp only [dat]
theorem after_6 (c : Dev nD) (t : Fin cfg0.N) : (𝔡 c).after 6 t = blk V c 6 t := by dsimp only [dat]
theorem after_7 (c : Dev nD) (t : Fin cfg0.N) : (𝔡 c).after 7 t
    = outSp (blk V c 0 t) (blk V c 1 t) (blk V c 2 t) (blk V c 5 t) := by dsimp only [dat]
theorem after_8 (c : Dev nD) (t : Fin cfg0.N) : (𝔡 c).after 8 t
    = outAp (blk V c 0 t) (blk V c 3 t) (blk V c 4 t) (blk V c 6 t) := by dsimp only [dat]

/-! ## What the body finds in the input windows

An input window whose body leaves its block in place holds that block at every point, fetched there or not: the row
block `x_t` is fetched at every point; a parameter array is fetched at the first point only, and its block index
never moves, so the buffer still holds the block. All seven windows are uncut, so a fetch fills the whole buffer. -/

-- the block a fetch reads is the block read off the entry contents
local macro "entry_block" : tactic => `(tactic| (unfold Dat.blockOf blk; rw [A_eq]; try rfl))
local macro "entry_fetch" : tactic => `(tactic| (unfold Dat.fetched Dat.blockOf blk; rw [A_eq]; try rfl))

theorem before_0 (c : Dev nD) (t : Fin cfg0.N) (d) : (𝔡 c).before 0 t d = blk V c 0 t :=
  ((𝔡 c).before_in_eq_fetched 0 rfl (fun _ => rfl) (fun _ _ _ => rfl) (fun t => by rw [after_0]; entry_block) t d).trans (by entry_fetch)
theorem before_1 (c : Dev nD) (t : Fin cfg0.N) (d) : (𝔡 c).before 1 t d = blk V c 1 t :=
  ((𝔡 c).before_in_eq_fetched 1 rfl (fun _ => rfl) (fun _ _ _ => rfl) (fun t => by rw [after_1]; entry_block) t d).trans (by entry_fetch)
theorem before_2 (c : Dev nD) (t : Fin cfg0.N) (d) : (𝔡 c).before 2 t d = blk V c 2 t :=
  ((𝔡 c).before_in_eq_fetched 2 rfl (fun _ => rfl) (fun _ _ _ => rfl) (fun t => by rw [after_2]; entry_block) t d).trans (by entry_fetch)
theorem before_3 (c : Dev nD) (t : Fin cfg0.N) (d) : (𝔡 c).before 3 t d = blk V c 3 t :=
  ((𝔡 c).before_in_eq_fetched 3 rfl (fun _ => rfl) (fun _ _ _ => rfl) (fun t => by rw [after_3]; entry_block) t d).trans (by entry_fetch)
theorem before_4 (c : Dev nD) (t : Fin cfg0.N) (d) : (𝔡 c).before 4 t d = blk V c 4 t :=
  ((𝔡 c).before_in_eq_fetched 4 rfl (fun _ => rfl) (fun _ _ _ => rfl) (fun t => by rw [after_4]; entry_block) t d).trans (by entry_fetch)
theorem before_5 (c : Dev nD) (t : Fin cfg0.N) (d) : (𝔡 c).before 5 t d = blk V c 5 t :=
  ((𝔡 c).before_in_eq_fetched 5 rfl (fun _ => rfl) (fun _ _ _ => rfl) (fun t => by rw [after_5]; entry_block) t d).trans (by entry_fetch)
theorem before_6 (c : Dev nD) (t : Fin cfg0.N) (d) : (𝔡 c).before 6 t d = blk V c 6 t :=
  ((𝔡 c).before_in_eq_fetched 6 rfl (fun _ => rfl) (fun _ _ _ => rfl) (fun t => by rw [after_6]; entry_block) t d).trans (by entry_fetch)

/-! ## The body obligation, at a generic point -/

variable (ι : Ix)

/-- What the body is called with at point `t`: the invariant, what the core owes, and each window's current buffer, -/
def bodyPre (c : Dev nD) (t : Fin cfg0.N) : sProp 𝕄 :=
  iprop((𝔡 c).Φ t.castSucc ∗ (𝔡 c).owesAt ι t.castSucc
    ∗ (∃ d, owns (c : Thread nD τ) (st0_0 t) fullShare ((𝔡 c).before 0 t d))
    ∗ (∃ d, owns (c : Thread nD τ) (st0_1 t) fullShare ((𝔡 c).before 1 t d))
    ∗ (∃ d, owns (c : Thread nD τ) (st0_2 t) fullShare ((𝔡 c).before 2 t d))
    ∗ (∃ d, owns (c : Thread nD τ) (st0_3 t) fullShare ((𝔡 c).before 3 t d))
    ∗ (∃ d, owns (c : Thread nD τ) (st0_4 t) fullShare ((𝔡 c).before 4 t d))
    ∗ (∃ d, owns (c : Thread nD τ) (st0_5 t) fullShare ((𝔡 c).before 5 t d))
    ∗ (∃ d, owns (c : Thread nD τ) (st0_6 t) fullShare ((𝔡 c).before 6 t d))
    ∗ (∃ d, owns (c : Thread nD τ) (st0_7 t) fullShare ((𝔡 c).before 7 t d))
    ∗ (∃ d, owns (c : Thread nD τ) (st0_8 t) fullShare ((𝔡 c).before 8 t d)))

/-- and what it returns. -/
def bodyPost (c : Dev nD) (t : Fin cfg0.N) : sProp 𝕄 :=
  iprop((𝔡 c).Φ t.succ ∗ (𝔡 c).owesAt ι t.succ
    ∗ owns (c : Thread nD τ) (st0_0 t) fullShare ((𝔡 c).after 0 t)
    ∗ owns (c : Thread nD τ) (st0_1 t) fullShare ((𝔡 c).after 1 t)
    ∗ owns (c : Thread nD τ) (st0_2 t) fullShare ((𝔡 c).after 2 t)
    ∗ owns (c : Thread nD τ) (st0_3 t) fullShare ((𝔡 c).after 3 t)
    ∗ owns (c : Thread nD τ) (st0_4 t) fullShare ((𝔡 c).after 4 t)
    ∗ owns (c : Thread nD τ) (st0_5 t) fullShare ((𝔡 c).after 5 t)
    ∗ owns (c : Thread nD τ) (st0_6 t) fullShare ((𝔡 c).after 6 t)
    ∗ owns (c : Thread nD τ) (st0_7 t) fullShare ((𝔡 c).after 7 t)
    ∗ owns (c : Thread nD τ) (st0_8 t) fullShare ((𝔡 c).after 8 t))

/-- The body at any point: the inputs' buffers hold their blocks, so the body's triple applies; the invariant and what
    the core owes pass through unread. -/
theorem sound_body (𝒱₀ : Variants) (c : Dev nD) (t : Fin cfg0.N) :
    bodyPre (Name := Name) (U := U) (Lvl := Lvl) V O B ι c t
      ⊢ wp frame (wpE (defs₀ (F := F)) 𝒱₀ c none) (Set.univ : Set Name) (bodyAt0 t)
          (fun _ => bodyPost (Name := Name) (U := U) (Lvl := Lvl) V O B ι c t) := by
  unfold bodyPre bodyPost bodyAt0
  simp only [before_0, before_1, before_2, before_3, before_4, before_5, before_6]
  rewrite [show (𝔡 c).Φ t.succ = (𝔡 c).Φ t.castSucc from rfl,
    show (𝔡 c).owesAt ι t.succ = (𝔡 c).owesAt ι t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 𝒱₀ c Set.univ _ _ _ _ _ _ _ _ _ _ _ _ _ _ _ _ _ _ _ (blk V c 0 t) (blk V c 1 t) (blk V c 2 t) (blk V c 3 t)
    (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation, at every point, for whatever the core owes. -/
theorem body_obligation (𝒱₀ : Variants) (c : Dev nD) :
    BodyObligationLoose (𝔡 c) (defs₀ (F := F)) 𝒱₀ ι Set.univ :=
  (show BodyObligation (𝔡 c) (defs₀ (F := F)) 𝒱₀ ι Set.univ from fun t => by
    rw [bigSep_W0, bigSep_W0]
    exact sound_body (Name := Name) (U := U) (Lvl := Lvl) V O B ι 𝒱₀ c t).loose

/-! ## The invariant at the region's two ends

Between points the body keeps nothing of its own, so the invariant is the core's scoped buffers no window stages, which
the region rule hands over before the first point and takes back after the last; nothing else enters or leaves (the
call has no prefetched table and no semaphore of its own). -/

theorem hin (c : Dev nD) :
    iprop((emp : sProp 𝕄) ∗ Pipeline.prefHeld (pcfgs (F := F) 0).pre c (fun _ => fullShare) (adm (F := F) 0).1
        ∗ Pipeline.scopedRest spec0 c) ⊢ (𝔡 c).Φ 0 := by
  rw [Φ_eq]
  iintro ⟨-, -, H⟩
  iexact H

theorem hout (c : Dev nD) :
    (𝔡 c).Φ (Fin.last cfg0.N)
      ⊢ iprop((emp : sProp 𝕄) ∗ Pipeline.ownSems0 (fun k : PEmpty => k.elim) c ∗ Pipeline.scopedRest spec0 c) := by
  rw [Φ_eq, Pipeline.ownSems0_none]
  iintro H
  isplitr; · iempintro
  isplitr; · iempintro
  iexact H

/-- The wait evidence for the pipeline's staging cells: the core owes the same `O` before every point, so evidence
    that it may wait on any of its semaphores at index `ι` while owing `O` serves every cell and point. Stated for any
    family of proof data whose member at this call owes `O` throughout. -/
theorem hwaits (pdats : (p : Fin 3) → (c : Dev nD) → Dat τ (Elt F) Ix Name U Lvl (Pipeline.pin (pcfgs (F := F)) adm p) c)
    (h0 : ∀ c t, (pdats 0 c).owed t = O) (L : GSem nD τ sig → Finset Ix) (lv : GSem nD τ sig → Ix → Lvl) (c : Dev nD)
    (hmw : ∀ sm : SemLoc sig, (levAts L lv : sProp 𝕄) ⊢ MayWait (c : Thread nD τ) sm ι O) :
    (levAts L lv : sProp 𝕄) ⊢ Pipeline.cellsWaits (Pipeline.pin (pcfgs (F := F)) adm) pdats ι 0 c :=
  Pipeline.cellsWaits_intro _ _ ι 0 c fun w s t => by rw [h0]; exact hmw _

/-! ## The arrays after the last point

An input array is never written: it ends as it was entered. The two result arrays are written block by block, point
`t` writing rows `[2000 t, 2000 t + 2000)`; no two points write the same rows, so block `t` of the final array is what
point `t` left in the staging buffer. -/

theorem arrAt_0 (c : Dev nD) (n : Nat) : (𝔡 c).arrAt 0 n = V c (Pipeline.arrRef spec0 0) := ((𝔡 c).arrAt_in 0 rfl n).trans (A_eq V O B c 0)
theorem arrAt_1 (c : Dev nD) (n : Nat) : (𝔡 c).arrAt 1 n = V c (Pipeline.arrRef spec0 1) := ((𝔡 c).arrAt_in 1 rfl n).trans (A_eq V O B c 1)
theorem arrAt_2 (c : Dev nD) (n : Nat) : (𝔡 c).arrAt 2 n = V c (Pipeline.arrRef spec0 2) := ((𝔡 c).arrAt_in 2 rfl n).trans (A_eq V O B c 2)
theorem arrAt_3 (c : Dev nD) (n : Nat) : (𝔡 c).arrAt 3 n = V c (Pipeline.arrRef spec0 3) := ((𝔡 c).arrAt_in 3 rfl n).trans (A_eq V O B c 3)
theorem arrAt_4 (c : Dev nD) (n : Nat) : (𝔡 c).arrAt 4 n = V c (Pipeline.arrRef spec0 4) := ((𝔡 c).arrAt_in 4 rfl n).trans (A_eq V O B c 4)
theorem arrAt_5 (c : Dev nD) (n : Nat) : (𝔡 c).arrAt 5 n = V c (Pipeline.arrRef spec0 5) := ((𝔡 c).arrAt_in 5 rfl n).trans (A_eq V O B c 5)
theorem arrAt_6 (c : Dev nD) (n : Nat) : (𝔡 c).arrAt 6 n = V c (Pipeline.arrRef spec0 6) := ((𝔡 c).arrAt_in 6 rfl n).trans (A_eq V O B c 6)

/-- Distinct points write distinct row blocks of a result array. -/
theorem index_inj_7 : ∀ t t' : Fin cfg0.N, (cfg0.win 7).index t = (cfg0.win 7).index t' → t = t' :=
  (by decide +kernel : ∀ t t' : Fin grid0.N, win0_7.index t = win0_7.index t' → t = t')
theorem index_inj_8 : ∀ t t' : Fin cfg0.N, (cfg0.win 8).index t = (cfg0.win 8).index t' → t = t' :=
  (by decide +kernel : ∀ t t' : Fin grid0.N, win0_8.index t = win0_8.index t' → t = t')

theorem disj_7 (t t' : Fin cfg0.N) (_ : (cfg0.win 7).flush t = true) (_ : (cfg0.win 7).flush t' = true) (h : t ≠ t') :
    Disjoint ((cfg0.win 7).blk t).view.set ((cfg0.win 7).blk t').view.set :=
  (cfg0.win 7).disjoint_blk fun e => h (index_inj_7 t t' e)
theorem disj_8 (t t' : Fin cfg0.N) (_ : (cfg0.win 8).flush t = true) (_ : (cfg0.win 8).flush t' = true) (h : t ≠ t') :
    Disjoint ((cfg0.win 8).blk t).view.set ((cfg0.win 8).blk t').view.set :=
  (cfg0.win 8).disjoint_blk fun e => h (index_inj_8 t t' e)

/-- Block `t` of the first result array after the last point, element by element: the self-branch block of `x_t`. -/
theorem arrAt_7 (c : Dev nD) (t : Fin cfg0.N) (y : ((cfg0.win 7).xblock (cfg0.grid.coords t)).Idx) :
    (𝔡 c).arrAt 7 cfg0.N (((cfg0.win 7).blk t).view.emb y)
      = outSp (blk V c 0 t) (blk V c 1 t) (blk V c 2 t) (blk V c 5 t) y := by
  rw [(𝔡 c).arrAt_emb_eq_flushed 7 disj_7 t (flush0_7 t) y]
  unfold Dat.flushed
  rw [after_7]
  generalize outSp (blk V c 0 t) (blk V c 1 t) (blk V c 2 t) (blk V c 5 t) = X
  rfl

/-- Block `t` of the second result array after the last point: the neighbour-branch block of `x_t`. -/
theorem arrAt_8 (c : Dev nD) (t : Fin cfg0.N) (y : ((cfg0.win 8).xblock (cfg0.grid.coords t)).Idx) :
    (𝔡 c).arrAt 8 cfg0.N (((cfg0.win 8).blk t).view.emb y)
      = outAp (blk V c 0 t) (blk V c 3 t) (blk V c 4 t) (blk V c 6 t) y := by
  rw [(𝔡 c).arrAt_emb_eq_flushed 8 disj_8 t (flush0_8 t) y]
  unfold Dat.flushed
  rw [after_8]
  generalize outAp (blk V c 0 t) (blk V c 3 t) (blk V c 4 t) (blk V c 6 t) = X
  rfl

end Region

end Cert.KernelIdeal.Region0

end
-- ==== Proof.Region1Body.lean ====
import proofs.«213116_g69346541961480_cont_9to1_m_612_34_alg».proof.Proof.Gen.KernelIdeal.Skeleton
import Idealize.ShloMosaic.Lib.Pipeline.FrameBody
import Idealize.ShloMosaic.Lib.Pipeline.Value
import Idealize.ShloMosaic.Lib.Tactic
import Mathlib.Tactic.FinCases

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body loads and stores through -/

/-- The whole 512×128 block (the targets' level-1 embeddings; the output block). -/
abbrev rA : Rect S512x128 := Rect.unit (s := S512x128) ![0, 0] S512x128.size inb_S512x128_S512x128_0_0
/-- Neighbour slot `k` of the 512×10×128 block: rows `[·, k, ·]`. -/
abbrev rN0 : Rect S512x10x128 := Rect.unit (s := S512x10x128) ![0, 0, 0] S512x1x128.size inb_S512x10x128_S512x1x128_0_0_0
abbrev rN1 : Rect S512x10x128 := Rect.unit (s := S512x10x128) ![0, 1, 0] S512x1x128.size inb_S512x10x128_S512x1x128_0_1_0
abbrev rN2 : Rect S512x10x128 := Rect.unit (s := S512x10x128) ![0, 2, 0] S512x1x128.size inb_S512x10x128_S512x1x128_0_2_0
abbrev rN3 : Rect S512x10x128 := Rect.unit (s := S512x10x128) ![0, 3, 0] S512x1x128.size inb_S512x10x128_S512x1x128_0_3_0
abbrev rN4 : Rect S512x10x128 := Rect.unit (s := S512x10x128) ![0, 4, 0] S512x1x128.size inb_S512x10x128_S512x1x128_0_4_0
abbrev rN5 : Rect S512x10x128 := Rect.unit (s := S512x10x128) ![0, 5, 0] S512x1x128.size inb_S512x10x128_S512x1x128_0_5_0
abbrev rN6 : Rect S512x10x128 := Rect.unit (s := S512x10x128) ![0, 6, 0] S512x1x128.size inb_S512x10x128_S512x1x128_0_6_0
abbrev rN7 : Rect S512x10x128 := Rect.unit (s := S512x10x128) ![0, 7, 0] S512x1x128.size inb_S512x10x128_S512x1x128_0_7_0
abbrev rN8 : Rect S512x10x128 := Rect.unit (s := S512x10x128) ![0, 8, 0] S512x1x128.size inb_S512x10x128_S512x1x128_0_8_0
abbrev rN9 : Rect S512x10x128 := Rect.unit (s := S512x10x128) ![0, 9, 0] S512x1x128.size inb_S512x10x128_S512x1x128_0_9_0
/-- The whole 512×10 block of neighbour weights. -/
abbrev rAl : Rect S512x10 := Rect.unit (s := S512x10) ![0, 0] S512x10.size inb_S512x10_S512x10_0_0
/-- A whole 128×128 weight matrix. -/
abbrev rW : Rect S128x128 := Rect.unit (s := S128x128) ![0, 0] S128x128.size inb_S128x128_S128x128_0_0
/-- A whole 1×128 row (a bias; the carried column sums). -/
abbrev rB : Rect S1x128 := Rect.unit (s := S1x128) ![0, 0] S1x128.size inb_S1x128_S1x128_0_0
/-- The whole 32×16 table of per-tile partial sums of squares. -/
abbrev rS : Rect S32x16 := Rect.unit (s := S32x16) ![0, 0] S32x16.size inb_S32x16_S32x16_0_0

/-! ## What the body computes, as pure functions of its input blocks

Names: `x0` the targets' level-1 embeddings (512×128), `x1` their neighbours' (512×10×128), `x2` the neighbour
weights (512×10), `x3, x4` the self weights and bias, `x5, x6` the neighbour weights and bias, `x7, x8` the two halves
of the output weights, `x9` the output bias, `x10, x11` the per-tile partial sums of squares of the two level-1
embedding arrays. -/

/-- The norm of the targets' level-1 embeddings: the square root of the total of the partial sums. -/
def nu1Of (x10 : Vec F S32x16 .f32) : F .f32 := k2_pay4 (View.ld x10 rS)
/-- The norm of the neighbours' level-1 embeddings. -/
def nu2Of (x11 : Vec F S32x16 .f32) : F .f32 := k2_pay5 (View.ld x11 rS)
/-- The self branch: `relu(x0 · W_self + ν₁ · b_self)`. -/
def selfOf (x0 : Vec F S512x128 .f32) (x3 : Vec F S128x128 .f32) (x4 : Vec F S1x128 .f32) (x10 : Vec F S32x16 .f32) : FVec F S512x128 .f32 :=
  k2_pay6 (View.ld x10 rS) (View.ld x0 rA) (View.ld x3 rW) (View.ld x4 rB)
/-- The neighbour branch: the weighted sum over the ten neighbour slots of `relu(x1[·, k, ·] · W_agg + ν₂ · b_agg)`,
    accumulated slot by slot as the body unrolls it. -/
def aggOf (x1 : Vec F S512x10x128 .f32) (x2 : Vec F S512x10 .f32) (x5 : Vec F S128x128 .f32) (x6 : Vec F S1x128 .f32)
    (x11 : Vec F S32x16 .f32) : FVec F S512x128 .f32 :=
  have v13 : F .f32 := nu2Of x11
  have v26 : Vec F S512x10 .f32 := View.ld x2 rAl
  have v59 : FVec F S512x128 .f32 :=
    k2_pay10 v13 v26 (k2_pay7 (F := F)) (k2_pay8 (View.ld x1 rN0) (View.ld x5 rW)) (k2_pay9 (View.ld x6 rB)) (View.ld x1 rN1) (View.ld x5 rW) (View.ld x6 rB)
  have v74 : FVec F S512x128 .f32 := k2_pay11 v13 v26 (View.ld x1 rN2) (View.ld x5 rW) (View.ld x6 rB)
  have v107 : FVec F S512x128 .f32 :=
    k2_pay12 v13 v26 v59 v74 (View.ld x1 rN3) (View.ld x5 rW) (View.ld x6 rB) (View.ld x1 rN4) (View.ld x5 rW) (View.ld x6 rB)
  have v139 : FVec F S512x128 .f32 :=
    k2_pay14 v13 v26 v107 (k2_pay13 (View.ld x1 rN5)) (View.ld x5 rW) (constant S512x128 .f32 0x00000000#32) (View.ld x6 rB)
      (View.ld x1 rN6) (View.ld x5 rW) (View.ld x6 rB)
  have v149 : FVec F S512x128 .f32 := k2_pay15 v13 (View.ld x1 rN7) (View.ld x5 rW) (View.ld x6 rB)
  k2_pay16 v13 v26 v139 v149 (Scalar.ofBits .f32 0x00000000#32) (View.ld x1 rN8) (View.ld x5 rW) (View.ld x6 rB)
    (View.ld x1 rN9) (View.ld x5 rW) (View.ld x6 rB)

/-- THE OUTPUT BLOCK: the unnormalised level-0 embeddings of the block's 512 rows,
    `relu((self/ν₁) · W_out[:128] + (agg/ν₂) · W_out[128:] + b_out)`. -/
def e0Of (x0 : Vec F S512x128 .f32) (x1 : Vec F S512x10x128 .f32) (x2 : Vec F S512x10 .f32) (x3 : Vec F S128x128 .f32)
    (x4 : Vec F S1x128 .f32) (x5 : Vec F S128x128 .f32) (x6 : Vec F S1x128 .f32) (x7 : Vec F S128x128 .f32)
    (x8 : Vec F S128x128 .f32) (x9 : Vec F S1x128 .f32) (x10 : Vec F S32x16 .f32) (x11 : Vec F S32x16 .f32) : FVec F S512x128 .f32 :=
  k2_pay1 (nu1Of x10) (nu2Of x11) (selfOf x0 x3 x4 x10) (aggOf x1 x2 x5 x6 x11) (k2_pay17 (View.ld x7 rW)) (View.ld x8 rW) (View.ld x9 rB)

/-- THE CARRIED ROW after a point: what it held (`acc`) plus the column sums of the squares of the point's output block. -/
def sqOf (x0 : Vec F S512x128 .f32) (x1 : Vec F S512x10x128 .f32) (x2 : Vec F S512x10 .f32) (x3 : Vec F S128x128 .f32)
    (x4 : Vec F S1x128 .f32) (x5 : Vec F S128x128 .f32) (x6 : Vec F S1x128 .f32) (x7 : Vec F S128x128 .f32)
    (x8 : Vec F S128x128 .f32) (x9 : Vec F S1x128 .f32) (x10 : Vec F S32x16 .f32) (x11 : Vec F S32x16 .f32)
    (acc : Vec F S1x128 .f32) : FVec F S1x128 .f32 :=
  k2_pay3 (nu1Of x10) (nu2Of x11) (selfOf x0 x3 x4 x10) (aggOf x1 x2 x5 x6 x11) (k2_pay17 (View.ld x7 rW)) (View.ld x8 rW) (View.ld x9 rB) acc

/-- The row the first point starts from: zeros. -/
abbrev sqZero : FVec F S1x128 .f32 := k2_pay2 (F := F)

/-! ## The body's branch condition -/

/-- The condition of the body's one conditional (`program_id == 0`), from the grid coordinates. -/
abbrev cond (i : grid2.Coords) : Prop :=
  (Scalar.cmpi .ne (Scalar.extui (Scalar.cmpi .eq (BitVec.ofNat 32 (i 0).val) 0#32)) 0#32) = 1#1
/-- It holds at the first point only: decided over the grid's eight points. -/
theorem hcond : ∀ t : Fin cfg2.N, cond (grid2.coords t) ↔ t.val = 0 :=
  (by decide +kernel : ∀ t : Fin grid2.N, cond (grid2.coords t) ↔ t.val = 0)

/-- The zero offsets of a rank-2 rectangle, as the literal the body spells. -/
theorem off2_zero : (![0, 0] : Fin 2 → Nat) = fun _ => 0 := funext fun a => by fin_cases a <;> rfl

/-! ## The body's triple, on any whole staging memrefs -/

set_option maxHeartbeats 4000000 in
/-- AT THE FIRST POINT (`cond i`): the inputs' memrefs at read contents `xW`, the outputs' at anything; the body runs to
    the inputs' as they were, the output block at `e0Of` of the inputs and the carried row at `sqOf` of them over zeros. -/
theorem sound_kernel_first (𝒱₀ : Variants) (c : Dev nD) (E : Set Name) (i : grid2.Coords) (hc : cond i) (arg1 : Memref sig .tc .vmem S512x128 .f32) (harg1 : arg1.IsWhole) (arg2 : Memref sig .tc .vmem S512x10x128 .f32) (harg2 : arg2.IsWhole) (arg3 : Memref sig .tc .vmem S512x10 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x16 .f32) (harg11 : arg11.IsWhole) (arg12 : Memref sig .tc .vmem S32x16 .f32) (harg12 : arg12.IsWhole) (arg13 : Memref sig .tc .vmem S512x128 .f32) (harg13 : arg13.IsWhole) (arg14 : Memref sig .tc .vmem S1x128 .f32) (harg14 : arg14.IsWhole)
    (x0 : Vec F S512x128 .f32) (x1 : Vec F S512x10x128 .f32) (x2 : Vec F S512x10 .f32) (x3 : Vec F S128x128 .f32) (x4 : Vec F S1x128 .f32) (x5 : Vec F S128x128 .f32) (x6 : Vec F S1x128 .f32) (x7 : Vec F S128x128 .f32) (x8 : Vec F S128x128 .f32) (x9 : Vec F S1x128 .f32) (x10 : Vec F S32x16 .f32) (x11 : Vec F S32x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (e0Of x0 x1 x2 x3 x4 x5 x6 x7 x8 x9 x10 x11)
            ∗ owns (c : Thread nD τ) arg14 fullShare (sqOf x0 x1 x2 x3 x4 x5 x6 x7 x8 x9 x10 x11 (sqZero (F := F)))) -∗ K ⟨⟩))
      ⊢ wp frame (wpE (defs₀ (F := F)) 𝒱₀ c none) E (cc2__t3b_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__t3b_body_eq_skeleton]; unfold cc2__t3b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    rw [View.read_writes_eq_canon _ _ _ (fun y => ⟨_, List.mem_singleton_self _, View.mem_set_unit_zero off2_zero inb_S512x128_S512x128_0_0 y⟩),
      View.canon_unit_zero off2_zero]
    rfl
  · iexists _; isplitr
    swap; · iexact H13
    ipureintro
    rw [View.read_writes_eq_canon _ _ _ (fun y => ⟨_, List.mem_cons_self, View.mem_set_unit_zero off2_zero inb_S1x128_S1x128_0_0 y⟩),
      View.canon_cons_unit_zero off2_zero]
    first
      | (rw [View.readCov_unit_zero _ off2_zero]; rfl)
      | (sl_unfold_run_names; rw [View.readCov_unit_zero _ off2_zero]; rfl)
      | rfl

set_option maxHeartbeats 4000000 in
/-- AT A LATER POINT (`¬ cond i`): the same, the carried row found at `acc` and left at `sqOf` of the inputs over it. -/
theorem sound_kernel_later (𝒱₀ : Variants) (c : Dev nD) (E : Set Name) (i : grid2.Coords) (hc : ¬ cond i) (arg1 : Memref sig .tc .vmem S512x128 .f32) (harg1 : arg1.IsWhole) (arg2 : Memref sig .tc .vmem S512x10x128 .f32) (harg2 : arg2.IsWhole) (arg3 : Memref sig .tc .vmem S512x10 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x16 .f32) (harg11 : arg11.IsWhole) (arg12 : Memref sig .tc .vmem S32x16 .f32) (harg12 : arg12.IsWhole) (arg13 : Memref sig .tc .vmem S512x128 .f32) (harg13 : arg13.IsWhole) (arg14 : Memref sig .tc .vmem S1x128 .f32) (harg14 : arg14.IsWhole)
    (x0 : Vec F S512x128 .f32) (x1 : Vec F S512x10x128 .f32) (x2 : Vec F S512x10 .f32) (x3 : Vec F S128x128 .f32) (x4 : Vec F S1x128 .f32) (x5 : Vec F S128x128 .f32) (x6 : Vec F S1x128 .f32) (x7 : Vec F S128x128 .f32) (x8 : Vec F S128x128 .f32) (x9 : Vec F S1x128 .f32) (x10 : Vec F S32x16 .f32) (x11 : Vec F S32x16 .f32) (acc : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ owns (c : Thread nD τ) arg14 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (e0Of x0 x1 x2 x3 x4 x5 x6 x7 x8 x9 x10 x11)
            ∗ owns (c : Thread nD τ) arg14 fullShare (sqOf x0 x1 x2 x3 x4 x5 x6 x7 x8 x9 x10 x11 (View.ld acc rB))) -∗ K ⟨⟩))
      ⊢ wp frame (wpE (defs₀ (F := F)) 𝒱₀ c none) E (cc2__t3b_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__t3b_body_eq_skeleton]; unfold cc2__t3b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
  subst hf0 hf1 hf2 hf3 hf4 hf5 hf6 hf7 hf8 hf9 hf10 hf11 hf13
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    rw [View.read_writes_eq_canon _ _ _ (fun y => ⟨_, List.mem_singleton_self _, View.mem_set_unit_zero off2_zero inb_S512x128_S512x128_0_0 y⟩),
      View.canon_unit_zero off2_zero]
    rfl
  · iexists _; isplitr
    swap; · iexact H13
    ipureintro
    rw [View.read_writes_eq_canon _ _ _ (fun y => ⟨_, List.mem_singleton_self _, View.mem_set_unit_zero off2_zero inb_S1x128_S1x128_0_0 y⟩),
      View.canon_unit_zero off2_zero]
    rfl

end Cert.KernelIdeal.Region1

end
-- ==== Proof.Region1.lean ====
import proofs.«213116_g69346541961480_cont_9to1_m_612_34_alg».proof.Proof.Region1Body
import proofs.«213116_g69346541961480_cont_9to1_m_612_34_alg».proof.Proof.Gen.KernelIdeal.Launch
import proofs.«213116_g69346541961480_cont_9to1_m_612_34_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The region's proof data, at the entry contents `V` -/

section Data

variable (V : (c : Dev nD) → (b : Ref sig .tc) → Buf (Elt F) ((c : Thread nD τ).loc b))

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of point `t`: `e0Of` of the point's input blocks. -/
def e0At (c : Dev nD) (t : Fin cfg2.N) : Vec F S512x128 .f32 :=
  e0Of (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)

/-- One point's step of the carried row: `sqOf` of the point's input blocks over what the row held. -/
def sqStep (c : Dev nD) (t : Fin cfg2.N) (acc : Vec F S1x128 .f32) : Vec F S1x128 .f32 :=
  sqOf (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) acc

/-- THE CARRIED ROW after point `n`: the fold of `sqStep` over the points `0 … n`, from zeros. -/
def sqAt (c : Dev nD) : (n : ℕ) → n < cfg2.N → Vec F S1x128 .f32
  | 0, h => sqStep V c ⟨0, h⟩ (sqZero (F := F))
  | n + 1, h => sqStep V c ⟨n + 1, h⟩ (View.ld (sqAt c n (Nat.lt_of_succ_lt h)) rB)

theorem sqAt_zero (c : Dev nD) (h : 0 < cfg2.N) : sqAt V c 0 h = sqStep V c ⟨0, h⟩ (sqZero (F := F)) := rfl
theorem sqAt_succ (c : Dev nD) (n : ℕ) (h : n + 1 < cfg2.N) :
    sqAt V c (n + 1) h = sqStep V c ⟨n + 1, h⟩ (sqAt V c n (Nat.lt_of_succ_lt h)) := by
  show sqStep V c ⟨n + 1, h⟩ (View.ld (sqAt V c n (Nat.lt_of_succ_lt h)) rB) = _
  rw [View.ld_unit_zero off2_zero]

/-- The region's invariant on core `c`: the core's scoped buffers that are no staging buffer of this call, at some
    contents each, and its generator register at some state. The body touches neither. -/
def Φ1 (c : Dev nD) : sProp 𝕄 :=
  iprop(Pipeline.scopedRest (Ix := Ix) (Name := Name) (U := U) (Lvl := Lvl) (Val := Elt F) spec2 c ∗ ∃ r, prngReg c r)

/-- The proof data of the region on core `c`: the arrays as the region finds them (`V`); after the body at point `t`
    each input's buffer at its block, the output block's at `e0At`, the carried row's at `sqAt`; the invariant `Φ1`;
    the core owes the constant `O` throughout and its recorded pairs stay within `B`; full shares. -/
def dat (O : CellTallies nD τ sig Ix) (B : Set (SemLoc sig × Ix)) (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => e0At V c t
    | ⟨13, _⟩ => sqAt V c t.val t.isLt
  Φ _ := Φ1 c
  q _ := fullShare
  owed _ := O
  recorded _ := B

variable (O : CellTallies nD τ sig Ix) (B : Set (SemLoc sig × Ix))

local notation "𝔡" => dat (Name := Name) (U := U) (Lvl := Lvl) V O B

theorem A_eq (c : Dev nD) (w : Fin cfg2.W) : (𝔡 c).A w = V c (Pipeline.arrRef spec2 w) := by dsimp only [dat]
theorem q_eq (c : Dev nD) (w : Fin cfg2.W) : (𝔡 c).q w = fullShare := rfl
theorem share_eq (c : Dev nD) (w : Fin cfg2.W) : (𝔡 c).share w = fullShare := (𝔡 c).share_full (fun _ => rfl) w
theorem owed_eq (c : Dev nD) (t : Fin (cfg2.N + 1)) : (𝔡 c).owed t = O := rfl
theorem recorded_eq (c : Dev nD) (t : Fin (cfg2.N + 1)) : (𝔡 c).recorded t = B := rfl
theorem Φ_eq (c : Dev nD) (t : Fin (cfg2.N + 1)) : (𝔡 c).Φ t = Φ1 c := rfl

theorem after_0 (c : Dev nD) (t : Fin cfg2.N) : (𝔡 c).after 0 t = iblk V c 0 t := by dsimp only [dat]
theorem after_1 (c : Dev nD) (t : Fin cfg2.N) : (𝔡 c).after 1 t = iblk V c 1 t := by dsimp only [dat]
theorem after_2 (c : Dev nD) (t : Fin cfg2.N) : (𝔡 c).after 2 t = iblk V c 2 t := by dsimp only [dat]
theorem after_3 (c : Dev nD) (t : Fin cfg2.N) : (𝔡 c).after 3 t = iblk V c 3 t := by dsimp only [dat]
theorem after_4 (c : Dev nD) (t : Fin cfg2.N) : (𝔡 c).after 4 t = iblk V c 4 t := by dsimp only [dat]
theorem after_5 (c : Dev nD) (t : Fin cfg2.N) : (𝔡 c).after 5 t = iblk V c 5 t := by dsimp only [dat]
theorem after_6 (c : Dev nD) (t : Fin cfg2.N) : (𝔡 c).after 6 t = iblk V c 6 t := by dsimp only [dat]
theorem after_7 (c : Dev nD) (t : Fin cfg2.N) : (𝔡 c).after 7 t = iblk V c 7 t := by dsimp only [dat]
theorem after_8 (c : Dev nD) (t : Fin cfg2.N) : (𝔡 c).after 8 t = iblk V c 8 t := by dsimp only [dat]
theorem after_9 (c : Dev nD) (t : Fin cfg2.N) : (𝔡 c).after 9 t = iblk V c 9 t := by dsimp only [dat]
theorem after_10 (c : Dev nD) (t : Fin cfg2.N) : (𝔡 c).after 10 t = iblk V c 10 t := by dsimp only [dat]
theorem after_11 (c : Dev nD) (t : Fin cfg2.N) : (𝔡 c).after 11 t = iblk V c 11 t := by dsimp only [dat]
theorem after_12 (c : Dev nD) (t : Fin cfg2.N) : (𝔡 c).after 12 t = e0At V c t := by dsimp only [dat]
theorem after_13 (c : Dev nD) (t : Fin cfg2.N) : (𝔡 c).after 13 t = sqAt V c t.val t.isLt := by dsimp only [dat]

/-! ## The invariant at the region's ends -/

/-- ENTRY: the generator register and the scoped buffers no window stages make the invariant at the first point
    (whatever else is held beside them is dropped). -/
theorem hin (c : Dev nD) (R : sProp 𝕄) :
    iprop((∃ r, prngReg c r) ∗ R ∗ Pipeline.scopedRest (Ix := Ix) (Name := Name) (U := U) (Lvl := Lvl) (Val := Elt F) spec2 c)
      ⊢ (𝔡 c).Φ 0 := by
  rw [Φ_eq]; unfold Φ1
  iintro ⟨Hp, -, Hr⟩
  isplitl [Hr]; · iexact Hr
  iexact Hp

/-- EXIT: the invariant at the last point gives them back; the body has no semaphore of its own. -/
theorem hout (c : Dev nD) :
    (𝔡 c).Φ (Fin.last cfg2.N)
      ⊢ iprop((∃ r, prngReg c r) ∗ Pipeline.ownSems0 (fun k : PEmpty => k.elim) c
          ∗ Pipeline.scopedRest (Ix := Ix) (Name := Name) (U := U) (Lvl := Lvl) (Val := Elt F) spec2 c) := by
  rw [Pipeline.ownSems0_none, Φ_eq]; unfold Φ1
  iintro ⟨Hr, Hp⟩
  isplitl [Hp]; · iexact Hp
  isplitr; · iempintro
  iexact Hr

/-- THE WAIT EVIDENCE, pointwise: the core owes `O` at every point, so evidence that it may wait on any of its
    semaphores at index `ι` under `O` is evidence for every staging cell at every point
    (what `Pipeline.cellsWaits_intro` asks). -/
theorem hwaits (ι : Ix) (c : Dev nD) {R : sProp 𝕄} (h : ∀ sm : SemLoc sig, R ⊢ MayWait (c : Thread nD τ) sm ι O)
    (w : Fin cfg2.W) (s : Fin (cfg2.win w).nbuf) (t : Fin (cfg2.N + 1)) :
    R ⊢ MayWait (c : Thread nD τ) (.dma ((cfg2.win w).sem s)) ι ((𝔡 c).owed t) :=
  h _

/-! ## What the body finds in each staging buffer -/

/-- Each input's current staging buffer holds its block at every point, fetched there or not: the window is uncut
    and never idle, and the body leaves the block in place. -/
theorem before_0 (c : Dev nD) (t : Fin cfg2.N) (d) : (𝔡 c).before 0 t d = iblk V c 0 t :=
  ((𝔡 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (𝔡 c).before 1 t d = iblk V c 1 t :=
  ((𝔡 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (𝔡 c).before 2 t d = iblk V c 2 t :=
  ((𝔡 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg2.N) (d) : (𝔡 c).before 3 t d = iblk V c 3 t :=
  ((𝔡 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg2.N) (d) : (𝔡 c).before 4 t d = iblk V c 4 t :=
  ((𝔡 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg2.N) (d) : (𝔡 c).before 5 t d = iblk V c 5 t :=
  ((𝔡 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg2.N) (d) : (𝔡 c).before 6 t d = iblk V c 6 t :=
  ((𝔡 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg2.N) (d) : (𝔡 c).before 7 t d = iblk V c 7 t :=
  ((𝔡 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg2.N) (d) : (𝔡 c).before 8 t d = iblk V c 8 t :=
  ((𝔡 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg2.N) (d) : (𝔡 c).before 9 t d = iblk V c 9 t :=
  ((𝔡 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg2.N) (d) : (𝔡 c).before 10 t d = iblk V c 10 t :=
  ((𝔡 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg2.N) (d) : (𝔡 c).before 11 t d = iblk V c 11 t :=
  ((𝔡 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-- The carried row after the first point of the grid, and after a later one. -/
theorem sqAt_first (c : Dev nD) (t : Fin cfg2.N) (h0 : t.val = 0) :
    sqAt V c t.val t.isLt = sqStep V c t (sqZero (F := F)) := by
  obtain ⟨n, hn⟩ := t
  cases n with
  | zero => rfl
  | succ n => exact absurd h0 (Nat.succ_ne_zero n)
theorem sqAt_later (c : Dev nD) (t : Fin cfg2.N) (h0 : t.val ≠ 0) :
    sqAt V c t.val t.isLt
      = sqStep V c t (View.ld (sqAt V c (t.val - 1) (Nat.lt_of_le_of_lt (Nat.sub_le _ _) t.isLt)) rB) := by
  obtain ⟨n, hn⟩ := t
  cases n with
  | zero => exact absurd rfl h0
  | succ n => rfl

/-- At a point after the first the carried row's staging buffer holds what the body left at the point before: the
    buffer is not written back between (only the last point writes it back), the window is uncut and never idle. -/
theorem before_13 (c : Dev nD) (t : Fin cfg2.N) (h0 : t.val ≠ 0) (d) :
    (𝔡 c).before 13 t d = sqAt V c (t.val - 1) (Nat.lt_of_le_of_lt (Nat.sub_le _ _) t.isLt) := by
  have hN : t.val < 8 := lt_of_lt_of_eq t.isLt (show cfg2.N = 8 from N_2)
  rw [Dat.before_out_kept _ 13 rfl t h0 (Bool.eq_false_iff.mpr fun h => by have := (flush2_13 _).mp h; dsimp only at this; omega)
    (fun _ => rfl) (fun _ _ => rfl)]
  dsimp only [dat]

/-! ## The body obligation, at a generic point -/

/-- What the body is called with at point `t` (the library's body obligation's precondition, the windows one by one), -/
def bodyPre (ι : Ix) (c : Dev nD) (t : Fin cfg2.N) : sProp 𝕄 :=
  iprop((𝔡 c).Φ t.castSucc ∗ (𝔡 c).owesAt ι t.castSucc
    ∗ (∃ d, owns (c : Thread nD τ) (st2_0 t) fullShare ((𝔡 c).before 0 t d))
    ∗ (∃ d, owns (c : Thread nD τ) (st2_1 t) fullShare ((𝔡 c).before 1 t d))
    ∗ (∃ d, owns (c : Thread nD τ) (st2_2 t) fullShare ((𝔡 c).before 2 t d))
    ∗ (∃ d, owns (c : Thread nD τ) (st2_3 t) fullShare ((𝔡 c).before 3 t d))
    ∗ (∃ d, owns (c : Thread nD τ) (st2_4 t) fullShare ((𝔡 c).before 4 t d))
    ∗ (∃ d, owns (c : Thread nD τ) (st2_5 t) fullShare ((𝔡 c).before 5 t d))
    ∗ (∃ d, owns (c : Thread nD τ) (st2_6 t) fullShare ((𝔡 c).before 6 t d))
    ∗ (∃ d, owns (c : Thread nD τ) (st2_7 t) fullShare ((𝔡 c).before 7 t d))
    ∗ (∃ d, owns (c : Thread nD τ) (st2_8 t) fullShare ((𝔡 c).before 8 t d))
    ∗ (∃ d, owns (c : Thread nD τ) (st2_9 t) fullShare ((𝔡 c).before 9 t d))
    ∗ (∃ d, owns (c : Thread nD τ) (st2_10 t) fullShare ((𝔡 c).before 10 t d))
    ∗ (∃ d, owns (c : Thread nD τ) (st2_11 t) fullShare ((𝔡 c).before 11 t d))
    ∗ (∃ d, owns (c : Thread nD τ) (st2_12 t) fullShare ((𝔡 c).before 12 t d))
    ∗ (∃ d, owns (c : Thread nD τ) (st2_13 t) fullShare ((𝔡 c).before 13 t d)))

/-- and what it returns. -/
def bodyPost (ι : Ix) (c : Dev nD) (t : Fin cfg2.N) : sProp 𝕄 :=
  iprop((𝔡 c).Φ t.succ ∗ (𝔡 c).owesAt ι t.succ
    ∗ owns (c : Thread nD τ) (st2_0 t) fullShare ((𝔡 c).after 0 t)
    ∗ owns (c : Thread nD τ) (st2_1 t) fullShare ((𝔡 c).after 1 t)
    ∗ owns (c : Thread nD τ) (st2_2 t) fullShare ((𝔡 c).after 2 t)
    ∗ owns (c : Thread nD τ) (st2_3 t) fullShare ((𝔡 c).after 3 t)
    ∗ owns (c : Thread nD τ) (st2_4 t) fullShare ((𝔡 c).after 4 t)
    ∗ owns (c : Thread nD τ) (st2_5 t) fullShare ((𝔡 c).after 5 t)
    ∗ owns (c : Thread nD τ) (st2_6 t) fullShare ((𝔡 c).after 6 t)
    ∗ owns (c : Thread nD τ) (st2_7 t) fullShare ((𝔡 c).after 7 t)
    ∗ owns (c : Thread nD τ) (st2_8 t) fullShare ((𝔡 c).after 8 t)
    ∗ owns (c : Thread nD τ) (st2_9 t) fullShare ((𝔡 c).after 9 t)
    ∗ owns (c : Thread nD τ) (st2_10 t) fullShare ((𝔡 c).after 10 t)
    ∗ owns (c : Thread nD τ) (st2_11 t) fullShare ((𝔡 c).after 11 t)
    ∗ owns (c : Thread nD τ) (st2_12 t) fullShare ((𝔡 c).after 12 t)
    ∗ owns (c : Thread nD τ) (st2_13 t) fullShare ((𝔡 c).after 13 t))

set_option maxHeartbeats 1600000 in
/-- The body at any point: the inputs' memrefs hold their blocks; at the first point the body's run from arbitrary
    output buffers applies, at a later one the run over what the point before left in the carried row; the invariant
    and the core's `owes` pass through unread. -/
theorem sound_body (𝒱₀ : Variants) (ι : Ix) (c : Dev nD) (t : Fin cfg2.N) :
    (bodyPre (Name := Name) (U := U) (Lvl := Lvl) V O B ι c t : sProp 𝕄)
      ⊢ wp frame (wpE (defs₀ (F := F)) 𝒱₀ c none) Set.univ (bodyAt2 t) (fun _ => bodyPost (Name := Name) (U := U) (Lvl := Lvl) V O B ι c t) := by
  unfold bodyPre bodyPost bodyAt2
  simp only [before_0, before_1, before_2, before_3, before_4, before_5, before_6, before_7, before_8, before_9, before_10, before_11]
  rw [show (𝔡 c).Φ t.succ = (𝔡 c).Φ t.castSucc from rfl,
    show (𝔡 c).owesAt ι t.succ = (𝔡 c).owesAt ι t.castSucc from rfl,
    after_0, after_1, after_2, after_3, after_4, after_5, after_6, after_7, after_8, after_9, after_10, after_11, after_12, after_13]
  by_cases h0 : t.val = 0
  · rw [sqAt_first V c t h0]
    unfold e0At sqStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_first 𝒱₀ c Set.univ (grid2.coords t) ((hcond t).mpr h0) _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [sqAt_later V c t h0]
    simp only [before_13 V O B c t h0]
    unfold e0At sqStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_later 𝒱₀ c Set.univ (grid2.coords t) (fun h => h0 ((hcond t).mp h)) _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation, at every point, under any variants and at any index `ι` of the pipeline's cells. -/
theorem body_obligation' (𝒱₀ : Variants) (ι : Ix) (c : Dev nD) :
    BodyObligation (𝔡 c) (defs₀ (F := F)) 𝒱₀ ι Set.univ := fun t => by
  rw [bigSep_W2, bigSep_W2]
  exact sound_body V O B 𝒱₀ ι c t

theorem body_obligation (𝒱₀ : Variants) (ι : Ix) (c : Dev nD) :
    BodyObligationLoose (𝔡 c) (defs₀ (F := F)) 𝒱₀ ι Set.univ :=
  (body_obligation' V O B 𝒱₀ ι c).loose

/-! ## The arrays at the region's exit -/

/-- An input array is never written: it ends as the region found it. -/
theorem arrAt_in (c : Dev nD) (w : Fin cfg2.W) (hw : (cfg2.win w).isOut = false) (n : ℕ) :
    (𝔡 c).arrAt w n = V c (Pipeline.arrRef spec2 w) :=
  ((𝔡 c).arrAt_in w hw n).trans (A_eq V O B c w)

theorem arrAt_0 (c : Dev nD) : (𝔡 c).arrAt 0 cfg2.N = V c (Pipeline.arrRef spec2 0) := arrAt_in V O B c 0 rfl _
theorem arrAt_1 (c : Dev nD) : (𝔡 c).arrAt 1 cfg2.N = V c (Pipeline.arrRef spec2 1) := arrAt_in V O B c 1 rfl _
theorem arrAt_2 (c : Dev nD) : (𝔡 c).arrAt 2 cfg2.N = V c (Pipeline.arrRef spec2 2) := arrAt_in V O B c 2 rfl _
theorem arrAt_3 (c : Dev nD) : (𝔡 c).arrAt 3 cfg2.N = V c (Pipeline.arrRef spec2 3) := arrAt_in V O B c 3 rfl _
theorem arrAt_4 (c : Dev nD) : (𝔡 c).arrAt 4 cfg2.N = V c (Pipeline.arrRef spec2 4) := arrAt_in V O B c 4 rfl _
theorem arrAt_5 (c : Dev nD) : (𝔡 c).arrAt 5 cfg2.N = V c (Pipeline.arrRef spec2 5) := arrAt_in V O B c 5 rfl _
theorem arrAt_6 (c : Dev nD) : (𝔡 c).arrAt 6 cfg2.N = V c (Pipeline.arrRef spec2 6) := arrAt_in V O B c 6 rfl _
theorem arrAt_7 (c : Dev nD) : (𝔡 c).arrAt 7 cfg2.N = V c (Pipeline.arrRef spec2 7) := arrAt_in V O B c 7 rfl _
theorem arrAt_8 (c : Dev nD) : (𝔡 c).arrAt 8 cfg2.N = V c (Pipeline.arrRef spec2 8) := arrAt_in V O B c 8 rfl _
theorem arrAt_9 (c : Dev nD) : (𝔡 c).arrAt 9 cfg2.N = V c (Pipeline.arrRef spec2 9) := arrAt_in V O B c 9 rfl _
theorem arrAt_10 (c : Dev nD) : (𝔡 c).arrAt 10 cfg2.N = V c (Pipeline.arrRef spec2 10) := arrAt_in V O B c 10 rfl _
theorem arrAt_11 (c : Dev nD) : (𝔡 c).arrAt 11 cfg2.N = V c (Pipeline.arrRef spec2 11) := arrAt_in V O B c 11 rfl _

/-- The output window's index map sends distinct grid points to distinct blocks (decided over the eight points), -/
theorem idx_inj12 : ∀ t t' : Fin cfg2.N, win2_12.index t = win2_12.index t' → t = t' :=
  (by decide +kernel : ∀ t t' : Fin grid2.N, win2_12.index t = win2_12.index t' → t = t')
/-- so two points' blocks of the output array share no index. -/
theorem disjoint12 : ∀ t t' : Fin cfg2.N, (cfg2.win 12).flush t = true → (cfg2.win 12).flush t' = true → t ≠ t' →
    Disjoint ((cfg2.win 12).blk t).view.set ((cfg2.win 12).blk t').view.set :=
  fun t t' _ _ hne => (cfg2.win 12).disjoint_blk fun h => hne (idx_inj12 t t' h)
/-- Only the last point writes the carried row back. -/
theorem disjoint13 : ∀ t t' : Fin cfg2.N, (cfg2.win 13).flush t = true → (cfg2.win 13).flush t' = true → t ≠ t' →
    Disjoint ((cfg2.win 13).blk t).view.set ((cfg2.win 13).blk t').view.set :=
  fun t t' h h' hne => absurd (Fin.ext (by
    have h1 := (flush2_13 t).mp h; have h2 := (flush2_13 t').mp h'
    have hN : t.val < 8 := lt_of_lt_of_eq t.isLt (show cfg2.N = 8 from N_2)
    have hN' : t'.val < 8 := lt_of_lt_of_eq t'.isLt (show cfg2.N = 8 from N_2)
    omega)) hne

/-- THE OUTPUT ARRAY: block `t` of it (rows `512·t … 512·t + 511`) ends at `e0At` of point `t`. -/
theorem arrAt_12 (c : Dev nD) (t : Fin cfg2.N) :
    ((cfg2.win 12).blk t).view.read (Elt F) ((𝔡 c).arrAt 12 cfg2.N) = e0At V c t :=
  ((𝔡 c).read_blk_arrAt_eq_flushed 12 disjoint12 cfg2.N t t.isLt (flush2_12 t)).trans (by
    show (cfg2.win 12).cut (grid2.coords t) ((𝔡 c).after 12 t) = _
    rw [after_12]; rfl)

/-- THE CARRIED ROW's array (one block, written back at the last point) ends at the fold over all eight points. -/
theorem arrAt_13 (c : Dev nD) :
    ((cfg2.win 13).blk t2_7).view.read (Elt F) ((𝔡 c).arrAt 13 cfg2.N) = sqAt V c 7 (by rw [show cfg2.N = 8 from N_2]; decide) :=
  ((𝔡 c).read_blk_arrAt_eq_flushed 13 disjoint13 cfg2.N t2_7 t2_7.isLt ((flush2_13 t2_7).mpr rfl)).trans (by
    show (cfg2.win 13).cut (grid2.coords t2_7) ((𝔡 c).after 13 t2_7) = _
    rw [after_13]; rfl)

end Data

end Cert.KernelIdeal.Region1

end
-- ==== Proof.Region2.lean ====
import proofs.«213116_g69346541961480_cont_9to1_m_612_34_alg».proof.Proof.Gen.KernelIdeal.Launch
import proofs.«213116_g69346541961480_cont_9to1_m_612_34_alg».proof.Proof.Gen.KernelIdeal.Skeleton
import proofs.«213116_g69346541961480_cont_9to1_m_612_34_alg».proof.Proof.Gen.KernelIdeal.Points
import Idealize.ShloMosaic.Lib.Pipeline.FrameBody
import Idealize.ShloMosaic.Lib.Pipeline.RegionsLoop
import Idealize.ShloMosaic.Lib.Pipeline.Value
import Idealize.ShloMosaic.Lib.ValueIdx
import Idealize.ShloMosaic.Lib.Tactic

/-! # The last TensorCore region: the final dense layer, scaled by the inverse norm

Pipeline 2 of the kernel program (`cfg3`, body `cc3__t3c_body`) runs over two grid points. At point `t` it
reads rows `2048 t … 2048 t + 2047` of the level-0 embedding `e0` (window 0), the whole weight matrix `W`
(window 1), the bias row `b` (window 2) and the row `sq` of partial sums of squares (window 3), and writes
rows `2048 t …` of the output (window 4):  `relu (e0_t · W + ν b) · (1 / ν)`  with  `ν = sqrt (Σ sq)`.

This module gives, at ANY ghost-state parameters and at a parameter `V` for the TensorCore's buffer contents when
the region is entered: the blocks of the windows, the body's triple, the pipeline's proof data, its body
obligation, the invariant's entry and exit lemmas, the wait evidence, and the final contents of every windowed
array as a pure function of `V`. -/

set_option maxRecDepth 16384

noncomputable section

namespace Cert.KernelIdeal.Region2

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body leaves in the output window's buffer -/

/-- The body's one store covers the whole output block with its payload: the dense layer of the block of `e0`. -/
def out4 (x0 : Vec F S2048x128 .f32) (x1 : Vec F S128x128 .f32) (x2 x3 : Vec F S1x128 .f32) : Vec F S2048x128 .f32 :=
  k3_pay1 x3 x0 x1 x2

theorem hz : (![0, 0] : Fin 2 → Nat) = fun _ => 0 := funext fun a => by fin_cases a <;> rfl

/-! ## The body's triple -/

set_option maxHeartbeats 1000000 in
/-- The kernel body on whole staging memrefs, the inputs' at contents `x0 … x3` and the output's at anything, runs to
    the continuation holding the inputs' as they were and the output's at `out4` of the inputs'. -/
theorem sound_kernel (𝒱₀ : Variants) (c : Dev nD) (E : Set Name) (i : grid3.Coords)
    (arg1 : Memref sig .tc .vmem S2048x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2048x128 .f32) (harg5 : arg5.IsWhole)
    (x0 : Vec F S2048x128 .f32) (x1 : Vec F S128x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) 𝒱₀ c none) E (cc3__t3c_body i arg1 harg1 arg2 harg2 arg3 harg3 arg4 harg4 arg5 harg5) K := by
  simp only [cc3__t3c_body_eq_skeleton]; unfold cc3__t3c_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz inb_S2048x128_S2048x128_0_0 y⟩),
    View.canon_unit_zero hz]
  simp only [View.readAt_eq_ld, View.ld_unit_zero (S := S1x128) hz, View.ld_unit_zero (S := S2048x128) hz,
    View.ld_unit_zero (S := S128x128) hz]
  rfl

/-! ## The pipeline's proof data -/

/-- The region's invariant on core `c`: the core's scoped buffers that are no staging buffer of this pipeline, at some
    contents each, and its generator register at some state. The body touches neither. -/
def ΦR (c : Dev nD) : sProp 𝕄 :=
  iprop(Pipeline.scopedRest (Ix := Ix) (Name := Name) (U := U) (Lvl := Lvl) (Val := Elt F) spec3 c ∗ ∃ r, prngReg c r)

/-- The proof data of pipeline 2 on core `c`: the arrays as the region finds them (`V`); after the body at point `t`
    each input's buffer at its block and the output's at `out4` of the input blocks; the invariant `ΦR` at every point;
    full shares; a CONSTANT debt `O` and a CONSTANT bound `B` on the recorded wait pairs (the body signals nothing,
    waits on nothing and takes on nothing: what the core owes, and what its waits have recorded, when the region is
    entered is what they are at every point). -/
def dat (O : CellTallies nD τ sig Ix) (B : Set (SemLoc sig × Ix)) (c : Dev nD) : Dat τ (Elt F) Ix Name U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := ΦR c
  q _ := fullShare
  owed _ := O
  recorded _ := B

variable (O : CellTallies nD τ sig Ix) (B : Set (SemLoc sig × Ix))

/-- The proof data's arrays are the region-entry contents. -/
theorem A_eq (c : Dev nD) (w : Fin cfg3.W) : (dat (Name := Name) (U := U) (Lvl := Lvl) V O B c).A w = V c (Pipeline.arrRef spec3 w) := by
  dsimp only [dat]
/-- Every share is the full one. -/
theorem q_eq (c : Dev nD) (w : Fin cfg3.W) : (dat (Name := Name) (U := U) (Lvl := Lvl) V O B c).q w = fullShare := by
  dsimp only [dat]
/-- The debt is `O` at every point. -/
theorem owed_eq (c : Dev nD) (t : Fin (cfg3.N + 1)) : (dat (Name := Name) (U := U) (Lvl := Lvl) V O B c).owed t = O := by
  dsimp only [dat]
/-- The bound on the recorded pairs is `B` at every point. -/
theorem recorded_eq (c : Dev nD) (t : Fin (cfg3.N + 1)) : (dat (Name := Name) (U := U) (Lvl := Lvl) V O B c).recorded t = B := by
  dsimp only [dat]
/-- The invariant is `ΦR` at every point. -/
theorem Φ_eq (c : Dev nD) (t : Fin (cfg3.N + 1)) : (dat (Name := Name) (U := U) (Lvl := Lvl) V O B c).Φ t = ΦR c := by
  dsimp only [dat]

/-- What the body leaves, window by window. -/
theorem after_0 (c : Dev nD) (t : Fin cfg3.N) : (dat (Name := Name) (U := U) (Lvl := Lvl) V O B c).after 0 t = iblk V c 0 t := by dsimp only [dat]
theorem after_1 (c : Dev nD) (t : Fin cfg3.N) : (dat (Name := Name) (U := U) (Lvl := Lvl) V O B c).after 1 t = iblk V c 1 t := by dsimp only [dat]
theorem after_2 (c : Dev nD) (t : Fin cfg3.N) : (dat (Name := Name) (U := U) (Lvl := Lvl) V O B c).after 2 t = iblk V c 2 t := by dsimp only [dat]
theorem after_3 (c : Dev nD) (t : Fin cfg3.N) : (dat (Name := Name) (U := U) (Lvl := Lvl) V O B c).after 3 t = iblk V c 3 t := by dsimp only [dat]
theorem after_4 (c : Dev nD) (t : Fin cfg3.N) :
    (dat (Name := Name) (U := U) (Lvl := Lvl) V O B c).after 4 t = out4 (iblk V c 0 t) (iblk V c 1 t) (iblk V c 2 t) (iblk V c 3 t) := by dsimp only [dat]

/-- Each input's current staging buffer holds its block at every point, fetched there or not: an input window whose
    body leaves its block in place holds, where it was not fetched, the block of the point before, and the block index
    has not moved. -/
theorem before_0 (c : Dev nD) (t : Fin cfg3.N) (d) : (dat (Name := Name) (U := U) (Lvl := Lvl) V O B c).before 0 t d = iblk V c 0 t :=
  ((dat (Name := Name) (U := U) (Lvl := Lvl) V O B c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat (Name := Name) (U := U) (Lvl := Lvl) V O B c).before 1 t d = iblk V c 1 t :=
  ((dat (Name := Name) (U := U) (Lvl := Lvl) V O B c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat (Name := Name) (U := U) (Lvl := Lvl) V O B c).before 2 t d = iblk V c 2 t :=
  ((dat (Name := Name) (U := U) (Lvl := Lvl) V O B c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat (Name := Name) (U := U) (Lvl := Lvl) V O B c).before 3 t d = iblk V c 3 t :=
  ((dat (Name := Name) (U := U) (Lvl := Lvl) V O B c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (ι : Ix) (c : Dev nD) (t : Fin cfg3.N) : sProp 𝕄 :=
  iprop((dat (Name := Name) (U := U) (Lvl := Lvl) V O B c).Φ t.castSucc ∗ (dat (Name := Name) (U := U) (Lvl := Lvl) V O B c).owesAt ι t.castSucc
    ∗ (∃ d, owns (c : Thread nD τ) (st3_0 t) fullShare ((dat (Name := Name) (U := U) (Lvl := Lvl) V O B c).before 0 t d))
    ∗ (∃ d, owns (c : Thread nD τ) (st3_1 t) fullShare ((dat (Name := Name) (U := U) (Lvl := Lvl) V O B c).before 1 t d))
    ∗ (∃ d, owns (c : Thread nD τ) (st3_2 t) fullShare ((dat (Name := Name) (U := U) (Lvl := Lvl) V O B c).before 2 t d))
    ∗ (∃ d, owns (c : Thread nD τ) (st3_3 t) fullShare ((dat (Name := Name) (U := U) (Lvl := Lvl) V O B c).before 3 t d))
    ∗ (∃ d, owns (c : Thread nD τ) (st3_4 t) fullShare ((dat (Name := Name) (U := U) (Lvl := Lvl) V O B c).before 4 t d)))

/-- and what it returns. -/
def bodyPost (ι : Ix) (c : Dev nD) (t : Fin cfg3.N) : sProp 𝕄 :=
  iprop((dat (Name := Name) (U := U) (Lvl := Lvl) V O B c).Φ t.succ ∗ (dat (Name := Name) (U := U) (Lvl := Lvl) V O B c).owesAt ι t.succ
    ∗ owns (c : Thread nD τ) (st3_0 t) fullShare ((dat (Name := Name) (U := U) (Lvl := Lvl) V O B c).after 0 t)
    ∗ owns (c : Thread nD τ) (st3_1 t) fullShare ((dat (Name := Name) (U := U) (Lvl := Lvl) V O B c).after 1 t)
    ∗ owns (c : Thread nD τ) (st3_2 t) fullShare ((dat (Name := Name) (U := U) (Lvl := Lvl) V O B c).after 2 t)
    ∗ owns (c : Thread nD τ) (st3_3 t) fullShare ((dat (Name := Name) (U := U) (Lvl := Lvl) V O B c).after 3 t)
    ∗ owns (c : Thread nD τ) (st3_4 t) fullShare ((dat (Name := Name) (U := U) (Lvl := Lvl) V O B c).after 4 t))

/-- The body at any point: the inputs' memrefs hold their blocks (`before_k`), so `sound_kernel` applies; the invariant and
    the core's `owes` pass through unread. -/
theorem sound_body (𝒱₀ : Variants) (ι : Ix) (c : Dev nD) (t : Fin cfg3.N) :
    bodyPre (Name := Name) (U := U) (Lvl := Lvl) V O B ι c t
      ⊢ wp frame (wpE (defs₀ (F := F)) 𝒱₀ c none) Set.univ (bodyAt3 t) (fun _ => bodyPost (Name := Name) (U := U) (Lvl := Lvl) V O B ι c t) := by
  unfold bodyPre bodyPost bodyAt3
  simp only [before_0, before_1, before_2, before_3]
  rw [show (dat (Name := Name) (U := U) (Lvl := Lvl) V O B c).Φ t.succ = (dat (Name := Name) (U := U) (Lvl := Lvl) V O B c).Φ t.castSucc from rfl,
    show (dat (Name := Name) (U := U) (Lvl := Lvl) V O B c).owesAt ι t.succ = (dat (Name := Name) (U := U) (Lvl := Lvl) V O B c).owesAt ι t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel 𝒱₀ c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point, under any variants `𝒱₀`, any index `ι`, any constant debt `O` and
    any constant bound `B`. -/
theorem body_obligation (𝒱₀ : Variants) (ι : Ix) (c : Dev nD) :
    BodyObligationLoose (dat (F := F) (Name := Name) (U := U) (Lvl := Lvl) V O B c) (defs₀ (F := F)) 𝒱₀ ι Set.univ :=
  (show BodyObligation (dat (F := F) (Name := Name) (U := U) (Lvl := Lvl) V O B c) (defs₀ (F := F)) 𝒱₀ ι Set.univ from fun t => by
    rw [bigSep_W3, bigSep_W3]
    exact sound_body V O B 𝒱₀ ι c t).loose

/-! ## The invariant at the region's entry and exit (the shapes of `RegionSeg.hin` / `hout` with `X = Y = ∃ r, prngReg c r`,
no semaphore of the kernel's own) -/

theorem hin (c : Dev nD) (a : (pcfgs (F := F) 2).Adm) :
    iprop((∃ r, prngReg c r) ∗ Pipeline.prefHeld (pcfgs (F := F) 2).pre c (fun _ => fullShare) a.1
        ∗ Pipeline.scopedRest (Ix := Ix) (Name := Name) (U := U) (Lvl := Lvl) (Val := Elt F) spec3 c)
      ⊢ (dat (Name := Name) (U := U) (Lvl := Lvl) V O B c).Φ 0 := by
  rw [Φ_eq]; unfold ΦR
  iintro ⟨Hp, -, Hr⟩
  isplitl [Hr]; · iexact Hr
  iexact Hp

theorem hout (c : Dev nD) :
    (dat (Name := Name) (U := U) (Lvl := Lvl) V O B c).Φ (Fin.last cfg3.N)
      ⊢ iprop((∃ r, prngReg c r) ∗ Pipeline.ownSems0 (fun k : PEmpty => k.elim) c
        ∗ Pipeline.scopedRest (Ix := Ix) (Name := Name) (U := U) (Lvl := Lvl) (Val := Elt F) spec3 c) := by
  rw [Pipeline.ownSems0_none, Φ_eq]; unfold ΦR
  iintro ⟨Hr, Hp⟩
  isplitl [Hp]; · iexact Hp
  isplitr; · iempintro
  iexact Hr

/-! ## The final contents of the windowed arrays -/

/-- An input array is never written. -/
theorem arrAt_0 (c : Dev nD) (n : ℕ) : (dat (Name := Name) (U := U) (Lvl := Lvl) V O B c).arrAt 0 n = V c main_v16_0 :=
  ((dat (Name := Name) (U := U) (Lvl := Lvl) V O B c).arrAt_in 0 rfl n).trans (A_eq V O B c 0)
theorem arrAt_1 (c : Dev nD) (n : ℕ) : (dat (Name := Name) (U := U) (Lvl := Lvl) V O B c).arrAt 1 n = V c main_arg18 :=
  ((dat (Name := Name) (U := U) (Lvl := Lvl) V O B c).arrAt_in 1 rfl n).trans (A_eq V O B c 1)
theorem arrAt_2 (c : Dev nD) (n : ℕ) : (dat (Name := Name) (U := U) (Lvl := Lvl) V O B c).arrAt 2 n = V c main_v17 :=
  ((dat (Name := Name) (U := U) (Lvl := Lvl) V O B c).arrAt_in 2 rfl n).trans (A_eq V O B c 2)
theorem arrAt_3 (c : Dev nD) (n : ℕ) : (dat (Name := Name) (U := U) (Lvl := Lvl) V O B c).arrAt 3 n = V c main_v16_1 :=
  ((dat (Name := Name) (U := U) (Lvl := Lvl) V O B c).arrAt_in 3 rfl n).trans (A_eq V O B c 3)

/-- Rows `2048 t … 2048 t + 2047` of a 4096-row array. -/
def rows (e0 : S4096x128.Idx → Elt F .f32) (t : Fin 2) : Vec F S2048x128 .f32 :=
  fun j => e0 (ix2 (⟨t.val * 2048 + (j 0).val, by have h : (j 0).val < 2048 := (j 0).isLt; have := t.isLt; omega⟩ : Fin 4096) (j 1))

/-- THE OUTPUT ARRAY as one function of the four input arrays: row `r` is row `r % 2048` of the body's payload on the
    block of 2048 rows that holds `r`. -/
def G4 (e0 : S4096x128.Idx → Elt F .f32) (W : S128x128.Idx → Elt F .f32) (b sq : S1x128.Idx → Elt F .f32) : S4096x128.Idx → Elt F .f32 :=
  fun i => out4 (rows e0 ⟨(i 0).val / 2048, by have h : (i 0).val < 4096 := (i 0).isLt; omega⟩) W b sq
    (ix2 (⟨(i 0).val % 2048, Nat.mod_lt _ (by decide)⟩ : Fin 2048) (i 1))

/-- `G4` at row `2048 t + j₀`, column `j₁`, is the payload on block `t` at `(j₀, j₁)`. -/
theorem G4_apply (e0 : S4096x128.Idx → Elt F .f32) (W : S128x128.Idx → Elt F .f32) (b sq : S1x128.Idx → Elt F .f32)
    (i : S4096x128.Idx) (t : Fin 2) (j : S2048x128.Idx) (h0 : (i 0).val = t.val * 2048 + (j 0).val) (h1 : (i 1).val = (j 1).val) :
    G4 e0 W b sq i = out4 (rows e0 t) W b sq j := by
  have hj0 : (j 0).val < 2048 := (j 0).isLt
  unfold G4
  have ht : (⟨(i 0).val / 2048, by have h : (i 0).val < 4096 := (i 0).isLt; omega⟩ : Fin 2) = t := Fin.ext (by show (i 0).val / 2048 = t.val; omega)
  have hj : (ix2 (⟨(i 0).val % 2048, Nat.mod_lt _ (by decide)⟩ : Fin 2048) (i 1) : S2048x128.Idx) = j := by
    funext a
    match a with
    | ⟨0, _⟩ => exact Fin.ext (by show (i 0).val % 2048 = (j 0).val; omega)
    | ⟨1, _⟩ => exact Fin.ext h1
  rw [ht, hj]

/-- The printed index maps, decided over the grid: the blocks of `e0` and of the output move with the grid coordinate
    along the rows, every other window stays at block zero. -/
theorem idx_facts : ∀ t : Fin cfg3.N, win3_0.index t (0 : Fin 2) = t.val ∧ win3_0.index t (1 : Fin 2) = 0
    ∧ win3_4.index t (0 : Fin 2) = t.val ∧ win3_4.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The blocks the body reads, as functions of the arrays the region finds: block `t` of `e0` is its rows `2048 t …`; -/
theorem iblk_0 (c : Dev nD) (t : Fin cfg3.N) : iblk V c 0 t = rows (V c main_v16_0) (t.cast N_3) := by
  obtain ⟨e0, e1, -⟩ := idx_facts t
  funext j
  show V c main_v16_0 (((cfg3.win 0).blk t).view.emb j) = V c main_v16_0 (ix2 _ (j 1))
  congr 1
  funext a; apply Fin.ext
  match a with
  | ⟨0, _⟩ => show win3_0.index t (0 : Fin 2) * 2048 + 1 * (j 0).val = t.val * 2048 + (j 0).val; omega
  | ⟨1, _⟩ => show win3_0.index t (1 : Fin 2) * 128 + 1 * (j 1).val = (j 1).val; omega
/-- the weight matrix, the bias row and the row of partial sums are whole at every point. -/
theorem iblk_1 (c : Dev nD) (t : Fin cfg3.N) : iblk V c 1 t = V c main_arg18 := by
  obtain ⟨-, -, -, -, e0, e1, -⟩ := idx_facts t
  funext j
  show V c main_arg18 (((cfg3.win 1).blk t).view.emb j) = V c main_arg18 j
  congr 1
  funext a; apply Fin.ext
  match a with
  | ⟨0, _⟩ => show win3_1.index t (0 : Fin 2) * 128 + 1 * (j 0).val = (j 0).val; omega
  | ⟨1, _⟩ => show win3_1.index t (1 : Fin 2) * 128 + 1 * (j 1).val = (j 1).val; omega
theorem iblk_2 (c : Dev nD) (t : Fin cfg3.N) : iblk V c 2 t = V c main_v17 := by
  obtain ⟨-, -, -, -, -, -, e0, e1, -⟩ := idx_facts t
  funext j
  show V c main_v17 (((cfg3.win 2).blk t).view.emb j) = V c main_v17 j
  congr 1
  funext a; apply Fin.ext
  match a with
  | ⟨0, _⟩ => show win3_2.index t (0 : Fin 2) * 1 + 1 * (j 0).val = (j 0).val; omega
  | ⟨1, _⟩ => show win3_2.index t (1 : Fin 2) * 128 + 1 * (j 1).val = (j 1).val; omega
theorem iblk_3 (c : Dev nD) (t : Fin cfg3.N) : iblk V c 3 t = V c main_v16_1 := by
  obtain ⟨-, -, -, -, -, -, -, -, e0, e1⟩ := idx_facts t
  funext j
  show V c main_v16_1 (((cfg3.win 3).blk t).view.emb j) = V c main_v16_1 j
  congr 1
  funext a; apply Fin.ext
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- WHAT POINT `t` WRITES BACK is block `t` of `G4` of the arrays as the region finds them. -/
theorem flushed_4 (c : Dev nD) (t : Fin cfg3.N) :
    (dat (Name := Name) (U := U) (Lvl := Lvl) V O B c).flushed 4 t
      = ((cfg3.win 4).blk t).view.read (Elt F) (G4 (V c main_v16_0) (V c main_arg18) (V c main_v17) (V c main_v16_1)) := by
  show (cfg3.win 4).cut (grid3.coords t) ((dat (Name := Name) (U := U) (Lvl := Lvl) V O B c).after 4 t) = _
  rw [after_4, iblk_0, iblk_1, iblk_2, iblk_3]
  obtain ⟨-, -, e0, e1, -⟩ := idx_facts t
  funext j
  show out4 (rows (V c main_v16_0) (t.cast N_3)) (V c main_arg18) (V c main_v17) (V c main_v16_1) j
    = G4 (V c main_v16_0) (V c main_arg18) (V c main_v17) (V c main_v16_1) (((cfg3.win 4).blk t).view.emb j)
  refine (G4_apply _ _ _ _ _ (t.cast N_3) j ?_ ?_).symm
  · show win3_4.index t (0 : Fin 2) * 2048 + 1 * (j 0).val = t.val * 2048 + (j 0).val; omega
  · show win3_4.index t (1 : Fin 2) * 128 + 1 * (j 1).val = (j 1).val; omega

/-- An index of the output array is in point `t`'s block iff each coordinate is in the block's range on its axis. -/
theorem mem_blk_4 (t : Fin cfg3.N) (i : S4096x128.Idx) :
    i ∈ ((cfg3.win 4).blk t).view.set ↔ ∀ a : Fin 2, win3_4.index t a * S2048x128.size a ≤ (i a).val ∧ (i a).val < win3_4.index t a * S2048x128.size a + S2048x128.size a := by
  show i ∈ ((View.whole main_v18).slice (win3_4.rect t)).set ↔ _
  rw [View.set_slice_whole, Rect.mem_set_unit]
  exact Iff.rfl

/-- Every row of the output is in one of the two blocks. -/
theorem cover_4 (i : S4096x128.Idx) : ∃ t : Fin cfg3.N, (cfg3.win 4).flush t = true ∧ i ∈ ((cfg3.win 4).blk t).view.set := by
  have hi0 : (i 0).val < 4096 := (i 0).isLt
  have hi1 : (i 1).val < 128 := (i 1).isLt
  refine ⟨(⟨(i 0).val / 2048, by omega⟩ : Fin 2).cast N_3.symm, flush3_4 _, ?_⟩
  obtain ⟨-, -, e0, e1, -⟩ := idx_facts ((⟨(i 0).val / 2048, by omega⟩ : Fin 2).cast N_3.symm)
  have e0' : win3_4.index ((⟨(i 0).val / 2048, by omega⟩ : Fin 2).cast N_3.symm) (0 : Fin 2) = (i 0).val / 2048 := e0
  rw [mem_blk_4]
  intro a
  match a with
  | ⟨0, _⟩ =>
    show win3_4.index _ (0 : Fin 2) * 2048 ≤ (i 0).val ∧ (i 0).val < win3_4.index _ (0 : Fin 2) * 2048 + 2048
    rw [e0']; omega
  | ⟨1, _⟩ =>
    show win3_4.index _ (1 : Fin 2) * 128 ≤ (i 1).val ∧ (i 1).val < win3_4.index _ (1 : Fin 2) * 128 + 128
    rw [e1]; omega

/-- After the region the output array holds `G4` of the inputs as the region found them: each point writes back its
    block of `G4`, and the two blocks cover the array. -/
theorem arrAt_4 (c : Dev nD) :
    (dat (Name := Name) (U := U) (Lvl := Lvl) V O B c).arrAt 4 cfg3.N = G4 (V c main_v16_0) (V c main_arg18) (V c main_v17) (V c main_v16_1) :=
  (dat (Name := Name) (U := U) (Lvl := Lvl) V O B c).arrAt_eq_of_cover 4 _ (fun t _ => flushed_4 V O B c t) cover_4

/-! ## The wait evidence -/

/-- The pipeline's own waits, for a family of proof data whose member for this pipeline owes the constant `O`: from any
    persistent facts `R` that let the core wait on each of its semaphores at index `ι` while owing `O`. -/
theorem hwaits (adm : (p : Fin 3) → (pcfgs (F := F) p).Adm)
    (pdats : (p : Fin 3) → (c : Dev nD) → Dat τ (Elt F) Ix Name U Lvl (Pipeline.pin (pcfgs (F := F)) adm p) c) (ι : Ix)
    (howed : ∀ c t, (pdats 2 c).owed t = O) {R : sProp 𝕄} [BI.Persistent R]
    (hR : ∀ (c : Dev nD) (sm : SemLoc sig), R ⊢ MayWait (c : Thread nD τ) sm ι O) (c : Dev nD) :
    R ⊢ Pipeline.cellsWaits (Pipeline.pin (pcfgs (F := F)) adm) pdats ι 2 c :=
  Pipeline.cellsWaits_intro (Pipeline.pin (pcfgs (F := F)) adm) pdats ι 2 c fun w s t => by
    rw [howed c t]; exact hR c _

end Cert.KernelIdeal.Region2

end
-- ==== Proof.MainFold.lean ====
/-
  The buffer contents of the TensorCore at each boundary of @main — a fold through its host stretches, its three
  pipelined regions and the SparseCore call —, the three regions' proof data at the contents each is entered with,
  and the thread state that travels between the segments: every unscoped buffer at the boundary's contents, the
  generator register at some state, and what the core owes the SparseCores (its start signals, until the call) with
  the pairs its waits have recorded kept below the call's level.
-/
import proofs.«213116_g69346541961480_cont_9to1_m_612_34_alg».proof.Proof.MainCall
import proofs.«213116_g69346541961480_cont_9to1_m_612_34_alg».proof.Proof.Region0
import proofs.«213116_g69346541961480_cont_9to1_m_612_34_alg».proof.Proof.Region1
import proofs.«213116_g69346541961480_cont_9to1_m_612_34_alg».proof.Proof.Region2
import Idealize.ShloMosaic.Lib.Pipeline.FrameSuffix
import Idealize.ShloMosaic.Lib.Pipeline.RegionsLoop

noncomputable section

namespace Cert.KernelIdeal.Main

open Cert.KernelIdeal Cert.KernelIdeal.Gen Cert.KernelIdeal.Ghost Cert.KernelIdeal.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the TensorCore owes sits at the calls' indices -/

/-- The TensorCore owes start signals only, each at its call's index: nothing at the index the pipelines wait at. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg (fun h => by cases h.2)]
  · rfl

variable (m : (ℓ : Loc nD τ sig) → Buf (Elt F) ℓ)

/-! ## The fold of contents through @main -/

/-- Core `c`'s buffers at launch. -/
abbrev W0 : Dev nD → Valuation τ sig (Elt F) := fun c b => m ((c : Dev nD), b)
/-- After stretch A (region 0's entry). -/
abbrev W1 : Dev nD → Valuation τ sig (Elt F) := fun c => StableHlo.after hostOpsA (W0 m c)
abbrev V1 : (c : Dev nD) → (b : Ref sig .tc) → Buf (Elt F) ((c : Thread nD τ).loc b) := fun c b => W1 m c b
/-- Region 0's proof data: entered at `V1`, the core owing its start signals, its recorded pairs below call 0's level. -/
def dat0 (c : Dev nD) : Pipeline.Dat τ (Elt F) (HIx 1) ℕ UU ℕ cfg0 c :=
  Region0.dat (Name := ℕ) (U := UU) (Lvl := ℕ) (V1 m) ((K (F := F)).Otc c 0) (Bn (F := F) c 0) c
/-- At region 0's exit: its arrays at what the pipeline leaves, every other buffer as entered. -/
def W2 (c : Dev nD) : Valuation τ sig (Elt F) :=
  Pipeline.withArrays spec0 c (W1 m c) fun w => (dat0 m c).arrAt w cfg0.N
abbrev V2 : (c : Dev nD) → (b : Ref sig .tc) → Buf (Elt F) ((c : Thread nD τ).loc b) := fun c b => W2 m c b
/-- After stretch B (the SparseCore call's entry). -/
abbrev W3 : Dev nD → Valuation τ sig (Elt F) := fun c => StableHlo.after hostOpsB (W2 m c)
/-- After the SparseCore call. -/
abbrev W4 : Dev nD → Valuation τ sig (Elt F) := afterCall (W3 m)
/-- After stretch C (region 1's entry). -/
abbrev W5 : Dev nD → Valuation τ sig (Elt F) := fun c => StableHlo.after hostOpsC (W4 m c)
abbrev V5 : (c : Dev nD) → (b : Ref sig .tc) → Buf (Elt F) ((c : Thread nD τ).loc b) := fun c b => W5 m c b
/-- Region 1's proof data: entered at `V5`, nothing owed any more, the recorded pairs below call 1's level. -/
def dat1 (c : Dev nD) : Pipeline.Dat τ (Elt F) (HIx 1) ℕ UU ℕ cfg2 c :=
  Region1.dat (Name := ℕ) (U := UU) (Lvl := ℕ) (V5 m) ((K (F := F)).Otc c 1) (Bn (F := F) c 1) c
def W6 (c : Dev nD) : Valuation τ sig (Elt F) :=
  Pipeline.withArrays spec2 c (W5 m c) fun w => (dat1 m c).arrAt w cfg2.N
abbrev V6 : (c : Dev nD) → (b : Ref sig .tc) → Buf (Elt F) ((c : Thread nD τ).loc b) := fun c b => W6 m c b
/-- After stretch D (region 2's entry). -/
abbrev W7 : Dev nD → Valuation τ sig (Elt F) := fun c => StableHlo.after hostOpsD (W6 m c)
abbrev V7 : (c : Dev nD) → (b : Ref sig .tc) → Buf (Elt F) ((c : Thread nD τ).loc b) := fun c b => W7 m c b
def dat2 (c : Dev nD) : Pipeline.Dat τ (Elt F) (HIx 1) ℕ UU ℕ cfg3 c :=
  Region2.dat (Name := ℕ) (U := UU) (Lvl := ℕ) (V7 m) ((K (F := F)).Otc c 1) (Bn (F := F) c 1) c
/-- At the return. -/
def W8 (c : Dev nD) : Valuation τ sig (Elt F) :=
  Pipeline.withArrays spec3 c (W7 m c) fun w => (dat2 m c).arrAt w cfg3.N
abbrev V8 : (c : Dev nD) → (b : Ref sig .tc) → Buf (Elt F) ((c : Thread nD τ).loc b) := fun c b => W8 m c b

theorem W2_arr (c : Dev nD) (w : Fin cfg0.W) : W2 m c (Proc.devRef .tc (Pipeline.arrRef spec0 w)) = (dat0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 m c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) : W6 m c (Proc.devRef .tc (Pipeline.arrRef spec2 w)) = (dat1 m c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF1 (c : Dev nD) (w : Fin cfg2.W) : (dat1 m c).arrAt w cfg2.N = V6 m c (Pipeline.arrRef spec2 w) := (W6_arr m c w).symm
theorem hrest1 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W8_arr (c : Dev nD) (w : Fin cfg3.W) : W8 m c (Proc.devRef .tc (Pipeline.arrRef spec3 w)) = (dat2 m c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF2 (c : Dev nD) (w : Fin cfg3.W) : (dat2 m c).arrAt w cfg3.N = V8 m c (Pipeline.arrRef spec3 w) := (W8_arr m c w).symm
theorem hrest2 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data family and the thread state -/

/-- Every pipeline's proof data, each at its region's entry contents: a literal match on the pipeline. -/
def pdats : (p : Fin 3) → (c : Dev nD) → Pipeline.Dat τ (Elt F) (HIx 1) ℕ UU ℕ (Pipeline.pin (pcfgs (F := F)) adm p) c
  | ⟨0, _⟩ => fun c => dat0 m c
  | ⟨1, _⟩ => fun c => dat1 m c
  | ⟨2, _⟩ => fun c => dat2 m c

/-- The pipelines' waits are recorded at the index no call uses. -/
abbrev ι₀ : HIx 1 := none
abbrev LL : GSem nD τ sig → Finset (HIx 1) := (K (F := F)).L
abbrev lvl : GSem nD τ sig → HIx 1 → ℕ := (K (F := F)).lev

/-- What rides beside the buffers before call `n`: the generator register at some state, and the core owing its start
    signals from call `n` on with its recorded pairs below that call's level. -/
abbrev R (n : ℕ) (c : Dev nD) : sProp 𝕄 :=
  iprop((∃ r, prngReg c r) ∗ Pipeline.owesWithin c ((K (F := F)).Otc c n) (Bn (F := F) c n))

/-- The thread state at a boundary: every unscoped buffer at the boundary's contents, and `R`. -/
abbrev TS (W : Dev nD → Valuation τ sig (Elt F)) (n : ℕ) (c : Dev nD) : sProp 𝕄 :=
  iprop(StableHlo.held (c : Thread nD τ) (Pipeline.ucRefs τ sig) (W c) ∗ R (F := F) n c)

/-! ## The host stretches as segments -/

theorem hostOpsA_sub : (hostOpsA : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub ..⟩
theorem hostOpsB_sub : (hostOpsB : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
theorem hostOpsC_sub : (hostOpsC : List (HloOp τ sig (Elt F))).Forall fun op => op.bufs ⊆ StableHlo.tcRefs τ sig :=
  ⟨StableHlo.reshape_bufs_sub .., StableHlo.reshape_bufs_sub .., StableHlo.reshape_bufs_sub .., StableHlo.unary_bufs_sub ..,
    StableHlo.unary_bufs_sub .., StableHlo.reshape_bufs_sub ..⟩
theorem hostOpsD_sub : (hostOpsD : List (HloOp τ sig (Elt F))).Forall fun op => op.bufs ⊆ StableHlo.tcRefs τ sig :=
  StableHlo.reshape_bufs_sub ..

theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor
theorem hostOpsC_fresh : (hostOpsC : List (HloOp τ sig (Elt F))).Forall fun op => op.fresh = ∅ := by
  simp only [List.Forall]; repeat' constructor
theorem hostOpsD_fresh : (hostOpsD : List (HloOp τ sig (Elt F))).Forall fun op => op.fresh = ∅ := by
  simp only [List.Forall]; repeat' constructor

/-- A host stretch as a segment over the unscoped references from the contents `W`, `R n` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (n : ℕ) :
    Pipeline.HostSeg (Name := ℕ) (U := UU) (pcfgs (F := F)) defs₀ 𝒱₀ (LL (F := F)) (lvl (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F) n)

end Cert.KernelIdeal.Main

end
-- ==== Proof.MainPreHost.lean ====
/-
  What the two host stretches before the SparseCore call do to the three index arrays: neither writes an argument, and the
  second leaves, in the two flat neighbour tables, the one-hop and two-hop index arrays reshaped row-major.
-/
import proofs.«213116_g69346541961480_cont_9to1_m_612_34_alg».proof.Proof.MainHost

noncomputable section

namespace Cert.KernelIdeal.Main

open Cert.KernelIdeal Cert.KernelIdeal.Gen Cert.KernelIdeal.Ghost Cert.KernelIdeal.Facts
open Idealize.ShloMosaic
open Idealize.SL Idealize.SL.Sem

variable {F : FTy → Type} [FloatOps F]

/-- Stretch A writes none of the three index arguments. -/
theorem afterA_of_arg (V : Valuation τ sig (Elt F)) {b : Ref sig .tc}
    (h0 : b ≠ main_v0) (h1 : b ≠ main_v1) (h2 : b ≠ main_v2) (h3 : b ≠ main_v3) :
    StableHlo.after hostOpsA V (Proc.devRef .tc b) = V (Proc.devRef .tc b) :=
  StableHlo.after_of_forall_not_mem (b := Proc.devRef .tc b) _ _ (List.forall_iff_forall_mem.mp (by
    simp only [hostOpsA, List.Forall, StableHlo.reshape_writes, StableHlo.unary_writes, Finset.mem_singleton]
    exact ⟨StableHlo.devRef_ne_of_ne h0, StableHlo.devRef_ne_of_ne h1, StableHlo.devRef_ne_of_ne h2,
      StableHlo.devRef_ne_of_ne h3⟩))

/-- Stretch B writes only the four flat tables. -/
theorem afterB_of_arg (V : Valuation τ sig (Elt F)) {b : Ref sig .tc}
    (h5 : b ≠ main_v5) (h6 : b ≠ main_v6) (h7 : b ≠ main_v7) (h8 : b ≠ main_v8) :
    StableHlo.after hostOpsB V (Proc.devRef .tc b) = V (Proc.devRef .tc b) :=
  StableHlo.after_of_forall_not_mem (b := Proc.devRef .tc b) _ _ (List.forall_iff_forall_mem.mp (by
    simp only [hostOpsB, List.Forall, StableHlo.reshape_writes, Finset.mem_singleton]
    exact ⟨StableHlo.devRef_ne_of_ne h5, StableHlo.devRef_ne_of_ne h6, StableHlo.devRef_ne_of_ne h7,
      StableHlo.devRef_ne_of_ne h8⟩))

/-- After stretch B the flat one-hop table is the one-hop index argument reshaped to one row-major list. -/
theorem afterB_v5 (V : Valuation τ sig (Elt F)) :
    StableHlo.after hostOpsB V (Proc.devRef .tc main_v5)
      = shapeCast S40960 (V (Proc.devRef .tc main_arg2)) shapeCasts_S4096x10_S40960 := by
  show StableHlo.after _ ((StableHlo.reshape main_arg2 main_v5 rfl shapeCasts_S4096x10_S40960).result V) (Proc.devRef .tc main_v5) = _
  rw [StableHlo.after_of_forall_not_mem (b := Proc.devRef .tc main_v5) _ _ (List.forall_iff_forall_mem.mp (by
    simp only [List.Forall, StableHlo.reshape_writes, Finset.mem_singleton]
    exact ⟨StableHlo.devRef_ne_of_ne (by decide), StableHlo.devRef_ne_of_ne (by decide), StableHlo.devRef_ne_of_ne (by decide)⟩)),
    StableHlo.reshape_result']
  rfl

/-- After stretch B the flat two-hop table is the two-hop index argument reshaped to one row-major list. -/
theorem afterB_v6 (V : Valuation τ sig (Elt F)) :
    StableHlo.after hostOpsB V (Proc.devRef .tc main_v6)
      = shapeCast S409600 (V (Proc.devRef .tc main_arg4)) shapeCasts_S40960x10_S409600 := by
  show StableHlo.after _ ((StableHlo.reshape main_arg4 main_v6 rfl shapeCasts_S40960x10_S409600).result
    ((StableHlo.reshape main_arg2 main_v5 rfl shapeCasts_S4096x10_S40960).result V)) (Proc.devRef .tc main_v6) = _
  rw [StableHlo.after_of_forall_not_mem (b := Proc.devRef .tc main_v6) _ _ (List.forall_iff_forall_mem.mp (by
    simp only [List.Forall, StableHlo.reshape_writes, Finset.mem_singleton]
    exact ⟨StableHlo.devRef_ne_of_ne (by decide), StableHlo.devRef_ne_of_ne (by decide)⟩)),
    StableHlo.reshape_result', StableHlo.reshape_result_ne' _ _ _ _ _ (by decide)]
  rfl

end Cert.KernelIdeal.Main

end
-- ==== Proof.MainArgs.lean ====
/-
  The arguments of @main end as launched, and the result ends at what the third region leaves.

  The contents of the TensorCore's buffers are folded through @main: four host stretches, three pipelined regions
  and the SparseCore call. A host stretch changes only the buffers its operations write; the call only its four
  results; a region only the arrays of its output windows — an array it reads through an input window ends at the
  contents it was entered with, and a buffer it has no window on is untouched. So at any buffer that nothing writes the
  fold walks back to the launch memory: that is every argument. The result buffer is the third region's output array.
-/
import proofs.«213116_g69346541961480_cont_9to1_m_612_34_alg».proof.Proof.MainFold
import proofs.«213116_g69346541961480_cont_9to1_m_612_34_alg».proof.Proof.MainPreHost

noncomputable section

namespace Cert.KernelIdeal.Main

open Cert.KernelIdeal Cert.KernelIdeal.Gen Cert.KernelIdeal.Ghost Cert.KernelIdeal.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The stretches and the call leave what they do not write -/

/-- Stretch C writes only the regrouped neighbour rows, three bias rows and the two halves of the second output weight. -/
theorem afterC_of_arg (V : Valuation τ sig (Elt F)) {b : Ref sig .tc}
    (h10 : b ≠ main_v10) (h11 : b ≠ main_v11) (h12 : b ≠ main_v12) (h13 : b ≠ main_v13) (h14 : b ≠ main_v14) (h15 : b ≠ main_v15) :
    StableHlo.after hostOpsC V (Proc.devRef .tc b) = V (Proc.devRef .tc b) :=
  StableHlo.after_of_forall_not_mem (b := Proc.devRef .tc b) _ _ (List.forall_iff_forall_mem.mp (by
    simp only [hostOpsC, List.Forall, StableHlo.reshape_writes, StableHlo.unary_writes, Finset.mem_singleton]
    exact ⟨StableHlo.devRef_ne_of_ne h10, StableHlo.devRef_ne_of_ne h11, StableHlo.devRef_ne_of_ne h12,
      StableHlo.devRef_ne_of_ne h13, StableHlo.devRef_ne_of_ne h14, StableHlo.devRef_ne_of_ne h15⟩))

/-- Stretch D writes only the last bias row. -/
theorem afterD_of_arg (V : Valuation τ sig (Elt F)) {b : Ref sig .tc} (h17 : b ≠ main_v17) :
    StableHlo.after hostOpsD V (Proc.devRef .tc b) = V (Proc.devRef .tc b) :=
  StableHlo.after_of_forall_not_mem (b := Proc.devRef .tc b) _ _ (List.forall_iff_forall_mem.mp (by
    simp only [hostOpsD, List.Forall, StableHlo.reshape_writes, Finset.mem_singleton]
    exact StableHlo.devRef_ne_of_ne h17))

/-- The SparseCore call writes only its four results. -/
theorem W4_of_unwritten (c : Dev nD) {b : Ref sig .tc} (h0 : b ≠ main_v9_0) (h1 : b ≠ main_v9_1) (h2 : b ≠ main_v9_2) (h3 : b ≠ main_v9_3) :
    W4 m c (Proc.devRef .tc b) = W3 m c (Proc.devRef .tc b) :=
  afterCall_of_notMem (W3 m) c (StableHlo.devRef_ne_of_ne h0.symm) (StableHlo.devRef_ne_of_ne h1.symm)
    (StableHlo.devRef_ne_of_ne h2.symm) (StableHlo.devRef_ne_of_ne h3.symm)

/-! ## A region leaves what it only reads: an input window's array ends at the entry contents -/

/-- Every window of the first region is an input window but the two that carry its results. -/
theorem wins0 : ∀ w : Fin cfg0.W, (cfg0.win w).isOut = false ∨ Pipeline.arrRef spec0 w = main_v4_0 ∨ Pipeline.arrRef spec0 w = main_v4_1 := by
  decide

/-- Every window of the second region is an input window but the two that carry its results. -/
theorem wins2 : ∀ w : Fin cfg2.W, (cfg2.win w).isOut = false ∨ Pipeline.arrRef spec2 w = main_v16_0 ∨ Pipeline.arrRef spec2 w = main_v16_1 := by
  decide

/-- Every window of the third region is an input window but the one that carries the result. -/
theorem wins3 : ∀ w : Fin cfg3.W, (cfg3.win w).isOut = false ∨ Pipeline.arrRef spec3 w = main_v18 := by
  decide

/-- The first region changes only its two results: a buffer it reads through a window ends as entered, a buffer it has no
    window on is bypassed. -/
theorem W2_of_unwritten (c : Dev nD) {b : Ref sig .tc} (h0 : b ≠ main_v4_0) (h1 : b ≠ main_v4_1) :
    W2 m c (Proc.devRef .tc b) = W1 m c (Proc.devRef .tc b) := by
  by_cases hb : ∃ w, Pipeline.arrRef spec0 w = b
  · obtain ⟨w, rfl⟩ := hb
    rcases wins0 w with hw | e | e
    · exact (W2_arr m c w).trans (((dat0 m c).arrAt_in w hw _).trans (Region0.A_eq (V1 m) _ _ c w))
    · exact absurd e h0
    · exact absurd e h1
  · exact W2_of_ne m c b fun w e => hb ⟨w, e⟩

/-- The second region changes only its two results. -/
theorem W6_of_unwritten (c : Dev nD) {b : Ref sig .tc} (h0 : b ≠ main_v16_0) (h1 : b ≠ main_v16_1) :
    W6 m c (Proc.devRef .tc b) = W5 m c (Proc.devRef .tc b) := by
  by_cases hb : ∃ w, Pipeline.arrRef spec2 w = b
  · obtain ⟨w, rfl⟩ := hb
    rcases wins2 w with hw | e | e
    · exact (W6_arr m c w).trans (((dat1 m c).arrAt_in w hw _).trans (Region1.A_eq (V5 m) _ _ c w))
    · exact absurd e h0
    · exact absurd e h1
  · exact W6_of_ne m c b fun w e => hb ⟨w, e⟩

/-- The third region changes only its result. -/
theorem W8_of_unwritten (c : Dev nD) {b : Ref sig .tc} (h0 : b ≠ main_v18) :
    W8 m c (Proc.devRef .tc b) = W7 m c (Proc.devRef .tc b) := by
  by_cases hb : ∃ w, Pipeline.arrRef spec3 w = b
  · obtain ⟨w, rfl⟩ := hb
    rcases wins3 w with hw | e
    · exact (W8_arr m c w).trans (((dat2 m c).arrAt_in w hw _).trans (Region2.A_eq (V7 m) _ _ c w))
    · exact absurd e h0
  · exact W8_of_ne m c b fun w e => hb ⟨w, e⟩

/-! ## A buffer nothing writes ends as launched -/

/-- The buffers some host operation, some region or the SparseCore call writes. -/
def written : Finset (Ref sig .tc) :=
  {main_v0, main_v1, main_v2, main_v3, main_v4_0, main_v4_1, main_v5, main_v6, main_v7, main_v8, main_v9_0, main_v9_1, main_v9_2, main_v9_3,
    main_v10, main_v11, main_v12, main_v13, main_v14, main_v15, main_v16_0, main_v16_1, main_v17, main_v18}

/-- The fold at a buffer outside that set walks back, stage by stage, to the launch memory. -/
theorem W8_of_notWritten (c : Dev nD) {b : Ref sig .tc} (hb : b ∉ written) :
    W8 m c (Proc.devRef .tc b) = m ((c : Thread nD τ).loc b) := by
  have ne : ∀ x ∈ written, b ≠ x := fun x hx e => hb (e ▸ hx)
  calc W8 m c (Proc.devRef .tc b)
    _ = W7 m c (Proc.devRef .tc b) := W8_of_unwritten m c (ne _ (by decide))
    _ = W6 m c (Proc.devRef .tc b) := afterD_of_arg _ (ne _ (by decide))
    _ = W5 m c (Proc.devRef .tc b) := W6_of_unwritten m c (ne _ (by decide)) (ne _ (by decide))
    _ = W4 m c (Proc.devRef .tc b) := afterC_of_arg _ (ne _ (by decide)) (ne _ (by decide)) (ne _ (by decide)) (ne _ (by decide)) (ne _ (by decide)) (ne _ (by decide))
    _ = W3 m c (Proc.devRef .tc b) := W4_of_unwritten m c (ne _ (by decide)) (ne _ (by decide)) (ne _ (by decide)) (ne _ (by decide))
    _ = W2 m c (Proc.devRef .tc b) := afterB_of_arg _ (ne _ (by decide)) (ne _ (by decide)) (ne _ (by decide)) (ne _ (by decide))
    _ = W1 m c (Proc.devRef .tc b) := W2_of_unwritten m c (ne _ (by decide)) (ne _ (by decide))
    _ = W0 m c (Proc.devRef .tc b) := afterA_of_arg _ (ne _ (by decide)) (ne _ (by decide)) (ne _ (by decide)) (ne _ (by decide))
    _ = m ((c : Thread nD τ).loc b) := rfl

/-! ## The twenty arguments, and the result -/

theorem W8_main_arg0 (c : Dev nD) : W8 m c (Proc.devRef .tc main_arg0) = m ((c : Thread nD τ).loc main_arg0) :=
  W8_of_notWritten m c (by decide)
theorem W8_main_arg1 (c : Dev nD) : W8 m c (Proc.devRef .tc main_arg1) = m ((c : Thread nD τ).loc main_arg1) :=
  W8_of_notWritten m c (by decide)
theorem W8_main_arg2 (c : Dev nD) : W8 m c (Proc.devRef .tc main_arg2) = m ((c : Thread nD τ).loc main_arg2) :=
  W8_of_notWritten m c (by decide)
theorem W8_main_arg3 (c : Dev nD) : W8 m c (Proc.devRef .tc main_arg3) = m ((c : Thread nD τ).loc main_arg3) :=
  W8_of_notWritten m c (by decide)
theorem W8_main_arg4 (c : Dev nD) : W8 m c (Proc.devRef .tc main_arg4) = m ((c : Thread nD τ).loc main_arg4) :=
  W8_of_notWritten m c (by decide)
theorem W8_main_arg5 (c : Dev nD) : W8 m c (Proc.devRef .tc main_arg5) = m ((c : Thread nD τ).loc main_arg5) :=
  W8_of_notWritten m c (by decide)
theorem W8_main_arg6 (c : Dev nD) : W8 m c (Proc.devRef .tc main_arg6) = m ((c : Thread nD τ).loc main_arg6) :=
  W8_of_notWritten m c (by decide)
theorem W8_main_arg7 (c : Dev nD) : W8 m c (Proc.devRef .tc main_arg7) = m ((c : Thread nD τ).loc main_arg7) :=
  W8_of_notWritten m c (by decide)
theorem W8_main_arg8 (c : Dev nD) : W8 m c (Proc.devRef .tc main_arg8) = m ((c : Thread nD τ).loc main_arg8) :=
  W8_of_notWritten m c (by decide)
theorem W8_main_arg9 (c : Dev nD) : W8 m c (Proc.devRef .tc main_arg9) = m ((c : Thread nD τ).loc main_arg9) :=
  W8_of_notWritten m c (by decide)
theorem W8_main_arg10 (c : Dev nD) : W8 m c (Proc.devRef .tc main_arg10) = m ((c : Thread nD τ).loc main_arg10) :=
  W8_of_notWritten m c (by decide)
theorem W8_main_arg11 (c : Dev nD) : W8 m c (Proc.devRef .tc main_arg11) = m ((c : Thread nD τ).loc main_arg11) :=
  W8_of_notWritten m c (by decide)
theorem W8_main_arg12 (c : Dev nD) : W8 m c (Proc.devRef .tc main_arg12) = m ((c : Thread nD τ).loc main_arg12) :=
  W8_of_notWritten m c (by decide)
theorem W8_main_arg13 (c : Dev nD) : W8 m c (Proc.devRef .tc main_arg13) = m ((c : Thread nD τ).loc main_arg13) :=
  W8_of_notWritten m c (by decide)
theorem W8_main_arg14 (c : Dev nD) : W8 m c (Proc.devRef .tc main_arg14) = m ((c : Thread nD τ).loc main_arg14) :=
  W8_of_notWritten m c (by decide)
theorem W8_main_arg15 (c : Dev nD) : W8 m c (Proc.devRef .tc main_arg15) = m ((c : Thread nD τ).loc main_arg15) :=
  W8_of_notWritten m c (by decide)
theorem W8_main_arg16 (c : Dev nD) : W8 m c (Proc.devRef .tc main_arg16) = m ((c : Thread nD τ).loc main_arg16) :=
  W8_of_notWritten m c (by decide)
theorem W8_main_arg17 (c : Dev nD) : W8 m c (Proc.devRef .tc main_arg17) = m ((c : Thread nD τ).loc main_arg17) :=
  W8_of_notWritten m c (by decide)
theorem W8_main_arg18 (c : Dev nD) : W8 m c (Proc.devRef .tc main_arg18) = m ((c : Thread nD τ).loc main_arg18) :=
  W8_of_notWritten m c (by decide)
theorem W8_main_arg19 (c : Dev nD) : W8 m c (Proc.devRef .tc main_arg19) = m ((c : Thread nD τ).loc main_arg19) :=
  W8_of_notWritten m c (by decide)

/-- The result buffer ends at what the third region's pipeline leaves in its output window's array. -/
theorem W8_result (c : Dev nD) : W8 m c (Proc.devRef .tc main_v18) = (dat2 m c).arrAt 4 cfg3.N :=
  W8_arr m c 4

end Cert.KernelIdeal.Main

end
-- ==== Proof.MainRegions.lean ====
/-
  The three pipelined regions of @main as segments, the host stretches between them, and the two halves of @main
  run from one boundary's thread state to the next: every unscoped buffer at the fold's contents, what the core owes
  carried through untouched.
-/
import proofs.«213116_g69346541961480_cont_9to1_m_612_34_alg».proof.Proof.MainFold
import Idealize.ShloMosaic.Lib.Pipeline.RegionsLoop

noncomputable section

namespace Cert.KernelIdeal.Main

open Cert.KernelIdeal Cert.KernelIdeal.Gen Cert.KernelIdeal.Ghost Cert.KernelIdeal.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The regions as segments -/

-- a library lemma stated over `pin pcs a p` unifies with the pinned configuration only when unification may unfold
-- plain definitions in a metavariable's type
set_option backward.isDefEq.respectTransparency.types false in
/-- Region 0 over the thread state: entered from every unscoped buffer at its entry contents, left at its exit
    contents. Its arrays split out of the unscoped buffers and are put back at what the pipeline leaves; what the core
    owes passes through, its recorded pairs still below the call's level (the pipeline's own waits sit at level 0). -/
def reg0 : Pipeline.RegionSeg (pcfgs (F := F)) adm (pdats m) ι₀ defs₀ 𝒱₀ (LL (F := F)) (lvl (F := F)) 0 where
  win := launch0.win.to₀
  block_pos := launch0.block_pos
  stage_whole := launch0.stage_whole
  K := PEmpty
  osem k := k.elim
  ho := Pipeline.OwnSemFacts.none _
  hbody c := Region0.body_obligation (Name := ℕ) (U := UU) (Lvl := ℕ) (V1 m) ((K (F := F)).Otc c 0) (Bn (F := F) c 0) ι₀ 𝒱₀ c
  hwaits c := Pipeline.cellsWaits_intro _ _ ι₀ 0 c fun w s t =>
    (K (F := F)).mayWait_none _ (Otc_none (F := F) c 0)
  pre c := TS (F := F) (W1 m) 0 c
  post c := TS (F := F) (W2 m) 0 c
  X c := iprop(emp)
  Y c := iprop(emp)
  Z c := iprop(Pipeline.unscopedRest (Ix := HIx 1) (Name := ℕ) (U := UU) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left (s := Bn (F := F) c 0) (t := cfg0.waitPairs ι₀)))
      iexact HO
    isplitr; · iempintro
    isplitl [Hrest]; · iexact Hrest
    iexact Hp
  hin c := Region0.hin (Name := ℕ) (U := UU) (Lvl := ℕ) (V1 m) ((K (F := F)).Otc c 0) (Bn (F := F) c 0) c
  hout c := Region0.hout (Name := ℕ) (U := UU) (Lvl := ℕ) (V1 m) ((K (F := F)).Otc c 0) (Bn (F := F) c 0) c
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (Pipeline.owesWithin_mono c _ (bound_sub_Bn (F := F) cfg0 c 0))
    iexact HO

-- a library lemma stated over `pin pcs a p` unifies with the pinned configuration only when unification may unfold
-- plain definitions in a metavariable's type
set_option backward.isDefEq.respectTransparency.types false in
/-- Region 1 over the thread state: entered from every unscoped buffer at its entry contents, left at its exit
    contents. Its arrays split out of the unscoped buffers and are put back at what the pipeline leaves; what the core
    owes passes through, its recorded pairs still below the call's level (the pipeline's own waits sit at level 0). -/
def reg1 : Pipeline.RegionSeg (pcfgs (F := F)) adm (pdats m) ι₀ defs₀ 𝒱₀ (LL (F := F)) (lvl (F := F)) 1 where
  win := launch2.win.to₀
  block_pos := launch2.block_pos
  stage_whole := launch2.stage_whole
  K := PEmpty
  osem k := k.elim
  ho := Pipeline.OwnSemFacts.none _
  hbody c := Region1.body_obligation (Name := ℕ) (U := UU) (Lvl := ℕ) (V5 m) ((K (F := F)).Otc c 1) (Bn (F := F) c 1) 𝒱₀ ι₀ c
  hwaits c := Pipeline.cellsWaits_intro _ _ ι₀ 1 c fun w s t =>
    (K (F := F)).mayWait_none _ (Otc_none (F := F) c 1)
  pre c := TS (F := F) (W5 m) 1 c
  post c := TS (F := F) (W6 m) 1 c
  X c := iprop(∃ r, prngReg c r)
  Y c := iprop(∃ r, prngReg c r)
  Z c := Pipeline.unscopedRest (Ix := HIx 1) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left (s := Bn (F := F) c 1) (t := cfg2.waitPairs ι₀)))
      iexact HO
    isplitl [Hp]; · iexact Hp
    iexact Hrest
  hin c := Region1.hin (Name := ℕ) (U := UU) (Lvl := ℕ) (V5 m) ((K (F := F)).Otc c 1) (Bn (F := F) c 1) c _
  hout c := Region1.hout (Name := ℕ) (U := UU) (Lvl := ℕ) (V5 m) ((K (F := F)).Otc c 1) (Bn (F := F) c 1) c
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V5 m c) (V6 m c) ((pdats m 1 c).arrAt · cfg2.N) (hF1 m c) (hrest1 m c)
    rw [Pipeline.unscopedBufs_held] at hjoin
    iintro ⟨Ha, HO, Hp, Hrest⟩
    imodintro
    isplitl [Ha Hrest]
    · iapply hjoin; isplitl [Ha] <;> iassumption
    isplitl [Hp]; · iexact Hp
    iapply (Pipeline.owesWithin_mono c _ (bound_sub_Bn (F := F) cfg2 c 1))
    iexact HO

-- a library lemma stated over `pin pcs a p` unifies with the pinned configuration only when unification may unfold
-- plain definitions in a metavariable's type
set_option backward.isDefEq.respectTransparency.types false in
/-- Region 2 over the thread state: entered from every unscoped buffer at its entry contents, left at its exit
    contents. Its arrays split out of the unscoped buffers and are put back at what the pipeline leaves; what the core
    owes passes through, its recorded pairs still below the call's level (the pipeline's own waits sit at level 0). -/
def reg2 : Pipeline.RegionSeg (pcfgs (F := F)) adm (pdats m) ι₀ defs₀ 𝒱₀ (LL (F := F)) (lvl (F := F)) 2 where
  win := launch3.win.to₀
  block_pos := launch3.block_pos
  stage_whole := launch3.stage_whole
  K := PEmpty
  osem k := k.elim
  ho := Pipeline.OwnSemFacts.none _
  hbody c := Region2.body_obligation (Name := ℕ) (U := UU) (Lvl := ℕ) (V7 m) ((K (F := F)).Otc c 1) (Bn (F := F) c 1) 𝒱₀ ι₀ c
  hwaits c := Pipeline.cellsWaits_intro _ _ ι₀ 2 c fun w s t =>
    (K (F := F)).mayWait_none _ (Otc_none (F := F) c 1)
  pre c := TS (F := F) (W7 m) 1 c
  post c := TS (F := F) (W8 m) 1 c
  X c := iprop(∃ r, prngReg c r)
  Y c := iprop(∃ r, prngReg c r)
  Z c := Pipeline.unscopedRest (Ix := HIx 1) (Name := ℕ) (U := UU) (Lvl := ℕ) spec3 c (V7 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left (s := Bn (F := F) c 1) (t := cfg3.waitPairs ι₀)))
      iexact HO
    isplitl [Hp]; · iexact Hp
    iexact Hrest
  hin c := Region2.hin (Name := ℕ) (U := UU) (Lvl := ℕ) (V7 m) ((K (F := F)).Otc c 1) (Bn (F := F) c 1) c (adm 2)
  hout c := Region2.hout (Name := ℕ) (U := UU) (Lvl := ℕ) (V7 m) ((K (F := F)).Otc c 1) (Bn (F := F) c 1) c
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V7 m c) (V8 m c) ((pdats m 2 c).arrAt · cfg3.N) (hF2 m c) (hrest2 m c)
    rw [Pipeline.unscopedBufs_held] at hjoin
    iintro ⟨Ha, HO, Hp, Hrest⟩
    imodintro
    isplitl [Ha Hrest]
    · iapply hjoin; isplitl [Ha] <;> iassumption
    isplitl [Hp]; · iexact Hp
    iapply (Pipeline.owesWithin_mono c _ (bound_sub_Bn (F := F) cfg3 c 1))
    iexact HO

/-! ## The two halves of @main as segment lists -/

/-- Up to the SparseCore call: stretch A, region 0, stretch B. -/
abbrev segsA : List (Pipeline.Seg (pcfgs (F := F)) adm (pdats m) ι₀ defs₀ 𝒱₀ (LL (F := F)) (lvl (F := F))) :=
  [ .host (hseg hostOpsA hostOpsA_sub hostOpsA_fresh (W0 m) 0),
    .region (reg0 m),
    .host (hseg hostOpsB hostOpsB_sub hostOpsB_fresh (W2 m) 0) ]
/-- After it: stretch C, region 1, stretch D, region 2. -/
abbrev segsB : List (Pipeline.Seg (pcfgs (F := F)) adm (pdats m) ι₀ defs₀ 𝒱₀ (LL (F := F)) (lvl (F := F))) :=
  [ .host (hseg hostOpsC hostOpsC_sub hostOpsC_fresh (W4 m) 1),
    .region (reg1 m),
    .host (hseg hostOpsD hostOpsD_sub hostOpsD_fresh (W6 m) 1),
    .region (reg2 m) ]

theorem progA_eq : progA (F := F) = Pipeline.Seg.run (segsA m) := rfl
theorem progB_eq : progB (F := F) = Pipeline.Seg.run (segsB m) := rfl

/-! ## The halves run -/

-- the kit's implicit arguments are found by unifying its conclusion with this one
set_option backward.isDefEq.respectTransparency.types false in
/-- The first half on core `c`: from the launch contents to the contents the SparseCore call is entered with. -/
theorem wp_progA [∀ e, Nonempty (Elt F e)] (c : Dev nD) {Q : PUnit → sProp 𝕄} :
    iprop((iprop(boundary (c.tc : Thread nD τ) ∗ TS (F := F) (W3 m) 0 c) -∗ Q ⟨⟩)
        ∗ boundary (c.tc : Thread nD τ) ∗ TS (F := F) (W0 m) 0 c ∗ levAts (LL (F := F)) (lvl (F := F))
        ∗ Pipeline.ghostOn (pcfgs (F := F)) adm EP {0} c)
      ⊢ wp frame (wpE (D (F := F)) 𝒱 (c.tc : Thread nD τ) none) Set.univ (progA (F := F)) Q := by
  rw [progA_eq m]
  exact Pipeline.wp_segs (pcfgs (F := F)) adm (pdats m) ι₀ cellOf_inj EP defs₀ 𝒱₀ (LL (F := F)) (lvl (F := F)) c (segsA m) {0}
    (TS (F := F) (W0 m) 0) (TS (F := F) (W3 m) 0)
    (by simp only [segsA, Pipeline.Seg.pipes_host, Pipeline.Seg.pipes_region, Pipeline.Seg.pipes_nil]; decide)
    (by simp only [segsA, Pipeline.Seg.pipes_host, Pipeline.Seg.pipes_region, Pipeline.Seg.pipes_nil]; decide)
    ⟨fun _ => .rfl, fun _ => .rfl, fun _ => .rfl, fun _ => .rfl⟩

set_option backward.isDefEq.respectTransparency.types false in
/-- The second half on core `c`: from the contents the SparseCore call leaves to the return. -/
theorem wp_progB [∀ e, Nonempty (Elt F e)] (c : Dev nD) {Q : PUnit → sProp 𝕄} :
    iprop((iprop(boundary (c.tc : Thread nD τ) ∗ TS (F := F) (W8 m) 1 c) -∗ Q ⟨⟩)
        ∗ boundary (c.tc : Thread nD τ) ∗ TS (F := F) (W4 m) 1 c ∗ levAts (LL (F := F)) (lvl (F := F))
        ∗ Pipeline.ghostOn (pcfgs (F := F)) adm EP {1, 2} c)
      ⊢ wp frame (wpE (D (F := F)) 𝒱 (c.tc : Thread nD τ) none) Set.univ (progB (F := F)) Q := by
  rw [progB_eq m]
  exact Pipeline.wp_segs (pcfgs (F := F)) adm (pdats m) ι₀ cellOf_inj EP defs₀ 𝒱₀ (LL (F := F)) (lvl (F := F)) c (segsB m) {1, 2}
    (TS (F := F) (W4 m) 1) (TS (F := F) (W8 m) 1)
    (by simp only [segsB, Pipeline.Seg.pipes_host, Pipeline.Seg.pipes_region, Pipeline.Seg.pipes_nil]; decide)
    (by simp only [segsB, Pipeline.Seg.pipes_host, Pipeline.Seg.pipes_region, Pipeline.Seg.pipes_nil]; decide)
    ⟨fun _ => .rfl, fun _ => .rfl, fun _ => .rfl, fun _ => .rfl, fun _ => .rfl⟩

end Cert.KernelIdeal.Main

end
-- ==== Proof.MainGhost.lean ====
/-
  The launch element of the certificate's ghost state, and what the launch makes of it.

  The element is a triple: the rounds of the launch handshakes' cells, the rounds of the three TensorCore pipelines'
  staging cells, and the unit of the tile kernel's transfer counters. Owning the triple is owning each component through
  its embedding. The pipelines' component funds, for every device and every pipeline, the staging cells' launch state
  and the duty tokens of the transfers the pipeline's loop will issue; grouped by device, that is what each TensorCore
  carries into its regions. The tile kernel asks nothing of the launch for a protocol of its own.
-/
import proofs.«213116_g69346541961480_cont_9to1_m_612_34_alg».proof.Proof.MainHost
import proofs.«213116_g69346541961480_cont_9to1_m_612_34_alg».proof.Proof.TilePay
import proofs.«213116_g69346541961480_cont_9to1_m_612_34_alg».proof.Proof.Gen.KernelIdeal.Launch
import Idealize.ShloMosaic.Lib.SparseCore.Launch
import Idealize.ShloMosaic.Lib.Pipeline.Sound
import Idealize.ShloMosaic.Lib.Pipeline.Regions

noncomputable section

namespace Cert.KernelIdeal.Main

open Cert.KernelIdeal Cert.KernelIdeal.Gen Cert.KernelIdeal.Ghost Cert.KernelIdeal.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshakes' rounds at their cells and tokens, the pipelines' rounds at the staging cells and
    the loops' transfers, no counter. -/
def u₀ : UU :=
  (initOf (K (F := F)).hsCells (K (F := F)).hsToks, (initOf (Pipeline.cells cfgs cellOf_inj) (Pipeline.launchToks cfgs cellOf_inj), 1))

/-- What the launch deals the TensorCore of device `d`: the rounds ghost state of its three pipelines. -/
abbrev G (d : Dev nD) : sProp 𝕄 := Pipeline.ghostOn (pcfgs (F := F)) adm EP Finset.univ d

/-- The pipelines' rounds and the counters together, embedded. -/
abbrev ER : Emb (UP × Counters) 𝕄 :=
  (Emb.inr : Emb (UP × Counters) UU).trans (uEmb (nD := nD) (sig := sig) (Ix := HIx 1) (Val := Elt F) (Name := ℕ) (U := UU) (Lvl := ℕ)).toEmb

/-- Owning a triple of the ghost state is owning its first two components, each through its embedding. -/
theorem ownU_split (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own (ER (F := F) (b, c))) := ownU_pair a (b, c)
  have h2 : (BI.own (ER (F := F) (b, c)) : sProp 𝕄) ⊢ iprop(BI.own (EP b) ∗ BI.own (((Emb.inr : Emb Counters (UP × Counters)).trans (ER (F := F))) c)) :=
    own_pair_emb (ER (F := F)) b c
  iintro Hu
  ihave H := h1 $$ Hu
  icases H with ⟨HH, HR⟩
  isplitl [HH]; · iexact HH
  ihave H2 := h2 $$ HR
  icases H2 with ⟨HP, -⟩
  iexact HP

/-- The cells' launch state and the duty tokens, device by device and pipeline by pipeline, are each device's share. -/
theorem ghost_devices :
    iprop((bigSep Finset.univ fun c : Dev nD => bigSep Finset.univ fun p : Fin 3 => Pipeline.cellsGhost cfgs EP p c)
        ∗ (bigSep Finset.univ fun c : Dev nD => bigSep Finset.univ fun p : Fin 3 => (Pipeline.toksInit cfgs EP p c : sProp 𝕄)))
      ⊢ bigSep Finset.univ fun d : Dev nD => G (F := F) d := by
  rw [← bigSep_sep']
  refine bigSep_mono fun c _ => ?_
  rw [← bigSep_sep']
  exact BI.Entails.refl _

/-- The tile kernel's protocol takes nothing from the launch. -/
theorem Px_emp (I : Tile.Ins F) :
    (bigSep Finset.univ fun thr : Thread nD τ => bigSep Finset.univ fun q : Fin 1 => (Tile.P I).x q thr) = (iprop(emp) : sProp 𝕄) :=
  (bigSep_congr (Ψ := fun _ : Thread nD τ => (BI.emp : sProp 𝕄)) fun _ _ => bigSep_emp_const _).trans (bigSep_emp_const _)

/-- The launch element yields the handshakes' element, every device's pipelines' ghost state, and the (empty) payloads
    of the tile kernel's own protocol. -/
theorem hu₀ (I : Tile.Ins F) :
    iprop(ownU (u₀ (F := F)) ∗ (Tile.P I).oxCred ∗ (K (F := F)).freeSems0)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => (Tile.P I).x q thr) := by
  rw [Px_emp I]
  unfold u₀
  iintro ⟨Hu, -, -⟩
  ihave H := (ownU_split _ _ _) $$ Hu
  icases H with ⟨HH, HP⟩
  imod (Pipeline.fund_ghost cfgs EP cellOf_inj) $$ HP with ⟨Hg, Ht⟩
  imodintro
  isplitl [HH]; · iexact HH
  isplitl [Hg Ht]
  · iapply (ghost_devices (F := F))
    isplitl [Hg]; · iexact Hg
    iexact Ht
  iempintro

/-- A device's ghost state is the first pipeline's and the other two's. -/
theorem G_split (d : Dev nD) :
    (G (F := F) d) = iprop(Pipeline.ghostOn (pcfgs (F := F)) adm EP {0} d ∗ Pipeline.ghostOn (pcfgs (F := F)) adm EP {1, 2} d) := by
  show Pipeline.PerCore.ghostOn (pcfgs (F := F)) (fun _ => adm) EP Finset.univ d
    = iprop(Pipeline.PerCore.ghostOn (pcfgs (F := F)) (fun _ => adm) EP {0} d ∗ Pipeline.PerCore.ghostOn (pcfgs (F := F)) (fun _ => adm) EP {1, 2} d)
  unfold Pipeline.PerCore.ghostOn
  rw [show (Finset.univ : Finset (Fin 3)) = {0} ∪ {1, 2} from by decide]
  exact bigSep_union (by decide)

end Cert.KernelIdeal.Main

end
-- ==== Proof.TileSplit.lean ====
/-
  How the operands of the SparseCore call are dealt to its 32 workers and gathered back.

  The call has eight read-only operands and four results. Each read-only operand is held whole at the full share;
  halving the share 32 times leaves a remainder and 32 read tokens, one per worker. The 4096 + 40960 = 45056 = 32 · 1408
  result rows are cut into 32 runs of 1408 consecutive rows: the runs are pairwise disjoint and every row lies in the
  run numbered by its quotient by 1408. Each of the two 32 × 16 arrays of partial sums is cut into its 32 rows.
  The two cores' sixteen tasks each are the 32 workers, through the bijection (c, i) ↦ 2 i + c.
-/
import proofs.«213116_g69346541961480_cont_9to1_m_612_34_alg».proof.Proof.TilePay

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The 32 workers are the sixteen tasks of the two cores -/

theorem wid_lt (c : Fin 2) (i : Fin 16) : wid c i < 32 := by
  unfold wid; omega

/-- Every number below 32 is the worker number of exactly the pair (its parity, its half). -/
theorem wid_image : (Finset.univ : Finset (Fin 2 × Fin 16)).image (fun p => wid p.1 p.2) = Finset.range 32 := by
  ext x
  rw [Finset.mem_image, Finset.mem_range]
  constructor
  · rintro ⟨p, -, rfl⟩
    exact wid_lt p.1 p.2
  · intro hx
    refine ⟨(⟨x % 2, Nat.mod_lt _ (by decide)⟩, ⟨x / 2, by omega⟩), Finset.mem_univ _, ?_⟩
    show x / 2 * 2 + x % 2 = x
    omega

theorem wid_injOn : Set.InjOn (fun p : Fin 2 × Fin 16 => wid p.1 p.2) (Finset.univ : Finset (Fin 2 × Fin 16)) := by
  rintro ⟨c, i⟩ - ⟨c', i'⟩ - h
  have h' : i.val * 2 + c.val = i'.val * 2 + c'.val := h
  have hc := c.isLt
  have hc' := c'.isLt
  exact Prod.ext (Fin.ext (show c.val = c'.val by omega)) (Fin.ext (show i.val = i'.val by omega))

/-- A family indexed by the worker number, taken core by core and task by task, is the family over the numbers below 32. -/
theorem bigSep_workers (Φ : ℕ → sProp 𝕄) :
    (bigSep Finset.univ fun c : Fin 2 => bigSep Finset.univ fun i : Fin 16 => Φ (wid c i)) = bigSep (Finset.range 32) Φ := by
  rw [← wid_image, BI.bigSep_image_of_injOn wid_injOn, bigSep_univ_prod]

/-- The call's cores are the two cores. -/
theorem bigSep_cores (Φ : Fin 2 → sProp 𝕄) :
    (bigSep Finset.univ fun c : Fin ((K (F := F)).nCore 0) => Φ (Fin.cast nCore_zero c)) = bigSep Finset.univ Φ :=
  (bigSep_univ_equiv (finCongr (nCore_zero (F := F))) Φ).symm

/-! ## The result rows: 32 runs of 1408 -/

theorem tSet_disjoint : ∀ w ∈ Finset.range 32, ∀ w' ∈ Finset.range 32, w ≠ w' → Disjoint (tSet w) (tSet w') := by
  intro w _ w' _ hne
  rw [Finset.disjoint_left]
  intro x hx hx'
  unfold tSet at hx hx'
  rw [Finset.mem_filter] at hx hx'
  omega

theorem tSet_cover : (Finset.range 32).biUnion tSet = Finset.univ := by
  ext x
  simp only [Finset.mem_biUnion, Finset.mem_range, Finset.mem_univ, iff_true]
  have hx : (x 0).val < 4096 := (x 0).isLt
  refine ⟨(x 0).val / 1408, by omega, ?_⟩
  unfold tSet
  rw [Finset.mem_filter]
  exact ⟨Finset.mem_univ _, by omega, by omega⟩

theorem nSet_disjoint : ∀ w ∈ Finset.range 32, ∀ w' ∈ Finset.range 32, w ≠ w' → Disjoint (nSet w) (nSet w') := by
  intro w _ w' _ hne
  rw [Finset.disjoint_left]
  intro x hx hx'
  unfold nSet at hx hx'
  rw [Finset.mem_filter] at hx hx'
  omega

theorem nSet_cover : (Finset.range 32).biUnion nSet = Finset.univ := by
  ext x
  simp only [Finset.mem_biUnion, Finset.mem_range, Finset.mem_univ, iff_true]
  have hx : (x 0).val < 40960 := (x 0).isLt
  refine ⟨(4096 + (x 0).val) / 1408, by omega, ?_⟩
  unfold nSet
  rw [Finset.mem_filter]
  exact ⟨Finset.mem_univ _, by omega, by omega⟩

theorem sqRow_disjoint : ∀ w ∈ Finset.range 32, ∀ w' ∈ Finset.range 32, w ≠ w' → Disjoint (sqRow w) (sqRow w') := by
  intro w _ w' _ hne
  rw [Finset.disjoint_left]
  intro x hx hx'
  unfold sqRow at hx hx'
  rw [Finset.mem_filter] at hx hx'
  omega

theorem sqRow_cover : (Finset.range 32).biUnion sqRow = Finset.univ := by
  ext x
  simp only [Finset.mem_biUnion, Finset.mem_range, Finset.mem_univ, iff_true]
  have hx : (x 0).val < 32 := (x 0).isLt
  refine ⟨(x 0).val, hx, ?_⟩
  unfold sqRow
  rw [Finset.mem_filter]
  exact ⟨Finset.mem_univ _, rfl⟩

/-- An array held whole is held piece by piece along a cover of its entries by 32 pairwise disjoint sets. -/
theorem pts_pieces {ℓ : Loc nD τ sig} (Kw : ℕ → Finset (Idx ℓ))
    (hd : ∀ w ∈ Finset.range 32, ∀ w' ∈ Finset.range 32, w ≠ w' → Disjoint (Kw w) (Kw w'))
    (hc : (Finset.range 32).biUnion Kw = Finset.univ) (f : Buf (Elt F) ℓ) :
    (ℓ ↦{fullShare} f : sProp 𝕄) = bigSep (Finset.range 32) fun w => ℓ ↦[Kw w]{fullShare} f := by
  rw [← pointsTo_biUnion (Finset.range 32) Kw hd, hc]

/-- Held whole at some contents, it is held piece by piece at some contents. -/
theorem pts_pieces_exists {ℓ : Loc nD τ sig} (Kw : ℕ → Finset (Idx ℓ))
    (hd : ∀ w ∈ Finset.range 32, ∀ w' ∈ Finset.range 32, w ≠ w' → Disjoint (Kw w) (Kw w'))
    (hc : (Finset.range 32).biUnion Kw = Finset.univ) :
    (iprop(∃ f, ℓ ↦{fullShare} f) : sProp 𝕄) ⊢ bigSep (Finset.range 32) fun w => iprop(∃ f, ℓ ↦[Kw w]{fullShare} f) := by
  refine exists_elim fun f => ?_
  rw [pts_pieces Kw hd hc f]
  exact bigSep_mono fun w _ => exists_intro (Φ := fun g : Buf (Elt F) ℓ => (ℓ ↦[Kw w]{fullShare} g : sProp 𝕄)) f

/-! ## The read-only operands: 32 read tokens of each -/

/-- One array at the full share is the remainder after 32 halvings and the 32 tokens. -/
theorem pts_toks {ℓ : Loc nD τ sig} (f : Buf (Elt F) ℓ) :
    (ℓ ↦{fullShare} f : sProp 𝕄)
      = iprop((ℓ ↦{Transfers.shareDrop fullShare 32} f) ∗ bigSep (Finset.range 32) fun w => ℓ ↦{rsh w} f) :=
  BI.equiv_iff.mp ⟨(Transfers.pointsTo_toks_range fullShare 32).1, (Transfers.pointsTo_toks_range fullShare 32).2⟩

variable (I : Ins F) [FloatOps F]

/-- The read-only operands whole deal a share to each of the 32 workers and keep the rest. -/
theorem reads_split (d : Dev nD) :
    readsAt I d fullShare ⊢ iprop(readsAt I d (Transfers.shareDrop fullShare 32) ∗ bigSep (Finset.range 32) fun w => readsAt I d (rsh w)) := by
  unfold readsAt
  rw [bigSep_sep', bigSep_sep', bigSep_sep', bigSep_sep', bigSep_sep', bigSep_sep', bigSep_sep']
  rw [pts_toks (I.sp d), pts_toks (I.ap d), pts_toks (I.nid d), pts_toks (I.n1 d), pts_toks (I.n2 d), pts_toks (I.a1 d), pts_toks (I.a2 d),
    pts_toks (I.b d)]
  iintro ⟨⟨D1, B1⟩, ⟨D2, B2⟩, ⟨D3, B3⟩, ⟨D4, B4⟩, ⟨D5, B5⟩, ⟨D6, B6⟩, ⟨D7, B7⟩, ⟨D8, B8⟩⟩
  isplitl [D1 D2 D3 D4 D5 D6 D7 D8]
  · isplitl [D1]; · iexact D1
    isplitl [D2]; · iexact D2
    isplitl [D3]; · iexact D3
    isplitl [D4]; · iexact D4
    isplitl [D5]; · iexact D5
    isplitl [D6]; · iexact D6
    isplitl [D7]; · iexact D7
    iexact D8
  · isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

/-- The remainder and the 32 workers' shares make the read-only operands whole again. -/
theorem reads_join (d : Dev nD) :
    iprop(readsAt I d (Transfers.shareDrop fullShare 32) ∗ bigSep (Finset.range 32) fun w => readsAt I d (rsh w)) ⊢ readsAt I d fullShare := by
  unfold readsAt
  rw [bigSep_sep', bigSep_sep', bigSep_sep', bigSep_sep', bigSep_sep', bigSep_sep', bigSep_sep']
  rw [pts_toks (I.sp d), pts_toks (I.ap d), pts_toks (I.nid d), pts_toks (I.n1 d), pts_toks (I.n2 d), pts_toks (I.a1 d), pts_toks (I.a2 d),
    pts_toks (I.b d)]
  iintro ⟨⟨D1, D2, D3, D4, D5, D6, D7, D8⟩, ⟨B1, B2, B3, B4, B5, B6, B7, B8⟩⟩
  isplitl [D1 B1]
  · isplitl [D1]; · iexact D1
    iexact B1
  isplitl [D2 B2]
  · isplitl [D2]; · iexact D2
    iexact B2
  isplitl [D3 B3]
  · isplitl [D3]; · iexact D3
    iexact B3
  isplitl [D4 B4]
  · isplitl [D4]; · iexact D4
    iexact B4
  isplitl [D5 B5]
  · isplitl [D5]; · iexact D5
    iexact B5
  isplitl [D6 B6]
  · isplitl [D6]; · iexact D6
    iexact B6
  isplitl [D7 B7]
  · isplitl [D7]; · iexact D7
    iexact B7
  isplitl [D8]; · iexact D8
  iexact B8

/-! ## The cores' handshakes, worker by worker -/

/-- What the two cores are handed is what the 32 workers are handed; -/
theorem st_workers (d : Dev nD) :
    (bigSep Finset.univ fun c : Fin ((K (F := F)).nCore 0) => (P I).st 0 d c) = bigSep (Finset.range 32) fun w => goAt I d w := by
  rw [← bigSep_workers (fun w => goAt I d w)]
  exact bigSep_cores (fun c => bigSep Finset.univ fun i : Fin 16 => goAt I d (wid c i))

/-- what they hand back, likewise. -/
theorem dn_workers (d : Dev nD) :
    (bigSep Finset.univ fun c : Fin ((K (F := F)).nCore 0) => (P I).dn 0 d c) = bigSep (Finset.range 32) fun w => tdAt I d w := by
  rw [← bigSep_workers (fun w => tdAt I d w)]
  exact bigSep_cores (fun c => bigSep Finset.univ fun i : Fin 16 => tdAt I d (wid c i))

/-- Both cores' operands from the arrays whole: the read-only ones at their contents, the four results at any. -/
theorem st_of_whole (d : Dev nD) :
    iprop(readsAt I d fullShare ∗ (∃ f, e1tLoc d ↦{fullShare} f) ∗ (∃ f, e1nLoc d ↦{fullShare} f) ∗ (∃ f, sqtLoc d ↦{fullShare} f) ∗ (∃ f, sqnLoc d ↦{fullShare} f))
      ⊢ iprop(readsAt I d (Transfers.shareDrop fullShare 32) ∗ bigSep Finset.univ fun c : Fin ((K (F := F)).nCore 0) => (P I).st 0 d c) := by
  rw [st_workers]
  unfold goAt
  rw [bigSep_sep', bigSep_sep', bigSep_sep', bigSep_sep']
  iintro ⟨Hr, Ht, Hn, Hqt, Hqn⟩
  ihave Hr' := (reads_split I d) $$ Hr
  icases Hr' with ⟨Hd, Hw⟩
  isplitl [Hd]; · iexact Hd
  isplitl [Hw]; · iexact Hw
  isplitl [Ht]
  · iapply (pts_pieces_exists (ℓ := e1tLoc d) tSet tSet_disjoint tSet_cover); iexact Ht
  isplitl [Hn]
  · iapply (pts_pieces_exists (ℓ := e1nLoc d) nSet nSet_disjoint nSet_cover); iexact Hn
  isplitl [Hqt]
  · iapply (pts_pieces_exists (ℓ := sqtLoc d) sqRow sqRow_disjoint sqRow_cover); iexact Hqt
  iapply (pts_pieces_exists (ℓ := sqnLoc d) sqRow sqRow_disjoint sqRow_cover); iexact Hqn

/-- and back: the arrays whole, the four results at their values. -/
theorem whole_of_dn (d : Dev nD) :
    iprop(readsAt I d (Transfers.shareDrop fullShare 32) ∗ bigSep Finset.univ fun c : Fin ((K (F := F)).nCore 0) => (P I).dn 0 d c)
      ⊢ iprop(readsAt I d fullShare ∗ (e1tLoc d ↦{fullShare} E1t I d) ∗ (e1nLoc d ↦{fullShare} E1n I d) ∗ (sqtLoc d ↦{fullShare} Sqt I d) ∗ (sqnLoc d ↦{fullShare} Sqn I d)) := by
  rw [dn_workers]
  unfold tdAt
  rw [bigSep_sep', bigSep_sep', bigSep_sep', bigSep_sep']
  rw [pts_pieces (ℓ := e1tLoc d) tSet tSet_disjoint tSet_cover (E1t I d), pts_pieces (ℓ := e1nLoc d) nSet nSet_disjoint nSet_cover (E1n I d),
    pts_pieces (ℓ := sqtLoc d) sqRow sqRow_disjoint sqRow_cover (Sqt I d), pts_pieces (ℓ := sqnLoc d) sqRow sqRow_disjoint sqRow_cover (Sqn I d)]
  iintro ⟨Hd, Hw, Ht, Hn, Hqt, Hqn⟩
  isplitl [Hd Hw]
  · iapply (reads_join I d)
    isplitl [Hd]; · iexact Hd
    iexact Hw
  isplitl [Ht]; · iexact Ht
  isplitl [Hn]; · iexact Hn
  isplitl [Hqt]; · iexact Hqt
  iexact Hqn

end Cert.KernelIdeal.Tile

end
-- ==== Proof.TileRow.lean ====
/-
  One chunk's arithmetic on a vector subcore: from the gathered self rows, neighbour rows, weights and the bias in
  the subcore's memory, the 32 result rows and the 16-lane sum of their squares; stated as the invariant of the
  32-trip row loop, one trip per row, for each of the two buffer sets.
-/
import proofs.«213116_g69346541961480_cont_9to1_m_612_34_alg».proof.Proof.TileDefs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueLayout
import Idealize.ShloMosaic.Lib.Writes
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Indices of the scratch buffers -/

def ix336 (r : ℕ) : S336.Idx := mkIdx S336 (by decide) ![r]
def ix32x128 (r c : ℕ) : S32x128.Idx := mkIdx S32x128 (by decide) ![r, c]
def ix320x128 (r c : ℕ) : S320x128.Idx := mkIdx S320x128 (by decide) ![r, c]
def ix16 (l : ℕ) : S16.Idx := mkIdx S16 (by decide) ![l]

section Values
variable [FloatOps F]

/-- Entry `(i, col)` of a chunk's result from the subcore's buffers: weights `fal[10 i + t]`, self row `i`,
    neighbour rows `10 i + t`, the bias. -/
def rowOut (fal : S336.Idx → F .f32) (fself : S32x128.Idx → F .f32) (fnbr : S320x128.Idx → F .f32) (fb : S128.Idx → F .f32)
    (i col : ℕ) : F .f32 :=
  rowVal (fself (ix32x128 i col)) (fb (ix128 col)) (fun t => fal (ix336 (10 * i + t.val))) (fun t => fnbr (ix320x128 (10 * i + t.val) col))

/-- One row's squares added to a 16-lane accumulator, the eight 16-column slices in order. -/
def sqRowStep (v : ℕ → F .f32) (acc : FVec F S16 .f32) : FVec F S16 .f32 :=
  (List.range 8).foldl (fun acc c => fun l => FloatOps.addf (acc l) (FloatOps.mulf (v (16 * c + (l 0).val)) (v (16 * c + (l 0).val)))) acc

/-- The accumulator after the first `k` rows, from zero. -/
def sqAcc (ro : ℕ → ℕ → F .f32) (k : ℕ) : FVec F S16 .f32 :=
  (List.range k).foldl (fun acc i => sqRowStep (ro i) acc) (fun _ => Scalar.ofBits .f32 0x00000000#32)

end Values

/-! ## Reading the subcore's buffers at a lane -/

section Leaves
open Idealize.ShloMosaic.ValueIdx
variable {Val : EltTy → Type}

/-- A load through a buffer held whole reads the contents at the load's own indices. -/
theorem readAt_whole_idx {κ : Kind} (b : Ref sig κ) (f : b.ty.Contents Val) (r : LoadRect b.ty.shape) (x : r.shape.Idx) :
    (View.whole b).readAt Val r f x = f (r.idx x) := rfl

/-- A one-row vector read as its sixteen lanes. -/
theorem cast_1x16 {α : Type} (v : S1x16.Idx → α) (h : S1x16.ShapeCasts S16) (l : S16.Idx) :
    shapeCast S16 v h l = v (ix2 (0 : Fin 1) (l 0)) := by
  rw [eq_ix1 l]; exact shapeCast_1a_a_apply v h (l 0)

/-- Sixteen lanes read as a one-row vector. -/
theorem cast_16x1 {α : Type} (v : S16.Idx → α) (h : S16.ShapeCasts S1x16) (x : S1x16.Idx) :
    shapeCast S1x16 v h x = v (ix1 (x 1)) := by
  rw [eq_ix2 x]; exact shapeCast_a_1a_apply v h (x 0) (x 1)

/-- The indices of a unit-stride window of a two-axis array: the offsets plus the window's own. -/
theorem idx_unit2 {n0 n1 : ℕ} (hpos : ∀ a, 0 < (⟨2, ![n0, n1]⟩ : Shape).size a) (off size : Fin 2 → ℕ)
    (inb : ∀ a, off a + size a ≤ (⟨2, ![n0, n1]⟩ : Shape).size a) (x : (Rect.unit (s := ⟨2, ![n0, n1]⟩) off size inb).shape.Idx) :
    (Rect.unit (s := ⟨2, ![n0, n1]⟩) off size inb).toLoadRect.idx x
      = mkIdx ⟨2, ![n0, n1]⟩ hpos ![off 0 + (x 0).val, off 1 + (x 1).val] := by
  funext a
  apply Fin.ext
  have hlt := ((Rect.unit (s := ⟨2, ![n0, n1]⟩) off size inb).toLoadRect.idx x a).isLt
  rw [mkIdx_val _ _ _ _ (by fin_cases a <;> simpa using hlt)]
  fin_cases a <;> simp

/-- and of a one-axis array. -/
theorem idx_unit1 {n0 : ℕ} (hpos : ∀ a, 0 < (⟨1, ![n0]⟩ : Shape).size a) (off size : Fin 1 → ℕ)
    (inb : ∀ a, off a + size a ≤ (⟨1, ![n0]⟩ : Shape).size a) (x : (Rect.unit (s := ⟨1, ![n0]⟩) off size inb).shape.Idx) :
    (Rect.unit (s := ⟨1, ![n0]⟩) off size inb).toLoadRect.idx x = mkIdx ⟨1, ![n0]⟩ hpos ![off 0 + (x 0).val] := by
  funext a
  apply Fin.ext
  have hlt := ((Rect.unit (s := ⟨1, ![n0]⟩) off size inb).toLoadRect.idx x a).isLt
  rw [mkIdx_val _ _ _ _ (by fin_cases a; simpa using hlt)]
  fin_cases a; simp

/-- In a buffer held whole, an element some store covers, after stores whose payloads all agree with one function of the
    index, holds that function's value; -/
theorem whole_writes_apply_of_pieces {κ : Kind} (b : Ref sig κ) (f : b.ty.Contents Val) (G : b.ty.shape.Idx → Val b.ty.elt)
    (L : List (View.Piece Val b.ty.shape b.ty.elt)) (hL : ∀ p ∈ L, ∀ x : p.1.shape.Idx, p.2 x = G (p.1.emb x))
    (y : b.ty.shape.Idx) (hy : ∃ p ∈ L, y ∈ p.1.set) : (View.whole b).writes Val f L y = G y :=
  View.read_writes_apply_of_pieces (View.whole b) f G L hL y hy

/-- one that no store covers holds what it held. -/
theorem whole_writes_apply_of_forall_not_mem {κ : Kind} (b : Ref sig κ) (f : b.ty.Contents Val)
    (L : List (View.Piece Val b.ty.shape b.ty.elt)) (y : b.ty.shape.Idx) (h : ∀ p ∈ L, y ∉ p.1.set) :
    (View.whole b).writes Val f L y = f y :=
  View.read_writes_apply_of_forall_not_mem (View.whole b) f y L h

/-- An index lies in the sixteen-column window at `(r, c)` of a two-axis array exactly when its row is `r` and its
    column is one of the sixteen from `c`. -/
theorem mem_window {n0 n1 : ℕ} {off : Fin 2 → ℕ} {inb : ∀ a, off a + S1x16.size a ≤ (⟨2, ![n0, n1]⟩ : Shape).size a} {r c : ℕ}
    (h : off = ![r, c]) (x : (⟨2, ![n0, n1]⟩ : Shape).Idx) :
    x ∈ (Rect.unit (s := ⟨2, ![n0, n1]⟩) off S1x16.size inb).set ↔ (x 0).val = r ∧ c ≤ (x 1).val ∧ (x 1).val < c + 16 := by
  subst h
  rw [Rect.mem_set_unit, Fin.forall_fin_two]
  simp only [Matrix.cons_val_zero, Matrix.cons_val_one, Matrix.head_cons]
  show (r ≤ (x 0).val ∧ (x 0).val < r + 1) ∧ (c ≤ (x 1).val ∧ (x 1).val < c + 16) ↔ _
  omega

end Leaves

section Values
variable [FloatOps F]

/-- One more row: its squares added to the accumulator of the rows before. -/
theorem sqAcc_succ (ro : ℕ → ℕ → F .f32) (k : ℕ) : sqAcc ro (k + 1) = sqRowStep (ro k) (sqAcc ro k) := by
  unfold sqAcc
  rw [List.range_succ, List.foldl_append]
  rfl

end Values

section Tile
variable [FloatOps F] (d : Dev nD) (L : grid1.Coords)

abbrev cV (L : grid1.Coords) : Fin τ.nSC := (L 0).castLE hcore1
abbrev jV (L : grid1.Coords) : Fin τ.nSub := (L 1).castLE hsub1
/-- The vector subcore's thread. -/
abbrev thr : Thread nD τ := V d (cV L) (jV L)

-- the scratch buffers whole, as the body is passed them
local notation "bAL0" => (Memref.whole cc1_scratch4 : Memref sig Kind.scVector Space.vmem S336 EltTy.f32)
local notation "bAL1" => (Memref.whole cc1_scratch5 : Memref sig Kind.scVector Space.vmem S336 EltTy.f32)
local notation "bSF0" => (Memref.whole cc1_scratch6 : Memref sig Kind.scVector Space.vmem S32x128 EltTy.f32)
local notation "bSF1" => (Memref.whole cc1_scratch7 : Memref sig Kind.scVector Space.vmem S32x128 EltTy.f32)
local notation "bNB0" => (Memref.whole cc1_scratch8 : Memref sig Kind.scVector Space.vmem S320x128 EltTy.f32)
local notation "bNB1" => (Memref.whole cc1_scratch9 : Memref sig Kind.scVector Space.vmem S320x128 EltTy.f32)
local notation "bOUT0" => (Memref.whole cc1_scratch10 : Memref sig Kind.scVector Space.vmem S32x128 EltTy.f32)
local notation "bOUT1" => (Memref.whole cc1_scratch11 : Memref sig Kind.scVector Space.vmem S32x128 EltTy.f32)
local notation "bB" => (Memref.whole cc1_scratch12 : Memref sig Kind.scVector Space.vmem S128 EltTy.f32)

/-- Before row `k` of the chunk in buffer set 0: the carried accumulator is the first `k` rows' squares, the inputs
    are untouched, and the output buffer holds the first `k` rows. -/
def RowInv0 (fal : Buf (Elt F) ((bAL0).view.loc (thr d L))) (fself : Buf (Elt F) ((bSF0).view.loc (thr d L)))
    (fnbr : Buf (Elt F) ((bNB0).view.loc (thr d L))) (fb : Buf (Elt F) ((bB).view.loc (thr d L))) (k : ℕ) (acc : FVec F S16 .f32) : sProp 𝕄 :=
  iprop(⌜acc = sqAcc (rowOut fal fself fnbr fb) k⌝ ∗ ((bAL0).view.loc (thr d L) ↦{fullShare} fal) ∗ ((bSF0).view.loc (thr d L) ↦{fullShare} fself)
    ∗ ((bNB0).view.loc (thr d L) ↦{fullShare} fnbr) ∗ ((bB).view.loc (thr d L) ↦{fullShare} fb)
    ∗ ∃ fo : Buf (Elt F) ((bOUT0).view.loc (thr d L)), ⌜∀ x : S32x128.Idx, (x 0).val < k → fo x = rowOut fal fself fnbr fb (x 0).val (x 1).val⌝
        ∗ ((bOUT0).view.loc (thr d L) ↦{fullShare} fo))

/-- The same for buffer set 1. -/
def RowInv1 (fal : Buf (Elt F) ((bAL1).view.loc (thr d L))) (fself : Buf (Elt F) ((bSF1).view.loc (thr d L)))
    (fnbr : Buf (Elt F) ((bNB1).view.loc (thr d L))) (fb : Buf (Elt F) ((bB).view.loc (thr d L))) (k : ℕ) (acc : FVec F S16 .f32) : sProp 𝕄 :=
  iprop(⌜acc = sqAcc (rowOut fal fself fnbr fb) k⌝ ∗ ((bAL1).view.loc (thr d L) ↦{fullShare} fal) ∗ ((bSF1).view.loc (thr d L) ↦{fullShare} fself)
    ∗ ((bNB1).view.loc (thr d L) ↦{fullShare} fnbr) ∗ ((bB).view.loc (thr d L) ↦{fullShare} fb)
    ∗ ∃ fo : Buf (Elt F) ((bOUT1).view.loc (thr d L)), ⌜∀ x : S32x128.Idx, (x 0).val < k → fo x = rowOut fal fself fnbr fb (x 0).val (x 1).val⌝
        ∗ ((bOUT1).view.loc (thr d L) ↦{fullShare} fo))

/-- The row loop's region in buffer set 0, at the kernel's operands. -/
abbrev rowBody0 (v2 : BitVec 32) (t1 : Fin k1_t1_loop.trips) :=
  k1_t2_body (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v2 0#32 1#32 t1
/-- and in buffer set 1. -/
abbrev rowBody1 :=
  k1_t3_body (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20

set_option maxHeartbeats 4000000 in
/-- One row of buffer set 0. -/
theorem row_trip0 (v2 : BitVec 32) (t1 : Fin k1_t1_loop.trips) (fal : Buf (Elt F) ((bAL0).view.loc (thr d L))) (fself : Buf (Elt F) ((bSF0).view.loc (thr d L)))
    (fnbr : Buf (Elt F) ((bNB0).view.loc (thr d L))) (fb : Buf (Elt F) ((bB).view.loc (thr d L))) :
    ∀ (k : Fin k1_t2_loop.trips) (acc : FVec F S16 .f32), RowInv0 d L fal fself fnbr fb k.val acc
      ⊢ wp frame (wpE (defs₀ (F := F)) 𝒱₀ (thr d L) none) Set.univ (rowBody0 L v2 t1 k acc) (RowInv0 d L fal fself fnbr fb (k.val + 1)) := by
  intro k acc
  unfold RowInv0
  iintro ⟨%hacc, Hal, Hself, Hnbr, Hb, %fo, %hfo, Hout⟩
  sl_unfold [rowBody0]
  sl_unfold [k1_t2_body]
  sl_exec_parts
  sl_step
  isplitr
  · ipureintro
    -- the accumulator: the row's eight slices' squares added to the carried one
    rw [sqAcc_succ, ← hacc]
    funext l
    sl_unfold_run_names
    have e11 : ∀ t (ht : t < 10), k1_off11 k (BitVec.ofNat 32 t) = ![10 * k.val + t, 0] := fun t ht => k1_off11_eq k ⟨t, ht⟩
    have e13 : ∀ t (ht : t < 10), k1_off13 k (BitVec.ofNat 32 t) = ![10 * k.val + t, 16] := fun t ht => k1_off13_eq k ⟨t, ht⟩
    have e15 : ∀ t (ht : t < 10), k1_off15 k (BitVec.ofNat 32 t) = ![10 * k.val + t, 32] := fun t ht => k1_off15_eq k ⟨t, ht⟩
    have e17 : ∀ t (ht : t < 10), k1_off17 k (BitVec.ofNat 32 t) = ![10 * k.val + t, 48] := fun t ht => k1_off17_eq k ⟨t, ht⟩
    have e19 : ∀ t (ht : t < 10), k1_off19 k (BitVec.ofNat 32 t) = ![10 * k.val + t, 64] := fun t ht => k1_off19_eq k ⟨t, ht⟩
    have e21 : ∀ t (ht : t < 10), k1_off21 k (BitVec.ofNat 32 t) = ![10 * k.val + t, 80] := fun t ht => k1_off21_eq k ⟨t, ht⟩
    have e23 : ∀ t (ht : t < 10), k1_off23 k (BitVec.ofNat 32 t) = ![10 * k.val + t, 96] := fun t ht => k1_off23_eq k ⟨t, ht⟩
    have e25 : ∀ t (ht : t < 10), k1_off25 k (BitVec.ofNat 32 t) = ![10 * k.val + t, 112] := fun t ht => k1_off25_eq k ⟨t, ht⟩
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay110, k1_pay111, k1_pay112, addf, mulf, maximumf, ValueIdx.broadcast_apply, cast_1x16, shapeCast_self, readAt_whole_idx,
      idx_unit2 (n0 := 320) (n1 := 128) (by decide), idx_unit2 (n0 := 32) (n1 := 128) (by decide),
      idx_unit1 (n0 := 336) (by decide), idx_unit1 (n0 := 128) (by decide), extractAt, extractStridedSlice]
    simp only [k1_off9_eq, k1_off10_eq, k1_off12_eq, k1_off14_eq, k1_off16_eq, k1_off18_eq, k1_off20_eq, k1_off22_eq, k1_off24_eq, e11, e13, e15, e17, e19, e21, e23, e25, Nat.reduceLT, Matrix.cons_val_zero, Matrix.cons_val_one, Matrix.head_cons]
    rfl
  isplitl [Hal]; · iexact Hal
  isplitl [Hself]; · iexact Hself
  isplitl [Hnbr]; · iexact Hnbr
  isplitl [Hb]; · iexact Hb
  iexists _; isplitr
  swap
  · iexact Hout
  · ipureintro
    intro x hx
    sl_unfold_run_names
    have e11 : ∀ t (ht : t < 10), k1_off11 k (BitVec.ofNat 32 t) = ![10 * k.val + t, 0] := fun t ht => k1_off11_eq k ⟨t, ht⟩
    have e13 : ∀ t (ht : t < 10), k1_off13 k (BitVec.ofNat 32 t) = ![10 * k.val + t, 16] := fun t ht => k1_off13_eq k ⟨t, ht⟩
    have e15 : ∀ t (ht : t < 10), k1_off15 k (BitVec.ofNat 32 t) = ![10 * k.val + t, 32] := fun t ht => k1_off15_eq k ⟨t, ht⟩
    have e17 : ∀ t (ht : t < 10), k1_off17 k (BitVec.ofNat 32 t) = ![10 * k.val + t, 48] := fun t ht => k1_off17_eq k ⟨t, ht⟩
    have e19 : ∀ t (ht : t < 10), k1_off19 k (BitVec.ofNat 32 t) = ![10 * k.val + t, 64] := fun t ht => k1_off19_eq k ⟨t, ht⟩
    have e21 : ∀ t (ht : t < 10), k1_off21 k (BitVec.ofNat 32 t) = ![10 * k.val + t, 80] := fun t ht => k1_off21_eq k ⟨t, ht⟩
    have e23 : ∀ t (ht : t < 10), k1_off23 k (BitVec.ofNat 32 t) = ![10 * k.val + t, 96] := fun t ht => k1_off23_eq k ⟨t, ht⟩
    have e25 : ∀ t (ht : t < 10), k1_off25 k (BitVec.ofNat 32 t) = ![10 * k.val + t, 112] := fun t ht => k1_off25_eq k ⟨t, ht⟩
    by_cases hk : (x 0).val = k.val
    · -- row k: one of its eight windows holds the index, and what each store put there is the row's entry
      refine whole_writes_apply_of_pieces cc1_scratch10 fo (fun y => rowOut fal fself fnbr fb (y 0).val (y 1).val) _ ?_ x ?_
      · simp only [List.forall_mem_cons]
        refine ⟨?_, ?_, ?_, ?_, ?_, ?_, ?_, ?_, fun _ h => absurd h List.not_mem_nil⟩
        all_goals
          intro y
          have hy0 : (y 0).val = 0 := Nat.lt_one_iff.mp (y 0).isLt
          simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay110, k1_pay111, k1_pay112, addf, mulf, maximumf, ValueIdx.broadcast_apply, cast_1x16, cast_16x1, shapeCast_self, readAt_whole_idx,
            idx_unit2 (n0 := 320) (n1 := 128) (by decide), idx_unit2 (n0 := 32) (n1 := 128) (by decide),
            idx_unit1 (n0 := 336) (by decide), idx_unit1 (n0 := 128) (by decide), extractAt, extractStridedSlice,
            Rect.emb_apply, Rect.off_unit, Rect.stride_unit, Nat.one_mul]
          simp only [k1_off9_eq, k1_off10_eq, k1_off12_eq, k1_off14_eq, k1_off16_eq, k1_off18_eq, k1_off20_eq, k1_off22_eq, k1_off24_eq, e11, e13, e15, e17, e19, e21, e23, e25, Nat.reduceLT, Matrix.cons_val_zero, Matrix.cons_val_one, Matrix.head_cons, hy0]
          rfl
      · have h128 : (x 1).val < 128 := (x 1).isLt
        rcases (by omega : (x 1).val < 16 ∨ (16 ≤ (x 1).val ∧ (x 1).val < 32) ∨ (32 ≤ (x 1).val ∧ (x 1).val < 48)
            ∨ (48 ≤ (x 1).val ∧ (x 1).val < 64) ∨ (64 ≤ (x 1).val ∧ (x 1).val < 80) ∨ (80 ≤ (x 1).val ∧ (x 1).val < 96)
            ∨ (96 ≤ (x 1).val ∧ (x 1).val < 112) ∨ (112 ≤ (x 1).val ∧ (x 1).val < 128)) with h | h | h | h | h | h | h | h
        · have hm : x ∈ (Rect.unit (s := S32x128) (k1_off10 k) S1x16.size (k1_off10_inb k)).set :=
            (mem_window (k1_off10_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ (List.mem_cons_of_mem _ List.mem_cons_self)))))), hm⟩
        · have hm : x ∈ (Rect.unit (s := S32x128) (k1_off12 k) S1x16.size (k1_off12_inb k)).set :=
            (mem_window (k1_off12_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ List.mem_cons_self))))), hm⟩
        · have hm : x ∈ (Rect.unit (s := S32x128) (k1_off14 k) S1x16.size (k1_off14_inb k)).set :=
            (mem_window (k1_off14_eq k) x).mpr ⟨hk, by omega, by omega⟩
          exact ⟨_, List.mem_cons_of_mem _ (List.mem_cons_of_mem _ (List.mem_cons_of_mem _ (List.mem_cons_of_mem _ (List.mem_cons_of_mem _
            List.mem_cons_self)))), hm⟩
        · have hm : x ∈ (Rect.unit (s := S32x128) (k1_off16 k) S1x16.size (k1_off16_inb k)).set :=
            (mem_window (k1_off16_eq k) x).mpr ⟨hk, by omega, by omega⟩
          exact ⟨_, List.mem_cons_of_mem _ (List.mem_cons_of_mem _ (List.mem_cons_of_mem _ (List.mem_cons_of_mem _ List.mem_cons_self))), hm⟩
        · have hm : x ∈ (Rect.unit (s := S32x128) (k1_off18 k) S1x16.size (k1_off18_inb k)).set :=
            (mem_window (k1_off18_eq k) x).mpr ⟨hk, by omega, by omega⟩
          exact ⟨_, List.mem_cons_of_mem _ (List.mem_cons_of_mem _ (List.mem_cons_of_mem _ List.mem_cons_self)), hm⟩
        · have hm : x ∈ (Rect.unit (s := S32x128) (k1_off20 k) S1x16.size (k1_off20_inb k)).set :=
            (mem_window (k1_off20_eq k) x).mpr ⟨hk, by omega, by omega⟩
          exact ⟨_, List.mem_cons_of_mem _ (List.mem_cons_of_mem _ List.mem_cons_self), hm⟩
        · have hm : x ∈ (Rect.unit (s := S32x128) (k1_off22 k) S1x16.size (k1_off22_inb k)).set :=
            (mem_window (k1_off22_eq k) x).mpr ⟨hk, by omega, by omega⟩
          exact ⟨_, List.mem_cons_of_mem _ List.mem_cons_self, hm⟩
        · have hm : x ∈ (Rect.unit (s := S32x128) (k1_off24 k) S1x16.size (k1_off24_inb k)).set :=
            (mem_window (k1_off24_eq k) x).mpr ⟨hk, by omega, by omega⟩
          exact ⟨_, List.mem_cons_self, hm⟩
    · -- a row below k: none of row k's windows holds the index
      refine (whole_writes_apply_of_forall_not_mem cc1_scratch10 fo _ x ?_).trans (hfo x (by omega))
      simp only [List.forall_mem_cons]
      exact ⟨fun hm => hk ((mem_window (k1_off24_eq k) x).mp hm).1, fun hm => hk ((mem_window (k1_off22_eq k) x).mp hm).1,
        fun hm => hk ((mem_window (k1_off20_eq k) x).mp hm).1, fun hm => hk ((mem_window (k1_off18_eq k) x).mp hm).1,
        fun hm => hk ((mem_window (k1_off16_eq k) x).mp hm).1, fun hm => hk ((mem_window (k1_off14_eq k) x).mp hm).1,
        fun hm => hk ((mem_window (k1_off12_eq k) x).mp hm).1, fun hm => hk ((mem_window (k1_off10_eq k) x).mp hm).1,
        fun _ h => absurd h List.not_mem_nil⟩

set_option maxHeartbeats 4000000 in
/-- One row of buffer set 1. -/
theorem row_trip1 (fal : Buf (Elt F) ((bAL1).view.loc (thr d L))) (fself : Buf (Elt F) ((bSF1).view.loc (thr d L)))
    (fnbr : Buf (Elt F) ((bNB1).view.loc (thr d L))) (fb : Buf (Elt F) ((bB).view.loc (thr d L))) :
    ∀ (k : Fin k1_t3_loop.trips) (acc : FVec F S16 .f32), RowInv1 d L fal fself fnbr fb k.val acc
      ⊢ wp frame (wpE (defs₀ (F := F)) 𝒱₀ (thr d L) none) Set.univ (rowBody1 L k acc) (RowInv1 d L fal fself fnbr fb (k.val + 1)) := by
  intro k acc
  unfold RowInv1
  iintro ⟨%hacc, Hal, Hself, Hnbr, Hb, %fo, %hfo, Hout⟩
  sl_unfold [rowBody1]
  sl_unfold [k1_t3_body]
  sl_exec_parts
  sl_step
  isplitr
  · ipureintro
    -- the accumulator: the row's eight slices' squares added to the carried one
    rw [sqAcc_succ, ← hacc]
    funext l
    sl_unfold_run_names
    have e34 : ∀ t (ht : t < 10), k1_off34 k (BitVec.ofNat 32 t) = ![10 * k.val + t, 0] := fun t ht => k1_off34_eq k ⟨t, ht⟩
    have e36 : ∀ t (ht : t < 10), k1_off36 k (BitVec.ofNat 32 t) = ![10 * k.val + t, 16] := fun t ht => k1_off36_eq k ⟨t, ht⟩
    have e38 : ∀ t (ht : t < 10), k1_off38 k (BitVec.ofNat 32 t) = ![10 * k.val + t, 32] := fun t ht => k1_off38_eq k ⟨t, ht⟩
    have e40 : ∀ t (ht : t < 10), k1_off40 k (BitVec.ofNat 32 t) = ![10 * k.val + t, 48] := fun t ht => k1_off40_eq k ⟨t, ht⟩
    have e42 : ∀ t (ht : t < 10), k1_off42 k (BitVec.ofNat 32 t) = ![10 * k.val + t, 64] := fun t ht => k1_off42_eq k ⟨t, ht⟩
    have e44 : ∀ t (ht : t < 10), k1_off44 k (BitVec.ofNat 32 t) = ![10 * k.val + t, 80] := fun t ht => k1_off44_eq k ⟨t, ht⟩
    have e46 : ∀ t (ht : t < 10), k1_off46 k (BitVec.ofNat 32 t) = ![10 * k.val + t, 96] := fun t ht => k1_off46_eq k ⟨t, ht⟩
    have e48 : ∀ t (ht : t < 10), k1_off48 k (BitVec.ofNat 32 t) = ![10 * k.val + t, 112] := fun t ht => k1_off48_eq k ⟨t, ht⟩
    simp only [k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay118, k1_pay119, k1_pay120, addf, mulf, maximumf, ValueIdx.broadcast_apply, cast_1x16, shapeCast_self, readAt_whole_idx,
      idx_unit2 (n0 := 320) (n1 := 128) (by decide), idx_unit2 (n0 := 32) (n1 := 128) (by decide),
      idx_unit1 (n0 := 336) (by decide), idx_unit1 (n0 := 128) (by decide), extractAt, extractStridedSlice]
    simp only [k1_off32_eq, k1_off33_eq, k1_off35_eq, k1_off37_eq, k1_off39_eq, k1_off41_eq, k1_off43_eq, k1_off45_eq, k1_off47_eq, e34, e36, e38, e40, e42, e44, e46, e48, Nat.reduceLT, Matrix.cons_val_zero, Matrix.cons_val_one, Matrix.head_cons]
    rfl
  isplitl [Hal]; · iexact Hal
  isplitl [Hself]; · iexact Hself
  isplitl [Hnbr]; · iexact Hnbr
  isplitl [Hb]; · iexact Hb
  iexists _; isplitr
  swap
  · iexact Hout
  · ipureintro
    intro x hx
    sl_unfold_run_names
    have e34 : ∀ t (ht : t < 10), k1_off34 k (BitVec.ofNat 32 t) = ![10 * k.val + t, 0] := fun t ht => k1_off34_eq k ⟨t, ht⟩
    have e36 : ∀ t (ht : t < 10), k1_off36 k (BitVec.ofNat 32 t) = ![10 * k.val + t, 16] := fun t ht => k1_off36_eq k ⟨t, ht⟩
    have e38 : ∀ t (ht : t < 10), k1_off38 k (BitVec.ofNat 32 t) = ![10 * k.val + t, 32] := fun t ht => k1_off38_eq k ⟨t, ht⟩
    have e40 : ∀ t (ht : t < 10), k1_off40 k (BitVec.ofNat 32 t) = ![10 * k.val + t, 48] := fun t ht => k1_off40_eq k ⟨t, ht⟩
    have e42 : ∀ t (ht : t < 10), k1_off42 k (BitVec.ofNat 32 t) = ![10 * k.val + t, 64] := fun t ht => k1_off42_eq k ⟨t, ht⟩
    have e44 : ∀ t (ht : t < 10), k1_off44 k (BitVec.ofNat 32 t) = ![10 * k.val + t, 80] := fun t ht => k1_off44_eq k ⟨t, ht⟩
    have e46 : ∀ t (ht : t < 10), k1_off46 k (BitVec.ofNat 32 t) = ![10 * k.val + t, 96] := fun t ht => k1_off46_eq k ⟨t, ht⟩
    have e48 : ∀ t (ht : t < 10), k1_off48 k (BitVec.ofNat 32 t) = ![10 * k.val + t, 112] := fun t ht => k1_off48_eq k ⟨t, ht⟩
    by_cases hk : (x 0).val = k.val
    · -- row k: one of its eight windows holds the index, and what each store put there is the row's entry
      refine whole_writes_apply_of_pieces cc1_scratch11 fo (fun y => rowOut fal fself fnbr fb (y 0).val (y 1).val) _ ?_ x ?_
      · simp only [List.forall_mem_cons]
        refine ⟨?_, ?_, ?_, ?_, ?_, ?_, ?_, ?_, fun _ h => absurd h List.not_mem_nil⟩
        all_goals
          intro y
          have hy0 : (y 0).val = 0 := Nat.lt_one_iff.mp (y 0).isLt
          simp only [k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay118, k1_pay119, k1_pay120, addf, mulf, maximumf, ValueIdx.broadcast_apply, cast_1x16, cast_16x1, shapeCast_self, readAt_whole_idx,
            idx_unit2 (n0 := 320) (n1 := 128) (by decide), idx_unit2 (n0 := 32) (n1 := 128) (by decide),
            idx_unit1 (n0 := 336) (by decide), idx_unit1 (n0 := 128) (by decide), extractAt, extractStridedSlice,
            Rect.emb_apply, Rect.off_unit, Rect.stride_unit, Nat.one_mul]
          simp only [k1_off32_eq, k1_off33_eq, k1_off35_eq, k1_off37_eq, k1_off39_eq, k1_off41_eq, k1_off43_eq, k1_off45_eq, k1_off47_eq, e34, e36, e38, e40, e42, e44, e46, e48, Nat.reduceLT, Matrix.cons_val_zero, Matrix.cons_val_one, Matrix.head_cons, hy0]
          rfl
      · have h128 : (x 1).val < 128 := (x 1).isLt
        rcases (by omega : (x 1).val < 16 ∨ (16 ≤ (x 1).val ∧ (x 1).val < 32) ∨ (32 ≤ (x 1).val ∧ (x 1).val < 48)
            ∨ (48 ≤ (x 1).val ∧ (x 1).val < 64) ∨ (64 ≤ (x 1).val ∧ (x 1).val < 80) ∨ (80 ≤ (x 1).val ∧ (x 1).val < 96)
            ∨ (96 ≤ (x 1).val ∧ (x 1).val < 112) ∨ (112 ≤ (x 1).val ∧ (x 1).val < 128)) with h | h | h | h | h | h | h | h
        · have hm : x ∈ (Rect.unit (s := S32x128) (k1_off33 k) S1x16.size (k1_off33_inb k)).set :=
            (mem_window (k1_off33_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ (List.mem_cons_of_mem _ List.mem_cons_self)))))), hm⟩
        · have hm : x ∈ (Rect.unit (s := S32x128) (k1_off35 k) S1x16.size (k1_off35_inb k)).set :=
            (mem_window (k1_off35_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ List.mem_cons_self))))), hm⟩
        · have hm : x ∈ (Rect.unit (s := S32x128) (k1_off37 k) S1x16.size (k1_off37_inb k)).set :=
            (mem_window (k1_off37_eq k) x).mpr ⟨hk, by omega, by omega⟩
          exact ⟨_, List.mem_cons_of_mem _ (List.mem_cons_of_mem _ (List.mem_cons_of_mem _ (List.mem_cons_of_mem _ (List.mem_cons_of_mem _
            List.mem_cons_self)))), hm⟩
        · have hm : x ∈ (Rect.unit (s := S32x128) (k1_off39 k) S1x16.size (k1_off39_inb k)).set :=
            (mem_window (k1_off39_eq k) x).mpr ⟨hk, by omega, by omega⟩
          exact ⟨_, List.mem_cons_of_mem _ (List.mem_cons_of_mem _ (List.mem_cons_of_mem _ (List.mem_cons_of_mem _ List.mem_cons_self))), hm⟩
        · have hm : x ∈ (Rect.unit (s := S32x128) (k1_off41 k) S1x16.size (k1_off41_inb k)).set :=
            (mem_window (k1_off41_eq k) x).mpr ⟨hk, by omega, by omega⟩
          exact ⟨_, List.mem_cons_of_mem _ (List.mem_cons_of_mem _ (List.mem_cons_of_mem _ List.mem_cons_self)), hm⟩
        · have hm : x ∈ (Rect.unit (s := S32x128) (k1_off43 k) S1x16.size (k1_off43_inb k)).set :=
            (mem_window (k1_off43_eq k) x).mpr ⟨hk, by omega, by omega⟩
          exact ⟨_, List.mem_cons_of_mem _ (List.mem_cons_of_mem _ List.mem_cons_self), hm⟩
        · have hm : x ∈ (Rect.unit (s := S32x128) (k1_off45 k) S1x16.size (k1_off45_inb k)).set :=
            (mem_window (k1_off45_eq k) x).mpr ⟨hk, by omega, by omega⟩
          exact ⟨_, List.mem_cons_of_mem _ List.mem_cons_self, hm⟩
        · have hm : x ∈ (Rect.unit (s := S32x128) (k1_off47 k) S1x16.size (k1_off47_inb k)).set :=
            (mem_window (k1_off47_eq k) x).mpr ⟨hk, by omega, by omega⟩
          exact ⟨_, List.mem_cons_self, hm⟩
    · -- a row below k: none of row k's windows holds the index
      refine (whole_writes_apply_of_forall_not_mem cc1_scratch11 fo _ x ?_).trans (hfo x (by omega))
      simp only [List.forall_mem_cons]
      exact ⟨fun hm => hk ((mem_window (k1_off47_eq k) x).mp hm).1, fun hm => hk ((mem_window (k1_off45_eq k) x).mp hm).1,
        fun hm => hk ((mem_window (k1_off43_eq k) x).mp hm).1, fun hm => hk ((mem_window (k1_off41_eq k) x).mp hm).1,
        fun hm => hk ((mem_window (k1_off39_eq k) x).mp hm).1, fun hm => hk ((mem_window (k1_off37_eq k) x).mp hm).1,
        fun hm => hk ((mem_window (k1_off35_eq k) x).mp hm).1, fun hm => hk ((mem_window (k1_off33_eq k) x).mp hm).1,
        fun _ h => absurd h List.not_mem_nil⟩

end Tile
end Cert.KernelIdeal.Tile
end
-- ==== Proof.TileArith.lean ====
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The kernel's conditions and the offsets past row 4096, in closed form -/

theorem k1_cond1_iff : ∀ i : grid1.Coords, k1_cond1 i = 1#1 ↔ 2816 * (i 1).val + 1408 * (i 0).val < 4096 := by decide +kernel
theorem k1_cond2_iff : ∀ i : grid1.Coords, k1_cond2 i = 1#1 ↔ 4096 ≤ 2816 * (i 1).val + 1408 * (i 0).val := by decide +kernel
theorem k1_cond3_iff : ∀ (i : grid1.Coords) (t : Fin k1_t1_loop.trips), k1_cond3 i t = 1#1 ↔ 2816 * (i 1).val + 1408 * (i 0).val + 64 * t.val + 32 < 4096 := by decide +kernel
theorem k1_cond4_iff : ∀ (i : grid1.Coords) (t : Fin k1_t1_loop.trips), k1_cond4 i t = 1#1 ↔ 4096 ≤ 2816 * (i 1).val + 1408 * (i 0).val + 64 * t.val + 32 := by decide +kernel
theorem k1_cond6_iff : ∀ (i : grid1.Coords) (t : Fin k1_t1_loop.trips), k1_cond6 i t = 1#1 ↔ 2816 * (i 1).val + 1408 * (i 0).val + 64 * t.val < 4096 := by decide +kernel
theorem k1_cond7_iff : ∀ (i : grid1.Coords) (t : Fin k1_t1_loop.trips), k1_cond7 i t = 1#1 ↔ 4096 ≤ 2816 * (i 1).val + 1408 * (i 0).val + 64 * t.val := by decide +kernel
theorem k1_cond8_iff : ∀ (t : Fin k1_t1_loop.trips), k1_cond8 t = 1#1 ↔ t.val + 1 < 22 := by decide +kernel
theorem k1_cond9_iff : ∀ (i : grid1.Coords) (t : Fin k1_t1_loop.trips), k1_cond9 i t = 1#1 ↔ 2816 * (i 1).val + 1408 * (i 0).val + 64 * t.val + 64 < 4096 := by decide +kernel
theorem k1_cond10_iff : ∀ (i : grid1.Coords) (t : Fin k1_t1_loop.trips), k1_cond10 i t = 1#1 ↔ 4096 ≤ 2816 * (i 1).val + 1408 * (i 0).val + 64 * t.val + 64 := by decide +kernel
theorem k1_cond12_iff : ∀ (i : grid1.Coords) (t : Fin k1_t1_loop.trips), k1_cond12 i t = 1#1 ↔ 2816 * (i 1).val + 1408 * (i 0).val + 64 * t.val + 32 < 4096 := by decide +kernel
theorem k1_cond13_iff : ∀ (i : grid1.Coords) (t : Fin k1_t1_loop.trips), k1_cond13 i t = 1#1 ↔ 4096 ≤ 2816 * (i 1).val + 1408 * (i 0).val + 64 * t.val + 32 := by decide +kernel

theorem k1_off3_eq' : ∀ i : grid1.Coords, k1_cond2 i = 1#1 → k1_off3 i = ![2816 * (i 1).val + 1408 * (i 0).val - 4096] := by decide +kernel
theorem k1_off4_eq' : ∀ i : grid1.Coords, k1_cond2 i = 1#1 → k1_off4 i = ![(2816 * (i 1).val + 1408 * (i 0).val - 4096) * 10] := by decide +kernel
theorem k1_off7_eq' : ∀ (i : grid1.Coords) (t : Fin k1_t1_loop.trips), k1_cond4 i t = 1#1 → k1_off7 i t = ![2816 * (i 1).val + 1408 * (i 0).val + 64 * t.val + 32 - 4096] := by decide +kernel
theorem k1_off8_eq' : ∀ (i : grid1.Coords) (t : Fin k1_t1_loop.trips), k1_cond4 i t = 1#1 → k1_off8 i t = ![(2816 * (i 1).val + 1408 * (i 0).val + 64 * t.val + 32 - 4096) * 10] := by decide +kernel
theorem k1_off27_eq' : ∀ (i : grid1.Coords) (t : Fin k1_t1_loop.trips), k1_cond7 i t = 1#1 → k1_off27 i t = ![2816 * (i 1).val + 1408 * (i 0).val + 64 * t.val - 4096, 0] := by decide +kernel
theorem k1_off30_eq' : ∀ (i : grid1.Coords) (t : Fin k1_t1_loop.trips), k1_cond10 i t = 1#1 → k1_off30 i t = ![2816 * (i 1).val + 1408 * (i 0).val + 64 * t.val + 64 - 4096] := by decide +kernel
theorem k1_off31_eq' : ∀ (i : grid1.Coords) (t : Fin k1_t1_loop.trips), k1_cond10 i t = 1#1 → k1_off31 i t = ![(2816 * (i 1).val + 1408 * (i 0).val + 64 * t.val + 64 - 4096) * 10] := by decide +kernel
theorem k1_off50_eq' : ∀ (i : grid1.Coords) (t : Fin k1_t1_loop.trips), k1_cond13 i t = 1#1 → k1_off50 i t = ![2816 * (i 1).val + 1408 * (i 0).val + 64 * t.val + 32 - 4096, 0] := by decide +kernel

end Cert.KernelIdeal.Tile
end
-- ==== Proof.TileInv.lean ====
/-
  The state of a vector subcore between two pairs of chunks of the graph-convolution kernel: which buffers hold what,
  which gathers and copy-outs are under way, which rows of the results are written.
-/
import proofs.«213116_g69346541961480_cont_9to1_m_612_34_alg».proof.Proof.TileRow
import proofs.«213116_g69346541961480_cont_9to1_m_612_34_alg».proof.Proof.TileArith
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

/-! ## What a chunk's lists hold -/

/-- The self index of row `i` of the chunk starting at row `r0`; -/
def selfIdx (d : Dev nD) (r0 i : ℕ) : BitVec 32 :=
  if r0 < 4096 then I.nid d (ix4096 (r0 + i)) else I.n1 d (ix40960 (r0 - 4096 + i))
/-- its `j`-th neighbour index (`j < 320`: ten per row); -/
def nbrIdx (d : Dev nD) (r0 j : ℕ) : BitVec 32 :=
  if r0 < 4096 then I.n1 d (ix40960 (r0 * 10 + j)) else I.n2 d (ix409600 ((r0 - 4096) * 10 + j))
/-- its `j`-th weight. -/
def alph (d : Dev nD) (r0 j : ℕ) : F .f32 :=
  if r0 < 4096 then I.a1 d (ix40960 (r0 * 10 + j)) else I.a2 d (ix409600 ((r0 - 4096) * 10 + j))

/-- A worker's accumulated sum of squares over its first `n` chunks of one kind. -/
def tileSqUpto [FloatOps F] (d : Dev nD) (w n : ℕ) (tgt : Bool) (lane : ℕ) : F .f32 :=
  (List.range n).foldl (fun acc j => if decide (w * 1408 + 32 * j < 4096) = tgt then FloatOps.addf acc (chunkSq I d (w * 1408 + 32 * j) lane) else acc)
    (Scalar.ofBits .f32 0x00000000#32)

section Tile
variable (d : Dev nD) (L : grid1.Coords)

theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)
abbrev wL (L : grid1.Coords) : ℕ := wid (cL L) (jL L)
/-- The worker's first row; the first row of pair `k`'s first chunk. -/
def base (L : grid1.Coords) : ℕ := 2816 * (L 1).val + 1408 * (L 0).val
def rA (L : grid1.Coords) (k : ℕ) : ℕ := base L + 64 * k

local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- The two tables as the gathers slice them (whole). -/
abbrev spSl : Memref sig .scVector .hbm S100000x128 .f32 :=
  (m_sp).slice (Rect.unit (s := S100000x128) ![0, 0] S100000x128.size inb_S100000x128_S100000x128_0_0) (fun _ => rfl)
abbrev apSl : Memref sig .scVector .hbm S100000x128 .f32 :=
  (m_ap).slice (Rect.unit (s := S100000x128) ![0, 0] S100000x128.size inb_S100000x128_S100000x128_0_0) (fun _ => rfl)

/-! ## Rows of the results -/

def cT (r0 : ℕ) : Finset S4096x128.Idx := Finset.univ.filter fun x => r0 ≤ (x 0).val ∧ (x 0).val < r0 + 32
def cN (e0 : ℕ) : Finset S40960x128.Idx := Finset.univ.filter fun x => e0 ≤ (x 0).val ∧ (x 0).val < e0 + 32
def tRem (w r : ℕ) : Finset S4096x128.Idx := (tSet w).filter fun x => r ≤ (x 0).val
def tDone (w r : ℕ) : Finset S4096x128.Idx := (tSet w).filter fun x => (x 0).val < r
def nRem (w r : ℕ) : Finset S40960x128.Idx := (nSet w).filter fun x => r ≤ 4096 + (x 0).val
def nDone (w r : ℕ) : Finset S40960x128.Idx := (nSet w).filter fun x => 4096 + (x 0).val < r

variable [FloatOps F]

/-- The written rows of the chunk starting at `r0`, in whichever result it belongs to. -/
def outDone (r0 : ℕ) : sProp 𝕄 :=
  if r0 < 4096 then iprop((m_e1t).view.loc (thr d L) ↦[cT r0]{fullShare} E1t I d)
  else iprop((m_e1n).view.loc (thr d L) ↦[cN (r0 - 4096)]{fullShare} E1n I d)

/-! ## Transfers under way -/

/-- The gather of the chunk's S0 rows into buffer set 0 under way: its landing hands back the rows (row `i` the table's row the list names), the list, and the table's share. -/
def FlS0 (r0 : ℕ) : sProp 𝕄 :=
  Transfers.Flight countersEmb (thr d L) (SemLoc.dma cc1_scratch14.sem) default 131072
    iprop(∃ (fs : Buf (Elt F) ((s_6).view.loc (thr d L))) (g : Buf (Elt F) ((s_0).view.loc (thr d L))),
      ⌜(∀ x : S32.Idx, g x = selfIdx I d r0 (x 0).val) ∧ ∀ x : S32x128.Idx, fs x = I.sp d (ixTab (selfIdx I d r0 (x 0).val).toNat (x 1).val)⌝
      ∗ ((s_6).view.loc (thr d L) ↦{fullShare} fs) ∗ ((s_0).view.loc (thr d L) ↦{fullShare} g)
      ∗ ((m_sp).view.loc (thr d L) ↦[(spSl).view.set]{Transfers.shareTokN (rsh (wL L)) 12} I.sp d))
/-- The gather of the chunk's N0 rows into buffer set 0 under way: its landing hands back the rows (row `i` the table's row the list names), the list, and the table's share. -/
def FlN0 (r0 : ℕ) : sProp 𝕄 :=
  Transfers.Flight countersEmb (thr d L) (SemLoc.dma cc1_scratch15.sem) default 1310720
    iprop(∃ (fs : Buf (Elt F) ((s_8).view.loc (thr d L))) (g : Buf (Elt F) ((s_2).view.loc (thr d L))),
      ⌜(∀ x : S320.Idx, g x = nbrIdx I d r0 (x 0).val) ∧ ∀ x : S320x128.Idx, fs x = I.ap d (ixTab (nbrIdx I d r0 (x 0).val).toNat (x 1).val)⌝
      ∗ ((s_8).view.loc (thr d L) ↦{fullShare} fs) ∗ ((s_2).view.loc (thr d L) ↦{fullShare} g)
      ∗ ((m_ap).view.loc (thr d L) ↦[(apSl).view.set]{Transfers.shareTokN (rsh (wL L)) 13} I.ap d))
/-- The gather of the chunk's S1 rows into buffer set 1 under way: its landing hands back the rows (row `i` the table's row the list names), the list, and the table's share. -/
def FlS1 (r0 : ℕ) : sProp 𝕄 :=
  Transfers.Flight countersEmb (thr d L) (SemLoc.dma cc1_scratch16.sem) default 131072
    iprop(∃ (fs : Buf (Elt F) ((s_7).view.loc (thr d L))) (g : Buf (Elt F) ((s_1).view.loc (thr d L))),
      ⌜(∀ x : S32.Idx, g x = selfIdx I d r0 (x 0).val) ∧ ∀ x : S32x128.Idx, fs x = I.sp d (ixTab (selfIdx I d r0 (x 0).val).toNat (x 1).val)⌝
      ∗ ((s_7).view.loc (thr d L) ↦{fullShare} fs) ∗ ((s_1).view.loc (thr d L) ↦{fullShare} g)
      ∗ ((m_sp).view.loc (thr d L) ↦[(spSl).view.set]{Transfers.shareTokN (rsh (wL L)) 14} I.sp d))
/-- The gather of the chunk's N1 rows into buffer set 1 under way: its landing hands back the rows (row `i` the table's row the list names), the list, and the table's share. -/
def FlN1 (r0 : ℕ) : sProp 𝕄 :=
  Transfers.Flight countersEmb (thr d L) (SemLoc.dma cc1_scratch17.sem) default 1310720
    iprop(∃ (fs : Buf (Elt F) ((s_9).view.loc (thr d L))) (g : Buf (Elt F) ((s_3).view.loc (thr d L))),
      ⌜(∀ x : S320.Idx, g x = nbrIdx I d r0 (x 0).val) ∧ ∀ x : S320x128.Idx, fs x = I.ap d (ixTab (nbrIdx I d r0 (x 0).val).toNat (x 1).val)⌝
      ∗ ((s_9).view.loc (thr d L) ↦{fullShare} fs) ∗ ((s_3).view.loc (thr d L) ↦{fullShare} g)
      ∗ ((m_ap).view.loc (thr d L) ↦[(apSl).view.set]{Transfers.shareTokN (rsh (wL L)) 15} I.ap d))

/-- The copy-out of buffer set 0's rows of the chunk at `r0` under way: its landing hands back the buffer and the rows, written. -/
def FlW0 (r0 : ℕ) : sProp 𝕄 :=
  Transfers.Flight countersEmb (thr d L) (SemLoc.dma cc1_scratch18.sem) default 131072
    iprop((∃ f, (s_10).view.loc (thr d L) ↦{fullShare} f) ∗ outDone I d L r0)
def FlW1 (r0 : ℕ) : sProp 𝕄 :=
  Transfers.Flight countersEmb (thr d L) (SemLoc.dma cc1_scratch19.sem) default 131072
    iprop((∃ f, (s_11).view.loc (thr d L) ↦{fullShare} f) ∗ outDone I d L r0)

/-! ## The invariant -/

/-- Buffer set `p` at rest. -/
def Idle0 : sProp 𝕄 :=
  iprop((∃ f, (s_0).view.loc (thr d L) ↦{fullShare} f) ∗ (∃ f, (s_2).view.loc (thr d L) ↦{fullShare} f) ∗ (∃ f, (s_4).view.loc (thr d L) ↦{fullShare} f)
    ∗ (∃ f, (s_6).view.loc (thr d L) ↦{fullShare} f) ∗ (∃ f, (s_8).view.loc (thr d L) ↦{fullShare} f)
    ∗ semVal ((thr d L, SemLoc.dma cc1_scratch14.sem) : GSem nD τ sig) 0 ∗ semVal ((thr d L, SemLoc.dma cc1_scratch15.sem) : GSem nD τ sig) 0
    ∗ ((m_sp).view.loc (thr d L) ↦{Transfers.shareTokN (rsh (wL L)) 12} I.sp d) ∗ ((m_ap).view.loc (thr d L) ↦{Transfers.shareTokN (rsh (wL L)) 13} I.ap d))
def Idle1 : sProp 𝕄 :=
  iprop((∃ f, (s_1).view.loc (thr d L) ↦{fullShare} f) ∗ (∃ f, (s_3).view.loc (thr d L) ↦{fullShare} f) ∗ (∃ f, (s_5).view.loc (thr d L) ↦{fullShare} f)
    ∗ (∃ f, (s_7).view.loc (thr d L) ↦{fullShare} f) ∗ (∃ f, (s_9).view.loc (thr d L) ↦{fullShare} f)
    ∗ semVal ((thr d L, SemLoc.dma cc1_scratch16.sem) : GSem nD τ sig) 0 ∗ semVal ((thr d L, SemLoc.dma cc1_scratch17.sem) : GSem nD τ sig) 0
    ∗ ((m_sp).view.loc (thr d L) ↦{Transfers.shareTokN (rsh (wL L)) 14} I.sp d) ∗ ((m_ap).view.loc (thr d L) ↦{Transfers.shareTokN (rsh (wL L)) 15} I.ap d))

/-- Buffer set 0 loaded with the chunk at `r0`: its weights landed, its two gathers under way. -/
def Loaded0 (r0 : ℕ) : sProp 𝕄 :=
  iprop((∃ fal : Buf (Elt F) ((s_4).view.loc (thr d L)), ⌜∀ x : S336.Idx, (x 0).val < 320 → fal x = alph I d r0 (x 0).val⌝ ∗ ((s_4).view.loc (thr d L) ↦{fullShare} fal))
    ∗ FlS0 I d L r0 ∗ FlN0 I d L r0)

/-- The read-only arrays the sync copies read, and the twelve run-scoped semaphores of the loop's regions. -/
def LoopRO : sProp 𝕄 :=
  iprop(((m_nid).view.loc (thr d L) ↦{rsh (wL L)} I.nid d) ∗ ((m_n1).view.loc (thr d L) ↦{rsh (wL L)} I.n1 d) ∗ ((m_n2).view.loc (thr d L) ↦{rsh (wL L)} I.n2 d)
    ∗ ((m_a1).view.loc (thr d L) ↦{rsh (wL L)} I.a1 d) ∗ ((m_a2).view.loc (thr d L) ↦{rsh (wL L)} I.a2 d)
    ∗ semVal ((thr d L, SemLoc.dma cc1_scoped7.sem) : GSem nD τ sig) 0 ∗ semVal ((thr d L, SemLoc.dma cc1_scoped8.sem) : GSem nD τ sig) 0
    ∗ semVal ((thr d L, SemLoc.dma cc1_scoped9.sem) : GSem nD τ sig) 0 ∗ semVal ((thr d L, SemLoc.dma cc1_scoped10.sem) : GSem nD τ sig) 0
    ∗ semVal ((thr d L, SemLoc.dma cc1_scoped11.sem) : GSem nD τ sig) 0 ∗ semVal ((thr d L, SemLoc.dma cc1_scoped12.sem) : GSem nD τ sig) 0
    ∗ semVal ((thr d L, SemLoc.dma cc1_scoped13.sem) : GSem nD τ sig) 0 ∗ semVal ((thr d L, SemLoc.dma cc1_scoped14.sem) : GSem nD τ sig) 0
    ∗ semVal ((thr d L, SemLoc.dma cc1_scoped15.sem) : GSem nD τ sig) 0 ∗ semVal ((thr d L, SemLoc.dma cc1_scoped16.sem) : GSem nD τ sig) 0
    ∗ semVal ((thr d L, SemLoc.dma cc1_scoped17.sem) : GSem nD τ sig) 0 ∗ semVal ((thr d L, SemLoc.dma cc1_scoped18.sem) : GSem nD τ sig) 0)

/-- The rows of the two results: not yet written (from the next chunk on, at any contents) and landed (before the two chunks
    whose copy-outs are under way, at their values). -/
def Pieces (k : ℕ) : sProp 𝕄 :=
  iprop((∃ f, (m_e1t).view.loc (thr d L) ↦[tRem (wL L) (rA L k)]{fullShare} f) ∗ (∃ f, (m_e1n).view.loc (thr d L) ↦[nRem (wL L) (rA L k)]{fullShare} f)
    ∗ ((m_e1t).view.loc (thr d L) ↦[tDone (wL L) (rA L k - 64)]{fullShare} E1t I d) ∗ ((m_e1n).view.loc (thr d L) ↦[nDone (wL L) (rA L k - 64)]{fullShare} E1n I d))

/-- Buffer set 0 before pair `k`: loaded with the pair's first chunk, or at rest after the last pair. -/
def Set0 (k : ℕ) : sProp 𝕄 := if k < 22 then Loaded0 I d L (rA L k) else Idle0 I d L
theorem Set0_lt {k : ℕ} (h : k < 22) : Set0 I d L k = Loaded0 I d L (rA L k) := if_pos h
theorem Set0_ge {k : ℕ} (h : ¬ k < 22) : Set0 I d L k = Idle0 I d L := if_neg h

/-- The two output buffers before pair `k`: at rest before the first pair, their copy-outs of the previous pair's chunks
    under way after. -/
def Outs (k : ℕ) : sProp 𝕄 :=
  if k = 0 then iprop((∃ f, (s_10).view.loc (thr d L) ↦{fullShare} f) ∗ (∃ f, (s_11).view.loc (thr d L) ↦{fullShare} f)
      ∗ semVal ((thr d L, SemLoc.dma cc1_scratch18.sem) : GSem nD τ sig) 0 ∗ semVal ((thr d L, SemLoc.dma cc1_scratch19.sem) : GSem nD τ sig) 0)
  else iprop(FlW0 I d L (rA L k - 64) ∗ FlW1 I d L (rA L k - 32))
theorem Outs_zero : Outs I d L 0 = iprop((∃ f, (s_10).view.loc (thr d L) ↦{fullShare} f) ∗ (∃ f, (s_11).view.loc (thr d L) ↦{fullShare} f)
      ∗ semVal ((thr d L, SemLoc.dma cc1_scratch18.sem) : GSem nD τ sig) 0 ∗ semVal ((thr d L, SemLoc.dma cc1_scratch19.sem) : GSem nD τ sig) 0) := if_pos rfl
theorem Outs_pos {k : ℕ} (h : k ≠ 0) : Outs I d L k = iprop(FlW0 I d L (rA L k - 64) ∗ FlW1 I d L (rA L k - 32)) := if_neg h

/-- Before pair `k`. -/
def Inv (O : CellTallies nD τ sig (HIx 1)) (W : Waits sig (HIx 1)) (k : ℕ) (_ : Unit) : sProp 𝕄 :=
  iprop(Transfers.MayWaits (thr d L) (none : HIx 1) O
    ∗ (∃ W', ⌜∀ p ∈ W', p ∈ W ∨ p.2 = none⌝ ∗ owes (thr d L) O W')
    ∗ LoopRO I d L
    ∗ (∃ fb : Buf (Elt F) ((s_12).view.loc (thr d L)), ⌜∀ x : S128.Idx, fb x = I.b d x⌝ ∗ ((s_12).view.loc (thr d L) ↦{fullShare} fb))
    ∗ (∃ fsq : Buf (Elt F) ((s_13).view.loc (thr d L)), ⌜∀ x : S2x16.Idx, fsq x = tileSqUpto I d (wL L) (2 * k) (decide ((x 0).val = 0)) (x 1).val⌝
        ∗ ((s_13).view.loc (thr d L) ↦{fullShare} fsq))
    ∗ Set0 I d L k
    ∗ Idle1 I d L
    ∗ Outs I d L k
    ∗ Pieces I d L k)

end Tile
end Cert.KernelIdeal.Tile
end
-- ==== Proof.TileKit.lean ====
/-
  Shared set-up for one vector subcore's run of the graph-convolution kernel: the subcore's own buffers and semaphores
  named, the operands as the body addresses them, read shares as per-semaphore tokens, what stays outside the pair
  loop, and the body cut after its loop.
-/
import proofs.«213116_g69346541961480_cont_9to1_m_612_34_alg».proof.Proof.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)

/-- The kernel's 27 DMA semaphores: the six it is passed and the 21 of its run-scoped regions. -/
def semList : List (DmaSem sig) :=
  [cc1_scratch14.sem, cc1_scratch15.sem, cc1_scratch16.sem, cc1_scratch17.sem, cc1_scratch18.sem, cc1_scratch19.sem,
   cc1_scoped0.sem, cc1_scoped1.sem, cc1_scoped2.sem, cc1_scoped3.sem, cc1_scoped4.sem, cc1_scoped5.sem, cc1_scoped6.sem,
   cc1_scoped7.sem, cc1_scoped8.sem, cc1_scoped9.sem, cc1_scoped10.sem, cc1_scoped11.sem, cc1_scoped12.sem, cc1_scoped13.sem,
   cc1_scoped14.sem, cc1_scoped15.sem, cc1_scoped16.sem, cc1_scoped17.sem, cc1_scoped18.sem, cc1_scoped19.sem, cc1_scoped20.sem]

/-- Its 14 scratch buffers. -/
def bufList : List (Ref sig .scVector) :=
  [cc1_scratch0, cc1_scratch1, cc1_scratch2, cc1_scratch3, cc1_scratch4, cc1_scratch5, cc1_scratch6, cc1_scratch7,
   cc1_scratch8, cc1_scratch9, cc1_scratch10, cc1_scratch11, cc1_scratch12, cc1_scratch13]

local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

omit [FloatOps F] in
theorem pts_sp (q : PosShare TreeShare) (f : Buf (Elt F) (spLoc d)) : (spLoc d ↦{q} f : sProp 𝕄) = ((m_sp).view.loc (thr d L) ↦{q} f) := rfl
omit [FloatOps F] in
theorem pts_ap (q : PosShare TreeShare) (f : Buf (Elt F) (apLoc d)) : (apLoc d ↦{q} f : sProp 𝕄) = ((m_ap).view.loc (thr d L) ↦{q} f) := rfl
omit [FloatOps F] in
theorem pts_nid (q : PosShare TreeShare) (f : Buf (Elt F) (nidLoc d)) : (nidLoc d ↦{q} f : sProp 𝕄) = ((m_nid).view.loc (thr d L) ↦{q} f) := rfl
omit [FloatOps F] in
theorem pts_n1 (q : PosShare TreeShare) (f : Buf (Elt F) (n1Loc d)) : (n1Loc d ↦{q} f : sProp 𝕄) = ((m_n1).view.loc (thr d L) ↦{q} f) := rfl
omit [FloatOps F] in
theorem pts_n2 (q : PosShare TreeShare) (f : Buf (Elt F) (n2Loc d)) : (n2Loc d ↦{q} f : sProp 𝕄) = ((m_n2).view.loc (thr d L) ↦{q} f) := rfl
omit [FloatOps F] in
theorem pts_a1 (q : PosShare TreeShare) (f : Buf (Elt F) (a1Loc d)) : (a1Loc d ↦{q} f : sProp 𝕄) = ((m_a1).view.loc (thr d L) ↦{q} f) := rfl
omit [FloatOps F] in
theorem pts_a2 (q : PosShare TreeShare) (f : Buf (Elt F) (a2Loc d)) : (a2Loc d ↦{q} f : sProp 𝕄) = ((m_a2).view.loc (thr d L) ↦{q} f) := rfl
omit [FloatOps F] in
theorem pts_b (q : PosShare TreeShare) (f : Buf (Elt F) (bLoc d)) : (bLoc d ↦{q} f : sProp 𝕄) = ((m_b).view.loc (thr d L) ↦{q} f) := rfl
omit [FloatOps F] in
theorem pts_e1t (q : PosShare TreeShare) (f : Buf (Elt F) (e1tLoc d)) : (e1tLoc d ↦{q} f : sProp 𝕄) = ((m_e1t).view.loc (thr d L) ↦{q} f) := rfl
omit [FloatOps F] in
theorem pts_e1n (q : PosShare TreeShare) (f : Buf (Elt F) (e1nLoc d)) : (e1nLoc d ↦{q} f : sProp 𝕄) = ((m_e1n).view.loc (thr d L) ↦{q} f) := rfl
omit [FloatOps F] in
theorem pts_sqt (q : PosShare TreeShare) (f : Buf (Elt F) (sqtLoc d)) : (sqtLoc d ↦{q} f : sProp 𝕄) = ((m_sqt).view.loc (thr d L) ↦{q} f) := rfl
omit [FloatOps F] in
theorem pts_sqn (q : PosShare TreeShare) (f : Buf (Elt F) (sqnLoc d)) : (sqnLoc d ↦{q} f : sProp 𝕄) = ((m_sqn).view.loc (thr d L) ↦{q} f) := rfl
omit [FloatOps F] in
theorem pts_s0 (f : Buf (Elt F) ((thr d L).loc cc1_scratch0)) : ((thr d L).loc cc1_scratch0 ↦{fullShare} f : sProp 𝕄) = ((s_0).view.loc (thr d L) ↦{fullShare} f) := rfl
omit [FloatOps F] in
theorem pts_s1 (f : Buf (Elt F) ((thr d L).loc cc1_scratch1)) : ((thr d L).loc cc1_scratch1 ↦{fullShare} f : sProp 𝕄) = ((s_1).view.loc (thr d L) ↦{fullShare} f) := rfl
omit [FloatOps F] in
theorem pts_s2 (f : Buf (Elt F) ((thr d L).loc cc1_scratch2)) : ((thr d L).loc cc1_scratch2 ↦{fullShare} f : sProp 𝕄) = ((s_2).view.loc (thr d L) ↦{fullShare} f) := rfl
omit [FloatOps F] in
theorem pts_s3 (f : Buf (Elt F) ((thr d L).loc cc1_scratch3)) : ((thr d L).loc cc1_scratch3 ↦{fullShare} f : sProp 𝕄) = ((s_3).view.loc (thr d L) ↦{fullShare} f) := rfl
omit [FloatOps F] in
theorem pts_s4 (f : Buf (Elt F) ((thr d L).loc cc1_scratch4)) : ((thr d L).loc cc1_scratch4 ↦{fullShare} f : sProp 𝕄) = ((s_4).view.loc (thr d L) ↦{fullShare} f) := rfl
omit [FloatOps F] in
theorem pts_s5 (f : Buf (Elt F) ((thr d L).loc cc1_scratch5)) : ((thr d L).loc cc1_scratch5 ↦{fullShare} f : sProp 𝕄) = ((s_5).view.loc (thr d L) ↦{fullShare} f) := rfl
omit [FloatOps F] in
theorem pts_s6 (f : Buf (Elt F) ((thr d L).loc cc1_scratch6)) : ((thr d L).loc cc1_scratch6 ↦{fullShare} f : sProp 𝕄) = ((s_6).view.loc (thr d L) ↦{fullShare} f) := rfl
omit [FloatOps F] in
theorem pts_s7 (f : Buf (Elt F) ((thr d L).loc cc1_scratch7)) : ((thr d L).loc cc1_scratch7 ↦{fullShare} f : sProp 𝕄) = ((s_7).view.loc (thr d L) ↦{fullShare} f) := rfl
omit [FloatOps F] in
theorem pts_s8 (f : Buf (Elt F) ((thr d L).loc cc1_scratch8)) : ((thr d L).loc cc1_scratch8 ↦{fullShare} f : sProp 𝕄) = ((s_8).view.loc (thr d L) ↦{fullShare} f) := rfl
omit [FloatOps F] in
theorem pts_s9 (f : Buf (Elt F) ((thr d L).loc cc1_scratch9)) : ((thr d L).loc cc1_scratch9 ↦{fullShare} f : sProp 𝕄) = ((s_9).view.loc (thr d L) ↦{fullShare} f) := rfl
omit [FloatOps F] in
theorem pts_s10 (f : Buf (Elt F) ((thr d L).loc cc1_scratch10)) : ((thr d L).loc cc1_scratch10 ↦{fullShare} f : sProp 𝕄) = ((s_10).view.loc (thr d L) ↦{fullShare} f) := rfl
omit [FloatOps F] in
theorem pts_s11 (f : Buf (Elt F) ((thr d L).loc cc1_scratch11)) : ((thr d L).loc cc1_scratch11 ↦{fullShare} f : sProp 𝕄) = ((s_11).view.loc (thr d L) ↦{fullShare} f) := rfl
omit [FloatOps F] in
theorem pts_s12 (f : Buf (Elt F) ((thr d L).loc cc1_scratch12)) : ((thr d L).loc cc1_scratch12 ↦{fullShare} f : sProp 𝕄) = ((s_12).view.loc (thr d L) ↦{fullShare} f) := rfl
omit [FloatOps F] in
theorem pts_s13 (f : Buf (Elt F) ((thr d L).loc cc1_scratch13)) : ((thr d L).loc cc1_scratch13 ↦{fullShare} f : sProp 𝕄) = ((s_13).view.loc (thr d L) ↦{fullShare} f) := rfl

omit [FloatOps F] in
theorem bigSepL_map {A B : Type} (f : A → B) (Φ : B → sProp 𝕄) : ∀ l : List A, bigSepL (l.map f) Φ = bigSepL l (fun a => Φ (f a))
  | [] => rfl
  | a :: l => by rw [List.map_cons, bigSepL_cons, bigSepL_cons, bigSepL_map f Φ l]

theorem semList_nodup : semList.Nodup := by decide
theorem semList_scoped : ∀ s ∈ semList, (SemLoc.dma s : SemLoc sig).isScoped .scVector = true := by decide
theorem bufList_nodup : bufList.Nodup := by decide

omit [FloatOps F] in
/-- The subcore's own semaphores at zero: the kernel's 27 and the rest. -/
theorem ownSems0_V :
    (ownSems0 (thr d L) : sProp 𝕄)
      = iprop(bigSepL semList (fun s => semVal ((thr d L, SemLoc.dma s) : GSem nD τ sig) 0)
          ∗ bigSep (ownCells (thr d L) \ (semList.map fun s => ((thr d L, SemLoc.dma s) : GSem nD τ sig)).toFinset) fun g => semVal g 0) := by
  unfold SparseCore.Cfg.ownSems0
  have hnd : (semList.map fun s => ((thr d L, SemLoc.dma s) : GSem nD τ sig)).Nodup :=
    semList_nodup.map (fun a b e => by cases e; rfl)
  have hsub : (semList.map fun s => ((thr d L, SemLoc.dma s) : GSem nD τ sig)).toFinset ⊆ ownCells (thr d L) := by
    intro g hg
    obtain ⟨s, hs, rfl⟩ := List.mem_map.mp (List.mem_toFinset.mp hg)
    exact mem_ownCells.mpr ⟨rfl, semList_scoped s hs⟩
  rw [SparseCore.bigSep_sdiff_split' hsub, bigSep_eq_bigSepL _ hnd, bigSepL_map]

omit [FloatOps F] in
/-- The subcore's own buffers: the kernel's 14 scratch buffers, each at some contents, and the rest. -/
theorem ownBufs_V :
    (ownBufs (thr d L) : sProp 𝕄)
      = iprop(bigSepL bufList (fun b => iprop(∃ f, (thr d L).loc b ↦{fullShare} f))
          ∗ bigSep (ownRefs (τ := τ) (.scVector (cV L) (jV L)) \ (bufList.map fun b => (Proc.scVector (cV L) (jV L)).devRef b).toFinset)
              fun b => iprop(∃ f, ((d, b) : Loc nD τ sig) ↦{fullShare} f)) := by
  unfold SparseCore.Cfg.ownBufs
  have hnd : (bufList.map fun b => (Proc.scVector (cV L) (jV L)).devRef (sig := sig) b).Nodup :=
    bufList_nodup.map (Proc.devRef_injective _)
  have hsub : (bufList.map fun b => (Proc.scVector (cV L) (jV L)).devRef (sig := sig) b).toFinset ⊆ ownRefs (τ := τ) (.scVector (cV L) (jV L)) := by
    intro b hb
    obtain ⟨r, hr, rfl⟩ := List.mem_map.mp (List.mem_toFinset.mp hb)
    have hown : ∀ r ∈ bufList, ((Proc.scVector (cV L) (jV L)).devRef (sig := sig) r).owner = Owner.proc (Proc.scVector (cV L) (jV L)) := by
      unfold bufList
      simp only [List.forall_mem_cons, List.not_mem_nil, IsEmpty.forall_iff, implies_true, and_true]
      exact ⟨rfl, rfl, rfl, rfl, rfl, rfl, rfl, rfl, rfl, rfl, rfl, rfl, rfl, rfl⟩
    exact SparseCore.Cfg.mem_ownRefs_of_owner (p := Proc.scVector (cV L) (jV L)) (hown r hr)
  rw [show (thr d L).2 = Proc.scVector (cV L) (jV L) from rfl, SparseCore.bigSep_sdiff_split' hsub, bigSep_eq_bigSepL _ hnd, bigSepL_map]

omit [FloatOps F] in
theorem sep_eq' (P Q : sProp 𝕄) : BI.sep P Q = iprop(P ∗ Q) := rfl

/-! ## Read shares as tokens -/

/-- What is left of a read share `q` of `ℓ` once tokens `a` and `b` of sixteen are taken out. -/
def shareRest {ℓ : Loc nD τ sig} (f : Buf (Elt F) ℓ) (q : PosShare TreeShare) (a b : Fin 16) : sProp 𝕄 :=
  iprop((ℓ ↦{Transfers.shareDrop q 16} f) ∗ bigSep ((Finset.univ.erase a).erase b) fun i : Fin 16 => ℓ ↦{Transfers.shareTok q 16 i} f)

omit [FloatOps F] in
theorem share_toks_split {ℓ : Loc nD τ sig} (f : Buf (Elt F) ℓ) (q : PosShare TreeShare) (a b : Fin 16) (hab : a ≠ b) :
    (ℓ ↦{q} f : sProp 𝕄) ⊢ iprop((ℓ ↦{Transfers.shareTokN q a.val} f) ∗ (ℓ ↦{Transfers.shareTokN q b.val} f) ∗ shareRest f q a b) := by
  have h := Transfers.pointsTo_toks_split (nD := nD) (τ := τ) (sig := sig) (Ix := HIx 1) (Val := Elt F) (Name := ℕ) (U := UU) (Lvl := ℕ)
    (ℓ := ℓ) (S := Finset.univ) (f := f) q 16
  rw [SparseCore.bigSep_erase' (Finset.mem_univ a), SparseCore.bigSep_erase' (Finset.mem_erase.mpr ⟨hab.symm, Finset.mem_univ b⟩)] at h
  unfold shareRest
  iintro H
  ihave H := h $$ H
  icases H with ⟨HR, HA, HB, HT⟩
  isplitl [HA]; · iexact HA
  isplitl [HB]; · iexact HB
  isplitl [HR]; · iexact HR
  iexact HT

omit [FloatOps F] in
theorem share_toks_join {ℓ : Loc nD τ sig} (f : Buf (Elt F) ℓ) (q : PosShare TreeShare) (a b : Fin 16) (hab : a ≠ b) :
    iprop((ℓ ↦{Transfers.shareTokN q a.val} f) ∗ (ℓ ↦{Transfers.shareTokN q b.val} f) ∗ shareRest f q a b) ⊢ (ℓ ↦{q} f : sProp 𝕄) := by
  have h := Transfers.pointsTo_toks_join (nD := nD) (τ := τ) (sig := sig) (Ix := HIx 1) (Val := Elt F) (Name := ℕ) (U := UU) (Lvl := ℕ)
    (ℓ := ℓ) (S := Finset.univ) (f := f) q 16
  rw [SparseCore.bigSep_erase' (Finset.mem_univ a), SparseCore.bigSep_erase' (Finset.mem_erase.mpr ⟨hab.symm, Finset.mem_univ b⟩)] at h
  unfold shareRest
  iintro ⟨HA, HB, HR, HT⟩
  iapply h
  isplitl [HR]; · iexact HR
  isplitl [HA]; · iexact HA
  isplitl [HB]; · iexact HB
  iexact HT

/-! ## Outside the pair loop -/

/-- The worker's first row as the kernel computes it. -/
abbrev v2 (L : grid1.Coords) : BitVec 32 :=
  Scalar.muli (Scalar.addi (Scalar.muli (BitVec.ofNat 32 (L 1).val) 2#32) (BitVec.ofNat 32 (L 0).val)) 1408#32

theorem trips22 : k1_t1_loop.trips = 22 := by decide

/-- What the task holds beside the pair loop's invariant: the bias' read share, the tables' shares but the four gather
    tokens, its rows of the two sums' arrays, the nine run-scoped semaphores of the prologue's and epilogue's regions, and
    the subcore's other buffers and semaphores. -/
def Rest : sProp 𝕄 :=
  iprop(((m_b).view.loc (thr d L) ↦{rsh (wL L)} I.b d)
    ∗ shareRest (ℓ := (m_sp).view.loc (thr d L)) (I.sp d) (rsh (wL L)) 12 14 ∗ shareRest (ℓ := (m_ap).view.loc (thr d L)) (I.ap d) (rsh (wL L)) 13 15
    ∗ (∃ f, (m_sqt).view.loc (thr d L) ↦[sqRow (wL L)]{fullShare} f) ∗ (∃ f, (m_sqn).view.loc (thr d L) ↦[sqRow (wL L)]{fullShare} f)
    ∗ semVal ((thr d L, SemLoc.dma cc1_scoped0.sem) : GSem nD τ sig) 0 ∗ semVal ((thr d L, SemLoc.dma cc1_scoped1.sem) : GSem nD τ sig) 0
    ∗ semVal ((thr d L, SemLoc.dma cc1_scoped2.sem) : GSem nD τ sig) 0 ∗ semVal ((thr d L, SemLoc.dma cc1_scoped3.sem) : GSem nD τ sig) 0
    ∗ semVal ((thr d L, SemLoc.dma cc1_scoped4.sem) : GSem nD τ sig) 0 ∗ semVal ((thr d L, SemLoc.dma cc1_scoped5.sem) : GSem nD τ sig) 0
    ∗ semVal ((thr d L, SemLoc.dma cc1_scoped6.sem) : GSem nD τ sig) 0 ∗ semVal ((thr d L, SemLoc.dma cc1_scoped19.sem) : GSem nD τ sig) 0
    ∗ semVal ((thr d L, SemLoc.dma cc1_scoped20.sem) : GSem nD τ sig) 0
    ∗ (bigSep (ownRefs (τ := τ) (.scVector (cV L) (jV L)) \ (bufList.map fun b => (Proc.scVector (cV L) (jV L)).devRef b).toFinset)
        fun b => iprop(∃ f, ((d, b) : Loc nD τ sig) ↦{fullShare} f))
    ∗ bigSep (ownCells (thr d L) \ (semList.map fun s => ((thr d L, SemLoc.dma s) : GSem nD τ sig)).toFinset) fun g => semVal g 0)

/-- The body after its pair loop: the two last copy-outs awaited, the two rows of sums copied out. -/
def epi (L : grid1.Coords) : Prog (TpuEff nD τ sig (Elt F) Λ₀ (.scVector ((L 0).castLE hcore1) ((L 1).castLE hsub1))) PUnit := do
  k1_part37 L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20
  let v41_r20 : Memref sig .scVector .vmem S1x16 .f32 := (s_13).slice (Rect.unit (s := S2x16) ![1, 0] S1x16.size inb_S2x16_S1x16_1_0) (fun _ => rfl)
  let v42_r20 : Memref sig .scVector .vmem S16 .f32 := v41_r20.squeeze S16 squeezes_S1x16_S16
  let v39_r20 : Memref sig .scVector .hbm S1x16 .f32 := (m_sqn).slice (Rect.unit (s := S32x16) (k1_off51 L) S1x16.size (k1_off51_inb L)) (fun _ => rfl)
  let v40_r20 : Memref sig .scVector .hbm S16 .f32 := v39_r20.squeeze S16 squeezes_S1x16_S16
  Prog.lift (.waitDma2 cc1_scoped20.sem v42_r20 v40_r20 ((View.wordExact_bits rfl).reshape _ _) ((View.wordExact_bits rfl).reshape _ _))
  pure ⟨⟩

set_option maxRecDepth 65536 in
/-- The body is its first part (the prologue and the pair loop) and then the rest. -/
theorem body_cut : cc1__sc_body (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20
    = (k1_part36 (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 >>= fun _ => epi (F := F) L) := rfl

end Tile
end Cert.KernelIdeal.Tile
end
-- ==== Proof.TileCut.lean ====
/-
  The pair's region cut in two: the first chunk's half (the second chunk's lists and gathers started, the first chunk's
  gathers awaited, its rows computed, their squares added and their copy-out started) and the second chunk's half.
-/
import proofs.«213116_g69346541961480_cont_9to1_m_612_34_alg».proof.Proof.TileKit
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first half of a pair. -/
noncomputable def tripA (i : grid1.Coords) (arg2 : Memref sig .scVector .hbm S100000x128 .f32) (harg2 : arg2.IsWhole) (arg3 : Memref sig .scVector .hbm S100000x128 .f32) (harg3 : arg3.IsWhole) (arg4 : Memref sig .scVector .hbm S4096 .i32) (harg4 : arg4.IsWhole) (arg5 : Memref sig .scVector .hbm S40960 .i32) (harg5 : arg5.IsWhole) (arg6 : Memref sig .scVector .hbm S409600 .i32) (harg6 : arg6.IsWhole) (arg7 : Memref sig .scVector .hbm S40960 .f32) (harg7 : arg7.IsWhole) (arg8 : Memref sig .scVector .hbm S409600 .f32) (harg8 : arg8.IsWhole) (arg9 : Memref sig .scVector .hbm S128 .f32) (harg9 : arg9.IsWhole) (arg10 : Memref sig .scVector .hbm S4096x128 .f32) (harg10 : arg10.IsWhole) (arg11 : Memref sig .scVector .hbm S40960x128 .f32) (harg11 : arg11.IsWhole) (arg12 : Memref sig .scVector .hbm S32x16 .f32) (harg12 : arg12.IsWhole) (arg13 : Memref sig .scVector .hbm S32x16 .f32) (harg13 : arg13.IsWhole) (arg14 : Memref sig .scVector .vmem S32 .i32) (harg14 : arg14.IsWhole) (arg15 : Memref sig .scVector .vmem S32 .i32) (harg15 : arg15.IsWhole) (arg16 : Memref sig .scVector .vmem S320 .i32) (harg16 : arg16.IsWhole) (arg17 : Memref sig .scVector .vmem S320 .i32) (harg17 : arg17.IsWhole) (arg18 : Memref sig .scVector .vmem S336 .f32) (harg18 : arg18.IsWhole) (arg19 : Memref sig .scVector .vmem S336 .f32) (harg19 : arg19.IsWhole) (arg20 : Memref sig .scVector .vmem S32x128 .f32) (harg20 : arg20.IsWhole) (arg21 : Memref sig .scVector .vmem S32x128 .f32) (harg21 : arg21.IsWhole) (arg22 : Memref sig .scVector .vmem S320x128 .f32) (harg22 : arg22.IsWhole) (arg23 : Memref sig .scVector .vmem S320x128 .f32) (harg23 : arg23.IsWhole) (arg24 : Memref sig .scVector .vmem S32x128 .f32) (harg24 : arg24.IsWhole) (arg25 : Memref sig .scVector .vmem S32x128 .f32) (harg25 : arg25.IsWhole) (arg26 : Memref sig .scVector .vmem S128 .f32) (harg26 : arg26.IsWhole) (arg27 : Memref sig .scVector .vmem S2x16 .f32) (harg27 : arg27.IsWhole) (arg28 : DmaSems sig S_) (arg29 : DmaSems sig S_) (arg30 : DmaSems sig S_) (arg31 : DmaSems sig S_) (arg32 : DmaSems sig S_) (arg33 : DmaSems sig S_) (v26_r0 : DmaSems sig S_) (v28_r1 : DmaSems sig S_) (v28_r2 : DmaSems sig S_) (v28_r3 : DmaSems sig S_) (v29_r4 : DmaSems sig S_) (v29_r5 : DmaSems sig S_) (v29_r6 : DmaSems sig S_) (v74_r7 : DmaSems sig S_) (v74_r8 : DmaSems sig S_) (v74_r9 : DmaSems sig S_) (v75_r10 : DmaSems sig S_) (v75_r11 : DmaSems sig S_) (v75_r12 : DmaSems sig S_) (v83_r13 : DmaSems sig S_) (v83_r14 : DmaSems sig S_) (v83_r15 : DmaSems sig S_) (v84_r16 : DmaSems sig S_) (v84_r17 : DmaSems sig S_) (v84_r18 : DmaSems sig S_) (v26_r19 : DmaSems sig S_) (v26_r20 : DmaSems sig S_) (v2 : BitVec 32) (k1_t1 : Fin k1_t1_loop.trips) :
    Prog (TpuEff nD τ sig (Elt F) Λ₀ (.scVector ((i 0).castLE hcore1) ((i 1).castLE hsub1))) (Σ' (arg34 : BitVec 32) (v28 : BitVec 32) (v29 : BitVec 32) (v46 : FVec F S16 .f32), BitVec 1) := do
    let ⟨arg34, v28, v29, v46, v50⟩ : Σ' (arg34 : BitVec 32) (v28 : BitVec 32) (v29 : BitVec 32) (v46 : FVec F S16 .f32), BitVec 1 ← k1_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 0#32 1#32 k1_t1
    if k1_h7 : k1_cond7 i k1_t1 = 1#1 then do
      let v73 : Vec F S1x16 .f32 ← Prog.lift (.load arg27 (Rect.unit (s := S2x16) ![1, 0] S1x16.size inb_S2x16_S1x16_1_0).toLoadRect (View.loadsAt_vmem h_S1x16))
      let v77 : Vec F S1x16 .f32 ← Prog.lift (.load arg27 (Rect.unit (s := S2x16) ![1, 0] S1x16.size inb_S2x16_S1x16_1_0).toLoadRect (View.loadsAt_vmem h_S1x16))
      Prog.lift (.store arg27 (Rect.unit (s := S2x16) ![1, 0] S1x16.size inb_S2x16_S1x16_1_0) (k1_pay116 v46 v73) Finset.univ (View.stores_vmem_bits_univ h_S1x16 rfl) (.inl rfl))
      let v82 : Memref sig .scVector .hbm S32x128 .f32 := arg11.slice (Rect.unit (s := S40960x128) (k1_off27 i k1_t1) S32x128.size (k1_off27_inb i k1_t1 k1_h7)) (fun _ => rfl)
      Prog.lift (.enqueueDma arg24 (.here v82) (.dma arg32.sem) harg24.wordExact (View.wordExact_bits rfl) ⟨Or.inl rfl, trivial⟩)
      pure ⟨⟩
    else do
      pure ⟨⟩
    pure ⟨arg34, v28, v29, v46, v50⟩

/-- The second half. -/
noncomputable def tripB (i : grid1.Coords) (arg2 : Memref sig .scVector .hbm S100000x128 .f32) (harg2 : arg2.IsWhole) (arg3 : Memref sig .scVector .hbm S100000x128 .f32) (harg3 : arg3.IsWhole) (arg4 : Memref sig .scVector .hbm S4096 .i32) (harg4 : arg4.IsWhole) (arg5 : Memref sig .scVector .hbm S40960 .i32) (harg5 : arg5.IsWhole) (arg6 : Memref sig .scVector .hbm S409600 .i32) (harg6 : arg6.IsWhole) (arg7 : Memref sig .scVector .hbm S40960 .f32) (harg7 : arg7.IsWhole) (arg8 : Memref sig .scVector .hbm S409600 .f32) (harg8 : arg8.IsWhole) (arg9 : Memref sig .scVector .hbm S128 .f32) (harg9 : arg9.IsWhole) (arg10 : Memref sig .scVector .hbm S4096x128 .f32) (harg10 : arg10.IsWhole) (arg11 : Memref sig .scVector .hbm S40960x128 .f32) (harg11 : arg11.IsWhole) (arg12 : Memref sig .scVector .hbm S32x16 .f32) (harg12 : arg12.IsWhole) (arg13 : Memref sig .scVector .hbm S32x16 .f32) (harg13 : arg13.IsWhole) (arg14 : Memref sig .scVector .vmem S32 .i32) (harg14 : arg14.IsWhole) (arg15 : Memref sig .scVector .vmem S32 .i32) (harg15 : arg15.IsWhole) (arg16 : Memref sig .scVector .vmem S320 .i32) (harg16 : arg16.IsWhole) (arg17 : Memref sig .scVector .vmem S320 .i32) (harg17 : arg17.IsWhole) (arg18 : Memref sig .scVector .vmem S336 .f32) (harg18 : arg18.IsWhole) (arg19 : Memref sig .scVector .vmem S336 .f32) (harg19 : arg19.IsWhole) (arg20 : Memref sig .scVector .vmem S32x128 .f32) (harg20 : arg20.IsWhole) (arg21 : Memref sig .scVector .vmem S32x128 .f32) (harg21 : arg21.IsWhole) (arg22 : Memref sig .scVector .vmem S320x128 .f32) (harg22 : arg22.IsWhole) (arg23 : Memref sig .scVector .vmem S320x128 .f32) (harg23 : arg23.IsWhole) (arg24 : Memref sig .scVector .vmem S32x128 .f32) (harg24 : arg24.IsWhole) (arg25 : Memref sig .scVector .vmem S32x128 .f32) (harg25 : arg25.IsWhole) (arg26 : Memref sig .scVector .vmem S128 .f32) (harg26 : arg26.IsWhole) (arg27 : Memref sig .scVector .vmem S2x16 .f32) (harg27 : arg27.IsWhole) (arg28 : DmaSems sig S_) (arg29 : DmaSems sig S_) (arg30 : DmaSems sig S_) (arg31 : DmaSems sig S_) (arg32 : DmaSems sig S_) (arg33 : DmaSems sig S_) (v26_r0 : DmaSems sig S_) (v28_r1 : DmaSems sig S_) (v28_r2 : DmaSems sig S_) (v28_r3 : DmaSems sig S_) (v29_r4 : DmaSems sig S_) (v29_r5 : DmaSems sig S_) (v29_r6 : DmaSems sig S_) (v74_r7 : DmaSems sig S_) (v74_r8 : DmaSems sig S_) (v74_r9 : DmaSems sig S_) (v75_r10 : DmaSems sig S_) (v75_r11 : DmaSems sig S_) (v75_r12 : DmaSems sig S_) (v83_r13 : DmaSems sig S_) (v83_r14 : DmaSems sig S_) (v83_r15 : DmaSems sig S_) (v84_r16 : DmaSems sig S_) (v84_r17 : DmaSems sig S_) (v84_r18 : DmaSems sig S_) (v26_r19 : DmaSems sig S_) (v26_r20 : DmaSems sig S_) (v2 : BitVec 32) (k1_t1 : Fin k1_t1_loop.trips) (arg34 : BitVec 32) :
    Prog (TpuEff nD τ sig (Elt F) Λ₀ (.scVector ((i 0).castLE hcore1) ((i 1).castLE hsub1))) Unit := do
    if k1_h8 : k1_cond8 k1_t1 = 1#1 then do
      if k1_h9 : k1_cond9 i k1_t1 = 1#1 then do
        let v85_r13 : Memref sig .scVector .hbm S32 .i32 := arg4.slice (Rect.unit (s := S4096) (k1_off28 i k1_t1) S32.size (k1_off28_inb i k1_t1 k1_h8 k1_h9)) (fun _ => rfl)
        Prog.lift (.enqueueDma v85_r13 (.here arg14) (.dma v83_r13.sem) (View.wordExact_bits rfl) harg14.wordExact ⟨Or.inl rfl, trivial⟩)
        let v87_r13 : Memref sig .scVector .hbm S32 .i32 := arg4.slice (Rect.unit (s := S4096) (k1_off28 i k1_t1) S32.size (k1_off28_inb i k1_t1 k1_h8 k1_h9)) (fun _ => rfl)
        Prog.lift (.waitDma2 v83_r13.sem v87_r13 arg14 (View.wordExact_bits rfl) harg14.wordExact)
        let v85_r14 : Memref sig .scVector .hbm S320 .i32 := arg5.slice (Rect.unit (s := S40960) (k1_off29 i k1_t1) S320.size (k1_off29_inb i k1_t1 k1_h8 k1_h9)) (fun _ => rfl)
        Prog.lift (.enqueueDma v85_r14 (.here arg16) (.dma v83_r14.sem) (View.wordExact_bits rfl) harg16.wordExact ⟨Or.inl rfl, trivial⟩)
        let v87_r14 : Memref sig .scVector .hbm S320 .i32 := arg5.slice (Rect.unit (s := S40960) (k1_off29 i k1_t1) S320.size (k1_off29_inb i k1_t1 k1_h8 k1_h9)) (fun _ => rfl)
        Prog.lift (.waitDma2 v83_r14.sem v87_r14 arg16 (View.wordExact_bits rfl) harg16.wordExact)
        let v86_r15 : Memref sig .scVector .vmem S320 .f32 := arg18.slice (Rect.unit (s := S336) ![0] S320.size inb_S336_S320_0) (fun _ => rfl)
        let v87_r15 : Memref sig .scVector .hbm S320 .f32 := arg7.slice (Rect.unit (s := S40960) (k1_off29 i k1_t1) S320.size (k1_off29_inb i k1_t1 k1_h8 k1_h9)) (fun _ => rfl)
        Prog.lift (.enqueueDma v87_r15 (.here v86_r15) (.dma v83_r15.sem) (View.wordExact_bits rfl) (View.wordExact_bits rfl) ⟨Or.inl rfl, trivial⟩)
        let v90_r15 : Memref sig .scVector .vmem S320 .f32 := arg18.slice (Rect.unit (s := S336) ![0] S320.size inb_S336_S320_0) (fun _ => rfl)
        let v91_r15 : Memref sig .scVector .hbm S320 .f32 := arg7.slice (Rect.unit (s := S40960) (k1_off29 i k1_t1) S320.size (k1_off29_inb i k1_t1 k1_h8 k1_h9)) (fun _ => rfl)
        Prog.lift (.waitDma2 v83_r15.sem v91_r15 v90_r15 (View.wordExact_bits rfl) (View.wordExact_bits rfl))
        pure ⟨⟩
      else do
        pure ⟨⟩
      if k1_h10 : k1_cond10 i k1_t1 = 1#1 then do
        let v86_r16 : Memref sig .scVector .hbm S32 .i32 := arg5.slice (Rect.unit (s := S40960) (k1_off30 i k1_t1) S32.size (k1_off30_inb i k1_t1 k1_h8 k1_h10)) (fun _ => rfl)
        Prog.lift (.enqueueDma v86_r16 (.here arg14) (.dma v84_r16.sem) (View.wordExact_bits rfl) harg14.wordExact ⟨Or.inl rfl, trivial⟩)
        let v88_r16 : Memref sig .scVector .hbm S32 .i32 := arg5.slice (Rect.unit (s := S40960) (k1_off30 i k1_t1) S32.size (k1_off30_inb i k1_t1 k1_h8 k1_h10)) (fun _ => rfl)
        Prog.lift (.waitDma2 v84_r16.sem v88_r16 arg14 (View.wordExact_bits rfl) harg14.wordExact)
        let v86_r17 : Memref sig .scVector .hbm S320 .i32 := arg6.slice (Rect.unit (s := S409600) (k1_off31 i k1_t1) S320.size (k1_off31_inb i k1_t1 k1_h8 k1_h10)) (fun _ => rfl)
        Prog.lift (.enqueueDma v86_r17 (.here arg16) (.dma v84_r17.sem) (View.wordExact_bits rfl) harg16.wordExact ⟨Or.inl rfl, trivial⟩)
        let v88_r17 : Memref sig .scVector .hbm S320 .i32 := arg6.slice (Rect.unit (s := S409600) (k1_off31 i k1_t1) S320.size (k1_off31_inb i k1_t1 k1_h8 k1_h10)) (fun _ => rfl)
        Prog.lift (.waitDma2 v84_r17.sem v88_r17 arg16 (View.wordExact_bits rfl) harg16.wordExact)
        let v87_r18 : Memref sig .scVector .vmem S320 .f32 := arg18.slice (Rect.unit (s := S336) ![0] S320.size inb_S336_S320_0) (fun _ => rfl)
        let v88_r18 : Memref sig .scVector .hbm S320 .f32 := arg8.slice (Rect.unit (s := S409600) (k1_off31 i k1_t1) S320.size (k1_off31_inb i k1_t1 k1_h8 k1_h10)) (fun _ => rfl)
        Prog.lift (.enqueueDma v88_r18 (.here v87_r18) (.dma v84_r18.sem) (View.wordExact_bits rfl) (View.wordExact_bits rfl) ⟨Or.inl rfl, trivial⟩)
        let v91_r18 : Memref sig .scVector .vmem S320 .f32 := arg18.slice (Rect.unit (s := S336) ![0] S320.size inb_S336_S320_0) (fun _ => rfl)
        let v92_r18 : Memref sig .scVector .hbm S320 .f32 := arg8.slice (Rect.unit (s := S409600) (k1_off31 i k1_t1) S320.size (k1_off31_inb i k1_t1 k1_h8 k1_h10)) (fun _ => rfl)
        Prog.lift (.waitDma2 v84_r18.sem v92_r18 v91_r18 (View.wordExact_bits rfl) (View.wordExact_bits rfl))
        pure ⟨⟩
      else do
        pure ⟨⟩
      let v79 : Memref sig .scVector .hbm S100000x128 .f32 := arg2.slice (Rect.unit (s := S100000x128) ![0, 0] S100000x128.size inb_S100000x128_S100000x128_0_0) (fun _ => rfl)
      SparseCore.enqueueIndirectGather rfl v79 arg20 gathers_S100000x128_S32x128 arg14 rfl arg28.sem (View.wordExact_bits rfl) rfl (Or.inl rfl)
      let v80 : Memref sig .scVector .hbm S100000x128 .f32 := arg3.slice (Rect.unit (s := S100000x128) ![0, 0] S100000x128.size inb_S100000x128_S100000x128_0_0) (fun _ => rfl)
      SparseCore.enqueueIndirectGather rfl v80 arg22 gathers_S100000x128_S320x128 arg16 rfl arg29.sem (View.wordExact_bits rfl) rfl (Or.inl rfl)
      pure ⟨⟩
    else do
      pure ⟨⟩
    let v57 : Memref sig .scVector .hbm S100000x128 .f32 := arg2.slice (Rect.unit (s := S100000x128) ![0, 0] S100000x128.size inb_S100000x128_S100000x128_0_0) (fun _ => rfl)
    SparseCore.waitIndirectGather arg30.sem v57 arg21 (View.wordExact_bits rfl) harg21.wordExact
    let v58 : Memref sig .scVector .hbm S100000x128 .f32 := arg3.slice (Rect.unit (s := S100000x128) ![0, 0] S100000x128.size inb_S100000x128_S100000x128_0_0) (fun _ => rfl)
    SparseCore.waitIndirectGather arg31.sem v58 arg23 (View.wordExact_bits rfl) harg23.wordExact
    let v59 : BitVec 1 := Scalar.cmpi .eq arg34 0#32
    let v60 : BitVec 1 := Scalar.xori v59 1#1
    let v61 : BitVec 32 := Scalar.extui v60
    let v62 : BitVec 1 := Scalar.cmpi .ne v61 0#32
    if k1_h11 : v62 = 1#1 then do
      let v73 : Memref sig .scVector .hbm S32x128 .f32 := arg10.slice (Rect.unit (s := S4096x128) ![0, 0] S32x128.size inb_S4096x128_S32x128_0_0) (fun _ => rfl)
      Prog.lift (.waitDma2 arg33.sem arg25 v73 harg25.wordExact (View.wordExact_bits rfl))
      pure ⟨⟩
    else do
      pure ⟨⟩
    let v65 : FVec F S16 .f32 ← Scf.Loop.for k1_t3_loop k1_t3_ok (k1_pay117 (F := F)) (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20)
    if k1_h12 : k1_cond12 i k1_t1 = 1#1 then do
      let v73 : Vec F S1x16 .f32 ← Prog.lift (.load arg27 (Rect.unit (s := S2x16) ![0, 0] S1x16.size inb_S2x16_S1x16_0_0).toLoadRect (View.loadsAt_vmem h_S1x16))
      let v77 : Vec F S1x16 .f32 ← Prog.lift (.load arg27 (Rect.unit (s := S2x16) ![0, 0] S1x16.size inb_S2x16_S1x16_0_0).toLoadRect (View.loadsAt_vmem h_S1x16))
      Prog.lift (.store arg27 (Rect.unit (s := S2x16) ![0, 0] S1x16.size inb_S2x16_S1x16_0_0) (k1_pay121 v65 v73) Finset.univ (View.stores_vmem_bits_univ h_S1x16 rfl) (.inl rfl))
      let v81 : Memref sig .scVector .hbm S32x128 .f32 := arg10.slice (Rect.unit (s := S4096x128) (k1_off49 i k1_t1) S32x128.size (k1_off49_inb i k1_t1 k1_h12)) (fun _ => rfl)
      Prog.lift (.enqueueDma arg25 (.here v81) (.dma arg33.sem) harg25.wordExact (View.wordExact_bits rfl) ⟨Or.inl rfl, trivial⟩)
      pure ⟨⟩
    else do
      pure ⟨⟩
    if k1_h13 : k1_cond13 i k1_t1 = 1#1 then do
      let v73 : Vec F S1x16 .f32 ← Prog.lift (.load arg27 (Rect.unit (s := S2x16) ![1, 0] S1x16.size inb_S2x16_S1x16_1_0).toLoadRect (View.loadsAt_vmem h_S1x16))
      let v77 : Vec F S1x16 .f32 ← Prog.lift (.load arg27 (Rect.unit (s := S2x16) ![1, 0] S1x16.size inb_S2x16_S1x16_1_0).toLoadRect (View.loadsAt_vmem h_S1x16))
      Prog.lift (.store arg27 (Rect.unit (s := S2x16) ![1, 0] S1x16.size inb_S2x16_S1x16_1_0) (k1_pay122 v65 v73) Finset.univ (View.stores_vmem_bits_univ h_S1x16 rfl) (.inl rfl))
      let v82 : Memref sig .scVector .hbm S32x128 .f32 := arg11.slice (Rect.unit (s := S40960x128) (k1_off50 i k1_t1) S32x128.size (k1_off50_inb i k1_t1 k1_h13)) (fun _ => rfl)
      Prog.lift (.enqueueDma arg25 (.here v82) (.dma arg33.sem) harg25.wordExact (View.wordExact_bits rfl) ⟨Or.inl rfl, trivial⟩)
      pure ⟨⟩
    else do
      pure ⟨⟩
    pure ⟨⟩

set_option maxRecDepth 65536 in
/-- The pair's region is its two halves in sequence. -/
theorem k1_t1_body_cut (i : grid1.Coords) (arg2 : Memref sig .scVector .hbm S100000x128 .f32) (harg2 : arg2.IsWhole) (arg3 : Memref sig .scVector .hbm S100000x128 .f32) (harg3 : arg3.IsWhole) (arg4 : Memref sig .scVector .hbm S4096 .i32) (harg4 : arg4.IsWhole) (arg5 : Memref sig .scVector .hbm S40960 .i32) (harg5 : arg5.IsWhole) (arg6 : Memref sig .scVector .hbm S409600 .i32) (harg6 : arg6.IsWhole) (arg7 : Memref sig .scVector .hbm S40960 .f32) (harg7 : arg7.IsWhole) (arg8 : Memref sig .scVector .hbm S409600 .f32) (harg8 : arg8.IsWhole) (arg9 : Memref sig .scVector .hbm S128 .f32) (harg9 : arg9.IsWhole) (arg10 : Memref sig .scVector .hbm S4096x128 .f32) (harg10 : arg10.IsWhole) (arg11 : Memref sig .scVector .hbm S40960x128 .f32) (harg11 : arg11.IsWhole) (arg12 : Memref sig .scVector .hbm S32x16 .f32) (harg12 : arg12.IsWhole) (arg13 : Memref sig .scVector .hbm S32x16 .f32) (harg13 : arg13.IsWhole) (arg14 : Memref sig .scVector .vmem S32 .i32) (harg14 : arg14.IsWhole) (arg15 : Memref sig .scVector .vmem S32 .i32) (harg15 : arg15.IsWhole) (arg16 : Memref sig .scVector .vmem S320 .i32) (harg16 : arg16.IsWhole) (arg17 : Memref sig .scVector .vmem S320 .i32) (harg17 : arg17.IsWhole) (arg18 : Memref sig .scVector .vmem S336 .f32) (harg18 : arg18.IsWhole) (arg19 : Memref sig .scVector .vmem S336 .f32) (harg19 : arg19.IsWhole) (arg20 : Memref sig .scVector .vmem S32x128 .f32) (harg20 : arg20.IsWhole) (arg21 : Memref sig .scVector .vmem S32x128 .f32) (harg21 : arg21.IsWhole) (arg22 : Memref sig .scVector .vmem S320x128 .f32) (harg22 : arg22.IsWhole) (arg23 : Memref sig .scVector .vmem S320x128 .f32) (harg23 : arg23.IsWhole) (arg24 : Memref sig .scVector .vmem S32x128 .f32) (harg24 : arg24.IsWhole) (arg25 : Memref sig .scVector .vmem S32x128 .f32) (harg25 : arg25.IsWhole) (arg26 : Memref sig .scVector .vmem S128 .f32) (harg26 : arg26.IsWhole) (arg27 : Memref sig .scVector .vmem S2x16 .f32) (harg27 : arg27.IsWhole) (arg28 : DmaSems sig S_) (arg29 : DmaSems sig S_) (arg30 : DmaSems sig S_) (arg31 : DmaSems sig S_) (arg32 : DmaSems sig S_) (arg33 : DmaSems sig S_) (v26_r0 : DmaSems sig S_) (v28_r1 : DmaSems sig S_) (v28_r2 : DmaSems sig S_) (v28_r3 : DmaSems sig S_) (v29_r4 : DmaSems sig S_) (v29_r5 : DmaSems sig S_) (v29_r6 : DmaSems sig S_) (v74_r7 : DmaSems sig S_) (v74_r8 : DmaSems sig S_) (v74_r9 : DmaSems sig S_) (v75_r10 : DmaSems sig S_) (v75_r11 : DmaSems sig S_) (v75_r12 : DmaSems sig S_) (v83_r13 : DmaSems sig S_) (v83_r14 : DmaSems sig S_) (v83_r15 : DmaSems sig S_) (v84_r16 : DmaSems sig S_) (v84_r17 : DmaSems sig S_) (v84_r18 : DmaSems sig S_) (v26_r19 : DmaSems sig S_) (v26_r20 : DmaSems sig S_) (v2 : BitVec 32) (k1_t1 : Fin k1_t1_loop.trips) (acc : Unit) :
    k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 k1_t1 acc
      = (tripA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 k1_t1 >>= fun r => tripB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 k1_t1 r.1) := by
  unfold k1_t1_body tripA tripB
  rw [bind_assoc]
  congr 1
  funext x
  obtain ⟨arg34, v28, v29, v46, v50⟩ := x
  by_cases h7 : k1_cond7 i k1_t1 = 1#1
  · simp only [dif_pos h7, bind_assoc, pure_bind]
  · simp only [dif_neg h7, bind_assoc, pure_bind]

end Cert.KernelIdeal.Tile
end
-- ==== Proof.TileMid.lean ====
/-
  The state of a vector subcore in the middle of a pair of chunks: the first chunk computed and its copy-out under way,
  the second chunk's lists fetched and its gathers under way.
-/
import proofs.«213116_g69346541961480_cont_9to1_m_612_34_alg».proof.Proof.TileCut
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- Buffer set 1 loaded with the chunk at `r0`: its weights landed, its two gathers under way. -/
def Loaded1 (r0 : ℕ) : sProp 𝕄 :=
  iprop((∃ fal : Buf (Elt F) ((s_5).view.loc (thr d L)), ⌜∀ x : S336.Idx, (x 0).val < 320 → fal x = alph I d r0 (x 0).val⌝ ∗ ((s_5).view.loc (thr d L) ↦{fullShare} fal))
    ∗ FlS1 I d L r0 ∗ FlN1 I d L r0)

/-- The second output buffer in the middle of pair `k`: at rest in the first pair, its copy-out of the previous pair's
    second chunk under way after. -/
def Outs1 (k : ℕ) : sProp 𝕄 :=
  if k = 0 then iprop((∃ f, (s_11).view.loc (thr d L) ↦{fullShare} f) ∗ semVal ((thr d L, SemLoc.dma cc1_scratch19.sem) : GSem nD τ sig) 0)
  else FlW1 I d L (rA L k - 32)
theorem Outs1_zero : Outs1 I d L 0 = iprop((∃ f, (s_11).view.loc (thr d L) ↦{fullShare} f) ∗ semVal ((thr d L, SemLoc.dma cc1_scratch19.sem) : GSem nD τ sig) 0) := if_pos rfl
theorem Outs1_pos {k : ℕ} (h : k ≠ 0) : Outs1 I d L k = FlW1 I d L (rA L k - 32) := if_neg h

/-- In the middle of pair `k`, the first half's induction value being `arg34`. -/
def Mid (O : CellTallies nD τ sig (HIx 1)) (W : Waits sig (HIx 1)) (k : ℕ) (arg34 : BitVec 32) : sProp 𝕄 :=
  iprop(⌜arg34 = Scf.iv 0#32 1#32 k⌝
    ∗ Transfers.MayWaits (thr d L) (none : HIx 1) O
    ∗ (∃ W', ⌜∀ p ∈ W', p ∈ W ∨ p.2 = none⌝ ∗ owes (thr d L) O W')
    ∗ LoopRO I d L
    ∗ (∃ fb : Buf (Elt F) ((s_12).view.loc (thr d L)), ⌜∀ x : S128.Idx, fb x = I.b d x⌝ ∗ ((s_12).view.loc (thr d L) ↦{fullShare} fb))
    ∗ (∃ fsq : Buf (Elt F) ((s_13).view.loc (thr d L)), ⌜∀ x : S2x16.Idx, fsq x = tileSqUpto I d (wL L) (2 * k + 1) (decide ((x 0).val = 0)) (x 1).val⌝
        ∗ ((s_13).view.loc (thr d L) ↦{fullShare} fsq))
    ∗ Idle0 I d L
    ∗ Loaded1 I d L (rA L k + 32)
    ∗ FlW0 I d L (rA L k)
    ∗ Outs1 I d L k
    ∗ (∃ f, (m_e1t).view.loc (thr d L) ↦[tRem (wL L) (rA L k + 32)]{fullShare} f) ∗ (∃ f, (m_e1n).view.loc (thr d L) ↦[nRem (wL L) (rA L k + 32)]{fullShare} f)
    ∗ ((m_e1t).view.loc (thr d L) ↦[tDone (wL L) (rA L k - 32)]{fullShare} E1t I d) ∗ ((m_e1n).view.loc (thr d L) ↦[nDone (wL L) (rA L k - 32)]{fullShare} E1n I d))

end Tile
end Cert.KernelIdeal.Tile
end
-- ==== Proof.TileFacts.lean ====
/-
  Pure facts about the rows a worker writes: the row sets as the pair loop advances.
-/
import proofs.«213116_g69346541961480_cont_9to1_m_612_34_alg».proof.Proof.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

section Sets
variable (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## Rows -/

/-- A 32-row slice of the first result is the chunk's rows; -/
theorem set_e1t_slice (off : Fin 2 → ℕ) (inb : ∀ a, off a + S32x128.size a ≤ S4096x128.size a) (h1 : off 1 = 0) :
    ((m_e1t).slice (Rect.unit (s := S4096x128) off S32x128.size inb) (fun _ => rfl)).view.set = cT (off 0) := by
  have hs : ((m_e1t).slice (Rect.unit (s := S4096x128) off S32x128.size inb) (fun _ => rfl)).view.set
      = (Rect.unit (s := S4096x128) off S32x128.size inb).set :=
    View.set_slice_whole _ _
  refine hs.trans ?_
  ext x
  rw [Rect.mem_set_unit]
  simp only [cT, Finset.mem_filter, Finset.mem_univ, _root_.true_and]
  constructor
  · intro h
    exact ⟨(h 0).1, (h 0).2⟩
  · rintro ⟨hlo, hhi⟩
    refine Fin.forall_fin_two.2 ⟨⟨hlo, hhi⟩, ?_, ?_⟩
    · rw [h1]; exact Nat.zero_le _
    · have hc : (x 1).val < 128 := (x 1).isLt
      rw [h1]
      show (x 1).val < 0 + 128
      omega
/-- of the second. -/
theorem set_e1n_slice (off : Fin 2 → ℕ) (inb : ∀ a, off a + S32x128.size a ≤ S40960x128.size a) (h1 : off 1 = 0) :
    ((m_e1n).slice (Rect.unit (s := S40960x128) off S32x128.size inb) (fun _ => rfl)).view.set = cN (off 0) := by
  have hs : ((m_e1n).slice (Rect.unit (s := S40960x128) off S32x128.size inb) (fun _ => rfl)).view.set
      = (Rect.unit (s := S40960x128) off S32x128.size inb).set :=
    View.set_slice_whole _ _
  refine hs.trans ?_
  ext x
  rw [Rect.mem_set_unit]
  simp only [cN, Finset.mem_filter, Finset.mem_univ, _root_.true_and]
  constructor
  · intro h
    exact ⟨(h 0).1, (h 0).2⟩
  · rintro ⟨hlo, hhi⟩
    refine Fin.forall_fin_two.2 ⟨⟨hlo, hhi⟩, ?_, ?_⟩
    · rw [h1]; exact Nat.zero_le _
    · have hc : (x 1).val < 128 := (x 1).isLt
      rw [h1]
      show (x 1).val < 0 + 128
      omega

/-- A target chunk of the worker (`r = 1408 w + 32 j`, `j < 44`, `r < 4096`) is among its unwritten rows from `r` on; -/
theorem cT_subset_tRem (w j : ℕ) (hj : j < 44) (hr : w * 1408 + 32 * j < 4096) : cT (w * 1408 + 32 * j) ⊆ tRem w (w * 1408 + 32 * j) := by
  intro x hx'
  have hx : (x 0).val < 4096 := (x 0).isLt
  simp only [tSet, cT, tRem, tDone, Finset.mem_filter, Finset.mem_univ, _root_.true_and, Finset.mem_sdiff, Finset.mem_union] at hx' ⊢
  omega
/-- without it they are the unwritten rows from the next chunk on; -/
theorem tRem_sdiff_cT (w j : ℕ) (hj : j < 44) (hr : w * 1408 + 32 * j < 4096) :
    tRem w (w * 1408 + 32 * j) \ cT (w * 1408 + 32 * j) = tRem w (w * 1408 + 32 * j + 32) := by
  ext x
  have hx : (x 0).val < 4096 := (x 0).isLt
  simp only [tSet, cT, tRem, tDone, Finset.mem_filter, Finset.mem_univ, _root_.true_and, Finset.mem_sdiff, Finset.mem_union]
  omega
/-- with it the written rows before `r` are those before the next chunk, and the two are disjoint. -/
theorem tDone_union_cT (w j : ℕ) (hj : j < 44) (hr : w * 1408 + 32 * j < 4096) :
    tDone w (w * 1408 + 32 * j) ∪ cT (w * 1408 + 32 * j) = tDone w (w * 1408 + 32 * j + 32) := by
  ext x
  have hx : (x 0).val < 4096 := (x 0).isLt
  simp only [tSet, cT, tRem, tDone, Finset.mem_filter, Finset.mem_univ, _root_.true_and, Finset.mem_sdiff, Finset.mem_union]
  omega
theorem tDone_disjoint_cT (w r : ℕ) : Disjoint (tDone w r) (cT r) := by
  rw [Finset.disjoint_left]
  intro x h1 h2
  have hx : (x 0).val < 4096 := (x 0).isLt
  simp only [tSet, cT, tRem, tDone, Finset.mem_filter, Finset.mem_univ, _root_.true_and, Finset.mem_sdiff, Finset.mem_union] at h1 h2
  omega
/-- Past row 4096 nothing of the first result is unwritten, and its written rows do not grow. -/
theorem tRem_of_ge (w r r' : ℕ) (hr : 4096 ≤ r) (hr' : 4096 ≤ r') : tRem w r = tRem w r' := by
  ext x
  have hx : (x 0).val < 4096 := (x 0).isLt
  simp only [tSet, cT, tRem, tDone, Finset.mem_filter, Finset.mem_univ, _root_.true_and, Finset.mem_sdiff, Finset.mem_union]
  omega
theorem tDone_of_ge (w r r' : ℕ) (hr : 4096 ≤ r) (hr' : 4096 ≤ r') : tDone w r = tDone w r' := by
  ext x
  have hx : (x 0).val < 4096 := (x 0).isLt
  simp only [tSet, cT, tRem, tDone, Finset.mem_filter, Finset.mem_univ, _root_.true_and, Finset.mem_sdiff, Finset.mem_union]
  omega
/-- The same for a neighbour chunk (`4096 ≤ r`) and the second result. -/
theorem cN_subset_nRem (w j : ℕ) (hj : j < 44) (hr : 4096 ≤ w * 1408 + 32 * j) : cN (w * 1408 + 32 * j - 4096) ⊆ nRem w (w * 1408 + 32 * j) := by
  intro x hx'
  have hx : (x 0).val < 40960 := (x 0).isLt
  simp only [nSet, cN, nRem, nDone, Finset.mem_filter, Finset.mem_univ, _root_.true_and, Finset.mem_sdiff, Finset.mem_union] at hx' ⊢
  omega
theorem nRem_sdiff_cN (w j : ℕ) (hj : j < 44) (hr : 4096 ≤ w * 1408 + 32 * j) :
    nRem w (w * 1408 + 32 * j) \ cN (w * 1408 + 32 * j - 4096) = nRem w (w * 1408 + 32 * j + 32) := by
  ext x
  have hx : (x 0).val < 40960 := (x 0).isLt
  simp only [nSet, cN, nRem, nDone, Finset.mem_filter, Finset.mem_univ, _root_.true_and, Finset.mem_sdiff, Finset.mem_union]
  omega
theorem nDone_union_cN (w j : ℕ) (hj : j < 44) (hr : 4096 ≤ w * 1408 + 32 * j) :
    nDone w (w * 1408 + 32 * j) ∪ cN (w * 1408 + 32 * j - 4096) = nDone w (w * 1408 + 32 * j + 32) := by
  ext x
  have hx : (x 0).val < 40960 := (x 0).isLt
  simp only [nSet, cN, nRem, nDone, Finset.mem_filter, Finset.mem_univ, _root_.true_and, Finset.mem_sdiff, Finset.mem_union]
  omega
theorem nDone_disjoint_cN (w r : ℕ) (hr : 4096 ≤ r) : Disjoint (nDone w r) (cN (r - 4096)) := by
  rw [Finset.disjoint_left]
  intro x h1 h2
  have hx : (x 0).val < 40960 := (x 0).isLt
  simp only [nSet, cN, nRem, nDone, Finset.mem_filter, Finset.mem_univ, _root_.true_and, Finset.mem_sdiff, Finset.mem_union] at h1 h2
  omega
/-- Before row 4096 the second result's rows do not move. -/
theorem nRem_of_lt (w r r' : ℕ) (hr : r ≤ 4096) (hr' : r' ≤ 4096) : nRem w r = nRem w r' := by
  ext x
  have hx : (x 0).val < 40960 := (x 0).isLt
  simp only [nSet, cN, nRem, nDone, Finset.mem_filter, Finset.mem_univ, _root_.true_and, Finset.mem_sdiff, Finset.mem_union]
  omega
theorem nDone_of_lt (w r r' : ℕ) (hr : r ≤ 4096) (hr' : r' ≤ 4096) : nDone w r = nDone w r' := by
  ext x
  have hx : (x 0).val < 40960 := (x 0).isLt
  simp only [nSet, cN, nRem, nDone, Finset.mem_filter, Finset.mem_univ, _root_.true_and, Finset.mem_sdiff, Finset.mem_union]
  omega
/-- At the worker's first row everything is unwritten; past its last, written. -/
theorem tRem_base (w : ℕ) : tRem w (w * 1408) = tSet w := by
  ext x
  have hx : (x 0).val < 4096 := (x 0).isLt
  simp only [tSet, cT, tRem, tDone, Finset.mem_filter, Finset.mem_univ, _root_.true_and, Finset.mem_sdiff, Finset.mem_union]
  omega
theorem nRem_base (w : ℕ) : nRem w (w * 1408) = nSet w := by
  ext x
  have hx : (x 0).val < 40960 := (x 0).isLt
  simp only [nSet, cN, nRem, nDone, Finset.mem_filter, Finset.mem_univ, _root_.true_and, Finset.mem_sdiff, Finset.mem_union]
  omega
theorem tDone_base (w r : ℕ) (hr : r ≤ w * 1408) : tDone w r = ∅ := by
  ext x
  have hx : (x 0).val < 4096 := (x 0).isLt
  simp only [tSet, cT, tRem, tDone, Finset.mem_filter, Finset.mem_univ, _root_.true_and, Finset.mem_sdiff, Finset.mem_union, Finset.notMem_empty, iff_false]
  omega
theorem nDone_base (w r : ℕ) (hr : r ≤ w * 1408) : nDone w r = ∅ := by
  ext x
  have hx : (x 0).val < 40960 := (x 0).isLt
  simp only [nSet, cN, nRem, nDone, Finset.mem_filter, Finset.mem_univ, _root_.true_and, Finset.mem_sdiff, Finset.mem_union, Finset.notMem_empty, iff_false]
  omega
theorem tRem_last (w r : ℕ) (hr : w * 1408 + 1408 ≤ r) : tRem w r = ∅ := by
  ext x
  have hx : (x 0).val < 4096 := (x 0).isLt
  simp only [tSet, cT, tRem, tDone, Finset.mem_filter, Finset.mem_univ, _root_.true_and, Finset.mem_sdiff, Finset.mem_union, Finset.notMem_empty, iff_false]
  omega
theorem nRem_last (w r : ℕ) (hr : w * 1408 + 1408 ≤ r) : nRem w r = ∅ := by
  ext x
  have hx : (x 0).val < 40960 := (x 0).isLt
  simp only [nSet, cN, nRem, nDone, Finset.mem_filter, Finset.mem_univ, _root_.true_and, Finset.mem_sdiff, Finset.mem_union, Finset.notMem_empty, iff_false]
  omega
theorem tDone_last (w r : ℕ) (hr : w * 1408 + 1408 ≤ r) : tDone w r = tSet w := by
  ext x
  have hx : (x 0).val < 4096 := (x 0).isLt
  simp only [tSet, cT, tRem, tDone, Finset.mem_filter, Finset.mem_univ, _root_.true_and, Finset.mem_sdiff, Finset.mem_union]
  omega
theorem nDone_last (w r : ℕ) (hr : w * 1408 + 1408 ≤ r) : nDone w r = nSet w := by
  ext x
  have hx : (x 0).val < 40960 := (x 0).isLt
  simp only [nSet, cN, nRem, nDone, Finset.mem_filter, Finset.mem_univ, _root_.true_and, Finset.mem_sdiff, Finset.mem_union]
  omega

/-- The worker's first row, two ways. -/
theorem base_eq : base L = wL L * 1408 := by
  show 2816 * (L 1).val + 1408 * (L 0).val = ((L 1).val * 2 + (L 0).val) * 1408
  omega

end Sets

end Cert.KernelIdeal.Tile
end
-- ==== Proof.TileVals.lean ====
/-
  Pure facts about the values a worker leaves: a chunk's values from what its buffers hold, and the sums of squares one
  chunk at a time.
-/
import proofs.«213116_g69346541961480_cont_9to1_m_612_34_alg».proof.Proof.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

/-! ## Values -/

section Values
variable [FloatOps F] (d : Dev nD)

/-- A chunk's rows from its buffers: with the weights, the gathered self rows, the gathered neighbour rows and the bias as the
    chunk's lists say, the chunk's entry `(i, col)` is the result's entry `(r0 + i, col)`. -/
theorem rowOut_eq_E1 (r0 : ℕ) (h32 : 32 ∣ r0) (fal : S336.Idx → F .f32) (fself : S32x128.Idx → F .f32) (fnbr : S320x128.Idx → F .f32) (fb : S128.Idx → F .f32)
    (hal : ∀ x : S336.Idx, (x 0).val < 320 → fal x = alph I d r0 (x 0).val)
    (hself : ∀ x : S32x128.Idx, fself x = I.sp d (ixTab (selfIdx I d r0 (x 0).val).toNat (x 1).val))
    (hnbr : ∀ x : S320x128.Idx, fnbr x = I.ap d (ixTab (nbrIdx I d r0 (x 0).val).toNat (x 1).val))
    (hb : ∀ x : S128.Idx, fb x = I.b d x) (i col : ℕ) (hi : i < 32) (hc : col < 128) :
    rowOut fal fself fnbr fb i col = E1 I d (r0 + i) col := by
  obtain ⟨m, rfl⟩ := h32
  have x0 : ((ix32x128 i col) 0).val = i := mkIdx_val S32x128 (by decide) ![i, col] 0 hi
  have x1 : ((ix32x128 i col) 1).val = col := mkIdx_val S32x128 (by decide) ![i, col] 1 hc
  have a0 : ∀ t : Fin 10, ((ix336 (10 * i + t.val)) 0).val = 10 * i + t.val := fun t =>
    mkIdx_val S336 (by decide) ![10 * i + t.val] 0 (by show 10 * i + t.val < 336; have := t.isLt; omega)
  have n0 : ∀ t : Fin 10, ((ix320x128 (10 * i + t.val) col) 0).val = 10 * i + t.val := fun t =>
    mkIdx_val S320x128 (by decide) ![10 * i + t.val, col] 0 (by show 10 * i + t.val < 320; have := t.isLt; omega)
  have n1 : ∀ t : Fin 10, ((ix320x128 (10 * i + t.val) col) 1).val = col := fun t =>
    mkIdx_val S320x128 (by decide) ![10 * i + t.val, col] 1 hc
  have hS : fself (ix32x128 i col) = I.sp d (ixTab (selfIdx I d (32 * m) i).toNat col) := by rw [hself, x0, x1]
  have hA : ∀ t : Fin 10, fal (ix336 (10 * i + t.val)) = alph I d (32 * m) (10 * i + t.val) := fun t => by
    rw [hal _ (by rw [a0]; have := t.isLt; omega), a0]
  have hN : ∀ t : Fin 10, fnbr (ix320x128 (10 * i + t.val) col) = I.ap d (ixTab (nbrIdx I d (32 * m) (10 * i + t.val)).toNat col) := fun t => by
    rw [hnbr, n0, n1]
  unfold rowOut E1
  rw [hS, hb]
  simp only [hA, hN]
  unfold selfIdx nbrIdx alph
  by_cases h : 32 * m < 4096
  · have h' : 32 * m + i < 4096 := by omega
    have e : ∀ t : Fin 10, 32 * m * 10 + (10 * i + t.val) = (32 * m + i) * 10 + t.val := fun t => by omega
    simp only [if_pos h, if_pos h', e]
  · have h' : ¬ 32 * m + i < 4096 := by omega
    have e : ∀ t : Fin 10, (32 * m - 4096) * 10 + (10 * i + t.val) = (32 * m + i - 4096) * 10 + t.val := fun t => by omega
    have e2 : 32 * m - 4096 + i = 32 * m + i - 4096 := by omega
    simp only [if_neg h, if_neg h', e, e2]

/-- A fold of pointwise steps on 16-lane accumulators, read at a lane, is the fold of the steps at that lane. -/
theorem foldl_lane {β : Type} (g : β → ℕ → F .f32 → F .f32) (l : S16.Idx) :
    ∀ (xs : List β) (acc : FVec F S16 .f32),
      (xs.foldl (fun acc x => fun l' => g x (l' 0).val (acc l')) acc) l = xs.foldl (fun a x => g x (l 0).val a) (acc l)
  | [], _ => rfl
  | x :: xs, acc => by
    rw [List.foldl_cons, List.foldl_cons]
    exact foldl_lane g l xs _

/-- One row's squares added to the accumulator, at a lane. -/
theorem sqRowStep_lane (v : ℕ → F .f32) (acc : FVec F S16 .f32) (l : S16.Idx) :
    sqRowStep v acc l
      = (List.range 8).foldl (fun a c => FloatOps.addf a (FloatOps.mulf (v (16 * c + (l 0).val)) (v (16 * c + (l 0).val)))) (acc l) :=
  foldl_lane (fun c lane a => FloatOps.addf a (FloatOps.mulf (v (16 * c + lane)) (v (16 * c + lane)))) l (List.range 8) acc

/-- The rows' squares added one row after the other, at a lane. -/
theorem sqRows_lane (ro : ℕ → ℕ → F .f32) (l : S16.Idx) :
    ∀ (is : List ℕ) (acc : FVec F S16 .f32),
      (is.foldl (fun acc i => sqRowStep (ro i) acc) acc) l
        = is.foldl (fun a i => (List.range 8).foldl
            (fun a c => FloatOps.addf a (FloatOps.mulf (ro i (16 * c + (l 0).val)) (ro i (16 * c + (l 0).val)))) a) (acc l)
  | [], _ => rfl
  | i :: is, acc => by
    rw [List.foldl_cons, List.foldl_cons, sqRows_lane ro l is _, sqRowStep_lane]

/-- Two folds whose steps agree on the list's members agree. -/
theorem foldl_congr_mem {α β : Type} (f g : α → β → α) : ∀ (xs : List β) (a : α), (∀ a, ∀ x ∈ xs, f a x = g a x) → xs.foldl f a = xs.foldl g a
  | [], _, _ => rfl
  | x :: xs, a, h => by
    rw [List.foldl_cons, List.foldl_cons, h a x (List.mem_cons_self ..)]
    exact foldl_congr_mem f g xs _ fun a y hy => h a y (List.mem_cons_of_mem _ hy)

/-- The chunk's 16-lane sum of squares, lane by lane. -/
theorem sqAcc_eq_chunkSq (r0 : ℕ) (ro : ℕ → ℕ → F .f32) (hro : ∀ i col, i < 32 → col < 128 → ro i col = E1 I d (r0 + i) col) (l : S16.Idx) :
    sqAcc ro 32 l = chunkSq I d r0 (l 0).val := by
  have hl : (l 0).val < 16 := (l 0).isLt
  unfold sqAcc chunkSq
  rw [sqRows_lane]
  refine foldl_congr_mem _ _ _ _ fun a i hi => ?_
  have hi32 : i < 32 := List.mem_range.mp hi
  refine foldl_congr_mem _ _ _ _ fun a c hc => ?_
  have hc8 : c < 8 := List.mem_range.mp hc
  rw [hro i (16 * c + (l 0).val) hi32 (by omega)]

/-- One more chunk. -/
theorem tileSqUpto_succ (w n : ℕ) (tgt : Bool) (lane : ℕ) :
    tileSqUpto I d w (n + 1) tgt lane
      = if decide (w * 1408 + 32 * n < 4096) = tgt then FloatOps.addf (tileSqUpto I d w n tgt lane) (chunkSq I d (w * 1408 + 32 * n) lane)
        else tileSqUpto I d w n tgt lane := by
  unfold tileSqUpto
  rw [List.range_succ, List.foldl_append]
  rfl
theorem tileSqUpto_zero (w : ℕ) (tgt : Bool) (lane : ℕ) : tileSqUpto I d w 0 tgt lane = Scalar.ofBits .f32 0x00000000#32 := rfl
theorem tileSqUpto_all (w : ℕ) (tgt : Bool) (lane : ℕ) : tileSqUpto I d w 44 tgt lane = tileSq I d w tgt lane := rfl

/-- The indices of a chunk's lists name rows of the tables. -/
theorem selfIdx_lt (hpre : PreOK I) (r0 i : ℕ) : (selfIdx I d r0 i).toNat < 100000 := by
  unfold selfIdx
  split
  · exact (hpre d).1 _
  · exact (hpre d).2.1 _
theorem nbrIdx_lt (hpre : PreOK I) (r0 j : ℕ) : (nbrIdx I d r0 j).toNat < 100000 := by
  unfold nbrIdx
  split
  · exact (hpre d).2.1 _
  · exact (hpre d).2.2 _

end Values

end Cert.KernelIdeal.Tile
end
-- ==== Proof.TileRead.lean ====
/-
  What a transfer leaves in a vector subcore's buffers, read entry by entry: a copy of a window of an index or
  weight array holds the array's entries from the window's offset on; a copy into the first 320 places of a longer
  buffer holds its payload there; a gather holds, in row `i`, the table's row that the `i`-th word of its list names;
  and the two tables, addressed whole, are all of their entries.
-/
import proofs.«213116_g69346541961480_cont_9to1_m_612_34_alg».proof.Proof.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## A window of an index or weight array, copied -/

theorem read_nid32 (off : Fin 1 → ℕ) (inb : ∀ a, off a + S32.size a ≤ S4096.size a)
    (f : Buf (Elt F) ((m_nid).view.loc (thr d L))) (x : S32.Idx) :
    ReadAs.same.apply (((m_nid).slice (Rect.unit (s := S4096) off S32.size inb) (fun _ => rfl)).view.read (Elt F) f) x
      = f (ix4096 (off 0 + (x 0).val)) := by
  show f _ = f _
  refine congrArg f (funext fun a => Fin.ext ?_)
  match a with
  | ⟨0, _⟩ =>
    have h0 : off 0 + 32 ≤ 4096 := inb 0
    have hx : (x 0).val < 32 := (x 0).isLt
    show off 0 + 1 * (x 0).val = (off 0 + (x 0).val) % 4096
    rw [Nat.mod_eq_of_lt (by omega), Nat.one_mul]

theorem read_n1_32 (off : Fin 1 → ℕ) (inb : ∀ a, off a + S32.size a ≤ S40960.size a)
    (f : Buf (Elt F) ((m_n1).view.loc (thr d L))) (x : S32.Idx) :
    ReadAs.same.apply (((m_n1).slice (Rect.unit (s := S40960) off S32.size inb) (fun _ => rfl)).view.read (Elt F) f) x
      = f (ix40960 (off 0 + (x 0).val)) := by
  show f _ = f _
  refine congrArg f (funext fun a => Fin.ext ?_)
  match a with
  | ⟨0, _⟩ =>
    have h0 : off 0 + 32 ≤ 40960 := inb 0
    have hx : (x 0).val < 32 := (x 0).isLt
    show off 0 + 1 * (x 0).val = (off 0 + (x 0).val) % 40960
    rw [Nat.mod_eq_of_lt (by omega), Nat.one_mul]

theorem read_n1_320 (off : Fin 1 → ℕ) (inb : ∀ a, off a + S320.size a ≤ S40960.size a)
    (f : Buf (Elt F) ((m_n1).view.loc (thr d L))) (x : S320.Idx) :
    ReadAs.same.apply (((m_n1).slice (Rect.unit (s := S40960) off S320.size inb) (fun _ => rfl)).view.read (Elt F) f) x
      = f (ix40960 (off 0 + (x 0).val)) := by
  show f _ = f _
  refine congrArg f (funext fun a => Fin.ext ?_)
  match a with
  | ⟨0, _⟩ =>
    have h0 : off 0 + 320 ≤ 40960 := inb 0
    have hx : (x 0).val < 320 := (x 0).isLt
    show off 0 + 1 * (x 0).val = (off 0 + (x 0).val) % 40960
    rw [Nat.mod_eq_of_lt (by omega), Nat.one_mul]

theorem read_n2_320 (off : Fin 1 → ℕ) (inb : ∀ a, off a + S320.size a ≤ S409600.size a)
    (f : Buf (Elt F) ((m_n2).view.loc (thr d L))) (x : S320.Idx) :
    ReadAs.same.apply (((m_n2).slice (Rect.unit (s := S409600) off S320.size inb) (fun _ => rfl)).view.read (Elt F) f) x
      = f (ix409600 (off 0 + (x 0).val)) := by
  show f _ = f _
  refine congrArg f (funext fun a => Fin.ext ?_)
  match a with
  | ⟨0, _⟩ =>
    have h0 : off 0 + 320 ≤ 409600 := inb 0
    have hx : (x 0).val < 320 := (x 0).isLt
    show off 0 + 1 * (x 0).val = (off 0 + (x 0).val) % 409600
    rw [Nat.mod_eq_of_lt (by omega), Nat.one_mul]

theorem read_a1_320 (off : Fin 1 → ℕ) (inb : ∀ a, off a + S320.size a ≤ S40960.size a)
    (f : Buf (Elt F) ((m_a1).view.loc (thr d L))) (x : S320.Idx) :
    ReadAs.same.apply (((m_a1).slice (Rect.unit (s := S40960) off S320.size inb) (fun _ => rfl)).view.read (Elt F) f) x
      = f (ix40960 (off 0 + (x 0).val)) := by
  show f _ = f _
  refine congrArg f (funext fun a => Fin.ext ?_)
  match a with
  | ⟨0, _⟩ =>
    have h0 : off 0 + 320 ≤ 40960 := inb 0
    have hx : (x 0).val < 320 := (x 0).isLt
    show off 0 + 1 * (x 0).val = (off 0 + (x 0).val) % 40960
    rw [Nat.mod_eq_of_lt (by omega), Nat.one_mul]

theorem read_a2_320 (off : Fin 1 → ℕ) (inb : ∀ a, off a + S320.size a ≤ S409600.size a)
    (f : Buf (Elt F) ((m_a2).view.loc (thr d L))) (x : S320.Idx) :
    ReadAs.same.apply (((m_a2).slice (Rect.unit (s := S409600) off S320.size inb) (fun _ => rfl)).view.read (Elt F) f) x
      = f (ix409600 (off 0 + (x 0).val)) := by
  show f _ = f _
  refine congrArg f (funext fun a => Fin.ext ?_)
  match a with
  | ⟨0, _⟩ =>
    have h0 : off 0 + 320 ≤ 409600 := inb 0
    have hx : (x 0).val < 320 := (x 0).isLt
    show off 0 + 1 * (x 0).val = (off 0 + (x 0).val) % 409600
    rw [Nat.mod_eq_of_lt (by omega), Nat.one_mul]

/-! ## A copy into the head of a longer buffer -/

theorem writes_s4 (f : Buf (Elt F) ((s_4).view.loc (thr d L))) (w : S320.Idx → F .f32) (x : S336.Idx)
    (hx : (x 0).val < 320) :
    (s_4).view.writes (Elt F) f [⟨Rect.unit (s := S336) ![0] S320.size inb_S336_S320_0, w⟩] x
      = w (mkIdx S320 (by decide) ![(x 0).val]) := by
  have hx' : (Rect.unit (s := S336) ![0] S320.size inb_S336_S320_0).emb (mkIdx S320 (by decide) ![(x 0).val]) = x := by
    funext a
    apply Fin.ext
    match a with
    | ⟨0, _⟩ =>
      show 0 + 1 * ((x 0).val % 320) = (x 0).val
      rw [Nat.mod_eq_of_lt hx]; omega
  have h := View.read_writes_cons_emb (s_4).view f (Rect.unit (s := S336) ![0] S320.size inb_S336_S320_0) w []
    (mkIdx S320 (by decide) ![(x 0).val])
  rw [hx'] at h
  exact h

theorem writes_s5 (f : Buf (Elt F) ((s_5).view.loc (thr d L))) (w : S320.Idx → F .f32) (x : S336.Idx)
    (hx : (x 0).val < 320) :
    (s_5).view.writes (Elt F) f [⟨Rect.unit (s := S336) ![0] S320.size inb_S336_S320_0, w⟩] x
      = w (mkIdx S320 (by decide) ![(x 0).val]) := by
  have hx' : (Rect.unit (s := S336) ![0] S320.size inb_S336_S320_0).emb (mkIdx S320 (by decide) ![(x 0).val]) = x := by
    funext a
    apply Fin.ext
    match a with
    | ⟨0, _⟩ =>
      show 0 + 1 * ((x 0).val % 320) = (x 0).val
      rw [Nat.mod_eq_of_lt hx]; omega
  have h := View.read_writes_cons_emb (s_5).view f (Rect.unit (s := S336) ![0] S320.size inb_S336_S320_0) w []
    (mkIdx S320 (by decide) ![(x 0).val])
  rw [hx'] at h
  exact h

/-! ## A gather's rows -/

theorem gather_sp0 (fs : Buf (Elt F) ((spSl).view.loc (thr d L))) (g : Buf (Elt F) ((s_0).view.loc (thr d L)))
    (hn : S32.numel = S32x128.size gathers_S100000x128_S32x128.axis')
    (hin : ∀ x, ((s_0).view.read (Elt F) g x).toNat < S100000x128.size gathers_S100000x128_S32x128.axis) (x : S32x128.Idx) :
    SparseCore.gatherPayload gathers_S100000x128_S32x128 ((spSl).view.read (Elt F) fs)
        (SparseCore.rows ((s_0).view.read (Elt F) g) hn hin) x
      = fs (ixTab (g (mkIdx S32 (by decide) ![(x 0).val])).toNat (x 1).val) := by
  have hx0 : (x 0).val < 32 := (x 0).isLt
  have hx1 : (x 1).val < 128 := (x 1).isLt
  have hk : S32.rowMajor.symm (((x gathers_S100000x128_S32x128.axis') : Fin (S32x128.size gathers_S100000x128_S32x128.axis')).cast hn.symm)
      = mkIdx S32 (by decide) ![(x 0).val] := by
    rw [Equiv.symm_apply_eq]
    apply Fin.ext
    rw [Shape.rowMajor_val_one]
    show (x 0).val = (x 0).val % 32
    rw [Nat.mod_eq_of_lt hx0]
  have hlt : (g (mkIdx S32 (by decide) ![(x 0).val])).toNat < 100000 := hin (mkIdx S32 (by decide) ![(x 0).val])
  unfold SparseCore.gatherPayload
  show fs _ = fs _
  refine congrArg fs (funext fun a => Fin.ext ?_)
  match a with
  | ⟨0, _⟩ =>
    have e0 := Shape.Gathers.idx_axis gathers_S100000x128_S32x128 (SparseCore.rows ((s_0).view.read (Elt F) g) hn hin) x
    show 0 + 1 * ((gathers_S100000x128_S32x128.idx (SparseCore.rows ((s_0).view.read (Elt F) g) hn hin) x) gathers_S100000x128_S32x128.axis).val
      = (g (mkIdx S32 (by decide) ![(x 0).val])).toNat % 100000
    rw [e0, Nat.mod_eq_of_lt hlt, Nat.zero_add, Nat.one_mul]
    show (g (S32.rowMajor.symm (((x gathers_S100000x128_S32x128.axis') : Fin (S32x128.size gathers_S100000x128_S32x128.axis')).cast hn.symm))).toNat = _
    rw [hk]
  | ⟨1, h1⟩ =>
    show 0 + 1 * ((gathers_S100000x128_S32x128.idx (SparseCore.rows ((s_0).view.read (Elt F) g) hn hin) x) ⟨1, h1⟩).val
      = (x 1).val % 128
    rw [Shape.Gathers.idx_of_ne gathers_S100000x128_S32x128 _ x ⟨1, h1⟩ Nat.one_ne_zero, Nat.mod_eq_of_lt hx1, Nat.zero_add, Nat.one_mul]
    rfl

theorem gather_sp1 (fs : Buf (Elt F) ((spSl).view.loc (thr d L))) (g : Buf (Elt F) ((s_1).view.loc (thr d L)))
    (hn : S32.numel = S32x128.size gathers_S100000x128_S32x128.axis')
    (hin : ∀ x, ((s_1).view.read (Elt F) g x).toNat < S100000x128.size gathers_S100000x128_S32x128.axis) (x : S32x128.Idx) :
    SparseCore.gatherPayload gathers_S100000x128_S32x128 ((spSl).view.read (Elt F) fs)
        (SparseCore.rows ((s_1).view.read (Elt F) g) hn hin) x
      = fs (ixTab (g (mkIdx S32 (by decide) ![(x 0).val])).toNat (x 1).val) := by
  have hx0 : (x 0).val < 32 := (x 0).isLt
  have hx1 : (x 1).val < 128 := (x 1).isLt
  have hk : S32.rowMajor.symm (((x gathers_S100000x128_S32x128.axis') : Fin (S32x128.size gathers_S100000x128_S32x128.axis')).cast hn.symm)
      = mkIdx S32 (by decide) ![(x 0).val] := by
    rw [Equiv.symm_apply_eq]
    apply Fin.ext
    rw [Shape.rowMajor_val_one]
    show (x 0).val = (x 0).val % 32
    rw [Nat.mod_eq_of_lt hx0]
  have hlt : (g (mkIdx S32 (by decide) ![(x 0).val])).toNat < 100000 := hin (mkIdx S32 (by decide) ![(x 0).val])
  unfold SparseCore.gatherPayload
  show fs _ = fs _
  refine congrArg fs (funext fun a => Fin.ext ?_)
  match a with
  | ⟨0, _⟩ =>
    have e0 := Shape.Gathers.idx_axis gathers_S100000x128_S32x128 (SparseCore.rows ((s_1).view.read (Elt F) g) hn hin) x
    show 0 + 1 * ((gathers_S100000x128_S32x128.idx (SparseCore.rows ((s_1).view.read (Elt F) g) hn hin) x) gathers_S100000x128_S32x128.axis).val
      = (g (mkIdx S32 (by decide) ![(x 0).val])).toNat % 100000
    rw [e0, Nat.mod_eq_of_lt hlt, Nat.zero_add, Nat.one_mul]
    show (g (S32.rowMajor.symm (((x gathers_S100000x128_S32x128.axis') : Fin (S32x128.size gathers_S100000x128_S32x128.axis')).cast hn.symm))).toNat = _
    rw [hk]
  | ⟨1, h1⟩ =>
    show 0 + 1 * ((gathers_S100000x128_S32x128.idx (SparseCore.rows ((s_1).view.read (Elt F) g) hn hin) x) ⟨1, h1⟩).val
      = (x 1).val % 128
    rw [Shape.Gathers.idx_of_ne gathers_S100000x128_S32x128 _ x ⟨1, h1⟩ Nat.one_ne_zero, Nat.mod_eq_of_lt hx1, Nat.zero_add, Nat.one_mul]
    rfl

theorem gather_ap2 (fs : Buf (Elt F) ((apSl).view.loc (thr d L))) (g : Buf (Elt F) ((s_2).view.loc (thr d L)))
    (hn : S320.numel = S320x128.size gathers_S100000x128_S320x128.axis')
    (hin : ∀ x, ((s_2).view.read (Elt F) g x).toNat < S100000x128.size gathers_S100000x128_S320x128.axis) (x : S320x128.Idx) :
    SparseCore.gatherPayload gathers_S100000x128_S320x128 ((apSl).view.read (Elt F) fs)
        (SparseCore.rows ((s_2).view.read (Elt F) g) hn hin) x
      = fs (ixTab (g (mkIdx S320 (by decide) ![(x 0).val])).toNat (x 1).val) := by
  have hx0 : (x 0).val < 320 := (x 0).isLt
  have hx1 : (x 1).val < 128 := (x 1).isLt
  have hk : S320.rowMajor.symm (((x gathers_S100000x128_S320x128.axis') : Fin (S320x128.size gathers_S100000x128_S320x128.axis')).cast hn.symm)
      = mkIdx S320 (by decide) ![(x 0).val] := by
    rw [Equiv.symm_apply_eq]
    apply Fin.ext
    rw [Shape.rowMajor_val_one]
    show (x 0).val = (x 0).val % 320
    rw [Nat.mod_eq_of_lt hx0]
  have hlt : (g (mkIdx S320 (by decide) ![(x 0).val])).toNat < 100000 := hin (mkIdx S320 (by decide) ![(x 0).val])
  unfold SparseCore.gatherPayload
  show fs _ = fs _
  refine congrArg fs (funext fun a => Fin.ext ?_)
  match a with
  | ⟨0, _⟩ =>
    have e0 := Shape.Gathers.idx_axis gathers_S100000x128_S320x128 (SparseCore.rows ((s_2).view.read (Elt F) g) hn hin) x
    show 0 + 1 * ((gathers_S100000x128_S320x128.idx (SparseCore.rows ((s_2).view.read (Elt F) g) hn hin) x) gathers_S100000x128_S320x128.axis).val
      = (g (mkIdx S320 (by decide) ![(x 0).val])).toNat % 100000
    rw [e0, Nat.mod_eq_of_lt hlt, Nat.zero_add, Nat.one_mul]
    show (g (S320.rowMajor.symm (((x gathers_S100000x128_S320x128.axis') : Fin (S320x128.size gathers_S100000x128_S320x128.axis')).cast hn.symm))).toNat = _
    rw [hk]
  | ⟨1, h1⟩ =>
    show 0 + 1 * ((gathers_S100000x128_S320x128.idx (SparseCore.rows ((s_2).view.read (Elt F) g) hn hin) x) ⟨1, h1⟩).val
      = (x 1).val % 128
    rw [Shape.Gathers.idx_of_ne gathers_S100000x128_S320x128 _ x ⟨1, h1⟩ Nat.one_ne_zero, Nat.mod_eq_of_lt hx1, Nat.zero_add, Nat.one_mul]
    rfl

theorem gather_ap3 (fs : Buf (Elt F) ((apSl).view.loc (thr d L))) (g : Buf (Elt F) ((s_3).view.loc (thr d L)))
    (hn : S320.numel = S320x128.size gathers_S100000x128_S320x128.axis')
    (hin : ∀ x, ((s_3).view.read (Elt F) g x).toNat < S100000x128.size gathers_S100000x128_S320x128.axis) (x : S320x128.Idx) :
    SparseCore.gatherPayload gathers_S100000x128_S320x128 ((apSl).view.read (Elt F) fs)
        (SparseCore.rows ((s_3).view.read (Elt F) g) hn hin) x
      = fs (ixTab (g (mkIdx S320 (by decide) ![(x 0).val])).toNat (x 1).val) := by
  have hx0 : (x 0).val < 320 := (x 0).isLt
  have hx1 : (x 1).val < 128 := (x 1).isLt
  have hk : S320.rowMajor.symm (((x gathers_S100000x128_S320x128.axis') : Fin (S320x128.size gathers_S100000x128_S320x128.axis')).cast hn.symm)
      = mkIdx S320 (by decide) ![(x 0).val] := by
    rw [Equiv.symm_apply_eq]
    apply Fin.ext
    rw [Shape.rowMajor_val_one]
    show (x 0).val = (x 0).val % 320
    rw [Nat.mod_eq_of_lt hx0]
  have hlt : (g (mkIdx S320 (by decide) ![(x 0).val])).toNat < 100000 := hin (mkIdx S320 (by decide) ![(x 0).val])
  unfold SparseCore.gatherPayload
  show fs _ = fs _
  refine congrArg fs (funext fun a => Fin.ext ?_)
  match a with
  | ⟨0, _⟩ =>
    have e0 := Shape.Gathers.idx_axis gathers_S100000x128_S320x128 (SparseCore.rows ((s_3).view.read (Elt F) g) hn hin) x
    show 0 + 1 * ((gathers_S100000x128_S320x128.idx (SparseCore.rows ((s_3).view.read (Elt F) g) hn hin) x) gathers_S100000x128_S320x128.axis).val
      = (g (mkIdx S320 (by decide) ![(x 0).val])).toNat % 100000
    rw [e0, Nat.mod_eq_of_lt hlt, Nat.zero_add, Nat.one_mul]
    show (g (S320.rowMajor.symm (((x gathers_S100000x128_S320x128.axis') : Fin (S320x128.size gathers_S100000x128_S320x128.axis')).cast hn.symm))).toNat = _
    rw [hk]
  | ⟨1, h1⟩ =>
    show 0 + 1 * ((gathers_S100000x128_S320x128.idx (SparseCore.rows ((s_3).view.read (Elt F) g) hn hin) x) ⟨1, h1⟩).val
      = (x 1).val % 128
    rw [Shape.Gathers.idx_of_ne gathers_S100000x128_S320x128 _ x ⟨1, h1⟩ Nat.one_ne_zero, Nat.mod_eq_of_lt hx1, Nat.zero_add, Nat.one_mul]
    rfl

/-! ## Whole-buffer landings and the tables' entry sets -/

/-- A whole-buffer landing replaces the contents. -/
theorem landing_s6 (f P : Buf (Elt F) ((s_6).view.loc (thr d L))) :
    (s_6).view.write (Elt F) f P Finset.univ = P :=
  View.write_whole_univ cc1_scratch6 f P

theorem landing_s6_writes (f : Buf (Elt F) ((s_6).view.loc (thr d L))) (P : (Rect.whole S32x128).shape.Idx → F .f32) :
    (s_6).view.writes (Elt F) f [⟨Rect.whole S32x128, P⟩] = P := by
  funext i
  have h := View.write_emb_of_mem (v := (s_6).view.slice (Rect.whole S32x128)) f P (Finset.mem_univ i)
  have he : ((s_6).view.slice (Rect.whole S32x128)).emb i = i := by
    show (Rect.whole S32x128).emb i = i
    exact Rect.emb_whole_apply S32x128 i
  rw [he] at h
  exact h

/-- A whole-buffer landing replaces the contents. -/
theorem landing_s7 (f P : Buf (Elt F) ((s_7).view.loc (thr d L))) :
    (s_7).view.write (Elt F) f P Finset.univ = P :=
  View.write_whole_univ cc1_scratch7 f P

theorem landing_s7_writes (f : Buf (Elt F) ((s_7).view.loc (thr d L))) (P : (Rect.whole S32x128).shape.Idx → F .f32) :
    (s_7).view.writes (Elt F) f [⟨Rect.whole S32x128, P⟩] = P := by
  funext i
  have h := View.write_emb_of_mem (v := (s_7).view.slice (Rect.whole S32x128)) f P (Finset.mem_univ i)
  have he : ((s_7).view.slice (Rect.whole S32x128)).emb i = i := by
    show (Rect.whole S32x128).emb i = i
    exact Rect.emb_whole_apply S32x128 i
  rw [he] at h
  exact h

/-- A whole-buffer landing replaces the contents. -/
theorem landing_s8 (f P : Buf (Elt F) ((s_8).view.loc (thr d L))) :
    (s_8).view.write (Elt F) f P Finset.univ = P :=
  View.write_whole_univ cc1_scratch8 f P

theorem landing_s8_writes (f : Buf (Elt F) ((s_8).view.loc (thr d L))) (P : (Rect.whole S320x128).shape.Idx → F .f32) :
    (s_8).view.writes (Elt F) f [⟨Rect.whole S320x128, P⟩] = P := by
  funext i
  have h := View.write_emb_of_mem (v := (s_8).view.slice (Rect.whole S320x128)) f P (Finset.mem_univ i)
  have he : ((s_8).view.slice (Rect.whole S320x128)).emb i = i := by
    show (Rect.whole S320x128).emb i = i
    exact Rect.emb_whole_apply S320x128 i
  rw [he] at h
  exact h

/-- A whole-buffer landing replaces the contents. -/
theorem landing_s9 (f P : Buf (Elt F) ((s_9).view.loc (thr d L))) :
    (s_9).view.write (Elt F) f P Finset.univ = P :=
  View.write_whole_univ cc1_scratch9 f P

theorem landing_s9_writes (f : Buf (Elt F) ((s_9).view.loc (thr d L))) (P : (Rect.whole S320x128).shape.Idx → F .f32) :
    (s_9).view.writes (Elt F) f [⟨Rect.whole S320x128, P⟩] = P := by
  funext i
  have h := View.write_emb_of_mem (v := (s_9).view.slice (Rect.whole S320x128)) f P (Finset.mem_univ i)
  have he : ((s_9).view.slice (Rect.whole S320x128)).emb i = i := by
    show (Rect.whole S320x128).emb i = i
    exact Rect.emb_whole_apply S320x128 i
  rw [he] at h
  exact h

/-- A whole-buffer landing replaces the contents. -/
theorem landing_s0 (f P : Buf (Elt F) ((s_0).view.loc (thr d L))) :
    (s_0).view.write (Elt F) f P Finset.univ = P :=
  View.write_whole_univ cc1_scratch0 f P

theorem landing_s0_writes (f : Buf (Elt F) ((s_0).view.loc (thr d L))) (P : (Rect.whole S32).shape.Idx → BitVec 32) :
    (s_0).view.writes (Elt F) f [⟨Rect.whole S32, P⟩] = P := by
  funext i
  have h := View.write_emb_of_mem (v := (s_0).view.slice (Rect.whole S32)) f P (Finset.mem_univ i)
  have he : ((s_0).view.slice (Rect.whole S32)).emb i = i := by
    show (Rect.whole S32).emb i = i
    exact Rect.emb_whole_apply S32 i
  rw [he] at h
  exact h

theorem spSl_set : (spSl).view.set = Finset.univ := by
  show ((View.whole main_v4_0_scv).slice _).set = _
  rw [View.set_slice_whole]
  exact Rect.set_eq_univ_of_whole _ fun a => ⟨by
    match a with
    | ⟨0, _⟩ => rfl
    | ⟨1, _⟩ => rfl, rfl, rfl⟩

theorem apSl_set : (apSl).view.set = Finset.univ := by
  show ((View.whole main_v4_1_scv).slice _).set = _
  rw [View.set_slice_whole]
  exact Rect.set_eq_univ_of_whole _ fun a => ⟨by
    match a with
    | ⟨0, _⟩ => rfl
    | ⟨1, _⟩ => rfl, rfl, rfl⟩

end Tile
end Cert.KernelIdeal.Tile
end
-- ==== Proof.TileTripAT0.lean ====
/-
  The first half of a pair of target chunks on a vector subcore, the first pair.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem at0_v43_of_eq : ∀ k : Fin k1_t1_loop.trips, k.val = 0 →
    ¬ Scalar.cmpi .ne (Scalar.extui (Scalar.xori (Scalar.cmpi .eq (Scf.iv 0#32 1#32 k) 0#32) 1#1) : BitVec 32) 0#32 = 1#1 := by decide +kernel

/-! ## The sums of squares after a target chunk, and the flights a run leaves -/

theorem at0_sq13 (fsq : Buf (Elt F) ((s_13).view.loc (thr d L))) (acc : FVec F S16 .f32) (w n : ℕ)
    (hfsq : ∀ x : S2x16.Idx, fsq x = tileSqUpto I d w n (decide ((x 0).val = 0)) (x 1).val)
    (ht : w * 1408 + 32 * n < 4096)
    (hacc : ∀ l : S16.Idx, acc l = chunkSq I d (w * 1408 + 32 * n) (l 0).val) (x : S2x16.Idx) :
    (s_13).view.writes (Elt F) fsq [⟨Rect.unit (s := S2x16) ![0, 0] S1x16.size inb_S2x16_S1x16_0_0,
        k1_pay113 acc ((s_13).view.readAt (Elt F) (Rect.unit (s := S2x16) ![0, 0] S1x16.size inb_S2x16_S1x16_0_0).toLoadRect fsq)⟩] x
      = tileSqUpto I d w (n + 1) (decide ((x 0).val = 0)) (x 1).val := by
  have hx0 : (x 0).val < 2 := (x 0).isLt
  have hx1 : (x 1).val < 16 := (x 1).isLt
  rw [tileSqUpto_succ]
  by_cases h0 : (x 0).val = 0
  · have ex : (Rect.unit (s := S2x16) ![0, 0] S1x16.size inb_S2x16_S1x16_0_0).emb (ValueIdx.ix2 (0 : Fin 1) (x 1)) = x := by
      funext a
      match a with
      | ⟨0, _⟩ => apply Fin.ext; show 0 + 1 * 0 = (x 0).val; omega
      | ⟨1, _⟩ => apply Fin.ext; show 0 + 1 * (x 1).val = (x 1).val; omega
    have hr := View.read_writes_cons_emb (s_13).view fsq (Rect.unit (s := S2x16) ![0, 0] S1x16.size inb_S2x16_S1x16_0_0)
      (k1_pay113 acc ((s_13).view.readAt (Elt F) (Rect.unit (s := S2x16) ![0, 0] S1x16.size inb_S2x16_S1x16_0_0).toLoadRect fsq)) []
      (ValueIdx.ix2 (0 : Fin 1) (x 1))
    rw [ex] at hr
    refine (show _ = _ from hr).trans ?_
    unfold k1_pay113
    refine (ValueIdx.shapeCast_a_1a_apply (a := 16) _ shapeCasts_S16_S1x16 (0 : Fin 1) (x 1)).trans ?_
    show FloatOps.addf (shapeCast S16 ((s_13).view.readAt (Elt F) (Rect.unit (s := S2x16) ![0, 0] S1x16.size inb_S2x16_S1x16_0_0).toLoadRect fsq) shapeCasts_S1x16_S16 (ValueIdx.ix1 (x 1)))
      (acc (ValueIdx.ix1 (x 1))) = _
    rw [ValueIdx.shapeCast_1a_a_apply (a := 16) _ shapeCasts_S1x16_S16 (x 1), hacc]
    have hv : (s_13).view.readAt (Elt F) (Rect.unit (s := S2x16) ![0, 0] S1x16.size inb_S2x16_S1x16_0_0).toLoadRect fsq (ValueIdx.ix2 (0 : Fin 1) (x 1)) = fsq x := by
      show fsq ((Rect.unit (s := S2x16) ![0, 0] S1x16.size inb_S2x16_S1x16_0_0).emb (ValueIdx.ix2 (0 : Fin 1) (x 1))) = fsq x
      rw [ex]
    rw [hv, hfsq, if_pos (by rw [decide_eq_true ht, decide_eq_true h0])]
  · have hne : ∀ p ∈ ([⟨Rect.unit (s := S2x16) ![0, 0] S1x16.size inb_S2x16_S1x16_0_0,
        k1_pay113 acc ((s_13).view.readAt (Elt F) (Rect.unit (s := S2x16) ![0, 0] S1x16.size inb_S2x16_S1x16_0_0).toLoadRect fsq)⟩] : List (View.Piece (Elt F) S2x16 .f32)),
        x ∉ p.1.set := by
      intro p hp
      rw [List.mem_singleton] at hp
      subst hp
      rw [Rect.mem_set_unit]
      intro h
      have := h 0
      simp only [Matrix.cons_val_zero] at this
      omega
    have hr := View.read_writes_apply_of_forall_not_mem (s_13).view fsq x _ hne
    refine (show _ = _ from hr).trans ?_
    show fsq x = _
    rw [hfsq, if_neg (by rw [decide_eq_true ht, decide_eq_false h0]; decide)]

theorem at0_FlS1_of (r0 : ℕ) (f7 : Buf (Elt F) ((s_7).view.loc (thr d L))) (g1 : Buf (Elt F) ((s_1).view.loc (thr d L)))
    (P : (Rect.whole S32x128).shape.Idx → F .f32)
    (hg : ∀ x : S32.Idx, g1 x = selfIdx I d r0 (x 0).val)
    (hP : ∀ x : S32x128.Idx, P x = I.sp d (ixTab (g1 (mkIdx S32 (by decide) ![(x 0).val])).toNat (x 1).val)) :
    (Transfers.Flight countersEmb (thr d L) (SemLoc.dma cc1_scratch16.sem) default 131072
      iprop((((s_7).view.loc (thr d L) ↦{fullShare} (s_7).view.writes (Elt F) f7 [⟨Rect.whole S32x128, P⟩]) ∗ ((s_1).view.loc (thr d L) ↦{fullShare} g1))
        ∗ ((m_sp).view.loc (thr d L) ↦[(spSl).view.set]{Transfers.shareTokN (rsh (wL L)) 14} I.sp d)) : sProp 𝕄)
      ⊢ FlS1 I d L r0 := by
  unfold FlS1
  refine Transfers.Flight_mono countersEmb (thr d L) ?_
  iintro ⟨⟨H7, H1⟩, Hsp⟩
  iexists ((s_7).view.writes (Elt F) f7 [⟨Rect.whole S32x128, P⟩]), g1
  isplitr
  · ipureintro
    refine ⟨hg, fun x => ?_⟩
    rw [landing_s7_writes d L, hP, hg, mkIdx_val S32 (by decide) ![(x 0).val] 0 (x 0).isLt]
    rfl
  isplitl [H7]; · iexact H7
  isplitl [H1]; · iexact H1
  iexact Hsp

theorem at0_FlN1_of (r0 : ℕ) (f9 : Buf (Elt F) ((s_9).view.loc (thr d L))) (g3 : Buf (Elt F) ((s_3).view.loc (thr d L)))
    (P : (Rect.whole S320x128).shape.Idx → F .f32)
    (hg : ∀ x : S320.Idx, g3 x = nbrIdx I d r0 (x 0).val)
    (hP : ∀ x : S320x128.Idx, P x = I.ap d (ixTab (g3 (mkIdx S320 (by decide) ![(x 0).val])).toNat (x 1).val)) :
    (Transfers.Flight countersEmb (thr d L) (SemLoc.dma cc1_scratch17.sem) default 1310720
      iprop((((s_9).view.loc (thr d L) ↦{fullShare} (s_9).view.writes (Elt F) f9 [⟨Rect.whole S320x128, P⟩]) ∗ ((s_3).view.loc (thr d L) ↦{fullShare} g3))
        ∗ ((m_ap).view.loc (thr d L) ↦[(apSl).view.set]{Transfers.shareTokN (rsh (wL L)) 15} I.ap d)) : sProp 𝕄)
      ⊢ FlN1 I d L r0 := by
  unfold FlN1
  refine Transfers.Flight_mono countersEmb (thr d L) ?_
  iintro ⟨⟨H9, H3⟩, Hap⟩
  iexists ((s_9).view.writes (Elt F) f9 [⟨Rect.whole S320x128, P⟩]), g3
  isplitr
  · ipureintro
    refine ⟨hg, fun x => ?_⟩
    rw [landing_s9_writes d L, hP, hg, mkIdx_val S320 (by decide) ![(x 0).val] 0 (x 0).isLt]
    rfl
  isplitl [H9]; · iexact H9
  isplitl [H3]; · iexact H3
  iexact Hap

theorem at0_FlW0_of (r0 : ℕ) (hr0 : r0 < 4096) (off : Fin 2 → ℕ) (inb : ∀ a, off a + S32x128.size a ≤ S4096x128.size a)
    (h0 : off 0 = r0) (h1 : off 1 = 0) (ft : Buf (Elt F) ((m_e1t).view.loc (thr d L))) (fo : Buf (Elt F) ((s_10).view.loc (thr d L)))
    (P : (Rect.whole (Rect.unit (s := S4096x128) off S32x128.size inb).shape).shape.Idx → F .f32)
    (hP : ∀ y : S32x128.Idx, P y = E1 I d (r0 + (y 0).val) (y 1).val) :
    (Transfers.Flight countersEmb (thr d L) (SemLoc.dma cc1_scratch18.sem) default 131072
      iprop((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩])
        ∗ ((s_10).view.loc (thr d L) ↦[(s_10).view.set]{fullShare} fo)) : sProp 𝕄)
      ⊢ FlW0 I d L r0 := by
  have hEq : ((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩]) : sProp 𝕄)
      = ((m_e1t).view.loc (thr d L) ↦[cT r0]{fullShare} E1t I d) := by
    rw [set_e1t_slice off inb h1, h0]
    refine pointsTo_congr fun i hi => ?_
    unfold cT at hi
    rw [Finset.mem_filter] at hi
    obtain ⟨-, hlo, hhi⟩ := hi
    have hi1 : (i 1).val < 128 := (i 1).isLt
    let y : S32x128.Idx := ValueIdx.ix2 (⟨(i 0).val - r0, by omega⟩ : Fin 32) (⟨(i 1).val, hi1⟩ : Fin 128)
    have hy : ((m_e1t).slice (Rect.unit (s := S4096x128) off S32x128.size inb) (fun _ => rfl)).view.emb y = i := by
      funext a
      match a with
      | ⟨0, _⟩ => apply Fin.ext; show off 0 + 1 * ((i 0).val - r0) = (i 0).val; omega
      | ⟨1, _⟩ => apply Fin.ext; show off 1 + 1 * (i 1).val = (i 1).val; omega
    have hr := View.read_writes_cons_emb ((m_e1t).slice (Rect.unit (s := S4096x128) off S32x128.size inb) (fun _ => rfl)).view ft
      (Rect.whole (Rect.unit (s := S4096x128) off S32x128.size inb).shape) P [] y
    have hw : (Rect.whole (Rect.unit (s := S4096x128) off S32x128.size inb).shape).emb y = y := by
      funext a; apply Fin.ext
      show 0 + 1 * (y a).val = (y a).val
      omega
    rw [hw] at hr
    have hr2 : ((m_e1t).slice (Rect.unit (s := S4096x128) off S32x128.size inb) (fun _ => rfl)).view.writes (Elt F) ft
        [⟨Rect.whole (Rect.unit (s := S4096x128) off S32x128.size inb).shape, P⟩]
        (((m_e1t).slice (Rect.unit (s := S4096x128) off S32x128.size inb) (fun _ => rfl)).view.emb y) = P y := hr
    rw [hy] at hr2
    rw [hr2, hP]
    show E1 I d (r0 + ((i 0).val - r0)) (i 1).val = E1 I d (i 0).val (i 1).val
    rw [Nat.add_sub_cancel' hlo]
  unfold FlW0 outDone
  rw [if_pos hr0]
  refine Transfers.Flight_mono countersEmb (thr d L) ?_
  iintro ⟨Hd, Hs⟩
  isplitl [Hs]
  · iexists fo
    iapply (Entails.of_eq (show ((s_10).view.loc (thr d L) ↦[(s_10).view.set]{fullShare} fo : sProp 𝕄) = ((s_10).view.loc (thr d L) ↦{fullShare} fo) from by
      rw [show (s_10).view.set = Finset.univ from View.set_whole _]))
    iexact Hs
  · iapply (Entails.of_eq hEq)
    iexact Hd

set_option maxHeartbeats 4000000 in
theorem tripA_T0 (hpre : PreOK I) (O : CellTallies nD τ sig (HIx 1)) (W : Waits sig (HIx 1)) (k : Fin k1_t1_loop.trips) (hT : rA L k.val < 4096) (hk0 : k.val = 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hk22 : k.val < 22 := by omega
  have hb : rA L k.val + 32 < 4096 := by
    have h0 := (L 0).isLt; have h1 := (L 1).isLt
    simp only [show grid1.bound 0 = 2 from rfl, show grid1.bound 1 = 16 from rfl] at h0 h1
    unfold rA base at hT ⊢; omega
  unfold Inv
  have hOuts : Outs I d L k.val = Outs I d L 0 := by rw [hk0]
  rw [Set0_lt I d L hk22, hOuts, Outs_zero I d L]
  unfold Loaded0 Idle1 LoopRO Pieces FlS0 FlN0
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨⟨%f10, Hs10⟩, ⟨%f11, Hs11⟩, Hm18, Hm19⟩,
    ⟨⟨%ft, Het⟩, ⟨%fn, Hen⟩, Hdt, Hdn⟩⟩
  have c3 : k1_cond3 L k = 1#1 := (k1_cond3_iff L k).mpr (by unfold rA base at hb; omega)
  have c4 : ¬ k1_cond4 L k = 1#1 := fun h => by have := (k1_cond4_iff L k).mp h; unfold rA base at hb; omega
  have c6 : k1_cond6 L k = 1#1 := (k1_cond6_iff L k).mpr (by unfold rA base at hb; omega)
  have c7 : ¬ k1_cond7 L k = 1#1 := fun h => by have := (k1_cond7_iff L k).mp h; unfold rA base at hb; omega
  have hpair : rA L k.val + 64 ≤ 4096 := by
    have h0 := (L 0).isLt; have h1 := (L 1).isLt
    simp only [show grid1.bound 0 = 2 from rfl, show grid1.bound 1 = 16 from rfl] at h0 h1
    unfold rA base at hb ⊢; omega
  have hv43 := at0_v43_of_eq k hk0
  unfold tripA
  sl_exec
  -- the second chunk's lists, at their words
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      rw [View.write_whole_univ]
      unfold tripA_T0.sl.dma0
      show I.nid d _ = _
      unfold selfIdx
      rw [if_pos hb]
      refine congrArg (I.nid d) (funext fun (a : Fin 1) => ?_)
      have ha : a = 0 := Subsingleton.elim _ _
      subst ha
      apply Fin.ext
      have hx : (x 0).val < 32 := (x 0).isLt
      show (k1_off5 L k) 0 + 1 * (x 0).val = (rA L k.val + 32 + (x 0).val) % 4096
      rw [k1_off5_eq]
      unfold rA base at hpair ⊢
      simp only [Matrix.cons_val_zero]
      omega
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      rw [View.write_whole_univ]
      unfold tripA_T0.sl.dma0_1
      show I.n1 d _ = _
      unfold nbrIdx
      rw [if_pos hb]
      refine congrArg (I.n1 d) (funext fun (a : Fin 1) => ?_)
      have ha : a = 0 := Subsingleton.elim _ _
      subst ha
      apply Fin.ext
      have hx : (x 0).val < 320 := (x 0).isLt
      show (k1_off6 L k) 0 + 1 * (x 0).val = ((rA L k.val + 32) * 10 + (x 0).val) % 40960
      rw [k1_off6_eq]
      unfold rA base at hpair ⊢
      simp only [Matrix.cons_val_zero]
      omega
  icases Hs3' with ⟨%g3, Hs3, %hg3⟩
  ihave Hs5' : iprop(∃ g : Buf (Elt F) ((s_5).view.loc (thr d L)), ((s_5).view.loc (thr d L) ↦{fullShare} g) ∗ ⌜∀ x : S336.Idx, (x 0).val < 320 → g x = alph I d (rA L k.val + 32) (x 0).val⌝) $$ [Hs5]
  · iexists _
    isplitl [Hs5]
    · iexact Hs5
    · ipureintro
      intro x hx
      have hx' : ((mkIdx S320 (by decide) ![(x 0).val] : S320.Idx) 0).val = (x 0).val := Nat.mod_eq_of_lt hx
      have hxe : (Rect.unit (s := S336) ![0] S320.size inb_S336_S320_0).emb (mkIdx S320 (by decide) ![(x 0).val] : S320.Idx) = x := by
        funext (a : Fin 1)
        have ha : a = 0 := Subsingleton.elim _ _
        subst ha
        apply Fin.ext
        show 0 + 1 * ((mkIdx S320 (by decide) ![(x 0).val] : S320.Idx) 0).val = (x 0).val
        rw [hx']; omega
      have hw := View.read_writes_cons_emb (s_5).view f5 (Rect.unit (s := S336) ![0] S320.size inb_S336_S320_0) (tripA_T0.sl.dma0_2 I d L k c3) [] (mkIdx S320 (by decide) ![(x 0).val] : S320.Idx)
      rw [hxe] at hw
      refine hw.trans ?_
      unfold tripA_T0.sl.dma0_2
      show I.a1 d _ = _
      unfold alph
      rw [if_pos hb]
      refine congrArg (I.a1 d) (funext fun (a : Fin 1) => ?_)
      have ha : a = 0 := Subsingleton.elim _ _
      subst ha
      apply Fin.ext
      show (k1_off6 L k) 0 + 1 * ((mkIdx S320 (by decide) ![(x 0).val] : S320.Idx) 0).val = ((rA L k.val + 32) * 10 + (x 0).val) % 40960
      rw [k1_off6_eq, hx']
      unfold rA base at hpair ⊢
      simp only [Matrix.cons_val_zero]
      omega
  icases Hs5' with ⟨%fal1, Hs5, %hfal1⟩
  have hin1 : ∀ x, ((s_1).view.read (Elt F) g1 x).toNat < S100000x128.size (gathers_S100000x128_S32x128).axis := fun x => by
    show (g1 x).toNat < 100000
    rw [hg1]; exact selfIdx_lt I d hpre _ _
  have hin3 : ∀ x, ((s_3).view.read (Elt F) g3 x).toNat < S100000x128.size (gathers_S100000x128_S320x128).axis := fun x => by
    show (g3 x).toNat < 100000
    rw [hg3]; exact nbrIdx_lt I d hpre _ _
  sl_exec
  -- the first chunk's self rows land
  ihave Hw12 := (Transfers.MayWaits.elim (c := thr d L) (ι := (none : HIx 1)) (O := O) (SemLoc.dma cc1_scratch14.sem)) $$ Hmw
  iapply (Transfers.wp_waitLocalO countersEmb 𝒱₀ (thr d L) none (none : HIx 1) (N := 131072) rfl) $$ [Hm14 HO Hw12]
  · isplitl [Hm14]; · iexact Hm14
    isplitl [HO]; · iexact HO
    iexact Hw12
  iintro ⟨⟨%fs6, %g0, %hsp, Hs6, Hs0, Hsp0⟩, Hm14, HO⟩
  rw [wp_ret]; imodintro
  sl_exec
  -- the first chunk's neighbour rows land
  ihave Hw13 := (Transfers.MayWaits.elim (c := thr d L) (ι := (none : HIx 1)) (O := O) (SemLoc.dma cc1_scratch15.sem)) $$ Hmw
  iapply (Transfers.wp_waitLocalO countersEmb 𝒱₀ (thr d L) none (none : HIx 1) (N := 1310720) rfl) $$ [Hm15 HO Hw13]
  · isplitl [Hm15]; · iexact Hm15
    isplitl [HO]; · iexact HO
    iexact Hw13
  iintro ⟨⟨%fs8, %g2, %hap, Hs8, Hs2, Hap0⟩, Hm15, HO⟩
  rw [wp_ret]; imodintro
  sl_exec
  sl_for (RowInv0 d L fal fs6 fs8 fb) $$ [Hs4 Hs6 Hs8 Hs12 Hs10]
  case region => exact row_trip0 d L (v2 L) k fal fs6 fs8 fb
  · unfold RowInv0
    isplitl []
    · ipureintro; rfl
    isplitl [Hs4]; · iexact Hs4
    isplitl [Hs6]; · iexact Hs6
    isplitl [Hs8]; · iexact Hs8
    isplitl [Hs12]; · iexact Hs12
    iexists f10
    isplitl []
    · ipureintro; intro x hx; exact absurd hx (Nat.not_lt_zero _)
    iexact Hs10
  unfold RowInv0
  iintro %acc ⟨%hacc, Hs4, Hs6, Hs8, Hs12, ⟨%fo, %hfo, Hs10⟩⟩
  sl_exec
  -- the chunk's rows of the first result, carved out of the unwritten rows
  have hrA : wL L * 1408 + 32 * (2 * k.val) = rA L k.val := by rw [← base_eq L]; unfold rA; omega
  have hsub : cT (rA L k.val) ⊆ tRem (wL L) (rA L k.val) := by
    have h := cT_subset_tRem (wL L) (2 * k.val) (by omega) (by rw [hrA]; exact hT)
    rwa [hrA] at h
  have hoff0 : (k1_off26 L k) 0 = rA L k.val := by
    rw [k1_off26_eq]; unfold rA base; simp only [Matrix.cons_val_zero]
  have hoff1 : (k1_off26 L k) 1 = 0 := by
    rw [k1_off26_eq]; rfl
  have hset : ((m_e1t).slice (Rect.unit (s := S4096x128) (k1_off26 L k) S32x128.size (k1_off26_inb L k c6)) (fun _ => rfl)).view.set
      = cT (rA L k.val) := by
    rw [set_e1t_slice (k1_off26 L k) (k1_off26_inb L k c6) hoff1, hoff0]
  ihave Het2 := (pointsTo_split_subset (I := ((m_e1t).slice (Rect.unit (s := S4096x128) (k1_off26 L k) S32x128.size (k1_off26_inb L k c6)) (fun _ => rfl)).view.set)
    (hset ▸ hsub)).1 $$ Het
  icases Het2 with ⟨Hct, Het⟩
  ihave Hct := (show ((m_e1t).view.loc (thr d L) ↦[((m_e1t).slice (Rect.unit (s := S4096x128) (k1_off26 L k) S32x128.size (k1_off26_inb L k c6)) (fun _ => rfl)).view.set]{fullShare} ft : sProp 𝕄)
      ⊢ (((m_e1t).slice (Rect.unit (s := S4096x128) (k1_off26 L k) S32x128.size (k1_off26_inb L k c6)) (fun _ => rfl)).view.loc (thr d L) ↦[((m_e1t).slice (Rect.unit (s := S4096x128) (k1_off26 L k) S32x128.size (k1_off26_inb L k c6)) (fun _ => rfl)).view.set]{fullShare} ft) from .rfl) $$ Hct
  sl_exec
  rw [wp_ret]; imodintro
  have hOuts1 : Outs1 I d L k.val = Outs1 I d L 0 := by rw [hk0]
  unfold Mid
  rw [hOuts1, Outs1_zero I d L]
  unfold LoopRO Idle0 Loaded1
  isplitl []
  · ipureintro; rfl
  isplitl []
  · iexact Hmw
  isplitl [HO]
  · iexists _
    isplitl []
    pick_goal 2
    · iexact HO
    · ipureintro
      intro p hp
      rcases Finset.mem_insert.mp hp with rfl | hp
      · exact Or.inr rfl
      rcases Finset.mem_insert.mp hp with rfl | hp
      · exact Or.inr rfl
      rcases Finset.mem_insert.mp hp with rfl | hp
      · exact Or.inr rfl
      rcases Finset.mem_insert.mp hp with rfl | hp
      · exact Or.inr rfl
      rcases Finset.mem_insert.mp hp with rfl | hp
      · exact Or.inr rfl
      exact hW' p hp
  isplitl [Hnid Hn1 Hn2 Ha1 Ha2 Hr7 Hr8 Hr9 Hr10 Hr11 Hr12 Hr13 Hr14 Hr15 Hr16 Hr17 Hr18]
  · iframe
    isplitl [Hr7]; · iexact Hr7
    isplitl [Hr8]; · iexact Hr8
    iexact Hr9
  isplitl [Hs12]
  · iexists fb
    isplitl []
    · ipureintro; exact hfb
    iexact Hs12
  -- the values of the chunk's rows
  have h32 : Scf.trips k1_t2_loop.lb k1_t2_loop.ub k1_t2_loop.st = 32 := by decide
  have h32dvd : 32 ∣ rA L k.val := ⟨88 * (L 1).val + 44 * (L 0).val + 2 * k.val, by unfold rA base; omega⟩
  have hro : ∀ i col, i < 32 → col < 128 → rowOut fal fs6 fs8 fb i col = E1 I d (rA L k.val + i) col :=
    fun i col hi hc => rowOut_eq_E1 I d (rA L k.val) h32dvd fal fs6 fs8 fb hfal hsp.2 hap.2 hfb i col hi hc
  have haccL : ∀ l : S16.Idx, acc l = chunkSq I d (wL L * 1408 + 32 * (2 * k.val)) (l 0).val := fun l => by
    rw [hacc, h32, hrA]; exact sqAcc_eq_chunkSq I d (rA L k.val) (rowOut fal fs6 fs8 fb) hro l
  -- the sums of squares after this chunk
  isplitl [Hs13]
  · iexists _
    isplitl []
    pick_goal 2
    · iexact Hs13
    · ipureintro
      intro x
      exact at0_sq13 I d L fsq acc (wL L) (2 * k.val) hfsq (by rw [hrA]; exact hT) haccL x
  -- buffer set 0 at rest
  isplitl [Hs0 Hs2 Hs4 Hs6 Hs8 Hm14 Hm15 Hsp0 Hap0]
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0]
    · iapply (Entails.of_eq (show ((m_sp).view.loc (thr d L) ↦[(spSl).view.set]{Transfers.shareTokN (rsh (wL L)) 12} I.sp d : sProp 𝕄)
          = ((m_sp).view.loc (thr d L) ↦{Transfers.shareTokN (rsh (wL L)) 12} I.sp d) from by rw [spSl_set])) $$ Hsp0
    iapply (Entails.of_eq (show ((m_ap).view.loc (thr d L) ↦[(apSl).view.set]{Transfers.shareTokN (rsh (wL L)) 13} I.ap d : sProp 𝕄)
          = ((m_ap).view.loc (thr d L) ↦{Transfers.shareTokN (rsh (wL L)) 13} I.ap d) from by rw [apSl_set])) $$ Hap0
  -- buffer set 1 loaded with the pair's second chunk
  isplitl [Hs5 Hm16 Hm17]
  · isplitl [Hs5]
    · iexists fal1
      isplitl []
      · ipureintro; exact hfal1
      iexact Hs5
    isplitl [Hm16]
    · iapply (at0_FlS1_of I d L (rA L k.val + 32) f7 g1 (tripA_T0.sl.gather0 I d L g1 hin1) hg1 (fun x => by
        unfold tripA_T0.sl.gather0
        exact gather_sp1 d L (I.sp d) g1 _ hin1 x))
      iexact Hm16
    iapply (at0_FlN1_of I d L (rA L k.val + 32) f9 g3 (tripA_T0.sl.gather1 I d L g3 hin3) hg3 (fun x => by
        unfold tripA_T0.sl.gather1
        exact gather_ap3 d L (I.ap d) g3 _ hin3 x))
    iexact Hm17
  -- the chunk's copy-out under way
  isplitl [Hm18]
  · iapply (at0_FlW0_of I d L (rA L k.val) hT (k1_off26 L k) (k1_off26_inb L k c6) hoff0 hoff1 ft fo (tripA_T0.sl.dma0_3 d L fo) (fun y => by
      unfold tripA_T0.sl.dma0_3
      show fo y = _
      rw [hfo y (by rw [h32]; exact (y 0).isLt)]
      exact hro _ _ (y 0).isLt (y 1).isLt))
    iexact Hm18
  -- the second output buffer at rest
  isplitl [Hs11 Hm19]
  · isplitl [Hs11]; · iexists f11; iexact Hs11
    iexact Hm19
  -- the rows of the two results
  have hle64 : rA L k.val - 64 ≤ wL L * 1408 := by rw [← base_eq L]; unfold rA; omega
  have hle32 : rA L k.val - 32 ≤ wL L * 1408 := by rw [← base_eq L]; unfold rA; omega
  isplitl [Het]
  · iexists ft
    iapply (Entails.of_eq (show ((m_e1t).view.loc (thr d L) ↦[tRem (wL L) (rA L k.val) \ ((m_e1t).slice (Rect.unit (s := S4096x128) (k1_off26 L k) S32x128.size (k1_off26_inb L k c6)) (fun _ => rfl)).view.set]{fullShare} ft : sProp 𝕄)
        = ((m_e1t).view.loc (thr d L) ↦[tRem (wL L) (rA L k.val + 32)]{fullShare} ft) from by
      rw [hset, ← hrA, tRem_sdiff_cT (wL L) (2 * k.val) (by omega) (by rw [hrA]; exact hT)])) $$ Het
  isplitl [Hen]
  · iexists fn
    iapply (Entails.of_eq (show ((m_e1n).view.loc (thr d L) ↦[nRem (wL L) (rA L k.val)]{fullShare} fn : sProp 𝕄)
        = ((m_e1n).view.loc (thr d L) ↦[nRem (wL L) (rA L k.val + 32)]{fullShare} fn) from by
      rw [nRem_of_lt (wL L) (rA L k.val) (rA L k.val + 32) (by omega) (by omega)])) $$ Hen
  isplitl [Hdt]
  · iapply (Entails.of_eq (show ((m_e1t).view.loc (thr d L) ↦[tDone (wL L) (rA L k.val - 64)]{fullShare} E1t I d : sProp 𝕄)
        = ((m_e1t).view.loc (thr d L) ↦[tDone (wL L) (rA L k.val - 32)]{fullShare} E1t I d) from by
      rw [tDone_base (wL L) _ hle64, tDone_base (wL L) _ hle32])) $$ Hdt
  iapply (Entails.of_eq (show ((m_e1n).view.loc (thr d L) ↦[nDone (wL L) (rA L k.val - 64)]{fullShare} E1n I d : sProp 𝕄)
        = ((m_e1n).view.loc (thr d L) ↦[nDone (wL L) (rA L k.val - 32)]{fullShare} E1n I d) from by
      rw [nDone_base (wL L) _ hle64, nDone_base (wL L) _ hle32])) $$ Hdn

end Tile
end Cert.KernelIdeal.Tile
end
-- ==== Proof.TileTripATp.lean ====
/-
  The first half of a pair of target chunks on a vector subcore, a later pair.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

omit [FloatOps F] in
/-- The first row of pair `k`'s first chunk is the worker's chunk number `2 k`. -/
theorem tp_rA_chunk (L : grid1.Coords) (k : ℕ) : rA L k = wL L * 1408 + 32 * (2 * k) := by
  unfold rA; rw [base_eq]; omega

/-- The copy-out's destination: the first chunk's 32 rows of the first result, as the body slices them. -/
abbrev tpOutSl (L : grid1.Coords) (k : Fin k1_t1_loop.trips) (c6 : k1_cond6 L k = 1#1) : Memref sig .scVector .hbm S32x128 .f32 :=
  (m_e1t).slice (Rect.unit (s := S4096x128) (k1_off26 L k) S32x128.size (k1_off26_inb L k c6)) (fun _ => rfl)

omit [FloatOps F] in
theorem tp_outSl_set (L : grid1.Coords) (k : Fin k1_t1_loop.trips) (c6 : k1_cond6 L k = 1#1) : (tpOutSl L k c6).view.set = cT (rA L k.val) := by
  have h1 : (k1_off26 L k) 1 = 0 := by rw [k1_off26_eq]; rfl
  have h0 : (k1_off26 L k) 0 = rA L k.val := by rw [k1_off26_eq]; unfold rA base; rfl
  rw [← h0]
  exact set_e1t_slice (k1_off26 L k) (k1_off26_inb L k c6) h1

omit [FloatOps F] in
/-- The unwritten rows from a target chunk on: the chunk, and the rows from the next chunk on. -/
theorem tp_het_split (k : ℕ) (hk : k < 22) (hT : rA L k < 4096) (ft : Buf (Elt F) ((m_e1t).view.loc (thr d L))) :
    ((m_e1t).view.loc (thr d L) ↦[tRem (wL L) (rA L k)]{fullShare} ft : sProp 𝕄)
      ⊣⊢ iprop(((m_e1t).view.loc (thr d L) ↦[cT (rA L k)]{fullShare} ft) ∗ ((m_e1t).view.loc (thr d L) ↦[tRem (wL L) (rA L k + 32)]{fullShare} ft)) := by
  have hr : wL L * 1408 + 32 * (2 * k) < 4096 := by rw [← tp_rA_chunk]; exact hT
  have h : ((m_e1t).view.loc (thr d L) ↦[tRem (wL L) (wL L * 1408 + 32 * (2 * k))]{fullShare} ft : sProp 𝕄)
      ⊣⊢ iprop(((m_e1t).view.loc (thr d L) ↦[cT (wL L * 1408 + 32 * (2 * k))]{fullShare} ft)
        ∗ ((m_e1t).view.loc (thr d L) ↦[tRem (wL L) (wL L * 1408 + 32 * (2 * k)) \ cT (wL L * 1408 + 32 * (2 * k))]{fullShare} ft)) :=
    pointsTo_split_subset (cT_subset_tRem (wL L) (2 * k) (by omega) hr)
  rw [tRem_sdiff_cT (wL L) (2 * k) (by omega) hr, ← tp_rA_chunk] at h
  exact h

/-- The rows landed before the previous pair, and the previous pair's first chunk, are the rows before its second chunk. -/
theorem tp_done_join (k : ℕ) (hk0 : k ≠ 0) (hk : k < 22) (hT : rA L k < 4096) :
    iprop(((m_e1t).view.loc (thr d L) ↦[tDone (wL L) (rA L k - 64)]{fullShare} E1t I d) ∗ outDone I d L (rA L k - 64))
      ⊢ ((m_e1t).view.loc (thr d L) ↦[tDone (wL L) (rA L k - 32)]{fullShare} E1t I d : sProp 𝕄) := by
  have e : rA L k - 64 = wL L * 1408 + 32 * (2 * k - 2) := by rw [tp_rA_chunk]; omega
  have hr : wL L * 1408 + 32 * (2 * k - 2) < 4096 := by rw [← e]; omega
  have e2 : rA L k - 32 = wL L * 1408 + 32 * (2 * k - 2) + 32 := by rw [tp_rA_chunk]; omega
  unfold outDone
  rw [e, if_pos hr, e2, ← tDone_union_cT (wL L) (2 * k - 2) (by omega) hr]
  exact (pointsTo_union (ℓ := (m_e1t).view.loc (thr d L)) (q := fullShare) (f := E1t I d) (tDone_disjoint_cT (wL L) _)).2

omit [FloatOps F] in
theorem tp_nDone_step (k : ℕ) (hT : rA L k < 4096) : nDone (wL L) (rA L k - 64) = nDone (wL L) (rA L k - 32) :=
  nDone_of_lt (wL L) _ _ (by omega) (by omega)
omit [FloatOps F] in
theorem tp_nRem_step (k : ℕ) (hT : rA L k + 32 < 4096) : nRem (wL L) (rA L k) = nRem (wL L) (rA L k + 32) :=
  nRem_of_lt (wL L) _ _ (by omega) (by omega)

/-- The executor's flight of the second chunk's self rows, as the invariant states it. -/
theorem tp_flS1_of_exec (r0 : ℕ) (f7 : Buf (Elt F) ((s_7).view.loc (thr d L))) (g1 : Buf (Elt F) ((s_1).view.loc (thr d L)))
    (hg1 : ∀ x : S32.Idx, g1 x = selfIdx I d r0 (x 0).val) (P : (Rect.whole S32x128).shape.Idx → F .f32)
    (hP : ∀ x : S32x128.Idx, P x = I.sp d (ixTab (selfIdx I d r0 (x 0).val).toNat (x 1).val)) :
    Transfers.Flight countersEmb (thr d L) (SemLoc.dma cc1_scratch16.sem) default 131072
      iprop((((s_7).view.loc (thr d L) ↦{fullShare} (s_7).view.writes (Elt F) f7 [⟨Rect.whole S32x128, P⟩]) ∗ ((s_1).view.loc (thr d L) ↦{fullShare} g1))
        ∗ ((m_sp).view.loc (thr d L) ↦[(spSl).view.set]{Transfers.shareTokN (rsh (wL L)) 14} I.sp d))
      ⊢ FlS1 I d L r0 := by
  unfold FlS1
  refine Transfers.Flight_mono (EC := countersEmb) (c := thr d L) ?_
  iintro ⟨⟨H7, H1⟩, Hsp⟩
  iexists ((s_7).view.writes (Elt F) f7 [⟨Rect.whole S32x128, P⟩]), g1
  isplitr
  · ipureintro
    exact ⟨hg1, fun x => by rw [landing_s7_writes]; exact hP x⟩
  isplitl [H7]; · iexact H7
  isplitl [H1]; · iexact H1
  iexact Hsp

/-- The executor's flight of the second chunk's neighbour rows, as the invariant states it. -/
theorem tp_flN1_of_exec (r0 : ℕ) (f9 : Buf (Elt F) ((s_9).view.loc (thr d L))) (g3 : Buf (Elt F) ((s_3).view.loc (thr d L)))
    (hg3 : ∀ x : S320.Idx, g3 x = nbrIdx I d r0 (x 0).val) (P : (Rect.whole S320x128).shape.Idx → F .f32)
    (hP : ∀ x : S320x128.Idx, P x = I.ap d (ixTab (nbrIdx I d r0 (x 0).val).toNat (x 1).val)) :
    Transfers.Flight countersEmb (thr d L) (SemLoc.dma cc1_scratch17.sem) default 1310720
      iprop((((s_9).view.loc (thr d L) ↦{fullShare} (s_9).view.writes (Elt F) f9 [⟨Rect.whole S320x128, P⟩]) ∗ ((s_3).view.loc (thr d L) ↦{fullShare} g3))
        ∗ ((m_ap).view.loc (thr d L) ↦[(apSl).view.set]{Transfers.shareTokN (rsh (wL L)) 15} I.ap d))
      ⊢ FlN1 I d L r0 := by
  unfold FlN1
  refine Transfers.Flight_mono (EC := countersEmb) (c := thr d L) ?_
  iintro ⟨⟨H9, H3⟩, Hap⟩
  iexists ((s_9).view.writes (Elt F) f9 [⟨Rect.whole S320x128, P⟩]), g3
  isplitr
  · ipureintro
    exact ⟨hg3, fun x => by rw [landing_s9_writes]; exact hP x⟩
  isplitl [H9]; · iexact H9
  isplitl [H3]; · iexact H3
  iexact Hap

/-- The executor's flight of the first chunk's copy-out, as the invariant states it. -/
theorem tp_flW0_of_exec (k : Fin k1_t1_loop.trips) (c6 : k1_cond6 L k = 1#1) (hT : rA L k.val < 4096)
    (ft : Buf (Elt F) ((m_e1t).view.loc (thr d L))) (fo : Buf (Elt F) ((s_10).view.loc (thr d L)))
    (P : (Rect.whole S32x128).shape.Idx → F .f32)
    (hv : ∀ i ∈ (tpOutSl L k c6).view.set, (tpOutSl L k c6).view.writes (Elt F) ft [⟨Rect.whole S32x128, P⟩] i = E1t I d i) :
    Transfers.Flight countersEmb (thr d L) (SemLoc.dma cc1_scratch18.sem) default 131072
      iprop(((tpOutSl L k c6).view.loc (thr d L) ↦[(tpOutSl L k c6).view.set]{fullShare} (tpOutSl L k c6).view.writes (Elt F) ft [⟨Rect.whole S32x128, P⟩])
        ∗ ((s_10).view.loc (thr d L) ↦[(s_10).view.set]{fullShare} fo))
      ⊢ FlW0 I d L (rA L k.val) := by
  unfold FlW0 outDone
  rw [if_pos hT]
  refine Transfers.Flight_mono (EC := countersEmb) (c := thr d L) ?_
  have e1 : ((s_10).view.loc (thr d L) ↦[(s_10).view.set]{fullShare} fo : sProp 𝕄) = ((s_10).view.loc (thr d L) ↦{fullShare} fo) := by
    rw [View.set_whole]
  have e2 : ((tpOutSl L k c6).view.loc (thr d L) ↦[(tpOutSl L k c6).view.set]{fullShare} (tpOutSl L k c6).view.writes (Elt F) ft [⟨Rect.whole S32x128, P⟩] : sProp 𝕄)
      = ((m_e1t).view.loc (thr d L) ↦[cT (rA L k.val)]{fullShare} E1t I d) := by
    rw [pointsTo_congr hv, tp_outSl_set]
  rw [e1, e2]
  iintro ⟨Hd, Hs⟩
  isplitl [Hs]
  · iexists fo; iexact Hs
  · iexact Hd

open Idealize.ShloMosaic.ValueIdx

theorem tp_v43_of_ne : ∀ k : Fin k1_t1_loop.trips, k.val ≠ 0 →
    Scalar.cmpi .ne (Scalar.extui (Scalar.xori (Scalar.cmpi .eq (Scf.iv 0#32 1#32 k) 0#32) 1#1) : BitVec 32) 0#32 = 1#1 := by decide +kernel

set_option maxHeartbeats 8000000 in
theorem tripA_Tp (hpre : PreOK I) (O : CellTallies nD τ sig (HIx 1)) (W : Waits sig (HIx 1)) (k : Fin k1_t1_loop.trips) (hT : rA L k.val < 4096) (hk0 : k.val ≠ 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hb : rA L k.val + 32 < 4096 := by
    have h0 := (L 0).isLt; have h1 := (L 1).isLt
    simp only [show grid1.bound 0 = 2 from rfl, show grid1.bound 1 = 16 from rfl] at h0 h1
    unfold rA base at hT ⊢; omega
  have hk22 : k.val < 22 := Nat.lt_of_lt_of_eq k.isLt trips22
  unfold Inv
  rw [Set0_lt I d L hk22, Outs_pos I d L hk0]
  unfold Loaded0 Idle1 LoopRO Pieces FlS0 FlN0 FlW0 FlW1
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨Hm18, Hm19⟩,
    ⟨⟨%ft, Het⟩, ⟨%fn, Hen⟩, Hdt, Hdn⟩⟩
  have c3 : k1_cond3 L k = 1#1 := (k1_cond3_iff L k).mpr (by unfold rA base at hb; omega)
  have c4 : ¬ k1_cond4 L k = 1#1 := fun h => by have := (k1_cond4_iff L k).mp h; unfold rA base at hb; omega
  have c6 : k1_cond6 L k = 1#1 := (k1_cond6_iff L k).mpr (by unfold rA base at hb; omega)
  have c7 : ¬ k1_cond7 L k = 1#1 := fun h => by have := (k1_cond7_iff L k).mp h; unfold rA base at hb; omega
  have hpair : rA L k.val + 64 ≤ 4096 := by
    have h0 := (L 0).isLt; have h1 := (L 1).isLt
    simp only [show grid1.bound 0 = 2 from rfl, show grid1.bound 1 = 16 from rfl] at h0 h1
    unfold rA base at hb ⊢; omega
  have hv43 := tp_v43_of_ne k hk0
  unfold tripA
  sl_exec
  -- the second chunk's lists, at their words
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      rw [View.write_whole_univ]
      unfold tripA_Tp.sl.dma0
      show I.nid d _ = _
      unfold selfIdx
      rw [if_pos hb]
      refine congrArg (I.nid d) (funext fun (a : Fin 1) => ?_)
      have ha : a = 0 := Subsingleton.elim _ _
      subst ha
      apply Fin.ext
      have hx : (x 0).val < 32 := (x 0).isLt
      show (k1_off5 L k) 0 + 1 * (x 0).val = (rA L k.val + 32 + (x 0).val) % 4096
      rw [k1_off5_eq]
      unfold rA base at hpair ⊢
      simp only [Matrix.cons_val_zero]
      omega
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      rw [View.write_whole_univ]
      unfold tripA_Tp.sl.dma0_1
      show I.n1 d _ = _
      unfold nbrIdx
      rw [if_pos hb]
      refine congrArg (I.n1 d) (funext fun (a : Fin 1) => ?_)
      have ha : a = 0 := Subsingleton.elim _ _
      subst ha
      apply Fin.ext
      have hx : (x 0).val < 320 := (x 0).isLt
      show (k1_off6 L k) 0 + 1 * (x 0).val = ((rA L k.val + 32) * 10 + (x 0).val) % 40960
      rw [k1_off6_eq]
      unfold rA base at hpair ⊢
      simp only [Matrix.cons_val_zero]
      omega
  icases Hs3' with ⟨%g3, Hs3, %hg3⟩
  ihave Hs5' : iprop(∃ g : Buf (Elt F) ((s_5).view.loc (thr d L)), ((s_5).view.loc (thr d L) ↦{fullShare} g) ∗ ⌜∀ x : S336.Idx, (x 0).val < 320 → g x = alph I d (rA L k.val + 32) (x 0).val⌝) $$ [Hs5]
  · iexists _
    isplitl [Hs5]
    · iexact Hs5
    · ipureintro
      intro x hx
      have hx' : ((mkIdx S320 (by decide) ![(x 0).val] : S320.Idx) 0).val = (x 0).val := Nat.mod_eq_of_lt hx
      have hxe : (Rect.unit (s := S336) ![0] S320.size inb_S336_S320_0).emb (mkIdx S320 (by decide) ![(x 0).val] : S320.Idx) = x := by
        funext (a : Fin 1)
        have ha : a = 0 := Subsingleton.elim _ _
        subst ha
        apply Fin.ext
        show 0 + 1 * ((mkIdx S320 (by decide) ![(x 0).val] : S320.Idx) 0).val = (x 0).val
        rw [hx']; omega
      have hw := View.read_writes_cons_emb (s_5).view f5 (Rect.unit (s := S336) ![0] S320.size inb_S336_S320_0) (tripA_Tp.sl.dma0_2 I d L k c3) [] (mkIdx S320 (by decide) ![(x 0).val] : S320.Idx)
      rw [hxe] at hw
      refine hw.trans ?_
      unfold tripA_Tp.sl.dma0_2
      show I.a1 d _ = _
      unfold alph
      rw [if_pos hb]
      refine congrArg (I.a1 d) (funext fun (a : Fin 1) => ?_)
      have ha : a = 0 := Subsingleton.elim _ _
      subst ha
      apply Fin.ext
      show (k1_off6 L k) 0 + 1 * ((mkIdx S320 (by decide) ![(x 0).val] : S320.Idx) 0).val = ((rA L k.val + 32) * 10 + (x 0).val) % 40960
      rw [k1_off6_eq, hx']
      unfold rA base at hpair ⊢
      simp only [Matrix.cons_val_zero]
      omega
  icases Hs5' with ⟨%fal1, Hs5, %hfal1⟩
  have hin1 : ∀ x, ((s_1).view.read (Elt F) g1 x).toNat < S100000x128.size (gathers_S100000x128_S32x128).axis := fun x => by
    show (g1 x).toNat < 100000
    rw [hg1]; exact selfIdx_lt I d hpre _ _
  have hin3 : ∀ x, ((s_3).view.read (Elt F) g3 x).toNat < S100000x128.size (gathers_S100000x128_S320x128).axis := fun x => by
    show (g3 x).toNat < 100000
    rw [hg3]; exact nbrIdx_lt I d hpre _ _
  sl_exec
  -- the first chunk's self rows land
  ihave Hw12 := (Transfers.MayWaits.elim (c := thr d L) (ι := (none : HIx 1)) (O := O) (SemLoc.dma cc1_scratch14.sem)) $$ Hmw
  iapply (Transfers.wp_waitLocalO countersEmb 𝒱₀ (thr d L) none (none : HIx 1) (N := 131072) rfl) $$ [Hm14 HO Hw12]
  · isplitl [Hm14]; · iexact Hm14
    isplitl [HO]; · iexact HO
    iexact Hw12
  iintro ⟨⟨%fs6, %g0, %hsp, Hs6, Hs0, Hsp0⟩, Hm14, HO⟩
  rw [wp_ret]; imodintro
  beta_reduce
  ihave Hw13 := (Transfers.MayWaits.elim (c := thr d L) (ι := (none : HIx 1)) (O := O) (SemLoc.dma cc1_scratch15.sem)) $$ Hmw
  iapply (Transfers.wp_waitLocalO countersEmb 𝒱₀ (thr d L) none (none : HIx 1) (N := 1310720) rfl) $$ [Hm15 HO Hw13]
  · isplitl [Hm15]; · iexact Hm15
    isplitl [HO]; · iexact HO
    iexact Hw13
  iintro ⟨⟨%fs8, %g2, %hap, Hs8, Hs2, Hap0⟩, Hm15, HO⟩
  have hret : ∀ {E : Type → Type} {α β : Type} (a : α) (k : α → Prog E β), (Prog.ret a).bind k = k a := fun _ _ => rfl
  have hv43' : Scalar.cmpi .ne (Scalar.extui (Scalar.xori (Scalar.cmpi .eq (tripA_Tp.sl.arg34 k) 0#32) 1#1) : BitVec 32) 0#32 = 1#1 := hv43
  beta_reduce
  sl_rw [hret]
  sl_exec
  ihave Hw16 := (Transfers.MayWaits.elim (c := thr d L) (ι := (none : HIx 1)) (O := O) (SemLoc.dma cc1_scratch18.sem)) $$ Hmw
  iapply (Transfers.wp_waitLocalO countersEmb 𝒱₀ (thr d L) none (none : HIx 1) (N := 131072) rfl) $$ [Hm18 HO Hw16]
  · isplitl [Hm18]; · iexact Hm18
    isplitl [HO]; · iexact HO
    iexact Hw16
  iintro ⟨⟨⟨%f10, Hs10⟩, Hout0⟩, Hm18, HO⟩
  beta_reduce
  sl_for (RowInv0 d L fal fs6 fs8 fb) $$ [Hs4 Hs6 Hs8 Hs12 Hs10]
  case region => exact row_trip0 d L (v2 L) k fal fs6 fs8 fb
  · unfold RowInv0
    isplitr; · ipureintro; rfl
    isplitl [Hs4]; · iexact Hs4
    isplitl [Hs6]; · iexact Hs6
    isplitl [Hs8]; · iexact Hs8
    isplitl [Hs12]; · iexact Hs12
    iexists f10
    isplitr; · ipureintro; intro x hx; exact absurd hx (Nat.not_lt_zero _)
    iexact Hs10
  iintro %acc HI
  unfold RowInv0
  icases HI with ⟨%hacc, Hs4, Hs6, Hs8, Hs12, %fo, %hfo, Hs10⟩
  ihave Het2 := (tp_het_split d L k.val hk22 hT ft).1 $$ Het
  icases Het2 with ⟨Hct, Het⟩
  ihave Hct' := (Entails.of_eq (show ((m_e1t).view.loc (thr d L) ↦[cT (rA L k.val)]{fullShare} ft : sProp 𝕄)
      = (tpOutSl L k c6).view.loc (thr d L) ↦[(tpOutSl L k c6).view.set]{fullShare} ft by rw [tp_outSl_set])) $$ Hct
  sl_exec
  sl_step
  have h32 : 32 ∣ rA L k.val := ⟨44 * wL L + 2 * k.val, by rw [tp_rA_chunk]; omega⟩
  have hro : ∀ i col, i < 32 → col < 128 → rowOut fal fs6 fs8 fb i col = E1 I d (rA L k.val + i) col :=
    fun i col hi hc => rowOut_eq_E1 I d (rA L k.val) h32 fal fs6 fs8 fb hfal hsp.2 hap.2 hfb i col hi hc
  have hP0 : ∀ x : S32x128.Idx, tripA_Tp.sl.gather0 I d L g1 hin1 x = I.sp d (ixTab (selfIdx I d (rA L k.val + 32) (x 0).val).toNat (x 1).val) := fun x => by
    unfold tripA_Tp.sl.gather0
    refine (gather_sp1 d L (I.sp d) g1 _ hin1 x).trans ?_
    rw [hg1, mkIdx_val S32 (by decide) _ 0 (x 0).isLt]
    rfl
  have hP1 : ∀ x : S320x128.Idx, tripA_Tp.sl.gather1 I d L g3 hin3 x = I.ap d (ixTab (nbrIdx I d (rA L k.val + 32) (x 0).val).toNat (x 1).val) := fun x => by
    unfold tripA_Tp.sl.gather1
    refine (gather_ap3 d L (I.ap d) g3 _ hin3 x).trans ?_
    rw [hg3, mkIdx_val S320 (by decide) _ 0 (x 0).isLt]
    rfl
  have ht32 : Scf.trips k1_t2_loop.lb k1_t2_loop.ub k1_t2_loop.st = 32 := by decide
  have hout : ∀ i ∈ (tpOutSl L k c6).view.set, (tpOutSl L k c6).view.writes (Elt F) ft [⟨Rect.whole S32x128, tripA_Tp.sl.dma3 d L fo⟩] i = E1t I d i := fun i hi => by
    obtain ⟨x, -, rfl⟩ := Finset.mem_map.mp hi
    have hr := View.read_writes_cons_emb (tpOutSl L k c6).view ft (Rect.whole S32x128) (tripA_Tp.sl.dma3 d L fo) [] x
    rw [Rect.emb_whole_apply, View.read_apply] at hr
    have hw : (tpOutSl L k c6).view.writes (Elt F) ft [⟨Rect.whole S32x128, tripA_Tp.sl.dma3 d L fo⟩] ((tpOutSl L k c6).view.emb x) = tripA_Tp.sl.dma3 d L fo x := hr
    have hx0 : (x 0).val < 32 := (x 0).isLt
    have hx1 : (x 1).val < 128 := (x 1).isLt
    have hd : tripA_Tp.sl.dma3 d L fo x = fo x := rfl
    rw [hw, hd, hfo x (by rw [ht32]; exact hx0), hro _ _ hx0 hx1]
    show E1 I d (rA L k.val + (x 0).val) (x 1).val = E1 I d ((k1_off26 L k) 0 + 1 * (x 0).val) ((k1_off26 L k) 1 + 1 * (x 1).val)
    rw [k1_off26_eq]
    have e0 : (![2816 * (L 1).val + 1408 * (L 0).val + 64 * k.val, 0] : Fin 2 → ℕ) 0 + 1 * (x 0).val = rA L k.val + (x 0).val := by
      show 2816 * (L 1).val + 1408 * (L 0).val + 64 * k.val + 1 * (x 0).val = _
      unfold rA base; omega
    have e1 : (![2816 * (L 1).val + 1408 * (L 0).val + 64 * k.val, 0] : Fin 2 → ℕ) 1 + 1 * (x 1).val = (x 1).val := by
      show 0 + 1 * (x 1).val = _
      omega
    rw [e0, e1]
  have hsq : ∀ x : S2x16.Idx, ((s_13).view.writes (Elt F) fsq [⟨Rect.unit (s := S2x16) ![0, 0] S1x16.size inb_S2x16_S1x16_0_0,
      k1_pay113 acc (View.readAt (Elt F) (s_13).view (Rect.unit (s := S2x16) ![0, 0] S1x16.size inb_S2x16_S1x16_0_0).toLoadRect fsq)⟩]) x
      = tileSqUpto I d (wL L) (2 * k.val + 1) (decide ((x 0).val = 0)) (x 1).val := fun x => by
    have hx1 : (x 1).val < 16 := (x 1).isLt
    have hx0 : (x 0).val < 2 := (x 0).isLt
    have hchunk : wL L * 1408 + 32 * (2 * k.val) = rA L k.val := (tp_rA_chunk L k.val).symm
    rw [tileSqUpto_succ, hchunk]
    by_cases h0 : (x 0).val = 0
    · have hdec : decide (rA L k.val < 4096) = decide ((x 0).val = 0) := by simp [hT, h0]
      rw [if_pos hdec]
      obtain ⟨y, hy⟩ : ∃ y : (Rect.unit (s := S2x16) ![0, 0] S1x16.size inb_S2x16_S1x16_0_0).shape.Idx,
          (Rect.unit (s := S2x16) ![0, 0] S1x16.size inb_S2x16_S1x16_0_0).emb y = x :=
        ⟨mkIdx S1x16 (by decide) ![0, (x 1).val], by
          funext a; apply Fin.ext
          match a with
          | ⟨0, _⟩ =>
            show 0 + 1 * ((mkIdx S1x16 (by decide) ![0, (x 1).val] : S1x16.Idx) 0).val = (x 0).val
            rw [mkIdx_val S1x16 (by decide) _ 0 (show (0 : ℕ) < 1 from Nat.one_pos)]; show 0 + 1 * 0 = _; omega
          | ⟨1, _⟩ =>
            show 0 + 1 * ((mkIdx S1x16 (by decide) ![0, (x 1).val] : S1x16.Idx) 1).val = (x 1).val
            rw [mkIdx_val S1x16 (by decide) _ 1 hx1]; show 0 + 1 * (x 1).val = _; omega⟩
      have hr := View.read_writes_cons_emb (s_13).view fsq (Rect.unit (s := S2x16) ![0, 0] S1x16.size inb_S2x16_S1x16_0_0)
        (k1_pay113 acc (View.readAt (Elt F) (s_13).view (Rect.unit (s := S2x16) ![0, 0] S1x16.size inb_S2x16_S1x16_0_0).toLoadRect fsq)) [] y
      rw [hy] at hr
      refine hr.trans ?_
      have hyv : (Rect.unit (s := S2x16) ![0, 0] S1x16.size inb_S2x16_S1x16_0_0).toLoadRect.idx y = x := hy
      have hy1 : ((ix1 (y 1) : S16.Idx) 0).val = (x 1).val := by
        have := congrArg (fun z : S2x16.Idx => (z 1).val) hy
        simpa using this
      unfold k1_pay113
      rw [cast_16x1]
      show FloatOps.addf (shapeCast S16 (View.readAt (Elt F) (s_13).view (Rect.unit (s := S2x16) ![0, 0] S1x16.size inb_S2x16_S1x16_0_0).toLoadRect fsq) shapeCasts_S1x16_S16 (ix1 (y 1))) (acc (ix1 (y 1))) = _
      rw [cast_1x16]
      have hyy : (ix2 (0 : Fin 1) ((ix1 (y 1) : S16.Idx) 0) : S1x16.Idx) = y := by
        rw [eq_ix2 y]
        congr 1
        exact Subsingleton.elim _ _
      rw [hyy]
      have hv : View.readAt (Elt F) (s_13).view (Rect.unit (s := S2x16) ![0, 0] S1x16.size inb_S2x16_S1x16_0_0).toLoadRect fsq y = fsq x := by
        show fsq ((Rect.unit (s := S2x16) ![0, 0] S1x16.size inb_S2x16_S1x16_0_0).toLoadRect.idx y) = fsq x
        rw [hyv]
      rw [hv, hfsq, hacc, ht32, sqAcc_eq_chunkSq I d (rA L k.val) _ hro, hy1]
    · have hdec : ¬ decide (rA L k.val < 4096) = decide ((x 0).val = 0) := by simp [hT, h0]
      rw [if_neg hdec]
      have hnm : ∀ p ∈ [(⟨Rect.unit (s := S2x16) ![0, 0] S1x16.size inb_S2x16_S1x16_0_0,
          k1_pay113 acc (View.readAt (Elt F) (s_13).view (Rect.unit (s := S2x16) ![0, 0] S1x16.size inb_S2x16_S1x16_0_0).toLoadRect fsq)⟩ : View.Piece (Elt F) S2x16 .f32)],
          x ∉ p.1.set := by
        intro p hp
        rw [List.mem_singleton] at hp
        subst hp
        intro hm
        exact h0 ((mem_window (n0 := 2) (n1 := 16) (off := ![0, 0]) (inb := inb_S2x16_S1x16_0_0) (r := 0) (c := 0) rfl x).1 hm).1
      exact (whole_writes_apply_of_forall_not_mem cc1_scratch13 fsq _ x hnm).trans (hfsq x)
  ihave Hdt' := (tp_done_join I d L k.val hk0 hk22 hT) $$ [Hdt Hout0]
  · isplitl [Hdt]; · iexact Hdt
    iexact Hout0
  ihave Hdn' := (Entails.of_eq (show ((m_e1n).view.loc (thr d L) ↦[nDone (wL L) (rA L k.val - 64)]{fullShare} E1n I d : sProp 𝕄)
      = ((m_e1n).view.loc (thr d L) ↦[nDone (wL L) (rA L k.val - 32)]{fullShare} E1n I d) by rw [tp_nDone_step L k.val hT])) $$ Hdn
  ihave Hen' := (Entails.of_eq (show ((m_e1n).view.loc (thr d L) ↦[nRem (wL L) (rA L k.val)]{fullShare} fn : sProp 𝕄)
      = ((m_e1n).view.loc (thr d L) ↦[nRem (wL L) (rA L k.val + 32)]{fullShare} fn) by rw [tp_nRem_step L k.val hb])) $$ Hen
  ihave Hm16' : (Transfers.Flight countersEmb (thr d L) (SemLoc.dma cc1_scratch16.sem) default 131072
      iprop((((s_7).view.loc (thr d L) ↦{fullShare} (s_7).view.writes (Elt F) f7 [⟨Rect.whole S32x128, tripA_Tp.sl.gather0 I d L g1 hin1⟩]) ∗ ((s_1).view.loc (thr d L) ↦{fullShare} g1))
        ∗ ((m_sp).view.loc (thr d L) ↦[(spSl).view.set]{Transfers.shareTokN (rsh (wL L)) 14} I.sp d)) : sProp 𝕄) $$ [Hm16]
  · iexact Hm16
  ihave Hm17' : (Transfers.Flight countersEmb (thr d L) (SemLoc.dma cc1_scratch17.sem) default 1310720
      iprop((((s_9).view.loc (thr d L) ↦{fullShare} (s_9).view.writes (Elt F) f9 [⟨Rect.whole S320x128, tripA_Tp.sl.gather1 I d L g3 hin3⟩]) ∗ ((s_3).view.loc (thr d L) ↦{fullShare} g3))
        ∗ ((m_ap).view.loc (thr d L) ↦[(apSl).view.set]{Transfers.shareTokN (rsh (wL L)) 15} I.ap d)) : sProp 𝕄) $$ [Hm17]
  · iexact Hm17
  ihave Hm18' : (Transfers.Flight countersEmb (thr d L) (SemLoc.dma cc1_scratch18.sem) default 131072
      iprop(((tpOutSl L k c6).view.loc (thr d L) ↦[(tpOutSl L k c6).view.set]{fullShare} (tpOutSl L k c6).view.writes (Elt F) ft [⟨Rect.whole S32x128, tripA_Tp.sl.dma3 d L fo⟩])
        ∗ ((s_10).view.loc (thr d L) ↦[(s_10).view.set]{fullShare} fo)) : sProp 𝕄) $$ [Hm18]
  · iexact Hm18
  ihave HfS1 := (tp_flS1_of_exec I d L (rA L k.val + 32) f7 g1 hg1 _ hP0) $$ Hm16'
  ihave HfN1 := (tp_flN1_of_exec I d L (rA L k.val + 32) f9 g3 hg3 _ hP1) $$ Hm17'
  ihave HfW0 := (tp_flW0_of_exec I d L k c6 hT ft fo _ hout) $$ Hm18'
  ihave Hsp0' := (Entails.of_eq (show ((m_sp).view.loc (thr d L) ↦[(spSl).view.set]{Transfers.shareTokN (rsh (wL L)) 12} I.sp d : sProp 𝕄)
      = ((m_sp).view.loc (thr d L) ↦{Transfers.shareTokN (rsh (wL L)) 12} I.sp d) by rw [spSl_set])) $$ Hsp0
  ihave Hap0' := (Entails.of_eq (show ((m_ap).view.loc (thr d L) ↦[(apSl).view.set]{Transfers.shareTokN (rsh (wL L)) 13} I.ap d : sProp 𝕄)
      = ((m_ap).view.loc (thr d L) ↦{Transfers.shareTokN (rsh (wL L)) 13} I.ap d) by rw [apSl_set])) $$ Hap0
  iclear Hsp1 Hap1 Hs10
  unfold Mid
  rw [Outs1_pos I d L hk0]
  unfold Idle0 Loaded1 LoopRO
  unfold FlW1
  isplitr; · ipureintro; rfl
  isplitr; · iexact Hmw
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hnid Hn1 Hn2 Ha1 Ha2 Hr7 Hr8 Hr9 Hr10 Hr11 Hr12 Hr13 Hr14 Hr15 Hr16 Hr17 Hr18]
  · isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb; isplitr; · ipureintro; exact hfb
    iexact Hs12
  isplitl [Hs13]
  · iexists ((s_13).view.writes (Elt F) fsq [⟨Rect.unit (s := S2x16) ![0, 0] S1x16.size inb_S2x16_S1x16_0_0,
      k1_pay113 acc (View.readAt (Elt F) (s_13).view (Rect.unit (s := S2x16) ![0, 0] S1x16.size inb_S2x16_S1x16_0_0).toLoadRect fsq)⟩])
    isplitr; · ipureintro; exact hsq
    iexact Hs13
  isplitl [Hs0 Hs2 Hs4 Hs6 Hs8 Hm14 Hm15 Hsp0' Hap0']
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0']; · iexact Hsp0'
    iexact Hap0'
  isplitl [Hs5 HfS1 HfN1]
  · isplitl [Hs5]
    · iexists fal1; isplitr; · ipureintro; exact hfal1
      iexact Hs5
    isplitl [HfS1]; · iexact HfS1
    iexact HfN1
  isplitl [HfW0]; · iexact HfW0
  isplitl [Hm19]; · iexact Hm19
  isplitl [Het]; · iexists ft; iexact Het
  isplitl [Hen']; · iexists fn; iexact Hen'
  isplitl [Hdt']; · iexact Hdt'
  iexact Hdn'

end Tile
end Cert.KernelIdeal.Tile
end
-- ==== Proof.TileTripAT.lean ====
/-
  The first half of a pair of target chunks on a vector subcore: the first pair, whose output buffers are at rest, and
  the later ones, whose output buffers' previous copy-outs are awaited first.
-/
import proofs.«213116_g69346541961480_cont_9to1_m_612_34_alg».proof.Proof.TileTripAT0
import proofs.«213116_g69346541961480_cont_9to1_m_612_34_alg».proof.Proof.TileTripATp
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripA_T (hpre : PreOK I) (O : CellTallies nD τ sig (HIx 1)) (W : Waits sig (HIx 1)) (k : Fin k1_t1_loop.trips) (hT : rA L k.val < 4096) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  by_cases hk0 : k.val = 0
  · exact tripA_T0 I d L hpre O W k hT hk0
  · exact tripA_Tp I d L hpre O W k hT hk0

end Tile
end Cert.KernelIdeal.Tile
end
-- ==== Proof.TileTripAN.lean ====
/-
  The first half of a pair of chunks on a vector subcore, when the pair's chunks are neighbour chunks.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

omit [FloatOps F] in
theorem wbaseN : wL L * 1408 = base L := by
  unfold base
  show ((L 1).val * 2 + (L 0).val) * 1408 = _
  omega
omit [FloatOps F] in
theorem rA_eq (k : ℕ) : rA L k = wL L * 1408 + 32 * (2 * k) := by unfold rA; rw [wbaseN]; omega
omit [FloatOps F] in
/-- A neighbour chunk's rows are among the worker's unwritten rows of the second result; -/
theorem cN_sub (k : ℕ) (hk : k < 22) (hN : 4096 ≤ rA L k) : cN (rA L k - 4096) ⊆ nRem (wL L) (rA L k) := by
  have h := cN_subset_nRem (wL L) (2 * k) (by omega) (by rw [← rA_eq]; exact hN)
  rwa [← rA_eq] at h
omit [FloatOps F] in
/-- without them the unwritten rows are those from the next chunk on. -/
theorem nRem_sdiff (k : ℕ) (hk : k < 22) (hN : 4096 ≤ rA L k) : nRem (wL L) (rA L k) \ cN (rA L k - 4096) = nRem (wL L) (rA L k + 32) := by
  have h := nRem_sdiff_cN (wL L) (2 * k) (by omega) (by rw [← rA_eq]; exact hN)
  rwa [← rA_eq] at h
omit [FloatOps F] in
/-- The copy-out's window of the second result is the chunk's rows. -/
theorem e1n_win_set (k : Fin k1_t1_loop.trips) (c7 : k1_cond7 L k = 1#1) :
    ((m_e1n).slice (Rect.unit (s := S40960x128) (k1_off27 L k) S32x128.size (k1_off27_inb L k c7)) (fun _ => rfl)).view.set = cN (rA L k.val - 4096) := by
  refine (set_e1n_slice (k1_off27 L k) (k1_off27_inb L k c7) (by rw [k1_off27_eq' L k c7]; rfl)).trans (congrArg cN ?_)
  exact (congrFun (k1_off27_eq' L k c7) 0).trans rfl

/-- The loop's test "not the first pair", from the pair's number. -/
theorem v43_pos : ∀ t : Fin k1_t1_loop.trips, t.val ≠ 0 →
    Scalar.cmpi .ne (Scalar.extui (Scalar.xori (Scalar.cmpi .eq (Scf.iv 0#32 1#32 t.val) 0#32) 1#1)) 0#32 = 1#1 := by decide +kernel
theorem v43_zero : ∀ t : Fin k1_t1_loop.trips, t.val = 0 →
    ¬ Scalar.cmpi .ne (Scalar.extui (Scalar.xori (Scalar.cmpi .eq (Scf.iv 0#32 1#32 t.val) 0#32) 1#1)) 0#32 = 1#1 := by decide +kernel

/-! ## What the second chunk's lists hold once copied in -/

/-- The self indices of the pair's second chunk, copied into the list buffer. -/
theorem list1_vals (k : Fin k1_t1_loop.trips) (c4 : k1_cond4 L k = 1#1) (inb : ∀ a, k1_off7 L k a + S32.size a ≤ S40960.size a)
    (f1 : Buf (Elt F) ((s_1).view.loc (thr d L))) (x : S32.Idx) :
    View.write (Elt F) (s_1).view f1 (ReadAs.same.apply (((m_n1).slice (Rect.unit (s := S40960) (k1_off7 L k) S32.size inb) (fun _ => rfl)).view.read (Elt F) (I.n1 d))) Finset.univ x
      = selfIdx I d (rA L k.val + 32) (x 0).val := by
  have h4 := (k1_cond4_iff L k).mp c4
  have hge : ¬ rA L k.val + 32 < 4096 := by unfold rA base; omega
  refine (congrFun (View.write_whole_univ (Val := Elt F) cc1_scratch1 f1 _) x).trans ?_
  rw [read_n1_32 (F := F) d L, congrFun (k1_off7_eq' L k c4) 0]
  unfold selfIdx
  rw [if_neg hge]
  rfl

/-- Its neighbour indices. -/
theorem list3_vals (k : Fin k1_t1_loop.trips) (c4 : k1_cond4 L k = 1#1) (inb : ∀ a, k1_off8 L k a + S320.size a ≤ S409600.size a)
    (f3 : Buf (Elt F) ((s_3).view.loc (thr d L))) (x : S320.Idx) :
    View.write (Elt F) (s_3).view f3 (ReadAs.same.apply (((m_n2).slice (Rect.unit (s := S409600) (k1_off8 L k) S320.size inb) (fun _ => rfl)).view.read (Elt F) (I.n2 d))) Finset.univ x
      = nbrIdx I d (rA L k.val + 32) (x 0).val := by
  have h4 := (k1_cond4_iff L k).mp c4
  have hge : ¬ rA L k.val + 32 < 4096 := by unfold rA base; omega
  refine (congrFun (View.write_whole_univ (Val := Elt F) cc1_scratch3 f3 _) x).trans ?_
  rw [read_n2_320 (F := F) d L, congrFun (k1_off8_eq' L k c4) 0]
  unfold nbrIdx
  rw [if_neg hge]
  rfl

/-- Its weights, in the head of the weights buffer. -/
theorem wts5_vals (k : Fin k1_t1_loop.trips) (c4 : k1_cond4 L k = 1#1) (inb : ∀ a, k1_off8 L k a + S320.size a ≤ S409600.size a)
    (f5 : Buf (Elt F) ((s_5).view.loc (thr d L))) (x : S336.Idx) (hx : (x 0).val < 320) :
    (s_5).view.writes (Elt F) f5 [⟨Rect.unit (s := S336) ![0] S320.size inb_S336_S320_0,
        ReadAs.same.apply (((m_a2).slice (Rect.unit (s := S409600) (k1_off8 L k) S320.size inb) (fun _ => rfl)).view.read (Elt F) (I.a2 d))⟩] x
      = alph I d (rA L k.val + 32) (x 0).val := by
  have h4 := (k1_cond4_iff L k).mp c4
  have hge : ¬ rA L k.val + 32 < 4096 := by unfold rA base; omega
  rw [writes_s5 (F := F) d L f5 _ x hx, read_a2_320 (F := F) d L, congrFun (k1_off8_eq' L k c4) 0, mkIdx_val S320 (by decide) ![(x 0).val] 0 hx]
  unfold alph
  rw [if_neg hge]
  rfl

/-! ## What the second chunk's gathers land -/

/-- The self rows. -/
theorem land7_vals (r0 : ℕ) (g1 : Buf (Elt F) ((s_1).view.loc (thr d L))) (hg1 : ∀ x : S32.Idx, g1 x = selfIdx I d r0 (x 0).val)
    (hn : S32.numel = S32x128.size gathers_S100000x128_S32x128.axis')
    (hin : ∀ x, ((s_1).view.read (Elt F) g1 x).toNat < S100000x128.size gathers_S100000x128_S32x128.axis)
    (f7 : Buf (Elt F) ((s_7).view.loc (thr d L))) (x : S32x128.Idx) :
    (s_7).view.writes (Elt F) f7 [⟨Rect.whole S32x128, SparseCore.gatherPayload gathers_S100000x128_S32x128 ((spSl).view.read (Elt F) (I.sp d))
        (SparseCore.rows ((s_1).view.read (Elt F) g1) hn hin)⟩] x
      = I.sp d (ixTab (selfIdx I d r0 (x 0).val).toNat (x 1).val) := by
  rw [landing_s7_writes (F := F) d L f7 _, gather_sp1 (F := F) d L (I.sp d) g1 hn hin x, hg1,
    mkIdx_val S32 (by decide) ![(x 0).val] 0 (x 0).isLt]
  rfl

/-- The neighbour rows. -/
theorem land9_vals (r0 : ℕ) (g3 : Buf (Elt F) ((s_3).view.loc (thr d L))) (hg3 : ∀ x : S320.Idx, g3 x = nbrIdx I d r0 (x 0).val)
    (hn : S320.numel = S320x128.size gathers_S100000x128_S320x128.axis')
    (hin : ∀ x, ((s_3).view.read (Elt F) g3 x).toNat < S100000x128.size gathers_S100000x128_S320x128.axis)
    (f9 : Buf (Elt F) ((s_9).view.loc (thr d L))) (x : S320x128.Idx) :
    (s_9).view.writes (Elt F) f9 [⟨Rect.whole S320x128, SparseCore.gatherPayload gathers_S100000x128_S320x128 ((apSl).view.read (Elt F) (I.ap d))
        (SparseCore.rows ((s_3).view.read (Elt F) g3) hn hin)⟩] x
      = I.ap d (ixTab (nbrIdx I d r0 (x 0).val).toNat (x 1).val) := by
  rw [landing_s9_writes (F := F) d L f9 _, gather_ap3 (F := F) d L (I.ap d) g3 hn hin x, hg3,
    mkIdx_val S320 (by decide) ![(x 0).val] 0 (x 0).isLt]
  rfl

/-! ## The sums of squares after a neighbour chunk -/

/-- Lane `u` of a one-row block. -/
abbrev ixr (u : Fin 16) : S1x16.Idx := ix2 (0 : Fin 1) u
/-- Lane `u` of a 16-lane vector. -/
abbrev ixl (u : Fin 16) : S16.Idx := ix1 u

/-- Row 1 of the sums buffer takes the chunk's sums; row 0 stays. -/
theorem sq_row1 (k : ℕ) (hN : 4096 ≤ rA L k) (fsq : Buf (Elt F) ((s_13).view.loc (thr d L)))
    (hfsq : ∀ x : S2x16.Idx, fsq x = tileSqUpto I d (wL L) (2 * k) (decide ((x 0).val = 0)) (x 1).val)
    (acc : FVec F S16 .f32) (hacc : ∀ l : S16.Idx, acc l = chunkSq I d (rA L k) (l 0).val) (x : S2x16.Idx) :
    (s_13).view.writes (Elt F) fsq [⟨Rect.unit (s := S2x16) ![1, 0] S1x16.size inb_S2x16_S1x16_1_0,
        k1_pay116 acc ((s_13).view.readAt (Elt F) (Rect.unit (s := S2x16) ![1, 0] S1x16.size inb_S2x16_S1x16_1_0).toLoadRect fsq)⟩] x
      = tileSqUpto I d (wL L) (2 * k + 1) (decide ((x 0).val = 0)) (x 1).val := by
  have hx0 : (x 0).val < 2 := (x 0).isLt
  have hx1 : (x 1).val < 16 := (x 1).isLt
  rw [tileSqUpto_succ, ← rA_eq]
  have hdec : decide (rA L k < 4096) = false := decide_eq_false (by omega)
  rw [hdec]
  by_cases h0 : (x 0).val = 0
  · -- row 0: no write reaches it
    have hne : ¬ (false = decide ((x 0).val = 0)) := by rw [decide_eq_true h0]; exact Bool.false_ne_true
    rw [if_neg hne, ← hfsq]
    have h := View.read_writes_apply_of_forall_not_mem (s_13).view fsq x
      [⟨Rect.unit (s := S2x16) ![1, 0] S1x16.size inb_S2x16_S1x16_1_0,
        k1_pay116 acc ((s_13).view.readAt (Elt F) (Rect.unit (s := S2x16) ![1, 0] S1x16.size inb_S2x16_S1x16_1_0).toLoadRect fsq)⟩]
      (fun p hp => by
        rw [List.mem_singleton.mp hp, Rect.mem_set_unit]
        intro hall
        have := (hall 0).1
        have e : (![1, 0] : Fin 2 → ℕ) 0 = 1 := rfl
        omega)
    exact h
  · -- row 1: the chunk's sums added to what the row held
    have h1 : (x 0).val = 1 := by omega
    have hpos : (false = decide ((x 0).val = 0)) := by rw [decide_eq_false h0]
    rw [if_pos hpos]
    have hemb : (Rect.unit (s := S2x16) ![1, 0] S1x16.size inb_S2x16_S1x16_1_0).emb (ixr (x 1)) = x := by
      funext a
      apply Fin.ext
      match a with
      | ⟨0, _⟩ => show 1 + 1 * 0 = (x 0).val; omega
      | ⟨1, _⟩ => show 0 + 1 * (x 1).val = (x 1).val; omega
    have h := View.read_writes_cons_emb (s_13).view fsq (Rect.unit (s := S2x16) ![1, 0] S1x16.size inb_S2x16_S1x16_1_0)
      (k1_pay116 acc ((s_13).view.readAt (Elt F) (Rect.unit (s := S2x16) ![1, 0] S1x16.size inb_S2x16_S1x16_1_0).toLoadRect fsq)) []
      (ixr (x 1))
    rw [hemb] at h
    refine h.trans ?_
    have hpay : k1_pay116 acc ((s_13).view.readAt (Elt F) (Rect.unit (s := S2x16) ![1, 0] S1x16.size inb_S2x16_S1x16_1_0).toLoadRect fsq) (ixr (x 1))
        = FloatOps.addf (fsq x) (acc (ixl (x 1))) := by
      unfold k1_pay116
      refine (shapeCast_addUnit_apply (α := F .f32) ![16] _ shapeCasts_S16_S1x16 (ixr (x 1))).trans ?_
      show FloatOps.addf (shapeCast S16 _ shapeCasts_S1x16_S16 (fun a => ixr (x 1) a.succ)) (acc (fun a => ixr (x 1) a.succ)) = _
      have ej : (fun a : Fin 1 => ixr (x 1) a.succ) = ixl (x 1) := by
        funext a
        match a with
        | ⟨0, _⟩ => rfl
      rw [ej]
      congr 1
      refine (shapeCast_dropUnit_apply (α := F .f32) ![16] _ shapeCasts_S1x16_S16 (ixl (x 1))).trans ?_
      show fsq _ = fsq x
      congr 1
      funext a
      apply Fin.ext
      match a with
      | ⟨0, _⟩ => show 1 + 1 * 0 = (x 0).val; omega
      | ⟨1, _⟩ => show 0 + 1 * (x 1).val = (x 1).val; omega
    rw [hpay, hfsq x, hacc (ixl (x 1)), decide_eq_false h0]

/-! ## The rows written back -/

/-- THE COPY-OUT'S ROWS: the chunk's window of the second result, written with the output buffer's rows, holds the
    result's values there. -/
theorem out_rows (k : Fin k1_t1_loop.trips) (c7 : k1_cond7 L k = 1#1) (hN : 4096 ≤ rA L k.val)
    (fn : Buf (Elt F) ((m_e1n).view.loc (thr d L))) (P : S32x128.Idx → F .f32)
    (hP : ∀ j : S32x128.Idx, P j = E1 I d (rA L k.val + (j 0).val) (j 1).val) :
    ((((m_e1n).slice (Rect.unit (s := S40960x128) (k1_off27 L k) S32x128.size (k1_off27_inb L k c7)) (fun _ => rfl)).view.loc (thr d L)
        ↦[((m_e1n).slice (Rect.unit (s := S40960x128) (k1_off27 L k) S32x128.size (k1_off27_inb L k c7)) (fun _ => rfl)).view.set]{fullShare}
          (((m_e1n).slice (Rect.unit (s := S40960x128) (k1_off27 L k) S32x128.size (k1_off27_inb L k c7)) (fun _ => rfl)).view.writes (Elt F) fn
            [⟨Rect.whole S32x128, P⟩]) : sProp 𝕄))
      ⊢ outDone I d L (rA L k.val) := by
  have hge : ¬ rA L k.val < 4096 := by omega
  unfold outDone
  rw [if_neg hge, e1n_win_set L k c7]
  refine Entails.of_eq (pointsTo_congr fun i hi => ?_)
  have hi0 : (i 0).val < 40960 := (i 0).isLt
  have hi1 : (i 1).val < 128 := (i 1).isLt
  simp only [cN, Finset.mem_filter, Finset.mem_univ, true_and] at hi
  -- the window's index of `i`
  let j : S32x128.Idx := mkIdx S32x128 (by decide) ![(i 0).val - (rA L k.val - 4096), (i 1).val]
  have hj0 : (j 0).val = (i 0).val - (rA L k.val - 4096) := mkIdx_val S32x128 (by decide) _ 0 (by show (i 0).val - (rA L k.val - 4096) < 32; omega)
  have hj1 : (j 1).val = (i 1).val := mkIdx_val S32x128 (by decide) _ 1 hi1
  have hoff0 : k1_off27 L k 0 = rA L k.val - 4096 := (congrFun (k1_off27_eq' L k c7) 0).trans rfl
  have hoff1 : k1_off27 L k 1 = 0 := (congrFun (k1_off27_eq' L k c7) 1).trans rfl
  have hemb : ((m_e1n).slice (Rect.unit (s := S40960x128) (k1_off27 L k) S32x128.size (k1_off27_inb L k c7)) (fun _ => rfl)).view.emb
      ((Rect.whole S32x128).emb j) = i := by
    rw [Rect.emb_whole_apply]
    funext a
    apply Fin.ext
    match a with
    | ⟨0, _⟩ => show k1_off27 L k 0 + 1 * (j 0).val = (i 0).val; rw [hoff0, hj0]; omega
    | ⟨1, _⟩ => show k1_off27 L k 1 + 1 * (j 1).val = (i 1).val; rw [hoff1, hj1]; omega
  have h := View.read_writes_cons_emb ((m_e1n).slice (Rect.unit (s := S40960x128) (k1_off27 L k) S32x128.size (k1_off27_inb L k c7)) (fun _ => rfl)).view
    fn (Rect.whole S32x128) P [] j
  rw [View.read_apply, hemb] at h
  have h' : ((m_e1n).slice (Rect.unit (s := S40960x128) (k1_off27 L k) S32x128.size (k1_off27_inb L k c7)) (fun _ => rfl)).view.writes (Elt F) fn
      [⟨Rect.whole S32x128, P⟩] i = P j := h
  rw [h', hP j, hj0, hj1]
  have hr : rA L k.val + ((i 0).val - (rA L k.val - 4096)) = 4096 + (i 0).val := by omega
  rw [hr]
  rfl

/-- THE ROWS LANDED: with the chunk two back landed, the written rows reach one chunk further. -/
theorem done_step (k : ℕ) (hk0 : k ≠ 0) (hk : k < 22) (hN : 4096 ≤ rA L k) :
    iprop(((m_e1t).view.loc (thr d L) ↦[tDone (wL L) (rA L k - 64)]{fullShare} E1t I d)
        ∗ ((m_e1n).view.loc (thr d L) ↦[nDone (wL L) (rA L k - 64)]{fullShare} E1n I d)
        ∗ outDone I d L (rA L k - 64))
      ⊢ iprop(((m_e1t).view.loc (thr d L) ↦[tDone (wL L) (rA L k - 32)]{fullShare} E1t I d)
        ∗ ((m_e1n).view.loc (thr d L) ↦[nDone (wL L) (rA L k - 32)]{fullShare} E1n I d)) := by
  have hk1 : 1 ≤ k := Nat.one_le_iff_ne_zero.mpr hk0
  have e64 : rA L k - 64 = wL L * 1408 + 32 * (2 * k - 2) := by rw [rA_eq]; omega
  have e32 : rA L k - 32 = wL L * 1408 + 32 * (2 * k - 2) + 32 := by rw [rA_eq]; omega
  unfold outDone
  by_cases h : rA L k - 64 < 4096
  · rw [if_pos h, e32, e64, ← tDone_union_cT (wL L) (2 * k - 2) (by omega) (by rw [← e64]; exact h),
      nDone_of_lt (wL L) (wL L * 1408 + 32 * (2 * k - 2)) (wL L * 1408 + 32 * (2 * k - 2) + 32) (by rw [← e64]; omega) (by rw [← e64]; rw [rA_eq] at hN ⊢; omega)]
    iintro ⟨Ht, Hn, H1⟩
    isplitr [Hn]
    · iapply (pointsTo_union (ℓ := (m_e1t).view.loc (thr d L)) (q := fullShare) (f := E1t I d) (tDone_disjoint_cT (wL L) _)).2
      isplitl [Ht]; · iexact Ht
      iexact H1
    · iexact Hn
  · have hge : 4096 ≤ rA L k - 64 := by omega
    rw [if_neg h, e32, e64, ← nDone_union_cN (wL L) (2 * k - 2) (by omega) (by rw [← e64]; exact hge),
      tDone_of_ge (wL L) (wL L * 1408 + 32 * (2 * k - 2)) (wL L * 1408 + 32 * (2 * k - 2) + 32) (by rw [← e64]; exact hge) (by rw [← e64]; omega)]
    iintro ⟨Ht, Hn, H1⟩
    isplitl [Ht]; · iexact Ht
    iapply (pointsTo_union (ℓ := (m_e1n).view.loc (thr d L)) (q := fullShare) (f := E1n I d) (nDone_disjoint_cN (wL L) _ (by rw [← e64]; exact hge))).2
    isplitl [Hn]; · iexact Hn
    iexact H1

/-! ## The run -/

set_option maxHeartbeats 4000000 in
theorem tripA_N_pos (hpre : PreOK I) (O : CellTallies nD τ sig (HIx 1)) (W : Waits sig (HIx 1)) (k : Fin k1_t1_loop.trips) (hN : 4096 ≤ rA L k.val) (hk0 : k.val ≠ 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hk22 : k.val < 22 := Nat.lt_of_lt_of_eq k.isLt trips22
  unfold Inv
  rw [Set0_lt I d L hk22, Outs_pos I d L hk0]
  unfold Loaded0 Idle1 LoopRO Pieces FlS0 FlN0 FlW0 FlW1
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨Hm18, Hm19⟩,
    ⟨⟨%ft, Het⟩, ⟨%fn, Hen⟩, Hdt, Hdn⟩⟩
  have c3 : ¬ k1_cond3 L k = 1#1 := fun h => by have := (k1_cond3_iff L k).mp h; unfold rA base at hN; omega
  have c4 : k1_cond4 L k = 1#1 := (k1_cond4_iff L k).mpr (by unfold rA base at hN; omega)
  have c6 : ¬ k1_cond6 L k = 1#1 := fun h => by have := (k1_cond6_iff L k).mp h; unfold rA base at hN; omega
  have c7 : k1_cond7 L k = 1#1 := (k1_cond7_iff L k).mpr (by unfold rA base at hN; omega)
  have h32 : 32 ∣ rA L k.val := ⟨wL L * 44 + 2 * k.val, by rw [rA_eq]; omega⟩
  unfold tripA
  sl_exec
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      exact list1_vals I d L k c4 _ f1 x
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      exact list3_vals I d L k c4 _ f3 x
  icases Hs3' with ⟨%g3, Hs3, %hg3⟩
  have hin1 : ∀ x, ((s_1).view.read (Elt F) g1 x).toNat < S100000x128.size (gathers_S100000x128_S32x128).axis := fun x => by
    rw [show (s_1).view.read (Elt F) g1 x = g1 x from rfl, hg1]; exact selfIdx_lt I d hpre _ _
  have hin3 : ∀ x, ((s_3).view.read (Elt F) g3 x).toNat < S100000x128.size (gathers_S100000x128_S320x128).axis := fun x => by
    rw [show (s_3).view.read (Elt F) g3 x = g3 x from rfl, hg3]; exact nbrIdx_lt I d hpre _ _
  sl_exec
  have hN_Hm14 : (s_6).view.dmaCredit = 131072 := by decide
  iapply (Transfers.wp_waitLocalO countersEmb 𝒱₀ (thr d L) none (none : HIx 1) (dstw := s_6) (hN := hN_Hm14)) $$ [Hm14 HO]
  · isplitl [Hm14]; · iexact Hm14
    isplitl [HO]; · iexact HO
    iapply (Transfers.MayWaits.elim _) $$ Hmw
  iintro ⟨HD, Hm14, HO⟩
  icases HD with ⟨%fs0, %g0, %hfg0, Hs6, Hs0, Hsp0⟩
  sl_step
  sl_exec
  have hN_Hm15 : (s_8).view.dmaCredit = 1310720 := by decide
  iapply (Transfers.wp_waitLocalO countersEmb 𝒱₀ (thr d L) none (none : HIx 1) (dstw := s_8) (hN := hN_Hm15)) $$ [Hm15 HO]
  · isplitl [Hm15]; · iexact Hm15
    isplitl [HO]; · iexact HO
    iapply (Transfers.MayWaits.elim _) $$ Hmw
  iintro ⟨HD, Hm15, HO⟩
  icases HD with ⟨%fn0, %g2, %hfg2, Hs8, Hs2, Hap0⟩
  sl_step
  sl_exec
  have hv43 : tripA_N_pos.sl.v43 k = 1#1 := v43_pos k hk0
  sl_exec
  have hN18 : ((m_e1t).slice (Rect.unit (s := S4096x128) ![0, 0] S32x128.size inb_S4096x128_S32x128_0_0) (fun _ => rfl)).view.dmaCredit = 131072 := by decide
  iapply (Transfers.wp_waitLocalO countersEmb 𝒱₀ (thr d L) none (none : HIx 1) (hN := hN18)) $$ [Hm18 HO]
  · isplitl [Hm18]; · iexact Hm18
    isplitl [HO]; · iexact HO
    iapply (Transfers.MayWaits.elim _) $$ Hmw
  iintro ⟨⟨⟨%f10, Hs10⟩, Hod0⟩, Hm18, HO⟩
  beta_reduce
  sl_exec
  sl_for (RowInv0 d L fal fs0 fn0 fb) $$ [Hs4 Hs6 Hs8 Hs12 Hs10]
  case region => exact row_trip0 d L (v2 L) k fal fs0 fn0 fb
  · unfold RowInv0
    isplitr; · ipureintro; rfl
    isplitl [Hs4]; · iexact Hs4
    isplitl [Hs6]; · iexact Hs6
    isplitl [Hs8]; · iexact Hs8
    isplitl [Hs12]; · iexact Hs12
    iexists f10; isplitr; · ipureintro; intro x hx; exact absurd hx (Nat.not_lt_zero _)
    iexact Hs10
  iintro %acc Hinv
  unfold RowInv0
  icases Hinv with ⟨%hacc, Hs4, Hs6, Hs8, Hs12, ⟨%fo, %hfo, Hs10⟩⟩
  have hro : ∀ i col, i < 32 → col < 128 → rowOut fal fs0 fn0 fb i col = E1 I d (rA L k.val + i) col := fun i col hi hc =>
    rowOut_eq_E1 I d (rA L k.val) h32 fal fs0 fn0 fb hfal hfg0.2 hfg2.2 hfb i col hi hc
  have hacc' : ∀ l : S16.Idx, acc l = chunkSq I d (rA L k.val) (l 0).val := fun l => by
    rw [hacc]; exact sqAcc_eq_chunkSq I d (rA L k.val) _ hro l
  have hfo' : ∀ j : S32x128.Idx, fo j = E1 I d (rA L k.val + (j 0).val) (j 1).val := fun j => by
    rw [hfo j (j 0).isLt]; exact hro _ _ (j 0).isLt (j 1).isLt
  have hsub : ((m_e1n).slice (Rect.unit (s := S40960x128) (k1_off27 L k) S32x128.size (k1_off27_inb L k c7)) (fun _ => rfl)).view.set ⊆ nRem (wL L) (rA L k.val) := by
    rw [e1n_win_set L k c7]; exact cN_sub L k.val hk22 hN
  ihave Hsplit := (pointsTo_split_subset hsub).1 $$ Hen
  icases Hsplit with ⟨Hdst, Hen⟩
  ihave Hdst := (show ((m_e1n).view.loc (thr d L) ↦[((m_e1n).slice (Rect.unit (s := S40960x128) (k1_off27 L k) S32x128.size (k1_off27_inb L k c7)) (fun _ => rfl)).view.set]{fullShare} fn : sProp 𝕄)
      ⊢ (((m_e1n).slice (Rect.unit (s := S40960x128) (k1_off27 L k) S32x128.size (k1_off27_inb L k c7)) (fun _ => rfl)).view.loc (thr d L) ↦[((m_e1n).slice (Rect.unit (s := S40960x128) (k1_off27 L k) S32x128.size (k1_off27_inb L k c7)) (fun _ => rfl)).view.set]{fullShare} fn) from .rfl) $$ Hdst
  sl_exec
  sl_step
  unfold Mid Idle0 Loaded1 LoopRO FlS1 FlN1 FlW0
  rw [Outs1_pos I d L hk0]
  unfold FlW1
  isplitr; · ipureintro; rfl
  isplitr; · iexact Hmw
  isplitl [HO]
  · iexists _
    isplitr; swap; · iexact HO
    ipureintro
    intro p hp
    simp only [Finset.mem_insert] at hp
    rcases hp with hp | hp | hp | hp | hp | hp | hp
    · exact .inr (hp ▸ rfl)
    · exact .inr (hp ▸ rfl)
    · exact .inr (hp ▸ rfl)
    · exact .inr (hp ▸ rfl)
    · exact .inr (hp ▸ rfl)
    · exact .inr (hp ▸ rfl)
    · exact hW' p hp
  isplitl [Hnid Hn1 Hn2 Ha1 Ha2 Hr7 Hr8 Hr9 Hr10 Hr11 Hr12 Hr13 Hr14 Hr15 Hr16 Hr17 Hr18]
  · isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb; isplitr; · ipureintro; exact hfb
    iexact Hs12
  isplitl [Hs13]
  · iexists _; isplitr; swap; · iexact Hs13
    ipureintro
    intro x
    exact sq_row1 I d L k.val hN fsq hfsq acc hacc' x
  isplitl [Hs0 Hs2 Hs4 Hs6 Hs8 Hm14 Hm15 Hsp0 Hap0]
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0]
    · iapply (Entails.of_eq (congrArg (fun S => ((m_sp).view.loc (thr d L) ↦[S]{Transfers.shareTokN (rsh (wL L)) 12} I.sp d : sProp 𝕄)) spSl_set)) $$ Hsp0
    · iapply (Entails.of_eq (congrArg (fun S => ((m_ap).view.loc (thr d L) ↦[S]{Transfers.shareTokN (rsh (wL L)) 13} I.ap d : sProp 𝕄)) apSl_set)) $$ Hap0
  isplitl [Hs5 Hm16 Hm17]
  · isplitl [Hs5]
    · iexists _; isplitr; swap; · iexact Hs5
      ipureintro
      intro x hx
      exact wts5_vals I d L k c4 _ f5 x hx
    isplitl [Hm16]
    · iapply (Transfers.Flight_mono countersEmb (thr d L) ?_) $$ Hm16
      iintro ⟨⟨H7, H1⟩, Hsp⟩
      iexists _, g1
      isplitr; swap
      · isplitl [H7]; · iexact H7
        isplitl [H1]; · iexact H1
        iexact Hsp
      ipureintro
      exact ⟨hg1, fun x => land7_vals I d L (rA L k.val + 32) g1 hg1 _ hin1 f7 x⟩
    · iapply (Transfers.Flight_mono countersEmb (thr d L) ?_) $$ Hm17
      iintro ⟨⟨H9, H3⟩, Hap⟩
      iexists _, g3
      isplitr; swap
      · isplitl [H9]; · iexact H9
        isplitl [H3]; · iexact H3
        iexact Hap
      ipureintro
      exact ⟨hg3, fun x => land9_vals I d L (rA L k.val + 32) g3 hg3 _ hin3 f9 x⟩
  isplitl [Hm18]
  · iapply (Transfers.Flight_mono countersEmb (thr d L) ?_) $$ Hm18
    iintro ⟨Hrows, H10⟩
    isplitl [H10]
    · iexists fo
      iapply (Entails.of_eq (congrArg (fun S => ((s_10).view.loc (thr d L) ↦[S]{fullShare} fo : sProp 𝕄)) (View.set_whole cc1_scratch10))) $$ H10
    iapply (out_rows I d L k c7 hN fn (tripA_N_pos.sl.dma3 d L fo) (fun j => hfo' j))
    iexact Hrows
  isplitl [Hm19]; · iexact Hm19
  isplitl [Het]
  · iexists ft
    iapply (Entails.of_eq (by rw [tRem_of_ge (wL L) (rA L k.val) (rA L k.val + 32) hN (by omega)])) $$ Het
  isplitl [Hen]
  · iexists fn
    iapply (Entails.of_eq (by rw [e1n_win_set L k c7, nRem_sdiff L k.val hk22 hN])) $$ Hen
  iapply (done_step I d L k.val hk0 hk22 hN) $$ [Hdt Hdn Hod0]
  isplitl [Hdt]; · iexact Hdt
  isplitl [Hdn]; · iexact Hdn
  iexact Hod0

set_option maxHeartbeats 4000000 in
theorem tripA_N_zero (hpre : PreOK I) (O : CellTallies nD τ sig (HIx 1)) (W : Waits sig (HIx 1)) (k : Fin k1_t1_loop.trips) (hN : 4096 ≤ rA L k.val) (hk0 : k.val = 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hk22 : k.val < 22 := Nat.lt_of_lt_of_eq k.isLt trips22
  unfold Inv
  have hO0 : Outs I d L k.val = iprop((∃ f, (s_10).view.loc (thr d L) ↦{fullShare} f) ∗ (∃ f, (s_11).view.loc (thr d L) ↦{fullShare} f)
      ∗ semVal ((thr d L, SemLoc.dma cc1_scratch18.sem) : GSem nD τ sig) 0 ∗ semVal ((thr d L, SemLoc.dma cc1_scratch19.sem) : GSem nD τ sig) 0) := by
    rw [hk0]; exact Outs_zero I d L
  have hO1 : Outs1 I d L k.val = iprop((∃ f, (s_11).view.loc (thr d L) ↦{fullShare} f) ∗ semVal ((thr d L, SemLoc.dma cc1_scratch19.sem) : GSem nD τ sig) 0) := by
    rw [hk0]; exact Outs1_zero I d L
  rw [Set0_lt I d L hk22, hO0]
  unfold Loaded0 Idle1 LoopRO Pieces FlS0 FlN0
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨⟨%f10, Hs10⟩, ⟨%f11, Hs11⟩, Hm18, Hm19⟩,
    ⟨⟨%ft, Het⟩, ⟨%fn, Hen⟩, Hdt, Hdn⟩⟩
  have c3 : ¬ k1_cond3 L k = 1#1 := fun h => by have := (k1_cond3_iff L k).mp h; unfold rA base at hN; omega
  have c4 : k1_cond4 L k = 1#1 := (k1_cond4_iff L k).mpr (by unfold rA base at hN; omega)
  have c6 : ¬ k1_cond6 L k = 1#1 := fun h => by have := (k1_cond6_iff L k).mp h; unfold rA base at hN; omega
  have c7 : k1_cond7 L k = 1#1 := (k1_cond7_iff L k).mpr (by unfold rA base at hN; omega)
  have h32 : 32 ∣ rA L k.val := ⟨wL L * 44 + 2 * k.val, by rw [rA_eq]; omega⟩
  unfold tripA
  sl_exec
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      exact list1_vals I d L k c4 _ f1 x
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      exact list3_vals I d L k c4 _ f3 x
  icases Hs3' with ⟨%g3, Hs3, %hg3⟩
  have hin1 : ∀ x, ((s_1).view.read (Elt F) g1 x).toNat < S100000x128.size (gathers_S100000x128_S32x128).axis := fun x => by
    rw [show (s_1).view.read (Elt F) g1 x = g1 x from rfl, hg1]; exact selfIdx_lt I d hpre _ _
  have hin3 : ∀ x, ((s_3).view.read (Elt F) g3 x).toNat < S100000x128.size (gathers_S100000x128_S320x128).axis := fun x => by
    rw [show (s_3).view.read (Elt F) g3 x = g3 x from rfl, hg3]; exact nbrIdx_lt I d hpre _ _
  sl_exec
  have hN_Hm14 : (s_6).view.dmaCredit = 131072 := by decide
  iapply (Transfers.wp_waitLocalO countersEmb 𝒱₀ (thr d L) none (none : HIx 1) (dstw := s_6) (hN := hN_Hm14)) $$ [Hm14 HO]
  · isplitl [Hm14]; · iexact Hm14
    isplitl [HO]; · iexact HO
    iapply (Transfers.MayWaits.elim _) $$ Hmw
  iintro ⟨HD, Hm14, HO⟩
  icases HD with ⟨%fs0, %g0, %hfg0, Hs6, Hs0, Hsp0⟩
  sl_step
  sl_exec
  have hN_Hm15 : (s_8).view.dmaCredit = 1310720 := by decide
  iapply (Transfers.wp_waitLocalO countersEmb 𝒱₀ (thr d L) none (none : HIx 1) (dstw := s_8) (hN := hN_Hm15)) $$ [Hm15 HO]
  · isplitl [Hm15]; · iexact Hm15
    isplitl [HO]; · iexact HO
    iapply (Transfers.MayWaits.elim _) $$ Hmw
  iintro ⟨HD, Hm15, HO⟩
  icases HD with ⟨%fn0, %g2, %hfg2, Hs8, Hs2, Hap0⟩
  sl_step
  sl_exec
  have hv43 : ¬ tripA_N_zero.sl.v43 k = 1#1 := v43_zero k hk0
  sl_exec
  sl_for (RowInv0 d L fal fs0 fn0 fb) $$ [Hs4 Hs6 Hs8 Hs12 Hs10]
  case region => exact row_trip0 d L (v2 L) k fal fs0 fn0 fb
  · unfold RowInv0
    isplitr; · ipureintro; rfl
    isplitl [Hs4]; · iexact Hs4
    isplitl [Hs6]; · iexact Hs6
    isplitl [Hs8]; · iexact Hs8
    isplitl [Hs12]; · iexact Hs12
    iexists f10; isplitr; · ipureintro; intro x hx; exact absurd hx (Nat.not_lt_zero _)
    iexact Hs10
  iintro %acc Hinv
  unfold RowInv0
  icases Hinv with ⟨%hacc, Hs4, Hs6, Hs8, Hs12, ⟨%fo, %hfo, Hs10⟩⟩
  have hro : ∀ i col, i < 32 → col < 128 → rowOut fal fs0 fn0 fb i col = E1 I d (rA L k.val + i) col := fun i col hi hc =>
    rowOut_eq_E1 I d (rA L k.val) h32 fal fs0 fn0 fb hfal hfg0.2 hfg2.2 hfb i col hi hc
  have hacc' : ∀ l : S16.Idx, acc l = chunkSq I d (rA L k.val) (l 0).val := fun l => by
    rw [hacc]; exact sqAcc_eq_chunkSq I d (rA L k.val) _ hro l
  have hfo' : ∀ j : S32x128.Idx, fo j = E1 I d (rA L k.val + (j 0).val) (j 1).val := fun j => by
    rw [hfo j (j 0).isLt]; exact hro _ _ (j 0).isLt (j 1).isLt
  have hsub : ((m_e1n).slice (Rect.unit (s := S40960x128) (k1_off27 L k) S32x128.size (k1_off27_inb L k c7)) (fun _ => rfl)).view.set ⊆ nRem (wL L) (rA L k.val) := by
    rw [e1n_win_set L k c7]; exact cN_sub L k.val hk22 hN
  ihave Hsplit := (pointsTo_split_subset hsub).1 $$ Hen
  icases Hsplit with ⟨Hdst, Hen⟩
  ihave Hdst := (show ((m_e1n).view.loc (thr d L) ↦[((m_e1n).slice (Rect.unit (s := S40960x128) (k1_off27 L k) S32x128.size (k1_off27_inb L k c7)) (fun _ => rfl)).view.set]{fullShare} fn : sProp 𝕄)
      ⊢ (((m_e1n).slice (Rect.unit (s := S40960x128) (k1_off27 L k) S32x128.size (k1_off27_inb L k c7)) (fun _ => rfl)).view.loc (thr d L) ↦[((m_e1n).slice (Rect.unit (s := S40960x128) (k1_off27 L k) S32x128.size (k1_off27_inb L k c7)) (fun _ => rfl)).view.set]{fullShare} fn) from .rfl) $$ Hdst
  sl_exec
  sl_step
  unfold Mid Idle0 Loaded1 LoopRO FlS1 FlN1 FlW0
  rw [hO1]
  isplitr; · ipureintro; rfl
  isplitr; · iexact Hmw
  isplitl [HO]
  · iexists _
    isplitr; swap; · iexact HO
    ipureintro
    intro p hp
    simp only [Finset.mem_insert] at hp
    rcases hp with hp | hp | hp | hp | hp | hp
    · exact .inr (hp ▸ rfl)
    · exact .inr (hp ▸ rfl)
    · exact .inr (hp ▸ rfl)
    · exact .inr (hp ▸ rfl)
    · exact .inr (hp ▸ rfl)
    · exact hW' p hp
  isplitl [Hnid Hn1 Hn2 Ha1 Ha2 Hr7 Hr8 Hr9 Hr10 Hr11 Hr12 Hr13 Hr14 Hr15 Hr16 Hr17 Hr18]
  · isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb; isplitr; · ipureintro; exact hfb
    iexact Hs12
  isplitl [Hs13]
  · iexists _; isplitr; swap; · iexact Hs13
    ipureintro
    intro x
    exact sq_row1 I d L k.val hN fsq hfsq acc hacc' x
  isplitl [Hs0 Hs2 Hs4 Hs6 Hs8 Hm14 Hm15 Hsp0 Hap0]
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0]
    · iapply (Entails.of_eq (congrArg (fun S => ((m_sp).view.loc (thr d L) ↦[S]{Transfers.shareTokN (rsh (wL L)) 12} I.sp d : sProp 𝕄)) spSl_set)) $$ Hsp0
    · iapply (Entails.of_eq (congrArg (fun S => ((m_ap).view.loc (thr d L) ↦[S]{Transfers.shareTokN (rsh (wL L)) 13} I.ap d : sProp 𝕄)) apSl_set)) $$ Hap0
  isplitl [Hs5 Hm16 Hm17]
  · isplitl [Hs5]
    · iexists _; isplitr; swap; · iexact Hs5
      ipureintro
      intro x hx
      exact wts5_vals I d L k c4 _ f5 x hx
    isplitl [Hm16]
    · iapply (Transfers.Flight_mono countersEmb (thr d L) ?_) $$ Hm16
      iintro ⟨⟨H7, H1⟩, Hsp⟩
      iexists _, g1
      isplitr; swap
      · isplitl [H7]; · iexact H7
        isplitl [H1]; · iexact H1
        iexact Hsp
      ipureintro
      exact ⟨hg1, fun x => land7_vals I d L (rA L k.val + 32) g1 hg1 _ hin1 f7 x⟩
    · iapply (Transfers.Flight_mono countersEmb (thr d L) ?_) $$ Hm17
      iintro ⟨⟨H9, H3⟩, Hap⟩
      iexists _, g3
      isplitr; swap
      · isplitl [H9]; · iexact H9
        isplitl [H3]; · iexact H3
        iexact Hap
      ipureintro
      exact ⟨hg3, fun x => land9_vals I d L (rA L k.val + 32) g3 hg3 _ hin3 f9 x⟩
  isplitl [Hm18]
  · iapply (Transfers.Flight_mono countersEmb (thr d L) ?_) $$ Hm18
    iintro ⟨Hrows, H10⟩
    isplitl [H10]
    · iexists fo
      iapply (Entails.of_eq (congrArg (fun S => ((s_10).view.loc (thr d L) ↦[S]{fullShare} fo : sProp 𝕄)) (View.set_whole cc1_scratch10))) $$ H10
    iapply (out_rows I d L k c7 hN fn (tripA_N_zero.sl.dma3 d L fo) (fun j => hfo' j))
    iexact Hrows
  isplitl [Hs11 Hm19]
  · isplitl [Hs11]; · iexists f11; iexact Hs11
    iexact Hm19
  isplitl [Het]
  · iexists ft
    iapply (Entails.of_eq (by rw [tRem_of_ge (wL L) (rA L k.val) (rA L k.val + 32) hN (by omega)])) $$ Het
  isplitl [Hen]
  · iexists fn
    iapply (Entails.of_eq (by rw [e1n_win_set L k c7, nRem_sdiff L k.val hk22 hN])) $$ Hen
  isplitl [Hdt]
  · iapply (Entails.of_eq (by rw [tDone_base (wL L) (rA L k.val - 64) (by rw [rA_eq]; omega), tDone_base (wL L) (rA L k.val - 32) (by rw [rA_eq]; omega)])) $$ Hdt
  · iapply (Entails.of_eq (by rw [nDone_base (wL L) (rA L k.val - 64) (by rw [rA_eq]; omega), nDone_base (wL L) (rA L k.val - 32) (by rw [rA_eq]; omega)])) $$ Hdn

set_option maxHeartbeats 4000000 in
/-- THE FIRST HALF OF A PAIR OF NEIGHBOUR CHUNKS: by cases on whether the pair is the worker's first. -/
theorem tripA_N (hpre : PreOK I) (O : CellTallies nD τ sig (HIx 1)) (W : Waits sig (HIx 1)) (k : Fin k1_t1_loop.trips) (hN : 4096 ≤ rA L k.val) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  by_cases hk0 : k.val = 0
  · exact tripA_N_zero I d L hpre O W k hN hk0
  · exact tripA_N_pos I d L hpre O W k hN hk0

end Tile
end Cert.KernelIdeal.Tile
end
-- ==== Proof.TileTripA.lean ====
/-
  The first half of a pair of chunks on a vector subcore: from the pair loop's invariant to the middle of the pair, by
  the kind of the pair's chunks.
-/
import proofs.«213116_g69346541961480_cont_9to1_m_612_34_alg».proof.Proof.TileTripAT
import proofs.«213116_g69346541961480_cont_9to1_m_612_34_alg».proof.Proof.TileTripAN
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripA_run (hpre : PreOK I) (O : CellTallies nD τ sig (HIx 1)) (W : Waits sig (HIx 1)) (k : Fin k1_t1_loop.trips) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  rcases Nat.lt_or_ge (rA L k.val) 4096 with hT | hN
  · exact tripA_T I d L hpre O W k hT
  · exact tripA_N I d L hpre O W k hN

end Tile
end Cert.KernelIdeal.Tile
end
-- ==== Proof.TileTripBX.lean ====
/-
  What a run of the second half of a pair leaves, restated as the pair loop's invariant wants it: the subcore's two rows of
  sums after a target chunk's sum is added (one more chunk in the running sum of the worker's target chunks), and the
  transfers the run has started — the two gathers into buffer set 0 and the copy-out of buffer set 1's rows into the first
  result — with what their landing hands back: the rows the lists name, and the chunk's rows at their values.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueLayout
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## The subcore's two rows of sums, a target chunk's sum added -/

theorem sq13_target (fsq : Buf (Elt F) ((s_13).view.loc (thr d L))) (acc : FVec F S16 .f32) (w n : ℕ)
    (hfsq : ∀ x : S2x16.Idx, fsq x = tileSqUpto I d w n (decide ((x 0).val = 0)) (x 1).val)
    (ht : w * 1408 + 32 * n < 4096)
    (hacc : ∀ l : S16.Idx, acc l = chunkSq I d (w * 1408 + 32 * n) (l 0).val) (x : S2x16.Idx) :
    (s_13).view.writes (Elt F) fsq [⟨Rect.unit (s := S2x16) ![0, 0] S1x16.size inb_S2x16_S1x16_0_0,
        k1_pay121 acc ((s_13).view.readAt (Elt F) (Rect.unit (s := S2x16) ![0, 0] S1x16.size inb_S2x16_S1x16_0_0).toLoadRect fsq)⟩] x
      = tileSqUpto I d w (n + 1) (decide ((x 0).val = 0)) (x 1).val := by
  have hx0 : (x 0).val < 2 := (x 0).isLt
  have hx1 : (x 1).val < 16 := (x 1).isLt
  rw [tileSqUpto_succ]
  by_cases h0 : (x 0).val = 0
  · have ex : (Rect.unit (s := S2x16) ![0, 0] S1x16.size inb_S2x16_S1x16_0_0).emb (ValueIdx.ix2 (0 : Fin 1) (x 1)) = x := by
      funext a
      match a with
      | ⟨0, _⟩ => apply Fin.ext; show 0 + 1 * 0 = (x 0).val; omega
      | ⟨1, _⟩ => apply Fin.ext; show 0 + 1 * (x 1).val = (x 1).val; omega
    have hr := View.read_writes_cons_emb (s_13).view fsq (Rect.unit (s := S2x16) ![0, 0] S1x16.size inb_S2x16_S1x16_0_0)
      (k1_pay121 acc ((s_13).view.readAt (Elt F) (Rect.unit (s := S2x16) ![0, 0] S1x16.size inb_S2x16_S1x16_0_0).toLoadRect fsq)) []
      (ValueIdx.ix2 (0 : Fin 1) (x 1))
    rw [ex] at hr
    refine (show _ = _ from hr).trans ?_
    unfold k1_pay121
    refine (ValueIdx.shapeCast_a_1a_apply (a := 16) _ shapeCasts_S16_S1x16 (0 : Fin 1) (x 1)).trans ?_
    show FloatOps.addf (shapeCast S16 ((s_13).view.readAt (Elt F) (Rect.unit (s := S2x16) ![0, 0] S1x16.size inb_S2x16_S1x16_0_0).toLoadRect fsq) shapeCasts_S1x16_S16 (ValueIdx.ix1 (x 1)))
      (acc (ValueIdx.ix1 (x 1))) = _
    rw [ValueIdx.shapeCast_1a_a_apply (a := 16) _ shapeCasts_S1x16_S16 (x 1), hacc]
    have hv : (s_13).view.readAt (Elt F) (Rect.unit (s := S2x16) ![0, 0] S1x16.size inb_S2x16_S1x16_0_0).toLoadRect fsq (ValueIdx.ix2 (0 : Fin 1) (x 1)) = fsq x := by
      show fsq ((Rect.unit (s := S2x16) ![0, 0] S1x16.size inb_S2x16_S1x16_0_0).emb (ValueIdx.ix2 (0 : Fin 1) (x 1))) = fsq x
      rw [ex]
    rw [hv, hfsq, if_pos (by rw [decide_eq_true ht, decide_eq_true h0])]
  · have hne : ∀ p ∈ ([⟨Rect.unit (s := S2x16) ![0, 0] S1x16.size inb_S2x16_S1x16_0_0,
        k1_pay121 acc ((s_13).view.readAt (Elt F) (Rect.unit (s := S2x16) ![0, 0] S1x16.size inb_S2x16_S1x16_0_0).toLoadRect fsq)⟩] : List (View.Piece (Elt F) S2x16 .f32)),
        x ∉ p.1.set := by
      intro p hp
      rw [List.mem_singleton] at hp
      subst hp
      rw [Rect.mem_set_unit]
      intro h
      have := h 0
      simp only [Matrix.cons_val_zero] at this
      omega
    have hr := View.read_writes_apply_of_forall_not_mem (s_13).view fsq x _ hne
    refine (show _ = _ from hr).trans ?_
    show fsq x = _
    rw [hfsq, if_neg (by rw [decide_eq_true ht, decide_eq_false h0]; decide)]

/-! ## The flights a run leaves are the invariant's -/

/-- The first table's gather into buffer set 0, as the run issues it. -/
theorem FlS0_of (r0 : ℕ) (f6 : Buf (Elt F) ((s_6).view.loc (thr d L))) (g0 : Buf (Elt F) ((s_0).view.loc (thr d L)))
    (P : (Rect.whole S32x128).shape.Idx → F .f32)
    (hg : ∀ x : S32.Idx, g0 x = selfIdx I d r0 (x 0).val)
    (hP : ∀ x : S32x128.Idx, P x = I.sp d (ixTab (g0 (mkIdx S32 (by decide) ![(x 0).val])).toNat (x 1).val)) :
    (Transfers.Flight countersEmb (thr d L) (SemLoc.dma cc1_scratch14.sem) default 131072
      iprop((((s_6).view.loc (thr d L) ↦{fullShare} (s_6).view.writes (Elt F) f6 [⟨Rect.whole S32x128, P⟩]) ∗ ((s_0).view.loc (thr d L) ↦{fullShare} g0))
        ∗ ((m_sp).view.loc (thr d L) ↦[(spSl).view.set]{Transfers.shareTokN (rsh (wL L)) 12} I.sp d)) : sProp 𝕄)
      ⊢ FlS0 I d L r0 := by
  unfold FlS0
  refine Transfers.Flight_mono countersEmb (thr d L) ?_
  iintro ⟨⟨H6, H0⟩, Hsp⟩
  iexists ((s_6).view.writes (Elt F) f6 [⟨Rect.whole S32x128, P⟩]), g0
  isplitr
  · ipureintro
    refine ⟨hg, fun x => ?_⟩
    rw [landing_s6_writes d L, hP, hg, mkIdx_val S32 (by decide) ![(x 0).val] 0 (x 0).isLt]
    rfl
  isplitl [H6]; · iexact H6
  isplitl [H0]; · iexact H0
  iexact Hsp

/-- The second table's gather into buffer set 0. -/
theorem FlN0_of (r0 : ℕ) (f8 : Buf (Elt F) ((s_8).view.loc (thr d L))) (g2 : Buf (Elt F) ((s_2).view.loc (thr d L)))
    (P : (Rect.whole S320x128).shape.Idx → F .f32)
    (hg : ∀ x : S320.Idx, g2 x = nbrIdx I d r0 (x 0).val)
    (hP : ∀ x : S320x128.Idx, P x = I.ap d (ixTab (g2 (mkIdx S320 (by decide) ![(x 0).val])).toNat (x 1).val)) :
    (Transfers.Flight countersEmb (thr d L) (SemLoc.dma cc1_scratch15.sem) default 1310720
      iprop((((s_8).view.loc (thr d L) ↦{fullShare} (s_8).view.writes (Elt F) f8 [⟨Rect.whole S320x128, P⟩]) ∗ ((s_2).view.loc (thr d L) ↦{fullShare} g2))
        ∗ ((m_ap).view.loc (thr d L) ↦[(apSl).view.set]{Transfers.shareTokN (rsh (wL L)) 13} I.ap d)) : sProp 𝕄)
      ⊢ FlN0 I d L r0 := by
  unfold FlN0
  refine Transfers.Flight_mono countersEmb (thr d L) ?_
  iintro ⟨⟨H8, H2⟩, Hap⟩
  iexists ((s_8).view.writes (Elt F) f8 [⟨Rect.whole S320x128, P⟩]), g2
  isplitr
  · ipureintro
    refine ⟨hg, fun x => ?_⟩
    rw [landing_s8_writes d L, hP, hg, mkIdx_val S320 (by decide) ![(x 0).val] 0 (x 0).isLt]
    rfl
  isplitl [H8]; · iexact H8
  isplitl [H2]; · iexact H2
  iexact Hap

/-- The copy-out of buffer set 1's rows into the first result, as the run issues it: on landing the buffer is back and the
    chunk's rows hold their values. -/
theorem FlW1_of (r0 : ℕ) (hr0 : r0 < 4096) (off : Fin 2 → ℕ) (inb : ∀ a, off a + S32x128.size a ≤ S4096x128.size a)
    (h0 : off 0 = r0) (h1 : off 1 = 0) (ft : Buf (Elt F) ((m_e1t).view.loc (thr d L))) (fo : Buf (Elt F) ((s_11).view.loc (thr d L)))
    (P : (Rect.whole (Rect.unit (s := S4096x128) off S32x128.size inb).shape).shape.Idx → F .f32)
    (hP : ∀ y : S32x128.Idx, P y = E1 I d (r0 + (y 0).val) (y 1).val) :
    (Transfers.Flight countersEmb (thr d L) (SemLoc.dma cc1_scratch19.sem) default 131072
      iprop((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩])
        ∗ ((s_11).view.loc (thr d L) ↦[(s_11).view.set]{fullShare} fo)) : sProp 𝕄)
      ⊢ FlW1 I d L r0 := by
  have hEq : ((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩]) : sProp 𝕄)
      = ((m_e1t).view.loc (thr d L) ↦[cT r0]{fullShare} E1t I d) := by
    rw [set_e1t_slice off inb h1, h0]
    refine pointsTo_congr fun i hi => ?_
    unfold cT at hi
    rw [Finset.mem_filter] at hi
    obtain ⟨-, hlo, hhi⟩ := hi
    have hi1 : (i 1).val < 128 := (i 1).isLt
    let y : S32x128.Idx := ValueIdx.ix2 (⟨(i 0).val - r0, by omega⟩ : Fin 32) (⟨(i 1).val, hi1⟩ : Fin 128)
    have hy : ((m_e1t).slice (Rect.unit (s := S4096x128) off S32x128.size inb) (fun _ => rfl)).view.emb y = i := by
      funext a
      match a with
      | ⟨0, _⟩ => apply Fin.ext; show off 0 + 1 * ((i 0).val - r0) = (i 0).val; omega
      | ⟨1, _⟩ => apply Fin.ext; show off 1 + 1 * (i 1).val = (i 1).val; omega
    have hr := View.read_writes_cons_emb ((m_e1t).slice (Rect.unit (s := S4096x128) off S32x128.size inb) (fun _ => rfl)).view ft
      (Rect.whole (Rect.unit (s := S4096x128) off S32x128.size inb).shape) P [] y
    have hw : (Rect.whole (Rect.unit (s := S4096x128) off S32x128.size inb).shape).emb y = y := by
      funext a; apply Fin.ext
      show 0 + 1 * (y a).val = (y a).val
      omega
    rw [hw] at hr
    have hr2 : ((m_e1t).slice (Rect.unit (s := S4096x128) off S32x128.size inb) (fun _ => rfl)).view.writes (Elt F) ft
        [⟨Rect.whole (Rect.unit (s := S4096x128) off S32x128.size inb).shape, P⟩]
        (((m_e1t).slice (Rect.unit (s := S4096x128) off S32x128.size inb) (fun _ => rfl)).view.emb y) = P y := hr
    rw [hy] at hr2
    rw [hr2, hP]
    show E1 I d (r0 + ((i 0).val - r0)) (i 1).val = E1 I d (i 0).val (i 1).val
    rw [Nat.add_sub_cancel' hlo]
  unfold FlW1 outDone
  rw [if_pos hr0]
  refine Transfers.Flight_mono countersEmb (thr d L) ?_
  iintro ⟨Hd, Hs⟩
  isplitl [Hs]
  · iexists fo
    iapply (Entails.of_eq (show ((s_11).view.loc (thr d L) ↦[(s_11).view.set]{fullShare} fo : sProp 𝕄) = ((s_11).view.loc (thr d L) ↦{fullShare} fo) from by
      rw [show (s_11).view.set = Finset.univ from View.set_whole _]))
    iexact Hs
  · iapply (Entails.of_eq hEq)
    iexact Hd

end Tile
end Cert.KernelIdeal.Tile
end
-- ==== Proof.TileTripBTl.lean ====
/-
  The second half of the last pair of target chunks on a vector subcore: no further chunk is fetched.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import proofs.«213116_g69346541961480_cont_9to1_m_612_34_alg».proof.Proof.TileTripBX
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- The pair loop's induction value is its trip number: the second half's test on it is the test that the pair is not the first. -/
theorem btl_v62_iff : ∀ t : Fin k1_t1_loop.trips,
    Scalar.cmpi .ne (Scalar.extui (Scalar.xori (Scalar.cmpi .eq (Scf.iv 0#32 1#32 t.val) 0#32) 1#1) : BitVec 32) 0#32 = 1#1 ↔ t.val ≠ 0 := by decide +kernel

set_option maxHeartbeats 4000000 in
theorem tripB_T_last (hpre : PreOK I) (O : CellTallies nD τ sig (HIx 1)) (W : Waits sig (HIx 1)) (k : Fin k1_t1_loop.trips) (arg34 : BitVec 32)
    (hT : rA L k.val < 4096) (hk : ¬ k.val + 1 < 22) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  have hk0 : k.val ≠ 0 := by omega
  unfold Mid
  iintro ⟨%hk', #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk'
  have hrA : rA L k.val = 2816 * (L 1).val + 1408 * (L 0).val + 64 * k.val := by unfold rA base; rfl
  have h12 : k1_cond12 L k = 1#1 := (k1_cond12_iff L k).mpr (by omega)
  have h13 : ¬ k1_cond13 L k = 1#1 := fun h => by have := (k1_cond13_iff L k).mp h; omega
  have h8 : ¬ k1_cond8 k = 1#1 := fun h => hk ((k1_cond8_iff k).mp h)
  have h11 : Scalar.cmpi .ne (Scalar.extui (Scalar.xori (Scalar.cmpi .eq (Scf.iv 0#32 1#32 k.val) 0#32) 1#1) : BitVec 32) 0#32 = 1#1 := (btl_v62_iff k).mpr hk0
  unfold Loaded1 LoopRO FlS1 FlN1
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  ihave Hout1 := (Entails.of_eq (Outs1_pos I d L hk0)) $$ Hout1
  unfold FlW1
  unfold tripB
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the previous pair's second copy-out lands: its buffer and its rows, written
  ihave Hmw19 := (Transfers.MayWaits.elim (SemLoc.dma cc1_scratch19.sem)) $$ Hmw
  iapply (Transfers.wp_waitLocalO countersEmb 𝒱₀ (thr d L) none (default : HIx 1) rfl) $$ [Hout1 HO Hmw19]
  · isplitl [Hout1]; · iexact Hout1
    isplitl [HO]; · iexact HO
    iexact Hmw19
  iintro ⟨⟨⟨%f11, Hs11⟩, Hod⟩, Hm19, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  sl_step
  -- THE END OF THE RUN: the invariant after the last pair
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo
      (tripB_T_last.sl.dma3 d L fo) (fun y => by
        unfold tripB_T_last.sl.dma3
        show fo y = _
        rw [hfo y (y 0).isLt]; exact hro _ _ (y 0).isLt (y 1).isLt))
    iexact Hm19
  -- buffer set 0 stays at rest: no chunk follows
  ihave Hset0 : Set0 I d L (k.val + 1) $$ [Hidle0]
  · rw [Set0_ge I d L hk]; iexact Hidle0
  -- the previous pair's second chunk's rows join the written rows
  have hrm : rA L k.val - 32 = wL L * 1408 + 32 * (2 * k.val - 1) := by unfold rA; rw [base_eq]; omega
  have e3 : wL L * 1408 + 32 * (2 * k.val - 1) + 32 = rA L k.val := by unfold rA; rw [base_eq]; omega
  have hjoin : tDone (wL L) (rA L k.val - 32) ∪ cT (rA L k.val - 32) = tDone (wL L) (rA L k.val) := by
    rw [hrm, tDone_union_cT (wL L) (2 * k.val - 1) (by omega) (by omega), e3]
  unfold outDone
  ihave Hod := (Entails.of_eq (if_pos (show rA L k.val - 32 < 4096 by omega))) $$ Hod
  ihave Htd := (pointsTo_union (ℓ := (m_e1t).view.loc (thr d L)) (q := fullShare) (f := E1t I d) (tDone_disjoint_cT (wL L) (rA L k.val - 32))).2 $$ [Htd Hod]
  · isplitl [Htd]; · iexact Htd
    iexact Hod
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      rw [hrw, tRem_sdiff_cT (wL L) (2 * k.val + 1) (by omega) (by omega)]
      exact congrArg (tRem (wL L)) (by omega)
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄))
        (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega,
      show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

end Tile
end Cert.KernelIdeal.Tile
end
-- ==== Proof.TileTripBT.lean ====
/-
  The second half of a pair of chunks on a vector subcore, when the pair's chunks are target chunks.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import proofs.«213116_g69346541961480_cont_9to1_m_612_34_alg».proof.Proof.TileTripBX
import proofs.«213116_g69346541961480_cont_9to1_m_612_34_alg».proof.Proof.TileTripBTl
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueLayout
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem v62_iff : ∀ t : Fin k1_t1_loop.trips,
    Scalar.cmpi .ne (Scalar.extui (Scalar.xori (Scalar.cmpi .eq (Scf.iv 0#32 1#32 t.val) 0#32) 1#1) : BitVec 32) 0#32 = 1#1 ↔ t.val ≠ 0 := by decide +kernel

set_option maxHeartbeats 4000000 in
/-- The next pair's first chunk is a target chunk; the pair is not the worker's first. -/
theorem tripB_T_B1 (hpre : PreOK I) (O : CellTallies nD τ sig (HIx 1)) (W : Waits sig (HIx 1)) (k : Fin k1_t1_loop.trips) (arg34 : BitVec 32) (hT : rA L k.val < 4096) (hk1 : k.val + 1 < 22) (hc : rA L k.val + 64 < 4096) (hk0 : k.val ≠ 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  unfold Mid
  iintro ⟨%hk, #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk
  have hk22 : k.val < 22 := Nat.lt_of_lt_of_eq k.isLt trips22
  have hrA : rA L k.val = 2816 * (L 1).val + 1408 * (L 0).val + 64 * k.val := by unfold rA base; rfl
  have h12 : k1_cond12 L k = 1#1 := (k1_cond12_iff L k).mpr (by have := (L 0).isLt; have := (L 1).isLt; omega)
  have h13 : ¬ k1_cond13 L k = 1#1 := fun h => by have := (k1_cond13_iff L k).mp h; have := (L 0).isLt; have := (L 1).isLt; omega
  unfold Idle0 Loaded1 LoopRO FlS1 FlN1
  icases Hidle0 with ⟨⟨%f0, Hs0⟩, ⟨%f2, Hs2⟩, ⟨%f4, Hs4⟩, ⟨%f6, Hs6⟩, ⟨%f8, Hs8⟩, Hm14, Hm15, Hsp12, Hap13⟩
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  unfold tripB
  have hc' : 2816 * (L 1).val + 1408 * (L 0).val + 64 * k.val + 64 < 4096 := by omega
  have h8 : k1_cond8 k = 1#1 := (k1_cond8_iff k).mpr hk1
  have h9 : k1_cond9 L k = 1#1 := (k1_cond9_iff L k).mpr hc'
  have h10 : ¬ k1_cond10 L k = 1#1 := fun h => by have := (k1_cond10_iff L k).mp h; omega
  have h11 : Scalar.cmpi .ne (Scalar.extui (Scalar.xori (Scalar.cmpi .eq (Scf.iv 0#32 1#32 k.val) 0#32) 1#1) : BitVec 32) 0#32 = 1#1 := (v62_iff k).mpr hk0
  ihave Hout1 := (Entails.of_eq (Outs1_pos I d L hk0)) $$ Hout1
  unfold FlW1
  sl_exec
  -- the next pair's first chunk's lists: the indices and weights of the chunk's rows
  have e28 : (![2816 * (L 1).val + 1408 * (L 0).val + 64 * k.val + 64] : Fin 1 → ℕ) 0 = rA L k.val + 64 := by
    rw [hrA]; rfl
  have e29 : (![28160 * (L 1).val + 14080 * (L 0).val + 640 * k.val + 640] : Fin 1 → ℕ) 0 = (rA L k.val + 64) * 10 := by
    rw [hrA]; show 28160 * (L 1).val + 14080 * (L 0).val + 640 * k.val + 640 = _; omega
  ihave Hs0' : iprop(∃ g : Buf (Elt F) ((s_0).view.loc (thr d L)), ((s_0).view.loc (thr d L) ↦{fullShare} g) ∗ ⌜∀ x : S32.Idx, g x = selfIdx I d (rA L k.val + 64) (x 0).val⌝) $$ [Hs0]
  · iexists _
    isplitl [Hs0]; · iexact Hs0
    ipureintro
    intro x
    rw [View.write_whole_univ]
    unfold tripB_T_B1.sl.dma0
    refine (read_nid32 d L (k1_off28 L k) _ (I.nid d) x).trans ?_
    rw [k1_off28_eq, e28]
    unfold selfIdx
    rw [if_pos hc]
  icases Hs0' with ⟨%g0, Hs0, %hg0⟩
  ihave Hs2' : iprop(∃ g : Buf (Elt F) ((s_2).view.loc (thr d L)), ((s_2).view.loc (thr d L) ↦{fullShare} g) ∗ ⌜∀ x : S320.Idx, g x = nbrIdx I d (rA L k.val + 64) (x 0).val⌝) $$ [Hs2]
  · iexists _
    isplitl [Hs2]; · iexact Hs2
    ipureintro
    intro x
    rw [View.write_whole_univ]
    unfold tripB_T_B1.sl.dma0_1
    refine (read_n1_320 d L (k1_off29 L k) _ (I.n1 d) x).trans ?_
    rw [k1_off29_eq, e29]
    unfold nbrIdx
    rw [if_pos hc]
  icases Hs2' with ⟨%g2, Hs2, %hg2⟩
  ihave Hs4' : iprop(∃ fal0 : Buf (Elt F) ((s_4).view.loc (thr d L)), ((s_4).view.loc (thr d L) ↦{fullShare} fal0) ∗ ⌜∀ x : S336.Idx, (x 0).val < 320 → fal0 x = alph I d (rA L k.val + 64) (x 0).val⌝) $$ [Hs4]
  · iexists _
    isplitl [Hs4]; · iexact Hs4
    ipureintro
    intro x hx
    rw [writes_s4 d L _ _ x hx]
    unfold tripB_T_B1.sl.dma0_2
    refine (read_a1_320 d L (k1_off29 L k) _ (I.a1 d) _).trans ?_
    rw [k1_off29_eq, e29, mkIdx_val S320 (by decide) ![(x 0).val] 0 hx]
    unfold alph
    rw [if_pos hc]
    rfl
  icases Hs4' with ⟨%fal0, Hs4, %hfal0⟩
  have hin0 : ∀ x, ((s_0).view.read (Elt F) g0 x).toNat < S100000x128.size (gathers_S100000x128_S32x128).axis := fun x => by
    show (g0 x).toNat < 100000
    rw [hg0]; exact selfIdx_lt I d hpre _ _
  have hin2 : ∀ x, ((s_2).view.read (Elt F) g2 x).toNat < S100000x128.size (gathers_S100000x128_S320x128).axis := fun x => by
    show (g2 x).toNat < 100000
    rw [hg2]; exact nbrIdx_lt I d hpre _ _
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the previous pair's second copy-out lands: its buffer and its rows, written
  ihave Hmw19 := (Transfers.MayWaits.elim (SemLoc.dma cc1_scratch19.sem)) $$ Hmw
  iapply (Transfers.wp_waitLocalO countersEmb 𝒱₀ (thr d L) none (default : HIx 1) rfl) $$ [Hout1 HO Hmw19]
  · isplitl [Hout1]; · iexact Hout1
    isplitl [HO]; · iexact HO
    iexact Hmw19
  iintro ⟨⟨⟨%f11, Hs11⟩, Hod⟩, Hm19, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  -- THE END OF THE RUN: the invariant before the next pair
  sl_step
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo (tripB_T_B1.sl.dma3 d L fo) (fun y => by
      unfold tripB_T_B1.sl.dma3
      show fo y = _
      rw [hfo y (y 0).isLt]; exact hro _ _ (y 0).isLt (y 1).isLt))
    iexact Hm19
  -- buffer set 0 loaded with the next pair's first chunk
  ihave HflS0 : FlS0 I d L (rA L k.val + 64) $$ [Hm14]
  · iapply (FlS0_of I d L (rA L k.val + 64) f6 g0 (tripB_T_B1.sl.gather0 I d L g0 hin0) hg0 (fun x => by unfold tripB_T_B1.sl.gather0; exact gather_sp0 d L (I.sp d) g0 _ hin0 x))
    iexact Hm14
  ihave HflN0 : FlN0 I d L (rA L k.val + 64) $$ [Hm15]
  · iapply (FlN0_of I d L (rA L k.val + 64) f8 g2 (tripB_T_B1.sl.gather1 I d L g2 hin2) hg2 (fun x => by unfold tripB_T_B1.sl.gather1; exact gather_ap2 d L (I.ap d) g2 _ hin2 x))
    iexact Hm15
  iclear Hsp12 Hap13
  ihave Hset0 : Set0 I d L (k.val + 1) $$ [Hs4 HflS0 HflN0]
  · rw [Set0_lt I d L hk1, erA1]
    unfold Loaded0
    isplitl [Hs4]
    · iexists fal0
      isplitr; · ipureintro; exact hfal0
      iexact Hs4
    isplitl [HflS0]; · iexact HflS0
    iexact HflN0
  -- the previous pair's second chunk's rows join the written rows
  have hrm : rA L k.val - 32 = wL L * 1408 + 32 * (2 * k.val - 1) := by unfold rA; rw [base_eq]; omega
  have e3 : wL L * 1408 + 32 * (2 * k.val - 1) + 32 = rA L k.val := by unfold rA; rw [base_eq]; omega
  have hjoin : tDone (wL L) (rA L k.val - 32) ∪ cT (rA L k.val - 32) = tDone (wL L) (rA L k.val) := by
    rw [hrm, tDone_union_cT (wL L) (2 * k.val - 1) (by omega) (by omega), e3]
  unfold outDone
  ihave Hod := (Entails.of_eq (if_pos (show rA L k.val - 32 < 4096 by omega))) $$ Hod
  ihave Htd := (pointsTo_union (ℓ := (m_e1t).view.loc (thr d L)) (q := fullShare) (f := E1t I d) (tDone_disjoint_cT (wL L) (rA L k.val - 32))).2 $$ [Htd Hod]
  · isplitl [Htd]; · iexact Htd
    iexact Hod
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      have e4 : wL L * 1408 + 32 * (2 * k.val + 1) + 32 = rA L k.val + 64 := by omega
      rw [hrw, tRem_sdiff_cT (wL L) (2 * k.val + 1) (by omega) (by omega), e4]
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄)) (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega, show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

set_option maxHeartbeats 4000000 in
/-- The next pair's first chunk is a target chunk; the pair is the worker's first: no copy-out of buffer set 1 is under way. -/
theorem tripB_T_B0 (hpre : PreOK I) (O : CellTallies nD τ sig (HIx 1)) (W : Waits sig (HIx 1)) (k : Fin k1_t1_loop.trips) (arg34 : BitVec 32) (hT : rA L k.val < 4096) (hk1 : k.val + 1 < 22) (hc : rA L k.val + 64 < 4096) (hk0 : k.val = 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  unfold Mid
  iintro ⟨%hk, #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk
  have hk22 : k.val < 22 := Nat.lt_of_lt_of_eq k.isLt trips22
  have hrA : rA L k.val = 2816 * (L 1).val + 1408 * (L 0).val + 64 * k.val := by unfold rA base; rfl
  have h12 : k1_cond12 L k = 1#1 := (k1_cond12_iff L k).mpr (by have := (L 0).isLt; have := (L 1).isLt; omega)
  have h13 : ¬ k1_cond13 L k = 1#1 := fun h => by have := (k1_cond13_iff L k).mp h; have := (L 0).isLt; have := (L 1).isLt; omega
  unfold Idle0 Loaded1 LoopRO FlS1 FlN1
  icases Hidle0 with ⟨⟨%f0, Hs0⟩, ⟨%f2, Hs2⟩, ⟨%f4, Hs4⟩, ⟨%f6, Hs6⟩, ⟨%f8, Hs8⟩, Hm14, Hm15, Hsp12, Hap13⟩
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  unfold tripB
  have hc' : 2816 * (L 1).val + 1408 * (L 0).val + 64 * k.val + 64 < 4096 := by omega
  have h8 : k1_cond8 k = 1#1 := (k1_cond8_iff k).mpr hk1
  have h9 : k1_cond9 L k = 1#1 := (k1_cond9_iff L k).mpr hc'
  have h10 : ¬ k1_cond10 L k = 1#1 := fun h => by have := (k1_cond10_iff L k).mp h; omega
  have h11 : ¬ Scalar.cmpi .ne (Scalar.extui (Scalar.xori (Scalar.cmpi .eq (Scf.iv 0#32 1#32 k.val) 0#32) 1#1) : BitVec 32) 0#32 = 1#1 := fun h => (v62_iff k).mp h hk0
  ihave Hout1 := (Entails.of_eq ((congrArg (Outs1 I d L) hk0).trans (Outs1_zero I d L))) $$ Hout1
  icases Hout1 with ⟨⟨%f11, Hs11⟩, Hm19⟩
  sl_exec
  -- the next pair's first chunk's lists: the indices and weights of the chunk's rows
  have e28 : (![2816 * (L 1).val + 1408 * (L 0).val + 64 * k.val + 64] : Fin 1 → ℕ) 0 = rA L k.val + 64 := by
    rw [hrA]; rfl
  have e29 : (![28160 * (L 1).val + 14080 * (L 0).val + 640 * k.val + 640] : Fin 1 → ℕ) 0 = (rA L k.val + 64) * 10 := by
    rw [hrA]; show 28160 * (L 1).val + 14080 * (L 0).val + 640 * k.val + 640 = _; omega
  ihave Hs0' : iprop(∃ g : Buf (Elt F) ((s_0).view.loc (thr d L)), ((s_0).view.loc (thr d L) ↦{fullShare} g) ∗ ⌜∀ x : S32.Idx, g x = selfIdx I d (rA L k.val + 64) (x 0).val⌝) $$ [Hs0]
  · iexists _
    isplitl [Hs0]; · iexact Hs0
    ipureintro
    intro x
    rw [View.write_whole_univ]
    unfold tripB_T_B0.sl.dma0
    refine (read_nid32 d L (k1_off28 L k) _ (I.nid d) x).trans ?_
    rw [k1_off28_eq, e28]
    unfold selfIdx
    rw [if_pos hc]
  icases Hs0' with ⟨%g0, Hs0, %hg0⟩
  ihave Hs2' : iprop(∃ g : Buf (Elt F) ((s_2).view.loc (thr d L)), ((s_2).view.loc (thr d L) ↦{fullShare} g) ∗ ⌜∀ x : S320.Idx, g x = nbrIdx I d (rA L k.val + 64) (x 0).val⌝) $$ [Hs2]
  · iexists _
    isplitl [Hs2]; · iexact Hs2
    ipureintro
    intro x
    rw [View.write_whole_univ]
    unfold tripB_T_B0.sl.dma0_1
    refine (read_n1_320 d L (k1_off29 L k) _ (I.n1 d) x).trans ?_
    rw [k1_off29_eq, e29]
    unfold nbrIdx
    rw [if_pos hc]
  icases Hs2' with ⟨%g2, Hs2, %hg2⟩
  ihave Hs4' : iprop(∃ fal0 : Buf (Elt F) ((s_4).view.loc (thr d L)), ((s_4).view.loc (thr d L) ↦{fullShare} fal0) ∗ ⌜∀ x : S336.Idx, (x 0).val < 320 → fal0 x = alph I d (rA L k.val + 64) (x 0).val⌝) $$ [Hs4]
  · iexists _
    isplitl [Hs4]; · iexact Hs4
    ipureintro
    intro x hx
    rw [writes_s4 d L _ _ x hx]
    unfold tripB_T_B0.sl.dma0_2
    refine (read_a1_320 d L (k1_off29 L k) _ (I.a1 d) _).trans ?_
    rw [k1_off29_eq, e29, mkIdx_val S320 (by decide) ![(x 0).val] 0 hx]
    unfold alph
    rw [if_pos hc]
    rfl
  icases Hs4' with ⟨%fal0, Hs4, %hfal0⟩
  have hin0 : ∀ x, ((s_0).view.read (Elt F) g0 x).toNat < S100000x128.size (gathers_S100000x128_S32x128).axis := fun x => by
    show (g0 x).toNat < 100000
    rw [hg0]; exact selfIdx_lt I d hpre _ _
  have hin2 : ∀ x, ((s_2).view.read (Elt F) g2 x).toNat < S100000x128.size (gathers_S100000x128_S320x128).axis := fun x => by
    show (g2 x).toNat < 100000
    rw [hg2]; exact nbrIdx_lt I d hpre _ _
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  -- THE END OF THE RUN: the invariant before the next pair
  sl_step
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo (tripB_T_B0.sl.dma3 d L fo) (fun y => by
      unfold tripB_T_B0.sl.dma3
      show fo y = _
      rw [hfo y (y 0).isLt]; exact hro _ _ (y 0).isLt (y 1).isLt))
    iexact Hm19
  -- buffer set 0 loaded with the next pair's first chunk
  ihave HflS0 : FlS0 I d L (rA L k.val + 64) $$ [Hm14]
  · iapply (FlS0_of I d L (rA L k.val + 64) f6 g0 (tripB_T_B0.sl.gather0 I d L g0 hin0) hg0 (fun x => by unfold tripB_T_B0.sl.gather0; exact gather_sp0 d L (I.sp d) g0 _ hin0 x))
    iexact Hm14
  ihave HflN0 : FlN0 I d L (rA L k.val + 64) $$ [Hm15]
  · iapply (FlN0_of I d L (rA L k.val + 64) f8 g2 (tripB_T_B0.sl.gather1 I d L g2 hin2) hg2 (fun x => by unfold tripB_T_B0.sl.gather1; exact gather_ap2 d L (I.ap d) g2 _ hin2 x))
    iexact Hm15
  iclear Hsp12 Hap13
  ihave Hset0 : Set0 I d L (k.val + 1) $$ [Hs4 HflS0 HflN0]
  · rw [Set0_lt I d L hk1, erA1]
    unfold Loaded0
    isplitl [Hs4]
    · iexists fal0
      isplitr; · ipureintro; exact hfal0
      iexact Hs4
    isplitl [HflS0]; · iexact HflS0
    iexact HflN0
  -- before the worker's first pair no row is written
  have hb0 : rA L k.val = wL L * 1408 := by unfold rA; rw [base_eq, hk0]; omega
  have hjoin : tDone (wL L) (rA L k.val - 32) = tDone (wL L) (rA L k.val) := by
    rw [tDone_base (wL L) _ (by omega), tDone_base (wL L) _ (by omega)]
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      have e4 : wL L * 1408 + 32 * (2 * k.val + 1) + 32 = rA L k.val + 64 := by omega
      rw [hrw, tRem_sdiff_cT (wL L) (2 * k.val + 1) (by omega) (by omega), e4]
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄)) (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega, show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

set_option maxHeartbeats 4000000 in
/-- The next pair's first chunk is a chunk of one-hop neighbours (the worker's rows cross row 4096 there). -/
theorem tripB_T_C1 (hpre : PreOK I) (O : CellTallies nD τ sig (HIx 1)) (W : Waits sig (HIx 1)) (k : Fin k1_t1_loop.trips) (arg34 : BitVec 32) (hT : rA L k.val < 4096) (hk1 : k.val + 1 < 22) (hcN : 4096 ≤ rA L k.val + 64) (hk0 : k.val ≠ 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  unfold Mid
  iintro ⟨%hk, #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk
  have hk22 : k.val < 22 := Nat.lt_of_lt_of_eq k.isLt trips22
  have hrA : rA L k.val = 2816 * (L 1).val + 1408 * (L 0).val + 64 * k.val := by unfold rA base; rfl
  have h12 : k1_cond12 L k = 1#1 := (k1_cond12_iff L k).mpr (by have := (L 0).isLt; have := (L 1).isLt; omega)
  have h13 : ¬ k1_cond13 L k = 1#1 := fun h => by have := (k1_cond13_iff L k).mp h; have := (L 0).isLt; have := (L 1).isLt; omega
  unfold Idle0 Loaded1 LoopRO FlS1 FlN1
  icases Hidle0 with ⟨⟨%f0, Hs0⟩, ⟨%f2, Hs2⟩, ⟨%f4, Hs4⟩, ⟨%f6, Hs6⟩, ⟨%f8, Hs8⟩, Hm14, Hm15, Hsp12, Hap13⟩
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  unfold tripB
  have hc' : 4096 ≤ 2816 * (L 1).val + 1408 * (L 0).val + 64 * k.val + 64 := by omega
  have hc : ¬ rA L k.val + 64 < 4096 := by omega
  have h8 : k1_cond8 k = 1#1 := (k1_cond8_iff k).mpr hk1
  have h9 : ¬ k1_cond9 L k = 1#1 := fun h => by have := (k1_cond9_iff L k).mp h; omega
  have h10 : k1_cond10 L k = 1#1 := (k1_cond10_iff L k).mpr hc'
  have h11 : Scalar.cmpi .ne (Scalar.extui (Scalar.xori (Scalar.cmpi .eq (Scf.iv 0#32 1#32 k.val) 0#32) 1#1) : BitVec 32) 0#32 = 1#1 := (v62_iff k).mpr hk0
  ihave Hout1 := (Entails.of_eq (Outs1_pos I d L hk0)) $$ Hout1
  unfold FlW1
  sl_exec
  -- the next pair's first chunk's lists: the indices and weights of the chunk's rows (a chunk of one-hop neighbours)
  have e30 : (![2816 * (L 1).val + 1408 * (L 0).val + 64 * k.val + 64 - 4096] : Fin 1 → ℕ) 0 = rA L k.val + 64 - 4096 := by
    rw [hrA]; rfl
  have e31 : (![(2816 * (L 1).val + 1408 * (L 0).val + 64 * k.val + 64 - 4096) * 10] : Fin 1 → ℕ) 0 = (rA L k.val + 64 - 4096) * 10 := by
    rw [hrA]; rfl
  ihave Hs0' : iprop(∃ g : Buf (Elt F) ((s_0).view.loc (thr d L)), ((s_0).view.loc (thr d L) ↦{fullShare} g) ∗ ⌜∀ x : S32.Idx, g x = selfIdx I d (rA L k.val + 64) (x 0).val⌝) $$ [Hs0]
  · iexists _
    isplitl [Hs0]; · iexact Hs0
    ipureintro
    intro x
    rw [View.write_whole_univ]
    unfold tripB_T_C1.sl.dma0
    refine (read_n1_32 d L (k1_off30 L k) _ (I.n1 d) x).trans ?_
    rw [k1_off30_eq' L k h10, e30]
    unfold selfIdx
    rw [if_neg hc]
  icases Hs0' with ⟨%g0, Hs0, %hg0⟩
  ihave Hs2' : iprop(∃ g : Buf (Elt F) ((s_2).view.loc (thr d L)), ((s_2).view.loc (thr d L) ↦{fullShare} g) ∗ ⌜∀ x : S320.Idx, g x = nbrIdx I d (rA L k.val + 64) (x 0).val⌝) $$ [Hs2]
  · iexists _
    isplitl [Hs2]; · iexact Hs2
    ipureintro
    intro x
    rw [View.write_whole_univ]
    unfold tripB_T_C1.sl.dma0_1
    refine (read_n2_320 d L (k1_off31 L k) _ (I.n2 d) x).trans ?_
    rw [k1_off31_eq' L k h10, e31]
    unfold nbrIdx
    rw [if_neg hc]
  icases Hs2' with ⟨%g2, Hs2, %hg2⟩
  ihave Hs4' : iprop(∃ fal0 : Buf (Elt F) ((s_4).view.loc (thr d L)), ((s_4).view.loc (thr d L) ↦{fullShare} fal0) ∗ ⌜∀ x : S336.Idx, (x 0).val < 320 → fal0 x = alph I d (rA L k.val + 64) (x 0).val⌝) $$ [Hs4]
  · iexists _
    isplitl [Hs4]; · iexact Hs4
    ipureintro
    intro x hx
    rw [writes_s4 d L _ _ x hx]
    unfold tripB_T_C1.sl.dma0_2
    refine (read_a2_320 d L (k1_off31 L k) _ (I.a2 d) _).trans ?_
    rw [k1_off31_eq' L k h10, e31, mkIdx_val S320 (by decide) ![(x 0).val] 0 hx]
    unfold alph
    rw [if_neg hc]
    rfl
  icases Hs4' with ⟨%fal0, Hs4, %hfal0⟩
  have hin0 : ∀ x, ((s_0).view.read (Elt F) g0 x).toNat < S100000x128.size (gathers_S100000x128_S32x128).axis := fun x => by
    show (g0 x).toNat < 100000
    rw [hg0]; exact selfIdx_lt I d hpre _ _
  have hin2 : ∀ x, ((s_2).view.read (Elt F) g2 x).toNat < S100000x128.size (gathers_S100000x128_S320x128).axis := fun x => by
    show (g2 x).toNat < 100000
    rw [hg2]; exact nbrIdx_lt I d hpre _ _
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the previous pair's second copy-out lands: its buffer and its rows, written
  ihave Hmw19 := (Transfers.MayWaits.elim (SemLoc.dma cc1_scratch19.sem)) $$ Hmw
  iapply (Transfers.wp_waitLocalO countersEmb 𝒱₀ (thr d L) none (default : HIx 1) rfl) $$ [Hout1 HO Hmw19]
  · isplitl [Hout1]; · iexact Hout1
    isplitl [HO]; · iexact HO
    iexact Hmw19
  iintro ⟨⟨⟨%f11, Hs11⟩, Hod⟩, Hm19, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  -- THE END OF THE RUN: the invariant before the next pair
  sl_step
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo (tripB_T_C1.sl.dma3 d L fo) (fun y => by
      unfold tripB_T_C1.sl.dma3
      show fo y = _
      rw [hfo y (y 0).isLt]; exact hro _ _ (y 0).isLt (y 1).isLt))
    iexact Hm19
  -- buffer set 0 loaded with the next pair's first chunk
  ihave HflS0 : FlS0 I d L (rA L k.val + 64) $$ [Hm14]
  · iapply (FlS0_of I d L (rA L k.val + 64) f6 g0 (tripB_T_C1.sl.gather0 I d L g0 hin0) hg0 (fun x => by unfold tripB_T_C1.sl.gather0; exact gather_sp0 d L (I.sp d) g0 _ hin0 x))
    iexact Hm14
  ihave HflN0 : FlN0 I d L (rA L k.val + 64) $$ [Hm15]
  · iapply (FlN0_of I d L (rA L k.val + 64) f8 g2 (tripB_T_C1.sl.gather1 I d L g2 hin2) hg2 (fun x => by unfold tripB_T_C1.sl.gather1; exact gather_ap2 d L (I.ap d) g2 _ hin2 x))
    iexact Hm15
  iclear Hsp12 Hap13
  ihave Hset0 : Set0 I d L (k.val + 1) $$ [Hs4 HflS0 HflN0]
  · rw [Set0_lt I d L hk1, erA1]
    unfold Loaded0
    isplitl [Hs4]
    · iexists fal0
      isplitr; · ipureintro; exact hfal0
      iexact Hs4
    isplitl [HflS0]; · iexact HflS0
    iexact HflN0
  -- the previous pair's second chunk's rows join the written rows
  have hrm : rA L k.val - 32 = wL L * 1408 + 32 * (2 * k.val - 1) := by unfold rA; rw [base_eq]; omega
  have e3 : wL L * 1408 + 32 * (2 * k.val - 1) + 32 = rA L k.val := by unfold rA; rw [base_eq]; omega
  have hjoin : tDone (wL L) (rA L k.val - 32) ∪ cT (rA L k.val - 32) = tDone (wL L) (rA L k.val) := by
    rw [hrm, tDone_union_cT (wL L) (2 * k.val - 1) (by omega) (by omega), e3]
  unfold outDone
  ihave Hod := (Entails.of_eq (if_pos (show rA L k.val - 32 < 4096 by omega))) $$ Hod
  ihave Htd := (pointsTo_union (ℓ := (m_e1t).view.loc (thr d L)) (q := fullShare) (f := E1t I d) (tDone_disjoint_cT (wL L) (rA L k.val - 32))).2 $$ [Htd Hod]
  · isplitl [Htd]; · iexact Htd
    iexact Hod
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      have e4 : wL L * 1408 + 32 * (2 * k.val + 1) + 32 = rA L k.val + 64 := by omega
      rw [hrw, tRem_sdiff_cT (wL L) (2 * k.val + 1) (by omega) (by omega), e4]
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄)) (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega, show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

set_option maxHeartbeats 4000000 in
/-- THE SECOND HALF OF A PAIR OF TARGET CHUNKS, in every case: the pair is the worker's last (nothing is fetched), or the next
    pair's first chunk is a target chunk or a chunk of one-hop neighbours; the pair is the worker's first (no copy-out to
    await) or not. -/
theorem tripB_T (hpre : PreOK I) (O : CellTallies nD τ sig (HIx 1)) (W : Waits sig (HIx 1)) (k : Fin k1_t1_loop.trips) (arg34 : BitVec 32) (hT : rA L k.val < 4096) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  by_cases hk1 : k.val + 1 < 22
  · by_cases hc : rA L k.val + 64 < 4096
    · by_cases hk0 : k.val = 0
      · exact tripB_T_B0 I d L hpre O W k arg34 hT hk1 hc hk0
      · exact tripB_T_B1 I d L hpre O W k arg34 hT hk1 hc hk0
    · have hcN : 4096 ≤ rA L k.val + 64 := Nat.le_of_not_lt hc
      have hk0 : k.val ≠ 0 := by
        intro h0
        have h1 := (L 0).isLt
        have h2 := (L 1).isLt
        unfold rA base at hT hcN
        rw [h0] at hT hcN
        omega
      exact tripB_T_C1 I d L hpre O W k arg34 hT hk1 hcN hk0
  · exact tripB_T_last I d L hpre O W k arg34 hT hk1

end Tile
end Cert.KernelIdeal.Tile
end
-- ==== Proof.TileFlight.lean ====
/-
  A gather of a chunk's rows, once issued, is one of the flights the pair loop's invariants name: its landing hands back
  the buffer holding, row by row, the rows of the table the chunk's list names, the list itself, and the table's share.
-/
import proofs.«213116_g69346541961480_cont_9to1_m_612_34_alg».proof.Proof.TileInv

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

section Tile
variable (d : Dev nD) (L : grid1.Coords)

local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem fl_rowMajor_symm_val1 {n : ℕ} (j : Fin (⟨1, ![n]⟩ : Shape).numel) : (((⟨1, ![n]⟩ : Shape).rowMajor.symm j) 0).val = j.val := by
  have h := Shape.rowMajor_val_one (d := ![n]) ((⟨1, ![n]⟩ : Shape).rowMajor.symm j)
  rw [Equiv.apply_symm_apply] at h
  exact h.symm

/-- Every self index names a row of the tables. -/
theorem fl_selfIdx_lt (hpre : PreOK I) (r0 i : ℕ) : (selfIdx I d r0 i).toNat < 100000 := by
  unfold selfIdx; split
  · exact (hpre d).1 _
  · exact (hpre d).2.1 _
/-- Every neighbour index names a row of the tables. -/
theorem fl_nbrIdx_lt (hpre : PreOK I) (r0 j : ℕ) : (nbrIdx I d r0 j).toNat < 100000 := by
  unfold nbrIdx; split
  · exact (hpre d).2.1 _
  · exact (hpre d).2.2 _

/-- One write through the whole rectangle leaves its payload. -/
theorem fl_writes_whole_apply (b : Ref sig .scVector) (f : b.ty.Contents (Elt F)) (p : b.ty.shape.Idx → Elt F b.ty.elt) (x : b.ty.shape.Idx) :
    (Memref.whole b).view.writes (Elt F) f [⟨Rect.whole b.ty.shape, p⟩] x = p x := by
  have h := View.read_writes_cons_emb (v := (Memref.whole b).view) (f := f) (Rect.whole b.ty.shape) p [] x
  rw [Rect.emb_whole_apply] at h
  exact h

variable [FloatOps F]

omit [FloatOps F] in
theorem fl_gatherS0_apply (r0 : ℕ) (g : Buf (Elt F) ((s_0).view.loc (thr d L))) (hpre : PreOK I)
    (hg : ∀ x : S32.Idx, g x = selfIdx I d r0 (x 0).val)
    (hin : ∀ x, ((s_0).view.read (Elt F) g x).toNat < S100000x128.size (gathers_S100000x128_S32x128).axis) (x : S32x128.Idx) :
    SparseCore.gatherPayload gathers_S100000x128_S32x128 ((spSl).view.read (Elt F) (I.sp d))
        (SparseCore.rows ((s_0).view.read (Elt F) g) rfl hin) x
      = I.sp d (ixTab (selfIdx I d r0 (x 0).val).toNat (x 1).val) := by
  unfold SparseCore.gatherPayload
  show I.sp d _ = I.sp d _
  congr 1
  have hx1 : (x 1).val < 128 := (x 1).isLt
  have hs := fl_selfIdx_lt I d hpre r0 (x 0).val
  funext a; apply Fin.ext
  match a with
  | ⟨0, _⟩ =>
    show 0 + 1 * ((gathers_S100000x128_S32x128).idx (SparseCore.rows ((s_0).view.read (Elt F) g) rfl hin) x (0 : Fin 2)).val = (selfIdx I d r0 (x 0).val).toNat % 100000
    rw [Nat.mod_eq_of_lt hs]
    have h0 : ((gathers_S100000x128_S32x128).idx (SparseCore.rows ((s_0).view.read (Elt F) g) rfl hin) x (0 : Fin 2)).val
        = (g (S32.rowMajor.symm ((x 0).cast rfl))).toNat := rfl
    rw [h0, hg, fl_rowMajor_symm_val1]
    show 0 + 1 * (selfIdx I d r0 (x 0).val).toNat = _
    omega
  | ⟨1, _⟩ =>
    show 0 + 1 * ((gathers_S100000x128_S32x128).idx (SparseCore.rows ((s_0).view.read (Elt F) g) rfl hin) x (1 : Fin 2)).val = (x 1).val % 128
    rw [Nat.mod_eq_of_lt hx1]
    have h1 : ((gathers_S100000x128_S32x128).idx (SparseCore.rows ((s_0).view.read (Elt F) g) rfl hin) x (1 : Fin 2)).val = (x 1).val := rfl
    rw [h1]; omega

/-- The gather into this buffer as issued over the list contents `g` and the buffer's prior contents `f`. -/
def issS0 (f : Buf (Elt F) ((s_6).view.loc (thr d L))) (g : Buf (Elt F) ((s_0).view.loc (thr d L)))
    (hin : ∀ x, ((s_0).view.read (Elt F) g x).toNat < S100000x128.size (gathers_S100000x128_S32x128).axis) : sProp 𝕄 :=
  Transfers.Flight countersEmb (thr d L) (SemLoc.dma cc1_scratch14.sem) default 131072
      iprop((((s_6).view.loc (thr d L) ↦{fullShare} (s_6).view.writes (Elt F) f
          [⟨Rect.whole cc1_scratch6.ty.shape, SparseCore.gatherPayload gathers_S100000x128_S32x128 ((spSl).view.read (Elt F) (I.sp d))
            (SparseCore.rows ((s_0).view.read (Elt F) g) rfl hin)⟩])
        ∗ ((s_0).view.loc (thr d L) ↦{fullShare} g))
        ∗ ((m_sp).view.loc (thr d L) ↦[(spSl).view.set]{Transfers.shareTokN (rsh (wL L)) 12} I.sp d))

/-- Issued over a list that holds the chunk's indices, it is the invariant's flight for the chunk starting at row `r0`. -/
theorem FlS0_of_iss (hpre : PreOK I) (r0 : ℕ) (f : Buf (Elt F) ((s_6).view.loc (thr d L))) (g : Buf (Elt F) ((s_0).view.loc (thr d L)))
    (hg : ∀ x : S32.Idx, g x = selfIdx I d r0 (x 0).val)
    (hin : ∀ x, ((s_0).view.read (Elt F) g x).toNat < S100000x128.size (gathers_S100000x128_S32x128).axis) :
    issS0 I d L f g hin ⊢ FlS0 I d L r0 := by
  unfold issS0 FlS0
  refine Transfers.Flight_mono countersEmb (thr d L) ?_
  iintro ⟨⟨Hd, Hl⟩, Ht⟩
  iexists _, g
  isplitr
  · ipureintro
    exact ⟨hg, fun x => (fl_writes_whole_apply cc1_scratch6 f _ x).trans (fl_gatherS0_apply I d L r0 g hpre hg hin x)⟩
  isplitl [Hd]; · iexact Hd
  isplitl [Hl]; · iexact Hl
  iexact Ht

omit [FloatOps F] in
theorem fl_gatherN0_apply (r0 : ℕ) (g : Buf (Elt F) ((s_2).view.loc (thr d L))) (hpre : PreOK I)
    (hg : ∀ x : S320.Idx, g x = nbrIdx I d r0 (x 0).val)
    (hin : ∀ x, ((s_2).view.read (Elt F) g x).toNat < S100000x128.size (gathers_S100000x128_S320x128).axis) (x : S320x128.Idx) :
    SparseCore.gatherPayload gathers_S100000x128_S320x128 ((apSl).view.read (Elt F) (I.ap d))
        (SparseCore.rows ((s_2).view.read (Elt F) g) rfl hin) x
      = I.ap d (ixTab (nbrIdx I d r0 (x 0).val).toNat (x 1).val) := by
  unfold SparseCore.gatherPayload
  show I.ap d _ = I.ap d _
  congr 1
  have hx1 : (x 1).val < 128 := (x 1).isLt
  have hs := fl_nbrIdx_lt I d hpre r0 (x 0).val
  funext a; apply Fin.ext
  match a with
  | ⟨0, _⟩ =>
    show 0 + 1 * ((gathers_S100000x128_S320x128).idx (SparseCore.rows ((s_2).view.read (Elt F) g) rfl hin) x (0 : Fin 2)).val = (nbrIdx I d r0 (x 0).val).toNat % 100000
    rw [Nat.mod_eq_of_lt hs]
    have h0 : ((gathers_S100000x128_S320x128).idx (SparseCore.rows ((s_2).view.read (Elt F) g) rfl hin) x (0 : Fin 2)).val
        = (g (S320.rowMajor.symm ((x 0).cast rfl))).toNat := rfl
    rw [h0, hg, fl_rowMajor_symm_val1]
    show 0 + 1 * (nbrIdx I d r0 (x 0).val).toNat = _
    omega
  | ⟨1, _⟩ =>
    show 0 + 1 * ((gathers_S100000x128_S320x128).idx (SparseCore.rows ((s_2).view.read (Elt F) g) rfl hin) x (1 : Fin 2)).val = (x 1).val % 128
    rw [Nat.mod_eq_of_lt hx1]
    have h1 : ((gathers_S100000x128_S320x128).idx (SparseCore.rows ((s_2).view.read (Elt F) g) rfl hin) x (1 : Fin 2)).val = (x 1).val := rfl
    rw [h1]; omega

/-- The gather into this buffer as issued over the list contents `g` and the buffer's prior contents `f`. -/
def issN0 (f : Buf (Elt F) ((s_8).view.loc (thr d L))) (g : Buf (Elt F) ((s_2).view.loc (thr d L)))
    (hin : ∀ x, ((s_2).view.read (Elt F) g x).toNat < S100000x128.size (gathers_S100000x128_S320x128).axis) : sProp 𝕄 :=
  Transfers.Flight countersEmb (thr d L) (SemLoc.dma cc1_scratch15.sem) default 1310720
      iprop((((s_8).view.loc (thr d L) ↦{fullShare} (s_8).view.writes (Elt F) f
          [⟨Rect.whole cc1_scratch8.ty.shape, SparseCore.gatherPayload gathers_S100000x128_S320x128 ((apSl).view.read (Elt F) (I.ap d))
            (SparseCore.rows ((s_2).view.read (Elt F) g) rfl hin)⟩])
        ∗ ((s_2).view.loc (thr d L) ↦{fullShare} g))
        ∗ ((m_ap).view.loc (thr d L) ↦[(apSl).view.set]{Transfers.shareTokN (rsh (wL L)) 13} I.ap d))

/-- Issued over a list that holds the chunk's indices, it is the invariant's flight for the chunk starting at row `r0`. -/
theorem FlN0_of_iss (hpre : PreOK I) (r0 : ℕ) (f : Buf (Elt F) ((s_8).view.loc (thr d L))) (g : Buf (Elt F) ((s_2).view.loc (thr d L)))
    (hg : ∀ x : S320.Idx, g x = nbrIdx I d r0 (x 0).val)
    (hin : ∀ x, ((s_2).view.read (Elt F) g x).toNat < S100000x128.size (gathers_S100000x128_S320x128).axis) :
    issN0 I d L f g hin ⊢ FlN0 I d L r0 := by
  unfold issN0 FlN0
  refine Transfers.Flight_mono countersEmb (thr d L) ?_
  iintro ⟨⟨Hd, Hl⟩, Ht⟩
  iexists _, g
  isplitr
  · ipureintro
    exact ⟨hg, fun x => (fl_writes_whole_apply cc1_scratch8 f _ x).trans (fl_gatherN0_apply I d L r0 g hpre hg hin x)⟩
  isplitl [Hd]; · iexact Hd
  isplitl [Hl]; · iexact Hl
  iexact Ht

omit [FloatOps F] in
theorem fl_gatherS1_apply (r0 : ℕ) (g : Buf (Elt F) ((s_1).view.loc (thr d L))) (hpre : PreOK I)
    (hg : ∀ x : S32.Idx, g x = selfIdx I d r0 (x 0).val)
    (hin : ∀ x, ((s_1).view.read (Elt F) g x).toNat < S100000x128.size (gathers_S100000x128_S32x128).axis) (x : S32x128.Idx) :
    SparseCore.gatherPayload gathers_S100000x128_S32x128 ((spSl).view.read (Elt F) (I.sp d))
        (SparseCore.rows ((s_1).view.read (Elt F) g) rfl hin) x
      = I.sp d (ixTab (selfIdx I d r0 (x 0).val).toNat (x 1).val) := by
  unfold SparseCore.gatherPayload
  show I.sp d _ = I.sp d _
  congr 1
  have hx1 : (x 1).val < 128 := (x 1).isLt
  have hs := fl_selfIdx_lt I d hpre r0 (x 0).val
  funext a; apply Fin.ext
  match a with
  | ⟨0, _⟩ =>
    show 0 + 1 * ((gathers_S100000x128_S32x128).idx (SparseCore.rows ((s_1).view.read (Elt F) g) rfl hin) x (0 : Fin 2)).val = (selfIdx I d r0 (x 0).val).toNat % 100000
    rw [Nat.mod_eq_of_lt hs]
    have h0 : ((gathers_S100000x128_S32x128).idx (SparseCore.rows ((s_1).view.read (Elt F) g) rfl hin) x (0 : Fin 2)).val
        = (g (S32.rowMajor.symm ((x 0).cast rfl))).toNat := rfl
    rw [h0, hg, fl_rowMajor_symm_val1]
    show 0 + 1 * (selfIdx I d r0 (x 0).val).toNat = _
    omega
  | ⟨1, _⟩ =>
    show 0 + 1 * ((gathers_S100000x128_S32x128).idx (SparseCore.rows ((s_1).view.read (Elt F) g) rfl hin) x (1 : Fin 2)).val = (x 1).val % 128
    rw [Nat.mod_eq_of_lt hx1]
    have h1 : ((gathers_S100000x128_S32x128).idx (SparseCore.rows ((s_1).view.read (Elt F) g) rfl hin) x (1 : Fin 2)).val = (x 1).val := rfl
    rw [h1]; omega

/-- The gather into this buffer as issued over the list contents `g` and the buffer's prior contents `f`. -/
def issS1 (f : Buf (Elt F) ((s_7).view.loc (thr d L))) (g : Buf (Elt F) ((s_1).view.loc (thr d L)))
    (hin : ∀ x, ((s_1).view.read (Elt F) g x).toNat < S100000x128.size (gathers_S100000x128_S32x128).axis) : sProp 𝕄 :=
  Transfers.Flight countersEmb (thr d L) (SemLoc.dma cc1_scratch16.sem) default 131072
      iprop((((s_7).view.loc (thr d L) ↦{fullShare} (s_7).view.writes (Elt F) f
          [⟨Rect.whole cc1_scratch7.ty.shape, SparseCore.gatherPayload gathers_S100000x128_S32x128 ((spSl).view.read (Elt F) (I.sp d))
            (SparseCore.rows ((s_1).view.read (Elt F) g) rfl hin)⟩])
        ∗ ((s_1).view.loc (thr d L) ↦{fullShare} g))
        ∗ ((m_sp).view.loc (thr d L) ↦[(spSl).view.set]{Transfers.shareTokN (rsh (wL L)) 14} I.sp d))

/-- Issued over a list that holds the chunk's indices, it is the invariant's flight for the chunk starting at row `r0`. -/
theorem FlS1_of_iss (hpre : PreOK I) (r0 : ℕ) (f : Buf (Elt F) ((s_7).view.loc (thr d L))) (g : Buf (Elt F) ((s_1).view.loc (thr d L)))
    (hg : ∀ x : S32.Idx, g x = selfIdx I d r0 (x 0).val)
    (hin : ∀ x, ((s_1).view.read (Elt F) g x).toNat < S100000x128.size (gathers_S100000x128_S32x128).axis) :
    issS1 I d L f g hin ⊢ FlS1 I d L r0 := by
  unfold issS1 FlS1
  refine Transfers.Flight_mono countersEmb (thr d L) ?_
  iintro ⟨⟨Hd, Hl⟩, Ht⟩
  iexists _, g
  isplitr
  · ipureintro
    exact ⟨hg, fun x => (fl_writes_whole_apply cc1_scratch7 f _ x).trans (fl_gatherS1_apply I d L r0 g hpre hg hin x)⟩
  isplitl [Hd]; · iexact Hd
  isplitl [Hl]; · iexact Hl
  iexact Ht

omit [FloatOps F] in
theorem fl_gatherN1_apply (r0 : ℕ) (g : Buf (Elt F) ((s_3).view.loc (thr d L))) (hpre : PreOK I)
    (hg : ∀ x : S320.Idx, g x = nbrIdx I d r0 (x 0).val)
    (hin : ∀ x, ((s_3).view.read (Elt F) g x).toNat < S100000x128.size (gathers_S100000x128_S320x128).axis) (x : S320x128.Idx) :
    SparseCore.gatherPayload gathers_S100000x128_S320x128 ((apSl).view.read (Elt F) (I.ap d))
        (SparseCore.rows ((s_3).view.read (Elt F) g) rfl hin) x
      = I.ap d (ixTab (nbrIdx I d r0 (x 0).val).toNat (x 1).val) := by
  unfold SparseCore.gatherPayload
  show I.ap d _ = I.ap d _
  congr 1
  have hx1 : (x 1).val < 128 := (x 1).isLt
  have hs := fl_nbrIdx_lt I d hpre r0 (x 0).val
  funext a; apply Fin.ext
  match a with
  | ⟨0, _⟩ =>
    show 0 + 1 * ((gathers_S100000x128_S320x128).idx (SparseCore.rows ((s_3).view.read (Elt F) g) rfl hin) x (0 : Fin 2)).val = (nbrIdx I d r0 (x 0).val).toNat % 100000
    rw [Nat.mod_eq_of_lt hs]
    have h0 : ((gathers_S100000x128_S320x128).idx (SparseCore.rows ((s_3).view.read (Elt F) g) rfl hin) x (0 : Fin 2)).val
        = (g (S320.rowMajor.symm ((x 0).cast rfl))).toNat := rfl
    rw [h0, hg, fl_rowMajor_symm_val1]
    show 0 + 1 * (nbrIdx I d r0 (x 0).val).toNat = _
    omega
  | ⟨1, _⟩ =>
    show 0 + 1 * ((gathers_S100000x128_S320x128).idx (SparseCore.rows ((s_3).view.read (Elt F) g) rfl hin) x (1 : Fin 2)).val = (x 1).val % 128
    rw [Nat.mod_eq_of_lt hx1]
    have h1 : ((gathers_S100000x128_S320x128).idx (SparseCore.rows ((s_3).view.read (Elt F) g) rfl hin) x (1 : Fin 2)).val = (x 1).val := rfl
    rw [h1]; omega

/-- The gather into this buffer as issued over the list contents `g` and the buffer's prior contents `f`. -/
def issN1 (f : Buf (Elt F) ((s_9).view.loc (thr d L))) (g : Buf (Elt F) ((s_3).view.loc (thr d L)))
    (hin : ∀ x, ((s_3).view.read (Elt F) g x).toNat < S100000x128.size (gathers_S100000x128_S320x128).axis) : sProp 𝕄 :=
  Transfers.Flight countersEmb (thr d L) (SemLoc.dma cc1_scratch17.sem) default 1310720
      iprop((((s_9).view.loc (thr d L) ↦{fullShare} (s_9).view.writes (Elt F) f
          [⟨Rect.whole cc1_scratch9.ty.shape, SparseCore.gatherPayload gathers_S100000x128_S320x128 ((apSl).view.read (Elt F) (I.ap d))
            (SparseCore.rows ((s_3).view.read (Elt F) g) rfl hin)⟩])
        ∗ ((s_3).view.loc (thr d L) ↦{fullShare} g))
        ∗ ((m_ap).view.loc (thr d L) ↦[(apSl).view.set]{Transfers.shareTokN (rsh (wL L)) 15} I.ap d))

/-- Issued over a list that holds the chunk's indices, it is the invariant's flight for the chunk starting at row `r0`. -/
theorem FlN1_of_iss (hpre : PreOK I) (r0 : ℕ) (f : Buf (Elt F) ((s_9).view.loc (thr d L))) (g : Buf (Elt F) ((s_3).view.loc (thr d L)))
    (hg : ∀ x : S320.Idx, g x = nbrIdx I d r0 (x 0).val)
    (hin : ∀ x, ((s_3).view.read (Elt F) g x).toNat < S100000x128.size (gathers_S100000x128_S320x128).axis) :
    issN1 I d L f g hin ⊢ FlN1 I d L r0 := by
  unfold issN1 FlN1
  refine Transfers.Flight_mono countersEmb (thr d L) ?_
  iintro ⟨⟨Hd, Hl⟩, Ht⟩
  iexists _, g
  isplitr
  · ipureintro
    exact ⟨hg, fun x => (fl_writes_whole_apply cc1_scratch9 f _ x).trans (fl_gatherN1_apply I d L r0 g hpre hg hin x)⟩
  isplitl [Hd]; · iexact Hd
  isplitl [Hl]; · iexact Hl
  iexact Ht

end Tile
end Cert.KernelIdeal.Tile
end
-- ==== Proof.TileTripBNLem.lean ====
/-
  Pure facts for the second half of a pair of neighbour chunks on a vector subcore: what the next chunk's lists and weights
  are, the sums' buffer after the chunk, the chunk's rows copied out, and the pair loop's dynamic test on its trip number.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import proofs.«213116_g69346541961480_cont_9to1_m_612_34_alg».proof.Proof.TileFlight
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## What the next chunk's lists and weights are, read off the index and weight arrays -/

omit [FloatOps F] in
/-- 32 consecutive entries of the one-hop index array; -/
theorem read_n1_slice (off : Fin 1 → ℕ) (inb : ∀ a, off a + S32.size a ≤ S40960.size a) (x : S32.Idx) :
    ReadAs.same.apply (View.read (Elt F) ((Memref.whole main_v5_scv : Memref sig Kind.scVector Space.hbm S40960 EltTy.i32).slice (Rect.unit (s := S40960) off S32.size inb) (fun _ => rfl)).view (I.n1 d)) x
      = I.n1 d (ix40960 (off 0 + (x 0).val)) := by
  have hx : (x 0).val < 32 := (x 0).isLt
  have hb : off 0 + 32 ≤ 40960 := inb 0
  show I.n1 d _ = I.n1 d _
  congr 1
  funext a
  apply Fin.ext
  rcases a with ⟨_ | n, hn⟩
  swap
  · exact absurd hn (by change ¬ n + 1 < 1; omega)
  show off 0 + 1 * (x 0).val = (off 0 + (x 0).val) % 40960
  omega

omit [FloatOps F] in
/-- 320 consecutive entries of the two-hop index array; -/
theorem read_n2_slice (off : Fin 1 → ℕ) (inb : ∀ a, off a + S320.size a ≤ S409600.size a) (x : S320.Idx) :
    ReadAs.same.apply (View.read (Elt F) ((Memref.whole main_v6_scv : Memref sig Kind.scVector Space.hbm S409600 EltTy.i32).slice (Rect.unit (s := S409600) off S320.size inb) (fun _ => rfl)).view (I.n2 d)) x
      = I.n2 d (ix409600 (off 0 + (x 0).val)) := by
  have hx : (x 0).val < 320 := (x 0).isLt
  have hb : off 0 + 320 ≤ 409600 := inb 0
  show I.n2 d _ = I.n2 d _
  congr 1
  funext a
  apply Fin.ext
  rcases a with ⟨_ | n, hn⟩
  swap
  · exact absurd hn (by change ¬ n + 1 < 1; omega)
  show off 0 + 1 * (x 0).val = (off 0 + (x 0).val) % 409600
  omega

omit [FloatOps F] in
/-- 320 consecutive entries of the two-hop weight array. -/
theorem read_a2_slice (off : Fin 1 → ℕ) (inb : ∀ a, off a + S320.size a ≤ S409600.size a) (x : S320.Idx) :
    ReadAs.same.apply (View.read (Elt F) ((Memref.whole main_v8_scv : Memref sig Kind.scVector Space.hbm S409600 EltTy.f32).slice (Rect.unit (s := S409600) off S320.size inb) (fun _ => rfl)).view (I.a2 d)) x
      = I.a2 d (ix409600 (off 0 + (x 0).val)) := by
  have hx : (x 0).val < 320 := (x 0).isLt
  have hb : off 0 + 320 ≤ 409600 := inb 0
  show I.a2 d _ = I.a2 d _
  congr 1
  funext a
  apply Fin.ext
  rcases a with ⟨_ | n, hn⟩
  swap
  · exact absurd hn (by change ¬ n + 1 < 1; omega)
  show off 0 + 1 * (x 0).val = (off 0 + (x 0).val) % 409600
  omega

omit [FloatOps F] in
/-- Past row 4096 a chunk's lists are entries of the one-hop and two-hop arrays. -/
theorem selfIdx_of_ge (r0 i : ℕ) (h : 4096 ≤ r0) : selfIdx I d r0 i = I.n1 d (ix40960 (r0 - 4096 + i)) := by
  unfold selfIdx; rw [if_neg (by omega)]
omit [FloatOps F] in
theorem nbrIdx_of_ge (r0 j : ℕ) (h : 4096 ≤ r0) : nbrIdx I d r0 j = I.n2 d (ix409600 ((r0 - 4096) * 10 + j)) := by
  unfold nbrIdx; rw [if_neg (by omega)]
omit [FloatOps F] in
theorem alph_of_ge (r0 j : ℕ) (h : 4096 ≤ r0) : alph I d r0 j = I.a2 d (ix409600 ((r0 - 4096) * 10 + j)) := by
  unfold alph; rw [if_neg (by omega)]

/-! ## What the second half leaves, value by value -/

/-- The next chunk's weights, copied into the head of the weights' buffer. -/
theorem s4_alph (f4 : Buf (Elt F) ((s_4).view.loc (thr d L))) (w : S320.Idx → F .f32) (r0 off : ℕ) (hr : 4096 ≤ r0)
    (ho : off = (r0 - 4096) * 10) (hw : ∀ y : S320.Idx, w y = I.a2 d (ix409600 (off + (y 0).val)))
    (x : S336.Idx) (hx : (x 0).val < 320) :
    (s_4).view.writes (Elt F) f4 [⟨Rect.unit (s := S336) ![0] S320.size inb_S336_S320_0, w⟩] x = alph I d r0 (x 0).val := by
  rw [writes_s4 d L f4 w x hx, hw, alph_of_ge I d _ _ hr, ho]
  show I.a2 d (ix409600 ((r0 - 4096) * 10 + (x 0).val % 320)) = _
  rw [Nat.mod_eq_of_lt hx]

/-- The sums' buffer after a neighbour chunk's sum is added to its second row. -/
theorem sq13_after (fsq : Buf (Elt F) ((s_13).view.loc (thr d L))) (acc : FVec F S16 .f32) (x : S2x16.Idx) :
    (s_13).view.writes (Elt F) fsq [⟨(Rect.unit (s := S2x16) ![1, 0] S1x16.size inb_S2x16_S1x16_1_0),
        k1_pay122 acc (View.readAt (Elt F) (s_13).view (Rect.unit (s := S2x16) ![1, 0] S1x16.size inb_S2x16_S1x16_1_0).toLoadRect fsq)⟩] x
      = if (x 0).val = 0 then fsq x else FloatOps.addf (fsq x) (acc (ix16 (x 1).val)) := by
  have hx0 : (x 0).val < 2 := (x 0).isLt
  have hx1 : (x 1).val < 16 := (x 1).isLt
  by_cases h0 : (x 0).val = 0
  · rw [if_pos h0]
    exact View.read_writes_apply_of_forall_not_mem (s_13).view fsq x
      [⟨(Rect.unit (s := S2x16) ![1, 0] S1x16.size inb_S2x16_S1x16_1_0), k1_pay122 acc (View.readAt (Elt F) (s_13).view (Rect.unit (s := S2x16) ![1, 0] S1x16.size inb_S2x16_S1x16_1_0).toLoadRect fsq)⟩] (by
      intro p hp
      rw [List.mem_singleton] at hp
      subst hp
      rw [Rect.mem_set_unit]
      intro hm
      have h1 : 1 ≤ (x 0).val := (hm 0).1
      omega)
  · rw [if_neg h0]
    have hone : (x 0).val = 1 := by omega
    let i : Fin 16 := ⟨(x 1).val, hx1⟩
    have hy : (Rect.unit (s := S2x16) ![1, 0] S1x16.size inb_S2x16_S1x16_1_0).emb (ValueIdx.ix2 (0 : Fin 1) i) = x := by
      funext a
      apply Fin.ext
      match a with
      | ⟨0, _⟩ => show 1 + 1 * 0 = (x 0).val; omega
      | ⟨1, _⟩ => show 0 + 1 * (x 1).val = (x 1).val; omega
    have h := View.read_writes_cons_emb (s_13).view fsq (Rect.unit (s := S2x16) ![1, 0] S1x16.size inb_S2x16_S1x16_1_0)
      (k1_pay122 acc (View.readAt (Elt F) (s_13).view (Rect.unit (s := S2x16) ![1, 0] S1x16.size inb_S2x16_S1x16_1_0).toLoadRect fsq)) [] (ValueIdx.ix2 (0 : Fin 1) i)
    rw [hy] at h
    refine h.trans ?_
    unfold k1_pay122
    rw [ValueIdx.shapeCast_a_1a_apply]
    show FloatOps.addf (shapeCast S16 _ _ (ValueIdx.ix1 i)) (acc (ValueIdx.ix1 i)) = _
    rw [ValueIdx.shapeCast_1a_a_apply]
    have e1 : (ValueIdx.ix1 i : S16.Idx) = ix16 (x 1).val := by
      funext a
      apply Fin.ext
      match a with
      | ⟨0, _⟩ => show (x 1).val = (x 1).val % 16; omega
    rw [e1]
    congr 1
    show fsq ((Rect.unit (s := S2x16) ![1, 0] S1x16.size inb_S2x16_S1x16_1_0).emb (ValueIdx.ix2 (0 : Fin 1) i)) = fsq x
    rw [hy]

/-- 32 divides the first row of every chunk. -/
theorem dvd_rA (L : grid1.Coords) (k : ℕ) : 32 ∣ rA L k + 32 := by
  refine ⟨wL L * 44 + 2 * k + 1, ?_⟩
  unfold rA; rw [base_eq L]; omega

/-- The sums' buffer before the next pair, after a pair whose second chunk is a neighbour chunk. -/
theorem sq_post (k : ℕ) (fsq : Buf (Elt F) ((s_13).view.loc (thr d L))) (acc : FVec F S16 .f32)
    (ro : ℕ → ℕ → F .f32) (hN : 4096 ≤ rA L k)
    (hfsq : ∀ x : S2x16.Idx, fsq x = tileSqUpto I d (wL L) (2 * k + 1) (decide ((x 0).val = 0)) (x 1).val)
    (hacc : acc = sqAcc ro 32)
    (hro : ∀ i col, i < 32 → col < 128 → ro i col = E1 I d (rA L k + 32 + i) col) (x : S2x16.Idx) :
    (s_13).view.writes (Elt F) fsq [⟨(Rect.unit (s := S2x16) ![1, 0] S1x16.size inb_S2x16_S1x16_1_0),
        k1_pay122 acc (View.readAt (Elt F) (s_13).view (Rect.unit (s := S2x16) ![1, 0] S1x16.size inb_S2x16_S1x16_1_0).toLoadRect fsq)⟩] x
      = tileSqUpto I d (wL L) (2 * (k + 1)) (decide ((x 0).val = 0)) (x 1).val := by
  have hx1 : (x 1).val < 16 := (x 1).isLt
  have hb : wL L * 1408 + 32 * (2 * k + 1) = rA L k + 32 := by unfold rA; rw [base_eq L]; omega
  rw [sq13_after d L fsq acc x, show 2 * (k + 1) = (2 * k + 1) + 1 from by omega, tileSqUpto_succ I d, hb]
  by_cases h0 : (x 0).val = 0
  · rw [if_pos h0, if_neg (by simp only [h0, decide_true]; intro h; have := of_decide_eq_true h; omega), hfsq x]
  · rw [if_neg h0, if_pos (by simp only [h0, decide_false]; exact decide_eq_false (by omega)), hfsq x]
    congr 1
    rw [hacc, sqAcc_eq_chunkSq I d (rA L k + 32) ro hro (ix16 (x 1).val)]
    congr 1
    show (x 1).val % 16 = (x 1).val
    omega

set_option maxHeartbeats 1000000 in
/-- The second chunk's copy-out, landed: the output buffer back, and the chunk's rows of the second result at their values. -/
theorem out_payload (k : ℕ) (hN : 4096 ≤ rA L k) (off : Fin 2 → ℕ) (inb : ∀ a, off a + S32x128.size a ≤ S40960x128.size a)
    (hoff0 : off 0 = rA L k + 32 - 4096) (hoff1 : off 1 = 0)
    (fn : Buf (Elt F) ((m_e1n).view.loc (thr d L))) (fo : Buf (Elt F) ((s_11).view.loc (thr d L)))
    (P : (Rect.whole (Rect.unit (s := S40960x128) off S32x128.size inb).shape).shape.Idx → F .f32) (hP : ∀ y, P y = fo y)
    (hfo : ∀ x : S32x128.Idx, (x 0).val < 32 → fo x = E1 I d (rA L k + 32 + (x 0).val) (x 1).val) :
    iprop((((Memref.whole main_v9_1_scv : Memref sig Kind.scVector Space.hbm S40960x128 EltTy.f32).slice (Rect.unit (s := S40960x128) off S32x128.size inb) (fun _ => rfl)).view.loc (thr d L) ↦[((Memref.whole main_v9_1_scv : Memref sig Kind.scVector Space.hbm S40960x128 EltTy.f32).slice (Rect.unit (s := S40960x128) off S32x128.size inb) (fun _ => rfl)).view.set]{fullShare}
              (((Memref.whole main_v9_1_scv : Memref sig Kind.scVector Space.hbm S40960x128 EltTy.f32).slice (Rect.unit (s := S40960x128) off S32x128.size inb) (fun _ => rfl)).view.writes (Elt F) fn [⟨Rect.whole _, P⟩]))
          ∗ ((s_11).view.loc (thr d L) ↦[(s_11).view.set]{fullShare} fo))
      ⊢ (iprop((∃ f, (s_11).view.loc (thr d L) ↦{fullShare} f) ∗ outDone I d L (rA L k + 32)) : sProp 𝕄) := by
  have hset : ((Memref.whole main_v9_1_scv : Memref sig Kind.scVector Space.hbm S40960x128 EltTy.f32).slice (Rect.unit (s := S40960x128) off S32x128.size inb) (fun _ => rfl)).view.set = cN (rA L k + 32 - 4096) := by
    have h := set_e1n_slice off inb hoff1
    rw [hoff0] at h
    exact h
  have hvals : ∀ i ∈ cN (rA L k + 32 - 4096), (((Memref.whole main_v9_1_scv : Memref sig Kind.scVector Space.hbm S40960x128 EltTy.f32).slice (Rect.unit (s := S40960x128) off S32x128.size inb) (fun _ => rfl)).view.writes (Elt F) fn [⟨Rect.whole _, P⟩]) i = E1n I d i := by
    intro i hi
    simp only [cN, Finset.mem_filter, Finset.mem_univ, _root_.true_and] at hi
    have hi1 : (i 1).val < 128 := (i 1).isLt
    let y : S32x128.Idx := mkIdx S32x128 (by decide) ![(i 0).val - (rA L k + 32 - 4096), (i 1).val]
    have he : (((Memref.whole main_v9_1_scv : Memref sig Kind.scVector Space.hbm S40960x128 EltTy.f32).slice (Rect.unit (s := S40960x128) off S32x128.size inb) (fun _ => rfl)).view.slice (Rect.whole _)).emb y = i := by
      funext a
      apply Fin.ext
      match a with
      | ⟨0, _⟩ =>
        show off 0 + 1 * (0 + 1 * (((i 0).val - (rA L k + 32 - 4096)) % 32)) = (i 0).val
        rw [hoff0, Nat.mod_eq_of_lt (by omega)]; omega
      | ⟨1, _⟩ =>
        show off 1 + 1 * (0 + 1 * ((i 1).val % 128)) = (i 1).val
        rw [hoff1, Nat.mod_eq_of_lt hi1]; omega
    have h := View.write_emb_of_mem (v := ((Memref.whole main_v9_1_scv : Memref sig Kind.scVector Space.hbm S40960x128 EltTy.f32).slice (Rect.unit (s := S40960x128) off S32x128.size inb) (fun _ => rfl)).view.slice (Rect.whole _)) fn P (Finset.mem_univ y)
    rw [he] at h
    refine h.trans ?_
    have ea : rA L k + 32 + (y 0).val = 4096 + (i 0).val := by
      show rA L k + 32 + ((i 0).val - (rA L k + 32 - 4096)) % 32 = 4096 + (i 0).val
      rw [Nat.mod_eq_of_lt (by omega)]; omega
    have eb : (y 1).val = (i 1).val := by
      show (i 1).val % 128 = (i 1).val
      exact Nat.mod_eq_of_lt hi1
    have ey : (y 0).val < 32 := by
      show ((i 0).val - (rA L k + 32 - 4096)) % 32 < 32
      omega
    rw [hP, hfo y ey, ea, eb]
    rfl
  unfold outDone
  rw [if_neg (by omega), show (s_11).view.set = Finset.univ from View.set_whole _, hset]
  iintro ⟨Hd, Hs⟩
  isplitl [Hs]
  · iexists fo; iexact Hs
  · ihave Hd := (Entails.of_eq (pointsTo_congr (ℓ := (m_e1n).view.loc (thr d L)) (I := cN (rA L k + 32 - 4096)) (q := fullShare)
        (f := ((Memref.whole main_v9_1_scv : Memref sig Kind.scVector Space.hbm S40960x128 EltTy.f32).slice (Rect.unit (s := S40960x128) off S32x128.size inb) (fun _ => rfl)).view.writes (Elt F) fn [⟨Rect.whole _, P⟩]) (g := E1n I d) hvals)) $$ Hd
    iexact Hd

/-- The pair loop's induction value is its trip number: the second half's dynamic test on it is the test `k ≠ 0`. -/
theorem iv_test_pos : ∀ t : Fin k1_t1_loop.trips, t.val ≠ 0 →
    Scalar.cmpi CmpIPredicate.ne (Scalar.extui (Scalar.xori (Scalar.cmpi CmpIPredicate.eq (Scf.iv 0#32 1#32 t.val) 0#32) 1#1)) 0#32 = 1#1 := by decide +kernel
theorem iv_test_zero : ∀ t : Fin k1_t1_loop.trips, t.val = 0 →
    ¬ Scalar.cmpi CmpIPredicate.ne (Scalar.extui (Scalar.xori (Scalar.cmpi CmpIPredicate.eq (Scf.iv 0#32 1#32 t.val) 0#32) 1#1)) 0#32 = 1#1 := by decide +kernel

end Tile
end Cert.KernelIdeal.Tile
end
-- ==== Proof.TileTripBNFirst.lean ====
/-
  The second half of a pair of neighbour chunks on a vector subcore, the first pair.
-/
import proofs.«213116_g69346541961480_cont_9to1_m_612_34_alg».proof.Proof.TileTripBNLem
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_N_first (hpre : PreOK I) (O : CellTallies nD τ sig (HIx 1)) (W : Waits sig (HIx 1)) (k : Fin k1_t1_loop.trips) (arg34 : BitVec 32) (hN : 4096 ≤ rA L k.val) (hk0 : k.val = 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  have hk1 : k.val + 1 < 22 := by omega
  unfold Mid
  have hO1 : Outs1 I d L k.val = Outs1 I d L 0 := by rw [hk0]
  rw [hO1, Outs1_zero I d L]
  unfold LoopRO Idle0 Loaded1 FlS1 FlN1 FlW0
  iintro ⟨%harg, #Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%f0, Hs0⟩, ⟨%f2, Hs2⟩, ⟨%f4, Hs4⟩, ⟨%f6, Hs6⟩, ⟨%f8, Hs8⟩, Hm14, Hm15, Hsp0, Hap0⟩,
    ⟨⟨%fal, %hfal, Hs5⟩, Hm16, Hm17⟩, Hm18, ⟨⟨%f11, Hs11⟩, Hm19⟩, ⟨%ft, Het⟩, ⟨%fn, Hen⟩, Hdt, Hdn⟩
  subst harg
  have c8 : k1_cond8 k = 1#1 := (k1_cond8_iff k).mpr hk1
  have c9 : ¬ k1_cond9 L k = 1#1 := fun h => by have := (k1_cond9_iff L k).mp h; unfold rA base at hN; omega
  have c10 : k1_cond10 L k = 1#1 := (k1_cond10_iff L k).mpr (by unfold rA base at hN; omega)
  have c12 : ¬ k1_cond12 L k = 1#1 := fun h => by have := (k1_cond12_iff L k).mp h; unfold rA base at hN; omega
  have c13 : k1_cond13 L k = 1#1 := (k1_cond13_iff L k).mpr (by unfold rA base at hN; omega)
  have hv62 := iv_test_zero k hk0
  unfold tripB
  sl_exec
  -- what the next chunk's two lists now hold
  have hg0 : ∀ x : S32.Idx, tripB_N_first.sl.dma0 I d L k c8 c10 x = selfIdx I d (rA L k.val + 64) (x 0).val := fun x => by
    unfold tripB_N_first.sl.dma0
    rw [read_n1_slice I d, selfIdx_of_ge I d _ _ (by omega), k1_off30_eq' L k c10]
    rfl
  have hg2 : ∀ x : S320.Idx, tripB_N_first.sl.dma0_1 I d L k c8 c10 x = nbrIdx I d (rA L k.val + 64) (x 0).val := fun x => by
    unfold tripB_N_first.sl.dma0_1
    rw [read_n2_slice I d, nbrIdx_of_ge I d _ _ (by omega), k1_off31_eq' L k c10]
    rfl
  rw [show View.write (Elt F) (Memref.whole cc1_scratch0).view f0 (tripB_N_first.sl.dma0 I d L k c8 c10) Finset.univ = tripB_N_first.sl.dma0 I d L k c8 c10 from View.write_whole_univ _ _ _,
    show View.write (Elt F) (Memref.whole cc1_scratch2).view f2 (tripB_N_first.sl.dma0_1 I d L k c8 c10) Finset.univ = tripB_N_first.sl.dma0_1 I d L k c8 c10 from View.write_whole_univ _ _ _]
  generalize tripB_N_first.sl.dma0 I d L k c8 c10 = g0 at hg0 ⊢
  generalize tripB_N_first.sl.dma0_1 I d L k c8 c10 = g2 at hg2 ⊢
  have hin0 : ∀ x, ((Memref.whole cc1_scratch0 : Memref sig Kind.scVector Space.vmem S32 EltTy.i32).view.read (Elt F) g0 x).toNat < S100000x128.size (gathers_S100000x128_S32x128).axis :=
    fun x => by rw [show (Memref.whole cc1_scratch0 : Memref sig Kind.scVector Space.vmem S32 EltTy.i32).view.read (Elt F) g0 x = g0 x from rfl, hg0]; exact selfIdx_lt I d hpre _ _
  have hin2 : ∀ x, ((Memref.whole cc1_scratch2 : Memref sig Kind.scVector Space.vmem S320 EltTy.i32).view.read (Elt F) g2 x).toNat < S100000x128.size (gathers_S100000x128_S320x128).axis :=
    fun x => by rw [show (Memref.whole cc1_scratch2 : Memref sig Kind.scVector Space.vmem S320 EltTy.i32).view.read (Elt F) g2 x = g2 x from rfl, hg2]; exact nbrIdx_lt I d hpre _ _
  sl_exec
  -- the second chunk's self rows land
  ihave Hw16 := (Transfers.MayWaits.elim (c := thr d L) (ι := (none : HIx 1)) (O := O) (SemLoc.dma cc1_scratch16.sem)) $$ Hmw
  iapply (Transfers.wp_waitLocalO countersEmb 𝒱₀ (thr d L) none (none : HIx 1) (N := 131072) rfl) $$ [Hm16 HO Hw16]
  · isplitl [Hm16]; · iexact Hm16
    isplitl [HO]; · iexact HO
    iexact Hw16
  iintro ⟨⟨%fs7, %g1, %h1, Hs7, Hs1, Hsp1⟩, Hm16, HO⟩
  rw [wp_ret]; imodintro
  sl_exec
  -- its neighbour rows land
  ihave Hw17 := (Transfers.MayWaits.elim (c := thr d L) (ι := (none : HIx 1)) (O := O) (SemLoc.dma cc1_scratch17.sem)) $$ Hmw
  iapply (Transfers.wp_waitLocalO countersEmb 𝒱₀ (thr d L) none (none : HIx 1) (N := 1310720) rfl) $$ [Hm17 HO Hw17]
  · isplitl [Hm17]; · iexact Hm17
    isplitl [HO]; · iexact HO
    iexact Hw17
  iintro ⟨⟨%fs9, %g3, %h3, Hs9, Hs3, Hap1⟩, Hm17, HO⟩
  rw [wp_ret]; imodintro
  sl_exec
  try beta_reduce
  sl_for (RowInv1 d L fal fs7 fs9 fb) $$ [Hs5 Hs7 Hs9 Hs12 Hs11]
  case region => exact row_trip1 d L fal fs7 fs9 fb
  · -- before the first row nothing is summed and nothing is written
    unfold RowInv1
    isplitr [Hs5 Hs7 Hs9 Hs12 Hs11]
    · ipureintro; rfl
    isplitl [Hs5]; · iexact Hs5
    isplitl [Hs7]; · iexact Hs7
    isplitl [Hs9]; · iexact Hs9
    isplitl [Hs12]; · iexact Hs12
    iexists f11
    isplitr [Hs11]
    · ipureintro; intro x hx; exact absurd hx (Nat.not_lt_zero _)
    iexact Hs11
  unfold RowInv1
  iintro %acc ⟨%hacc, Hs5, Hs7, Hs9, Hs12, ⟨%fo, %hfo, Hs11⟩⟩
  sl_exec
  -- the copy-out's rows, carved from the rows not yet written
  have hoff : k1_off50 L k = ![rA L k.val + 32 - 4096, 0] := by rw [k1_off50_eq' L k c13]; rfl
  have hbase : wL L * 1408 + 32 * (2 * k.val + 1) = rA L k.val + 32 := by unfold rA; rw [base_eq L]; omega
  have hsub : cN (rA L k.val + 32 - 4096) ⊆ nRem (wL L) (rA L k.val + 32) := by
    have h := cN_subset_nRem (wL L) (2 * k.val + 1) (by omega) (by rw [hbase]; omega)
    rwa [hbase] at h
  have hset : ((Memref.whole main_v9_1_scv : Memref sig Kind.scVector Space.hbm S40960x128 EltTy.f32).slice (Rect.unit (s := S40960x128) (k1_off50 L k) S32x128.size (k1_off50_inb L k c13)) (fun _ => rfl)).view.set = cN (rA L k.val + 32 - 4096) := by
    have h := set_e1n_slice (k1_off50 L k) (k1_off50_inb L k c13) (by rw [hoff]; rfl)
    have h0 : k1_off50 L k 0 = rA L k.val + 32 - 4096 := by rw [hoff]; rfl
    rw [h0] at h
    exact h
  ihave Hen := (pointsTo_split_subset (ℓ := (Memref.whole main_v9_1_scv : Memref sig Kind.scVector Space.hbm S40960x128 EltTy.f32).view.loc (thr d L)) (q := fullShare) (f := fn) hsub).1 $$ Hen
  icases Hen with ⟨Hc, Hen⟩
  ihave Hc' : iprop(((Memref.whole main_v9_1_scv : Memref sig Kind.scVector Space.hbm S40960x128 EltTy.f32).slice (Rect.unit (s := S40960x128) (k1_off50 L k) S32x128.size (k1_off50_inb L k c13)) (fun _ => rfl)).view.loc (thr d L) ↦[((Memref.whole main_v9_1_scv : Memref sig Kind.scVector Space.hbm S40960x128 EltTy.f32).slice (Rect.unit (s := S40960x128) (k1_off50 L k) S32x128.size (k1_off50_inb L k c13)) (fun _ => rfl)).view.set]{fullShare} fn) $$ [Hc]
  · rw [hset]; iexact Hc
  sl_exec
  -- the invariant before the next pair
  rw [wp_ret]; imodintro
  have hr1 : rA L (k.val + 1) = rA L k.val + 64 := by unfold rA; omega
  have e64 : rA L k.val + 64 - 64 = rA L k.val := by omega
  have e32 : rA L k.val + 64 - 32 = rA L k.val + 32 := by omega
  have h64 : rA L k.val = 64 * (wL L * 22 + k.val) := by unfold rA; rw [base_eq L]; omega
  have ht : Scf.trips k1_t3_loop.lb k1_t3_loop.ub k1_t3_loop.st = 32 := by decide
  rw [ht] at hacc hfo
  have hro : ∀ i col, i < 32 → col < 128 → rowOut fal fs7 fs9 fb i col = E1 I d (rA L k.val + 32 + i) col := fun i col hi hc =>
    rowOut_eq_E1 I d (rA L k.val + 32) (dvd_rA L k.val) fal fs7 fs9 fb hfal h1.2 h3.2 hfb i col hi hc
  have hw4 : ∀ y : S320.Idx, tripB_N_first.sl.dma0_2 I d L k c8 c10 y = I.a2 d (ix409600 (k1_off31 L k 0 + (y 0).val)) := fun y => by
    unfold tripB_N_first.sl.dma0_2; exact read_a2_slice I d _ _ y
  have ho31 : k1_off31 L k 0 = (rA L k.val + 64 - 4096) * 10 := by rw [k1_off31_eq' L k c10]; rfl
  -- the two gathers just issued are the next chunk's
  ihave Hm14' : issS0 I d L f6 g0 hin0 $$ [Hm14]
  · unfold issS0; iexact Hm14
  ihave Hm14 := (FlS0_of_iss I d L hpre (rA L k.val + 64) f6 g0 hg0 hin0) $$ Hm14'
  ihave Hm15' : issN0 I d L f8 g2 hin2 $$ [Hm15]
  · unfold issN0; iexact Hm15
  ihave Hm15 := (FlN0_of_iss I d L hpre (rA L k.val + 64) f8 g2 hg2 hin2) $$ Hm15'
  -- the tables' shares the landed gathers gave back, on the whole tables
  have esp : ((Memref.whole main_v4_0_scv : Memref sig Kind.scVector Space.hbm S100000x128 EltTy.f32).view.loc (thr d L) ↦[(spSl).view.set]{Transfers.shareTokN (rsh (wL L)) 14} I.sp d : sProp 𝕄)
      = ((Memref.whole main_v4_0_scv : Memref sig Kind.scVector Space.hbm S100000x128 EltTy.f32).view.loc (thr d L) ↦{Transfers.shareTokN (rsh (wL L)) 14} I.sp d) := by rw [spSl_set]
  have eap : ((Memref.whole main_v4_1_scv : Memref sig Kind.scVector Space.hbm S100000x128 EltTy.f32).view.loc (thr d L) ↦[(apSl).view.set]{Transfers.shareTokN (rsh (wL L)) 15} I.ap d : sProp 𝕄)
      = ((Memref.whole main_v4_1_scv : Memref sig Kind.scVector Space.hbm S100000x128 EltTy.f32).view.loc (thr d L) ↦{Transfers.shareTokN (rsh (wL L)) 15} I.ap d) := by rw [apSl_set]
  ihave Hsp1 := (Entails.of_eq esp) $$ Hsp1
  ihave Hap1 := (Entails.of_eq eap) $$ Hap1
  have hfo' : ∀ x : S32x128.Idx, (x 0).val < 32 → fo x = E1 I d (rA L k.val + 32 + (x 0).val) (x 1).val :=
    fun x hx => (hfo x hx).trans (hro _ _ hx (x 1).isLt)
  have ho50a : k1_off50 L k 0 = rA L k.val + 32 - 4096 := by rw [hoff]; rfl
  have ho50b : k1_off50 L k 1 = 0 := by rw [hoff]; rfl
  unfold Inv
  rw [Set0_lt I d L hk1, Outs_pos I d L (Nat.succ_ne_zero _)]
  unfold Loaded0 Idle1 LoopRO Pieces FlW0 FlW1
  rw [hr1, e64, e32]
  iclear Hsp0 Hap0 Hs11
  isplitl []
  · iexact Hmw
  isplitl [HO]
  · iexists _
    isplitr [HO]
    swap
    · iexact HO
    · ipureintro
      intro p hp
      simp only [Finset.mem_insert] at hp
      rcases hp with rfl | rfl | rfl | rfl | rfl | hp
      · exact Or.inr rfl
      · exact Or.inr rfl
      · exact Or.inr rfl
      · exact Or.inr rfl
      · exact Or.inr rfl
      · exact hW' p hp
  isplitl [Hnid Hn1 Hn2 Ha1 Ha2 Hr7 Hr8 Hr9 Hr10 Hr11 Hr12 Hr13 Hr14 Hr15 Hr16 Hr17 Hr18]
  · iframe Hnid Hn1 Hn2 Ha1 Ha2 Hr7 Hr8 Hr9 Hr10 Hr11 Hr12 Hr13 Hr14 Hr15
    isplitl [Hr16]
    · iexact Hr16
    isplitl [Hr17]
    · iexact Hr17
    iexact Hr18
  isplitl [Hs12]
  · iexists fb
    isplitr [Hs12]
    · ipureintro; exact hfb
    iexact Hs12
  isplitl [Hs13]
  · iexists _
    isplitr [Hs13]
    swap
    · iexact Hs13
    · ipureintro
      exact fun x => sq_post I d L k.val fsq acc (rowOut fal fs7 fs9 fb) hN hfsq hacc hro x
  isplitl [Hs4 Hm14 Hm15]
  · isplitl [Hs4]
    · iexists _
      isplitr [Hs4]
      swap
      · iexact Hs4
      · ipureintro
        exact fun x hx => s4_alph I d L f4 _ (rA L k.val + 64) _ (by omega) ho31 hw4 x hx
    isplitl [Hm14]
    · iexact Hm14
    iexact Hm15
  isplitl [Hs1 Hs3 Hs5 Hs7 Hs9 Hm16 Hm17 Hsp1 Hap1]
  · isplitl [Hs1]
    · iexists _; iexact Hs1
    isplitl [Hs3]
    · iexists _; iexact Hs3
    isplitl [Hs5]
    · iexists _; iexact Hs5
    isplitl [Hs7]
    · iexists _; iexact Hs7
    isplitl [Hs9]
    · iexists _; iexact Hs9
    isplitl [Hm16]
    · iexact Hm16
    isplitl [Hm17]
    · iexact Hm17
    isplitl [Hsp1]
    · iexact Hsp1
    iexact Hap1
  isplitl [Hm18 Hm19]
  · isplitl [Hm18]
    · iexact Hm18
    iapply (Transfers.Flight_mono countersEmb (thr d L)
      (out_payload I d L k.val hN (k1_off50 L k) (k1_off50_inb L k c13) ho50a ho50b fn fo (tripB_N_first.sl.dma0_3 d L fo) (fun y => rfl) hfo')) $$ Hm19
  -- the rows of the two results
  have eTr : tRem (wL L) (rA L k.val + 32) = tRem (wL L) (rA L k.val + 64) := tRem_of_ge _ _ _ (by omega) (by omega)
  have eNr : nRem (wL L) (rA L k.val + 32) \ cN (rA L k.val + 32 - 4096) = nRem (wL L) (rA L k.val + 64) := by
    have h := nRem_sdiff_cN (wL L) (2 * k.val + 1) (by omega) (by rw [hbase]; omega)
    rw [hbase, show rA L k.val + 32 + 32 = rA L k.val + 64 from by omega] at h
    exact h
  isplitl [Het]
  · iexists ft
    rw [← eTr]
    iexact Het
  isplitl [Hen]
  · iexists fn
    rw [← eNr]
    iexact Hen
  have hle32 : rA L k.val - 32 ≤ wL L * 1408 := by rw [← base_eq L]; unfold rA; omega
  have hle0 : rA L k.val ≤ wL L * 1408 := by rw [← base_eq L]; unfold rA; omega
  isplitl [Hdt]
  · rw [show tDone (wL L) (rA L k.val) = tDone (wL L) (rA L k.val - 32) from by
      rw [tDone_base (wL L) _ hle0, tDone_base (wL L) _ hle32]]
    iexact Hdt
  · rw [show nDone (wL L) (rA L k.val) = nDone (wL L) (rA L k.val - 32) from by
      rw [nDone_base (wL L) _ hle0, nDone_base (wL L) _ hle32]]
    iexact Hdn

end Tile
end Cert.KernelIdeal.Tile
end
-- ==== Proof.TileTripBNMid.lean ====
/-
  The second half of a pair of neighbour chunks on a vector subcore, for a pair that is neither the first nor the last:
  the next pair's first chunk is issued, the second chunk's gathers and the previous pair's second copy-out land, the
  chunk's rows and sum of squares are computed, and the rows are copied out.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import proofs.«213116_g69346541961480_cont_9to1_m_612_34_alg».proof.Proof.TileFlight
import proofs.«213116_g69346541961480_cont_9to1_m_612_34_alg».proof.Proof.TileTripBNLem
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_N_mid (hpre : PreOK I) (O : CellTallies nD τ sig (HIx 1)) (W : Waits sig (HIx 1)) (k : Fin k1_t1_loop.trips) (arg34 : BitVec 32) (hN : 4096 ≤ rA L k.val) (hk0 : ¬ k.val = 0) (hk1 : k.val + 1 < 22) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  unfold Mid
  rw [Outs1_pos I d L hk0]
  unfold LoopRO Idle0 Loaded1 FlS1 FlN1 FlW0 FlW1
  iintro ⟨%harg, #Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%f0, Hs0⟩, ⟨%f2, Hs2⟩, ⟨%f4, Hs4⟩, ⟨%f6, Hs6⟩, ⟨%f8, Hs8⟩, Hm14, Hm15, Hsp0, Hap0⟩,
    ⟨⟨%fal, %hfal, Hs5⟩, Hm16, Hm17⟩, Hm18, Hm19, ⟨%ft, Het⟩, ⟨%fn, Hen⟩, Hdt, Hdn⟩
  subst harg
  have c8 : k1_cond8 k = 1#1 := (k1_cond8_iff k).mpr hk1
  have c9 : ¬ k1_cond9 L k = 1#1 := fun h => by have := (k1_cond9_iff L k).mp h; unfold rA base at hN; omega
  have c10 : k1_cond10 L k = 1#1 := (k1_cond10_iff L k).mpr (by unfold rA base at hN; omega)
  have c12 : ¬ k1_cond12 L k = 1#1 := fun h => by have := (k1_cond12_iff L k).mp h; unfold rA base at hN; omega
  have c13 : k1_cond13 L k = 1#1 := (k1_cond13_iff L k).mpr (by unfold rA base at hN; omega)
  have hv62 := iv_test_pos k hk0
  unfold tripB
  sl_exec
  -- what the next chunk's two lists now hold
  have hg0 : ∀ x : S32.Idx, tripB_N_mid.sl.dma0 I d L k c8 c10 x = selfIdx I d (rA L k.val + 64) (x 0).val := fun x => by
    unfold tripB_N_mid.sl.dma0
    rw [read_n1_slice I d, selfIdx_of_ge I d _ _ (by omega), k1_off30_eq' L k c10]
    rfl
  have hg2 : ∀ x : S320.Idx, tripB_N_mid.sl.dma0_1 I d L k c8 c10 x = nbrIdx I d (rA L k.val + 64) (x 0).val := fun x => by
    unfold tripB_N_mid.sl.dma0_1
    rw [read_n2_slice I d, nbrIdx_of_ge I d _ _ (by omega), k1_off31_eq' L k c10]
    rfl
  rw [show View.write (Elt F) (Memref.whole cc1_scratch0).view f0 (tripB_N_mid.sl.dma0 I d L k c8 c10) Finset.univ = tripB_N_mid.sl.dma0 I d L k c8 c10 from View.write_whole_univ _ _ _,
    show View.write (Elt F) (Memref.whole cc1_scratch2).view f2 (tripB_N_mid.sl.dma0_1 I d L k c8 c10) Finset.univ = tripB_N_mid.sl.dma0_1 I d L k c8 c10 from View.write_whole_univ _ _ _]
  generalize tripB_N_mid.sl.dma0 I d L k c8 c10 = g0 at hg0 ⊢
  generalize tripB_N_mid.sl.dma0_1 I d L k c8 c10 = g2 at hg2 ⊢
  have hin0 : ∀ x, ((Memref.whole cc1_scratch0 : Memref sig Kind.scVector Space.vmem S32 EltTy.i32).view.read (Elt F) g0 x).toNat < S100000x128.size (gathers_S100000x128_S32x128).axis :=
    fun x => by rw [show (Memref.whole cc1_scratch0 : Memref sig Kind.scVector Space.vmem S32 EltTy.i32).view.read (Elt F) g0 x = g0 x from rfl, hg0]; exact selfIdx_lt I d hpre _ _
  have hin2 : ∀ x, ((Memref.whole cc1_scratch2 : Memref sig Kind.scVector Space.vmem S320 EltTy.i32).view.read (Elt F) g2 x).toNat < S100000x128.size (gathers_S100000x128_S320x128).axis :=
    fun x => by rw [show (Memref.whole cc1_scratch2 : Memref sig Kind.scVector Space.vmem S320 EltTy.i32).view.read (Elt F) g2 x = g2 x from rfl, hg2]; exact nbrIdx_lt I d hpre _ _
  sl_exec
  -- the second chunk's self rows land
  ihave Hw16 := (Transfers.MayWaits.elim (c := thr d L) (ι := (none : HIx 1)) (O := O) (SemLoc.dma cc1_scratch16.sem)) $$ Hmw
  iapply (Transfers.wp_waitLocalO countersEmb 𝒱₀ (thr d L) none (none : HIx 1) (N := 131072) rfl) $$ [Hm16 HO Hw16]
  · isplitl [Hm16]; · iexact Hm16
    isplitl [HO]; · iexact HO
    iexact Hw16
  iintro ⟨⟨%fs7, %g1, %h1, Hs7, Hs1, Hsp1⟩, Hm16, HO⟩
  rw [wp_ret]; imodintro
  sl_exec
  -- its neighbour rows land
  ihave Hw17 := (Transfers.MayWaits.elim (c := thr d L) (ι := (none : HIx 1)) (O := O) (SemLoc.dma cc1_scratch17.sem)) $$ Hmw
  iapply (Transfers.wp_waitLocalO countersEmb 𝒱₀ (thr d L) none (none : HIx 1) (N := 1310720) rfl) $$ [Hm17 HO Hw17]
  · isplitl [Hm17]; · iexact Hm17
    isplitl [HO]; · iexact HO
    iexact Hw17
  iintro ⟨⟨%fs9, %g3, %h3, Hs9, Hs3, Hap1⟩, Hm17, HO⟩
  rw [wp_ret]; imodintro
  sl_exec
  -- the previous pair's second copy-out lands
  ihave Hw19 := (Transfers.MayWaits.elim (c := thr d L) (ι := (none : HIx 1)) (O := O) (SemLoc.dma cc1_scratch19.sem)) $$ Hmw
  iapply (Transfers.wp_waitLocalO countersEmb 𝒱₀ (thr d L) none (none : HIx 1) (N := 131072) rfl) $$ [Hm19 HO Hw19]
  · isplitl [Hm19]; · iexact Hm19
    isplitl [HO]; · iexact HO
    iexact Hw19
  iintro ⟨⟨⟨%f11, Hs11⟩, Hout1⟩, Hm19, HO⟩
  beta_reduce
  sl_for (RowInv1 d L fal fs7 fs9 fb) $$ [Hs5 Hs7 Hs9 Hs12 Hs11]
  case region => exact row_trip1 d L fal fs7 fs9 fb
  · -- before the first row nothing is summed and nothing is written
    unfold RowInv1
    isplitr [Hs5 Hs7 Hs9 Hs12 Hs11]
    · ipureintro; rfl
    isplitl [Hs5]; · iexact Hs5
    isplitl [Hs7]; · iexact Hs7
    isplitl [Hs9]; · iexact Hs9
    isplitl [Hs12]; · iexact Hs12
    iexists f11
    isplitr [Hs11]
    · ipureintro; intro x hx; exact absurd hx (Nat.not_lt_zero _)
    iexact Hs11
  unfold RowInv1
  iintro %acc ⟨%hacc, Hs5, Hs7, Hs9, Hs12, ⟨%fo, %hfo, Hs11⟩⟩
  sl_exec
  -- the copy-out's rows, carved from the rows not yet written
  have hoff : k1_off50 L k = ![rA L k.val + 32 - 4096, 0] := by rw [k1_off50_eq' L k c13]; rfl
  have hbase : wL L * 1408 + 32 * (2 * k.val + 1) = rA L k.val + 32 := by unfold rA; rw [base_eq L]; omega
  have hsub : cN (rA L k.val + 32 - 4096) ⊆ nRem (wL L) (rA L k.val + 32) := by
    have h := cN_subset_nRem (wL L) (2 * k.val + 1) (by omega) (by rw [hbase]; omega)
    rwa [hbase] at h
  have hset : ((Memref.whole main_v9_1_scv : Memref sig Kind.scVector Space.hbm S40960x128 EltTy.f32).slice (Rect.unit (s := S40960x128) (k1_off50 L k) S32x128.size (k1_off50_inb L k c13)) (fun _ => rfl)).view.set = cN (rA L k.val + 32 - 4096) := by
    have h := set_e1n_slice (k1_off50 L k) (k1_off50_inb L k c13) (by rw [hoff]; rfl)
    have h0 : k1_off50 L k 0 = rA L k.val + 32 - 4096 := by rw [hoff]; rfl
    rw [h0] at h
    exact h
  ihave Hen := (pointsTo_split_subset (ℓ := (Memref.whole main_v9_1_scv : Memref sig Kind.scVector Space.hbm S40960x128 EltTy.f32).view.loc (thr d L)) (q := fullShare) (f := fn) hsub).1 $$ Hen
  icases Hen with ⟨Hc, Hen⟩
  ihave Hc' : iprop(((Memref.whole main_v9_1_scv : Memref sig Kind.scVector Space.hbm S40960x128 EltTy.f32).slice (Rect.unit (s := S40960x128) (k1_off50 L k) S32x128.size (k1_off50_inb L k c13)) (fun _ => rfl)).view.loc (thr d L) ↦[((Memref.whole main_v9_1_scv : Memref sig Kind.scVector Space.hbm S40960x128 EltTy.f32).slice (Rect.unit (s := S40960x128) (k1_off50 L k) S32x128.size (k1_off50_inb L k c13)) (fun _ => rfl)).view.set]{fullShare} fn) $$ [Hc]
  · rw [hset]; iexact Hc
  sl_exec
  -- the invariant before the next pair
  rw [wp_ret]; imodintro
  have hr1 : rA L (k.val + 1) = rA L k.val + 64 := by unfold rA; omega
  have e64 : rA L k.val + 64 - 64 = rA L k.val := by omega
  have e32 : rA L k.val + 64 - 32 = rA L k.val + 32 := by omega
  have h64 : rA L k.val = 64 * (wL L * 22 + k.val) := by unfold rA; rw [base_eq L]; omega
  have hbm : wL L * 1408 + 32 * (2 * k.val - 1) = rA L k.val - 32 := by unfold rA; rw [base_eq L]; omega
  have ht : Scf.trips k1_t3_loop.lb k1_t3_loop.ub k1_t3_loop.st = 32 := by decide
  rw [ht] at hacc hfo
  have hro : ∀ i col, i < 32 → col < 128 → rowOut fal fs7 fs9 fb i col = E1 I d (rA L k.val + 32 + i) col := fun i col hi hc =>
    rowOut_eq_E1 I d (rA L k.val + 32) (dvd_rA L k.val) fal fs7 fs9 fb hfal h1.2 h3.2 hfb i col hi hc
  have hw4 : ∀ y : S320.Idx, tripB_N_mid.sl.dma0_2 I d L k c8 c10 y = I.a2 d (ix409600 (k1_off31 L k 0 + (y 0).val)) := fun y => by
    unfold tripB_N_mid.sl.dma0_2; exact read_a2_slice I d _ _ y
  have ho31 : k1_off31 L k 0 = (rA L k.val + 64 - 4096) * 10 := by rw [k1_off31_eq' L k c10]; rfl
  -- the two gathers just issued are the next chunk's
  ihave Hm14' : issS0 I d L f6 g0 hin0 $$ [Hm14]
  · unfold issS0; iexact Hm14
  ihave Hm14 := (FlS0_of_iss I d L hpre (rA L k.val + 64) f6 g0 hg0 hin0) $$ Hm14'
  ihave Hm15' : issN0 I d L f8 g2 hin2 $$ [Hm15]
  · unfold issN0; iexact Hm15
  ihave Hm15 := (FlN0_of_iss I d L hpre (rA L k.val + 64) f8 g2 hg2 hin2) $$ Hm15'
  -- the tables' shares the landed gathers gave back, on the whole tables
  have esp : ((Memref.whole main_v4_0_scv : Memref sig Kind.scVector Space.hbm S100000x128 EltTy.f32).view.loc (thr d L) ↦[(spSl).view.set]{Transfers.shareTokN (rsh (wL L)) 14} I.sp d : sProp 𝕄)
      = ((Memref.whole main_v4_0_scv : Memref sig Kind.scVector Space.hbm S100000x128 EltTy.f32).view.loc (thr d L) ↦{Transfers.shareTokN (rsh (wL L)) 14} I.sp d) := by rw [spSl_set]
  have eap : ((Memref.whole main_v4_1_scv : Memref sig Kind.scVector Space.hbm S100000x128 EltTy.f32).view.loc (thr d L) ↦[(apSl).view.set]{Transfers.shareTokN (rsh (wL L)) 15} I.ap d : sProp 𝕄)
      = ((Memref.whole main_v4_1_scv : Memref sig Kind.scVector Space.hbm S100000x128 EltTy.f32).view.loc (thr d L) ↦{Transfers.shareTokN (rsh (wL L)) 15} I.ap d) := by rw [apSl_set]
  ihave Hsp1 := (Entails.of_eq esp) $$ Hsp1
  ihave Hap1 := (Entails.of_eq eap) $$ Hap1
  have hfo' : ∀ x : S32x128.Idx, (x 0).val < 32 → fo x = E1 I d (rA L k.val + 32 + (x 0).val) (x 1).val :=
    fun x hx => (hfo x hx).trans (hro _ _ hx (x 1).isLt)
  have ho50a : k1_off50 L k 0 = rA L k.val + 32 - 4096 := by rw [hoff]; rfl
  have ho50b : k1_off50 L k 1 = 0 := by rw [hoff]; rfl
  unfold Inv
  rw [Set0_lt I d L hk1, Outs_pos I d L (Nat.succ_ne_zero _)]
  unfold Loaded0 Idle1 LoopRO Pieces FlW0 FlW1
  rw [hr1, e64, e32]
  iclear Hsp0 Hap0 Hs11
  isplitl []
  · iexact Hmw
  isplitl [HO]
  · iexists _
    isplitr [HO]
    swap
    · iexact HO
    · ipureintro
      intro p hp
      simp only [Finset.mem_insert] at hp
      rcases hp with rfl | rfl | rfl | rfl | rfl | rfl | hp
      · exact Or.inr rfl
      · exact Or.inr rfl
      · exact Or.inr rfl
      · exact Or.inr rfl
      · exact Or.inr rfl
      · exact Or.inr rfl
      · exact hW' p hp
  isplitl [Hnid Hn1 Hn2 Ha1 Ha2 Hr7 Hr8 Hr9 Hr10 Hr11 Hr12 Hr13 Hr14 Hr15 Hr16 Hr17 Hr18]
  · iframe Hnid Hn1 Hn2 Ha1 Ha2 Hr7 Hr8 Hr9 Hr10 Hr11 Hr12 Hr13 Hr14 Hr15
    isplitl [Hr16]
    · iexact Hr16
    isplitl [Hr17]
    · iexact Hr17
    iexact Hr18
  isplitl [Hs12]
  · iexists fb
    isplitr [Hs12]
    · ipureintro; exact hfb
    iexact Hs12
  isplitl [Hs13]
  · iexists _
    isplitr [Hs13]
    swap
    · iexact Hs13
    · ipureintro
      exact fun x => sq_post I d L k.val fsq acc (rowOut fal fs7 fs9 fb) hN hfsq hacc hro x
  isplitl [Hs4 Hm14 Hm15]
  · isplitl [Hs4]
    · iexists _
      isplitr [Hs4]
      swap
      · iexact Hs4
      · ipureintro
        exact fun x hx => s4_alph I d L f4 _ (rA L k.val + 64) _ (by omega) ho31 hw4 x hx
    isplitl [Hm14]
    · iexact Hm14
    iexact Hm15
  isplitl [Hs1 Hs3 Hs5 Hs7 Hs9 Hm16 Hm17 Hsp1 Hap1]
  · isplitl [Hs1]
    · iexists _; iexact Hs1
    isplitl [Hs3]
    · iexists _; iexact Hs3
    isplitl [Hs5]
    · iexists _; iexact Hs5
    isplitl [Hs7]
    · iexists _; iexact Hs7
    isplitl [Hs9]
    · iexists _; iexact Hs9
    isplitl [Hm16]
    · iexact Hm16
    isplitl [Hm17]
    · iexact Hm17
    isplitl [Hsp1]
    · iexact Hsp1
    iexact Hap1
  isplitl [Hm18 Hm19]
  · isplitl [Hm18]
    · iexact Hm18
    iapply (Transfers.Flight_mono countersEmb (thr d L)
      (out_payload I d L k.val hN (k1_off50 L k) (k1_off50_inb L k c13) ho50a ho50b fn fo (tripB_N_mid.sl.dma0_3 d L fo) (fun y => rfl) hfo')) $$ Hm19
  -- the rows of the two results
  have eTr : tRem (wL L) (rA L k.val + 32) = tRem (wL L) (rA L k.val + 64) := tRem_of_ge _ _ _ (by omega) (by omega)
  have eNr : nRem (wL L) (rA L k.val + 32) \ cN (rA L k.val + 32 - 4096) = nRem (wL L) (rA L k.val + 64) := by
    have h := nRem_sdiff_cN (wL L) (2 * k.val + 1) (by omega) (by rw [hbase]; omega)
    rw [hbase, show rA L k.val + 32 + 32 = rA L k.val + 64 from by omega] at h
    exact h
  isplitl [Het]
  · iexists ft
    rw [← eTr]
    iexact Het
  isplitl [Hen]
  · iexists fn
    rw [← eNr]
    iexact Hen
  rcases Nat.lt_or_ge (rA L k.val - 32) 4096 with hB | hB
  · -- the copy-out that landed was of the last target chunk
    have eo : outDone I d L (rA L k.val - 32) = iprop((Memref.whole main_v9_0_scv : Memref sig Kind.scVector Space.hbm S4096x128 EltTy.f32).view.loc (thr d L) ↦[cT (rA L k.val - 32)]{fullShare} E1t I d) := by
      unfold outDone; rw [if_pos hB]
    ihave Hout1 := (Entails.of_eq eo) $$ Hout1
    have eT : tDone (wL L) (rA L k.val - 32) ∪ cT (rA L k.val - 32) = tDone (wL L) (rA L k.val) := by
      have h := tDone_union_cT (wL L) (2 * k.val - 1) (by omega) (by rw [hbm]; exact hB)
      rw [hbm, show rA L k.val - 32 + 32 = rA L k.val from by omega] at h
      exact h
    have eN : nDone (wL L) (rA L k.val - 32) = nDone (wL L) (rA L k.val) := nDone_of_lt _ _ _ (by omega) (by omega)
    isplitl [Hdt Hout1]
    · rw [← eT]
      iapply (pointsTo_union (ℓ := (Memref.whole main_v9_0_scv : Memref sig Kind.scVector Space.hbm S4096x128 EltTy.f32).view.loc (thr d L)) (q := fullShare) (f := E1t I d) (tDone_disjoint_cT (wL L) (rA L k.val - 32))).2
      isplitl [Hdt]
      · iexact Hdt
      iexact Hout1
    · rw [← eN]
      iexact Hdn
  · -- it was of a neighbour chunk
    have eo : outDone I d L (rA L k.val - 32) = iprop((Memref.whole main_v9_1_scv : Memref sig Kind.scVector Space.hbm S40960x128 EltTy.f32).view.loc (thr d L) ↦[cN (rA L k.val - 32 - 4096)]{fullShare} E1n I d) := by
      unfold outDone; rw [if_neg (by omega)]
    ihave Hout1 := (Entails.of_eq eo) $$ Hout1
    have eT : tDone (wL L) (rA L k.val - 32) = tDone (wL L) (rA L k.val) := tDone_of_ge _ _ _ (by omega) (by omega)
    have eN : nDone (wL L) (rA L k.val - 32) ∪ cN (rA L k.val - 32 - 4096) = nDone (wL L) (rA L k.val) := by
      have h := nDone_union_cN (wL L) (2 * k.val - 1) (by omega) (by rw [hbm]; exact hB)
      rw [hbm, show rA L k.val - 32 + 32 = rA L k.val from by omega] at h
      exact h
    isplitl [Hdt]
    · rw [← eT]
      iexact Hdt
    · rw [← eN]
      iapply (pointsTo_union (ℓ := (Memref.whole main_v9_1_scv : Memref sig Kind.scVector Space.hbm S40960x128 EltTy.f32).view.loc (thr d L)) (q := fullShare) (f := E1n I d) (nDone_disjoint_cN (wL L) (rA L k.val - 32) hB)).2
      isplitl [Hdn]
      · iexact Hdn
      iexact Hout1

end Tile
end Cert.KernelIdeal.Tile
end
-- ==== Proof.TileTripBNLast.lean ====
/-
  The second half of the last pair of chunks on a vector subcore when they are neighbour chunks: no further chunk is
  fetched, buffer set 0 stays at rest.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileRead
import proofs.«213116_g69346541961480_cont_9to1_m_612_34_alg».proof.Proof.TileFlight
import proofs.«213116_g69346541961480_cont_9to1_m_612_34_alg».proof.Proof.TileTripBNLem
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_N_last (hpre : PreOK I) (O : CellTallies nD τ sig (HIx 1)) (W : Waits sig (HIx 1)) (k : Fin k1_t1_loop.trips) (arg34 : BitVec 32) (hN : 4096 ≤ rA L k.val) (hk1 : ¬ k.val + 1 < 22) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  have hk0 : k.val ≠ 0 := by omega
  unfold Mid
  rw [Outs1_pos I d L hk0]
  unfold LoopRO Loaded1 FlS1 FlN1 FlW0 FlW1
  iintro ⟨%harg, #Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    Hidle0,
    ⟨⟨%fal, %hfal, Hs5⟩, Hm16, Hm17⟩, Hm18, Hm19, ⟨%ft, Het⟩, ⟨%fn, Hen⟩, Hdt, Hdn⟩
  subst harg
  have c8 : ¬ k1_cond8 k = 1#1 := fun h => hk1 ((k1_cond8_iff k).mp h)
  have c12 : ¬ k1_cond12 L k = 1#1 := fun h => by have := (k1_cond12_iff L k).mp h; unfold rA base at hN; omega
  have c13 : k1_cond13 L k = 1#1 := (k1_cond13_iff L k).mpr (by unfold rA base at hN; omega)
  have hv62 := iv_test_pos k hk0
  unfold tripB
  sl_exec
  -- the second chunk's self rows land
  ihave Hw16 := (Transfers.MayWaits.elim (c := thr d L) (ι := (none : HIx 1)) (O := O) (SemLoc.dma cc1_scratch16.sem)) $$ Hmw
  iapply (Transfers.wp_waitLocalO countersEmb 𝒱₀ (thr d L) none (none : HIx 1) (N := 131072) rfl) $$ [Hm16 HO Hw16]
  · isplitl [Hm16]; · iexact Hm16
    isplitl [HO]; · iexact HO
    iexact Hw16
  iintro ⟨⟨%fs7, %g1, %h1, Hs7, Hs1, Hsp1⟩, Hm16, HO⟩
  rw [wp_ret]; imodintro
  sl_exec
  -- its neighbour rows land
  ihave Hw17 := (Transfers.MayWaits.elim (c := thr d L) (ι := (none : HIx 1)) (O := O) (SemLoc.dma cc1_scratch17.sem)) $$ Hmw
  iapply (Transfers.wp_waitLocalO countersEmb 𝒱₀ (thr d L) none (none : HIx 1) (N := 1310720) rfl) $$ [Hm17 HO Hw17]
  · isplitl [Hm17]; · iexact Hm17
    isplitl [HO]; · iexact HO
    iexact Hw17
  iintro ⟨⟨%fs9, %g3, %h3, Hs9, Hs3, Hap1⟩, Hm17, HO⟩
  rw [wp_ret]; imodintro
  sl_exec
  -- the previous pair's second copy-out lands
  ihave Hw19 := (Transfers.MayWaits.elim (c := thr d L) (ι := (none : HIx 1)) (O := O) (SemLoc.dma cc1_scratch19.sem)) $$ Hmw
  iapply (Transfers.wp_waitLocalO countersEmb 𝒱₀ (thr d L) none (none : HIx 1) (N := 131072) rfl) $$ [Hm19 HO Hw19]
  · isplitl [Hm19]; · iexact Hm19
    isplitl [HO]; · iexact HO
    iexact Hw19
  iintro ⟨⟨⟨%f11, Hs11⟩, Hout1⟩, Hm19, HO⟩
  beta_reduce
  sl_for (RowInv1 d L fal fs7 fs9 fb) $$ [Hs5 Hs7 Hs9 Hs12 Hs11]
  case region => exact row_trip1 d L fal fs7 fs9 fb
  · -- before the first row nothing is summed and nothing is written
    unfold RowInv1
    isplitr [Hs5 Hs7 Hs9 Hs12 Hs11]
    · ipureintro; rfl
    isplitl [Hs5]; · iexact Hs5
    isplitl [Hs7]; · iexact Hs7
    isplitl [Hs9]; · iexact Hs9
    isplitl [Hs12]; · iexact Hs12
    iexists f11
    isplitr [Hs11]
    · ipureintro; intro x hx; exact absurd hx (Nat.not_lt_zero _)
    iexact Hs11
  unfold RowInv1
  iintro %acc ⟨%hacc, Hs5, Hs7, Hs9, Hs12, ⟨%fo, %hfo, Hs11⟩⟩
  sl_exec
  -- the copy-out's rows, carved from the rows not yet written
  have hoff : k1_off50 L k = ![rA L k.val + 32 - 4096, 0] := by rw [k1_off50_eq' L k c13]; rfl
  have hbase : wL L * 1408 + 32 * (2 * k.val + 1) = rA L k.val + 32 := by unfold rA; rw [base_eq L]; omega
  have hsub : cN (rA L k.val + 32 - 4096) ⊆ nRem (wL L) (rA L k.val + 32) := by
    have h := cN_subset_nRem (wL L) (2 * k.val + 1) (by omega) (by rw [hbase]; omega)
    rwa [hbase] at h
  have hset : ((Memref.whole main_v9_1_scv : Memref sig Kind.scVector Space.hbm S40960x128 EltTy.f32).slice (Rect.unit (s := S40960x128) (k1_off50 L k) S32x128.size (k1_off50_inb L k c13)) (fun _ => rfl)).view.set = cN (rA L k.val + 32 - 4096) := by
    have h := set_e1n_slice (k1_off50 L k) (k1_off50_inb L k c13) (by rw [hoff]; rfl)
    have h0 : k1_off50 L k 0 = rA L k.val + 32 - 4096 := by rw [hoff]; rfl
    rw [h0] at h
    exact h
  ihave Hen := (pointsTo_split_subset (ℓ := (Memref.whole main_v9_1_scv : Memref sig Kind.scVector Space.hbm S40960x128 EltTy.f32).view.loc (thr d L)) (q := fullShare) (f := fn) hsub).1 $$ Hen
  icases Hen with ⟨Hc, Hen⟩
  ihave Hc' : iprop(((Memref.whole main_v9_1_scv : Memref sig Kind.scVector Space.hbm S40960x128 EltTy.f32).slice (Rect.unit (s := S40960x128) (k1_off50 L k) S32x128.size (k1_off50_inb L k c13)) (fun _ => rfl)).view.loc (thr d L) ↦[((Memref.whole main_v9_1_scv : Memref sig Kind.scVector Space.hbm S40960x128 EltTy.f32).slice (Rect.unit (s := S40960x128) (k1_off50 L k) S32x128.size (k1_off50_inb L k c13)) (fun _ => rfl)).view.set]{fullShare} fn) $$ [Hc]
  · rw [hset]; iexact Hc
  sl_exec
  -- the invariant before the next pair
  rw [wp_ret]; imodintro
  have hr1 : rA L (k.val + 1) = rA L k.val + 64 := by unfold rA; omega
  have e64 : rA L k.val + 64 - 64 = rA L k.val := by omega
  have e32 : rA L k.val + 64 - 32 = rA L k.val + 32 := by omega
  have h64 : rA L k.val = 64 * (wL L * 22 + k.val) := by unfold rA; rw [base_eq L]; omega
  have hbm : wL L * 1408 + 32 * (2 * k.val - 1) = rA L k.val - 32 := by unfold rA; rw [base_eq L]; omega
  have ht : Scf.trips k1_t3_loop.lb k1_t3_loop.ub k1_t3_loop.st = 32 := by decide
  rw [ht] at hacc hfo
  have hro : ∀ i col, i < 32 → col < 128 → rowOut fal fs7 fs9 fb i col = E1 I d (rA L k.val + 32 + i) col := fun i col hi hc =>
    rowOut_eq_E1 I d (rA L k.val + 32) (dvd_rA L k.val) fal fs7 fs9 fb hfal h1.2 h3.2 hfb i col hi hc
  -- the tables' shares the landed gathers gave back, on the whole tables
  have esp : ((Memref.whole main_v4_0_scv : Memref sig Kind.scVector Space.hbm S100000x128 EltTy.f32).view.loc (thr d L) ↦[(spSl).view.set]{Transfers.shareTokN (rsh (wL L)) 14} I.sp d : sProp 𝕄)
      = ((Memref.whole main_v4_0_scv : Memref sig Kind.scVector Space.hbm S100000x128 EltTy.f32).view.loc (thr d L) ↦{Transfers.shareTokN (rsh (wL L)) 14} I.sp d) := by rw [spSl_set]
  have eap : ((Memref.whole main_v4_1_scv : Memref sig Kind.scVector Space.hbm S100000x128 EltTy.f32).view.loc (thr d L) ↦[(apSl).view.set]{Transfers.shareTokN (rsh (wL L)) 15} I.ap d : sProp 𝕄)
      = ((Memref.whole main_v4_1_scv : Memref sig Kind.scVector Space.hbm S100000x128 EltTy.f32).view.loc (thr d L) ↦{Transfers.shareTokN (rsh (wL L)) 15} I.ap d) := by rw [apSl_set]
  ihave Hsp1 := (Entails.of_eq esp) $$ Hsp1
  ihave Hap1 := (Entails.of_eq eap) $$ Hap1
  have hfo' : ∀ x : S32x128.Idx, (x 0).val < 32 → fo x = E1 I d (rA L k.val + 32 + (x 0).val) (x 1).val :=
    fun x hx => (hfo x hx).trans (hro _ _ hx (x 1).isLt)
  have ho50a : k1_off50 L k 0 = rA L k.val + 32 - 4096 := by rw [hoff]; rfl
  have ho50b : k1_off50 L k 1 = 0 := by rw [hoff]; rfl
  unfold Inv
  rw [Set0_ge I d L hk1, Outs_pos I d L (Nat.succ_ne_zero _)]
  unfold Idle1 LoopRO Pieces FlW0 FlW1
  rw [hr1, e64, e32]
  iclear Hs11
  isplitl []
  · iexact Hmw
  isplitl [HO]
  · iexists _
    isplitr [HO]
    swap
    · iexact HO
    · ipureintro
      intro p hp
      repeat (rcases Finset.mem_insert.mp hp with hp | hp; · exact .inr (hp ▸ rfl))
      exact hW' p hp
  isplitl [Hnid Hn1 Hn2 Ha1 Ha2 Hr7 Hr8 Hr9 Hr10 Hr11 Hr12 Hr13 Hr14 Hr15 Hr16 Hr17 Hr18]
  · iframe Hnid Hn1 Hn2 Ha1 Ha2 Hr7 Hr8 Hr9 Hr10 Hr11 Hr12 Hr13 Hr14 Hr15
    isplitl [Hr16]
    · iexact Hr16
    isplitl [Hr17]
    · iexact Hr17
    iexact Hr18
  isplitl [Hs12]
  · iexists fb
    isplitr [Hs12]
    · ipureintro; exact hfb
    iexact Hs12
  isplitl [Hs13]
  · iexists _
    isplitr [Hs13]
    swap
    · iexact Hs13
    · ipureintro
      exact fun x => sq_post I d L k.val fsq acc (rowOut fal fs7 fs9 fb) hN hfsq hacc hro x
  isplitl [Hidle0]
  · iexact Hidle0
  isplitl [Hs1 Hs3 Hs5 Hs7 Hs9 Hm16 Hm17 Hsp1 Hap1]
  · isplitl [Hs1]
    · iexists _; iexact Hs1
    isplitl [Hs3]
    · iexists _; iexact Hs3
    isplitl [Hs5]
    · iexists _; iexact Hs5
    isplitl [Hs7]
    · iexists _; iexact Hs7
    isplitl [Hs9]
    · iexists _; iexact Hs9
    isplitl [Hm16]
    · iexact Hm16
    isplitl [Hm17]
    · iexact Hm17
    isplitl [Hsp1]
    · iexact Hsp1
    iexact Hap1
  isplitl [Hm18 Hm19]
  · isplitl [Hm18]
    · iexact Hm18
    iapply (Transfers.Flight_mono countersEmb (thr d L)
      (out_payload I d L k.val hN (k1_off50 L k) (k1_off50_inb L k c13) ho50a ho50b fn fo (tripB_N_last.sl.dma0 d L fo) (fun y => rfl) hfo')) $$ Hm19
  -- the rows of the two results
  have eTr : tRem (wL L) (rA L k.val + 32) = tRem (wL L) (rA L k.val + 64) := tRem_of_ge _ _ _ (by omega) (by omega)
  have eNr : nRem (wL L) (rA L k.val + 32) \ cN (rA L k.val + 32 - 4096) = nRem (wL L) (rA L k.val + 64) := by
    have h := nRem_sdiff_cN (wL L) (2 * k.val + 1) (by omega) (by rw [hbase]; omega)
    rw [hbase, show rA L k.val + 32 + 32 = rA L k.val + 64 from by omega] at h
    exact h
  isplitl [Het]
  · iexists ft
    rw [← eTr]
    iexact Het
  isplitl [Hen]
  · iexists fn
    rw [← eNr]
    iexact Hen
  rcases Nat.lt_or_ge (rA L k.val - 32) 4096 with hB | hB
  · -- the copy-out that landed was of the last target chunk
    have eo : outDone I d L (rA L k.val - 32) = iprop((Memref.whole main_v9_0_scv : Memref sig Kind.scVector Space.hbm S4096x128 EltTy.f32).view.loc (thr d L) ↦[cT (rA L k.val - 32)]{fullShare} E1t I d) := by
      unfold outDone; rw [if_pos hB]
    ihave Hout1 := (Entails.of_eq eo) $$ Hout1
    have eT : tDone (wL L) (rA L k.val - 32) ∪ cT (rA L k.val - 32) = tDone (wL L) (rA L k.val) := by
      have h := tDone_union_cT (wL L) (2 * k.val - 1) (by omega) (by rw [hbm]; exact hB)
      rw [hbm, show rA L k.val - 32 + 32 = rA L k.val from by omega] at h
      exact h
    have eN : nDone (wL L) (rA L k.val - 32) = nDone (wL L) (rA L k.val) := nDone_of_lt _ _ _ (by omega) (by omega)
    isplitl [Hdt Hout1]
    · rw [← eT]
      iapply (pointsTo_union (ℓ := (Memref.whole main_v9_0_scv : Memref sig Kind.scVector Space.hbm S4096x128 EltTy.f32).view.loc (thr d L)) (q := fullShare) (f := E1t I d) (tDone_disjoint_cT (wL L) (rA L k.val - 32))).2
      isplitl [Hdt]
      · iexact Hdt
      iexact Hout1
    · rw [← eN]
      iexact Hdn
  · -- it was of a neighbour chunk
    have eo : outDone I d L (rA L k.val - 32) = iprop((Memref.whole main_v9_1_scv : Memref sig Kind.scVector Space.hbm S40960x128 EltTy.f32).view.loc (thr d L) ↦[cN (rA L k.val - 32 - 4096)]{fullShare} E1n I d) := by
      unfold outDone; rw [if_neg (by omega)]
    ihave Hout1 := (Entails.of_eq eo) $$ Hout1
    have eT : tDone (wL L) (rA L k.val - 32) = tDone (wL L) (rA L k.val) := tDone_of_ge _ _ _ (by omega) (by omega)
    have eN : nDone (wL L) (rA L k.val - 32) ∪ cN (rA L k.val - 32 - 4096) = nDone (wL L) (rA L k.val) := by
      have h := nDone_union_cN (wL L) (2 * k.val - 1) (by omega) (by rw [hbm]; exact hB)
      rw [hbm, show rA L k.val - 32 + 32 = rA L k.val from by omega] at h
      exact h
    isplitl [Hdt]
    · rw [← eT]
      iexact Hdt
    · rw [← eN]
      iapply (pointsTo_union (ℓ := (Memref.whole main_v9_1_scv : Memref sig Kind.scVector Space.hbm S40960x128 EltTy.f32).view.loc (thr d L)) (q := fullShare) (f := E1n I d) (nDone_disjoint_cN (wL L) (rA L k.val - 32) hB)).2
      isplitl [Hdn]
      · iexact Hdn
      iexact Hout1

end Tile
end Cert.KernelIdeal.Tile
end
-- ==== Proof.TileTripBN.lean ====
/-
  The second half of a pair of chunks on a vector subcore, when the pair's chunks are neighbour chunks.
-/
import proofs.«213116_g69346541961480_cont_9to1_m_612_34_alg».proof.Proof.TileMid
import proofs.«213116_g69346541961480_cont_9to1_m_612_34_alg».proof.Proof.TileFacts
import proofs.«213116_g69346541961480_cont_9to1_m_612_34_alg».proof.Proof.TileVals
import proofs.«213116_g69346541961480_cont_9to1_m_612_34_alg».proof.Proof.TileTripBNFirst
import proofs.«213116_g69346541961480_cont_9to1_m_612_34_alg».proof.Proof.TileTripBNMid
import proofs.«213116_g69346541961480_cont_9to1_m_612_34_alg».proof.Proof.TileTripBNLast
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem tripB_N (hpre : PreOK I) (O : CellTallies nD τ sig (HIx 1)) (W : Waits sig (HIx 1)) (k : Fin k1_t1_loop.trips) (arg34 : BitVec 32) (hN : 4096 ≤ rA L k.val) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  by_cases hk0 : k.val = 0
  · exact tripB_N_first I d L hpre O W k arg34 hN hk0
  by_cases hk1 : k.val + 1 < 22
  · exact tripB_N_mid I d L hpre O W k arg34 hN hk0 hk1
  · exact tripB_N_last I d L hpre O W k arg34 hN hk1

end Tile
end Cert.KernelIdeal.Tile
end
-- ==== Proof.TileTripB.lean ====
/-
  The second half of a pair of chunks on a vector subcore: from the middle of the pair to the pair loop's invariant
  after it, by the kind of the pair's chunks.
-/
import proofs.«213116_g69346541961480_cont_9to1_m_612_34_alg».proof.Proof.TileTripBT
import proofs.«213116_g69346541961480_cont_9to1_m_612_34_alg».proof.Proof.TileTripBN
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_run (hpre : PreOK I) (O : CellTallies nD τ sig (HIx 1)) (W : Waits sig (HIx 1)) (k : Fin k1_t1_loop.trips) (arg34 : BitVec 32) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  rcases Nat.lt_or_ge (rA L k.val) 4096 with hT | hN
  · exact tripB_T I d L hpre O W k arg34 hT
  · exact tripB_N I d L hpre O W k arg34 hN

end Tile
end Cert.KernelIdeal.Tile
end
-- ==== Proof.TileTrip.lean ====
/-
  One pair of chunks on a vector subcore, from the pair loop's invariant before the pair to the invariant after it: its
  two halves in sequence.
-/
import proofs.«213116_g69346541961480_cont_9to1_m_612_34_alg».proof.Proof.TileTripA
import proofs.«213116_g69346541961480_cont_9to1_m_612_34_alg».proof.Proof.TileTripB
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem trip (hpre : PreOK I) (O : CellTallies nD τ sig (HIx 1)) (W : Waits sig (HIx 1)) :
    ∀ (k : Fin k1_t1_loop.trips) (acc : Unit), Inv I d L O W k.val acc
      ⊢ wp frame (wpE (defs₀ (F := F)) 𝒱₀ (thr d L) none) Set.univ
          (k1_t1_body L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k acc) (Inv I d L O W (k.val + 1)) := by
  intro k acc
  rw [k1_t1_body_cut, wp_bind]
  exact (tripA_run I d L hpre O W k).trans (wp_mono frame _ _ fun r => tripB_run I d L hpre O W k r.1)

end Tile
end Cert.KernelIdeal.Tile
end
-- ==== Proof.TilePro.lean ====
/-
  The first part of a vector subcore's run: the bias fetched, the two sums zeroed, the first chunk's lists fetched and its
  gathers started, and the 22 pairs of chunks by the pair loop's invariant.
-/
import proofs.«213116_g69346541961480_cont_9to1_m_612_34_alg».proof.Proof.TileTrip
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## What the first chunk's lists hold -/

omit [FloatOps F] in
theorem pro_base_lt_of_cond1 (hc : k1_cond1 L = 1#1) : base L < 4096 := (k1_cond1_iff L).mp hc
omit [FloatOps F] in
theorem pro_base_ge_of_cond2 (hc : k1_cond2 L = 1#1) : 4096 ≤ base L := (k1_cond2_iff L).mp hc

omit [FloatOps F] in
theorem pro_self_lo (hc : k1_cond1 L = 1#1) (x : S32.Idx) :
    ReadAs.same.apply (View.read (Elt F) ((m_nid).slice (Rect.unit (s := S4096) (k1_off1 L) S32.size (k1_off1_inb L hc)) (fun _ => rfl)).view (I.nid d)) x
      = selfIdx I d (base L) (x 0).val := by
  have hb : base L < 4096 := pro_base_lt_of_cond1 L hc
  have hx : (x 0).val < 32 := (x 0).isLt
  have hinb : k1_off1 L 0 + 32 ≤ 4096 := k1_off1_inb L hc 0
  have ho : k1_off1 L 0 = base L := by rw [k1_off1_eq]; rfl
  unfold selfIdx; rw [if_pos hb]
  show I.nid d _ = I.nid d _
  congr 1
  funext a; apply Fin.ext
  match a with
  | ⟨0, _⟩ =>
    show k1_off1 L 0 + 1 * (x 0).val = (base L + (x 0).val) % 4096
    rw [ho] at hinb ⊢
    rw [Nat.mod_eq_of_lt (by omega)]; omega

omit [FloatOps F] in
theorem pro_self_hi (hc : k1_cond2 L = 1#1) (x : S32.Idx) :
    ReadAs.same.apply (View.read (Elt F) ((m_n1).slice (Rect.unit (s := S40960) (k1_off3 L) S32.size (k1_off3_inb L hc)) (fun _ => rfl)).view (I.n1 d)) x
      = selfIdx I d (base L) (x 0).val := by
  have hb : ¬ base L < 4096 := Nat.not_lt.mpr (pro_base_ge_of_cond2 L hc)
  have hx : (x 0).val < 32 := (x 0).isLt
  have hinb : k1_off3 L 0 + 32 ≤ 40960 := k1_off3_inb L hc 0
  have ho : k1_off3 L 0 = base L - 4096 := by rw [k1_off3_eq' L hc]; rfl
  unfold selfIdx; rw [if_neg hb]
  show I.n1 d _ = I.n1 d _
  congr 1
  funext a; apply Fin.ext
  match a with
  | ⟨0, _⟩ =>
    show k1_off3 L 0 + 1 * (x 0).val = (base L - 4096 + (x 0).val) % 40960
    rw [ho] at hinb ⊢
    rw [Nat.mod_eq_of_lt (by omega)]; omega

omit [FloatOps F] in
theorem pro_off2_eq_base : k1_off2 L 0 = base L * 10 := by
  rw [k1_off2_eq]; show 28160 * (L 1).val + 14080 * (L 0).val = (2816 * (L 1).val + 1408 * (L 0).val) * 10; omega
omit [FloatOps F] in
theorem pro_off4_eq_base (hc : k1_cond2 L = 1#1) : k1_off4 L 0 = (base L - 4096) * 10 := by rw [k1_off4_eq' L hc]; rfl

omit [FloatOps F] in
theorem pro_nbr_lo (hc : k1_cond1 L = 1#1) (x : S320.Idx) :
    ReadAs.same.apply (View.read (Elt F) ((m_n1).slice (Rect.unit (s := S40960) (k1_off2 L) S320.size (k1_off2_inb L hc)) (fun _ => rfl)).view (I.n1 d)) x
      = nbrIdx I d (base L) (x 0).val := by
  have hb : base L < 4096 := pro_base_lt_of_cond1 L hc
  have hx : (x 0).val < 320 := (x 0).isLt
  have hinb : k1_off2 L 0 + 320 ≤ 40960 := k1_off2_inb L hc 0
  have ho := pro_off2_eq_base L
  unfold nbrIdx; rw [if_pos hb]
  show I.n1 d _ = I.n1 d _
  congr 1
  funext a; apply Fin.ext
  match a with
  | ⟨0, _⟩ =>
    show k1_off2 L 0 + 1 * (x 0).val = (base L * 10 + (x 0).val) % 40960
    rw [ho] at hinb ⊢
    rw [Nat.mod_eq_of_lt (by omega)]; omega

omit [FloatOps F] in
theorem pro_nbr_hi (hc : k1_cond2 L = 1#1) (x : S320.Idx) :
    ReadAs.same.apply (View.read (Elt F) ((m_n2).slice (Rect.unit (s := S409600) (k1_off4 L) S320.size (k1_off4_inb L hc)) (fun _ => rfl)).view (I.n2 d)) x
      = nbrIdx I d (base L) (x 0).val := by
  have hb : ¬ base L < 4096 := Nat.not_lt.mpr (pro_base_ge_of_cond2 L hc)
  have hx : (x 0).val < 320 := (x 0).isLt
  have hinb : k1_off4 L 0 + 320 ≤ 409600 := k1_off4_inb L hc 0
  have ho := pro_off4_eq_base L hc
  unfold nbrIdx; rw [if_neg hb]
  show I.n2 d _ = I.n2 d _
  congr 1
  funext a; apply Fin.ext
  match a with
  | ⟨0, _⟩ =>
    show k1_off4 L 0 + 1 * (x 0).val = ((base L - 4096) * 10 + (x 0).val) % 409600
    rw [ho] at hinb ⊢
    rw [Nat.mod_eq_of_lt (by omega)]; omega

omit [FloatOps F] in
theorem pro_al_lo (hc : k1_cond1 L = 1#1) (x : S320.Idx) :
    ReadAs.same.apply (View.read (Elt F) ((m_a1).slice (Rect.unit (s := S40960) (k1_off2 L) S320.size (k1_off2_inb L hc)) (fun _ => rfl)).view (I.a1 d)) x
      = alph I d (base L) (x 0).val := by
  have hb : base L < 4096 := pro_base_lt_of_cond1 L hc
  have hx : (x 0).val < 320 := (x 0).isLt
  have hinb : k1_off2 L 0 + 320 ≤ 40960 := k1_off2_inb L hc 0
  have ho := pro_off2_eq_base L
  unfold alph; rw [if_pos hb]
  show I.a1 d _ = I.a1 d _
  congr 1
  funext a; apply Fin.ext
  match a with
  | ⟨0, _⟩ =>
    show k1_off2 L 0 + 1 * (x 0).val = (base L * 10 + (x 0).val) % 40960
    rw [ho] at hinb ⊢
    rw [Nat.mod_eq_of_lt (by omega)]; omega

omit [FloatOps F] in
theorem pro_al_hi (hc : k1_cond2 L = 1#1) (x : S320.Idx) :
    ReadAs.same.apply (View.read (Elt F) ((m_a2).slice (Rect.unit (s := S409600) (k1_off4 L) S320.size (k1_off4_inb L hc)) (fun _ => rfl)).view (I.a2 d)) x
      = alph I d (base L) (x 0).val := by
  have hb : ¬ base L < 4096 := Nat.not_lt.mpr (pro_base_ge_of_cond2 L hc)
  have hx : (x 0).val < 320 := (x 0).isLt
  have hinb : k1_off4 L 0 + 320 ≤ 409600 := k1_off4_inb L hc 0
  have ho := pro_off4_eq_base L hc
  unfold alph; rw [if_neg hb]
  show I.a2 d _ = I.a2 d _
  congr 1
  funext a; apply Fin.ext
  match a with
  | ⟨0, _⟩ =>
    show k1_off4 L 0 + 1 * (x 0).val = ((base L - 4096) * 10 + (x 0).val) % 409600
    rw [ho] at hinb ⊢
    rw [Nat.mod_eq_of_lt (by omega)]; omega

omit [FloatOps F] in
/-- Exactly one of the two guarded fetches of a list ran; it wrote the whole buffer. -/
theorem pro_pick_whole {b : Ref sig .scVector} (f0 : b.ty.Contents (Elt F))
    (pA : k1_cond1 L = 1#1 → b.ty.shape.Idx → Elt F b.ty.elt) (pB : k1_cond2 L = 1#1 → b.ty.shape.Idx → Elt F b.ty.elt)
    (G : b.ty.shape.Idx → Elt F b.ty.elt) (hA : ∀ hc x, pA hc x = G x) (hB : ∀ hc x, pB hc x = G x) (x : b.ty.shape.Idx) :
    (if hc : k1_cond2 L = 1#1 then
        View.write (Elt F) (Memref.whole b).view
          (if hc : k1_cond1 L = 1#1 then View.write (Elt F) (Memref.whole b).view f0 (pA hc) Finset.univ else f0) (pB hc) Finset.univ
      else if hc : k1_cond1 L = 1#1 then View.write (Elt F) (Memref.whole b).view f0 (pA hc) Finset.univ else f0) x = G x := by
  by_cases h2 : k1_cond2 L = 1#1
  · rw [dif_pos h2]
    exact (congrFun (View.write_whole_univ b _ (pB h2)) x).trans (hB h2 x)
  · have h1 : k1_cond1 L = 1#1 := (k1_cond1_iff L).mpr (by have := mt (k1_cond2_iff L).mpr h2; unfold base at *; omega)
    rw [dif_neg h2, dif_pos h1]
    exact (congrFun (View.write_whole_univ b _ (pA h1)) x).trans (hA h1 x)

/-- The index below 320 of the 336-entry buffer, as an index of its 320-entry front. -/
def pro_frontIdx (x : S336.Idx) (hx : (x 0).val < 320) : S320.Idx := fun a => match a with | ⟨0, _⟩ => (⟨(x 0).val, hx⟩ : Fin 320)

omit [FloatOps F] in
/-- One fetch of 320 weights into the front of the 336-entry buffer: the entries below 320 are the fetched ones. -/
theorem pro_writes_front (f : cc1_scratch4.ty.Contents (Elt F)) (p : S320.Idx → Elt F .f32) (x : S336.Idx) (hx : (x 0).val < 320) :
    (s_4).view.writes (Elt F) f [⟨Rect.unit (s := S336) ![0] S320.size inb_S336_S320_0, p⟩] x
      = p (pro_frontIdx x hx) := by
  have h := View.read_writes_cons_emb (v := (s_4).view) (f := f) (Rect.unit (s := S336) ![0] S320.size inb_S336_S320_0) p []
    (pro_frontIdx x hx)
  have he : (Rect.unit (s := S336) ![0] S320.size inb_S336_S320_0).emb (pro_frontIdx x hx) = x := by
    funext a; apply Fin.ext
    match a with
    | ⟨0, _⟩ => show 0 + 1 * (x 0).val = (x 0).val; omega
  rw [he] at h
  exact h

omit [FloatOps F] in
theorem pro_pick_al (f4 : cc1_scratch4.ty.Contents (Elt F))
    (pA : k1_cond1 L = 1#1 → S320.Idx → Elt F .f32) (pB : k1_cond2 L = 1#1 → S320.Idx → Elt F .f32)
    (hA : ∀ hc x, pA hc x = alph I d (base L) (x 0).val) (hB : ∀ hc x, pB hc x = alph I d (base L) (x 0).val)
    (x : S336.Idx) (hx : (x 0).val < 320) :
    (if hc : k1_cond2 L = 1#1 then
        (s_4).view.writes (Elt F)
          (if hc : k1_cond1 L = 1#1 then (s_4).view.writes (Elt F) f4 [⟨Rect.unit (s := S336) ![0] S320.size inb_S336_S320_0, pA hc⟩] else f4)
          [⟨Rect.unit (s := S336) ![0] S320.size inb_S336_S320_0, pB hc⟩]
      else if hc : k1_cond1 L = 1#1 then (s_4).view.writes (Elt F) f4 [⟨Rect.unit (s := S336) ![0] S320.size inb_S336_S320_0, pA hc⟩] else f4) x
      = alph I d (base L) (x 0).val := by
  by_cases h2 : k1_cond2 L = 1#1
  · rw [dif_pos h2, pro_writes_front _ _ x hx]; exact hB h2 _
  · have h1 : k1_cond1 L = 1#1 := (k1_cond1_iff L).mpr (by have := mt (k1_cond2_iff L).mpr h2; unfold base at *; omega)
    rw [dif_neg h2, dif_pos h1, pro_writes_front _ _ x hx]; exact hA h1 _

/-- The two rows of sums, zeroed one row at a time, hold zeros. -/
theorem pro_zeros_eq (f13 : cc1_scratch13.ty.Contents (Elt F)) (x : S2x16.Idx) :
    (s_13).view.writes (Elt F) f13
        [⟨Rect.unit (s := S2x16) ![1, 0] S1x16.size inb_S2x16_S1x16_1_0, k1_pay115 (F := F)⟩,
         ⟨Rect.unit (s := S2x16) ![0, 0] S1x16.size inb_S2x16_S1x16_0_0, k1_pay114 (F := F)⟩] x
      = tileSqUpto I d (wL L) (2 * 0) (decide ((x 0).val = 0)) (x 1).val := by
  have hx0 : (x 0).val < 2 := (x 0).isLt
  have h := View.read_writes_apply_of_pieces (v := (s_13).view) (f := f13) (fun _ : S2x16.Idx => (Scalar.ofBits .f32 0x00000000#32 : F .f32))
    [⟨Rect.unit (s := S2x16) ![1, 0] S1x16.size inb_S2x16_S1x16_1_0, k1_pay115 (F := F)⟩,
     ⟨Rect.unit (s := S2x16) ![0, 0] S1x16.size inb_S2x16_S1x16_0_0, k1_pay114 (F := F)⟩]
    (fun p hp y => by
      rcases List.mem_cons.mp hp with rfl | hp
      · rfl
      · rcases List.mem_cons.mp hp with rfl | hp
        · rfl
        · exact absurd hp List.not_mem_nil)
    x (by
      by_cases h0 : (x 0).val = 0
      · refine ⟨_, List.mem_cons_of_mem _ List.mem_cons_self, ?_⟩
        rw [Rect.mem_set_unit]
        intro a
        match a with
        | ⟨0, _⟩ => show 0 ≤ (x 0).val ∧ (x 0).val < 0 + 1; omega
        | ⟨1, _⟩ => show 0 ≤ (x 1).val ∧ (x 1).val < 0 + 16; have h1 : (x 1).val < 16 := (x 1).isLt; omega
      · refine ⟨_, List.mem_cons_self, ?_⟩
        rw [Rect.mem_set_unit]
        intro a
        match a with
        | ⟨0, _⟩ => show 1 ≤ (x 0).val ∧ (x 0).val < 1 + 1; omega
        | ⟨1, _⟩ => show 0 ≤ (x 1).val ∧ (x 1).val < 0 + 16; have h1 : (x 1).val < 16 := (x 1).isLt; omega)
  exact h

omit [FloatOps F] in
/-- The bias copied whole. -/
theorem pro_bias_eq (f12 : cc1_scratch12.ty.Contents (Elt F)) (x : S128.Idx) :
    View.write (Elt F) (s_12).view f12 (ReadAs.same.apply (View.read (Elt F) (m_b).view (I.b d))) Finset.univ x = I.b d x :=
  congrFun (View.write_whole_univ cc1_scratch12 f12 _) x

omit [FloatOps F] in
theorem pro_selfIdx_lt (hpre : PreOK I) (r0 i : ℕ) : (selfIdx I d r0 i).toNat < 100000 := by
  unfold selfIdx; split
  · exact (hpre d).1 _
  · exact (hpre d).2.1 _
omit [FloatOps F] in
theorem pro_nbrIdx_lt (hpre : PreOK I) (r0 j : ℕ) : (nbrIdx I d r0 j).toNat < 100000 := by
  unfold nbrIdx; split
  · exact (hpre d).2.1 _
  · exact (hpre d).2.2 _

omit [FloatOps F] in
theorem pro_rowMajor_symm_val1 {n : ℕ} (j : Fin (⟨1, ![n]⟩ : Shape).numel) : (((⟨1, ![n]⟩ : Shape).rowMajor.symm j) 0).val = j.val := by
  have h := Shape.rowMajor_val_one (d := ![n]) ((⟨1, ![n]⟩ : Shape).rowMajor.symm j)
  rw [Equiv.apply_symm_apply] at h
  exact h.symm

omit [FloatOps F] in
theorem pro_gatherS_apply (r0 : ℕ) (g0 : Buf (Elt F) ((s_0).view.loc (thr d L))) (hpre : PreOK I)
    (hg0 : ∀ x : S32.Idx, g0 x = selfIdx I d r0 (x 0).val)
    (hin0 : ∀ x, ((s_0).view.read (Elt F) g0 x).toNat < S100000x128.size (gathers_S100000x128_S32x128).axis) (x : S32x128.Idx) :
    SparseCore.gatherPayload gathers_S100000x128_S32x128 ((spSl).view.read (Elt F) (I.sp d))
        (SparseCore.rows ((s_0).view.read (Elt F) g0) rfl hin0) x
      = I.sp d (ixTab (selfIdx I d r0 (x 0).val).toNat (x 1).val) := by
  unfold SparseCore.gatherPayload
  show I.sp d _ = I.sp d _
  congr 1
  have hx1 : (x 1).val < 128 := (x 1).isLt
  have hs := pro_selfIdx_lt I d hpre r0 (x 0).val
  funext a; apply Fin.ext
  match a with
  | ⟨0, _⟩ =>
    show 0 + 1 * ((gathers_S100000x128_S32x128).idx (SparseCore.rows ((s_0).view.read (Elt F) g0) rfl hin0) x (0 : Fin 2)).val = (selfIdx I d r0 (x 0).val).toNat % 100000
    rw [Nat.mod_eq_of_lt hs]
    have h0 : ((gathers_S100000x128_S32x128).idx (SparseCore.rows ((s_0).view.read (Elt F) g0) rfl hin0) x (0 : Fin 2)).val
        = (g0 (S32.rowMajor.symm ((x 0).cast rfl))).toNat := rfl
    rw [h0, hg0, pro_rowMajor_symm_val1]
    show 0 + 1 * (selfIdx I d r0 (x 0).val).toNat = _
    omega
  | ⟨1, _⟩ =>
    show 0 + 1 * ((gathers_S100000x128_S32x128).idx (SparseCore.rows ((s_0).view.read (Elt F) g0) rfl hin0) x (1 : Fin 2)).val = (x 1).val % 128
    rw [Nat.mod_eq_of_lt hx1]
    have h1 : ((gathers_S100000x128_S32x128).idx (SparseCore.rows ((s_0).view.read (Elt F) g0) rfl hin0) x (1 : Fin 2)).val = (x 1).val := rfl
    rw [h1]; omega

omit [FloatOps F] in
theorem pro_gatherN_apply (r0 : ℕ) (g2 : Buf (Elt F) ((s_2).view.loc (thr d L))) (hpre : PreOK I)
    (hg2 : ∀ x : S320.Idx, g2 x = nbrIdx I d r0 (x 0).val)
    (hin2 : ∀ x, ((s_2).view.read (Elt F) g2 x).toNat < S100000x128.size (gathers_S100000x128_S320x128).axis) (x : S320x128.Idx) :
    SparseCore.gatherPayload gathers_S100000x128_S320x128 ((apSl).view.read (Elt F) (I.ap d))
        (SparseCore.rows ((s_2).view.read (Elt F) g2) rfl hin2) x
      = I.ap d (ixTab (nbrIdx I d r0 (x 0).val).toNat (x 1).val) := by
  unfold SparseCore.gatherPayload
  show I.ap d _ = I.ap d _
  congr 1
  have hx1 : (x 1).val < 128 := (x 1).isLt
  have hs := pro_nbrIdx_lt I d hpre r0 (x 0).val
  funext a; apply Fin.ext
  match a with
  | ⟨0, _⟩ =>
    show 0 + 1 * ((gathers_S100000x128_S320x128).idx (SparseCore.rows ((s_2).view.read (Elt F) g2) rfl hin2) x (0 : Fin 2)).val = (nbrIdx I d r0 (x 0).val).toNat % 100000
    rw [Nat.mod_eq_of_lt hs]
    have h0 : ((gathers_S100000x128_S320x128).idx (SparseCore.rows ((s_2).view.read (Elt F) g2) rfl hin2) x (0 : Fin 2)).val
        = (g2 (S320.rowMajor.symm ((x 0).cast rfl))).toNat := rfl
    rw [h0, hg2, pro_rowMajor_symm_val1]
    show 0 + 1 * (nbrIdx I d r0 (x 0).val).toNat = _
    omega
  | ⟨1, _⟩ =>
    show 0 + 1 * ((gathers_S100000x128_S320x128).idx (SparseCore.rows ((s_2).view.read (Elt F) g2) rfl hin2) x (1 : Fin 2)).val = (x 1).val % 128
    rw [Nat.mod_eq_of_lt hx1]
    have h1 : ((gathers_S100000x128_S320x128).idx (SparseCore.rows ((s_2).view.read (Elt F) g2) rfl hin2) x (1 : Fin 2)).val = (x 1).val := rfl
    rw [h1]; omega

omit [FloatOps F] in
/-- One write through the whole rectangle leaves its payload. -/
theorem pro_writes_whole_apply (b : Ref sig .scVector) (f : b.ty.Contents (Elt F)) (p : b.ty.shape.Idx → Elt F b.ty.elt) (x : b.ty.shape.Idx) :
    (Memref.whole b).view.writes (Elt F) f [⟨Rect.whole b.ty.shape, p⟩] x = p x := by
  have h := View.read_writes_cons_emb (v := (Memref.whole b).view) (f := f) (Rect.whole b.ty.shape) p [] x
  rw [Rect.emb_whole_apply] at h
  exact h

/-- The first chunk's self gather as issued: its landing hands back the buffer written with the gathered rows, the
    list, and the table's share. -/
def pro_issuedS (f6 : Buf (Elt F) ((s_6).view.loc (thr d L))) (g0 : Buf (Elt F) ((s_0).view.loc (thr d L)))
    (hin0 : ∀ x, ((s_0).view.read (Elt F) g0 x).toNat < S100000x128.size (gathers_S100000x128_S32x128).axis) : sProp 𝕄 :=
  Transfers.Flight countersEmb (thr d L) (SemLoc.dma cc1_scratch14.sem) default 131072
      iprop((((s_6).view.loc (thr d L) ↦{fullShare} (s_6).view.writes (Elt F) f6
          [⟨Rect.whole cc1_scratch6.ty.shape, SparseCore.gatherPayload gathers_S100000x128_S32x128 ((spSl).view.read (Elt F) (I.sp d))
            (SparseCore.rows ((s_0).view.read (Elt F) g0) rfl hin0)⟩])
        ∗ ((s_0).view.loc (thr d L) ↦{fullShare} g0))
        ∗ ((m_sp).view.loc (thr d L) ↦[(spSl).view.set]{Transfers.shareTokN (rsh (wL L)) 12} I.sp d))
/-- The first chunk's neighbour gather as issued. -/
def pro_issuedN (f8 : Buf (Elt F) ((s_8).view.loc (thr d L))) (g2 : Buf (Elt F) ((s_2).view.loc (thr d L)))
    (hin2 : ∀ x, ((s_2).view.read (Elt F) g2 x).toNat < S100000x128.size (gathers_S100000x128_S320x128).axis) : sProp 𝕄 :=
  Transfers.Flight countersEmb (thr d L) (SemLoc.dma cc1_scratch15.sem) default 1310720
      iprop((((s_8).view.loc (thr d L) ↦{fullShare} (s_8).view.writes (Elt F) f8
          [⟨Rect.whole cc1_scratch8.ty.shape, SparseCore.gatherPayload gathers_S100000x128_S320x128 ((apSl).view.read (Elt F) (I.ap d))
            (SparseCore.rows ((s_2).view.read (Elt F) g2) rfl hin2)⟩])
        ∗ ((s_2).view.loc (thr d L) ↦{fullShare} g2))
        ∗ ((m_ap).view.loc (thr d L) ↦[(apSl).view.set]{Transfers.shareTokN (rsh (wL L)) 13} I.ap d))

/-- The first chunk's self gather, as issued, is the flight the pair loop's invariant names. -/
theorem pro_flS0_intro (hpre : PreOK I) (r0 : ℕ) (f6 : Buf (Elt F) ((s_6).view.loc (thr d L))) (g0 : Buf (Elt F) ((s_0).view.loc (thr d L)))
    (hg0 : ∀ x : S32.Idx, g0 x = selfIdx I d r0 (x 0).val)
    (hin0 : ∀ x, ((s_0).view.read (Elt F) g0 x).toNat < S100000x128.size (gathers_S100000x128_S32x128).axis) :
    (Transfers.Flight countersEmb (thr d L) (SemLoc.dma cc1_scratch14.sem) default 131072
      iprop((((s_6).view.loc (thr d L) ↦{fullShare} (s_6).view.writes (Elt F) f6
          [⟨Rect.whole cc1_scratch6.ty.shape, SparseCore.gatherPayload gathers_S100000x128_S32x128 ((spSl).view.read (Elt F) (I.sp d))
            (SparseCore.rows ((s_0).view.read (Elt F) g0) rfl hin0)⟩])
        ∗ ((s_0).view.loc (thr d L) ↦{fullShare} g0))
        ∗ ((m_sp).view.loc (thr d L) ↦[(spSl).view.set]{Transfers.shareTokN (rsh (wL L)) 12} I.sp d)) : sProp 𝕄)
      ⊢ FlS0 I d L r0 := by
  unfold FlS0
  refine Transfers.Flight_mono countersEmb (thr d L) ?_
  iintro ⟨⟨H6, H0⟩, Hsp⟩
  iexists _, g0
  isplitr
  · ipureintro
    exact ⟨hg0, fun x => (pro_writes_whole_apply cc1_scratch6 f6 _ x).trans (pro_gatherS_apply I d L r0 g0 hpre hg0 hin0 x)⟩
  isplitl [H6]; · iexact H6
  isplitl [H0]; · iexact H0
  iexact Hsp

theorem pro_flN0_intro (hpre : PreOK I) (r0 : ℕ) (f8 : Buf (Elt F) ((s_8).view.loc (thr d L))) (g2 : Buf (Elt F) ((s_2).view.loc (thr d L)))
    (hg2 : ∀ x : S320.Idx, g2 x = nbrIdx I d r0 (x 0).val)
    (hin2 : ∀ x, ((s_2).view.read (Elt F) g2 x).toNat < S100000x128.size (gathers_S100000x128_S320x128).axis) :
    (Transfers.Flight countersEmb (thr d L) (SemLoc.dma cc1_scratch15.sem) default 1310720
      iprop((((s_8).view.loc (thr d L) ↦{fullShare} (s_8).view.writes (Elt F) f8
          [⟨Rect.whole cc1_scratch8.ty.shape, SparseCore.gatherPayload gathers_S100000x128_S320x128 ((apSl).view.read (Elt F) (I.ap d))
            (SparseCore.rows ((s_2).view.read (Elt F) g2) rfl hin2)⟩])
        ∗ ((s_2).view.loc (thr d L) ↦{fullShare} g2))
        ∗ ((m_ap).view.loc (thr d L) ↦[(apSl).view.set]{Transfers.shareTokN (rsh (wL L)) 13} I.ap d)) : sProp 𝕄)
      ⊢ FlN0 I d L r0 := by
  unfold FlN0
  refine Transfers.Flight_mono countersEmb (thr d L) ?_
  iintro ⟨⟨H8, H2⟩, Hap⟩
  iexists _, g2
  isplitr
  · ipureintro
    exact ⟨hg2, fun x => (pro_writes_whole_apply cc1_scratch8 f8 _ x).trans (pro_gatherN_apply I d L r0 g2 hpre hg2 hin2 x)⟩
  isplitl [H8]; · iexact H8
  isplitl [H2]; · iexact H2
  iexact Hap

theorem pro_flS0_of_issued (hpre : PreOK I) (r0 : ℕ) (f6 : Buf (Elt F) ((s_6).view.loc (thr d L))) (g0 : Buf (Elt F) ((s_0).view.loc (thr d L)))
    (hg0 : ∀ x : S32.Idx, g0 x = selfIdx I d r0 (x 0).val)
    (hin0 : ∀ x, ((s_0).view.read (Elt F) g0 x).toNat < S100000x128.size (gathers_S100000x128_S32x128).axis) :
    pro_issuedS I d L f6 g0 hin0 ⊢ FlS0 I d L r0 := by
  unfold pro_issuedS; exact pro_flS0_intro I d L hpre r0 f6 g0 hg0 hin0
theorem pro_flN0_of_issued (hpre : PreOK I) (r0 : ℕ) (f8 : Buf (Elt F) ((s_8).view.loc (thr d L))) (g2 : Buf (Elt F) ((s_2).view.loc (thr d L)))
    (hg2 : ∀ x : S320.Idx, g2 x = nbrIdx I d r0 (x 0).val)
    (hin2 : ∀ x, ((s_2).view.read (Elt F) g2 x).toNat < S100000x128.size (gathers_S100000x128_S320x128).axis) :
    pro_issuedN I d L f8 g2 hin2 ⊢ FlN0 I d L r0 := by
  unfold pro_issuedN; exact pro_flN0_intro I d L hpre r0 f8 g2 hg2 hin2
/-! ## The rows not yet written, before the first pair -/

omit [FloatOps F] in
theorem pro_rA_zero_eq : rA L 0 = wL L * 1408 := by
  show 2816 * (L 1).val + 1408 * (L 0).val + 64 * 0 = ((L 1).val * 2 + (L 0).val) * 1408
  omega

omit [FloatOps F] in
theorem pro_tRem_base : tRem (wL L) (rA L 0) = tSet (wL L) := by
  unfold tRem
  refine Finset.filter_true_of_mem fun x hx => ?_
  have h := (Finset.mem_filter.mp hx).2
  rw [pro_rA_zero_eq]; exact h.1
omit [FloatOps F] in
theorem pro_tDone_base : tDone (wL L) (rA L 0 - 64) = ∅ := by
  unfold tDone
  refine Finset.filter_false_of_mem fun x hx => ?_
  have h := (Finset.mem_filter.mp hx).2
  rw [pro_rA_zero_eq]; omega
omit [FloatOps F] in
theorem pro_nRem_base : nRem (wL L) (rA L 0) = nSet (wL L) := by
  unfold nRem
  refine Finset.filter_true_of_mem fun x hx => ?_
  have h := (Finset.mem_filter.mp hx).2
  rw [pro_rA_zero_eq]; exact h.1
omit [FloatOps F] in
theorem pro_nDone_base : nDone (wL L) (rA L 0 - 64) = ∅ := by
  unfold nDone
  refine Finset.filter_false_of_mem fun x hx => ?_
  have h := (Finset.mem_filter.mp hx).2
  rw [pro_rA_zero_eq]; omega

omit [FloatOps F] in
/-- A wait recorded at the index no call uses keeps the recorded pairs within the bound. -/
theorem pro_waits_insert {W W' : Waits sig (HIx 1)} (s : SemLoc sig) (h : ∀ p ∈ W', p ∈ W ∨ p.2 = none) :
    ∀ p ∈ insert (s, (default : HIx 1)) W', p ∈ W ∨ p.2 = none :=
  fun p hp => (Finset.mem_insert.mp hp).elim (fun e => Or.inr (by rw [e]; rfl)) (h p)

set_option maxHeartbeats 4000000 in
theorem part36_run (hF : (K (F := F)).Facts) (hpre : PreOK I) (O : CellTallies nD τ sig (HIx 1)) (W : Waits sig (HIx 1)) (hO : ∀ g, O g none = 0) :
    iprop(levAts (K (F := F)).L (K (F := F)).lev ∗ emp ∗ goAt I d (wL L) ∗ scopedBufs (thr d L) ∗ scopedSems0 (thr d L) ∗ owes (thr d L) O W)
      ⊢ wp frame (wpE (defs₀ (F := F)) 𝒱₀ (thr d L) none) Set.univ
          (k1_part36 L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20)
          fun _ => iprop(Inv I d L O W 22 () ∗ Rest I d L) := by
  simp only [k1_part36_eq_skeleton]; unfold k1_part36_skel
  rw [(K (F := F)).scopedBufs_V hF d (cV L) (jV L), SparseCore.Cfg.scopedSems0_V (Val := Elt F) d (cV L) (jV L), ownSems0_V, ownBufs_V]
  unfold goAt readsAt
  simp only [semList, bufList, bigSepL_cons_cons, bigSepL_singleton, sep_eq']
  iintro ⟨#Hlv, -, ⟨⟨Hsp, Hap, Hnid, Hn1, Hn2, Ha1, Ha2, Hb⟩, ⟨%fe1t, He1t⟩, ⟨%fe1n, He1n⟩, ⟨%fsqt, Hsqt⟩, ⟨%fsqn, Hsqn⟩⟩,
    ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩⟩, Hbufs⟩,
    ⟨⟨Hm14, Hm15, Hm16, Hm17, Hm18, Hm19, Hr0, Hr1, Hr2, Hr3, Hr4, Hr5, Hr6, Hr7, Hr8, Hr9, Hr10, Hr11, Hr12, Hr13, Hr14, Hr15, Hr16, Hr17, Hr18, Hr19, Hr20⟩, Hsems⟩, HO⟩
  ihave Hmw := ((K (F := F)).mayWaits_none (thr := thr d L) hO) $$ Hlv
  ihave Hsp := (Entails.of_eq (pts_sp (F := F) d L _ _)) $$ Hsp
  ihave Hap := (Entails.of_eq (pts_ap (F := F) d L _ _)) $$ Hap
  ihave Hnid := (Entails.of_eq (pts_nid (F := F) d L _ _)) $$ Hnid
  ihave Hn1 := (Entails.of_eq (pts_n1 (F := F) d L _ _)) $$ Hn1
  ihave Hn2 := (Entails.of_eq (pts_n2 (F := F) d L _ _)) $$ Hn2
  ihave Ha1 := (Entails.of_eq (pts_a1 (F := F) d L _ _)) $$ Ha1
  ihave Ha2 := (Entails.of_eq (pts_a2 (F := F) d L _ _)) $$ Ha2
  ihave Hb := (Entails.of_eq (pts_b (F := F) d L _ _)) $$ Hb
  ihave Hs0 := (Entails.of_eq (pts_s0 (F := F) d L _)) $$ Hs0
  ihave Hs1 := (Entails.of_eq (pts_s1 (F := F) d L _)) $$ Hs1
  ihave Hs2 := (Entails.of_eq (pts_s2 (F := F) d L _)) $$ Hs2
  ihave Hs3 := (Entails.of_eq (pts_s3 (F := F) d L _)) $$ Hs3
  ihave Hs4 := (Entails.of_eq (pts_s4 (F := F) d L _)) $$ Hs4
  ihave Hs5 := (Entails.of_eq (pts_s5 (F := F) d L _)) $$ Hs5
  ihave Hs6 := (Entails.of_eq (pts_s6 (F := F) d L _)) $$ Hs6
  ihave Hs7 := (Entails.of_eq (pts_s7 (F := F) d L _)) $$ Hs7
  ihave Hs8 := (Entails.of_eq (pts_s8 (F := F) d L _)) $$ Hs8
  ihave Hs9 := (Entails.of_eq (pts_s9 (F := F) d L _)) $$ Hs9
  ihave Hs10 := (Entails.of_eq (pts_s10 (F := F) d L _)) $$ Hs10
  ihave Hs11 := (Entails.of_eq (pts_s11 (F := F) d L _)) $$ Hs11
  ihave Hs12 := (Entails.of_eq (pts_s12 (F := F) d L _)) $$ Hs12
  ihave Hs13 := (Entails.of_eq (pts_s13 (F := F) d L _)) $$ Hs13
  ihave Hsp := (share_toks_split (ℓ := (m_sp).view.loc (thr d L)) (I.sp d) (rsh (wL L)) 12 14 (by decide)) $$ Hsp
  icases Hsp with ⟨Hsp12, Hsp14, HspR⟩
  ihave Hap := (share_toks_split (ℓ := (m_ap).view.loc (thr d L)) (I.ap d) (rsh (wL L)) 13 15 (by decide)) $$ Hap
  icases Hap with ⟨Hap13, Hap15, HapR⟩
  sl_exec
  -- what the first chunk's two lists hold: the rows' self indices and their neighbours' indices
  ihave Hs0' : iprop(∃ g : Buf (Elt F) ((s_0).view.loc (thr d L)), ((s_0).view.loc (thr d L) ↦{fullShare} g)
      ∗ ⌜∀ x : S32.Idx, g x = selfIdx I d (base L) (x 0).val⌝) $$ [Hs0]
  · iexists _
    isplitl [Hs0]
    · iexact Hs0
    · ipureintro
      exact pro_pick_whole L (b := cc1_scratch0) f0 _ _ (fun x => selfIdx I d (base L) (x 0).val)
        (fun hc x => pro_self_lo I d L hc x) (fun hc x => pro_self_hi I d L hc x)
  icases Hs0' with ⟨%g0, Hs0, %hg0⟩
  ihave Hs2' : iprop(∃ g : Buf (Elt F) ((s_2).view.loc (thr d L)), ((s_2).view.loc (thr d L) ↦{fullShare} g)
      ∗ ⌜∀ x : S320.Idx, g x = nbrIdx I d (base L) (x 0).val⌝) $$ [Hs2]
  · iexists _
    isplitl [Hs2]
    · iexact Hs2
    · ipureintro
      exact pro_pick_whole L (b := cc1_scratch2) f2 _ _ (fun x => nbrIdx I d (base L) (x 0).val)
        (fun hc x => pro_nbr_lo I d L hc x) (fun hc x => pro_nbr_hi I d L hc x)
  icases Hs2' with ⟨%g2, Hs2, %hg2⟩
  have hin0 : ∀ x, ((s_0).view.read (Elt F) g0 x).toNat < S100000x128.size (gathers_S100000x128_S32x128).axis :=
    fun x => (congrArg BitVec.toNat (hg0 x)).trans_lt (pro_selfIdx_lt I d hpre _ _)
  have hin2 : ∀ x, ((s_2).view.read (Elt F) g2 x).toNat < S100000x128.size (gathers_S100000x128_S320x128).axis :=
    fun x => (congrArg BitVec.toNat (hg2 x)).trans_lt (pro_nbrIdx_lt I d hpre _ _)
  sl_exec
  -- the two gathers under way deliver the chunk's rows
  ihave Hm14' : pro_issuedS I d L f6 g0 hin0 $$ [Hm14]
  · unfold pro_issuedS; iexact Hm14
  ihave Hm14 := (pro_flS0_of_issued I d L hpre (rA L 0) f6 g0 hg0 hin0) $$ Hm14'
  ihave Hm15' : pro_issuedN I d L f8 g2 hin2 $$ [Hm15]
  · unfold pro_issuedN; iexact Hm15
  ihave Hm15 := (pro_flN0_of_issued I d L hpre (rA L 0) f8 g2 hg2 hin2) $$ Hm15'
  have hW0 : ∀ p ∈ part36_run.sl.W0 L W, p ∈ W ∨ p.2 = none := by
    unfold part36_run.sl.W0; split
    · exact pro_waits_insert _ (pro_waits_insert _ (pro_waits_insert _ (pro_waits_insert _ fun p hp => Or.inl hp)))
    · exact pro_waits_insert _ fun p hp => Or.inl hp
  have hW1 : ∀ p ∈ part36_run.sl.W1 L W, p ∈ W ∨ p.2 = none := by
    unfold part36_run.sl.W1; split
    · exact pro_waits_insert _ (pro_waits_insert _ (pro_waits_insert _ hW0))
    · exact hW0
  sl_for (Inv I d L O W) $$ [HO Hnid Hn1 Hn2 Ha1 Ha2 Hr7 Hr8 Hr9 Hr10 Hr11 Hr12 Hr13 Hr14 Hr15 Hr16 Hr17 Hr18 Hs12 Hs13 Hs4 Hm14 Hm15 Hs1 Hs3 Hs5 Hs7 Hs9 Hm16 Hm17 Hsp14 Hap15 Hs10 Hs11 Hm18 Hm19 He1t He1n]
  case region => exact trip I d L hpre O W
  · -- before the first pair
    unfold Inv
    isplitr; · iexact Hmw
    isplitl [HO]
    · iexists _; isplitr; · ipureintro; exact hW1
      iexact HO
    isplitl [Hnid Hn1 Hn2 Ha1 Ha2 Hr7 Hr8 Hr9 Hr10 Hr11 Hr12 Hr13 Hr14 Hr15 Hr16 Hr17 Hr18]
    · unfold LoopRO
      isplitl [Hnid]; · iexact Hnid
      isplitl [Hn1]; · iexact Hn1
      isplitl [Hn2]; · iexact Hn2
      isplitl [Ha1]; · iexact Ha1
      isplitl [Ha2]; · iexact Ha2
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hr13]; · iexact Hr13
      isplitl [Hr14]; · iexact Hr14
      isplitl [Hr15]; · iexact Hr15
      isplitl [Hr16]; · iexact Hr16
      isplitl [Hr17]; · iexact Hr17
      iexact Hr18
    isplitl [Hs12]
    · iexists _; isplitr
      swap; · iexact Hs12
      ipureintro; exact fun x => pro_bias_eq I d f12 x
    isplitl [Hs13]
    · iexists _; isplitr
      swap; · iexact Hs13
      ipureintro; exact fun x => pro_zeros_eq I d L _ x
    isplitl [Hs4 Hm14 Hm15]
    · rw [Set0_lt I d L (by decide : 0 < 22)]; unfold Loaded0
      isplitl [Hs4]
      · iexists _; isplitr
        swap; · iexact Hs4
        ipureintro
        exact fun x hx => pro_pick_al I d L f4 _ _ (fun hc y => pro_al_lo I d L hc y) (fun hc y => pro_al_hi I d L hc y) x hx
      isplitl [Hm14]; · iexact Hm14
      iexact Hm15
    isplitl [Hs1 Hs3 Hs5 Hs7 Hs9 Hm16 Hm17 Hsp14 Hap15]
    · unfold Idle1
      isplitl [Hs1]; · iexists _; iexact Hs1
      isplitl [Hs3]; · iexists _; iexact Hs3
      isplitl [Hs5]; · iexists _; iexact Hs5
      isplitl [Hs7]; · iexists _; iexact Hs7
      isplitl [Hs9]; · iexists _; iexact Hs9
      isplitl [Hm16]; · iexact Hm16
      isplitl [Hm17]; · iexact Hm17
      isplitl [Hsp14]; · iexact Hsp14
      iexact Hap15
    isplitl [Hs10 Hs11 Hm18 Hm19]
    · rw [Outs_zero]
      isplitl [Hs10]; · iexists _; iexact Hs10
      isplitl [Hs11]; · iexists _; iexact Hs11
      isplitl [Hm18]; · iexact Hm18
      iexact Hm19
    · unfold Pieces
      rw [pro_tRem_base, pro_nRem_base, pro_tDone_base, pro_nDone_base, pointsTo_empty, pointsTo_empty]
      isplitl [He1t]; · iexists _; iexact He1t
      isplitl [He1n]; · iexists _; iexact He1n
      isplitr; · iempintro
      iempintro
  · -- after the last pair: what the loop did not touch goes with the rest
    iintro %acc HI
    have e22 : Inv I d L O W k1_t1_loop.trips acc = Inv I d L O W 22 () := by rw [trips22]
    ihave HI := (Entails.of_eq e22) $$ HI
    sl_step
    isplitl [HI]; · iexact HI
    unfold Rest
    isplitl [Hb]; · iexact Hb
    isplitl [HspR]; · iexact HspR
    isplitl [HapR]; · iexact HapR
    isplitl [Hsqt]; · iexists _; iexact Hsqt
    isplitl [Hsqn]; · iexists _; iexact Hsqn
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr19]; · iexact Hr19
    isplitl [Hr20]; · iexact Hr20
    isplitl [Hbufs]; · iexact Hbufs
    iexact Hsems

end Tile
end Cert.KernelIdeal.Tile
end
-- ==== Proof.TileEpi.lean ====
/-
  The end of a vector subcore's run: the two last copy-outs awaited, the two rows of sums copied out, and the task's
  results and the subcore's storage handed back.
-/
import proofs.«213116_g69346541961480_cont_9to1_m_612_34_alg».proof.Proof.TileKit
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- Row `wid` of the targets' sums array, as the epilogue slices it. -/
abbrev sqtSl (L : grid1.Coords) : Memref sig .scVector .hbm S16 .f32 :=
  ((m_sqt).slice (Rect.unit (s := S32x16) (k1_off51 L) S1x16.size (k1_off51_inb L)) (fun _ => rfl)).squeeze S16 squeezes_S1x16_S16
/-- Row `wid` of the neighbours' sums array, as the epilogue slices it. -/
abbrev sqnSl (L : grid1.Coords) : Memref sig .scVector .hbm S16 .f32 :=
  ((m_sqn).slice (Rect.unit (s := S32x16) (k1_off51 L) S1x16.size (k1_off51_inb L)) (fun _ => rfl)).squeeze S16 squeezes_S1x16_S16

omit [FloatOps F] in
/-- The worker's number is its place in the grid: `2 j + c`. -/
theorem wL_eq (L : grid1.Coords) : wL L = 2 * (L 1).val + (L 0).val := by
  show (L 1).val * 2 + (L 0).val = _
  omega

omit [FloatOps F] in
/-- The sliced row is the worker's row. -/
theorem mem_off51_iff (L : grid1.Coords) (x : S32x16.Idx) :
    x ∈ (Rect.unit (s := S32x16) (k1_off51 L) S1x16.size (k1_off51_inb L)).set ↔ (x 0).val = wL L := by
  rw [Rect.mem_set_unit, k1_off51_eq, wL_eq, Fin.forall_fin_two]
  have h1 := (x 1).isLt
  change (x 1).val < 16 at h1
  show ((2 * (L 1).val + (L 0).val ≤ (x 0).val ∧ (x 0).val < 2 * (L 1).val + (L 0).val + 1) ∧ (0 ≤ (x 1).val ∧ (x 1).val < 0 + 16)) ↔ _
  omega

omit [FloatOps F] in
theorem sqtSl_set (L : grid1.Coords) : (sqtSl L).view.set = sqRow (wL L) :=
  (View.set_reshape _ _).trans ((View.set_slice_whole _ _).trans (Finset.ext fun x => by
    rw [mem_off51_iff]
    unfold sqRow
    rw [Finset.mem_filter]
    exact ⟨fun h => ⟨Finset.mem_univ _, h⟩, fun h => h.2⟩))

omit [FloatOps F] in
theorem sqnSl_set (L : grid1.Coords) : (sqnSl L).view.set = sqRow (wL L) :=
  (View.set_reshape _ _).trans ((View.set_slice_whole _ _).trans (Finset.ext fun x => by
    rw [mem_off51_iff]
    unfold sqRow
    rw [Finset.mem_filter]
    exact ⟨fun h => ⟨Finset.mem_univ _, h⟩, fun h => h.2⟩))

/-! ## The worker's rows at the end of the pair loop -/

omit [FloatOps F] in
theorem L0_lt (L : grid1.Coords) : (L 0).val < 2 := (L 0).isLt
omit [FloatOps F] in
theorem L1_lt (L : grid1.Coords) : (L 1).val < 16 := (L 1).isLt
omit [FloatOps F] in
/-- The worker's first row is 1408 times its number. -/
theorem wbase (L : grid1.Coords) : wL L * 1408 = base L := by unfold base; rw [wL_eq]; omega
omit [FloatOps F] in
theorem rA22 (L : grid1.Coords) : rA L 22 = base L + 1408 := by unfold rA; omega
omit [FloatOps F] in
/-- A worker's last two chunks are both target chunks or both neighbour chunks. -/
theorem last_chunks (L : grid1.Coords) : base L + 1408 ≤ 4096 ∨ 4096 ≤ base L + 1344 := by
  have h0 := L0_lt L; have h1 := L1_lt L; unfold base; omega

omit [FloatOps F] in
theorem tSet_A (L : grid1.Coords) (hA : base L + 1408 ≤ 4096) :
    tSet (wL L) = tDone (wL L) (base L + 1344) ∪ (cT (base L + 1344) ∪ cT (base L + 1376)) := by
  ext x
  have hx : (x 0).val < 4096 := (x 0).isLt
  simp only [tSet, tDone, cT, Finset.mem_union, Finset.mem_filter, Finset.mem_univ, true_and, wbase]
  omega
omit [FloatOps F] in
theorem tDisj1 (L : grid1.Coords) : Disjoint (tDone (wL L) (base L + 1344)) (cT (base L + 1344) ∪ cT (base L + 1376)) :=
  Finset.disjoint_left.2 fun x h1 h2 => by
    simp only [tSet, tDone, cT, Finset.mem_union, Finset.mem_filter, Finset.mem_univ, true_and] at h1 h2
    omega
omit [FloatOps F] in
theorem tDisj2 (r : ℕ) : Disjoint (cT r) (cT (r + 32)) :=
  Finset.disjoint_left.2 fun x h1 h2 => by
    simp only [cT, Finset.mem_filter, Finset.mem_univ, true_and] at h1 h2
    omega
omit [FloatOps F] in
theorem nDone_A (L : grid1.Coords) (hA : base L + 1408 ≤ 4096) : nDone (wL L) (base L + 1344) = nSet (wL L) := by
  ext x
  simp only [nSet, nDone, Finset.mem_filter, Finset.mem_univ, true_and, wbase]
  omega
omit [FloatOps F] in
theorem tRem_end (L : grid1.Coords) : tRem (wL L) (base L + 1408) = ∅ := by
  ext x
  simp only [tSet, tRem, Finset.mem_filter, Finset.mem_univ, true_and, wbase, Finset.notMem_empty, iff_false]
  omega
omit [FloatOps F] in
theorem nRem_end (L : grid1.Coords) : nRem (wL L) (base L + 1408) = ∅ := by
  ext x
  simp only [nSet, nRem, Finset.mem_filter, Finset.mem_univ, true_and, wbase, Finset.notMem_empty, iff_false]
  omega

omit [FloatOps F] in
theorem nSet_B (L : grid1.Coords) (hB : 4096 ≤ base L + 1344) :
    nSet (wL L) = nDone (wL L) (base L + 1344) ∪ (cN (base L + 1344 - 4096) ∪ cN (base L + 1376 - 4096)) := by
  ext x
  have hx : (x 0).val < 40960 := (x 0).isLt
  simp only [nSet, nDone, cN, Finset.mem_union, Finset.mem_filter, Finset.mem_univ, true_and, wbase]
  omega
omit [FloatOps F] in
theorem nDisj1 (L : grid1.Coords) (hB : 4096 ≤ base L + 1344) :
    Disjoint (nDone (wL L) (base L + 1344)) (cN (base L + 1344 - 4096) ∪ cN (base L + 1376 - 4096)) :=
  Finset.disjoint_left.2 fun x h1 h2 => by
    simp only [nSet, nDone, cN, Finset.mem_union, Finset.mem_filter, Finset.mem_univ, true_and] at h1 h2
    omega
omit [FloatOps F] in
theorem nDisj2 (L : grid1.Coords) (hB : 4096 ≤ base L + 1344) : Disjoint (cN (base L + 1344 - 4096)) (cN (base L + 1376 - 4096)) :=
  Finset.disjoint_left.2 fun x h1 h2 => by
    simp only [cN, Finset.mem_filter, Finset.mem_univ, true_and] at h1 h2
    omega
omit [FloatOps F] in
theorem tDone_B (L : grid1.Coords) (hB : 4096 ≤ base L + 1344) : tDone (wL L) (base L + 1344) = tSet (wL L) := by
  ext x
  have hx : (x 0).val < 4096 := (x 0).isLt
  simp only [tSet, tDone, Finset.mem_filter, Finset.mem_univ, true_and, wbase]
  omega

set_option maxHeartbeats 1600000 in
/-- THE ROWS JOINED: the rows landed before the last pair and the last pair's two chunks are the worker's rows of the
    two results. -/
theorem rows_join :
    iprop(((m_e1t).view.loc (thr d L) ↦[tDone (wL L) (rA L 22 - 64)]{fullShare} E1t I d)
        ∗ ((m_e1n).view.loc (thr d L) ↦[nDone (wL L) (rA L 22 - 64)]{fullShare} E1n I d)
        ∗ outDone I d L (rA L 22 - 64) ∗ outDone I d L (rA L 22 - 32))
      ⊢ iprop(((m_e1t).view.loc (thr d L) ↦[tSet (wL L)]{fullShare} E1t I d)
        ∗ ((m_e1n).view.loc (thr d L) ↦[nSet (wL L)]{fullShare} E1n I d)) := by
  have e1 : rA L 22 - 64 = base L + 1344 := by rw [rA22]; omega
  have e2 : rA L 22 - 32 = base L + 1376 := by rw [rA22]; omega
  rw [e1, e2]
  unfold outDone
  rcases last_chunks L with hA | hB
  · rw [if_pos (by omega), if_pos (by omega), tSet_A L hA, ← nDone_A L hA]
    iintro ⟨Ht, Hn, H1, H2⟩
    isplitr [Hn]
    · iapply (pointsTo_union (ℓ := (m_e1t).view.loc (thr d L)) (q := fullShare) (f := E1t I d) (tDisj1 L)).2
      isplitl [Ht]; · iexact Ht
      iapply (pointsTo_union (ℓ := (m_e1t).view.loc (thr d L)) (q := fullShare) (f := E1t I d) (tDisj2 (base L + 1344))).2
      isplitl [H1]; · iexact H1
      iexact H2
    · iexact Hn
  · rw [if_neg (by omega), if_neg (by omega), nSet_B L hB, ← tDone_B L hB]
    iintro ⟨Ht, Hn, H1, H2⟩
    isplitl [Ht]; · iexact Ht
    iapply (pointsTo_union (ℓ := (m_e1n).view.loc (thr d L)) (q := fullShare) (f := E1n I d) (nDisj1 L hB)).2
    isplitl [Hn]; · iexact Hn
    iapply (pointsTo_union (ℓ := (m_e1n).view.loc (thr d L)) (q := fullShare) (f := E1n I d) (nDisj2 L hB)).2
    isplitl [H1]; · iexact H1
    iexact H2

omit [FloatOps F] in
/-- The fourteen scratch buffers, one by one. -/
theorem bufs_explicit (Φ : Ref sig .scVector → sProp 𝕄) :
    bigSepL bufList Φ = iprop(Φ cc1_scratch0 ∗ Φ cc1_scratch1 ∗ Φ cc1_scratch2 ∗ Φ cc1_scratch3 ∗ Φ cc1_scratch4 ∗ Φ cc1_scratch5
      ∗ Φ cc1_scratch6 ∗ Φ cc1_scratch7 ∗ Φ cc1_scratch8 ∗ Φ cc1_scratch9 ∗ Φ cc1_scratch10 ∗ Φ cc1_scratch11 ∗ Φ cc1_scratch12
      ∗ Φ cc1_scratch13 ∗ emp) := by
  unfold bufList
  simp only [bigSepL_cons, bigSepL_nil]
  rfl

omit [FloatOps F] in
/-- The twenty-seven semaphores, one by one. -/
theorem sems_explicit (Φ : DmaSem sig → sProp 𝕄) :
    bigSepL semList Φ = iprop(Φ cc1_scratch14.sem ∗ Φ cc1_scratch15.sem ∗ Φ cc1_scratch16.sem ∗ Φ cc1_scratch17.sem ∗ Φ cc1_scratch18.sem
      ∗ Φ cc1_scratch19.sem ∗ Φ cc1_scoped0.sem ∗ Φ cc1_scoped1.sem ∗ Φ cc1_scoped2.sem ∗ Φ cc1_scoped3.sem ∗ Φ cc1_scoped4.sem
      ∗ Φ cc1_scoped5.sem ∗ Φ cc1_scoped6.sem ∗ Φ cc1_scoped7.sem ∗ Φ cc1_scoped8.sem ∗ Φ cc1_scoped9.sem ∗ Φ cc1_scoped10.sem
      ∗ Φ cc1_scoped11.sem ∗ Φ cc1_scoped12.sem ∗ Φ cc1_scoped13.sem ∗ Φ cc1_scoped14.sem ∗ Φ cc1_scoped15.sem ∗ Φ cc1_scoped16.sem
      ∗ Φ cc1_scoped17.sem ∗ Φ cc1_scoped18.sem ∗ Φ cc1_scoped19.sem ∗ Φ cc1_scoped20.sem ∗ emp) := by
  unfold semList
  simp only [bigSepL_cons, bigSepL_nil]
  rfl

/-! ## The two rows of sums, entry by entry -/

/-- Row 0 of the subcore's sums buffer, as the epilogue slices it. -/
abbrev sq0Sl : Memref sig .scVector .vmem S16 .f32 :=
  ((s_13).slice (Rect.unit (s := S2x16) ![0, 0] S1x16.size inb_S2x16_S1x16_0_0) (fun _ => rfl)).squeeze S16 squeezes_S1x16_S16
/-- Row 1. -/
abbrev sq1Sl : Memref sig .scVector .vmem S16 .f32 :=
  ((s_13).slice (Rect.unit (s := S2x16) ![1, 0] S1x16.size inb_S2x16_S1x16_1_0) (fun _ => rfl)).squeeze S16 squeezes_S1x16_S16

omit [FloatOps F] in
/-- A length-16 index read as a 1 × 16 index: row 0, the same column. -/
theorem resh16 (j : S16.Idx) :
    Shape.reshapeEquiv (squeezes_S1x16_S16).numel_eq j = (Fin.cons ⟨0, Nat.one_pos⟩ j : S1x16.Idx) :=
  Shape.reshapeEquiv_cons_one _ j

omit [FloatOps F] in
theorem sqtSl_emb (L : grid1.Coords) (j : S16.Idx) :
    ((sqtSl L).view.emb j 0).val = wL L ∧ ((sqtSl L).view.emb j 1).val = (j 0).val := by
  constructor
  · show (k1_off51 L) 0 + 1 * ((Shape.reshapeEquiv (squeezes_S1x16_S16).numel_eq j) 0).val = _
    rw [resh16, k1_off51_eq, wL_eq]
    show 2 * (L 1).val + (L 0).val + 1 * 0 = _
    omega
  · show (k1_off51 L) 1 + 1 * ((Shape.reshapeEquiv (squeezes_S1x16_S16).numel_eq j) 1).val = _
    rw [resh16, k1_off51_eq]
    show 0 + 1 * (j 0).val = _
    omega

omit [FloatOps F] in
theorem sqnSl_emb (L : grid1.Coords) (j : S16.Idx) :
    ((sqnSl L).view.emb j 0).val = wL L ∧ ((sqnSl L).view.emb j 1).val = (j 0).val := by
  constructor
  · show (k1_off51 L) 0 + 1 * ((Shape.reshapeEquiv (squeezes_S1x16_S16).numel_eq j) 0).val = _
    rw [resh16, k1_off51_eq, wL_eq]
    show 2 * (L 1).val + (L 0).val + 1 * 0 = _
    omega
  · show (k1_off51 L) 1 + 1 * ((Shape.reshapeEquiv (squeezes_S1x16_S16).numel_eq j) 1).val = _
    rw [resh16, k1_off51_eq]
    show 0 + 1 * (j 0).val = _
    omega

omit [FloatOps F] in
theorem sq0Sl_emb (j : S16.Idx) : ((sq0Sl).view.emb j 0).val = 0 ∧ ((sq0Sl).view.emb j 1).val = (j 0).val := by
  constructor
  · show 0 + 1 * ((Shape.reshapeEquiv (squeezes_S1x16_S16).numel_eq j) 0).val = _
    rw [resh16]
    show 0 + 1 * 0 = _
    omega
  · show 0 + 1 * ((Shape.reshapeEquiv (squeezes_S1x16_S16).numel_eq j) 1).val = _
    rw [resh16]
    show 0 + 1 * (j 0).val = _
    omega

omit [FloatOps F] in
theorem sq1Sl_emb (j : S16.Idx) : ((sq1Sl).view.emb j 0).val = 1 ∧ ((sq1Sl).view.emb j 1).val = (j 0).val := by
  constructor
  · show 1 + 1 * ((Shape.reshapeEquiv (squeezes_S1x16_S16).numel_eq j) 0).val = _
    rw [resh16]
    show 1 + 1 * 0 = _
    omega
  · show 0 + 1 * ((Shape.reshapeEquiv (squeezes_S1x16_S16).numel_eq j) 1).val = _
    rw [resh16]
    show 0 + 1 * (j 0).val = _
    omega

/-- The accumulated sums over all 44 chunks are the worker's sums. -/
theorem tileSqUpto_44 (w : ℕ) (tgt : Bool) (lane : ℕ) : tileSqUpto I d w 44 tgt lane = tileSq I d w tgt lane := rfl

/-- THE TARGETS' ROW OF SUMS: the worker's row of the first sums array, written with row 0 of the subcore's sums, holds
    the worker's target sums. -/
theorem sqt_vals (fqt : Buf (Elt F) ((m_sqt).view.loc (thr d L))) (fsq : Buf (Elt F) ((s_13).view.loc (thr d L)))
    (hfsq : ∀ x : S2x16.Idx, fsq x = tileSqUpto I d (wL L) (2 * 22) (decide ((x 0).val = 0)) (x 1).val)
    (P : S16.Idx → Elt F .f32) (hP : ∀ j, P j = fsq ((sq0Sl).view.emb j)) :
    ((sqtSl L).view.loc (thr d L) ↦[(sqtSl L).view.set]{fullShare} (sqtSl L).view.writes (Elt F) fqt [⟨Rect.whole S16, P⟩] : sProp 𝕄)
      = ((m_sqt).view.loc (thr d L) ↦[sqRow (wL L)]{fullShare} Sqt I d) := by
  rw [sqtSl_set]
  refine pointsTo_congr fun i hi => ?_
  rw [← sqtSl_set] at hi
  obtain ⟨j, -, rfl⟩ := Finset.mem_map.mp hi
  have hr := View.read_writes_cons_emb (sqtSl L).view fqt (Rect.whole S16) P [] j
  rw [Rect.emb_whole_apply, View.read_apply] at hr
  have hw : (sqtSl L).view.writes (Elt F) fqt [⟨Rect.whole S16, P⟩] ((sqtSl L).view.emb j) = P j := hr
  rw [hw, hP j, hfsq]
  obtain ⟨a0, a1⟩ := sq0Sl_emb j
  obtain ⟨b0, b1⟩ := sqtSl_emb L j
  show _ = tileSq I d ((sqtSl L).view.emb j 0).val true ((sqtSl L).view.emb j 1).val
  rw [a0, a1, b0, b1]
  rfl

/-- THE NEIGHBOURS' ROW OF SUMS. -/
theorem sqn_vals (fqn : Buf (Elt F) ((m_sqn).view.loc (thr d L))) (fsq : Buf (Elt F) ((s_13).view.loc (thr d L)))
    (hfsq : ∀ x : S2x16.Idx, fsq x = tileSqUpto I d (wL L) (2 * 22) (decide ((x 0).val = 0)) (x 1).val)
    (P : S16.Idx → Elt F .f32) (hP : ∀ j, P j = fsq ((sq1Sl).view.emb j)) :
    ((sqnSl L).view.loc (thr d L) ↦[(sqnSl L).view.set]{fullShare} (sqnSl L).view.writes (Elt F) fqn [⟨Rect.whole S16, P⟩] : sProp 𝕄)
      = ((m_sqn).view.loc (thr d L) ↦[sqRow (wL L)]{fullShare} Sqn I d) := by
  rw [sqnSl_set]
  refine pointsTo_congr fun i hi => ?_
  rw [← sqnSl_set] at hi
  obtain ⟨j, -, rfl⟩ := Finset.mem_map.mp hi
  have hr := View.read_writes_cons_emb (sqnSl L).view fqn (Rect.whole S16) P [] j
  rw [Rect.emb_whole_apply, View.read_apply] at hr
  have hw : (sqnSl L).view.writes (Elt F) fqn [⟨Rect.whole S16, P⟩] ((sqnSl L).view.emb j) = P j := hr
  rw [hw, hP j, hfsq]
  obtain ⟨a0, a1⟩ := sq1Sl_emb j
  obtain ⟨b0, b1⟩ := sqnSl_emb L j
  show _ = tileSq I d ((sqnSl L).view.emb j 0).val false ((sqnSl L).view.emb j 1).val
  rw [a0, a1, b0, b1]
  rfl
set_option maxHeartbeats 4000000 in
theorem epilogue_run (hF : (K (F := F)).Facts) (O : CellTallies nD τ sig (HIx 1)) (W : Waits sig (HIx 1)) :
    iprop(Inv I d L O W 22 () ∗ Rest I d L)
      ⊢ wp frame (wpE (defs₀ (F := F)) 𝒱₀ (thr d L) none) Set.univ (epi (F := F) L)
          fun _ => iprop(tdAt I d (wL L) ∗ scopedBufs (thr d L) ∗ scopedSems0 (thr d L)
            ∗ ∃ W', ⌜∀ p ∈ W', p ∈ W ∨ p.2 = none⌝ ∗ owes (thr d L) O W') := by
  have pe1t : ∀ (S : Finset S4096x128.Idx) (f : Buf (Elt F) (e1tLoc d)), (e1tLoc d ↦[S]{fullShare} f : sProp 𝕄) = ((m_e1t).view.loc (thr d L) ↦[S]{fullShare} f) := fun _ _ => rfl
  have pe1n : ∀ (S : Finset S40960x128.Idx) (f : Buf (Elt F) (e1nLoc d)), (e1nLoc d ↦[S]{fullShare} f : sProp 𝕄) = ((m_e1n).view.loc (thr d L) ↦[S]{fullShare} f) := fun _ _ => rfl
  have psqt : ∀ (S : Finset S32x16.Idx) (f : Buf (Elt F) (sqtLoc d)), (sqtLoc d ↦[S]{fullShare} f : sProp 𝕄) = ((m_sqt).view.loc (thr d L) ↦[S]{fullShare} f) := fun _ _ => rfl
  have psqn : ∀ (S : Finset S32x16.Idx) (f : Buf (Elt F) (sqnLoc d)), (sqnLoc d ↦[S]{fullShare} f : sProp 𝕄) = ((m_sqn).view.loc (thr d L) ↦[S]{fullShare} f) := fun _ _ => rfl
  rw [show (scopedBufs (thr d L) : sProp 𝕄) = ownBufs (thr d L) from (K (F := F)).scopedBufs_V hF d (cV L) (jV L),
    show (scopedSems0 (thr d L) : sProp 𝕄) = ownSems0 (thr d L) from SparseCore.Cfg.scopedSems0_V (Val := Elt F) d (cV L) (jV L),
    ownSems0_V, ownBufs_V, bufs_explicit, sems_explicit]
  unfold tdAt readsAt
  rw [pts_sp d L, pts_ap d L, pts_nid d L, pts_n1 d L, pts_n2 d L, pts_a1 d L, pts_a2 d L, pts_b d L, pe1t, pe1n, psqt, psqn]
  unfold epi
  rw [wp_bind]
  unfold Inv
  rw [Set0_ge I d L (by omega), Outs_pos I d L (by omega)]
  unfold Idle0 Idle1 LoopRO Pieces FlW0 FlW1 Rest
  iintro ⟨⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%f0, Hs0⟩, ⟨%f2, Hs2⟩, ⟨%f4, Hs4⟩, ⟨%f6, Hs6⟩, ⟨%f8, Hs8⟩, Hm14, Hm15, Hsp0, Hap0⟩,
    ⟨⟨%f1, Hs1⟩, ⟨%f3, Hs3⟩, ⟨%f5, Hs5⟩, ⟨%f7, Hs7⟩, ⟨%f9, Hs9⟩, Hm16, Hm17, Hsp1, Hap1⟩, ⟨Hm18, Hm19⟩,
    ⟨⟨%ft, Het⟩, ⟨%fn, Hen⟩, Hdt, Hdn⟩⟩,
    ⟨Hb, Hspr, Hapr, ⟨%fqt, Hsqt⟩, ⟨%fqn, Hsqn⟩, Hr0, Hr1, Hr2, Hr3, Hr4, Hr5, Hr6, Hr19, Hr20, Hob, Hoc⟩⟩
  ihave Hsqt' := (Entails.of_eq (show ((m_sqt).view.loc (thr d L) ↦[sqRow (wL L)]{fullShare} fqt : sProp 𝕄)
      = (sqtSl L).view.loc (thr d L) ↦[(sqtSl L).view.set]{fullShare} fqt by rw [sqtSl_set])) $$ Hsqt
  ihave Hsqn' := (Entails.of_eq (show ((m_sqn).view.loc (thr d L) ↦[sqRow (wL L)]{fullShare} fqn : sProp 𝕄)
      = (sqnSl L).view.loc (thr d L) ↦[(sqnSl L).view.set]{fullShare} fqn by rw [sqnSl_set])) $$ Hsqn
  have hret : ∀ {E : Type → Type} {α β : Type} (a : α) (k : α → Prog E β), (Prog.ret a).bind k = k a := fun _ _ => rfl
  unfold k1_part37
  iapply (Transfers.wp_waitLocalO countersEmb 𝒱₀ (thr d L) none (default : HIx 1) (by decide : _ = 131072)) $$ [Hm18 HO]
  · isplitl [Hm18]; · iexact Hm18
    isplitl [HO]; · iexact HO
    iapply (Transfers.MayWaits.elim (SemLoc.dma cc1_scratch18.sem)) $$ Hmw
  iintro ⟨⟨⟨%f10, Hs10⟩, Hout0⟩, Hm18, HO⟩
  beta_reduce
  iapply (Transfers.wp_waitLocalO countersEmb 𝒱₀ (thr d L) none (default : HIx 1) (by decide : _ = 131072)) $$ [Hm19 HO]
  · isplitl [Hm19]; · iexact Hm19
    isplitl [HO]; · iexact HO
    iapply (Transfers.MayWaits.elim (SemLoc.dma cc1_scratch19.sem)) $$ Hmw
  iintro ⟨⟨⟨%f11, Hs11⟩, Hout1⟩, Hm19, HO⟩
  beta_reduce
  sl_rw [hret]
  sl_exec
  sl_step
  ihave Hrows := (rows_join I d L) $$ [Hdt Hdn Hout0 Hout1]
  · isplitl [Hdt]; · iexact Hdt
    isplitl [Hdn]; · iexact Hdn
    isplitl [Hout0]; · iexact Hout0
    iexact Hout1
  icases Hrows with ⟨Ht, Hn⟩
  ihave Hsp := (share_toks_join (ℓ := (m_sp).view.loc (thr d L)) (I.sp d) (rsh (wL L)) 12 14 (by decide)) $$ [Hsp0 Hsp1 Hspr]
  · isplitl [Hsp0]; · iexact Hsp0
    isplitl [Hsp1]; · iexact Hsp1
    iexact Hspr
  ihave Hap := (share_toks_join (ℓ := (m_ap).view.loc (thr d L)) (I.ap d) (rsh (wL L)) 13 15 (by decide)) $$ [Hap0 Hap1 Hapr]
  · isplitl [Hap0]; · iexact Hap0
    isplitl [Hap1]; · iexact Hap1
    iexact Hapr
  have hP0 : ∀ j, epilogue_run.sl.dma0 d L fsq j = fsq ((sq0Sl).view.emb j) := fun j => rfl
  have hP1 : ∀ j, epilogue_run.sl.dma0_1 d L fsq j = fsq ((sq1Sl).view.emb j) := fun j => rfl
  ihave Hqt := (Entails.of_eq (sqt_vals I d L fqt fsq hfsq _ hP0)) $$ Hsqt'
  ihave Hqn := (Entails.of_eq (sqn_vals I d L fqn fsq hfsq _ hP1)) $$ Hsqn'
  iclear Het Hen
  isplitl [Hsp Hap Hnid Hn1 Hn2 Ha1 Ha2 Hb Ht Hn Hqt Hqn]
  · isplitl [Hsp Hap Hnid Hn1 Hn2 Ha1 Ha2 Hb]
    · isplitl [Hsp]; · iexact Hsp
      isplitl [Hap]; · iexact Hap
      isplitl [Hnid]; · iexact Hnid
      isplitl [Hn1]; · iexact Hn1
      isplitl [Hn2]; · iexact Hn2
      isplitl [Ha1]; · iexact Ha1
      isplitl [Ha2]; · iexact Ha2
      iexact Hb
    isplitl [Ht]; · iexact Ht
    isplitl [Hn]; · iexact Hn
    isplitl [Hqt]; · iexact Hqt
    iexact Hqn
  isplitl [Hs0 Hs1 Hs2 Hs3 Hs4 Hs5 Hs6 Hs7 Hs8 Hs9 Hs10 Hs11 Hs12 Hs13 Hob]
  · isplitr [Hob]
    · isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      isplitl [Hs6]; · iexists _; iexact Hs6
      isplitl [Hs7]; · iexists _; iexact Hs7
      isplitl [Hs8]; · iexists _; iexact Hs8
      isplitl [Hs9]; · iexists _; iexact Hs9
      isplitl [Hs10]; · iexists _; iexact Hs10
      isplitl [Hs11]; · iexists _; iexact Hs11
      isplitl [Hs12]; · iexists _; iexact Hs12
      isplitl [Hs13]; · iexists _; iexact Hs13
      iempintro
    · iexact Hob
  isplitl [Hm14 Hm15 Hm16 Hm17 Hm18 Hm19 Hr0 Hr1 Hr2 Hr3 Hr4 Hr5 Hr6 Hr7 Hr8 Hr9 Hr10 Hr11 Hr12 Hr13 Hr14 Hr15 Hr16 Hr17 Hr18 Hr19 Hr20 Hoc]
  · isplitr [Hoc]
    · isplitl [Hm14]; · iexact Hm14
      isplitl [Hm15]; · iexact Hm15
      isplitl [Hm16]; · iexact Hm16
      isplitl [Hm17]; · iexact Hm17
      isplitl [Hm18]; · iexact Hm18
      isplitl [Hm19]; · iexact Hm19
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hr13]; · iexact Hr13
      isplitl [Hr14]; · iexact Hr14
      isplitl [Hr15]; · iexact Hr15
      isplitl [Hr16]; · iexact Hr16
      isplitl [Hr17]; · iexact Hr17
      isplitl [Hr18]; · iexact Hr18
      isplitl [Hr19]; · iexact Hr19
      isplitl [Hr20]; · iexact Hr20
      iempintro
    · iexact Hoc
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile
end Cert.KernelIdeal.Tile
end
-- ==== Proof.TileBody.lean ====
/-
  One vector subcore's task of the graph-convolution kernel, whole: its first part (prologue and pair loop) and its end,
  and the task as the launch theorem's obligation.
-/
import proofs.«213116_g69346541961480_cont_9to1_m_612_34_alg».proof.Proof.TilePro
import proofs.«213116_g69346541961480_cont_9to1_m_612_34_alg».proof.Proof.TileEpi
import proofs.«213116_g69346541961480_cont_9to1_m_612_34_alg».proof.Proof.TilePay
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.KernelIdeal
import proofs.«213116_g69346541961480_cont_9to1_m_612_34_alg».proof.Proof.Gen.KernelIdeal.Skeleton

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
/-- The task on vector subcore `(L 0, L 1)`: from its operands to its results at their values. -/
theorem tile_body (hF : (K (F := F)).Facts) (hpre : PreOK I) (O : CellTallies nD τ sig (HIx 1)) (W : Waits sig (HIx 1)) (hO : ∀ g, O g none = 0) :
    iprop(levAts (K (F := F)).L (K (F := F)).lev ∗ emp ∗ goAt I d (wL L) ∗ scopedBufs (thr d L) ∗ scopedSems0 (thr d L) ∗ owes (thr d L) O W)
      ⊢ wp frame (wpE (defs₀ (F := F)) 𝒱₀ (thr d L) none) Set.univ
          (cc1__sc_body L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20)
          fun _ => iprop(tdAt I d (wL L) ∗ scopedBufs (thr d L) ∗ scopedSems0 (thr d L)
            ∗ ∃ W', ⌜∀ p ∈ W', p ∈ W ∨ p.2 = none⌝ ∗ owes (thr d L) O W') := by
  rw [body_cut, wp_bind]
  exact (part36_run I d L hF hpre O W hO).trans (wp_mono frame _ _ fun _ => epilogue_run I d L hF O W)

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

set_option maxHeartbeats 4000000 in
theorem defs₀_vector (c : Fin τ.nSC) (s : Fin τ.nSub) :
    defs₀ (F := F) (.scVector c s) 1 ()
      = SparseCore.onTile hcore1 hsub1 (fun c s => cc1__sc_body (coordsV c s) (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
theorem tileObl (hF : (K (F := F)).Facts) (hpre : PreOK I) : (K (F := F)).TileObl (D (F := F)) 𝒱 (P I) v₀ 0 := by
  intro d c i O W hO _ _
  simp only [show (P I).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body I d (coordsV ⟨_, hc.1⟩ ⟨_, hc.2⟩) hF hpre O W hO).trans (wp_mono frame _ _ fun _ => obl_post)

end Cert.KernelIdeal.Tile
end
-- ==== Proof.Tile.lean ====
/-
  The launch theorem's obligations for the graph-convolution kernel on the vector subcores: one task's run with its
  values, and the dealing of a core's operands to its sixteen tasks.
-/
import proofs.«213116_g69346541961480_cont_9to1_m_612_34_alg».proof.Proof.TileBody

noncomputable section

namespace Cert.KernelIdeal.Tile

open Cert.KernelIdeal Cert.KernelIdeal.Gen Cert.KernelIdeal.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (I : Ins F) [FloatOps F]

theorem vecSplit : (K (F := F)).VecSplit' (P I) 0 := by
  intro d c
  show (bigSep Finset.univ fun i : Fin 16 => goAt I d (wid (Fin.cast nCore_zero c) i)) ⊢ |={Set.univ}=> iprop(
      (bigSep Finset.univ fun i : Fin ((K (F := F)).nSub 0) => goAt I d (wid (Fin.cast nCore_zero c) (Fin.cast nSub_zero i)))
      ∗ ((bigSep Finset.univ fun i : Fin ((K (F := F)).nSub 0) => tdAt I d (wid (Fin.cast nCore_zero c) (Fin.cast nSub_zero i)))
          -∗ bigSep Finset.univ fun i : Fin 16 => tdAt I d (wid (Fin.cast nCore_zero c) i)))
  have e1 : (bigSep Finset.univ fun i : Fin ((K (F := F)).nSub 0) => goAt I d (wid (Fin.cast nCore_zero c) (Fin.cast nSub_zero i)))
      = bigSep Finset.univ fun i : Fin 16 => goAt I d (wid (Fin.cast nCore_zero c) i) :=
    bigSep_congr fun _ _ => congrArg (fun j => goAt I d (wid (Fin.cast nCore_zero c) j)) (Fin.ext rfl)
  have e2 : (bigSep Finset.univ fun i : Fin ((K (F := F)).nSub 0) => tdAt I d (wid (Fin.cast nCore_zero c) (Fin.cast nSub_zero i)))
      = bigSep Finset.univ fun i : Fin 16 => tdAt I d (wid (Fin.cast nCore_zero c) i) :=
    bigSep_congr fun _ _ => congrArg (fun j => tdAt I d (wid (Fin.cast nCore_zero c) j)) (Fin.ext rfl)
  rw [e1, e2]
  iintro H; imodintro
  isplitl [H]; · iexact H
  iintro H; iexact H

end Cert.KernelIdeal.Tile

end
-- ==== Proof.MainMain.lean ====
/-
  The kernel program's run: @main on the TensorCore threaded through its two lifted halves and the SparseCore call,
  the launch theorem applied, and the final memory read. Every weakly fair execution of the device's thirty-five
  threads terminates, nothing faulting, and the TensorCore's unscoped buffers end at the contents the fold names:
  the arguments as launched, the result at the third region's pure function of what it was entered with.
-/
import proofs.«213116_g69346541961480_cont_9to1_m_612_34_alg».proof.Proof.MainRegions
import proofs.«213116_g69346541961480_cont_9to1_m_612_34_alg».proof.Proof.MainGhost
import proofs.«213116_g69346541961480_cont_9to1_m_612_34_alg».proof.Proof.TileSplit
import proofs.«213116_g69346541961480_cont_9to1_m_612_34_alg».proof.Proof.Tile

noncomputable section

namespace Cert.KernelIdeal.Main

open Cert.KernelIdeal Cert.KernelIdeal.Gen Cert.KernelIdeal.Ghost Cert.KernelIdeal.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- What the SparseCore call's read-only operands hold when it is entered. -/
abbrev I₀ : Tile.Ins F := insOf (W3 m)
/-- What the launch handshakes carry: the tile kernel's payloads at those contents. -/
abbrev Pm : (K (F := F)).Pay (nD := nD) (Val := Elt F) (Name := ℕ) (U := UU) := Tile.P (I₀ m)

/-! ## The TensorCore's handshake state: what it owes, and the rest -/

/-- The TensorCore's state before call `n` without what it owes: its position on its `done` cell, the rounds reached,
    the later calls' start tokens and credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- The state before call `n` is what the core owes, its recorded pairs below the call's level, beside the rest. -/
theorem tcSt_split (d : Dev nD) (n : ℕ) :
    ((K (F := F)).tcSt EH d n : sProp 𝕄)
      = iprop(Pipeline.owesWithin d ((K (F := F)).Otc d n) (Bn (F := F) d n) ∗ tcRest (F := F) d n) := rfl

/-! ## @main on the TensorCore -/

/-- The thread's last state: every unscoped buffer at the fold's final contents. -/
abbrev FIN (d : Dev nD) : sProp 𝕄 := StableHlo.held (T d) (Pipeline.ucRefs τ sig) (W8 m d)

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 1 ∗ FIN m d) := by
  rw [main_eq, G_split, tcSt_split, tcSt_split]
  unfold SparseCore.Cfg.tcRes
  rw [Pipeline.unscopedBufs_held d (W0 m d)]
  simp only [wp_bind]
  iintro ⟨#Hctx, ⟨HO, Hts0⟩, ⟨Hbd, Hub, -, Hpr⟩, ⟨Hg0, Hg12⟩⟩
  ihave #Hlev := (SparseCore.Cfg.ctx_levAts κ) $$ Hctx
  iapply ((K (F := F)).wp_liftProg (D (F := F)) 𝒱 (T d) Set.univ none _ _)
  iapply (wp_progA m d) $$ [Hbd Hub Hpr HO Hg0 Hts0 Hg12]
  isplitr [Hbd Hub Hpr HO Hg0]
  · -- from the first half's last boundary: the SparseCore call
    iintro ⟨Hbd, Hub, Hpr, HO⟩
    iapply (wp_call (W3 m) (Tile.st_of_whole (I₀ m)) (Tile.whole_of_dn (I₀ m)) κ d) $$ [HO Hts0 Hub Hbd Hpr Hg12]
    isplitr; · iexact Hctx
    isplitl [HO Hts0]
    · rw [tcSt_split]
      isplitl [HO]; · iexact HO
      iexact Hts0
    isplitl [Hub]; · iexact Hub
    iintro ⟨Hst1, Hub⟩
    ihave Hst1' := (Entails.of_eq (tcSt_split (F := F) d 1)) $$ Hst1
    icases Hst1' with ⟨HO, Hts1⟩
    iapply ((K (F := F)).wp_liftProg (D (F := F)) 𝒱 (T d) Set.univ none _ _)
    iapply (wp_progB m d) $$ [Hbd Hub Hpr HO Hg12 Hts1]
    isplitr [Hbd Hub Hpr HO Hg12]
    · iintro ⟨Hbd, Hub, Hpr, HO⟩
      isplitl [HO Hts1]
      · isplitl [HO]; · iexact HO
        iexact Hts1
      iexact Hub
    isplitl [Hbd]; · iexact Hbd
    isplitl [Hub Hpr HO]
    · isplitl [Hub]; · iexact Hub
      isplitl [Hpr]; · iexact Hpr
      iexact HO
    isplitr; · iexact Hlev
    iexact Hg12
  isplitl [Hbd]; · iexact Hbd
  isplitl [Hub Hpr HO]
  · isplitl [Hub]; · iexact Hub
    isplitl [Hpr]; · iexists _; iexact Hpr
    iexact HO
  isplitr; · iexact Hlev
  iexact Hg0

/-! ## The final memory -/

/-- What the claim reads of the final memory: every unscoped buffer of the TensorCore at the fold's last contents. -/
def fq (d : Dev nD) (s' : Phys nD τ sig (Elt F)) : Prop := ∀ b ∈ Pipeline.ucRefs τ sig, s'.mem.mem ((d : Dev nD), b) = W8 m d b

theorem hfin (d : Dev nD) (s' : Phys nD τ sig (Elt F)) : iprop(FIN m d ∗ SI s') ⊢ (⌜fq m d s'⌝ : sProp 𝕄) := by
  exact (pointsTo_read_all (Pipeline.ucRefs τ sig) (fun b => ((d : Dev nD), b)) (W8 m d) s').trans sep_elim_left

/-- The post of the run: on every device, every unscoped buffer ends at the fold's last contents. -/
def QC : PUnit × MemSt nD τ sig (Elt F) → Prop := fun r => ∀ d : Dev nD, ∀ b ∈ Pipeline.ucRefs τ sig, r.2.mem ((d : Dev nD), b) = W8 m d b

/-! ## The run -/

theorem run_main [∀ e, Nonempty (Elt F e)] (hpre : Tile.PreOK (I₀ m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := Pm m) Tile.facts v₀
    (fun q hq => match q with | 0 => nomatch hq)
    (fun q _ => match q with | 0 => Tile.tileObl (I₀ m) Tile.facts hpre)
    (fun q _ => match q with | 0 => SparseCore.Cfg.VecSplit.of_plain (Tile.vecSplit (I₀ m)))
    m ρ main (G (F := F)) (FIN m) (u₀ (F := F)) (hu₀ (I₀ m)) (hmain m ρ) (fq m) (hfin m) (QC m) (fun _ h => h)

end Cert.KernelIdeal.Main

end
-- ==== Proof.MainPost.lean ====
/-
  The final memory at the arguments and at the result. The run leaves every unscoped buffer of the TensorCore at the
  last contents of the fold through @main; the arguments and the result are unscoped buffers, and the fold at them is
  the launch memory and the third region's output array.
-/
import proofs.«213116_g69346541961480_cont_9to1_m_612_34_alg».proof.Proof.MainMain
import proofs.«213116_g69346541961480_cont_9to1_m_612_34_alg».proof.Proof.MainArgs

noncomputable section

namespace Cert.KernelIdeal.Main

open Cert.KernelIdeal Cert.KernelIdeal.Gen Cert.KernelIdeal.Ghost Cert.KernelIdeal.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- A TensorCore reference that is not scoped is among the buffers the thread holds between segments. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The final memory at an unscoped buffer that nothing writes is the launch memory. -/
theorem arg_of_QC (r : PUnit × MemSt nD τ sig (Elt F)) (h : QC m r) (c : Dev nD) {b : Ref sig .tc}
    (hs : ¬ (Proc.devRef .tc b : DevRef τ sig).isScoped) (hb : b ∉ written) :
    r.2.mem ((c.tc : Thread nD τ).loc b) = m ((c.tc : Thread nD τ).loc b) :=
  (h c _ (mem_ucRefs b hs)).trans (W8_of_notWritten m c hb)

/-- Every argument ends as launched. -/
theorem args_of_QC (r : PUnit × MemSt nD τ sig (Elt F)) (h : QC m r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  fun c => ⟨arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide)⟩

/-- The result ends at what the third region's pipeline leaves in its output window's array. -/
theorem result_of_QC (r : PUnit × MemSt nD τ sig (Elt F)) (h : QC m r) (c : Dev nD) :
    r.2.mem ((c.tc : Thread nD τ).loc main_v18) = (dat2 m c).arrAt 4 cfg3.N :=
  (h c _ (mem_ucRefs main_v18 (by decide))).trans (W8_result m c)

end Cert.KernelIdeal.Main

end
-- ==== Proof.PreDecode.lean ====
/-
  The input domain `Cert.Pre_input_domain.fn` is one conjunction of one-bit scalars: seventeen "every entry is
  finite" bits (`|a| < +inf` reduced by `and`), three "every index lies in [0, 99999]" bits, and three "this
  Frobenius norm is positive" bits, the norms being those of the two-layer graph convolution's three embeddings.
  Each conjunct is named here as a function of the arguments (`fn_eq`: the domain is their conjunction), and each
  is read as the arithmetic fact it states: an entry is a real number, an index word is a natural number below
  100000, a norm is a positive extended real. The three gathers of feature rows are read at an index.
-/
import proofs.«213116_g69346541961480_cont_9to1_m_612_34_alg».proof.Pre_input_domain
import proofs.«213116_g69346541961480_cont_9to1_m_612_34_alg».proof.Proof.Gen.Pre_input_domain
import Idealize.ShloMosaic.Lib.ReduceAll
import Idealize.ShloMosaic.Lib.ValueIdx
import Idealize.ShloMosaic.Lib.StableHlo.Predicate
import Idealize.ShloMosaic.PureOps.Ideal.Laws

noncomputable section

namespace Cert.PreDecode

open Idealize.ShloMosaic Idealize.ShloMosaic.ValueIdx Cert.Pre_input_domain
open Cert.Pre_input_domain.Facts

variable [Facts]

/-! ## The conjuncts, named -/

section Named
variable {F : FTy → Type} [FloatOps F]

/-- `jnp.all(|x| < +inf)`: the `and`-reduction over every axis of the entrywise test `|x| < +inf`. -/
def finBit {s : Shape} {axes : List (Fin s.rank)} (hb : S_.BroadcastsInDim s (![] : Fin 0 → Fin s.rank))
    (hr : s.ReducesTo axes S_) (x : FVec F s .f32) : IVec S_ 1 :=
  Host.reduce IntOp.andi (cmpf .olt (Host.absf x) (broadcastInDim s ![] hb (constant S_ .f32 0x7F800000#32)))
    (constantI S_ 1 1#1) hr h_S_

/-- `jnp.all((a >= 0) & (a <= 99999))` over signed 32-bit words. -/
def rangeBit {s : Shape} {axes : List (Fin s.rank)} (hb : S_.BroadcastsInDim s (![] : Fin 0 → Fin s.rank))
    (hr : s.ReducesTo axes S_) (a : IVec s 32) : IVec S_ 1 :=
  Host.reduce IntOp.andi
    (andi (cmpi .sge a (broadcastInDim s ![] hb (constantI S_ 32 0#32)))
      (cmpi .sle a (broadcastInDim s ![] hb (constantI S_ 32 99999#32))))
    (constantI S_ 1 1#1) hr h_S_

/-- `nu > 0` on a scalar. -/
def posBit (nu : FVec F S_ .f32) : IVec S_ 1 := cmpf .ogt nu (constant S_ .f32 0x00000000#32)

/-! ### The gathers: rows of the feature table -/

/-- Rows of `x` at the 4096 target ids: a [4096, 128] array. -/
def rowsT (x : FVec F S100000x128 .f32) (ids : IVec S4096 32) : FVec F S4096x128 .f32 :=
  Host.gather gather_S100000x128_S4096x1_S4096x128_1_0_n_n_0_1_1128 x (shapeCast S4096x1 ids shapeCasts_S4096_S4096x1)

/-- The flat [40960, 128] gather of `x` at the 4096 × 10 one-hop neighbour ids (row-major). -/
def rowsN1flat (x : FVec F S100000x128 .f32) (n1 : IVec S4096x10 32) : FVec F S40960x128 .f32 :=
  Host.gather gather_S100000x128_S40960x1_S40960x128_1_0_n_n_0_1_1128 x
    (shapeCast S40960x1 (shapeCast S40960 n1 shapeCasts_S4096x10_S40960) shapeCasts_S40960_S40960x1)

/-- Rows of `x` at the one-hop neighbour ids: a [4096, 10, 128] array. -/
def rowsN1 (x : FVec F S100000x128 .f32) (n1 : IVec S4096x10 32) : FVec F S4096x10x128 .f32 :=
  shapeCast S4096x10x128 (rowsN1flat x n1) shapeCasts_S40960x128_S4096x10x128

/-- The flat [409600, 128] gather of `x` at the 40960 × 10 two-hop neighbour ids (row-major). -/
def rowsN2flat (x : FVec F S100000x128 .f32) (n2 : IVec S40960x10 32) : FVec F S409600x128 .f32 :=
  Host.gather gather_S100000x128_S409600x1_S409600x128_1_0_n_n_0_1_1128 x
    (shapeCast S409600x1 (shapeCast S409600 n2 shapeCasts_S40960x10_S409600) shapeCasts_S409600_S409600x1)

/-- Rows of `x` at the two-hop neighbour ids: a [40960, 10, 128] array. -/
def rowsN2 (x : FVec F S100000x128 .f32) (n2 : IVec S40960x10 32) : FVec F S40960x10x128 .f32 :=
  shapeCast S40960x10x128 (rowsN2flat x n2) shapeCasts_S409600x128_S40960x10x128

/-! ### One convolution's embedding (before its division by the norm), at 4096 rows -/

/-- `relu(node · Ws + bs)`, [4096, 128]. -/
def selfEmb4096 (node : FVec F S4096x128 .f32) (Ws : FVec F S128x128 .f32) (bs : FVec F S128 .f32) : FVec F S4096x128 .f32 :=
  maximumf
    (addf (Host.dotGeneral dot_S4096x128_S128x128_S4096x128_1_0_0_1_n_n none node Ws)
      (broadcastInDim S4096x128 ![0, 1] bcast_S1x128_S4096x128_0_1 (broadcastInDim S1x128 ![1] bcast_S128_S1x128_1 bs)))
    (broadcastInDim S4096x128 ![] bcast_S_S4096x128 (constant S_ .f32 0x00000000#32))

/-- `relu(neigh · Wa + ba)`, [4096, 10, 128]. -/
def neighEmb4096 (neigh : FVec F S4096x10x128 .f32) (Wa : FVec F S128x128 .f32) (ba : FVec F S128 .f32) :
    FVec F S4096x10x128 .f32 :=
  maximumf
    (addf (Host.dotGeneral dot_S4096x10x128_S128x128_S4096x10x128_2_0_01_1_n_n none neigh Wa)
      (broadcastInDim S4096x10x128 ![0, 1, 2] bcast_S1x1x128_S4096x10x128_0_1_2
        (broadcastInDim S1x1x128 ![2] bcast_S128_S1x1x128_2 ba)))
    (broadcastInDim S4096x10x128 ![] bcast_S_S4096x10x128 (constant S_ .f32 0x00000000#32))

/-- The alpha-weighted sum over the ten neighbours, `einsum('mt,mtu->mu')`, [4096, 128]. -/
def agg4096 (alpha : FVec F S4096x10 .f32) (ne : FVec F S4096x10x128 .f32) : FVec F S4096x128 .f32 :=
  Host.dotGeneral dot_S4096x10_S4096x10x128_S4096x128_1_1_n_2_0_0 none alpha ne

/-- `relu(concat(se, ag) · Wo + bo)`, [4096, 128]. -/
def outEmb4096 (se ag : FVec F S4096x128 .f32) (Wo : FVec F S256x128 .f32) (bo : FVec F S128 .f32) : FVec F S4096x128 .f32 :=
  maximumf
    (addf
      (Host.dotGeneral dot_S4096x256_S256x128_S4096x128_1_0_0_1_n_n none
        (concatenate S4096x256 1 [⟨S4096x128, se⟩, ⟨S4096x128, ag⟩] concatenates_S4096x128_S4096x128_S4096x256_d1) Wo)
      (broadcastInDim S4096x128 ![0, 1] bcast_S1x128_S4096x128_0_1 (broadcastInDim S1x128 ![1] bcast_S128_S1x128_1 bo)))
    (broadcastInDim S4096x128 ![] bcast_S_S4096x128 (constant S_ .f32 0x00000000#32))

/-- The embedding of 4096 nodes from their features, their ten neighbours' features and the weights. -/
def emb4096 (node : FVec F S4096x128 .f32) (neigh : FVec F S4096x10x128 .f32) (alpha : FVec F S4096x10 .f32)
    (Ws : FVec F S128x128 .f32) (bs : FVec F S128 .f32) (Wa : FVec F S128x128 .f32) (ba : FVec F S128 .f32)
    (Wo : FVec F S256x128 .f32) (bo : FVec F S128 .f32) : FVec F S4096x128 .f32 :=
  outEmb4096 (selfEmb4096 node Ws bs) (agg4096 alpha (neighEmb4096 neigh Wa ba)) Wo bo

/-! ### The same at 40960 rows -/

/-- `relu(node · Ws + bs)`, [40960, 128]. -/
def selfEmb40960 (node : FVec F S40960x128 .f32) (Ws : FVec F S128x128 .f32) (bs : FVec F S128 .f32) : FVec F S40960x128 .f32 :=
  maximumf
    (addf (Host.dotGeneral dot_S40960x128_S128x128_S40960x128_1_0_0_1_n_n none node Ws)
      (broadcastInDim S40960x128 ![0, 1] bcast_S1x128_S40960x128_0_1 (broadcastInDim S1x128 ![1] bcast_S128_S1x128_1 bs)))
    (broadcastInDim S40960x128 ![] bcast_S_S40960x128 (constant S_ .f32 0x00000000#32))

/-- `relu(neigh · Wa + ba)`, [40960, 10, 128]. -/
def neighEmb40960 (neigh : FVec F S40960x10x128 .f32) (Wa : FVec F S128x128 .f32) (ba : FVec F S128 .f32) :
    FVec F S40960x10x128 .f32 :=
  maximumf
    (addf (Host.dotGeneral dot_S40960x10x128_S128x128_S40960x10x128_2_0_01_1_n_n none neigh Wa)
      (broadcastInDim S40960x10x128 ![0, 1, 2] bcast_S1x1x128_S40960x10x128_0_1_2
        (broadcastInDim S1x1x128 ![2] bcast_S128_S1x1x128_2 ba)))
    (broadcastInDim S40960x10x128 ![] bcast_S_S40960x10x128 (constant S_ .f32 0x00000000#32))

/-- The alpha-weighted sum over the ten neighbours, [40960, 128]. -/
def agg40960 (alpha : FVec F S40960x10 .f32) (ne : FVec F S40960x10x128 .f32) : FVec F S40960x128 .f32 :=
  Host.dotGeneral dot_S40960x10_S40960x10x128_S40960x128_1_1_n_2_0_0 none alpha ne

/-- `relu(concat(se, ag) · Wo + bo)`, [40960, 128]. -/
def outEmb40960 (se ag : FVec F S40960x128 .f32) (Wo : FVec F S256x128 .f32) (bo : FVec F S128 .f32) : FVec F S40960x128 .f32 :=
  maximumf
    (addf
      (Host.dotGeneral dot_S40960x256_S256x128_S40960x128_1_0_0_1_n_n none
        (concatenate S40960x256 1 [⟨S40960x128, se⟩, ⟨S40960x128, ag⟩] concatenates_S40960x128_S40960x128_S40960x256_d1) Wo)
      (broadcastInDim S40960x128 ![0, 1] bcast_S1x128_S40960x128_0_1 (broadcastInDim S1x128 ![1] bcast_S128_S1x128_1 bo)))
    (broadcastInDim S40960x128 ![] bcast_S_S40960x128 (constant S_ .f32 0x00000000#32))

/-- The embedding of 40960 nodes. -/
def emb40960 (node : FVec F S40960x128 .f32) (neigh : FVec F S40960x10x128 .f32) (alpha : FVec F S40960x10 .f32)
    (Ws : FVec F S128x128 .f32) (bs : FVec F S128 .f32) (Wa : FVec F S128x128 .f32) (ba : FVec F S128 .f32)
    (Wo : FVec F S256x128 .f32) (bo : FVec F S128 .f32) : FVec F S40960x128 .f32 :=
  outEmb40960 (selfEmb40960 node Ws bs) (agg40960 alpha (neighEmb40960 neigh Wa ba)) Wo bo

/-! ### Frobenius norms -/

/-- The sum of the squares of a [4096, 128] array's entries, a scalar. -/
def sumsq4096 (e : FVec F S4096x128 .f32) : FVec F S_ .f32 :=
  Host.reduceAdd (mulf e e) (constant S_ .f32 0x00000000#32) reducesTo_S4096x128_S_d0_1 h_S_
/-- `sqrt(sum(e * e))`. -/
def fro4096 (e : FVec F S4096x128 .f32) : FVec F S_ .f32 := Host.sqrt (sumsq4096 e)

/-- The sum of the squares of a [40960, 128] array's entries, a scalar. -/
def sumsq40960 (e : FVec F S40960x128 .f32) : FVec F S_ .f32 :=
  Host.reduceAdd (mulf e e) (constant S_ .f32 0x00000000#32) reducesTo_S40960x128_S_d0_1 h_S_
/-- `sqrt(sum(e * e))`. -/
def fro40960 (e : FVec F S40960x128 .f32) : FVec F S_ .f32 := Host.sqrt (sumsq40960 e)

/-! ### The three embeddings and norms of the two-layer convolution -/

variable (a0 : FVec F S100000x128 .f32) (a1 : IVec S4096 32) (a2 : IVec S4096x10 32) (a3 : FVec F S4096x10 .f32)
  (a4 : IVec S40960x10 32) (a5 : FVec F S40960x10 .f32) (a6 : FVec F S128x128 .f32) (a7 : FVec F S128 .f32)
  (a8 : FVec F S128x128 .f32) (a9 : FVec F S128 .f32) (a10 : FVec F S256x128 .f32) (a11 : FVec F S128 .f32)
  (a12 : FVec F S128x128 .f32) (a13 : FVec F S128 .f32) (a14 : FVec F S128x128 .f32) (a15 : FVec F S128 .f32)
  (a16 : FVec F S256x128 .f32) (a17 : FVec F S128 .f32) (a18 : FVec F S128x128 .f32) (a19 : FVec F S128 .f32)

/-- Layer 1 on the targets: their unnormalised embedding. -/
def eT1 : FVec F S4096x128 .f32 := emb4096 (rowsT a0 a1) (rowsN1 a0 a2) a3 a6 a7 a8 a9 a10 a11
/-- Its Frobenius norm. -/
def nuT1 : FVec F S_ .f32 := fro4096 (eT1 a0 a1 a2 a3 a6 a7 a8 a9 a10 a11)
/-- Layer 1 on the one-hop neighbours: their unnormalised embedding. -/
def eN1 : FVec F S40960x128 .f32 :=
  emb40960 (shapeCast S40960x128 (rowsN1 a0 a2) shapeCasts_S4096x10x128_S40960x128) (rowsN2 a0 a4) a5 a6 a7 a8 a9 a10 a11
/-- Its Frobenius norm. -/
def nuN1 : FVec F S_ .f32 := fro40960 (eN1 a0 a2 a4 a5 a6 a7 a8 a9 a10 a11)
/-- Layer 0 on the normalised layer-1 embeddings: the targets' unnormalised embedding. -/
def eT0 : FVec F S4096x128 .f32 :=
  emb4096
    (Host.divf (eT1 a0 a1 a2 a3 a6 a7 a8 a9 a10 a11)
      (broadcastInDim S4096x128 ![] bcast_S_S4096x128 (nuT1 a0 a1 a2 a3 a6 a7 a8 a9 a10 a11)))
    (shapeCast S4096x10x128
      (Host.divf (eN1 a0 a2 a4 a5 a6 a7 a8 a9 a10 a11)
        (broadcastInDim S40960x128 ![] bcast_S_S40960x128 (nuN1 a0 a2 a4 a5 a6 a7 a8 a9 a10 a11)))
      shapeCasts_S40960x128_S4096x10x128)
    a3 a12 a13 a14 a15 a16 a17
/-- Its Frobenius norm. -/
def nuT0 : FVec F S_ .f32 := fro4096 (eT0 a0 a1 a2 a3 a4 a5 a6 a7 a8 a9 a10 a11 a12 a13 a14 a15 a16 a17)

/-- The input domain is the conjunction of the named bits, in this order and association. -/
theorem fn_eq :
    fn (F := F) a0 a1 a2 a3 a4 a5 a6 a7 a8 a9 a10 a11 a12 a13 a14 a15 a16 a17 a18 a19 =
      andi
        (andi (andi (andi (andi (andi (andi (andi (andi (andi (andi (andi (andi (andi (andi (andi (andi (andi (andi (andi
          (finBit bcast_S_S100000x128 reducesTo_S100000x128_S_d0_1 a0)
          (finBit bcast_S_S4096x10 reducesTo_S4096x10_S_d0_1 a3))
          (finBit bcast_S_S40960x10 reducesTo_S40960x10_S_d0_1 a5))
          (finBit bcast_S_S128x128 reducesTo_S128x128_S_d0_1 a6))
          (finBit bcast_S_S128 reducesTo_S128_S_d0 a7))
          (finBit bcast_S_S128x128 reducesTo_S128x128_S_d0_1 a8))
          (finBit bcast_S_S128 reducesTo_S128_S_d0 a9))
          (finBit bcast_S_S256x128 reducesTo_S256x128_S_d0_1 a10))
          (finBit bcast_S_S128 reducesTo_S128_S_d0 a11))
          (finBit bcast_S_S128x128 reducesTo_S128x128_S_d0_1 a12))
          (finBit bcast_S_S128 reducesTo_S128_S_d0 a13))
          (finBit bcast_S_S128x128 reducesTo_S128x128_S_d0_1 a14))
          (finBit bcast_S_S128 reducesTo_S128_S_d0 a15))
          (finBit bcast_S_S256x128 reducesTo_S256x128_S_d0_1 a16))
          (finBit bcast_S_S128 reducesTo_S128_S_d0 a17))
          (finBit bcast_S_S128x128 reducesTo_S128x128_S_d0_1 a18))
          (finBit bcast_S_S128 reducesTo_S128_S_d0 a19))
          (rangeBit bcast_S_S4096 reducesTo_S4096_S_d0 a1))
          (rangeBit bcast_S_S4096x10 reducesTo_S4096x10_S_d0_1 a2))
          (rangeBit bcast_S_S40960x10 reducesTo_S40960x10_S_d0_1 a4))
        (andi
          (andi (posBit (nuT1 a0 a1 a2 a3 a6 a7 a8 a9 a10 a11)) (posBit (nuN1 a0 a2 a4 a5 a6 a7 a8 a9 a10 a11)))
          (posBit (nuT0 a0 a1 a2 a3 a4 a5 a6 a7 a8 a9 a10 a11 a12 a13 a14 a15 a16 a17))) :=
  rfl

end Named

/-! ## Reading the bits at the extended reals -/

instance : Subsingleton S_.Idx := ⟨fun a b => funext fun d => d.elim0⟩

/-- Both conjuncts of a scalar `and` that is all ones are all ones. -/
theorem andi_ones {x y : IVec S_ 1} (h : andi x y = fun _ => 1#1) : x = (fun _ => 1#1) ∧ y = fun _ => 1#1 :=
  ⟨funext fun i => (IntOp.andi_eq_one.1 (congrFun h i)).1, funext fun i => (IntOp.andi_eq_one.1 (congrFun h i)).2⟩

/-- An extended real whose absolute value `max v (-v)` is below `+inf` is a real number. -/
theorem real_of_abs_lt_top (v : EReal) (h : max v (-v) < ⊤) : ∃ r : ℝ, v = (r : EReal) := by
  induction v using EReal.rec with
  | bot => simp at h
  | coe r => exact ⟨r, rfl⟩
  | top => simp at h

/-- FINITENESS: an all-ones `jnp.all(|x| < +inf)` makes every entry of `x` a real number. -/
theorem finite_of_finBit {s : Shape} {axes : List (Fin s.rank)} (hb : S_.BroadcastsInDim s (![] : Fin 0 → Fin s.rank))
    (hr : s.ReducesTo axes S_) (x : FVec Ideal s .f32) (h : finBit hb hr x = fun _ => 1#1) (i : s.Idx) :
    ∃ r : ℝ, x i = (r : EReal) := by
  have e : Host.reduce IntOp.andi (cmpf .olt (Host.absf x) (broadcastInDim s ![] hb (constant S_ .f32 0x7F800000#32)))
      (constantI S_ 1 1#1) hr h_S_ ix0 = 1#1 := congrFun h ix0
  have hi : Ideal.cmp .olt (max (x i) (-(x i))) (Ideal.ofBits .f32 0x7F800000#32) = 1#1 :=
    Host.reduce_andi_all _ _ hr h_S_ ix0 e i
  refine real_of_abs_lt_top (x i) ?_
  simpa [Ideal.cmp, Ideal.ofBits, Ideal.ieee, StableHlo.Predicate.ofBool_eq_one_iff] using hi

/-- RANGE: an all-ones `jnp.all((a >= 0) & (a <= 99999))` makes every word of `a` a natural number below 100000,
    the same read signed or unsigned. -/
theorem range_of_rangeBit {s : Shape} {axes : List (Fin s.rank)} (hb : S_.BroadcastsInDim s (![] : Fin 0 → Fin s.rank))
    (hr : s.ReducesTo axes S_) (a : IVec s 32) (h : rangeBit hb hr a = fun _ => 1#1) (i : s.Idx) :
    (a i).toNat < 100000 ∧ (a i).toInt = ((a i).toNat : ℤ) := by
  have e : Host.reduce IntOp.andi
      (andi (cmpi .sge a (broadcastInDim s ![] hb (constantI S_ 32 0#32)))
        (cmpi .sle a (broadcastInDim s ![] hb (constantI S_ 32 99999#32))))
      (constantI S_ 1 1#1) hr h_S_ ix0 = 1#1 := congrFun h ix0
  have hi : IntOp.andi (IntOp.cmpi .sge (a i) 0#32) (IntOp.cmpi .sle (a i) 99999#32) = 1#1 :=
    Host.reduce_andi_all _ _ hr h_S_ ix0 e i
  obtain ⟨h0, h1⟩ := IntOp.andi_eq_one.1 hi
  rw [IntOp.cmpi_sge] at h0
  rw [IntOp.cmpi_sle] at h1
  have z0 : (0#32 : BitVec 32).toInt = 0 := by decide
  have z1 : (99999#32 : BitVec 32).toInt = 99999 := by decide
  rw [z0] at h0
  rw [z1] at h1
  have hc := BitVec.toInt_eq_toNat_cond (a i)
  have hlt := (a i).isLt
  split at hc <;> omega

/-- POSITIVITY: an all-ones `nu > 0` says the scalar is a positive extended real. -/
theorem pos_of_posBit (nu : FVec Ideal S_ .f32) (h : posBit nu = fun _ => 1#1) : (0 : EReal) < nu ix0 := by
  have e : Ideal.cmp .ogt (nu ix0) (Ideal.ofBits .f32 0x00000000#32) = 1#1 := congrFun h ix0
  simpa [Ideal.cmp, Ideal.ofBits, Ideal.ieee, StableHlo.Predicate.ofBool_eq_one_iff] using e

section Read

variable (a0 : FVec Ideal S100000x128 .f32) (a1 : IVec S4096 32) (a2 : IVec S4096x10 32) (a3 : FVec Ideal S4096x10 .f32)
  (a4 : IVec S40960x10 32) (a5 : FVec Ideal S40960x10 .f32) (a6 : FVec Ideal S128x128 .f32) (a7 : FVec Ideal S128 .f32)
  (a8 : FVec Ideal S128x128 .f32) (a9 : FVec Ideal S128 .f32) (a10 : FVec Ideal S256x128 .f32) (a11 : FVec Ideal S128 .f32)
  (a12 : FVec Ideal S128x128 .f32) (a13 : FVec Ideal S128 .f32) (a14 : FVec Ideal S128x128 .f32) (a15 : FVec Ideal S128 .f32)
  (a16 : FVec Ideal S256x128 .f32) (a17 : FVec Ideal S128 .f32) (a18 : FVec Ideal S128x128 .f32) (a19 : FVec Ideal S128 .f32)

/-- What the input domain says of its twenty arguments. -/
structure Decoded : Prop where
  fin0 : ∀ i, ∃ r : ℝ, a0 i = (r : EReal)
  fin3 : ∀ i, ∃ r : ℝ, a3 i = (r : EReal)
  fin5 : ∀ i, ∃ r : ℝ, a5 i = (r : EReal)
  fin6 : ∀ i, ∃ r : ℝ, a6 i = (r : EReal)
  fin7 : ∀ i, ∃ r : ℝ, a7 i = (r : EReal)
  fin8 : ∀ i, ∃ r : ℝ, a8 i = (r : EReal)
  fin9 : ∀ i, ∃ r : ℝ, a9 i = (r : EReal)
  fin10 : ∀ i, ∃ r : ℝ, a10 i = (r : EReal)
  fin11 : ∀ i, ∃ r : ℝ, a11 i = (r : EReal)
  fin12 : ∀ i, ∃ r : ℝ, a12 i = (r : EReal)
  fin13 : ∀ i, ∃ r : ℝ, a13 i = (r : EReal)
  fin14 : ∀ i, ∃ r : ℝ, a14 i = (r : EReal)
  fin15 : ∀ i, ∃ r : ℝ, a15 i = (r : EReal)
  fin16 : ∀ i, ∃ r : ℝ, a16 i = (r : EReal)
  fin17 : ∀ i, ∃ r : ℝ, a17 i = (r : EReal)
  fin18 : ∀ i, ∃ r : ℝ, a18 i = (r : EReal)
  fin19 : ∀ i, ∃ r : ℝ, a19 i = (r : EReal)
  rng1 : ∀ i, (a1 i).toNat < 100000 ∧ (a1 i).toInt = ((a1 i).toNat : ℤ)
  rng2 : ∀ i, (a2 i).toNat < 100000 ∧ (a2 i).toInt = ((a2 i).toNat : ℤ)
  rng4 : ∀ i, (a4 i).toNat < 100000 ∧ (a4 i).toInt = ((a4 i).toNat : ℤ)
  posT1 : (0 : EReal) < nuT1 (F := Ideal) a0 a1 a2 a3 a6 a7 a8 a9 a10 a11 ix0
  posN1 : (0 : EReal) < nuN1 (F := Ideal) a0 a2 a4 a5 a6 a7 a8 a9 a10 a11 ix0
  posT0 : (0 : EReal) < nuT0 (F := Ideal) a0 a1 a2 a3 a4 a5 a6 a7 a8 a9 a10 a11 a12 a13 a14 a15 a16 a17 ix0

/-- THE DECODING: an all-ones input domain gives every fact of `Decoded`. The conjunction is split bit by bit, from
    the outermost `and` inwards, and each bit read by its lemma. -/
theorem decode
    (h : fn (F := Ideal) a0 a1 a2 a3 a4 a5 a6 a7 a8 a9 a10 a11 a12 a13 a14 a15 a16 a17 a18 a19 = fun _ => 1#1) :
    Decoded a0 a1 a2 a3 a4 a5 a6 a7 a8 a9 a10 a11 a12 a13 a14 a15 a16 a17 a18 a19 := by
  rw [fn_eq] at h
  obtain ⟨hD, hP⟩ := andi_ones h
  obtain ⟨hP12, hT0⟩ := andi_ones hP
  obtain ⟨hT1, hN1⟩ := andi_ones hP12
  obtain ⟨hD, h4⟩ := andi_ones hD
  obtain ⟨hD, h2⟩ := andi_ones hD
  obtain ⟨hD, h1⟩ := andi_ones hD
  obtain ⟨hD, f19⟩ := andi_ones hD
  obtain ⟨hD, f18⟩ := andi_ones hD
  obtain ⟨hD, f17⟩ := andi_ones hD
  obtain ⟨hD, f16⟩ := andi_ones hD
  obtain ⟨hD, f15⟩ := andi_ones hD
  obtain ⟨hD, f14⟩ := andi_ones hD
  obtain ⟨hD, f13⟩ := andi_ones hD
  obtain ⟨hD, f12⟩ := andi_ones hD
  obtain ⟨hD, f11⟩ := andi_ones hD
  obtain ⟨hD, f10⟩ := andi_ones hD
  obtain ⟨hD, f9⟩ := andi_ones hD
  obtain ⟨hD, f8⟩ := andi_ones hD
  obtain ⟨hD, f7⟩ := andi_ones hD
  obtain ⟨hD, f6⟩ := andi_ones hD
  obtain ⟨hD, f5⟩ := andi_ones hD
  obtain ⟨f0, f3⟩ := andi_ones hD
  exact
    { fin0 := finite_of_finBit _ _ a0 f0
      fin3 := finite_of_finBit _ _ a3 f3
      fin5 := finite_of_finBit _ _ a5 f5
      fin6 := finite_of_finBit _ _ a6 f6
      fin7 := finite_of_finBit _ _ a7 f7
      fin8 := finite_of_finBit _ _ a8 f8
      fin9 := finite_of_finBit _ _ a9 f9
      fin10 := finite_of_finBit _ _ a10 f10
      fin11 := finite_of_finBit _ _ a11 f11
      fin12 := finite_of_finBit _ _ a12 f12
      fin13 := finite_of_finBit _ _ a13 f13
      fin14 := finite_of_finBit _ _ a14 f14
      fin15 := finite_of_finBit _ _ a15 f15
      fin16 := finite_of_finBit _ _ a16 f16
      fin17 := finite_of_finBit _ _ a17 f17
      fin18 := finite_of_finBit _ _ a18 f18
      fin19 := finite_of_finBit _ _ a19 f19
      rng1 := range_of_rangeBit _ _ a1 h1
      rng2 := range_of_rangeBit _ _ a2 h2
      rng4 := range_of_rangeBit _ _ a4 h4
      posT1 := pos_of_posBit _ hT1
      posN1 := pos_of_posBit _ hN1
      posT0 := pos_of_posBit _ hT0 }

/-- A Frobenius norm at the extended reals: the square root of the sum of the squares of all entries. -/
theorem fro_apply {s : Shape} {axes : List (Fin s.rank)} (hr : s.ReducesTo axes S_) (e : FVec Ideal s .f32) :
    Host.sqrt (Host.reduceAdd (mulf e e) (constant S_ .f32 0x00000000#32) hr h_S_) ix0
      = Ideal.sqrt (∑ i : s.Idx, e i * e i) := by
  show Ideal.sqrt (Ideal.hostReduceAdd hr (mulf e e) (Ideal.ofBits .f32 0x00000000#32) ix0) = _
  rw [Ideal.hostReduceAdd_total hr (fun b => b.elim0), Ideal.ofBits_zero_f32, zero_add]
  rfl

theorem fro4096_apply (e : FVec Ideal S4096x128 .f32) :
    fro4096 e ix0 = Ideal.sqrt (∑ i : S4096x128.Idx, e i * e i) :=
  fro_apply reducesTo_S4096x128_S_d0_1 e

theorem fro40960_apply (e : FVec Ideal S40960x128 .f32) :
    fro40960 e ix0 = Ideal.sqrt (∑ i : S40960x128.Idx, e i * e i) :=
  fro_apply reducesTo_S40960x128_S_d0_1 e

end Read

/-! ## The gathers at an index -/

section Rows

/-- THE ROW GATHER. `x[idx]` along axis 0 of an [N × m] table, the start indices an [n × 1] column: result entry
    `(p, q)` is the table's entry in the row the `p`-th start index names (read signed and clamped into the table)
    and column `q`. -/
theorem gather_rows {α : Type} {N m n w : Nat} (d : GatherDims ⟨2, ![N, m]⟩ ⟨2, ![n, 1]⟩ ⟨2, ![n, m]⟩)
    (hoff : d.offsetDims = [1]) (hcoll : d.collapsedSliceDims = [0]) (hob : d.operandBatchingDims = [])
    (hsim : d.startIndexMap = [0]) (hivd : d.indexVectorDim = 1)
    (x : (⟨2, ![N, m]⟩ : Shape).Idx → α) (idx : IVec ⟨2, ![n, 1]⟩ w) (p : Fin n) (q : Fin m) (hN : 0 < N) :
    Host.gather d x idx (ix2 p q) = x (ix2 ⟨min (idx (ix2 p 0)).toInt.toNat (N - 1), by omega⟩ q) := by
  have hbd : d.batchDims = [0] := by
    show (⟨2, ![n, m]⟩ : Shape).kept d.offsetDims = [0]
    rw [hoff]; rfl
  have hsk : d.sKept = [1] := by
    show (⟨2, ![N, m]⟩ : Shape).kept (d.collapsedSliceDims ++ d.operandBatchingDims) = [1]
    rw [hcoll, hob]; rfl
  have hoffget : ∀ (k : Nat) (hk : k < d.offsetDims.length), d.offsetDims[k]'hk = 1 := by
    rw [hoff]; intro k hk
    have : k = 0 := by simpa using hk
    subst this; rfl
  have hbdget : ∀ (k : Nat) (hk : k < d.batchDims.length), d.batchDims[k]'hk = 0 := by
    rw [hbd]; intro k hk
    have : k = 0 := by simpa using hk
    subst this; rfl
  have hb : ∀ a : Fin 2, a ∉ d.operandBatchingDims := by intro a; rw [hob]; exact List.not_mem_nil
  unfold Host.gather
  congr 1
  funext a
  apply Fin.ext
  match a with
  | ⟨0, _⟩ =>
    have hk : (0 : Fin 2) ∉ d.sKept := by
      rw [hsk]; exact fun h => absurd (Fin.val_eq_of_eq (List.mem_singleton.1 h)) Nat.zero_ne_one
    have hm : (0 : Fin 2) ∈ d.startIndexMap := by rw [hsim]; exact List.mem_singleton.mpr rfl
    have hsl : d.sliceSizes 0 = 1 := d.slice_collapsed 0 (by rw [hcoll]; exact List.mem_singleton.mpr rfl)
    have hsi : d.siIdx (ix2 p q) ⟨List.idxOf (0 : Fin 2) d.startIndexMap, List.idxOf_lt_length_iff.2 hm⟩ = ix2 p 0 := by
      funext b
      match b with
      | ⟨0, _⟩ =>
        unfold GatherDims.siIdx
        rw [dif_neg (by rw [hivd]; exact Nat.zero_ne_one)]
        unfold GatherDims.siCoord
        apply Fin.ext
        simp only [Fin.val_cast]
        rw [hbdget]
        rfl
      | ⟨1, _⟩ =>
        unfold GatherDims.siIdx
        rw [dif_pos (by rw [hivd])]
        apply Fin.ext
        show List.idxOf (0 : Fin 2) d.startIndexMap = 0
        rw [hsim]; simp
    show d.start (ix2 p q) idx 0 + d.batchCoord (ix2 p q) 0 + d.offCoord (ix2 p q) 0 = min (idx (ix2 p 0)).toInt.toNat (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>
    have hk : (1 : Fin 2) ∈ d.sKept := by rw [hsk]; exact List.mem_singleton.2 rfl
    have hm : (1 : Fin 2) ∉ d.startIndexMap := by
      rw [hsim]; exact fun h => absurd (Fin.val_eq_of_eq (List.mem_singleton.1 h)) Nat.one_ne_zero
    show d.start (ix2 p q) idx 1 + d.batchCoord (ix2 p q) 1 + d.offCoord (ix2 p q) 1 = q.val
    rw [GatherDims.batchCoord_eq_zero _ _ _ (hb 1), Nat.add_zero]
    unfold GatherDims.start GatherDims.offCoord
    rw [dif_neg hm, dif_pos hk, hoffget, Nat.zero_add]
    rfl

end Rows

section RowsAt
variable {F : FTy → Type} [FloatOps F]

/-- An index word in range, read signed and clamped into a table of 100000 rows, is its value. -/
theorem clamp_eq {v : BitVec 32} (h : v.toNat < 100000) (hi : v.toInt = (v.toNat : ℤ)) :
    min v.toInt.toNat (100000 - 1) = v.toNat := by
  rw [hi, Int.toNat_natCast]; omega

/-- Two rank-2 indices with equal rows and the same column are equal. -/
theorem ix2_row_congr {N m a b : Nat} (ha : a < N) (hb : b < N) (e : a = b) (c : Fin m) :
    (ix2 ⟨a, ha⟩ c : (⟨2, ![N, m]⟩ : Shape).Idx) = ix2 ⟨b, hb⟩ c := by
  subst e; rfl

/-- Entry `(p, 0)` of an [n × 1] column is entry `p` of the vector it reshapes. -/
theorem reshape_col {n : Nat} (h : (⟨2, ![n, 1]⟩ : Shape).numel = (⟨1, ![n]⟩ : Shape).numel) (p : Fin n) :
    Shape.reshapeEquiv h (ix2 p (0 : Fin 1)) = ix1 p :=
  Shape.reshapeEquiv_eq_of_rowMajor h (by
    rw [Shape.rowMajor_val_one, Shape.rowMajor_val_two]
    show p.val = p.val * 1 + 0
    omega)

/-- Row-major position `10 r + t` of the flat [40960] vector is entry `(r, t)` of the [4096, 10] array. -/
theorem reshape_flat_4096x10 (r : Fin 4096) (t : Fin 10) :
    Shape.reshapeEquiv shapeCasts_S4096x10_S40960 (ix1 ⟨10 * r.val + t.val, by omega⟩) = (ix2 r t : S4096x10.Idx) :=
  Shape.reshapeEquiv_eq_of_rowMajor _ (by
    rw [Shape.rowMajor_val_two, Shape.rowMajor_val_one]
    show r.val * 10 + t.val = 10 * r.val + t.val
    omega)

/-- Row-major position `10 r + t` of the flat [409600] vector is entry `(r, t)` of the [40960, 10] array. -/
theorem reshape_flat_40960x10 (r : Fin 40960) (t : Fin 10) :
    Shape.reshapeEquiv shapeCasts_S40960x10_S409600 (ix1 ⟨10 * r.val + t.val, by omega⟩) = (ix2 r t : S40960x10.Idx) :=
  Shape.reshapeEquiv_eq_of_rowMajor _ (by
    rw [Shape.rowMajor_val_two, Shape.rowMajor_val_one]
    show r.val * 10 + t.val = 10 * r.val + t.val
    omega)

/-- Entry `(r, t, c)` of the [4096, 10, 128] array is entry `(10 r + t, c)` of the [40960, 128] array it reshapes. -/
theorem reshape_rows_4096x10x128 (r : Fin 4096) (t : Fin 10) (c : Fin 128) :
    Shape.reshapeEquiv shapeCasts_S40960x128_S4096x10x128 (ix3 r t c) = (ix2 ⟨10 * r.val + t.val, by omega⟩ c : S40960x128.Idx) :=
  Shape.reshapeEquiv_eq_of_rowMajor _ (by
    rw [Shape.rowMajor_val_two, Shape.rowMajor_val_three]
    show (10 * r.val + t.val) * 128 + c.val = (r.val * 10 + t.val) * 128 + c.val
    omega)

/-- Entry `(r, t, c)` of the [40960, 10, 128] array is entry `(10 r + t, c)` of the [409600, 128] array it reshapes. -/
theorem reshape_rows_40960x10x128 (r : Fin 40960) (t : Fin 10) (c : Fin 128) :
    Shape.reshapeEquiv shapeCasts_S409600x128_S40960x10x128 (ix3 r t c) = (ix2 ⟨10 * r.val + t.val, by omega⟩ c : S409600x128.Idx) :=
  Shape.reshapeEquiv_eq_of_rowMajor _ (by
    rw [Shape.rowMajor_val_two, Shape.rowMajor_val_three]
    show (10 * r.val + t.val) * 128 + c.val = (r.val * 10 + t.val) * 128 + c.val
    omega)

/-- Row `r` of the targets' gather is the feature row named by the `r`-th id, when that id is in range. -/
theorem rowsT_apply (x : FVec F S100000x128 .f32) (ids : IVec S4096 32) (r : Fin 4096) (c : Fin 128)
    (h : (ids (ix1 r)).toNat < 100000) (hi : (ids (ix1 r)).toInt = ((ids (ix1 r)).toNat : ℤ)) :
    rowsT x ids (ix2 r c) = x (ix2 ⟨(ids (ix1 r)).toNat, h⟩ c) := by
  have hidx : shapeCast S4096x1 ids shapeCasts_S4096_S4096x1 (ix2 r 0) = ids (ix1 r) := by
    show ids (Shape.reshapeEquiv _ (ix2 r 0)) = _
    rw [reshape_col]
  unfold rowsT
  rw [gather_rows gather_S100000x128_S4096x1_S4096x128_1_0_n_n_0_1_1128 rfl rfl rfl rfl rfl x _ r c (by decide)]
  exact congrArg x (ix2_row_congr _ h (by rw [hidx]; exact clamp_eq h hi) c)

/-- Row `10 r + t` of the flat one-hop gather is the feature row named by id `(r, t)`. -/
theorem rowsN1flat_apply (x : FVec F S100000x128 .f32) (n1 : IVec S4096x10 32) (r : Fin 4096) (t : Fin 10) (c : Fin 128)
    (h : (n1 (ix2 r t)).toNat < 100000) (hi : (n1 (ix2 r t)).toInt = ((n1 (ix2 r t)).toNat : ℤ)) :
    rowsN1flat x n1 (ix2 ⟨10 * r.val + t.val, by omega⟩ c) = x (ix2 ⟨(n1 (ix2 r t)).toNat, h⟩ c) := by
  have hidx : shapeCast S40960x1 (shapeCast S40960 n1 shapeCasts_S4096x10_S40960) shapeCasts_S40960_S40960x1
      (ix2 ⟨10 * r.val + t.val, by omega⟩ 0) = n1 (ix2 r t) := by
    show n1 (Shape.reshapeEquiv _ (Shape.reshapeEquiv _ (ix2 _ 0))) = _
    rw [reshape_col, reshape_flat_4096x10]
  unfold rowsN1flat
  rw [gather_rows gather_S100000x128_S40960x1_S40960x128_1_0_n_n_0_1_1128 rfl rfl rfl rfl rfl x _ _ c (by decide)]
  exact congrArg x (ix2_row_congr _ h (by rw [hidx]; exact clamp_eq h hi) c)

/-- Entry `(r, t, ·)` of the one-hop gather is the feature row named by id `(r, t)`. -/
theorem rowsN1_apply (x : FVec F S100000x128 .f32) (n1 : IVec S4096x10 32) (r : Fin 4096) (t : Fin 10) (c : Fin 128)
    (h : (n1 (ix2 r t)).toNat < 100000) (hi : (n1 (ix2 r t)).toInt = ((n1 (ix2 r t)).toNat : ℤ)) :
    rowsN1 x n1 (ix3 r t c) = x (ix2 ⟨(n1 (ix2 r t)).toNat, h⟩ c) := by
  show rowsN1flat x n1 (Shape.reshapeEquiv shapeCasts_S40960x128_S4096x10x128 (ix3 r t c)) = _
  rw [reshape_rows_4096x10x128]
  exact rowsN1flat_apply x n1 r t c h hi

/-- Flattening the one-hop gather back to [40960, 128] gives the flat gather. -/
theorem rowsN1_flat (x : FVec F S100000x128 .f32) (n1 : IVec S4096x10 32) :
    shapeCast S40960x128 (rowsN1 x n1) shapeCasts_S4096x10x128_S40960x128 = rowsN1flat x n1 := by
  funext j
  show rowsN1flat x n1 (Shape.reshapeEquiv _ (Shape.reshapeEquiv _ j)) = _
  rw [Shape.reshapeEquiv_reshapeEquiv, Shape.reshapeEquiv_self]

/-- Row `10 r + t` of the flat two-hop gather is the feature row named by id `(r, t)`. -/
theorem rowsN2flat_apply (x : FVec F S100000x128 .f32) (n2 : IVec S40960x10 32) (r : Fin 40960) (t : Fin 10) (c : Fin 128)
    (h : (n2 (ix2 r t)).toNat < 100000) (hi : (n2 (ix2 r t)).toInt = ((n2 (ix2 r t)).toNat : ℤ)) :
    rowsN2flat x n2 (ix2 ⟨10 * r.val + t.val, by omega⟩ c) = x (ix2 ⟨(n2 (ix2 r t)).toNat, h⟩ c) := by
  have hidx : shapeCast S409600x1 (shapeCast S409600 n2 shapeCasts_S40960x10_S409600) shapeCasts_S409600_S409600x1
      (ix2 ⟨10 * r.val + t.val, by omega⟩ 0) = n2 (ix2 r t) := by
    show n2 (Shape.reshapeEquiv _ (Shape.reshapeEquiv _ (ix2 _ 0))) = _
    rw [reshape_col, reshape_flat_40960x10]
  unfold rowsN2flat
  rw [gather_rows gather_S100000x128_S409600x1_S409600x128_1_0_n_n_0_1_1128 rfl rfl rfl rfl rfl x _ _ c (by decide)]
  exact congrArg x (ix2_row_congr _ h (by rw [hidx]; exact clamp_eq h hi) c)

/-- Entry `(r, t, ·)` of the two-hop gather is the feature row named by id `(r, t)`. -/
theorem rowsN2_apply (x : FVec F S100000x128 .f32) (n2 : IVec S40960x10 32) (r : Fin 40960) (t : Fin 10) (c : Fin 128)
    (h : (n2 (ix2 r t)).toNat < 100000) (hi : (n2 (ix2 r t)).toInt = ((n2 (ix2 r t)).toNat : ℤ)) :
    rowsN2 x n2 (ix3 r t c) = x (ix2 ⟨(n2 (ix2 r t)).toNat, h⟩ c) := by
  show rowsN2flat x n2 (Shape.reshapeEquiv shapeCasts_S409600x128_S40960x10x128 (ix3 r t c)) = _
  rw [reshape_rows_40960x10x128]
  exact rowsN2flat_apply x n2 r t c h hi

end RowsAt

end Cert.PreDecode

end
-- ==== Proof.PreRanges.lean ====
/-
  The three index ranges of the input domain hold at every float instance: the range conjuncts compare integer words
  only, so splitting the conjunction down to them never looks inside a float conjunct.
-/
import proofs.«213116_g69346541961480_cont_9to1_m_612_34_alg».proof.Proof.PreDecode

noncomputable section

namespace Cert.PreDecode

open Idealize.ShloMosaic Idealize.ShloMosaic.ValueIdx Cert.Pre_input_domain
open Cert.Pre_input_domain.Facts

variable [Facts]

section Ranges
variable {F : FTy → Type} [FloatOps F]

variable (a0 : FVec F S100000x128 .f32) (a1 : IVec S4096 32) (a2 : IVec S4096x10 32) (a3 : FVec F S4096x10 .f32)
  (a4 : IVec S40960x10 32) (a5 : FVec F S40960x10 .f32) (a6 : FVec F S128x128 .f32) (a7 : FVec F S128 .f32)
  (a8 : FVec F S128x128 .f32) (a9 : FVec F S128 .f32) (a10 : FVec F S256x128 .f32) (a11 : FVec F S128 .f32)
  (a12 : FVec F S128x128 .f32) (a13 : FVec F S128 .f32) (a14 : FVec F S128x128 .f32) (a15 : FVec F S128 .f32)
  (a16 : FVec F S256x128 .f32) (a17 : FVec F S128 .f32) (a18 : FVec F S128x128 .f32) (a19 : FVec F S128 .f32)

/-- At any float instance an all-ones input domain makes every word of the three index arrays a natural number below
    100000, the same read signed or unsigned. -/
theorem ranges_int_of_fn
    (h : fn (F := F) a0 a1 a2 a3 a4 a5 a6 a7 a8 a9 a10 a11 a12 a13 a14 a15 a16 a17 a18 a19 = fun _ => 1#1) :
    (∀ i, (a1 i).toNat < 100000 ∧ (a1 i).toInt = ((a1 i).toNat : ℤ))
      ∧ (∀ i, (a2 i).toNat < 100000 ∧ (a2 i).toInt = ((a2 i).toNat : ℤ))
      ∧ (∀ i, (a4 i).toNat < 100000 ∧ (a4 i).toInt = ((a4 i).toNat : ℤ)) := by
  rw [fn_eq] at h
  obtain ⟨hD, -⟩ := andi_ones h
  obtain ⟨hD, h4⟩ := andi_ones hD
  obtain ⟨hD, h2⟩ := andi_ones hD
  obtain ⟨-, h1⟩ := andi_ones hD
  exact ⟨range_of_rangeBit _ _ a1 h1, range_of_rangeBit _ _ a2 h2, range_of_rangeBit _ _ a4 h4⟩

/-- The same, the bounds alone. -/
theorem ranges_of_fn
    (h : fn (F := F) a0 a1 a2 a3 a4 a5 a6 a7 a8 a9 a10 a11 a12 a13 a14 a15 a16 a17 a18 a19 = fun _ => 1#1) :
    (∀ i, (a1 i).toNat < 100000) ∧ (∀ i, (a2 i).toNat < 100000) ∧ (∀ i, (a4 i).toNat < 100000) := by
  obtain ⟨h1, h2, h4⟩ := ranges_int_of_fn a0 a1 a2 a3 a4 a5 a6 a7 a8 a9 a10 a11 a12 a13 a14 a15 a16 a17 a18 a19 h
  exact ⟨fun i => (h1 i).1, fun i => (h2 i).1, fun i => (h4 i).1⟩

end Ranges

end Cert.PreDecode

end
-- ==== Proof.MainPre.lean ====
/-
  The input domain's index ranges at the SparseCore call's entry. The three index operands of the call are the target
  indices as launched and the one-hop and two-hop index arrays reshaped row-major (no host operation and no region
  writes an index argument before the call), so every index word the call reads is a natural number below 100000.
-/
import proofs.«213116_g69346541961480_cont_9to1_m_612_34_alg».proof.Proof.MainFold
import proofs.«213116_g69346541961480_cont_9to1_m_612_34_alg».proof.Proof.MainPreHost
import proofs.«213116_g69346541961480_cont_9to1_m_612_34_alg».proof.Proof.PreRanges

noncomputable section

namespace Cert.KernelIdeal.Main

open Cert.KernelIdeal Cert.KernelIdeal.Gen Cert.KernelIdeal.Ghost Cert.KernelIdeal.Facts
open Idealize.ShloMosaic
open Idealize.ShloMosaic.SparseCore (S V T)
open Idealize.SL Idealize.SL.Sem

variable {F : FTy → Type} [FloatOps F]

variable (m : (ℓ : Loc nD τ sig) → Buf (Elt F) ℓ)

/-- A buffer that neither stretch A nor region 0 writes holds, when region 0 is left, what it held at launch. -/
theorem W2_of_arg (c : Dev nD) {b : Ref sig .tc}
    (h0 : b ≠ main_v0) (h1 : b ≠ main_v1) (h2 : b ≠ main_v2) (h3 : b ≠ main_v3) (hw : ∀ w, Pipeline.arrRef spec0 w ≠ b) :
    W2 m c (Proc.devRef .tc b) = m ((c.tc : Thread nD τ).loc b) :=
  calc W2 m c (Proc.devRef .tc b)
    _ = W1 m c (Proc.devRef .tc b) := W2_of_ne m c b hw
    _ = W0 m c (Proc.devRef .tc b) := afterA_of_arg _ h0 h1 h2 h3
    _ = m ((c.tc : Thread nD τ).loc b) := rfl

/-- At the call's entry the target indices are as launched. -/
theorem W3_main_arg1 (c : Dev nD) : W3 m c (Proc.devRef .tc main_arg1) = m ((c.tc : Thread nD τ).loc main_arg1) :=
  (afterB_of_arg (W2 m c) (by decide) (by decide) (by decide) (by decide)).trans
    (W2_of_arg m c (by decide) (by decide) (by decide) (by decide) (by decide))

/-- At the call's entry the flat one-hop table is the launched one-hop index array, reshaped. -/
theorem W3_main_v5 (c : Dev nD) :
    W3 m c (Proc.devRef .tc main_v5) = shapeCast S40960 (m ((c.tc : Thread nD τ).loc main_arg2)) shapeCasts_S4096x10_S40960 :=
  (afterB_v5 (W2 m c)).trans
    (congrArg (fun a => shapeCast S40960 a shapeCasts_S4096x10_S40960)
      (W2_of_arg m c (b := main_arg2) (by decide) (by decide) (by decide) (by decide) (by decide)))

/-- At the call's entry the flat two-hop table is the launched two-hop index array, reshaped. -/
theorem W3_main_v6 (c : Dev nD) :
    W3 m c (Proc.devRef .tc main_v6) = shapeCast S409600 (m ((c.tc : Thread nD τ).loc main_arg4)) shapeCasts_S40960x10_S409600 :=
  (afterB_v6 (W2 m c)).trans
    (congrArg (fun a => shapeCast S409600 a shapeCasts_S40960x10_S409600)
      (W2_of_arg m c (b := main_arg4) (by decide) (by decide) (by decide) (by decide) (by decide)))

/-- THE CALL'S PRECONDITION: on a launch memory in the input domain every index the SparseCore call reads names a row of
    the 100000-row tables. -/
theorem preOK_of_pre
    (h : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12))
      (m ((c.tc : Thread nD τ).loc main_arg13)) (m ((c.tc : Thread nD τ).loc main_arg14))
      (m ((c.tc : Thread nD τ).loc main_arg15)) (m ((c.tc : Thread nD τ).loc main_arg16))
      (m ((c.tc : Thread nD τ).loc main_arg17)) (m ((c.tc : Thread nD τ).loc main_arg18))
      (m ((c.tc : Thread nD τ).loc main_arg19)) = fun _ => 1#1) :
    Tile.PreOK (insOf (W3 m)) := by
  intro d
  obtain ⟨h1, h2, h4⟩ := Cert.PreDecode.ranges_of_fn _ _ _ _ _ _ _ _ _ _ _ _ _ _ _ _ _ _ _ _ (h d)
  refine ⟨fun x => ?_, fun x => ?_, fun x => ?_⟩
  · show ((W3 m d (Proc.devRef .tc main_arg1)) x).toNat < 100000
    rw [W3_main_arg1]
    exact h1 x
  · show ((W3 m d (Proc.devRef .tc main_v5)) x).toNat < 100000
    rw [W3_main_v5]
    exact h2 _
  · show ((W3 m d (Proc.devRef .tc main_v6)) x).toNat < 100000
    rw [W3_main_v6]
    exact h4 _

end Cert.KernelIdeal.Main

end
-- ==== Proof.RefRunOps.lean ====
import proofs.«213116_g69346541961480_cont_9to1_m_612_34_alg».proof.ReferenceIdeal
import proofs.«213116_g69346541961480_cont_9to1_m_612_34_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.SL.Sem

variable {F : FTy → Type} [FloatOps F]

/-- @main's operations 1 … 23 of 169. -/
def opsTakeA : List (HloOp τ sig (Elt F)) :=
  [ StableHlo.TRef.nullary main_call0.c (constantI S_ 32 0#32),
    StableHlo.TRef.unary main_call0.c main_call0.v0 (broadcastInDim S4096 ![] bcast_S_S4096),
    StableHlo.TRef.binary (StableHlo.TRef.of main_arg1 : StableHlo.TRef sig ⟨S4096, .i32⟩) main_call0.v0 main_call0.v1 (cmpi .slt),
    StableHlo.TRef.nullary main_call0.c_0 (constantI S_ 32 100000#32),
    StableHlo.TRef.unary main_call0.c_0 main_call0.v2 (broadcastInDim S4096 ![] bcast_S_S4096),
    StableHlo.TRef.binary (StableHlo.TRef.of main_arg1 : StableHlo.TRef sig ⟨S4096, .i32⟩) main_call0.v2 main_call0.v3 addi,
    StableHlo.TRef.ternary main_call0.v1 main_call0.v3 (StableHlo.TRef.of main_arg1 : StableHlo.TRef sig ⟨S4096, .i32⟩) main_call0.call0.v0 select,
    StableHlo.TRef.unary main_call0.call0.v0 main_call0.v5 (broadcastInDim S4096x1 ![0] bcast_S4096_S4096x1_0),
    StableHlo.TRef.nullary main_call0.c_1 (constantI S1 32 99999#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (StableHlo.TRef.of main_arg0 : StableHlo.TRef sig ⟨S100000x128, .f32⟩) main_call0.v5 main_call0.v13 (fun x i => Host.gather gather_S100000x128_S4096x1_S4096x128_1_0_n_n_0_1_1128 x i),
    StableHlo.TRef.unary main_call0.v12 main_call0.v14 (broadcastInDim S4096x128 ![0] bcast_S4096_S4096x128_0),
    StableHlo.TRef.nullary main_call0.cst (constant S_ .f32 0x7FC00000#32),
    StableHlo.TRef.unary main_call0.cst main_call0.v15 (broadcastInDim S4096x128 ![] bcast_S_S4096x128),
    StableHlo.TRef.ternary main_call0.v14 main_call0.v13 main_call0.v15 main_call0.v16 select ]

/-- @main's operations 24 … 24 of 169. -/
def opsFlatA : List (HloOp τ sig (Elt F)) :=
  [ StableHlo.reshape main_arg2 main_v1 rfl shapeCasts_S4096x10_S40960 ]

/-- @main's operations 25 … 47 of 169. -/
def opsTakeB : List (HloOp τ sig (Elt F)) :=
  [ StableHlo.TRef.nullary main_call1.c (constantI S_ 32 0#32),
    StableHlo.TRef.unary main_call1.c main_call1.v0 (broadcastInDim S40960 ![] bcast_S_S40960),
    StableHlo.TRef.binary (StableHlo.TRef.of main_v1 : StableHlo.TRef sig ⟨S40960, .i32⟩) main_call1.v0 main_call1.v1 (cmpi .slt),
    StableHlo.TRef.nullary main_call1.c_0 (constantI S_ 32 100000#32),
    StableHlo.TRef.unary main_call1.c_0 main_call1.v2 (broadcastInDim S40960 ![] bcast_S_S40960),
    StableHlo.TRef.binary (StableHlo.TRef.of main_v1 : StableHlo.TRef sig ⟨S40960, .i32⟩) main_call1.v2 main_call1.v3 addi,
    StableHlo.TRef.ternary main_call1.v1 main_call1.v3 (StableHlo.TRef.of main_v1 : StableHlo.TRef sig ⟨S40960, .i32⟩) main_call1.call0.v0 select,
    StableHlo.TRef.unary main_call1.call0.v0 main_call1.v5 (broadcastInDim S40960x1 ![0] bcast_S40960_S40960x1_0),
    StableHlo.TRef.nullary main_call1.c_1 (constantI S1 32 99999#32),
    StableHlo.TRef.nullary main_call1.c_2 (constantI S_ 32 0#32),
    StableHlo.TRef.unary main_call1.c_2 main_call1.v6 (broadcastInDim S40960x1 ![] bcast_S_S40960x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S40960x1 ![0, 1] bcast_S1x1_S40960x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S40960x1_S40960_d1 h_S_),
    StableHlo.TRef.binary (StableHlo.TRef.of main_arg0 : StableHlo.TRef sig ⟨S100000x128, .f32⟩) main_call1.v5 main_call1.v13 (fun x i => Host.gather gather_S100000x128_S40960x1_S40960x128_1_0_n_n_0_1_1128 x i),
    StableHlo.TRef.unary main_call1.v12 main_call1.v14 (broadcastInDim S40960x128 ![0] bcast_S40960_S40960x128_0),
    StableHlo.TRef.nullary main_call1.cst (constant S_ .f32 0x7FC00000#32),
    StableHlo.TRef.unary main_call1.cst main_call1.v15 (broadcastInDim S40960x128 ![] bcast_S_S40960x128),
    StableHlo.TRef.ternary main_call1.v14 main_call1.v13 main_call1.v15 main_call1.v16 select ]

/-- @main's operations 48 … 49 of 169. -/
def opsCastA : List (HloOp τ sig (Elt F)) :=
  [ StableHlo.reshape main_v2 main_v3 rfl shapeCasts_S40960x128_S4096x10x128,
    StableHlo.reshape main_arg4 main_v4 rfl shapeCasts_S40960x10_S409600 ]

/-- @main's operations 50 … 72 of 169. -/
def opsTakeC : List (HloOp τ sig (Elt F)) :=
  [ StableHlo.TRef.nullary main_call2.c (constantI S_ 32 0#32),
    StableHlo.TRef.unary main_call2.c main_call2.v0 (broadcastInDim S409600 ![] bcast_S_S409600),
    StableHlo.TRef.binary (StableHlo.TRef.of main_v4 : StableHlo.TRef sig ⟨S409600, .i32⟩) main_call2.v0 main_call2.v1 (cmpi .slt),
    StableHlo.TRef.nullary main_call2.c_0 (constantI S_ 32 100000#32),
    StableHlo.TRef.unary main_call2.c_0 main_call2.v2 (broadcastInDim S409600 ![] bcast_S_S409600),
    StableHlo.TRef.binary (StableHlo.TRef.of main_v4 : StableHlo.TRef sig ⟨S409600, .i32⟩) main_call2.v2 main_call2.v3 addi,
    StableHlo.TRef.ternary main_call2.v1 main_call2.v3 (StableHlo.TRef.of main_v4 : StableHlo.TRef sig ⟨S409600, .i32⟩) main_call2.call0.v0 select,
    StableHlo.TRef.unary main_call2.call0.v0 main_call2.v5 (broadcastInDim S409600x1 ![0] bcast_S409600_S409600x1_0),
    StableHlo.TRef.nullary main_call2.c_1 (constantI S1 32 99999#32),
    StableHlo.TRef.nullary main_call2.c_2 (constantI S_ 32 0#32),
    StableHlo.TRef.unary main_call2.c_2 main_call2.v6 (broadcastInDim S409600x1 ![] bcast_S_S409600x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S409600x1 ![0, 1] bcast_S1x1_S409600x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S409600x1_S409600_d1 h_S_),
    StableHlo.TRef.binary (StableHlo.TRef.of main_arg0 : StableHlo.TRef sig ⟨S100000x128, .f32⟩) main_call2.v5 main_call2.v13 (fun x i => Host.gather gather_S100000x128_S409600x1_S409600x128_1_0_n_n_0_1_1128 x i),
    StableHlo.TRef.unary main_call2.v12 main_call2.v14 (broadcastInDim S409600x128 ![0] bcast_S409600_S409600x128_0),
    StableHlo.TRef.nullary main_call2.cst (constant S_ .f32 0x7FC00000#32),
    StableHlo.TRef.unary main_call2.cst main_call2.v15 (broadcastInDim S409600x128 ![] bcast_S_S409600x128),
    StableHlo.TRef.ternary main_call2.v14 main_call2.v13 main_call2.v15 main_call2.v16 select ]

/-- @main's operations 73 … 73 of 169. -/
def opsCastB : List (HloOp τ sig (Elt F)) :=
  [ StableHlo.reshape main_v5 main_v6 rfl shapeCasts_S409600x128_S40960x10x128 ]

/-- @main's operations 74 … 96 of 169. -/
def opsEmbA : List (HloOp τ sig (Elt F)) :=
  [ StableHlo.binary main_v0 main_arg6 main_v7 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.unary main_arg7 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S4096x128 ![0, 1] bcast_S1x128_S4096x128_0_1 : (⟨S1x128, .f32⟩ : BufTy).Contents (Elt F) → (⟨S4096x128, .f32⟩ : BufTy).Contents (Elt F)),
    StableHlo.binary main_v7 main_v9 main_v10 (addf : (⟨S4096x128, .f32⟩ : BufTy).Contents (Elt F) → (⟨S4096x128, .f32⟩ : BufTy).Contents (Elt F) → (⟨S4096x128, .f32⟩ : BufTy).Contents (Elt F)),
    StableHlo.TRef.nullary main_call3.cst (constant S_ .f32 0x00000000#32),
    StableHlo.TRef.unary main_call3.cst main_call3.v0 (broadcastInDim S4096x128 ![] bcast_S_S4096x128),
    StableHlo.TRef.binary (StableHlo.TRef.of main_v10 : StableHlo.TRef sig ⟨S4096x128, .f32⟩) main_call3.v0 main_call3.v1 maximumf,
    StableHlo.binary main_v3 main_arg8 main_v12 ((fun l r => Host.dotGeneral dot_S4096x10x128_S128x128_S4096x10x128_2_0_01_1_n_n none l r) : (⟨S4096x10x128, .f32⟩ : BufTy).Contents (Elt F) → (⟨S128x128, .f32⟩ : BufTy).Contents (Elt F) → (⟨S4096x10x128, .f32⟩ : BufTy).Contents (Elt F)),
    StableHlo.unary main_arg9 main_v13 (broadcastInDim S1x1x128 ![2] bcast_S128_S1x1x128_2 : (⟨S128, .f32⟩ : BufTy).Contents (Elt F) → (⟨S1x1x128, .f32⟩ : BufTy).Contents (Elt F)),
    StableHlo.unary main_v13 main_v14 (broadcastInDim S4096x10x128 ![0, 1, 2] bcast_S1x1x128_S4096x10x128_0_1_2 : (⟨S1x1x128, .f32⟩ : BufTy).Contents (Elt F) → (⟨S4096x10x128, .f32⟩ : BufTy).Contents (Elt F)),
    StableHlo.binary main_v12 main_v14 main_v15 (addf : (⟨S4096x10x128, .f32⟩ : BufTy).Contents (Elt F) → (⟨S4096x10x128, .f32⟩ : BufTy).Contents (Elt F) → (⟨S4096x10x128, .f32⟩ : BufTy).Contents (Elt F)),
    StableHlo.TRef.nullary main_call4.cst (constant S_ .f32 0x00000000#32),
    StableHlo.TRef.unary main_call4.cst main_call4.v0 (broadcastInDim S4096x10x128 ![] bcast_S_S4096x10x128),
    StableHlo.TRef.binary (StableHlo.TRef.of main_v15 : StableHlo.TRef sig ⟨S4096x10x128, .f32⟩) main_call4.v0 main_call4.v1 maximumf,
    StableHlo.binary main_arg3 main_v16 main_v17 ((fun l r => Host.dotGeneral dot_S4096x10_S4096x10x128_S4096x128_1_1_n_2_0_0 none l r) : (⟨S4096x10, .f32⟩ : BufTy).Contents (Elt F) → (⟨S4096x10x128, .f32⟩ : BufTy).Contents (Elt F) → (⟨S4096x128, .f32⟩ : BufTy).Contents (Elt F)),
    StableHlo.binary main_v11 main_v17 main_v18 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.binary main_v18 main_arg10 main_v19 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg11 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S4096x128 ![0, 1] bcast_S1x128_S4096x128_0_1 : (⟨S1x128, .f32⟩ : BufTy).Contents (Elt F) → (⟨S4096x128, .f32⟩ : BufTy).Contents (Elt F)),
    StableHlo.binary main_v19 main_v21 main_v22 (addf : (⟨S4096x128, .f32⟩ : BufTy).Contents (Elt F) → (⟨S4096x128, .f32⟩ : BufTy).Contents (Elt F) → (⟨S4096x128, .f32⟩ : BufTy).Contents (Elt F)),
    StableHlo.TRef.nullary main_call5.cst (constant S_ .f32 0x00000000#32),
    StableHlo.TRef.unary main_call5.cst main_call5.v0 (broadcastInDim S4096x128 ![] bcast_S_S4096x128),
    StableHlo.TRef.binary (StableHlo.TRef.of main_v22 : StableHlo.TRef sig ⟨S4096x128, .f32⟩) main_call5.v0 main_call5.v1 maximumf ]

/-- @main's operations 97 … 102 of 169. -/
def opsNormA : List (HloOp τ sig (Elt F)) :=
  [ StableHlo.TRef.binary (StableHlo.TRef.of main_v23 : StableHlo.TRef sig ⟨S4096x128, .f32⟩) (StableHlo.TRef.of main_v23 : StableHlo.TRef sig ⟨S4096x128, .f32⟩) main_call6.v0 mulf,
    StableHlo.TRef.nullary main_call6.cst (constant S_ .f32 0x00000000#32),
    StableHlo.TRef.binary main_call6.v0 main_call6.cst main_call6.v1 (fun x v => Host.reduceAdd x v reducesTo_S4096x128_S_d0_1 h_S_),
    StableHlo.TRef.unary main_call6.v1 main_call6.v2 Host.sqrt,
    StableHlo.unary main_v24 main_v25 (broadcastInDim S4096x128 ![] bcast_S_S4096x128 : (⟨S_, .f32⟩ : BufTy).Contents (Elt F) → (⟨S4096x128, .f32⟩ : BufTy).Contents (Elt F)),
    StableHlo.binary main_v23 main_v25 main_v26 (Host.divf : (⟨S4096x128, .f32⟩ : BufTy).Contents (Elt F) → (⟨S4096x128, .f32⟩ : BufTy).Contents (Elt F) → (⟨S4096x128, .f32⟩ : BufTy).Contents (Elt F)) ]

/-- @main's operations 103 … 103 of 169. -/
def opsCastC : List (HloOp τ sig (Elt F)) :=
  [ StableHlo.reshape main_v3 main_v27 rfl shapeCasts_S4096x10x128_S40960x128 ]

/-- @main's operations 104 … 126 of 169. -/
def opsEmbB : List (HloOp τ sig (Elt F)) :=
  [ StableHlo.binary main_v27 main_arg6 main_v28 ((fun l r => Host.dotGeneral dot_S40960x128_S128x128_S40960x128_1_0_0_1_n_n none l r) : (⟨S40960x128, .f32⟩ : BufTy).Contents (Elt F) → (⟨S128x128, .f32⟩ : BufTy).Contents (Elt F) → (⟨S40960x128, .f32⟩ : BufTy).Contents (Elt F)),
    StableHlo.unary main_arg7 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S40960x128 ![0, 1] bcast_S1x128_S40960x128_0_1 : (⟨S1x128, .f32⟩ : BufTy).Contents (Elt F) → (⟨S40960x128, .f32⟩ : BufTy).Contents (Elt F)),
    StableHlo.binary main_v28 main_v30 main_v31 (addf : (⟨S40960x128, .f32⟩ : BufTy).Contents (Elt F) → (⟨S40960x128, .f32⟩ : BufTy).Contents (Elt F) → (⟨S40960x128, .f32⟩ : BufTy).Contents (Elt F)),
    StableHlo.TRef.nullary main_call7.cst (constant S_ .f32 0x00000000#32),
    StableHlo.TRef.unary main_call7.cst main_call7.v0 (broadcastInDim S40960x128 ![] bcast_S_S40960x128),
    StableHlo.TRef.binary (StableHlo.TRef.of main_v31 : StableHlo.TRef sig ⟨S40960x128, .f32⟩) main_call7.v0 main_call7.v1 maximumf,
    StableHlo.binary main_v6 main_arg8 main_v33 ((fun l r => Host.dotGeneral dot_S40960x10x128_S128x128_S40960x10x128_2_0_01_1_n_n none l r) : (⟨S40960x10x128, .f32⟩ : BufTy).Contents (Elt F) → (⟨S128x128, .f32⟩ : BufTy).Contents (Elt F) → (⟨S40960x10x128, .f32⟩ : BufTy).Contents (Elt F)),
    StableHlo.unary main_arg9 main_v34 (broadcastInDim S1x1x128 ![2] bcast_S128_S1x1x128_2 : (⟨S128, .f32⟩ : BufTy).Contents (Elt F) → (⟨S1x1x128, .f32⟩ : BufTy).Contents (Elt F)),
    StableHlo.unary main_v34 main_v35 (broadcastInDim S40960x10x128 ![0, 1, 2] bcast_S1x1x128_S40960x10x128_0_1_2 : (⟨S1x1x128, .f32⟩ : BufTy).Contents (Elt F) → (⟨S40960x10x128, .f32⟩ : BufTy).Contents (Elt F)),
    StableHlo.binary main_v33 main_v35 main_v36 (addf : (⟨S40960x10x128, .f32⟩ : BufTy).Contents (Elt F) → (⟨S40960x10x128, .f32⟩ : BufTy).Contents (Elt F) → (⟨S40960x10x128, .f32⟩ : BufTy).Contents (Elt F)),
    StableHlo.TRef.nullary main_call8.cst (constant S_ .f32 0x00000000#32),
    StableHlo.TRef.unary main_call8.cst main_call8.v0 (broadcastInDim S40960x10x128 ![] bcast_S_S40960x10x128),
    StableHlo.TRef.binary (StableHlo.TRef.of main_v36 : StableHlo.TRef sig ⟨S40960x10x128, .f32⟩) main_call8.v0 main_call8.v1 maximumf,
    StableHlo.binary main_arg5 main_v37 main_v38 ((fun l r => Host.dotGeneral dot_S40960x10_S40960x10x128_S40960x128_1_1_n_2_0_0 none l r) : (⟨S40960x10, .f32⟩ : BufTy).Contents (Elt F) → (⟨S40960x10x128, .f32⟩ : BufTy).Contents (Elt F) → (⟨S40960x128, .f32⟩ : BufTy).Contents (Elt F)),
    StableHlo.binary main_v32 main_v38 main_v39 ((fun a b => concatenate S40960x256 1 [⟨S40960x128, a⟩, ⟨S40960x128, b⟩] concatenates_S40960x128_S40960x128_S40960x256_d1) : (⟨S40960x128, .f32⟩ : BufTy).Contents (Elt F) → (⟨S40960x128, .f32⟩ : BufTy).Contents (Elt F) → (⟨S40960x256, .f32⟩ : BufTy).Contents (Elt F)),
    StableHlo.binary main_v39 main_arg10 main_v40 ((fun l r => Host.dotGeneral dot_S40960x256_S256x128_S40960x128_1_0_0_1_n_n none l r) : (⟨S40960x256, .f32⟩ : BufTy).Contents (Elt F) → (⟨S256x128, .f32⟩ : BufTy).Contents (Elt F) → (⟨S40960x128, .f32⟩ : BufTy).Contents (Elt F)),
    StableHlo.unary main_arg11 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S40960x128 ![0, 1] bcast_S1x128_S40960x128_0_1 : (⟨S1x128, .f32⟩ : BufTy).Contents (Elt F) → (⟨S40960x128, .f32⟩ : BufTy).Contents (Elt F)),
    StableHlo.binary main_v40 main_v42 main_v43 (addf : (⟨S40960x128, .f32⟩ : BufTy).Contents (Elt F) → (⟨S40960x128, .f32⟩ : BufTy).Contents (Elt F) → (⟨S40960x128, .f32⟩ : BufTy).Contents (Elt F)),
    StableHlo.TRef.nullary main_call9.cst (constant S_ .f32 0x00000000#32),
    StableHlo.TRef.unary main_call9.cst main_call9.v0 (broadcastInDim S40960x128 ![] bcast_S_S40960x128),
    StableHlo.TRef.binary (StableHlo.TRef.of main_v43 : StableHlo.TRef sig ⟨S40960x128, .f32⟩) main_call9.v0 main_call9.v1 maximumf ]

/-- @main's operations 127 … 132 of 169. -/
def opsNormB : List (HloOp τ sig (Elt F)) :=
  [ StableHlo.TRef.binary (StableHlo.TRef.of main_v44 : StableHlo.TRef sig ⟨S40960x128, .f32⟩) (StableHlo.TRef.of main_v44 : StableHlo.TRef sig ⟨S40960x128, .f32⟩) main_call10.v0 mulf,
    StableHlo.TRef.nullary main_call10.cst (constant S_ .f32 0x00000000#32),
    StableHlo.TRef.binary main_call10.v0 main_call10.cst main_call10.v1 (fun x v => Host.reduceAdd x v reducesTo_S40960x128_S_d0_1 h_S_),
    StableHlo.TRef.unary main_call10.v1 main_call10.v2 Host.sqrt,
    StableHlo.unary main_v45 main_v46 (broadcastInDim S40960x128 ![] bcast_S_S40960x128 : (⟨S_, .f32⟩ : BufTy).Contents (Elt F) → (⟨S40960x128, .f32⟩ : BufTy).Contents (Elt F)),
    StableHlo.binary main_v44 main_v46 main_v47 (Host.divf : (⟨S40960x128, .f32⟩ : BufTy).Contents (Elt F) → (⟨S40960x128, .f32⟩ : BufTy).Contents (Elt F) → (⟨S40960x128, .f32⟩ : BufTy).Contents (Elt F)) ]

/-- @main's operations 133 … 133 of 169. -/
def opsCastD : List (HloOp τ sig (Elt F)) :=
  [ StableHlo.reshape main_v47 main_v48 rfl shapeCasts_S40960x128_S4096x10x128 ]

/-- @main's operations 134 … 148 of 169. -/
def opsEmbC : List (HloOp τ sig (Elt F)) :=
  [ StableHlo.binary main_v26 main_arg12 main_v49 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.unary main_arg13 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S4096x128 ![0, 1] bcast_S1x128_S4096x128_0_1 : (⟨S1x128, .f32⟩ : BufTy).Contents (Elt F) → (⟨S4096x128, .f32⟩ : BufTy).Contents (Elt F)),
    StableHlo.binary main_v49 main_v51 main_v52 (addf : (⟨S4096x128, .f32⟩ : BufTy).Contents (Elt F) → (⟨S4096x128, .f32⟩ : BufTy).Contents (Elt F) → (⟨S4096x128, .f32⟩ : BufTy).Contents (Elt F)),
    StableHlo.TRef.nullary main_call11.cst (constant S_ .f32 0x00000000#32),
    StableHlo.TRef.unary main_call11.cst main_call11.v0 (broadcastInDim S4096x128 ![] bcast_S_S4096x128),
    StableHlo.TRef.binary (StableHlo.TRef.of main_v52 : StableHlo.TRef sig ⟨S4096x128, .f32⟩) main_call11.v0 main_call11.v1 maximumf,
    StableHlo.binary main_v48 main_arg14 main_v54 ((fun l r => Host.dotGeneral dot_S4096x10x128_S128x128_S4096x10x128_2_0_01_1_n_n none l r) : (⟨S4096x10x128, .f32⟩ : BufTy).Contents (Elt F) → (⟨S128x128, .f32⟩ : BufTy).Contents (Elt F) → (⟨S4096x10x128, .f32⟩ : BufTy).Contents (Elt F)),
    StableHlo.unary main_arg15 main_v55 (broadcastInDim S1x1x128 ![2] bcast_S128_S1x1x128_2 : (⟨S128, .f32⟩ : BufTy).Contents (Elt F) → (⟨S1x1x128, .f32⟩ : BufTy).Contents (Elt F)),
    StableHlo.unary main_v55 main_v56 (broadcastInDim S4096x10x128 ![0, 1, 2] bcast_S1x1x128_S4096x10x128_0_1_2 : (⟨S1x1x128, .f32⟩ : BufTy).Contents (Elt F) → (⟨S4096x10x128, .f32⟩ : BufTy).Contents (Elt F)),
    StableHlo.binary main_v54 main_v56 main_v57 (addf : (⟨S4096x10x128, .f32⟩ : BufTy).Contents (Elt F) → (⟨S4096x10x128, .f32⟩ : BufTy).Contents (Elt F) → (⟨S4096x10x128, .f32⟩ : BufTy).Contents (Elt F)),
    StableHlo.TRef.nullary main_call12.cst (constant S_ .f32 0x00000000#32),
    StableHlo.TRef.unary main_call12.cst main_call12.v0 (broadcastInDim S4096x10x128 ![] bcast_S_S4096x10x128),
    StableHlo.TRef.binary (StableHlo.TRef.of main_v57 : StableHlo.TRef sig ⟨S4096x10x128, .f32⟩) main_call12.v0 main_call12.v1 maximumf,
    StableHlo.binary main_arg3 main_v58 main_v59 ((fun l r => Host.dotGeneral dot_S4096x10_S4096x10x128_S4096x128_1_1_n_2_0_0 none l r) : (⟨S4096x10, .f32⟩ : BufTy).Contents (Elt F) → (⟨S4096x10x128, .f32⟩ : BufTy).Contents (Elt F) → (⟨S4096x128, .f32⟩ : BufTy).Contents (Elt F)) ]

/-- @main's operations 149 … 156 of 169. -/
def opsEmbD : List (HloOp τ sig (Elt F)) :=
  [ StableHlo.binary main_v53 main_v59 main_v60 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    StableHlo.binary main_v60 main_arg16 main_v61 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.unary main_arg17 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S4096x128 ![0, 1] bcast_S1x128_S4096x128_0_1 : (⟨S1x128, .f32⟩ : BufTy).Contents (Elt F) → (⟨S4096x128, .f32⟩ : BufTy).Contents (Elt F)),
    StableHlo.binary main_v61 main_v63 main_v64 (addf : (⟨S4096x128, .f32⟩ : BufTy).Contents (Elt F) → (⟨S4096x128, .f32⟩ : BufTy).Contents (Elt F) → (⟨S4096x128, .f32⟩ : BufTy).Contents (Elt F)),
    StableHlo.TRef.nullary main_call13.cst (constant S_ .f32 0x00000000#32),
    StableHlo.TRef.unary main_call13.cst main_call13.v0 (broadcastInDim S4096x128 ![] bcast_S_S4096x128),
    StableHlo.TRef.binary (StableHlo.TRef.of main_v64 : StableHlo.TRef sig ⟨S4096x128, .f32⟩) main_call13.v0 main_call13.v1 maximumf ]

/-- @main's operations 157 … 162 of 169. -/
def opsNormC : List (HloOp τ sig (Elt F)) :=
  [ StableHlo.TRef.binary (StableHlo.TRef.of main_v65 : StableHlo.TRef sig ⟨S4096x128, .f32⟩) (StableHlo.TRef.of main_v65 : StableHlo.TRef sig ⟨S4096x128, .f32⟩) main_call14.v0 mulf,
    StableHlo.TRef.nullary main_call14.cst (constant S_ .f32 0x00000000#32),
    StableHlo.TRef.binary main_call14.v0 main_call14.cst main_call14.v1 (fun x v => Host.reduceAdd x v reducesTo_S4096x128_S_d0_1 h_S_),
    StableHlo.TRef.unary main_call14.v1 main_call14.v2 Host.sqrt,
    StableHlo.unary main_v66 main_v67 (broadcastInDim S4096x128 ![] bcast_S_S4096x128 : (⟨S_, .f32⟩ : BufTy).Contents (Elt F) → (⟨S4096x128, .f32⟩ : BufTy).Contents (Elt F)),
    StableHlo.binary main_v65 main_v67 main_v68 (Host.divf : (⟨S4096x128, .f32⟩ : BufTy).Contents (Elt F) → (⟨S4096x128, .f32⟩ : BufTy).Contents (Elt F) → (⟨S4096x128, .f32⟩ : BufTy).Contents (Elt F)) ]

/-- @main's operations 163 … 169 of 169. -/
def opsDense : List (HloOp τ sig (Elt F)) :=
  [ StableHlo.binary main_v68 main_arg18 main_v69 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.unary main_arg19 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S4096x128 ![0, 1] bcast_S1x128_S4096x128_0_1 : (⟨S1x128, .f32⟩ : BufTy).Contents (Elt F) → (⟨S4096x128, .f32⟩ : BufTy).Contents (Elt F)),
    StableHlo.binary main_v69 main_v71 main_v72 (addf : (⟨S4096x128, .f32⟩ : BufTy).Contents (Elt F) → (⟨S4096x128, .f32⟩ : BufTy).Contents (Elt F) → (⟨S4096x128, .f32⟩ : BufTy).Contents (Elt F)),
    StableHlo.TRef.nullary main_call15.cst (constant S_ .f32 0x00000000#32),
    StableHlo.TRef.unary main_call15.cst main_call15.v0 (broadcastInDim S4096x128 ![] bcast_S_S4096x128),
    StableHlo.TRef.binary (StableHlo.TRef.of main_v72 : StableHlo.TRef sig ⟨S4096x128, .f32⟩) main_call15.v0 main_call15.v1 maximumf ]

end Cert.ReferenceIdeal.RefRun

end
-- ==== Proof.RefRun.lean ====
/- The reference's run. The reference is a straight line of 169 tensor operations: three row gathers of the feature
   table (each with the index normalisation and the range guard that `jnp.take` carries), two graph-convolution embeddings
   at depth 1 (of the targets, and of their first-hop neighbours, with shared weights) and one at depth 0, each divided by
   its global Euclidean norm, and a final dense layer. Each stage is a pure function of the arrays it reads; the run ends
   with the result buffer at the composition `result` of the stages at the twenty argument arrays, and the arguments
   unchanged. The line is read stage by stage: a stage's result buffer holds the stage's function of the buffers it reads,
   and a stage keeps every buffer it does not write. -/
import proofs.«213116_g69346541961480_cont_9to1_m_612_34_alg».proof.Defs
import proofs.«213116_g69346541961480_cont_9to1_m_612_34_alg».proof.Proof.Gen.ReferenceIdeal
import proofs.«213116_g69346541961480_cont_9to1_m_612_34_alg».proof.Proof.Gen.Pre_input_domain
import proofs.«213116_g69346541961480_cont_9to1_m_612_34_alg».proof.Proof.RefRunOps
import Idealize.ShloMosaic.Lib.StableHlo.Run

noncomputable section

namespace Cert.ReferenceIdeal.RefRun

open Cert.ReferenceIdeal Cert.ReferenceIdeal.Facts₀ Idealize.ShloMosaic Idealize.SL.Sem

variable {F : FTy → Type} [FloatOps F]

/-! ## The stages, as functions of arrays -/

/-- Negative indices wrapped once by the table's length, as `jnp.take` normalises them (4096 indices). -/
def wrapA (ids : IVec S4096 32) : IVec S4096 32 :=
  select (cmpi .slt ids (broadcastInDim S4096 ![] bcast_S_S4096 (constantI S_ 32 0#32)))
    (addi ids (broadcastInDim S4096 ![] bcast_S_S4096 (constantI S_ 32 100000#32))) ids

/-- The wrapped indices as a column: one start index per gathered row. -/
def colA (ids : IVec S4096 32) : IVec S4096x1 32 :=
  broadcastInDim S4096x1 ![0] bcast_S4096_S4096x1_0 (wrapA ids)

/-- Which wrapped indices name a row of the table: `0 ≤ i ≤ 99999`, as a mask. -/
def inRangeA (ids : IVec S4096 32) : IVec S4096 1 :=
  Host.reduce IntOp.andi
    (andi (cmpi .sge (colA ids) (broadcastInDim S4096x1 ![] bcast_S_S4096x1 (constantI S_ 32 0#32)))
      (cmpi .sle (colA ids)
        (broadcastInDim S4096x1 ![0, 1] bcast_S1x1_S4096x1_0_1 (broadcastInDim S1x1 ![1] bcast_S1_S1x1_1 (constantI S1 32 99999#32)))))
    (constantI S_ 1 1#1) reducesTo_S4096x1_S4096_d1 h_S_

/-- The row gather `x[ids]` of 4096 rows: row `i` of the result is row `ids i` of `x` where that index (wrapped) is in
    range, and a row of NaNs elsewhere. -/
def takeA (x : FVec F S100000x128 .f32) (ids : IVec S4096 32) : FVec F S4096x128 .f32 :=
  select (broadcastInDim S4096x128 ![0] bcast_S4096_S4096x128_0 (inRangeA ids))
    (Host.gather gather_S100000x128_S4096x1_S4096x128_1_0_n_n_0_1_1128 x (colA ids))
    (broadcastInDim S4096x128 ![] bcast_S_S4096x128 (constant S_ .f32 0x7FC00000#32))

/-- Negative indices wrapped once by the table's length, as `jnp.take` normalises them (40960 indices). -/
def wrapB (ids : IVec S40960 32) : IVec S40960 32 :=
  select (cmpi .slt ids (broadcastInDim S40960 ![] bcast_S_S40960 (constantI S_ 32 0#32)))
    (addi ids (broadcastInDim S40960 ![] bcast_S_S40960 (constantI S_ 32 100000#32))) ids

/-- The wrapped indices as a column: one start index per gathered row. -/
def colB (ids : IVec S40960 32) : IVec S40960x1 32 :=
  broadcastInDim S40960x1 ![0] bcast_S40960_S40960x1_0 (wrapB ids)

/-- Which wrapped indices name a row of the table: `0 ≤ i ≤ 99999`, as a mask. -/
def inRangeB (ids : IVec S40960 32) : IVec S40960 1 :=
  Host.reduce IntOp.andi
    (andi (cmpi .sge (colB ids) (broadcastInDim S40960x1 ![] bcast_S_S40960x1 (constantI S_ 32 0#32)))
      (cmpi .sle (colB ids)
        (broadcastInDim S40960x1 ![0, 1] bcast_S1x1_S40960x1_0_1 (broadcastInDim S1x1 ![1] bcast_S1_S1x1_1 (constantI S1 32 99999#32)))))
    (constantI S_ 1 1#1) reducesTo_S40960x1_S40960_d1 h_S_

/-- The row gather `x[ids]` of 40960 rows: row `i` of the result is row `ids i` of `x` where that index (wrapped) is in
    range, and a row of NaNs elsewhere. -/
def takeB (x : FVec F S100000x128 .f32) (ids : IVec S40960 32) : FVec F S40960x128 .f32 :=
  select (broadcastInDim S40960x128 ![0] bcast_S40960_S40960x128_0 (inRangeB ids))
    (Host.gather gather_S100000x128_S40960x1_S40960x128_1_0_n_n_0_1_1128 x (colB ids))
    (broadcastInDim S40960x128 ![] bcast_S_S40960x128 (constant S_ .f32 0x7FC00000#32))

/-- Negative indices wrapped once by the table's length, as `jnp.take` normalises them (409600 indices). -/
def wrapC (ids : IVec S409600 32) : IVec S409600 32 :=
  select (cmpi .slt ids (broadcastInDim S409600 ![] bcast_S_S409600 (constantI S_ 32 0#32)))
    (addi ids (broadcastInDim S409600 ![] bcast_S_S409600 (constantI S_ 32 100000#32))) ids

/-- The wrapped indices as a column: one start index per gathered row. -/
def colC (ids : IVec S409600 32) : IVec S409600x1 32 :=
  broadcastInDim S409600x1 ![0] bcast_S409600_S409600x1_0 (wrapC ids)

/-- Which wrapped indices name a row of the table: `0 ≤ i ≤ 99999`, as a mask. -/
def inRangeC (ids : IVec S409600 32) : IVec S409600 1 :=
  Host.reduce IntOp.andi
    (andi (cmpi .sge (colC ids) (broadcastInDim S409600x1 ![] bcast_S_S409600x1 (constantI S_ 32 0#32)))
      (cmpi .sle (colC ids)
        (broadcastInDim S409600x1 ![0, 1] bcast_S1x1_S409600x1_0_1 (broadcastInDim S1x1 ![1] bcast_S1_S1x1_1 (constantI S1 32 99999#32)))))
    (constantI S_ 1 1#1) reducesTo_S409600x1_S409600_d1 h_S_

/-- The row gather `x[ids]` of 409600 rows: row `i` of the result is row `ids i` of `x` where that index (wrapped) is in
    range, and a row of NaNs elsewhere. -/
def takeC (x : FVec F S100000x128 .f32) (ids : IVec S409600 32) : FVec F S409600x128 .f32 :=
  select (broadcastInDim S409600x128 ![0] bcast_S409600_S409600x128_0 (inRangeC ids))
    (Host.gather gather_S100000x128_S409600x1_S409600x128_1_0_n_n_0_1_1128 x (colC ids))
    (broadcastInDim S409600x128 ![] bcast_S_S409600x128 (constant S_ .f32 0x7FC00000#32))

/-- The 4096×10 neighbour indices as one list of 40960. -/
def flatA (n : IVec S4096x10 32) : IVec S40960 32 := shapeCast S40960 n shapeCasts_S4096x10_S40960

/-- The 40960×10 second-hop indices as one list of 409600. -/
def flatB (n : IVec S40960x10 32) : IVec S409600 32 := shapeCast S409600 n shapeCasts_S40960x10_S409600

/-- 40960 rows read as the 10 neighbours of each of 4096 rows. -/
def splitA (v : FVec F S40960x128 .f32) : FVec F S4096x10x128 .f32 := shapeCast S4096x10x128 v shapeCasts_S40960x128_S4096x10x128

/-- 409600 rows read as the 10 neighbours of each of 40960 rows. -/
def splitB (v : FVec F S409600x128 .f32) : FVec F S40960x10x128 .f32 := shapeCast S40960x10x128 v shapeCasts_S409600x128_S40960x10x128

/-- The 10 neighbours of each of 4096 rows read as 40960 rows. -/
def mergeA (v : FVec F S4096x10x128 .f32) : FVec F S40960x128 .f32 := shapeCast S40960x128 v shapeCasts_S4096x10x128_S40960x128

/-- `max(v, 0)` on a 4096×128 array. -/
def reluA (v : FVec F S4096x128 .f32) : FVec F S4096x128 .f32 :=
  maximumf v (broadcastInDim S4096x128 ![] bcast_S_S4096x128 (constant S_ .f32 0x00000000#32))

/-- `max(v, 0)` on a 4096×10×128 array. -/
def reluNA (v : FVec F S4096x10x128 .f32) : FVec F S4096x10x128 .f32 :=
  maximumf v (broadcastInDim S4096x10x128 ![] bcast_S_S4096x10x128 (constant S_ .f32 0x00000000#32))

/-- A bias vector repeated along the 4096 rows. -/
def biasA (b : FVec F S128 .f32) : FVec F S4096x128 .f32 :=
  broadcastInDim S4096x128 ![0, 1] bcast_S1x128_S4096x128_0_1 (broadcastInDim S1x128 ![1] bcast_S128_S1x128_1 b)

/-- A bias vector repeated along the 4096 rows and their 10 neighbours. -/
def biasNA (b : FVec F S128 .f32) : FVec F S4096x10x128 .f32 :=
  broadcastInDim S4096x10x128 ![0, 1, 2] bcast_S1x1x128_S4096x10x128_0_1_2 (broadcastInDim S1x1x128 ![2] bcast_S128_S1x1x128_2 b)

/-- The dense layer `relu(h · W + b)` on 4096 rows. -/
def denseA (h : FVec F S4096x128 .f32) (W : FVec F S128x128 .f32) (b : FVec F S128 .f32) : FVec F S4096x128 .f32 :=
  reluA (addf (Host.dotGeneral dot_S4096x128_S128x128_S4096x128_1_0_0_1_n_n none h W) (biasA b))

/-- The dense layer `relu(h · W + b)` on the 10 neighbours of each of 4096 rows. -/
def denseNA (h : FVec F S4096x10x128 .f32) (W : FVec F S128x128 .f32) (b : FVec F S128 .f32) : FVec F S4096x10x128 .f32 :=
  reluNA (addf (Host.dotGeneral dot_S4096x10x128_S128x128_S4096x10x128_2_0_01_1_n_n none h W) (biasNA b))

/-- The importance-weighted sum over the 10 neighbours: `Σ_t alpha[m, t] · e[m, t, :]`. -/
def aggA (alpha : FVec F S4096x10 .f32) (e : FVec F S4096x10x128 .f32) : FVec F S4096x128 .f32 :=
  Host.dotGeneral dot_S4096x10_S4096x10x128_S4096x128_1_1_n_2_0_0 none alpha e

/-- The output layer of a convolution: `relu([s | a] · Wo + bo)`, the two halves side by side. -/
def outA (s a : FVec F S4096x128 .f32) (Wo : FVec F S256x128 .f32) (bo : FVec F S128 .f32) : FVec F S4096x128 .f32 :=
  reluA (addf (Host.dotGeneral dot_S4096x256_S256x128_S4096x128_1_0_0_1_n_n none
      (concatenate S4096x256 1 [⟨S4096x128, s⟩, ⟨S4096x128, a⟩] concatenates_S4096x128_S4096x128_S4096x256_d1) Wo) (biasA bo))

/-- A convolution's embedding BEFORE its division by the norm, on 4096 rows: the node's dense layer, the neighbours' dense
    layer summed with the importances, both through the output layer. -/
def embedA (node : FVec F S4096x128 .f32) (neigh : FVec F S4096x10x128 .f32) (alpha : FVec F S4096x10 .f32)
    (Ws : FVec F S128x128 .f32) (bs : FVec F S128 .f32) (Wa : FVec F S128x128 .f32) (ba : FVec F S128 .f32)
    (Wo : FVec F S256x128 .f32) (bo : FVec F S128 .f32) : FVec F S4096x128 .f32 :=
  outA (denseA node Ws bs) (aggA alpha (denseNA neigh Wa ba)) Wo bo

/-- The sum of the squares of all 4096·128 elements. -/
def normSqA (e : FVec F S4096x128 .f32) : FVec F S_ .f32 :=
  Host.reduceAdd (mulf e e) (constant S_ .f32 0x00000000#32) reducesTo_S4096x128_S_d0_1 h_S_

/-- The global Euclidean norm `sqrt(Σ e·e)`, a scalar. -/
def normA (e : FVec F S4096x128 .f32) : FVec F S_ .f32 := Host.sqrt (normSqA e)

/-- The normalisation `e / ‖e‖`: every element divided by the one global norm. -/
def normalizeA (e : FVec F S4096x128 .f32) : FVec F S4096x128 .f32 :=
  Host.divf e (broadcastInDim S4096x128 ![] bcast_S_S4096x128 (normA e))

/-- `max(v, 0)` on a 40960×128 array. -/
def reluB (v : FVec F S40960x128 .f32) : FVec F S40960x128 .f32 :=
  maximumf v (broadcastInDim S40960x128 ![] bcast_S_S40960x128 (constant S_ .f32 0x00000000#32))

/-- `max(v, 0)` on a 40960×10×128 array. -/
def reluNB (v : FVec F S40960x10x128 .f32) : FVec F S40960x10x128 .f32 :=
  maximumf v (broadcastInDim S40960x10x128 ![] bcast_S_S40960x10x128 (constant S_ .f32 0x00000000#32))

/-- A bias vector repeated along the 40960 rows. -/
def biasB (b : FVec F S128 .f32) : FVec F S40960x128 .f32 :=
  broadcastInDim S40960x128 ![0, 1] bcast_S1x128_S40960x128_0_1 (broadcastInDim S1x128 ![1] bcast_S128_S1x128_1 b)

/-- A bias vector repeated along the 40960 rows and their 10 neighbours. -/
def biasNB (b : FVec F S128 .f32) : FVec F S40960x10x128 .f32 :=
  broadcastInDim S40960x10x128 ![0, 1, 2] bcast_S1x1x128_S40960x10x128_0_1_2 (broadcastInDim S1x1x128 ![2] bcast_S128_S1x1x128_2 b)

/-- The dense layer `relu(h · W + b)` on 40960 rows. -/
def denseB (h : FVec F S40960x128 .f32) (W : FVec F S128x128 .f32) (b : FVec F S128 .f32) : FVec F S40960x128 .f32 :=
  reluB (addf (Host.dotGeneral dot_S40960x128_S128x128_S40960x128_1_0_0_1_n_n none h W) (biasB b))

/-- The dense layer `relu(h · W + b)` on the 10 neighbours of each of 40960 rows. -/
def denseNB (h : FVec F S40960x10x128 .f32) (W : FVec F S128x128 .f32) (b : FVec F S128 .f32) : FVec F S40960x10x128 .f32 :=
  reluNB (addf (Host.dotGeneral dot_S40960x10x128_S128x128_S40960x10x128_2_0_01_1_n_n none h W) (biasNB b))

/-- The importance-weighted sum over the 10 neighbours: `Σ_t alpha[m, t] · e[m, t, :]`. -/
def aggB (alpha : FVec F S40960x10 .f32) (e : FVec F S40960x10x128 .f32) : FVec F S40960x128 .f32 :=
  Host.dotGeneral dot_S40960x10_S40960x10x128_S40960x128_1_1_n_2_0_0 none alpha e

/-- The output layer of a convolution: `relu([s | a] · Wo + bo)`, the two halves side by side. -/
def outB (s a : FVec F S40960x128 .f32) (Wo : FVec F S256x128 .f32) (bo : FVec F S128 .f32) : FVec F S40960x128 .f32 :=
  reluB (addf (Host.dotGeneral dot_S40960x256_S256x128_S40960x128_1_0_0_1_n_n none
      (concatenate S40960x256 1 [⟨S40960x128, s⟩, ⟨S40960x128, a⟩] concatenates_S40960x128_S40960x128_S40960x256_d1) Wo) (biasB bo))

/-- A convolution's embedding BEFORE its division by the norm, on 40960 rows: the node's dense layer, the neighbours' dense
    layer summed with the importances, both through the output layer. -/
def embedB (node : FVec F S40960x128 .f32) (neigh : FVec F S40960x10x128 .f32) (alpha : FVec F S40960x10 .f32)
    (Ws : FVec F S128x128 .f32) (bs : FVec F S128 .f32) (Wa : FVec F S128x128 .f32) (ba : FVec F S128 .f32)
    (Wo : FVec F S256x128 .f32) (bo : FVec F S128 .f32) : FVec F S40960x128 .f32 :=
  outB (denseB node Ws bs) (aggB alpha (denseNB neigh Wa ba)) Wo bo

/-- The sum of the squares of all 40960·128 elements. -/
def normSqB (e : FVec F S40960x128 .f32) : FVec F S_ .f32 :=
  Host.reduceAdd (mulf e e) (constant S_ .f32 0x00000000#32) reducesTo_S40960x128_S_d0_1 h_S_

/-- The global Euclidean norm `sqrt(Σ e·e)`, a scalar. -/
def normB (e : FVec F S40960x128 .f32) : FVec F S_ .f32 := Host.sqrt (normSqB e)

/-- The normalisation `e / ‖e‖`: every element divided by the one global norm. -/
def normalizeB (e : FVec F S40960x128 .f32) : FVec F S40960x128 .f32 :=
  Host.divf e (broadcastInDim S40960x128 ![] bcast_S_S40960x128 (normB e))

/-- The features of the 10 neighbours of each target: rows of `x` at the 4096×10 indices. -/
def n1Feat (x : FVec F S100000x128 .f32) (n1 : IVec S4096x10 32) : FVec F S4096x10x128 .f32 := splitA (takeB x (flatA n1))

/-- The features of the 10 neighbours of each of the 40960 first-hop neighbours. -/
def n2Feat (x : FVec F S100000x128 .f32) (n2 : IVec S40960x10 32) : FVec F S40960x10x128 .f32 := splitB (takeC x (flatB n2))

/-- Depth 1, the targets: their convolution over their neighbours' features, normalised. -/
def hT1 (x : FVec F S100000x128 .f32) (ids : IVec S4096 32) (n1 : IVec S4096x10 32) (a1 : FVec F S4096x10 .f32)
    (Ws1 : FVec F S128x128 .f32) (bs1 : FVec F S128 .f32) (Wa1 : FVec F S128x128 .f32) (ba1 : FVec F S128 .f32) (Wo1 : FVec F S256x128 .f32) (bo1 : FVec F S128 .f32) : FVec F S4096x128 .f32 :=
  normalizeA (embedA (takeA x ids) (n1Feat x n1) a1 Ws1 bs1 Wa1 ba1 Wo1 bo1)

/-- Depth 1, the first-hop neighbours: their convolution over the second-hop features (same weights), normalised. -/
def hN1 (x : FVec F S100000x128 .f32) (n1 : IVec S4096x10 32) (n2 : IVec S40960x10 32) (a2 : FVec F S40960x10 .f32)
    (Ws1 : FVec F S128x128 .f32) (bs1 : FVec F S128 .f32) (Wa1 : FVec F S128x128 .f32) (ba1 : FVec F S128 .f32) (Wo1 : FVec F S256x128 .f32) (bo1 : FVec F S128 .f32) : FVec F S40960x128 .f32 :=
  normalizeB (embedB (mergeA (n1Feat x n1)) (n2Feat x n2) a2 Ws1 bs1 Wa1 ba1 Wo1 bo1)

/-- Depth 0: the targets' convolution over the depth-1 embeddings of their neighbours, normalised. -/
def hT0 (x : FVec F S100000x128 .f32) (ids : IVec S4096 32) (n1 : IVec S4096x10 32) (a1 : FVec F S4096x10 .f32) (n2 : IVec S40960x10 32) (a2 : FVec F S40960x10 .f32)
    (Ws1 : FVec F S128x128 .f32) (bs1 : FVec F S128 .f32) (Wa1 : FVec F S128x128 .f32) (ba1 : FVec F S128 .f32) (Wo1 : FVec F S256x128 .f32) (bo1 : FVec F S128 .f32)
    (Ws0 : FVec F S128x128 .f32) (bs0 : FVec F S128 .f32) (Wa0 : FVec F S128x128 .f32) (ba0 : FVec F S128 .f32) (Wo0 : FVec F S256x128 .f32) (bo0 : FVec F S128 .f32) : FVec F S4096x128 .f32 :=
  normalizeA (embedA (hT1 x ids n1 a1 Ws1 bs1 Wa1 ba1 Wo1 bo1) (splitA (hN1 x n1 n2 a2 Ws1 bs1 Wa1 ba1 Wo1 bo1)) a1 Ws0 bs0 Wa0 ba0 Wo0 bo0)

/-- The reference's result: the final dense layer on the depth-0 embedding. Its arguments are the reference's twenty
    arrays in order: the feature table, the target indices, the first-hop indices and importances, the second-hop indices
    and importances, the six weights of depth 1, the six of depth 0, the two of the final layer. -/
def result (x : FVec F S100000x128 .f32) (ids : IVec S4096 32) (n1 : IVec S4096x10 32) (a1 : FVec F S4096x10 .f32) (n2 : IVec S40960x10 32) (a2 : FVec F S40960x10 .f32)
    (Ws1 : FVec F S128x128 .f32) (bs1 : FVec F S128 .f32) (Wa1 : FVec F S128x128 .f32) (ba1 : FVec F S128 .f32) (Wo1 : FVec F S256x128 .f32) (bo1 : FVec F S128 .f32)
    (Ws0 : FVec F S128x128 .f32) (bs0 : FVec F S128 .f32) (Wa0 : FVec F S128x128 .f32) (ba0 : FVec F S128 .f32) (Wo0 : FVec F S256x128 .f32) (bo0 : FVec F S128 .f32)
    (We : FVec F S128x128 .f32) (be : FVec F S128 .f32) : FVec F S4096x128 .f32 :=
  denseA (hT0 x ids n1 a1 n2 a2 Ws1 bs1 Wa1 ba1 Wo1 bo1 Ws0 bs0 Wa0 ba0 Wo0 bo0) We be

/-! ## Lines of operations that keep what they do not write -/

/-- A line of operations each of which touches TensorCore references only, allocates no buffer, and writes among the
    references `W`. -/
def Tame (W : List (Ref sig .tc)) (s : List (HloOp τ sig (Elt F))) : Prop :=
  ∀ op ∈ s, op.bufs ⊆ StableHlo.tcRefs τ sig ∧ op.fresh = ∅
    ∧ op.writes ⊆ (W.map (Proc.devRef (τ := τ) .tc)).toFinset

theorem Tame.nil {W : List (Ref sig .tc)} : Tame (F := F) W [] := fun _ h => nomatch h

theorem Tame.cons {W : List (Ref sig .tc)} {op : HloOp τ sig (Elt F)} {s : List (HloOp τ sig (Elt F))}
    (hb : op.bufs ⊆ StableHlo.tcRefs τ sig) (hf : op.fresh = ∅)
    (hw : op.writes ⊆ (W.map (Proc.devRef (τ := τ) .tc)).toFinset) (hs : Tame W s) : Tame W (op :: s) := by
  intro o ho
  rcases List.mem_cons.mp ho with rfl | h
  · exact ⟨hb, hf, hw⟩
  · exact hs o h

/-- Two such lines in a row are one, writing among both lists. -/
theorem Tame.append {W₁ W₂ : List (Ref sig .tc)} {s₁ s₂ : List (HloOp τ sig (Elt F))} (h₁ : Tame W₁ s₁) (h₂ : Tame W₂ s₂) :
    Tame (W₁ ++ W₂) (s₁ ++ s₂) := by
  intro op hop
  rcases List.mem_append.mp hop with h | h
  · obtain ⟨hb, hf, hw⟩ := h₁ op h
    refine ⟨hb, hf, Finset.Subset.trans hw ?_⟩
    intro x hx
    rw [List.map_append, List.toFinset_append]
    exact Finset.mem_union_left _ hx
  · obtain ⟨hb, hf, hw⟩ := h₂ op h
    refine ⟨hb, hf, Finset.Subset.trans hw ?_⟩
    intro x hx
    rw [List.map_append, List.toFinset_append]
    exact Finset.mem_union_right _ hx

theorem Tame.sub {W : List (Ref sig .tc)} {s : List (HloOp τ sig (Elt F))} (h : Tame W s) :
    s.Forall fun op => op.bufs ⊆ StableHlo.tcRefs τ sig :=
  List.forall_iff_forall_mem.2 fun op hop => (h op hop).1

theorem Tame.fresh {W : List (Ref sig .tc)} {s : List (HloOp τ sig (Elt F))} (h : Tame W s) : ∀ op ∈ s, op.fresh = ∅ :=
  fun op hop => (h op hop).2.1

/-- A reference the line does not write keeps its contents through it. -/
theorem Tame.keep {W : List (Ref sig .tc)} {s : List (HloOp τ sig (Elt F))} (h : Tame W s) (V : Valuation τ sig (Elt F))
    {r : Ref sig .tc} (hr : r ∉ W) : StableHlo.after s V (Proc.devRef .tc r) = V (Proc.devRef .tc r) :=
  StableHlo.after_of_writes_sub s V (List.forall_iff_forall_mem.2 fun op hop => (h op hop).2.2) hr

/-- The contents after two lines in a row: the second's, from the first's. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- One operation's result buffer is among the listed ones. -/
macro "writes_in" : tactic =>
  `(tactic| (simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.singleton_subset_iff, List.mem_toFinset]
             exact List.mem_map_of_mem (by decide)))

/-- One operation touches TensorCore references only. -/
macro "bufs_in" : tactic =>
  `(tactic| simp only [StableHlo.TRef.nullary, StableHlo.TRef.unary, StableHlo.TRef.binary, StableHlo.TRef.ternary,
      StableHlo.nullary_bufs_sub, StableHlo.unary_bufs_sub, StableHlo.binary_bufs_sub, StableHlo.ternary_bufs_sub,
      StableHlo.reshape_bufs_sub])

/-- `Tame W s` for a literal line `s` whose operations' result buffers are all listed in `W`. -/
macro "tame_line" : tactic =>
  `(tactic| (
    repeat refine Tame.cons (by bufs_in) rfl (by writes_in) ?_
    exact Tame.nil))

/-! ## What each stage writes, and that it keeps the rest -/

/-- The buffers the line `opsTakeA` writes. -/
def wTakeA : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v0]

/-- The buffers the line `opsFlatA` writes. -/
def wFlatA : List (Ref sig .tc) :=
  [main_v1]

/-- The buffers the line `opsTakeB` writes. -/
def wTakeB : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v2]

/-- The buffers the line `opsCastA` writes. -/
def wCastA : List (Ref sig .tc) :=
  [main_v3, main_v4]

/-- The buffers the line `opsTakeC` writes. -/
def wTakeC : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v5]

/-- The buffers the line `opsCastB` writes. -/
def wCastB : List (Ref sig .tc) :=
  [main_v6]

/-- The buffers the line `opsEmbA` writes. -/
def wEmbA : List (Ref sig .tc) :=
  [main_v7, main_v8, main_v9, main_v10, main_call3_cst, main_call3_v0, main_v11, main_v12, main_v13, main_v14,
   main_v15, main_call4_cst, main_call4_v0, main_v16, main_v17, main_v18, main_v19, main_v20, main_v21, main_v22,
   main_call5_cst, main_call5_v0, main_v23]

/-- The buffers the line `opsNormA` writes. -/
def wNormA : List (Ref sig .tc) :=
  [main_call6_v0, main_call6_cst, main_call6_v1, main_v24, main_v25, main_v26]

/-- The buffers the line `opsCastC` writes. -/
def wCastC : List (Ref sig .tc) :=
  [main_v27]

/-- The buffers the line `opsEmbB` writes. -/
def wEmbB : List (Ref sig .tc) :=
  [main_v28, main_v29, main_v30, main_v31, main_call7_cst, main_call7_v0, main_v32, main_v33, main_v34, main_v35,
   main_v36, main_call8_cst, main_call8_v0, main_v37, main_v38, main_v39, main_v40, main_v41, main_v42, main_v43,
   main_call9_cst, main_call9_v0, main_v44]

/-- The buffers the line `opsNormB` writes. -/
def wNormB : List (Ref sig .tc) :=
  [main_call10_v0, main_call10_cst, main_call10_v1, main_v45, main_v46, main_v47]

/-- The buffers the line `opsCastD` writes. -/
def wCastD : List (Ref sig .tc) :=
  [main_v48]

/-- The buffers the line `opsEmbC` writes. -/
def wEmbC : List (Ref sig .tc) :=
  [main_v49, main_v50, main_v51, main_v52, main_call11_cst, main_call11_v0, main_v53, main_v54, main_v55, main_v56,
   main_v57, main_call12_cst, main_call12_v0, main_v58, main_v59]

/-- The buffers the line `opsEmbD` writes. -/
def wEmbD : List (Ref sig .tc) :=
  [main_v60, main_v61, main_v62, main_v63, main_v64, main_call13_cst, main_call13_v0, main_v65]

/-- The buffers the line `opsNormC` writes. -/
def wNormC : List (Ref sig .tc) :=
  [main_call14_v0, main_call14_cst, main_call14_v1, main_v66, main_v67, main_v68]

/-- The buffers the line `opsDense` writes. -/
def wDense : List (Ref sig .tc) :=
  [main_v69, main_v70, main_v71, main_v72, main_call15_cst, main_call15_v0, main_v73]

set_option maxHeartbeats 2000000 in
theorem tameTakeA : Tame (F := F) wTakeA opsTakeA := by
  unfold opsTakeA
  tame_line

set_option maxHeartbeats 2000000 in
theorem tameFlatA : Tame (F := F) wFlatA opsFlatA := by
  unfold opsFlatA
  tame_line

set_option maxHeartbeats 2000000 in
theorem tameTakeB : Tame (F := F) wTakeB opsTakeB := by
  unfold opsTakeB
  tame_line

set_option maxHeartbeats 2000000 in
theorem tameCastA : Tame (F := F) wCastA opsCastA := by
  unfold opsCastA
  tame_line

set_option maxHeartbeats 2000000 in
theorem tameTakeC : Tame (F := F) wTakeC opsTakeC := by
  unfold opsTakeC
  tame_line

set_option maxHeartbeats 2000000 in
theorem tameCastB : Tame (F := F) wCastB opsCastB := by
  unfold opsCastB
  tame_line

set_option maxHeartbeats 2000000 in
theorem tameEmbA : Tame (F := F) wEmbA opsEmbA := by
  unfold opsEmbA
  tame_line

set_option maxHeartbeats 2000000 in
theorem tameNormA : Tame (F := F) wNormA opsNormA := by
  unfold opsNormA
  tame_line

set_option maxHeartbeats 2000000 in
theorem tameCastC : Tame (F := F) wCastC opsCastC := by
  unfold opsCastC
  tame_line

set_option maxHeartbeats 2000000 in
theorem tameEmbB : Tame (F := F) wEmbB opsEmbB := by
  unfold opsEmbB
  tame_line

set_option maxHeartbeats 2000000 in
theorem tameNormB : Tame (F := F) wNormB opsNormB := by
  unfold opsNormB
  tame_line

set_option maxHeartbeats 2000000 in
theorem tameCastD : Tame (F := F) wCastD opsCastD := by
  unfold opsCastD
  tame_line

set_option maxHeartbeats 2000000 in
theorem tameEmbC : Tame (F := F) wEmbC opsEmbC := by
  unfold opsEmbC
  tame_line

set_option maxHeartbeats 2000000 in
theorem tameEmbD : Tame (F := F) wEmbD opsEmbD := by
  unfold opsEmbD
  tame_line

set_option maxHeartbeats 2000000 in
theorem tameNormC : Tame (F := F) wNormC opsNormC := by
  unfold opsNormC
  tame_line

set_option maxHeartbeats 2000000 in
theorem tameDense : Tame (F := F) wDense opsDense := by
  unfold opsDense
  tame_line

theorem keepTakeA (V : Valuation τ sig (Elt F)) {r : Ref sig .tc} (h : r ∉ wTakeA) :
    StableHlo.after opsTakeA V (no_index (Proc.devRef .tc r)) = V (Proc.devRef .tc r) := tameTakeA.keep V h

theorem keepFlatA (V : Valuation τ sig (Elt F)) {r : Ref sig .tc} (h : r ∉ wFlatA) :
    StableHlo.after opsFlatA V (no_index (Proc.devRef .tc r)) = V (Proc.devRef .tc r) := tameFlatA.keep V h

theorem keepTakeB (V : Valuation τ sig (Elt F)) {r : Ref sig .tc} (h : r ∉ wTakeB) :
    StableHlo.after opsTakeB V (no_index (Proc.devRef .tc r)) = V (Proc.devRef .tc r) := tameTakeB.keep V h

theorem keepCastA (V : Valuation τ sig (Elt F)) {r : Ref sig .tc} (h : r ∉ wCastA) :
    StableHlo.after opsCastA V (no_index (Proc.devRef .tc r)) = V (Proc.devRef .tc r) := tameCastA.keep V h

theorem keepTakeC (V : Valuation τ sig (Elt F)) {r : Ref sig .tc} (h : r ∉ wTakeC) :
    StableHlo.after opsTakeC V (no_index (Proc.devRef .tc r)) = V (Proc.devRef .tc r) := tameTakeC.keep V h

theorem keepCastB (V : Valuation τ sig (Elt F)) {r : Ref sig .tc} (h : r ∉ wCastB) :
    StableHlo.after opsCastB V (no_index (Proc.devRef .tc r)) = V (Proc.devRef .tc r) := tameCastB.keep V h

theorem keepEmbA (V : Valuation τ sig (Elt F)) {r : Ref sig .tc} (h : r ∉ wEmbA) :
    StableHlo.after opsEmbA V (no_index (Proc.devRef .tc r)) = V (Proc.devRef .tc r) := tameEmbA.keep V h

theorem keepNormA (V : Valuation τ sig (Elt F)) {r : Ref sig .tc} (h : r ∉ wNormA) :
    StableHlo.after opsNormA V (no_index (Proc.devRef .tc r)) = V (Proc.devRef .tc r) := tameNormA.keep V h

theorem keepCastC (V : Valuation τ sig (Elt F)) {r : Ref sig .tc} (h : r ∉ wCastC) :
    StableHlo.after opsCastC V (no_index (Proc.devRef .tc r)) = V (Proc.devRef .tc r) := tameCastC.keep V h

theorem keepEmbB (V : Valuation τ sig (Elt F)) {r : Ref sig .tc} (h : r ∉ wEmbB) :
    StableHlo.after opsEmbB V (no_index (Proc.devRef .tc r)) = V (Proc.devRef .tc r) := tameEmbB.keep V h

theorem keepNormB (V : Valuation τ sig (Elt F)) {r : Ref sig .tc} (h : r ∉ wNormB) :
    StableHlo.after opsNormB V (no_index (Proc.devRef .tc r)) = V (Proc.devRef .tc r) := tameNormB.keep V h

theorem keepCastD (V : Valuation τ sig (Elt F)) {r : Ref sig .tc} (h : r ∉ wCastD) :
    StableHlo.after opsCastD V (no_index (Proc.devRef .tc r)) = V (Proc.devRef .tc r) := tameCastD.keep V h

theorem keepEmbC (V : Valuation τ sig (Elt F)) {r : Ref sig .tc} (h : r ∉ wEmbC) :
    StableHlo.after opsEmbC V (no_index (Proc.devRef .tc r)) = V (Proc.devRef .tc r) := tameEmbC.keep V h

theorem keepEmbD (V : Valuation τ sig (Elt F)) {r : Ref sig .tc} (h : r ∉ wEmbD) :
    StableHlo.after opsEmbD V (no_index (Proc.devRef .tc r)) = V (Proc.devRef .tc r) := tameEmbD.keep V h

theorem keepNormC (V : Valuation τ sig (Elt F)) {r : Ref sig .tc} (h : r ∉ wNormC) :
    StableHlo.after opsNormC V (no_index (Proc.devRef .tc r)) = V (Proc.devRef .tc r) := tameNormC.keep V h

theorem keepDense (V : Valuation τ sig (Elt F)) {r : Ref sig .tc} (h : r ∉ wDense) :
    StableHlo.after opsDense V (no_index (Proc.devRef .tc r)) = V (Proc.devRef .tc r) := tameDense.keep V h

/-! ## What each stage computes -/

-- the mask's fold and the gather are kept folded: their bodies walk every element of the operand
attribute [local irreducible] Host.reduce Host.gather in
set_option maxRecDepth 8192 in
theorem takeA_at (V : Valuation τ sig (Elt F)) :
    StableHlo.after opsTakeA V (no_index (Proc.devRef .tc main_v0)) = takeA (V (Proc.devRef .tc main_arg0)) (V (Proc.devRef .tc main_arg1)) := by
  simp only [opsTakeA]
  after_results_simp
  rfl

set_option maxRecDepth 8192 in
theorem flatA_at (V : Valuation τ sig (Elt F)) :
    StableHlo.after opsFlatA V (no_index (Proc.devRef .tc main_v1)) = flatA (V (Proc.devRef .tc main_arg2)) := by
  simp only [opsFlatA]
  after_results_simp
  rfl

-- the mask's fold and the gather are kept folded: their bodies walk every element of the operand
attribute [local irreducible] Host.reduce Host.gather in
set_option maxRecDepth 8192 in
theorem takeB_at (V : Valuation τ sig (Elt F)) :
    StableHlo.after opsTakeB V (no_index (Proc.devRef .tc main_v2)) = takeB (V (Proc.devRef .tc main_arg0)) (V (Proc.devRef .tc main_v1)) := by
  simp only [opsTakeB]
  after_results_simp
  rfl

set_option maxRecDepth 8192 in
theorem castA_v3 (V : Valuation τ sig (Elt F)) :
    StableHlo.after opsCastA V (no_index (Proc.devRef .tc main_v3)) = splitA (V (Proc.devRef .tc main_v2)) := by
  simp only [opsCastA]
  after_results_simp
  rfl

set_option maxRecDepth 8192 in
theorem castA_v4 (V : Valuation τ sig (Elt F)) :
    StableHlo.after opsCastA V (no_index (Proc.devRef .tc main_v4)) = flatB (V (Proc.devRef .tc main_arg4)) := by
  simp only [opsCastA]
  after_results_simp
  rfl

-- the mask's fold and the gather are kept folded: their bodies walk every element of the operand
attribute [local irreducible] Host.reduce Host.gather in
set_option maxRecDepth 8192 in
theorem takeC_at (V : Valuation τ sig (Elt F)) :
    StableHlo.after opsTakeC V (no_index (Proc.devRef .tc main_v5)) = takeC (V (Proc.devRef .tc main_arg0)) (V (Proc.devRef .tc main_v4)) := by
  simp only [opsTakeC]
  after_results_simp
  rfl

set_option maxRecDepth 8192 in
theorem castB_at (V : Valuation τ sig (Elt F)) :
    StableHlo.after opsCastB V (no_index (Proc.devRef .tc main_v6)) = splitB (V (Proc.devRef .tc main_v5)) := by
  simp only [opsCastB]
  after_results_simp
  rfl

set_option maxRecDepth 8192 in
theorem embA_at (V : Valuation τ sig (Elt F)) :
    StableHlo.after opsEmbA V (no_index (Proc.devRef .tc main_v23)) = embedA (V (Proc.devRef .tc main_v0)) (V (Proc.devRef .tc main_v3)) (V (Proc.devRef .tc main_arg3)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  simp only [opsEmbA]
  after_results
  rfl

set_option maxRecDepth 8192 in
theorem normA_at (V : Valuation τ sig (Elt F)) :
    StableHlo.after opsNormA V (no_index (Proc.devRef .tc main_v26)) = normalizeA (V (Proc.devRef .tc main_v23)) := by
  simp only [opsNormA]
  after_results_simp
  rfl

set_option maxRecDepth 8192 in
theorem castC_at (V : Valuation τ sig (Elt F)) :
    StableHlo.after opsCastC V (no_index (Proc.devRef .tc main_v27)) = mergeA (V (Proc.devRef .tc main_v3)) := by
  simp only [opsCastC]
  after_results_simp
  rfl

set_option maxRecDepth 8192 in
theorem embB_at (V : Valuation τ sig (Elt F)) :
    StableHlo.after opsEmbB V (no_index (Proc.devRef .tc main_v44)) = embedB (V (Proc.devRef .tc main_v27)) (V (Proc.devRef .tc main_v6)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  simp only [opsEmbB]
  after_results
  rfl

set_option maxRecDepth 8192 in
theorem normB_at (V : Valuation τ sig (Elt F)) :
    StableHlo.after opsNormB V (no_index (Proc.devRef .tc main_v47)) = normalizeB (V (Proc.devRef .tc main_v44)) := by
  simp only [opsNormB]
  after_results_simp
  rfl

set_option maxRecDepth 8192 in
theorem castD_at (V : Valuation τ sig (Elt F)) :
    StableHlo.after opsCastD V (no_index (Proc.devRef .tc main_v48)) = splitA (V (Proc.devRef .tc main_v47)) := by
  simp only [opsCastD]
  after_results_simp
  rfl

set_option maxRecDepth 8192 in
theorem embC_v53 (V : Valuation τ sig (Elt F)) :
    StableHlo.after opsEmbC V (no_index (Proc.devRef .tc main_v53)) = denseA (V (Proc.devRef .tc main_v26)) (V (Proc.devRef .tc main_arg12)) (V (Proc.devRef .tc main_arg13)) := by
  simp only [opsEmbC]
  after_results_simp
  rfl

set_option maxRecDepth 8192 in
theorem embC_v59 (V : Valuation τ sig (Elt F)) :
    StableHlo.after opsEmbC V (no_index (Proc.devRef .tc main_v59)) = aggA (V (Proc.devRef .tc main_arg3)) (denseNA (V (Proc.devRef .tc main_v48)) (V (Proc.devRef .tc main_arg14)) (V (Proc.devRef .tc main_arg15))) := by
  simp only [opsEmbC]
  after_results_simp
  rfl

set_option maxRecDepth 8192 in
theorem embD_at (V : Valuation τ sig (Elt F)) :
    StableHlo.after opsEmbD V (no_index (Proc.devRef .tc main_v65)) = outA (V (Proc.devRef .tc main_v53)) (V (Proc.devRef .tc main_v59)) (V (Proc.devRef .tc main_arg16)) (V (Proc.devRef .tc main_arg17)) := by
  simp only [opsEmbD]
  after_results_simp
  rfl

set_option maxRecDepth 8192 in
theorem normC_at (V : Valuation τ sig (Elt F)) :
    StableHlo.after opsNormC V (no_index (Proc.devRef .tc main_v68)) = normalizeA (V (Proc.devRef .tc main_v65)) := by
  simp only [opsNormC]
  after_results_simp
  rfl

set_option maxRecDepth 8192 in
theorem dense_at (V : Valuation τ sig (Elt F)) :
    StableHlo.after opsDense V (no_index (Proc.devRef .tc main_v73)) = denseA (V (Proc.devRef .tc main_v68)) (V (Proc.devRef .tc main_arg18)) (V (Proc.devRef .tc main_arg19)) := by
  simp only [opsDense]
  after_results_simp
  rfl

/-! ## The whole line -/

/-- @main's first window: the gathers, both depth-1 convolutions, and the depth-0 convolution up to its weighted sum. -/
def opsA : List (HloOp τ sig (Elt F)) :=
  opsTakeA ++ opsFlatA ++ opsTakeB ++ opsCastA ++ opsTakeC ++ opsCastB ++ opsEmbA ++ opsNormA ++ opsCastC ++ opsEmbB ++ opsNormB
    ++ opsCastD ++ opsEmbC

/-- @main's second window: the rest. -/
def opsB : List (HloOp τ sig (Elt F)) := opsEmbD ++ opsNormC ++ opsDense

/-- @main's 169 operations, in order. -/
def ops : List (HloOp τ sig (Elt F)) := opsA ++ opsB

def wA : List (Ref sig .tc) :=
  wTakeA ++ wFlatA ++ wTakeB ++ wCastA ++ wTakeC ++ wCastB ++ wEmbA ++ wNormA ++ wCastC ++ wEmbB ++ wNormB ++ wCastD ++ wEmbC

def wB : List (Ref sig .tc) := wEmbD ++ wNormC ++ wDense

/-- Every buffer the line writes: all but the twenty arguments. -/
def wAll : List (Ref sig .tc) := wA ++ wB

theorem tameA : Tame (F := F) wA opsA :=
  ((((((((((((tameTakeA.append tameFlatA).append tameTakeB).append tameCastA).append tameTakeC).append tameCastB).append tameEmbA).append
    tameNormA).append tameCastC).append tameEmbB).append tameNormB).append tameCastD).append tameEmbC)

theorem tameB : Tame (F := F) wB opsB := (tameEmbD.append tameNormC).append tameDense

theorem tame_ops : Tame (F := F) wAll ops := tameA.append tameB

/-- The contents after the whole line: the stages' in turn. -/
theorem after_ops (V : Valuation τ sig (Elt F)) : StableHlo.after ops V =
    StableHlo.after opsDense (StableHlo.after opsNormC (StableHlo.after opsEmbD (StableHlo.after opsEmbC (StableHlo.after opsCastD
      (StableHlo.after opsNormB (StableHlo.after opsEmbB (StableHlo.after opsCastC (StableHlo.after opsNormA (StableHlo.after opsEmbA
        (StableHlo.after opsCastB (StableHlo.after opsTakeC (StableHlo.after opsCastA (StableHlo.after opsTakeB (StableHlo.after opsFlatA
          (StableHlo.after opsTakeA V))))))))))))))) := by
  simp only [ops, opsA, opsB, after_app]

/-- After the whole line the result buffer holds `result` of the argument buffers' contents. -/
theorem ops_result (V : Valuation τ sig (Elt F)) :
    StableHlo.after ops V (Proc.devRef .tc main_v73)
      = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_ops]
  simp (disch := decide) only [keepTakeA, keepFlatA, keepTakeB, keepCastA, keepTakeC, keepCastB, keepEmbA, keepNormA, keepCastC, keepEmbB, keepNormB, keepCastD, keepEmbC, keepEmbD, keepNormC, keepDense,
    takeA_at, flatA_at, takeB_at, castA_v3, castA_v4, takeC_at, castB_at, embA_at, normA_at, castC_at, embB_at, normB_at, castD_at,
    embC_v53, embC_v59, embD_at, normC_at, dense_at]
  rfl

/-! ## The run -/

set_option maxRecDepth 8192 in
set_option maxHeartbeats 4000000 in
/-- @main's first window is the straight line `opsA`: the calls unfolded at their sites, sequencing reassociated. -/
theorem part0_eq (c : Dev nD) : main_part0 (F := F) c = StableHlo.seq opsA := by
  simp only [main_part0, fn_take.body, fn_where.body, fn_take_0.body, fn_where_1.body, fn_take_2.body, fn_where_3.body, fn_relu.body,
    fn_relu_4.body, fn_norm.body, fn_relu_5.body, fn_relu_6.body, fn_norm_7.body, opsA, opsTakeA, opsFlatA, opsTakeB, opsCastA, opsTakeC,
    opsCastB, opsEmbA, opsNormA, opsCastC, opsEmbB, opsNormB, opsCastD, opsEmbC, StableHlo.seq_append, StableHlo.seq, bind_assoc, pure_bind]
  <;> rfl

set_option maxRecDepth 8192 in
set_option maxHeartbeats 4000000 in
/-- @main's second window is the straight line `opsB`. -/
theorem part1_eq (c : Dev nD) : main_part1 (F := F) c = StableHlo.seq opsB := by
  simp only [main_part1, fn_relu.body, fn_norm.body, opsB, opsEmbD, opsNormC, opsDense, StableHlo.seq_append, StableHlo.seq, bind_assoc,
    pure_bind]
  <;> rfl

theorem main_eq (c : Dev nD) : main (F := F) c = StableHlo.seq ops := by
  rw [show (ops : List (HloOp τ sig (Elt F))) = opsA ++ opsB from rfl, StableHlo.seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at `result` of the twenty arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v73)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v73).trans (ops_result _),
      (h c main_arg0).trans (tame_ops.keep _ (by decide)),
      (h c main_arg1).trans (tame_ops.keep _ (by decide)),
      (h c main_arg2).trans (tame_ops.keep _ (by decide)),
      (h c main_arg3).trans (tame_ops.keep _ (by decide)),
      (h c main_arg4).trans (tame_ops.keep _ (by decide)),
      (h c main_arg5).trans (tame_ops.keep _ (by decide)),
      (h c main_arg6).trans (tame_ops.keep _ (by decide)),
      (h c main_arg7).trans (tame_ops.keep _ (by decide)),
      (h c main_arg8).trans (tame_ops.keep _ (by decide)),
      (h c main_arg9).trans (tame_ops.keep _ (by decide)),
      (h c main_arg10).trans (tame_ops.keep _ (by decide)),
      (h c main_arg11).trans (tame_ops.keep _ (by decide)),
      (h c main_arg12).trans (tame_ops.keep _ (by decide)),
      (h c main_arg13).trans (tame_ops.keep _ (by decide)),
      (h c main_arg14).trans (tame_ops.keep _ (by decide)),
      (h c main_arg15).trans (tame_ops.keep _ (by decide)),
      (h c main_arg16).trans (tame_ops.keep _ (by decide)),
      (h c main_arg17).trans (tame_ops.keep _ (by decide)),
      (h c main_arg18).trans (tame_ops.keep _ (by decide)),
      (h c main_arg19).trans (tame_ops.keep _ (by decide))⟩)
    (StableHlo.run_seq scopedRefs_eq scopedSems_eq defs main (fun _ => ops) main_eq (fun _ => tame_ops.sub) m ρ (fun _ => tame_ops.fresh))

/-- The reference runs, and leaves its arguments as they were. -/
theorem frame : Cert.frame_ReferenceIdeal := fun m g _ =>
  (θ_run _ _ _).mono (fun _ h c => (h c).2) (run (F := Ideal) m g)

end Cert.ReferenceIdeal.RefRun

end
-- ==== Proof.Spec.lean ====
import Idealize.ShloMosaic.PureOps.Ideal
import Mathlib.Data.EReal.Inv
import Mathlib.Algebra.BigOperators.Fin

/-!
  The mathematics of the two-layer graph convolution, as functions of the argument arrays,
  entry by entry over the extended reals.

  Two forms are written down.  The REFERENCE form follows the textbook layer: embed a node and
  its ten neighbours by two dense relu layers, take the importance-weighted sum of the
  neighbour embeddings, concatenate, apply a third dense relu layer, and divide by the
  Euclidean norm of the whole embedding matrix.  The REARRANGED form pushes the third layer's
  matrix through the weighted sum (so that it is applied once per node of the feature table
  rather than once per gathered row) and carries the norms of the first level as scalar
  factors into the second level instead of dividing the first-level embeddings.

  No program is mentioned here: only sums, products, max, the quotient `Ideal.div` and the root
  `Ideal.sqrt` of the extended reals.
-/

noncomputable section

namespace Cert.Spec

open Idealize.ShloMosaic
open scoped BigOperators

/-! ### Index bookkeeping -/

/-- The first half of the 256 concatenated features: feature 'k' of the node's own embedding. -/
def lo (k : Fin 128) : Fin 256 := ⟨k.val, by have := k.isLt; omega⟩

/-- The second half of the 256 concatenated features: feature 'k' of the aggregated embedding. -/
def hi (k : Fin 128) : Fin 256 := ⟨128 + k.val, by have := k.isLt; omega⟩

/-- Row '10 r + t' of the flattened one-hop table: neighbour 't' of target 'r'. -/
def flat (r : Fin 4096) (t : Fin 10) : Fin 40960 :=
  ⟨10 * r.val + t.val, by have := r.isLt; have := t.isLt; omega⟩

/-- The target a flattened one-hop row belongs to. -/
def rowOf (e : Fin 40960) : Fin 4096 := ⟨e.val / 10, by have := e.isLt; omega⟩

/-- The neighbour slot of a flattened one-hop row. -/
def colOf (e : Fin 40960) : Fin 10 := ⟨e.val % 10, by omega⟩

@[simp] theorem lo_val (k : Fin 128) : (lo k).val = k.val := rfl
@[simp] theorem hi_val (k : Fin 128) : (hi k).val = 128 + k.val := rfl
@[simp] theorem flat_val (r : Fin 4096) (t : Fin 10) : (flat r t).val = 10 * r.val + t.val := rfl
@[simp] theorem rowOf_val (e : Fin 40960) : (rowOf e).val = e.val / 10 := rfl
@[simp] theorem colOf_val (e : Fin 40960) : (colOf e).val = e.val % 10 := rfl

@[simp] theorem rowOf_flat (r : Fin 4096) (t : Fin 10) : rowOf (flat r t) = r := by
  apply Fin.ext; have := t.isLt; simp only [rowOf_val, flat_val]; omega

@[simp] theorem colOf_flat (r : Fin 4096) (t : Fin 10) : colOf (flat r t) = t := by
  apply Fin.ext; have := t.isLt; simp only [colOf_val, flat_val]; omega

@[simp] theorem flat_rowOf_colOf (e : Fin 40960) : flat (rowOf e) (colOf e) = e := by
  apply Fin.ext; simp only [flat_val, rowOf_val, colOf_val]; omega

/-- A sum over the 256 concatenated features is the sum over the two halves. -/
theorem sum256_split {M : Type} [AddCommMonoid M] (f : Fin 256 → M) :
    ∑ k, f k = (∑ k, f (lo k)) + ∑ k, f (hi k) :=
  Fin.sum_univ_add (a := 128) (b := 128) f

/-! ### The arguments -/

/-- The twenty argument arrays: the feature table, the three index arrays, the two importance
    arrays, and the weights and biases of the two convolution layers and the final layer. -/
structure Inp where
  X : Fin 100000 → Fin 128 → EReal
  ids : Fin 4096 → Fin 100000
  n1 : Fin 4096 → Fin 10 → Fin 100000
  a1 : Fin 4096 → Fin 10 → EReal
  n2 : Fin 40960 → Fin 10 → Fin 100000
  a2 : Fin 40960 → Fin 10 → EReal
  Ws1 : Fin 128 → Fin 128 → EReal
  bs1 : Fin 128 → EReal
  Wa1 : Fin 128 → Fin 128 → EReal
  ba1 : Fin 128 → EReal
  Wo1 : Fin 256 → Fin 128 → EReal
  bo1 : Fin 128 → EReal
  Ws0 : Fin 128 → Fin 128 → EReal
  bs0 : Fin 128 → EReal
  Wa0 : Fin 128 → Fin 128 → EReal
  ba0 : Fin 128 → EReal
  Wo0 : Fin 256 → Fin 128 → EReal
  bo0 : Fin 128 → EReal
  Wemb : Fin 128 → Fin 128 → EReal
  bemb : Fin 128 → EReal

/-- Every float argument entry is a real number (neither infinity). -/
structure Inp.Real (I : Inp) : Prop where
  X : ∀ i j, ∃ x : ℝ, I.X i j = (x : EReal)
  a1 : ∀ i j, ∃ x : ℝ, I.a1 i j = (x : EReal)
  a2 : ∀ i j, ∃ x : ℝ, I.a2 i j = (x : EReal)
  Ws1 : ∀ i j, ∃ x : ℝ, I.Ws1 i j = (x : EReal)
  bs1 : ∀ i, ∃ x : ℝ, I.bs1 i = (x : EReal)
  Wa1 : ∀ i j, ∃ x : ℝ, I.Wa1 i j = (x : EReal)
  ba1 : ∀ i, ∃ x : ℝ, I.ba1 i = (x : EReal)
  Wo1 : ∀ i j, ∃ x : ℝ, I.Wo1 i j = (x : EReal)
  bo1 : ∀ i, ∃ x : ℝ, I.bo1 i = (x : EReal)
  Ws0 : ∀ i j, ∃ x : ℝ, I.Ws0 i j = (x : EReal)
  bs0 : ∀ i, ∃ x : ℝ, I.bs0 i = (x : EReal)
  Wa0 : ∀ i j, ∃ x : ℝ, I.Wa0 i j = (x : EReal)
  ba0 : ∀ i, ∃ x : ℝ, I.ba0 i = (x : EReal)
  Wo0 : ∀ i j, ∃ x : ℝ, I.Wo0 i j = (x : EReal)
  bo0 : ∀ i, ∃ x : ℝ, I.bo0 i = (x : EReal)
  Wemb : ∀ i j, ∃ x : ℝ, I.Wemb i j = (x : EReal)
  bemb : ∀ i, ∃ x : ℝ, I.bemb i = (x : EReal)

/-- An extended real whose absolute value is below '+∞' is a real number. -/
theorem exists_real_of_abs_lt_top {x : EReal} (h : max x (-x) < ⊤) : ∃ r : ℝ, x = (r : EReal) := by
  induction x using EReal.rec with
  | bot => simp at h
  | coe r => exact ⟨r, rfl⟩
  | top => simp at h

/-! ### Building blocks -/

/-- The rectifier. -/
def relu (z : EReal) : EReal := max z 0

theorem relu_def (z : EReal) : relu z = max z 0 := rfl

/-- One feature of a dense relu layer applied to a feature vector. -/
def dense (v : Fin 128 → EReal) (W : Fin 128 → Fin 128 → EReal) (b : Fin 128 → EReal)
    (k : Fin 128) : EReal :=
  relu ((∑ d, v d * W d k) + b k)

/-- One convolution layer before its normalisation: the node's dense embedding and the
    importance-weighted sum of its neighbours' dense embeddings, concatenated (the 256-sum is
    written as its two halves), through a third dense relu layer. -/
def conv {ρ : Type} (node : ρ → Fin 128 → EReal) (neigh : ρ → Fin 10 → Fin 128 → EReal)
    (α : ρ → Fin 10 → EReal)
    (Ws : Fin 128 → Fin 128 → EReal) (bs : Fin 128 → EReal)
    (Wa : Fin 128 → Fin 128 → EReal) (ba : Fin 128 → EReal)
    (Wo : Fin 256 → Fin 128 → EReal) (bo : Fin 128 → EReal) (r : ρ) (u : Fin 128) : EReal :=
  relu (((∑ k, dense (node r) Ws bs k * Wo (lo k) u)
          + ∑ k, (∑ t, α r t * dense (neigh r t) Wa ba k) * Wo (hi k) u)
        + bo u)

/-- The sum of the squares of all entries of a matrix with 128 columns. -/
def sumsq {ρ : Type} [Fintype ρ] (E : ρ → Fin 128 → EReal) : EReal := ∑ r, ∑ u, E r u * E r u

/-- The Euclidean norm of a matrix with 128 columns, all entries together. -/
def nrm {ρ : Type} [Fintype ρ] (E : ρ → Fin 128 → EReal) : EReal := Ideal.sqrt (sumsq E)

/-- A start value and ten terms added one after the other, in order. -/
def acc10 (s : EReal) (f : Fin 10 → EReal) : EReal :=
  s + f 0 + f 1 + f 2 + f 3 + f 4 + f 5 + f 6 + f 7 + f 8 + f 9

/-- Adding ten terms one after the other is adding their sum. -/
theorem acc10_eq_add_sum (s : EReal) (f : Fin 10 → EReal) : acc10 s f = s + ∑ t, f t := by
  have e : ∑ t, f t
      = f 0 + (f 1 + (f 2 + (f 3 + (f 4 + (f 5 + (f 6 + (f 7 + (f 8 + f 9)))))))) := by
    simp only [Fin.sum_univ_succ, Fin.sum_univ_zero, add_zero]; rfl
  rw [e]; simp only [acc10, add_assoc]

theorem acc10_zero (f : Fin 10 → EReal) : acc10 0 f = ∑ t, f t := by
  rw [acc10_eq_add_sum, zero_add]

/-! ### The reference form -/

/-- The node a flattened one-hop row stands for. -/
def n1flat (I : Inp) (e : Fin 40960) : Fin 100000 := I.n1 (rowOf e) (colOf e)

@[simp] theorem n1flat_flat (I : Inp) (r : Fin 4096) (t : Fin 10) : n1flat I (flat r t) = I.n1 r t := by
  simp only [n1flat, rowOf_flat, colOf_flat]

/-- Level-one embedding of the targets, before normalisation. -/
def E1T (I : Inp) : Fin 4096 → Fin 128 → EReal :=
  conv (fun r => I.X (I.ids r)) (fun r t => I.X (I.n1 r t)) I.a1
    I.Ws1 I.bs1 I.Wa1 I.ba1 I.Wo1 I.bo1

/-- Level-one embedding of the one-hop neighbours, before normalisation. -/
def E1N (I : Inp) : Fin 40960 → Fin 128 → EReal :=
  conv (fun e => I.X (n1flat I e)) (fun e t => I.X (I.n2 e t)) I.a2
    I.Ws1 I.bs1 I.Wa1 I.ba1 I.Wo1 I.bo1

/-- Normalised level-one embedding of the targets. -/
def H1T (I : Inp) (r : Fin 4096) (u : Fin 128) : EReal := Ideal.div (E1T I r u) (nrm (E1T I))

/-- Normalised level-one embedding of the one-hop neighbours. -/
def H1N (I : Inp) (e : Fin 40960) (u : Fin 128) : EReal := Ideal.div (E1N I e u) (nrm (E1N I))

/-- Level-zero embedding of the targets, before normalisation. -/
def E0 (I : Inp) : Fin 4096 → Fin 128 → EReal :=
  conv (H1T I) (fun r t => H1N I (flat r t)) I.a1 I.Ws0 I.bs0 I.Wa0 I.ba0 I.Wo0 I.bo0

/-- Normalised level-zero embedding. -/
def H0 (I : Inp) (r : Fin 4096) (u : Fin 128) : EReal := Ideal.div (E0 I r u) (nrm (E0 I))

/-- The reference's result: the final dense relu layer on the normalised level-zero embedding. -/
def OUTref (I : Inp) (r : Fin 4096) (u : Fin 128) : EReal :=
  relu ((∑ k, H0 I r k * I.Wemb k u) + I.bemb u)

/-- The three norms the reference divides by are positive. -/
structure Inp.Pos (I : Inp) : Prop where
  t : 0 < nrm (E1T I)
  n : 0 < nrm (E1N I)
  z : 0 < nrm (E0 I)

/-! ### The rearranged form -/

/-- The node's own dense embedding already multiplied into the first half of the output matrix,
    for every row of the feature table. -/
def Sp (I : Inp) (n : Fin 100000) (u : Fin 128) : EReal :=
  ∑ k, dense (I.X n) I.Ws1 I.bs1 k * I.Wo1 (lo k) u

/-- The neighbour dense embedding already multiplied into the second half of the output matrix,
    for every row of the feature table. -/
def Ap (I : Inp) (n : Fin 100000) (u : Fin 128) : EReal :=
  ∑ k, dense (I.X n) I.Wa1 I.ba1 k * I.Wo1 (hi k) u

/-- Level one for the targets: own part plus bias, then the ten weighted neighbour parts added
    in order, rectified; not normalised. -/
def K1T (I : Inp) (r : Fin 4096) (u : Fin 128) : EReal :=
  relu (acc10 (Sp I (I.ids r) u + I.bo1 u) (fun t => I.a1 r t * Ap I (I.n1 r t) u))

/-- Level one for the one-hop neighbours, likewise. -/
def K1N (I : Inp) (e : Fin 40960) (u : Fin 128) : EReal :=
  relu (acc10 (Sp I (n1flat I e) u + I.bo1 u) (fun t => I.a2 e t * Ap I (I.n2 e t) u))

def sqT (I : Inp) : EReal := sumsq (K1T I)
def sqN (I : Inp) : EReal := sumsq (K1N I)
def nu1 (I : Inp) : EReal := Ideal.sqrt (sqT I)
def nu2 (I : Inp) : EReal := Ideal.sqrt (sqN I)

/-- Level zero, own dense layer on the unnormalised level one, the bias scaled by the norm. -/
def ZT (I : Inp) (r : Fin 4096) (k : Fin 128) : EReal :=
  relu ((∑ d, K1T I r d * I.Ws0 d k) + nu1 I * I.bs0 k)

/-- Level zero, neighbour dense layer on the unnormalised level one, the bias scaled by the norm. -/
def ZN (I : Inp) (r : Fin 4096) (t : Fin 10) (k : Fin 128) : EReal :=
  relu ((∑ d, K1N I (flat r t) d * I.Wa0 d k) + nu2 I * I.ba0 k)

/-- Level zero, the importance-weighted sum of the neighbour dense embeddings. -/
def AGG (I : Inp) (r : Fin 4096) (k : Fin 128) : EReal := ∑ t, I.a1 r t * ZN I r t k

/-- Level zero before the rectifier: the two halves of the output layer, each divided by the
    norm its inputs were not divided by, plus the bias. -/
def PRE (I : Inp) (r : Fin 4096) (u : Fin 128) : EReal :=
  Ideal.div (∑ k, ZT I r k * I.Wo0 (lo k) u) (nu1 I)
    + Ideal.div (∑ k, AGG I r k * I.Wo0 (hi k) u) (nu2 I)
    + I.bo0 u

/-- Level zero, not normalised. -/
def K0 (I : Inp) (r : Fin 4096) (u : Fin 128) : EReal := relu (PRE I r u)

def sq0 (I : Inp) : EReal := sumsq (K0 I)
def nu0 (I : Inp) : EReal := Ideal.sqrt (sq0 I)

/-- The rearranged result: the final dense relu layer on the unnormalised level zero with the
    bias scaled by the norm, times the reciprocal of the norm. -/
def OUTker (I : Inp) (r : Fin 4096) (u : Fin 128) : EReal :=
  relu ((∑ k, K0 I r k * I.Wemb k u) + nu0 I * I.bemb u) * Ideal.div 1 (nu0 I)

end Cert.Spec

end
-- ==== Proof.PreBridgeOps.lean ====
import proofs.«213116_g69346541961480_cont_9to1_m_612_34_alg».proof.Proof.PreDecode
import proofs.«213116_g69346541961480_cont_9to1_m_612_34_alg».proof.Proof.Spec
import Idealize.ShloMosaic.Lib.ValueIdx
import Idealize.ShloMosaic.Lib.IdealHost
import Idealize.ShloMosaic.Lib.StackMember
import Idealize.ShloMosaic.Lib.Pipeline.Value
import Idealize.ShloMosaic.PureOps.Ideal.Laws

/-!
  The array operations of one graph-convolution layer, read at an index of the result at the
  extended reals: a matrix product is the sum over the contracted coordinate, a bias broadcast
  along the rows is the bias at the column, the rectifier is the maximum with zero, the
  concatenation of two 128-column blocks followed by a product with a 256-row matrix is the sum
  of the two 128-term products, and the weighted sum over the ten neighbours is a sum over the
  neighbour coordinate.  Together: the layer's embedding at row `r`, column `u` is the
  convolution formula of the operands' entries.
-/

noncomputable section

namespace Cert.PreBridge

open Idealize.ShloMosaic Idealize.ShloMosaic.ValueIdx
open scoped BigOperators

/-! ### Matrix products at an index -/

section Dots
variable {M T K N : Nat} {φ₁ φ₂ : FTy}

/-- A product of an `M × K` by a `K × N` matrix at `(a, b)`. -/
theorem dot_plain_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims _ _ _) prec A B (ix2 a b)
      = ∑ c : Fin K, A (ix2 a c) * B (ix2 c b) :=
  StackMember.dotGeneral_plain_apply prec A B a b

/-- A stack of `M × T` rows of length `K`, each multiplied by one `K × N` matrix, at `(r, t, n)`. -/
theorem dot_rows3_apply
    (w : DotDims.WF ⟨3, ![M, T, K]⟩ ⟨2, ![K, N]⟩ ⟨3, ![M, T, N]⟩ [2] [0] [0, 1] [1] [] [])
    (prec : Option ContractPrecision) (A : FVec Ideal ⟨3, ![M, T, K]⟩ φ₁) (B : FVec Ideal ⟨2, ![K, N]⟩ φ₂)
    (r : Fin M) (t : Fin T) (n : Fin N) :
    Host.dotGeneral (⟨[2], [0], [0, 1], [1], [], [], w⟩ : DotDims _ _ _) prec A B (ix3 r t n)
      = ∑ c : Fin K, A (ix3 r t c) * B (ix2 c n) := by
  show FloatOps.dotGeneral _ prec _ A B (ix3 r t n) = _
  rw [Ideal.dotGeneral_apply,
    ← Equiv.sum_comp (contrEquiv1 (⟨[2], [0], [0, 1], [1], [], [], w⟩ : DotDims _ _ _) K rfl rfl).symm]
  refine Finset.sum_congr rfl fun c _ => ?_
  have c3 := contrEquiv1_symm_val
    (⟨[2], [0], [0, 1], [1], [], [], w⟩ : DotDims ⟨3, ![M, T, K]⟩ ⟨2, ![K, N]⟩ ⟨3, ![M, T, N]⟩) K rfl rfl c
  have l3 : (⟨[2], [0], [0, 1], [1], [], [], w⟩ : DotDims ⟨3, ![M, T, K]⟩ ⟨2, ![K, N]⟩ ⟨3, ![M, T, N]⟩).lhsIdx
      (ix3 r t n) ((contrEquiv1 _ K rfl rfl).symm c) = ix3 r t c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![M, T, K]⟩ ⟨2, ![K, N]⟩ ⟨3, ![M, T, N]⟩).rhsIdx
      (ix3 r t n) ((contrEquiv1 _ K rfl rfl).symm c) = ix2 c n := by
    funext ax; apply Fin.ext
    match ax with
    | ⟨0, _⟩ => simp [DotDims.rhsIdx]; exact c3
    | ⟨1, _⟩ => simp [DotDims.rhsIdx]; rfl
  rw [l3, r3]

/-- Row by row, a vector of length `T` against a `T × N` matrix: the weighted sum of the `T` rows,
    at `(r, n)`. -/
theorem dot_batch_apply
    (w : DotDims.WF ⟨2, ![M, T]⟩ ⟨3, ![M, T, N]⟩ ⟨2, ![M, N]⟩ [1] [1] [] [2] [0] [0])
    (prec : Option ContractPrecision) (A : FVec Ideal ⟨2, ![M, T]⟩ φ₁) (B : FVec Ideal ⟨3, ![M, T, N]⟩ φ₂)
    (r : Fin M) (n : Fin N) :
    Host.dotGeneral (⟨[1], [1], [], [2], [0], [0], w⟩ : DotDims _ _ _) prec A B (ix2 r n)
      = ∑ t : Fin T, A (ix2 r t) * B (ix3 r t n) := by
  show FloatOps.dotGeneral _ prec _ A B (ix2 r n) = _
  rw [Ideal.dotGeneral_apply,
    ← Equiv.sum_comp (contrEquiv1 (⟨[1], [1], [], [2], [0], [0], w⟩ : DotDims _ _ _) T rfl rfl).symm]
  refine Finset.sum_congr rfl fun c _ => ?_
  have c3 := contrEquiv1_symm_val
    (⟨[1], [1], [], [2], [0], [0], w⟩ : DotDims ⟨2, ![M, T]⟩ ⟨3, ![M, T, N]⟩ ⟨2, ![M, N]⟩) T rfl rfl c
  have l3 : (⟨[1], [1], [], [2], [0], [0], w⟩ : DotDims ⟨2, ![M, T]⟩ ⟨3, ![M, T, N]⟩ ⟨2, ![M, N]⟩).lhsIdx
      (ix2 r n) ((contrEquiv1 _ T rfl rfl).symm c) = ix2 r c := by
    funext ax; apply Fin.ext
    match ax with
    | ⟨0, _⟩ => simp [DotDims.lhsIdx]; rfl
    | ⟨1, _⟩ => simp [DotDims.lhsIdx]; exact c3
  have r3 : (⟨[1], [1], [], [2], [0], [0], w⟩ : DotDims ⟨2, ![M, T]⟩ ⟨3, ![M, T, N]⟩ ⟨2, ![M, N]⟩).rhsIdx
      (ix2 r n) ((contrEquiv1 _ T rfl rfl).symm c) = ix3 r c n := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

end Dots

/-! ### A bias broadcast along the rows, and the zero the rectifier compares with -/

section Bias
variable {α : Type} {M T N : Nat}

/-- A vector of length `N` laid along the last axis of an `M × N` array, through a `1 × N` row. -/
theorem bias2_apply (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (k : Fin N) :
    broadcastInDim ⟨2, ![M, N]⟩ ![0, 1] h₂ (broadcastInDim ⟨2, ![1, N]⟩ ![1] h₁ v) (ix2 r k) = v (ix1 k) := by
  have hk := k.isLt
  have e2 : broadcastInDim ⟨2, ![M, N]⟩ ![0, 1] h₂ (broadcastInDim ⟨2, ![1, N]⟩ ![1] h₁ v) (ix2 r k)
      = broadcastInDim ⟨2, ![1, N]⟩ ![1] h₁ v (ix2 (0 : Fin 1) k) :=
    broadcastInDim_apply ![0, 1] h₂ _ (ix2 r k) (ix2 (0 : Fin 1) k) (fun a => by
      match a with
      | ⟨0, _⟩ => exact (if_pos rfl).symm
      | ⟨1, _⟩ =>
        show k.val = if N = 1 then 0 else k.val
        split
        · omega
        · rfl)
  have e1 : broadcastInDim ⟨2, ![1, N]⟩ ![1] h₁ v (ix2 (0 : Fin 1) k) = v (ix1 k) :=
    broadcastInDim_apply ![1] h₁ v (ix2 (0 : Fin 1) k) (ix1 k) (fun a => by
      match a with
      | ⟨0, _⟩ =>
        show k.val = if N = 1 then 0 else k.val
        split
        · omega
        · rfl)
  exact e2.trans e1

/-- A vector of length `N` laid along the last axis of an `M × T × N` array, through a `1 × 1 × N` array. -/
theorem bias3_apply (h₁ : (⟨1, ![N]⟩ : Shape).BroadcastsInDim ⟨3, ![1, 1, N]⟩ ![2])
    (h₂ : (⟨3, ![1, 1, N]⟩ : Shape).BroadcastsInDim ⟨3, ![M, T, N]⟩ ![0, 1, 2]) (v : (⟨1, ![N]⟩ : Shape).Idx → α)
    (r : Fin M) (t : Fin T) (k : Fin N) :
    broadcastInDim ⟨3, ![M, T, N]⟩ ![0, 1, 2] h₂ (broadcastInDim ⟨3, ![1, 1, N]⟩ ![2] h₁ v) (ix3 r t k)
      = v (ix1 k) := by
  have hk := k.isLt
  have e2 : broadcastInDim ⟨3, ![M, T, N]⟩ ![0, 1, 2] h₂ (broadcastInDim ⟨3, ![1, 1, N]⟩ ![2] h₁ v) (ix3 r t k)
      = broadcastInDim ⟨3, ![1, 1, N]⟩ ![2] h₁ v (ix3 (0 : Fin 1) (0 : Fin 1) k) :=
    broadcastInDim_apply ![0, 1, 2] h₂ _ (ix3 r t k) (ix3 (0 : Fin 1) (0 : Fin 1) k) (fun a => by
      match a with
      | ⟨0, _⟩ => exact (if_pos rfl).symm
      | ⟨1, _⟩ => exact (if_pos rfl).symm
      | ⟨2, _⟩ =>
        show k.val = if N = 1 then 0 else k.val
        split
        · omega
        · rfl)
  have e1 : broadcastInDim ⟨3, ![1, 1, N]⟩ ![2] h₁ v (ix3 (0 : Fin 1) (0 : Fin 1) k) = v (ix1 k) :=
    broadcastInDim_apply ![2] h₁ v (ix3 (0 : Fin 1) (0 : Fin 1) k) (ix1 k) (fun a => by
      match a with
      | ⟨0, _⟩ =>
        show k.val = if N = 1 then 0 else k.val
        split
        · omega
        · rfl)
  exact e2.trans e1

end Bias

/-! ### Two 128-column blocks side by side -/

section Cat
variable {α : Type} {M : Nat}

/-- Column `k` of the first block. -/
theorem cat_lo (h : Shape.Concatenates [(⟨2, ![M, 128]⟩ : Shape), ⟨2, ![M, 128]⟩] ⟨2, ![M, 256]⟩ 1)
    (x₁ x₂ : (⟨2, ![M, 128]⟩ : Shape).Idx → α) (r : Fin M) (k : Fin 128) :
    concatenate ⟨2, ![M, 256]⟩ 1 [⟨⟨2, ![M, 128]⟩, x₁⟩, ⟨⟨2, ![M, 128]⟩, x₂⟩] h (ix2 r (Cert.Spec.lo k))
      = x₁ (ix2 r k) :=
  concatenate_pair_apply_left 1 x₁ x₂ h (ix2 r (Cert.Spec.lo k)) rfl (ix2 r k) (fun b => by
    match b with
    | ⟨0, _⟩ => rfl
    | ⟨1, _⟩ => rfl)

/-- Column `k` of the second block. -/
theorem cat_hi (h : Shape.Concatenates [(⟨2, ![M, 128]⟩ : Shape), ⟨2, ![M, 128]⟩] ⟨2, ![M, 256]⟩ 1)
    (x₁ x₂ : (⟨2, ![M, 128]⟩ : Shape).Idx → α) (r : Fin M) (k : Fin 128) :
    concatenate ⟨2, ![M, 256]⟩ 1 [⟨⟨2, ![M, 128]⟩, x₁⟩, ⟨⟨2, ![M, 128]⟩, x₂⟩] h (ix2 r (Cert.Spec.hi k))
      = x₂ (ix2 r k) :=
  concatenate_pair_apply_right 1 x₁ x₂ h (ix2 r (Cert.Spec.hi k)) rfl rfl (ix2 r k)
    (fun b hb => by
      match b, hb with
      | ⟨0, _⟩, _ => rfl
      | ⟨1, _⟩, hb => exact absurd rfl hb)
    (Nat.add_comm _ _)

end Cat

section Layer

open Cert.Pre_input_domain Cert.Pre_input_domain.Facts Cert.PreDecode

variable [Facts]

/-! ### One layer on 4096 rows, stage by stage -/

theorem selfEmb4096_apply (node : FVec Ideal S4096x128 .f32) (Ws : FVec Ideal S128x128 .f32)
    (bs : FVec Ideal S128 .f32) (r : Fin 4096) (k : Fin 128) :
    selfEmb4096 node Ws bs (ix2 r k)
      = Cert.Spec.dense (fun d => node (ix2 r d)) (fun d k => Ws (ix2 d k)) (fun k => bs (ix1 k)) k := by
  have hdot : Host.dotGeneral dot_S4096x128_S128x128_S4096x128_1_0_0_1_n_n none node Ws (ix2 r k)
      = ∑ c : Fin 128, node (ix2 r c) * Ws (ix2 c k) :=
    dot_plain_apply dot_S4096x128_S128x128_S4096x128_1_0_0_1_n_n_wf none node Ws r k
  have hb : broadcastInDim S4096x128 ![0, 1] bcast_S1x128_S4096x128_0_1
      (broadcastInDim S1x128 ![1] bcast_S128_S1x128_1 bs) (ix2 r k) = bs (ix1 k) :=
    bias2_apply bcast_S128_S1x128_1 bcast_S1x128_S4096x128_0_1 bs r k
  unfold selfEmb4096
  rw [maximumf_apply, addf_apply, hdot, hb, broadcastInDim_scalar_apply, constant_apply,
    Ideal.ofBits_zero_f32]
  rfl

theorem neighEmb4096_apply (neigh : FVec Ideal S4096x10x128 .f32) (Wa : FVec Ideal S128x128 .f32)
    (ba : FVec Ideal S128 .f32) (r : Fin 4096) (t : Fin 10) (k : Fin 128) :
    neighEmb4096 neigh Wa ba (ix3 r t k)
      = Cert.Spec.dense (fun d => neigh (ix3 r t d)) (fun d k => Wa (ix2 d k)) (fun k => ba (ix1 k)) k := by
  have hdot : Host.dotGeneral dot_S4096x10x128_S128x128_S4096x10x128_2_0_01_1_n_n none neigh Wa (ix3 r t k)
      = ∑ c : Fin 128, neigh (ix3 r t c) * Wa (ix2 c k) :=
    dot_rows3_apply dot_S4096x10x128_S128x128_S4096x10x128_2_0_01_1_n_n_wf none neigh Wa r t k
  have hb : broadcastInDim S4096x10x128 ![0, 1, 2] bcast_S1x1x128_S4096x10x128_0_1_2
      (broadcastInDim S1x1x128 ![2] bcast_S128_S1x1x128_2 ba) (ix3 r t k) = ba (ix1 k) :=
    bias3_apply bcast_S128_S1x1x128_2 bcast_S1x1x128_S4096x10x128_0_1_2 ba r t k
  unfold neighEmb4096
  rw [maximumf_apply, addf_apply, hdot, hb, broadcastInDim_scalar_apply, constant_apply,
    Ideal.ofBits_zero_f32]
  rfl

theorem agg4096_apply (alpha : FVec Ideal S4096x10 .f32) (ne : FVec Ideal S4096x10x128 .f32)
    (r : Fin 4096) (k : Fin 128) :
    agg4096 alpha ne (ix2 r k) = ∑ t : Fin 10, alpha (ix2 r t) * ne (ix3 r t k) :=
  dot_batch_apply dot_S4096x10_S4096x10x128_S4096x128_1_1_n_2_0_0_wf none alpha ne r k

theorem outEmb4096_apply (se ag : FVec Ideal S4096x128 .f32) (Wo : FVec Ideal S256x128 .f32)
    (bo : FVec Ideal S128 .f32) (r : Fin 4096) (u : Fin 128) :
    outEmb4096 se ag Wo bo (ix2 r u)
      = Cert.Spec.relu (((∑ k : Fin 128, se (ix2 r k) * Wo (ix2 (Cert.Spec.lo k) u))
          + ∑ k : Fin 128, ag (ix2 r k) * Wo (ix2 (Cert.Spec.hi k) u)) + bo (ix1 u)) := by
  have hdot : Host.dotGeneral dot_S4096x256_S256x128_S4096x128_1_0_0_1_n_n none
        (concatenate S4096x256 1 [⟨S4096x128, se⟩, ⟨S4096x128, ag⟩]
          concatenates_S4096x128_S4096x128_S4096x256_d1) Wo (ix2 r u)
      = ∑ c : Fin 256, concatenate S4096x256 1 [⟨S4096x128, se⟩, ⟨S4096x128, ag⟩]
          concatenates_S4096x128_S4096x128_S4096x256_d1 (ix2 r c) * Wo (ix2 c u) :=
    dot_plain_apply dot_S4096x256_S256x128_S4096x128_1_0_0_1_n_n_wf none _ Wo r u
  have hb : broadcastInDim S4096x128 ![0, 1] bcast_S1x128_S4096x128_0_1
      (broadcastInDim S1x128 ![1] bcast_S128_S1x128_1 bo) (ix2 r u) = bo (ix1 u) :=
    bias2_apply bcast_S128_S1x128_1 bcast_S1x128_S4096x128_0_1 bo r u
  unfold outEmb4096
  rw [maximumf_apply, addf_apply, hdot, hb, broadcastInDim_scalar_apply, constant_apply,
    Ideal.ofBits_zero_f32, Cert.Spec.sum256_split]
  simp only [cat_lo, cat_hi]
  rfl

/-- The layer's embedding at row `r`, column `u` is the convolution formula of the operands'
    entries. -/
theorem emb4096_apply (node : FVec Ideal S4096x128 .f32) (neigh : FVec Ideal S4096x10x128 .f32)
    (alpha : FVec Ideal S4096x10 .f32) (Ws : FVec Ideal S128x128 .f32) (bs : FVec Ideal S128 .f32)
    (Wa : FVec Ideal S128x128 .f32) (ba : FVec Ideal S128 .f32) (Wo : FVec Ideal S256x128 .f32)
    (bo : FVec Ideal S128 .f32) (r : Fin 4096) (u : Fin 128) :
    emb4096 node neigh alpha Ws bs Wa ba Wo bo (ix2 r u)
      = Cert.Spec.conv (fun r d => node (ix2 r d)) (fun r t d => neigh (ix3 r t d))
          (fun r t => alpha (ix2 r t)) (fun d k => Ws (ix2 d k)) (fun k => bs (ix1 k))
          (fun d k => Wa (ix2 d k)) (fun k => ba (ix1 k)) (fun k u => Wo (ix2 k u))
          (fun u => bo (ix1 u)) r u := by
  unfold emb4096
  rw [outEmb4096_apply]
  simp only [selfEmb4096_apply, agg4096_apply, neighEmb4096_apply]
  rfl

/-- The Frobenius norm is the root of the double sum of squares. -/
theorem fro4096_eq (e : FVec Ideal S4096x128 .f32) :
    fro4096 e ix0 = Cert.Spec.nrm (fun r u => e (ix2 r u)) := by
  rw [fro4096_apply, sum_idx2]
  rfl

/-! ### One layer on 40960 rows, stage by stage -/

theorem selfEmb40960_apply (node : FVec Ideal S40960x128 .f32) (Ws : FVec Ideal S128x128 .f32)
    (bs : FVec Ideal S128 .f32) (r : Fin 40960) (k : Fin 128) :
    selfEmb40960 node Ws bs (ix2 r k)
      = Cert.Spec.dense (fun d => node (ix2 r d)) (fun d k => Ws (ix2 d k)) (fun k => bs (ix1 k)) k := by
  have hdot : Host.dotGeneral dot_S40960x128_S128x128_S40960x128_1_0_0_1_n_n none node Ws (ix2 r k)
      = ∑ c : Fin 128, node (ix2 r c) * Ws (ix2 c k) :=
    dot_plain_apply dot_S40960x128_S128x128_S40960x128_1_0_0_1_n_n_wf none node Ws r k
  have hb : broadcastInDim S40960x128 ![0, 1] bcast_S1x128_S40960x128_0_1
      (broadcastInDim S1x128 ![1] bcast_S128_S1x128_1 bs) (ix2 r k) = bs (ix1 k) :=
    bias2_apply bcast_S128_S1x128_1 bcast_S1x128_S40960x128_0_1 bs r k
  unfold selfEmb40960
  rw [maximumf_apply, addf_apply, hdot, hb, broadcastInDim_scalar_apply, constant_apply,
    Ideal.ofBits_zero_f32]
  rfl

theorem neighEmb40960_apply (neigh : FVec Ideal S40960x10x128 .f32) (Wa : FVec Ideal S128x128 .f32)
    (ba : FVec Ideal S128 .f32) (r : Fin 40960) (t : Fin 10) (k : Fin 128) :
    neighEmb40960 neigh Wa ba (ix3 r t k)
      = Cert.Spec.dense (fun d => neigh (ix3 r t d)) (fun d k => Wa (ix2 d k)) (fun k => ba (ix1 k)) k := by
  have hdot : Host.dotGeneral dot_S40960x10x128_S128x128_S40960x10x128_2_0_01_1_n_n none neigh Wa (ix3 r t k)
      = ∑ c : Fin 128, neigh (ix3 r t c) * Wa (ix2 c k) :=
    dot_rows3_apply dot_S40960x10x128_S128x128_S40960x10x128_2_0_01_1_n_n_wf none neigh Wa r t k
  have hb : broadcastInDim S40960x10x128 ![0, 1, 2] bcast_S1x1x128_S40960x10x128_0_1_2
      (broadcastInDim S1x1x128 ![2] bcast_S128_S1x1x128_2 ba) (ix3 r t k) = ba (ix1 k) :=
    bias3_apply bcast_S128_S1x1x128_2 bcast_S1x1x128_S40960x10x128_0_1_2 ba r t k
  unfold neighEmb40960
  rw [maximumf_apply, addf_apply, hdot, hb, broadcastInDim_scalar_apply, constant_apply,
    Ideal.ofBits_zero_f32]
  rfl

theorem agg40960_apply (alpha : FVec Ideal S40960x10 .f32) (ne : FVec Ideal S40960x10x128 .f32)
    (r : Fin 40960) (k : Fin 128) :
    agg40960 alpha ne (ix2 r k) = ∑ t : Fin 10, alpha (ix2 r t) * ne (ix3 r t k) :=
  dot_batch_apply dot_S40960x10_S40960x10x128_S40960x128_1_1_n_2_0_0_wf none alpha ne r k

theorem outEmb40960_apply (se ag : FVec Ideal S40960x128 .f32) (Wo : FVec Ideal S256x128 .f32)
    (bo : FVec Ideal S128 .f32) (r : Fin 40960) (u : Fin 128) :
    outEmb40960 se ag Wo bo (ix2 r u)
      = Cert.Spec.relu (((∑ k : Fin 128, se (ix2 r k) * Wo (ix2 (Cert.Spec.lo k) u))
          + ∑ k : Fin 128, ag (ix2 r k) * Wo (ix2 (Cert.Spec.hi k) u)) + bo (ix1 u)) := by
  have hdot : Host.dotGeneral dot_S40960x256_S256x128_S40960x128_1_0_0_1_n_n none
        (concatenate S40960x256 1 [⟨S40960x128, se⟩, ⟨S40960x128, ag⟩]
          concatenates_S40960x128_S40960x128_S40960x256_d1) Wo (ix2 r u)
      = ∑ c : Fin 256, concatenate S40960x256 1 [⟨S40960x128, se⟩, ⟨S40960x128, ag⟩]
          concatenates_S40960x128_S40960x128_S40960x256_d1 (ix2 r c) * Wo (ix2 c u) :=
    dot_plain_apply dot_S40960x256_S256x128_S40960x128_1_0_0_1_n_n_wf none _ Wo r u
  have hb : broadcastInDim S40960x128 ![0, 1] bcast_S1x128_S40960x128_0_1
      (broadcastInDim S1x128 ![1] bcast_S128_S1x128_1 bo) (ix2 r u) = bo (ix1 u) :=
    bias2_apply bcast_S128_S1x128_1 bcast_S1x128_S40960x128_0_1 bo r u
  unfold outEmb40960
  rw [maximumf_apply, addf_apply, hdot, hb, broadcastInDim_scalar_apply, constant_apply,
    Ideal.ofBits_zero_f32, Cert.Spec.sum256_split]
  simp only [cat_lo, cat_hi]
  rfl

/-- The layer's embedding at row `r`, column `u` is the convolution formula of the operands'
    entries. -/
theorem emb40960_apply (node : FVec Ideal S40960x128 .f32) (neigh : FVec Ideal S40960x10x128 .f32)
    (alpha : FVec Ideal S40960x10 .f32) (Ws : FVec Ideal S128x128 .f32) (bs : FVec Ideal S128 .f32)
    (Wa : FVec Ideal S128x128 .f32) (ba : FVec Ideal S128 .f32) (Wo : FVec Ideal S256x128 .f32)
    (bo : FVec Ideal S128 .f32) (r : Fin 40960) (u : Fin 128) :
    emb40960 node neigh alpha Ws bs Wa ba Wo bo (ix2 r u)
      = Cert.Spec.conv (fun r d => node (ix2 r d)) (fun r t d => neigh (ix3 r t d))
          (fun r t => alpha (ix2 r t)) (fun d k => Ws (ix2 d k)) (fun k => bs (ix1 k))
          (fun d k => Wa (ix2 d k)) (fun k => ba (ix1 k)) (fun k u => Wo (ix2 k u))
          (fun u => bo (ix1 u)) r u := by
  unfold emb40960
  rw [outEmb40960_apply]
  simp only [selfEmb40960_apply, agg40960_apply, neighEmb40960_apply]
  rfl

/-- The Frobenius norm is the root of the double sum of squares. -/
theorem fro40960_eq (e : FVec Ideal S40960x128 .f32) :
    fro40960 e ix0 = Cert.Spec.nrm (fun r u => e (ix2 r u)) := by
  rw [fro40960_apply, sum_idx2]
  rfl

end Layer

end Cert.PreBridge

end
-- ==== Proof.SpecReal.lean ====
import Mathlib.Data.Real.Basic
import Mathlib.Data.EReal.Basic
import Mathlib.Algebra.BigOperators.Field
import Mathlib.Algebra.BigOperators.Group.Finset.Sigma
import Mathlib.Algebra.Order.Field.Basic

/-!
  The laws of real arithmetic behind the rearrangement of the two-layer graph convolution, over
  abstract finite index types, and the two facts that carry a real sum and a real maximum into
  the extended reals.
-/

noncomputable section

namespace Cert.Spec

open scoped BigOperators

/-! ### Real sums and maxima inside the extended reals -/

/-- The inclusion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals into the extended reals commutes with the maximum. -/
theorem coe_max (x y : ℝ) : ((max x y : ℝ) : EReal) = max (x : EReal) (y : EReal) :=
  EReal.coe_strictMono.monotone.map_max

/-! ### Pushing a matrix through a weighted sum -/

/-- A weighted sum of matrix-vector products is the matrix applied to the weighted sum; the
    bias may be added before or after. -/
theorem push_through {T K : Type} [Fintype T] [Fintype K] (s b : ℝ) (a : T → ℝ)
    (D : T → K → ℝ) (W : K → ℝ) :
    (s + b) + ∑ t, a t * ∑ k, D t k * W k = (s + ∑ k, (∑ t, a t * D t k) * W k) + b := by
  have h : ∑ t, a t * ∑ k, D t k * W k = ∑ k, (∑ t, a t * D t k) * W k := by
    simp only [Finset.mul_sum, Finset.sum_mul]
    rw [Finset.sum_comm]
    simp only [mul_assoc]
  rw [h]; ring

/-! ### Carrying a positive scalar through a dense rectified layer -/

/-- The rectifier commutes with division by a positive number. -/
theorem relu_scale {ν : ℝ} (hν : 0 < ν) (z : ℝ) : max (z / ν) 0 = max z 0 / ν := by
  rw [← max_div_div_right hν.le, zero_div]

/-- A dense rectified layer on inputs divided by a positive `ν` is the layer on the undivided
    inputs with the bias scaled by `ν`, divided by `ν`. -/
theorem dense_scale {K : Type} [Fintype K] {ν : ℝ} (hν : 0 < ν) (x w : K → ℝ) (b : ℝ) :
    max ((∑ d, x d / ν * w d) + b) 0 = max ((∑ d, x d * w d) + ν * b) 0 / ν := by
  have h : (∑ d, x d / ν * w d) + b = ((∑ d, x d * w d) + ν * b) / ν := by
    rw [add_div, mul_div_cancel_left₀ b hν.ne', Finset.sum_div]
    congr 1
    exact Finset.sum_congr rfl (fun d _ => by ring)
  rw [h, relu_scale hν]

/-- A linear layer on inputs divided by `ν` is the layer on the undivided inputs, divided by `ν`. -/
theorem sum_div_mul {K : Type} [Fintype K] (ν : ℝ) (z W : K → ℝ) :
    ∑ k, z k / ν * W k = (∑ k, z k * W k) / ν := by
  rw [Finset.sum_div]
  exact Finset.sum_congr rfl (fun k _ => by ring)

/-- The same through a weighted sum of the inputs. -/
theorem sum_sum_div_mul {T K : Type} [Fintype T] [Fintype K] (ν : ℝ) (a : T → ℝ)
    (z : T → K → ℝ) (W : K → ℝ) :
    ∑ k, (∑ t, a t * (z t k / ν)) * W k = (∑ k, (∑ t, a t * z t k) * W k) / ν := by
  rw [Finset.sum_div]
  refine Finset.sum_congr rfl (fun k _ => ?_)
  have : ∑ t, a t * (z t k / ν) = (∑ t, a t * z t k) / ν := by
    rw [Finset.sum_div]
    exact Finset.sum_congr rfl (fun t _ => by ring)
  rw [this]; ring

end Cert.Spec

end
-- ==== Proof.SpecCoe.lean ====
import proofs.«213116_g69346541961480_cont_9to1_m_612_34_alg».proof.Proof.Spec
import proofs.«213116_g69346541961480_cont_9to1_m_612_34_alg».proof.Proof.SpecReal
import Mathlib.Analysis.Real.Sqrt

/-!
  The two forms of the graph convolution evaluated on real arguments: each quantity of either
  form, at arguments that are real numbers, is the real number the same formula gives in real
  arithmetic.  The real formulas are written out (`rE1T`, `rE0`, ...) and each extended-real
  quantity is identified with the inclusion of its real counterpart.
-/

noncomputable section

namespace Cert.Spec

open Idealize.ShloMosaic
open scoped BigOperators

/-! ### Real arguments -/

/-- The twenty argument arrays with real entries. -/
structure RInp where
  X : Fin 100000 → Fin 128 → ℝ
  ids : Fin 4096 → Fin 100000
  n1 : Fin 4096 → Fin 10 → Fin 100000
  a1 : Fin 4096 → Fin 10 → ℝ
  n2 : Fin 40960 → Fin 10 → Fin 100000
  a2 : Fin 40960 → Fin 10 → ℝ
  Ws1 : Fin 128 → Fin 128 → ℝ
  bs1 : Fin 128 → ℝ
  Wa1 : Fin 128 → Fin 128 → ℝ
  ba1 : Fin 128 → ℝ
  Wo1 : Fin 256 → Fin 128 → ℝ
  bo1 : Fin 128 → ℝ
  Ws0 : Fin 128 → Fin 128 → ℝ
  bs0 : Fin 128 → ℝ
  Wa0 : Fin 128 → Fin 128 → ℝ
  ba0 : Fin 128 → ℝ
  Wo0 : Fin 256 → Fin 128 → ℝ
  bo0 : Fin 128 → ℝ
  Wemb : Fin 128 → Fin 128 → ℝ
  bemb : Fin 128 → ℝ

/-- Real arguments as extended-real arguments. -/
def RInp.toE (R : RInp) : Inp where
  X := fun i j => (R.X i j : EReal)
  ids := R.ids
  n1 := R.n1
  a1 := fun i j => (R.a1 i j : EReal)
  n2 := R.n2
  a2 := fun i j => (R.a2 i j : EReal)
  Ws1 := fun i j => (R.Ws1 i j : EReal)
  bs1 := fun i => (R.bs1 i : EReal)
  Wa1 := fun i j => (R.Wa1 i j : EReal)
  ba1 := fun i => (R.ba1 i : EReal)
  Wo1 := fun i j => (R.Wo1 i j : EReal)
  bo1 := fun i => (R.bo1 i : EReal)
  Ws0 := fun i j => (R.Ws0 i j : EReal)
  bs0 := fun i => (R.bs0 i : EReal)
  Wa0 := fun i j => (R.Wa0 i j : EReal)
  ba0 := fun i => (R.ba0 i : EReal)
  Wo0 := fun i j => (R.Wo0 i j : EReal)
  bo0 := fun i => (R.bo0 i : EReal)
  Wemb := fun i j => (R.Wemb i j : EReal)
  bemb := fun i => (R.bemb i : EReal)

theorem toE_X (R : RInp) : R.toE.X = fun i j => (R.X i j : EReal) := rfl
theorem toE_ids (R : RInp) : R.toE.ids = R.ids := rfl
theorem toE_n1 (R : RInp) : R.toE.n1 = R.n1 := rfl
theorem toE_a1 (R : RInp) : R.toE.a1 = fun i j => (R.a1 i j : EReal) := rfl
theorem toE_n2 (R : RInp) : R.toE.n2 = R.n2 := rfl
theorem toE_a2 (R : RInp) : R.toE.a2 = fun i j => (R.a2 i j : EReal) := rfl
theorem toE_Ws1 (R : RInp) : R.toE.Ws1 = fun i j => (R.Ws1 i j : EReal) := rfl
theorem toE_bs1 (R : RInp) : R.toE.bs1 = fun i => (R.bs1 i : EReal) := rfl
theorem toE_Wa1 (R : RInp) : R.toE.Wa1 = fun i j => (R.Wa1 i j : EReal) := rfl
theorem toE_ba1 (R : RInp) : R.toE.ba1 = fun i => (R.ba1 i : EReal) := rfl
theorem toE_Wo1 (R : RInp) : R.toE.Wo1 = fun i j => (R.Wo1 i j : EReal) := rfl
theorem toE_bo1 (R : RInp) : R.toE.bo1 = fun i => (R.bo1 i : EReal) := rfl
theorem toE_Ws0 (R : RInp) : R.toE.Ws0 = fun i j => (R.Ws0 i j : EReal) := rfl
theorem toE_bs0 (R : RInp) : R.toE.bs0 = fun i => (R.bs0 i : EReal) := rfl
theorem toE_Wa0 (R : RInp) : R.toE.Wa0 = fun i j => (R.Wa0 i j : EReal) := rfl
theorem toE_ba0 (R : RInp) : R.toE.ba0 = fun i => (R.ba0 i : EReal) := rfl
theorem toE_Wo0 (R : RInp) : R.toE.Wo0 = fun i j => (R.Wo0 i j : EReal) := rfl
theorem toE_bo0 (R : RInp) : R.toE.bo0 = fun i => (R.bo0 i : EReal) := rfl
theorem toE_Wemb (R : RInp) : R.toE.Wemb = fun i j => (R.Wemb i j : EReal) := rfl
theorem toE_bemb (R : RInp) : R.toE.bemb = fun i => (R.bemb i : EReal) := rfl

/-- Arguments whose float entries are all real come from real arguments. -/
theorem Inp.Real.exists_toE {I : Inp} (h : I.Real) : ∃ R : RInp, I = R.toE := by
  obtain ⟨X, ids, n1, a1, n2, a2, Ws1, bs1, Wa1, ba1, Wo1, bo1, Ws0, bs0, Wa0, ba0, Wo0, bo0, Wemb, bemb⟩ := I
  obtain ⟨hX, ha1, ha2, hWs1, hbs1, hWa1, hba1, hWo1, hbo1, hWs0, hbs0, hWa0, hba0, hWo0, hbo0, hWemb, hbemb⟩ := h
  choose rX hX using hX
  choose ra1 ha1 using ha1
  choose ra2 ha2 using ha2
  choose rWs1 hWs1 using hWs1
  choose rbs1 hbs1 using hbs1
  choose rWa1 hWa1 using hWa1
  choose rba1 hba1 using hba1
  choose rWo1 hWo1 using hWo1
  choose rbo1 hbo1 using hbo1
  choose rWs0 hWs0 using hWs0
  choose rbs0 hbs0 using hbs0
  choose rWa0 hWa0 using hWa0
  choose rba0 hba0 using hba0
  choose rWo0 hWo0 using hWo0
  choose rbo0 hbo0 using hbo0
  choose rWemb hWemb using hWemb
  choose rbemb hbemb using hbemb
  have eX : X = fun i j => (rX i j : EReal) := funext fun i => funext fun j => hX i j
  have ea1 : a1 = fun i j => (ra1 i j : EReal) := funext fun i => funext fun j => ha1 i j
  have ea2 : a2 = fun i j => (ra2 i j : EReal) := funext fun i => funext fun j => ha2 i j
  have eWs1 : Ws1 = fun i j => (rWs1 i j : EReal) := funext fun i => funext fun j => hWs1 i j
  have ebs1 : bs1 = fun i => (rbs1 i : EReal) := funext fun i => hbs1 i
  have eWa1 : Wa1 = fun i j => (rWa1 i j : EReal) := funext fun i => funext fun j => hWa1 i j
  have eba1 : ba1 = fun i => (rba1 i : EReal) := funext fun i => hba1 i
  have eWo1 : Wo1 = fun i j => (rWo1 i j : EReal) := funext fun i => funext fun j => hWo1 i j
  have ebo1 : bo1 = fun i => (rbo1 i : EReal) := funext fun i => hbo1 i
  have eWs0 : Ws0 = fun i j => (rWs0 i j : EReal) := funext fun i => funext fun j => hWs0 i j
  have ebs0 : bs0 = fun i => (rbs0 i : EReal) := funext fun i => hbs0 i
  have eWa0 : Wa0 = fun i j => (rWa0 i j : EReal) := funext fun i => funext fun j => hWa0 i j
  have eba0 : ba0 = fun i => (rba0 i : EReal) := funext fun i => hba0 i
  have eWo0 : Wo0 = fun i j => (rWo0 i j : EReal) := funext fun i => funext fun j => hWo0 i j
  have ebo0 : bo0 = fun i => (rbo0 i : EReal) := funext fun i => hbo0 i
  have eWemb : Wemb = fun i j => (rWemb i j : EReal) := funext fun i => funext fun j => hWemb i j
  have ebemb : bemb = fun i => (rbemb i : EReal) := funext fun i => hbemb i
  subst eX ea1 ea2 eWs1 ebs1 eWa1 eba1 eWo1 ebo1 eWs0 ebs0 eWa0 eba0 eWo0 ebo0 eWemb ebemb
  exact ⟨⟨rX, ids, n1, ra1, n2, ra2, rWs1, rbs1, rWa1, rba1, rWo1, rbo1, rWs0, rbs0, rWa0, rba0, rWo0, rbo0, rWemb, rbemb⟩, rfl⟩

/-! ### The building blocks in real arithmetic -/

/-- The rectifier on the reals. -/
def rrelu (z : ℝ) : ℝ := max z 0

theorem rrelu_nonneg (z : ℝ) : 0 ≤ rrelu z := le_max_right _ _

theorem relu_coe (z : ℝ) : relu (z : EReal) = ((rrelu z : ℝ) : EReal) := by
  rw [relu, rrelu, coe_max, EReal.coe_zero]

/-- One feature of a dense rectified layer, on the reals. -/
def rdense (v : Fin 128 → ℝ) (W : Fin 128 → Fin 128 → ℝ) (b : Fin 128 → ℝ) (k : Fin 128) : ℝ :=
  rrelu ((∑ d, v d * W d k) + b k)

theorem rdense_nonneg (v : Fin 128 → ℝ) (W : Fin 128 → Fin 128 → ℝ) (b : Fin 128 → ℝ)
    (k : Fin 128) : 0 ≤ rdense v W b k := rrelu_nonneg _

theorem dense_coe (v : Fin 128 → ℝ) (W : Fin 128 → Fin 128 → ℝ) (b : Fin 128 → ℝ) (k : Fin 128) :
    dense (fun d => (v d : EReal)) (fun d k => (W d k : EReal)) (fun k => (b k : EReal)) k
      = ((rdense v W b k : ℝ) : EReal) := by
  simp only [dense, rdense, ← EReal.coe_mul, ← coe_sum, ← EReal.coe_add, relu_coe]

/-- One convolution layer before its normalisation, on the reals. -/
def rconv {ρ : Type} (node : ρ → Fin 128 → ℝ) (neigh : ρ → Fin 10 → Fin 128 → ℝ)
    (α : ρ → Fin 10 → ℝ)
    (Ws : Fin 128 → Fin 128 → ℝ) (bs : Fin 128 → ℝ)
    (Wa : Fin 128 → Fin 128 → ℝ) (ba : Fin 128 → ℝ)
    (Wo : Fin 256 → Fin 128 → ℝ) (bo : Fin 128 → ℝ) (r : ρ) (u : Fin 128) : ℝ :=
  rrelu (((∑ k, rdense (node r) Ws bs k * Wo (lo k) u)
          + ∑ k, (∑ t, α r t * rdense (neigh r t) Wa ba k) * Wo (hi k) u)
        + bo u)

theorem conv_coe {ρ : Type} (node : ρ → Fin 128 → ℝ) (neigh : ρ → Fin 10 → Fin 128 → ℝ)
    (α : ρ → Fin 10 → ℝ)
    (Ws : Fin 128 → Fin 128 → ℝ) (bs : Fin 128 → ℝ)
    (Wa : Fin 128 → Fin 128 → ℝ) (ba : Fin 128 → ℝ)
    (Wo : Fin 256 → Fin 128 → ℝ) (bo : Fin 128 → ℝ) (r : ρ) (u : Fin 128) :
    conv (fun r d => (node r d : EReal)) (fun r t d => (neigh r t d : EReal))
        (fun r t => (α r t : EReal))
        (fun d k => (Ws d k : EReal)) (fun k => (bs k : EReal))
        (fun d k => (Wa d k : EReal)) (fun k => (ba k : EReal))
        (fun k u => (Wo k u : EReal)) (fun u => (bo u : EReal)) r u
      = ((rconv node neigh α Ws bs Wa ba Wo bo r u : ℝ) : EReal) := by
  simp only [conv, rconv, dense_coe, ← EReal.coe_mul, ← coe_sum, ← EReal.coe_add, relu_coe]

/-- The sum of the squares of all entries, on the reals. -/
def rsumsq {ρ : Type} [Fintype ρ] (E : ρ → Fin 128 → ℝ) : ℝ := ∑ r, ∑ u, E r u * E r u

theorem rsumsq_nonneg {ρ : Type} [Fintype ρ] (E : ρ → Fin 128 → ℝ) : 0 ≤ rsumsq E :=
  Finset.sum_nonneg fun _ _ => Finset.sum_nonneg fun _ _ => mul_self_nonneg _

theorem sumsq_coe {ρ : Type} [Fintype ρ] (E : ρ → Fin 128 → ℝ) :
    sumsq (fun r u => (E r u : EReal)) = ((rsumsq E : ℝ) : EReal) := by
  simp only [sumsq, rsumsq, ← EReal.coe_mul, ← coe_sum]

/-- The Euclidean norm of all entries together, on the reals. -/
def rnrm {ρ : Type} [Fintype ρ] (E : ρ → Fin 128 → ℝ) : ℝ := Real.sqrt (rsumsq E)

theorem rnrm_nonneg {ρ : Type} [Fintype ρ] (E : ρ → Fin 128 → ℝ) : 0 ≤ rnrm E := Real.sqrt_nonneg _

theorem sqrt_sumsq_coe {ρ : Type} [Fintype ρ] (E : ρ → Fin 128 → ℝ) :
    Ideal.sqrt (sumsq (fun r u => (E r u : EReal))) = ((rnrm E : ℝ) : EReal) := by
  rw [sumsq_coe, Ideal.sqrt_coe, if_neg (not_lt.mpr (rsumsq_nonneg E))]; rfl

theorem nrm_coe {ρ : Type} [Fintype ρ] (E : ρ → Fin 128 → ℝ) :
    nrm (fun r u => (E r u : EReal)) = ((rnrm E : ℝ) : EReal) := sqrt_sumsq_coe E

/-- The quotient of two reals, the divisor not zero, inside the extended reals. -/
theorem div_coe_coe (x : ℝ) {y : ℝ} (hy : y ≠ 0) :
    Ideal.div (x : EReal) (y : EReal) = ((x / y : ℝ) : EReal) := by
  rw [Ideal.div_coe hy, ← EReal.coe_mul, mul_one_div]

/-! ### The reference form in real arithmetic -/

/-- Level one, targets, before normalisation. -/
def rE1T (R : RInp) : Fin 4096 → Fin 128 → ℝ :=
  rconv (fun r => R.X (R.ids r)) (fun r t => R.X (R.n1 r t)) R.a1
    R.Ws1 R.bs1 R.Wa1 R.ba1 R.Wo1 R.bo1

/-- Level one, one-hop neighbours, before normalisation. -/
def rE1N (R : RInp) : Fin 40960 → Fin 128 → ℝ :=
  rconv (fun e => R.X (R.n1 (rowOf e) (colOf e))) (fun e t => R.X (R.n2 e t)) R.a2
    R.Ws1 R.bs1 R.Wa1 R.ba1 R.Wo1 R.bo1

/-- The two level-one norms. -/
def ν1 (R : RInp) : ℝ := rnrm (rE1T R)
def ν2 (R : RInp) : ℝ := rnrm (rE1N R)

def rH1T (R : RInp) (r : Fin 4096) (u : Fin 128) : ℝ := rE1T R r u / ν1 R
def rH1N (R : RInp) (e : Fin 40960) (u : Fin 128) : ℝ := rE1N R e u / ν2 R

/-- Level zero before normalisation. -/
def rE0 (R : RInp) : Fin 4096 → Fin 128 → ℝ :=
  rconv (rH1T R) (fun r t => rH1N R (flat r t)) R.a1 R.Ws0 R.bs0 R.Wa0 R.ba0 R.Wo0 R.bo0

/-- The level-zero norm. -/
def ν0 (R : RInp) : ℝ := rnrm (rE0 R)

def rH0 (R : RInp) (r : Fin 4096) (u : Fin 128) : ℝ := rE0 R r u / ν0 R

/-- The reference's result. -/
def rOUT (R : RInp) (r : Fin 4096) (u : Fin 128) : ℝ :=
  rrelu ((∑ k, rH0 R r k * R.Wemb k u) + R.bemb u)

theorem rE1T_nonneg (R : RInp) (r : Fin 4096) (u : Fin 128) : 0 ≤ rE1T R r u := rrelu_nonneg _
theorem rE1N_nonneg (R : RInp) (e : Fin 40960) (u : Fin 128) : 0 ≤ rE1N R e u := rrelu_nonneg _
theorem rE0_nonneg (R : RInp) (r : Fin 4096) (u : Fin 128) : 0 ≤ rE0 R r u := rrelu_nonneg _
theorem rOUT_nonneg (R : RInp) (r : Fin 4096) (u : Fin 128) : 0 ≤ rOUT R r u := rrelu_nonneg _
theorem ν1_nonneg (R : RInp) : 0 ≤ ν1 R := rnrm_nonneg _
theorem ν2_nonneg (R : RInp) : 0 ≤ ν2 R := rnrm_nonneg _
theorem ν0_nonneg (R : RInp) : 0 ≤ ν0 R := rnrm_nonneg _

theorem E1T_toE (R : RInp) : E1T R.toE = fun r u => ((rE1T R r u : ℝ) : EReal) := by
  funext r u
  exact conv_coe (fun r => R.X (R.ids r)) (fun r t => R.X (R.n1 r t)) R.a1
    R.Ws1 R.bs1 R.Wa1 R.ba1 R.Wo1 R.bo1 r u

theorem E1N_toE (R : RInp) : E1N R.toE = fun e u => ((rE1N R e u : ℝ) : EReal) := by
  funext e u
  exact conv_coe (fun e => R.X (R.n1 (rowOf e) (colOf e))) (fun e t => R.X (R.n2 e t)) R.a2
    R.Ws1 R.bs1 R.Wa1 R.ba1 R.Wo1 R.bo1 e u

theorem nrm_E1T_toE (R : RInp) : nrm (E1T R.toE) = ((ν1 R : ℝ) : EReal) := by
  rw [E1T_toE]; exact nrm_coe _

theorem nrm_E1N_toE (R : RInp) : nrm (E1N R.toE) = ((ν2 R : ℝ) : EReal) := by
  rw [E1N_toE]; exact nrm_coe _

theorem H1T_toE (R : RInp) (h1 : ν1 R ≠ 0) :
    H1T R.toE = fun r u => ((rH1T R r u : ℝ) : EReal) := by
  funext r u
  rw [H1T, nrm_E1T_toE, congrFun (congrFun (E1T_toE R) r) u, div_coe_coe _ h1, rH1T]

theorem H1N_toE (R : RInp) (h2 : ν2 R ≠ 0) :
    H1N R.toE = fun e u => ((rH1N R e u : ℝ) : EReal) := by
  funext e u
  rw [H1N, nrm_E1N_toE, congrFun (congrFun (E1N_toE R) e) u, div_coe_coe _ h2, rH1N]

theorem E0_toE (R : RInp) (h1 : ν1 R ≠ 0) (h2 : ν2 R ≠ 0) :
    E0 R.toE = fun r u => ((rE0 R r u : ℝ) : EReal) := by
  funext r u
  rw [E0, H1T_toE R h1, H1N_toE R h2]
  exact conv_coe (rH1T R) (fun r t => rH1N R (flat r t)) R.a1
    R.Ws0 R.bs0 R.Wa0 R.ba0 R.Wo0 R.bo0 r u

theorem nrm_E0_toE (R : RInp) (h1 : ν1 R ≠ 0) (h2 : ν2 R ≠ 0) :
    nrm (E0 R.toE) = ((ν0 R : ℝ) : EReal) := by
  rw [E0_toE R h1 h2]; exact nrm_coe _

theorem H0_toE (R : RInp) (h1 : ν1 R ≠ 0) (h2 : ν2 R ≠ 0) (h0 : ν0 R ≠ 0) :
    H0 R.toE = fun r u => ((rH0 R r u : ℝ) : EReal) := by
  funext r u
  rw [H0, nrm_E0_toE R h1 h2, congrFun (congrFun (E0_toE R h1 h2) r) u, div_coe_coe _ h0, rH0]

theorem OUTref_toE (R : RInp) (h1 : ν1 R ≠ 0) (h2 : ν2 R ≠ 0) (h0 : ν0 R ≠ 0)
    (r : Fin 4096) (u : Fin 128) : OUTref R.toE r u = ((rOUT R r u : ℝ) : EReal) := by
  simp only [OUTref, rOUT, H0_toE R h1 h2 h0, toE_Wemb, toE_bemb, ← EReal.coe_mul, ← coe_sum,
    ← EReal.coe_add, relu_coe]

/-- The positivity of the reference's three norms, read on the real side. -/
theorem Inp.Pos.real {R : RInp} (hP : R.toE.Pos) : 0 < ν1 R ∧ 0 < ν2 R ∧ 0 < ν0 R := by
  obtain ⟨ht, hn, hz⟩ := hP
  rw [nrm_E1T_toE] at ht
  rw [nrm_E1N_toE] at hn
  have h1 : 0 < ν1 R := EReal.coe_pos.mp ht
  have h2 : 0 < ν2 R := EReal.coe_pos.mp hn
  rw [nrm_E0_toE R h1.ne' h2.ne'] at hz
  exact ⟨h1, h2, EReal.coe_pos.mp hz⟩

end Cert.Spec

end
-- ==== Proof.SpecAlgebra.lean ====
import proofs.«213116_g69346541961480_cont_9to1_m_612_34_alg».proof.Proof.SpecCoe

/-!
  The rearranged form of the two-layer graph convolution equals the reference form, entry by
  entry, when every argument entry is a real number and the three norms the reference divides
  by are positive; and every intermediate quantity of either form is then a real number.

  The rearranged form is first evaluated in real arithmetic (`rSp`, `rAp`, `rZT`, `rZN`, `rAGG`,
  `rPRE`); two identities of real arithmetic then identify it with the reference form:
  at level one the output matrix is pushed through the importance-weighted sum, at level zero a
  positive norm is carried through a dense rectified layer as a factor on the bias.
-/

noncomputable section

namespace Cert.Spec

open Idealize.ShloMosaic
open scoped BigOperators

/-- The reciprocal of a real that is not zero, inside the extended reals. -/
theorem div_one_coe {y : ℝ} (hy : y ≠ 0) : Ideal.div 1 (y : EReal) = ((1 / y : ℝ) : EReal) := by
  rw [← EReal.coe_one, div_coe_coe _ hy]

/-! ### Level one of the rearranged form in real arithmetic -/

def rSp (R : RInp) (n : Fin 100000) (u : Fin 128) : ℝ :=
  ∑ k, rdense (R.X n) R.Ws1 R.bs1 k * R.Wo1 (lo k) u

def rAp (R : RInp) (n : Fin 100000) (u : Fin 128) : ℝ :=
  ∑ k, rdense (R.X n) R.Wa1 R.ba1 k * R.Wo1 (hi k) u

theorem Sp_toE (R : RInp) (n : Fin 100000) (u : Fin 128) :
    Sp R.toE n u = ((rSp R n u : ℝ) : EReal) := by
  simp only [Sp, rSp, toE_X, toE_Ws1, toE_bs1, toE_Wo1, dense_coe, ← EReal.coe_mul, ← coe_sum]

theorem Ap_toE (R : RInp) (n : Fin 100000) (u : Fin 128) :
    Ap R.toE n u = ((rAp R n u : ℝ) : EReal) := by
  simp only [Ap, rAp, toE_X, toE_Wa1, toE_ba1, toE_Wo1, dense_coe, ← EReal.coe_mul, ← coe_sum]

/-- Level one: own part plus bias plus the weighted neighbour parts is the reference's
    concatenated layer; the output matrix goes through the weighted sum. -/
theorem level1_real (R : RInp) (s : Fin 100000) (nb : Fin 10 → Fin 100000) (a : Fin 10 → ℝ)
    (u : Fin 128) :
    rrelu ((rSp R s u + R.bo1 u) + ∑ t, a t * rAp R (nb t) u)
      = rrelu (((∑ k, rdense (R.X s) R.Ws1 R.bs1 k * R.Wo1 (lo k) u)
          + ∑ k, (∑ t, a t * rdense (R.X (nb t)) R.Wa1 R.ba1 k) * R.Wo1 (hi k) u) + R.bo1 u) :=
  congrArg rrelu (push_through (rSp R s u) (R.bo1 u) a
    (fun t k => rdense (R.X (nb t)) R.Wa1 R.ba1 k) (fun k => R.Wo1 (hi k) u))

theorem K1T_toE (R : RInp) : K1T R.toE = fun r u => ((rE1T R r u : ℝ) : EReal) := by
  funext r u
  rw [K1T, acc10_eq_add_sum]
  simp only [toE_ids, toE_n1, toE_a1, toE_bo1, Sp_toE, Ap_toE, ← EReal.coe_mul, ← coe_sum,
    ← EReal.coe_add, relu_coe]
  exact congrArg Real.toEReal (level1_real R (R.ids r) (R.n1 r) (R.a1 r) u)

theorem K1N_toE (R : RInp) : K1N R.toE = fun e u => ((rE1N R e u : ℝ) : EReal) := by
  funext e u
  rw [K1N, acc10_eq_add_sum]
  simp only [n1flat, toE_n1, toE_n2, toE_a2, toE_bo1, Sp_toE, Ap_toE, ← EReal.coe_mul, ← coe_sum,
    ← EReal.coe_add, relu_coe]
  exact congrArg Real.toEReal
    (level1_real R (R.n1 (rowOf e) (colOf e)) (R.n2 e) (R.a2 e) u)

theorem sqT_toE (R : RInp) : sqT R.toE = ((rsumsq (rE1T R) : ℝ) : EReal) := by
  rw [sqT, K1T_toE]; exact sumsq_coe _

theorem sqN_toE (R : RInp) : sqN R.toE = ((rsumsq (rE1N R) : ℝ) : EReal) := by
  rw [sqN, K1N_toE]; exact sumsq_coe _

theorem nu1_toE (R : RInp) : nu1 R.toE = ((ν1 R : ℝ) : EReal) := by
  rw [nu1, sqT, K1T_toE]; exact sqrt_sumsq_coe _

theorem nu2_toE (R : RInp) : nu2 R.toE = ((ν2 R : ℝ) : EReal) := by
  rw [nu2, sqN, K1N_toE]; exact sqrt_sumsq_coe _

/-! ### Level zero of the rearranged form in real arithmetic -/

def rZT (R : RInp) (r : Fin 4096) (k : Fin 128) : ℝ :=
  rrelu ((∑ d, rE1T R r d * R.Ws0 d k) + ν1 R * R.bs0 k)

def rZN (R : RInp) (r : Fin 4096) (t : Fin 10) (k : Fin 128) : ℝ :=
  rrelu ((∑ d, rE1N R (flat r t) d * R.Wa0 d k) + ν2 R * R.ba0 k)

def rAGG (R : RInp) (r : Fin 4096) (k : Fin 128) : ℝ := ∑ t, R.a1 r t * rZN R r t k

def rPRE (R : RInp) (r : Fin 4096) (u : Fin 128) : ℝ :=
  (∑ k, rZT R r k * R.Wo0 (lo k) u) / ν1 R + (∑ k, rAGG R r k * R.Wo0 (hi k) u) / ν2 R
    + R.bo0 u

theorem ZT_toE (R : RInp) (r : Fin 4096) (k : Fin 128) :
    ZT R.toE r k = ((rZT R r k : ℝ) : EReal) := by
  simp only [ZT, rZT, K1T_toE, nu1_toE, toE_Ws0, toE_bs0, ← EReal.coe_mul, ← coe_sum,
    ← EReal.coe_add, relu_coe]

theorem ZN_toE (R : RInp) (r : Fin 4096) (t : Fin 10) (k : Fin 128) :
    ZN R.toE r t k = ((rZN R r t k : ℝ) : EReal) := by
  simp only [ZN, rZN, K1N_toE, nu2_toE, toE_Wa0, toE_ba0, ← EReal.coe_mul, ← coe_sum,
    ← EReal.coe_add, relu_coe]

theorem AGG_toE (R : RInp) (r : Fin 4096) (k : Fin 128) :
    AGG R.toE r k = ((rAGG R r k : ℝ) : EReal) := by
  simp only [AGG, rAGG, ZN_toE, toE_a1, ← EReal.coe_mul, ← coe_sum]

theorem PRE_toE (R : RInp) (h1 : ν1 R ≠ 0) (h2 : ν2 R ≠ 0) (r : Fin 4096) (u : Fin 128) :
    PRE R.toE r u = ((rPRE R r u : ℝ) : EReal) := by
  simp only [PRE, rPRE, ZT_toE, AGG_toE, nu1_toE, nu2_toE, toE_Wo0, toE_bo0, ← EReal.coe_mul,
    ← coe_sum, div_coe_coe _ h1, div_coe_coe _ h2, ← EReal.coe_add]

/-- A dense rectified layer on the normalised level one is the layer on the unnormalised level
    one with the bias scaled by the norm, divided by the norm. -/
theorem rdense_H1T (R : RInp) (h1 : 0 < ν1 R) (r : Fin 4096) (k : Fin 128) :
    rdense (rH1T R r) R.Ws0 R.bs0 k = rZT R r k / ν1 R :=
  dense_scale h1 (fun d => rE1T R r d) (fun d => R.Ws0 d k) (R.bs0 k)

theorem rdense_H1N (R : RInp) (h2 : 0 < ν2 R) (r : Fin 4096) (t : Fin 10) (k : Fin 128) :
    rdense (rH1N R (flat r t)) R.Wa0 R.ba0 k = rZN R r t k / ν2 R :=
  dense_scale h2 (fun d => rE1N R (flat r t) d) (fun d => R.Wa0 d k) (R.ba0 k)

/-- Level zero: dividing each half of the output layer by the norm its inputs were not divided
    by gives the reference's level zero. -/
theorem level0_real (R : RInp) (h1 : 0 < ν1 R) (h2 : 0 < ν2 R) (r : Fin 4096) (u : Fin 128) :
    rrelu (rPRE R r u) = rE0 R r u := by
  have e1 : ∑ k, rdense (rH1T R r) R.Ws0 R.bs0 k * R.Wo0 (lo k) u
      = (∑ k, rZT R r k * R.Wo0 (lo k) u) / ν1 R := by
    simp only [rdense_H1T R h1]; exact sum_div_mul _ _ _
  have e2 : ∑ k, (∑ t, R.a1 r t * rdense (rH1N R (flat r t)) R.Wa0 R.ba0 k) * R.Wo0 (hi k) u
      = (∑ k, rAGG R r k * R.Wo0 (hi k) u) / ν2 R := by
    simp only [rdense_H1N R h2]; exact sum_sum_div_mul _ _ _ _
  unfold rPRE
  rw [← e1, ← e2]
  rfl

theorem K0_toE (R : RInp) (h1 : 0 < ν1 R) (h2 : 0 < ν2 R) :
    K0 R.toE = fun r u => ((rE0 R r u : ℝ) : EReal) := by
  funext r u
  rw [K0, PRE_toE R h1.ne' h2.ne', relu_coe, level0_real R h1 h2]

theorem sq0_toE (R : RInp) (h1 : 0 < ν1 R) (h2 : 0 < ν2 R) :
    sq0 R.toE = ((rsumsq (rE0 R) : ℝ) : EReal) := by
  rw [sq0, K0_toE R h1 h2]; exact sumsq_coe _

theorem nu0_toE (R : RInp) (h1 : 0 < ν1 R) (h2 : 0 < ν2 R) :
    nu0 R.toE = ((ν0 R : ℝ) : EReal) := by
  rw [nu0, sq0, K0_toE R h1 h2]; exact sqrt_sumsq_coe _

/-! ### The result of the rearranged form in real arithmetic -/

/-- The final layer: the norm of level zero is carried as a factor on the bias and divided out
    at the end. -/
theorem out_real (R : RInp) (h0 : 0 < ν0 R) (r : Fin 4096) (u : Fin 128) :
    rrelu ((∑ k, rE0 R r k * R.Wemb k u) + ν0 R * R.bemb u) * (1 / ν0 R) = rOUT R r u := by
  rw [mul_one_div]
  exact (dense_scale h0 (fun k => rE0 R r k) (fun k => R.Wemb k u) (R.bemb u)).symm

theorem OUTker_toE (R : RInp) (h1 : 0 < ν1 R) (h2 : 0 < ν2 R) (h0 : 0 < ν0 R)
    (r : Fin 4096) (u : Fin 128) : OUTker R.toE r u = ((rOUT R r u : ℝ) : EReal) := by
  simp only [OUTker, K0_toE R h1 h2, nu0_toE R h1 h2, toE_Wemb, toE_bemb, div_one_coe h0.ne',
    ← EReal.coe_mul, ← coe_sum, ← EReal.coe_add, relu_coe]
  exact congrArg Real.toEReal (out_real R h0 r u)

/-! ### The theorems on arguments with real entries -/

variable {I : Inp}

/-! #### Level one: pushing the output matrix through the weighted sum -/

theorem K1T_eq (hI : I.Real) (r : Fin 4096) (u : Fin 128) : K1T I r u = E1T I r u := by
  obtain ⟨R, rfl⟩ := hI.exists_toE
  rw [K1T_toE, E1T_toE]

theorem K1N_eq (hI : I.Real) (e : Fin 40960) (u : Fin 128) : K1N I e u = E1N I e u := by
  obtain ⟨R, rfl⟩ := hI.exists_toE
  rw [K1N_toE, E1N_toE]

theorem sqT_eq (hI : I.Real) : sqT I = sumsq (E1T I) := by
  obtain ⟨R, rfl⟩ := hI.exists_toE
  rw [sqT, K1T_toE, E1T_toE]

theorem sqN_eq (hI : I.Real) : sqN I = sumsq (E1N I) := by
  obtain ⟨R, rfl⟩ := hI.exists_toE
  rw [sqN, K1N_toE, E1N_toE]

theorem nu1_eq (hI : I.Real) : nu1 I = nrm (E1T I) := congrArg Ideal.sqrt (sqT_eq hI)

theorem nu2_eq (hI : I.Real) : nu2 I = nrm (E1N I) := congrArg Ideal.sqrt (sqN_eq hI)

/-! #### Level zero: carrying the norms as scalar factors -/

theorem K0_eq (hI : I.Real) (hP : I.Pos) (r : Fin 4096) (u : Fin 128) : K0 I r u = E0 I r u := by
  obtain ⟨R, rfl⟩ := hI.exists_toE
  obtain ⟨h1, h2, _⟩ := hP.real
  rw [K0_toE R h1 h2, E0_toE R h1.ne' h2.ne']

theorem sq0_eq (hI : I.Real) (hP : I.Pos) : sq0 I = sumsq (E0 I) := by
  obtain ⟨R, rfl⟩ := hI.exists_toE
  obtain ⟨h1, h2, _⟩ := hP.real
  rw [sq0, K0_toE R h1 h2, E0_toE R h1.ne' h2.ne']

theorem nu0_eq (hI : I.Real) (hP : I.Pos) : nu0 I = nrm (E0 I) :=
  congrArg Ideal.sqrt (sq0_eq hI hP)

/-! #### The result -/

theorem OUT_eq (hI : I.Real) (hP : I.Pos) (r : Fin 4096) (u : Fin 128) :
    OUTker I r u = OUTref I r u := by
  obtain ⟨R, rfl⟩ := hI.exists_toE
  obtain ⟨h1, h2, h0⟩ := hP.real
  rw [OUTker_toE R h1 h2 h0, OUTref_toE R h1.ne' h2.ne' h0.ne']

/-! #### Every intermediate quantity is a real number -/

theorem Sp_real (hI : I.Real) (n : Fin 100000) (u : Fin 128) : ∃ x : ℝ, Sp I n u = (x : EReal) := by
  obtain ⟨R, rfl⟩ := hI.exists_toE
  exact ⟨_, Sp_toE R n u⟩

theorem Ap_real (hI : I.Real) (n : Fin 100000) (u : Fin 128) : ∃ x : ℝ, Ap I n u = (x : EReal) := by
  obtain ⟨R, rfl⟩ := hI.exists_toE
  exact ⟨_, Ap_toE R n u⟩

theorem K1T_real (hI : I.Real) (r : Fin 4096) (u : Fin 128) :
    ∃ x : ℝ, 0 ≤ x ∧ K1T I r u = (x : EReal) := by
  obtain ⟨R, rfl⟩ := hI.exists_toE
  exact ⟨_, rE1T_nonneg R r u, congrFun (congrFun (K1T_toE R) r) u⟩

theorem K1N_real (hI : I.Real) (e : Fin 40960) (u : Fin 128) :
    ∃ x : ℝ, 0 ≤ x ∧ K1N I e u = (x : EReal) := by
  obtain ⟨R, rfl⟩ := hI.exists_toE
  exact ⟨_, rE1N_nonneg R e u, congrFun (congrFun (K1N_toE R) e) u⟩

theorem E1T_real (hI : I.Real) (r : Fin 4096) (u : Fin 128) :
    ∃ x : ℝ, 0 ≤ x ∧ E1T I r u = (x : EReal) := by
  obtain ⟨R, rfl⟩ := hI.exists_toE
  exact ⟨_, rE1T_nonneg R r u, congrFun (congrFun (E1T_toE R) r) u⟩

theorem E1N_real (hI : I.Real) (e : Fin 40960) (u : Fin 128) :
    ∃ x : ℝ, 0 ≤ x ∧ E1N I e u = (x : EReal) := by
  obtain ⟨R, rfl⟩ := hI.exists_toE
  exact ⟨_, rE1N_nonneg R e u, congrFun (congrFun (E1N_toE R) e) u⟩

theorem sqT_real (hI : I.Real) : ∃ x : ℝ, 0 ≤ x ∧ sqT I = (x : EReal) := by
  obtain ⟨R, rfl⟩ := hI.exists_toE
  exact ⟨_, rsumsq_nonneg _, sqT_toE R⟩

theorem sqN_real (hI : I.Real) : ∃ x : ℝ, 0 ≤ x ∧ sqN I = (x : EReal) := by
  obtain ⟨R, rfl⟩ := hI.exists_toE
  exact ⟨_, rsumsq_nonneg _, sqN_toE R⟩

theorem nu1_real (hI : I.Real) : ∃ x : ℝ, 0 ≤ x ∧ nu1 I = (x : EReal) := by
  obtain ⟨R, rfl⟩ := hI.exists_toE
  exact ⟨_, ν1_nonneg R, nu1_toE R⟩

theorem nu2_real (hI : I.Real) : ∃ x : ℝ, 0 ≤ x ∧ nu2 I = (x : EReal) := by
  obtain ⟨R, rfl⟩ := hI.exists_toE
  exact ⟨_, ν2_nonneg R, nu2_toE R⟩

theorem nu1_pos (hI : I.Real) (hP : I.Pos) : ∃ x : ℝ, 0 < x ∧ nu1 I = (x : EReal) := by
  obtain ⟨R, rfl⟩ := hI.exists_toE
  exact ⟨_, hP.real.1, nu1_toE R⟩

theorem nu2_pos (hI : I.Real) (hP : I.Pos) : ∃ x : ℝ, 0 < x ∧ nu2 I = (x : EReal) := by
  obtain ⟨R, rfl⟩ := hI.exists_toE
  exact ⟨_, hP.real.2.1, nu2_toE R⟩

theorem ZT_real (hI : I.Real) (r : Fin 4096) (k : Fin 128) :
    ∃ x : ℝ, 0 ≤ x ∧ ZT I r k = (x : EReal) := by
  obtain ⟨R, rfl⟩ := hI.exists_toE
  exact ⟨_, rrelu_nonneg _, ZT_toE R r k⟩

theorem ZN_real (hI : I.Real) (r : Fin 4096) (t : Fin 10) (k : Fin 128) :
    ∃ x : ℝ, 0 ≤ x ∧ ZN I r t k = (x : EReal) := by
  obtain ⟨R, rfl⟩ := hI.exists_toE
  exact ⟨_, rrelu_nonneg _, ZN_toE R r t k⟩

theorem AGG_real (hI : I.Real) (r : Fin 4096) (k : Fin 128) : ∃ x : ℝ, AGG I r k = (x : EReal) := by
  obtain ⟨R, rfl⟩ := hI.exists_toE
  exact ⟨_, AGG_toE R r k⟩

theorem PRE_real (hI : I.Real) (hP : I.Pos) (r : Fin 4096) (u : Fin 128) :
    ∃ x : ℝ, PRE I r u = (x : EReal) := by
  obtain ⟨R, rfl⟩ := hI.exists_toE
  obtain ⟨h1, h2, _⟩ := hP.real
  exact ⟨_, PRE_toE R h1.ne' h2.ne' r u⟩

theorem K0_real (hI : I.Real) (hP : I.Pos) (r : Fin 4096) (u : Fin 128) :
    ∃ x : ℝ, 0 ≤ x ∧ K0 I r u = (x : EReal) := by
  obtain ⟨R, rfl⟩ := hI.exists_toE
  obtain ⟨h1, h2, _⟩ := hP.real
  exact ⟨_, rE0_nonneg R r u, congrFun (congrFun (K0_toE R h1 h2) r) u⟩

theorem sq0_real (hI : I.Real) (hP : I.Pos) : ∃ x : ℝ, 0 ≤ x ∧ sq0 I = (x : EReal) := by
  obtain ⟨R, rfl⟩ := hI.exists_toE
  obtain ⟨h1, h2, _⟩ := hP.real
  exact ⟨_, rsumsq_nonneg _, sq0_toE R h1 h2⟩

theorem nu0_pos (hI : I.Real) (hP : I.Pos) : ∃ x : ℝ, 0 < x ∧ nu0 I = (x : EReal) := by
  obtain ⟨R, rfl⟩ := hI.exists_toE
  obtain ⟨h1, h2, h0⟩ := hP.real
  exact ⟨_, h0, nu0_toE R h1 h2⟩

theorem OUTker_real (hI : I.Real) (hP : I.Pos) (r : Fin 4096) (u : Fin 128) :
    ∃ x : ℝ, 0 ≤ x ∧ OUTker I r u = (x : EReal) := by
  obtain ⟨R, rfl⟩ := hI.exists_toE
  obtain ⟨h1, h2, h0⟩ := hP.real
  exact ⟨_, rOUT_nonneg R r u, OUTker_toE R h1 h2 h0 r u⟩

theorem H1T_real (hI : I.Real) (hP : I.Pos) (r : Fin 4096) (u : Fin 128) :
    ∃ x : ℝ, 0 ≤ x ∧ H1T I r u = (x : EReal) := by
  obtain ⟨R, rfl⟩ := hI.exists_toE
  obtain ⟨h1, _, _⟩ := hP.real
  exact ⟨_, div_nonneg (rE1T_nonneg R r u) h1.le, congrFun (congrFun (H1T_toE R h1.ne') r) u⟩

theorem H1N_real (hI : I.Real) (hP : I.Pos) (e : Fin 40960) (u : Fin 128) :
    ∃ x : ℝ, 0 ≤ x ∧ H1N I e u = (x : EReal) := by
  obtain ⟨R, rfl⟩ := hI.exists_toE
  obtain ⟨_, h2, _⟩ := hP.real
  exact ⟨_, div_nonneg (rE1N_nonneg R e u) h2.le, congrFun (congrFun (H1N_toE R h2.ne') e) u⟩

theorem E0_real (hI : I.Real) (hP : I.Pos) (r : Fin 4096) (u : Fin 128) :
    ∃ x : ℝ, 0 ≤ x ∧ E0 I r u = (x : EReal) := by
  obtain ⟨R, rfl⟩ := hI.exists_toE
  obtain ⟨h1, h2, _⟩ := hP.real
  exact ⟨_, rE0_nonneg R r u, congrFun (congrFun (E0_toE R h1.ne' h2.ne') r) u⟩

theorem H0_real (hI : I.Real) (hP : I.Pos) (r : Fin 4096) (u : Fin 128) :
    ∃ x : ℝ, 0 ≤ x ∧ H0 I r u = (x : EReal) := by
  obtain ⟨R, rfl⟩ := hI.exists_toE
  obtain ⟨h1, h2, h0⟩ := hP.real
  exact ⟨_, div_nonneg (rE0_nonneg R r u) h0.le,
    congrFun (congrFun (H0_toE R h1.ne' h2.ne' h0.ne') r) u⟩

theorem OUTref_real (hI : I.Real) (hP : I.Pos) (r : Fin 4096) (u : Fin 128) :
    ∃ x : ℝ, 0 ≤ x ∧ OUTref I r u = (x : EReal) := by
  obtain ⟨R, rfl⟩ := hI.exists_toE
  obtain ⟨h1, h2, h0⟩ := hP.real
  exact ⟨_, rOUT_nonneg R r u, OUTref_toE R h1.ne' h2.ne' h0.ne' r u⟩

end Cert.Spec

end
-- ==== Proof.PreBridge.lean ====
import proofs.«213116_g69346541961480_cont_9to1_m_612_34_alg».proof.Proof.PreBridgeOps
import proofs.«213116_g69346541961480_cont_9to1_m_612_34_alg».proof.Proof.SpecAlgebra

/-!
  The embeddings and Frobenius norms the input domain speaks of are the reference form's: with the
  argument arrays read as the twenty functions of coordinates (`inpOf`), the unnormalised
  level-one embeddings of the targets and of the one-hop neighbours and the unnormalised
  level-zero embedding are `E1T`, `E1N`, `E0` entry by entry, and their Frobenius norms are the
  three norms the reference divides by.  Hence an argument tuple in the input domain has real
  entries and positive norms.
-/

noncomputable section

namespace Cert.PreBridge

open Idealize.ShloMosaic Idealize.ShloMosaic.ValueIdx
open Cert.Pre_input_domain Cert.Pre_input_domain.Facts Cert.PreDecode
open scoped BigOperators

variable [Facts]

variable (a0 : FVec Ideal S100000x128 .f32) (a1 : IVec S4096 32) (a2 : IVec S4096x10 32)
  (a3 : FVec Ideal S4096x10 .f32) (a4 : IVec S40960x10 32) (a5 : FVec Ideal S40960x10 .f32)
  (a6 : FVec Ideal S128x128 .f32) (a7 : FVec Ideal S128 .f32) (a8 : FVec Ideal S128x128 .f32)
  (a9 : FVec Ideal S128 .f32) (a10 : FVec Ideal S256x128 .f32) (a11 : FVec Ideal S128 .f32)
  (a12 : FVec Ideal S128x128 .f32) (a13 : FVec Ideal S128 .f32) (a14 : FVec Ideal S128x128 .f32)
  (a15 : FVec Ideal S128 .f32) (a16 : FVec Ideal S256x128 .f32) (a17 : FVec Ideal S128 .f32)
  (a18 : FVec Ideal S128x128 .f32) (a19 : FVec Ideal S128 .f32)

/-- The twenty argument arrays as functions of coordinates.  An index word is read as the natural
    number it holds, reduced below the table's 100000 rows (the word itself when it is in range). -/
def inpOf : Cert.Spec.Inp where
  X := fun i j => a0 (ix2 i j)
  ids := fun r => ⟨(a1 (ix1 r)).toNat % 100000, Nat.mod_lt _ (by norm_num)⟩
  n1 := fun r t => ⟨(a2 (ix2 r t)).toNat % 100000, Nat.mod_lt _ (by norm_num)⟩
  a1 := fun r t => a3 (ix2 r t)
  n2 := fun e t => ⟨(a4 (ix2 e t)).toNat % 100000, Nat.mod_lt _ (by norm_num)⟩
  a2 := fun e t => a5 (ix2 e t)
  Ws1 := fun d k => a6 (ix2 d k)
  bs1 := fun k => a7 (ix1 k)
  Wa1 := fun d k => a8 (ix2 d k)
  ba1 := fun k => a9 (ix1 k)
  Wo1 := fun k u => a10 (ix2 k u)
  bo1 := fun u => a11 (ix1 u)
  Ws0 := fun d k => a12 (ix2 d k)
  bs0 := fun k => a13 (ix1 k)
  Wa0 := fun d k => a14 (ix2 d k)
  ba0 := fun k => a15 (ix1 k)
  Wo0 := fun k u => a16 (ix2 k u)
  bo0 := fun u => a17 (ix1 u)
  Wemb := fun d k => a18 (ix2 d k)
  bemb := fun k => a19 (ix1 k)

/-! ### Index words in range are the rows they name -/

theorem ids_eq (rng1 : ∀ i, (a1 i).toNat < 100000 ∧ (a1 i).toInt = ((a1 i).toNat : ℤ)) (r : Fin 4096) :
    (⟨(a1 (ix1 r)).toNat, (rng1 (ix1 r)).1⟩ : Fin 100000) = (inpOf a0 a1 a2 a3 a4 a5 a6 a7 a8 a9 a10 a11 a12 a13 a14 a15 a16 a17 a18 a19).ids r :=
  Fin.ext (Nat.mod_eq_of_lt (rng1 (ix1 r)).1).symm

theorem n1_eq (rng2 : ∀ i, (a2 i).toNat < 100000 ∧ (a2 i).toInt = ((a2 i).toNat : ℤ))
    (r : Fin 4096) (t : Fin 10) :
    (⟨(a2 (ix2 r t)).toNat, (rng2 (ix2 r t)).1⟩ : Fin 100000) = (inpOf a0 a1 a2 a3 a4 a5 a6 a7 a8 a9 a10 a11 a12 a13 a14 a15 a16 a17 a18 a19).n1 r t :=
  Fin.ext (Nat.mod_eq_of_lt (rng2 (ix2 r t)).1).symm

theorem n2_eq (rng4 : ∀ i, (a4 i).toNat < 100000 ∧ (a4 i).toInt = ((a4 i).toNat : ℤ))
    (e : Fin 40960) (t : Fin 10) :
    (⟨(a4 (ix2 e t)).toNat, (rng4 (ix2 e t)).1⟩ : Fin 100000) = (inpOf a0 a1 a2 a3 a4 a5 a6 a7 a8 a9 a10 a11 a12 a13 a14 a15 a16 a17 a18 a19).n2 e t :=
  Fin.ext (Nat.mod_eq_of_lt (rng4 (ix2 e t)).1).symm

/-! ### Level one -/

theorem eT1_apply
    (rng1 : ∀ i, (a1 i).toNat < 100000 ∧ (a1 i).toInt = ((a1 i).toNat : ℤ))
    (rng2 : ∀ i, (a2 i).toNat < 100000 ∧ (a2 i).toInt = ((a2 i).toNat : ℤ))
    (r : Fin 4096) (u : Fin 128) :
    eT1 a0 a1 a2 a3 a6 a7 a8 a9 a10 a11 (ix2 r u) = Cert.Spec.E1T (inpOf a0 a1 a2 a3 a4 a5 a6 a7 a8 a9 a10 a11 a12 a13 a14 a15 a16 a17 a18 a19) r u := by
  have hnode : (fun (r : Fin 4096) (d : Fin 128) => rowsT a0 a1 (ix2 r d))
      = fun r => (inpOf a0 a1 a2 a3 a4 a5 a6 a7 a8 a9 a10 a11 a12 a13 a14 a15 a16 a17 a18 a19).X ((inpOf a0 a1 a2 a3 a4 a5 a6 a7 a8 a9 a10 a11 a12 a13 a14 a15 a16 a17 a18 a19).ids r) := by
    funext r d
    rw [rowsT_apply a0 a1 r d (rng1 (ix1 r)).1 (rng1 (ix1 r)).2, ids_eq a0 a1 a2 a3 a4 a5 a6 a7 a8 a9 a10 a11 a12 a13 a14 a15 a16 a17 a18 a19 rng1 r]
    rfl
  have hneigh : (fun (r : Fin 4096) (t : Fin 10) (d : Fin 128) => rowsN1 a0 a2 (ix3 r t d))
      = fun r t => (inpOf a0 a1 a2 a3 a4 a5 a6 a7 a8 a9 a10 a11 a12 a13 a14 a15 a16 a17 a18 a19).X ((inpOf a0 a1 a2 a3 a4 a5 a6 a7 a8 a9 a10 a11 a12 a13 a14 a15 a16 a17 a18 a19).n1 r t) := by
    funext r t d
    rw [rowsN1_apply a0 a2 r t d (rng2 (ix2 r t)).1 (rng2 (ix2 r t)).2, n1_eq a0 a1 a2 a3 a4 a5 a6 a7 a8 a9 a10 a11 a12 a13 a14 a15 a16 a17 a18 a19 rng2 r t]
    rfl
  unfold eT1
  rw [emb4096_apply, hnode, hneigh]
  rfl

theorem nuT1_eq
    (rng1 : ∀ i, (a1 i).toNat < 100000 ∧ (a1 i).toInt = ((a1 i).toNat : ℤ))
    (rng2 : ∀ i, (a2 i).toNat < 100000 ∧ (a2 i).toInt = ((a2 i).toNat : ℤ)) :
    nuT1 a0 a1 a2 a3 a6 a7 a8 a9 a10 a11 ix0 = Cert.Spec.nrm (Cert.Spec.E1T (inpOf a0 a1 a2 a3 a4 a5 a6 a7 a8 a9 a10 a11 a12 a13 a14 a15 a16 a17 a18 a19)) := by
  unfold nuT1
  rw [fro4096_eq]
  exact congrArg Cert.Spec.nrm (funext fun r => funext fun u => eT1_apply a0 a1 a2 a3 a4 a5 a6 a7 a8 a9 a10 a11 a12 a13 a14 a15 a16 a17 a18 a19 rng1 rng2 r u)

theorem eN1_apply
    (rng2 : ∀ i, (a2 i).toNat < 100000 ∧ (a2 i).toInt = ((a2 i).toNat : ℤ))
    (rng4 : ∀ i, (a4 i).toNat < 100000 ∧ (a4 i).toInt = ((a4 i).toNat : ℤ))
    (e : Fin 40960) (u : Fin 128) :
    eN1 a0 a2 a4 a5 a6 a7 a8 a9 a10 a11 (ix2 e u) = Cert.Spec.E1N (inpOf a0 a1 a2 a3 a4 a5 a6 a7 a8 a9 a10 a11 a12 a13 a14 a15 a16 a17 a18 a19) e u := by
  have hnode : (fun (e : Fin 40960) (d : Fin 128) =>
        shapeCast S40960x128 (rowsN1 a0 a2) shapeCasts_S4096x10x128_S40960x128 (ix2 e d))
      = fun e => (inpOf a0 a1 a2 a3 a4 a5 a6 a7 a8 a9 a10 a11 a12 a13 a14 a15 a16 a17 a18 a19).X (Cert.Spec.n1flat (inpOf a0 a1 a2 a3 a4 a5 a6 a7 a8 a9 a10 a11 a12 a13 a14 a15 a16 a17 a18 a19) e) := by
    funext e d
    rw [rowsN1_flat]
    have he : e = Cert.Spec.flat (Cert.Spec.rowOf e) (Cert.Spec.colOf e) :=
      (Cert.Spec.flat_rowOf_colOf e).symm
    refine (congrArg (fun e' => rowsN1flat a0 a2 (ix2 e' d)) he).trans ?_
    refine (rowsN1flat_apply a0 a2 (Cert.Spec.rowOf e) (Cert.Spec.colOf e) d
      (rng2 (ix2 (Cert.Spec.rowOf e) (Cert.Spec.colOf e))).1
      (rng2 (ix2 (Cert.Spec.rowOf e) (Cert.Spec.colOf e))).2).trans ?_
    rw [n1_eq a0 a1 a2 a3 a4 a5 a6 a7 a8 a9 a10 a11 a12 a13 a14 a15 a16 a17 a18 a19 rng2 (Cert.Spec.rowOf e) (Cert.Spec.colOf e)]
    rfl
  have hneigh : (fun (e : Fin 40960) (t : Fin 10) (d : Fin 128) => rowsN2 a0 a4 (ix3 e t d))
      = fun e t => (inpOf a0 a1 a2 a3 a4 a5 a6 a7 a8 a9 a10 a11 a12 a13 a14 a15 a16 a17 a18 a19).X ((inpOf a0 a1 a2 a3 a4 a5 a6 a7 a8 a9 a10 a11 a12 a13 a14 a15 a16 a17 a18 a19).n2 e t) := by
    funext e t d
    rw [rowsN2_apply a0 a4 e t d (rng4 (ix2 e t)).1 (rng4 (ix2 e t)).2, n2_eq a0 a1 a2 a3 a4 a5 a6 a7 a8 a9 a10 a11 a12 a13 a14 a15 a16 a17 a18 a19 rng4 e t]
    rfl
  unfold eN1
  rw [emb40960_apply, hnode, hneigh]
  rfl

theorem nuN1_eq
    (rng2 : ∀ i, (a2 i).toNat < 100000 ∧ (a2 i).toInt = ((a2 i).toNat : ℤ))
    (rng4 : ∀ i, (a4 i).toNat < 100000 ∧ (a4 i).toInt = ((a4 i).toNat : ℤ)) :
    nuN1 a0 a2 a4 a5 a6 a7 a8 a9 a10 a11 ix0 = Cert.Spec.nrm (Cert.Spec.E1N (inpOf a0 a1 a2 a3 a4 a5 a6 a7 a8 a9 a10 a11 a12 a13 a14 a15 a16 a17 a18 a19)) := by
  unfold nuN1
  rw [fro40960_eq]
  exact congrArg Cert.Spec.nrm (funext fun e => funext fun u => eN1_apply a0 a1 a2 a3 a4 a5 a6 a7 a8 a9 a10 a11 a12 a13 a14 a15 a16 a17 a18 a19 rng2 rng4 e u)

/-! ### Level zero -/

theorem eT0_apply
    (rng1 : ∀ i, (a1 i).toNat < 100000 ∧ (a1 i).toInt = ((a1 i).toNat : ℤ))
    (rng2 : ∀ i, (a2 i).toNat < 100000 ∧ (a2 i).toInt = ((a2 i).toNat : ℤ))
    (rng4 : ∀ i, (a4 i).toNat < 100000 ∧ (a4 i).toInt = ((a4 i).toNat : ℤ))
    (r : Fin 4096) (u : Fin 128) :
    eT0 a0 a1 a2 a3 a4 a5 a6 a7 a8 a9 a10 a11 a12 a13 a14 a15 a16 a17 (ix2 r u) = Cert.Spec.E0 (inpOf a0 a1 a2 a3 a4 a5 a6 a7 a8 a9 a10 a11 a12 a13 a14 a15 a16 a17 a18 a19) r u := by
  have hnode : (fun (r : Fin 4096) (d : Fin 128) =>
        Host.divf (eT1 a0 a1 a2 a3 a6 a7 a8 a9 a10 a11)
          (broadcastInDim S4096x128 ![] bcast_S_S4096x128 (nuT1 a0 a1 a2 a3 a6 a7 a8 a9 a10 a11)) (ix2 r d))
      = Cert.Spec.H1T (inpOf a0 a1 a2 a3 a4 a5 a6 a7 a8 a9 a10 a11 a12 a13 a14 a15 a16 a17 a18 a19) := by
    funext r d
    rw [hostDivf_apply, broadcastInDim_scalar_apply, eT1_apply a0 a1 a2 a3 a4 a5 a6 a7 a8 a9 a10 a11 a12 a13 a14 a15 a16 a17 a18 a19 rng1 rng2,
      nuT1_eq a0 a1 a2 a3 a4 a5 a6 a7 a8 a9 a10 a11 a12 a13 a14 a15 a16 a17 a18 a19 rng1 rng2]
    rfl
  have hneigh : (fun (r : Fin 4096) (t : Fin 10) (d : Fin 128) =>
        shapeCast S4096x10x128
          (Host.divf (eN1 a0 a2 a4 a5 a6 a7 a8 a9 a10 a11)
            (broadcastInDim S40960x128 ![] bcast_S_S40960x128 (nuN1 a0 a2 a4 a5 a6 a7 a8 a9 a10 a11)))
          shapeCasts_S40960x128_S4096x10x128 (ix3 r t d))
      = fun r t => Cert.Spec.H1N (inpOf a0 a1 a2 a3 a4 a5 a6 a7 a8 a9 a10 a11 a12 a13 a14 a15 a16 a17 a18 a19) (Cert.Spec.flat r t) := by
    funext r t d
    rw [shapeCast_apply _ _ (ix3 r t d) (ix2 (Cert.Spec.flat r t) d) (by
      rw [Shape.rowMajor_val_two, Shape.rowMajor_val_three]
      show (10 * r.val + t.val) * 128 + d.val = (r.val * 10 + t.val) * 128 + d.val
      omega)]
    rw [hostDivf_apply, broadcastInDim_scalar_apply, eN1_apply a0 a1 a2 a3 a4 a5 a6 a7 a8 a9 a10 a11 a12 a13 a14 a15 a16 a17 a18 a19 rng2 rng4,
      nuN1_eq a0 a1 a2 a3 a4 a5 a6 a7 a8 a9 a10 a11 a12 a13 a14 a15 a16 a17 a18 a19 rng2 rng4]
    rfl
  unfold eT0
  rw [emb4096_apply, hnode, hneigh]
  rfl

theorem nuT0_eq
    (rng1 : ∀ i, (a1 i).toNat < 100000 ∧ (a1 i).toInt = ((a1 i).toNat : ℤ))
    (rng2 : ∀ i, (a2 i).toNat < 100000 ∧ (a2 i).toInt = ((a2 i).toNat : ℤ))
    (rng4 : ∀ i, (a4 i).toNat < 100000 ∧ (a4 i).toInt = ((a4 i).toNat : ℤ)) :
    nuT0 a0 a1 a2 a3 a4 a5 a6 a7 a8 a9 a10 a11 a12 a13 a14 a15 a16 a17 ix0 = Cert.Spec.nrm (Cert.Spec.E0 (inpOf a0 a1 a2 a3 a4 a5 a6 a7 a8 a9 a10 a11 a12 a13 a14 a15 a16 a17 a18 a19)) := by
  unfold nuT0
  rw [fro4096_eq]
  exact congrArg Cert.Spec.nrm
    (funext fun r => funext fun u => eT0_apply a0 a1 a2 a3 a4 a5 a6 a7 a8 a9 a10 a11 a12 a13 a14 a15 a16 a17 a18 a19 rng1 rng2 rng4 r u)

/-! ### What the input domain gives the specification -/

theorem real_of_decoded (hd : Decoded a0 a1 a2 a3 a4 a5 a6 a7 a8 a9 a10 a11 a12 a13 a14 a15 a16 a17 a18 a19) : (inpOf a0 a1 a2 a3 a4 a5 a6 a7 a8 a9 a10 a11 a12 a13 a14 a15 a16 a17 a18 a19).Real where
  X := fun i j => hd.fin0 (ix2 i j)
  a1 := fun i j => hd.fin3 (ix2 i j)
  a2 := fun i j => hd.fin5 (ix2 i j)
  Ws1 := fun i j => hd.fin6 (ix2 i j)
  bs1 := fun i => hd.fin7 (ix1 i)
  Wa1 := fun i j => hd.fin8 (ix2 i j)
  ba1 := fun i => hd.fin9 (ix1 i)
  Wo1 := fun i j => hd.fin10 (ix2 i j)
  bo1 := fun i => hd.fin11 (ix1 i)
  Ws0 := fun i j => hd.fin12 (ix2 i j)
  bs0 := fun i => hd.fin13 (ix1 i)
  Wa0 := fun i j => hd.fin14 (ix2 i j)
  ba0 := fun i => hd.fin15 (ix1 i)
  Wo0 := fun i j => hd.fin16 (ix2 i j)
  bo0 := fun i => hd.fin17 (ix1 i)
  Wemb := fun i j => hd.fin18 (ix2 i j)
  bemb := fun i => hd.fin19 (ix1 i)

theorem pos_of_decoded (hd : Decoded a0 a1 a2 a3 a4 a5 a6 a7 a8 a9 a10 a11 a12 a13 a14 a15 a16 a17 a18 a19) : (inpOf a0 a1 a2 a3 a4 a5 a6 a7 a8 a9 a10 a11 a12 a13 a14 a15 a16 a17 a18 a19).Pos where
  t := by rw [← nuT1_eq a0 a1 a2 a3 a4 a5 a6 a7 a8 a9 a10 a11 a12 a13 a14 a15 a16 a17 a18 a19 hd.rng1 hd.rng2]; exact hd.posT1
  n := by rw [← nuN1_eq a0 a1 a2 a3 a4 a5 a6 a7 a8 a9 a10 a11 a12 a13 a14 a15 a16 a17 a18 a19 hd.rng2 hd.rng4]; exact hd.posN1
  z := by rw [← nuT0_eq a0 a1 a2 a3 a4 a5 a6 a7 a8 a9 a10 a11 a12 a13 a14 a15 a16 a17 a18 a19 hd.rng1 hd.rng2 hd.rng4]; exact hd.posT0

end Cert.PreBridge

end
-- ==== Proof.RefBridgeTake.lean ====
/-
  Reading `jnp.take` of in-range indices. The row gather `x[ids]` carries an index normalisation (a negative index is
  wrapped once by the table's length) and a range guard (a row whose wrapped index is outside the table is filled with
  NaN). For index words that are natural numbers below the table's length both are the identity: the wrap keeps every
  word, the guard's mask is all ones, and the start-index column is the index vector reshaped.
-/
import Idealize.ShloMosaic.Lib.ReduceAll
import Idealize.ShloMosaic.Lib.ValueIdx
import Idealize.ShloMosaic.Lib.StableHlo.Predicate

noncomputable section

namespace Cert.RefBridge

open Idealize.ShloMosaic Idealize.ShloMosaic.ValueIdx

/-- A left fold by `and` from 1 over one-bit words that are all 1 is 1. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_all_one f l (fun n hn => h n (List.mem_cons_of_mem _ hn))

/-- A reduction by `and` of an all-ones array from an all-ones initial value is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_all_one x _ (fun n _ => hx n)

/-- THE RANGE GUARD of in-range words: the mask `(0 ≤ col) & (col ≤ 99999)`, reduced by `and`, is 1 at every index. -/
theorem inRange_ones {s t u : Shape} {axes : List (Fin s.rank)} (col z nn : IVec s 32) (init : IVec u 1)
    (hr : s.ReducesTo axes t) (hu : 0 < u.numel) (hz : ∀ i, z i = 0#32) (hn : ∀ i, nn i = 99999#32) (hi : ∀ k, init k = 1#1)
    (hcol : ∀ i, (col i).toNat < 100000 ∧ (col i).toInt = ((col i).toNat : ℤ)) (j : t.Idx) :
    Host.reduce IntOp.andi (andi (cmpi .sge col z) (cmpi .sle col nn)) init hr hu j = 1#1 := by
  refine reduce_andi_ones _ init hr hu (fun i => ?_) hi j
  show IntOp.andi (IntOp.cmpi .sge (col i) (z i)) (IntOp.cmpi .sle (col i) (nn i)) = 1#1
  rw [hz i, hn i]
  have z0 : (0#32 : BitVec 32).toInt = 0 := by decide
  have z1 : (99999#32 : BitVec 32).toInt = 99999 := by decide
  obtain ⟨h1, h2⟩ := hcol i
  refine IntOp.andi_eq_one.2 ⟨IntOp.cmpi_sge.2 ?_, IntOp.cmpi_sle.2 ?_⟩
  · rw [z0, h2]; omega
  · rw [z1, h2]; omega

/-- A select on an all-ones mask is its first operand. -/
theorem select_ones {α : Type} {s : Shape} (m : IVec s 1) (a b : s.Idx → α) (hm : ∀ i, m i = 1#1) : select m a b = a := by
  funext i
  show Scalar.select (m i) (a i) (b i) = a i
  rw [hm i, select_one]

/-- THE INDEX NORMALISATION of non-negative words: `select (ids < 0) (ids + c) ids` is `ids`. -/
theorem wrap_eq {s : Shape} (z c ids : IVec s 32) (hz : ∀ i, z i = 0#32)
    (h : ∀ i, (ids i).toInt = ((ids i).toNat : ℤ)) : select (cmpi .slt ids z) (addi ids c) ids = ids := by
  funext i
  show Scalar.select (IntOp.cmpi .slt (ids i) (z i)) (IntOp.addi (ids i) (c i)) (ids i) = ids i
  have hne : IntOp.cmpi .slt (ids i) (z i) = 0#1 := by
    apply eq_zero_of_ne_one
    rw [IntOp.cmpi_slt, hz i]
    have z0 : (0#32 : BitVec 32).toInt = 0 := by decide
    rw [z0, h i]; omega
  rw [hne, select_zero]

/-- A vector broadcast as an [n × 1] column reads, at `j`, the vector at `j`'s row. -/
theorem bcast_col_apply {α : Type} {n : Nat} (hb : (⟨1, ![n]⟩ : Shape).BroadcastsInDim ⟨2, ![n, 1]⟩ ![0])
    (v : (⟨1, ![n]⟩ : Shape).Idx → α) (j : (⟨2, ![n, 1]⟩ : Shape).Idx) :
    broadcastInDim ⟨2, ![n, 1]⟩ ![0] hb v j = v (ix1 (j 0)) := by
  simp only [broadcastInDim]
  congr 1
  funext a
  have ha : a = 0 := Subsingleton.elim _ _
  subst ha
  apply Fin.ext
  have hp := (j 0).isLt
  split
  · next h1 => change n = 1 at h1; show (0 : Nat) = (j 0).val; change (j 0).val < n at hp; omega
  · rfl

/-- A vector reshaped to an [n × 1] column reads, at `j`, the vector at `j`'s row. -/
theorem reshape_col_apply {α : Type} {n : Nat} (hs : (⟨2, ![n, 1]⟩ : Shape).numel = (⟨1, ![n]⟩ : Shape).numel)
    (v : (⟨1, ![n]⟩ : Shape).Idx → α) (j : (⟨2, ![n, 1]⟩ : Shape).Idx) :
    shapeCast ⟨2, ![n, 1]⟩ v hs j = v (ix1 (j 0)) := by
  show v (Shape.reshapeEquiv hs j) = _
  refine congrArg v (Shape.reshapeEquiv_eq_of_rowMajor hs ?_)
  rw [Shape.rowMajor_val_one, Shape.rowMajor_val_two]
  have h1 : (j 1).val = 0 := by have := (j 1).isLt; change (j 1).val < 1 at this; omega
  show (j 0).val = (j 0).val * 1 + (j 1).val
  omega

/-- So the broadcast column and the reshaped column are one array. -/
theorem bcast_col_eq_reshape {α : Type} {n : Nat} (hb : (⟨1, ![n]⟩ : Shape).BroadcastsInDim ⟨2, ![n, 1]⟩ ![0])
    (hs : (⟨2, ![n, 1]⟩ : Shape).numel = (⟨1, ![n]⟩ : Shape).numel) (v : (⟨1, ![n]⟩ : Shape).Idx → α) :
    broadcastInDim ⟨2, ![n, 1]⟩ ![0] hb v = shapeCast ⟨2, ![n, 1]⟩ v hs :=
  funext fun j => (bcast_col_apply hb v j).trans (reshape_col_apply hs v j).symm

end Cert.RefBridge

end
-- ==== Proof.RefBridge.lean ====
/-
  The reference's stages are the input domain's functions. On index words that are natural numbers below 100000 the three
  guarded gathers of the reference are plain row gathers; its convolution and norm stages are, operation by operation, the
  embeddings and Frobenius norms the input domain names. Hence its normalised embeddings are `eT1 / nuT1`, `eN1 / nuN1`,
  `eT0 / nuT0`, and its result at an entry is the final dense layer on the specification's `H0`: the reference form
  `OUTref`.
-/
import proofs.«213116_g69346541961480_cont_9to1_m_612_34_alg».proof.Proof.RefRun
import proofs.«213116_g69346541961480_cont_9to1_m_612_34_alg».proof.Proof.PreDecode
import proofs.«213116_g69346541961480_cont_9to1_m_612_34_alg».proof.Proof.PreBridge
import proofs.«213116_g69346541961480_cont_9to1_m_612_34_alg».proof.Proof.RefBridgeTake
import Idealize.ShloMosaic.Lib.IdealHost

noncomputable section

namespace Cert.RefBridge

open Idealize.ShloMosaic Idealize.ShloMosaic.ValueIdx
open Cert.ReferenceIdeal Cert.ReferenceIdeal.RefRun Cert.PreDecode

section Stages
variable {F : FTy → Type} [FloatOps F]

/-- Index words that are natural numbers below 100000, the same read signed or unsigned. -/
def InRange {s : Shape} (a : IVec s 32) : Prop := ∀ i, (a i).toNat < 100000 ∧ (a i).toInt = ((a i).toNat : ℤ)

/-- The guarded gather of 4096 in-range ids is the plain row gather. -/
theorem takeA_eq (x : FVec F S100000x128 .f32) (ids : IVec S4096 32) (h : InRange ids) : takeA x ids = rowsT x ids := by
  have hw : wrapA ids = ids := wrap_eq _ _ ids (fun _ => rfl) (fun i => (h i).2)
  have hc : colA ids = shapeCast S4096x1 ids Cert.Pre_input_domain.Facts.shapeCasts_S4096_S4096x1 := by
    unfold colA; rw [hw]; exact bcast_col_eq_reshape _ _ ids
  have hcol : InRange (colA ids) := by rw [hc]; intro k; exact h (Shape.reshapeEquiv _ k)
  have hm : ∀ i, broadcastInDim S4096x128 ![0] Facts₀.bcast_S4096_S4096x128_0 (inRangeA ids) i = 1#1 := by
    intro i
    show inRangeA ids _ = 1#1
    unfold inRangeA
    refine inRange_ones (colA ids) _ _ _ _ _ ?_ ?_ ?_ hcol _ <;> exact fun _ => rfl
  unfold takeA
  rw [select_ones _ _ _ hm, hc]
  rfl

/-- The guarded gather at the flattened one-hop ids is the flat one-hop gather. -/
theorem takeB_eq (x : FVec F S100000x128 .f32) (n1 : IVec S4096x10 32) (h : InRange n1) :
    takeB x (flatA n1) = rowsN1flat x n1 := by
  have hf : InRange (flatA n1) := fun i => h (Shape.reshapeEquiv _ i)
  have hw : wrapB (flatA n1) = flatA n1 := wrap_eq _ _ _ (fun _ => rfl) (fun i => (hf i).2)
  have hc : colB (flatA n1) = shapeCast S40960x1 (flatA n1) Cert.Pre_input_domain.Facts.shapeCasts_S40960_S40960x1 := by
    unfold colB; rw [hw]; exact bcast_col_eq_reshape _ _ _
  have hcol : InRange (colB (flatA n1)) := by rw [hc]; intro k; exact hf (Shape.reshapeEquiv _ k)
  have hm : ∀ i, broadcastInDim S40960x128 ![0] Facts₀.bcast_S40960_S40960x128_0 (inRangeB (flatA n1)) i = 1#1 := by
    intro i
    show inRangeB (flatA n1) _ = 1#1
    unfold inRangeB
    refine inRange_ones (colB (flatA n1)) _ _ _ _ _ ?_ ?_ ?_ hcol _ <;> exact fun _ => rfl
  unfold takeB
  rw [select_ones _ _ _ hm, hc]
  rfl

/-- The guarded gather at the flattened two-hop ids is the flat two-hop gather. -/
theorem takeC_eq (x : FVec F S100000x128 .f32) (n2 : IVec S40960x10 32) (h : InRange n2) :
    takeC x (flatB n2) = rowsN2flat x n2 := by
  have hf : InRange (flatB n2) := fun i => h (Shape.reshapeEquiv _ i)
  have hw : wrapC (flatB n2) = flatB n2 := wrap_eq _ _ _ (fun _ => rfl) (fun i => (hf i).2)
  have hc : colC (flatB n2) = shapeCast S409600x1 (flatB n2) Cert.Pre_input_domain.Facts.shapeCasts_S409600_S409600x1 := by
    unfold colC; rw [hw]; exact bcast_col_eq_reshape _ _ _
  have hcol : InRange (colC (flatB n2)) := by rw [hc]; intro k; exact hf (Shape.reshapeEquiv _ k)
  have hm : ∀ i, broadcastInDim S409600x128 ![0] Facts₀.bcast_S409600_S409600x128_0 (inRangeC (flatB n2)) i = 1#1 := by
    intro i
    show inRangeC (flatB n2) _ = 1#1
    unfold inRangeC
    refine inRange_ones (colC (flatB n2)) _ _ _ _ _ ?_ ?_ ?_ hcol _ <;> exact fun _ => rfl
  unfold takeC
  rw [select_ones _ _ _ hm, hc]
  rfl

/-- The reference's convolution stages are the input domain's, operation by operation. -/
theorem denseA_eq (h : FVec F S4096x128 .f32) (W : FVec F S128x128 .f32) (b : FVec F S128 .f32) :
    denseA h W b = selfEmb4096 h W b := rfl

theorem embedA_eq (node : FVec F S4096x128 .f32) (neigh : FVec F S4096x10x128 .f32) (alpha : FVec F S4096x10 .f32)
    (Ws : FVec F S128x128 .f32) (bs : FVec F S128 .f32) (Wa : FVec F S128x128 .f32) (ba : FVec F S128 .f32)
    (Wo : FVec F S256x128 .f32) (bo : FVec F S128 .f32) :
    embedA node neigh alpha Ws bs Wa ba Wo bo = emb4096 node neigh alpha Ws bs Wa ba Wo bo := rfl

theorem embedB_eq (node : FVec F S40960x128 .f32) (neigh : FVec F S40960x10x128 .f32) (alpha : FVec F S40960x10 .f32)
    (Ws : FVec F S128x128 .f32) (bs : FVec F S128 .f32) (Wa : FVec F S128x128 .f32) (ba : FVec F S128 .f32)
    (Wo : FVec F S256x128 .f32) (bo : FVec F S128 .f32) :
    embedB node neigh alpha Ws bs Wa ba Wo bo = emb40960 node neigh alpha Ws bs Wa ba Wo bo := rfl

theorem normA_eq (e : FVec F S4096x128 .f32) : normA e = fro4096 e := rfl
theorem normB_eq (e : FVec F S40960x128 .f32) : normB e = fro40960 e := rfl

variable (a0 : FVec F S100000x128 .f32) (a1 : IVec S4096 32) (a2 : IVec S4096x10 32) (a3 : FVec F S4096x10 .f32)
  (a4 : IVec S40960x10 32) (a5 : FVec F S40960x10 .f32) (a6 : FVec F S128x128 .f32) (a7 : FVec F S128 .f32)
  (a8 : FVec F S128x128 .f32) (a9 : FVec F S128 .f32) (a10 : FVec F S256x128 .f32) (a11 : FVec F S128 .f32)
  (a12 : FVec F S128x128 .f32) (a13 : FVec F S128 .f32) (a14 : FVec F S128x128 .f32) (a15 : FVec F S128 .f32)
  (a16 : FVec F S256x128 .f32) (a17 : FVec F S128 .f32) (a18 : FVec F S128x128 .f32) (a19 : FVec F S128 .f32)

/-- The targets' layer-1 embedding, normalised: the input domain's `eT1` divided by its norm `nuT1`. -/
theorem hT1_eq (h1 : InRange a1) (h2 : InRange a2) :
    hT1 a0 a1 a2 a3 a6 a7 a8 a9 a10 a11
      = Host.divf (eT1 a0 a1 a2 a3 a6 a7 a8 a9 a10 a11)
          (broadcastInDim S4096x128 ![] Facts₀.bcast_S_S4096x128 (nuT1 a0 a1 a2 a3 a6 a7 a8 a9 a10 a11)) := by
  unfold hT1 n1Feat
  rw [takeA_eq _ _ h1, takeB_eq _ _ h2]
  rfl

/-- The one-hop neighbours' layer-1 embedding, normalised: `eN1` divided by `nuN1`. -/
theorem hN1_eq (h2 : InRange a2) (h4 : InRange a4) :
    hN1 a0 a2 a4 a5 a6 a7 a8 a9 a10 a11
      = Host.divf (eN1 a0 a2 a4 a5 a6 a7 a8 a9 a10 a11)
          (broadcastInDim S40960x128 ![] Facts₀.bcast_S_S40960x128 (nuN1 a0 a2 a4 a5 a6 a7 a8 a9 a10 a11)) := by
  unfold hN1 n1Feat n2Feat
  rw [takeB_eq _ _ h2, takeC_eq _ _ h4]
  rfl

/-- The layer-0 embedding, normalised: `eT0` divided by `nuT0`. -/
theorem hT0_eq (h1 : InRange a1) (h2 : InRange a2) (h4 : InRange a4) :
    hT0 a0 a1 a2 a3 a4 a5 a6 a7 a8 a9 a10 a11 a12 a13 a14 a15 a16 a17
      = Host.divf (eT0 a0 a1 a2 a3 a4 a5 a6 a7 a8 a9 a10 a11 a12 a13 a14 a15 a16 a17)
          (broadcastInDim S4096x128 ![] Facts₀.bcast_S_S4096x128
            (nuT0 a0 a1 a2 a3 a4 a5 a6 a7 a8 a9 a10 a11 a12 a13 a14 a15 a16 a17)) := by
  unfold hT0
  rw [hT1_eq a0 a1 a2 a3 a6 a7 a8 a9 a10 a11 h1 h2, hN1_eq a0 a2 a4 a5 a6 a7 a8 a9 a10 a11 h2 h4]
  rfl

/-- THE REFERENCE'S RESULT over the input domain's functions: the final dense layer on `eT0 / nuT0`. -/
theorem result_pre (h1 : InRange a1) (h2 : InRange a2) (h4 : InRange a4) :
    result a0 a1 a2 a3 a4 a5 a6 a7 a8 a9 a10 a11 a12 a13 a14 a15 a16 a17 a18 a19
      = selfEmb4096
          (Host.divf (eT0 a0 a1 a2 a3 a4 a5 a6 a7 a8 a9 a10 a11 a12 a13 a14 a15 a16 a17)
            (broadcastInDim S4096x128 ![] Facts₀.bcast_S_S4096x128
              (nuT0 a0 a1 a2 a3 a4 a5 a6 a7 a8 a9 a10 a11 a12 a13 a14 a15 a16 a17)))
          a18 a19 := by
  unfold result
  rw [hT0_eq a0 a1 a2 a3 a4 a5 a6 a7 a8 a9 a10 a11 a12 a13 a14 a15 a16 a17 h1 h2 h4]
  rfl

end Stages

end Cert.RefBridge

/-! ## The result at an entry -/

namespace Cert.RefBridge

open Idealize.ShloMosaic Idealize.ShloMosaic.ValueIdx
open Cert.ReferenceIdeal Cert.ReferenceIdeal.RefRun Cert.PreDecode Cert.PreBridge

section Final

variable (a0 : FVec Ideal S100000x128 .f32) (a1 : IVec S4096 32) (a2 : IVec S4096x10 32) (a3 : FVec Ideal S4096x10 .f32)
  (a4 : IVec S40960x10 32) (a5 : FVec Ideal S40960x10 .f32) (a6 : FVec Ideal S128x128 .f32) (a7 : FVec Ideal S128 .f32)
  (a8 : FVec Ideal S128x128 .f32) (a9 : FVec Ideal S128 .f32) (a10 : FVec Ideal S256x128 .f32) (a11 : FVec Ideal S128 .f32)
  (a12 : FVec Ideal S128x128 .f32) (a13 : FVec Ideal S128 .f32) (a14 : FVec Ideal S128x128 .f32) (a15 : FVec Ideal S128 .f32)
  (a16 : FVec Ideal S256x128 .f32) (a17 : FVec Ideal S128 .f32) (a18 : FVec Ideal S128x128 .f32) (a19 : FVec Ideal S128 .f32)

/-- The normalised layer-0 embedding at an entry is the specification's `H0`: the entry of `E0` divided by the
    Euclidean norm of `E0`. -/
theorem h0_apply (hd : Decoded a0 a1 a2 a3 a4 a5 a6 a7 a8 a9 a10 a11 a12 a13 a14 a15 a16 a17 a18 a19)
    (r : Fin 4096) (d : Fin 128) :
    Host.divf (eT0 a0 a1 a2 a3 a4 a5 a6 a7 a8 a9 a10 a11 a12 a13 a14 a15 a16 a17)
        (broadcastInDim S4096x128 ![] Facts₀.bcast_S_S4096x128
          (nuT0 a0 a1 a2 a3 a4 a5 a6 a7 a8 a9 a10 a11 a12 a13 a14 a15 a16 a17)) (ix2 r d)
      = Cert.Spec.H0 (inpOf a0 a1 a2 a3 a4 a5 a6 a7 a8 a9 a10 a11 a12 a13 a14 a15 a16 a17 a18 a19) r d := by
  rw [hostDivf_apply, broadcastInDim_scalar_apply,
    eT0_apply a0 a1 a2 a3 a4 a5 a6 a7 a8 a9 a10 a11 a12 a13 a14 a15 a16 a17 a18 a19 hd.rng1 hd.rng2 hd.rng4,
    nuT0_eq a0 a1 a2 a3 a4 a5 a6 a7 a8 a9 a10 a11 a12 a13 a14 a15 a16 a17 a18 a19 hd.rng1 hd.rng2 hd.rng4]
  rfl

/-- THE REFERENCE'S RESULT, ENTRY BY ENTRY: on arguments in the input domain the reference's value at `(r, u)` is the
    specification's reference form `OUTref` of the arguments read as functions of coordinates. -/
theorem result_eq (hd : Decoded a0 a1 a2 a3 a4 a5 a6 a7 a8 a9 a10 a11 a12 a13 a14 a15 a16 a17 a18 a19)
    (r : Fin 4096) (u : Fin 128) :
    result (F := Ideal) a0 a1 a2 a3 a4 a5 a6 a7 a8 a9 a10 a11 a12 a13 a14 a15 a16 a17 a18 a19 (ix2 r u)
      = Cert.Spec.OUTref (inpOf a0 a1 a2 a3 a4 a5 a6 a7 a8 a9 a10 a11 a12 a13 a14 a15 a16 a17 a18 a19) r u := by
  rw [result_pre a0 a1 a2 a3 a4 a5 a6 a7 a8 a9 a10 a11 a12 a13 a14 a15 a16 a17 a18 a19 hd.rng1 hd.rng2 hd.rng4,
    selfEmb4096_apply]
  unfold Cert.Spec.OUTref Cert.Spec.dense
  simp only [h0_apply a0 a1 a2 a3 a4 a5 a6 a7 a8 a9 a10 a11 a12 a13 a14 a15 a16 a17 a18 a19 hd]
  rfl

end Final

end Cert.RefBridge

end
-- ==== Proof.MainStages.lean ====
/-
  What each host stretch of @main leaves in the buffers it writes, as the pure operation of the buffer it reads, and that
  it leaves every other buffer alone: bias rows reshaped from vectors, the two halves of a stacked weight matrix
  sliced out, tables flattened or regrouped row-major.
-/
import proofs.«213116_g69346541961480_cont_9to1_m_612_34_alg».proof.Proof.MainPreHost

noncomputable section

namespace Cert.KernelIdeal.Main

open Cert.KernelIdeal Cert.KernelIdeal.Gen Cert.KernelIdeal.Ghost Cert.KernelIdeal.Facts
open Idealize.ShloMosaic
open Idealize.SL Idealize.SL.Sem

variable {F : FTy → Type} [FloatOps F]

/-! ## Stretch A: the two first-layer bias rows and the two halves of the first output matrix -/

theorem afterA_v0 (V : Valuation τ sig (Elt F)) :
    StableHlo.after hostOpsA V (Proc.devRef .tc main_v0)
      = shapeCast S1x128 (V (Proc.devRef .tc main_arg7)) shapeCasts_S128_S1x128 := by
  simp only [hostOpsA, StableHlo.after_cons, StableHlo.after_nil]
  rw [StableHlo.unary_result_ne' _ _ _ _ (by decide), StableHlo.unary_result_ne' _ _ _ _ (by decide),
    StableHlo.reshape_result_ne' _ _ _ _ _ (by decide), StableHlo.reshape_result']
  rfl

theorem afterA_v1 (V : Valuation τ sig (Elt F)) :
    StableHlo.after hostOpsA V (Proc.devRef .tc main_v1)
      = shapeCast S1x128 (V (Proc.devRef .tc main_arg9)) shapeCasts_S128_S1x128 := by
  simp only [hostOpsA, StableHlo.after_cons, StableHlo.after_nil]
  rw [StableHlo.unary_result_ne' _ _ _ _ (by decide), StableHlo.unary_result_ne' _ _ _ _ (by decide),
    StableHlo.reshape_result', StableHlo.reshape_result_ne' _ _ _ _ _ (by decide)]
  rfl

theorem afterA_v2 (V : Valuation τ sig (Elt F)) :
    StableHlo.after hostOpsA V (Proc.devRef .tc main_v2)
      = extractStridedSlice S128x128 ![0, 0] (V (Proc.devRef .tc main_arg10)) slices_S256x128_S128x128_0_0 := by
  simp only [hostOpsA, StableHlo.after_cons, StableHlo.after_nil]
  rw [StableHlo.unary_result_ne' _ _ _ _ (by decide), StableHlo.unary_result',
    StableHlo.reshape_result_ne' _ _ _ _ _ (by decide), StableHlo.reshape_result_ne' _ _ _ _ _ (by decide)]

theorem afterA_v3 (V : Valuation τ sig (Elt F)) :
    StableHlo.after hostOpsA V (Proc.devRef .tc main_v3)
      = extractStridedSlice S128x128 ![128, 0] (V (Proc.devRef .tc main_arg10)) slices_S256x128_S128x128_128_0 := by
  simp only [hostOpsA, StableHlo.after_cons, StableHlo.after_nil]
  rw [StableHlo.unary_result', StableHlo.unary_result_ne' _ _ _ _ (by decide),
    StableHlo.reshape_result_ne' _ _ _ _ _ (by decide), StableHlo.reshape_result_ne' _ _ _ _ _ (by decide)]

/-! ## Stretch B: the two importance tables flattened (the two index tables are read in the same way) -/

theorem afterB_v7 (V : Valuation τ sig (Elt F)) :
    StableHlo.after hostOpsB V (Proc.devRef .tc main_v7)
      = shapeCast S40960 (V (Proc.devRef .tc main_arg3)) shapeCasts_S4096x10_S40960 := by
  simp only [hostOpsB, StableHlo.after_cons, StableHlo.after_nil]
  rw [StableHlo.reshape_result_ne' _ _ _ _ _ (by decide), StableHlo.reshape_result',
    StableHlo.reshape_result_ne' _ _ _ _ _ (by decide), StableHlo.reshape_result_ne' _ _ _ _ _ (by decide)]
  rfl

theorem afterB_v8 (V : Valuation τ sig (Elt F)) :
    StableHlo.after hostOpsB V (Proc.devRef .tc main_v8)
      = shapeCast S409600 (V (Proc.devRef .tc main_arg5)) shapeCasts_S40960x10_S409600 := by
  simp only [hostOpsB, StableHlo.after_cons, StableHlo.after_nil]
  rw [StableHlo.reshape_result', StableHlo.reshape_result_ne' _ _ _ _ _ (by decide),
    StableHlo.reshape_result_ne' _ _ _ _ _ (by decide), StableHlo.reshape_result_ne' _ _ _ _ _ (by decide)]
  rfl

/-! ## Stretch C: the neighbour embeddings regrouped by target, the second layer's bias rows and output halves -/

/-- Stretch C writes only its six results. -/
theorem afterC_keep (V : Valuation τ sig (Elt F)) {b : Ref sig .tc}
    (h10 : b ≠ main_v10) (h11 : b ≠ main_v11) (h12 : b ≠ main_v12) (h13 : b ≠ main_v13) (h14 : b ≠ main_v14) (h15 : b ≠ main_v15) :
    StableHlo.after hostOpsC V (Proc.devRef .tc b) = V (Proc.devRef .tc b) :=
  StableHlo.after_of_forall_not_mem (b := Proc.devRef .tc b) _ _ (List.forall_iff_forall_mem.mp (by
    simp only [hostOpsC, List.Forall, StableHlo.reshape_writes, StableHlo.unary_writes, Finset.mem_singleton]
    exact ⟨StableHlo.devRef_ne_of_ne h10, StableHlo.devRef_ne_of_ne h11, StableHlo.devRef_ne_of_ne h12,
      StableHlo.devRef_ne_of_ne h13, StableHlo.devRef_ne_of_ne h14, StableHlo.devRef_ne_of_ne h15⟩))

theorem afterC_v10 (V : Valuation τ sig (Elt F)) :
    StableHlo.after hostOpsC V (Proc.devRef .tc main_v10)
      = shapeCast S4096x10x128 (V (Proc.devRef .tc main_v9_1)) shapeCasts_S40960x128_S4096x10x128 := by
  simp only [hostOpsC, StableHlo.after_cons, StableHlo.after_nil]
  rw [StableHlo.reshape_result_ne' _ _ _ _ _ (by decide), StableHlo.unary_result_ne' _ _ _ _ (by decide),
    StableHlo.unary_result_ne' _ _ _ _ (by decide), StableHlo.reshape_result_ne' _ _ _ _ _ (by decide),
    StableHlo.reshape_result_ne' _ _ _ _ _ (by decide), StableHlo.reshape_result']
  rfl

theorem afterC_v11 (V : Valuation τ sig (Elt F)) :
    StableHlo.after hostOpsC V (Proc.devRef .tc main_v11)
      = shapeCast S1x128 (V (Proc.devRef .tc main_arg13)) shapeCasts_S128_S1x128 := by
  simp only [hostOpsC, StableHlo.after_cons, StableHlo.after_nil]
  rw [StableHlo.reshape_result_ne' _ _ _ _ _ (by decide), StableHlo.unary_result_ne' _ _ _ _ (by decide),
    StableHlo.unary_result_ne' _ _ _ _ (by decide), StableHlo.reshape_result_ne' _ _ _ _ _ (by decide),
    StableHlo.reshape_result', StableHlo.reshape_result_ne' _ _ _ _ _ (by decide)]
  rfl

theorem afterC_v12 (V : Valuation τ sig (Elt F)) :
    StableHlo.after hostOpsC V (Proc.devRef .tc main_v12)
      = shapeCast S1x128 (V (Proc.devRef .tc main_arg15)) shapeCasts_S128_S1x128 := by
  simp only [hostOpsC, StableHlo.after_cons, StableHlo.after_nil]
  rw [StableHlo.reshape_result_ne' _ _ _ _ _ (by decide), StableHlo.unary_result_ne' _ _ _ _ (by decide),
    StableHlo.unary_result_ne' _ _ _ _ (by decide), StableHlo.reshape_result',
    StableHlo.reshape_result_ne' _ _ _ _ _ (by decide), StableHlo.reshape_result_ne' _ _ _ _ _ (by decide)]
  rfl

theorem afterC_v13 (V : Valuation τ sig (Elt F)) :
    StableHlo.after hostOpsC V (Proc.devRef .tc main_v13)
      = extractStridedSlice S128x128 ![0, 0] (V (Proc.devRef .tc main_arg16)) slices_S256x128_S128x128_0_0 := by
  simp only [hostOpsC, StableHlo.after_cons, StableHlo.after_nil]
  rw [StableHlo.reshape_result_ne' _ _ _ _ _ (by decide), StableHlo.unary_result_ne' _ _ _ _ (by decide),
    StableHlo.unary_result', StableHlo.reshape_result_ne' _ _ _ _ _ (by decide),
    StableHlo.reshape_result_ne' _ _ _ _ _ (by decide), StableHlo.reshape_result_ne' _ _ _ _ _ (by decide)]

theorem afterC_v14 (V : Valuation τ sig (Elt F)) :
    StableHlo.after hostOpsC V (Proc.devRef .tc main_v14)
      = extractStridedSlice S128x128 ![128, 0] (V (Proc.devRef .tc main_arg16)) slices_S256x128_S128x128_128_0 := by
  simp only [hostOpsC, StableHlo.after_cons, StableHlo.after_nil]
  rw [StableHlo.reshape_result_ne' _ _ _ _ _ (by decide), StableHlo.unary_result',
    StableHlo.unary_result_ne' _ _ _ _ (by decide), StableHlo.reshape_result_ne' _ _ _ _ _ (by decide),
    StableHlo.reshape_result_ne' _ _ _ _ _ (by decide), StableHlo.reshape_result_ne' _ _ _ _ _ (by decide)]

theorem afterC_v15 (V : Valuation τ sig (Elt F)) :
    StableHlo.after hostOpsC V (Proc.devRef .tc main_v15)
      = shapeCast S1x128 (V (Proc.devRef .tc main_arg17)) shapeCasts_S128_S1x128 := by
  simp only [hostOpsC, StableHlo.after_cons, StableHlo.after_nil]
  rw [StableHlo.reshape_result', StableHlo.unary_result_ne' _ _ _ _ (by decide),
    StableHlo.unary_result_ne' _ _ _ _ (by decide), StableHlo.reshape_result_ne' _ _ _ _ _ (by decide),
    StableHlo.reshape_result_ne' _ _ _ _ _ (by decide), StableHlo.reshape_result_ne' _ _ _ _ _ (by decide)]
  rfl

/-! ## Stretch D: the final bias row -/

/-- Stretch D writes only the final bias row. -/
theorem afterD_keep (V : Valuation τ sig (Elt F)) {b : Ref sig .tc} (h17 : b ≠ main_v17) :
    StableHlo.after hostOpsD V (Proc.devRef .tc b) = V (Proc.devRef .tc b) :=
  StableHlo.after_of_forall_not_mem (b := Proc.devRef .tc b) _ _ (List.forall_iff_forall_mem.mp (by
    simp only [hostOpsD, List.Forall, StableHlo.reshape_writes, Finset.mem_singleton]
    exact StableHlo.devRef_ne_of_ne h17))

theorem afterD_v17 (V : Valuation τ sig (Elt F)) :
    StableHlo.after hostOpsD V (Proc.devRef .tc main_v17)
      = shapeCast S1x128 (V (Proc.devRef .tc main_arg19)) shapeCasts_S128_S1x128 := by
  simp only [hostOpsD, StableHlo.after_cons, StableHlo.after_nil]
  rw [StableHlo.reshape_result']
  rfl

end Cert.KernelIdeal.Main

end
-- ==== Proof.Region0Value.lean ====
import proofs.«213116_g69346541961480_cont_9to1_m_612_34_alg».proof.Proof.Region0
import Idealize.ShloMosaic.Lib.ValueIdx

/-!
# The first dense stage: its two result arrays as functions of the arguments

The first TensorCore call writes its two result arrays block by block, block `t` being rows `[2000 t, 2000 t + 2000)`.
Row `n` of a result therefore sits in block `n / 2000` at row `n % 2000`, and the fifty blocks cover the array. This
module names each result array after the last block as ONE function of the array index and of the entry contents of the
seven arrays the call reads: the block of the node table holding the row, pushed through the self branch (resp. the
neighbour branch) of the stage, read at the row's place in the block.
-/

set_option maxRecDepth 16384

noncomputable section

namespace Cert.KernelIdeal.Region0

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen

variable {F : FTy → Type} [FloatOps F]
variable {Ix : Type} [DecidableEq Ix] {Name : Type} [DecidableEq Name] {U : Type} [URA U] {Lvl : Type} [Preorder Lvl]

/-! ## The index maps, decided over the grid -/

/-- The row-block windows (the node table and the two results) are at block row `t` at point `t`; every parameter
    window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## Rows and blocks -/

/-- The block holding row `n`, -/
def blockOfRow (n : Fin 100000) : Fin 50 := ⟨n.val / 2000, by have := n.isLt; omega⟩
/-- the row's place in it, -/
def rowInBlock (n : Fin 100000) : Fin 2000 := ⟨n.val % 2000, by omega⟩
/-- and row `r` of block `t`. -/
def rowOfBlock (t : Fin 50) (r : Fin 2000) : Fin 100000 := ⟨2000 * t.val + r.val, by have := t.isLt; have := r.isLt; omega⟩

@[simp] theorem blockOfRow_val (n : Fin 100000) : (blockOfRow n).val = n.val / 2000 := rfl
@[simp] theorem rowInBlock_val (n : Fin 100000) : (rowInBlock n).val = n.val % 2000 := rfl
@[simp] theorem rowOfBlock_val (t : Fin 50) (r : Fin 2000) : (rowOfBlock t r).val = 2000 * t.val + r.val := rfl

theorem blockOfRow_rowOfBlock (t : Fin 50) (r : Fin 2000) : blockOfRow (rowOfBlock t r) = t := by
  apply Fin.ext; have := r.isLt; simp only [blockOfRow_val, rowOfBlock_val]; omega
theorem rowInBlock_rowOfBlock (t : Fin 50) (r : Fin 2000) : rowInBlock (rowOfBlock t r) = r := by
  apply Fin.ext; have := r.isLt; simp only [rowInBlock_val, rowOfBlock_val]; omega
theorem rowOfBlock_blockOfRow (n : Fin 100000) : rowOfBlock (blockOfRow n) (rowInBlock n) = n := by
  apply Fin.ext; simp only [rowOfBlock_val, blockOfRow_val, rowInBlock_val]; omega

/-- A grid point as a block number. -/
def ptNum (t : Fin cfg0.N) : Fin 50 := ⟨t.val, by have h := t.isLt; have e : cfg0.N = 50 := N_0; omega⟩
@[simp] theorem ptNum_val (t : Fin cfg0.N) : (ptNum t).val = t.val := rfl

section Region
variable (V : (c : Dev nD) → (b : Ref sig .tc) → Buf (Elt F) ((c : Thread nD τ).loc b))
variable (O : CellTallies nD τ sig Ix) (B : Set (SemLoc sig × Ix))

local notation "𝔡" => dat (Name := Name) (U := U) (Lvl := Lvl) V O B

/-- The entry contents of the arrays the call reads, at their literal shapes. -/
abbrev xArr (c : Dev nD) : Vec F S100000x128 .f32 := V c main_arg0
abbrev wsArr (c : Dev nD) : Vec F S128x128 .f32 := V c main_arg6
abbrev bsArr (c : Dev nD) : Vec F S1x128 .f32 := V c main_v0
abbrev waArr (c : Dev nD) : Vec F S128x128 .f32 := V c main_arg8
abbrev baArr (c : Dev nD) : Vec F S1x128 .f32 := V c main_v1
abbrev wo1Arr (c : Dev nD) : Vec F S128x128 .f32 := V c main_v2
abbrev wo2Arr (c : Dev nD) : Vec F S128x128 .f32 := V c main_v3

/-- Rows `[2000 t, 2000 t + 2000)` of the node table as the call finds it. -/
def xBlock (c : Dev nD) (t : Fin 50) : Vec F S2000x128 .f32 := fun y => xArr V c (ix2 (rowOfBlock t (y 0)) (y 1))

/-! ## The input blocks, read off the entry contents -/

theorem blk_0 (c : Dev nD) (t : Fin cfg0.N) : blk V c 0 t = xBlock V c (ptNum t) := by
  obtain ⟨e0, e1, -⟩ := idx_facts t
  funext y
  show xArr V c (((cfg0.win 0).blk t).view.emb y) = xArr V c (ix2 (rowOfBlock (ptNum t) (y 0)) (y 1))
  refine congrArg _ ?_
  funext a; apply Fin.ext
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

theorem blk_1 (c : Dev nD) (t : Fin cfg0.N) : blk V c 1 t = wsArr V c := by
  obtain ⟨-, -, e0, e1, -⟩ := idx_facts t
  funext y
  show wsArr V c (((cfg0.win 1).blk t).view.emb y) = wsArr V c y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem blk_2 (c : Dev nD) (t : Fin cfg0.N) : blk V c 2 t = bsArr V c := by
  obtain ⟨-, -, -, -, e0, e1, -⟩ := idx_facts t
  funext y
  show bsArr V c (((cfg0.win 2).blk t).view.emb y) = bsArr V c y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk_3 (c : Dev nD) (t : Fin cfg0.N) : blk V c 3 t = waArr V c := by
  obtain ⟨-, -, -, -, -, -, e0, e1, -⟩ := idx_facts t
  funext y
  show waArr V c (((cfg0.win 3).blk t).view.emb y) = waArr V c y
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk_4 (c : Dev nD) (t : Fin cfg0.N) : blk V c 4 t = baArr V c := by
  obtain ⟨-, -, -, -, -, -, -, -, e0, e1, -⟩ := idx_facts t
  funext y
  show baArr V c (((cfg0.win 4).blk t).view.emb y) = baArr V c y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk_5 (c : Dev nD) (t : Fin cfg0.N) : blk V c 5 t = wo1Arr V c := by
  obtain ⟨-, -, -, -, -, -, -, -, -, -, e0, e1, -⟩ := idx_facts t
  funext y
  show wo1Arr V c (((cfg0.win 5).blk t).view.emb y) = wo1Arr V c y
  refine congrArg _ ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk_6 (c : Dev nD) (t : Fin cfg0.N) : blk V c 6 t = wo2Arr V c := by
  obtain ⟨-, -, -, -, -, -, -, -, -, -, -, -, e0, e1, -⟩ := idx_facts t
  funext y
  show wo2Arr V c (((cfg0.win 6).blk t).view.emb y) = wo2Arr V c y
  refine congrArg _ ?_
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

/-! ## The two result arrays as functions of the array index -/

/-- The self-branch result: row `n` is row `n % 2000` of the self-branch block of the node table's block `n / 2000`. -/
def spAll (c : Dev nD) : Vec F S100000x128 .f32 := fun i =>
  outSp (xBlock V c (blockOfRow (i 0))) (wsArr V c) (bsArr V c) (wo1Arr V c) (ix2 (rowInBlock (i 0)) (i 1))

/-- The neighbour-branch result, likewise. -/
def apAll (c : Dev nD) : Vec F S100000x128 .f32 := fun i =>
  outAp (xBlock V c (blockOfRow (i 0))) (waArr V c) (baArr V c) (wo2Arr V c) (ix2 (rowInBlock (i 0)) (i 1))

/-- The result arrays at row `r` of block `t`: the branch's block of the node table's block `t`, at row `r`. -/
theorem spAll_block (c : Dev nD) (t : Fin 50) (r : Fin 2000) (u : Fin 128) :
    spAll V c (ix2 (rowOfBlock t r) u) = outSp (xBlock V c t) (wsArr V c) (bsArr V c) (wo1Arr V c) (ix2 r u) := by
  show outSp (xBlock V c (blockOfRow (rowOfBlock t r))) _ _ _ (ix2 (rowInBlock (rowOfBlock t r)) u) = _
  rw [blockOfRow_rowOfBlock, rowInBlock_rowOfBlock]
theorem apAll_block (c : Dev nD) (t : Fin 50) (r : Fin 2000) (u : Fin 128) :
    apAll V c (ix2 (rowOfBlock t r) u) = outAp (xBlock V c t) (waArr V c) (baArr V c) (wo2Arr V c) (ix2 r u) := by
  show outAp (xBlock V c (blockOfRow (rowOfBlock t r))) _ _ _ (ix2 (rowInBlock (rowOfBlock t r)) u) = _
  rw [blockOfRow_rowOfBlock, rowInBlock_rowOfBlock]

/-- The array index of element `y` of a result window's block at point `t`. -/
theorem emb_7 (t : Fin cfg0.N) (y : S2000x128.Idx) :
    (((cfg0.win 7).blk t).view.emb y : S100000x128.Idx) = ix2 (rowOfBlock (ptNum t) (y 0)) (y 1) := by
  obtain ⟨-, -, -, -, -, -, -, -, -, -, -, -, -, -, e0, e1, -⟩ := idx_facts t
  funext a; apply Fin.ext
  match a with
  | ⟨0, _⟩ => show win0_7.index t (0 : Fin 2) * 2000 + 1 * (y 0).val = 2000 * t.val + (y 0).val; omega
  | ⟨1, _⟩ => show win0_7.index t (1 : Fin 2) * 128 + 1 * (y 1).val = (y 1).val; omega
theorem emb_8 (t : Fin cfg0.N) (y : S2000x128.Idx) :
    (((cfg0.win 8).blk t).view.emb y : S100000x128.Idx) = ix2 (rowOfBlock (ptNum t) (y 0)) (y 1) := by
  obtain ⟨-, -, -, -, -, -, -, -, -, -, -, -, -, -, -, -, e0, e1⟩ := idx_facts t
  funext a; apply Fin.ext
  match a with
  | ⟨0, _⟩ => show win0_8.index t (0 : Fin 2) * 2000 + 1 * (y 0).val = 2000 * t.val + (y 0).val; omega
  | ⟨1, _⟩ => show win0_8.index t (1 : Fin 2) * 128 + 1 * (y 1).val = (y 1).val; omega

/-- What the body leaves in a result window at point `t`, over the literal block of the node table. -/
theorem after_7_block (c : Dev nD) (t : Fin cfg0.N) :
    (𝔡 c).after 7 t = outSp (xBlock V c (ptNum t)) (wsArr V c) (bsArr V c) (wo1Arr V c) := by
  rw [after_7, blk_0, blk_1, blk_2, blk_5]
theorem after_8_block (c : Dev nD) (t : Fin cfg0.N) :
    (𝔡 c).after 8 t = outAp (xBlock V c (ptNum t)) (waArr V c) (baArr V c) (wo2Arr V c) := by
  rw [after_8, blk_0, blk_3, blk_4, blk_6]

/-- The named function under element `y` of point `t`'s block. -/
theorem spAll_emb (c : Dev nD) (t : Fin cfg0.N) (y : S2000x128.Idx) :
    spAll V c (((cfg0.win 7).blk t).view.emb y) = outSp (xBlock V c (ptNum t)) (wsArr V c) (bsArr V c) (wo1Arr V c) y := by
  rw [emb_7]
  exact (spAll_block V c (ptNum t) (y 0) (y 1)).trans
    (congrArg (outSp (xBlock V c (ptNum t)) (wsArr V c) (bsArr V c) (wo1Arr V c)) (eq_ix2 y).symm)
theorem apAll_emb (c : Dev nD) (t : Fin cfg0.N) (y : S2000x128.Idx) :
    apAll V c (((cfg0.win 8).blk t).view.emb y) = outAp (xBlock V c (ptNum t)) (waArr V c) (baArr V c) (wo2Arr V c) y := by
  rw [emb_8]
  exact (apAll_block V c (ptNum t) (y 0) (y 1)).trans
    (congrArg (outAp (xBlock V c (ptNum t)) (waArr V c) (baArr V c) (wo2Arr V c)) (eq_ix2 y).symm)

/-- What point `t` writes back is block `t` of the named function. -/
theorem flushed_7 (c : Dev nD) (t : Fin cfg0.N) :
    (𝔡 c).flushed 7 t = ((cfg0.win 7).blk t).view.read (Elt F) (spAll V c) := by
  funext y
  unfold Dat.flushed
  rw [after_7_block, View.read_apply, spAll_emb]
  generalize outSp (xBlock V c (ptNum t)) (wsArr V c) (bsArr V c) (wo1Arr V c) = X
  rfl
theorem flushed_8 (c : Dev nD) (t : Fin cfg0.N) :
    (𝔡 c).flushed 8 t = ((cfg0.win 8).blk t).view.read (Elt F) (apAll V c) := by
  funext y
  unfold Dat.flushed
  rw [after_8_block, View.read_apply, apAll_emb]
  generalize outAp (xBlock V c (ptNum t)) (waArr V c) (baArr V c) (wo2Arr V c) = X
  rfl

/-! ## The fifty blocks cover the array -/

/-- An index of a result array is in point `t`'s block iff each coordinate is in the block's range on its axis. -/
theorem mem_blk_7 (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v4_0).slice (win0_7.rect t)).set ↔ _
  rw [View.set_slice_whole, Rect.mem_set_unit]
  exact Iff.rfl
theorem mem_blk_8 (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v4_1).slice (win0_8.rect t)).set ↔ _
  rw [View.set_slice_whole, Rect.mem_set_unit]
  exact Iff.rfl

/-- The point that writes row `n`. -/
def ptOfRow (n : Fin 100000) : Fin cfg0.N := ⟨n.val / 2000, by have e : cfg0.N = 50 := N_0; have := n.isLt; omega⟩

theorem cover_7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  refine ⟨ptOfRow (i 0), flush0_7 _, ?_⟩
  obtain ⟨-, -, -, -, -, -, -, -, -, -, -, -, -, -, e0, e1, -⟩ := idx_facts (ptOfRow (i 0))
  have ht : (ptOfRow (i 0)).val = (i 0).val / 2000 := rfl
  rw [mem_blk_7]
  intro a
  match a with
  | ⟨0, _⟩ => show win0_7.index (ptOfRow (i 0)) (0 : Fin 2) * 2000 ≤ (i 0).val ∧ (i 0).val < win0_7.index (ptOfRow (i 0)) (0 : Fin 2) * 2000 + 2000; omega
  | ⟨1, _⟩ => show win0_7.index (ptOfRow (i 0)) (1 : Fin 2) * 128 ≤ (i 1).val ∧ (i 1).val < win0_7.index (ptOfRow (i 0)) (1 : Fin 2) * 128 + 128; omega
theorem cover_8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  refine ⟨ptOfRow (i 0), flush0_8 _, ?_⟩
  obtain ⟨-, -, -, -, -, -, -, -, -, -, -, -, -, -, -, -, e0, e1⟩ := idx_facts (ptOfRow (i 0))
  have ht : (ptOfRow (i 0)).val = (i 0).val / 2000 := rfl
  rw [mem_blk_8]
  intro a
  match a with
  | ⟨0, _⟩ => show win0_8.index (ptOfRow (i 0)) (0 : Fin 2) * 2000 ≤ (i 0).val ∧ (i 0).val < win0_8.index (ptOfRow (i 0)) (0 : Fin 2) * 2000 + 2000; omega
  | ⟨1, _⟩ => show win0_8.index (ptOfRow (i 0)) (1 : Fin 2) * 128 ≤ (i 1).val ∧ (i 1).val < win0_8.index (ptOfRow (i 0)) (1 : Fin 2) * 128 + 128; omega

/-! ## The result arrays after the last point -/

/-- The first result array after the last point is the self-branch function of the entry contents. -/
theorem arrAt_7_eq (c : Dev nD) : (𝔡 c).arrAt 7 cfg0.N = spAll V c :=
  (𝔡 c).arrAt_eq_of_cover 7 (spAll V c) (fun t _ => flushed_7 V O B c t) cover_7

/-- The second result array after the last point is the neighbour-branch function of the entry contents. -/
theorem arrAt_8_eq (c : Dev nD) : (𝔡 c).arrAt 8 cfg0.N = apAll V c :=
  (𝔡 c).arrAt_eq_of_cover 8 (apAll V c) (fun t _ => flushed_8 V O B c t) cover_8

end Region

end Cert.KernelIdeal.Region0

end
-- ==== Proof.MainVals.lean ====
/-
  What every pipelined region and the SparseCore call finds in its input arrays when it is entered, as equations
  between buffer contents: each walked back through the fold of @main's boundaries to the launch memory, to a region's
  result, or to the call's. Host reshapes and slices stay the pure operations of the argument they read.
-/
import proofs.«213116_g69346541961480_cont_9to1_m_612_34_alg».proof.Proof.MainFold
import proofs.«213116_g69346541961480_cont_9to1_m_612_34_alg».proof.Proof.MainStages
import proofs.«213116_g69346541961480_cont_9to1_m_612_34_alg».proof.Proof.Region0Value

noncomputable section

namespace Cert.KernelIdeal.Main

open Cert.KernelIdeal Cert.KernelIdeal.Gen Cert.KernelIdeal.Ghost Cert.KernelIdeal.Facts
open Idealize.ShloMosaic Idealize.ShloMosaic.TcCoe
open Idealize.ShloMosaic.SparseCore (S V T)
open Idealize.ShloMosaic.SparseCore.Cfg (HIx Pay)
open Idealize.SL Idealize.SL.Sem

variable {F : FTy → Type} [FloatOps F]
variable (m : (ℓ : Loc nD τ sig) → Buf (Elt F) ℓ)

/-! ## A buffer nothing has written yet holds its launch contents -/

/-- No result of stretch A. -/
abbrev NotA (b : Ref sig .tc) : Prop := b ≠ main_v0 ∧ b ≠ main_v1 ∧ b ≠ main_v2 ∧ b ≠ main_v3
/-- No array of the first region. -/
abbrev NotR0 (b : Ref sig .tc) : Prop := ∀ w, Pipeline.arrRef spec0 w ≠ b
/-- No result of stretch B. -/
abbrev NotB (b : Ref sig .tc) : Prop := b ≠ main_v5 ∧ b ≠ main_v6 ∧ b ≠ main_v7 ∧ b ≠ main_v8
/-- No result of the SparseCore call. -/
abbrev NotCall (b : Ref sig .tc) : Prop := main_v9_0 ≠ b ∧ main_v9_1 ≠ b ∧ main_v9_2 ≠ b ∧ main_v9_3 ≠ b
/-- No result of stretch C. -/
abbrev NotC (b : Ref sig .tc) : Prop :=
  b ≠ main_v10 ∧ b ≠ main_v11 ∧ b ≠ main_v12 ∧ b ≠ main_v13 ∧ b ≠ main_v14 ∧ b ≠ main_v15
/-- No array of the second region. -/
abbrev NotR1 (b : Ref sig .tc) : Prop := ∀ w, Pipeline.arrRef spec2 w ≠ b

theorem W1_keep (c : Dev nD) {b : Ref sig .tc} (hA : NotA b) :
    W1 m c (Proc.devRef .tc b) = m ((c : Thread nD τ).loc b) :=
  afterA_of_arg (W0 m c) hA.1 hA.2.1 hA.2.2.1 hA.2.2.2

theorem W2_keep (c : Dev nD) {b : Ref sig .tc} (hA : NotA b) (hR0 : NotR0 b) :
    W2 m c (Proc.devRef .tc b) = m ((c : Thread nD τ).loc b) :=
  (W2_of_ne m c b hR0).trans (W1_keep m c hA)

theorem W3_keep (c : Dev nD) {b : Ref sig .tc} (hA : NotA b) (hR0 : NotR0 b) (hB : NotB b) :
    W3 m c (Proc.devRef .tc b) = m ((c : Thread nD τ).loc b) :=
  (afterB_of_arg (W2 m c) hB.1 hB.2.1 hB.2.2.1 hB.2.2.2).trans (W2_keep m c hA hR0)

theorem W4_keep (c : Dev nD) {b : Ref sig .tc} (hA : NotA b) (hR0 : NotR0 b) (hB : NotB b) (hS : NotCall b) :
    W4 m c (Proc.devRef .tc b) = m ((c : Thread nD τ).loc b) :=
  (afterCall_of_notMem (W3 m) c (StableHlo.devRef_ne_of_ne hS.1) (StableHlo.devRef_ne_of_ne hS.2.1)
    (StableHlo.devRef_ne_of_ne hS.2.2.1) (StableHlo.devRef_ne_of_ne hS.2.2.2)).trans (W3_keep m c hA hR0 hB)

theorem W5_keep (c : Dev nD) {b : Ref sig .tc} (hA : NotA b) (hR0 : NotR0 b) (hB : NotB b) (hS : NotCall b) (hC : NotC b) :
    W5 m c (Proc.devRef .tc b) = m ((c : Thread nD τ).loc b) :=
  (afterC_keep (W4 m c) hC.1 hC.2.1 hC.2.2.1 hC.2.2.2.1 hC.2.2.2.2.1 hC.2.2.2.2.2).trans (W4_keep m c hA hR0 hB hS)

theorem W6_keep (c : Dev nD) {b : Ref sig .tc} (hA : NotA b) (hR0 : NotR0 b) (hB : NotB b) (hS : NotCall b) (hC : NotC b)
    (hR1 : NotR1 b) : W6 m c (Proc.devRef .tc b) = m ((c : Thread nD τ).loc b) :=
  (W6_of_ne m c b hR1).trans (W5_keep m c hA hR0 hB hS hC)

theorem W7_keep (c : Dev nD) {b : Ref sig .tc} (hA : NotA b) (hR0 : NotR0 b) (hB : NotB b) (hS : NotCall b) (hC : NotC b)
    (hR1 : NotR1 b) (hD : b ≠ main_v17) : W7 m c (Proc.devRef .tc b) = m ((c : Thread nD τ).loc b) :=
  (afterD_keep (W6 m c) hD).trans (W6_keep m c hA hR0 hB hS hC hR1)

/-! ## Region 0's entry -/

theorem V1_arg0 (c : Dev nD) : V1 m c main_arg0 = m ((c : Thread nD τ).loc main_arg0) := W1_keep m c (by decide)
theorem V1_arg6 (c : Dev nD) : V1 m c main_arg6 = m ((c : Thread nD τ).loc main_arg6) := W1_keep m c (by decide)
theorem V1_arg8 (c : Dev nD) : V1 m c main_arg8 = m ((c : Thread nD τ).loc main_arg8) := W1_keep m c (by decide)
theorem V1_v0 (c : Dev nD) :
    V1 m c main_v0 = shapeCast S1x128 (m ((c : Thread nD τ).loc main_arg7)) shapeCasts_S128_S1x128 := afterA_v0 (W0 m c)
theorem V1_v1 (c : Dev nD) :
    V1 m c main_v1 = shapeCast S1x128 (m ((c : Thread nD τ).loc main_arg9)) shapeCasts_S128_S1x128 := afterA_v1 (W0 m c)
theorem V1_v2 (c : Dev nD) :
    V1 m c main_v2 = extractStridedSlice S128x128 ![0, 0] (m ((c : Thread nD τ).loc main_arg10)) slices_S256x128_S128x128_0_0 :=
  afterA_v2 (W0 m c)
theorem V1_v3 (c : Dev nD) :
    V1 m c main_v3 = extractStridedSlice S128x128 ![128, 0] (m ((c : Thread nD τ).loc main_arg10)) slices_S256x128_S128x128_128_0 :=
  afterA_v3 (W0 m c)

/-! ## The SparseCore call's entry -/

theorem W3_sp (c : Dev nD) : W3 m c rSp = Region0.spAll (V1 m) c :=
  (afterB_of_arg (W2 m c) (by decide) (by decide) (by decide) (by decide)).trans
    ((W2_arr m c 7).trans (Region0.arrAt_7_eq (V1 m) _ _ c))
theorem W3_ap (c : Dev nD) : W3 m c rAp = Region0.apAll (V1 m) c :=
  (afterB_of_arg (W2 m c) (by decide) (by decide) (by decide) (by decide)).trans
    ((W2_arr m c 8).trans (Region0.arrAt_8_eq (V1 m) _ _ c))
theorem W3_nid (c : Dev nD) : W3 m c rNid = m ((c : Thread nD τ).loc main_arg1) :=
  W3_keep m c (by decide) (by decide) (by decide)
theorem W3_n1 (c : Dev nD) :
    W3 m c rN1 = shapeCast S40960 (m ((c : Thread nD τ).loc main_arg2)) shapeCasts_S4096x10_S40960 :=
  (afterB_v5 (W2 m c)).trans (congrArg (fun x => shapeCast S40960 x shapeCasts_S4096x10_S40960) (W2_keep m c (b := main_arg2) (by decide) (by decide)))
theorem W3_n2 (c : Dev nD) :
    W3 m c rN2 = shapeCast S409600 (m ((c : Thread nD τ).loc main_arg4)) shapeCasts_S40960x10_S409600 :=
  (afterB_v6 (W2 m c)).trans (congrArg (fun x => shapeCast S409600 x shapeCasts_S40960x10_S409600) (W2_keep m c (b := main_arg4) (by decide) (by decide)))
theorem W3_a1 (c : Dev nD) :
    W3 m c rA1 = shapeCast S40960 (m ((c : Thread nD τ).loc main_arg3)) shapeCasts_S4096x10_S40960 :=
  (afterB_v7 (W2 m c)).trans (congrArg (fun x => shapeCast S40960 x shapeCasts_S4096x10_S40960) (W2_keep m c (b := main_arg3) (by decide) (by decide)))
theorem W3_a2 (c : Dev nD) :
    W3 m c rA2 = shapeCast S409600 (m ((c : Thread nD τ).loc main_arg5)) shapeCasts_S40960x10_S409600 :=
  (afterB_v8 (W2 m c)).trans (congrArg (fun x => shapeCast S409600 x shapeCasts_S40960x10_S409600) (W2_keep m c (b := main_arg5) (by decide) (by decide)))
theorem W3_b (c : Dev nD) : W3 m c rB = m ((c : Thread nD τ).loc main_arg11) :=
  W3_keep m c (by decide) (by decide) (by decide)

/-! ## Region 1's entry -/

theorem V5_v9_0 (c : Dev nD) : V5 m c main_v9_0 = Tile.E1t (insOf (W3 m)) c :=
  (afterC_keep (W4 m c) (by decide) (by decide) (by decide) (by decide) (by decide) (by decide)).trans (afterCall_e1t (W3 m) c)
theorem V5_v10 (c : Dev nD) :
    V5 m c main_v10 = shapeCast S4096x10x128 (Tile.E1n (insOf (W3 m)) c) shapeCasts_S40960x128_S4096x10x128 :=
  (afterC_v10 (W4 m c)).trans
    (congrArg (fun x => shapeCast S4096x10x128 x shapeCasts_S40960x128_S4096x10x128) (afterCall_e1n (W3 m) c))
theorem V5_arg3 (c : Dev nD) : V5 m c main_arg3 = m ((c : Thread nD τ).loc main_arg3) :=
  W5_keep m c (by decide) (by decide) (by decide) (by decide) (by decide)
theorem V5_arg12 (c : Dev nD) : V5 m c main_arg12 = m ((c : Thread nD τ).loc main_arg12) :=
  W5_keep m c (by decide) (by decide) (by decide) (by decide) (by decide)
theorem V5_arg14 (c : Dev nD) : V5 m c main_arg14 = m ((c : Thread nD τ).loc main_arg14) :=
  W5_keep m c (by decide) (by decide) (by decide) (by decide) (by decide)
theorem V5_v11 (c : Dev nD) :
    V5 m c main_v11 = shapeCast S1x128 (m ((c : Thread nD τ).loc main_arg13)) shapeCasts_S128_S1x128 :=
  (afterC_v11 (W4 m c)).trans (congrArg (fun x => shapeCast S1x128 x shapeCasts_S128_S1x128)
    (W4_keep m c (b := main_arg13) (by decide) (by decide) (by decide) (by decide)))
theorem V5_v12 (c : Dev nD) :
    V5 m c main_v12 = shapeCast S1x128 (m ((c : Thread nD τ).loc main_arg15)) shapeCasts_S128_S1x128 :=
  (afterC_v12 (W4 m c)).trans (congrArg (fun x => shapeCast S1x128 x shapeCasts_S128_S1x128)
    (W4_keep m c (b := main_arg15) (by decide) (by decide) (by decide) (by decide)))
theorem V5_v13 (c : Dev nD) :
    V5 m c main_v13 = extractStridedSlice S128x128 ![0, 0] (m ((c : Thread nD τ).loc main_arg16)) slices_S256x128_S128x128_0_0 :=
  (afterC_v13 (W4 m c)).trans (congrArg (fun x => extractStridedSlice S128x128 ![0, 0] x slices_S256x128_S128x128_0_0)
    (W4_keep m c (b := main_arg16) (by decide) (by decide) (by decide) (by decide)))
theorem V5_v14 (c : Dev nD) :
    V5 m c main_v14 = extractStridedSlice S128x128 ![128, 0] (m ((c : Thread nD τ).loc main_arg16)) slices_S256x128_S128x128_128_0 :=
  (afterC_v14 (W4 m c)).trans (congrArg (fun x => extractStridedSlice S128x128 ![128, 0] x slices_S256x128_S128x128_128_0)
    (W4_keep m c (b := main_arg16) (by decide) (by decide) (by decide) (by decide)))
theorem V5_v15 (c : Dev nD) :
    V5 m c main_v15 = shapeCast S1x128 (m ((c : Thread nD τ).loc main_arg17)) shapeCasts_S128_S1x128 :=
  (afterC_v15 (W4 m c)).trans (congrArg (fun x => shapeCast S1x128 x shapeCasts_S128_S1x128)
    (W4_keep m c (b := main_arg17) (by decide) (by decide) (by decide) (by decide)))
theorem V5_v9_2 (c : Dev nD) : V5 m c main_v9_2 = Tile.Sqt (insOf (W3 m)) c :=
  (afterC_keep (W4 m c) (by decide) (by decide) (by decide) (by decide) (by decide) (by decide)).trans (afterCall_sqt (W3 m) c)
theorem V5_v9_3 (c : Dev nD) : V5 m c main_v9_3 = Tile.Sqn (insOf (W3 m)) c :=
  (afterC_keep (W4 m c) (by decide) (by decide) (by decide) (by decide) (by decide) (by decide)).trans (afterCall_sqn (W3 m) c)

/-! ## Region 2's entry -/

theorem V7_v16_0 (c : Dev nD) : V7 m c main_v16_0 = (dat1 m c).arrAt 12 cfg2.N :=
  (afterD_keep (W6 m c) (by decide)).trans (W6_arr m c 12)
theorem V7_v16_1 (c : Dev nD) : V7 m c main_v16_1 = (dat1 m c).arrAt 13 cfg2.N :=
  (afterD_keep (W6 m c) (by decide)).trans (W6_arr m c 13)
theorem V7_arg18 (c : Dev nD) : V7 m c main_arg18 = m ((c : Thread nD τ).loc main_arg18) :=
  W7_keep m c (by decide) (by decide) (by decide) (by decide) (by decide) (by decide) (by decide)
theorem V7_v17 (c : Dev nD) :
    V7 m c main_v17 = shapeCast S1x128 (m ((c : Thread nD τ).loc main_arg19)) shapeCasts_S128_S1x128 :=
  (afterD_v17 (W6 m c)).trans (congrArg (fun x => shapeCast S1x128 x shapeCasts_S128_S1x128)
    (W6_keep m c (b := main_arg19) (by decide) (by decide) (by decide) (by decide) (by decide) (by decide)))

end Cert.KernelIdeal.Main

end
-- ==== Proof.Region0Pay.lean ====
import proofs.«213116_g69346541961480_cont_9to1_m_612_34_alg».proof.Proof.Gen.KernelIdeal.Skeleton
import Idealize.ShloMosaic.Lib.ValueIdx
import Idealize.ShloMosaic.Lib.Pipeline.Value
import Idealize.ShloMosaic.PureOps.Ideal.Laws

/-!
# The first dense stage's two payloads over the extended reals

At the ideal values a matrix product is a plain sum of products, a broadcast bias row is its entry in the column, and the
rectifier is `max · 0`. So one entry of the self-branch block is

  `Σ_k max (Σ_d x[r, d] · W[d, k] + b[0, k]) 0 · W'[k, u]`,

a function of row `r` of the block alone — the rows of a block do not mix —, and likewise for the neighbour branch.
-/

noncomputable section

namespace Cert.KernelIdeal.Region0

open Idealize.ShloMosaic Idealize.ShloMosaic.ValueIdx
open Cert.KernelIdeal Cert.KernelIdeal.Gen
open scoped BigOperators

/-! ## The product of a 2000×128 by a 128×128 matrix, entry by entry -/

/-- The operand indices of the product at an output entry and a contraction position: the left operand is read in the
    output's row at the contraction's column, the right operand in the contraction's row at the output's column. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product into a zero accumulator, at entry `(r, u)`: the sum over the 128 inner positions. -/
theorem matmul_entry (a : FVec Ideal S2000x128 .f32) (b : FVec Ideal S128x128 .f32) (r : Fin 2000) (u : Fin 128) :
    matmul dot_S2000x128_S128x128_S2000x128_1_0_0_1_n_n none a b (constant S2000x128 .f32 0x00000000#32) (ix2 r u)
      = ∑ k : Fin 128, a (ix2 r k) * b (ix2 k u) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r u)
      ((contrEquiv1 dot_S2000x128_S128x128_S2000x128_1_0_0_1_n_n 128 rfl rfl).symm k) = ix2 r k := funext fun x => Fin.ext (by
    match x with
    | ⟨0, _⟩ => exact lhs_row _ _
    | ⟨1, _⟩ => exact (lhs_col _ _).trans hk)
  have er : dot_S2000x128_S128x128_S2000x128_1_0_0_1_n_n.rhsIdx (ix2 r u)
      ((contrEquiv1 dot_S2000x128_S128x128_S2000x128_1_0_0_1_n_n 128 rfl rfl).symm k) = ix2 k u := funext fun x => Fin.ext (by
    match x with
    | ⟨0, _⟩ => exact (rhs_row _ _).trans hk
    | ⟨1, _⟩ => exact rhs_col _ _)
  rw [el, er]

/-! ## A bias row broadcast down the block, and one dense rectified layer -/

/-- The bias row broadcast to the block reads its entry in the column. -/
theorem bias_entry (b : FVec Ideal S1x128 .f32) (r : Fin 2000) (k : Fin 128) :
    broadcastTo S2000x128 b broadcasts_S1x128_S2000x128 (ix2 r k) = b (ix2 (0 : Fin 1) k) := by
  refine broadcastTo_apply b _ _ _ fun a => ?_
  match a with
  | ⟨0, _⟩ => rfl
  | ⟨1, _⟩ => rfl

/-- The hidden layer of a branch at entry `(r, k)`: the rectified affine form of row `r`. -/
def hidden (x : FVec Ideal S2000x128 .f32) (w : FVec Ideal S128x128 .f32) (b : FVec Ideal S1x128 .f32)
    (r : Fin 2000) (k : Fin 128) : EReal :=
  max ((∑ d : Fin 128, x (ix2 r d) * w (ix2 d k)) + b (ix2 (0 : Fin 1) k)) 0

/-- The self-branch payload at entry `(r, u)`. -/
theorem pay1_entry (x : Vec Ideal S2000x128 .f32) (ws : Vec Ideal S128x128 .f32) (bs : Vec Ideal S1x128 .f32)
    (wo : Vec Ideal S128x128 .f32) (r : Fin 2000) (u : Fin 128) :
    k0_pay1 x ws bs wo (ix2 r u) = ∑ k : Fin 128, hidden x ws bs r k * wo (ix2 k u) := by
  unfold k0_pay1
  simp only [shapeCast_self]
  rw [matmul_entry]
  refine Finset.sum_congr rfl fun k _ => ?_
  rw [maximumf_apply, addf_apply, matmul_entry, bias_entry, broadcast_apply]
  show max _ (Ideal.ofBits .f32 0x00000000#32) * _ = _
  rw [Ideal.ofBits_zero_f32]
  rfl

/-- The neighbour-branch payload at entry `(r, u)`. -/
theorem pay2_entry (x : Vec Ideal S2000x128 .f32) (wa : Vec Ideal S128x128 .f32) (ba : Vec Ideal S1x128 .f32)
    (wo : Vec Ideal S128x128 .f32) (r : Fin 2000) (u : Fin 128) :
    k0_pay2 x wa ba wo (ix2 r u) = ∑ k : Fin 128, hidden x wa ba r k * wo (ix2 k u) := by
  unfold k0_pay2
  simp only [shapeCast_self]
  rw [matmul_entry]
  refine Finset.sum_congr rfl fun k _ => ?_
  rw [maximumf_apply, addf_apply, matmul_entry, bias_entry, broadcast_apply]
  show max _ (Ideal.ofBits .f32 0x00000000#32) * _ = _
  rw [Ideal.ofBits_zero_f32]
  rfl

end Cert.KernelIdeal.Region0

end
-- ==== Proof.Region0Ideal.lean ====
import proofs.«213116_g69346541961480_cont_9to1_m_612_34_alg».proof.Proof.Region0Value
import proofs.«213116_g69346541961480_cont_9to1_m_612_34_alg».proof.Proof.Region0Pay

/-!
# The first dense stage's two result arrays over the extended reals, row by row

At the ideal values the rows of a block do not mix, so the block structure disappears: entry `(n, u)` of the self-branch
result is `Σ_k max (Σ_d x[n, d] · W_self[d, k] + b_self[0, k]) 0 · W_out[k, u]`, of row `n` of the node table and the
parameters alone, and likewise for the neighbour branch with its own parameters.
-/

noncomputable section

namespace Cert.KernelIdeal.Region0

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- Row `n % 2000` of the node table's block `n / 2000` is row `n` of the table. -/
theorem xBlock_row (c : Dev nD) (n : Fin 100000) (d : Fin 128) :
    xBlock V c (blockOfRow n) (ix2 (rowInBlock n) d) = xArr V c (ix2 n d) := by
  show xArr V c (ix2 (rowOfBlock (blockOfRow n) (rowInBlock n)) d) = _
  rw [rowOfBlock_blockOfRow]

/-- The hidden layer of a branch on the block holding row `n`, at that row, is the hidden layer of row `n`. -/
theorem hidden_row (c : Dev nD) (w : FVec Ideal S128x128 .f32) (b : FVec Ideal S1x128 .f32) (n : Fin 100000) (k : Fin 128) :
    hidden (xBlock V c (blockOfRow n)) w b (rowInBlock n) k
      = max ((∑ d : Fin 128, xArr V c (ix2 n d) * w (ix2 d k)) + b (ix2 (0 : Fin 1) k)) 0 := by
  unfold hidden
  simp only [xBlock_row]

/-- The self-branch result at entry `(n, u)`. -/
theorem spAll_entry (c : Dev nD) (n : Fin 100000) (u : Fin 128) :
    spAll V c (ix2 n u)
      = ∑ k : Fin 128, max ((∑ d : Fin 128, xArr V c (ix2 n d) * wsArr V c (ix2 d k)) + bsArr V c (ix2 (0 : Fin 1) k)) 0
          * wo1Arr V c (ix2 k u) := by
  show outSp (xBlock V c (blockOfRow n)) (wsArr V c) (bsArr V c) (wo1Arr V c) (ix2 (rowInBlock n) u) = _
  rw [outSp_eq, pay1_entry]
  refine Finset.sum_congr rfl fun k _ => ?_
  rw [hidden_row]

/-- The neighbour-branch result at entry `(n, u)`. -/
theorem apAll_entry (c : Dev nD) (n : Fin 100000) (u : Fin 128) :
    apAll V c (ix2 n u)
      = ∑ k : Fin 128, max ((∑ d : Fin 128, xArr V c (ix2 n d) * waArr V c (ix2 d k)) + baArr V c (ix2 (0 : Fin 1) k)) 0
          * wo2Arr V c (ix2 k u) := by
  show outAp (xBlock V c (blockOfRow n)) (waArr V c) (baArr V c) (wo2Arr V c) (ix2 (rowInBlock n) u) = _
  rw [outAp_eq, pay2_entry]
  refine Finset.sum_congr rfl fun k _ => ?_
  rw [hidden_row]

end Cert.KernelIdeal.Region0

end
-- ==== Proof.Region1Pay.lean ====
import proofs.«213116_g69346541961480_cont_9to1_m_612_34_alg».proof.Proof.Gen.KernelIdeal.Skeleton
import Idealize.ShloMosaic.PureOps.Ideal.Laws
import Idealize.ShloMosaic.Lib.IdealHost
import Idealize.ShloMosaic.Lib.ValueIdx
import Idealize.ShloMosaic.Lib.Pipeline.Value
import Mathlib.Tactic.FinCases

/-! # The level-0 body's payloads, read at an index over the extended reals

At the ideal values a matrix product into zeros is a sum of products over the contracted coordinate, a bias row
broadcast down a block is its entry in the column, a column of neighbour weights broadcast across a block is its entry
in the row, the rectifier is `max · 0` and the quotient is `Ideal.div`. Each payload of the body is read here entry by
entry as such an expression of its operands' entries, in the body's own order of operands and association. -/

noncomputable section

namespace Cert.KernelIdeal.Region1

open Cert.KernelIdeal Cert.KernelIdeal.Gen
open Idealize.ShloMosaic Idealize.ShloMosaic.ValueIdx
open scoped BigOperators

/-! ## The building blocks at an index -/

/-- The body's product: rows by the one contracted axis by columns. -/
abbrev DD : DotDims S512x128 S128x128 S512x128 := dot_S512x128_S128x128_S512x128_1_0_0_1_n_n

/-- The operand indices of the product at an output entry and a contraction position: the left operand is read in the
    output's row at the contraction's column, the right operand in the contraction's row at the output's column. -/
theorem lhs_row (i : S512x128.Idx) (q : DD.contr.Idx) : (DD.lhsIdx i q 0).val = (i 0).val := by
  unfold DotDims.lhsIdx
  rw [dif_neg (show ¬(0 : Fin S512x128.rank) ∈ DD.lhsBatch by decide),
    dif_pos (show (0 : Fin S512x128.rank) ∈ DD.lhsNonContracting by decide)]
  rfl
theorem lhs_col (i : S512x128.Idx) (q : DD.contr.Idx) : (DD.lhsIdx i q 1).val = (q ⟨0, by decide⟩).val :=
  DD.lhsIdx_val_of_single rfl i q
theorem rhs_row (i : S512x128.Idx) (q : DD.contr.Idx) : (DD.rhsIdx i q 0).val = (q ⟨0, by decide⟩).val :=
  DD.rhsIdx_val_of_single rfl i q
theorem rhs_col (i : S512x128.Idx) (q : DD.contr.Idx) : (DD.rhsIdx i q 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- A 512×128 by 128×128 product into zeros, at `(p, u)`: the sum over the 128 inner positions. -/
theorem matmul_entry (a : FVec Ideal S512x128 .f32) (b : FVec Ideal S128x128 .f32) (p : Fin 512) (u : Fin 128) :
    matmul DD none a b (constant S512x128 .f32 0x00000000#32) (ix2 p u) = ∑ k : Fin 128, a (ix2 p k) * b (ix2 k u) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p u) ((contrEquiv1 DD 128 rfl rfl).symm k) = ix2 p k := funext fun x => Fin.ext (by
    match x with
    | ⟨0, _⟩ => exact lhs_row _ _
    | ⟨1, _⟩ => exact (lhs_col _ _).trans hk)
  have er : DD.rhsIdx (ix2 p u) ((contrEquiv1 DD 128 rfl rfl).symm k) = ix2 k u := funext fun x => Fin.ext (by
    match x with
    | ⟨0, _⟩ => exact (rhs_row _ _).trans hk
    | ⟨1, _⟩ => exact rhs_col _ _)
  rw [el, er]

/-- A bias row broadcast down the block reads its entry in the column. -/
theorem bias_entry (b : FVec Ideal S1x128 .f32) (p : Fin 512) (k : Fin 128) :
    broadcastTo S512x128 b broadcasts_S1x128_S512x128 (ix2 p k) = b (ix2 (0 : Fin 1) k) := by
  refine broadcastTo_apply b _ _ _ fun a => ?_
  match a with
  | ⟨0, _⟩ => rfl
  | ⟨1, _⟩ => rfl

/-- Column `t` of the neighbour weights, broadcast across the block, reads its entry in the row. -/
theorem alpha_entry (al : Vec Ideal S512x10 .f32) (t : Fin 10) (h : S512x10.Slices ![0, t.val] S512x1) (p : Fin 512) (k : Fin 128) :
    broadcastTo S512x128 (extractStridedSlice S512x1 ![0, t.val] al h : FVec Ideal S512x1 .f32) broadcasts_S512x1_S512x128 (ix2 p k) = al (ix2 p t) := by
  refine (broadcastTo_apply (α := Ideal .f32) _ broadcasts_S512x1_S512x128 (ix2 p k) (ix2 p (0 : Fin 1)) fun a => ?_).trans ?_
  · match a with
    | ⟨0, _⟩ => rfl
    | ⟨1, _⟩ => rfl
  · refine extractStridedSlice_apply (α := Ideal .f32) _ al h _ (ix2 p t) fun a => ?_
    match a with
    | ⟨0, _⟩ => show p.val = 0 + p.val; omega
    | ⟨1, _⟩ => show t.val = t.val + 0; omega

/-- A 512×1×128 slab of neighbour rows viewed as a 512×128 block. -/
theorem slot_entry (v : Vec Ideal S512x1x128 .f32) (p : Fin 512) (d : Fin 128) :
    (shapeCast S512x128 v shapeCasts_S512x1x128_S512x128 : FVec Ideal S512x128 .f32) (ix2 p d) = v (ix3 p (0 : Fin 1) d) := by
  refine shapeCast_apply (α := Ideal .f32) v _ (ix2 p d) (ix3 p (0 : Fin 1) d) ?_
  rw [Shape.rowMajor_val_succ, Shape.rowMajor_val_two, Shape.rowMajor_val_two]
  show p.val * (1 * 128) + (0 * 128 + d.val) = p.val * 128 + d.val
  omega

/-- The norm the body takes of a 32×16 table of partial sums of squares: the square root of their total. -/
def nuOf (sq : Vec Ideal S32x16 .f32) : EReal := Ideal.sqrt (∑ x : S32x16.Idx, sq x)

/-- The 32×16 entries as the entries of the table viewed 1×32×16. -/
def tab3 : S32x16.Idx ≃ S1x32x16.Idx where
  toFun x := ix3 (0 : Fin 1) (x 0) (x 1)
  invFun i := ix2 (i 1) (i 2)
  left_inv x := (eq_ix2 x).symm
  right_inv i := by
    funext a
    match a with
    | ⟨0, _⟩ => exact Fin.ext (by have h : (i 0).val < 1 := (i 0).isLt; show 0 = (i 0).val; omega)
    | ⟨1, _⟩ => rfl
    | ⟨2, _⟩ => rfl

/-- The one entry the body extracts from the table's total over its two axes is the sum of all its entries. -/
theorem total_eq (v0 : Vec Ideal S32x16 .f32) :
    extractAt ![0, 0, 0] (shapeCast S1x1x1 (multiReduction (F := Ideal) .add [1, 2] S1
      (shapeCast S1x32x16 (shapeCast S32x16 v0 shapeCasts_S32x16_S32x16) shapeCasts_S32x16_S1x32x16)
      0x00000000#32 reduces_S1x32x16_S1 (.inl rfl) rfl) shapeCasts_S1_S1x1x1) inpos_S1x1x1_p0_0_0
      = ∑ x : S32x16.Idx, v0 x := by
  show shapeCast S1x1x1 _ shapeCasts_S1_S1x1x1 _ = _
  unfold shapeCast
  refine (Ideal.multiReduction_add_total _ _ reduces_S1x32x16_S1 (fun b => by fin_cases b; rfl) _ _ _).trans ?_
  rw [← Equiv.sum_comp tab3]
  refine Finset.sum_congr rfl fun x _ => ?_
  show shapeCast S1x32x16 (shapeCast S32x16 v0 shapeCasts_S32x16_S32x16) shapeCasts_S32x16_S1x32x16 (ix3 0 (x 0) (x 1)) = v0 x
  rw [shapeCast_self]
  refine (shapeCast_addUnit_apply ![32, 16] v0 shapeCasts_S32x16_S1x32x16 (ix3 0 (x 0) (x 1))).trans ?_
  exact congrArg v0 (funext fun a => by
    match a with
    | ⟨0, _⟩ => rfl
    | ⟨1, _⟩ => rfl)

theorem pay4_eq (v0 : Vec Ideal S32x16 .f32) : k2_pay4 v0 = nuOf v0 := congrArg Ideal.sqrt (total_eq v0)

theorem pay5_eq (v7 : Vec Ideal S32x16 .f32) : k2_pay5 v7 = nuOf v7 := pay4_eq v7

/-- One dense rectified layer with its bias scaled by `ν`, at column `k` of a row `x`. -/
def hid (x : Fin 128 → EReal) (w : FVec Ideal S128x128 .f32) (b : FVec Ideal S1x128 .f32) (ν : EReal) (k : Fin 128) : EReal :=
  max ((∑ d : Fin 128, x d * w (ix2 d k)) + ν * b (ix2 (0 : Fin 1) k)) 0

/-- The self branch at `(p, k)`. -/
theorem pay6_entry (v0 : Vec Ideal S32x16 .f32) (v14 : Vec Ideal S512x128 .f32) (v16 : Vec Ideal S128x128 .f32) (v18 : Vec Ideal S1x128 .f32)
    (p : Fin 512) (k : Fin 128) :
    k2_pay6 v0 v14 v16 v18 (ix2 p k) = hid (fun d => v14 (ix2 p d)) v16 v18 (nuOf v0) k := by
  unfold k2_pay6 hid
  simp only [shapeCast_self]
  rw [maximumf_apply, addf_apply, matmul_entry, bias_entry, mulf_apply, broadcast_apply, broadcast_apply, pay4_eq]
  show max _ (Ideal.ofBits .f32 0x00000000#32) = _
  rw [Ideal.ofBits_zero_f32]

/-! ## The neighbour branch, slot by slot -/

/-- Column `n` of the neighbour weights, as the body slices it. -/
theorem al0 (al : Vec Ideal S512x10 .f32) (p : Fin 512) (k : Fin 128) :
    broadcastTo S512x128 (extractStridedSlice S512x1 ![0, 0] al slices_S512x10_o0_0_S512x1 : FVec Ideal S512x1 .f32) broadcasts_S512x1_S512x128 (ix2 p k) = al (ix2 p 0) :=
  alpha_entry al 0 _ p k
theorem al1 (al : Vec Ideal S512x10 .f32) (p : Fin 512) (k : Fin 128) :
    broadcastTo S512x128 (extractStridedSlice S512x1 ![0, 1] al slices_S512x10_o0_1_S512x1 : FVec Ideal S512x1 .f32) broadcasts_S512x1_S512x128 (ix2 p k) = al (ix2 p 1) :=
  alpha_entry al 1 _ p k

/-- A slab of neighbour rows, viewed as a block, times a weight matrix, at `(p, k)`. -/
theorem matmul_slot_entry (v : Vec Ideal S512x1x128 .f32) (w : FVec Ideal S128x128 .f32) (p : Fin 512) (k : Fin 128) :
    matmul DD none (shapeCast S512x128 v shapeCasts_S512x1x128_S512x128 : FVec Ideal S512x128 .f32) w (constant S512x128 .f32 0x00000000#32) (ix2 p k)
      = ∑ d : Fin 128, v (ix3 p (0 : Fin 1) d) * w (ix2 d k) :=
  (matmul_entry _ _ p k).trans (Finset.sum_congr rfl fun d _ => by rw [slot_entry])

theorem pay7_entry (p : Fin 512) (k : Fin 128) : k2_pay7 (F := Ideal) (ix2 p k) = 0 := by
  show Ideal.ofBits .f32 0x00000000#32 = 0
  exact Ideal.ofBits_zero_f32

theorem pay8_entry (v28 : Vec Ideal S512x1x128 .f32) (v30 : Vec Ideal S128x128 .f32) (p : Fin 512) (k : Fin 128) :
    k2_pay8 v28 v30 (ix2 p k) = ∑ d : Fin 128, v28 (ix3 p (0 : Fin 1) d) * v30 (ix2 d k) := by
  unfold k2_pay8
  exact matmul_slot_entry v28 v30 p k

theorem pay9_eq (v32 : Vec Ideal S1x128 .f32) : k2_pay9 v32 = v32 := shapeCast_self _ _

theorem pay10_entry (v13 : EReal) (v26 : Vec Ideal S512x10 .f32) (v27 v31 : FVec Ideal S512x128 .f32) (v33 : FVec Ideal S1x128 .f32)
    (v44 : Vec Ideal S512x1x128 .f32) (v46 : Vec Ideal S128x128 .f32) (v48 : Vec Ideal S1x128 .f32) (p : Fin 512) (k : Fin 128) :
    k2_pay10 v13 v26 v27 v31 v33 v44 v46 v48 (ix2 p k)
      = v27 (ix2 p k) + v26 (ix2 p 0) * max (v31 (ix2 p k) + v13 * v33 (ix2 (0 : Fin 1) k)) 0
          + v26 (ix2 p 1) * hid (fun d => v44 (ix3 p (0 : Fin 1) d)) v46 v48 v13 k := by
  unfold k2_pay10 hid
  simp only [shapeCast_self, addf_apply, mulf_apply, maximumf_apply, broadcast_apply, bias_entry]
  rw [al0, al1, matmul_slot_entry]
  show _ + _ * max _ (Ideal.ofBits .f32 0x00000000#32) + _ * max _ (Ideal.ofBits .f32 0x00000000#32) = _
  rw [Ideal.ofBits_zero_f32]

theorem al2 (al : Vec Ideal S512x10 .f32) (p : Fin 512) (k : Fin 128) :
    broadcastTo S512x128 (extractStridedSlice S512x1 ![0, 2] al slices_S512x10_o0_2_S512x1 : FVec Ideal S512x1 .f32) broadcasts_S512x1_S512x128 (ix2 p k) = al (ix2 p 2) :=
  alpha_entry al 2 _ p k
theorem al3 (al : Vec Ideal S512x10 .f32) (p : Fin 512) (k : Fin 128) :
    broadcastTo S512x128 (extractStridedSlice S512x1 ![0, 3] al slices_S512x10_o0_3_S512x1 : FVec Ideal S512x1 .f32) broadcasts_S512x1_S512x128 (ix2 p k) = al (ix2 p 3) :=
  alpha_entry al 3 _ p k
theorem al4 (al : Vec Ideal S512x10 .f32) (p : Fin 512) (k : Fin 128) :
    broadcastTo S512x128 (extractStridedSlice S512x1 ![0, 4] al slices_S512x10_o0_4_S512x1 : FVec Ideal S512x1 .f32) broadcasts_S512x1_S512x128 (ix2 p k) = al (ix2 p 4) :=
  alpha_entry al 4 _ p k
theorem al5 (al : Vec Ideal S512x10 .f32) (p : Fin 512) (k : Fin 128) :
    broadcastTo S512x128 (extractStridedSlice S512x1 ![0, 5] al slices_S512x10_o0_5_S512x1 : FVec Ideal S512x1 .f32) broadcasts_S512x1_S512x128 (ix2 p k) = al (ix2 p 5) :=
  alpha_entry al 5 _ p k
theorem al6 (al : Vec Ideal S512x10 .f32) (p : Fin 512) (k : Fin 128) :
    broadcastTo S512x128 (extractStridedSlice S512x1 ![0, 6] al slices_S512x10_o0_6_S512x1 : FVec Ideal S512x1 .f32) broadcasts_S512x1_S512x128 (ix2 p k) = al (ix2 p 6) :=
  alpha_entry al 6 _ p k
theorem al7 (al : Vec Ideal S512x10 .f32) (p : Fin 512) (k : Fin 128) :
    broadcastTo S512x128 (extractStridedSlice S512x1 ![0, 7] al slices_S512x10_o0_7_S512x1 : FVec Ideal S512x1 .f32) broadcasts_S512x1_S512x128 (ix2 p k) = al (ix2 p 7) :=
  alpha_entry al 7 _ p k
theorem al8 (al : Vec Ideal S512x10 .f32) (p : Fin 512) (k : Fin 128) :
    broadcastTo S512x128 (extractStridedSlice S512x1 ![0, 8] al slices_S512x10_o0_8_S512x1 : FVec Ideal S512x1 .f32) broadcasts_S512x1_S512x128 (ix2 p k) = al (ix2 p 8) :=
  alpha_entry al 8 _ p k
theorem al9 (al : Vec Ideal S512x10 .f32) (p : Fin 512) (k : Fin 128) :
    broadcastTo S512x128 (extractStridedSlice S512x1 ![0, 9] al slices_S512x10_o0_9_S512x1 : FVec Ideal S512x1 .f32) broadcasts_S512x1_S512x128 (ix2 p k) = al (ix2 p 9) :=
  alpha_entry al 9 _ p k

theorem pay11_entry (v13 : EReal) (v26 : Vec Ideal S512x10 .f32) (v60 : Vec Ideal S512x1x128 .f32) (v62 : Vec Ideal S128x128 .f32)
    (v64 : Vec Ideal S1x128 .f32) (p : Fin 512) (k : Fin 128) :
    k2_pay11 v13 v26 v60 v62 v64 (ix2 p k) = v26 (ix2 p 2) * hid (fun d => v60 (ix3 p (0 : Fin 1) d)) v62 v64 v13 k := by
  unfold k2_pay11 hid
  simp only [shapeCast_self, addf_apply, mulf_apply, maximumf_apply, broadcast_apply, bias_entry]
  rw [al2, matmul_slot_entry]
  show _ * max _ (Ideal.ofBits .f32 0x00000000#32) = _
  rw [Ideal.ofBits_zero_f32]

theorem pay12_entry (v13 : EReal) (v26 : Vec Ideal S512x10 .f32) (v59 v74 : FVec Ideal S512x128 .f32)
    (v76 : Vec Ideal S512x1x128 .f32) (v78 : Vec Ideal S128x128 .f32) (v80 : Vec Ideal S1x128 .f32)
    (v92 : Vec Ideal S512x1x128 .f32) (v94 : Vec Ideal S128x128 .f32) (v96 : Vec Ideal S1x128 .f32) (p : Fin 512) (k : Fin 128) :
    k2_pay12 v13 v26 v59 v74 v76 v78 v80 v92 v94 v96 (ix2 p k)
      = v59 (ix2 p k) + v74 (ix2 p k) + v26 (ix2 p 3) * hid (fun d => v76 (ix3 p (0 : Fin 1) d)) v78 v80 v13 k
          + v26 (ix2 p 4) * hid (fun d => v92 (ix3 p (0 : Fin 1) d)) v94 v96 v13 k := by
  unfold k2_pay12 hid
  simp only [shapeCast_self, addf_apply, mulf_apply, maximumf_apply, broadcast_apply, bias_entry]
  rw [al3, al4, matmul_slot_entry, matmul_slot_entry]
  show _ + _ + _ * max _ (Ideal.ofBits .f32 0x00000000#32) + _ * max _ (Ideal.ofBits .f32 0x00000000#32) = _
  rw [Ideal.ofBits_zero_f32]

theorem pay13_entry (v108 : Vec Ideal S512x1x128 .f32) (p : Fin 512) (d : Fin 128) :
    k2_pay13 v108 (ix2 p d) = v108 (ix3 p (0 : Fin 1) d) := slot_entry v108 p d

theorem pay14_entry (v13 : EReal) (v26 : Vec Ideal S512x10 .f32) (v107 v109 : FVec Ideal S512x128 .f32) (v110 : Vec Ideal S128x128 .f32)
    (v112 : Vec Ideal S1x128 .f32) (v124 : Vec Ideal S512x1x128 .f32) (v126 : Vec Ideal S128x128 .f32) (v128 : Vec Ideal S1x128 .f32)
    (p : Fin 512) (k : Fin 128) :
    k2_pay14 v13 v26 v107 v109 v110 (constant S512x128 .f32 0x00000000#32) v112 v124 v126 v128 (ix2 p k)
      = v107 (ix2 p k) + v26 (ix2 p 5) * hid (fun d => v109 (ix2 p d)) v110 v112 v13 k
          + v26 (ix2 p 6) * hid (fun d => v124 (ix3 p (0 : Fin 1) d)) v126 v128 v13 k := by
  unfold k2_pay14 hid
  simp only [shapeCast_self, addf_apply, mulf_apply, maximumf_apply, broadcast_apply, bias_entry]
  rw [al5, al6, matmul_slot_entry, matmul_entry]
  show _ + _ * max _ (Ideal.ofBits .f32 0x00000000#32) + _ * max _ (Ideal.ofBits .f32 0x00000000#32) = _
  rw [Ideal.ofBits_zero_f32]

theorem pay15_entry (v13 : EReal) (v140 : Vec Ideal S512x1x128 .f32) (v142 : Vec Ideal S128x128 .f32) (v144 : Vec Ideal S1x128 .f32)
    (p : Fin 512) (k : Fin 128) :
    k2_pay15 v13 v140 v142 v144 (ix2 p k)
      = (∑ d : Fin 128, v140 (ix3 p (0 : Fin 1) d) * v142 (ix2 d k)) + v13 * v144 (ix2 (0 : Fin 1) k) := by
  unfold k2_pay15
  simp only [shapeCast_self, addf_apply, mulf_apply, broadcast_apply, bias_entry]
  rw [matmul_slot_entry]

theorem pay16_entry (v13 : EReal) (v26 : Vec Ideal S512x10 .f32) (v139 v149 : FVec Ideal S512x128 .f32)
    (v156 : Vec Ideal S512x1x128 .f32) (v158 : Vec Ideal S128x128 .f32) (v160 : Vec Ideal S1x128 .f32)
    (v172 : Vec Ideal S512x1x128 .f32) (v174 : Vec Ideal S128x128 .f32) (v176 : Vec Ideal S1x128 .f32) (p : Fin 512) (k : Fin 128) :
    k2_pay16 v13 v26 v139 v149 (Scalar.ofBits .f32 0x00000000#32) v156 v158 v160 v172 v174 v176 (ix2 p k)
      = v139 (ix2 p k) + v26 (ix2 p 7) * max (v149 (ix2 p k)) 0
          + v26 (ix2 p 8) * hid (fun d => v156 (ix3 p (0 : Fin 1) d)) v158 v160 v13 k
          + v26 (ix2 p 9) * hid (fun d => v172 (ix3 p (0 : Fin 1) d)) v174 v176 v13 k := by
  unfold k2_pay16 hid
  simp only [shapeCast_self, addf_apply, mulf_apply, maximumf_apply, broadcast_apply, bias_entry]
  rw [al7, al8, al9, matmul_slot_entry, matmul_slot_entry]
  show _ + _ * max _ (Ideal.ofBits .f32 0x00000000#32) + _ * max _ (Ideal.ofBits .f32 0x00000000#32)
    + _ * max _ (Ideal.ofBits .f32 0x00000000#32) = _
  rw [Ideal.ofBits_zero_f32]

theorem pay17_eq (v188 : Vec Ideal S128x128 .f32) : k2_pay17 v188 = v188 := shapeCast_self _ _

/-! ## The output block and the carried row -/

/-- THE OUTPUT BLOCK at `(p, u)`: the two halves of the output layer, each divided by its norm, plus the bias, rectified. -/
theorem pay1_entry (v6 v13 : EReal) (v25 v187 : FVec Ideal S512x128 .f32) (v189 : FVec Ideal S128x128 .f32) (v193 : Vec Ideal S128x128 .f32)
    (v199 : Vec Ideal S1x128 .f32) (p : Fin 512) (u : Fin 128) :
    k2_pay1 v6 v13 v25 v187 v189 v193 v199 (ix2 p u)
      = max (Ideal.div (∑ k : Fin 128, v25 (ix2 p k) * v189 (ix2 k u)) v6
              + Ideal.div (∑ k : Fin 128, v187 (ix2 p k) * v193 (ix2 k u)) v13 + v199 (ix2 (0 : Fin 1) u)) 0 := by
  unfold k2_pay1
  simp only [shapeCast_self, addf_apply, divf_apply, maximumf_apply, broadcast_apply, bias_entry]
  rw [matmul_entry, matmul_entry]
  show max _ (Ideal.ofBits .f32 0x00000000#32) = _
  rw [Ideal.ofBits_zero_f32]

theorem pay2_entry (u : Fin 128) : k2_pay2 (F := Ideal) (ix2 (0 : Fin 1) u) = 0 := by
  show Ideal.ofBits .f32 0x00000000#32 = 0
  exact Ideal.ofBits_zero_f32

/-- A block's sum over its rows, at a column index `j`: the sum over the 512 rows of the entries in that column. -/
theorem colsum_aux (X : FVec Ideal S512x128 .f32) (j : S128.Idx) :
    multiReduction (F := Ideal) .add [0] S128 X 0x00000000#32 reduces_S512x128_S128 (.inl rfl) rfl j
      = ∑ p : Fin 512, X (reduces_S512x128_S128.lift j p) :=
  Ideal.multiReduction_add_single X _ reduces_S512x128_S128 _ _ j

/-- The column index with the row inserted. -/
theorem lift_eq (j : S128.Idx) (p : Fin 512) : (reduces_S512x128_S128.lift j p : S512x128.Idx) = ix2 p (j 0) := by
  funext a
  match a with
  | ⟨0, _⟩ => rfl
  | ⟨1, _⟩ => rfl

/-- The column sums of a block, stored as a row, at column `u`. -/
theorem colsum_entry (X : FVec Ideal S512x128 .f32) (u : Fin 128) :
    (shapeCast S1x128 (multiReduction (F := Ideal) .add [0] S128 X 0x00000000#32 reduces_S512x128_S128 (.inl rfl) rfl)
      shapeCasts_S128_S1x128 : FVec Ideal S1x128 .f32) (ix2 (0 : Fin 1) u) = ∑ p : Fin 512, X (ix2 p u) :=
  (shapeCast_addUnit_apply (α := Ideal .f32) ![128] _ shapeCasts_S128_S1x128 (ix2 (0 : Fin 1) u)).trans
    ((colsum_aux X _).trans (Finset.sum_congr rfl fun p _ => congrArg X (lift_eq _ p)))

/-- THE CARRIED ROW at column `u`: what it held plus the column's sum of the squares of the output block. -/
theorem pay3_entry (v6 v13 : EReal) (v25 v187 : FVec Ideal S512x128 .f32) (v189 : FVec Ideal S128x128 .f32) (v193 : Vec Ideal S128x128 .f32)
    (v199 : Vec Ideal S1x128 .f32) (v209 : Vec Ideal S1x128 .f32) (u : Fin 128) :
    k2_pay3 v6 v13 v25 v187 v189 v193 v199 v209 (ix2 (0 : Fin 1) u)
      = v209 (ix2 (0 : Fin 1) u)
        + ∑ p : Fin 512, k2_pay1 v6 v13 v25 v187 v189 v193 v199 (ix2 p u) * k2_pay1 v6 v13 v25 v187 v189 v193 v199 (ix2 p u) := by
  unfold k2_pay3
  simp only [shapeCast_self, addf_apply]
  rw [colsum_entry]
  rfl

end Cert.KernelIdeal.Region1

end
-- ==== Proof.Region1Value.lean ====
import proofs.«213116_g69346541961480_cont_9to1_m_612_34_alg».proof.Proof.Region1
import proofs.«213116_g69346541961480_cont_9to1_m_612_34_alg».proof.Proof.Region1Pay
import proofs.«213116_g69346541961480_cont_9to1_m_612_34_alg».proof.Proof.Spec
import Idealize.ShloMosaic.Lib.ValueIdx
import Idealize.ShloMosaic.Lib.Pipeline.Value

/-! # The level-0 region's two output arrays as whole-array functions, and entry by entry over the extended reals

The region's first output array is one function `E0fun` of the twelve arrays it reads: row `r` is row `r % 512` of the
body's output block on the blocks of 512 rows that hold `r`. Its second is the carried row after the last of the eight
points, `SQfun … 7`. At the ideal values the rows of a block do not mix, so the block structure disappears: entry
`(r, u)` of the first is the rectified sum of the two halves of the output layer, each divided by the norm its
inputs were not divided by, plus the bias; and column `u` of the second is the sum over all 4096 rows of the squares
of the first's entries in that column. -/

noncomputable section

namespace Cert.KernelIdeal.Region1

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen
open scoped BigOperators

/-! ## The output arrays as functions of the twelve input arrays -/

section Whole

variable {F : FTy → Type} [FloatOps F]

/-- Rows `512 t … 512 t + 511` of the targets' level-1 embeddings, -/
def rowsT (e : S4096x128.Idx → Elt F .f32) (t : Fin 8) : Vec F S512x128 .f32 :=
  fun j => e (ix2 (⟨t.val * 512 + (j 0).val, by have h : (j 0).val < 512 := (j 0).isLt; have := t.isLt; omega⟩ : Fin 4096) (j 1))
/-- of their neighbours', -/
def rowsN (e : S4096x10x128.Idx → Elt F .f32) (t : Fin 8) : Vec F S512x10x128 .f32 :=
  fun j => e (ix3 (⟨t.val * 512 + (j 0).val, by have h : (j 0).val < 512 := (j 0).isLt; have := t.isLt; omega⟩ : Fin 4096) (j 1) (j 2))
/-- and of the neighbour weights. -/
def rowsA (e : S4096x10.Idx → Elt F .f32) (t : Fin 8) : Vec F S512x10 .f32 :=
  fun j => e (ix2 (⟨t.val * 512 + (j 0).val, by have h : (j 0).val < 512 := (j 0).isLt; have := t.isLt; omega⟩ : Fin 4096) (j 1))

variable (e1t : S4096x128.Idx → Elt F .f32) (e1n3 : S4096x10x128.Idx → Elt F .f32) (al : S4096x10.Idx → Elt F .f32)
    (ws0 : S128x128.Idx → Elt F .f32) (bs0 : S1x128.Idx → Elt F .f32) (wa0 : S128x128.Idx → Elt F .f32) (ba0 : S1x128.Idx → Elt F .f32)
    (wo0t wo0b : S128x128.Idx → Elt F .f32) (bo0 : S1x128.Idx → Elt F .f32) (sqt sqn : S32x16.Idx → Elt F .f32)

/-- The body's output block on the rows `512 t …`. -/
def e0Blk (t : Fin 8) : Vec F S512x128 .f32 :=
  e0Of (rowsT e1t t) (rowsN e1n3 t) (rowsA al t) ws0 bs0 wa0 ba0 wo0t wo0b bo0 sqt sqn

/-- THE FIRST OUTPUT ARRAY as one function of the twelve input arrays: row `r` is row `r % 512` of the body's output
    block on the rows `512 (r / 512) …`. -/
def E0fun : S4096x128.Idx → Elt F .f32 :=
  fun i => e0Blk e1t e1n3 al ws0 bs0 wa0 ba0 wo0t wo0b bo0 sqt sqn ⟨(i 0).val / 512, by have h : (i 0).val < 4096 := (i 0).isLt; omega⟩
    (ix2 (⟨(i 0).val % 512, Nat.mod_lt _ (by decide)⟩ : Fin 512) (i 1))

/-- `E0fun` at row `512 t + j₀`, column `j₁`, is the output block `t` at `(j₀, j₁)`. -/
theorem E0fun_apply (i : S4096x128.Idx) (t : Fin 8) (j : S512x128.Idx)
    (h0 : (i 0).val = t.val * 512 + (j 0).val) (h1 : (i 1).val = (j 1).val) :
    E0fun e1t e1n3 al ws0 bs0 wa0 ba0 wo0t wo0b bo0 sqt sqn i = e0Blk e1t e1n3 al ws0 bs0 wa0 ba0 wo0t wo0b bo0 sqt sqn t j := by
  have hj0 : (j 0).val < 512 := (j 0).isLt
  unfold E0fun
  have ht : (⟨(i 0).val / 512, by have h : (i 0).val < 4096 := (i 0).isLt; omega⟩ : Fin 8) = t :=
    Fin.ext (by show (i 0).val / 512 = t.val; omega)
  have hj : (ix2 (⟨(i 0).val % 512, Nat.mod_lt _ (by decide)⟩ : Fin 512) (i 1) : S512x128.Idx) = j := by
    funext a
    match a with
    | ⟨0, _⟩ => exact Fin.ext (by show (i 0).val % 512 = (j 0).val; omega)
    | ⟨1, _⟩ => exact Fin.ext h1
  rw [ht, hj]

/-- One point's step of the carried row on the rows `512 t …`. -/
def sqBlk (t : Fin 8) (acc : Vec F S1x128 .f32) : Vec F S1x128 .f32 :=
  sqOf (rowsT e1t t) (rowsN e1n3 t) (rowsA al t) ws0 bs0 wa0 ba0 wo0t wo0b bo0 sqt sqn acc

/-- THE CARRIED ROW after the points `0 … n`: the fold of `sqBlk` from zeros. -/
def SQfun : (n : ℕ) → n < 8 → Vec F S1x128 .f32
  | 0, h => sqBlk e1t e1n3 al ws0 bs0 wa0 ba0 wo0t wo0b bo0 sqt sqn ⟨0, h⟩ (sqZero (F := F))
  | n + 1, h => sqBlk e1t e1n3 al ws0 bs0 wa0 ba0 wo0t wo0b bo0 sqt sqn ⟨n + 1, h⟩ (SQfun n (Nat.lt_of_succ_lt h))

end Whole

/-! ## The arrays at the region's exit, as those functions of the arrays at its entry -/

section Data

variable {F : FTy → Type} [FloatOps F]
variable {Ix : Type} [DecidableEq Ix] {Name : Type} [DecidableEq Name] {U : Type} [URA U] {Lvl : Type} [Preorder Lvl]
variable (V : (c : Dev nD) → (b : Ref sig .tc) → Buf (Elt F) ((c : Thread nD τ).loc b))
variable (O : CellTallies nD τ sig Ix) (B : Set (SemLoc sig × Ix))

local notation "𝔡" => dat (Name := Name) (U := U) (Lvl := Lvl) V O B

/-- THE FIRST OUTPUT ARRAY of the region on core `c`, from the arrays as the region finds them. -/
def e0All (c : Dev nD) : S4096x128.Idx → Elt F .f32 := E0fun (V c main_v9_0) (V c main_v10) (V c main_arg3) (V c main_arg12) (V c main_v11) (V c main_arg14) (V c main_v12) (V c main_v13) (V c main_v14) (V c main_v15) (V c main_v9_2) (V c main_v9_3)

/-- THE SECOND: the carried row after the last point. -/
def sqAll (c : Dev nD) : S1x128.Idx → Elt F .f32 := SQfun (V c main_v9_0) (V c main_v10) (V c main_arg3) (V c main_arg12) (V c main_v11) (V c main_arg14) (V c main_v12) (V c main_v13) (V c main_v14) (V c main_v15) (V c main_v9_2) (V c main_v9_3) 7 (by decide)

/-- The printed index maps, decided over the grid: the blocks of the three row-blocked inputs and of the first output
    move with the grid coordinate along the rows; the carried row -/
theorem idx_facts : ∀ t : Fin cfg2.N,
    (win2_0.index t (0 : Fin 2) = t.val ∧ win2_0.index t (1 : Fin 2) = 0)
    ∧ (win2_1.index t (0 : Fin 3) = t.val ∧ win2_1.index t (1 : Fin 3) = 0 ∧ win2_1.index t (2 : Fin 3) = 0)
    ∧ (win2_2.index t (0 : Fin 2) = t.val ∧ win2_2.index t (1 : Fin 2) = 0)
    ∧ (win2_12.index t (0 : Fin 2) = t.val ∧ win2_12.index t (1 : Fin 2) = 0)
    ∧ (win2_13.index t (0 : Fin 2) = 0 ∧ win2_13.index t (1 : Fin 2) = 0) :=
  (by decide +kernel : ∀ t : Fin grid2.N, _)
/-- and every other window stay at block zero. -/
theorem idx_zero : ∀ t : Fin cfg2.N,
    (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

/-- The blocks the body reads, as functions of the arrays the region finds: block `t` of a row-blocked input is its
    rows `512 t …`; -/
theorem iblk_0 (c : Dev nD) (t : Fin cfg2.N) : iblk V c 0 t = rowsT (V c main_v9_0) (t.cast N_2) := by
  obtain ⟨⟨e0, e1⟩, -⟩ := idx_facts t
  funext j
  show V c main_v9_0 (((cfg2.win 0).blk t).view.emb j) = V c main_v9_0 (ix2 _ (j 1))
  congr 1
  funext a; apply Fin.ext
  match a with
  | ⟨0, _⟩ => show win2_0.index t (0 : Fin 2) * 512 + 1 * (j 0).val = t.val * 512 + (j 0).val; omega
  | ⟨1, _⟩ => show win2_0.index t (1 : Fin 2) * 128 + 1 * (j 1).val = (j 1).val; omega
theorem iblk_1 (c : Dev nD) (t : Fin cfg2.N) : iblk V c 1 t = rowsN (V c main_v10) (t.cast N_2) := by
  obtain ⟨-, ⟨e0, e1, e2⟩, -⟩ := idx_facts t
  funext j
  show V c main_v10 (((cfg2.win 1).blk t).view.emb j) = V c main_v10 (ix3 _ (j 1) (j 2))
  congr 1
  funext a; apply Fin.ext
  match a with
  | ⟨0, _⟩ => show win2_1.index t (0 : Fin 3) * 512 + 1 * (j 0).val = t.val * 512 + (j 0).val; omega
  | ⟨1, _⟩ => show win2_1.index t (1 : Fin 3) * 10 + 1 * (j 1).val = (j 1).val; omega
  | ⟨2, _⟩ => show win2_1.index t (2 : Fin 3) * 128 + 1 * (j 2).val = (j 2).val; omega
theorem iblk_2 (c : Dev nD) (t : Fin cfg2.N) : iblk V c 2 t = rowsA (V c main_arg3) (t.cast N_2) := by
  obtain ⟨-, -, ⟨e0, e1⟩, -⟩ := idx_facts t
  funext j
  show V c main_arg3 (((cfg2.win 2).blk t).view.emb j) = V c main_arg3 (ix2 _ (j 1))
  congr 1
  funext a; apply Fin.ext
  match a with
  | ⟨0, _⟩ => show win2_2.index t (0 : Fin 2) * 512 + 1 * (j 0).val = t.val * 512 + (j 0).val; omega
  | ⟨1, _⟩ => show win2_2.index t (1 : Fin 2) * 10 + 1 * (j 1).val = (j 1).val; omega
/-- the weights, the biases and the two tables of partial sums are whole at every point. -/
theorem iblk_3 (c : Dev nD) (t : Fin cfg2.N) : iblk V c 3 t = V c main_arg12 := by
  obtain ⟨⟨e0, e1⟩, -, -, -, -, -, -, -, -⟩ := idx_zero t
  funext j
  show V c main_arg12 (((cfg2.win 3).blk t).view.emb j) = V c main_arg12 j
  congr 1
  funext a; apply Fin.ext
  match a with
  | ⟨0, _⟩ => show win2_3.index t (0 : Fin 2) * 128 + 1 * (j 0).val = (j 0).val; omega
  | ⟨1, _⟩ => show win2_3.index t (1 : Fin 2) * 128 + 1 * (j 1).val = (j 1).val; omega
theorem iblk_4 (c : Dev nD) (t : Fin cfg2.N) : iblk V c 4 t = V c main_v11 := by
  obtain ⟨-, ⟨e0, e1⟩, -, -, -, -, -, -, -⟩ := idx_zero t
  funext j
  show V c main_v11 (((cfg2.win 4).blk t).view.emb j) = V c main_v11 j
  congr 1
  funext a; apply Fin.ext
  match a with
  | ⟨0, _⟩ => show win2_4.index t (0 : Fin 2) * 1 + 1 * (j 0).val = (j 0).val; omega
  | ⟨1, _⟩ => show win2_4.index t (1 : Fin 2) * 128 + 1 * (j 1).val = (j 1).val; omega
theorem iblk_5 (c : Dev nD) (t : Fin cfg2.N) : iblk V c 5 t = V c main_arg14 := by
  obtain ⟨-, -, ⟨e0, e1⟩, -, -, -, -, -, -⟩ := idx_zero t
  funext j
  show V c main_arg14 (((cfg2.win 5).blk t).view.emb j) = V c main_arg14 j
  congr 1
  funext a; apply Fin.ext
  match a with
  | ⟨0, _⟩ => show win2_5.index t (0 : Fin 2) * 128 + 1 * (j 0).val = (j 0).val; omega
  | ⟨1, _⟩ => show win2_5.index t (1 : Fin 2) * 128 + 1 * (j 1).val = (j 1).val; omega
theorem iblk_6 (c : Dev nD) (t : Fin cfg2.N) : iblk V c 6 t = V c main_v12 := by
  obtain ⟨-, -, -, ⟨e0, e1⟩, -, -, -, -, -⟩ := idx_zero t
  funext j
  show V c main_v12 (((cfg2.win 6).blk t).view.emb j) = V c main_v12 j
  congr 1
  funext a; apply Fin.ext
  match a with
  | ⟨0, _⟩ => show win2_6.index t (0 : Fin 2) * 1 + 1 * (j 0).val = (j 0).val; omega
  | ⟨1, _⟩ => show win2_6.index t (1 : Fin 2) * 128 + 1 * (j 1).val = (j 1).val; omega
theorem iblk_7 (c : Dev nD) (t : Fin cfg2.N) : iblk V c 7 t = V c main_v13 := by
  obtain ⟨-, -, -, -, ⟨e0, e1⟩, -, -, -, -⟩ := idx_zero t
  funext j
  show V c main_v13 (((cfg2.win 7).blk t).view.emb j) = V c main_v13 j
  congr 1
  funext a; apply Fin.ext
  match a with
  | ⟨0, _⟩ => show win2_7.index t (0 : Fin 2) * 128 + 1 * (j 0).val = (j 0).val; omega
  | ⟨1, _⟩ => show win2_7.index t (1 : Fin 2) * 128 + 1 * (j 1).val = (j 1).val; omega
theorem iblk_8 (c : Dev nD) (t : Fin cfg2.N) : iblk V c 8 t = V c main_v14 := by
  obtain ⟨-, -, -, -, -, ⟨e0, e1⟩, -, -, -⟩ := idx_zero t
  funext j
  show V c main_v14 (((cfg2.win 8).blk t).view.emb j) = V c main_v14 j
  congr 1
  funext a; apply Fin.ext
  match a with
  | ⟨0, _⟩ => show win2_8.index t (0 : Fin 2) * 128 + 1 * (j 0).val = (j 0).val; omega
  | ⟨1, _⟩ => show win2_8.index t (1 : Fin 2) * 128 + 1 * (j 1).val = (j 1).val; omega
theorem iblk_9 (c : Dev nD) (t : Fin cfg2.N) : iblk V c 9 t = V c main_v15 := by
  obtain ⟨-, -, -, -, -, -, ⟨e0, e1⟩, -, -⟩ := idx_zero t
  funext j
  show V c main_v15 (((cfg2.win 9).blk t).view.emb j) = V c main_v15 j
  congr 1
  funext a; apply Fin.ext
  match a with
  | ⟨0, _⟩ => show win2_9.index t (0 : Fin 2) * 1 + 1 * (j 0).val = (j 0).val; omega
  | ⟨1, _⟩ => show win2_9.index t (1 : Fin 2) * 128 + 1 * (j 1).val = (j 1).val; omega
theorem iblk_10 (c : Dev nD) (t : Fin cfg2.N) : iblk V c 10 t = V c main_v9_2 := by
  obtain ⟨-, -, -, -, -, -, -, ⟨e0, e1⟩, -⟩ := idx_zero t
  funext j
  show V c main_v9_2 (((cfg2.win 10).blk t).view.emb j) = V c main_v9_2 j
  congr 1
  funext a; apply Fin.ext
  match a with
  | ⟨0, _⟩ => show win2_10.index t (0 : Fin 2) * 32 + 1 * (j 0).val = (j 0).val; omega
  | ⟨1, _⟩ => show win2_10.index t (1 : Fin 2) * 16 + 1 * (j 1).val = (j 1).val; omega
theorem iblk_11 (c : Dev nD) (t : Fin cfg2.N) : iblk V c 11 t = V c main_v9_3 := by
  obtain ⟨-, -, -, -, -, -, -, -, ⟨e0, e1⟩⟩ := idx_zero t
  funext j
  show V c main_v9_3 (((cfg2.win 11).blk t).view.emb j) = V c main_v9_3 j
  congr 1
  funext a; apply Fin.ext
  match a with
  | ⟨0, _⟩ => show win2_11.index t (0 : Fin 2) * 32 + 1 * (j 0).val = (j 0).val; omega
  | ⟨1, _⟩ => show win2_11.index t (1 : Fin 2) * 16 + 1 * (j 1).val = (j 1).val; omega

/-- The output block of point `t` is the body's output block on the rows `512 t …` of the arrays the region finds, -/
theorem e0At_eq (c : Dev nD) (t : Fin cfg2.N) : e0At V c t = e0Blk (V c main_v9_0) (V c main_v10) (V c main_arg3) (V c main_arg12) (V c main_v11) (V c main_arg14) (V c main_v12) (V c main_v13) (V c main_v14) (V c main_v15) (V c main_v9_2) (V c main_v9_3) (t.cast N_2) := by
  unfold e0At e0Blk
  rw [iblk_0, iblk_1, iblk_2, iblk_3, iblk_4, iblk_5, iblk_6, iblk_7, iblk_8, iblk_9, iblk_10, iblk_11]
/-- and one point's step of the carried row likewise. -/
theorem sqStep_eq (c : Dev nD) (t : Fin cfg2.N) (acc : Vec F S1x128 .f32) :
    sqStep V c t acc = sqBlk (V c main_v9_0) (V c main_v10) (V c main_arg3) (V c main_arg12) (V c main_v11) (V c main_arg14) (V c main_v12) (V c main_v13) (V c main_v14) (V c main_v15) (V c main_v9_2) (V c main_v9_3) (t.cast N_2) acc := by
  unfold sqStep sqBlk
  rw [iblk_0, iblk_1, iblk_2, iblk_3, iblk_4, iblk_5, iblk_6, iblk_7, iblk_8, iblk_9, iblk_10, iblk_11]

/-- The carried row after point `n` is the fold over the arrays the region finds. -/
theorem sqAt_eq (c : Dev nD) : ∀ (n : ℕ) (h : n < cfg2.N),
    sqAt V c n h = SQfun (V c main_v9_0) (V c main_v10) (V c main_arg3) (V c main_arg12) (V c main_v11) (V c main_arg14) (V c main_v12) (V c main_v13) (V c main_v14) (V c main_v15) (V c main_v9_2) (V c main_v9_3) n (lt_of_lt_of_eq h N_2)
  | 0, h => by rw [sqAt_zero, sqStep_eq]; rfl
  | n + 1, h => by rw [sqAt_succ, sqStep_eq, sqAt_eq c n (Nat.lt_of_succ_lt h)]; rfl

/-- WHAT POINT `t` WRITES BACK to the first output array is block `t` of `e0All`. -/
theorem flushed_12 (c : Dev nD) (t : Fin cfg2.N) :
    (𝔡 c).flushed 12 t = ((cfg2.win 12).blk t).view.read (Elt F) (e0All V c) := by
  show (cfg2.win 12).cut (grid2.coords t) ((𝔡 c).after 12 t) = _
  rw [after_12, e0At_eq]
  obtain ⟨-, -, -, ⟨e0, e1⟩, -⟩ := idx_facts t
  funext j
  show e0Blk (V c main_v9_0) (V c main_v10) (V c main_arg3) (V c main_arg12) (V c main_v11) (V c main_arg14) (V c main_v12) (V c main_v13) (V c main_v14) (V c main_v15) (V c main_v9_2) (V c main_v9_3) (t.cast N_2) j = e0All V c (((cfg2.win 12).blk t).view.emb j)
  refine (E0fun_apply _ _ _ _ _ _ _ _ _ _ _ _ _ (t.cast N_2) j ?_ ?_).symm
  · show win2_12.index t (0 : Fin 2) * 512 + 1 * (j 0).val = t.val * 512 + (j 0).val; omega
  · show win2_12.index t (1 : Fin 2) * 128 + 1 * (j 1).val = (j 1).val; omega

/-- An index of the first output array is in point `t`'s block iff each coordinate is in the block's range on its axis. -/
theorem mem_blk_12 (t : Fin cfg2.N) (i : S4096x128.Idx) :
    i ∈ ((cfg2.win 12).blk t).view.set ↔ ∀ a : Fin 2, win2_12.index t a * S512x128.size a ≤ (i a).val ∧ (i a).val < win2_12.index t a * S512x128.size a + S512x128.size a := by
  show i ∈ ((View.whole main_v16_0).slice (win2_12.rect t)).set ↔ _
  rw [View.set_slice_whole, Rect.mem_set_unit]
  exact Iff.rfl

/-- Every row of the first output array is in one of the eight blocks. -/
theorem cover_12 (i : S4096x128.Idx) : ∃ t : Fin cfg2.N, (cfg2.win 12).flush t = true ∧ i ∈ ((cfg2.win 12).blk t).view.set := by
  have hi0 : (i 0).val < 4096 := (i 0).isLt
  have hi1 : (i 1).val < 128 := (i 1).isLt
  refine ⟨(⟨(i 0).val / 512, by omega⟩ : Fin 8).cast N_2.symm, flush2_12 _, ?_⟩
  obtain ⟨-, -, -, ⟨e0, e1⟩, -⟩ := idx_facts ((⟨(i 0).val / 512, by omega⟩ : Fin 8).cast N_2.symm)
  have e0' : win2_12.index ((⟨(i 0).val / 512, by omega⟩ : Fin 8).cast N_2.symm) (0 : Fin 2) = (i 0).val / 512 := e0
  rw [mem_blk_12]
  intro a
  match a with
  | ⟨0, _⟩ =>
    show win2_12.index _ (0 : Fin 2) * 512 ≤ (i 0).val ∧ (i 0).val < win2_12.index _ (0 : Fin 2) * 512 + 512
    rw [e0']; omega
  | ⟨1, _⟩ =>
    show win2_12.index _ (1 : Fin 2) * 128 ≤ (i 1).val ∧ (i 1).val < win2_12.index _ (1 : Fin 2) * 128 + 128
    rw [e1]; omega

/-- AFTER THE REGION the first output array holds `e0All` of the arrays as the region found them: each point writes
    back its block of it, and the eight blocks cover the array. -/
theorem arrAt_12_all (c : Dev nD) : (𝔡 c).arrAt 12 cfg2.N = e0All V c :=
  (𝔡 c).arrAt_eq_of_cover 12 _ (fun t _ => flushed_12 V O B c t) cover_12

/-- The carried row's one block is the whole array. -/
theorem blk_13_read (t : Fin cfg2.N) (G : S1x128.Idx → Elt F .f32) :
    ((cfg2.win 13).blk t).view.read (Elt F) G = G := by
  obtain ⟨-, -, -, -, ⟨e0, e1⟩⟩ := idx_facts t
  funext j
  show G (((cfg2.win 13).blk t).view.emb j) = G j
  congr 1
  funext a; apply Fin.ext
  match a with
  | ⟨0, _⟩ => show win2_13.index t (0 : Fin 2) * 1 + 1 * (j 0).val = (j 0).val; omega
  | ⟨1, _⟩ => show win2_13.index t (1 : Fin 2) * 128 + 1 * (j 1).val = (j 1).val; omega

/-- AFTER THE REGION the second output array holds the carried row after the last point. -/
theorem arrAt_13_all (c : Dev nD) : (𝔡 c).arrAt 13 cfg2.N = sqAll V c := by
  have h := arrAt_13 (Name := Name) (U := U) (Lvl := Lvl) V O B c
  rw [blk_13_read, sqAt_eq] at h
  exact h

end Data

/-! ## At the ideal values: the output block, entry by entry -/

section IdealBlock

/-- Neighbour slot `t` of a block, as the 512×1×128 slab the body loads. -/
def slotOf (x1 : Vec Ideal S512x10x128 .f32) (t : Fin 10) : Vec Ideal S512x1x128 .f32 := fun j => x1 (ix3 (j 0) t (j 2))
theorem ldN0 (x1 : Vec Ideal S512x10x128 .f32) : View.ld x1 rN0 = slotOf x1 0 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 0 + 1 * (j 1).val = 0; omega
  | ⟨2, _⟩ => show 0 + 1 * (j 2).val = (j 2).val; omega
theorem ldN1 (x1 : Vec Ideal S512x10x128 .f32) : View.ld x1 rN1 = slotOf x1 1 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 1 + 1 * (j 1).val = 1; omega
  | ⟨2, _⟩ => show 0 + 1 * (j 2).val = (j 2).val; omega
theorem ldN2 (x1 : Vec Ideal S512x10x128 .f32) : View.ld x1 rN2 = slotOf x1 2 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 2 + 1 * (j 1).val = 2; omega
  | ⟨2, _⟩ => show 0 + 1 * (j 2).val = (j 2).val; omega
theorem ldN3 (x1 : Vec Ideal S512x10x128 .f32) : View.ld x1 rN3 = slotOf x1 3 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 3 + 1 * (j 1).val = 3; omega
  | ⟨2, _⟩ => show 0 + 1 * (j 2).val = (j 2).val; omega
theorem ldN4 (x1 : Vec Ideal S512x10x128 .f32) : View.ld x1 rN4 = slotOf x1 4 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 4 + 1 * (j 1).val = 4; omega
  | ⟨2, _⟩ => show 0 + 1 * (j 2).val = (j 2).val; omega
theorem ldN5 (x1 : Vec Ideal S512x10x128 .f32) : View.ld x1 rN5 = slotOf x1 5 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 5 + 1 * (j 1).val = 5; omega
  | ⟨2, _⟩ => show 0 + 1 * (j 2).val = (j 2).val; omega
theorem ldN6 (x1 : Vec Ideal S512x10x128 .f32) : View.ld x1 rN6 = slotOf x1 6 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 6 + 1 * (j 1).val = 6; omega
  | ⟨2, _⟩ => show 0 + 1 * (j 2).val = (j 2).val; omega
theorem ldN7 (x1 : Vec Ideal S512x10x128 .f32) : View.ld x1 rN7 = slotOf x1 7 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 7 + 1 * (j 1).val = 7; omega
  | ⟨2, _⟩ => show 0 + 1 * (j 2).val = (j 2).val; omega
theorem ldN8 (x1 : Vec Ideal S512x10x128 .f32) : View.ld x1 rN8 = slotOf x1 8 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 8 + 1 * (j 1).val = 8; omega
  | ⟨2, _⟩ => show 0 + 1 * (j 2).val = (j 2).val; omega
theorem ldN9 (x1 : Vec Ideal S512x10x128 .f32) : View.ld x1 rN9 = slotOf x1 9 := by
  funext j
  show x1 _ = x1 _
  congr 1
  funext a; apply Fin.ext
  match a with
  | ⟨0, _⟩ => show 0 + 1 * (j 0).val = (j 0).val; omega
  | ⟨1, _⟩ => have h : (j 1).val < 1 := (j 1).isLt; show 9 + 1 * (j 1).val = 9; omega
  | ⟨2, _⟩ => show 0 + 1 * (j 2).val = (j 2).val; omega

/-- A load of a whole buffer reads its contents. -/
theorem ldA (x : Vec Ideal S512x128 .f32) : View.ld x rA = x := View.ld_unit_zero (S := S512x128) off2_zero _ x
theorem ldAl (x : Vec Ideal S512x10 .f32) : View.ld x rAl = x := View.ld_unit_zero (S := S512x10) off2_zero _ x
theorem ldW (x : Vec Ideal S128x128 .f32) : View.ld x rW = x := View.ld_unit_zero (S := S128x128) off2_zero _ x
theorem ldB (x : Vec Ideal S1x128 .f32) : View.ld x rB = x := View.ld_unit_zero (S := S1x128) off2_zero _ x
theorem ldS (x : Vec Ideal S32x16 .f32) : View.ld x rS = x := View.ld_unit_zero (S := S32x16) off2_zero _ x

variable (x0 : Vec Ideal S512x128 .f32) (x1 : Vec Ideal S512x10x128 .f32) (x2 : Vec Ideal S512x10 .f32) (x3 : Vec Ideal S128x128 .f32) (x4 : Vec Ideal S1x128 .f32) (x5 : Vec Ideal S128x128 .f32) (x6 : Vec Ideal S1x128 .f32) (x7 : Vec Ideal S128x128 .f32) (x8 : Vec Ideal S128x128 .f32) (x9 : Vec Ideal S1x128 .f32) (x10 : Vec Ideal S32x16 .f32) (x11 : Vec Ideal S32x16 .f32)

/-- The self branch of the body's output block at `(p, k)`. -/
theorem selfOf_entry (p : Fin 512) (k : Fin 128) :
    selfOf x0 x3 x4 x10 (ix2 p k) = hid (fun d => x0 (ix2 p d)) x3 x4 (nuOf x10) k := by
  unfold selfOf
  rw [ldS x10, ldA x0, ldW x3, ldB x4, pay6_entry]

/-- The neighbour branch at `(p, k)`: the ten weighted slots added one after the other, from zero. -/
theorem aggOf_entry (p : Fin 512) (k : Fin 128) :
    aggOf x1 x2 x5 x6 x11 (ix2 p k)
      = Cert.Spec.acc10 0 (fun t => x2 (ix2 p t) * hid (fun d => x1 (ix3 p t d)) x5 x6 (nuOf x11) k) := by
  unfold aggOf nu2Of
  rw [ldS x11, ldAl x2, ldW x5, ldB x6, ldN0, ldN1, ldN2, ldN3, ldN4, ldN5, ldN6, ldN7, ldN8, ldN9]
  simp only [pay16_entry, pay15_entry, pay14_entry, pay13_entry, pay12_entry, pay11_entry, pay10_entry, pay9_eq, pay8_entry,
    pay7_entry, pay5_eq]
  rfl

/-- THE OUTPUT BLOCK at `(p, u)`. -/
theorem e0Of_entry (p : Fin 512) (u : Fin 128) :
    e0Of x0 x1 x2 x3 x4 x5 x6 x7 x8 x9 x10 x11 (ix2 p u)
      = max (Ideal.div (∑ k : Fin 128, hid (fun d => x0 (ix2 p d)) x3 x4 (nuOf x10) k * x7 (ix2 k u)) (nuOf x10)
            + Ideal.div (∑ k : Fin 128,
                Cert.Spec.acc10 0 (fun t => x2 (ix2 p t) * hid (fun d => x1 (ix3 p t d)) x5 x6 (nuOf x11) k) * x8 (ix2 k u)) (nuOf x11)
            + x9 (ix2 (0 : Fin 1) u)) 0 := by
  unfold e0Of nu1Of nu2Of
  rw [ldS x10, ldS x11, ldW x7, ldW x8, ldB x9, pay1_entry]
  simp only [selfOf_entry, aggOf_entry, pay17_eq, pay4_eq, pay5_eq]

/-- THE CARRIED ROW's step at column `u`: what it held plus the column's sum of the squares of the output block. -/
theorem sqOf_entry (acc : Vec Ideal S1x128 .f32) (u : Fin 128) :
    sqOf x0 x1 x2 x3 x4 x5 x6 x7 x8 x9 x10 x11 acc (ix2 (0 : Fin 1) u)
      = acc (ix2 (0 : Fin 1) u)
        + ∑ p : Fin 512, e0Of x0 x1 x2 x3 x4 x5 x6 x7 x8 x9 x10 x11 (ix2 p u) * e0Of x0 x1 x2 x3 x4 x5 x6 x7 x8 x9 x10 x11 (ix2 p u) := by
  unfold sqOf e0Of
  rw [pay3_entry]

end IdealBlock

/-! ## At the ideal values: the two output arrays, entry by entry -/

section IdealAll

variable (e1t : S4096x128.Idx → Elt Ideal .f32) (e1n3 : S4096x10x128.Idx → Elt Ideal .f32) (al : S4096x10.Idx → Elt Ideal .f32)
    (ws0 : S128x128.Idx → Elt Ideal .f32) (bs0 : S1x128.Idx → Elt Ideal .f32) (wa0 : S128x128.Idx → Elt Ideal .f32) (ba0 : S1x128.Idx → Elt Ideal .f32)
    (wo0t wo0b : S128x128.Idx → Elt Ideal .f32) (bo0 : S1x128.Idx → Elt Ideal .f32) (sqt sqn : S32x16.Idx → Elt Ideal .f32)

/-- Row `r % 512` of the block of 512 rows that holds row `r` is row `r`. -/
theorem rowsT_apply (r : Fin 4096) (d : Fin 128) :
    rowsT (F := Ideal) e1t ⟨r.val / 512, by have := r.isLt; omega⟩ (ix2 (⟨r.val % 512, Nat.mod_lt _ (by decide)⟩ : Fin 512) d) = e1t (ix2 r d) := by
  unfold rowsT
  congr 1
  funext a
  match a with
  | ⟨0, _⟩ => exact Fin.ext (by show r.val / 512 * 512 + r.val % 512 = r.val; omega)
  | ⟨1, _⟩ => rfl
theorem rowsN_apply (r : Fin 4096) (t : Fin 10) (d : Fin 128) :
    rowsN (F := Ideal) e1n3 ⟨r.val / 512, by have := r.isLt; omega⟩ (ix3 (⟨r.val % 512, Nat.mod_lt _ (by decide)⟩ : Fin 512) t d) = e1n3 (ix3 r t d) := by
  unfold rowsN
  congr 1
  funext a
  match a with
  | ⟨0, _⟩ => exact Fin.ext (by show r.val / 512 * 512 + r.val % 512 = r.val; omega)
  | ⟨1, _⟩ => rfl
  | ⟨2, _⟩ => rfl
theorem rowsA_apply (r : Fin 4096) (t : Fin 10) :
    rowsA (F := Ideal) al ⟨r.val / 512, by have := r.isLt; omega⟩ (ix2 (⟨r.val % 512, Nat.mod_lt _ (by decide)⟩ : Fin 512) t) = al (ix2 r t) := by
  unfold rowsA
  congr 1
  funext a
  match a with
  | ⟨0, _⟩ => exact Fin.ext (by show r.val / 512 * 512 + r.val % 512 = r.val; omega)
  | ⟨1, _⟩ => rfl

/-- THE FIRST OUTPUT ARRAY AT ROW `r`, COLUMN `u`, at the ideal values, exactly as the body computes it: with
    `ν₁ = sqrt (Σ sqt)`, `ν₂ = sqrt (Σ sqn)`, the self branch `zt r k = max (Σ_d e1t[r,d] ws0[d,k] + ν₁ bs0[k]) 0` and the
    neighbour branch `agg r k`, the ten terms `al[r,t] · max (Σ_d e1n3[r,t,d] wa0[d,k] + ν₂ ba0[k]) 0` added in order from zero,
    the entry is `max ((Σ_k zt r k · wo0t[k,u]) / ν₁ + (Σ_k agg r k · wo0b[k,u]) / ν₂ + bo0[u]) 0`. -/
theorem E0fun_at (r : Fin 4096) (u : Fin 128) :
    E0fun (F := Ideal) e1t e1n3 al ws0 bs0 wa0 ba0 wo0t wo0b bo0 sqt sqn (ix2 r u)
      = max (Ideal.div (∑ k : Fin 128, hid (fun d => e1t (ix2 r d)) ws0 bs0 (nuOf sqt) k * wo0t (ix2 k u)) (nuOf sqt)
            + Ideal.div (∑ k : Fin 128,
                Cert.Spec.acc10 0 (fun t => al (ix2 r t) * hid (fun d => e1n3 (ix3 r t d)) wa0 ba0 (nuOf sqn) k) * wo0b (ix2 k u)) (nuOf sqn)
            + bo0 (ix2 (0 : Fin 1) u)) 0 := by
  refine (E0fun_apply (F := Ideal) e1t e1n3 al ws0 bs0 wa0 ba0 wo0t wo0b bo0 sqt sqn (ix2 r u) ⟨r.val / 512, by have := r.isLt; omega⟩
    (ix2 (⟨r.val % 512, Nat.mod_lt _ (by decide)⟩ : Fin 512) u) ?_ rfl).trans ?_
  · show r.val = r.val / 512 * 512 + r.val % 512; omega
  unfold e0Blk
  rw [e0Of_entry]
  simp only [rowsT_apply, rowsN_apply, rowsA_apply]

/-- The same in the specification's spelling: for any matrices, weights, biases and scalars that the twelve arrays
    read as, the entry is the rectified sum of the two halves of the output layer, each divided by its norm, plus the bias. -/
theorem E0fun_spec (E1T : Fin 4096 → Fin 128 → EReal) (E1N : Fin 4096 → Fin 10 → Fin 128 → EReal) (A : Fin 4096 → Fin 10 → EReal)
    (Ws Wa Wt Wb : Fin 128 → Fin 128 → EReal) (bs ba bo : Fin 128 → EReal) (ν₁ ν₂ : EReal)
    (hT : ∀ r d, e1t (ix2 r d) = E1T r d) (hN : ∀ r t d, e1n3 (ix3 r t d) = E1N r t d) (hA : ∀ r t, al (ix2 r t) = A r t)
    (hWs : ∀ d k, ws0 (ix2 d k) = Ws d k) (hbs : ∀ k, bs0 (ix2 (0 : Fin 1) k) = bs k)
    (hWa : ∀ d k, wa0 (ix2 d k) = Wa d k) (hba : ∀ k, ba0 (ix2 (0 : Fin 1) k) = ba k)
    (hWt : ∀ k u, wo0t (ix2 k u) = Wt k u) (hWb : ∀ k u, wo0b (ix2 k u) = Wb k u) (hbo : ∀ u, bo0 (ix2 (0 : Fin 1) u) = bo u)
    (hν₁ : Ideal.sqrt (∑ x : S32x16.Idx, sqt x) = ν₁) (hν₂ : Ideal.sqrt (∑ x : S32x16.Idx, sqn x) = ν₂)
    (r : Fin 4096) (u : Fin 128) :
    E0fun (F := Ideal) e1t e1n3 al ws0 bs0 wa0 ba0 wo0t wo0b bo0 sqt sqn (ix2 r u)
      = Cert.Spec.relu (Ideal.div (∑ k, Cert.Spec.relu ((∑ d, E1T r d * Ws d k) + ν₁ * bs k) * Wt k u) ν₁
          + Ideal.div (∑ k, (∑ t, A r t * Cert.Spec.relu ((∑ d, E1N r t d * Wa d k) + ν₂ * ba k)) * Wb k u) ν₂
          + bo u) := by
  rw [E0fun_at]
  unfold hid nuOf
  rw [hν₁, hν₂, hbo]
  simp only [hT, hN, hA, hWs, hbs, hWa, hba, hWt, hWb, Cert.Spec.acc10_zero, Cert.Spec.relu_def]

/-- The column sum of the squares of the first output array over the rows `512 t …`. -/
def colsq (t : Fin 8) (u : Fin 128) : EReal :=
  ∑ p : Fin 512, E0fun (F := Ideal) e1t e1n3 al ws0 bs0 wa0 ba0 wo0t wo0b bo0 sqt sqn (ix2 (⟨t.val * 512 + p.val, by have := t.isLt; have := p.isLt; omega⟩ : Fin 4096) u)
    * E0fun (F := Ideal) e1t e1n3 al ws0 bs0 wa0 ba0 wo0t wo0b bo0 sqt sqn (ix2 (⟨t.val * 512 + p.val, by have := t.isLt; have := p.isLt; omega⟩ : Fin 4096) u)

/-- One point's step of the carried row at column `u`. -/
theorem sqBlk_entry (t : Fin 8) (acc : Vec Ideal S1x128 .f32) (u : Fin 128) :
    sqBlk (F := Ideal) e1t e1n3 al ws0 bs0 wa0 ba0 wo0t wo0b bo0 sqt sqn t acc (ix2 (0 : Fin 1) u) = acc (ix2 (0 : Fin 1) u) + colsq e1t e1n3 al ws0 bs0 wa0 ba0 wo0t wo0b bo0 sqt sqn t u := by
  unfold sqBlk colsq
  rw [sqOf_entry]
  refine congrArg (acc (ix2 (0 : Fin 1) u) + ·) (Finset.sum_congr rfl fun p _ => ?_)
  rw [E0fun_apply (F := Ideal) e1t e1n3 al ws0 bs0 wa0 ba0 wo0t wo0b bo0 sqt sqn _ t (ix2 p u) rfl rfl]
  rfl

/-- THE SECOND OUTPUT ARRAY AT COLUMN `u`, exactly as the body accumulates it: from zero, the eight blocks' column sums
    of squares added one point after the other. -/
theorem SQfun_at (u : Fin 128) :
    SQfun (F := Ideal) e1t e1n3 al ws0 bs0 wa0 ba0 wo0t wo0b bo0 sqt sqn 7 (by decide) (ix2 (0 : Fin 1) u)
      = 0 + colsq e1t e1n3 al ws0 bs0 wa0 ba0 wo0t wo0b bo0 sqt sqn 0 u + colsq e1t e1n3 al ws0 bs0 wa0 ba0 wo0t wo0b bo0 sqt sqn 1 u + colsq e1t e1n3 al ws0 bs0 wa0 ba0 wo0t wo0b bo0 sqt sqn 2 u + colsq e1t e1n3 al ws0 bs0 wa0 ba0 wo0t wo0b bo0 sqt sqn 3 u
          + colsq e1t e1n3 al ws0 bs0 wa0 ba0 wo0t wo0b bo0 sqt sqn 4 u + colsq e1t e1n3 al ws0 bs0 wa0 ba0 wo0t wo0b bo0 sqt sqn 5 u + colsq e1t e1n3 al ws0 bs0 wa0 ba0 wo0t wo0b bo0 sqt sqn 6 u + colsq e1t e1n3 al ws0 bs0 wa0 ba0 wo0t wo0b bo0 sqt sqn 7 u := by
  simp only [SQfun, sqBlk_entry, pay2_entry]
  rfl

/-- A sum over the 4096 rows is the sum over the eight blocks of the sums over their 512 rows. -/
theorem sum_rows (f : Fin 4096 → EReal) :
    ∑ r, f r = ∑ t : Fin 8, ∑ p : Fin 512, f ⟨t.val * 512 + p.val, by have := t.isLt; have := p.isLt; omega⟩ := by
  rw [← Equiv.sum_comp (finProdFinEquiv (m := 8) (n := 512)) f, Fintype.sum_prod_type]
  refine Finset.sum_congr rfl fun t _ => Finset.sum_congr rfl fun p _ => congrArg f (Fin.ext ?_)
  show p.val + 512 * t.val = t.val * 512 + p.val
  omega

/-- So column `u` of the second output array is the sum over ALL rows of the squares of the first's entries in that column. -/
theorem SQfun_sum (u : Fin 128) :
    SQfun (F := Ideal) e1t e1n3 al ws0 bs0 wa0 ba0 wo0t wo0b bo0 sqt sqn 7 (by decide) (ix2 (0 : Fin 1) u)
      = ∑ r : Fin 4096, E0fun (F := Ideal) e1t e1n3 al ws0 bs0 wa0 ba0 wo0t wo0b bo0 sqt sqn (ix2 r u) * E0fun (F := Ideal) e1t e1n3 al ws0 bs0 wa0 ba0 wo0t wo0b bo0 sqt sqn (ix2 r u) := by
  rw [SQfun_at, sum_rows, Fin.sum_univ_eight, zero_add]
  rfl

end IdealAll

/-! ## The region's two output arrays on core `c`, at the ideal values -/

section IdealData

variable (V : (c : Dev nD) → (b : Ref sig .tc) → Buf (Elt Ideal) ((c : Thread nD τ).loc b))

theorem e0All_eq (c : Dev nD) : e0All V c = E0fun (V c main_v9_0) (V c main_v10) (V c main_arg3) (V c main_arg12) (V c main_v11) (V c main_arg14) (V c main_v12) (V c main_v13) (V c main_v14) (V c main_v15) (V c main_v9_2) (V c main_v9_3) := rfl
theorem sqAll_eq (c : Dev nD) : sqAll V c = SQfun (V c main_v9_0) (V c main_v10) (V c main_arg3) (V c main_arg12) (V c main_v11) (V c main_arg14) (V c main_v12) (V c main_v13) (V c main_v14) (V c main_v15) (V c main_v9_2) (V c main_v9_3) 7 (by decide) := rfl

/-- Entry `(r, u)` of the first output array in the specification's spelling, for any matrices, weights, biases and
    scalars that the twelve arrays the region finds read as. -/
theorem e0All_spec (c : Dev nD) (E1T : Fin 4096 → Fin 128 → EReal) (E1N : Fin 4096 → Fin 10 → Fin 128 → EReal) (A : Fin 4096 → Fin 10 → EReal)
    (Ws Wa Wt Wb : Fin 128 → Fin 128 → EReal) (bs ba bo : Fin 128 → EReal) (ν₁ ν₂ : EReal)
    (hT : ∀ r d, V c main_v9_0 (ix2 r d) = E1T r d) (hN : ∀ r t d, V c main_v10 (ix3 r t d) = E1N r t d)
    (hA : ∀ r t, V c main_arg3 (ix2 r t) = A r t)
    (hWs : ∀ d k, V c main_arg12 (ix2 d k) = Ws d k) (hbs : ∀ k, V c main_v11 (ix2 (0 : Fin 1) k) = bs k)
    (hWa : ∀ d k, V c main_arg14 (ix2 d k) = Wa d k) (hba : ∀ k, V c main_v12 (ix2 (0 : Fin 1) k) = ba k)
    (hWt : ∀ k u, V c main_v13 (ix2 k u) = Wt k u) (hWb : ∀ k u, V c main_v14 (ix2 k u) = Wb k u)
    (hbo : ∀ u, V c main_v15 (ix2 (0 : Fin 1) u) = bo u)
    (hν₁ : Ideal.sqrt (∑ x : S32x16.Idx, V c main_v9_2 x) = ν₁) (hν₂ : Ideal.sqrt (∑ x : S32x16.Idx, V c main_v9_3 x) = ν₂)
    (r : Fin 4096) (u : Fin 128) :
    e0All V c (ix2 r u)
      = Cert.Spec.relu (Ideal.div (∑ k, Cert.Spec.relu ((∑ d, E1T r d * Ws d k) + ν₁ * bs k) * Wt k u) ν₁
          + Ideal.div (∑ k, (∑ t, A r t * Cert.Spec.relu ((∑ d, E1N r t d * Wa d k) + ν₂ * ba k)) * Wb k u) ν₂
          + bo u) :=
  E0fun_spec (V c main_v9_0) (V c main_v10) (V c main_arg3) (V c main_arg12) (V c main_v11) (V c main_arg14) (V c main_v12) (V c main_v13) (V c main_v14) (V c main_v15) (V c main_v9_2) (V c main_v9_3) E1T E1N A Ws Wa Wt Wb bs ba bo ν₁ ν₂ hT hN hA hWs hbs hWa hba hWt hWb hbo hν₁ hν₂ r u

/-- Column `u` of the second: the sum over all 4096 rows of the squares of the first's entries in that column. -/
theorem sqAll_sum (c : Dev nD) (u : Fin 128) :
    sqAll V c (ix2 (0 : Fin 1) u) = ∑ r : Fin 4096, e0All V c (ix2 r u) * e0All V c (ix2 r u) :=
  SQfun_sum (V c main_v9_0) (V c main_v10) (V c main_arg3) (V c main_arg12) (V c main_v11) (V c main_arg14) (V c main_v12) (V c main_v13) (V c main_v14) (V c main_v15) (V c main_v9_2) (V c main_v9_3) u

end IdealData

end Cert.KernelIdeal.Region1

end
-- ==== Proof.Region2Pay.lean ====
import proofs.«213116_g69346541961480_cont_9to1_m_612_34_alg».proof.Proof.Gen.KernelIdeal.Skeleton
import Idealize.ShloMosaic.PureOps.Ideal.Laws
import Idealize.ShloMosaic.Lib.IdealHost
import Idealize.ShloMosaic.Lib.ValueIdx
import Idealize.ShloMosaic.Lib.Pipeline.Value

/-! # The final dense layer's payload, read at an index over the extended reals

The last TensorCore body stores `relu (x · W + ν b) · (1 / ν)` with `ν = sqrt (Σ sq)`, where `x` is a block of 2048
rows, `W` the 128×128 weight matrix, `b` the bias row and `sq` a row of 128 partial sums of squares. Here that
payload is read entry by entry at the ideal values: the matrix product as a sum over the contracted coordinate,
the lane reduction as a sum over the 128 lanes. -/

noncomputable section

namespace Cert.KernelIdeal.Region2

open Cert.KernelIdeal Cert.KernelIdeal.Gen
open Idealize.ShloMosaic Idealize.ShloMosaic.ValueIdx
open scoped BigOperators

/-! ## A plain matrix product into the zero splat, at an index -/

/-- The product of an m×k by a k×n matrix accumulated into zeros, read at `(a, b)`, is the sum over the contracted
    coordinate of the products of the entries. -/
theorem matmul_plain_zero_apply {m k n : Nat} (prec : Option ContractPrecision)
    (A : FVec Ideal ⟨2, ![m, k]⟩ .f32) (B : FVec Ideal ⟨2, ![k, n]⟩ .f32) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The body's dimension numbers are the plain ones: rows × contraction by contraction × columns. -/
theorem dot_eq_plain : dot_S2048x128_S128x128_S2048x128_1_0_0_1_n_n = DotDims.plain 2048 128 128 := rfl

/-! ## The norm -/

/-- `ν` as the body computes it: the row of partial sums viewed 1×1×128, summed over its two last axes, the one
    entry extracted, its square root taken. -/
def nuK (sq : Vec Ideal S1x128 .f32) : EReal :=
  Scalar.sqrt (extractAt ![0, 0, 0] (shapeCast S1x1x1 (multiReduction (F := Ideal) .add [1, 2] S1
    (shapeCast S1x1x128 (shapeCast S1x128 sq shapeCasts_S1x128_S1x128) shapeCasts_S1x128_S1x1x128)
    0x00000000#32 reduces_S1x1x128_S1 (.inl rfl) rfl) shapeCasts_S1_S1x1x1) inpos_S1x1x1_p0_0_0)

/-- `ν`: the square root of the sum of the 128 partial sums. -/
def nu (sq : Vec Ideal S1x128 .f32) : EReal := Ideal.sqrt (∑ u : Fin 128, sq (ix2 0 u))

/-- The 128 lanes of a 1×1×128 vector, as an equivalence with its index set. -/
def lanes : Fin 128 ≃ S1x1x128.Idx where
  toFun u := ix3 0 0 u
  invFun i := i 2
  left_inv _ := rfl
  right_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl

theorem nuK_eq (sq : Vec Ideal S1x128 .f32) : nuK sq = nu sq := by
  unfold nuK nu
  show Ideal.sqrt _ = Ideal.sqrt _
  congr 1
  show shapeCast S1x1x1 _ shapeCasts_S1_S1x1x1 _ = _
  unfold shapeCast
  refine (Ideal.multiReduction_add_total _ _ reduces_S1x1x128_S1 (fun b => by fin_cases b; rfl) _ _ _).trans ?_
  rw [← Equiv.sum_comp lanes]
  refine Finset.sum_congr rfl fun u _ => ?_
  show shapeCast S1x1x128 (shapeCast S1x128 sq shapeCasts_S1x128_S1x128) shapeCasts_S1x128_S1x1x128 (ix3 0 0 u) = sq (ix2 0 u)
  rw [shapeCast_self]
  refine (shapeCast_addUnit_apply ![1, 128] sq shapeCasts_S1x128_S1x1x128 (ix3 0 0 u)).trans ?_
  congr 1
  funext a
  match a with
  | ⟨0, _⟩ => rfl
  | ⟨1, _⟩ => rfl

/-! ## The payload at an index -/

/-- The payload unfolded through its pointwise operations: what is left are the matrix product, the broadcast of the
    scaled bias row, and `ν` as the body computes it. -/
theorem pay_unfold (sq : Vec Ideal S1x128 .f32) (x : Vec Ideal S2048x128 .f32) (W : Vec Ideal S128x128 .f32) (b : Vec Ideal S1x128 .f32)
    (j : S2048x128.Idx) :
    k3_pay1 (F := Ideal) sq x W b j
      = max (FloatOps.matmul (φ₁ := .f32) (φ₂ := .f32) dot_S2048x128_S128x128_S2048x128_1_0_0_1_n_n none (shapeCast S2048x128 x shapeCasts_S2048x128_S2048x128) W
              (constant (F := Ideal) S2048x128 .f32 0x00000000#32) j
            + broadcastTo S2048x128 (mulf (F := Ideal) (φ := .f32) (broadcast S1x128 (nuK sq)) (shapeCast S1x128 b shapeCasts_S1x128_S1x128)) broadcasts_S1x128_S2048x128 j)
          (Ideal.ofBits .f32 0x00000000#32)
        * Ideal.div (Ideal.ofBits .f32 0x3F800000#32) (nuK sq) := rfl

/-- THE PAYLOAD AT ROW `p`, COLUMN `u`: the rectified sum of the row's products with the weight column and `ν` times the
    bias entry, times the quotient of one by `ν`. -/
theorem pay_apply (sq : Vec Ideal S1x128 .f32) (x : Vec Ideal S2048x128 .f32) (W : Vec Ideal S128x128 .f32) (b : Vec Ideal S1x128 .f32)
    (p : Fin 2048) (u : Fin 128) :
    k3_pay1 (F := Ideal) sq x W b (ix2 p u)
      = max ((∑ k : Fin 128, x (ix2 p k) * W (ix2 k u)) + nu sq * b (ix2 0 u)) 0 * Ideal.div 1 (nu sq) := by
  have hM : FloatOps.matmul (φ₁ := .f32) (φ₂ := .f32) dot_S2048x128_S128x128_S2048x128_1_0_0_1_n_n none (shapeCast S2048x128 x shapeCasts_S2048x128_S2048x128) W
      (constant (F := Ideal) S2048x128 .f32 0x00000000#32) (ix2 p u) = ∑ k : Fin 128, x (ix2 p k) * W (ix2 k u) := by
    rw [shapeCast_self]
    exact matmul_plain_zero_apply (m := 2048) (k := 128) (n := 128) none x W p u
  have hB : broadcastTo S2048x128 (mulf (F := Ideal) (φ := .f32) (broadcast S1x128 (nuK sq)) (shapeCast S1x128 b shapeCasts_S1x128_S1x128)) broadcasts_S1x128_S2048x128 (ix2 p u)
      = nuK sq * b (ix2 0 u) := by
    rw [shapeCast_self]
    refine (broadcastTo_apply _ broadcasts_S1x128_S2048x128 (ix2 p u) (ix2 0 u) (fun a => ?_)).trans rfl
    match a with
    | ⟨0, _⟩ => rfl
    | ⟨1, _⟩ => rfl
  rw [pay_unfold, hM, hB, Ideal.ofBits_zero_f32, Ideal.ofBits_one_f32, nuK_eq]

end Cert.KernelIdeal.Region2

end
-- ==== Proof.Region2Value.lean ====
import proofs.«213116_g69346541961480_cont_9to1_m_612_34_alg».proof.Proof.Region2
import proofs.«213116_g69346541961480_cont_9to1_m_612_34_alg».proof.Proof.Region2Pay
import proofs.«213116_g69346541961480_cont_9to1_m_612_34_alg».proof.Proof.Spec

/-! # The last region's output array, entry by entry over the extended reals

The output array of the last TensorCore region is `G4` of the four arrays it reads. Read at row `r`, column `u`,
at the ideal values, it is the final dense layer of row `r` of the level-0 embedding, with the bias scaled by the
norm `ν` and the result divided by it:  `max (Σ_k e0[r,k] · W[k,u] + ν · b[u]) 0 · (1 / ν)`,  `ν = sqrt (Σ sq)`. -/

noncomputable section

namespace Cert.KernelIdeal.Region2

open Cert.KernelIdeal Cert.KernelIdeal.Gen
open Idealize.ShloMosaic Idealize.ShloMosaic.ValueIdx
open scoped BigOperators

/-- Row `p` of the block of 2048 rows that holds row `r` is row `r`. -/
theorem rows_apply (e0 : Vec Ideal S4096x128 .f32) (r : Fin 4096) (k : Fin 128) :
    rows (F := Ideal) e0 ⟨r.val / 2048, by have := r.isLt; omega⟩ (ix2 (⟨r.val % 2048, Nat.mod_lt _ (by decide)⟩ : Fin 2048) k) = e0 (ix2 r k) := by
  unfold rows
  congr 1
  funext a
  match a with
  | ⟨0, _⟩ => exact Fin.ext (by show r.val / 2048 * 2048 + r.val % 2048 = r.val; omega)
  | ⟨1, _⟩ => rfl

/-- THE OUTPUT ARRAY AT ROW `r`, COLUMN `u`, at the ideal values, exactly as the body computes it. -/
theorem G4_at (e0 : Vec Ideal S4096x128 .f32) (W : Vec Ideal S128x128 .f32) (b sq : Vec Ideal S1x128 .f32) (r : Fin 4096) (u : Fin 128) :
    G4 (F := Ideal) e0 W b sq (ix2 r u)
      = max ((∑ k : Fin 128, e0 (ix2 r k) * W (ix2 k u)) + nu sq * b (ix2 0 u)) 0 * Ideal.div 1 (nu sq) := by
  refine (G4_apply (F := Ideal) e0 W b sq (ix2 r u) ⟨r.val / 2048, by have := r.isLt; omega⟩
    (ix2 (⟨r.val % 2048, Nat.mod_lt _ (by decide)⟩ : Fin 2048) u) ?_ rfl).trans ?_
  · show r.val = r.val / 2048 * 2048 + r.val % 2048; omega
  unfold out4
  rw [pay_apply]
  simp only [rows_apply]

/-- The same in the specification's spelling: for any matrix `E`, weights `Wm`, bias `bv` and scalar `ν` that the four
    arrays read as, the entry is the rectified dense layer with the bias scaled by `ν`, times `1 / ν`. -/
theorem G4_spec (e0 : Vec Ideal S4096x128 .f32) (W : Vec Ideal S128x128 .f32) (b sq : Vec Ideal S1x128 .f32)
    (E : Fin 4096 → Fin 128 → EReal) (Wm : Fin 128 → Fin 128 → EReal) (bv : Fin 128 → EReal) (ν : EReal)
    (hE : ∀ r k, e0 (ix2 r k) = E r k) (hW : ∀ k u, W (ix2 k u) = Wm k u) (hb : ∀ u, b (ix2 0 u) = bv u)
    (hν : Ideal.sqrt (∑ u : Fin 128, sq (ix2 0 u)) = ν) (r : Fin 4096) (u : Fin 128) :
    G4 (F := Ideal) e0 W b sq (ix2 r u) = Cert.Spec.relu ((∑ k, E r k * Wm k u) + ν * bv u) * Ideal.div 1 ν := by
  rw [G4_at, Cert.Spec.relu_def]
  unfold nu
  rw [hν, hb]
  simp only [hE, hW]

end Cert.KernelIdeal.Region2

end
-- ==== Proof.KerTileSum.lean ====
import Mathlib.Algebra.BigOperators.Group.Finset.Basic
import Mathlib.Algebra.BigOperators.Group.Finset.Sigma
import Mathlib.Algebra.BigOperators.Intervals
import Mathlib.Algebra.BigOperators.Fin

/-!
  Sums in the order a tiled accumulation runs them.  A left fold that adds one term per step is
  the sum of the terms; a sum over `m n` consecutive numbers is a sum over `m` blocks of `n`; and
  the thirty-two workers' sixteen lanes, forty-four chunks of thirty-two rows and eight
  sixteen-column slices together visit every entry of the 45056 x 128 rows exactly once, the
  chunks below row 4096 being the first 4096 rows and the others the remaining 40960.
-/

namespace Cert.KerBridge

open scoped BigOperators
open Finset

variable {M : Type} [AddCommMonoid M]

/-! ### Left folds that add -/

/-- Adding one term per step from `a` gives `a` plus the sum of the terms. -/
theorem foldl_add_range (f : ℕ → M) (a : M) (n : ℕ) :
    (List.range n).foldl (fun acc i => acc + f i) a = a + ∑ i ∈ range n, f i := by
  induction n with
  | zero => simp
  | succ n ih =>
    rw [List.range_succ, List.foldl_append, ih, Finset.sum_range_succ, List.foldl_cons, List.foldl_nil,
      add_assoc]

/-- The same when some steps are skipped. -/
theorem foldl_cond_add_range (p : ℕ → Prop) [DecidablePred p] (f : ℕ → M) (a : M) (n : ℕ) :
    (List.range n).foldl (fun acc i => if p i then acc + f i else acc) a
      = a + ∑ i ∈ range n, (if p i then f i else 0) := by
  have : (fun (acc : M) (i : ℕ) => if p i then acc + f i else acc)
      = fun acc i => acc + (if p i then f i else 0) := by
    funext acc i; split <;> simp
  rw [this, foldl_add_range]

/-- A fold whose every step is itself a fold that adds: the double sum. -/
theorem foldl_foldl_add_range (h : ℕ → ℕ → M) (a : M) (n m : ℕ) :
    (List.range n).foldl (fun acc i => (List.range m).foldl (fun acc c => acc + h i c) acc) a
      = a + ∑ i ∈ range n, ∑ c ∈ range m, h i c := by
  have : (fun (acc : M) (i : ℕ) => (List.range m).foldl (fun acc c => acc + h i c) acc)
      = fun acc i => acc + ∑ c ∈ range m, h i c := by
    funext acc i; rw [foldl_add_range]
  rw [this, foldl_add_range]

/-! ### Blocks of consecutive numbers -/

/-- A sum over `m n` consecutive numbers, block by block. -/
theorem sum_range_mul (f : ℕ → M) (m n : ℕ) :
    ∑ i ∈ range (m * n), f i = ∑ a ∈ range m, ∑ b ∈ range n, f (a * n + b) := by
  induction m with
  | zero => simp
  | succ m ih => rw [Nat.succ_mul, Finset.sum_range_add, ih, Finset.sum_range_succ]

/-! ### The tiled order visits every entry once -/

/-- Sixteen lanes times eight slices are the 128 columns. -/
theorem sum_lanes_slices (f : ℕ → M) :
    ∑ l ∈ range 16, ∑ c ∈ range 8, f (16 * c + l) = ∑ col ∈ range 128, f col := by
  rw [Finset.sum_comm]
  have h : ∑ col ∈ range 128, f col = ∑ c ∈ range 8, ∑ l ∈ range 16, f (c * 16 + l) :=
    sum_range_mul f 8 16
  rw [h]
  exact Finset.sum_congr rfl fun c _ => Finset.sum_congr rfl fun l _ => by rw [Nat.mul_comm]

/-- The workers' lanes, chunks, rows and slices, with the chunks selected by a property of rows
    that is the same for all rows of a chunk, add up to the sum over the selected rows of all 45056. -/
theorem tile_sum (P : ℕ → Prop) [DecidablePred P]
    (hP : ∀ w j i, w < 32 → j < 44 → i < 32 → (P (w * 1408 + 32 * j + i) ↔ P (w * 1408 + 32 * j)))
    (g : ℕ → ℕ → M) :
    ∑ w ∈ range 32, ∑ l ∈ range 16, ∑ j ∈ range 44,
        (if P (w * 1408 + 32 * j) then
          ∑ i ∈ range 32, ∑ c ∈ range 8, g (w * 1408 + 32 * j + i) (16 * c + l) else 0)
      = ∑ r ∈ range 45056, (if P r then ∑ col ∈ range 128, g r col else 0) := by
  have e1 : ∑ r ∈ range 45056, (if P r then ∑ col ∈ range 128, g r col else 0)
      = ∑ w ∈ range 32, ∑ k ∈ range 1408,
          (if P (w * 1408 + k) then ∑ col ∈ range 128, g (w * 1408 + k) col else 0) :=
    sum_range_mul (fun r => if P r then ∑ col ∈ range 128, g r col else 0) 32 1408
  have e2 : ∀ w, ∑ k ∈ range 1408,
        (if P (w * 1408 + k) then ∑ col ∈ range 128, g (w * 1408 + k) col else 0)
      = ∑ j ∈ range 44, ∑ i ∈ range 32,
          (if P (w * 1408 + (j * 32 + i)) then ∑ col ∈ range 128, g (w * 1408 + (j * 32 + i)) col else 0) :=
    fun w => sum_range_mul
      (fun k => if P (w * 1408 + k) then ∑ col ∈ range 128, g (w * 1408 + k) col else 0) 44 32
  rw [e1]
  refine Finset.sum_congr rfl fun w hw => ?_
  rw [e2 w, Finset.sum_comm]
  refine Finset.sum_congr rfl fun j hj => ?_
  have hw' : w < 32 := Finset.mem_range.mp hw
  have hj' : j < 44 := Finset.mem_range.mp hj
  have hidx : ∀ i, w * 1408 + (j * 32 + i) = w * 1408 + 32 * j + i := fun i => by omega
  by_cases hp : P (w * 1408 + 32 * j)
  · simp only [if_pos hp]
    rw [Finset.sum_comm]
    refine Finset.sum_congr rfl fun i hi => ?_
    have hi' : i < 32 := Finset.mem_range.mp hi
    rw [hidx i, if_pos ((hP w j i hw' hj' hi').mpr hp)]
    exact sum_lanes_slices (g (w * 1408 + 32 * j + i))
  · simp only [if_neg hp, Finset.sum_const_zero]
    refine (Finset.sum_eq_zero fun i hi => ?_).symm
    have hi' : i < 32 := Finset.mem_range.mp hi
    rw [hidx i, if_neg (fun h => hp ((hP w j i hw' hj' hi').mp h))]

/-- The chunks that start below row 4096 are the first 4096 rows. -/
theorem tile_sum_lt (g : ℕ → ℕ → M) :
    ∑ w ∈ range 32, ∑ l ∈ range 16, ∑ j ∈ range 44,
        (if w * 1408 + 32 * j < 4096 then
          ∑ i ∈ range 32, ∑ c ∈ range 8, g (w * 1408 + 32 * j + i) (16 * c + l) else 0)
      = ∑ r ∈ range 4096, ∑ col ∈ range 128, g r col := by
  rw [tile_sum (fun r => r < 4096) (fun w j i _ _ hi => by constructor <;> intro h <;> omega) g]
  have h : ∑ r ∈ range 45056, (if r < 4096 then ∑ col ∈ range 128, g r col else 0)
      = ∑ r ∈ range 4096, (if r < 4096 then ∑ col ∈ range 128, g r col else 0)
        + ∑ x ∈ range 40960, (if 4096 + x < 4096 then ∑ col ∈ range 128, g (4096 + x) col else 0) :=
    Finset.sum_range_add _ 4096 40960
  rw [h, Finset.sum_eq_zero (s := range 40960) fun x _ => if_neg (by omega), add_zero]
  exact Finset.sum_congr rfl fun r hr => if_pos (Finset.mem_range.mp hr)

/-- The other chunks are the remaining 40960 rows. -/
theorem tile_sum_ge (g : ℕ → ℕ → M) :
    ∑ w ∈ range 32, ∑ l ∈ range 16, ∑ j ∈ range 44,
        (if ¬ (w * 1408 + 32 * j < 4096) then
          ∑ i ∈ range 32, ∑ c ∈ range 8, g (w * 1408 + 32 * j + i) (16 * c + l) else 0)
      = ∑ x ∈ range 40960, ∑ col ∈ range 128, g (4096 + x) col := by
  rw [tile_sum (fun r => ¬ (r < 4096)) (fun w j i _ _ hi => by constructor <;> intro h <;> omega) g]
  have h : ∑ r ∈ range 45056, (if ¬ (r < 4096) then ∑ col ∈ range 128, g r col else 0)
      = ∑ r ∈ range 4096, (if ¬ (r < 4096) then ∑ col ∈ range 128, g r col else 0)
        + ∑ x ∈ range 40960,
            (if ¬ (4096 + x < 4096) then ∑ col ∈ range 128, g (4096 + x) col else 0) :=
    Finset.sum_range_add _ 4096 40960
  rw [h, Finset.sum_eq_zero (s := range 4096) fun r hr => if_neg (not_not.mpr (Finset.mem_range.mp hr)),
    zero_add]
  exact Finset.sum_congr rfl fun x _ => if_pos (by omega)

end Cert.KerBridge
-- ==== Proof.KerBridgeTile.lean ====
import proofs.«213116_g69346541961480_cont_9to1_m_612_34_alg».proof.Proof.TileDefs
import proofs.«213116_g69346541961480_cont_9to1_m_612_34_alg».proof.Proof.SpecAlgebra
import proofs.«213116_g69346541961480_cont_9to1_m_612_34_alg».proof.Proof.KerTileSum
import Idealize.ShloMosaic.Lib.ValueIdx
import Idealize.ShloMosaic.PureOps.Ideal.Laws

/-!
  The tile kernel's four results, at the extended reals, are level one of the rearranged form:
  when the two tables it gathers from hold `Sp` and `Ap` and its index, weight and bias operands
  hold the arguments' entries, the rows it writes are `K1T` and `K1N` entry by entry, and its
  thirty-two workers' sixteen-lane partial sums of squares add up to the sums of squares of all
  entries of `K1T` and of `K1N`.
-/

noncomputable section

namespace Cert.KerBridge

open Idealize.ShloMosaic Idealize.ShloMosaic.ValueIdx
open Cert.KernelIdeal Cert.KernelIdeal.Tile
open scoped BigOperators

/-- Row `10 e + t` of the flattened two-hop table: neighbour `t` of one-hop row `e`. -/
def flat2 (e : Fin 40960) (t : Fin 10) : Fin 409600 :=
  ⟨10 * e.val + t.val, by have := e.isLt; have := t.isLt; omega⟩

/-- What the call's eight read-only operands hold, on device `d`, in terms of the arguments `J`:
    the two tables are `Sp` and `Ap`; the index words are the rows the arguments name; the
    weights and the bias are the arguments' entries. -/
structure Ties (I : Ins Ideal) (d : Dev nD) (J : Cert.Spec.Inp) : Prop where
  hsp : ∀ (n : Fin 100000) (u : Fin 128), I.sp d (ix2 n u) = Cert.Spec.Sp J n u
  hap : ∀ (n : Fin 100000) (u : Fin 128), I.ap d (ix2 n u) = Cert.Spec.Ap J n u
  hnid : ∀ r : Fin 4096, (I.nid d (ix1 r)).toNat = (J.ids r).val
  hn1 : ∀ (r : Fin 4096) (t : Fin 10), (I.n1 d (ix1 (Cert.Spec.flat r t))).toNat = (J.n1 r t).val
  hn2 : ∀ (e : Fin 40960) (t : Fin 10), (I.n2 d (ix1 (flat2 e t))).toNat = (J.n2 e t).val
  ha1 : ∀ (r : Fin 4096) (t : Fin 10), I.a1 d (ix1 (Cert.Spec.flat r t)) = J.a1 r t
  ha2 : ∀ (e : Fin 40960) (t : Fin 10), I.a2 d (ix1 (flat2 e t)) = J.a2 e t
  hb : ∀ u : Fin 128, I.b d (ix1 u) = J.bo1 u

/-! ### Indices from in-range numbers -/

theorem ixTab_eq (n : Fin 100000) (u : Fin 128) : ixTab n.val u.val = ix2 n u := by
  funext a
  match a with
  | ⟨0, _⟩ => exact Fin.ext (Nat.mod_eq_of_lt n.isLt)
  | ⟨1, _⟩ => exact Fin.ext (Nat.mod_eq_of_lt u.isLt)

theorem ix4096_eq (r : Fin 4096) : ix4096 r.val = ix1 r := by
  funext a
  match a with
  | ⟨0, _⟩ => exact Fin.ext (Nat.mod_eq_of_lt r.isLt)

theorem ix40960_eq (e : Fin 40960) : ix40960 e.val = ix1 e := by
  funext a
  match a with
  | ⟨0, _⟩ => exact Fin.ext (Nat.mod_eq_of_lt e.isLt)

theorem ix409600_eq (e : Fin 409600) : ix409600 e.val = ix1 e := by
  funext a
  match a with
  | ⟨0, _⟩ => exact Fin.ext (Nat.mod_eq_of_lt e.isLt)

theorem ix128_eq (u : Fin 128) : ix128 u.val = ix1 u := by
  funext a
  match a with
  | ⟨0, _⟩ => exact Fin.ext (Nat.mod_eq_of_lt u.isLt)

theorem ix40960_flat (r : Fin 4096) (t : Fin 10) :
    ix40960 (r.val * 10 + t.val) = ix1 (Cert.Spec.flat r t) := by
  have e : r.val * 10 + t.val = (Cert.Spec.flat r t).val := by
    show r.val * 10 + t.val = 10 * r.val + t.val
    omega
  rw [e, ix40960_eq]

theorem ix409600_flat2 (e : Fin 40960) (t : Fin 10) :
    ix409600 (e.val * 10 + t.val) = ix1 (flat2 e t) := by
  have h : e.val * 10 + t.val = (flat2 e t).val := by
    show e.val * 10 + t.val = 10 * e.val + t.val
    omega
  rw [h, ix409600_eq]

/-! ### One entry of a row at the extended reals -/

theorem zero_f32 : (Scalar.ofBits (F := Ideal) .f32 0x00000000#32 : EReal) = 0 :=
  Ideal.ofBits_zero_f32

theorem rowVal_ideal (s b : EReal) (al n : Fin 10 → EReal) :
    (rowVal (F := Ideal) s b al n : EReal)
      = Cert.Spec.relu (Cert.Spec.acc10 (s + b) (fun t => al t * n t)) := by
  unfold rowVal
  rw [zero_f32]
  rfl

variable {I : Ins Ideal} {d : Dev nD} {J : Cert.Spec.Inp}

/-! ### The rows -/

/-- A target row. -/
theorem E1_tgt (h : Ties I d J) (r : Fin 4096) (u : Fin 128) :
    (E1 I d r.val u.val : EReal) = Cert.Spec.K1T J r u := by
  have hs : (I.sp d (ixTab (I.nid d (ix4096 r.val)).toNat u.val) : EReal)
      = Cert.Spec.Sp J (J.ids r) u := by
    rw [ix4096_eq, h.hnid r, ixTab_eq, h.hsp]
  have hb : (I.b d (ix128 u.val) : EReal) = J.bo1 u := by rw [ix128_eq, h.hb]
  have ha : ∀ t : Fin 10, (I.a1 d (ix40960 (r.val * 10 + t.val)) : EReal) = J.a1 r t := by
    intro t; rw [ix40960_flat, h.ha1]
  have hn : ∀ t : Fin 10,
      (I.ap d (ixTab (I.n1 d (ix40960 (r.val * 10 + t.val))).toNat u.val) : EReal)
        = Cert.Spec.Ap J (J.n1 r t) u := by
    intro t; rw [ix40960_flat, h.hn1 r t, ixTab_eq, h.hap]
  unfold E1
  rw [if_pos r.isLt]
  refine (rowVal_ideal _ _ _ _).trans ?_
  rw [hs, hb]
  simp only [ha, hn]
  rfl

/-- A one-hop neighbour row. -/
theorem E1_nbr (h : Ties I d J) (e : Fin 40960) (u : Fin 128) :
    (E1 I d (4096 + e.val) u.val : EReal) = Cert.Spec.K1N J e u := by
  have hsub : 4096 + e.val - 4096 = e.val := by omega
  have hself : (I.n1 d (ix40960 e.val)).toNat = (Cert.Spec.n1flat J e).val := by
    have := h.hn1 (Cert.Spec.rowOf e) (Cert.Spec.colOf e)
    rw [Cert.Spec.flat_rowOf_colOf] at this
    rw [ix40960_eq]
    exact this
  have hs : (I.sp d (ixTab (I.n1 d (ix40960 e.val)).toNat u.val) : EReal)
      = Cert.Spec.Sp J (Cert.Spec.n1flat J e) u := by
    rw [hself, ixTab_eq, h.hsp]
  have hb : (I.b d (ix128 u.val) : EReal) = J.bo1 u := by rw [ix128_eq, h.hb]
  have ha : ∀ t : Fin 10, (I.a2 d (ix409600 (e.val * 10 + t.val)) : EReal) = J.a2 e t := by
    intro t; rw [ix409600_flat2, h.ha2]
  have hn : ∀ t : Fin 10,
      (I.ap d (ixTab (I.n2 d (ix409600 (e.val * 10 + t.val))).toNat u.val) : EReal)
        = Cert.Spec.Ap J (J.n2 e t) u := by
    intro t; rw [ix409600_flat2, h.hn2 e t, ixTab_eq, h.hap]
  unfold E1
  rw [if_neg (by omega), hsub]
  refine (rowVal_ideal _ _ _ _).trans ?_
  rw [hs, hb]
  simp only [ha, hn]
  rfl

theorem E1t_apply (h : Ties I d J) (r : Fin 4096) (u : Fin 128) :
    E1t I d (ix2 r u) = Cert.Spec.K1T J r u :=
  E1_tgt h r u

theorem E1n_apply (h : Ties I d J) (e : Fin 40960) (u : Fin 128) :
    E1n I d (ix2 e u) = Cert.Spec.K1N J e u :=
  E1_nbr h e u

/-! ### The sums of squares -/

/-- The square of an entry of the 45056 rows, by row and column number. -/
def sqE (I : Ins Ideal) (d : Dev nD) (r col : ℕ) : EReal := (E1 I d r col : EReal) * (E1 I d r col : EReal)

theorem chunkSq_ideal (I : Ins Ideal) (d : Dev nD) (r0 lane : ℕ) :
    (chunkSq I d r0 lane : EReal)
      = ∑ i ∈ Finset.range 32, ∑ c ∈ Finset.range 8, sqE I d (r0 + i) (16 * c + lane) := by
  unfold chunkSq
  rw [zero_f32]
  exact (foldl_foldl_add_range (fun i c => sqE I d (r0 + i) (16 * c + lane)) 0 32 8).trans (zero_add _)

theorem tileSq_true (I : Ins Ideal) (d : Dev nD) (w lane : ℕ) :
    (tileSq I d w true lane : EReal)
      = ∑ j ∈ Finset.range 44, (if w * 1408 + 32 * j < 4096 then
          ∑ i ∈ Finset.range 32, ∑ c ∈ Finset.range 8, sqE I d (w * 1408 + 32 * j + i) (16 * c + lane)
        else 0) := by
  unfold tileSq
  rw [zero_f32]
  refine (foldl_cond_add_range (fun j => decide (w * 1408 + 32 * j < 4096) = true)
    (fun j => (chunkSq I d (w * 1408 + 32 * j) lane : EReal)) 0 44).trans ?_
  rw [zero_add]
  refine Finset.sum_congr rfl fun j _ => ?_
  simp only [decide_eq_true_eq, chunkSq_ideal]

theorem tileSq_false (I : Ins Ideal) (d : Dev nD) (w lane : ℕ) :
    (tileSq I d w false lane : EReal)
      = ∑ j ∈ Finset.range 44, (if ¬ (w * 1408 + 32 * j < 4096) then
          ∑ i ∈ Finset.range 32, ∑ c ∈ Finset.range 8, sqE I d (w * 1408 + 32 * j + i) (16 * c + lane)
        else 0) := by
  unfold tileSq
  rw [zero_f32]
  refine (foldl_cond_add_range (fun j => decide (w * 1408 + 32 * j < 4096) = false)
    (fun j => (chunkSq I d (w * 1408 + 32 * j) lane : EReal)) 0 44).trans ?_
  rw [zero_add]
  refine Finset.sum_congr rfl fun j _ => ?_
  simp only [decide_eq_false_iff_not, chunkSq_ideal]

/-- A sum over a 32 x 16 array, by worker and lane number. -/
theorem sum_S32x16 (f : ℕ → ℕ → EReal) :
    (∑ x : S32x16.Idx, f (x 0).val (x 1).val) = ∑ w ∈ Finset.range 32, ∑ l ∈ Finset.range 16, f w l := by
  rw [sum_idx2, Finset.sum_range (fun w => ∑ l ∈ Finset.range 16, f w l)]
  refine Finset.sum_congr rfl fun w _ => ?_
  rw [Finset.sum_range (fun l => f w.val l)]

theorem sum_Sqt (h : Ties I d J) : (∑ x : S32x16.Idx, Sqt I d x : EReal) = Cert.Spec.sqT J := by
  refine (sum_S32x16 (fun w l => (tileSq I d w true l : EReal))).trans ?_
  simp only [tileSq_true]
  rw [tile_sum_lt (sqE I d), Finset.sum_range (fun r => ∑ col ∈ Finset.range 128, sqE I d r col)]
  show _ = ∑ r : Fin 4096, ∑ u : Fin 128, Cert.Spec.K1T J r u * Cert.Spec.K1T J r u
  refine Finset.sum_congr rfl fun r _ => ?_
  rw [Finset.sum_range (fun col => sqE I d r.val col)]
  refine Finset.sum_congr rfl fun u _ => ?_
  show (E1 I d r.val u.val : EReal) * (E1 I d r.val u.val : EReal) = _
  rw [E1_tgt h r u]

theorem sum_Sqn (h : Ties I d J) : (∑ x : S32x16.Idx, Sqn I d x : EReal) = Cert.Spec.sqN J := by
  refine (sum_S32x16 (fun w l => (tileSq I d w false l : EReal))).trans ?_
  simp only [tileSq_false]
  rw [tile_sum_ge (sqE I d),
    Finset.sum_range (fun x => ∑ col ∈ Finset.range 128, sqE I d (4096 + x) col)]
  show _ = ∑ e : Fin 40960, ∑ u : Fin 128, Cert.Spec.K1N J e u * Cert.Spec.K1N J e u
  refine Finset.sum_congr rfl fun e _ => ?_
  rw [Finset.sum_range (fun col => sqE I d (4096 + e.val) col)]
  refine Finset.sum_congr rfl fun u _ => ?_
  show (E1 I d (4096 + e.val) u.val : EReal) * (E1 I d (4096 + e.val) u.val : EReal) = _
  rw [E1_nbr h e u]

end Cert.KerBridge

end
-- ==== Proof.KerBridgeLayout.lean ====
import proofs.«213116_g69346541961480_cont_9to1_m_612_34_alg».proof.Proof.Spec
import Idealize.ShloMosaic.Lib.ValueIdx
import Idealize.ShloMosaic.Lib.ValueLayout

/-!
  The host's reshapes and slices between the stages, read at an index, in the specification's
  index vocabulary: a bias as a one-row matrix, the two 128-row halves of a 256-row matrix, the
  flattened index and weight arrays, and the 40960 one-hop rows regrouped by target; and the two
  tables of the first stage, the column sums of squares and the last stage's formula recognised
  as the rearranged form's quantities.
-/

noncomputable section

namespace Cert.KerBridge

open Idealize.ShloMosaic Idealize.ShloMosaic.ValueIdx
open scoped BigOperators

/-! ### Reshapes and slices at an index -/

section Layout
variable {α : Type}

/-- A bias of length 128 as a one-row matrix. -/
theorem bias_row_apply (x : (⟨1, ![128]⟩ : Shape).Idx → α)
    (h : (⟨1, ![128]⟩ : Shape).ShapeCasts ⟨2, ![1, 128]⟩) (k : Fin 128) :
    shapeCast ⟨2, ![1, 128]⟩ x h (ix2 (0 : Fin 1) k) = x (ix1 k) :=
  shapeCast_a_1a_apply x h 0 k

/-- The first 128 rows of a 256-row matrix. -/
theorem slice_lo_apply (X : (⟨2, ![256, 128]⟩ : Shape).Idx → α)
    (h : (⟨2, ![256, 128]⟩ : Shape).Slices ![0, 0] ⟨2, ![128, 128]⟩) (k u : Fin 128) :
    extractStridedSlice ⟨2, ![128, 128]⟩ ![0, 0] X h (ix2 k u) = X (ix2 (Cert.Spec.lo k) u) :=
  slice2_axis0_apply 0 X h k u (Cert.Spec.lo k) (Nat.zero_add _).symm

/-- The last 128 rows of a 256-row matrix. -/
theorem slice_hi_apply (X : (⟨2, ![256, 128]⟩ : Shape).Idx → α)
    (h : (⟨2, ![256, 128]⟩ : Shape).Slices ![128, 0] ⟨2, ![128, 128]⟩) (k u : Fin 128) :
    extractStridedSlice ⟨2, ![128, 128]⟩ ![128, 0] X h (ix2 k u) = X (ix2 (Cert.Spec.hi k) u) :=
  slice2_axis0_apply 128 X h k u (Cert.Spec.hi k) rfl

/-- A 4096 x 10 array flattened, at position `10 r + t`. -/
theorem flat_apply (x : (⟨2, ![4096, 10]⟩ : Shape).Idx → α)
    (h : (⟨2, ![4096, 10]⟩ : Shape).ShapeCasts ⟨1, ![40960]⟩) (r : Fin 4096) (t : Fin 10) :
    shapeCast ⟨1, ![40960]⟩ x h (ix1 (Cert.Spec.flat r t)) = x (ix2 r t) :=
  shapeCast_apply x h _ _ (by
    rw [Shape.rowMajor_val_two, Shape.rowMajor_val_one]
    show r.val * 10 + t.val = 10 * r.val + t.val
    omega)

/-- A 40960 x 10 array flattened, at position `10 e + t`. -/
theorem flat2_apply (x : (⟨2, ![40960, 10]⟩ : Shape).Idx → α)
    (h : (⟨2, ![40960, 10]⟩ : Shape).ShapeCasts ⟨1, ![409600]⟩) (e : Fin 40960) (t : Fin 10)
    (p : Fin 409600) (hp : p.val = 10 * e.val + t.val) :
    shapeCast ⟨1, ![409600]⟩ x h (ix1 p) = x (ix2 e t) :=
  shapeCast_apply x h _ _ (by
    rw [Shape.rowMajor_val_two, Shape.rowMajor_val_one]
    show e.val * 10 + t.val = p.val
    omega)

/-- The 40960 one-hop rows regrouped as 4096 targets of ten neighbours. -/
theorem rows3_apply (x : (⟨2, ![40960, 128]⟩ : Shape).Idx → α)
    (h : (⟨2, ![40960, 128]⟩ : Shape).ShapeCasts ⟨3, ![4096, 10, 128]⟩) (r : Fin 4096) (t : Fin 10)
    (d : Fin 128) :
    shapeCast ⟨3, ![4096, 10, 128]⟩ x h (ix3 r t d) = x (ix2 (Cert.Spec.flat r t) d) :=
  shapeCast_apply x h _ _ (by
    rw [Shape.rowMajor_val_two, Shape.rowMajor_val_three]
    show (10 * r.val + t.val) * 128 + d.val = (r.val * 10 + t.val) * 128 + d.val
    omega)

end Layout

/-! ### The rearranged form's quantities recognised -/

variable (J : Cert.Spec.Inp)

/-- The first stage's self table. -/
theorem Sp_of_entry (sp x : (⟨2, ![100000, 128]⟩ : Shape).Idx → EReal)
    (ws wo : (⟨2, ![128, 128]⟩ : Shape).Idx → EReal) (bs : (⟨2, ![1, 128]⟩ : Shape).Idx → EReal)
    (hx : ∀ n d, x (ix2 n d) = J.X n d) (hws : ∀ d k, ws (ix2 d k) = J.Ws1 d k)
    (hbs : ∀ k, bs (ix2 (0 : Fin 1) k) = J.bs1 k) (hwo : ∀ k u, wo (ix2 k u) = J.Wo1 (Cert.Spec.lo k) u)
    (n : Fin 100000) (u : Fin 128)
    (hsp : sp (ix2 n u) = ∑ k : Fin 128,
      max ((∑ d : Fin 128, x (ix2 n d) * ws (ix2 d k)) + bs (ix2 (0 : Fin 1) k)) 0 * wo (ix2 k u)) :
    sp (ix2 n u) = Cert.Spec.Sp J n u := by
  rw [hsp]
  simp only [hx, hws, hbs, hwo]
  rfl

/-- The first stage's neighbour table. -/
theorem Ap_of_entry (ap x : (⟨2, ![100000, 128]⟩ : Shape).Idx → EReal)
    (wa wo : (⟨2, ![128, 128]⟩ : Shape).Idx → EReal) (ba : (⟨2, ![1, 128]⟩ : Shape).Idx → EReal)
    (hx : ∀ n d, x (ix2 n d) = J.X n d) (hwa : ∀ d k, wa (ix2 d k) = J.Wa1 d k)
    (hba : ∀ k, ba (ix2 (0 : Fin 1) k) = J.ba1 k) (hwo : ∀ k u, wo (ix2 k u) = J.Wo1 (Cert.Spec.hi k) u)
    (n : Fin 100000) (u : Fin 128)
    (hap : ap (ix2 n u) = ∑ k : Fin 128,
      max ((∑ d : Fin 128, x (ix2 n d) * wa (ix2 d k)) + ba (ix2 (0 : Fin 1) k)) 0 * wo (ix2 k u)) :
    ap (ix2 n u) = Cert.Spec.Ap J n u := by
  rw [hap]
  simp only [hx, hwa, hba, hwo]
  rfl

/-- The norm of level zero from the column sums of squares. -/
theorem nu0_of_colsums (sq : Fin 128 → EReal)
    (hsq : ∀ u, sq u = ∑ r : Fin 4096, Cert.Spec.K0 J r u * Cert.Spec.K0 J r u) :
    Ideal.sqrt (∑ u, sq u) = Cert.Spec.nu0 J := by
  simp only [hsq]
  rw [Finset.sum_comm]
  rfl

/-- The norms of level one from the workers' partial sums. -/
theorem nu1_of_sum {ι : Type} [Fintype ι] (s : ι → EReal) (h : ∑ x, s x = Cert.Spec.sqT J) :
    Ideal.sqrt (∑ x, s x) = Cert.Spec.nu1 J := by
  rw [h]; rfl

theorem nu2_of_sum {ι : Type} [Fintype ι] (s : ι → EReal) (h : ∑ x, s x = Cert.Spec.sqN J) :
    Ideal.sqrt (∑ x, s x) = Cert.Spec.nu2 J := by
  rw [h]; rfl

end Cert.KerBridge

end
-- ==== Proof.KerBridge.lean ====
import proofs.«213116_g69346541961480_cont_9to1_m_612_34_alg».proof.Proof.MainVals
import proofs.«213116_g69346541961480_cont_9to1_m_612_34_alg».proof.Proof.Region0Ideal
import proofs.«213116_g69346541961480_cont_9to1_m_612_34_alg».proof.Proof.Region1Value
import proofs.«213116_g69346541961480_cont_9to1_m_612_34_alg».proof.Proof.Region2Value
import proofs.«213116_g69346541961480_cont_9to1_m_612_34_alg».proof.Proof.KerBridgeTile
import proofs.«213116_g69346541961480_cont_9to1_m_612_34_alg».proof.Proof.KerBridgeLayout
import proofs.«213116_g69346541961480_cont_9to1_m_612_34_alg».proof.Proof.PreBridge

/-!
  The kernel program's result, entry by entry at the extended reals, is the rearranged form of
  the two-layer graph convolution on the argument arrays: the first region's two tables are `Sp`
  and `Ap`, the tile kernel's rows and partial sums are level one and its norms, the second
  region's two results are level zero and its column sums of squares, and the third region's
  result is the final layer with the norm carried on the bias and divided out.
-/

noncomputable section

namespace Cert.KerBridge

open Idealize.ShloMosaic Idealize.ShloMosaic.ValueIdx Idealize.ShloMosaic.TcCoe
open Idealize.SL Idealize.SL.Sem
open Cert.KernelIdeal Cert.KernelIdeal.Gen Cert.KernelIdeal.Main Cert.KernelIdeal.Tile
open Cert.PreDecode
open scoped BigOperators

variable (m : (ℓ : Loc nD τ sig) → Buf (Elt Ideal) ℓ) (c : Dev nD)

/-- The twenty argument arrays, as launched on core `c`, read as functions of coordinates. -/
def Jof : Cert.Spec.Inp :=
  Cert.PreBridge.inpOf
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19))

/-- The input domain's facts about the launched arguments. -/
abbrev Dec : Prop :=
  Decoded
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19))

/-! ### The SparseCore call's operands -/

theorem ties (hd : Dec m c) : Ties (insOf (W3 m)) c (Jof m c) where
  hsp := fun n u => by
    show W3 m c rSp (ix2 n u) = _
    rw [W3_sp]
    refine Sp_of_entry (Jof m c) _ (Region0.xArr (V1 m) c) (Region0.wsArr (V1 m) c) (Region0.wo1Arr (V1 m) c)
      (Region0.bsArr (V1 m) c) ?_ ?_ ?_ ?_ n u (Region0.spAll_entry (V1 m) c n u)
    · intro n d; show V1 m c main_arg0 (ix2 n d) = _; rw [V1_arg0]; rfl
    · intro d k; show V1 m c main_arg6 (ix2 d k) = _; rw [V1_arg6]; rfl
    · intro k; show V1 m c main_v0 (ix2 (0 : Fin 1) k) = _; rw [V1_v0, bias_row_apply]; rfl
    · intro k u; show V1 m c main_v2 (ix2 k u) = _; rw [V1_v2, slice_lo_apply]; rfl
  hap := fun n u => by
    show W3 m c rAp (ix2 n u) = _
    rw [W3_ap]
    refine Ap_of_entry (Jof m c) _ (Region0.xArr (V1 m) c) (Region0.waArr (V1 m) c) (Region0.wo2Arr (V1 m) c)
      (Region0.baArr (V1 m) c) ?_ ?_ ?_ ?_ n u (Region0.apAll_entry (V1 m) c n u)
    · intro n d; show V1 m c main_arg0 (ix2 n d) = _; rw [V1_arg0]; rfl
    · intro d k; show V1 m c main_arg8 (ix2 d k) = _; rw [V1_arg8]; rfl
    · intro k; show V1 m c main_v1 (ix2 (0 : Fin 1) k) = _; rw [V1_v1, bias_row_apply]; rfl
    · intro k u; show V1 m c main_v3 (ix2 k u) = _; rw [V1_v3, slice_hi_apply]; rfl
  hnid := fun r => by
    show (W3 m c rNid (ix1 r)).toNat = _
    rw [W3_nid]
    exact (Nat.mod_eq_of_lt (hd.rng1 (ix1 r)).1).symm
  hn1 := fun r t => by
    show (W3 m c rN1 (ix1 (Cert.Spec.flat r t))).toNat = _
    rw [W3_n1, flat_apply]
    exact (Nat.mod_eq_of_lt (hd.rng2 (ix2 r t)).1).symm
  hn2 := fun e t => by
    show (W3 m c rN2 (ix1 (flat2 e t))).toNat = _
    rw [W3_n2, flat2_apply _ _ e t (flat2 e t) rfl]
    exact (Nat.mod_eq_of_lt (hd.rng4 (ix2 e t)).1).symm
  ha1 := fun r t => by
    show W3 m c rA1 (ix1 (Cert.Spec.flat r t)) = _
    rw [W3_a1, flat_apply]; rfl
  ha2 := fun e t => by
    show W3 m c rA2 (ix1 (flat2 e t)) = _
    rw [W3_a2, flat2_apply _ _ e t (flat2 e t) rfl]; rfl
  hb := fun u => by
    show W3 m c rB (ix1 u) = _
    rw [W3_b]; rfl

/-! ### The second region's inputs -/

theorem v9_0_apply (hd : Dec m c) (r : Fin 4096) (u : Fin 128) :
    V5 m c main_v9_0 (ix2 r u) = Cert.Spec.K1T (Jof m c) r u := by
  rw [V5_v9_0]; exact E1t_apply (ties m c hd) r u

theorem v10_apply (hd : Dec m c) (r : Fin 4096) (t : Fin 10) (d : Fin 128) :
    V5 m c main_v10 (ix3 r t d) = Cert.Spec.K1N (Jof m c) (Cert.Spec.flat r t) d := by
  rw [V5_v10, rows3_apply]; exact E1n_apply (ties m c hd) (Cert.Spec.flat r t) d

theorem nu1_apply (hd : Dec m c) :
    Ideal.sqrt (∑ x : S32x16.Idx, (V5 m c main_v9_2 x : EReal)) = Cert.Spec.nu1 (Jof m c) := by
  rw [V5_v9_2]; exact nu1_of_sum (Jof m c) _ (sum_Sqt (ties m c hd))

theorem nu2_apply (hd : Dec m c) :
    Ideal.sqrt (∑ x : S32x16.Idx, (V5 m c main_v9_3 x : EReal)) = Cert.Spec.nu2 (Jof m c) := by
  rw [V5_v9_3]; exact nu2_of_sum (Jof m c) _ (sum_Sqn (ties m c hd))

theorem v5_a1 (r : Fin 4096) (t : Fin 10) : V5 m c main_arg3 (ix2 r t) = (Jof m c).a1 r t := by
  rw [V5_arg3]; rfl
theorem v5_Ws0 (d k : Fin 128) : V5 m c main_arg12 (ix2 d k) = (Jof m c).Ws0 d k := by
  rw [V5_arg12]; rfl
theorem v5_Wa0 (d k : Fin 128) : V5 m c main_arg14 (ix2 d k) = (Jof m c).Wa0 d k := by
  rw [V5_arg14]; rfl
theorem v5_bs0 (k : Fin 128) : V5 m c main_v11 (ix2 (0 : Fin 1) k) = (Jof m c).bs0 k := by
  rw [V5_v11, bias_row_apply]; rfl
theorem v5_ba0 (k : Fin 128) : V5 m c main_v12 (ix2 (0 : Fin 1) k) = (Jof m c).ba0 k := by
  rw [V5_v12, bias_row_apply]; rfl
theorem v5_Wo0_lo (k u : Fin 128) : V5 m c main_v13 (ix2 k u) = (Jof m c).Wo0 (Cert.Spec.lo k) u := by
  rw [V5_v13, slice_lo_apply]; rfl
theorem v5_Wo0_hi (k u : Fin 128) : V5 m c main_v14 (ix2 k u) = (Jof m c).Wo0 (Cert.Spec.hi k) u := by
  rw [V5_v14, slice_hi_apply]; rfl
theorem v5_bo0 (u : Fin 128) : V5 m c main_v15 (ix2 (0 : Fin 1) u) = (Jof m c).bo0 u := by
  rw [V5_v15, bias_row_apply]; rfl

/-! ### The second region's results -/

/-- The second region's first result, entry by entry: level zero, not normalised. -/
theorem e0All_value (hd : Dec m c) (r : Fin 4096) (u : Fin 128) :
    Region1.e0All (V5 m) c (ix2 r u) = Cert.Spec.K0 (Jof m c) r u := by
  rw [Region1.e0All_spec (V5 m) c (Cert.Spec.K1T (Jof m c))
    (fun r t d => Cert.Spec.K1N (Jof m c) (Cert.Spec.flat r t) d) (Jof m c).a1 (Jof m c).Ws0 (Jof m c).Wa0
    (fun k u => (Jof m c).Wo0 (Cert.Spec.lo k) u) (fun k u => (Jof m c).Wo0 (Cert.Spec.hi k) u)
    (Jof m c).bs0 (Jof m c).ba0 (Jof m c).bo0 (Cert.Spec.nu1 (Jof m c)) (Cert.Spec.nu2 (Jof m c))
    (v9_0_apply m c hd) (v10_apply m c hd) (v5_a1 m c) (v5_Ws0 m c) (v5_bs0 m c) (v5_Wa0 m c) (v5_ba0 m c)
    (v5_Wo0_lo m c) (v5_Wo0_hi m c) (v5_bo0 m c) (nu1_apply m c hd) (nu2_apply m c hd) r u]
  rfl

/-- Level zero, not normalised. -/
theorem e0_value (hd : Dec m c) (r : Fin 4096) (u : Fin 128) :
    (dat1 m c).arrAt 12 cfg2.N (ix2 r u) = Cert.Spec.K0 (Jof m c) r u := by
  unfold dat1
  rw [Region1.arrAt_12_all]
  exact e0All_value m c hd r u

/-- Its column sums of squares. -/
theorem sq_value (hd : Dec m c) (u : Fin 128) :
    ((dat1 m c).arrAt 13 cfg2.N (ix2 (0 : Fin 1) u) : EReal)
      = ∑ r : Fin 4096, Cert.Spec.K0 (Jof m c) r u * Cert.Spec.K0 (Jof m c) r u :=
  (congrFun (Region1.arrAt_13_all (V5 m) _ _ c : (dat1 m c).arrAt 13 cfg2.N = Region1.sqAll (V5 m) c)
      (ix2 (0 : Fin 1) u)).trans
    ((Region1.sqAll_sum (V5 m) c u).trans
      (Finset.sum_congr rfl fun r _ => by rw [e0All_value m c hd r u]))

/-! ### The result -/

theorem ker_value (hd : Dec m c) (r : Fin 4096) (u : Fin 128) :
    (dat2 m c).arrAt 4 cfg3.N (ix2 r u) = Cert.Spec.OUTker (Jof m c) r u := by
  unfold dat2
  rw [Region2.arrAt_4]
  refine Region2.G4_spec _ _ _ _ (Cert.Spec.K0 (Jof m c)) (Jof m c).Wemb (Jof m c).bemb (Cert.Spec.nu0 (Jof m c))
    ?_ ?_ ?_ ?_ r u
  · intro r k; rw [V7_v16_0]; exact e0_value m c hd r k
  · intro k u; rw [V7_arg18]; rfl
  · intro u; rw [V7_v17, bias_row_apply]; rfl
  · rw [V7_v16_1]
    exact nu0_of_colsums (Jof m c) _ (sq_value m c hd)

end Cert.KerBridge

end
-- ==== Proof.Twin.Ghost.lean ====
/-
  The kernel program as the SparseCore launch theorem sees it, and the ghost state every module of this
  certificate shares: the launch handshakes' rounds (indexed by the call), the three TensorCore pipelines' staging cells' rounds, and
  the counters of the tile kernel's own transfers (its six DMA semaphores carry one transfer at a time and signal
  no other thread, so they need no schedule), each with its embedding into the model's resource algebra.
-/
import proofs.«213116_g69346541961480_cont_9to1_m_612_34_alg».proof.Defs
import Idealize.ShloMosaic.Lib.SparseCore.Launch
import Idealize.ShloMosaic.Lib.Pipeline.Regions
import Idealize.ShloMosaic.Lib.Transfers
import proofs.«213116_g69346541961480_cont_9to1_m_612_34_alg».proof.Proof.Gen.Kernel

noncomputable section

namespace Cert.Kernel.Ghost

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the inner body table: the kernels' own and the three pipelines'. -/
abbrev ΛP : Labels := Pipeline.Sig Λ₀ (Fin 3) fun p => (pcfgs (F := F) p).Adm
/-- The one SparseCore call of @main. -/
abbrev K : SparseCore.Cfg τ sig (ΛP (F := F)) 1 := sc (F := F)
/-- The inner body table: the four kernel functions and the three pipelines' regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-! ## The resource algebra -/

/-- The launch handshakes' rounds, a round per call. -/
abbrev UH : Type := URounds (GSem nD τ sig) ℕ
/-- The TensorCore pipelines' staging cells' rounds. -/
abbrev UP : Type := URounds (GSem nD τ sig) Unit
/-- Handshakes, pipelines, and last the counters of the tile kernel's own transfers. -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The counters sit where the symbolic executor looks for them. -/
example : CountersIn UU := inferInstance

end Cert.Kernel.Ghost

end
-- ==== Proof.Twin.MainHost.lean ====
/-
  @main of the kernel program, cut where the SparseCore call stands. Over the inner labels (the kernels' and the
  three pipelines') its first half is: four host operations (two bias reshapes, the two halves of W_out1), the
  first TensorCore region, four reshapes that flatten the neighbour and weight tables; its second half: six host
  operations (the level-1 neighbour embeddings regrouped by target, two bias reshapes, the two halves of W_out0,
  a bias reshape), the second region, one bias reshape, the third region. @main itself is the first half lifted
  to the program's labels, the SparseCore call, the second half lifted: an equation of programs that holds by
  unfolding.
-/
import proofs.«213116_g69346541961480_cont_9to1_m_612_34_alg».proof.Proof.Twin.Ghost
import proofs.«213116_g69346541961480_cont_9to1_m_612_34_alg».proof.Proof.Gen.Kernel.Launch

noncomputable section

namespace Cert.Kernel.Main

open Cert.Kernel Cert.Kernel.Gen Cert.Kernel.Ghost Cert.Kernel.Facts
open Idealize.ShloMosaic
open Idealize.ShloMosaic.SparseCore (S V T)
open Idealize.ShloMosaic.SparseCore.Cfg (HIx)
open Idealize.SL Idealize.SL.Sem

variable {F : FTy → Type} [FloatOps F]

/-! ## The host stretches -/

/-- Host stretch 0 of @main. -/
abbrev hostOpsA : List (HloOp τ sig (Elt F)) :=
  [StableHlo.reshape main_arg7 main_v0 rfl shapeCasts_S128_S1x128,
   StableHlo.reshape main_arg9 main_v1 rfl shapeCasts_S128_S1x128,
   StableHlo.unary main_arg10 main_v2 ((extractStridedSlice S128x128 ![0, 0] · slices_S256x128_S128x128_0_0) : (⟨S256x128, .f32⟩ : BufTy).Contents (Elt F) → (⟨S128x128, .f32⟩ : BufTy).Contents (Elt F)),
   StableHlo.unary main_arg10 main_v3 ((extractStridedSlice S128x128 ![128, 0] · slices_S256x128_S128x128_128_0) : (⟨S256x128, .f32⟩ : BufTy).Contents (Elt F) → (⟨S128x128, .f32⟩ : BufTy).Contents (Elt F))]

/-- Host stretch 1 of @main. -/
abbrev hostOpsB : List (HloOp τ sig (Elt F)) :=
  [StableHlo.reshape main_arg2 main_v5 rfl shapeCasts_S4096x10_S40960,
   StableHlo.reshape main_arg4 main_v6 rfl shapeCasts_S40960x10_S409600,
   StableHlo.reshape main_arg3 main_v7 rfl shapeCasts_S4096x10_S40960,
   StableHlo.reshape main_arg5 main_v8 rfl shapeCasts_S40960x10_S409600]

/-- Host stretch 2 of @main. -/
abbrev hostOpsC : List (HloOp τ sig (Elt F)) :=
  [StableHlo.reshape main_v9_1 main_v10 rfl shapeCasts_S40960x128_S4096x10x128,
   StableHlo.reshape main_arg13 main_v11 rfl shapeCasts_S128_S1x128,
   StableHlo.reshape main_arg15 main_v12 rfl shapeCasts_S128_S1x128,
   StableHlo.unary main_arg16 main_v13 ((extractStridedSlice S128x128 ![0, 0] · slices_S256x128_S128x128_0_0) : (⟨S256x128, .f32⟩ : BufTy).Contents (Elt F) → (⟨S128x128, .f32⟩ : BufTy).Contents (Elt F)),
   StableHlo.unary main_arg16 main_v14 ((extractStridedSlice S128x128 ![128, 0] · slices_S256x128_S128x128_128_0) : (⟨S256x128, .f32⟩ : BufTy).Contents (Elt F) → (⟨S128x128, .f32⟩ : BufTy).Contents (Elt F)),
   StableHlo.reshape main_arg17 main_v15 rfl shapeCasts_S128_S1x128]

/-- Host stretch 3 of @main. -/
abbrev hostOpsD : List (HloOp τ sig (Elt F)) :=
  [StableHlo.reshape main_arg19 main_v17 rfl shapeCasts_S128_S1x128]

/-! ## The two halves of @main over the inner labels -/

/-- @main up to the SparseCore call: stretch A, region 0, stretch B. -/
def progA : Prog (TpuEff nD τ sig (Elt F) (ΛP (F := F)) .tc) PUnit :=
  StableHlo.seq hostOpsA >>= fun _ => Prog.op (.customCall (Pipeline.entry 0) ()) fun _ =>
    StableHlo.seq hostOpsB >>= fun _ => Prog.ret ⟨⟩
/-- @main after the SparseCore call: stretch C, region 1, stretch D, region 2. -/
def progB : Prog (TpuEff nD τ sig (Elt F) (ΛP (F := F)) .tc) PUnit :=
  StableHlo.seq hostOpsC >>= fun _ => Prog.op (.customCall (Pipeline.entry 1) ()) fun _ =>
    StableHlo.seq hostOpsD >>= fun _ => Prog.op (.customCall (Pipeline.entry 2) ()) fun _ => Prog.ret ⟨⟩

/-- @main is its first half, the SparseCore call, its second half. -/
theorem main_eq (d : Dev nD) :
    main (F := F) d = (SparseCore.liftProg progA >>= fun _ => (sc (F := F)).run d 0 >>= fun _ => SparseCore.liftProg progB) := by
  rfl

/-- No pipeline has a prefetched table. -/
abbrev adm : (p : Fin 3) → (pcfgs (F := F) p).Adm := fun p => (cfgs p).toPCfg_adm

/-! ## The recorded pairs below a level -/

/-- The (semaphore, index) pairs of the TensorCore of `d` whose level is at most `8 n`: what its waits may have
    recorded before call `n`. The pipelines' own waits are recorded at the index `none`, level 0, so they stay
    inside it. -/
def Bn (d : Dev nD) (n : ℕ) : Set (SemLoc sig × HIx 1) := {p | (K (F := F)).lev (T d, p.1) p.2 ≤ 8 * n}

theorem waitPairs_sub_Bn (cfg : Pipeline.Cfg sig Λ₀) (d : Dev nD) (n : ℕ) :
    cfg.waitPairs (none : HIx 1) ⊆ Bn (F := F) d n := by
  rintro p ⟨w, s, rfl⟩
  show (K (F := F)).lev _ none ≤ _
  rw [SparseCore.Cfg.lev_none]; exact Nat.zero_le _

theorem bound_sub_Bn (cfg : Pipeline.Cfg sig Λ₀) (d : Dev nD) (n : ℕ) :
    Bn (F := F) d n ∪ cfg.waitPairs (none : HIx 1) ⊆ Bn (F := F) d n :=
  Set.union_subset (Set.Subset.refl _) (waitPairs_sub_Bn cfg d n)

end Cert.Kernel.Main

end
-- ==== Proof.Twin.TileDefs.lean ====
/-
  One vector subcore's task of the graph-convolution kernel: what it reads, what it writes, and the values it
  leaves, as pure functions of the contents its operands hold when the SparseCore call is entered.

  The 45056 rows (4096 targets, then 40960 one-hop neighbours) are dealt to 32 workers, 1408 consecutive rows
  each, worker number `2 s + c` for subcore `s` of core `c`. Row `r` of the result is
  `max (((self + b) + a₀ n₀) + … + a₉ n₉) 0`, per column, where `self` is the row of the first table its index names,
  `n_t` the rows of the second table its ten neighbour indices name and `a_t` its ten weights; beside the rows
  each worker leaves two 16-lane sums of squares, one over its target rows and one over its neighbour rows.
-/
import proofs.«213116_g69346541961480_cont_9to1_m_612_34_alg».proof.Proof.Twin.Ghost
import Idealize.ShloMosaic.Lib.Transfers

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays of the call -/

abbrev spLoc (d : Dev nD) : Loc nD τ sig := (SparseCore.T d).loc main_v4_0
abbrev apLoc (d : Dev nD) : Loc nD τ sig := (SparseCore.T d).loc main_v4_1
abbrev nidLoc (d : Dev nD) : Loc nD τ sig := (SparseCore.T d).loc main_arg1
abbrev n1Loc (d : Dev nD) : Loc nD τ sig := (SparseCore.T d).loc main_v5
abbrev n2Loc (d : Dev nD) : Loc nD τ sig := (SparseCore.T d).loc main_v6
abbrev a1Loc (d : Dev nD) : Loc nD τ sig := (SparseCore.T d).loc main_v7
abbrev a2Loc (d : Dev nD) : Loc nD τ sig := (SparseCore.T d).loc main_v8
abbrev bLoc (d : Dev nD) : Loc nD τ sig := (SparseCore.T d).loc main_arg11
abbrev e1tLoc (d : Dev nD) : Loc nD τ sig := (SparseCore.T d).loc main_v9_0
abbrev e1nLoc (d : Dev nD) : Loc nD τ sig := (SparseCore.T d).loc main_v9_1
abbrev sqtLoc (d : Dev nD) : Loc nD τ sig := (SparseCore.T d).loc main_v9_2
abbrev sqnLoc (d : Dev nD) : Loc nD τ sig := (SparseCore.T d).loc main_v9_3

/-- What the call's eight read-only operands hold when the call is entered: the two tables, the three index
    arrays (targets, one-hop and two-hop neighbours, flat), the two weight arrays (flat) and the bias. -/
structure Ins (F : FTy → Type) where
  sp : (d : Dev nD) → Buf (Elt F) (spLoc d)
  ap : (d : Dev nD) → Buf (Elt F) (apLoc d)
  nid : (d : Dev nD) → Buf (Elt F) (nidLoc d)
  n1 : (d : Dev nD) → Buf (Elt F) (n1Loc d)
  n2 : (d : Dev nD) → Buf (Elt F) (n2Loc d)
  a1 : (d : Dev nD) → Buf (Elt F) (a1Loc d)
  a2 : (d : Dev nD) → Buf (Elt F) (a2Loc d)
  b : (d : Dev nD) → Buf (Elt F) (bLoc d)

variable (I : Ins F)

/-- Every index names a row of the 100000-row tables. -/
def PreOK : Prop :=
  ∀ d : Dev nD, (∀ x, (I.nid d x).toNat < 100000) ∧ (∀ x, (I.n1 d x).toNat < 100000) ∧ (∀ x, (I.n2 d x).toNat < 100000)

/-! ## Indices from numbers -/

/-- The multi-index with coordinates `v`, each reduced modulo its axis (in range: itself). -/
def mkIdx (s : Shape) (hpos : ∀ a, 0 < s.size a) (v : Fin s.rank → ℕ) : s.Idx :=
  fun a => ⟨v a % s.size a, Nat.mod_lt _ (hpos a)⟩

theorem mkIdx_val (s : Shape) (hpos : ∀ a, 0 < s.size a) (v : Fin s.rank → ℕ) (a : Fin s.rank) (h : v a < s.size a) :
    (mkIdx s hpos v a).val = v a := Nat.mod_eq_of_lt h

def ixTab (r c : ℕ) : S100000x128.Idx := mkIdx S100000x128 (by decide) ![r, c]
def ix4096 (r : ℕ) : S4096.Idx := mkIdx S4096 (by decide) ![r]
def ix40960 (r : ℕ) : S40960.Idx := mkIdx S40960 (by decide) ![r]
def ix409600 (r : ℕ) : S409600.Idx := mkIdx S409600 (by decide) ![r]
def ix128 (c : ℕ) : S128.Idx := mkIdx S128 (by decide) ![c]

/-! ## The values -/

section Values

variable [FloatOps F]

/-- One entry of a row: the self entry plus the bias, then the ten weighted neighbour entries added in order, then
    the maximum with zero — the kernel's own association. -/
def rowVal (s b : F .f32) (al n : Fin 10 → F .f32) : F .f32 :=
  FloatOps.maximumf
    (FloatOps.addf (FloatOps.addf (FloatOps.addf (FloatOps.addf (FloatOps.addf (FloatOps.addf (FloatOps.addf (FloatOps.addf (FloatOps.addf (FloatOps.addf
      (FloatOps.addf s b)
      (FloatOps.mulf (al 0) (n 0))) (FloatOps.mulf (al 1) (n 1))) (FloatOps.mulf (al 2) (n 2))) (FloatOps.mulf (al 3) (n 3)))
      (FloatOps.mulf (al 4) (n 4))) (FloatOps.mulf (al 5) (n 5))) (FloatOps.mulf (al 6) (n 6))) (FloatOps.mulf (al 7) (n 7)))
      (FloatOps.mulf (al 8) (n 8))) (FloatOps.mulf (al 9) (n 9)))
    (Scalar.ofBits .f32 0x00000000#32)

/-- Entry `(r, col)` of the 45056 result rows: rows below 4096 are targets (self index `nid[r]`, neighbours
    `n1[10 r + t]`, weights `a1[10 r + t]`), the others one-hop neighbours at `e = r - 4096` (self index `n1[e]`,
    neighbours `n2[10 e + t]`, weights `a2[10 e + t]`). -/
def E1 (d : Dev nD) (r col : ℕ) : F .f32 :=
  if r < 4096 then
    rowVal (I.sp d (ixTab (I.nid d (ix4096 r)).toNat col)) (I.b d (ix128 col))
      (fun t => I.a1 d (ix40960 (r * 10 + t.val))) (fun t => I.ap d (ixTab (I.n1 d (ix40960 (r * 10 + t.val))).toNat col))
  else
    rowVal (I.sp d (ixTab (I.n1 d (ix40960 (r - 4096))).toNat col)) (I.b d (ix128 col))
      (fun t => I.a2 d (ix409600 ((r - 4096) * 10 + t.val))) (fun t => I.ap d (ixTab (I.n2 d (ix409600 ((r - 4096) * 10 + t.val))).toNat col))

/-- The first result whole: the target rows. -/
def E1t (d : Dev nD) : Buf (Elt F) (e1tLoc d) := fun x => E1 I d (x 0).val (x 1).val
/-- The second result whole: the neighbour rows. -/
def E1n (d : Dev nD) : Buf (Elt F) (e1nLoc d) := fun x => E1 I d (4096 + (x 0).val) (x 1).val

/-- A chunk's 16-lane sum of squares: over its 32 rows in order, per row over the eight 16-column slices in order,
    `acc + v · v`, from zero. -/
def chunkSq (d : Dev nD) (r0 lane : ℕ) : F .f32 :=
  (List.range 32).foldl (fun acc i => (List.range 8).foldl
      (fun acc c => FloatOps.addf acc (FloatOps.mulf (E1 I d (r0 + i) (16 * c + lane)) (E1 I d (r0 + i) (16 * c + lane)))) acc)
    (Scalar.ofBits .f32 0x00000000#32)

/-- Worker `w`'s accumulated sum of squares over its chunks of one kind (`tgt`: the target chunks, those starting
    below row 4096; else the neighbour chunks), in the order of the chunks, `acc + chunk`, from zero. -/
def tileSq (d : Dev nD) (w : ℕ) (tgt : Bool) (lane : ℕ) : F .f32 :=
  (List.range 44).foldl (fun acc j => if decide (w * 1408 + 32 * j < 4096) = tgt then FloatOps.addf acc (chunkSq I d (w * 1408 + 32 * j) lane) else acc)
    (Scalar.ofBits .f32 0x00000000#32)

/-- The third and fourth results whole: row `w` is worker `w`'s sums. -/
def Sqt (d : Dev nD) : Buf (Elt F) (sqtLoc d) := fun x => tileSq I d (x 0).val true (x 1).val
def Sqn (d : Dev nD) : Buf (Elt F) (sqnLoc d) := fun x => tileSq I d (x 0).val false (x 1).val

end Values

/-! ## Who holds what -/

/-- Worker number of subcore `i` of core `c`. -/
def wid (c : Fin 2) (i : Fin 16) : ℕ := i.val * 2 + c.val

/-- The entries of the first result in worker `w`'s rows; -/
def tSet (w : ℕ) : Finset S4096x128.Idx := Finset.univ.filter fun x => w * 1408 ≤ (x 0).val ∧ (x 0).val < w * 1408 + 1408
/-- of the second; -/
def nSet (w : ℕ) : Finset S40960x128.Idx := Finset.univ.filter fun x => w * 1408 ≤ 4096 + (x 0).val ∧ 4096 + (x 0).val < w * 1408 + 1408
/-- row `w` of a 32 × 16 array. -/
def sqRow (w : ℕ) : Finset S32x16.Idx := Finset.univ.filter fun x => (x 0).val = w

/-- The read share worker `w` holds of each read-only operand: one of 32 tokens of the whole. -/
abbrev rsh (w : ℕ) : PosShare TreeShare := Transfers.shareTokN fullShare w

/-- The read-only operands at worker `w`'s share. -/
def readsAt (d : Dev nD) (q : PosShare TreeShare) : sProp 𝕄 :=
  iprop((spLoc d ↦{q} I.sp d) ∗ (apLoc d ↦{q} I.ap d) ∗ (nidLoc d ↦{q} I.nid d) ∗ (n1Loc d ↦{q} I.n1 d) ∗ (n2Loc d ↦{q} I.n2 d)
    ∗ (a1Loc d ↦{q} I.a1 d) ∗ (a2Loc d ↦{q} I.a2 d) ∗ (bLoc d ↦{q} I.b d))

/-- What a task is handed: its read shares, and its rows of the four results at whatever they hold. -/
def goAt (d : Dev nD) (w : ℕ) : sProp 𝕄 :=
  iprop(readsAt I d (rsh w) ∗ (∃ f, e1tLoc d ↦[tSet w]{fullShare} f) ∗ (∃ f, e1nLoc d ↦[nSet w]{fullShare} f)
    ∗ (∃ f, sqtLoc d ↦[sqRow w]{fullShare} f) ∗ (∃ f, sqnLoc d ↦[sqRow w]{fullShare} f))

/-- What it hands back: the same shares, its rows of the results at their values. -/
def tdAt [FloatOps F] (d : Dev nD) (w : ℕ) : sProp 𝕄 :=
  iprop(readsAt I d (rsh w) ∗ (e1tLoc d ↦[tSet w]{fullShare} E1t I d) ∗ (e1nLoc d ↦[nSet w]{fullShare} E1n I d)
    ∗ (sqtLoc d ↦[sqRow w]{fullShare} Sqt I d) ∗ (sqnLoc d ↦[sqRow w]{fullShare} Sqn I d))

end Cert.Kernel.Tile

end
-- ==== Proof.Twin.TilePay.lean ====
/-
  What the handshakes of the one SparseCore call carry for the graph-convolution kernel: each task its operands,
  each task's results at their values back.
-/
import proofs.«213116_g69346541961480_cont_9to1_m_612_34_alg».proof.Proof.Twin.TileDefs
import Idealize.ShloMosaic.Lib.SparseCore.Launch

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (I : Ins F) [FloatOps F]

set_option synthInstance.maxHeartbeats 400000 in
instance readsAt_storable (d : Dev nD) (q : PosShare TreeShare) : BI.Storable (upEmb : UEmb _ 𝕄) (readsAt I d q) := by
  unfold readsAt; infer_instance
set_option synthInstance.maxHeartbeats 400000 in
instance goAt_storable (d : Dev nD) (w : ℕ) : BI.Storable (upEmb : UEmb _ 𝕄) (goAt I d w) := by
  unfold goAt; infer_instance
set_option synthInstance.maxHeartbeats 400000 in
instance tdAt_storable (d : Dev nD) (w : ℕ) : BI.Storable (upEmb : UEmb _ 𝕄) (tdAt I d w) := by
  unfold tdAt; infer_instance

/-- The one call hands core `c`'s sequencer its sixteen tasks' operands, each task its own, and takes the same back at
    the values; the kernel's own semaphores need no ghost state from the launch. -/
def P : (K (F := F)).Pay (nD := nD) (Val := Elt F) (Name := ℕ) (U := UU) where
  st := fun q d c => match q with | 0 => bigSep Finset.univ fun i : Fin 16 => goAt I d (wid (Fin.cast nCore_zero c) i)
  dn := fun q d c => match q with | 0 => bigSep Finset.univ fun i : Fin 16 => tdAt I d (wid (Fin.cast nCore_zero c) i)
  go := fun q d c i => match q with | 0 => goAt I d (wid (Fin.cast nCore_zero c) (Fin.cast nSub_zero i))
  td := fun q d c i => match q with | 0 => tdAt I d (wid (Fin.cast nCore_zero c) (Fin.cast nSub_zero i))
  x := fun _ _ => iprop(emp)

instance P_storable : (P I).IsStorable where
  st q d c := match q with | 0 => (inferInstance : BI.Storable (upEmb : UEmb _ 𝕄) (bigSep Finset.univ fun i : Fin 16 => goAt I d (wid (Fin.cast nCore_zero c) i)))
  dn q d c := match q with | 0 => (inferInstance : BI.Storable (upEmb : UEmb _ 𝕄) (bigSep Finset.univ fun i : Fin 16 => tdAt I d (wid (Fin.cast nCore_zero c) i)))
  go q d c i := match q with | 0 => (inferInstance : BI.Storable (upEmb : UEmb _ 𝕄) (goAt I d (wid (Fin.cast nCore_zero c) (Fin.cast nSub_zero i))))
  td q d c i := match q with | 0 => (inferInstance : BI.Storable (upEmb : UEmb _ 𝕄) (tdAt I d (wid (Fin.cast nCore_zero c) (Fin.cast nSub_zero i))))

end Cert.Kernel.Tile

end
-- ==== Proof.Twin.MainCall.lean ====
/-
  The SparseCore call inside @main on the TensorCore. The thread holds every unscoped buffer at known contents;
  the call's twelve operands are taken out of that set — the eight it only reads (the two tables the first region
  wrote, the target indices, the flattened neighbour tables and weights, the output bias) at the contents they hold,
  the four it writes at whatever they hold —, dealt to the two SparseCores, and after the call put back: the eight as
  they were, the four at the kernel's values (the rows of level-1 embeddings, unnormalised, and the workers' sums of
  squares). Every other buffer is untouched, so the thread again holds every unscoped buffer, at the contents updated
  in those four places.
-/
import proofs.«213116_g69346541961480_cont_9to1_m_612_34_alg».proof.Proof.Twin.MainHost
import proofs.«213116_g69346541961480_cont_9to1_m_612_34_alg».proof.Proof.Twin.TilePay
import Idealize.ShloMosaic.Lib.Pipeline.Frame

noncomputable section

namespace Cert.Kernel.Main

open Cert.Kernel Cert.Kernel.Gen Cert.Kernel.Ghost
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## One buffer replaced in a valuation -/

/-- The contents `V` with buffer `b₀` at `x`. -/
def setBuf (V : Valuation τ sig (Elt F)) (b₀ : DevRef τ sig) (x : b₀.ty.Contents (Elt F)) : Valuation τ sig (Elt F) :=
  fun b => if h : b₀ = b then cast (congrArg (fun b' : DevRef τ sig => b'.ty.Contents (Elt F)) h) x else V b

theorem setBuf_self (V : Valuation τ sig (Elt F)) (b₀ : DevRef τ sig) (x : b₀.ty.Contents (Elt F)) : setBuf V b₀ x b₀ = x := by
  unfold setBuf; rw [dif_pos rfl]; rfl
theorem setBuf_of_ne (V : Valuation τ sig (Elt F)) {b₀ b : DevRef τ sig} (x : b₀.ty.Contents (Elt F)) (h : b₀ ≠ b) : setBuf V b₀ x b = V b :=
  dif_neg h

/-! ## The call's operands -/

abbrev rSp : DevRef τ sig := Proc.devRef .tc main_v4_0
abbrev rAp : DevRef τ sig := Proc.devRef .tc main_v4_1
abbrev rNid : DevRef τ sig := Proc.devRef .tc main_arg1
abbrev rN1 : DevRef τ sig := Proc.devRef .tc main_v5
abbrev rN2 : DevRef τ sig := Proc.devRef .tc main_v6
abbrev rA1 : DevRef τ sig := Proc.devRef .tc main_v7
abbrev rA2 : DevRef τ sig := Proc.devRef .tc main_v8
abbrev rB : DevRef τ sig := Proc.devRef .tc main_arg11
abbrev rE1t : DevRef τ sig := Proc.devRef .tc main_v9_0
abbrev rE1n : DevRef τ sig := Proc.devRef .tc main_v9_1
abbrev rSqt : DevRef τ sig := Proc.devRef .tc main_v9_2
abbrev rSqn : DevRef τ sig := Proc.devRef .tc main_v9_3

/-- The twelve buffers the call is handed. -/
def scRefs : Finset (DevRef τ sig) := {rSp, rAp, rNid, rN1, rN2, rA1, rA2, rB, rE1t, rE1n, rSqt, rSqn}

theorem scRefs_sub : scRefs ⊆ Pipeline.ucRefs τ sig := by decide

/-- What the eight read-only operands hold when the call is entered, read off the thread's contents. -/
def insOf (W : Dev nD → Valuation τ sig (Elt F)) : Tile.Ins F where
  sp d := W d rSp
  ap d := W d rAp
  nid d := W d rNid
  n1 d := W d rN1
  n2 d := W d rN2
  a1 d := W d rA1
  a2 d := W d rA2
  b d := W d rB

variable [FloatOps F]

/-- The contents after the call: the four results at the kernel's values, everything else as before. -/
def afterCall (W : Dev nD → Valuation τ sig (Elt F)) (d : Dev nD) : Valuation τ sig (Elt F) :=
  setBuf (setBuf (setBuf (setBuf (W d) rE1t (Tile.E1t (insOf W) d)) rE1n (Tile.E1n (insOf W) d)) rSqt (Tile.Sqt (insOf W) d)) rSqn (Tile.Sqn (insOf W) d)

/-! ## The held set at the call's operands -/

/-- The twelve operands' buffers, one by one. -/
theorem held_scRefs (d : Dev nD) (V : Valuation τ sig (Elt F)) :
    (StableHlo.held (T d) scRefs V : sProp 𝕄)
      = iprop((Tile.spLoc d ↦{fullShare} V rSp) ∗ (Tile.apLoc d ↦{fullShare} V rAp) ∗ (Tile.nidLoc d ↦{fullShare} V rNid)
          ∗ (Tile.n1Loc d ↦{fullShare} V rN1) ∗ (Tile.n2Loc d ↦{fullShare} V rN2) ∗ (Tile.a1Loc d ↦{fullShare} V rA1)
          ∗ (Tile.a2Loc d ↦{fullShare} V rA2) ∗ (Tile.bLoc d ↦{fullShare} V rB) ∗ (Tile.e1tLoc d ↦{fullShare} V rE1t)
          ∗ (Tile.e1nLoc d ↦{fullShare} V rE1n) ∗ (Tile.sqtLoc d ↦{fullShare} V rSqt) ∗ (Tile.sqnLoc d ↦{fullShare} V rSqn)) := by
  unfold StableHlo.held scRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Outside the four results the contents after the call are the contents before it. -/
theorem afterCall_of_notMem (W : Dev nD → Valuation τ sig (Elt F)) (d : Dev nD) {b : DevRef τ sig}
    (h1 : rE1t ≠ b) (h2 : rE1n ≠ b) (h3 : rSqt ≠ b) (h4 : rSqn ≠ b) : afterCall W d b = W d b := by
  unfold afterCall
  rw [setBuf_of_ne _ _ h4, setBuf_of_ne _ _ h3, setBuf_of_ne _ _ h2, setBuf_of_ne _ _ h1]

theorem afterCall_e1t (W : Dev nD → Valuation τ sig (Elt F)) (d : Dev nD) : afterCall W d rE1t = Tile.E1t (insOf W) d := by
  unfold afterCall
  rw [setBuf_of_ne _ _ (by decide), setBuf_of_ne _ _ (by decide), setBuf_of_ne _ _ (by decide), setBuf_self]
theorem afterCall_e1n (W : Dev nD → Valuation τ sig (Elt F)) (d : Dev nD) : afterCall W d rE1n = Tile.E1n (insOf W) d := by
  unfold afterCall
  rw [setBuf_of_ne _ _ (by decide), setBuf_of_ne _ _ (by decide), setBuf_self]
theorem afterCall_sqt (W : Dev nD → Valuation τ sig (Elt F)) (d : Dev nD) : afterCall W d rSqt = Tile.Sqt (insOf W) d := by
  unfold afterCall
  rw [setBuf_of_ne _ _ (by decide), setBuf_self]
theorem afterCall_sqn (W : Dev nD → Valuation τ sig (Elt F)) (d : Dev nD) : afterCall W d rSqn = Tile.Sqn (insOf W) d := by
  unfold afterCall
  rw [setBuf_self]

/-! ## The call -/

/-- The SparseCore call from the thread's held buffers: the operands dealt, the call run, the results put back.
    The dealing and the gathering of the operands among the workers enter as the two entailments `hst`, `hdn`. -/
theorem wp_call (W : Dev nD → Valuation τ sig (Elt F))
    (hst : ∀ d : Dev nD, iprop(Tile.readsAt (insOf W) d fullShare ∗ (∃ f, Tile.e1tLoc d ↦{fullShare} f) ∗ (∃ f, Tile.e1nLoc d ↦{fullShare} f)
        ∗ (∃ f, Tile.sqtLoc d ↦{fullShare} f) ∗ (∃ f, Tile.sqnLoc d ↦{fullShare} f))
      ⊢ iprop(Tile.readsAt (insOf W) d (Transfers.shareDrop fullShare 32)
          ∗ bigSep Finset.univ fun c : Fin ((K (F := F)).nCore 0) => (Tile.P (insOf W)).st 0 d c))
    (hdn : ∀ d : Dev nD, iprop(Tile.readsAt (insOf W) d (Transfers.shareDrop fullShare 32)
          ∗ bigSep Finset.univ fun c : Fin ((K (F := F)).nCore 0) => (Tile.P (insOf W)).dn 0 d c)
      ⊢ iprop(Tile.readsAt (insOf W) d fullShare ∗ (Tile.e1tLoc d ↦{fullShare} Tile.E1t (insOf W) d) ∗ (Tile.e1nLoc d ↦{fullShare} Tile.E1n (insOf W) d)
          ∗ (Tile.sqtLoc d ↦{fullShare} Tile.Sqt (insOf W) d) ∗ (Tile.sqnLoc d ↦{fullShare} Tile.Sqn (insOf W) d)))
    (κ : GSem nD τ sig → ℕ) (d : Dev nD) {Φ : PUnit → sProp 𝕄} :
    iprop((K (F := F)).ctx EH (Tile.P (insOf W)) κ ∗ (K (F := F)).tcSt EH d 0
        ∗ StableHlo.held (T d) (Pipeline.ucRefs τ sig) (W d)
        ∗ (((K (F := F)).tcSt EH d 1 ∗ StableHlo.held (T d) (Pipeline.ucRefs τ sig) (afterCall W d)) -∗ Φ ⟨⟩))
      ⊢ wp frame (wpE ((K (F := F)).defs (D (F := F))) 𝒱 (T d) none) Set.univ ((sc (F := F)).run d 0) Φ := by
  have hrest : (StableHlo.held (T d) (Pipeline.ucRefs τ sig \ scRefs) (afterCall W d) : sProp 𝕄)
      = StableHlo.held (T d) (Pipeline.ucRefs τ sig \ scRefs) (W d) :=
    StableHlo.held_congr (c := T d) fun b hb => by
      have hb' : b ∉ scRefs := (Finset.mem_sdiff.mp hb).2
      refine afterCall_of_notMem W d ?_ ?_ ?_ ?_ <;> (intro e; apply hb'; rw [← e]; decide)
  rw [StableHlo.held_sub_split (c := T d) scRefs_sub (W d), StableHlo.held_sub_split (c := T d) scRefs_sub (afterCall W d), hrest, held_scRefs, held_scRefs,
    afterCall_e1t, afterCall_e1n, afterCall_sqt, afterCall_sqn,
    afterCall_of_notMem W d (b := rSp) (by decide) (by decide) (by decide) (by decide),
    afterCall_of_notMem W d (b := rAp) (by decide) (by decide) (by decide) (by decide),
    afterCall_of_notMem W d (b := rNid) (by decide) (by decide) (by decide) (by decide),
    afterCall_of_notMem W d (b := rN1) (by decide) (by decide) (by decide) (by decide),
    afterCall_of_notMem W d (b := rN2) (by decide) (by decide) (by decide) (by decide),
    afterCall_of_notMem W d (b := rA1) (by decide) (by decide) (by decide) (by decide),
    afterCall_of_notMem W d (b := rA2) (by decide) (by decide) (by decide) (by decide),
    afterCall_of_notMem W d (b := rB) (by decide) (by decide) (by decide) (by decide)]
  iintro ⟨#Hctx, Hst, ⟨⟨Hsp, Hap, Hnid, Hn1, Hn2, Ha1, Ha2, Hb, He1t, He1n, Hsqt, Hsqn⟩, Hrest⟩, Hk⟩
  ihave Hdeal := (hst d) $$ [Hsp Hap Hnid Hn1 Hn2 Ha1 Ha2 Hb He1t He1n Hsqt Hsqn]
  · unfold Tile.readsAt
    isplitl [Hsp Hap Hnid Hn1 Hn2 Ha1 Ha2 Hb]
    · isplitl [Hsp]; · iexact Hsp
      isplitl [Hap]; · iexact Hap
      isplitl [Hnid]; · iexact Hnid
      isplitl [Hn1]; · iexact Hn1
      isplitl [Hn2]; · iexact Hn2
      isplitl [Ha1]; · iexact Ha1
      isplitl [Ha2]; · iexact Ha2
      iexact Hb
    isplitl [He1t]; · iexists _; iexact He1t
    isplitl [He1n]; · iexists _; iexact He1n
    isplitl [Hsqt]; · iexists _; iexact Hsqt
    iexists _; iexact Hsqn
  icases Hdeal with ⟨Hdrop, Hops⟩
  iapply ((K (F := F)).wp_run (D (F := F)) 𝒱 (EH := EH) (P := Tile.P (insOf W)) κ d 0) $$ [Hst Hops Hdrop Hrest Hk]
  isplitr; · iexact Hctx
  isplitl [Hst]; · iexact Hst
  isplitl [Hops]; · iexact Hops
  iintro ⟨Hst, Hdn⟩
  ihave Hback := (hdn d) $$ [Hdrop Hdn]
  · isplitl [Hdrop]; · iexact Hdrop
    iexact Hdn
  icases Hback with ⟨Hreads, He1t, He1n, Hsqt, Hsqn⟩
  unfold Tile.readsAt
  icases Hreads with ⟨Hsp, Hap, Hnid, Hn1, Hn2, Ha1, Ha2, Hb⟩
  iapply Hk
  isplitl [Hst]; · iexact Hst
  isplitr [Hrest]
  · isplitl [Hsp]; · iexact Hsp
    isplitl [Hap]; · iexact Hap
    isplitl [Hnid]; · iexact Hnid
    isplitl [Hn1]; · iexact Hn1
    isplitl [Hn2]; · iexact Hn2
    isplitl [Ha1]; · iexact Ha1
    isplitl [Ha2]; · iexact Ha2
    isplitl [Hb]; · iexact Hb
    isplitl [He1t]; · iexact He1t
    isplitl [He1n]; · iexact He1n
    isplitl [Hsqt]; · iexact Hsqt
    iexact Hsqn
  iexact Hrest

end Cert.Kernel.Main

end
-- ==== Proof.Twin.Region0.lean ====
import proofs.«213116_g69346541961480_cont_9to1_m_612_34_alg».proof.Proof.Gen.Kernel.Launch
import proofs.«213116_g69346541961480_cont_9to1_m_612_34_alg».proof.Proof.Gen.Kernel.Skeleton
import proofs.«213116_g69346541961480_cont_9to1_m_612_34_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

/-!
# The first dense stage as a pipelined region

The first TensorCore call runs over the 50 row blocks of the node table `x` (2000 rows each). At block `t` it reads
the block `x_t` and six whole parameter arrays (two hidden-layer weight matrices with their bias rows, and the two
halves of the output weight matrix) and writes two blocks,

* `Sp_t = relu(x_t · W_self + b_self) · W_out[:128]`,
* `Ap_t = relu(x_t · W_agg + b_agg) · W_out[128:]`,

each a function of `x_t` and the parameters alone: nothing is carried from block to block. This module gives the
pipeline rule its data for that call — what every window's buffer holds after the body at every block, as a closed
function of the arrays' contents `V` when the call is entered — proves the body's triple at a symbolic block, and reads
the two result arrays after the last block back, block by block.
-/

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The prefetched tables' admissible contents: no pipeline of the program has a table. -/
abbrev adm : (p : Fin 3) → (pcfgs (F := F) p).Adm := fun p => (cfgs p).toPCfg_adm

section Region
-- the TensorCore's buffer contents when the call is entered, what the core owes other threads throughout it, and the
-- bound on the pairs its waits have recorded
variable (V : (c : Dev nD) → (b : Ref sig .tc) → Buf (Elt F) ((c : Thread nD τ).loc b))
variable (O : CellTallies nD τ sig Ix) (B : Set (SemLoc sig × Ix))

/-! ## The windows' blocks -/

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in the two result windows -/

/-- The whole 2000×128 block, the whole 128×128 matrix, the whole bias row: the body's every access. -/
abbrev rX : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The self-branch block: `relu(x · W_self + b_self) · W_out[:128]`, the one store into window 7. -/
def outSp (x : Vec F S2000x128 .f32) (ws : Vec F S128x128 .f32) (bs : Vec F S1x128 .f32) (wo : Vec F S128x128 .f32) : Vec F S2000x128 .f32 :=
  View.canon [⟨rX, k0_pay1 (View.ld x rX) (View.ld ws rW) (View.ld bs rB) (View.ld wo rW)⟩]

/-- The neighbour-branch block: `relu(x · W_agg + b_agg) · W_out[128:]`, the one store into window 8. -/
def outAp (x : Vec F S2000x128 .f32) (wa : Vec F S128x128 .f32) (ba : Vec F S1x128 .f32) (wo : Vec F S128x128 .f32) : Vec F S2000x128 .f32 :=
  View.canon [⟨rX, k0_pay2 (View.ld x rX) (View.ld wa rW) (View.ld ba rB) (View.ld wo rW)⟩]

/-! ## The two result blocks in closed form

Every access of the body is through the whole-buffer rectangle at zero offsets, through which a load reads the contents
and one store leaves its payload: the result blocks are the payloads themselves, of the input blocks. -/

theorem hz2 : (![0, 0] : Fin 2 → Nat) = fun _ => 0 := funext fun a => by fin_cases a <;> rfl

theorem outSp_eq (x : Vec F S2000x128 .f32) (ws : Vec F S128x128 .f32) (bs : Vec F S1x128 .f32) (wo : Vec F S128x128 .f32) :
    outSp x ws bs wo = k0_pay1 x ws bs wo := by
  unfold outSp
  rw [View.canon_unit_zero hz2]
  simp only [View.ld_unit_zero (S := S2000x128) hz2, View.ld_unit_zero (S := S128x128) hz2, View.ld_unit_zero (S := S1x128) hz2]

theorem outAp_eq (x : Vec F S2000x128 .f32) (wa : Vec F S128x128 .f32) (ba : Vec F S1x128 .f32) (wo : Vec F S128x128 .f32) :
    outAp x wa ba wo = k0_pay2 x wa ba wo := by
  unfold outAp
  rw [View.canon_unit_zero hz2]
  simp only [View.ld_unit_zero (S := S2000x128) hz2, View.ld_unit_zero (S := S128x128) hz2, View.ld_unit_zero (S := S1x128) hz2]

/-- A single store through the whole-block rectangle covers the block. -/
theorem coverX (p : Vec F S2000x128 .f32) (y : S2000x128.Idx) :
    ∃ pc ∈ ([⟨rX, p⟩] : List (View.Piece (Elt F) S2000x128 .f32)), y ∈ pc.1.set :=
  View.cover_of_tiled [⟨rX, p⟩] S2000x128.size (by rfl) y

/-! ## The body's triple -/

set_option maxHeartbeats 1000000 in
/-- The body on whole staging memrefs — the seven inputs' at read contents, the two results' at anything — runs to the
    continuation holding the inputs' as they were and each result's at its closed form: nine loads (two of them of the
    result buffers, their values unused) and two whole-block stores. -/
theorem sound_kernel0 (𝒱₀ : Variants) (c : Dev nD) (E : Set Name) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole) (arg8 : Memref sig .tc .vmem S2000x128 .f32) (harg8 : arg8.IsWhole)
    (arg9 : Memref sig .tc .vmem S2000x128 .f32) (harg9 : arg9.IsWhole)
    (x : Vec F S2000x128 .f32) (ws : Vec F S128x128 .f32) (bs : Vec F S1x128 .f32) (wa : Vec F S128x128 .f32) (ba : Vec F S1x128 .f32)
    (wo1 : Vec F S128x128 .f32) (wo2 : Vec F S128x128 .f32) (K : PUnit → sProp 𝕄) :
    iprop(owns (c : Thread nD τ) arg1 fullShare x ∗ owns (c : Thread nD τ) arg2 fullShare ws ∗ owns (c : Thread nD τ) arg3 fullShare bs
        ∗ owns (c : Thread nD τ) arg4 fullShare wa ∗ owns (c : Thread nD τ) arg5 fullShare ba ∗ owns (c : Thread nD τ) arg6 fullShare wo1
        ∗ owns (c : Thread nD τ) arg7 fullShare wo2 ∗ (∃ d, owns (c : Thread nD τ) arg8 fullShare d) ∗ (∃ d, owns (c : Thread nD τ) arg9 fullShare d)
        ∗ (iprop(owns (c : Thread nD τ) arg1 fullShare x ∗ owns (c : Thread nD τ) arg2 fullShare ws ∗ owns (c : Thread nD τ) arg3 fullShare bs
            ∗ owns (c : Thread nD τ) arg4 fullShare wa ∗ owns (c : Thread nD τ) arg5 fullShare ba ∗ owns (c : Thread nD τ) arg6 fullShare wo1
            ∗ owns (c : Thread nD τ) arg7 fullShare wo2 ∗ owns (c : Thread nD τ) arg8 fullShare (outSp x ws bs wo1)
            ∗ owns (c : Thread nD τ) arg9 fullShare (outAp x wa ba wo2)) -∗ K ⟨⟩))
      ⊢ wp frame (wpE (defs₀ (F := F)) 𝒱₀ c none) E
          (cc0__t1_body i arg1 harg1 arg2 harg2 arg3 harg3 arg4 harg4 arg5 harg5 arg6 harg6 arg7 harg7 arg8 harg8 arg9 harg9) K := by
  simp only [cc0__t1_body_eq_skeleton]; unfold cc0__t1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  iexists _; isplitr
  swap; · iexact H9
  ipureintro
  exact View.read_writes_eq_canon _ _ _ (coverX _)

/-! ## The pipeline's proof data -/

/-- The call's proof data on core `c`: the arrays as the call finds them; after the body at point `t` each input's
    buffer at its block and each result's at its closed form of the input blocks; between points nothing but the core's
    scoped buffers no window stages, untouched; full shares; the core owing `O` throughout (the body signals nothing), its
    recorded pairs within `B` throughout (the body waits for nothing). -/
def dat (c : Dev nD) : Dat τ (Elt F) Ix Name U Lvl cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outSp (blk V c 0 t) (blk V c 1 t) (blk V c 2 t) (blk V c 5 t)
    | ⟨8, _⟩ => outAp (blk V c 0 t) (blk V c 3 t) (blk V c 4 t) (blk V c 6 t)
  Φ _ := Pipeline.scopedRest (Ix := Ix) (Name := Name) (U := U) (Lvl := Lvl) (Val := Elt F) spec0 c
  q _ := fullShare
  owed _ := O
  recorded _ := B

-- the proof data with its ghost-state parameters pinned to the section's
local notation "𝔡" => dat (Name := Name) (U := U) (Lvl := Lvl) V O B

/-- The proof data's arrays are the entry contents; its other fields are the parameters. -/
theorem A_eq (c : Dev nD) (w : Fin cfg0.W) : (𝔡 c).A w = V c (Pipeline.arrRef spec0 w) := by
  dsimp only [dat]
theorem q_eq (c : Dev nD) (w : Fin cfg0.W) : (𝔡 c).q w = fullShare := rfl
theorem owed_eq (c : Dev nD) (t : Fin (cfg0.N + 1)) : (𝔡 c).owed t = O := rfl
theorem recorded_eq (c : Dev nD) (t : Fin (cfg0.N + 1)) : (𝔡 c).recorded t = B := rfl
theorem Φ_eq (c : Dev nD) (t : Fin (cfg0.N + 1)) : (𝔡 c).Φ t
    = Pipeline.scopedRest (Ix := Ix) (Name := Name) (U := U) (Lvl := Lvl) (Val := Elt F) spec0 c := rfl

/-- What the body leaves, window by window (the proof data's `match` reduced by `dsimp`). -/
theorem after_0 (c : Dev nD) (t : Fin cfg0.N) : (𝔡 c).after 0 t = blk V c 0 t := by dsimp only [dat]
theorem after_1 (c : Dev nD) (t : Fin cfg0.N) : (𝔡 c).after 1 t = blk V c 1 t := by dsimp only [dat]
theorem after_2 (c : Dev nD) (t : Fin cfg0.N) : (𝔡 c).after 2 t = blk V c 2 t := by dsimp only [dat]
theorem after_3 (c : Dev nD) (t : Fin cfg0.N) : (𝔡 c).after 3 t = blk V c 3 t := by dsimp only [dat]
theorem after_4 (c : Dev nD) (t : Fin cfg0.N) : (𝔡 c).after 4 t = blk V c 4 t := by dsimp only [dat]
theorem after_5 (c : Dev nD) (t : Fin cfg0.N) : (𝔡 c).after 5 t = blk V c 5 t := by dsimp only [dat]
theorem after_6 (c : Dev nD) (t : Fin cfg0.N) : (𝔡 c).after 6 t = blk V c 6 t := by dsimp only [dat]
theorem after_7 (c : Dev nD) (t : Fin cfg0.N) : (𝔡 c).after 7 t
    = outSp (blk V c 0 t) (blk V c 1 t) (blk V c 2 t) (blk V c 5 t) := by dsimp only [dat]
theorem after_8 (c : Dev nD) (t : Fin cfg0.N) : (𝔡 c).after 8 t
    = outAp (blk V c 0 t) (blk V c 3 t) (blk V c 4 t) (blk V c 6 t) := by dsimp only [dat]

/-! ## What the body finds in the input windows

An input window whose body leaves its block in place holds that block at every point, fetched there or not: the row
block `x_t` is fetched at every point; a parameter array is fetched at the first point only, and its block index
never moves, so the buffer still holds the block. All seven windows are uncut, so a fetch fills the whole buffer. -/

-- the block a fetch reads is the block read off the entry contents
local macro "entry_block" : tactic => `(tactic| (unfold Dat.blockOf blk; rw [A_eq]; try rfl))
local macro "entry_fetch" : tactic => `(tactic| (unfold Dat.fetched Dat.blockOf blk; rw [A_eq]; try rfl))

theorem before_0 (c : Dev nD) (t : Fin cfg0.N) (d) : (𝔡 c).before 0 t d = blk V c 0 t :=
  ((𝔡 c).before_in_eq_fetched 0 rfl (fun _ => rfl) (fun _ _ _ => rfl) (fun t => by rw [after_0]; entry_block) t d).trans (by entry_fetch)
theorem before_1 (c : Dev nD) (t : Fin cfg0.N) (d) : (𝔡 c).before 1 t d = blk V c 1 t :=
  ((𝔡 c).before_in_eq_fetched 1 rfl (fun _ => rfl) (fun _ _ _ => rfl) (fun t => by rw [after_1]; entry_block) t d).trans (by entry_fetch)
theorem before_2 (c : Dev nD) (t : Fin cfg0.N) (d) : (𝔡 c).before 2 t d = blk V c 2 t :=
  ((𝔡 c).before_in_eq_fetched 2 rfl (fun _ => rfl) (fun _ _ _ => rfl) (fun t => by rw [after_2]; entry_block) t d).trans (by entry_fetch)
theorem before_3 (c : Dev nD) (t : Fin cfg0.N) (d) : (𝔡 c).before 3 t d = blk V c 3 t :=
  ((𝔡 c).before_in_eq_fetched 3 rfl (fun _ => rfl) (fun _ _ _ => rfl) (fun t => by rw [after_3]; entry_block) t d).trans (by entry_fetch)
theorem before_4 (c : Dev nD) (t : Fin cfg0.N) (d) : (𝔡 c).before 4 t d = blk V c 4 t :=
  ((𝔡 c).before_in_eq_fetched 4 rfl (fun _ => rfl) (fun _ _ _ => rfl) (fun t => by rw [after_4]; entry_block) t d).trans (by entry_fetch)
theorem before_5 (c : Dev nD) (t : Fin cfg0.N) (d) : (𝔡 c).before 5 t d = blk V c 5 t :=
  ((𝔡 c).before_in_eq_fetched 5 rfl (fun _ => rfl) (fun _ _ _ => rfl) (fun t => by rw [after_5]; entry_block) t d).trans (by entry_fetch)
theorem before_6 (c : Dev nD) (t : Fin cfg0.N) (d) : (𝔡 c).before 6 t d = blk V c 6 t :=
  ((𝔡 c).before_in_eq_fetched 6 rfl (fun _ => rfl) (fun _ _ _ => rfl) (fun t => by rw [after_6]; entry_block) t d).trans (by entry_fetch)

/-! ## The body obligation, at a generic point -/

variable (ι : Ix)

/-- What the body is called with at point `t`: the invariant, what the core owes, and each window's current buffer, -/
def bodyPre (c : Dev nD) (t : Fin cfg0.N) : sProp 𝕄 :=
  iprop((𝔡 c).Φ t.castSucc ∗ (𝔡 c).owesAt ι t.castSucc
    ∗ (∃ d, owns (c : Thread nD τ) (st0_0 t) fullShare ((𝔡 c).before 0 t d))
    ∗ (∃ d, owns (c : Thread nD τ) (st0_1 t) fullShare ((𝔡 c).before 1 t d))
    ∗ (∃ d, owns (c : Thread nD τ) (st0_2 t) fullShare ((𝔡 c).before 2 t d))
    ∗ (∃ d, owns (c : Thread nD τ) (st0_3 t) fullShare ((𝔡 c).before 3 t d))
    ∗ (∃ d, owns (c : Thread nD τ) (st0_4 t) fullShare ((𝔡 c).before 4 t d))
    ∗ (∃ d, owns (c : Thread nD τ) (st0_5 t) fullShare ((𝔡 c).before 5 t d))
    ∗ (∃ d, owns (c : Thread nD τ) (st0_6 t) fullShare ((𝔡 c).before 6 t d))
    ∗ (∃ d, owns (c : Thread nD τ) (st0_7 t) fullShare ((𝔡 c).before 7 t d))
    ∗ (∃ d, owns (c : Thread nD τ) (st0_8 t) fullShare ((𝔡 c).before 8 t d)))

/-- and what it returns. -/
def bodyPost (c : Dev nD) (t : Fin cfg0.N) : sProp 𝕄 :=
  iprop((𝔡 c).Φ t.succ ∗ (𝔡 c).owesAt ι t.succ
    ∗ owns (c : Thread nD τ) (st0_0 t) fullShare ((𝔡 c).after 0 t)
    ∗ owns (c : Thread nD τ) (st0_1 t) fullShare ((𝔡 c).after 1 t)
    ∗ owns (c : Thread nD τ) (st0_2 t) fullShare ((𝔡 c).after 2 t)
    ∗ owns (c : Thread nD τ) (st0_3 t) fullShare ((𝔡 c).after 3 t)
    ∗ owns (c : Thread nD τ) (st0_4 t) fullShare ((𝔡 c).after 4 t)
    ∗ owns (c : Thread nD τ) (st0_5 t) fullShare ((𝔡 c).after 5 t)
    ∗ owns (c : Thread nD τ) (st0_6 t) fullShare ((𝔡 c).after 6 t)
    ∗ owns (c : Thread nD τ) (st0_7 t) fullShare ((𝔡 c).after 7 t)
    ∗ owns (c : Thread nD τ) (st0_8 t) fullShare ((𝔡 c).after 8 t))

/-- The body at any point: the inputs' buffers hold their blocks, so the body's triple applies; the invariant and what
    the core owes pass through unread. -/
theorem sound_body (𝒱₀ : Variants) (c : Dev nD) (t : Fin cfg0.N) :
    bodyPre (Name := Name) (U := U) (Lvl := Lvl) V O B ι c t
      ⊢ wp frame (wpE (defs₀ (F := F)) 𝒱₀ c none) (Set.univ : Set Name) (bodyAt0 t)
          (fun _ => bodyPost (Name := Name) (U := U) (Lvl := Lvl) V O B ι c t) := by
  unfold bodyPre bodyPost bodyAt0
  simp only [before_0, before_1, before_2, before_3, before_4, before_5, before_6]
  rewrite [show (𝔡 c).Φ t.succ = (𝔡 c).Φ t.castSucc from rfl,
    show (𝔡 c).owesAt ι t.succ = (𝔡 c).owesAt ι t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 𝒱₀ c Set.univ _ _ _ _ _ _ _ _ _ _ _ _ _ _ _ _ _ _ _ (blk V c 0 t) (blk V c 1 t) (blk V c 2 t) (blk V c 3 t)
    (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation, at every point, for whatever the core owes. -/
theorem body_obligation (𝒱₀ : Variants) (c : Dev nD) :
    BodyObligationLoose (𝔡 c) (defs₀ (F := F)) 𝒱₀ ι Set.univ :=
  (show BodyObligation (𝔡 c) (defs₀ (F := F)) 𝒱₀ ι Set.univ from fun t => by
    rw [bigSep_W0, bigSep_W0]
    exact sound_body (Name := Name) (U := U) (Lvl := Lvl) V O B ι 𝒱₀ c t).loose

/-! ## The invariant at the region's two ends

Between points the body keeps nothing of its own, so the invariant is the core's scoped buffers no window stages, which
the region rule hands over before the first point and takes back after the last; nothing else enters or leaves (the
call has no prefetched table and no semaphore of its own). -/

theorem hin (c : Dev nD) :
    iprop((emp : sProp 𝕄) ∗ Pipeline.prefHeld (pcfgs (F := F) 0).pre c (fun _ => fullShare) (adm (F := F) 0).1
        ∗ Pipeline.scopedRest spec0 c) ⊢ (𝔡 c).Φ 0 := by
  rw [Φ_eq]
  iintro ⟨-, -, H⟩
  iexact H

theorem hout (c : Dev nD) :
    (𝔡 c).Φ (Fin.last cfg0.N)
      ⊢ iprop((emp : sProp 𝕄) ∗ Pipeline.ownSems0 (fun k : PEmpty => k.elim) c ∗ Pipeline.scopedRest spec0 c) := by
  rw [Φ_eq, Pipeline.ownSems0_none]
  iintro H
  isplitr; · iempintro
  isplitr; · iempintro
  iexact H

/-- The wait evidence for the pipeline's staging cells: the core owes the same `O` before every point, so evidence
    that it may wait on any of its semaphores at index `ι` while owing `O` serves every cell and point. Stated for any
    family of proof data whose member at this call owes `O` throughout. -/
theorem hwaits (pdats : (p : Fin 3) → (c : Dev nD) → Dat τ (Elt F) Ix Name U Lvl (Pipeline.pin (pcfgs (F := F)) adm p) c)
    (h0 : ∀ c t, (pdats 0 c).owed t = O) (L : GSem nD τ sig → Finset Ix) (lv : GSem nD τ sig → Ix → Lvl) (c : Dev nD)
    (hmw : ∀ sm : SemLoc sig, (levAts L lv : sProp 𝕄) ⊢ MayWait (c : Thread nD τ) sm ι O) :
    (levAts L lv : sProp 𝕄) ⊢ Pipeline.cellsWaits (Pipeline.pin (pcfgs (F := F)) adm) pdats ι 0 c :=
  Pipeline.cellsWaits_intro _ _ ι 0 c fun w s t => by rw [h0]; exact hmw _

/-! ## The arrays after the last point

An input array is never written: it ends as it was entered. The two result arrays are written block by block, point
`t` writing rows `[2000 t, 2000 t + 2000)`; no two points write the same rows, so block `t` of the final array is what
point `t` left in the staging buffer. -/

theorem arrAt_0 (c : Dev nD) (n : Nat) : (𝔡 c).arrAt 0 n = V c (Pipeline.arrRef spec0 0) := ((𝔡 c).arrAt_in 0 rfl n).trans (A_eq V O B c 0)
theorem arrAt_1 (c : Dev nD) (n : Nat) : (𝔡 c).arrAt 1 n = V c (Pipeline.arrRef spec0 1) := ((𝔡 c).arrAt_in 1 rfl n).trans (A_eq V O B c 1)
theorem arrAt_2 (c : Dev nD) (n : Nat) : (𝔡 c).arrAt 2 n = V c (Pipeline.arrRef spec0 2) := ((𝔡 c).arrAt_in 2 rfl n).trans (A_eq V O B c 2)
theorem arrAt_3 (c : Dev nD) (n : Nat) : (𝔡 c).arrAt 3 n = V c (Pipeline.arrRef spec0 3) := ((𝔡 c).arrAt_in 3 rfl n).trans (A_eq V O B c 3)
theorem arrAt_4 (c : Dev nD) (n : Nat) : (𝔡 c).arrAt 4 n = V c (Pipeline.arrRef spec0 4) := ((𝔡 c).arrAt_in 4 rfl n).trans (A_eq V O B c 4)
theorem arrAt_5 (c : Dev nD) (n : Nat) : (𝔡 c).arrAt 5 n = V c (Pipeline.arrRef spec0 5) := ((𝔡 c).arrAt_in 5 rfl n).trans (A_eq V O B c 5)
theorem arrAt_6 (c : Dev nD) (n : Nat) : (𝔡 c).arrAt 6 n = V c (Pipeline.arrRef spec0 6) := ((𝔡 c).arrAt_in 6 rfl n).trans (A_eq V O B c 6)

/-- Distinct points write distinct row blocks of a result array. -/
theorem index_inj_7 : ∀ t t' : Fin cfg0.N, (cfg0.win 7).index t = (cfg0.win 7).index t' → t = t' :=
  (by decide +kernel : ∀ t t' : Fin grid0.N, win0_7.index t = win0_7.index t' → t = t')
theorem index_inj_8 : ∀ t t' : Fin cfg0.N, (cfg0.win 8).index t = (cfg0.win 8).index t' → t = t' :=
  (by decide +kernel : ∀ t t' : Fin grid0.N, win0_8.index t = win0_8.index t' → t = t')

theorem disj_7 (t t' : Fin cfg0.N) (_ : (cfg0.win 7).flush t = true) (_ : (cfg0.win 7).flush t' = true) (h : t ≠ t') :
    Disjoint ((cfg0.win 7).blk t).view.set ((cfg0.win 7).blk t').view.set :=
  (cfg0.win 7).disjoint_blk fun e => h (index_inj_7 t t' e)
theorem disj_8 (t t' : Fin cfg0.N) (_ : (cfg0.win 8).flush t = true) (_ : (cfg0.win 8).flush t' = true) (h : t ≠ t') :
    Disjoint ((cfg0.win 8).blk t).view.set ((cfg0.win 8).blk t').view.set :=
  (cfg0.win 8).disjoint_blk fun e => h (index_inj_8 t t' e)

/-- Block `t` of the first result array after the last point, element by element: the self-branch block of `x_t`. -/
theorem arrAt_7 (c : Dev nD) (t : Fin cfg0.N) (y : ((cfg0.win 7).xblock (cfg0.grid.coords t)).Idx) :
    (𝔡 c).arrAt 7 cfg0.N (((cfg0.win 7).blk t).view.emb y)
      = outSp (blk V c 0 t) (blk V c 1 t) (blk V c 2 t) (blk V c 5 t) y := by
  rw [(𝔡 c).arrAt_emb_eq_flushed 7 disj_7 t (flush0_7 t) y]
  unfold Dat.flushed
  rw [after_7]
  generalize outSp (blk V c 0 t) (blk V c 1 t) (blk V c 2 t) (blk V c 5 t) = X
  rfl

/-- Block `t` of the second result array after the last point: the neighbour-branch block of `x_t`. -/
theorem arrAt_8 (c : Dev nD) (t : Fin cfg0.N) (y : ((cfg0.win 8).xblock (cfg0.grid.coords t)).Idx) :
    (𝔡 c).arrAt 8 cfg0.N (((cfg0.win 8).blk t).view.emb y)
      = outAp (blk V c 0 t) (blk V c 3 t) (blk V c 4 t) (blk V c 6 t) y := by
  rw [(𝔡 c).arrAt_emb_eq_flushed 8 disj_8 t (flush0_8 t) y]
  unfold Dat.flushed
  rw [after_8]
  generalize outAp (blk V c 0 t) (blk V c 3 t) (blk V c 4 t) (blk V c 6 t) = X
  rfl

end Region

end Cert.Kernel.Region0

end
-- ==== Proof.Twin.Region1Body.lean ====
import proofs.«213116_g69346541961480_cont_9to1_m_612_34_alg».proof.Proof.Gen.Kernel.Skeleton
import Idealize.ShloMosaic.Lib.Pipeline.FrameBody
import Idealize.ShloMosaic.Lib.Pipeline.Value
import Idealize.ShloMosaic.Lib.Tactic
import Mathlib.Tactic.FinCases

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body loads and stores through -/

/-- The whole 512×128 block (the targets' level-1 embeddings; the output block). -/
abbrev rA : Rect S512x128 := Rect.unit (s := S512x128) ![0, 0] S512x128.size inb_S512x128_S512x128_0_0
/-- Neighbour slot `k` of the 512×10×128 block: rows `[·, k, ·]`. -/
abbrev rN0 : Rect S512x10x128 := Rect.unit (s := S512x10x128) ![0, 0, 0] S512x1x128.size inb_S512x10x128_S512x1x128_0_0_0
abbrev rN1 : Rect S512x10x128 := Rect.unit (s := S512x10x128) ![0, 1, 0] S512x1x128.size inb_S512x10x128_S512x1x128_0_1_0
abbrev rN2 : Rect S512x10x128 := Rect.unit (s := S512x10x128) ![0, 2, 0] S512x1x128.size inb_S512x10x128_S512x1x128_0_2_0
abbrev rN3 : Rect S512x10x128 := Rect.unit (s := S512x10x128) ![0, 3, 0] S512x1x128.size inb_S512x10x128_S512x1x128_0_3_0
abbrev rN4 : Rect S512x10x128 := Rect.unit (s := S512x10x128) ![0, 4, 0] S512x1x128.size inb_S512x10x128_S512x1x128_0_4_0
abbrev rN5 : Rect S512x10x128 := Rect.unit (s := S512x10x128) ![0, 5, 0] S512x1x128.size inb_S512x10x128_S512x1x128_0_5_0
abbrev rN6 : Rect S512x10x128 := Rect.unit (s := S512x10x128) ![0, 6, 0] S512x1x128.size inb_S512x10x128_S512x1x128_0_6_0
abbrev rN7 : Rect S512x10x128 := Rect.unit (s := S512x10x128) ![0, 7, 0] S512x1x128.size inb_S512x10x128_S512x1x128_0_7_0
abbrev rN8 : Rect S512x10x128 := Rect.unit (s := S512x10x128) ![0, 8, 0] S512x1x128.size inb_S512x10x128_S512x1x128_0_8_0
abbrev rN9 : Rect S512x10x128 := Rect.unit (s := S512x10x128) ![0, 9, 0] S512x1x128.size inb_S512x10x128_S512x1x128_0_9_0
/-- The whole 512×10 block of neighbour weights. -/
abbrev rAl : Rect S512x10 := Rect.unit (s := S512x10) ![0, 0] S512x10.size inb_S512x10_S512x10_0_0
/-- A whole 128×128 weight matrix. -/
abbrev rW : Rect S128x128 := Rect.unit (s := S128x128) ![0, 0] S128x128.size inb_S128x128_S128x128_0_0
/-- A whole 1×128 row (a bias; the carried column sums). -/
abbrev rB : Rect S1x128 := Rect.unit (s := S1x128) ![0, 0] S1x128.size inb_S1x128_S1x128_0_0
/-- The whole 32×16 table of per-tile partial sums of squares. -/
abbrev rS : Rect S32x16 := Rect.unit (s := S32x16) ![0, 0] S32x16.size inb_S32x16_S32x16_0_0

/-! ## What the body computes, as pure functions of its input blocks

Names: `x0` the targets' level-1 embeddings (512×128), `x1` their neighbours' (512×10×128), `x2` the neighbour
weights (512×10), `x3, x4` the self weights and bias, `x5, x6` the neighbour weights and bias, `x7, x8` the two halves
of the output weights, `x9` the output bias, `x10, x11` the per-tile partial sums of squares of the two level-1
embedding arrays. -/

/-- The norm of the targets' level-1 embeddings: the square root of the total of the partial sums. -/
def nu1Of (x10 : Vec F S32x16 .f32) : F .f32 := k2_pay4 (View.ld x10 rS)
/-- The norm of the neighbours' level-1 embeddings. -/
def nu2Of (x11 : Vec F S32x16 .f32) : F .f32 := k2_pay5 (View.ld x11 rS)
/-- The self branch: `relu(x0 · W_self + ν₁ · b_self)`. -/
def selfOf (x0 : Vec F S512x128 .f32) (x3 : Vec F S128x128 .f32) (x4 : Vec F S1x128 .f32) (x10 : Vec F S32x16 .f32) : FVec F S512x128 .f32 :=
  k2_pay6 (View.ld x10 rS) (View.ld x0 rA) (View.ld x3 rW) (View.ld x4 rB)
/-- The neighbour branch: the weighted sum over the ten neighbour slots of `relu(x1[·, k, ·] · W_agg + ν₂ · b_agg)`,
    accumulated slot by slot as the body unrolls it. -/
def aggOf (x1 : Vec F S512x10x128 .f32) (x2 : Vec F S512x10 .f32) (x5 : Vec F S128x128 .f32) (x6 : Vec F S1x128 .f32)
    (x11 : Vec F S32x16 .f32) : FVec F S512x128 .f32 :=
  have v13 : F .f32 := nu2Of x11
  have v26 : Vec F S512x10 .f32 := View.ld x2 rAl
  have v59 : FVec F S512x128 .f32 :=
    k2_pay10 v13 v26 (k2_pay7 (F := F)) (k2_pay8 (View.ld x1 rN0) (View.ld x5 rW)) (k2_pay9 (View.ld x6 rB)) (View.ld x1 rN1) (View.ld x5 rW) (View.ld x6 rB)
  have v74 : FVec F S512x128 .f32 := k2_pay11 v13 v26 (View.ld x1 rN2) (View.ld x5 rW) (View.ld x6 rB)
  have v107 : FVec F S512x128 .f32 :=
    k2_pay12 v13 v26 v59 v74 (View.ld x1 rN3) (View.ld x5 rW) (View.ld x6 rB) (View.ld x1 rN4) (View.ld x5 rW) (View.ld x6 rB)
  have v139 : FVec F S512x128 .f32 :=
    k2_pay14 v13 v26 v107 (k2_pay13 (View.ld x1 rN5)) (View.ld x5 rW) (constant S512x128 .f32 0x00000000#32) (View.ld x6 rB)
      (View.ld x1 rN6) (View.ld x5 rW) (View.ld x6 rB)
  have v149 : FVec F S512x128 .f32 := k2_pay15 v13 (View.ld x1 rN7) (View.ld x5 rW) (View.ld x6 rB)
  k2_pay16 v13 v26 v139 v149 (Scalar.ofBits .f32 0x00000000#32) (View.ld x1 rN8) (View.ld x5 rW) (View.ld x6 rB)
    (View.ld x1 rN9) (View.ld x5 rW) (View.ld x6 rB)

/-- THE OUTPUT BLOCK: the unnormalised level-0 embeddings of the block's 512 rows,
    `relu((self/ν₁) · W_out[:128] + (agg/ν₂) · W_out[128:] + b_out)`. -/
def e0Of (x0 : Vec F S512x128 .f32) (x1 : Vec F S512x10x128 .f32) (x2 : Vec F S512x10 .f32) (x3 : Vec F S128x128 .f32)
    (x4 : Vec F S1x128 .f32) (x5 : Vec F S128x128 .f32) (x6 : Vec F S1x128 .f32) (x7 : Vec F S128x128 .f32)
    (x8 : Vec F S128x128 .f32) (x9 : Vec F S1x128 .f32) (x10 : Vec F S32x16 .f32) (x11 : Vec F S32x16 .f32) : FVec F S512x128 .f32 :=
  k2_pay1 (nu1Of x10) (nu2Of x11) (selfOf x0 x3 x4 x10) (aggOf x1 x2 x5 x6 x11) (k2_pay17 (View.ld x7 rW)) (View.ld x8 rW) (View.ld x9 rB)

/-- THE CARRIED ROW after a point: what it held (`acc`) plus the column sums of the squares of the point's output block. -/
def sqOf (x0 : Vec F S512x128 .f32) (x1 : Vec F S512x10x128 .f32) (x2 : Vec F S512x10 .f32) (x3 : Vec F S128x128 .f32)
    (x4 : Vec F S1x128 .f32) (x5 : Vec F S128x128 .f32) (x6 : Vec F S1x128 .f32) (x7 : Vec F S128x128 .f32)
    (x8 : Vec F S128x128 .f32) (x9 : Vec F S1x128 .f32) (x10 : Vec F S32x16 .f32) (x11 : Vec F S32x16 .f32)
    (acc : Vec F S1x128 .f32) : FVec F S1x128 .f32 :=
  k2_pay3 (nu1Of x10) (nu2Of x11) (selfOf x0 x3 x4 x10) (aggOf x1 x2 x5 x6 x11) (k2_pay17 (View.ld x7 rW)) (View.ld x8 rW) (View.ld x9 rB) acc

/-- The row the first point starts from: zeros. -/
abbrev sqZero : FVec F S1x128 .f32 := k2_pay2 (F := F)

/-! ## The body's branch condition -/

/-- The condition of the body's one conditional (`program_id == 0`), from the grid coordinates. -/
abbrev cond (i : grid2.Coords) : Prop :=
  (Scalar.cmpi .ne (Scalar.extui (Scalar.cmpi .eq (BitVec.ofNat 32 (i 0).val) 0#32)) 0#32) = 1#1
/-- It holds at the first point only: decided over the grid's eight points. -/
theorem hcond : ∀ t : Fin cfg2.N, cond (grid2.coords t) ↔ t.val = 0 :=
  (by decide +kernel : ∀ t : Fin grid2.N, cond (grid2.coords t) ↔ t.val = 0)

/-- The zero offsets of a rank-2 rectangle, as the literal the body spells. -/
theorem off2_zero : (![0, 0] : Fin 2 → Nat) = fun _ => 0 := funext fun a => by fin_cases a <;> rfl

/-! ## The body's triple, on any whole staging memrefs -/

set_option maxHeartbeats 4000000 in
/-- AT THE FIRST POINT (`cond i`): the inputs' memrefs at read contents `xW`, the outputs' at anything; the body runs to
    the inputs' as they were, the output block at `e0Of` of the inputs and the carried row at `sqOf` of them over zeros. -/
theorem sound_kernel_first (𝒱₀ : Variants) (c : Dev nD) (E : Set Name) (i : grid2.Coords) (hc : cond i) (arg1 : Memref sig .tc .vmem S512x128 .f32) (harg1 : arg1.IsWhole) (arg2 : Memref sig .tc .vmem S512x10x128 .f32) (harg2 : arg2.IsWhole) (arg3 : Memref sig .tc .vmem S512x10 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x16 .f32) (harg11 : arg11.IsWhole) (arg12 : Memref sig .tc .vmem S32x16 .f32) (harg12 : arg12.IsWhole) (arg13 : Memref sig .tc .vmem S512x128 .f32) (harg13 : arg13.IsWhole) (arg14 : Memref sig .tc .vmem S1x128 .f32) (harg14 : arg14.IsWhole)
    (x0 : Vec F S512x128 .f32) (x1 : Vec F S512x10x128 .f32) (x2 : Vec F S512x10 .f32) (x3 : Vec F S128x128 .f32) (x4 : Vec F S1x128 .f32) (x5 : Vec F S128x128 .f32) (x6 : Vec F S1x128 .f32) (x7 : Vec F S128x128 .f32) (x8 : Vec F S128x128 .f32) (x9 : Vec F S1x128 .f32) (x10 : Vec F S32x16 .f32) (x11 : Vec F S32x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (e0Of x0 x1 x2 x3 x4 x5 x6 x7 x8 x9 x10 x11)
            ∗ owns (c : Thread nD τ) arg14 fullShare (sqOf x0 x1 x2 x3 x4 x5 x6 x7 x8 x9 x10 x11 (sqZero (F := F)))) -∗ K ⟨⟩))
      ⊢ wp frame (wpE (defs₀ (F := F)) 𝒱₀ c none) E (cc2__t3b_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__t3b_body_eq_skeleton]; unfold cc2__t3b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    rw [View.read_writes_eq_canon _ _ _ (fun y => ⟨_, List.mem_singleton_self _, View.mem_set_unit_zero off2_zero inb_S512x128_S512x128_0_0 y⟩),
      View.canon_unit_zero off2_zero]
    rfl
  · iexists _; isplitr
    swap; · iexact H13
    ipureintro
    rw [View.read_writes_eq_canon _ _ _ (fun y => ⟨_, List.mem_cons_self, View.mem_set_unit_zero off2_zero inb_S1x128_S1x128_0_0 y⟩),
      View.canon_cons_unit_zero off2_zero]
    first
      | (rw [View.readCov_unit_zero _ off2_zero]; rfl)
      | (sl_unfold_run_names; rw [View.readCov_unit_zero _ off2_zero]; rfl)
      | rfl

set_option maxHeartbeats 4000000 in
/-- AT A LATER POINT (`¬ cond i`): the same, the carried row found at `acc` and left at `sqOf` of the inputs over it. -/
theorem sound_kernel_later (𝒱₀ : Variants) (c : Dev nD) (E : Set Name) (i : grid2.Coords) (hc : ¬ cond i) (arg1 : Memref sig .tc .vmem S512x128 .f32) (harg1 : arg1.IsWhole) (arg2 : Memref sig .tc .vmem S512x10x128 .f32) (harg2 : arg2.IsWhole) (arg3 : Memref sig .tc .vmem S512x10 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x16 .f32) (harg11 : arg11.IsWhole) (arg12 : Memref sig .tc .vmem S32x16 .f32) (harg12 : arg12.IsWhole) (arg13 : Memref sig .tc .vmem S512x128 .f32) (harg13 : arg13.IsWhole) (arg14 : Memref sig .tc .vmem S1x128 .f32) (harg14 : arg14.IsWhole)
    (x0 : Vec F S512x128 .f32) (x1 : Vec F S512x10x128 .f32) (x2 : Vec F S512x10 .f32) (x3 : Vec F S128x128 .f32) (x4 : Vec F S1x128 .f32) (x5 : Vec F S128x128 .f32) (x6 : Vec F S1x128 .f32) (x7 : Vec F S128x128 .f32) (x8 : Vec F S128x128 .f32) (x9 : Vec F S1x128 .f32) (x10 : Vec F S32x16 .f32) (x11 : Vec F S32x16 .f32) (acc : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ owns (c : Thread nD τ) arg14 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (e0Of x0 x1 x2 x3 x4 x5 x6 x7 x8 x9 x10 x11)
            ∗ owns (c : Thread nD τ) arg14 fullShare (sqOf x0 x1 x2 x3 x4 x5 x6 x7 x8 x9 x10 x11 (View.ld acc rB))) -∗ K ⟨⟩))
      ⊢ wp frame (wpE (defs₀ (F := F)) 𝒱₀ c none) E (cc2__t3b_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__t3b_body_eq_skeleton]; unfold cc2__t3b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
  subst hf0 hf1 hf2 hf3 hf4 hf5 hf6 hf7 hf8 hf9 hf10 hf11 hf13
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    rw [View.read_writes_eq_canon _ _ _ (fun y => ⟨_, List.mem_singleton_self _, View.mem_set_unit_zero off2_zero inb_S512x128_S512x128_0_0 y⟩),
      View.canon_unit_zero off2_zero]
    rfl
  · iexists _; isplitr
    swap; · iexact H13
    ipureintro
    rw [View.read_writes_eq_canon _ _ _ (fun y => ⟨_, List.mem_singleton_self _, View.mem_set_unit_zero off2_zero inb_S1x128_S1x128_0_0 y⟩),
      View.canon_unit_zero off2_zero]
    rfl

end Cert.Kernel.Region1

end
-- ==== Proof.Twin.Region1.lean ====
import proofs.«213116_g69346541961480_cont_9to1_m_612_34_alg».proof.Proof.Twin.Region1Body
import proofs.«213116_g69346541961480_cont_9to1_m_612_34_alg».proof.Proof.Gen.Kernel.Launch
import proofs.«213116_g69346541961480_cont_9to1_m_612_34_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The region's proof data, at the entry contents `V` -/

section Data

variable (V : (c : Dev nD) → (b : Ref sig .tc) → Buf (Elt F) ((c : Thread nD τ).loc b))

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of point `t`: `e0Of` of the point's input blocks. -/
def e0At (c : Dev nD) (t : Fin cfg2.N) : Vec F S512x128 .f32 :=
  e0Of (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)

/-- One point's step of the carried row: `sqOf` of the point's input blocks over what the row held. -/
def sqStep (c : Dev nD) (t : Fin cfg2.N) (acc : Vec F S1x128 .f32) : Vec F S1x128 .f32 :=
  sqOf (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) acc

/-- THE CARRIED ROW after point `n`: the fold of `sqStep` over the points `0 … n`, from zeros. -/
def sqAt (c : Dev nD) : (n : ℕ) → n < cfg2.N → Vec F S1x128 .f32
  | 0, h => sqStep V c ⟨0, h⟩ (sqZero (F := F))
  | n + 1, h => sqStep V c ⟨n + 1, h⟩ (View.ld (sqAt c n (Nat.lt_of_succ_lt h)) rB)

theorem sqAt_zero (c : Dev nD) (h : 0 < cfg2.N) : sqAt V c 0 h = sqStep V c ⟨0, h⟩ (sqZero (F := F)) := rfl
theorem sqAt_succ (c : Dev nD) (n : ℕ) (h : n + 1 < cfg2.N) :
    sqAt V c (n + 1) h = sqStep V c ⟨n + 1, h⟩ (sqAt V c n (Nat.lt_of_succ_lt h)) := by
  show sqStep V c ⟨n + 1, h⟩ (View.ld (sqAt V c n (Nat.lt_of_succ_lt h)) rB) = _
  rw [View.ld_unit_zero off2_zero]

/-- The region's invariant on core `c`: the core's scoped buffers that are no staging buffer of this call, at some
    contents each, and its generator register at some state. The body touches neither. -/
def Φ1 (c : Dev nD) : sProp 𝕄 :=
  iprop(Pipeline.scopedRest (Ix := Ix) (Name := Name) (U := U) (Lvl := Lvl) (Val := Elt F) spec2 c ∗ ∃ r, prngReg c r)

/-- The proof data of the region on core `c`: the arrays as the region finds them (`V`); after the body at point `t`
    each input's buffer at its block, the output block's at `e0At`, the carried row's at `sqAt`; the invariant `Φ1`;
    the core owes the constant `O` throughout and its recorded pairs stay within `B`; full shares. -/
def dat (O : CellTallies nD τ sig Ix) (B : Set (SemLoc sig × Ix)) (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => e0At V c t
    | ⟨13, _⟩ => sqAt V c t.val t.isLt
  Φ _ := Φ1 c
  q _ := fullShare
  owed _ := O
  recorded _ := B

variable (O : CellTallies nD τ sig Ix) (B : Set (SemLoc sig × Ix))

local notation "𝔡" => dat (Name := Name) (U := U) (Lvl := Lvl) V O B

theorem A_eq (c : Dev nD) (w : Fin cfg2.W) : (𝔡 c).A w = V c (Pipeline.arrRef spec2 w) := by dsimp only [dat]
theorem q_eq (c : Dev nD) (w : Fin cfg2.W) : (𝔡 c).q w = fullShare := rfl
theorem share_eq (c : Dev nD) (w : Fin cfg2.W) : (𝔡 c).share w = fullShare := (𝔡 c).share_full (fun _ => rfl) w
theorem owed_eq (c : Dev nD) (t : Fin (cfg2.N + 1)) : (𝔡 c).owed t = O := rfl
theorem recorded_eq (c : Dev nD) (t : Fin (cfg2.N + 1)) : (𝔡 c).recorded t = B := rfl
theorem Φ_eq (c : Dev nD) (t : Fin (cfg2.N + 1)) : (𝔡 c).Φ t = Φ1 c := rfl

theorem after_0 (c : Dev nD) (t : Fin cfg2.N) : (𝔡 c).after 0 t = iblk V c 0 t := by dsimp only [dat]
theorem after_1 (c : Dev nD) (t : Fin cfg2.N) : (𝔡 c).after 1 t = iblk V c 1 t := by dsimp only [dat]
theorem after_2 (c : Dev nD) (t : Fin cfg2.N) : (𝔡 c).after 2 t = iblk V c 2 t := by dsimp only [dat]
theorem after_3 (c : Dev nD) (t : Fin cfg2.N) : (𝔡 c).after 3 t = iblk V c 3 t := by dsimp only [dat]
theorem after_4 (c : Dev nD) (t : Fin cfg2.N) : (𝔡 c).after 4 t = iblk V c 4 t := by dsimp only [dat]
theorem after_5 (c : Dev nD) (t : Fin cfg2.N) : (𝔡 c).after 5 t = iblk V c 5 t := by dsimp only [dat]
theorem after_6 (c : Dev nD) (t : Fin cfg2.N) : (𝔡 c).after 6 t = iblk V c 6 t := by dsimp only [dat]
theorem after_7 (c : Dev nD) (t : Fin cfg2.N) : (𝔡 c).after 7 t = iblk V c 7 t := by dsimp only [dat]
theorem after_8 (c : Dev nD) (t : Fin cfg2.N) : (𝔡 c).after 8 t = iblk V c 8 t := by dsimp only [dat]
theorem after_9 (c : Dev nD) (t : Fin cfg2.N) : (𝔡 c).after 9 t = iblk V c 9 t := by dsimp only [dat]
theorem after_10 (c : Dev nD) (t : Fin cfg2.N) : (𝔡 c).after 10 t = iblk V c 10 t := by dsimp only [dat]
theorem after_11 (c : Dev nD) (t : Fin cfg2.N) : (𝔡 c).after 11 t = iblk V c 11 t := by dsimp only [dat]
theorem after_12 (c : Dev nD) (t : Fin cfg2.N) : (𝔡 c).after 12 t = e0At V c t := by dsimp only [dat]
theorem after_13 (c : Dev nD) (t : Fin cfg2.N) : (𝔡 c).after 13 t = sqAt V c t.val t.isLt := by dsimp only [dat]

/-! ## The invariant at the region's ends -/

/-- ENTRY: the generator register and the scoped buffers no window stages make the invariant at the first point
    (whatever else is held beside them is dropped). -/
theorem hin (c : Dev nD) (R : sProp 𝕄) :
    iprop((∃ r, prngReg c r) ∗ R ∗ Pipeline.scopedRest (Ix := Ix) (Name := Name) (U := U) (Lvl := Lvl) (Val := Elt F) spec2 c)
      ⊢ (𝔡 c).Φ 0 := by
  rw [Φ_eq]; unfold Φ1
  iintro ⟨Hp, -, Hr⟩
  isplitl [Hr]; · iexact Hr
  iexact Hp

/-- EXIT: the invariant at the last point gives them back; the body has no semaphore of its own. -/
theorem hout (c : Dev nD) :
    (𝔡 c).Φ (Fin.last cfg2.N)
      ⊢ iprop((∃ r, prngReg c r) ∗ Pipeline.ownSems0 (fun k : PEmpty => k.elim) c
          ∗ Pipeline.scopedRest (Ix := Ix) (Name := Name) (U := U) (Lvl := Lvl) (Val := Elt F) spec2 c) := by
  rw [Pipeline.ownSems0_none, Φ_eq]; unfold Φ1
  iintro ⟨Hr, Hp⟩
  isplitl [Hp]; · iexact Hp
  isplitr; · iempintro
  iexact Hr

/-- THE WAIT EVIDENCE, pointwise: the core owes `O` at every point, so evidence that it may wait on any of its
    semaphores at index `ι` under `O` is evidence for every staging cell at every point
    (what `Pipeline.cellsWaits_intro` asks). -/
theorem hwaits (ι : Ix) (c : Dev nD) {R : sProp 𝕄} (h : ∀ sm : SemLoc sig, R ⊢ MayWait (c : Thread nD τ) sm ι O)
    (w : Fin cfg2.W) (s : Fin (cfg2.win w).nbuf) (t : Fin (cfg2.N + 1)) :
    R ⊢ MayWait (c : Thread nD τ) (.dma ((cfg2.win w).sem s)) ι ((𝔡 c).owed t) :=
  h _

/-! ## What the body finds in each staging buffer -/

/-- Each input's current staging buffer holds its block at every point, fetched there or not: the window is uncut
    and never idle, and the body leaves the block in place. -/
theorem before_0 (c : Dev nD) (t : Fin cfg2.N) (d) : (𝔡 c).before 0 t d = iblk V c 0 t :=
  ((𝔡 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (𝔡 c).before 1 t d = iblk V c 1 t :=
  ((𝔡 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (𝔡 c).before 2 t d = iblk V c 2 t :=
  ((𝔡 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg2.N) (d) : (𝔡 c).before 3 t d = iblk V c 3 t :=
  ((𝔡 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg2.N) (d) : (𝔡 c).before 4 t d = iblk V c 4 t :=
  ((𝔡 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg2.N) (d) : (𝔡 c).before 5 t d = iblk V c 5 t :=
  ((𝔡 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg2.N) (d) : (𝔡 c).before 6 t d = iblk V c 6 t :=
  ((𝔡 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg2.N) (d) : (𝔡 c).before 7 t d = iblk V c 7 t :=
  ((𝔡 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg2.N) (d) : (𝔡 c).before 8 t d = iblk V c 8 t :=
  ((𝔡 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg2.N) (d) : (𝔡 c).before 9 t d = iblk V c 9 t :=
  ((𝔡 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg2.N) (d) : (𝔡 c).before 10 t d = iblk V c 10 t :=
  ((𝔡 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg2.N) (d) : (𝔡 c).before 11 t d = iblk V c 11 t :=
  ((𝔡 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-- The carried row after the first point of the grid, and after a later one. -/
theorem sqAt_first (c : Dev nD) (t : Fin cfg2.N) (h0 : t.val = 0) :
    sqAt V c t.val t.isLt = sqStep V c t (sqZero (F := F)) := by
  obtain ⟨n, hn⟩ := t
  cases n with
  | zero => rfl
  | succ n => exact absurd h0 (Nat.succ_ne_zero n)
theorem sqAt_later (c : Dev nD) (t : Fin cfg2.N) (h0 : t.val ≠ 0) :
    sqAt V c t.val t.isLt
      = sqStep V c t (View.ld (sqAt V c (t.val - 1) (Nat.lt_of_le_of_lt (Nat.sub_le _ _) t.isLt)) rB) := by
  obtain ⟨n, hn⟩ := t
  cases n with
  | zero => exact absurd rfl h0
  | succ n => rfl

/-- At a point after the first the carried row's staging buffer holds what the body left at the point before: the
    buffer is not written back between (only the last point writes it back), the window is uncut and never idle. -/
theorem before_13 (c : Dev nD) (t : Fin cfg2.N) (h0 : t.val ≠ 0) (d) :
    (𝔡 c).before 13 t d = sqAt V c (t.val - 1) (Nat.lt_of_le_of_lt (Nat.sub_le _ _) t.isLt) := by
  have hN : t.val < 8 := lt_of_lt_of_eq t.isLt (show cfg2.N = 8 from N_2)
  rw [Dat.before_out_kept _ 13 rfl t h0 (Bool.eq_false_iff.mpr fun h => by have := (flush2_13 _).mp h; dsimp only at this; omega)
    (fun _ => rfl) (fun _ _ => rfl)]
  dsimp only [dat]

/-! ## The body obligation, at a generic point -/

/-- What the body is called with at point `t` (the library's body obligation's precondition, the windows one by one), -/
def bodyPre (ι : Ix) (c : Dev nD) (t : Fin cfg2.N) : sProp 𝕄 :=
  iprop((𝔡 c).Φ t.castSucc ∗ (𝔡 c).owesAt ι t.castSucc
    ∗ (∃ d, owns (c : Thread nD τ) (st2_0 t) fullShare ((𝔡 c).before 0 t d))
    ∗ (∃ d, owns (c : Thread nD τ) (st2_1 t) fullShare ((𝔡 c).before 1 t d))
    ∗ (∃ d, owns (c : Thread nD τ) (st2_2 t) fullShare ((𝔡 c).before 2 t d))
    ∗ (∃ d, owns (c : Thread nD τ) (st2_3 t) fullShare ((𝔡 c).before 3 t d))
    ∗ (∃ d, owns (c : Thread nD τ) (st2_4 t) fullShare ((𝔡 c).before 4 t d))
    ∗ (∃ d, owns (c : Thread nD τ) (st2_5 t) fullShare ((𝔡 c).before 5 t d))
    ∗ (∃ d, owns (c : Thread nD τ) (st2_6 t) fullShare ((𝔡 c).before 6 t d))
    ∗ (∃ d, owns (c : Thread nD τ) (st2_7 t) fullShare ((𝔡 c).before 7 t d))
    ∗ (∃ d, owns (c : Thread nD τ) (st2_8 t) fullShare ((𝔡 c).before 8 t d))
    ∗ (∃ d, owns (c : Thread nD τ) (st2_9 t) fullShare ((𝔡 c).before 9 t d))
    ∗ (∃ d, owns (c : Thread nD τ) (st2_10 t) fullShare ((𝔡 c).before 10 t d))
    ∗ (∃ d, owns (c : Thread nD τ) (st2_11 t) fullShare ((𝔡 c).before 11 t d))
    ∗ (∃ d, owns (c : Thread nD τ) (st2_12 t) fullShare ((𝔡 c).before 12 t d))
    ∗ (∃ d, owns (c : Thread nD τ) (st2_13 t) fullShare ((𝔡 c).before 13 t d)))

/-- and what it returns. -/
def bodyPost (ι : Ix) (c : Dev nD) (t : Fin cfg2.N) : sProp 𝕄 :=
  iprop((𝔡 c).Φ t.succ ∗ (𝔡 c).owesAt ι t.succ
    ∗ owns (c : Thread nD τ) (st2_0 t) fullShare ((𝔡 c).after 0 t)
    ∗ owns (c : Thread nD τ) (st2_1 t) fullShare ((𝔡 c).after 1 t)
    ∗ owns (c : Thread nD τ) (st2_2 t) fullShare ((𝔡 c).after 2 t)
    ∗ owns (c : Thread nD τ) (st2_3 t) fullShare ((𝔡 c).after 3 t)
    ∗ owns (c : Thread nD τ) (st2_4 t) fullShare ((𝔡 c).after 4 t)
    ∗ owns (c : Thread nD τ) (st2_5 t) fullShare ((𝔡 c).after 5 t)
    ∗ owns (c : Thread nD τ) (st2_6 t) fullShare ((𝔡 c).after 6 t)
    ∗ owns (c : Thread nD τ) (st2_7 t) fullShare ((𝔡 c).after 7 t)
    ∗ owns (c : Thread nD τ) (st2_8 t) fullShare ((𝔡 c).after 8 t)
    ∗ owns (c : Thread nD τ) (st2_9 t) fullShare ((𝔡 c).after 9 t)
    ∗ owns (c : Thread nD τ) (st2_10 t) fullShare ((𝔡 c).after 10 t)
    ∗ owns (c : Thread nD τ) (st2_11 t) fullShare ((𝔡 c).after 11 t)
    ∗ owns (c : Thread nD τ) (st2_12 t) fullShare ((𝔡 c).after 12 t)
    ∗ owns (c : Thread nD τ) (st2_13 t) fullShare ((𝔡 c).after 13 t))

set_option maxHeartbeats 1600000 in
/-- The body at any point: the inputs' memrefs hold their blocks; at the first point the body's run from arbitrary
    output buffers applies, at a later one the run over what the point before left in the carried row; the invariant
    and the core's `owes` pass through unread. -/
theorem sound_body (𝒱₀ : Variants) (ι : Ix) (c : Dev nD) (t : Fin cfg2.N) :
    (bodyPre (Name := Name) (U := U) (Lvl := Lvl) V O B ι c t : sProp 𝕄)
      ⊢ wp frame (wpE (defs₀ (F := F)) 𝒱₀ c none) Set.univ (bodyAt2 t) (fun _ => bodyPost (Name := Name) (U := U) (Lvl := Lvl) V O B ι c t) := by
  unfold bodyPre bodyPost bodyAt2
  simp only [before_0, before_1, before_2, before_3, before_4, before_5, before_6, before_7, before_8, before_9, before_10, before_11]
  rw [show (𝔡 c).Φ t.succ = (𝔡 c).Φ t.castSucc from rfl,
    show (𝔡 c).owesAt ι t.succ = (𝔡 c).owesAt ι t.castSucc from rfl,
    after_0, after_1, after_2, after_3, after_4, after_5, after_6, after_7, after_8, after_9, after_10, after_11, after_12, after_13]
  by_cases h0 : t.val = 0
  · rw [sqAt_first V c t h0]
    unfold e0At sqStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_first 𝒱₀ c Set.univ (grid2.coords t) ((hcond t).mpr h0) _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [sqAt_later V c t h0]
    simp only [before_13 V O B c t h0]
    unfold e0At sqStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_later 𝒱₀ c Set.univ (grid2.coords t) (fun h => h0 ((hcond t).mp h)) _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation, at every point, under any variants and at any index `ι` of the pipeline's cells. -/
theorem body_obligation' (𝒱₀ : Variants) (ι : Ix) (c : Dev nD) :
    BodyObligation (𝔡 c) (defs₀ (F := F)) 𝒱₀ ι Set.univ := fun t => by
  rw [bigSep_W2, bigSep_W2]
  exact sound_body V O B 𝒱₀ ι c t

theorem body_obligation (𝒱₀ : Variants) (ι : Ix) (c : Dev nD) :
    BodyObligationLoose (𝔡 c) (defs₀ (F := F)) 𝒱₀ ι Set.univ :=
  (body_obligation' V O B 𝒱₀ ι c).loose

/-! ## The arrays at the region's exit -/

/-- An input array is never written: it ends as the region found it. -/
theorem arrAt_in (c : Dev nD) (w : Fin cfg2.W) (hw : (cfg2.win w).isOut = false) (n : ℕ) :
    (𝔡 c).arrAt w n = V c (Pipeline.arrRef spec2 w) :=
  ((𝔡 c).arrAt_in w hw n).trans (A_eq V O B c w)

theorem arrAt_0 (c : Dev nD) : (𝔡 c).arrAt 0 cfg2.N = V c (Pipeline.arrRef spec2 0) := arrAt_in V O B c 0 rfl _
theorem arrAt_1 (c : Dev nD) : (𝔡 c).arrAt 1 cfg2.N = V c (Pipeline.arrRef spec2 1) := arrAt_in V O B c 1 rfl _
theorem arrAt_2 (c : Dev nD) : (𝔡 c).arrAt 2 cfg2.N = V c (Pipeline.arrRef spec2 2) := arrAt_in V O B c 2 rfl _
theorem arrAt_3 (c : Dev nD) : (𝔡 c).arrAt 3 cfg2.N = V c (Pipeline.arrRef spec2 3) := arrAt_in V O B c 3 rfl _
theorem arrAt_4 (c : Dev nD) : (𝔡 c).arrAt 4 cfg2.N = V c (Pipeline.arrRef spec2 4) := arrAt_in V O B c 4 rfl _
theorem arrAt_5 (c : Dev nD) : (𝔡 c).arrAt 5 cfg2.N = V c (Pipeline.arrRef spec2 5) := arrAt_in V O B c 5 rfl _
theorem arrAt_6 (c : Dev nD) : (𝔡 c).arrAt 6 cfg2.N = V c (Pipeline.arrRef spec2 6) := arrAt_in V O B c 6 rfl _
theorem arrAt_7 (c : Dev nD) : (𝔡 c).arrAt 7 cfg2.N = V c (Pipeline.arrRef spec2 7) := arrAt_in V O B c 7 rfl _
theorem arrAt_8 (c : Dev nD) : (𝔡 c).arrAt 8 cfg2.N = V c (Pipeline.arrRef spec2 8) := arrAt_in V O B c 8 rfl _
theorem arrAt_9 (c : Dev nD) : (𝔡 c).arrAt 9 cfg2.N = V c (Pipeline.arrRef spec2 9) := arrAt_in V O B c 9 rfl _
theorem arrAt_10 (c : Dev nD) : (𝔡 c).arrAt 10 cfg2.N = V c (Pipeline.arrRef spec2 10) := arrAt_in V O B c 10 rfl _
theorem arrAt_11 (c : Dev nD) : (𝔡 c).arrAt 11 cfg2.N = V c (Pipeline.arrRef spec2 11) := arrAt_in V O B c 11 rfl _

/-- The output window's index map sends distinct grid points to distinct blocks (decided over the eight points), -/
theorem idx_inj12 : ∀ t t' : Fin cfg2.N, win2_12.index t = win2_12.index t' → t = t' :=
  (by decide +kernel : ∀ t t' : Fin grid2.N, win2_12.index t = win2_12.index t' → t = t')
/-- so two points' blocks of the output array share no index. -/
theorem disjoint12 : ∀ t t' : Fin cfg2.N, (cfg2.win 12).flush t = true → (cfg2.win 12).flush t' = true → t ≠ t' →
    Disjoint ((cfg2.win 12).blk t).view.set ((cfg2.win 12).blk t').view.set :=
  fun t t' _ _ hne => (cfg2.win 12).disjoint_blk fun h => hne (idx_inj12 t t' h)
/-- Only the last point writes the carried row back. -/
theorem disjoint13 : ∀ t t' : Fin cfg2.N, (cfg2.win 13).flush t = true → (cfg2.win 13).flush t' = true → t ≠ t' →
    Disjoint ((cfg2.win 13).blk t).view.set ((cfg2.win 13).blk t').view.set :=
  fun t t' h h' hne => absurd (Fin.ext (by
    have h1 := (flush2_13 t).mp h; have h2 := (flush2_13 t').mp h'
    have hN : t.val < 8 := lt_of_lt_of_eq t.isLt (show cfg2.N = 8 from N_2)
    have hN' : t'.val < 8 := lt_of_lt_of_eq t'.isLt (show cfg2.N = 8 from N_2)
    omega)) hne

/-- THE OUTPUT ARRAY: block `t` of it (rows `512·t … 512·t + 511`) ends at `e0At` of point `t`. -/
theorem arrAt_12 (c : Dev nD) (t : Fin cfg2.N) :
    ((cfg2.win 12).blk t).view.read (Elt F) ((𝔡 c).arrAt 12 cfg2.N) = e0At V c t :=
  ((𝔡 c).read_blk_arrAt_eq_flushed 12 disjoint12 cfg2.N t t.isLt (flush2_12 t)).trans (by
    show (cfg2.win 12).cut (grid2.coords t) ((𝔡 c).after 12 t) = _
    rw [after_12]; rfl)

/-- THE CARRIED ROW's array (one block, written back at the last point) ends at the fold over all eight points. -/
theorem arrAt_13 (c : Dev nD) :
    ((cfg2.win 13).blk t2_7).view.read (Elt F) ((𝔡 c).arrAt 13 cfg2.N) = sqAt V c 7 (by rw [show cfg2.N = 8 from N_2]; decide) :=
  ((𝔡 c).read_blk_arrAt_eq_flushed 13 disjoint13 cfg2.N t2_7 t2_7.isLt ((flush2_13 t2_7).mpr rfl)).trans (by
    show (cfg2.win 13).cut (grid2.coords t2_7) ((𝔡 c).after 13 t2_7) = _
    rw [after_13]; rfl)

end Data

end Cert.Kernel.Region1

end
-- ==== Proof.Twin.Region2.lean ====
import proofs.«213116_g69346541961480_cont_9to1_m_612_34_alg».proof.Proof.Gen.Kernel.Launch
import proofs.«213116_g69346541961480_cont_9to1_m_612_34_alg».proof.Proof.Gen.Kernel.Skeleton
import proofs.«213116_g69346541961480_cont_9to1_m_612_34_alg».proof.Proof.Gen.Kernel.Points
import Idealize.ShloMosaic.Lib.Pipeline.FrameBody
import Idealize.ShloMosaic.Lib.Pipeline.RegionsLoop
import Idealize.ShloMosaic.Lib.Pipeline.Value
import Idealize.ShloMosaic.Lib.ValueIdx
import Idealize.ShloMosaic.Lib.Tactic

/-! # The last TensorCore region: the final dense layer, scaled by the inverse norm

Pipeline 2 of the kernel program (`cfg3`, body `cc3__t3c_body`) runs over two grid points. At point `t` it
reads rows `2048 t … 2048 t + 2047` of the level-0 embedding `e0` (window 0), the whole weight matrix `W`
(window 1), the bias row `b` (window 2) and the row `sq` of partial sums of squares (window 3), and writes
rows `2048 t …` of the output (window 4):  `relu (e0_t · W + ν b) · (1 / ν)`  with  `ν = sqrt (Σ sq)`.

This module gives, at ANY ghost-state parameters and at a parameter `V` for the TensorCore's buffer contents when
the region is entered: the blocks of the windows, the body's triple, the pipeline's proof data, its body
obligation, the invariant's entry and exit lemmas, the wait evidence, and the final contents of every windowed
array as a pure function of `V`. -/

set_option maxRecDepth 16384

noncomputable section

namespace Cert.Kernel.Region2

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body leaves in the output window's buffer -/

/-- The body's one store covers the whole output block with its payload: the dense layer of the block of `e0`. -/
def out4 (x0 : Vec F S2048x128 .f32) (x1 : Vec F S128x128 .f32) (x2 x3 : Vec F S1x128 .f32) : Vec F S2048x128 .f32 :=
  k3_pay1 x3 x0 x1 x2

theorem hz : (![0, 0] : Fin 2 → Nat) = fun _ => 0 := funext fun a => by fin_cases a <;> rfl

/-! ## The body's triple -/

set_option maxHeartbeats 1000000 in
/-- The kernel body on whole staging memrefs, the inputs' at contents `x0 … x3` and the output's at anything, runs to
    the continuation holding the inputs' as they were and the output's at `out4` of the inputs'. -/
theorem sound_kernel (𝒱₀ : Variants) (c : Dev nD) (E : Set Name) (i : grid3.Coords)
    (arg1 : Memref sig .tc .vmem S2048x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2048x128 .f32) (harg5 : arg5.IsWhole)
    (x0 : Vec F S2048x128 .f32) (x1 : Vec F S128x128 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) 𝒱₀ c none) E (cc3__t3c_body i arg1 harg1 arg2 harg2 arg3 harg3 arg4 harg4 arg5 harg5) K := by
  simp only [cc3__t3c_body_eq_skeleton]; unfold cc3__t3c_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz inb_S2048x128_S2048x128_0_0 y⟩),
    View.canon_unit_zero hz]
  simp only [View.readAt_eq_ld, View.ld_unit_zero (S := S1x128) hz, View.ld_unit_zero (S := S2048x128) hz,
    View.ld_unit_zero (S := S128x128) hz]
  rfl

/-! ## The pipeline's proof data -/

/-- The region's invariant on core `c`: the core's scoped buffers that are no staging buffer of this pipeline, at some
    contents each, and its generator register at some state. The body touches neither. -/
def ΦR (c : Dev nD) : sProp 𝕄 :=
  iprop(Pipeline.scopedRest (Ix := Ix) (Name := Name) (U := U) (Lvl := Lvl) (Val := Elt F) spec3 c ∗ ∃ r, prngReg c r)

/-- The proof data of pipeline 2 on core `c`: the arrays as the region finds them (`V`); after the body at point `t`
    each input's buffer at its block and the output's at `out4` of the input blocks; the invariant `ΦR` at every point;
    full shares; a CONSTANT debt `O` and a CONSTANT bound `B` on the recorded wait pairs (the body signals nothing,
    waits on nothing and takes on nothing: what the core owes, and what its waits have recorded, when the region is
    entered is what they are at every point). -/
def dat (O : CellTallies nD τ sig Ix) (B : Set (SemLoc sig × Ix)) (c : Dev nD) : Dat τ (Elt F) Ix Name U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := ΦR c
  q _ := fullShare
  owed _ := O
  recorded _ := B

variable (O : CellTallies nD τ sig Ix) (B : Set (SemLoc sig × Ix))

/-- The proof data's arrays are the region-entry contents. -/
theorem A_eq (c : Dev nD) (w : Fin cfg3.W) : (dat (Name := Name) (U := U) (Lvl := Lvl) V O B c).A w = V c (Pipeline.arrRef spec3 w) := by
  dsimp only [dat]
/-- Every share is the full one. -/
theorem q_eq (c : Dev nD) (w : Fin cfg3.W) : (dat (Name := Name) (U := U) (Lvl := Lvl) V O B c).q w = fullShare := by
  dsimp only [dat]
/-- The debt is `O` at every point. -/
theorem owed_eq (c : Dev nD) (t : Fin (cfg3.N + 1)) : (dat (Name := Name) (U := U) (Lvl := Lvl) V O B c).owed t = O := by
  dsimp only [dat]
/-- The bound on the recorded pairs is `B` at every point. -/
theorem recorded_eq (c : Dev nD) (t : Fin (cfg3.N + 1)) : (dat (Name := Name) (U := U) (Lvl := Lvl) V O B c).recorded t = B := by
  dsimp only [dat]
/-- The invariant is `ΦR` at every point. -/
theorem Φ_eq (c : Dev nD) (t : Fin (cfg3.N + 1)) : (dat (Name := Name) (U := U) (Lvl := Lvl) V O B c).Φ t = ΦR c := by
  dsimp only [dat]

/-- What the body leaves, window by window. -/
theorem after_0 (c : Dev nD) (t : Fin cfg3.N) : (dat (Name := Name) (U := U) (Lvl := Lvl) V O B c).after 0 t = iblk V c 0 t := by dsimp only [dat]
theorem after_1 (c : Dev nD) (t : Fin cfg3.N) : (dat (Name := Name) (U := U) (Lvl := Lvl) V O B c).after 1 t = iblk V c 1 t := by dsimp only [dat]
theorem after_2 (c : Dev nD) (t : Fin cfg3.N) : (dat (Name := Name) (U := U) (Lvl := Lvl) V O B c).after 2 t = iblk V c 2 t := by dsimp only [dat]
theorem after_3 (c : Dev nD) (t : Fin cfg3.N) : (dat (Name := Name) (U := U) (Lvl := Lvl) V O B c).after 3 t = iblk V c 3 t := by dsimp only [dat]
theorem after_4 (c : Dev nD) (t : Fin cfg3.N) :
    (dat (Name := Name) (U := U) (Lvl := Lvl) V O B c).after 4 t = out4 (iblk V c 0 t) (iblk V c 1 t) (iblk V c 2 t) (iblk V c 3 t) := by dsimp only [dat]

/-- Each input's current staging buffer holds its block at every point, fetched there or not: an input window whose
    body leaves its block in place holds, where it was not fetched, the block of the point before, and the block index
    has not moved. -/
theorem before_0 (c : Dev nD) (t : Fin cfg3.N) (d) : (dat (Name := Name) (U := U) (Lvl := Lvl) V O B c).before 0 t d = iblk V c 0 t :=
  ((dat (Name := Name) (U := U) (Lvl := Lvl) V O B c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat (Name := Name) (U := U) (Lvl := Lvl) V O B c).before 1 t d = iblk V c 1 t :=
  ((dat (Name := Name) (U := U) (Lvl := Lvl) V O B c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat (Name := Name) (U := U) (Lvl := Lvl) V O B c).before 2 t d = iblk V c 2 t :=
  ((dat (Name := Name) (U := U) (Lvl := Lvl) V O B c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat (Name := Name) (U := U) (Lvl := Lvl) V O B c).before 3 t d = iblk V c 3 t :=
  ((dat (Name := Name) (U := U) (Lvl := Lvl) V O B c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (ι : Ix) (c : Dev nD) (t : Fin cfg3.N) : sProp 𝕄 :=
  iprop((dat (Name := Name) (U := U) (Lvl := Lvl) V O B c).Φ t.castSucc ∗ (dat (Name := Name) (U := U) (Lvl := Lvl) V O B c).owesAt ι t.castSucc
    ∗ (∃ d, owns (c : Thread nD τ) (st3_0 t) fullShare ((dat (Name := Name) (U := U) (Lvl := Lvl) V O B c).before 0 t d))
    ∗ (∃ d, owns (c : Thread nD τ) (st3_1 t) fullShare ((dat (Name := Name) (U := U) (Lvl := Lvl) V O B c).before 1 t d))
    ∗ (∃ d, owns (c : Thread nD τ) (st3_2 t) fullShare ((dat (Name := Name) (U := U) (Lvl := Lvl) V O B c).before 2 t d))
    ∗ (∃ d, owns (c : Thread nD τ) (st3_3 t) fullShare ((dat (Name := Name) (U := U) (Lvl := Lvl) V O B c).before 3 t d))
    ∗ (∃ d, owns (c : Thread nD τ) (st3_4 t) fullShare ((dat (Name := Name) (U := U) (Lvl := Lvl) V O B c).before 4 t d)))

/-- and what it returns. -/
def bodyPost (ι : Ix) (c : Dev nD) (t : Fin cfg3.N) : sProp 𝕄 :=
  iprop((dat (Name := Name) (U := U) (Lvl := Lvl) V O B c).Φ t.succ ∗ (dat (Name := Name) (U := U) (Lvl := Lvl) V O B c).owesAt ι t.succ
    ∗ owns (c : Thread nD τ) (st3_0 t) fullShare ((dat (Name := Name) (U := U) (Lvl := Lvl) V O B c).after 0 t)
    ∗ owns (c : Thread nD τ) (st3_1 t) fullShare ((dat (Name := Name) (U := U) (Lvl := Lvl) V O B c).after 1 t)
    ∗ owns (c : Thread nD τ) (st3_2 t) fullShare ((dat (Name := Name) (U := U) (Lvl := Lvl) V O B c).after 2 t)
    ∗ owns (c : Thread nD τ) (st3_3 t) fullShare ((dat (Name := Name) (U := U) (Lvl := Lvl) V O B c).after 3 t)
    ∗ owns (c : Thread nD τ) (st3_4 t) fullShare ((dat (Name := Name) (U := U) (Lvl := Lvl) V O B c).after 4 t))

/-- The body at any point: the inputs' memrefs hold their blocks (`before_k`), so `sound_kernel` applies; the invariant and
    the core's `owes` pass through unread. -/
theorem sound_body (𝒱₀ : Variants) (ι : Ix) (c : Dev nD) (t : Fin cfg3.N) :
    bodyPre (Name := Name) (U := U) (Lvl := Lvl) V O B ι c t
      ⊢ wp frame (wpE (defs₀ (F := F)) 𝒱₀ c none) Set.univ (bodyAt3 t) (fun _ => bodyPost (Name := Name) (U := U) (Lvl := Lvl) V O B ι c t) := by
  unfold bodyPre bodyPost bodyAt3
  simp only [before_0, before_1, before_2, before_3]
  rw [show (dat (Name := Name) (U := U) (Lvl := Lvl) V O B c).Φ t.succ = (dat (Name := Name) (U := U) (Lvl := Lvl) V O B c).Φ t.castSucc from rfl,
    show (dat (Name := Name) (U := U) (Lvl := Lvl) V O B c).owesAt ι t.succ = (dat (Name := Name) (U := U) (Lvl := Lvl) V O B c).owesAt ι t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel 𝒱₀ c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point, under any variants `𝒱₀`, any index `ι`, any constant debt `O` and
    any constant bound `B`. -/
theorem body_obligation (𝒱₀ : Variants) (ι : Ix) (c : Dev nD) :
    BodyObligationLoose (dat (F := F) (Name := Name) (U := U) (Lvl := Lvl) V O B c) (defs₀ (F := F)) 𝒱₀ ι Set.univ :=
  (show BodyObligation (dat (F := F) (Name := Name) (U := U) (Lvl := Lvl) V O B c) (defs₀ (F := F)) 𝒱₀ ι Set.univ from fun t => by
    rw [bigSep_W3, bigSep_W3]
    exact sound_body V O B 𝒱₀ ι c t).loose

/-! ## The invariant at the region's entry and exit (the shapes of `RegionSeg.hin` / `hout` with `X = Y = ∃ r, prngReg c r`,
no semaphore of the kernel's own) -/

theorem hin (c : Dev nD) (a : (pcfgs (F := F) 2).Adm) :
    iprop((∃ r, prngReg c r) ∗ Pipeline.prefHeld (pcfgs (F := F) 2).pre c (fun _ => fullShare) a.1
        ∗ Pipeline.scopedRest (Ix := Ix) (Name := Name) (U := U) (Lvl := Lvl) (Val := Elt F) spec3 c)
      ⊢ (dat (Name := Name) (U := U) (Lvl := Lvl) V O B c).Φ 0 := by
  rw [Φ_eq]; unfold ΦR
  iintro ⟨Hp, -, Hr⟩
  isplitl [Hr]; · iexact Hr
  iexact Hp

theorem hout (c : Dev nD) :
    (dat (Name := Name) (U := U) (Lvl := Lvl) V O B c).Φ (Fin.last cfg3.N)
      ⊢ iprop((∃ r, prngReg c r) ∗ Pipeline.ownSems0 (fun k : PEmpty => k.elim) c
        ∗ Pipeline.scopedRest (Ix := Ix) (Name := Name) (U := U) (Lvl := Lvl) (Val := Elt F) spec3 c) := by
  rw [Pipeline.ownSems0_none, Φ_eq]; unfold ΦR
  iintro ⟨Hr, Hp⟩
  isplitl [Hp]; · iexact Hp
  isplitr; · iempintro
  iexact Hr

/-! ## The final contents of the windowed arrays -/

/-- An input array is never written. -/
theorem arrAt_0 (c : Dev nD) (n : ℕ) : (dat (Name := Name) (U := U) (Lvl := Lvl) V O B c).arrAt 0 n = V c main_v16_0 :=
  ((dat (Name := Name) (U := U) (Lvl := Lvl) V O B c).arrAt_in 0 rfl n).trans (A_eq V O B c 0)
theorem arrAt_1 (c : Dev nD) (n : ℕ) : (dat (Name := Name) (U := U) (Lvl := Lvl) V O B c).arrAt 1 n = V c main_arg18 :=
  ((dat (Name := Name) (U := U) (Lvl := Lvl) V O B c).arrAt_in 1 rfl n).trans (A_eq V O B c 1)
theorem arrAt_2 (c : Dev nD) (n : ℕ) : (dat (Name := Name) (U := U) (Lvl := Lvl) V O B c).arrAt 2 n = V c main_v17 :=
  ((dat (Name := Name) (U := U) (Lvl := Lvl) V O B c).arrAt_in 2 rfl n).trans (A_eq V O B c 2)
theorem arrAt_3 (c : Dev nD) (n : ℕ) : (dat (Name := Name) (U := U) (Lvl := Lvl) V O B c).arrAt 3 n = V c main_v16_1 :=
  ((dat (Name := Name) (U := U) (Lvl := Lvl) V O B c).arrAt_in 3 rfl n).trans (A_eq V O B c 3)

/-- Rows `2048 t … 2048 t + 2047` of a 4096-row array. -/
def rows (e0 : S4096x128.Idx → Elt F .f32) (t : Fin 2) : Vec F S2048x128 .f32 :=
  fun j => e0 (ix2 (⟨t.val * 2048 + (j 0).val, by have h : (j 0).val < 2048 := (j 0).isLt; have := t.isLt; omega⟩ : Fin 4096) (j 1))

/-- THE OUTPUT ARRAY as one function of the four input arrays: row `r` is row `r % 2048` of the body's payload on the
    block of 2048 rows that holds `r`. -/
def G4 (e0 : S4096x128.Idx → Elt F .f32) (W : S128x128.Idx → Elt F .f32) (b sq : S1x128.Idx → Elt F .f32) : S4096x128.Idx → Elt F .f32 :=
  fun i => out4 (rows e0 ⟨(i 0).val / 2048, by have h : (i 0).val < 4096 := (i 0).isLt; omega⟩) W b sq
    (ix2 (⟨(i 0).val % 2048, Nat.mod_lt _ (by decide)⟩ : Fin 2048) (i 1))

/-- `G4` at row `2048 t + j₀`, column `j₁`, is the payload on block `t` at `(j₀, j₁)`. -/
theorem G4_apply (e0 : S4096x128.Idx → Elt F .f32) (W : S128x128.Idx → Elt F .f32) (b sq : S1x128.Idx → Elt F .f32)
    (i : S4096x128.Idx) (t : Fin 2) (j : S2048x128.Idx) (h0 : (i 0).val = t.val * 2048 + (j 0).val) (h1 : (i 1).val = (j 1).val) :
    G4 e0 W b sq i = out4 (rows e0 t) W b sq j := by
  have hj0 : (j 0).val < 2048 := (j 0).isLt
  unfold G4
  have ht : (⟨(i 0).val / 2048, by have h : (i 0).val < 4096 := (i 0).isLt; omega⟩ : Fin 2) = t := Fin.ext (by show (i 0).val / 2048 = t.val; omega)
  have hj : (ix2 (⟨(i 0).val % 2048, Nat.mod_lt _ (by decide)⟩ : Fin 2048) (i 1) : S2048x128.Idx) = j := by
    funext a
    match a with
    | ⟨0, _⟩ => exact Fin.ext (by show (i 0).val % 2048 = (j 0).val; omega)
    | ⟨1, _⟩ => exact Fin.ext h1
  rw [ht, hj]

/-- The printed index maps, decided over the grid: the blocks of `e0` and of the output move with the grid coordinate
    along the rows, every other window stays at block zero. -/
theorem idx_facts : ∀ t : Fin cfg3.N, win3_0.index t (0 : Fin 2) = t.val ∧ win3_0.index t (1 : Fin 2) = 0
    ∧ win3_4.index t (0 : Fin 2) = t.val ∧ win3_4.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The blocks the body reads, as functions of the arrays the region finds: block `t` of `e0` is its rows `2048 t …`; -/
theorem iblk_0 (c : Dev nD) (t : Fin cfg3.N) : iblk V c 0 t = rows (V c main_v16_0) (t.cast N_3) := by
  obtain ⟨e0, e1, -⟩ := idx_facts t
  funext j
  show V c main_v16_0 (((cfg3.win 0).blk t).view.emb j) = V c main_v16_0 (ix2 _ (j 1))
  congr 1
  funext a; apply Fin.ext
  match a with
  | ⟨0, _⟩ => show win3_0.index t (0 : Fin 2) * 2048 + 1 * (j 0).val = t.val * 2048 + (j 0).val; omega
  | ⟨1, _⟩ => show win3_0.index t (1 : Fin 2) * 128 + 1 * (j 1).val = (j 1).val; omega
/-- the weight matrix, the bias row and the row of partial sums are whole at every point. -/
theorem iblk_1 (c : Dev nD) (t : Fin cfg3.N) : iblk V c 1 t = V c main_arg18 := by
  obtain ⟨-, -, -, -, e0, e1, -⟩ := idx_facts t
  funext j
  show V c main_arg18 (((cfg3.win 1).blk t).view.emb j) = V c main_arg18 j
  congr 1
  funext a; apply Fin.ext
  match a with
  | ⟨0, _⟩ => show win3_1.index t (0 : Fin 2) * 128 + 1 * (j 0).val = (j 0).val; omega
  | ⟨1, _⟩ => show win3_1.index t (1 : Fin 2) * 128 + 1 * (j 1).val = (j 1).val; omega
theorem iblk_2 (c : Dev nD) (t : Fin cfg3.N) : iblk V c 2 t = V c main_v17 := by
  obtain ⟨-, -, -, -, -, -, e0, e1, -⟩ := idx_facts t
  funext j
  show V c main_v17 (((cfg3.win 2).blk t).view.emb j) = V c main_v17 j
  congr 1
  funext a; apply Fin.ext
  match a with
  | ⟨0, _⟩ => show win3_2.index t (0 : Fin 2) * 1 + 1 * (j 0).val = (j 0).val; omega
  | ⟨1, _⟩ => show win3_2.index t (1 : Fin 2) * 128 + 1 * (j 1).val = (j 1).val; omega
theorem iblk_3 (c : Dev nD) (t : Fin cfg3.N) : iblk V c 3 t = V c main_v16_1 := by
  obtain ⟨-, -, -, -, -, -, -, -, e0, e1⟩ := idx_facts t
  funext j
  show V c main_v16_1 (((cfg3.win 3).blk t).view.emb j) = V c main_v16_1 j
  congr 1
  funext a; apply Fin.ext
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- WHAT POINT `t` WRITES BACK is block `t` of `G4` of the arrays as the region finds them. -/
theorem flushed_4 (c : Dev nD) (t : Fin cfg3.N) :
    (dat (Name := Name) (U := U) (Lvl := Lvl) V O B c).flushed 4 t
      = ((cfg3.win 4).blk t).view.read (Elt F) (G4 (V c main_v16_0) (V c main_arg18) (V c main_v17) (V c main_v16_1)) := by
  show (cfg3.win 4).cut (grid3.coords t) ((dat (Name := Name) (U := U) (Lvl := Lvl) V O B c).after 4 t) = _
  rw [after_4, iblk_0, iblk_1, iblk_2, iblk_3]
  obtain ⟨-, -, e0, e1, -⟩ := idx_facts t
  funext j
  show out4 (rows (V c main_v16_0) (t.cast N_3)) (V c main_arg18) (V c main_v17) (V c main_v16_1) j
    = G4 (V c main_v16_0) (V c main_arg18) (V c main_v17) (V c main_v16_1) (((cfg3.win 4).blk t).view.emb j)
  refine (G4_apply _ _ _ _ _ (t.cast N_3) j ?_ ?_).symm
  · show win3_4.index t (0 : Fin 2) * 2048 + 1 * (j 0).val = t.val * 2048 + (j 0).val; omega
  · show win3_4.index t (1 : Fin 2) * 128 + 1 * (j 1).val = (j 1).val; omega

/-- An index of the output array is in point `t`'s block iff each coordinate is in the block's range on its axis. -/
theorem mem_blk_4 (t : Fin cfg3.N) (i : S4096x128.Idx) :
    i ∈ ((cfg3.win 4).blk t).view.set ↔ ∀ a : Fin 2, win3_4.index t a * S2048x128.size a ≤ (i a).val ∧ (i a).val < win3_4.index t a * S2048x128.size a + S2048x128.size a := by
  show i ∈ ((View.whole main_v18).slice (win3_4.rect t)).set ↔ _
  rw [View.set_slice_whole, Rect.mem_set_unit]
  exact Iff.rfl

/-- Every row of the output is in one of the two blocks. -/
theorem cover_4 (i : S4096x128.Idx) : ∃ t : Fin cfg3.N, (cfg3.win 4).flush t = true ∧ i ∈ ((cfg3.win 4).blk t).view.set := by
  have hi0 : (i 0).val < 4096 := (i 0).isLt
  have hi1 : (i 1).val < 128 := (i 1).isLt
  refine ⟨(⟨(i 0).val / 2048, by omega⟩ : Fin 2).cast N_3.symm, flush3_4 _, ?_⟩
  obtain ⟨-, -, e0, e1, -⟩ := idx_facts ((⟨(i 0).val / 2048, by omega⟩ : Fin 2).cast N_3.symm)
  have e0' : win3_4.index ((⟨(i 0).val / 2048, by omega⟩ : Fin 2).cast N_3.symm) (0 : Fin 2) = (i 0).val / 2048 := e0
  rw [mem_blk_4]
  intro a
  match a with
  | ⟨0, _⟩ =>
    show win3_4.index _ (0 : Fin 2) * 2048 ≤ (i 0).val ∧ (i 0).val < win3_4.index _ (0 : Fin 2) * 2048 + 2048
    rw [e0']; omega
  | ⟨1, _⟩ =>
    show win3_4.index _ (1 : Fin 2) * 128 ≤ (i 1).val ∧ (i 1).val < win3_4.index _ (1 : Fin 2) * 128 + 128
    rw [e1]; omega

/-- After the region the output array holds `G4` of the inputs as the region found them: each point writes back its
    block of `G4`, and the two blocks cover the array. -/
theorem arrAt_4 (c : Dev nD) :
    (dat (Name := Name) (U := U) (Lvl := Lvl) V O B c).arrAt 4 cfg3.N = G4 (V c main_v16_0) (V c main_arg18) (V c main_v17) (V c main_v16_1) :=
  (dat (Name := Name) (U := U) (Lvl := Lvl) V O B c).arrAt_eq_of_cover 4 _ (fun t _ => flushed_4 V O B c t) cover_4

/-! ## The wait evidence -/

/-- The pipeline's own waits, for a family of proof data whose member for this pipeline owes the constant `O`: from any
    persistent facts `R` that let the core wait on each of its semaphores at index `ι` while owing `O`. -/
theorem hwaits (adm : (p : Fin 3) → (pcfgs (F := F) p).Adm)
    (pdats : (p : Fin 3) → (c : Dev nD) → Dat τ (Elt F) Ix Name U Lvl (Pipeline.pin (pcfgs (F := F)) adm p) c) (ι : Ix)
    (howed : ∀ c t, (pdats 2 c).owed t = O) {R : sProp 𝕄} [BI.Persistent R]
    (hR : ∀ (c : Dev nD) (sm : SemLoc sig), R ⊢ MayWait (c : Thread nD τ) sm ι O) (c : Dev nD) :
    R ⊢ Pipeline.cellsWaits (Pipeline.pin (pcfgs (F := F)) adm) pdats ι 2 c :=
  Pipeline.cellsWaits_intro (Pipeline.pin (pcfgs (F := F)) adm) pdats ι 2 c fun w s t => by
    rw [howed c t]; exact hR c _

end Cert.Kernel.Region2

end
-- ==== Proof.Twin.MainFold.lean ====
/-
  The buffer contents of the TensorCore at each boundary of @main — a fold through its host stretches, its three
  pipelined regions and the SparseCore call —, the three regions' proof data at the contents each is entered with,
  and the thread state that travels between the segments: every unscoped buffer at the boundary's contents, the
  generator register at some state, and what the core owes the SparseCores (its start signals, until the call) with
  the pairs its waits have recorded kept below the call's level.
-/
import proofs.«213116_g69346541961480_cont_9to1_m_612_34_alg».proof.Proof.Twin.MainCall
import proofs.«213116_g69346541961480_cont_9to1_m_612_34_alg».proof.Proof.Twin.Region0
import proofs.«213116_g69346541961480_cont_9to1_m_612_34_alg».proof.Proof.Twin.Region1
import proofs.«213116_g69346541961480_cont_9to1_m_612_34_alg».proof.Proof.Twin.Region2
import Idealize.ShloMosaic.Lib.Pipeline.FrameSuffix
import Idealize.ShloMosaic.Lib.Pipeline.RegionsLoop

noncomputable section

namespace Cert.Kernel.Main

open Cert.Kernel Cert.Kernel.Gen Cert.Kernel.Ghost Cert.Kernel.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the TensorCore owes sits at the calls' indices -/

/-- The TensorCore owes start signals only, each at its call's index: nothing at the index the pipelines wait at. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg (fun h => by cases h.2)]
  · rfl

variable (m : (ℓ : Loc nD τ sig) → Buf (Elt F) ℓ)

/-! ## The fold of contents through @main -/

/-- Core `c`'s buffers at launch. -/
abbrev W0 : Dev nD → Valuation τ sig (Elt F) := fun c b => m ((c : Dev nD), b)
/-- After stretch A (region 0's entry). -/
abbrev W1 : Dev nD → Valuation τ sig (Elt F) := fun c => StableHlo.after hostOpsA (W0 m c)
abbrev V1 : (c : Dev nD) → (b : Ref sig .tc) → Buf (Elt F) ((c : Thread nD τ).loc b) := fun c b => W1 m c b
/-- Region 0's proof data: entered at `V1`, the core owing its start signals, its recorded pairs below call 0's level. -/
def dat0 (c : Dev nD) : Pipeline.Dat τ (Elt F) (HIx 1) ℕ UU ℕ cfg0 c :=
  Region0.dat (Name := ℕ) (U := UU) (Lvl := ℕ) (V1 m) ((K (F := F)).Otc c 0) (Bn (F := F) c 0) c
/-- At region 0's exit: its arrays at what the pipeline leaves, every other buffer as entered. -/
def W2 (c : Dev nD) : Valuation τ sig (Elt F) :=
  Pipeline.withArrays spec0 c (W1 m c) fun w => (dat0 m c).arrAt w cfg0.N
abbrev V2 : (c : Dev nD) → (b : Ref sig .tc) → Buf (Elt F) ((c : Thread nD τ).loc b) := fun c b => W2 m c b
/-- After stretch B (the SparseCore call's entry). -/
abbrev W3 : Dev nD → Valuation τ sig (Elt F) := fun c => StableHlo.after hostOpsB (W2 m c)
/-- After the SparseCore call. -/
abbrev W4 : Dev nD → Valuation τ sig (Elt F) := afterCall (W3 m)
/-- After stretch C (region 1's entry). -/
abbrev W5 : Dev nD → Valuation τ sig (Elt F) := fun c => StableHlo.after hostOpsC (W4 m c)
abbrev V5 : (c : Dev nD) → (b : Ref sig .tc) → Buf (Elt F) ((c : Thread nD τ).loc b) := fun c b => W5 m c b
/-- Region 1's proof data: entered at `V5`, nothing owed any more, the recorded pairs below call 1's level. -/
def dat1 (c : Dev nD) : Pipeline.Dat τ (Elt F) (HIx 1) ℕ UU ℕ cfg2 c :=
  Region1.dat (Name := ℕ) (U := UU) (Lvl := ℕ) (V5 m) ((K (F := F)).Otc c 1) (Bn (F := F) c 1) c
def W6 (c : Dev nD) : Valuation τ sig (Elt F) :=
  Pipeline.withArrays spec2 c (W5 m c) fun w => (dat1 m c).arrAt w cfg2.N
abbrev V6 : (c : Dev nD) → (b : Ref sig .tc) → Buf (Elt F) ((c : Thread nD τ).loc b) := fun c b => W6 m c b
/-- After stretch D (region 2's entry). -/
abbrev W7 : Dev nD → Valuation τ sig (Elt F) := fun c => StableHlo.after hostOpsD (W6 m c)
abbrev V7 : (c : Dev nD) → (b : Ref sig .tc) → Buf (Elt F) ((c : Thread nD τ).loc b) := fun c b => W7 m c b
def dat2 (c : Dev nD) : Pipeline.Dat τ (Elt F) (HIx 1) ℕ UU ℕ cfg3 c :=
  Region2.dat (Name := ℕ) (U := UU) (Lvl := ℕ) (V7 m) ((K (F := F)).Otc c 1) (Bn (F := F) c 1) c
/-- At the return. -/
def W8 (c : Dev nD) : Valuation τ sig (Elt F) :=
  Pipeline.withArrays spec3 c (W7 m c) fun w => (dat2 m c).arrAt w cfg3.N
abbrev V8 : (c : Dev nD) → (b : Ref sig .tc) → Buf (Elt F) ((c : Thread nD τ).loc b) := fun c b => W8 m c b

theorem W2_arr (c : Dev nD) (w : Fin cfg0.W) : W2 m c (Proc.devRef .tc (Pipeline.arrRef spec0 w)) = (dat0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 m c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) : W6 m c (Proc.devRef .tc (Pipeline.arrRef spec2 w)) = (dat1 m c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF1 (c : Dev nD) (w : Fin cfg2.W) : (dat1 m c).arrAt w cfg2.N = V6 m c (Pipeline.arrRef spec2 w) := (W6_arr m c w).symm
theorem hrest1 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W8_arr (c : Dev nD) (w : Fin cfg3.W) : W8 m c (Proc.devRef .tc (Pipeline.arrRef spec3 w)) = (dat2 m c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF2 (c : Dev nD) (w : Fin cfg3.W) : (dat2 m c).arrAt w cfg3.N = V8 m c (Pipeline.arrRef spec3 w) := (W8_arr m c w).symm
theorem hrest2 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## The proof data family and the thread state -/

/-- Every pipeline's proof data, each at its region's entry contents: a literal match on the pipeline. -/
def pdats : (p : Fin 3) → (c : Dev nD) → Pipeline.Dat τ (Elt F) (HIx 1) ℕ UU ℕ (Pipeline.pin (pcfgs (F := F)) adm p) c
  | ⟨0, _⟩ => fun c => dat0 m c
  | ⟨1, _⟩ => fun c => dat1 m c
  | ⟨2, _⟩ => fun c => dat2 m c

/-- The pipelines' waits are recorded at the index no call uses. -/
abbrev ι₀ : HIx 1 := none
abbrev LL : GSem nD τ sig → Finset (HIx 1) := (K (F := F)).L
abbrev lvl : GSem nD τ sig → HIx 1 → ℕ := (K (F := F)).lev

/-- What rides beside the buffers before call `n`: the generator register at some state, and the core owing its start
    signals from call `n` on with its recorded pairs below that call's level. -/
abbrev R (n : ℕ) (c : Dev nD) : sProp 𝕄 :=
  iprop((∃ r, prngReg c r) ∗ Pipeline.owesWithin c ((K (F := F)).Otc c n) (Bn (F := F) c n))

/-- The thread state at a boundary: every unscoped buffer at the boundary's contents, and `R`. -/
abbrev TS (W : Dev nD → Valuation τ sig (Elt F)) (n : ℕ) (c : Dev nD) : sProp 𝕄 :=
  iprop(StableHlo.held (c : Thread nD τ) (Pipeline.ucRefs τ sig) (W c) ∗ R (F := F) n c)

/-! ## The host stretches as segments -/

theorem hostOpsA_sub : (hostOpsA : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub ..⟩
theorem hostOpsB_sub : (hostOpsB : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
theorem hostOpsC_sub : (hostOpsC : List (HloOp τ sig (Elt F))).Forall fun op => op.bufs ⊆ StableHlo.tcRefs τ sig :=
  ⟨StableHlo.reshape_bufs_sub .., StableHlo.reshape_bufs_sub .., StableHlo.reshape_bufs_sub .., StableHlo.unary_bufs_sub ..,
    StableHlo.unary_bufs_sub .., StableHlo.reshape_bufs_sub ..⟩
theorem hostOpsD_sub : (hostOpsD : List (HloOp τ sig (Elt F))).Forall fun op => op.bufs ⊆ StableHlo.tcRefs τ sig :=
  StableHlo.reshape_bufs_sub ..

theorem hostOpsA_fresh : (hostOpsA : List (HloOp τ sig (Elt F))).Forall fun op => op.fresh = ∅ := by
  simp only [List.Forall]; repeat' constructor
theorem hostOpsB_fresh : (hostOpsB : List (HloOp τ sig (Elt F))).Forall fun op => op.fresh = ∅ := by
  simp only [List.Forall]; repeat' constructor
theorem hostOpsC_fresh : (hostOpsC : List (HloOp τ sig (Elt F))).Forall fun op => op.fresh = ∅ := by
  simp only [List.Forall]; repeat' constructor
theorem hostOpsD_fresh : (hostOpsD : List (HloOp τ sig (Elt F))).Forall fun op => op.fresh = ∅ := by
  simp only [List.Forall]; repeat' constructor

/-- A host stretch as a segment over the unscoped references from the contents `W`, `R n` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (n : ℕ) :
    Pipeline.HostSeg (Name := ℕ) (U := UU) (pcfgs (F := F)) defs₀ 𝒱₀ (LL (F := F)) (lvl (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F) n)

end Cert.Kernel.Main

end
-- ==== Proof.Twin.MainRegions.lean ====
/-
  The three pipelined regions of @main as segments, the host stretches between them, and the two halves of @main
  run from one boundary's thread state to the next: every unscoped buffer at the fold's contents, what the core owes
  carried through untouched.
-/
import proofs.«213116_g69346541961480_cont_9to1_m_612_34_alg».proof.Proof.Twin.MainFold
import Idealize.ShloMosaic.Lib.Pipeline.RegionsLoop

noncomputable section

namespace Cert.Kernel.Main

open Cert.Kernel Cert.Kernel.Gen Cert.Kernel.Ghost Cert.Kernel.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The regions as segments -/

-- a library lemma stated over `pin pcs a p` unifies with the pinned configuration only when unification may unfold
-- plain definitions in a metavariable's type
set_option backward.isDefEq.respectTransparency.types false in
/-- Region 0 over the thread state: entered from every unscoped buffer at its entry contents, left at its exit
    contents. Its arrays split out of the unscoped buffers and are put back at what the pipeline leaves; what the core
    owes passes through, its recorded pairs still below the call's level (the pipeline's own waits sit at level 0). -/
def reg0 : Pipeline.RegionSeg (pcfgs (F := F)) adm (pdats m) ι₀ defs₀ 𝒱₀ (LL (F := F)) (lvl (F := F)) 0 where
  win := launch0.win.to₀
  block_pos := launch0.block_pos
  stage_whole := launch0.stage_whole
  K := PEmpty
  osem k := k.elim
  ho := Pipeline.OwnSemFacts.none _
  hbody c := Region0.body_obligation (Name := ℕ) (U := UU) (Lvl := ℕ) (V1 m) ((K (F := F)).Otc c 0) (Bn (F := F) c 0) ι₀ 𝒱₀ c
  hwaits c := Pipeline.cellsWaits_intro _ _ ι₀ 0 c fun w s t =>
    (K (F := F)).mayWait_none _ (Otc_none (F := F) c 0)
  pre c := TS (F := F) (W1 m) 0 c
  post c := TS (F := F) (W2 m) 0 c
  X c := iprop(emp)
  Y c := iprop(emp)
  Z c := iprop(Pipeline.unscopedRest (Ix := HIx 1) (Name := ℕ) (U := UU) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left (s := Bn (F := F) c 0) (t := cfg0.waitPairs ι₀)))
      iexact HO
    isplitr; · iempintro
    isplitl [Hrest]; · iexact Hrest
    iexact Hp
  hin c := Region0.hin (Name := ℕ) (U := UU) (Lvl := ℕ) (V1 m) ((K (F := F)).Otc c 0) (Bn (F := F) c 0) c
  hout c := Region0.hout (Name := ℕ) (U := UU) (Lvl := ℕ) (V1 m) ((K (F := F)).Otc c 0) (Bn (F := F) c 0) c
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply (Pipeline.owesWithin_mono c _ (bound_sub_Bn (F := F) cfg0 c 0))
    iexact HO

-- a library lemma stated over `pin pcs a p` unifies with the pinned configuration only when unification may unfold
-- plain definitions in a metavariable's type
set_option backward.isDefEq.respectTransparency.types false in
/-- Region 1 over the thread state: entered from every unscoped buffer at its entry contents, left at its exit
    contents. Its arrays split out of the unscoped buffers and are put back at what the pipeline leaves; what the core
    owes passes through, its recorded pairs still below the call's level (the pipeline's own waits sit at level 0). -/
def reg1 : Pipeline.RegionSeg (pcfgs (F := F)) adm (pdats m) ι₀ defs₀ 𝒱₀ (LL (F := F)) (lvl (F := F)) 1 where
  win := launch2.win.to₀
  block_pos := launch2.block_pos
  stage_whole := launch2.stage_whole
  K := PEmpty
  osem k := k.elim
  ho := Pipeline.OwnSemFacts.none _
  hbody c := Region1.body_obligation (Name := ℕ) (U := UU) (Lvl := ℕ) (V5 m) ((K (F := F)).Otc c 1) (Bn (F := F) c 1) 𝒱₀ ι₀ c
  hwaits c := Pipeline.cellsWaits_intro _ _ ι₀ 1 c fun w s t =>
    (K (F := F)).mayWait_none _ (Otc_none (F := F) c 1)
  pre c := TS (F := F) (W5 m) 1 c
  post c := TS (F := F) (W6 m) 1 c
  X c := iprop(∃ r, prngReg c r)
  Y c := iprop(∃ r, prngReg c r)
  Z c := Pipeline.unscopedRest (Ix := HIx 1) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left (s := Bn (F := F) c 1) (t := cfg2.waitPairs ι₀)))
      iexact HO
    isplitl [Hp]; · iexact Hp
    iexact Hrest
  hin c := Region1.hin (Name := ℕ) (U := UU) (Lvl := ℕ) (V5 m) ((K (F := F)).Otc c 1) (Bn (F := F) c 1) c _
  hout c := Region1.hout (Name := ℕ) (U := UU) (Lvl := ℕ) (V5 m) ((K (F := F)).Otc c 1) (Bn (F := F) c 1) c
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V5 m c) (V6 m c) ((pdats m 1 c).arrAt · cfg2.N) (hF1 m c) (hrest1 m c)
    rw [Pipeline.unscopedBufs_held] at hjoin
    iintro ⟨Ha, HO, Hp, Hrest⟩
    imodintro
    isplitl [Ha Hrest]
    · iapply hjoin; isplitl [Ha] <;> iassumption
    isplitl [Hp]; · iexact Hp
    iapply (Pipeline.owesWithin_mono c _ (bound_sub_Bn (F := F) cfg2 c 1))
    iexact HO

-- a library lemma stated over `pin pcs a p` unifies with the pinned configuration only when unification may unfold
-- plain definitions in a metavariable's type
set_option backward.isDefEq.respectTransparency.types false in
/-- Region 2 over the thread state: entered from every unscoped buffer at its entry contents, left at its exit
    contents. Its arrays split out of the unscoped buffers and are put back at what the pipeline leaves; what the core
    owes passes through, its recorded pairs still below the call's level (the pipeline's own waits sit at level 0). -/
def reg2 : Pipeline.RegionSeg (pcfgs (F := F)) adm (pdats m) ι₀ defs₀ 𝒱₀ (LL (F := F)) (lvl (F := F)) 2 where
  win := launch3.win.to₀
  block_pos := launch3.block_pos
  stage_whole := launch3.stage_whole
  K := PEmpty
  osem k := k.elim
  ho := Pipeline.OwnSemFacts.none _
  hbody c := Region2.body_obligation (Name := ℕ) (U := UU) (Lvl := ℕ) (V7 m) ((K (F := F)).Otc c 1) (Bn (F := F) c 1) 𝒱₀ ι₀ c
  hwaits c := Pipeline.cellsWaits_intro _ _ ι₀ 2 c fun w s t =>
    (K (F := F)).mayWait_none _ (Otc_none (F := F) c 1)
  pre c := TS (F := F) (W7 m) 1 c
  post c := TS (F := F) (W8 m) 1 c
  X c := iprop(∃ r, prngReg c r)
  Y c := iprop(∃ r, prngReg c r)
  Z c := Pipeline.unscopedRest (Ix := HIx 1) (Name := ℕ) (U := UU) (Lvl := ℕ) spec3 c (V7 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left (s := Bn (F := F) c 1) (t := cfg3.waitPairs ι₀)))
      iexact HO
    isplitl [Hp]; · iexact Hp
    iexact Hrest
  hin c := Region2.hin (Name := ℕ) (U := UU) (Lvl := ℕ) (V7 m) ((K (F := F)).Otc c 1) (Bn (F := F) c 1) c (adm 2)
  hout c := Region2.hout (Name := ℕ) (U := UU) (Lvl := ℕ) (V7 m) ((K (F := F)).Otc c 1) (Bn (F := F) c 1) c
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V7 m c) (V8 m c) ((pdats m 2 c).arrAt · cfg3.N) (hF2 m c) (hrest2 m c)
    rw [Pipeline.unscopedBufs_held] at hjoin
    iintro ⟨Ha, HO, Hp, Hrest⟩
    imodintro
    isplitl [Ha Hrest]
    · iapply hjoin; isplitl [Ha] <;> iassumption
    isplitl [Hp]; · iexact Hp
    iapply (Pipeline.owesWithin_mono c _ (bound_sub_Bn (F := F) cfg3 c 1))
    iexact HO

/-! ## The two halves of @main as segment lists -/

/-- Up to the SparseCore call: stretch A, region 0, stretch B. -/
abbrev segsA : List (Pipeline.Seg (pcfgs (F := F)) adm (pdats m) ι₀ defs₀ 𝒱₀ (LL (F := F)) (lvl (F := F))) :=
  [ .host (hseg hostOpsA hostOpsA_sub hostOpsA_fresh (W0 m) 0),
    .region (reg0 m),
    .host (hseg hostOpsB hostOpsB_sub hostOpsB_fresh (W2 m) 0) ]
/-- After it: stretch C, region 1, stretch D, region 2. -/
abbrev segsB : List (Pipeline.Seg (pcfgs (F := F)) adm (pdats m) ι₀ defs₀ 𝒱₀ (LL (F := F)) (lvl (F := F))) :=
  [ .host (hseg hostOpsC hostOpsC_sub hostOpsC_fresh (W4 m) 1),
    .region (reg1 m),
    .host (hseg hostOpsD hostOpsD_sub hostOpsD_fresh (W6 m) 1),
    .region (reg2 m) ]

theorem progA_eq : progA (F := F) = Pipeline.Seg.run (segsA m) := rfl
theorem progB_eq : progB (F := F) = Pipeline.Seg.run (segsB m) := rfl

/-! ## The halves run -/

-- the kit's implicit arguments are found by unifying its conclusion with this one
set_option backward.isDefEq.respectTransparency.types false in
/-- The first half on core `c`: from the launch contents to the contents the SparseCore call is entered with. -/
theorem wp_progA [∀ e, Nonempty (Elt F e)] (c : Dev nD) {Q : PUnit → sProp 𝕄} :
    iprop((iprop(boundary (c.tc : Thread nD τ) ∗ TS (F := F) (W3 m) 0 c) -∗ Q ⟨⟩)
        ∗ boundary (c.tc : Thread nD τ) ∗ TS (F := F) (W0 m) 0 c ∗ levAts (LL (F := F)) (lvl (F := F))
        ∗ Pipeline.ghostOn (pcfgs (F := F)) adm EP {0} c)
      ⊢ wp frame (wpE (D (F := F)) 𝒱 (c.tc : Thread nD τ) none) Set.univ (progA (F := F)) Q := by
  rw [progA_eq m]
  exact Pipeline.wp_segs (pcfgs (F := F)) adm (pdats m) ι₀ cellOf_inj EP defs₀ 𝒱₀ (LL (F := F)) (lvl (F := F)) c (segsA m) {0}
    (TS (F := F) (W0 m) 0) (TS (F := F) (W3 m) 0)
    (by simp only [segsA, Pipeline.Seg.pipes_host, Pipeline.Seg.pipes_region, Pipeline.Seg.pipes_nil]; decide)
    (by simp only [segsA, Pipeline.Seg.pipes_host, Pipeline.Seg.pipes_region, Pipeline.Seg.pipes_nil]; decide)
    ⟨fun _ => .rfl, fun _ => .rfl, fun _ => .rfl, fun _ => .rfl⟩

set_option backward.isDefEq.respectTransparency.types false in
/-- The second half on core `c`: from the contents the SparseCore call leaves to the return. -/
theorem wp_progB [∀ e, Nonempty (Elt F e)] (c : Dev nD) {Q : PUnit → sProp 𝕄} :
    iprop((iprop(boundary (c.tc : Thread nD τ) ∗ TS (F := F) (W8 m) 1 c) -∗ Q ⟨⟩)
        ∗ boundary (c.tc : Thread nD τ) ∗ TS (F := F) (W4 m) 1 c ∗ levAts (LL (F := F)) (lvl (F := F))
        ∗ Pipeline.ghostOn (pcfgs (F := F)) adm EP {1, 2} c)
      ⊢ wp frame (wpE (D (F := F)) 𝒱 (c.tc : Thread nD τ) none) Set.univ (progB (F := F)) Q := by
  rw [progB_eq m]
  exact Pipeline.wp_segs (pcfgs (F := F)) adm (pdats m) ι₀ cellOf_inj EP defs₀ 𝒱₀ (LL (F := F)) (lvl (F := F)) c (segsB m) {1, 2}
    (TS (F := F) (W4 m) 1) (TS (F := F) (W8 m) 1)
    (by simp only [segsB, Pipeline.Seg.pipes_host, Pipeline.Seg.pipes_region, Pipeline.Seg.pipes_nil]; decide)
    (by simp only [segsB, Pipeline.Seg.pipes_host, Pipeline.Seg.pipes_region, Pipeline.Seg.pipes_nil]; decide)
    ⟨fun _ => .rfl, fun _ => .rfl, fun _ => .rfl, fun _ => .rfl, fun _ => .rfl⟩

end Cert.Kernel.Main

end
-- ==== Proof.Twin.MainGhost.lean ====
/-
  The launch element of the certificate's ghost state, and what the launch makes of it.

  The element is a triple: the rounds of the launch handshakes' cells, the rounds of the three TensorCore pipelines'
  staging cells, and the unit of the tile kernel's transfer counters. Owning the triple is owning each component through
  its embedding. The pipelines' component funds, for every device and every pipeline, the staging cells' launch state
  and the duty tokens of the transfers the pipeline's loop will issue; grouped by device, that is what each TensorCore
  carries into its regions. The tile kernel asks nothing of the launch for a protocol of its own.
-/
import proofs.«213116_g69346541961480_cont_9to1_m_612_34_alg».proof.Proof.Twin.MainHost
import proofs.«213116_g69346541961480_cont_9to1_m_612_34_alg».proof.Proof.Twin.TilePay
import proofs.«213116_g69346541961480_cont_9to1_m_612_34_alg».proof.Proof.Gen.Kernel.Launch
import Idealize.ShloMosaic.Lib.SparseCore.Launch
import Idealize.ShloMosaic.Lib.Pipeline.Sound
import Idealize.ShloMosaic.Lib.Pipeline.Regions

noncomputable section

namespace Cert.Kernel.Main

open Cert.Kernel Cert.Kernel.Gen Cert.Kernel.Ghost Cert.Kernel.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshakes' rounds at their cells and tokens, the pipelines' rounds at the staging cells and
    the loops' transfers, no counter. -/
def u₀ : UU :=
  (initOf (K (F := F)).hsCells (K (F := F)).hsToks, (initOf (Pipeline.cells cfgs cellOf_inj) (Pipeline.launchToks cfgs cellOf_inj), 1))

/-- What the launch deals the TensorCore of device `d`: the rounds ghost state of its three pipelines. -/
abbrev G (d : Dev nD) : sProp 𝕄 := Pipeline.ghostOn (pcfgs (F := F)) adm EP Finset.univ d

/-- The pipelines' rounds and the counters together, embedded. -/
abbrev ER : Emb (UP × Counters) 𝕄 :=
  (Emb.inr : Emb (UP × Counters) UU).trans (uEmb (nD := nD) (sig := sig) (Ix := HIx 1) (Val := Elt F) (Name := ℕ) (U := UU) (Lvl := ℕ)).toEmb

/-- Owning a triple of the ghost state is owning its first two components, each through its embedding. -/
theorem ownU_split (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own (ER (F := F) (b, c))) := ownU_pair a (b, c)
  have h2 : (BI.own (ER (F := F) (b, c)) : sProp 𝕄) ⊢ iprop(BI.own (EP b) ∗ BI.own (((Emb.inr : Emb Counters (UP × Counters)).trans (ER (F := F))) c)) :=
    own_pair_emb (ER (F := F)) b c
  iintro Hu
  ihave H := h1 $$ Hu
  icases H with ⟨HH, HR⟩
  isplitl [HH]; · iexact HH
  ihave H2 := h2 $$ HR
  icases H2 with ⟨HP, -⟩
  iexact HP

/-- The cells' launch state and the duty tokens, device by device and pipeline by pipeline, are each device's share. -/
theorem ghost_devices :
    iprop((bigSep Finset.univ fun c : Dev nD => bigSep Finset.univ fun p : Fin 3 => Pipeline.cellsGhost cfgs EP p c)
        ∗ (bigSep Finset.univ fun c : Dev nD => bigSep Finset.univ fun p : Fin 3 => (Pipeline.toksInit cfgs EP p c : sProp 𝕄)))
      ⊢ bigSep Finset.univ fun d : Dev nD => G (F := F) d := by
  rw [← bigSep_sep']
  refine bigSep_mono fun c _ => ?_
  rw [← bigSep_sep']
  exact BI.Entails.refl _

/-- The tile kernel's protocol takes nothing from the launch. -/
theorem Px_emp (I : Tile.Ins F) :
    (bigSep Finset.univ fun thr : Thread nD τ => bigSep Finset.univ fun q : Fin 1 => (Tile.P I).x q thr) = (iprop(emp) : sProp 𝕄) :=
  (bigSep_congr (Ψ := fun _ : Thread nD τ => (BI.emp : sProp 𝕄)) fun _ _ => bigSep_emp_const _).trans (bigSep_emp_const _)

/-- The launch element yields the handshakes' element, every device's pipelines' ghost state, and the (empty) payloads
    of the tile kernel's own protocol. -/
theorem hu₀ (I : Tile.Ins F) :
    iprop(ownU (u₀ (F := F)) ∗ (Tile.P I).oxCred ∗ (K (F := F)).freeSems0)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => (Tile.P I).x q thr) := by
  rw [Px_emp I]
  unfold u₀
  iintro ⟨Hu, -, -⟩
  ihave H := (ownU_split _ _ _) $$ Hu
  icases H with ⟨HH, HP⟩
  imod (Pipeline.fund_ghost cfgs EP cellOf_inj) $$ HP with ⟨Hg, Ht⟩
  imodintro
  isplitl [HH]; · iexact HH
  isplitl [Hg Ht]
  · iapply (ghost_devices (F := F))
    isplitl [Hg]; · iexact Hg
    iexact Ht
  iempintro

/-- A device's ghost state is the first pipeline's and the other two's. -/
theorem G_split (d : Dev nD) :
    (G (F := F) d) = iprop(Pipeline.ghostOn (pcfgs (F := F)) adm EP {0} d ∗ Pipeline.ghostOn (pcfgs (F := F)) adm EP {1, 2} d) := by
  show Pipeline.PerCore.ghostOn (pcfgs (F := F)) (fun _ => adm) EP Finset.univ d
    = iprop(Pipeline.PerCore.ghostOn (pcfgs (F := F)) (fun _ => adm) EP {0} d ∗ Pipeline.PerCore.ghostOn (pcfgs (F := F)) (fun _ => adm) EP {1, 2} d)
  unfold Pipeline.PerCore.ghostOn
  rw [show (Finset.univ : Finset (Fin 3)) = {0} ∪ {1, 2} from by decide]
  exact bigSep_union (by decide)

end Cert.Kernel.Main

end
-- ==== Proof.Twin.TileSplit.lean ====
/-
  How the operands of the SparseCore call are dealt to its 32 workers and gathered back.

  The call has eight read-only operands and four results. Each read-only operand is held whole at the full share;
  halving the share 32 times leaves a remainder and 32 read tokens, one per worker. The 4096 + 40960 = 45056 = 32 · 1408
  result rows are cut into 32 runs of 1408 consecutive rows: the runs are pairwise disjoint and every row lies in the
  run numbered by its quotient by 1408. Each of the two 32 × 16 arrays of partial sums is cut into its 32 rows.
  The two cores' sixteen tasks each are the 32 workers, through the bijection (c, i) ↦ 2 i + c.
-/
import proofs.«213116_g69346541961480_cont_9to1_m_612_34_alg».proof.Proof.Twin.TilePay

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The 32 workers are the sixteen tasks of the two cores -/

theorem wid_lt (c : Fin 2) (i : Fin 16) : wid c i < 32 := by
  unfold wid; omega

/-- Every number below 32 is the worker number of exactly the pair (its parity, its half). -/
theorem wid_image : (Finset.univ : Finset (Fin 2 × Fin 16)).image (fun p => wid p.1 p.2) = Finset.range 32 := by
  ext x
  rw [Finset.mem_image, Finset.mem_range]
  constructor
  · rintro ⟨p, -, rfl⟩
    exact wid_lt p.1 p.2
  · intro hx
    refine ⟨(⟨x % 2, Nat.mod_lt _ (by decide)⟩, ⟨x / 2, by omega⟩), Finset.mem_univ _, ?_⟩
    show x / 2 * 2 + x % 2 = x
    omega

theorem wid_injOn : Set.InjOn (fun p : Fin 2 × Fin 16 => wid p.1 p.2) (Finset.univ : Finset (Fin 2 × Fin 16)) := by
  rintro ⟨c, i⟩ - ⟨c', i'⟩ - h
  have h' : i.val * 2 + c.val = i'.val * 2 + c'.val := h
  have hc := c.isLt
  have hc' := c'.isLt
  exact Prod.ext (Fin.ext (show c.val = c'.val by omega)) (Fin.ext (show i.val = i'.val by omega))

/-- A family indexed by the worker number, taken core by core and task by task, is the family over the numbers below 32. -/
theorem bigSep_workers (Φ : ℕ → sProp 𝕄) :
    (bigSep Finset.univ fun c : Fin 2 => bigSep Finset.univ fun i : Fin 16 => Φ (wid c i)) = bigSep (Finset.range 32) Φ := by
  rw [← wid_image, BI.bigSep_image_of_injOn wid_injOn, bigSep_univ_prod]

/-- The call's cores are the two cores. -/
theorem bigSep_cores (Φ : Fin 2 → sProp 𝕄) :
    (bigSep Finset.univ fun c : Fin ((K (F := F)).nCore 0) => Φ (Fin.cast nCore_zero c)) = bigSep Finset.univ Φ :=
  (bigSep_univ_equiv (finCongr (nCore_zero (F := F))) Φ).symm

/-! ## The result rows: 32 runs of 1408 -/

theorem tSet_disjoint : ∀ w ∈ Finset.range 32, ∀ w' ∈ Finset.range 32, w ≠ w' → Disjoint (tSet w) (tSet w') := by
  intro w _ w' _ hne
  rw [Finset.disjoint_left]
  intro x hx hx'
  unfold tSet at hx hx'
  rw [Finset.mem_filter] at hx hx'
  omega

theorem tSet_cover : (Finset.range 32).biUnion tSet = Finset.univ := by
  ext x
  simp only [Finset.mem_biUnion, Finset.mem_range, Finset.mem_univ, iff_true]
  have hx : (x 0).val < 4096 := (x 0).isLt
  refine ⟨(x 0).val / 1408, by omega, ?_⟩
  unfold tSet
  rw [Finset.mem_filter]
  exact ⟨Finset.mem_univ _, by omega, by omega⟩

theorem nSet_disjoint : ∀ w ∈ Finset.range 32, ∀ w' ∈ Finset.range 32, w ≠ w' → Disjoint (nSet w) (nSet w') := by
  intro w _ w' _ hne
  rw [Finset.disjoint_left]
  intro x hx hx'
  unfold nSet at hx hx'
  rw [Finset.mem_filter] at hx hx'
  omega

theorem nSet_cover : (Finset.range 32).biUnion nSet = Finset.univ := by
  ext x
  simp only [Finset.mem_biUnion, Finset.mem_range, Finset.mem_univ, iff_true]
  have hx : (x 0).val < 40960 := (x 0).isLt
  refine ⟨(4096 + (x 0).val) / 1408, by omega, ?_⟩
  unfold nSet
  rw [Finset.mem_filter]
  exact ⟨Finset.mem_univ _, by omega, by omega⟩

theorem sqRow_disjoint : ∀ w ∈ Finset.range 32, ∀ w' ∈ Finset.range 32, w ≠ w' → Disjoint (sqRow w) (sqRow w') := by
  intro w _ w' _ hne
  rw [Finset.disjoint_left]
  intro x hx hx'
  unfold sqRow at hx hx'
  rw [Finset.mem_filter] at hx hx'
  omega

theorem sqRow_cover : (Finset.range 32).biUnion sqRow = Finset.univ := by
  ext x
  simp only [Finset.mem_biUnion, Finset.mem_range, Finset.mem_univ, iff_true]
  have hx : (x 0).val < 32 := (x 0).isLt
  refine ⟨(x 0).val, hx, ?_⟩
  unfold sqRow
  rw [Finset.mem_filter]
  exact ⟨Finset.mem_univ _, rfl⟩

/-- An array held whole is held piece by piece along a cover of its entries by 32 pairwise disjoint sets. -/
theorem pts_pieces {ℓ : Loc nD τ sig} (Kw : ℕ → Finset (Idx ℓ))
    (hd : ∀ w ∈ Finset.range 32, ∀ w' ∈ Finset.range 32, w ≠ w' → Disjoint (Kw w) (Kw w'))
    (hc : (Finset.range 32).biUnion Kw = Finset.univ) (f : Buf (Elt F) ℓ) :
    (ℓ ↦{fullShare} f : sProp 𝕄) = bigSep (Finset.range 32) fun w => ℓ ↦[Kw w]{fullShare} f := by
  rw [← pointsTo_biUnion (Finset.range 32) Kw hd, hc]

/-- Held whole at some contents, it is held piece by piece at some contents. -/
theorem pts_pieces_exists {ℓ : Loc nD τ sig} (Kw : ℕ → Finset (Idx ℓ))
    (hd : ∀ w ∈ Finset.range 32, ∀ w' ∈ Finset.range 32, w ≠ w' → Disjoint (Kw w) (Kw w'))
    (hc : (Finset.range 32).biUnion Kw = Finset.univ) :
    (iprop(∃ f, ℓ ↦{fullShare} f) : sProp 𝕄) ⊢ bigSep (Finset.range 32) fun w => iprop(∃ f, ℓ ↦[Kw w]{fullShare} f) := by
  refine exists_elim fun f => ?_
  rw [pts_pieces Kw hd hc f]
  exact bigSep_mono fun w _ => exists_intro (Φ := fun g : Buf (Elt F) ℓ => (ℓ ↦[Kw w]{fullShare} g : sProp 𝕄)) f

/-! ## The read-only operands: 32 read tokens of each -/

/-- One array at the full share is the remainder after 32 halvings and the 32 tokens. -/
theorem pts_toks {ℓ : Loc nD τ sig} (f : Buf (Elt F) ℓ) :
    (ℓ ↦{fullShare} f : sProp 𝕄)
      = iprop((ℓ ↦{Transfers.shareDrop fullShare 32} f) ∗ bigSep (Finset.range 32) fun w => ℓ ↦{rsh w} f) :=
  BI.equiv_iff.mp ⟨(Transfers.pointsTo_toks_range fullShare 32).1, (Transfers.pointsTo_toks_range fullShare 32).2⟩

variable (I : Ins F) [FloatOps F]

/-- The read-only operands whole deal a share to each of the 32 workers and keep the rest. -/
theorem reads_split (d : Dev nD) :
    readsAt I d fullShare ⊢ iprop(readsAt I d (Transfers.shareDrop fullShare 32) ∗ bigSep (Finset.range 32) fun w => readsAt I d (rsh w)) := by
  unfold readsAt
  rw [bigSep_sep', bigSep_sep', bigSep_sep', bigSep_sep', bigSep_sep', bigSep_sep', bigSep_sep']
  rw [pts_toks (I.sp d), pts_toks (I.ap d), pts_toks (I.nid d), pts_toks (I.n1 d), pts_toks (I.n2 d), pts_toks (I.a1 d), pts_toks (I.a2 d),
    pts_toks (I.b d)]
  iintro ⟨⟨D1, B1⟩, ⟨D2, B2⟩, ⟨D3, B3⟩, ⟨D4, B4⟩, ⟨D5, B5⟩, ⟨D6, B6⟩, ⟨D7, B7⟩, ⟨D8, B8⟩⟩
  isplitl [D1 D2 D3 D4 D5 D6 D7 D8]
  · isplitl [D1]; · iexact D1
    isplitl [D2]; · iexact D2
    isplitl [D3]; · iexact D3
    isplitl [D4]; · iexact D4
    isplitl [D5]; · iexact D5
    isplitl [D6]; · iexact D6
    isplitl [D7]; · iexact D7
    iexact D8
  · isplitl [B1]; · iexact B1
    isplitl [B2]; · iexact B2
    isplitl [B3]; · iexact B3
    isplitl [B4]; · iexact B4
    isplitl [B5]; · iexact B5
    isplitl [B6]; · iexact B6
    isplitl [B7]; · iexact B7
    iexact B8

/-- The remainder and the 32 workers' shares make the read-only operands whole again. -/
theorem reads_join (d : Dev nD) :
    iprop(readsAt I d (Transfers.shareDrop fullShare 32) ∗ bigSep (Finset.range 32) fun w => readsAt I d (rsh w)) ⊢ readsAt I d fullShare := by
  unfold readsAt
  rw [bigSep_sep', bigSep_sep', bigSep_sep', bigSep_sep', bigSep_sep', bigSep_sep', bigSep_sep']
  rw [pts_toks (I.sp d), pts_toks (I.ap d), pts_toks (I.nid d), pts_toks (I.n1 d), pts_toks (I.n2 d), pts_toks (I.a1 d), pts_toks (I.a2 d),
    pts_toks (I.b d)]
  iintro ⟨⟨D1, D2, D3, D4, D5, D6, D7, D8⟩, ⟨B1, B2, B3, B4, B5, B6, B7, B8⟩⟩
  isplitl [D1 B1]
  · isplitl [D1]; · iexact D1
    iexact B1
  isplitl [D2 B2]
  · isplitl [D2]; · iexact D2
    iexact B2
  isplitl [D3 B3]
  · isplitl [D3]; · iexact D3
    iexact B3
  isplitl [D4 B4]
  · isplitl [D4]; · iexact D4
    iexact B4
  isplitl [D5 B5]
  · isplitl [D5]; · iexact D5
    iexact B5
  isplitl [D6 B6]
  · isplitl [D6]; · iexact D6
    iexact B6
  isplitl [D7 B7]
  · isplitl [D7]; · iexact D7
    iexact B7
  isplitl [D8]; · iexact D8
  iexact B8

/-! ## The cores' handshakes, worker by worker -/

/-- What the two cores are handed is what the 32 workers are handed; -/
theorem st_workers (d : Dev nD) :
    (bigSep Finset.univ fun c : Fin ((K (F := F)).nCore 0) => (P I).st 0 d c) = bigSep (Finset.range 32) fun w => goAt I d w := by
  rw [← bigSep_workers (fun w => goAt I d w)]
  exact bigSep_cores (fun c => bigSep Finset.univ fun i : Fin 16 => goAt I d (wid c i))

/-- what they hand back, likewise. -/
theorem dn_workers (d : Dev nD) :
    (bigSep Finset.univ fun c : Fin ((K (F := F)).nCore 0) => (P I).dn 0 d c) = bigSep (Finset.range 32) fun w => tdAt I d w := by
  rw [← bigSep_workers (fun w => tdAt I d w)]
  exact bigSep_cores (fun c => bigSep Finset.univ fun i : Fin 16 => tdAt I d (wid c i))

/-- Both cores' operands from the arrays whole: the read-only ones at their contents, the four results at any. -/
theorem st_of_whole (d : Dev nD) :
    iprop(readsAt I d fullShare ∗ (∃ f, e1tLoc d ↦{fullShare} f) ∗ (∃ f, e1nLoc d ↦{fullShare} f) ∗ (∃ f, sqtLoc d ↦{fullShare} f) ∗ (∃ f, sqnLoc d ↦{fullShare} f))
      ⊢ iprop(readsAt I d (Transfers.shareDrop fullShare 32) ∗ bigSep Finset.univ fun c : Fin ((K (F := F)).nCore 0) => (P I).st 0 d c) := by
  rw [st_workers]
  unfold goAt
  rw [bigSep_sep', bigSep_sep', bigSep_sep', bigSep_sep']
  iintro ⟨Hr, Ht, Hn, Hqt, Hqn⟩
  ihave Hr' := (reads_split I d) $$ Hr
  icases Hr' with ⟨Hd, Hw⟩
  isplitl [Hd]; · iexact Hd
  isplitl [Hw]; · iexact Hw
  isplitl [Ht]
  · iapply (pts_pieces_exists (ℓ := e1tLoc d) tSet tSet_disjoint tSet_cover); iexact Ht
  isplitl [Hn]
  · iapply (pts_pieces_exists (ℓ := e1nLoc d) nSet nSet_disjoint nSet_cover); iexact Hn
  isplitl [Hqt]
  · iapply (pts_pieces_exists (ℓ := sqtLoc d) sqRow sqRow_disjoint sqRow_cover); iexact Hqt
  iapply (pts_pieces_exists (ℓ := sqnLoc d) sqRow sqRow_disjoint sqRow_cover); iexact Hqn

/-- and back: the arrays whole, the four results at their values. -/
theorem whole_of_dn (d : Dev nD) :
    iprop(readsAt I d (Transfers.shareDrop fullShare 32) ∗ bigSep Finset.univ fun c : Fin ((K (F := F)).nCore 0) => (P I).dn 0 d c)
      ⊢ iprop(readsAt I d fullShare ∗ (e1tLoc d ↦{fullShare} E1t I d) ∗ (e1nLoc d ↦{fullShare} E1n I d) ∗ (sqtLoc d ↦{fullShare} Sqt I d) ∗ (sqnLoc d ↦{fullShare} Sqn I d)) := by
  rw [dn_workers]
  unfold tdAt
  rw [bigSep_sep', bigSep_sep', bigSep_sep', bigSep_sep']
  rw [pts_pieces (ℓ := e1tLoc d) tSet tSet_disjoint tSet_cover (E1t I d), pts_pieces (ℓ := e1nLoc d) nSet nSet_disjoint nSet_cover (E1n I d),
    pts_pieces (ℓ := sqtLoc d) sqRow sqRow_disjoint sqRow_cover (Sqt I d), pts_pieces (ℓ := sqnLoc d) sqRow sqRow_disjoint sqRow_cover (Sqn I d)]
  iintro ⟨Hd, Hw, Ht, Hn, Hqt, Hqn⟩
  isplitl [Hd Hw]
  · iapply (reads_join I d)
    isplitl [Hd]; · iexact Hd
    iexact Hw
  isplitl [Ht]; · iexact Ht
  isplitl [Hn]; · iexact Hn
  isplitl [Hqt]; · iexact Hqt
  iexact Hqn

end Cert.Kernel.Tile

end
-- ==== Proof.Twin.TileRow.lean ====
/-
  One chunk's arithmetic on a vector subcore: from the gathered self rows, neighbour rows, weights and the bias in
  the subcore's memory, the 32 result rows and the 16-lane sum of their squares; stated as the invariant of the
  32-trip row loop, one trip per row, for each of the two buffer sets.
-/
import proofs.«213116_g69346541961480_cont_9to1_m_612_34_alg».proof.Proof.Twin.TileDefs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueLayout
import Idealize.ShloMosaic.Lib.Writes
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Indices of the scratch buffers -/

def ix336 (r : ℕ) : S336.Idx := mkIdx S336 (by decide) ![r]
def ix32x128 (r c : ℕ) : S32x128.Idx := mkIdx S32x128 (by decide) ![r, c]
def ix320x128 (r c : ℕ) : S320x128.Idx := mkIdx S320x128 (by decide) ![r, c]
def ix16 (l : ℕ) : S16.Idx := mkIdx S16 (by decide) ![l]

section Values
variable [FloatOps F]

/-- Entry `(i, col)` of a chunk's result from the subcore's buffers: weights `fal[10 i + t]`, self row `i`,
    neighbour rows `10 i + t`, the bias. -/
def rowOut (fal : S336.Idx → F .f32) (fself : S32x128.Idx → F .f32) (fnbr : S320x128.Idx → F .f32) (fb : S128.Idx → F .f32)
    (i col : ℕ) : F .f32 :=
  rowVal (fself (ix32x128 i col)) (fb (ix128 col)) (fun t => fal (ix336 (10 * i + t.val))) (fun t => fnbr (ix320x128 (10 * i + t.val) col))

/-- One row's squares added to a 16-lane accumulator, the eight 16-column slices in order. -/
def sqRowStep (v : ℕ → F .f32) (acc : FVec F S16 .f32) : FVec F S16 .f32 :=
  (List.range 8).foldl (fun acc c => fun l => FloatOps.addf (acc l) (FloatOps.mulf (v (16 * c + (l 0).val)) (v (16 * c + (l 0).val)))) acc

/-- The accumulator after the first `k` rows, from zero. -/
def sqAcc (ro : ℕ → ℕ → F .f32) (k : ℕ) : FVec F S16 .f32 :=
  (List.range k).foldl (fun acc i => sqRowStep (ro i) acc) (fun _ => Scalar.ofBits .f32 0x00000000#32)

end Values

/-! ## Reading the subcore's buffers at a lane -/

section Leaves
open Idealize.ShloMosaic.ValueIdx
variable {Val : EltTy → Type}

/-- A load through a buffer held whole reads the contents at the load's own indices. -/
theorem readAt_whole_idx {κ : Kind} (b : Ref sig κ) (f : b.ty.Contents Val) (r : LoadRect b.ty.shape) (x : r.shape.Idx) :
    (View.whole b).readAt Val r f x = f (r.idx x) := rfl

/-- A one-row vector read as its sixteen lanes. -/
theorem cast_1x16 {α : Type} (v : S1x16.Idx → α) (h : S1x16.ShapeCasts S16) (l : S16.Idx) :
    shapeCast S16 v h l = v (ix2 (0 : Fin 1) (l 0)) := by
  rw [eq_ix1 l]; exact shapeCast_1a_a_apply v h (l 0)

/-- Sixteen lanes read as a one-row vector. -/
theorem cast_16x1 {α : Type} (v : S16.Idx → α) (h : S16.ShapeCasts S1x16) (x : S1x16.Idx) :
    shapeCast S1x16 v h x = v (ix1 (x 1)) := by
  rw [eq_ix2 x]; exact shapeCast_a_1a_apply v h (x 0) (x 1)

/-- The indices of a unit-stride window of a two-axis array: the offsets plus the window's own. -/
theorem idx_unit2 {n0 n1 : ℕ} (hpos : ∀ a, 0 < (⟨2, ![n0, n1]⟩ : Shape).size a) (off size : Fin 2 → ℕ)
    (inb : ∀ a, off a + size a ≤ (⟨2, ![n0, n1]⟩ : Shape).size a) (x : (Rect.unit (s := ⟨2, ![n0, n1]⟩) off size inb).shape.Idx) :
    (Rect.unit (s := ⟨2, ![n0, n1]⟩) off size inb).toLoadRect.idx x
      = mkIdx ⟨2, ![n0, n1]⟩ hpos ![off 0 + (x 0).val, off 1 + (x 1).val] := by
  funext a
  apply Fin.ext
  have hlt := ((Rect.unit (s := ⟨2, ![n0, n1]⟩) off size inb).toLoadRect.idx x a).isLt
  rw [mkIdx_val _ _ _ _ (by fin_cases a <;> simpa using hlt)]
  fin_cases a <;> simp

/-- and of a one-axis array. -/
theorem idx_unit1 {n0 : ℕ} (hpos : ∀ a, 0 < (⟨1, ![n0]⟩ : Shape).size a) (off size : Fin 1 → ℕ)
    (inb : ∀ a, off a + size a ≤ (⟨1, ![n0]⟩ : Shape).size a) (x : (Rect.unit (s := ⟨1, ![n0]⟩) off size inb).shape.Idx) :
    (Rect.unit (s := ⟨1, ![n0]⟩) off size inb).toLoadRect.idx x = mkIdx ⟨1, ![n0]⟩ hpos ![off 0 + (x 0).val] := by
  funext a
  apply Fin.ext
  have hlt := ((Rect.unit (s := ⟨1, ![n0]⟩) off size inb).toLoadRect.idx x a).isLt
  rw [mkIdx_val _ _ _ _ (by fin_cases a; simpa using hlt)]
  fin_cases a; simp

/-- In a buffer held whole, an element some store covers, after stores whose payloads all agree with one function of the
    index, holds that function's value; -/
theorem whole_writes_apply_of_pieces {κ : Kind} (b : Ref sig κ) (f : b.ty.Contents Val) (G : b.ty.shape.Idx → Val b.ty.elt)
    (L : List (View.Piece Val b.ty.shape b.ty.elt)) (hL : ∀ p ∈ L, ∀ x : p.1.shape.Idx, p.2 x = G (p.1.emb x))
    (y : b.ty.shape.Idx) (hy : ∃ p ∈ L, y ∈ p.1.set) : (View.whole b).writes Val f L y = G y :=
  View.read_writes_apply_of_pieces (View.whole b) f G L hL y hy

/-- one that no store covers holds what it held. -/
theorem whole_writes_apply_of_forall_not_mem {κ : Kind} (b : Ref sig κ) (f : b.ty.Contents Val)
    (L : List (View.Piece Val b.ty.shape b.ty.elt)) (y : b.ty.shape.Idx) (h : ∀ p ∈ L, y ∉ p.1.set) :
    (View.whole b).writes Val f L y = f y :=
  View.read_writes_apply_of_forall_not_mem (View.whole b) f y L h

/-- An index lies in the sixteen-column window at `(r, c)` of a two-axis array exactly when its row is `r` and its
    column is one of the sixteen from `c`. -/
theorem mem_window {n0 n1 : ℕ} {off : Fin 2 → ℕ} {inb : ∀ a, off a + S1x16.size a ≤ (⟨2, ![n0, n1]⟩ : Shape).size a} {r c : ℕ}
    (h : off = ![r, c]) (x : (⟨2, ![n0, n1]⟩ : Shape).Idx) :
    x ∈ (Rect.unit (s := ⟨2, ![n0, n1]⟩) off S1x16.size inb).set ↔ (x 0).val = r ∧ c ≤ (x 1).val ∧ (x 1).val < c + 16 := by
  subst h
  rw [Rect.mem_set_unit, Fin.forall_fin_two]
  simp only [Matrix.cons_val_zero, Matrix.cons_val_one, Matrix.head_cons]
  show (r ≤ (x 0).val ∧ (x 0).val < r + 1) ∧ (c ≤ (x 1).val ∧ (x 1).val < c + 16) ↔ _
  omega

end Leaves

section Values
variable [FloatOps F]

/-- One more row: its squares added to the accumulator of the rows before. -/
theorem sqAcc_succ (ro : ℕ → ℕ → F .f32) (k : ℕ) : sqAcc ro (k + 1) = sqRowStep (ro k) (sqAcc ro k) := by
  unfold sqAcc
  rw [List.range_succ, List.foldl_append]
  rfl

end Values

section Tile
variable [FloatOps F] (d : Dev nD) (L : grid1.Coords)

abbrev cV (L : grid1.Coords) : Fin τ.nSC := (L 0).castLE hcore1
abbrev jV (L : grid1.Coords) : Fin τ.nSub := (L 1).castLE hsub1
/-- The vector subcore's thread. -/
abbrev thr : Thread nD τ := V d (cV L) (jV L)

-- the scratch buffers whole, as the body is passed them
local notation "bAL0" => (Memref.whole cc1_scratch4 : Memref sig Kind.scVector Space.vmem S336 EltTy.f32)
local notation "bAL1" => (Memref.whole cc1_scratch5 : Memref sig Kind.scVector Space.vmem S336 EltTy.f32)
local notation "bSF0" => (Memref.whole cc1_scratch6 : Memref sig Kind.scVector Space.vmem S32x128 EltTy.f32)
local notation "bSF1" => (Memref.whole cc1_scratch7 : Memref sig Kind.scVector Space.vmem S32x128 EltTy.f32)
local notation "bNB0" => (Memref.whole cc1_scratch8 : Memref sig Kind.scVector Space.vmem S320x128 EltTy.f32)
local notation "bNB1" => (Memref.whole cc1_scratch9 : Memref sig Kind.scVector Space.vmem S320x128 EltTy.f32)
local notation "bOUT0" => (Memref.whole cc1_scratch10 : Memref sig Kind.scVector Space.vmem S32x128 EltTy.f32)
local notation "bOUT1" => (Memref.whole cc1_scratch11 : Memref sig Kind.scVector Space.vmem S32x128 EltTy.f32)
local notation "bB" => (Memref.whole cc1_scratch12 : Memref sig Kind.scVector Space.vmem S128 EltTy.f32)

/-- Before row `k` of the chunk in buffer set 0: the carried accumulator is the first `k` rows' squares, the inputs
    are untouched, and the output buffer holds the first `k` rows. -/
def RowInv0 (fal : Buf (Elt F) ((bAL0).view.loc (thr d L))) (fself : Buf (Elt F) ((bSF0).view.loc (thr d L)))
    (fnbr : Buf (Elt F) ((bNB0).view.loc (thr d L))) (fb : Buf (Elt F) ((bB).view.loc (thr d L))) (k : ℕ) (acc : FVec F S16 .f32) : sProp 𝕄 :=
  iprop(⌜acc = sqAcc (rowOut fal fself fnbr fb) k⌝ ∗ ((bAL0).view.loc (thr d L) ↦{fullShare} fal) ∗ ((bSF0).view.loc (thr d L) ↦{fullShare} fself)
    ∗ ((bNB0).view.loc (thr d L) ↦{fullShare} fnbr) ∗ ((bB).view.loc (thr d L) ↦{fullShare} fb)
    ∗ ∃ fo : Buf (Elt F) ((bOUT0).view.loc (thr d L)), ⌜∀ x : S32x128.Idx, (x 0).val < k → fo x = rowOut fal fself fnbr fb (x 0).val (x 1).val⌝
        ∗ ((bOUT0).view.loc (thr d L) ↦{fullShare} fo))

/-- The same for buffer set 1. -/
def RowInv1 (fal : Buf (Elt F) ((bAL1).view.loc (thr d L))) (fself : Buf (Elt F) ((bSF1).view.loc (thr d L)))
    (fnbr : Buf (Elt F) ((bNB1).view.loc (thr d L))) (fb : Buf (Elt F) ((bB).view.loc (thr d L))) (k : ℕ) (acc : FVec F S16 .f32) : sProp 𝕄 :=
  iprop(⌜acc = sqAcc (rowOut fal fself fnbr fb) k⌝ ∗ ((bAL1).view.loc (thr d L) ↦{fullShare} fal) ∗ ((bSF1).view.loc (thr d L) ↦{fullShare} fself)
    ∗ ((bNB1).view.loc (thr d L) ↦{fullShare} fnbr) ∗ ((bB).view.loc (thr d L) ↦{fullShare} fb)
    ∗ ∃ fo : Buf (Elt F) ((bOUT1).view.loc (thr d L)), ⌜∀ x : S32x128.Idx, (x 0).val < k → fo x = rowOut fal fself fnbr fb (x 0).val (x 1).val⌝
        ∗ ((bOUT1).view.loc (thr d L) ↦{fullShare} fo))

/-- The row loop's region in buffer set 0, at the kernel's operands. -/
abbrev rowBody0 (v2 : BitVec 32) (t1 : Fin k1_t1_loop.trips) :=
  k1_t2_body (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 v2 0#32 1#32 t1
/-- and in buffer set 1. -/
abbrev rowBody1 :=
  k1_t3_body (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20

set_option maxHeartbeats 4000000 in
/-- One row of buffer set 0. -/
theorem row_trip0 (v2 : BitVec 32) (t1 : Fin k1_t1_loop.trips) (fal : Buf (Elt F) ((bAL0).view.loc (thr d L))) (fself : Buf (Elt F) ((bSF0).view.loc (thr d L)))
    (fnbr : Buf (Elt F) ((bNB0).view.loc (thr d L))) (fb : Buf (Elt F) ((bB).view.loc (thr d L))) :
    ∀ (k : Fin k1_t2_loop.trips) (acc : FVec F S16 .f32), RowInv0 d L fal fself fnbr fb k.val acc
      ⊢ wp frame (wpE (defs₀ (F := F)) 𝒱₀ (thr d L) none) Set.univ (rowBody0 L v2 t1 k acc) (RowInv0 d L fal fself fnbr fb (k.val + 1)) := by
  intro k acc
  unfold RowInv0
  iintro ⟨%hacc, Hal, Hself, Hnbr, Hb, %fo, %hfo, Hout⟩
  sl_unfold [rowBody0]
  sl_unfold [k1_t2_body]
  sl_exec_parts
  sl_step
  isplitr
  · ipureintro
    -- the accumulator: the row's eight slices' squares added to the carried one
    rw [sqAcc_succ, ← hacc]
    funext l
    sl_unfold_run_names
    have e11 : ∀ t (ht : t < 10), k1_off11 k (BitVec.ofNat 32 t) = ![10 * k.val + t, 0] := fun t ht => k1_off11_eq k ⟨t, ht⟩
    have e13 : ∀ t (ht : t < 10), k1_off13 k (BitVec.ofNat 32 t) = ![10 * k.val + t, 16] := fun t ht => k1_off13_eq k ⟨t, ht⟩
    have e15 : ∀ t (ht : t < 10), k1_off15 k (BitVec.ofNat 32 t) = ![10 * k.val + t, 32] := fun t ht => k1_off15_eq k ⟨t, ht⟩
    have e17 : ∀ t (ht : t < 10), k1_off17 k (BitVec.ofNat 32 t) = ![10 * k.val + t, 48] := fun t ht => k1_off17_eq k ⟨t, ht⟩
    have e19 : ∀ t (ht : t < 10), k1_off19 k (BitVec.ofNat 32 t) = ![10 * k.val + t, 64] := fun t ht => k1_off19_eq k ⟨t, ht⟩
    have e21 : ∀ t (ht : t < 10), k1_off21 k (BitVec.ofNat 32 t) = ![10 * k.val + t, 80] := fun t ht => k1_off21_eq k ⟨t, ht⟩
    have e23 : ∀ t (ht : t < 10), k1_off23 k (BitVec.ofNat 32 t) = ![10 * k.val + t, 96] := fun t ht => k1_off23_eq k ⟨t, ht⟩
    have e25 : ∀ t (ht : t < 10), k1_off25 k (BitVec.ofNat 32 t) = ![10 * k.val + t, 112] := fun t ht => k1_off25_eq k ⟨t, ht⟩
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay110, k1_pay111, k1_pay112, addf, mulf, maximumf, ValueIdx.broadcast_apply, cast_1x16, shapeCast_self, readAt_whole_idx,
      idx_unit2 (n0 := 320) (n1 := 128) (by decide), idx_unit2 (n0 := 32) (n1 := 128) (by decide),
      idx_unit1 (n0 := 336) (by decide), idx_unit1 (n0 := 128) (by decide), extractAt, extractStridedSlice]
    simp only [k1_off9_eq, k1_off10_eq, k1_off12_eq, k1_off14_eq, k1_off16_eq, k1_off18_eq, k1_off20_eq, k1_off22_eq, k1_off24_eq, e11, e13, e15, e17, e19, e21, e23, e25, Nat.reduceLT, Matrix.cons_val_zero, Matrix.cons_val_one, Matrix.head_cons]
    rfl
  isplitl [Hal]; · iexact Hal
  isplitl [Hself]; · iexact Hself
  isplitl [Hnbr]; · iexact Hnbr
  isplitl [Hb]; · iexact Hb
  iexists _; isplitr
  swap
  · iexact Hout
  · ipureintro
    intro x hx
    sl_unfold_run_names
    have e11 : ∀ t (ht : t < 10), k1_off11 k (BitVec.ofNat 32 t) = ![10 * k.val + t, 0] := fun t ht => k1_off11_eq k ⟨t, ht⟩
    have e13 : ∀ t (ht : t < 10), k1_off13 k (BitVec.ofNat 32 t) = ![10 * k.val + t, 16] := fun t ht => k1_off13_eq k ⟨t, ht⟩
    have e15 : ∀ t (ht : t < 10), k1_off15 k (BitVec.ofNat 32 t) = ![10 * k.val + t, 32] := fun t ht => k1_off15_eq k ⟨t, ht⟩
    have e17 : ∀ t (ht : t < 10), k1_off17 k (BitVec.ofNat 32 t) = ![10 * k.val + t, 48] := fun t ht => k1_off17_eq k ⟨t, ht⟩
    have e19 : ∀ t (ht : t < 10), k1_off19 k (BitVec.ofNat 32 t) = ![10 * k.val + t, 64] := fun t ht => k1_off19_eq k ⟨t, ht⟩
    have e21 : ∀ t (ht : t < 10), k1_off21 k (BitVec.ofNat 32 t) = ![10 * k.val + t, 80] := fun t ht => k1_off21_eq k ⟨t, ht⟩
    have e23 : ∀ t (ht : t < 10), k1_off23 k (BitVec.ofNat 32 t) = ![10 * k.val + t, 96] := fun t ht => k1_off23_eq k ⟨t, ht⟩
    have e25 : ∀ t (ht : t < 10), k1_off25 k (BitVec.ofNat 32 t) = ![10 * k.val + t, 112] := fun t ht => k1_off25_eq k ⟨t, ht⟩
    by_cases hk : (x 0).val = k.val
    · -- row k: one of its eight windows holds the index, and what each store put there is the row's entry
      refine whole_writes_apply_of_pieces cc1_scratch10 fo (fun y => rowOut fal fself fnbr fb (y 0).val (y 1).val) _ ?_ x ?_
      · simp only [List.forall_mem_cons]
        refine ⟨?_, ?_, ?_, ?_, ?_, ?_, ?_, ?_, fun _ h => absurd h List.not_mem_nil⟩
        all_goals
          intro y
          have hy0 : (y 0).val = 0 := Nat.lt_one_iff.mp (y 0).isLt
          simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay110, k1_pay111, k1_pay112, addf, mulf, maximumf, ValueIdx.broadcast_apply, cast_1x16, cast_16x1, shapeCast_self, readAt_whole_idx,
            idx_unit2 (n0 := 320) (n1 := 128) (by decide), idx_unit2 (n0 := 32) (n1 := 128) (by decide),
            idx_unit1 (n0 := 336) (by decide), idx_unit1 (n0 := 128) (by decide), extractAt, extractStridedSlice,
            Rect.emb_apply, Rect.off_unit, Rect.stride_unit, Nat.one_mul]
          simp only [k1_off9_eq, k1_off10_eq, k1_off12_eq, k1_off14_eq, k1_off16_eq, k1_off18_eq, k1_off20_eq, k1_off22_eq, k1_off24_eq, e11, e13, e15, e17, e19, e21, e23, e25, Nat.reduceLT, Matrix.cons_val_zero, Matrix.cons_val_one, Matrix.head_cons, hy0]
          rfl
      · have h128 : (x 1).val < 128 := (x 1).isLt
        rcases (by omega : (x 1).val < 16 ∨ (16 ≤ (x 1).val ∧ (x 1).val < 32) ∨ (32 ≤ (x 1).val ∧ (x 1).val < 48)
            ∨ (48 ≤ (x 1).val ∧ (x 1).val < 64) ∨ (64 ≤ (x 1).val ∧ (x 1).val < 80) ∨ (80 ≤ (x 1).val ∧ (x 1).val < 96)
            ∨ (96 ≤ (x 1).val ∧ (x 1).val < 112) ∨ (112 ≤ (x 1).val ∧ (x 1).val < 128)) with h | h | h | h | h | h | h | h
        · have hm : x ∈ (Rect.unit (s := S32x128) (k1_off10 k) S1x16.size (k1_off10_inb k)).set :=
            (mem_window (k1_off10_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ (List.mem_cons_of_mem _ List.mem_cons_self)))))), hm⟩
        · have hm : x ∈ (Rect.unit (s := S32x128) (k1_off12 k) S1x16.size (k1_off12_inb k)).set :=
            (mem_window (k1_off12_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ List.mem_cons_self))))), hm⟩
        · have hm : x ∈ (Rect.unit (s := S32x128) (k1_off14 k) S1x16.size (k1_off14_inb k)).set :=
            (mem_window (k1_off14_eq k) x).mpr ⟨hk, by omega, by omega⟩
          exact ⟨_, List.mem_cons_of_mem _ (List.mem_cons_of_mem _ (List.mem_cons_of_mem _ (List.mem_cons_of_mem _ (List.mem_cons_of_mem _
            List.mem_cons_self)))), hm⟩
        · have hm : x ∈ (Rect.unit (s := S32x128) (k1_off16 k) S1x16.size (k1_off16_inb k)).set :=
            (mem_window (k1_off16_eq k) x).mpr ⟨hk, by omega, by omega⟩
          exact ⟨_, List.mem_cons_of_mem _ (List.mem_cons_of_mem _ (List.mem_cons_of_mem _ (List.mem_cons_of_mem _ List.mem_cons_self))), hm⟩
        · have hm : x ∈ (Rect.unit (s := S32x128) (k1_off18 k) S1x16.size (k1_off18_inb k)).set :=
            (mem_window (k1_off18_eq k) x).mpr ⟨hk, by omega, by omega⟩
          exact ⟨_, List.mem_cons_of_mem _ (List.mem_cons_of_mem _ (List.mem_cons_of_mem _ List.mem_cons_self)), hm⟩
        · have hm : x ∈ (Rect.unit (s := S32x128) (k1_off20 k) S1x16.size (k1_off20_inb k)).set :=
            (mem_window (k1_off20_eq k) x).mpr ⟨hk, by omega, by omega⟩
          exact ⟨_, List.mem_cons_of_mem _ (List.mem_cons_of_mem _ List.mem_cons_self), hm⟩
        · have hm : x ∈ (Rect.unit (s := S32x128) (k1_off22 k) S1x16.size (k1_off22_inb k)).set :=
            (mem_window (k1_off22_eq k) x).mpr ⟨hk, by omega, by omega⟩
          exact ⟨_, List.mem_cons_of_mem _ List.mem_cons_self, hm⟩
        · have hm : x ∈ (Rect.unit (s := S32x128) (k1_off24 k) S1x16.size (k1_off24_inb k)).set :=
            (mem_window (k1_off24_eq k) x).mpr ⟨hk, by omega, by omega⟩
          exact ⟨_, List.mem_cons_self, hm⟩
    · -- a row below k: none of row k's windows holds the index
      refine (whole_writes_apply_of_forall_not_mem cc1_scratch10 fo _ x ?_).trans (hfo x (by omega))
      simp only [List.forall_mem_cons]
      exact ⟨fun hm => hk ((mem_window (k1_off24_eq k) x).mp hm).1, fun hm => hk ((mem_window (k1_off22_eq k) x).mp hm).1,
        fun hm => hk ((mem_window (k1_off20_eq k) x).mp hm).1, fun hm => hk ((mem_window (k1_off18_eq k) x).mp hm).1,
        fun hm => hk ((mem_window (k1_off16_eq k) x).mp hm).1, fun hm => hk ((mem_window (k1_off14_eq k) x).mp hm).1,
        fun hm => hk ((mem_window (k1_off12_eq k) x).mp hm).1, fun hm => hk ((mem_window (k1_off10_eq k) x).mp hm).1,
        fun _ h => absurd h List.not_mem_nil⟩

set_option maxHeartbeats 4000000 in
/-- One row of buffer set 1. -/
theorem row_trip1 (fal : Buf (Elt F) ((bAL1).view.loc (thr d L))) (fself : Buf (Elt F) ((bSF1).view.loc (thr d L)))
    (fnbr : Buf (Elt F) ((bNB1).view.loc (thr d L))) (fb : Buf (Elt F) ((bB).view.loc (thr d L))) :
    ∀ (k : Fin k1_t3_loop.trips) (acc : FVec F S16 .f32), RowInv1 d L fal fself fnbr fb k.val acc
      ⊢ wp frame (wpE (defs₀ (F := F)) 𝒱₀ (thr d L) none) Set.univ (rowBody1 L k acc) (RowInv1 d L fal fself fnbr fb (k.val + 1)) := by
  intro k acc
  unfold RowInv1
  iintro ⟨%hacc, Hal, Hself, Hnbr, Hb, %fo, %hfo, Hout⟩
  sl_unfold [rowBody1]
  sl_unfold [k1_t3_body]
  sl_exec_parts
  sl_step
  isplitr
  · ipureintro
    -- the accumulator: the row's eight slices' squares added to the carried one
    rw [sqAcc_succ, ← hacc]
    funext l
    sl_unfold_run_names
    have e34 : ∀ t (ht : t < 10), k1_off34 k (BitVec.ofNat 32 t) = ![10 * k.val + t, 0] := fun t ht => k1_off34_eq k ⟨t, ht⟩
    have e36 : ∀ t (ht : t < 10), k1_off36 k (BitVec.ofNat 32 t) = ![10 * k.val + t, 16] := fun t ht => k1_off36_eq k ⟨t, ht⟩
    have e38 : ∀ t (ht : t < 10), k1_off38 k (BitVec.ofNat 32 t) = ![10 * k.val + t, 32] := fun t ht => k1_off38_eq k ⟨t, ht⟩
    have e40 : ∀ t (ht : t < 10), k1_off40 k (BitVec.ofNat 32 t) = ![10 * k.val + t, 48] := fun t ht => k1_off40_eq k ⟨t, ht⟩
    have e42 : ∀ t (ht : t < 10), k1_off42 k (BitVec.ofNat 32 t) = ![10 * k.val + t, 64] := fun t ht => k1_off42_eq k ⟨t, ht⟩
    have e44 : ∀ t (ht : t < 10), k1_off44 k (BitVec.ofNat 32 t) = ![10 * k.val + t, 80] := fun t ht => k1_off44_eq k ⟨t, ht⟩
    have e46 : ∀ t (ht : t < 10), k1_off46 k (BitVec.ofNat 32 t) = ![10 * k.val + t, 96] := fun t ht => k1_off46_eq k ⟨t, ht⟩
    have e48 : ∀ t (ht : t < 10), k1_off48 k (BitVec.ofNat 32 t) = ![10 * k.val + t, 112] := fun t ht => k1_off48_eq k ⟨t, ht⟩
    simp only [k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay118, k1_pay119, k1_pay120, addf, mulf, maximumf, ValueIdx.broadcast_apply, cast_1x16, shapeCast_self, readAt_whole_idx,
      idx_unit2 (n0 := 320) (n1 := 128) (by decide), idx_unit2 (n0 := 32) (n1 := 128) (by decide),
      idx_unit1 (n0 := 336) (by decide), idx_unit1 (n0 := 128) (by decide), extractAt, extractStridedSlice]
    simp only [k1_off32_eq, k1_off33_eq, k1_off35_eq, k1_off37_eq, k1_off39_eq, k1_off41_eq, k1_off43_eq, k1_off45_eq, k1_off47_eq, e34, e36, e38, e40, e42, e44, e46, e48, Nat.reduceLT, Matrix.cons_val_zero, Matrix.cons_val_one, Matrix.head_cons]
    rfl
  isplitl [Hal]; · iexact Hal
  isplitl [Hself]; · iexact Hself
  isplitl [Hnbr]; · iexact Hnbr
  isplitl [Hb]; · iexact Hb
  iexists _; isplitr
  swap
  · iexact Hout
  · ipureintro
    intro x hx
    sl_unfold_run_names
    have e34 : ∀ t (ht : t < 10), k1_off34 k (BitVec.ofNat 32 t) = ![10 * k.val + t, 0] := fun t ht => k1_off34_eq k ⟨t, ht⟩
    have e36 : ∀ t (ht : t < 10), k1_off36 k (BitVec.ofNat 32 t) = ![10 * k.val + t, 16] := fun t ht => k1_off36_eq k ⟨t, ht⟩
    have e38 : ∀ t (ht : t < 10), k1_off38 k (BitVec.ofNat 32 t) = ![10 * k.val + t, 32] := fun t ht => k1_off38_eq k ⟨t, ht⟩
    have e40 : ∀ t (ht : t < 10), k1_off40 k (BitVec.ofNat 32 t) = ![10 * k.val + t, 48] := fun t ht => k1_off40_eq k ⟨t, ht⟩
    have e42 : ∀ t (ht : t < 10), k1_off42 k (BitVec.ofNat 32 t) = ![10 * k.val + t, 64] := fun t ht => k1_off42_eq k ⟨t, ht⟩
    have e44 : ∀ t (ht : t < 10), k1_off44 k (BitVec.ofNat 32 t) = ![10 * k.val + t, 80] := fun t ht => k1_off44_eq k ⟨t, ht⟩
    have e46 : ∀ t (ht : t < 10), k1_off46 k (BitVec.ofNat 32 t) = ![10 * k.val + t, 96] := fun t ht => k1_off46_eq k ⟨t, ht⟩
    have e48 : ∀ t (ht : t < 10), k1_off48 k (BitVec.ofNat 32 t) = ![10 * k.val + t, 112] := fun t ht => k1_off48_eq k ⟨t, ht⟩
    by_cases hk : (x 0).val = k.val
    · -- row k: one of its eight windows holds the index, and what each store put there is the row's entry
      refine whole_writes_apply_of_pieces cc1_scratch11 fo (fun y => rowOut fal fself fnbr fb (y 0).val (y 1).val) _ ?_ x ?_
      · simp only [List.forall_mem_cons]
        refine ⟨?_, ?_, ?_, ?_, ?_, ?_, ?_, ?_, fun _ h => absurd h List.not_mem_nil⟩
        all_goals
          intro y
          have hy0 : (y 0).val = 0 := Nat.lt_one_iff.mp (y 0).isLt
          simp only [k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay118, k1_pay119, k1_pay120, addf, mulf, maximumf, ValueIdx.broadcast_apply, cast_1x16, cast_16x1, shapeCast_self, readAt_whole_idx,
            idx_unit2 (n0 := 320) (n1 := 128) (by decide), idx_unit2 (n0 := 32) (n1 := 128) (by decide),
            idx_unit1 (n0 := 336) (by decide), idx_unit1 (n0 := 128) (by decide), extractAt, extractStridedSlice,
            Rect.emb_apply, Rect.off_unit, Rect.stride_unit, Nat.one_mul]
          simp only [k1_off32_eq, k1_off33_eq, k1_off35_eq, k1_off37_eq, k1_off39_eq, k1_off41_eq, k1_off43_eq, k1_off45_eq, k1_off47_eq, e34, e36, e38, e40, e42, e44, e46, e48, Nat.reduceLT, Matrix.cons_val_zero, Matrix.cons_val_one, Matrix.head_cons, hy0]
          rfl
      · have h128 : (x 1).val < 128 := (x 1).isLt
        rcases (by omega : (x 1).val < 16 ∨ (16 ≤ (x 1).val ∧ (x 1).val < 32) ∨ (32 ≤ (x 1).val ∧ (x 1).val < 48)
            ∨ (48 ≤ (x 1).val ∧ (x 1).val < 64) ∨ (64 ≤ (x 1).val ∧ (x 1).val < 80) ∨ (80 ≤ (x 1).val ∧ (x 1).val < 96)
            ∨ (96 ≤ (x 1).val ∧ (x 1).val < 112) ∨ (112 ≤ (x 1).val ∧ (x 1).val < 128)) with h | h | h | h | h | h | h | h
        · have hm : x ∈ (Rect.unit (s := S32x128) (k1_off33 k) S1x16.size (k1_off33_inb k)).set :=
            (mem_window (k1_off33_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ (List.mem_cons_of_mem _ List.mem_cons_self)))))), hm⟩
        · have hm : x ∈ (Rect.unit (s := S32x128) (k1_off35 k) S1x16.size (k1_off35_inb k)).set :=
            (mem_window (k1_off35_eq k) x).mpr ⟨hk, by omega, by omega⟩
          exact ⟨_, List.mem_cons_of_mem _ (List.mem_cons_of_mem _ (List.mem_cons_of_mem _ (List.mem_cons_of_mem _ (List.mem_cons_of_mem _
            (List.mem_cons_of_mem _ List.mem_cons_self))))), hm⟩
        · have hm : x ∈ (Rect.unit (s := S32x128) (k1_off37 k) S1x16.size (k1_off37_inb k)).set :=
            (mem_window (k1_off37_eq k) x).mpr ⟨hk, by omega, by omega⟩
          exact ⟨_, List.mem_cons_of_mem _ (List.mem_cons_of_mem _ (List.mem_cons_of_mem _ (List.mem_cons_of_mem _ (List.mem_cons_of_mem _
            List.mem_cons_self)))), hm⟩
        · have hm : x ∈ (Rect.unit (s := S32x128) (k1_off39 k) S1x16.size (k1_off39_inb k)).set :=
            (mem_window (k1_off39_eq k) x).mpr ⟨hk, by omega, by omega⟩
          exact ⟨_, List.mem_cons_of_mem _ (List.mem_cons_of_mem _ (List.mem_cons_of_mem _ (List.mem_cons_of_mem _ List.mem_cons_self))), hm⟩
        · have hm : x ∈ (Rect.unit (s := S32x128) (k1_off41 k) S1x16.size (k1_off41_inb k)).set :=
            (mem_window (k1_off41_eq k) x).mpr ⟨hk, by omega, by omega⟩
          exact ⟨_, List.mem_cons_of_mem _ (List.mem_cons_of_mem _ (List.mem_cons_of_mem _ List.mem_cons_self)), hm⟩
        · have hm : x ∈ (Rect.unit (s := S32x128) (k1_off43 k) S1x16.size (k1_off43_inb k)).set :=
            (mem_window (k1_off43_eq k) x).mpr ⟨hk, by omega, by omega⟩
          exact ⟨_, List.mem_cons_of_mem _ (List.mem_cons_of_mem _ List.mem_cons_self), hm⟩
        · have hm : x ∈ (Rect.unit (s := S32x128) (k1_off45 k) S1x16.size (k1_off45_inb k)).set :=
            (mem_window (k1_off45_eq k) x).mpr ⟨hk, by omega, by omega⟩
          exact ⟨_, List.mem_cons_of_mem _ List.mem_cons_self, hm⟩
        · have hm : x ∈ (Rect.unit (s := S32x128) (k1_off47 k) S1x16.size (k1_off47_inb k)).set :=
            (mem_window (k1_off47_eq k) x).mpr ⟨hk, by omega, by omega⟩
          exact ⟨_, List.mem_cons_self, hm⟩
    · -- a row below k: none of row k's windows holds the index
      refine (whole_writes_apply_of_forall_not_mem cc1_scratch11 fo _ x ?_).trans (hfo x (by omega))
      simp only [List.forall_mem_cons]
      exact ⟨fun hm => hk ((mem_window (k1_off47_eq k) x).mp hm).1, fun hm => hk ((mem_window (k1_off45_eq k) x).mp hm).1,
        fun hm => hk ((mem_window (k1_off43_eq k) x).mp hm).1, fun hm => hk ((mem_window (k1_off41_eq k) x).mp hm).1,
        fun hm => hk ((mem_window (k1_off39_eq k) x).mp hm).1, fun hm => hk ((mem_window (k1_off37_eq k) x).mp hm).1,
        fun hm => hk ((mem_window (k1_off35_eq k) x).mp hm).1, fun hm => hk ((mem_window (k1_off33_eq k) x).mp hm).1,
        fun _ h => absurd h List.not_mem_nil⟩

end Tile
end Cert.Kernel.Tile
end
-- ==== Proof.Twin.TileArith.lean ====
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The kernel's conditions and the offsets past row 4096, in closed form -/

theorem k1_cond1_iff : ∀ i : grid1.Coords, k1_cond1 i = 1#1 ↔ 2816 * (i 1).val + 1408 * (i 0).val < 4096 := by decide +kernel
theorem k1_cond2_iff : ∀ i : grid1.Coords, k1_cond2 i = 1#1 ↔ 4096 ≤ 2816 * (i 1).val + 1408 * (i 0).val := by decide +kernel
theorem k1_cond3_iff : ∀ (i : grid1.Coords) (t : Fin k1_t1_loop.trips), k1_cond3 i t = 1#1 ↔ 2816 * (i 1).val + 1408 * (i 0).val + 64 * t.val + 32 < 4096 := by decide +kernel
theorem k1_cond4_iff : ∀ (i : grid1.Coords) (t : Fin k1_t1_loop.trips), k1_cond4 i t = 1#1 ↔ 4096 ≤ 2816 * (i 1).val + 1408 * (i 0).val + 64 * t.val + 32 := by decide +kernel
theorem k1_cond6_iff : ∀ (i : grid1.Coords) (t : Fin k1_t1_loop.trips), k1_cond6 i t = 1#1 ↔ 2816 * (i 1).val + 1408 * (i 0).val + 64 * t.val < 4096 := by decide +kernel
theorem k1_cond7_iff : ∀ (i : grid1.Coords) (t : Fin k1_t1_loop.trips), k1_cond7 i t = 1#1 ↔ 4096 ≤ 2816 * (i 1).val + 1408 * (i 0).val + 64 * t.val := by decide +kernel
theorem k1_cond8_iff : ∀ (t : Fin k1_t1_loop.trips), k1_cond8 t = 1#1 ↔ t.val + 1 < 22 := by decide +kernel
theorem k1_cond9_iff : ∀ (i : grid1.Coords) (t : Fin k1_t1_loop.trips), k1_cond9 i t = 1#1 ↔ 2816 * (i 1).val + 1408 * (i 0).val + 64 * t.val + 64 < 4096 := by decide +kernel
theorem k1_cond10_iff : ∀ (i : grid1.Coords) (t : Fin k1_t1_loop.trips), k1_cond10 i t = 1#1 ↔ 4096 ≤ 2816 * (i 1).val + 1408 * (i 0).val + 64 * t.val + 64 := by decide +kernel
theorem k1_cond12_iff : ∀ (i : grid1.Coords) (t : Fin k1_t1_loop.trips), k1_cond12 i t = 1#1 ↔ 2816 * (i 1).val + 1408 * (i 0).val + 64 * t.val + 32 < 4096 := by decide +kernel
theorem k1_cond13_iff : ∀ (i : grid1.Coords) (t : Fin k1_t1_loop.trips), k1_cond13 i t = 1#1 ↔ 4096 ≤ 2816 * (i 1).val + 1408 * (i 0).val + 64 * t.val + 32 := by decide +kernel

theorem k1_off3_eq' : ∀ i : grid1.Coords, k1_cond2 i = 1#1 → k1_off3 i = ![2816 * (i 1).val + 1408 * (i 0).val - 4096] := by decide +kernel
theorem k1_off4_eq' : ∀ i : grid1.Coords, k1_cond2 i = 1#1 → k1_off4 i = ![(2816 * (i 1).val + 1408 * (i 0).val - 4096) * 10] := by decide +kernel
theorem k1_off7_eq' : ∀ (i : grid1.Coords) (t : Fin k1_t1_loop.trips), k1_cond4 i t = 1#1 → k1_off7 i t = ![2816 * (i 1).val + 1408 * (i 0).val + 64 * t.val + 32 - 4096] := by decide +kernel
theorem k1_off8_eq' : ∀ (i : grid1.Coords) (t : Fin k1_t1_loop.trips), k1_cond4 i t = 1#1 → k1_off8 i t = ![(2816 * (i 1).val + 1408 * (i 0).val + 64 * t.val + 32 - 4096) * 10] := by decide +kernel
theorem k1_off27_eq' : ∀ (i : grid1.Coords) (t : Fin k1_t1_loop.trips), k1_cond7 i t = 1#1 → k1_off27 i t = ![2816 * (i 1).val + 1408 * (i 0).val + 64 * t.val - 4096, 0] := by decide +kernel
theorem k1_off30_eq' : ∀ (i : grid1.Coords) (t : Fin k1_t1_loop.trips), k1_cond10 i t = 1#1 → k1_off30 i t = ![2816 * (i 1).val + 1408 * (i 0).val + 64 * t.val + 64 - 4096] := by decide +kernel
theorem k1_off31_eq' : ∀ (i : grid1.Coords) (t : Fin k1_t1_loop.trips), k1_cond10 i t = 1#1 → k1_off31 i t = ![(2816 * (i 1).val + 1408 * (i 0).val + 64 * t.val + 64 - 4096) * 10] := by decide +kernel
theorem k1_off50_eq' : ∀ (i : grid1.Coords) (t : Fin k1_t1_loop.trips), k1_cond13 i t = 1#1 → k1_off50 i t = ![2816 * (i 1).val + 1408 * (i 0).val + 64 * t.val + 32 - 4096, 0] := by decide +kernel

end Cert.Kernel.Tile
end
-- ==== Proof.Twin.TileInv.lean ====
/-
  The state of a vector subcore between two pairs of chunks of the graph-convolution kernel: which buffers hold what,
  which gathers and copy-outs are under way, which rows of the results are written.
-/
import proofs.«213116_g69346541961480_cont_9to1_m_612_34_alg».proof.Proof.Twin.TileRow
import proofs.«213116_g69346541961480_cont_9to1_m_612_34_alg».proof.Proof.Twin.TileArith
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

/-! ## What a chunk's lists hold -/

/-- The self index of row `i` of the chunk starting at row `r0`; -/
def selfIdx (d : Dev nD) (r0 i : ℕ) : BitVec 32 :=
  if r0 < 4096 then I.nid d (ix4096 (r0 + i)) else I.n1 d (ix40960 (r0 - 4096 + i))
/-- its `j`-th neighbour index (`j < 320`: ten per row); -/
def nbrIdx (d : Dev nD) (r0 j : ℕ) : BitVec 32 :=
  if r0 < 4096 then I.n1 d (ix40960 (r0 * 10 + j)) else I.n2 d (ix409600 ((r0 - 4096) * 10 + j))
/-- its `j`-th weight. -/
def alph (d : Dev nD) (r0 j : ℕ) : F .f32 :=
  if r0 < 4096 then I.a1 d (ix40960 (r0 * 10 + j)) else I.a2 d (ix409600 ((r0 - 4096) * 10 + j))

/-- A worker's accumulated sum of squares over its first `n` chunks of one kind. -/
def tileSqUpto [FloatOps F] (d : Dev nD) (w n : ℕ) (tgt : Bool) (lane : ℕ) : F .f32 :=
  (List.range n).foldl (fun acc j => if decide (w * 1408 + 32 * j < 4096) = tgt then FloatOps.addf acc (chunkSq I d (w * 1408 + 32 * j) lane) else acc)
    (Scalar.ofBits .f32 0x00000000#32)

section Tile
variable (d : Dev nD) (L : grid1.Coords)

theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)
abbrev wL (L : grid1.Coords) : ℕ := wid (cL L) (jL L)
/-- The worker's first row; the first row of pair `k`'s first chunk. -/
def base (L : grid1.Coords) : ℕ := 2816 * (L 1).val + 1408 * (L 0).val
def rA (L : grid1.Coords) (k : ℕ) : ℕ := base L + 64 * k

local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- The two tables as the gathers slice them (whole). -/
abbrev spSl : Memref sig .scVector .hbm S100000x128 .f32 :=
  (m_sp).slice (Rect.unit (s := S100000x128) ![0, 0] S100000x128.size inb_S100000x128_S100000x128_0_0) (fun _ => rfl)
abbrev apSl : Memref sig .scVector .hbm S100000x128 .f32 :=
  (m_ap).slice (Rect.unit (s := S100000x128) ![0, 0] S100000x128.size inb_S100000x128_S100000x128_0_0) (fun _ => rfl)

/-! ## Rows of the results -/

def cT (r0 : ℕ) : Finset S4096x128.Idx := Finset.univ.filter fun x => r0 ≤ (x 0).val ∧ (x 0).val < r0 + 32
def cN (e0 : ℕ) : Finset S40960x128.Idx := Finset.univ.filter fun x => e0 ≤ (x 0).val ∧ (x 0).val < e0 + 32
def tRem (w r : ℕ) : Finset S4096x128.Idx := (tSet w).filter fun x => r ≤ (x 0).val
def tDone (w r : ℕ) : Finset S4096x128.Idx := (tSet w).filter fun x => (x 0).val < r
def nRem (w r : ℕ) : Finset S40960x128.Idx := (nSet w).filter fun x => r ≤ 4096 + (x 0).val
def nDone (w r : ℕ) : Finset S40960x128.Idx := (nSet w).filter fun x => 4096 + (x 0).val < r

variable [FloatOps F]

/-- The written rows of the chunk starting at `r0`, in whichever result it belongs to. -/
def outDone (r0 : ℕ) : sProp 𝕄 :=
  if r0 < 4096 then iprop((m_e1t).view.loc (thr d L) ↦[cT r0]{fullShare} E1t I d)
  else iprop((m_e1n).view.loc (thr d L) ↦[cN (r0 - 4096)]{fullShare} E1n I d)

/-! ## Transfers under way -/

/-- The gather of the chunk's S0 rows into buffer set 0 under way: its landing hands back the rows (row `i` the table's row the list names), the list, and the table's share. -/
def FlS0 (r0 : ℕ) : sProp 𝕄 :=
  Transfers.Flight countersEmb (thr d L) (SemLoc.dma cc1_scratch14.sem) default 131072
    iprop(∃ (fs : Buf (Elt F) ((s_6).view.loc (thr d L))) (g : Buf (Elt F) ((s_0).view.loc (thr d L))),
      ⌜(∀ x : S32.Idx, g x = selfIdx I d r0 (x 0).val) ∧ ∀ x : S32x128.Idx, fs x = I.sp d (ixTab (selfIdx I d r0 (x 0).val).toNat (x 1).val)⌝
      ∗ ((s_6).view.loc (thr d L) ↦{fullShare} fs) ∗ ((s_0).view.loc (thr d L) ↦{fullShare} g)
      ∗ ((m_sp).view.loc (thr d L) ↦[(spSl).view.set]{Transfers.shareTokN (rsh (wL L)) 12} I.sp d))
/-- The gather of the chunk's N0 rows into buffer set 0 under way: its landing hands back the rows (row `i` the table's row the list names), the list, and the table's share. -/
def FlN0 (r0 : ℕ) : sProp 𝕄 :=
  Transfers.Flight countersEmb (thr d L) (SemLoc.dma cc1_scratch15.sem) default 1310720
    iprop(∃ (fs : Buf (Elt F) ((s_8).view.loc (thr d L))) (g : Buf (Elt F) ((s_2).view.loc (thr d L))),
      ⌜(∀ x : S320.Idx, g x = nbrIdx I d r0 (x 0).val) ∧ ∀ x : S320x128.Idx, fs x = I.ap d (ixTab (nbrIdx I d r0 (x 0).val).toNat (x 1).val)⌝
      ∗ ((s_8).view.loc (thr d L) ↦{fullShare} fs) ∗ ((s_2).view.loc (thr d L) ↦{fullShare} g)
      ∗ ((m_ap).view.loc (thr d L) ↦[(apSl).view.set]{Transfers.shareTokN (rsh (wL L)) 13} I.ap d))
/-- The gather of the chunk's S1 rows into buffer set 1 under way: its landing hands back the rows (row `i` the table's row the list names), the list, and the table's share. -/
def FlS1 (r0 : ℕ) : sProp 𝕄 :=
  Transfers.Flight countersEmb (thr d L) (SemLoc.dma cc1_scratch16.sem) default 131072
    iprop(∃ (fs : Buf (Elt F) ((s_7).view.loc (thr d L))) (g : Buf (Elt F) ((s_1).view.loc (thr d L))),
      ⌜(∀ x : S32.Idx, g x = selfIdx I d r0 (x 0).val) ∧ ∀ x : S32x128.Idx, fs x = I.sp d (ixTab (selfIdx I d r0 (x 0).val).toNat (x 1).val)⌝
      ∗ ((s_7).view.loc (thr d L) ↦{fullShare} fs) ∗ ((s_1).view.loc (thr d L) ↦{fullShare} g)
      ∗ ((m_sp).view.loc (thr d L) ↦[(spSl).view.set]{Transfers.shareTokN (rsh (wL L)) 14} I.sp d))
/-- The gather of the chunk's N1 rows into buffer set 1 under way: its landing hands back the rows (row `i` the table's row the list names), the list, and the table's share. -/
def FlN1 (r0 : ℕ) : sProp 𝕄 :=
  Transfers.Flight countersEmb (thr d L) (SemLoc.dma cc1_scratch17.sem) default 1310720
    iprop(∃ (fs : Buf (Elt F) ((s_9).view.loc (thr d L))) (g : Buf (Elt F) ((s_3).view.loc (thr d L))),
      ⌜(∀ x : S320.Idx, g x = nbrIdx I d r0 (x 0).val) ∧ ∀ x : S320x128.Idx, fs x = I.ap d (ixTab (nbrIdx I d r0 (x 0).val).toNat (x 1).val)⌝
      ∗ ((s_9).view.loc (thr d L) ↦{fullShare} fs) ∗ ((s_3).view.loc (thr d L) ↦{fullShare} g)
      ∗ ((m_ap).view.loc (thr d L) ↦[(apSl).view.set]{Transfers.shareTokN (rsh (wL L)) 15} I.ap d))

/-- The copy-out of buffer set 0's rows of the chunk at `r0` under way: its landing hands back the buffer and the rows, written. -/
def FlW0 (r0 : ℕ) : sProp 𝕄 :=
  Transfers.Flight countersEmb (thr d L) (SemLoc.dma cc1_scratch18.sem) default 131072
    iprop((∃ f, (s_10).view.loc (thr d L) ↦{fullShare} f) ∗ outDone I d L r0)
def FlW1 (r0 : ℕ) : sProp 𝕄 :=
  Transfers.Flight countersEmb (thr d L) (SemLoc.dma cc1_scratch19.sem) default 131072
    iprop((∃ f, (s_11).view.loc (thr d L) ↦{fullShare} f) ∗ outDone I d L r0)

/-! ## The invariant -/

/-- Buffer set `p` at rest. -/
def Idle0 : sProp 𝕄 :=
  iprop((∃ f, (s_0).view.loc (thr d L) ↦{fullShare} f) ∗ (∃ f, (s_2).view.loc (thr d L) ↦{fullShare} f) ∗ (∃ f, (s_4).view.loc (thr d L) ↦{fullShare} f)
    ∗ (∃ f, (s_6).view.loc (thr d L) ↦{fullShare} f) ∗ (∃ f, (s_8).view.loc (thr d L) ↦{fullShare} f)
    ∗ semVal ((thr d L, SemLoc.dma cc1_scratch14.sem) : GSem nD τ sig) 0 ∗ semVal ((thr d L, SemLoc.dma cc1_scratch15.sem) : GSem nD τ sig) 0
    ∗ ((m_sp).view.loc (thr d L) ↦{Transfers.shareTokN (rsh (wL L)) 12} I.sp d) ∗ ((m_ap).view.loc (thr d L) ↦{Transfers.shareTokN (rsh (wL L)) 13} I.ap d))
def Idle1 : sProp 𝕄 :=
  iprop((∃ f, (s_1).view.loc (thr d L) ↦{fullShare} f) ∗ (∃ f, (s_3).view.loc (thr d L) ↦{fullShare} f) ∗ (∃ f, (s_5).view.loc (thr d L) ↦{fullShare} f)
    ∗ (∃ f, (s_7).view.loc (thr d L) ↦{fullShare} f) ∗ (∃ f, (s_9).view.loc (thr d L) ↦{fullShare} f)
    ∗ semVal ((thr d L, SemLoc.dma cc1_scratch16.sem) : GSem nD τ sig) 0 ∗ semVal ((thr d L, SemLoc.dma cc1_scratch17.sem) : GSem nD τ sig) 0
    ∗ ((m_sp).view.loc (thr d L) ↦{Transfers.shareTokN (rsh (wL L)) 14} I.sp d) ∗ ((m_ap).view.loc (thr d L) ↦{Transfers.shareTokN (rsh (wL L)) 15} I.ap d))

/-- Buffer set 0 loaded with the chunk at `r0`: its weights landed, its two gathers under way. -/
def Loaded0 (r0 : ℕ) : sProp 𝕄 :=
  iprop((∃ fal : Buf (Elt F) ((s_4).view.loc (thr d L)), ⌜∀ x : S336.Idx, (x 0).val < 320 → fal x = alph I d r0 (x 0).val⌝ ∗ ((s_4).view.loc (thr d L) ↦{fullShare} fal))
    ∗ FlS0 I d L r0 ∗ FlN0 I d L r0)

/-- The read-only arrays the sync copies read, and the twelve run-scoped semaphores of the loop's regions. -/
def LoopRO : sProp 𝕄 :=
  iprop(((m_nid).view.loc (thr d L) ↦{rsh (wL L)} I.nid d) ∗ ((m_n1).view.loc (thr d L) ↦{rsh (wL L)} I.n1 d) ∗ ((m_n2).view.loc (thr d L) ↦{rsh (wL L)} I.n2 d)
    ∗ ((m_a1).view.loc (thr d L) ↦{rsh (wL L)} I.a1 d) ∗ ((m_a2).view.loc (thr d L) ↦{rsh (wL L)} I.a2 d)
    ∗ semVal ((thr d L, SemLoc.dma cc1_scoped7.sem) : GSem nD τ sig) 0 ∗ semVal ((thr d L, SemLoc.dma cc1_scoped8.sem) : GSem nD τ sig) 0
    ∗ semVal ((thr d L, SemLoc.dma cc1_scoped9.sem) : GSem nD τ sig) 0 ∗ semVal ((thr d L, SemLoc.dma cc1_scoped10.sem) : GSem nD τ sig) 0
    ∗ semVal ((thr d L, SemLoc.dma cc1_scoped11.sem) : GSem nD τ sig) 0 ∗ semVal ((thr d L, SemLoc.dma cc1_scoped12.sem) : GSem nD τ sig) 0
    ∗ semVal ((thr d L, SemLoc.dma cc1_scoped13.sem) : GSem nD τ sig) 0 ∗ semVal ((thr d L, SemLoc.dma cc1_scoped14.sem) : GSem nD τ sig) 0
    ∗ semVal ((thr d L, SemLoc.dma cc1_scoped15.sem) : GSem nD τ sig) 0 ∗ semVal ((thr d L, SemLoc.dma cc1_scoped16.sem) : GSem nD τ sig) 0
    ∗ semVal ((thr d L, SemLoc.dma cc1_scoped17.sem) : GSem nD τ sig) 0 ∗ semVal ((thr d L, SemLoc.dma cc1_scoped18.sem) : GSem nD τ sig) 0)

/-- The rows of the two results: not yet written (from the next chunk on, at any contents) and landed (before the two chunks
    whose copy-outs are under way, at their values). -/
def Pieces (k : ℕ) : sProp 𝕄 :=
  iprop((∃ f, (m_e1t).view.loc (thr d L) ↦[tRem (wL L) (rA L k)]{fullShare} f) ∗ (∃ f, (m_e1n).view.loc (thr d L) ↦[nRem (wL L) (rA L k)]{fullShare} f)
    ∗ ((m_e1t).view.loc (thr d L) ↦[tDone (wL L) (rA L k - 64)]{fullShare} E1t I d) ∗ ((m_e1n).view.loc (thr d L) ↦[nDone (wL L) (rA L k - 64)]{fullShare} E1n I d))

/-- Buffer set 0 before pair `k`: loaded with the pair's first chunk, or at rest after the last pair. -/
def Set0 (k : ℕ) : sProp 𝕄 := if k < 22 then Loaded0 I d L (rA L k) else Idle0 I d L
theorem Set0_lt {k : ℕ} (h : k < 22) : Set0 I d L k = Loaded0 I d L (rA L k) := if_pos h
theorem Set0_ge {k : ℕ} (h : ¬ k < 22) : Set0 I d L k = Idle0 I d L := if_neg h

/-- The two output buffers before pair `k`: at rest before the first pair, their copy-outs of the previous pair's chunks
    under way after. -/
def Outs (k : ℕ) : sProp 𝕄 :=
  if k = 0 then iprop((∃ f, (s_10).view.loc (thr d L) ↦{fullShare} f) ∗ (∃ f, (s_11).view.loc (thr d L) ↦{fullShare} f)
      ∗ semVal ((thr d L, SemLoc.dma cc1_scratch18.sem) : GSem nD τ sig) 0 ∗ semVal ((thr d L, SemLoc.dma cc1_scratch19.sem) : GSem nD τ sig) 0)
  else iprop(FlW0 I d L (rA L k - 64) ∗ FlW1 I d L (rA L k - 32))
theorem Outs_zero : Outs I d L 0 = iprop((∃ f, (s_10).view.loc (thr d L) ↦{fullShare} f) ∗ (∃ f, (s_11).view.loc (thr d L) ↦{fullShare} f)
      ∗ semVal ((thr d L, SemLoc.dma cc1_scratch18.sem) : GSem nD τ sig) 0 ∗ semVal ((thr d L, SemLoc.dma cc1_scratch19.sem) : GSem nD τ sig) 0) := if_pos rfl
theorem Outs_pos {k : ℕ} (h : k ≠ 0) : Outs I d L k = iprop(FlW0 I d L (rA L k - 64) ∗ FlW1 I d L (rA L k - 32)) := if_neg h

/-- Before pair `k`. -/
def Inv (O : CellTallies nD τ sig (HIx 1)) (W : Waits sig (HIx 1)) (k : ℕ) (_ : Unit) : sProp 𝕄 :=
  iprop(Transfers.MayWaits (thr d L) (none : HIx 1) O
    ∗ (∃ W', ⌜∀ p ∈ W', p ∈ W ∨ p.2 = none⌝ ∗ owes (thr d L) O W')
    ∗ LoopRO I d L
    ∗ (∃ fb : Buf (Elt F) ((s_12).view.loc (thr d L)), ⌜∀ x : S128.Idx, fb x = I.b d x⌝ ∗ ((s_12).view.loc (thr d L) ↦{fullShare} fb))
    ∗ (∃ fsq : Buf (Elt F) ((s_13).view.loc (thr d L)), ⌜∀ x : S2x16.Idx, fsq x = tileSqUpto I d (wL L) (2 * k) (decide ((x 0).val = 0)) (x 1).val⌝
        ∗ ((s_13).view.loc (thr d L) ↦{fullShare} fsq))
    ∗ Set0 I d L k
    ∗ Idle1 I d L
    ∗ Outs I d L k
    ∗ Pieces I d L k)

end Tile
end Cert.Kernel.Tile
end
-- ==== Proof.Twin.TileKit.lean ====
/-
  Shared set-up for one vector subcore's run of the graph-convolution kernel: the subcore's own buffers and semaphores
  named, the operands as the body addresses them, read shares as per-semaphore tokens, what stays outside the pair
  loop, and the body cut after its loop.
-/
import proofs.«213116_g69346541961480_cont_9to1_m_612_34_alg».proof.Proof.Twin.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)

/-- The kernel's 27 DMA semaphores: the six it is passed and the 21 of its run-scoped regions. -/
def semList : List (DmaSem sig) :=
  [cc1_scratch14.sem, cc1_scratch15.sem, cc1_scratch16.sem, cc1_scratch17.sem, cc1_scratch18.sem, cc1_scratch19.sem,
   cc1_scoped0.sem, cc1_scoped1.sem, cc1_scoped2.sem, cc1_scoped3.sem, cc1_scoped4.sem, cc1_scoped5.sem, cc1_scoped6.sem,
   cc1_scoped7.sem, cc1_scoped8.sem, cc1_scoped9.sem, cc1_scoped10.sem, cc1_scoped11.sem, cc1_scoped12.sem, cc1_scoped13.sem,
   cc1_scoped14.sem, cc1_scoped15.sem, cc1_scoped16.sem, cc1_scoped17.sem, cc1_scoped18.sem, cc1_scoped19.sem, cc1_scoped20.sem]

/-- Its 14 scratch buffers. -/
def bufList : List (Ref sig .scVector) :=
  [cc1_scratch0, cc1_scratch1, cc1_scratch2, cc1_scratch3, cc1_scratch4, cc1_scratch5, cc1_scratch6, cc1_scratch7,
   cc1_scratch8, cc1_scratch9, cc1_scratch10, cc1_scratch11, cc1_scratch12, cc1_scratch13]

local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

omit [FloatOps F] in
theorem pts_sp (q : PosShare TreeShare) (f : Buf (Elt F) (spLoc d)) : (spLoc d ↦{q} f : sProp 𝕄) = ((m_sp).view.loc (thr d L) ↦{q} f) := rfl
omit [FloatOps F] in
theorem pts_ap (q : PosShare TreeShare) (f : Buf (Elt F) (apLoc d)) : (apLoc d ↦{q} f : sProp 𝕄) = ((m_ap).view.loc (thr d L) ↦{q} f) := rfl
omit [FloatOps F] in
theorem pts_nid (q : PosShare TreeShare) (f : Buf (Elt F) (nidLoc d)) : (nidLoc d ↦{q} f : sProp 𝕄) = ((m_nid).view.loc (thr d L) ↦{q} f) := rfl
omit [FloatOps F] in
theorem pts_n1 (q : PosShare TreeShare) (f : Buf (Elt F) (n1Loc d)) : (n1Loc d ↦{q} f : sProp 𝕄) = ((m_n1).view.loc (thr d L) ↦{q} f) := rfl
omit [FloatOps F] in
theorem pts_n2 (q : PosShare TreeShare) (f : Buf (Elt F) (n2Loc d)) : (n2Loc d ↦{q} f : sProp 𝕄) = ((m_n2).view.loc (thr d L) ↦{q} f) := rfl
omit [FloatOps F] in
theorem pts_a1 (q : PosShare TreeShare) (f : Buf (Elt F) (a1Loc d)) : (a1Loc d ↦{q} f : sProp 𝕄) = ((m_a1).view.loc (thr d L) ↦{q} f) := rfl
omit [FloatOps F] in
theorem pts_a2 (q : PosShare TreeShare) (f : Buf (Elt F) (a2Loc d)) : (a2Loc d ↦{q} f : sProp 𝕄) = ((m_a2).view.loc (thr d L) ↦{q} f) := rfl
omit [FloatOps F] in
theorem pts_b (q : PosShare TreeShare) (f : Buf (Elt F) (bLoc d)) : (bLoc d ↦{q} f : sProp 𝕄) = ((m_b).view.loc (thr d L) ↦{q} f) := rfl
omit [FloatOps F] in
theorem pts_e1t (q : PosShare TreeShare) (f : Buf (Elt F) (e1tLoc d)) : (e1tLoc d ↦{q} f : sProp 𝕄) = ((m_e1t).view.loc (thr d L) ↦{q} f) := rfl
omit [FloatOps F] in
theorem pts_e1n (q : PosShare TreeShare) (f : Buf (Elt F) (e1nLoc d)) : (e1nLoc d ↦{q} f : sProp 𝕄) = ((m_e1n).view.loc (thr d L) ↦{q} f) := rfl
omit [FloatOps F] in
theorem pts_sqt (q : PosShare TreeShare) (f : Buf (Elt F) (sqtLoc d)) : (sqtLoc d ↦{q} f : sProp 𝕄) = ((m_sqt).view.loc (thr d L) ↦{q} f) := rfl
omit [FloatOps F] in
theorem pts_sqn (q : PosShare TreeShare) (f : Buf (Elt F) (sqnLoc d)) : (sqnLoc d ↦{q} f : sProp 𝕄) = ((m_sqn).view.loc (thr d L) ↦{q} f) := rfl
omit [FloatOps F] in
theorem pts_s0 (f : Buf (Elt F) ((thr d L).loc cc1_scratch0)) : ((thr d L).loc cc1_scratch0 ↦{fullShare} f : sProp 𝕄) = ((s_0).view.loc (thr d L) ↦{fullShare} f) := rfl
omit [FloatOps F] in
theorem pts_s1 (f : Buf (Elt F) ((thr d L).loc cc1_scratch1)) : ((thr d L).loc cc1_scratch1 ↦{fullShare} f : sProp 𝕄) = ((s_1).view.loc (thr d L) ↦{fullShare} f) := rfl
omit [FloatOps F] in
theorem pts_s2 (f : Buf (Elt F) ((thr d L).loc cc1_scratch2)) : ((thr d L).loc cc1_scratch2 ↦{fullShare} f : sProp 𝕄) = ((s_2).view.loc (thr d L) ↦{fullShare} f) := rfl
omit [FloatOps F] in
theorem pts_s3 (f : Buf (Elt F) ((thr d L).loc cc1_scratch3)) : ((thr d L).loc cc1_scratch3 ↦{fullShare} f : sProp 𝕄) = ((s_3).view.loc (thr d L) ↦{fullShare} f) := rfl
omit [FloatOps F] in
theorem pts_s4 (f : Buf (Elt F) ((thr d L).loc cc1_scratch4)) : ((thr d L).loc cc1_scratch4 ↦{fullShare} f : sProp 𝕄) = ((s_4).view.loc (thr d L) ↦{fullShare} f) := rfl
omit [FloatOps F] in
theorem pts_s5 (f : Buf (Elt F) ((thr d L).loc cc1_scratch5)) : ((thr d L).loc cc1_scratch5 ↦{fullShare} f : sProp 𝕄) = ((s_5).view.loc (thr d L) ↦{fullShare} f) := rfl
omit [FloatOps F] in
theorem pts_s6 (f : Buf (Elt F) ((thr d L).loc cc1_scratch6)) : ((thr d L).loc cc1_scratch6 ↦{fullShare} f : sProp 𝕄) = ((s_6).view.loc (thr d L) ↦{fullShare} f) := rfl
omit [FloatOps F] in
theorem pts_s7 (f : Buf (Elt F) ((thr d L).loc cc1_scratch7)) : ((thr d L).loc cc1_scratch7 ↦{fullShare} f : sProp 𝕄) = ((s_7).view.loc (thr d L) ↦{fullShare} f) := rfl
omit [FloatOps F] in
theorem pts_s8 (f : Buf (Elt F) ((thr d L).loc cc1_scratch8)) : ((thr d L).loc cc1_scratch8 ↦{fullShare} f : sProp 𝕄) = ((s_8).view.loc (thr d L) ↦{fullShare} f) := rfl
omit [FloatOps F] in
theorem pts_s9 (f : Buf (Elt F) ((thr d L).loc cc1_scratch9)) : ((thr d L).loc cc1_scratch9 ↦{fullShare} f : sProp 𝕄) = ((s_9).view.loc (thr d L) ↦{fullShare} f) := rfl
omit [FloatOps F] in
theorem pts_s10 (f : Buf (Elt F) ((thr d L).loc cc1_scratch10)) : ((thr d L).loc cc1_scratch10 ↦{fullShare} f : sProp 𝕄) = ((s_10).view.loc (thr d L) ↦{fullShare} f) := rfl
omit [FloatOps F] in
theorem pts_s11 (f : Buf (Elt F) ((thr d L).loc cc1_scratch11)) : ((thr d L).loc cc1_scratch11 ↦{fullShare} f : sProp 𝕄) = ((s_11).view.loc (thr d L) ↦{fullShare} f) := rfl
omit [FloatOps F] in
theorem pts_s12 (f : Buf (Elt F) ((thr d L).loc cc1_scratch12)) : ((thr d L).loc cc1_scratch12 ↦{fullShare} f : sProp 𝕄) = ((s_12).view.loc (thr d L) ↦{fullShare} f) := rfl
omit [FloatOps F] in
theorem pts_s13 (f : Buf (Elt F) ((thr d L).loc cc1_scratch13)) : ((thr d L).loc cc1_scratch13 ↦{fullShare} f : sProp 𝕄) = ((s_13).view.loc (thr d L) ↦{fullShare} f) := rfl

omit [FloatOps F] in
theorem bigSepL_map {A B : Type} (f : A → B) (Φ : B → sProp 𝕄) : ∀ l : List A, bigSepL (l.map f) Φ = bigSepL l (fun a => Φ (f a))
  | [] => rfl
  | a :: l => by rw [List.map_cons, bigSepL_cons, bigSepL_cons, bigSepL_map f Φ l]

theorem semList_nodup : semList.Nodup := by decide
theorem semList_scoped : ∀ s ∈ semList, (SemLoc.dma s : SemLoc sig).isScoped .scVector = true := by decide
theorem bufList_nodup : bufList.Nodup := by decide

omit [FloatOps F] in
/-- The subcore's own semaphores at zero: the kernel's 27 and the rest. -/
theorem ownSems0_V :
    (ownSems0 (thr d L) : sProp 𝕄)
      = iprop(bigSepL semList (fun s => semVal ((thr d L, SemLoc.dma s) : GSem nD τ sig) 0)
          ∗ bigSep (ownCells (thr d L) \ (semList.map fun s => ((thr d L, SemLoc.dma s) : GSem nD τ sig)).toFinset) fun g => semVal g 0) := by
  unfold SparseCore.Cfg.ownSems0
  have hnd : (semList.map fun s => ((thr d L, SemLoc.dma s) : GSem nD τ sig)).Nodup :=
    semList_nodup.map (fun a b e => by cases e; rfl)
  have hsub : (semList.map fun s => ((thr d L, SemLoc.dma s) : GSem nD τ sig)).toFinset ⊆ ownCells (thr d L) := by
    intro g hg
    obtain ⟨s, hs, rfl⟩ := List.mem_map.mp (List.mem_toFinset.mp hg)
    exact mem_ownCells.mpr ⟨rfl, semList_scoped s hs⟩
  rw [SparseCore.bigSep_sdiff_split' hsub, bigSep_eq_bigSepL _ hnd, bigSepL_map]

omit [FloatOps F] in
/-- The subcore's own buffers: the kernel's 14 scratch buffers, each at some contents, and the rest. -/
theorem ownBufs_V :
    (ownBufs (thr d L) : sProp 𝕄)
      = iprop(bigSepL bufList (fun b => iprop(∃ f, (thr d L).loc b ↦{fullShare} f))
          ∗ bigSep (ownRefs (τ := τ) (.scVector (cV L) (jV L)) \ (bufList.map fun b => (Proc.scVector (cV L) (jV L)).devRef b).toFinset)
              fun b => iprop(∃ f, ((d, b) : Loc nD τ sig) ↦{fullShare} f)) := by
  unfold SparseCore.Cfg.ownBufs
  have hnd : (bufList.map fun b => (Proc.scVector (cV L) (jV L)).devRef (sig := sig) b).Nodup :=
    bufList_nodup.map (Proc.devRef_injective _)
  have hsub : (bufList.map fun b => (Proc.scVector (cV L) (jV L)).devRef (sig := sig) b).toFinset ⊆ ownRefs (τ := τ) (.scVector (cV L) (jV L)) := by
    intro b hb
    obtain ⟨r, hr, rfl⟩ := List.mem_map.mp (List.mem_toFinset.mp hb)
    have hown : ∀ r ∈ bufList, ((Proc.scVector (cV L) (jV L)).devRef (sig := sig) r).owner = Owner.proc (Proc.scVector (cV L) (jV L)) := by
      unfold bufList
      simp only [List.forall_mem_cons, List.not_mem_nil, IsEmpty.forall_iff, implies_true, and_true]
      exact ⟨rfl, rfl, rfl, rfl, rfl, rfl, rfl, rfl, rfl, rfl, rfl, rfl, rfl, rfl⟩
    exact SparseCore.Cfg.mem_ownRefs_of_owner (p := Proc.scVector (cV L) (jV L)) (hown r hr)
  rw [show (thr d L).2 = Proc.scVector (cV L) (jV L) from rfl, SparseCore.bigSep_sdiff_split' hsub, bigSep_eq_bigSepL _ hnd, bigSepL_map]

omit [FloatOps F] in
theorem sep_eq' (P Q : sProp 𝕄) : BI.sep P Q = iprop(P ∗ Q) := rfl

/-! ## Read shares as tokens -/

/-- What is left of a read share `q` of `ℓ` once tokens `a` and `b` of sixteen are taken out. -/
def shareRest {ℓ : Loc nD τ sig} (f : Buf (Elt F) ℓ) (q : PosShare TreeShare) (a b : Fin 16) : sProp 𝕄 :=
  iprop((ℓ ↦{Transfers.shareDrop q 16} f) ∗ bigSep ((Finset.univ.erase a).erase b) fun i : Fin 16 => ℓ ↦{Transfers.shareTok q 16 i} f)

omit [FloatOps F] in
theorem share_toks_split {ℓ : Loc nD τ sig} (f : Buf (Elt F) ℓ) (q : PosShare TreeShare) (a b : Fin 16) (hab : a ≠ b) :
    (ℓ ↦{q} f : sProp 𝕄) ⊢ iprop((ℓ ↦{Transfers.shareTokN q a.val} f) ∗ (ℓ ↦{Transfers.shareTokN q b.val} f) ∗ shareRest f q a b) := by
  have h := Transfers.pointsTo_toks_split (nD := nD) (τ := τ) (sig := sig) (Ix := HIx 1) (Val := Elt F) (Name := ℕ) (U := UU) (Lvl := ℕ)
    (ℓ := ℓ) (S := Finset.univ) (f := f) q 16
  rw [SparseCore.bigSep_erase' (Finset.mem_univ a), SparseCore.bigSep_erase' (Finset.mem_erase.mpr ⟨hab.symm, Finset.mem_univ b⟩)] at h
  unfold shareRest
  iintro H
  ihave H := h $$ H
  icases H with ⟨HR, HA, HB, HT⟩
  isplitl [HA]; · iexact HA
  isplitl [HB]; · iexact HB
  isplitl [HR]; · iexact HR
  iexact HT

omit [FloatOps F] in
theorem share_toks_join {ℓ : Loc nD τ sig} (f : Buf (Elt F) ℓ) (q : PosShare TreeShare) (a b : Fin 16) (hab : a ≠ b) :
    iprop((ℓ ↦{Transfers.shareTokN q a.val} f) ∗ (ℓ ↦{Transfers.shareTokN q b.val} f) ∗ shareRest f q a b) ⊢ (ℓ ↦{q} f : sProp 𝕄) := by
  have h := Transfers.pointsTo_toks_join (nD := nD) (τ := τ) (sig := sig) (Ix := HIx 1) (Val := Elt F) (Name := ℕ) (U := UU) (Lvl := ℕ)
    (ℓ := ℓ) (S := Finset.univ) (f := f) q 16
  rw [SparseCore.bigSep_erase' (Finset.mem_univ a), SparseCore.bigSep_erase' (Finset.mem_erase.mpr ⟨hab.symm, Finset.mem_univ b⟩)] at h
  unfold shareRest
  iintro ⟨HA, HB, HR, HT⟩
  iapply h
  isplitl [HR]; · iexact HR
  isplitl [HA]; · iexact HA
  isplitl [HB]; · iexact HB
  iexact HT

/-! ## Outside the pair loop -/

/-- The worker's first row as the kernel computes it. -/
abbrev v2 (L : grid1.Coords) : BitVec 32 :=
  Scalar.muli (Scalar.addi (Scalar.muli (BitVec.ofNat 32 (L 1).val) 2#32) (BitVec.ofNat 32 (L 0).val)) 1408#32

theorem trips22 : k1_t1_loop.trips = 22 := by decide

/-- What the task holds beside the pair loop's invariant: the bias' read share, the tables' shares but the four gather
    tokens, its rows of the two sums' arrays, the nine run-scoped semaphores of the prologue's and epilogue's regions, and
    the subcore's other buffers and semaphores. -/
def Rest : sProp 𝕄 :=
  iprop(((m_b).view.loc (thr d L) ↦{rsh (wL L)} I.b d)
    ∗ shareRest (ℓ := (m_sp).view.loc (thr d L)) (I.sp d) (rsh (wL L)) 12 14 ∗ shareRest (ℓ := (m_ap).view.loc (thr d L)) (I.ap d) (rsh (wL L)) 13 15
    ∗ (∃ f, (m_sqt).view.loc (thr d L) ↦[sqRow (wL L)]{fullShare} f) ∗ (∃ f, (m_sqn).view.loc (thr d L) ↦[sqRow (wL L)]{fullShare} f)
    ∗ semVal ((thr d L, SemLoc.dma cc1_scoped0.sem) : GSem nD τ sig) 0 ∗ semVal ((thr d L, SemLoc.dma cc1_scoped1.sem) : GSem nD τ sig) 0
    ∗ semVal ((thr d L, SemLoc.dma cc1_scoped2.sem) : GSem nD τ sig) 0 ∗ semVal ((thr d L, SemLoc.dma cc1_scoped3.sem) : GSem nD τ sig) 0
    ∗ semVal ((thr d L, SemLoc.dma cc1_scoped4.sem) : GSem nD τ sig) 0 ∗ semVal ((thr d L, SemLoc.dma cc1_scoped5.sem) : GSem nD τ sig) 0
    ∗ semVal ((thr d L, SemLoc.dma cc1_scoped6.sem) : GSem nD τ sig) 0 ∗ semVal ((thr d L, SemLoc.dma cc1_scoped19.sem) : GSem nD τ sig) 0
    ∗ semVal ((thr d L, SemLoc.dma cc1_scoped20.sem) : GSem nD τ sig) 0
    ∗ (bigSep (ownRefs (τ := τ) (.scVector (cV L) (jV L)) \ (bufList.map fun b => (Proc.scVector (cV L) (jV L)).devRef b).toFinset)
        fun b => iprop(∃ f, ((d, b) : Loc nD τ sig) ↦{fullShare} f))
    ∗ bigSep (ownCells (thr d L) \ (semList.map fun s => ((thr d L, SemLoc.dma s) : GSem nD τ sig)).toFinset) fun g => semVal g 0)

/-- The body after its pair loop: the two last copy-outs awaited, the two rows of sums copied out. -/
def epi (L : grid1.Coords) : Prog (TpuEff nD τ sig (Elt F) Λ₀ (.scVector ((L 0).castLE hcore1) ((L 1).castLE hsub1))) PUnit := do
  k1_part37 L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20
  let v41_r20 : Memref sig .scVector .vmem S1x16 .f32 := (s_13).slice (Rect.unit (s := S2x16) ![1, 0] S1x16.size inb_S2x16_S1x16_1_0) (fun _ => rfl)
  let v42_r20 : Memref sig .scVector .vmem S16 .f32 := v41_r20.squeeze S16 squeezes_S1x16_S16
  let v39_r20 : Memref sig .scVector .hbm S1x16 .f32 := (m_sqn).slice (Rect.unit (s := S32x16) (k1_off51 L) S1x16.size (k1_off51_inb L)) (fun _ => rfl)
  let v40_r20 : Memref sig .scVector .hbm S16 .f32 := v39_r20.squeeze S16 squeezes_S1x16_S16
  Prog.lift (.waitDma2 cc1_scoped20.sem v42_r20 v40_r20 ((View.wordExact_bits rfl).reshape _ _) ((View.wordExact_bits rfl).reshape _ _))
  pure ⟨⟩

set_option maxRecDepth 65536 in
/-- The body is its first part (the prologue and the pair loop) and then the rest. -/
theorem body_cut : cc1__sc_body (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20
    = (k1_part36 (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 >>= fun _ => epi (F := F) L) := rfl

end Tile
end Cert.Kernel.Tile
end
-- ==== Proof.Twin.TileCut.lean ====
/-
  The pair's region cut in two: the first chunk's half (the second chunk's lists and gathers started, the first chunk's
  gathers awaited, its rows computed, their squares added and their copy-out started) and the second chunk's half.
-/
import proofs.«213116_g69346541961480_cont_9to1_m_612_34_alg».proof.Proof.Twin.TileKit
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first half of a pair. -/
noncomputable def tripA (i : grid1.Coords) (arg2 : Memref sig .scVector .hbm S100000x128 .f32) (harg2 : arg2.IsWhole) (arg3 : Memref sig .scVector .hbm S100000x128 .f32) (harg3 : arg3.IsWhole) (arg4 : Memref sig .scVector .hbm S4096 .i32) (harg4 : arg4.IsWhole) (arg5 : Memref sig .scVector .hbm S40960 .i32) (harg5 : arg5.IsWhole) (arg6 : Memref sig .scVector .hbm S409600 .i32) (harg6 : arg6.IsWhole) (arg7 : Memref sig .scVector .hbm S40960 .f32) (harg7 : arg7.IsWhole) (arg8 : Memref sig .scVector .hbm S409600 .f32) (harg8 : arg8.IsWhole) (arg9 : Memref sig .scVector .hbm S128 .f32) (harg9 : arg9.IsWhole) (arg10 : Memref sig .scVector .hbm S4096x128 .f32) (harg10 : arg10.IsWhole) (arg11 : Memref sig .scVector .hbm S40960x128 .f32) (harg11 : arg11.IsWhole) (arg12 : Memref sig .scVector .hbm S32x16 .f32) (harg12 : arg12.IsWhole) (arg13 : Memref sig .scVector .hbm S32x16 .f32) (harg13 : arg13.IsWhole) (arg14 : Memref sig .scVector .vmem S32 .i32) (harg14 : arg14.IsWhole) (arg15 : Memref sig .scVector .vmem S32 .i32) (harg15 : arg15.IsWhole) (arg16 : Memref sig .scVector .vmem S320 .i32) (harg16 : arg16.IsWhole) (arg17 : Memref sig .scVector .vmem S320 .i32) (harg17 : arg17.IsWhole) (arg18 : Memref sig .scVector .vmem S336 .f32) (harg18 : arg18.IsWhole) (arg19 : Memref sig .scVector .vmem S336 .f32) (harg19 : arg19.IsWhole) (arg20 : Memref sig .scVector .vmem S32x128 .f32) (harg20 : arg20.IsWhole) (arg21 : Memref sig .scVector .vmem S32x128 .f32) (harg21 : arg21.IsWhole) (arg22 : Memref sig .scVector .vmem S320x128 .f32) (harg22 : arg22.IsWhole) (arg23 : Memref sig .scVector .vmem S320x128 .f32) (harg23 : arg23.IsWhole) (arg24 : Memref sig .scVector .vmem S32x128 .f32) (harg24 : arg24.IsWhole) (arg25 : Memref sig .scVector .vmem S32x128 .f32) (harg25 : arg25.IsWhole) (arg26 : Memref sig .scVector .vmem S128 .f32) (harg26 : arg26.IsWhole) (arg27 : Memref sig .scVector .vmem S2x16 .f32) (harg27 : arg27.IsWhole) (arg28 : DmaSems sig S_) (arg29 : DmaSems sig S_) (arg30 : DmaSems sig S_) (arg31 : DmaSems sig S_) (arg32 : DmaSems sig S_) (arg33 : DmaSems sig S_) (v26_r0 : DmaSems sig S_) (v28_r1 : DmaSems sig S_) (v28_r2 : DmaSems sig S_) (v28_r3 : DmaSems sig S_) (v29_r4 : DmaSems sig S_) (v29_r5 : DmaSems sig S_) (v29_r6 : DmaSems sig S_) (v74_r7 : DmaSems sig S_) (v74_r8 : DmaSems sig S_) (v74_r9 : DmaSems sig S_) (v75_r10 : DmaSems sig S_) (v75_r11 : DmaSems sig S_) (v75_r12 : DmaSems sig S_) (v83_r13 : DmaSems sig S_) (v83_r14 : DmaSems sig S_) (v83_r15 : DmaSems sig S_) (v84_r16 : DmaSems sig S_) (v84_r17 : DmaSems sig S_) (v84_r18 : DmaSems sig S_) (v26_r19 : DmaSems sig S_) (v26_r20 : DmaSems sig S_) (v2 : BitVec 32) (k1_t1 : Fin k1_t1_loop.trips) :
    Prog (TpuEff nD τ sig (Elt F) Λ₀ (.scVector ((i 0).castLE hcore1) ((i 1).castLE hsub1))) (Σ' (arg34 : BitVec 32) (v28 : BitVec 32) (v29 : BitVec 32) (v46 : FVec F S16 .f32), BitVec 1) := do
    let ⟨arg34, v28, v29, v46, v50⟩ : Σ' (arg34 : BitVec 32) (v28 : BitVec 32) (v29 : BitVec 32) (v46 : FVec F S16 .f32), BitVec 1 ← k1_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 0#32 1#32 k1_t1
    if k1_h7 : k1_cond7 i k1_t1 = 1#1 then do
      let v73 : Vec F S1x16 .f32 ← Prog.lift (.load arg27 (Rect.unit (s := S2x16) ![1, 0] S1x16.size inb_S2x16_S1x16_1_0).toLoadRect (View.loadsAt_vmem h_S1x16))
      let v77 : Vec F S1x16 .f32 ← Prog.lift (.load arg27 (Rect.unit (s := S2x16) ![1, 0] S1x16.size inb_S2x16_S1x16_1_0).toLoadRect (View.loadsAt_vmem h_S1x16))
      Prog.lift (.store arg27 (Rect.unit (s := S2x16) ![1, 0] S1x16.size inb_S2x16_S1x16_1_0) (k1_pay116 v46 v73) Finset.univ (View.stores_vmem_bits_univ h_S1x16 rfl) (.inl rfl))
      let v82 : Memref sig .scVector .hbm S32x128 .f32 := arg11.slice (Rect.unit (s := S40960x128) (k1_off27 i k1_t1) S32x128.size (k1_off27_inb i k1_t1 k1_h7)) (fun _ => rfl)
      Prog.lift (.enqueueDma arg24 (.here v82) (.dma arg32.sem) harg24.wordExact (View.wordExact_bits rfl) ⟨Or.inl rfl, trivial⟩)
      pure ⟨⟩
    else do
      pure ⟨⟩
    pure ⟨arg34, v28, v29, v46, v50⟩

/-- The second half. -/
noncomputable def tripB (i : grid1.Coords) (arg2 : Memref sig .scVector .hbm S100000x128 .f32) (harg2 : arg2.IsWhole) (arg3 : Memref sig .scVector .hbm S100000x128 .f32) (harg3 : arg3.IsWhole) (arg4 : Memref sig .scVector .hbm S4096 .i32) (harg4 : arg4.IsWhole) (arg5 : Memref sig .scVector .hbm S40960 .i32) (harg5 : arg5.IsWhole) (arg6 : Memref sig .scVector .hbm S409600 .i32) (harg6 : arg6.IsWhole) (arg7 : Memref sig .scVector .hbm S40960 .f32) (harg7 : arg7.IsWhole) (arg8 : Memref sig .scVector .hbm S409600 .f32) (harg8 : arg8.IsWhole) (arg9 : Memref sig .scVector .hbm S128 .f32) (harg9 : arg9.IsWhole) (arg10 : Memref sig .scVector .hbm S4096x128 .f32) (harg10 : arg10.IsWhole) (arg11 : Memref sig .scVector .hbm S40960x128 .f32) (harg11 : arg11.IsWhole) (arg12 : Memref sig .scVector .hbm S32x16 .f32) (harg12 : arg12.IsWhole) (arg13 : Memref sig .scVector .hbm S32x16 .f32) (harg13 : arg13.IsWhole) (arg14 : Memref sig .scVector .vmem S32 .i32) (harg14 : arg14.IsWhole) (arg15 : Memref sig .scVector .vmem S32 .i32) (harg15 : arg15.IsWhole) (arg16 : Memref sig .scVector .vmem S320 .i32) (harg16 : arg16.IsWhole) (arg17 : Memref sig .scVector .vmem S320 .i32) (harg17 : arg17.IsWhole) (arg18 : Memref sig .scVector .vmem S336 .f32) (harg18 : arg18.IsWhole) (arg19 : Memref sig .scVector .vmem S336 .f32) (harg19 : arg19.IsWhole) (arg20 : Memref sig .scVector .vmem S32x128 .f32) (harg20 : arg20.IsWhole) (arg21 : Memref sig .scVector .vmem S32x128 .f32) (harg21 : arg21.IsWhole) (arg22 : Memref sig .scVector .vmem S320x128 .f32) (harg22 : arg22.IsWhole) (arg23 : Memref sig .scVector .vmem S320x128 .f32) (harg23 : arg23.IsWhole) (arg24 : Memref sig .scVector .vmem S32x128 .f32) (harg24 : arg24.IsWhole) (arg25 : Memref sig .scVector .vmem S32x128 .f32) (harg25 : arg25.IsWhole) (arg26 : Memref sig .scVector .vmem S128 .f32) (harg26 : arg26.IsWhole) (arg27 : Memref sig .scVector .vmem S2x16 .f32) (harg27 : arg27.IsWhole) (arg28 : DmaSems sig S_) (arg29 : DmaSems sig S_) (arg30 : DmaSems sig S_) (arg31 : DmaSems sig S_) (arg32 : DmaSems sig S_) (arg33 : DmaSems sig S_) (v26_r0 : DmaSems sig S_) (v28_r1 : DmaSems sig S_) (v28_r2 : DmaSems sig S_) (v28_r3 : DmaSems sig S_) (v29_r4 : DmaSems sig S_) (v29_r5 : DmaSems sig S_) (v29_r6 : DmaSems sig S_) (v74_r7 : DmaSems sig S_) (v74_r8 : DmaSems sig S_) (v74_r9 : DmaSems sig S_) (v75_r10 : DmaSems sig S_) (v75_r11 : DmaSems sig S_) (v75_r12 : DmaSems sig S_) (v83_r13 : DmaSems sig S_) (v83_r14 : DmaSems sig S_) (v83_r15 : DmaSems sig S_) (v84_r16 : DmaSems sig S_) (v84_r17 : DmaSems sig S_) (v84_r18 : DmaSems sig S_) (v26_r19 : DmaSems sig S_) (v26_r20 : DmaSems sig S_) (v2 : BitVec 32) (k1_t1 : Fin k1_t1_loop.trips) (arg34 : BitVec 32) :
    Prog (TpuEff nD τ sig (Elt F) Λ₀ (.scVector ((i 0).castLE hcore1) ((i 1).castLE hsub1))) Unit := do
    if k1_h8 : k1_cond8 k1_t1 = 1#1 then do
      if k1_h9 : k1_cond9 i k1_t1 = 1#1 then do
        let v85_r13 : Memref sig .scVector .hbm S32 .i32 := arg4.slice (Rect.unit (s := S4096) (k1_off28 i k1_t1) S32.size (k1_off28_inb i k1_t1 k1_h8 k1_h9)) (fun _ => rfl)
        Prog.lift (.enqueueDma v85_r13 (.here arg14) (.dma v83_r13.sem) (View.wordExact_bits rfl) harg14.wordExact ⟨Or.inl rfl, trivial⟩)
        let v87_r13 : Memref sig .scVector .hbm S32 .i32 := arg4.slice (Rect.unit (s := S4096) (k1_off28 i k1_t1) S32.size (k1_off28_inb i k1_t1 k1_h8 k1_h9)) (fun _ => rfl)
        Prog.lift (.waitDma2 v83_r13.sem v87_r13 arg14 (View.wordExact_bits rfl) harg14.wordExact)
        let v85_r14 : Memref sig .scVector .hbm S320 .i32 := arg5.slice (Rect.unit (s := S40960) (k1_off29 i k1_t1) S320.size (k1_off29_inb i k1_t1 k1_h8 k1_h9)) (fun _ => rfl)
        Prog.lift (.enqueueDma v85_r14 (.here arg16) (.dma v83_r14.sem) (View.wordExact_bits rfl) harg16.wordExact ⟨Or.inl rfl, trivial⟩)
        let v87_r14 : Memref sig .scVector .hbm S320 .i32 := arg5.slice (Rect.unit (s := S40960) (k1_off29 i k1_t1) S320.size (k1_off29_inb i k1_t1 k1_h8 k1_h9)) (fun _ => rfl)
        Prog.lift (.waitDma2 v83_r14.sem v87_r14 arg16 (View.wordExact_bits rfl) harg16.wordExact)
        let v86_r15 : Memref sig .scVector .vmem S320 .f32 := arg18.slice (Rect.unit (s := S336) ![0] S320.size inb_S336_S320_0) (fun _ => rfl)
        let v87_r15 : Memref sig .scVector .hbm S320 .f32 := arg7.slice (Rect.unit (s := S40960) (k1_off29 i k1_t1) S320.size (k1_off29_inb i k1_t1 k1_h8 k1_h9)) (fun _ => rfl)
        Prog.lift (.enqueueDma v87_r15 (.here v86_r15) (.dma v83_r15.sem) (View.wordExact_bits rfl) (View.wordExact_bits rfl) ⟨Or.inl rfl, trivial⟩)
        let v90_r15 : Memref sig .scVector .vmem S320 .f32 := arg18.slice (Rect.unit (s := S336) ![0] S320.size inb_S336_S320_0) (fun _ => rfl)
        let v91_r15 : Memref sig .scVector .hbm S320 .f32 := arg7.slice (Rect.unit (s := S40960) (k1_off29 i k1_t1) S320.size (k1_off29_inb i k1_t1 k1_h8 k1_h9)) (fun _ => rfl)
        Prog.lift (.waitDma2 v83_r15.sem v91_r15 v90_r15 (View.wordExact_bits rfl) (View.wordExact_bits rfl))
        pure ⟨⟩
      else do
        pure ⟨⟩
      if k1_h10 : k1_cond10 i k1_t1 = 1#1 then do
        let v86_r16 : Memref sig .scVector .hbm S32 .i32 := arg5.slice (Rect.unit (s := S40960) (k1_off30 i k1_t1) S32.size (k1_off30_inb i k1_t1 k1_h8 k1_h10)) (fun _ => rfl)
        Prog.lift (.enqueueDma v86_r16 (.here arg14) (.dma v84_r16.sem) (View.wordExact_bits rfl) harg14.wordExact ⟨Or.inl rfl, trivial⟩)
        let v88_r16 : Memref sig .scVector .hbm S32 .i32 := arg5.slice (Rect.unit (s := S40960) (k1_off30 i k1_t1) S32.size (k1_off30_inb i k1_t1 k1_h8 k1_h10)) (fun _ => rfl)
        Prog.lift (.waitDma2 v84_r16.sem v88_r16 arg14 (View.wordExact_bits rfl) harg14.wordExact)
        let v86_r17 : Memref sig .scVector .hbm S320 .i32 := arg6.slice (Rect.unit (s := S409600) (k1_off31 i k1_t1) S320.size (k1_off31_inb i k1_t1 k1_h8 k1_h10)) (fun _ => rfl)
        Prog.lift (.enqueueDma v86_r17 (.here arg16) (.dma v84_r17.sem) (View.wordExact_bits rfl) harg16.wordExact ⟨Or.inl rfl, trivial⟩)
        let v88_r17 : Memref sig .scVector .hbm S320 .i32 := arg6.slice (Rect.unit (s := S409600) (k1_off31 i k1_t1) S320.size (k1_off31_inb i k1_t1 k1_h8 k1_h10)) (fun _ => rfl)
        Prog.lift (.waitDma2 v84_r17.sem v88_r17 arg16 (View.wordExact_bits rfl) harg16.wordExact)
        let v87_r18 : Memref sig .scVector .vmem S320 .f32 := arg18.slice (Rect.unit (s := S336) ![0] S320.size inb_S336_S320_0) (fun _ => rfl)
        let v88_r18 : Memref sig .scVector .hbm S320 .f32 := arg8.slice (Rect.unit (s := S409600) (k1_off31 i k1_t1) S320.size (k1_off31_inb i k1_t1 k1_h8 k1_h10)) (fun _ => rfl)
        Prog.lift (.enqueueDma v88_r18 (.here v87_r18) (.dma v84_r18.sem) (View.wordExact_bits rfl) (View.wordExact_bits rfl) ⟨Or.inl rfl, trivial⟩)
        let v91_r18 : Memref sig .scVector .vmem S320 .f32 := arg18.slice (Rect.unit (s := S336) ![0] S320.size inb_S336_S320_0) (fun _ => rfl)
        let v92_r18 : Memref sig .scVector .hbm S320 .f32 := arg8.slice (Rect.unit (s := S409600) (k1_off31 i k1_t1) S320.size (k1_off31_inb i k1_t1 k1_h8 k1_h10)) (fun _ => rfl)
        Prog.lift (.waitDma2 v84_r18.sem v92_r18 v91_r18 (View.wordExact_bits rfl) (View.wordExact_bits rfl))
        pure ⟨⟩
      else do
        pure ⟨⟩
      let v79 : Memref sig .scVector .hbm S100000x128 .f32 := arg2.slice (Rect.unit (s := S100000x128) ![0, 0] S100000x128.size inb_S100000x128_S100000x128_0_0) (fun _ => rfl)
      SparseCore.enqueueIndirectGather rfl v79 arg20 gathers_S100000x128_S32x128 arg14 rfl arg28.sem (View.wordExact_bits rfl) rfl (Or.inl rfl)
      let v80 : Memref sig .scVector .hbm S100000x128 .f32 := arg3.slice (Rect.unit (s := S100000x128) ![0, 0] S100000x128.size inb_S100000x128_S100000x128_0_0) (fun _ => rfl)
      SparseCore.enqueueIndirectGather rfl v80 arg22 gathers_S100000x128_S320x128 arg16 rfl arg29.sem (View.wordExact_bits rfl) rfl (Or.inl rfl)
      pure ⟨⟩
    else do
      pure ⟨⟩
    let v57 : Memref sig .scVector .hbm S100000x128 .f32 := arg2.slice (Rect.unit (s := S100000x128) ![0, 0] S100000x128.size inb_S100000x128_S100000x128_0_0) (fun _ => rfl)
    SparseCore.waitIndirectGather arg30.sem v57 arg21 (View.wordExact_bits rfl) harg21.wordExact
    let v58 : Memref sig .scVector .hbm S100000x128 .f32 := arg3.slice (Rect.unit (s := S100000x128) ![0, 0] S100000x128.size inb_S100000x128_S100000x128_0_0) (fun _ => rfl)
    SparseCore.waitIndirectGather arg31.sem v58 arg23 (View.wordExact_bits rfl) harg23.wordExact
    let v59 : BitVec 1 := Scalar.cmpi .eq arg34 0#32
    let v60 : BitVec 1 := Scalar.xori v59 1#1
    let v61 : BitVec 32 := Scalar.extui v60
    let v62 : BitVec 1 := Scalar.cmpi .ne v61 0#32
    if k1_h11 : v62 = 1#1 then do
      let v73 : Memref sig .scVector .hbm S32x128 .f32 := arg10.slice (Rect.unit (s := S4096x128) ![0, 0] S32x128.size inb_S4096x128_S32x128_0_0) (fun _ => rfl)
      Prog.lift (.waitDma2 arg33.sem arg25 v73 harg25.wordExact (View.wordExact_bits rfl))
      pure ⟨⟩
    else do
      pure ⟨⟩
    let v65 : FVec F S16 .f32 ← Scf.Loop.for k1_t3_loop k1_t3_ok (k1_pay117 (F := F)) (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20)
    if k1_h12 : k1_cond12 i k1_t1 = 1#1 then do
      let v73 : Vec F S1x16 .f32 ← Prog.lift (.load arg27 (Rect.unit (s := S2x16) ![0, 0] S1x16.size inb_S2x16_S1x16_0_0).toLoadRect (View.loadsAt_vmem h_S1x16))
      let v77 : Vec F S1x16 .f32 ← Prog.lift (.load arg27 (Rect.unit (s := S2x16) ![0, 0] S1x16.size inb_S2x16_S1x16_0_0).toLoadRect (View.loadsAt_vmem h_S1x16))
      Prog.lift (.store arg27 (Rect.unit (s := S2x16) ![0, 0] S1x16.size inb_S2x16_S1x16_0_0) (k1_pay121 v65 v73) Finset.univ (View.stores_vmem_bits_univ h_S1x16 rfl) (.inl rfl))
      let v81 : Memref sig .scVector .hbm S32x128 .f32 := arg10.slice (Rect.unit (s := S4096x128) (k1_off49 i k1_t1) S32x128.size (k1_off49_inb i k1_t1 k1_h12)) (fun _ => rfl)
      Prog.lift (.enqueueDma arg25 (.here v81) (.dma arg33.sem) harg25.wordExact (View.wordExact_bits rfl) ⟨Or.inl rfl, trivial⟩)
      pure ⟨⟩
    else do
      pure ⟨⟩
    if k1_h13 : k1_cond13 i k1_t1 = 1#1 then do
      let v73 : Vec F S1x16 .f32 ← Prog.lift (.load arg27 (Rect.unit (s := S2x16) ![1, 0] S1x16.size inb_S2x16_S1x16_1_0).toLoadRect (View.loadsAt_vmem h_S1x16))
      let v77 : Vec F S1x16 .f32 ← Prog.lift (.load arg27 (Rect.unit (s := S2x16) ![1, 0] S1x16.size inb_S2x16_S1x16_1_0).toLoadRect (View.loadsAt_vmem h_S1x16))
      Prog.lift (.store arg27 (Rect.unit (s := S2x16) ![1, 0] S1x16.size inb_S2x16_S1x16_1_0) (k1_pay122 v65 v73) Finset.univ (View.stores_vmem_bits_univ h_S1x16 rfl) (.inl rfl))
      let v82 : Memref sig .scVector .hbm S32x128 .f32 := arg11.slice (Rect.unit (s := S40960x128) (k1_off50 i k1_t1) S32x128.size (k1_off50_inb i k1_t1 k1_h13)) (fun _ => rfl)
      Prog.lift (.enqueueDma arg25 (.here v82) (.dma arg33.sem) harg25.wordExact (View.wordExact_bits rfl) ⟨Or.inl rfl, trivial⟩)
      pure ⟨⟩
    else do
      pure ⟨⟩
    pure ⟨⟩

set_option maxRecDepth 65536 in
/-- The pair's region is its two halves in sequence. -/
theorem k1_t1_body_cut (i : grid1.Coords) (arg2 : Memref sig .scVector .hbm S100000x128 .f32) (harg2 : arg2.IsWhole) (arg3 : Memref sig .scVector .hbm S100000x128 .f32) (harg3 : arg3.IsWhole) (arg4 : Memref sig .scVector .hbm S4096 .i32) (harg4 : arg4.IsWhole) (arg5 : Memref sig .scVector .hbm S40960 .i32) (harg5 : arg5.IsWhole) (arg6 : Memref sig .scVector .hbm S409600 .i32) (harg6 : arg6.IsWhole) (arg7 : Memref sig .scVector .hbm S40960 .f32) (harg7 : arg7.IsWhole) (arg8 : Memref sig .scVector .hbm S409600 .f32) (harg8 : arg8.IsWhole) (arg9 : Memref sig .scVector .hbm S128 .f32) (harg9 : arg9.IsWhole) (arg10 : Memref sig .scVector .hbm S4096x128 .f32) (harg10 : arg10.IsWhole) (arg11 : Memref sig .scVector .hbm S40960x128 .f32) (harg11 : arg11.IsWhole) (arg12 : Memref sig .scVector .hbm S32x16 .f32) (harg12 : arg12.IsWhole) (arg13 : Memref sig .scVector .hbm S32x16 .f32) (harg13 : arg13.IsWhole) (arg14 : Memref sig .scVector .vmem S32 .i32) (harg14 : arg14.IsWhole) (arg15 : Memref sig .scVector .vmem S32 .i32) (harg15 : arg15.IsWhole) (arg16 : Memref sig .scVector .vmem S320 .i32) (harg16 : arg16.IsWhole) (arg17 : Memref sig .scVector .vmem S320 .i32) (harg17 : arg17.IsWhole) (arg18 : Memref sig .scVector .vmem S336 .f32) (harg18 : arg18.IsWhole) (arg19 : Memref sig .scVector .vmem S336 .f32) (harg19 : arg19.IsWhole) (arg20 : Memref sig .scVector .vmem S32x128 .f32) (harg20 : arg20.IsWhole) (arg21 : Memref sig .scVector .vmem S32x128 .f32) (harg21 : arg21.IsWhole) (arg22 : Memref sig .scVector .vmem S320x128 .f32) (harg22 : arg22.IsWhole) (arg23 : Memref sig .scVector .vmem S320x128 .f32) (harg23 : arg23.IsWhole) (arg24 : Memref sig .scVector .vmem S32x128 .f32) (harg24 : arg24.IsWhole) (arg25 : Memref sig .scVector .vmem S32x128 .f32) (harg25 : arg25.IsWhole) (arg26 : Memref sig .scVector .vmem S128 .f32) (harg26 : arg26.IsWhole) (arg27 : Memref sig .scVector .vmem S2x16 .f32) (harg27 : arg27.IsWhole) (arg28 : DmaSems sig S_) (arg29 : DmaSems sig S_) (arg30 : DmaSems sig S_) (arg31 : DmaSems sig S_) (arg32 : DmaSems sig S_) (arg33 : DmaSems sig S_) (v26_r0 : DmaSems sig S_) (v28_r1 : DmaSems sig S_) (v28_r2 : DmaSems sig S_) (v28_r3 : DmaSems sig S_) (v29_r4 : DmaSems sig S_) (v29_r5 : DmaSems sig S_) (v29_r6 : DmaSems sig S_) (v74_r7 : DmaSems sig S_) (v74_r8 : DmaSems sig S_) (v74_r9 : DmaSems sig S_) (v75_r10 : DmaSems sig S_) (v75_r11 : DmaSems sig S_) (v75_r12 : DmaSems sig S_) (v83_r13 : DmaSems sig S_) (v83_r14 : DmaSems sig S_) (v83_r15 : DmaSems sig S_) (v84_r16 : DmaSems sig S_) (v84_r17 : DmaSems sig S_) (v84_r18 : DmaSems sig S_) (v26_r19 : DmaSems sig S_) (v26_r20 : DmaSems sig S_) (v2 : BitVec 32) (k1_t1 : Fin k1_t1_loop.trips) (acc : Unit) :
    k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 k1_t1 acc
      = (tripA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 k1_t1 >>= fun r => tripB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 arg29 arg30 arg31 arg32 arg33 v26_r0 v28_r1 v28_r2 v28_r3 v29_r4 v29_r5 v29_r6 v74_r7 v74_r8 v74_r9 v75_r10 v75_r11 v75_r12 v83_r13 v83_r14 v83_r15 v84_r16 v84_r17 v84_r18 v26_r19 v26_r20 v2 k1_t1 r.1) := by
  unfold k1_t1_body tripA tripB
  rw [bind_assoc]
  congr 1
  funext x
  obtain ⟨arg34, v28, v29, v46, v50⟩ := x
  by_cases h7 : k1_cond7 i k1_t1 = 1#1
  · simp only [dif_pos h7, bind_assoc, pure_bind]
  · simp only [dif_neg h7, bind_assoc, pure_bind]

end Cert.Kernel.Tile
end
-- ==== Proof.Twin.TileMid.lean ====
/-
  The state of a vector subcore in the middle of a pair of chunks: the first chunk computed and its copy-out under way,
  the second chunk's lists fetched and its gathers under way.
-/
import proofs.«213116_g69346541961480_cont_9to1_m_612_34_alg».proof.Proof.Twin.TileCut
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- Buffer set 1 loaded with the chunk at `r0`: its weights landed, its two gathers under way. -/
def Loaded1 (r0 : ℕ) : sProp 𝕄 :=
  iprop((∃ fal : Buf (Elt F) ((s_5).view.loc (thr d L)), ⌜∀ x : S336.Idx, (x 0).val < 320 → fal x = alph I d r0 (x 0).val⌝ ∗ ((s_5).view.loc (thr d L) ↦{fullShare} fal))
    ∗ FlS1 I d L r0 ∗ FlN1 I d L r0)

/-- The second output buffer in the middle of pair `k`: at rest in the first pair, its copy-out of the previous pair's
    second chunk under way after. -/
def Outs1 (k : ℕ) : sProp 𝕄 :=
  if k = 0 then iprop((∃ f, (s_11).view.loc (thr d L) ↦{fullShare} f) ∗ semVal ((thr d L, SemLoc.dma cc1_scratch19.sem) : GSem nD τ sig) 0)
  else FlW1 I d L (rA L k - 32)
theorem Outs1_zero : Outs1 I d L 0 = iprop((∃ f, (s_11).view.loc (thr d L) ↦{fullShare} f) ∗ semVal ((thr d L, SemLoc.dma cc1_scratch19.sem) : GSem nD τ sig) 0) := if_pos rfl
theorem Outs1_pos {k : ℕ} (h : k ≠ 0) : Outs1 I d L k = FlW1 I d L (rA L k - 32) := if_neg h

/-- In the middle of pair `k`, the first half's induction value being `arg34`. -/
def Mid (O : CellTallies nD τ sig (HIx 1)) (W : Waits sig (HIx 1)) (k : ℕ) (arg34 : BitVec 32) : sProp 𝕄 :=
  iprop(⌜arg34 = Scf.iv 0#32 1#32 k⌝
    ∗ Transfers.MayWaits (thr d L) (none : HIx 1) O
    ∗ (∃ W', ⌜∀ p ∈ W', p ∈ W ∨ p.2 = none⌝ ∗ owes (thr d L) O W')
    ∗ LoopRO I d L
    ∗ (∃ fb : Buf (Elt F) ((s_12).view.loc (thr d L)), ⌜∀ x : S128.Idx, fb x = I.b d x⌝ ∗ ((s_12).view.loc (thr d L) ↦{fullShare} fb))
    ∗ (∃ fsq : Buf (Elt F) ((s_13).view.loc (thr d L)), ⌜∀ x : S2x16.Idx, fsq x = tileSqUpto I d (wL L) (2 * k + 1) (decide ((x 0).val = 0)) (x 1).val⌝
        ∗ ((s_13).view.loc (thr d L) ↦{fullShare} fsq))
    ∗ Idle0 I d L
    ∗ Loaded1 I d L (rA L k + 32)
    ∗ FlW0 I d L (rA L k)
    ∗ Outs1 I d L k
    ∗ (∃ f, (m_e1t).view.loc (thr d L) ↦[tRem (wL L) (rA L k + 32)]{fullShare} f) ∗ (∃ f, (m_e1n).view.loc (thr d L) ↦[nRem (wL L) (rA L k + 32)]{fullShare} f)
    ∗ ((m_e1t).view.loc (thr d L) ↦[tDone (wL L) (rA L k - 32)]{fullShare} E1t I d) ∗ ((m_e1n).view.loc (thr d L) ↦[nDone (wL L) (rA L k - 32)]{fullShare} E1n I d))

end Tile
end Cert.Kernel.Tile
end
-- ==== Proof.Twin.TileFacts.lean ====
/-
  Pure facts about the rows a worker writes: the row sets as the pair loop advances.
-/
import proofs.«213116_g69346541961480_cont_9to1_m_612_34_alg».proof.Proof.Twin.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

section Sets
variable (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## Rows -/

/-- A 32-row slice of the first result is the chunk's rows; -/
theorem set_e1t_slice (off : Fin 2 → ℕ) (inb : ∀ a, off a + S32x128.size a ≤ S4096x128.size a) (h1 : off 1 = 0) :
    ((m_e1t).slice (Rect.unit (s := S4096x128) off S32x128.size inb) (fun _ => rfl)).view.set = cT (off 0) := by
  have hs : ((m_e1t).slice (Rect.unit (s := S4096x128) off S32x128.size inb) (fun _ => rfl)).view.set
      = (Rect.unit (s := S4096x128) off S32x128.size inb).set :=
    View.set_slice_whole _ _
  refine hs.trans ?_
  ext x
  rw [Rect.mem_set_unit]
  simp only [cT, Finset.mem_filter, Finset.mem_univ, _root_.true_and]
  constructor
  · intro h
    exact ⟨(h 0).1, (h 0).2⟩
  · rintro ⟨hlo, hhi⟩
    refine Fin.forall_fin_two.2 ⟨⟨hlo, hhi⟩, ?_, ?_⟩
    · rw [h1]; exact Nat.zero_le _
    · have hc : (x 1).val < 128 := (x 1).isLt
      rw [h1]
      show (x 1).val < 0 + 128
      omega
/-- of the second. -/
theorem set_e1n_slice (off : Fin 2 → ℕ) (inb : ∀ a, off a + S32x128.size a ≤ S40960x128.size a) (h1 : off 1 = 0) :
    ((m_e1n).slice (Rect.unit (s := S40960x128) off S32x128.size inb) (fun _ => rfl)).view.set = cN (off 0) := by
  have hs : ((m_e1n).slice (Rect.unit (s := S40960x128) off S32x128.size inb) (fun _ => rfl)).view.set
      = (Rect.unit (s := S40960x128) off S32x128.size inb).set :=
    View.set_slice_whole _ _
  refine hs.trans ?_
  ext x
  rw [Rect.mem_set_unit]
  simp only [cN, Finset.mem_filter, Finset.mem_univ, _root_.true_and]
  constructor
  · intro h
    exact ⟨(h 0).1, (h 0).2⟩
  · rintro ⟨hlo, hhi⟩
    refine Fin.forall_fin_two.2 ⟨⟨hlo, hhi⟩, ?_, ?_⟩
    · rw [h1]; exact Nat.zero_le _
    · have hc : (x 1).val < 128 := (x 1).isLt
      rw [h1]
      show (x 1).val < 0 + 128
      omega

/-- A target chunk of the worker (`r = 1408 w + 32 j`, `j < 44`, `r < 4096`) is among its unwritten rows from `r` on; -/
theorem cT_subset_tRem (w j : ℕ) (hj : j < 44) (hr : w * 1408 + 32 * j < 4096) : cT (w * 1408 + 32 * j) ⊆ tRem w (w * 1408 + 32 * j) := by
  intro x hx'
  have hx : (x 0).val < 4096 := (x 0).isLt
  simp only [tSet, cT, tRem, tDone, Finset.mem_filter, Finset.mem_univ, _root_.true_and, Finset.mem_sdiff, Finset.mem_union] at hx' ⊢
  omega
/-- without it they are the unwritten rows from the next chunk on; -/
theorem tRem_sdiff_cT (w j : ℕ) (hj : j < 44) (hr : w * 1408 + 32 * j < 4096) :
    tRem w (w * 1408 + 32 * j) \ cT (w * 1408 + 32 * j) = tRem w (w * 1408 + 32 * j + 32) := by
  ext x
  have hx : (x 0).val < 4096 := (x 0).isLt
  simp only [tSet, cT, tRem, tDone, Finset.mem_filter, Finset.mem_univ, _root_.true_and, Finset.mem_sdiff, Finset.mem_union]
  omega
/-- with it the written rows before `r` are those before the next chunk, and the two are disjoint. -/
theorem tDone_union_cT (w j : ℕ) (hj : j < 44) (hr : w * 1408 + 32 * j < 4096) :
    tDone w (w * 1408 + 32 * j) ∪ cT (w * 1408 + 32 * j) = tDone w (w * 1408 + 32 * j + 32) := by
  ext x
  have hx : (x 0).val < 4096 := (x 0).isLt
  simp only [tSet, cT, tRem, tDone, Finset.mem_filter, Finset.mem_univ, _root_.true_and, Finset.mem_sdiff, Finset.mem_union]
  omega
theorem tDone_disjoint_cT (w r : ℕ) : Disjoint (tDone w r) (cT r) := by
  rw [Finset.disjoint_left]
  intro x h1 h2
  have hx : (x 0).val < 4096 := (x 0).isLt
  simp only [tSet, cT, tRem, tDone, Finset.mem_filter, Finset.mem_univ, _root_.true_and, Finset.mem_sdiff, Finset.mem_union] at h1 h2
  omega
/-- Past row 4096 nothing of the first result is unwritten, and its written rows do not grow. -/
theorem tRem_of_ge (w r r' : ℕ) (hr : 4096 ≤ r) (hr' : 4096 ≤ r') : tRem w r = tRem w r' := by
  ext x
  have hx : (x 0).val < 4096 := (x 0).isLt
  simp only [tSet, cT, tRem, tDone, Finset.mem_filter, Finset.mem_univ, _root_.true_and, Finset.mem_sdiff, Finset.mem_union]
  omega
theorem tDone_of_ge (w r r' : ℕ) (hr : 4096 ≤ r) (hr' : 4096 ≤ r') : tDone w r = tDone w r' := by
  ext x
  have hx : (x 0).val < 4096 := (x 0).isLt
  simp only [tSet, cT, tRem, tDone, Finset.mem_filter, Finset.mem_univ, _root_.true_and, Finset.mem_sdiff, Finset.mem_union]
  omega
/-- The same for a neighbour chunk (`4096 ≤ r`) and the second result. -/
theorem cN_subset_nRem (w j : ℕ) (hj : j < 44) (hr : 4096 ≤ w * 1408 + 32 * j) : cN (w * 1408 + 32 * j - 4096) ⊆ nRem w (w * 1408 + 32 * j) := by
  intro x hx'
  have hx : (x 0).val < 40960 := (x 0).isLt
  simp only [nSet, cN, nRem, nDone, Finset.mem_filter, Finset.mem_univ, _root_.true_and, Finset.mem_sdiff, Finset.mem_union] at hx' ⊢
  omega
theorem nRem_sdiff_cN (w j : ℕ) (hj : j < 44) (hr : 4096 ≤ w * 1408 + 32 * j) :
    nRem w (w * 1408 + 32 * j) \ cN (w * 1408 + 32 * j - 4096) = nRem w (w * 1408 + 32 * j + 32) := by
  ext x
  have hx : (x 0).val < 40960 := (x 0).isLt
  simp only [nSet, cN, nRem, nDone, Finset.mem_filter, Finset.mem_univ, _root_.true_and, Finset.mem_sdiff, Finset.mem_union]
  omega
theorem nDone_union_cN (w j : ℕ) (hj : j < 44) (hr : 4096 ≤ w * 1408 + 32 * j) :
    nDone w (w * 1408 + 32 * j) ∪ cN (w * 1408 + 32 * j - 4096) = nDone w (w * 1408 + 32 * j + 32) := by
  ext x
  have hx : (x 0).val < 40960 := (x 0).isLt
  simp only [nSet, cN, nRem, nDone, Finset.mem_filter, Finset.mem_univ, _root_.true_and, Finset.mem_sdiff, Finset.mem_union]
  omega
theorem nDone_disjoint_cN (w r : ℕ) (hr : 4096 ≤ r) : Disjoint (nDone w r) (cN (r - 4096)) := by
  rw [Finset.disjoint_left]
  intro x h1 h2
  have hx : (x 0).val < 40960 := (x 0).isLt
  simp only [nSet, cN, nRem, nDone, Finset.mem_filter, Finset.mem_univ, _root_.true_and, Finset.mem_sdiff, Finset.mem_union] at h1 h2
  omega
/-- Before row 4096 the second result's rows do not move. -/
theorem nRem_of_lt (w r r' : ℕ) (hr : r ≤ 4096) (hr' : r' ≤ 4096) : nRem w r = nRem w r' := by
  ext x
  have hx : (x 0).val < 40960 := (x 0).isLt
  simp only [nSet, cN, nRem, nDone, Finset.mem_filter, Finset.mem_univ, _root_.true_and, Finset.mem_sdiff, Finset.mem_union]
  omega
theorem nDone_of_lt (w r r' : ℕ) (hr : r ≤ 4096) (hr' : r' ≤ 4096) : nDone w r = nDone w r' := by
  ext x
  have hx : (x 0).val < 40960 := (x 0).isLt
  simp only [nSet, cN, nRem, nDone, Finset.mem_filter, Finset.mem_univ, _root_.true_and, Finset.mem_sdiff, Finset.mem_union]
  omega
/-- At the worker's first row everything is unwritten; past its last, written. -/
theorem tRem_base (w : ℕ) : tRem w (w * 1408) = tSet w := by
  ext x
  have hx : (x 0).val < 4096 := (x 0).isLt
  simp only [tSet, cT, tRem, tDone, Finset.mem_filter, Finset.mem_univ, _root_.true_and, Finset.mem_sdiff, Finset.mem_union]
  omega
theorem nRem_base (w : ℕ) : nRem w (w * 1408) = nSet w := by
  ext x
  have hx : (x 0).val < 40960 := (x 0).isLt
  simp only [nSet, cN, nRem, nDone, Finset.mem_filter, Finset.mem_univ, _root_.true_and, Finset.mem_sdiff, Finset.mem_union]
  omega
theorem tDone_base (w r : ℕ) (hr : r ≤ w * 1408) : tDone w r = ∅ := by
  ext x
  have hx : (x 0).val < 4096 := (x 0).isLt
  simp only [tSet, cT, tRem, tDone, Finset.mem_filter, Finset.mem_univ, _root_.true_and, Finset.mem_sdiff, Finset.mem_union, Finset.notMem_empty, iff_false]
  omega
theorem nDone_base (w r : ℕ) (hr : r ≤ w * 1408) : nDone w r = ∅ := by
  ext x
  have hx : (x 0).val < 40960 := (x 0).isLt
  simp only [nSet, cN, nRem, nDone, Finset.mem_filter, Finset.mem_univ, _root_.true_and, Finset.mem_sdiff, Finset.mem_union, Finset.notMem_empty, iff_false]
  omega
theorem tRem_last (w r : ℕ) (hr : w * 1408 + 1408 ≤ r) : tRem w r = ∅ := by
  ext x
  have hx : (x 0).val < 4096 := (x 0).isLt
  simp only [tSet, cT, tRem, tDone, Finset.mem_filter, Finset.mem_univ, _root_.true_and, Finset.mem_sdiff, Finset.mem_union, Finset.notMem_empty, iff_false]
  omega
theorem nRem_last (w r : ℕ) (hr : w * 1408 + 1408 ≤ r) : nRem w r = ∅ := by
  ext x
  have hx : (x 0).val < 40960 := (x 0).isLt
  simp only [nSet, cN, nRem, nDone, Finset.mem_filter, Finset.mem_univ, _root_.true_and, Finset.mem_sdiff, Finset.mem_union, Finset.notMem_empty, iff_false]
  omega
theorem tDone_last (w r : ℕ) (hr : w * 1408 + 1408 ≤ r) : tDone w r = tSet w := by
  ext x
  have hx : (x 0).val < 4096 := (x 0).isLt
  simp only [tSet, cT, tRem, tDone, Finset.mem_filter, Finset.mem_univ, _root_.true_and, Finset.mem_sdiff, Finset.mem_union]
  omega
theorem nDone_last (w r : ℕ) (hr : w * 1408 + 1408 ≤ r) : nDone w r = nSet w := by
  ext x
  have hx : (x 0).val < 40960 := (x 0).isLt
  simp only [nSet, cN, nRem, nDone, Finset.mem_filter, Finset.mem_univ, _root_.true_and, Finset.mem_sdiff, Finset.mem_union]
  omega

/-- The worker's first row, two ways. -/
theorem base_eq : base L = wL L * 1408 := by
  show 2816 * (L 1).val + 1408 * (L 0).val = ((L 1).val * 2 + (L 0).val) * 1408
  omega

end Sets

end Cert.Kernel.Tile
end
-- ==== Proof.Twin.TileVals.lean ====
/-
  Pure facts about the values a worker leaves: a chunk's values from what its buffers hold, and the sums of squares one
  chunk at a time.
-/
import proofs.«213116_g69346541961480_cont_9to1_m_612_34_alg».proof.Proof.Twin.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

/-! ## Values -/

section Values
variable [FloatOps F] (d : Dev nD)

/-- A chunk's rows from its buffers: with the weights, the gathered self rows, the gathered neighbour rows and the bias as the
    chunk's lists say, the chunk's entry `(i, col)` is the result's entry `(r0 + i, col)`. -/
theorem rowOut_eq_E1 (r0 : ℕ) (h32 : 32 ∣ r0) (fal : S336.Idx → F .f32) (fself : S32x128.Idx → F .f32) (fnbr : S320x128.Idx → F .f32) (fb : S128.Idx → F .f32)
    (hal : ∀ x : S336.Idx, (x 0).val < 320 → fal x = alph I d r0 (x 0).val)
    (hself : ∀ x : S32x128.Idx, fself x = I.sp d (ixTab (selfIdx I d r0 (x 0).val).toNat (x 1).val))
    (hnbr : ∀ x : S320x128.Idx, fnbr x = I.ap d (ixTab (nbrIdx I d r0 (x 0).val).toNat (x 1).val))
    (hb : ∀ x : S128.Idx, fb x = I.b d x) (i col : ℕ) (hi : i < 32) (hc : col < 128) :
    rowOut fal fself fnbr fb i col = E1 I d (r0 + i) col := by
  obtain ⟨m, rfl⟩ := h32
  have x0 : ((ix32x128 i col) 0).val = i := mkIdx_val S32x128 (by decide) ![i, col] 0 hi
  have x1 : ((ix32x128 i col) 1).val = col := mkIdx_val S32x128 (by decide) ![i, col] 1 hc
  have a0 : ∀ t : Fin 10, ((ix336 (10 * i + t.val)) 0).val = 10 * i + t.val := fun t =>
    mkIdx_val S336 (by decide) ![10 * i + t.val] 0 (by show 10 * i + t.val < 336; have := t.isLt; omega)
  have n0 : ∀ t : Fin 10, ((ix320x128 (10 * i + t.val) col) 0).val = 10 * i + t.val := fun t =>
    mkIdx_val S320x128 (by decide) ![10 * i + t.val, col] 0 (by show 10 * i + t.val < 320; have := t.isLt; omega)
  have n1 : ∀ t : Fin 10, ((ix320x128 (10 * i + t.val) col) 1).val = col := fun t =>
    mkIdx_val S320x128 (by decide) ![10 * i + t.val, col] 1 hc
  have hS : fself (ix32x128 i col) = I.sp d (ixTab (selfIdx I d (32 * m) i).toNat col) := by rw [hself, x0, x1]
  have hA : ∀ t : Fin 10, fal (ix336 (10 * i + t.val)) = alph I d (32 * m) (10 * i + t.val) := fun t => by
    rw [hal _ (by rw [a0]; have := t.isLt; omega), a0]
  have hN : ∀ t : Fin 10, fnbr (ix320x128 (10 * i + t.val) col) = I.ap d (ixTab (nbrIdx I d (32 * m) (10 * i + t.val)).toNat col) := fun t => by
    rw [hnbr, n0, n1]
  unfold rowOut E1
  rw [hS, hb]
  simp only [hA, hN]
  unfold selfIdx nbrIdx alph
  by_cases h : 32 * m < 4096
  · have h' : 32 * m + i < 4096 := by omega
    have e : ∀ t : Fin 10, 32 * m * 10 + (10 * i + t.val) = (32 * m + i) * 10 + t.val := fun t => by omega
    simp only [if_pos h, if_pos h', e]
  · have h' : ¬ 32 * m + i < 4096 := by omega
    have e : ∀ t : Fin 10, (32 * m - 4096) * 10 + (10 * i + t.val) = (32 * m + i - 4096) * 10 + t.val := fun t => by omega
    have e2 : 32 * m - 4096 + i = 32 * m + i - 4096 := by omega
    simp only [if_neg h, if_neg h', e, e2]

/-- A fold of pointwise steps on 16-lane accumulators, read at a lane, is the fold of the steps at that lane. -/
theorem foldl_lane {β : Type} (g : β → ℕ → F .f32 → F .f32) (l : S16.Idx) :
    ∀ (xs : List β) (acc : FVec F S16 .f32),
      (xs.foldl (fun acc x => fun l' => g x (l' 0).val (acc l')) acc) l = xs.foldl (fun a x => g x (l 0).val a) (acc l)
  | [], _ => rfl
  | x :: xs, acc => by
    rw [List.foldl_cons, List.foldl_cons]
    exact foldl_lane g l xs _

/-- One row's squares added to the accumulator, at a lane. -/
theorem sqRowStep_lane (v : ℕ → F .f32) (acc : FVec F S16 .f32) (l : S16.Idx) :
    sqRowStep v acc l
      = (List.range 8).foldl (fun a c => FloatOps.addf a (FloatOps.mulf (v (16 * c + (l 0).val)) (v (16 * c + (l 0).val)))) (acc l) :=
  foldl_lane (fun c lane a => FloatOps.addf a (FloatOps.mulf (v (16 * c + lane)) (v (16 * c + lane)))) l (List.range 8) acc

/-- The rows' squares added one row after the other, at a lane. -/
theorem sqRows_lane (ro : ℕ → ℕ → F .f32) (l : S16.Idx) :
    ∀ (is : List ℕ) (acc : FVec F S16 .f32),
      (is.foldl (fun acc i => sqRowStep (ro i) acc) acc) l
        = is.foldl (fun a i => (List.range 8).foldl
            (fun a c => FloatOps.addf a (FloatOps.mulf (ro i (16 * c + (l 0).val)) (ro i (16 * c + (l 0).val)))) a) (acc l)
  | [], _ => rfl
  | i :: is, acc => by
    rw [List.foldl_cons, List.foldl_cons, sqRows_lane ro l is _, sqRowStep_lane]

/-- Two folds whose steps agree on the list's members agree. -/
theorem foldl_congr_mem {α β : Type} (f g : α → β → α) : ∀ (xs : List β) (a : α), (∀ a, ∀ x ∈ xs, f a x = g a x) → xs.foldl f a = xs.foldl g a
  | [], _, _ => rfl
  | x :: xs, a, h => by
    rw [List.foldl_cons, List.foldl_cons, h a x (List.mem_cons_self ..)]
    exact foldl_congr_mem f g xs _ fun a y hy => h a y (List.mem_cons_of_mem _ hy)

/-- The chunk's 16-lane sum of squares, lane by lane. -/
theorem sqAcc_eq_chunkSq (r0 : ℕ) (ro : ℕ → ℕ → F .f32) (hro : ∀ i col, i < 32 → col < 128 → ro i col = E1 I d (r0 + i) col) (l : S16.Idx) :
    sqAcc ro 32 l = chunkSq I d r0 (l 0).val := by
  have hl : (l 0).val < 16 := (l 0).isLt
  unfold sqAcc chunkSq
  rw [sqRows_lane]
  refine foldl_congr_mem _ _ _ _ fun a i hi => ?_
  have hi32 : i < 32 := List.mem_range.mp hi
  refine foldl_congr_mem _ _ _ _ fun a c hc => ?_
  have hc8 : c < 8 := List.mem_range.mp hc
  rw [hro i (16 * c + (l 0).val) hi32 (by omega)]

/-- One more chunk. -/
theorem tileSqUpto_succ (w n : ℕ) (tgt : Bool) (lane : ℕ) :
    tileSqUpto I d w (n + 1) tgt lane
      = if decide (w * 1408 + 32 * n < 4096) = tgt then FloatOps.addf (tileSqUpto I d w n tgt lane) (chunkSq I d (w * 1408 + 32 * n) lane)
        else tileSqUpto I d w n tgt lane := by
  unfold tileSqUpto
  rw [List.range_succ, List.foldl_append]
  rfl
theorem tileSqUpto_zero (w : ℕ) (tgt : Bool) (lane : ℕ) : tileSqUpto I d w 0 tgt lane = Scalar.ofBits .f32 0x00000000#32 := rfl
theorem tileSqUpto_all (w : ℕ) (tgt : Bool) (lane : ℕ) : tileSqUpto I d w 44 tgt lane = tileSq I d w tgt lane := rfl

/-- The indices of a chunk's lists name rows of the tables. -/
theorem selfIdx_lt (hpre : PreOK I) (r0 i : ℕ) : (selfIdx I d r0 i).toNat < 100000 := by
  unfold selfIdx
  split
  · exact (hpre d).1 _
  · exact (hpre d).2.1 _
theorem nbrIdx_lt (hpre : PreOK I) (r0 j : ℕ) : (nbrIdx I d r0 j).toNat < 100000 := by
  unfold nbrIdx
  split
  · exact (hpre d).2.1 _
  · exact (hpre d).2.2 _

end Values

end Cert.Kernel.Tile
end
-- ==== Proof.Twin.TileRead.lean ====
/-
  What a transfer leaves in a vector subcore's buffers, read entry by entry: a copy of a window of an index or
  weight array holds the array's entries from the window's offset on; a copy into the first 320 places of a longer
  buffer holds its payload there; a gather holds, in row `i`, the table's row that the `i`-th word of its list names;
  and the two tables, addressed whole, are all of their entries.
-/
import proofs.«213116_g69346541961480_cont_9to1_m_612_34_alg».proof.Proof.Twin.TileInv
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## A window of an index or weight array, copied -/

theorem read_nid32 (off : Fin 1 → ℕ) (inb : ∀ a, off a + S32.size a ≤ S4096.size a)
    (f : Buf (Elt F) ((m_nid).view.loc (thr d L))) (x : S32.Idx) :
    ReadAs.same.apply (((m_nid).slice (Rect.unit (s := S4096) off S32.size inb) (fun _ => rfl)).view.read (Elt F) f) x
      = f (ix4096 (off 0 + (x 0).val)) := by
  show f _ = f _
  refine congrArg f (funext fun a => Fin.ext ?_)
  match a with
  | ⟨0, _⟩ =>
    have h0 : off 0 + 32 ≤ 4096 := inb 0
    have hx : (x 0).val < 32 := (x 0).isLt
    show off 0 + 1 * (x 0).val = (off 0 + (x 0).val) % 4096
    rw [Nat.mod_eq_of_lt (by omega), Nat.one_mul]

theorem read_n1_32 (off : Fin 1 → ℕ) (inb : ∀ a, off a + S32.size a ≤ S40960.size a)
    (f : Buf (Elt F) ((m_n1).view.loc (thr d L))) (x : S32.Idx) :
    ReadAs.same.apply (((m_n1).slice (Rect.unit (s := S40960) off S32.size inb) (fun _ => rfl)).view.read (Elt F) f) x
      = f (ix40960 (off 0 + (x 0).val)) := by
  show f _ = f _
  refine congrArg f (funext fun a => Fin.ext ?_)
  match a with
  | ⟨0, _⟩ =>
    have h0 : off 0 + 32 ≤ 40960 := inb 0
    have hx : (x 0).val < 32 := (x 0).isLt
    show off 0 + 1 * (x 0).val = (off 0 + (x 0).val) % 40960
    rw [Nat.mod_eq_of_lt (by omega), Nat.one_mul]

theorem read_n1_320 (off : Fin 1 → ℕ) (inb : ∀ a, off a + S320.size a ≤ S40960.size a)
    (f : Buf (Elt F) ((m_n1).view.loc (thr d L))) (x : S320.Idx) :
    ReadAs.same.apply (((m_n1).slice (Rect.unit (s := S40960) off S320.size inb) (fun _ => rfl)).view.read (Elt F) f) x
      = f (ix40960 (off 0 + (x 0).val)) := by
  show f _ = f _
  refine congrArg f (funext fun a => Fin.ext ?_)
  match a with
  | ⟨0, _⟩ =>
    have h0 : off 0 + 320 ≤ 40960 := inb 0
    have hx : (x 0).val < 320 := (x 0).isLt
    show off 0 + 1 * (x 0).val = (off 0 + (x 0).val) % 40960
    rw [Nat.mod_eq_of_lt (by omega), Nat.one_mul]

theorem read_n2_320 (off : Fin 1 → ℕ) (inb : ∀ a, off a + S320.size a ≤ S409600.size a)
    (f : Buf (Elt F) ((m_n2).view.loc (thr d L))) (x : S320.Idx) :
    ReadAs.same.apply (((m_n2).slice (Rect.unit (s := S409600) off S320.size inb) (fun _ => rfl)).view.read (Elt F) f) x
      = f (ix409600 (off 0 + (x 0).val)) := by
  show f _ = f _
  refine congrArg f (funext fun a => Fin.ext ?_)
  match a with
  | ⟨0, _⟩ =>
    have h0 : off 0 + 320 ≤ 409600 := inb 0
    have hx : (x 0).val < 320 := (x 0).isLt
    show off 0 + 1 * (x 0).val = (off 0 + (x 0).val) % 409600
    rw [Nat.mod_eq_of_lt (by omega), Nat.one_mul]

theorem read_a1_320 (off : Fin 1 → ℕ) (inb : ∀ a, off a + S320.size a ≤ S40960.size a)
    (f : Buf (Elt F) ((m_a1).view.loc (thr d L))) (x : S320.Idx) :
    ReadAs.same.apply (((m_a1).slice (Rect.unit (s := S40960) off S320.size inb) (fun _ => rfl)).view.read (Elt F) f) x
      = f (ix40960 (off 0 + (x 0).val)) := by
  show f _ = f _
  refine congrArg f (funext fun a => Fin.ext ?_)
  match a with
  | ⟨0, _⟩ =>
    have h0 : off 0 + 320 ≤ 40960 := inb 0
    have hx : (x 0).val < 320 := (x 0).isLt
    show off 0 + 1 * (x 0).val = (off 0 + (x 0).val) % 40960
    rw [Nat.mod_eq_of_lt (by omega), Nat.one_mul]

theorem read_a2_320 (off : Fin 1 → ℕ) (inb : ∀ a, off a + S320.size a ≤ S409600.size a)
    (f : Buf (Elt F) ((m_a2).view.loc (thr d L))) (x : S320.Idx) :
    ReadAs.same.apply (((m_a2).slice (Rect.unit (s := S409600) off S320.size inb) (fun _ => rfl)).view.read (Elt F) f) x
      = f (ix409600 (off 0 + (x 0).val)) := by
  show f _ = f _
  refine congrArg f (funext fun a => Fin.ext ?_)
  match a with
  | ⟨0, _⟩ =>
    have h0 : off 0 + 320 ≤ 409600 := inb 0
    have hx : (x 0).val < 320 := (x 0).isLt
    show off 0 + 1 * (x 0).val = (off 0 + (x 0).val) % 409600
    rw [Nat.mod_eq_of_lt (by omega), Nat.one_mul]

/-! ## A copy into the head of a longer buffer -/

theorem writes_s4 (f : Buf (Elt F) ((s_4).view.loc (thr d L))) (w : S320.Idx → F .f32) (x : S336.Idx)
    (hx : (x 0).val < 320) :
    (s_4).view.writes (Elt F) f [⟨Rect.unit (s := S336) ![0] S320.size inb_S336_S320_0, w⟩] x
      = w (mkIdx S320 (by decide) ![(x 0).val]) := by
  have hx' : (Rect.unit (s := S336) ![0] S320.size inb_S336_S320_0).emb (mkIdx S320 (by decide) ![(x 0).val]) = x := by
    funext a
    apply Fin.ext
    match a with
    | ⟨0, _⟩ =>
      show 0 + 1 * ((x 0).val % 320) = (x 0).val
      rw [Nat.mod_eq_of_lt hx]; omega
  have h := View.read_writes_cons_emb (s_4).view f (Rect.unit (s := S336) ![0] S320.size inb_S336_S320_0) w []
    (mkIdx S320 (by decide) ![(x 0).val])
  rw [hx'] at h
  exact h

theorem writes_s5 (f : Buf (Elt F) ((s_5).view.loc (thr d L))) (w : S320.Idx → F .f32) (x : S336.Idx)
    (hx : (x 0).val < 320) :
    (s_5).view.writes (Elt F) f [⟨Rect.unit (s := S336) ![0] S320.size inb_S336_S320_0, w⟩] x
      = w (mkIdx S320 (by decide) ![(x 0).val]) := by
  have hx' : (Rect.unit (s := S336) ![0] S320.size inb_S336_S320_0).emb (mkIdx S320 (by decide) ![(x 0).val]) = x := by
    funext a
    apply Fin.ext
    match a with
    | ⟨0, _⟩ =>
      show 0 + 1 * ((x 0).val % 320) = (x 0).val
      rw [Nat.mod_eq_of_lt hx]; omega
  have h := View.read_writes_cons_emb (s_5).view f (Rect.unit (s := S336) ![0] S320.size inb_S336_S320_0) w []
    (mkIdx S320 (by decide) ![(x 0).val])
  rw [hx'] at h
  exact h

/-! ## A gather's rows -/

theorem gather_sp0 (fs : Buf (Elt F) ((spSl).view.loc (thr d L))) (g : Buf (Elt F) ((s_0).view.loc (thr d L)))
    (hn : S32.numel = S32x128.size gathers_S100000x128_S32x128.axis')
    (hin : ∀ x, ((s_0).view.read (Elt F) g x).toNat < S100000x128.size gathers_S100000x128_S32x128.axis) (x : S32x128.Idx) :
    SparseCore.gatherPayload gathers_S100000x128_S32x128 ((spSl).view.read (Elt F) fs)
        (SparseCore.rows ((s_0).view.read (Elt F) g) hn hin) x
      = fs (ixTab (g (mkIdx S32 (by decide) ![(x 0).val])).toNat (x 1).val) := by
  have hx0 : (x 0).val < 32 := (x 0).isLt
  have hx1 : (x 1).val < 128 := (x 1).isLt
  have hk : S32.rowMajor.symm (((x gathers_S100000x128_S32x128.axis') : Fin (S32x128.size gathers_S100000x128_S32x128.axis')).cast hn.symm)
      = mkIdx S32 (by decide) ![(x 0).val] := by
    rw [Equiv.symm_apply_eq]
    apply Fin.ext
    rw [Shape.rowMajor_val_one]
    show (x 0).val = (x 0).val % 32
    rw [Nat.mod_eq_of_lt hx0]
  have hlt : (g (mkIdx S32 (by decide) ![(x 0).val])).toNat < 100000 := hin (mkIdx S32 (by decide) ![(x 0).val])
  unfold SparseCore.gatherPayload
  show fs _ = fs _
  refine congrArg fs (funext fun a => Fin.ext ?_)
  match a with
  | ⟨0, _⟩ =>
    have e0 := Shape.Gathers.idx_axis gathers_S100000x128_S32x128 (SparseCore.rows ((s_0).view.read (Elt F) g) hn hin) x
    show 0 + 1 * ((gathers_S100000x128_S32x128.idx (SparseCore.rows ((s_0).view.read (Elt F) g) hn hin) x) gathers_S100000x128_S32x128.axis).val
      = (g (mkIdx S32 (by decide) ![(x 0).val])).toNat % 100000
    rw [e0, Nat.mod_eq_of_lt hlt, Nat.zero_add, Nat.one_mul]
    show (g (S32.rowMajor.symm (((x gathers_S100000x128_S32x128.axis') : Fin (S32x128.size gathers_S100000x128_S32x128.axis')).cast hn.symm))).toNat = _
    rw [hk]
  | ⟨1, h1⟩ =>
    show 0 + 1 * ((gathers_S100000x128_S32x128.idx (SparseCore.rows ((s_0).view.read (Elt F) g) hn hin) x) ⟨1, h1⟩).val
      = (x 1).val % 128
    rw [Shape.Gathers.idx_of_ne gathers_S100000x128_S32x128 _ x ⟨1, h1⟩ Nat.one_ne_zero, Nat.mod_eq_of_lt hx1, Nat.zero_add, Nat.one_mul]
    rfl

theorem gather_sp1 (fs : Buf (Elt F) ((spSl).view.loc (thr d L))) (g : Buf (Elt F) ((s_1).view.loc (thr d L)))
    (hn : S32.numel = S32x128.size gathers_S100000x128_S32x128.axis')
    (hin : ∀ x, ((s_1).view.read (Elt F) g x).toNat < S100000x128.size gathers_S100000x128_S32x128.axis) (x : S32x128.Idx) :
    SparseCore.gatherPayload gathers_S100000x128_S32x128 ((spSl).view.read (Elt F) fs)
        (SparseCore.rows ((s_1).view.read (Elt F) g) hn hin) x
      = fs (ixTab (g (mkIdx S32 (by decide) ![(x 0).val])).toNat (x 1).val) := by
  have hx0 : (x 0).val < 32 := (x 0).isLt
  have hx1 : (x 1).val < 128 := (x 1).isLt
  have hk : S32.rowMajor.symm (((x gathers_S100000x128_S32x128.axis') : Fin (S32x128.size gathers_S100000x128_S32x128.axis')).cast hn.symm)
      = mkIdx S32 (by decide) ![(x 0).val] := by
    rw [Equiv.symm_apply_eq]
    apply Fin.ext
    rw [Shape.rowMajor_val_one]
    show (x 0).val = (x 0).val % 32
    rw [Nat.mod_eq_of_lt hx0]
  have hlt : (g (mkIdx S32 (by decide) ![(x 0).val])).toNat < 100000 := hin (mkIdx S32 (by decide) ![(x 0).val])
  unfold SparseCore.gatherPayload
  show fs _ = fs _
  refine congrArg fs (funext fun a => Fin.ext ?_)
  match a with
  | ⟨0, _⟩ =>
    have e0 := Shape.Gathers.idx_axis gathers_S100000x128_S32x128 (SparseCore.rows ((s_1).view.read (Elt F) g) hn hin) x
    show 0 + 1 * ((gathers_S100000x128_S32x128.idx (SparseCore.rows ((s_1).view.read (Elt F) g) hn hin) x) gathers_S100000x128_S32x128.axis).val
      = (g (mkIdx S32 (by decide) ![(x 0).val])).toNat % 100000
    rw [e0, Nat.mod_eq_of_lt hlt, Nat.zero_add, Nat.one_mul]
    show (g (S32.rowMajor.symm (((x gathers_S100000x128_S32x128.axis') : Fin (S32x128.size gathers_S100000x128_S32x128.axis')).cast hn.symm))).toNat = _
    rw [hk]
  | ⟨1, h1⟩ =>
    show 0 + 1 * ((gathers_S100000x128_S32x128.idx (SparseCore.rows ((s_1).view.read (Elt F) g) hn hin) x) ⟨1, h1⟩).val
      = (x 1).val % 128
    rw [Shape.Gathers.idx_of_ne gathers_S100000x128_S32x128 _ x ⟨1, h1⟩ Nat.one_ne_zero, Nat.mod_eq_of_lt hx1, Nat.zero_add, Nat.one_mul]
    rfl

theorem gather_ap2 (fs : Buf (Elt F) ((apSl).view.loc (thr d L))) (g : Buf (Elt F) ((s_2).view.loc (thr d L)))
    (hn : S320.numel = S320x128.size gathers_S100000x128_S320x128.axis')
    (hin : ∀ x, ((s_2).view.read (Elt F) g x).toNat < S100000x128.size gathers_S100000x128_S320x128.axis) (x : S320x128.Idx) :
    SparseCore.gatherPayload gathers_S100000x128_S320x128 ((apSl).view.read (Elt F) fs)
        (SparseCore.rows ((s_2).view.read (Elt F) g) hn hin) x
      = fs (ixTab (g (mkIdx S320 (by decide) ![(x 0).val])).toNat (x 1).val) := by
  have hx0 : (x 0).val < 320 := (x 0).isLt
  have hx1 : (x 1).val < 128 := (x 1).isLt
  have hk : S320.rowMajor.symm (((x gathers_S100000x128_S320x128.axis') : Fin (S320x128.size gathers_S100000x128_S320x128.axis')).cast hn.symm)
      = mkIdx S320 (by decide) ![(x 0).val] := by
    rw [Equiv.symm_apply_eq]
    apply Fin.ext
    rw [Shape.rowMajor_val_one]
    show (x 0).val = (x 0).val % 320
    rw [Nat.mod_eq_of_lt hx0]
  have hlt : (g (mkIdx S320 (by decide) ![(x 0).val])).toNat < 100000 := hin (mkIdx S320 (by decide) ![(x 0).val])
  unfold SparseCore.gatherPayload
  show fs _ = fs _
  refine congrArg fs (funext fun a => Fin.ext ?_)
  match a with
  | ⟨0, _⟩ =>
    have e0 := Shape.Gathers.idx_axis gathers_S100000x128_S320x128 (SparseCore.rows ((s_2).view.read (Elt F) g) hn hin) x
    show 0 + 1 * ((gathers_S100000x128_S320x128.idx (SparseCore.rows ((s_2).view.read (Elt F) g) hn hin) x) gathers_S100000x128_S320x128.axis).val
      = (g (mkIdx S320 (by decide) ![(x 0).val])).toNat % 100000
    rw [e0, Nat.mod_eq_of_lt hlt, Nat.zero_add, Nat.one_mul]
    show (g (S320.rowMajor.symm (((x gathers_S100000x128_S320x128.axis') : Fin (S320x128.size gathers_S100000x128_S320x128.axis')).cast hn.symm))).toNat = _
    rw [hk]
  | ⟨1, h1⟩ =>
    show 0 + 1 * ((gathers_S100000x128_S320x128.idx (SparseCore.rows ((s_2).view.read (Elt F) g) hn hin) x) ⟨1, h1⟩).val
      = (x 1).val % 128
    rw [Shape.Gathers.idx_of_ne gathers_S100000x128_S320x128 _ x ⟨1, h1⟩ Nat.one_ne_zero, Nat.mod_eq_of_lt hx1, Nat.zero_add, Nat.one_mul]
    rfl

theorem gather_ap3 (fs : Buf (Elt F) ((apSl).view.loc (thr d L))) (g : Buf (Elt F) ((s_3).view.loc (thr d L)))
    (hn : S320.numel = S320x128.size gathers_S100000x128_S320x128.axis')
    (hin : ∀ x, ((s_3).view.read (Elt F) g x).toNat < S100000x128.size gathers_S100000x128_S320x128.axis) (x : S320x128.Idx) :
    SparseCore.gatherPayload gathers_S100000x128_S320x128 ((apSl).view.read (Elt F) fs)
        (SparseCore.rows ((s_3).view.read (Elt F) g) hn hin) x
      = fs (ixTab (g (mkIdx S320 (by decide) ![(x 0).val])).toNat (x 1).val) := by
  have hx0 : (x 0).val < 320 := (x 0).isLt
  have hx1 : (x 1).val < 128 := (x 1).isLt
  have hk : S320.rowMajor.symm (((x gathers_S100000x128_S320x128.axis') : Fin (S320x128.size gathers_S100000x128_S320x128.axis')).cast hn.symm)
      = mkIdx S320 (by decide) ![(x 0).val] := by
    rw [Equiv.symm_apply_eq]
    apply Fin.ext
    rw [Shape.rowMajor_val_one]
    show (x 0).val = (x 0).val % 320
    rw [Nat.mod_eq_of_lt hx0]
  have hlt : (g (mkIdx S320 (by decide) ![(x 0).val])).toNat < 100000 := hin (mkIdx S320 (by decide) ![(x 0).val])
  unfold SparseCore.gatherPayload
  show fs _ = fs _
  refine congrArg fs (funext fun a => Fin.ext ?_)
  match a with
  | ⟨0, _⟩ =>
    have e0 := Shape.Gathers.idx_axis gathers_S100000x128_S320x128 (SparseCore.rows ((s_3).view.read (Elt F) g) hn hin) x
    show 0 + 1 * ((gathers_S100000x128_S320x128.idx (SparseCore.rows ((s_3).view.read (Elt F) g) hn hin) x) gathers_S100000x128_S320x128.axis).val
      = (g (mkIdx S320 (by decide) ![(x 0).val])).toNat % 100000
    rw [e0, Nat.mod_eq_of_lt hlt, Nat.zero_add, Nat.one_mul]
    show (g (S320.rowMajor.symm (((x gathers_S100000x128_S320x128.axis') : Fin (S320x128.size gathers_S100000x128_S320x128.axis')).cast hn.symm))).toNat = _
    rw [hk]
  | ⟨1, h1⟩ =>
    show 0 + 1 * ((gathers_S100000x128_S320x128.idx (SparseCore.rows ((s_3).view.read (Elt F) g) hn hin) x) ⟨1, h1⟩).val
      = (x 1).val % 128
    rw [Shape.Gathers.idx_of_ne gathers_S100000x128_S320x128 _ x ⟨1, h1⟩ Nat.one_ne_zero, Nat.mod_eq_of_lt hx1, Nat.zero_add, Nat.one_mul]
    rfl

/-! ## Whole-buffer landings and the tables' entry sets -/

/-- A whole-buffer landing replaces the contents. -/
theorem landing_s6 (f P : Buf (Elt F) ((s_6).view.loc (thr d L))) :
    (s_6).view.write (Elt F) f P Finset.univ = P :=
  View.write_whole_univ cc1_scratch6 f P

theorem landing_s6_writes (f : Buf (Elt F) ((s_6).view.loc (thr d L))) (P : (Rect.whole S32x128).shape.Idx → F .f32) :
    (s_6).view.writes (Elt F) f [⟨Rect.whole S32x128, P⟩] = P := by
  funext i
  have h := View.write_emb_of_mem (v := (s_6).view.slice (Rect.whole S32x128)) f P (Finset.mem_univ i)
  have he : ((s_6).view.slice (Rect.whole S32x128)).emb i = i := by
    show (Rect.whole S32x128).emb i = i
    exact Rect.emb_whole_apply S32x128 i
  rw [he] at h
  exact h

/-- A whole-buffer landing replaces the contents. -/
theorem landing_s7 (f P : Buf (Elt F) ((s_7).view.loc (thr d L))) :
    (s_7).view.write (Elt F) f P Finset.univ = P :=
  View.write_whole_univ cc1_scratch7 f P

theorem landing_s7_writes (f : Buf (Elt F) ((s_7).view.loc (thr d L))) (P : (Rect.whole S32x128).shape.Idx → F .f32) :
    (s_7).view.writes (Elt F) f [⟨Rect.whole S32x128, P⟩] = P := by
  funext i
  have h := View.write_emb_of_mem (v := (s_7).view.slice (Rect.whole S32x128)) f P (Finset.mem_univ i)
  have he : ((s_7).view.slice (Rect.whole S32x128)).emb i = i := by
    show (Rect.whole S32x128).emb i = i
    exact Rect.emb_whole_apply S32x128 i
  rw [he] at h
  exact h

/-- A whole-buffer landing replaces the contents. -/
theorem landing_s8 (f P : Buf (Elt F) ((s_8).view.loc (thr d L))) :
    (s_8).view.write (Elt F) f P Finset.univ = P :=
  View.write_whole_univ cc1_scratch8 f P

theorem landing_s8_writes (f : Buf (Elt F) ((s_8).view.loc (thr d L))) (P : (Rect.whole S320x128).shape.Idx → F .f32) :
    (s_8).view.writes (Elt F) f [⟨Rect.whole S320x128, P⟩] = P := by
  funext i
  have h := View.write_emb_of_mem (v := (s_8).view.slice (Rect.whole S320x128)) f P (Finset.mem_univ i)
  have he : ((s_8).view.slice (Rect.whole S320x128)).emb i = i := by
    show (Rect.whole S320x128).emb i = i
    exact Rect.emb_whole_apply S320x128 i
  rw [he] at h
  exact h

/-- A whole-buffer landing replaces the contents. -/
theorem landing_s9 (f P : Buf (Elt F) ((s_9).view.loc (thr d L))) :
    (s_9).view.write (Elt F) f P Finset.univ = P :=
  View.write_whole_univ cc1_scratch9 f P

theorem landing_s9_writes (f : Buf (Elt F) ((s_9).view.loc (thr d L))) (P : (Rect.whole S320x128).shape.Idx → F .f32) :
    (s_9).view.writes (Elt F) f [⟨Rect.whole S320x128, P⟩] = P := by
  funext i
  have h := View.write_emb_of_mem (v := (s_9).view.slice (Rect.whole S320x128)) f P (Finset.mem_univ i)
  have he : ((s_9).view.slice (Rect.whole S320x128)).emb i = i := by
    show (Rect.whole S320x128).emb i = i
    exact Rect.emb_whole_apply S320x128 i
  rw [he] at h
  exact h

/-- A whole-buffer landing replaces the contents. -/
theorem landing_s0 (f P : Buf (Elt F) ((s_0).view.loc (thr d L))) :
    (s_0).view.write (Elt F) f P Finset.univ = P :=
  View.write_whole_univ cc1_scratch0 f P

theorem landing_s0_writes (f : Buf (Elt F) ((s_0).view.loc (thr d L))) (P : (Rect.whole S32).shape.Idx → BitVec 32) :
    (s_0).view.writes (Elt F) f [⟨Rect.whole S32, P⟩] = P := by
  funext i
  have h := View.write_emb_of_mem (v := (s_0).view.slice (Rect.whole S32)) f P (Finset.mem_univ i)
  have he : ((s_0).view.slice (Rect.whole S32)).emb i = i := by
    show (Rect.whole S32).emb i = i
    exact Rect.emb_whole_apply S32 i
  rw [he] at h
  exact h

theorem spSl_set : (spSl).view.set = Finset.univ := by
  show ((View.whole main_v4_0_scv).slice _).set = _
  rw [View.set_slice_whole]
  exact Rect.set_eq_univ_of_whole _ fun a => ⟨by
    match a with
    | ⟨0, _⟩ => rfl
    | ⟨1, _⟩ => rfl, rfl, rfl⟩

theorem apSl_set : (apSl).view.set = Finset.univ := by
  show ((View.whole main_v4_1_scv).slice _).set = _
  rw [View.set_slice_whole]
  exact Rect.set_eq_univ_of_whole _ fun a => ⟨by
    match a with
    | ⟨0, _⟩ => rfl
    | ⟨1, _⟩ => rfl, rfl, rfl⟩

end Tile
end Cert.Kernel.Tile
end
-- ==== Proof.Twin.TileTripAT0.lean ====
/-
  The first half of a pair of target chunks on a vector subcore, the first pair.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem at0_v43_of_eq : ∀ k : Fin k1_t1_loop.trips, k.val = 0 →
    ¬ Scalar.cmpi .ne (Scalar.extui (Scalar.xori (Scalar.cmpi .eq (Scf.iv 0#32 1#32 k) 0#32) 1#1) : BitVec 32) 0#32 = 1#1 := by decide +kernel

/-! ## The sums of squares after a target chunk, and the flights a run leaves -/

theorem at0_sq13 (fsq : Buf (Elt F) ((s_13).view.loc (thr d L))) (acc : FVec F S16 .f32) (w n : ℕ)
    (hfsq : ∀ x : S2x16.Idx, fsq x = tileSqUpto I d w n (decide ((x 0).val = 0)) (x 1).val)
    (ht : w * 1408 + 32 * n < 4096)
    (hacc : ∀ l : S16.Idx, acc l = chunkSq I d (w * 1408 + 32 * n) (l 0).val) (x : S2x16.Idx) :
    (s_13).view.writes (Elt F) fsq [⟨Rect.unit (s := S2x16) ![0, 0] S1x16.size inb_S2x16_S1x16_0_0,
        k1_pay113 acc ((s_13).view.readAt (Elt F) (Rect.unit (s := S2x16) ![0, 0] S1x16.size inb_S2x16_S1x16_0_0).toLoadRect fsq)⟩] x
      = tileSqUpto I d w (n + 1) (decide ((x 0).val = 0)) (x 1).val := by
  have hx0 : (x 0).val < 2 := (x 0).isLt
  have hx1 : (x 1).val < 16 := (x 1).isLt
  rw [tileSqUpto_succ]
  by_cases h0 : (x 0).val = 0
  · have ex : (Rect.unit (s := S2x16) ![0, 0] S1x16.size inb_S2x16_S1x16_0_0).emb (ValueIdx.ix2 (0 : Fin 1) (x 1)) = x := by
      funext a
      match a with
      | ⟨0, _⟩ => apply Fin.ext; show 0 + 1 * 0 = (x 0).val; omega
      | ⟨1, _⟩ => apply Fin.ext; show 0 + 1 * (x 1).val = (x 1).val; omega
    have hr := View.read_writes_cons_emb (s_13).view fsq (Rect.unit (s := S2x16) ![0, 0] S1x16.size inb_S2x16_S1x16_0_0)
      (k1_pay113 acc ((s_13).view.readAt (Elt F) (Rect.unit (s := S2x16) ![0, 0] S1x16.size inb_S2x16_S1x16_0_0).toLoadRect fsq)) []
      (ValueIdx.ix2 (0 : Fin 1) (x 1))
    rw [ex] at hr
    refine (show _ = _ from hr).trans ?_
    unfold k1_pay113
    refine (ValueIdx.shapeCast_a_1a_apply (a := 16) _ shapeCasts_S16_S1x16 (0 : Fin 1) (x 1)).trans ?_
    show FloatOps.addf (shapeCast S16 ((s_13).view.readAt (Elt F) (Rect.unit (s := S2x16) ![0, 0] S1x16.size inb_S2x16_S1x16_0_0).toLoadRect fsq) shapeCasts_S1x16_S16 (ValueIdx.ix1 (x 1)))
      (acc (ValueIdx.ix1 (x 1))) = _
    rw [ValueIdx.shapeCast_1a_a_apply (a := 16) _ shapeCasts_S1x16_S16 (x 1), hacc]
    have hv : (s_13).view.readAt (Elt F) (Rect.unit (s := S2x16) ![0, 0] S1x16.size inb_S2x16_S1x16_0_0).toLoadRect fsq (ValueIdx.ix2 (0 : Fin 1) (x 1)) = fsq x := by
      show fsq ((Rect.unit (s := S2x16) ![0, 0] S1x16.size inb_S2x16_S1x16_0_0).emb (ValueIdx.ix2 (0 : Fin 1) (x 1))) = fsq x
      rw [ex]
    rw [hv, hfsq, if_pos (by rw [decide_eq_true ht, decide_eq_true h0])]
  · have hne : ∀ p ∈ ([⟨Rect.unit (s := S2x16) ![0, 0] S1x16.size inb_S2x16_S1x16_0_0,
        k1_pay113 acc ((s_13).view.readAt (Elt F) (Rect.unit (s := S2x16) ![0, 0] S1x16.size inb_S2x16_S1x16_0_0).toLoadRect fsq)⟩] : List (View.Piece (Elt F) S2x16 .f32)),
        x ∉ p.1.set := by
      intro p hp
      rw [List.mem_singleton] at hp
      subst hp
      rw [Rect.mem_set_unit]
      intro h
      have := h 0
      simp only [Matrix.cons_val_zero] at this
      omega
    have hr := View.read_writes_apply_of_forall_not_mem (s_13).view fsq x _ hne
    refine (show _ = _ from hr).trans ?_
    show fsq x = _
    rw [hfsq, if_neg (by rw [decide_eq_true ht, decide_eq_false h0]; decide)]

theorem at0_FlS1_of (r0 : ℕ) (f7 : Buf (Elt F) ((s_7).view.loc (thr d L))) (g1 : Buf (Elt F) ((s_1).view.loc (thr d L)))
    (P : (Rect.whole S32x128).shape.Idx → F .f32)
    (hg : ∀ x : S32.Idx, g1 x = selfIdx I d r0 (x 0).val)
    (hP : ∀ x : S32x128.Idx, P x = I.sp d (ixTab (g1 (mkIdx S32 (by decide) ![(x 0).val])).toNat (x 1).val)) :
    (Transfers.Flight countersEmb (thr d L) (SemLoc.dma cc1_scratch16.sem) default 131072
      iprop((((s_7).view.loc (thr d L) ↦{fullShare} (s_7).view.writes (Elt F) f7 [⟨Rect.whole S32x128, P⟩]) ∗ ((s_1).view.loc (thr d L) ↦{fullShare} g1))
        ∗ ((m_sp).view.loc (thr d L) ↦[(spSl).view.set]{Transfers.shareTokN (rsh (wL L)) 14} I.sp d)) : sProp 𝕄)
      ⊢ FlS1 I d L r0 := by
  unfold FlS1
  refine Transfers.Flight_mono countersEmb (thr d L) ?_
  iintro ⟨⟨H7, H1⟩, Hsp⟩
  iexists ((s_7).view.writes (Elt F) f7 [⟨Rect.whole S32x128, P⟩]), g1
  isplitr
  · ipureintro
    refine ⟨hg, fun x => ?_⟩
    rw [landing_s7_writes d L, hP, hg, mkIdx_val S32 (by decide) ![(x 0).val] 0 (x 0).isLt]
    rfl
  isplitl [H7]; · iexact H7
  isplitl [H1]; · iexact H1
  iexact Hsp

theorem at0_FlN1_of (r0 : ℕ) (f9 : Buf (Elt F) ((s_9).view.loc (thr d L))) (g3 : Buf (Elt F) ((s_3).view.loc (thr d L)))
    (P : (Rect.whole S320x128).shape.Idx → F .f32)
    (hg : ∀ x : S320.Idx, g3 x = nbrIdx I d r0 (x 0).val)
    (hP : ∀ x : S320x128.Idx, P x = I.ap d (ixTab (g3 (mkIdx S320 (by decide) ![(x 0).val])).toNat (x 1).val)) :
    (Transfers.Flight countersEmb (thr d L) (SemLoc.dma cc1_scratch17.sem) default 1310720
      iprop((((s_9).view.loc (thr d L) ↦{fullShare} (s_9).view.writes (Elt F) f9 [⟨Rect.whole S320x128, P⟩]) ∗ ((s_3).view.loc (thr d L) ↦{fullShare} g3))
        ∗ ((m_ap).view.loc (thr d L) ↦[(apSl).view.set]{Transfers.shareTokN (rsh (wL L)) 15} I.ap d)) : sProp 𝕄)
      ⊢ FlN1 I d L r0 := by
  unfold FlN1
  refine Transfers.Flight_mono countersEmb (thr d L) ?_
  iintro ⟨⟨H9, H3⟩, Hap⟩
  iexists ((s_9).view.writes (Elt F) f9 [⟨Rect.whole S320x128, P⟩]), g3
  isplitr
  · ipureintro
    refine ⟨hg, fun x => ?_⟩
    rw [landing_s9_writes d L, hP, hg, mkIdx_val S320 (by decide) ![(x 0).val] 0 (x 0).isLt]
    rfl
  isplitl [H9]; · iexact H9
  isplitl [H3]; · iexact H3
  iexact Hap

theorem at0_FlW0_of (r0 : ℕ) (hr0 : r0 < 4096) (off : Fin 2 → ℕ) (inb : ∀ a, off a + S32x128.size a ≤ S4096x128.size a)
    (h0 : off 0 = r0) (h1 : off 1 = 0) (ft : Buf (Elt F) ((m_e1t).view.loc (thr d L))) (fo : Buf (Elt F) ((s_10).view.loc (thr d L)))
    (P : (Rect.whole (Rect.unit (s := S4096x128) off S32x128.size inb).shape).shape.Idx → F .f32)
    (hP : ∀ y : S32x128.Idx, P y = E1 I d (r0 + (y 0).val) (y 1).val) :
    (Transfers.Flight countersEmb (thr d L) (SemLoc.dma cc1_scratch18.sem) default 131072
      iprop((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩])
        ∗ ((s_10).view.loc (thr d L) ↦[(s_10).view.set]{fullShare} fo)) : sProp 𝕄)
      ⊢ FlW0 I d L r0 := by
  have hEq : ((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩]) : sProp 𝕄)
      = ((m_e1t).view.loc (thr d L) ↦[cT r0]{fullShare} E1t I d) := by
    rw [set_e1t_slice off inb h1, h0]
    refine pointsTo_congr fun i hi => ?_
    unfold cT at hi
    rw [Finset.mem_filter] at hi
    obtain ⟨-, hlo, hhi⟩ := hi
    have hi1 : (i 1).val < 128 := (i 1).isLt
    let y : S32x128.Idx := ValueIdx.ix2 (⟨(i 0).val - r0, by omega⟩ : Fin 32) (⟨(i 1).val, hi1⟩ : Fin 128)
    have hy : ((m_e1t).slice (Rect.unit (s := S4096x128) off S32x128.size inb) (fun _ => rfl)).view.emb y = i := by
      funext a
      match a with
      | ⟨0, _⟩ => apply Fin.ext; show off 0 + 1 * ((i 0).val - r0) = (i 0).val; omega
      | ⟨1, _⟩ => apply Fin.ext; show off 1 + 1 * (i 1).val = (i 1).val; omega
    have hr := View.read_writes_cons_emb ((m_e1t).slice (Rect.unit (s := S4096x128) off S32x128.size inb) (fun _ => rfl)).view ft
      (Rect.whole (Rect.unit (s := S4096x128) off S32x128.size inb).shape) P [] y
    have hw : (Rect.whole (Rect.unit (s := S4096x128) off S32x128.size inb).shape).emb y = y := by
      funext a; apply Fin.ext
      show 0 + 1 * (y a).val = (y a).val
      omega
    rw [hw] at hr
    have hr2 : ((m_e1t).slice (Rect.unit (s := S4096x128) off S32x128.size inb) (fun _ => rfl)).view.writes (Elt F) ft
        [⟨Rect.whole (Rect.unit (s := S4096x128) off S32x128.size inb).shape, P⟩]
        (((m_e1t).slice (Rect.unit (s := S4096x128) off S32x128.size inb) (fun _ => rfl)).view.emb y) = P y := hr
    rw [hy] at hr2
    rw [hr2, hP]
    show E1 I d (r0 + ((i 0).val - r0)) (i 1).val = E1 I d (i 0).val (i 1).val
    rw [Nat.add_sub_cancel' hlo]
  unfold FlW0 outDone
  rw [if_pos hr0]
  refine Transfers.Flight_mono countersEmb (thr d L) ?_
  iintro ⟨Hd, Hs⟩
  isplitl [Hs]
  · iexists fo
    iapply (Entails.of_eq (show ((s_10).view.loc (thr d L) ↦[(s_10).view.set]{fullShare} fo : sProp 𝕄) = ((s_10).view.loc (thr d L) ↦{fullShare} fo) from by
      rw [show (s_10).view.set = Finset.univ from View.set_whole _]))
    iexact Hs
  · iapply (Entails.of_eq hEq)
    iexact Hd

set_option maxHeartbeats 4000000 in
theorem tripA_T0 (hpre : PreOK I) (O : CellTallies nD τ sig (HIx 1)) (W : Waits sig (HIx 1)) (k : Fin k1_t1_loop.trips) (hT : rA L k.val < 4096) (hk0 : k.val = 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hk22 : k.val < 22 := by omega
  have hb : rA L k.val + 32 < 4096 := by
    have h0 := (L 0).isLt; have h1 := (L 1).isLt
    simp only [show grid1.bound 0 = 2 from rfl, show grid1.bound 1 = 16 from rfl] at h0 h1
    unfold rA base at hT ⊢; omega
  unfold Inv
  have hOuts : Outs I d L k.val = Outs I d L 0 := by rw [hk0]
  rw [Set0_lt I d L hk22, hOuts, Outs_zero I d L]
  unfold Loaded0 Idle1 LoopRO Pieces FlS0 FlN0
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨⟨%f10, Hs10⟩, ⟨%f11, Hs11⟩, Hm18, Hm19⟩,
    ⟨⟨%ft, Het⟩, ⟨%fn, Hen⟩, Hdt, Hdn⟩⟩
  have c3 : k1_cond3 L k = 1#1 := (k1_cond3_iff L k).mpr (by unfold rA base at hb; omega)
  have c4 : ¬ k1_cond4 L k = 1#1 := fun h => by have := (k1_cond4_iff L k).mp h; unfold rA base at hb; omega
  have c6 : k1_cond6 L k = 1#1 := (k1_cond6_iff L k).mpr (by unfold rA base at hb; omega)
  have c7 : ¬ k1_cond7 L k = 1#1 := fun h => by have := (k1_cond7_iff L k).mp h; unfold rA base at hb; omega
  have hpair : rA L k.val + 64 ≤ 4096 := by
    have h0 := (L 0).isLt; have h1 := (L 1).isLt
    simp only [show grid1.bound 0 = 2 from rfl, show grid1.bound 1 = 16 from rfl] at h0 h1
    unfold rA base at hb ⊢; omega
  have hv43 := at0_v43_of_eq k hk0
  unfold tripA
  sl_exec
  -- the second chunk's lists, at their words
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      rw [View.write_whole_univ]
      unfold tripA_T0.sl.dma0
      show I.nid d _ = _
      unfold selfIdx
      rw [if_pos hb]
      refine congrArg (I.nid d) (funext fun (a : Fin 1) => ?_)
      have ha : a = 0 := Subsingleton.elim _ _
      subst ha
      apply Fin.ext
      have hx : (x 0).val < 32 := (x 0).isLt
      show (k1_off5 L k) 0 + 1 * (x 0).val = (rA L k.val + 32 + (x 0).val) % 4096
      rw [k1_off5_eq]
      unfold rA base at hpair ⊢
      simp only [Matrix.cons_val_zero]
      omega
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      rw [View.write_whole_univ]
      unfold tripA_T0.sl.dma0_1
      show I.n1 d _ = _
      unfold nbrIdx
      rw [if_pos hb]
      refine congrArg (I.n1 d) (funext fun (a : Fin 1) => ?_)
      have ha : a = 0 := Subsingleton.elim _ _
      subst ha
      apply Fin.ext
      have hx : (x 0).val < 320 := (x 0).isLt
      show (k1_off6 L k) 0 + 1 * (x 0).val = ((rA L k.val + 32) * 10 + (x 0).val) % 40960
      rw [k1_off6_eq]
      unfold rA base at hpair ⊢
      simp only [Matrix.cons_val_zero]
      omega
  icases Hs3' with ⟨%g3, Hs3, %hg3⟩
  ihave Hs5' : iprop(∃ g : Buf (Elt F) ((s_5).view.loc (thr d L)), ((s_5).view.loc (thr d L) ↦{fullShare} g) ∗ ⌜∀ x : S336.Idx, (x 0).val < 320 → g x = alph I d (rA L k.val + 32) (x 0).val⌝) $$ [Hs5]
  · iexists _
    isplitl [Hs5]
    · iexact Hs5
    · ipureintro
      intro x hx
      have hx' : ((mkIdx S320 (by decide) ![(x 0).val] : S320.Idx) 0).val = (x 0).val := Nat.mod_eq_of_lt hx
      have hxe : (Rect.unit (s := S336) ![0] S320.size inb_S336_S320_0).emb (mkIdx S320 (by decide) ![(x 0).val] : S320.Idx) = x := by
        funext (a : Fin 1)
        have ha : a = 0 := Subsingleton.elim _ _
        subst ha
        apply Fin.ext
        show 0 + 1 * ((mkIdx S320 (by decide) ![(x 0).val] : S320.Idx) 0).val = (x 0).val
        rw [hx']; omega
      have hw := View.read_writes_cons_emb (s_5).view f5 (Rect.unit (s := S336) ![0] S320.size inb_S336_S320_0) (tripA_T0.sl.dma0_2 I d L k c3) [] (mkIdx S320 (by decide) ![(x 0).val] : S320.Idx)
      rw [hxe] at hw
      refine hw.trans ?_
      unfold tripA_T0.sl.dma0_2
      show I.a1 d _ = _
      unfold alph
      rw [if_pos hb]
      refine congrArg (I.a1 d) (funext fun (a : Fin 1) => ?_)
      have ha : a = 0 := Subsingleton.elim _ _
      subst ha
      apply Fin.ext
      show (k1_off6 L k) 0 + 1 * ((mkIdx S320 (by decide) ![(x 0).val] : S320.Idx) 0).val = ((rA L k.val + 32) * 10 + (x 0).val) % 40960
      rw [k1_off6_eq, hx']
      unfold rA base at hpair ⊢
      simp only [Matrix.cons_val_zero]
      omega
  icases Hs5' with ⟨%fal1, Hs5, %hfal1⟩
  have hin1 : ∀ x, ((s_1).view.read (Elt F) g1 x).toNat < S100000x128.size (gathers_S100000x128_S32x128).axis := fun x => by
    show (g1 x).toNat < 100000
    rw [hg1]; exact selfIdx_lt I d hpre _ _
  have hin3 : ∀ x, ((s_3).view.read (Elt F) g3 x).toNat < S100000x128.size (gathers_S100000x128_S320x128).axis := fun x => by
    show (g3 x).toNat < 100000
    rw [hg3]; exact nbrIdx_lt I d hpre _ _
  sl_exec
  -- the first chunk's self rows land
  ihave Hw12 := (Transfers.MayWaits.elim (c := thr d L) (ι := (none : HIx 1)) (O := O) (SemLoc.dma cc1_scratch14.sem)) $$ Hmw
  iapply (Transfers.wp_waitLocalO countersEmb 𝒱₀ (thr d L) none (none : HIx 1) (N := 131072) rfl) $$ [Hm14 HO Hw12]
  · isplitl [Hm14]; · iexact Hm14
    isplitl [HO]; · iexact HO
    iexact Hw12
  iintro ⟨⟨%fs6, %g0, %hsp, Hs6, Hs0, Hsp0⟩, Hm14, HO⟩
  rw [wp_ret]; imodintro
  sl_exec
  -- the first chunk's neighbour rows land
  ihave Hw13 := (Transfers.MayWaits.elim (c := thr d L) (ι := (none : HIx 1)) (O := O) (SemLoc.dma cc1_scratch15.sem)) $$ Hmw
  iapply (Transfers.wp_waitLocalO countersEmb 𝒱₀ (thr d L) none (none : HIx 1) (N := 1310720) rfl) $$ [Hm15 HO Hw13]
  · isplitl [Hm15]; · iexact Hm15
    isplitl [HO]; · iexact HO
    iexact Hw13
  iintro ⟨⟨%fs8, %g2, %hap, Hs8, Hs2, Hap0⟩, Hm15, HO⟩
  rw [wp_ret]; imodintro
  sl_exec
  sl_for (RowInv0 d L fal fs6 fs8 fb) $$ [Hs4 Hs6 Hs8 Hs12 Hs10]
  case region => exact row_trip0 d L (v2 L) k fal fs6 fs8 fb
  · unfold RowInv0
    isplitl []
    · ipureintro; rfl
    isplitl [Hs4]; · iexact Hs4
    isplitl [Hs6]; · iexact Hs6
    isplitl [Hs8]; · iexact Hs8
    isplitl [Hs12]; · iexact Hs12
    iexists f10
    isplitl []
    · ipureintro; intro x hx; exact absurd hx (Nat.not_lt_zero _)
    iexact Hs10
  unfold RowInv0
  iintro %acc ⟨%hacc, Hs4, Hs6, Hs8, Hs12, ⟨%fo, %hfo, Hs10⟩⟩
  sl_exec
  -- the chunk's rows of the first result, carved out of the unwritten rows
  have hrA : wL L * 1408 + 32 * (2 * k.val) = rA L k.val := by rw [← base_eq L]; unfold rA; omega
  have hsub : cT (rA L k.val) ⊆ tRem (wL L) (rA L k.val) := by
    have h := cT_subset_tRem (wL L) (2 * k.val) (by omega) (by rw [hrA]; exact hT)
    rwa [hrA] at h
  have hoff0 : (k1_off26 L k) 0 = rA L k.val := by
    rw [k1_off26_eq]; unfold rA base; simp only [Matrix.cons_val_zero]
  have hoff1 : (k1_off26 L k) 1 = 0 := by
    rw [k1_off26_eq]; rfl
  have hset : ((m_e1t).slice (Rect.unit (s := S4096x128) (k1_off26 L k) S32x128.size (k1_off26_inb L k c6)) (fun _ => rfl)).view.set
      = cT (rA L k.val) := by
    rw [set_e1t_slice (k1_off26 L k) (k1_off26_inb L k c6) hoff1, hoff0]
  ihave Het2 := (pointsTo_split_subset (I := ((m_e1t).slice (Rect.unit (s := S4096x128) (k1_off26 L k) S32x128.size (k1_off26_inb L k c6)) (fun _ => rfl)).view.set)
    (hset ▸ hsub)).1 $$ Het
  icases Het2 with ⟨Hct, Het⟩
  ihave Hct := (show ((m_e1t).view.loc (thr d L) ↦[((m_e1t).slice (Rect.unit (s := S4096x128) (k1_off26 L k) S32x128.size (k1_off26_inb L k c6)) (fun _ => rfl)).view.set]{fullShare} ft : sProp 𝕄)
      ⊢ (((m_e1t).slice (Rect.unit (s := S4096x128) (k1_off26 L k) S32x128.size (k1_off26_inb L k c6)) (fun _ => rfl)).view.loc (thr d L) ↦[((m_e1t).slice (Rect.unit (s := S4096x128) (k1_off26 L k) S32x128.size (k1_off26_inb L k c6)) (fun _ => rfl)).view.set]{fullShare} ft) from .rfl) $$ Hct
  sl_exec
  rw [wp_ret]; imodintro
  have hOuts1 : Outs1 I d L k.val = Outs1 I d L 0 := by rw [hk0]
  unfold Mid
  rw [hOuts1, Outs1_zero I d L]
  unfold LoopRO Idle0 Loaded1
  isplitl []
  · ipureintro; rfl
  isplitl []
  · iexact Hmw
  isplitl [HO]
  · iexists _
    isplitl []
    pick_goal 2
    · iexact HO
    · ipureintro
      intro p hp
      rcases Finset.mem_insert.mp hp with rfl | hp
      · exact Or.inr rfl
      rcases Finset.mem_insert.mp hp with rfl | hp
      · exact Or.inr rfl
      rcases Finset.mem_insert.mp hp with rfl | hp
      · exact Or.inr rfl
      rcases Finset.mem_insert.mp hp with rfl | hp
      · exact Or.inr rfl
      rcases Finset.mem_insert.mp hp with rfl | hp
      · exact Or.inr rfl
      exact hW' p hp
  isplitl [Hnid Hn1 Hn2 Ha1 Ha2 Hr7 Hr8 Hr9 Hr10 Hr11 Hr12 Hr13 Hr14 Hr15 Hr16 Hr17 Hr18]
  · iframe
    isplitl [Hr7]; · iexact Hr7
    isplitl [Hr8]; · iexact Hr8
    iexact Hr9
  isplitl [Hs12]
  · iexists fb
    isplitl []
    · ipureintro; exact hfb
    iexact Hs12
  -- the values of the chunk's rows
  have h32 : Scf.trips k1_t2_loop.lb k1_t2_loop.ub k1_t2_loop.st = 32 := by decide
  have h32dvd : 32 ∣ rA L k.val := ⟨88 * (L 1).val + 44 * (L 0).val + 2 * k.val, by unfold rA base; omega⟩
  have hro : ∀ i col, i < 32 → col < 128 → rowOut fal fs6 fs8 fb i col = E1 I d (rA L k.val + i) col :=
    fun i col hi hc => rowOut_eq_E1 I d (rA L k.val) h32dvd fal fs6 fs8 fb hfal hsp.2 hap.2 hfb i col hi hc
  have haccL : ∀ l : S16.Idx, acc l = chunkSq I d (wL L * 1408 + 32 * (2 * k.val)) (l 0).val := fun l => by
    rw [hacc, h32, hrA]; exact sqAcc_eq_chunkSq I d (rA L k.val) (rowOut fal fs6 fs8 fb) hro l
  -- the sums of squares after this chunk
  isplitl [Hs13]
  · iexists _
    isplitl []
    pick_goal 2
    · iexact Hs13
    · ipureintro
      intro x
      exact at0_sq13 I d L fsq acc (wL L) (2 * k.val) hfsq (by rw [hrA]; exact hT) haccL x
  -- buffer set 0 at rest
  isplitl [Hs0 Hs2 Hs4 Hs6 Hs8 Hm14 Hm15 Hsp0 Hap0]
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0]
    · iapply (Entails.of_eq (show ((m_sp).view.loc (thr d L) ↦[(spSl).view.set]{Transfers.shareTokN (rsh (wL L)) 12} I.sp d : sProp 𝕄)
          = ((m_sp).view.loc (thr d L) ↦{Transfers.shareTokN (rsh (wL L)) 12} I.sp d) from by rw [spSl_set])) $$ Hsp0
    iapply (Entails.of_eq (show ((m_ap).view.loc (thr d L) ↦[(apSl).view.set]{Transfers.shareTokN (rsh (wL L)) 13} I.ap d : sProp 𝕄)
          = ((m_ap).view.loc (thr d L) ↦{Transfers.shareTokN (rsh (wL L)) 13} I.ap d) from by rw [apSl_set])) $$ Hap0
  -- buffer set 1 loaded with the pair's second chunk
  isplitl [Hs5 Hm16 Hm17]
  · isplitl [Hs5]
    · iexists fal1
      isplitl []
      · ipureintro; exact hfal1
      iexact Hs5
    isplitl [Hm16]
    · iapply (at0_FlS1_of I d L (rA L k.val + 32) f7 g1 (tripA_T0.sl.gather0 I d L g1 hin1) hg1 (fun x => by
        unfold tripA_T0.sl.gather0
        exact gather_sp1 d L (I.sp d) g1 _ hin1 x))
      iexact Hm16
    iapply (at0_FlN1_of I d L (rA L k.val + 32) f9 g3 (tripA_T0.sl.gather1 I d L g3 hin3) hg3 (fun x => by
        unfold tripA_T0.sl.gather1
        exact gather_ap3 d L (I.ap d) g3 _ hin3 x))
    iexact Hm17
  -- the chunk's copy-out under way
  isplitl [Hm18]
  · iapply (at0_FlW0_of I d L (rA L k.val) hT (k1_off26 L k) (k1_off26_inb L k c6) hoff0 hoff1 ft fo (tripA_T0.sl.dma0_3 d L fo) (fun y => by
      unfold tripA_T0.sl.dma0_3
      show fo y = _
      rw [hfo y (by rw [h32]; exact (y 0).isLt)]
      exact hro _ _ (y 0).isLt (y 1).isLt))
    iexact Hm18
  -- the second output buffer at rest
  isplitl [Hs11 Hm19]
  · isplitl [Hs11]; · iexists f11; iexact Hs11
    iexact Hm19
  -- the rows of the two results
  have hle64 : rA L k.val - 64 ≤ wL L * 1408 := by rw [← base_eq L]; unfold rA; omega
  have hle32 : rA L k.val - 32 ≤ wL L * 1408 := by rw [← base_eq L]; unfold rA; omega
  isplitl [Het]
  · iexists ft
    iapply (Entails.of_eq (show ((m_e1t).view.loc (thr d L) ↦[tRem (wL L) (rA L k.val) \ ((m_e1t).slice (Rect.unit (s := S4096x128) (k1_off26 L k) S32x128.size (k1_off26_inb L k c6)) (fun _ => rfl)).view.set]{fullShare} ft : sProp 𝕄)
        = ((m_e1t).view.loc (thr d L) ↦[tRem (wL L) (rA L k.val + 32)]{fullShare} ft) from by
      rw [hset, ← hrA, tRem_sdiff_cT (wL L) (2 * k.val) (by omega) (by rw [hrA]; exact hT)])) $$ Het
  isplitl [Hen]
  · iexists fn
    iapply (Entails.of_eq (show ((m_e1n).view.loc (thr d L) ↦[nRem (wL L) (rA L k.val)]{fullShare} fn : sProp 𝕄)
        = ((m_e1n).view.loc (thr d L) ↦[nRem (wL L) (rA L k.val + 32)]{fullShare} fn) from by
      rw [nRem_of_lt (wL L) (rA L k.val) (rA L k.val + 32) (by omega) (by omega)])) $$ Hen
  isplitl [Hdt]
  · iapply (Entails.of_eq (show ((m_e1t).view.loc (thr d L) ↦[tDone (wL L) (rA L k.val - 64)]{fullShare} E1t I d : sProp 𝕄)
        = ((m_e1t).view.loc (thr d L) ↦[tDone (wL L) (rA L k.val - 32)]{fullShare} E1t I d) from by
      rw [tDone_base (wL L) _ hle64, tDone_base (wL L) _ hle32])) $$ Hdt
  iapply (Entails.of_eq (show ((m_e1n).view.loc (thr d L) ↦[nDone (wL L) (rA L k.val - 64)]{fullShare} E1n I d : sProp 𝕄)
        = ((m_e1n).view.loc (thr d L) ↦[nDone (wL L) (rA L k.val - 32)]{fullShare} E1n I d) from by
      rw [nDone_base (wL L) _ hle64, nDone_base (wL L) _ hle32])) $$ Hdn

end Tile
end Cert.Kernel.Tile
end
-- ==== Proof.Twin.TileTripATp.lean ====
/-
  The first half of a pair of target chunks on a vector subcore, a later pair.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

omit [FloatOps F] in
/-- The first row of pair `k`'s first chunk is the worker's chunk number `2 k`. -/
theorem tp_rA_chunk (L : grid1.Coords) (k : ℕ) : rA L k = wL L * 1408 + 32 * (2 * k) := by
  unfold rA; rw [base_eq]; omega

/-- The copy-out's destination: the first chunk's 32 rows of the first result, as the body slices them. -/
abbrev tpOutSl (L : grid1.Coords) (k : Fin k1_t1_loop.trips) (c6 : k1_cond6 L k = 1#1) : Memref sig .scVector .hbm S32x128 .f32 :=
  (m_e1t).slice (Rect.unit (s := S4096x128) (k1_off26 L k) S32x128.size (k1_off26_inb L k c6)) (fun _ => rfl)

omit [FloatOps F] in
theorem tp_outSl_set (L : grid1.Coords) (k : Fin k1_t1_loop.trips) (c6 : k1_cond6 L k = 1#1) : (tpOutSl L k c6).view.set = cT (rA L k.val) := by
  have h1 : (k1_off26 L k) 1 = 0 := by rw [k1_off26_eq]; rfl
  have h0 : (k1_off26 L k) 0 = rA L k.val := by rw [k1_off26_eq]; unfold rA base; rfl
  rw [← h0]
  exact set_e1t_slice (k1_off26 L k) (k1_off26_inb L k c6) h1

omit [FloatOps F] in
/-- The unwritten rows from a target chunk on: the chunk, and the rows from the next chunk on. -/
theorem tp_het_split (k : ℕ) (hk : k < 22) (hT : rA L k < 4096) (ft : Buf (Elt F) ((m_e1t).view.loc (thr d L))) :
    ((m_e1t).view.loc (thr d L) ↦[tRem (wL L) (rA L k)]{fullShare} ft : sProp 𝕄)
      ⊣⊢ iprop(((m_e1t).view.loc (thr d L) ↦[cT (rA L k)]{fullShare} ft) ∗ ((m_e1t).view.loc (thr d L) ↦[tRem (wL L) (rA L k + 32)]{fullShare} ft)) := by
  have hr : wL L * 1408 + 32 * (2 * k) < 4096 := by rw [← tp_rA_chunk]; exact hT
  have h : ((m_e1t).view.loc (thr d L) ↦[tRem (wL L) (wL L * 1408 + 32 * (2 * k))]{fullShare} ft : sProp 𝕄)
      ⊣⊢ iprop(((m_e1t).view.loc (thr d L) ↦[cT (wL L * 1408 + 32 * (2 * k))]{fullShare} ft)
        ∗ ((m_e1t).view.loc (thr d L) ↦[tRem (wL L) (wL L * 1408 + 32 * (2 * k)) \ cT (wL L * 1408 + 32 * (2 * k))]{fullShare} ft)) :=
    pointsTo_split_subset (cT_subset_tRem (wL L) (2 * k) (by omega) hr)
  rw [tRem_sdiff_cT (wL L) (2 * k) (by omega) hr, ← tp_rA_chunk] at h
  exact h

/-- The rows landed before the previous pair, and the previous pair's first chunk, are the rows before its second chunk. -/
theorem tp_done_join (k : ℕ) (hk0 : k ≠ 0) (hk : k < 22) (hT : rA L k < 4096) :
    iprop(((m_e1t).view.loc (thr d L) ↦[tDone (wL L) (rA L k - 64)]{fullShare} E1t I d) ∗ outDone I d L (rA L k - 64))
      ⊢ ((m_e1t).view.loc (thr d L) ↦[tDone (wL L) (rA L k - 32)]{fullShare} E1t I d : sProp 𝕄) := by
  have e : rA L k - 64 = wL L * 1408 + 32 * (2 * k - 2) := by rw [tp_rA_chunk]; omega
  have hr : wL L * 1408 + 32 * (2 * k - 2) < 4096 := by rw [← e]; omega
  have e2 : rA L k - 32 = wL L * 1408 + 32 * (2 * k - 2) + 32 := by rw [tp_rA_chunk]; omega
  unfold outDone
  rw [e, if_pos hr, e2, ← tDone_union_cT (wL L) (2 * k - 2) (by omega) hr]
  exact (pointsTo_union (ℓ := (m_e1t).view.loc (thr d L)) (q := fullShare) (f := E1t I d) (tDone_disjoint_cT (wL L) _)).2

omit [FloatOps F] in
theorem tp_nDone_step (k : ℕ) (hT : rA L k < 4096) : nDone (wL L) (rA L k - 64) = nDone (wL L) (rA L k - 32) :=
  nDone_of_lt (wL L) _ _ (by omega) (by omega)
omit [FloatOps F] in
theorem tp_nRem_step (k : ℕ) (hT : rA L k + 32 < 4096) : nRem (wL L) (rA L k) = nRem (wL L) (rA L k + 32) :=
  nRem_of_lt (wL L) _ _ (by omega) (by omega)

/-- The executor's flight of the second chunk's self rows, as the invariant states it. -/
theorem tp_flS1_of_exec (r0 : ℕ) (f7 : Buf (Elt F) ((s_7).view.loc (thr d L))) (g1 : Buf (Elt F) ((s_1).view.loc (thr d L)))
    (hg1 : ∀ x : S32.Idx, g1 x = selfIdx I d r0 (x 0).val) (P : (Rect.whole S32x128).shape.Idx → F .f32)
    (hP : ∀ x : S32x128.Idx, P x = I.sp d (ixTab (selfIdx I d r0 (x 0).val).toNat (x 1).val)) :
    Transfers.Flight countersEmb (thr d L) (SemLoc.dma cc1_scratch16.sem) default 131072
      iprop((((s_7).view.loc (thr d L) ↦{fullShare} (s_7).view.writes (Elt F) f7 [⟨Rect.whole S32x128, P⟩]) ∗ ((s_1).view.loc (thr d L) ↦{fullShare} g1))
        ∗ ((m_sp).view.loc (thr d L) ↦[(spSl).view.set]{Transfers.shareTokN (rsh (wL L)) 14} I.sp d))
      ⊢ FlS1 I d L r0 := by
  unfold FlS1
  refine Transfers.Flight_mono (EC := countersEmb) (c := thr d L) ?_
  iintro ⟨⟨H7, H1⟩, Hsp⟩
  iexists ((s_7).view.writes (Elt F) f7 [⟨Rect.whole S32x128, P⟩]), g1
  isplitr
  · ipureintro
    exact ⟨hg1, fun x => by rw [landing_s7_writes]; exact hP x⟩
  isplitl [H7]; · iexact H7
  isplitl [H1]; · iexact H1
  iexact Hsp

/-- The executor's flight of the second chunk's neighbour rows, as the invariant states it. -/
theorem tp_flN1_of_exec (r0 : ℕ) (f9 : Buf (Elt F) ((s_9).view.loc (thr d L))) (g3 : Buf (Elt F) ((s_3).view.loc (thr d L)))
    (hg3 : ∀ x : S320.Idx, g3 x = nbrIdx I d r0 (x 0).val) (P : (Rect.whole S320x128).shape.Idx → F .f32)
    (hP : ∀ x : S320x128.Idx, P x = I.ap d (ixTab (nbrIdx I d r0 (x 0).val).toNat (x 1).val)) :
    Transfers.Flight countersEmb (thr d L) (SemLoc.dma cc1_scratch17.sem) default 1310720
      iprop((((s_9).view.loc (thr d L) ↦{fullShare} (s_9).view.writes (Elt F) f9 [⟨Rect.whole S320x128, P⟩]) ∗ ((s_3).view.loc (thr d L) ↦{fullShare} g3))
        ∗ ((m_ap).view.loc (thr d L) ↦[(apSl).view.set]{Transfers.shareTokN (rsh (wL L)) 15} I.ap d))
      ⊢ FlN1 I d L r0 := by
  unfold FlN1
  refine Transfers.Flight_mono (EC := countersEmb) (c := thr d L) ?_
  iintro ⟨⟨H9, H3⟩, Hap⟩
  iexists ((s_9).view.writes (Elt F) f9 [⟨Rect.whole S320x128, P⟩]), g3
  isplitr
  · ipureintro
    exact ⟨hg3, fun x => by rw [landing_s9_writes]; exact hP x⟩
  isplitl [H9]; · iexact H9
  isplitl [H3]; · iexact H3
  iexact Hap

/-- The executor's flight of the first chunk's copy-out, as the invariant states it. -/
theorem tp_flW0_of_exec (k : Fin k1_t1_loop.trips) (c6 : k1_cond6 L k = 1#1) (hT : rA L k.val < 4096)
    (ft : Buf (Elt F) ((m_e1t).view.loc (thr d L))) (fo : Buf (Elt F) ((s_10).view.loc (thr d L)))
    (P : (Rect.whole S32x128).shape.Idx → F .f32)
    (hv : ∀ i ∈ (tpOutSl L k c6).view.set, (tpOutSl L k c6).view.writes (Elt F) ft [⟨Rect.whole S32x128, P⟩] i = E1t I d i) :
    Transfers.Flight countersEmb (thr d L) (SemLoc.dma cc1_scratch18.sem) default 131072
      iprop(((tpOutSl L k c6).view.loc (thr d L) ↦[(tpOutSl L k c6).view.set]{fullShare} (tpOutSl L k c6).view.writes (Elt F) ft [⟨Rect.whole S32x128, P⟩])
        ∗ ((s_10).view.loc (thr d L) ↦[(s_10).view.set]{fullShare} fo))
      ⊢ FlW0 I d L (rA L k.val) := by
  unfold FlW0 outDone
  rw [if_pos hT]
  refine Transfers.Flight_mono (EC := countersEmb) (c := thr d L) ?_
  have e1 : ((s_10).view.loc (thr d L) ↦[(s_10).view.set]{fullShare} fo : sProp 𝕄) = ((s_10).view.loc (thr d L) ↦{fullShare} fo) := by
    rw [View.set_whole]
  have e2 : ((tpOutSl L k c6).view.loc (thr d L) ↦[(tpOutSl L k c6).view.set]{fullShare} (tpOutSl L k c6).view.writes (Elt F) ft [⟨Rect.whole S32x128, P⟩] : sProp 𝕄)
      = ((m_e1t).view.loc (thr d L) ↦[cT (rA L k.val)]{fullShare} E1t I d) := by
    rw [pointsTo_congr hv, tp_outSl_set]
  rw [e1, e2]
  iintro ⟨Hd, Hs⟩
  isplitl [Hs]
  · iexists fo; iexact Hs
  · iexact Hd

open Idealize.ShloMosaic.ValueIdx

theorem tp_v43_of_ne : ∀ k : Fin k1_t1_loop.trips, k.val ≠ 0 →
    Scalar.cmpi .ne (Scalar.extui (Scalar.xori (Scalar.cmpi .eq (Scf.iv 0#32 1#32 k) 0#32) 1#1) : BitVec 32) 0#32 = 1#1 := by decide +kernel

set_option maxHeartbeats 8000000 in
theorem tripA_Tp (hpre : PreOK I) (O : CellTallies nD τ sig (HIx 1)) (W : Waits sig (HIx 1)) (k : Fin k1_t1_loop.trips) (hT : rA L k.val < 4096) (hk0 : k.val ≠ 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hb : rA L k.val + 32 < 4096 := by
    have h0 := (L 0).isLt; have h1 := (L 1).isLt
    simp only [show grid1.bound 0 = 2 from rfl, show grid1.bound 1 = 16 from rfl] at h0 h1
    unfold rA base at hT ⊢; omega
  have hk22 : k.val < 22 := Nat.lt_of_lt_of_eq k.isLt trips22
  unfold Inv
  rw [Set0_lt I d L hk22, Outs_pos I d L hk0]
  unfold Loaded0 Idle1 LoopRO Pieces FlS0 FlN0 FlW0 FlW1
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨Hm18, Hm19⟩,
    ⟨⟨%ft, Het⟩, ⟨%fn, Hen⟩, Hdt, Hdn⟩⟩
  have c3 : k1_cond3 L k = 1#1 := (k1_cond3_iff L k).mpr (by unfold rA base at hb; omega)
  have c4 : ¬ k1_cond4 L k = 1#1 := fun h => by have := (k1_cond4_iff L k).mp h; unfold rA base at hb; omega
  have c6 : k1_cond6 L k = 1#1 := (k1_cond6_iff L k).mpr (by unfold rA base at hb; omega)
  have c7 : ¬ k1_cond7 L k = 1#1 := fun h => by have := (k1_cond7_iff L k).mp h; unfold rA base at hb; omega
  have hpair : rA L k.val + 64 ≤ 4096 := by
    have h0 := (L 0).isLt; have h1 := (L 1).isLt
    simp only [show grid1.bound 0 = 2 from rfl, show grid1.bound 1 = 16 from rfl] at h0 h1
    unfold rA base at hb ⊢; omega
  have hv43 := tp_v43_of_ne k hk0
  unfold tripA
  sl_exec
  -- the second chunk's lists, at their words
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      rw [View.write_whole_univ]
      unfold tripA_Tp.sl.dma0
      show I.nid d _ = _
      unfold selfIdx
      rw [if_pos hb]
      refine congrArg (I.nid d) (funext fun (a : Fin 1) => ?_)
      have ha : a = 0 := Subsingleton.elim _ _
      subst ha
      apply Fin.ext
      have hx : (x 0).val < 32 := (x 0).isLt
      show (k1_off5 L k) 0 + 1 * (x 0).val = (rA L k.val + 32 + (x 0).val) % 4096
      rw [k1_off5_eq]
      unfold rA base at hpair ⊢
      simp only [Matrix.cons_val_zero]
      omega
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      rw [View.write_whole_univ]
      unfold tripA_Tp.sl.dma0_1
      show I.n1 d _ = _
      unfold nbrIdx
      rw [if_pos hb]
      refine congrArg (I.n1 d) (funext fun (a : Fin 1) => ?_)
      have ha : a = 0 := Subsingleton.elim _ _
      subst ha
      apply Fin.ext
      have hx : (x 0).val < 320 := (x 0).isLt
      show (k1_off6 L k) 0 + 1 * (x 0).val = ((rA L k.val + 32) * 10 + (x 0).val) % 40960
      rw [k1_off6_eq]
      unfold rA base at hpair ⊢
      simp only [Matrix.cons_val_zero]
      omega
  icases Hs3' with ⟨%g3, Hs3, %hg3⟩
  ihave Hs5' : iprop(∃ g : Buf (Elt F) ((s_5).view.loc (thr d L)), ((s_5).view.loc (thr d L) ↦{fullShare} g) ∗ ⌜∀ x : S336.Idx, (x 0).val < 320 → g x = alph I d (rA L k.val + 32) (x 0).val⌝) $$ [Hs5]
  · iexists _
    isplitl [Hs5]
    · iexact Hs5
    · ipureintro
      intro x hx
      have hx' : ((mkIdx S320 (by decide) ![(x 0).val] : S320.Idx) 0).val = (x 0).val := Nat.mod_eq_of_lt hx
      have hxe : (Rect.unit (s := S336) ![0] S320.size inb_S336_S320_0).emb (mkIdx S320 (by decide) ![(x 0).val] : S320.Idx) = x := by
        funext (a : Fin 1)
        have ha : a = 0 := Subsingleton.elim _ _
        subst ha
        apply Fin.ext
        show 0 + 1 * ((mkIdx S320 (by decide) ![(x 0).val] : S320.Idx) 0).val = (x 0).val
        rw [hx']; omega
      have hw := View.read_writes_cons_emb (s_5).view f5 (Rect.unit (s := S336) ![0] S320.size inb_S336_S320_0) (tripA_Tp.sl.dma0_2 I d L k c3) [] (mkIdx S320 (by decide) ![(x 0).val] : S320.Idx)
      rw [hxe] at hw
      refine hw.trans ?_
      unfold tripA_Tp.sl.dma0_2
      show I.a1 d _ = _
      unfold alph
      rw [if_pos hb]
      refine congrArg (I.a1 d) (funext fun (a : Fin 1) => ?_)
      have ha : a = 0 := Subsingleton.elim _ _
      subst ha
      apply Fin.ext
      show (k1_off6 L k) 0 + 1 * ((mkIdx S320 (by decide) ![(x 0).val] : S320.Idx) 0).val = ((rA L k.val + 32) * 10 + (x 0).val) % 40960
      rw [k1_off6_eq, hx']
      unfold rA base at hpair ⊢
      simp only [Matrix.cons_val_zero]
      omega
  icases Hs5' with ⟨%fal1, Hs5, %hfal1⟩
  have hin1 : ∀ x, ((s_1).view.read (Elt F) g1 x).toNat < S100000x128.size (gathers_S100000x128_S32x128).axis := fun x => by
    show (g1 x).toNat < 100000
    rw [hg1]; exact selfIdx_lt I d hpre _ _
  have hin3 : ∀ x, ((s_3).view.read (Elt F) g3 x).toNat < S100000x128.size (gathers_S100000x128_S320x128).axis := fun x => by
    show (g3 x).toNat < 100000
    rw [hg3]; exact nbrIdx_lt I d hpre _ _
  sl_exec
  -- the first chunk's self rows land
  ihave Hw12 := (Transfers.MayWaits.elim (c := thr d L) (ι := (none : HIx 1)) (O := O) (SemLoc.dma cc1_scratch14.sem)) $$ Hmw
  iapply (Transfers.wp_waitLocalO countersEmb 𝒱₀ (thr d L) none (none : HIx 1) (N := 131072) rfl) $$ [Hm14 HO Hw12]
  · isplitl [Hm14]; · iexact Hm14
    isplitl [HO]; · iexact HO
    iexact Hw12
  iintro ⟨⟨%fs6, %g0, %hsp, Hs6, Hs0, Hsp0⟩, Hm14, HO⟩
  rw [wp_ret]; imodintro
  beta_reduce
  ihave Hw13 := (Transfers.MayWaits.elim (c := thr d L) (ι := (none : HIx 1)) (O := O) (SemLoc.dma cc1_scratch15.sem)) $$ Hmw
  iapply (Transfers.wp_waitLocalO countersEmb 𝒱₀ (thr d L) none (none : HIx 1) (N := 1310720) rfl) $$ [Hm15 HO Hw13]
  · isplitl [Hm15]; · iexact Hm15
    isplitl [HO]; · iexact HO
    iexact Hw13
  iintro ⟨⟨%fs8, %g2, %hap, Hs8, Hs2, Hap0⟩, Hm15, HO⟩
  have hret : ∀ {E : Type → Type} {α β : Type} (a : α) (k : α → Prog E β), (Prog.ret a).bind k = k a := fun _ _ => rfl
  have hv43' : Scalar.cmpi .ne (Scalar.extui (Scalar.xori (Scalar.cmpi .eq (tripA_Tp.sl.arg34 k) 0#32) 1#1) : BitVec 32) 0#32 = 1#1 := hv43
  beta_reduce
  sl_rw [hret]
  sl_exec
  ihave Hw16 := (Transfers.MayWaits.elim (c := thr d L) (ι := (none : HIx 1)) (O := O) (SemLoc.dma cc1_scratch18.sem)) $$ Hmw
  iapply (Transfers.wp_waitLocalO countersEmb 𝒱₀ (thr d L) none (none : HIx 1) (N := 131072) rfl) $$ [Hm18 HO Hw16]
  · isplitl [Hm18]; · iexact Hm18
    isplitl [HO]; · iexact HO
    iexact Hw16
  iintro ⟨⟨⟨%f10, Hs10⟩, Hout0⟩, Hm18, HO⟩
  beta_reduce
  sl_for (RowInv0 d L fal fs6 fs8 fb) $$ [Hs4 Hs6 Hs8 Hs12 Hs10]
  case region => exact row_trip0 d L (v2 L) k fal fs6 fs8 fb
  · unfold RowInv0
    isplitr; · ipureintro; rfl
    isplitl [Hs4]; · iexact Hs4
    isplitl [Hs6]; · iexact Hs6
    isplitl [Hs8]; · iexact Hs8
    isplitl [Hs12]; · iexact Hs12
    iexists f10
    isplitr; · ipureintro; intro x hx; exact absurd hx (Nat.not_lt_zero _)
    iexact Hs10
  iintro %acc HI
  unfold RowInv0
  icases HI with ⟨%hacc, Hs4, Hs6, Hs8, Hs12, %fo, %hfo, Hs10⟩
  ihave Het2 := (tp_het_split d L k.val hk22 hT ft).1 $$ Het
  icases Het2 with ⟨Hct, Het⟩
  ihave Hct' := (Entails.of_eq (show ((m_e1t).view.loc (thr d L) ↦[cT (rA L k.val)]{fullShare} ft : sProp 𝕄)
      = (tpOutSl L k c6).view.loc (thr d L) ↦[(tpOutSl L k c6).view.set]{fullShare} ft by rw [tp_outSl_set])) $$ Hct
  sl_exec
  sl_step
  have h32 : 32 ∣ rA L k.val := ⟨44 * wL L + 2 * k.val, by rw [tp_rA_chunk]; omega⟩
  have hro : ∀ i col, i < 32 → col < 128 → rowOut fal fs6 fs8 fb i col = E1 I d (rA L k.val + i) col :=
    fun i col hi hc => rowOut_eq_E1 I d (rA L k.val) h32 fal fs6 fs8 fb hfal hsp.2 hap.2 hfb i col hi hc
  have hP0 : ∀ x : S32x128.Idx, tripA_Tp.sl.gather0 I d L g1 hin1 x = I.sp d (ixTab (selfIdx I d (rA L k.val + 32) (x 0).val).toNat (x 1).val) := fun x => by
    unfold tripA_Tp.sl.gather0
    refine (gather_sp1 d L (I.sp d) g1 _ hin1 x).trans ?_
    rw [hg1, mkIdx_val S32 (by decide) _ 0 (x 0).isLt]
    rfl
  have hP1 : ∀ x : S320x128.Idx, tripA_Tp.sl.gather1 I d L g3 hin3 x = I.ap d (ixTab (nbrIdx I d (rA L k.val + 32) (x 0).val).toNat (x 1).val) := fun x => by
    unfold tripA_Tp.sl.gather1
    refine (gather_ap3 d L (I.ap d) g3 _ hin3 x).trans ?_
    rw [hg3, mkIdx_val S320 (by decide) _ 0 (x 0).isLt]
    rfl
  have ht32 : Scf.trips k1_t2_loop.lb k1_t2_loop.ub k1_t2_loop.st = 32 := by decide
  have hout : ∀ i ∈ (tpOutSl L k c6).view.set, (tpOutSl L k c6).view.writes (Elt F) ft [⟨Rect.whole S32x128, tripA_Tp.sl.dma3 d L fo⟩] i = E1t I d i := fun i hi => by
    obtain ⟨x, -, rfl⟩ := Finset.mem_map.mp hi
    have hr := View.read_writes_cons_emb (tpOutSl L k c6).view ft (Rect.whole S32x128) (tripA_Tp.sl.dma3 d L fo) [] x
    rw [Rect.emb_whole_apply, View.read_apply] at hr
    have hw : (tpOutSl L k c6).view.writes (Elt F) ft [⟨Rect.whole S32x128, tripA_Tp.sl.dma3 d L fo⟩] ((tpOutSl L k c6).view.emb x) = tripA_Tp.sl.dma3 d L fo x := hr
    have hx0 : (x 0).val < 32 := (x 0).isLt
    have hx1 : (x 1).val < 128 := (x 1).isLt
    have hd : tripA_Tp.sl.dma3 d L fo x = fo x := rfl
    rw [hw, hd, hfo x (by rw [ht32]; exact hx0), hro _ _ hx0 hx1]
    show E1 I d (rA L k.val + (x 0).val) (x 1).val = E1 I d ((k1_off26 L k) 0 + 1 * (x 0).val) ((k1_off26 L k) 1 + 1 * (x 1).val)
    rw [k1_off26_eq]
    have e0 : (![2816 * (L 1).val + 1408 * (L 0).val + 64 * k.val, 0] : Fin 2 → ℕ) 0 + 1 * (x 0).val = rA L k.val + (x 0).val := by
      show 2816 * (L 1).val + 1408 * (L 0).val + 64 * k.val + 1 * (x 0).val = _
      unfold rA base; omega
    have e1 : (![2816 * (L 1).val + 1408 * (L 0).val + 64 * k.val, 0] : Fin 2 → ℕ) 1 + 1 * (x 1).val = (x 1).val := by
      show 0 + 1 * (x 1).val = _
      omega
    rw [e0, e1]
  have hsq : ∀ x : S2x16.Idx, ((s_13).view.writes (Elt F) fsq [⟨Rect.unit (s := S2x16) ![0, 0] S1x16.size inb_S2x16_S1x16_0_0,
      k1_pay113 acc (View.readAt (Elt F) (s_13).view (Rect.unit (s := S2x16) ![0, 0] S1x16.size inb_S2x16_S1x16_0_0).toLoadRect fsq)⟩]) x
      = tileSqUpto I d (wL L) (2 * k.val + 1) (decide ((x 0).val = 0)) (x 1).val := fun x => by
    have hx1 : (x 1).val < 16 := (x 1).isLt
    have hx0 : (x 0).val < 2 := (x 0).isLt
    have hchunk : wL L * 1408 + 32 * (2 * k.val) = rA L k.val := (tp_rA_chunk L k.val).symm
    rw [tileSqUpto_succ, hchunk]
    by_cases h0 : (x 0).val = 0
    · have hdec : decide (rA L k.val < 4096) = decide ((x 0).val = 0) := by simp [hT, h0]
      rw [if_pos hdec]
      obtain ⟨y, hy⟩ : ∃ y : (Rect.unit (s := S2x16) ![0, 0] S1x16.size inb_S2x16_S1x16_0_0).shape.Idx,
          (Rect.unit (s := S2x16) ![0, 0] S1x16.size inb_S2x16_S1x16_0_0).emb y = x :=
        ⟨mkIdx S1x16 (by decide) ![0, (x 1).val], by
          funext a; apply Fin.ext
          match a with
          | ⟨0, _⟩ =>
            show 0 + 1 * ((mkIdx S1x16 (by decide) ![0, (x 1).val] : S1x16.Idx) 0).val = (x 0).val
            rw [mkIdx_val S1x16 (by decide) _ 0 (show (0 : ℕ) < 1 from Nat.one_pos)]; show 0 + 1 * 0 = _; omega
          | ⟨1, _⟩ =>
            show 0 + 1 * ((mkIdx S1x16 (by decide) ![0, (x 1).val] : S1x16.Idx) 1).val = (x 1).val
            rw [mkIdx_val S1x16 (by decide) _ 1 hx1]; show 0 + 1 * (x 1).val = _; omega⟩
      have hr := View.read_writes_cons_emb (s_13).view fsq (Rect.unit (s := S2x16) ![0, 0] S1x16.size inb_S2x16_S1x16_0_0)
        (k1_pay113 acc (View.readAt (Elt F) (s_13).view (Rect.unit (s := S2x16) ![0, 0] S1x16.size inb_S2x16_S1x16_0_0).toLoadRect fsq)) [] y
      rw [hy] at hr
      refine hr.trans ?_
      have hyv : (Rect.unit (s := S2x16) ![0, 0] S1x16.size inb_S2x16_S1x16_0_0).toLoadRect.idx y = x := hy
      have hy1 : ((ix1 (y 1) : S16.Idx) 0).val = (x 1).val := by
        have := congrArg (fun z : S2x16.Idx => (z 1).val) hy
        simpa using this
      unfold k1_pay113
      rw [cast_16x1]
      show FloatOps.addf (shapeCast S16 (View.readAt (Elt F) (s_13).view (Rect.unit (s := S2x16) ![0, 0] S1x16.size inb_S2x16_S1x16_0_0).toLoadRect fsq) shapeCasts_S1x16_S16 (ix1 (y 1))) (acc (ix1 (y 1))) = _
      rw [cast_1x16]
      have hyy : (ix2 (0 : Fin 1) ((ix1 (y 1) : S16.Idx) 0) : S1x16.Idx) = y := by
        rw [eq_ix2 y]
        congr 1
        exact Subsingleton.elim _ _
      rw [hyy]
      have hv : View.readAt (Elt F) (s_13).view (Rect.unit (s := S2x16) ![0, 0] S1x16.size inb_S2x16_S1x16_0_0).toLoadRect fsq y = fsq x := by
        show fsq ((Rect.unit (s := S2x16) ![0, 0] S1x16.size inb_S2x16_S1x16_0_0).toLoadRect.idx y) = fsq x
        rw [hyv]
      rw [hv, hfsq, hacc, ht32, sqAcc_eq_chunkSq I d (rA L k.val) _ hro, hy1]
    · have hdec : ¬ decide (rA L k.val < 4096) = decide ((x 0).val = 0) := by simp [hT, h0]
      rw [if_neg hdec]
      have hnm : ∀ p ∈ [(⟨Rect.unit (s := S2x16) ![0, 0] S1x16.size inb_S2x16_S1x16_0_0,
          k1_pay113 acc (View.readAt (Elt F) (s_13).view (Rect.unit (s := S2x16) ![0, 0] S1x16.size inb_S2x16_S1x16_0_0).toLoadRect fsq)⟩ : View.Piece (Elt F) S2x16 .f32)],
          x ∉ p.1.set := by
        intro p hp
        rw [List.mem_singleton] at hp
        subst hp
        intro hm
        exact h0 ((mem_window (n0 := 2) (n1 := 16) (off := ![0, 0]) (inb := inb_S2x16_S1x16_0_0) (r := 0) (c := 0) rfl x).1 hm).1
      exact (whole_writes_apply_of_forall_not_mem cc1_scratch13 fsq _ x hnm).trans (hfsq x)
  ihave Hdt' := (tp_done_join I d L k.val hk0 hk22 hT) $$ [Hdt Hout0]
  · isplitl [Hdt]; · iexact Hdt
    iexact Hout0
  ihave Hdn' := (Entails.of_eq (show ((m_e1n).view.loc (thr d L) ↦[nDone (wL L) (rA L k.val - 64)]{fullShare} E1n I d : sProp 𝕄)
      = ((m_e1n).view.loc (thr d L) ↦[nDone (wL L) (rA L k.val - 32)]{fullShare} E1n I d) by rw [tp_nDone_step L k.val hT])) $$ Hdn
  ihave Hen' := (Entails.of_eq (show ((m_e1n).view.loc (thr d L) ↦[nRem (wL L) (rA L k.val)]{fullShare} fn : sProp 𝕄)
      = ((m_e1n).view.loc (thr d L) ↦[nRem (wL L) (rA L k.val + 32)]{fullShare} fn) by rw [tp_nRem_step L k.val hb])) $$ Hen
  ihave Hm16' : (Transfers.Flight countersEmb (thr d L) (SemLoc.dma cc1_scratch16.sem) default 131072
      iprop((((s_7).view.loc (thr d L) ↦{fullShare} (s_7).view.writes (Elt F) f7 [⟨Rect.whole S32x128, tripA_Tp.sl.gather0 I d L g1 hin1⟩]) ∗ ((s_1).view.loc (thr d L) ↦{fullShare} g1))
        ∗ ((m_sp).view.loc (thr d L) ↦[(spSl).view.set]{Transfers.shareTokN (rsh (wL L)) 14} I.sp d)) : sProp 𝕄) $$ [Hm16]
  · iexact Hm16
  ihave Hm17' : (Transfers.Flight countersEmb (thr d L) (SemLoc.dma cc1_scratch17.sem) default 1310720
      iprop((((s_9).view.loc (thr d L) ↦{fullShare} (s_9).view.writes (Elt F) f9 [⟨Rect.whole S320x128, tripA_Tp.sl.gather1 I d L g3 hin3⟩]) ∗ ((s_3).view.loc (thr d L) ↦{fullShare} g3))
        ∗ ((m_ap).view.loc (thr d L) ↦[(apSl).view.set]{Transfers.shareTokN (rsh (wL L)) 15} I.ap d)) : sProp 𝕄) $$ [Hm17]
  · iexact Hm17
  ihave Hm18' : (Transfers.Flight countersEmb (thr d L) (SemLoc.dma cc1_scratch18.sem) default 131072
      iprop(((tpOutSl L k c6).view.loc (thr d L) ↦[(tpOutSl L k c6).view.set]{fullShare} (tpOutSl L k c6).view.writes (Elt F) ft [⟨Rect.whole S32x128, tripA_Tp.sl.dma3 d L fo⟩])
        ∗ ((s_10).view.loc (thr d L) ↦[(s_10).view.set]{fullShare} fo)) : sProp 𝕄) $$ [Hm18]
  · iexact Hm18
  ihave HfS1 := (tp_flS1_of_exec I d L (rA L k.val + 32) f7 g1 hg1 _ hP0) $$ Hm16'
  ihave HfN1 := (tp_flN1_of_exec I d L (rA L k.val + 32) f9 g3 hg3 _ hP1) $$ Hm17'
  ihave HfW0 := (tp_flW0_of_exec I d L k c6 hT ft fo _ hout) $$ Hm18'
  ihave Hsp0' := (Entails.of_eq (show ((m_sp).view.loc (thr d L) ↦[(spSl).view.set]{Transfers.shareTokN (rsh (wL L)) 12} I.sp d : sProp 𝕄)
      = ((m_sp).view.loc (thr d L) ↦{Transfers.shareTokN (rsh (wL L)) 12} I.sp d) by rw [spSl_set])) $$ Hsp0
  ihave Hap0' := (Entails.of_eq (show ((m_ap).view.loc (thr d L) ↦[(apSl).view.set]{Transfers.shareTokN (rsh (wL L)) 13} I.ap d : sProp 𝕄)
      = ((m_ap).view.loc (thr d L) ↦{Transfers.shareTokN (rsh (wL L)) 13} I.ap d) by rw [apSl_set])) $$ Hap0
  iclear Hsp1 Hap1 Hs10
  unfold Mid
  rw [Outs1_pos I d L hk0]
  unfold Idle0 Loaded1 LoopRO
  unfold FlW1
  isplitr; · ipureintro; rfl
  isplitr; · iexact Hmw
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hnid Hn1 Hn2 Ha1 Ha2 Hr7 Hr8 Hr9 Hr10 Hr11 Hr12 Hr13 Hr14 Hr15 Hr16 Hr17 Hr18]
  · isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb; isplitr; · ipureintro; exact hfb
    iexact Hs12
  isplitl [Hs13]
  · iexists ((s_13).view.writes (Elt F) fsq [⟨Rect.unit (s := S2x16) ![0, 0] S1x16.size inb_S2x16_S1x16_0_0,
      k1_pay113 acc (View.readAt (Elt F) (s_13).view (Rect.unit (s := S2x16) ![0, 0] S1x16.size inb_S2x16_S1x16_0_0).toLoadRect fsq)⟩])
    isplitr; · ipureintro; exact hsq
    iexact Hs13
  isplitl [Hs0 Hs2 Hs4 Hs6 Hs8 Hm14 Hm15 Hsp0' Hap0']
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0']; · iexact Hsp0'
    iexact Hap0'
  isplitl [Hs5 HfS1 HfN1]
  · isplitl [Hs5]
    · iexists fal1; isplitr; · ipureintro; exact hfal1
      iexact Hs5
    isplitl [HfS1]; · iexact HfS1
    iexact HfN1
  isplitl [HfW0]; · iexact HfW0
  isplitl [Hm19]; · iexact Hm19
  isplitl [Het]; · iexists ft; iexact Het
  isplitl [Hen']; · iexists fn; iexact Hen'
  isplitl [Hdt']; · iexact Hdt'
  iexact Hdn'

end Tile
end Cert.Kernel.Tile
end
-- ==== Proof.Twin.TileTripAT.lean ====
/-
  The first half of a pair of target chunks on a vector subcore: the first pair, whose output buffers are at rest, and
  the later ones, whose output buffers' previous copy-outs are awaited first.
-/
import proofs.«213116_g69346541961480_cont_9to1_m_612_34_alg».proof.Proof.Twin.TileTripAT0
import proofs.«213116_g69346541961480_cont_9to1_m_612_34_alg».proof.Proof.Twin.TileTripATp
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripA_T (hpre : PreOK I) (O : CellTallies nD τ sig (HIx 1)) (W : Waits sig (HIx 1)) (k : Fin k1_t1_loop.trips) (hT : rA L k.val < 4096) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  by_cases hk0 : k.val = 0
  · exact tripA_T0 I d L hpre O W k hT hk0
  · exact tripA_Tp I d L hpre O W k hT hk0

end Tile
end Cert.Kernel.Tile
end
-- ==== Proof.Twin.TileTripAN.lean ====
/-
  The first half of a pair of chunks on a vector subcore, when the pair's chunks are neighbour chunks.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

omit [FloatOps F] in
theorem wbaseN : wL L * 1408 = base L := by
  unfold base
  show ((L 1).val * 2 + (L 0).val) * 1408 = _
  omega
omit [FloatOps F] in
theorem rA_eq (k : ℕ) : rA L k = wL L * 1408 + 32 * (2 * k) := by unfold rA; rw [wbaseN]; omega
omit [FloatOps F] in
/-- A neighbour chunk's rows are among the worker's unwritten rows of the second result; -/
theorem cN_sub (k : ℕ) (hk : k < 22) (hN : 4096 ≤ rA L k) : cN (rA L k - 4096) ⊆ nRem (wL L) (rA L k) := by
  have h := cN_subset_nRem (wL L) (2 * k) (by omega) (by rw [← rA_eq]; exact hN)
  rwa [← rA_eq] at h
omit [FloatOps F] in
/-- without them the unwritten rows are those from the next chunk on. -/
theorem nRem_sdiff (k : ℕ) (hk : k < 22) (hN : 4096 ≤ rA L k) : nRem (wL L) (rA L k) \ cN (rA L k - 4096) = nRem (wL L) (rA L k + 32) := by
  have h := nRem_sdiff_cN (wL L) (2 * k) (by omega) (by rw [← rA_eq]; exact hN)
  rwa [← rA_eq] at h
omit [FloatOps F] in
/-- The copy-out's window of the second result is the chunk's rows. -/
theorem e1n_win_set (k : Fin k1_t1_loop.trips) (c7 : k1_cond7 L k = 1#1) :
    ((m_e1n).slice (Rect.unit (s := S40960x128) (k1_off27 L k) S32x128.size (k1_off27_inb L k c7)) (fun _ => rfl)).view.set = cN (rA L k.val - 4096) := by
  refine (set_e1n_slice (k1_off27 L k) (k1_off27_inb L k c7) (by rw [k1_off27_eq' L k c7]; rfl)).trans (congrArg cN ?_)
  exact (congrFun (k1_off27_eq' L k c7) 0).trans rfl

/-- The loop's test "not the first pair", from the pair's number. -/
theorem v43_pos : ∀ t : Fin k1_t1_loop.trips, t.val ≠ 0 →
    Scalar.cmpi .ne (Scalar.extui (Scalar.xori (Scalar.cmpi .eq (Scf.iv 0#32 1#32 t.val) 0#32) 1#1)) 0#32 = 1#1 := by decide +kernel
theorem v43_zero : ∀ t : Fin k1_t1_loop.trips, t.val = 0 →
    ¬ Scalar.cmpi .ne (Scalar.extui (Scalar.xori (Scalar.cmpi .eq (Scf.iv 0#32 1#32 t.val) 0#32) 1#1)) 0#32 = 1#1 := by decide +kernel

/-! ## What the second chunk's lists hold once copied in -/

/-- The self indices of the pair's second chunk, copied into the list buffer. -/
theorem list1_vals (k : Fin k1_t1_loop.trips) (c4 : k1_cond4 L k = 1#1) (inb : ∀ a, k1_off7 L k a + S32.size a ≤ S40960.size a)
    (f1 : Buf (Elt F) ((s_1).view.loc (thr d L))) (x : S32.Idx) :
    View.write (Elt F) (s_1).view f1 (ReadAs.same.apply (((m_n1).slice (Rect.unit (s := S40960) (k1_off7 L k) S32.size inb) (fun _ => rfl)).view.read (Elt F) (I.n1 d))) Finset.univ x
      = selfIdx I d (rA L k.val + 32) (x 0).val := by
  have h4 := (k1_cond4_iff L k).mp c4
  have hge : ¬ rA L k.val + 32 < 4096 := by unfold rA base; omega
  refine (congrFun (View.write_whole_univ (Val := Elt F) cc1_scratch1 f1 _) x).trans ?_
  rw [read_n1_32 (F := F) d L, congrFun (k1_off7_eq' L k c4) 0]
  unfold selfIdx
  rw [if_neg hge]
  rfl

/-- Its neighbour indices. -/
theorem list3_vals (k : Fin k1_t1_loop.trips) (c4 : k1_cond4 L k = 1#1) (inb : ∀ a, k1_off8 L k a + S320.size a ≤ S409600.size a)
    (f3 : Buf (Elt F) ((s_3).view.loc (thr d L))) (x : S320.Idx) :
    View.write (Elt F) (s_3).view f3 (ReadAs.same.apply (((m_n2).slice (Rect.unit (s := S409600) (k1_off8 L k) S320.size inb) (fun _ => rfl)).view.read (Elt F) (I.n2 d))) Finset.univ x
      = nbrIdx I d (rA L k.val + 32) (x 0).val := by
  have h4 := (k1_cond4_iff L k).mp c4
  have hge : ¬ rA L k.val + 32 < 4096 := by unfold rA base; omega
  refine (congrFun (View.write_whole_univ (Val := Elt F) cc1_scratch3 f3 _) x).trans ?_
  rw [read_n2_320 (F := F) d L, congrFun (k1_off8_eq' L k c4) 0]
  unfold nbrIdx
  rw [if_neg hge]
  rfl

/-- Its weights, in the head of the weights buffer. -/
theorem wts5_vals (k : Fin k1_t1_loop.trips) (c4 : k1_cond4 L k = 1#1) (inb : ∀ a, k1_off8 L k a + S320.size a ≤ S409600.size a)
    (f5 : Buf (Elt F) ((s_5).view.loc (thr d L))) (x : S336.Idx) (hx : (x 0).val < 320) :
    (s_5).view.writes (Elt F) f5 [⟨Rect.unit (s := S336) ![0] S320.size inb_S336_S320_0,
        ReadAs.same.apply (((m_a2).slice (Rect.unit (s := S409600) (k1_off8 L k) S320.size inb) (fun _ => rfl)).view.read (Elt F) (I.a2 d))⟩] x
      = alph I d (rA L k.val + 32) (x 0).val := by
  have h4 := (k1_cond4_iff L k).mp c4
  have hge : ¬ rA L k.val + 32 < 4096 := by unfold rA base; omega
  rw [writes_s5 (F := F) d L f5 _ x hx, read_a2_320 (F := F) d L, congrFun (k1_off8_eq' L k c4) 0, mkIdx_val S320 (by decide) ![(x 0).val] 0 hx]
  unfold alph
  rw [if_neg hge]
  rfl

/-! ## What the second chunk's gathers land -/

/-- The self rows. -/
theorem land7_vals (r0 : ℕ) (g1 : Buf (Elt F) ((s_1).view.loc (thr d L))) (hg1 : ∀ x : S32.Idx, g1 x = selfIdx I d r0 (x 0).val)
    (hn : S32.numel = S32x128.size gathers_S100000x128_S32x128.axis')
    (hin : ∀ x, ((s_1).view.read (Elt F) g1 x).toNat < S100000x128.size gathers_S100000x128_S32x128.axis)
    (f7 : Buf (Elt F) ((s_7).view.loc (thr d L))) (x : S32x128.Idx) :
    (s_7).view.writes (Elt F) f7 [⟨Rect.whole S32x128, SparseCore.gatherPayload gathers_S100000x128_S32x128 ((spSl).view.read (Elt F) (I.sp d))
        (SparseCore.rows ((s_1).view.read (Elt F) g1) hn hin)⟩] x
      = I.sp d (ixTab (selfIdx I d r0 (x 0).val).toNat (x 1).val) := by
  rw [landing_s7_writes (F := F) d L f7 _, gather_sp1 (F := F) d L (I.sp d) g1 hn hin x, hg1,
    mkIdx_val S32 (by decide) ![(x 0).val] 0 (x 0).isLt]
  rfl

/-- The neighbour rows. -/
theorem land9_vals (r0 : ℕ) (g3 : Buf (Elt F) ((s_3).view.loc (thr d L))) (hg3 : ∀ x : S320.Idx, g3 x = nbrIdx I d r0 (x 0).val)
    (hn : S320.numel = S320x128.size gathers_S100000x128_S320x128.axis')
    (hin : ∀ x, ((s_3).view.read (Elt F) g3 x).toNat < S100000x128.size gathers_S100000x128_S320x128.axis)
    (f9 : Buf (Elt F) ((s_9).view.loc (thr d L))) (x : S320x128.Idx) :
    (s_9).view.writes (Elt F) f9 [⟨Rect.whole S320x128, SparseCore.gatherPayload gathers_S100000x128_S320x128 ((apSl).view.read (Elt F) (I.ap d))
        (SparseCore.rows ((s_3).view.read (Elt F) g3) hn hin)⟩] x
      = I.ap d (ixTab (nbrIdx I d r0 (x 0).val).toNat (x 1).val) := by
  rw [landing_s9_writes (F := F) d L f9 _, gather_ap3 (F := F) d L (I.ap d) g3 hn hin x, hg3,
    mkIdx_val S320 (by decide) ![(x 0).val] 0 (x 0).isLt]
  rfl

/-! ## The sums of squares after a neighbour chunk -/

/-- Lane `u` of a one-row block. -/
abbrev ixr (u : Fin 16) : S1x16.Idx := ix2 (0 : Fin 1) u
/-- Lane `u` of a 16-lane vector. -/
abbrev ixl (u : Fin 16) : S16.Idx := ix1 u

/-- Row 1 of the sums buffer takes the chunk's sums; row 0 stays. -/
theorem sq_row1 (k : ℕ) (hN : 4096 ≤ rA L k) (fsq : Buf (Elt F) ((s_13).view.loc (thr d L)))
    (hfsq : ∀ x : S2x16.Idx, fsq x = tileSqUpto I d (wL L) (2 * k) (decide ((x 0).val = 0)) (x 1).val)
    (acc : FVec F S16 .f32) (hacc : ∀ l : S16.Idx, acc l = chunkSq I d (rA L k) (l 0).val) (x : S2x16.Idx) :
    (s_13).view.writes (Elt F) fsq [⟨Rect.unit (s := S2x16) ![1, 0] S1x16.size inb_S2x16_S1x16_1_0,
        k1_pay116 acc ((s_13).view.readAt (Elt F) (Rect.unit (s := S2x16) ![1, 0] S1x16.size inb_S2x16_S1x16_1_0).toLoadRect fsq)⟩] x
      = tileSqUpto I d (wL L) (2 * k + 1) (decide ((x 0).val = 0)) (x 1).val := by
  have hx0 : (x 0).val < 2 := (x 0).isLt
  have hx1 : (x 1).val < 16 := (x 1).isLt
  rw [tileSqUpto_succ, ← rA_eq]
  have hdec : decide (rA L k < 4096) = false := decide_eq_false (by omega)
  rw [hdec]
  by_cases h0 : (x 0).val = 0
  · -- row 0: no write reaches it
    have hne : ¬ (false = decide ((x 0).val = 0)) := by rw [decide_eq_true h0]; exact Bool.false_ne_true
    rw [if_neg hne, ← hfsq]
    have h := View.read_writes_apply_of_forall_not_mem (s_13).view fsq x
      [⟨Rect.unit (s := S2x16) ![1, 0] S1x16.size inb_S2x16_S1x16_1_0,
        k1_pay116 acc ((s_13).view.readAt (Elt F) (Rect.unit (s := S2x16) ![1, 0] S1x16.size inb_S2x16_S1x16_1_0).toLoadRect fsq)⟩]
      (fun p hp => by
        rw [List.mem_singleton.mp hp, Rect.mem_set_unit]
        intro hall
        have := (hall 0).1
        have e : (![1, 0] : Fin 2 → ℕ) 0 = 1 := rfl
        omega)
    exact h
  · -- row 1: the chunk's sums added to what the row held
    have h1 : (x 0).val = 1 := by omega
    have hpos : (false = decide ((x 0).val = 0)) := by rw [decide_eq_false h0]
    rw [if_pos hpos]
    have hemb : (Rect.unit (s := S2x16) ![1, 0] S1x16.size inb_S2x16_S1x16_1_0).emb (ixr (x 1)) = x := by
      funext a
      apply Fin.ext
      match a with
      | ⟨0, _⟩ => show 1 + 1 * 0 = (x 0).val; omega
      | ⟨1, _⟩ => show 0 + 1 * (x 1).val = (x 1).val; omega
    have h := View.read_writes_cons_emb (s_13).view fsq (Rect.unit (s := S2x16) ![1, 0] S1x16.size inb_S2x16_S1x16_1_0)
      (k1_pay116 acc ((s_13).view.readAt (Elt F) (Rect.unit (s := S2x16) ![1, 0] S1x16.size inb_S2x16_S1x16_1_0).toLoadRect fsq)) []
      (ixr (x 1))
    rw [hemb] at h
    refine h.trans ?_
    have hpay : k1_pay116 acc ((s_13).view.readAt (Elt F) (Rect.unit (s := S2x16) ![1, 0] S1x16.size inb_S2x16_S1x16_1_0).toLoadRect fsq) (ixr (x 1))
        = FloatOps.addf (fsq x) (acc (ixl (x 1))) := by
      unfold k1_pay116
      refine (shapeCast_addUnit_apply (α := F .f32) ![16] _ shapeCasts_S16_S1x16 (ixr (x 1))).trans ?_
      show FloatOps.addf (shapeCast S16 _ shapeCasts_S1x16_S16 (fun a => ixr (x 1) a.succ)) (acc (fun a => ixr (x 1) a.succ)) = _
      have ej : (fun a : Fin 1 => ixr (x 1) a.succ) = ixl (x 1) := by
        funext a
        match a with
        | ⟨0, _⟩ => rfl
      rw [ej]
      congr 1
      refine (shapeCast_dropUnit_apply (α := F .f32) ![16] _ shapeCasts_S1x16_S16 (ixl (x 1))).trans ?_
      show fsq _ = fsq x
      congr 1
      funext a
      apply Fin.ext
      match a with
      | ⟨0, _⟩ => show 1 + 1 * 0 = (x 0).val; omega
      | ⟨1, _⟩ => show 0 + 1 * (x 1).val = (x 1).val; omega
    rw [hpay, hfsq x, hacc (ixl (x 1)), decide_eq_false h0]

/-! ## The rows written back -/

/-- THE COPY-OUT'S ROWS: the chunk's window of the second result, written with the output buffer's rows, holds the
    result's values there. -/
theorem out_rows (k : Fin k1_t1_loop.trips) (c7 : k1_cond7 L k = 1#1) (hN : 4096 ≤ rA L k.val)
    (fn : Buf (Elt F) ((m_e1n).view.loc (thr d L))) (P : S32x128.Idx → F .f32)
    (hP : ∀ j : S32x128.Idx, P j = E1 I d (rA L k.val + (j 0).val) (j 1).val) :
    ((((m_e1n).slice (Rect.unit (s := S40960x128) (k1_off27 L k) S32x128.size (k1_off27_inb L k c7)) (fun _ => rfl)).view.loc (thr d L)
        ↦[((m_e1n).slice (Rect.unit (s := S40960x128) (k1_off27 L k) S32x128.size (k1_off27_inb L k c7)) (fun _ => rfl)).view.set]{fullShare}
          (((m_e1n).slice (Rect.unit (s := S40960x128) (k1_off27 L k) S32x128.size (k1_off27_inb L k c7)) (fun _ => rfl)).view.writes (Elt F) fn
            [⟨Rect.whole S32x128, P⟩]) : sProp 𝕄))
      ⊢ outDone I d L (rA L k.val) := by
  have hge : ¬ rA L k.val < 4096 := by omega
  unfold outDone
  rw [if_neg hge, e1n_win_set L k c7]
  refine Entails.of_eq (pointsTo_congr fun i hi => ?_)
  have hi0 : (i 0).val < 40960 := (i 0).isLt
  have hi1 : (i 1).val < 128 := (i 1).isLt
  simp only [cN, Finset.mem_filter, Finset.mem_univ, true_and] at hi
  -- the window's index of `i`
  let j : S32x128.Idx := mkIdx S32x128 (by decide) ![(i 0).val - (rA L k.val - 4096), (i 1).val]
  have hj0 : (j 0).val = (i 0).val - (rA L k.val - 4096) := mkIdx_val S32x128 (by decide) _ 0 (by show (i 0).val - (rA L k.val - 4096) < 32; omega)
  have hj1 : (j 1).val = (i 1).val := mkIdx_val S32x128 (by decide) _ 1 hi1
  have hoff0 : k1_off27 L k 0 = rA L k.val - 4096 := (congrFun (k1_off27_eq' L k c7) 0).trans rfl
  have hoff1 : k1_off27 L k 1 = 0 := (congrFun (k1_off27_eq' L k c7) 1).trans rfl
  have hemb : ((m_e1n).slice (Rect.unit (s := S40960x128) (k1_off27 L k) S32x128.size (k1_off27_inb L k c7)) (fun _ => rfl)).view.emb
      ((Rect.whole S32x128).emb j) = i := by
    rw [Rect.emb_whole_apply]
    funext a
    apply Fin.ext
    match a with
    | ⟨0, _⟩ => show k1_off27 L k 0 + 1 * (j 0).val = (i 0).val; rw [hoff0, hj0]; omega
    | ⟨1, _⟩ => show k1_off27 L k 1 + 1 * (j 1).val = (i 1).val; rw [hoff1, hj1]; omega
  have h := View.read_writes_cons_emb ((m_e1n).slice (Rect.unit (s := S40960x128) (k1_off27 L k) S32x128.size (k1_off27_inb L k c7)) (fun _ => rfl)).view
    fn (Rect.whole S32x128) P [] j
  rw [View.read_apply, hemb] at h
  have h' : ((m_e1n).slice (Rect.unit (s := S40960x128) (k1_off27 L k) S32x128.size (k1_off27_inb L k c7)) (fun _ => rfl)).view.writes (Elt F) fn
      [⟨Rect.whole S32x128, P⟩] i = P j := h
  rw [h', hP j, hj0, hj1]
  have hr : rA L k.val + ((i 0).val - (rA L k.val - 4096)) = 4096 + (i 0).val := by omega
  rw [hr]
  rfl

/-- THE ROWS LANDED: with the chunk two back landed, the written rows reach one chunk further. -/
theorem done_step (k : ℕ) (hk0 : k ≠ 0) (hk : k < 22) (hN : 4096 ≤ rA L k) :
    iprop(((m_e1t).view.loc (thr d L) ↦[tDone (wL L) (rA L k - 64)]{fullShare} E1t I d)
        ∗ ((m_e1n).view.loc (thr d L) ↦[nDone (wL L) (rA L k - 64)]{fullShare} E1n I d)
        ∗ outDone I d L (rA L k - 64))
      ⊢ iprop(((m_e1t).view.loc (thr d L) ↦[tDone (wL L) (rA L k - 32)]{fullShare} E1t I d)
        ∗ ((m_e1n).view.loc (thr d L) ↦[nDone (wL L) (rA L k - 32)]{fullShare} E1n I d)) := by
  have hk1 : 1 ≤ k := Nat.one_le_iff_ne_zero.mpr hk0
  have e64 : rA L k - 64 = wL L * 1408 + 32 * (2 * k - 2) := by rw [rA_eq]; omega
  have e32 : rA L k - 32 = wL L * 1408 + 32 * (2 * k - 2) + 32 := by rw [rA_eq]; omega
  unfold outDone
  by_cases h : rA L k - 64 < 4096
  · rw [if_pos h, e32, e64, ← tDone_union_cT (wL L) (2 * k - 2) (by omega) (by rw [← e64]; exact h),
      nDone_of_lt (wL L) (wL L * 1408 + 32 * (2 * k - 2)) (wL L * 1408 + 32 * (2 * k - 2) + 32) (by rw [← e64]; omega) (by rw [← e64]; rw [rA_eq] at hN ⊢; omega)]
    iintro ⟨Ht, Hn, H1⟩
    isplitr [Hn]
    · iapply (pointsTo_union (ℓ := (m_e1t).view.loc (thr d L)) (q := fullShare) (f := E1t I d) (tDone_disjoint_cT (wL L) _)).2
      isplitl [Ht]; · iexact Ht
      iexact H1
    · iexact Hn
  · have hge : 4096 ≤ rA L k - 64 := by omega
    rw [if_neg h, e32, e64, ← nDone_union_cN (wL L) (2 * k - 2) (by omega) (by rw [← e64]; exact hge),
      tDone_of_ge (wL L) (wL L * 1408 + 32 * (2 * k - 2)) (wL L * 1408 + 32 * (2 * k - 2) + 32) (by rw [← e64]; exact hge) (by rw [← e64]; omega)]
    iintro ⟨Ht, Hn, H1⟩
    isplitl [Ht]; · iexact Ht
    iapply (pointsTo_union (ℓ := (m_e1n).view.loc (thr d L)) (q := fullShare) (f := E1n I d) (nDone_disjoint_cN (wL L) _ (by rw [← e64]; exact hge))).2
    isplitl [Hn]; · iexact Hn
    iexact H1

/-! ## The run -/

set_option maxHeartbeats 4000000 in
theorem tripA_N_pos (hpre : PreOK I) (O : CellTallies nD τ sig (HIx 1)) (W : Waits sig (HIx 1)) (k : Fin k1_t1_loop.trips) (hN : 4096 ≤ rA L k.val) (hk0 : k.val ≠ 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hk22 : k.val < 22 := Nat.lt_of_lt_of_eq k.isLt trips22
  unfold Inv
  rw [Set0_lt I d L hk22, Outs_pos I d L hk0]
  unfold Loaded0 Idle1 LoopRO Pieces FlS0 FlN0 FlW0 FlW1
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨Hm18, Hm19⟩,
    ⟨⟨%ft, Het⟩, ⟨%fn, Hen⟩, Hdt, Hdn⟩⟩
  have c3 : ¬ k1_cond3 L k = 1#1 := fun h => by have := (k1_cond3_iff L k).mp h; unfold rA base at hN; omega
  have c4 : k1_cond4 L k = 1#1 := (k1_cond4_iff L k).mpr (by unfold rA base at hN; omega)
  have c6 : ¬ k1_cond6 L k = 1#1 := fun h => by have := (k1_cond6_iff L k).mp h; unfold rA base at hN; omega
  have c7 : k1_cond7 L k = 1#1 := (k1_cond7_iff L k).mpr (by unfold rA base at hN; omega)
  have h32 : 32 ∣ rA L k.val := ⟨wL L * 44 + 2 * k.val, by rw [rA_eq]; omega⟩
  unfold tripA
  sl_exec
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      exact list1_vals I d L k c4 _ f1 x
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      exact list3_vals I d L k c4 _ f3 x
  icases Hs3' with ⟨%g3, Hs3, %hg3⟩
  have hin1 : ∀ x, ((s_1).view.read (Elt F) g1 x).toNat < S100000x128.size (gathers_S100000x128_S32x128).axis := fun x => by
    rw [show (s_1).view.read (Elt F) g1 x = g1 x from rfl, hg1]; exact selfIdx_lt I d hpre _ _
  have hin3 : ∀ x, ((s_3).view.read (Elt F) g3 x).toNat < S100000x128.size (gathers_S100000x128_S320x128).axis := fun x => by
    rw [show (s_3).view.read (Elt F) g3 x = g3 x from rfl, hg3]; exact nbrIdx_lt I d hpre _ _
  sl_exec
  have hN_Hm14 : (s_6).view.dmaCredit = 131072 := by decide
  iapply (Transfers.wp_waitLocalO countersEmb 𝒱₀ (thr d L) none (none : HIx 1) (dstw := s_6) (hN := hN_Hm14)) $$ [Hm14 HO]
  · isplitl [Hm14]; · iexact Hm14
    isplitl [HO]; · iexact HO
    iapply (Transfers.MayWaits.elim _) $$ Hmw
  iintro ⟨HD, Hm14, HO⟩
  icases HD with ⟨%fs0, %g0, %hfg0, Hs6, Hs0, Hsp0⟩
  sl_step
  sl_exec
  have hN_Hm15 : (s_8).view.dmaCredit = 1310720 := by decide
  iapply (Transfers.wp_waitLocalO countersEmb 𝒱₀ (thr d L) none (none : HIx 1) (dstw := s_8) (hN := hN_Hm15)) $$ [Hm15 HO]
  · isplitl [Hm15]; · iexact Hm15
    isplitl [HO]; · iexact HO
    iapply (Transfers.MayWaits.elim _) $$ Hmw
  iintro ⟨HD, Hm15, HO⟩
  icases HD with ⟨%fn0, %g2, %hfg2, Hs8, Hs2, Hap0⟩
  sl_step
  sl_exec
  have hv43 : tripA_N_pos.sl.v43 k = 1#1 := v43_pos k hk0
  sl_exec
  have hN18 : ((m_e1t).slice (Rect.unit (s := S4096x128) ![0, 0] S32x128.size inb_S4096x128_S32x128_0_0) (fun _ => rfl)).view.dmaCredit = 131072 := by decide
  iapply (Transfers.wp_waitLocalO countersEmb 𝒱₀ (thr d L) none (none : HIx 1) (hN := hN18)) $$ [Hm18 HO]
  · isplitl [Hm18]; · iexact Hm18
    isplitl [HO]; · iexact HO
    iapply (Transfers.MayWaits.elim _) $$ Hmw
  iintro ⟨⟨⟨%f10, Hs10⟩, Hod0⟩, Hm18, HO⟩
  beta_reduce
  sl_exec
  sl_for (RowInv0 d L fal fs0 fn0 fb) $$ [Hs4 Hs6 Hs8 Hs12 Hs10]
  case region => exact row_trip0 d L (v2 L) k fal fs0 fn0 fb
  · unfold RowInv0
    isplitr; · ipureintro; rfl
    isplitl [Hs4]; · iexact Hs4
    isplitl [Hs6]; · iexact Hs6
    isplitl [Hs8]; · iexact Hs8
    isplitl [Hs12]; · iexact Hs12
    iexists f10; isplitr; · ipureintro; intro x hx; exact absurd hx (Nat.not_lt_zero _)
    iexact Hs10
  iintro %acc Hinv
  unfold RowInv0
  icases Hinv with ⟨%hacc, Hs4, Hs6, Hs8, Hs12, ⟨%fo, %hfo, Hs10⟩⟩
  have hro : ∀ i col, i < 32 → col < 128 → rowOut fal fs0 fn0 fb i col = E1 I d (rA L k.val + i) col := fun i col hi hc =>
    rowOut_eq_E1 I d (rA L k.val) h32 fal fs0 fn0 fb hfal hfg0.2 hfg2.2 hfb i col hi hc
  have hacc' : ∀ l : S16.Idx, acc l = chunkSq I d (rA L k.val) (l 0).val := fun l => by
    rw [hacc]; exact sqAcc_eq_chunkSq I d (rA L k.val) _ hro l
  have hfo' : ∀ j : S32x128.Idx, fo j = E1 I d (rA L k.val + (j 0).val) (j 1).val := fun j => by
    rw [hfo j (j 0).isLt]; exact hro _ _ (j 0).isLt (j 1).isLt
  have hsub : ((m_e1n).slice (Rect.unit (s := S40960x128) (k1_off27 L k) S32x128.size (k1_off27_inb L k c7)) (fun _ => rfl)).view.set ⊆ nRem (wL L) (rA L k.val) := by
    rw [e1n_win_set L k c7]; exact cN_sub L k.val hk22 hN
  ihave Hsplit := (pointsTo_split_subset hsub).1 $$ Hen
  icases Hsplit with ⟨Hdst, Hen⟩
  ihave Hdst := (show ((m_e1n).view.loc (thr d L) ↦[((m_e1n).slice (Rect.unit (s := S40960x128) (k1_off27 L k) S32x128.size (k1_off27_inb L k c7)) (fun _ => rfl)).view.set]{fullShare} fn : sProp 𝕄)
      ⊢ (((m_e1n).slice (Rect.unit (s := S40960x128) (k1_off27 L k) S32x128.size (k1_off27_inb L k c7)) (fun _ => rfl)).view.loc (thr d L) ↦[((m_e1n).slice (Rect.unit (s := S40960x128) (k1_off27 L k) S32x128.size (k1_off27_inb L k c7)) (fun _ => rfl)).view.set]{fullShare} fn) from .rfl) $$ Hdst
  sl_exec
  sl_step
  unfold Mid Idle0 Loaded1 LoopRO FlS1 FlN1 FlW0
  rw [Outs1_pos I d L hk0]
  unfold FlW1
  isplitr; · ipureintro; rfl
  isplitr; · iexact Hmw
  isplitl [HO]
  · iexists _
    isplitr; swap; · iexact HO
    ipureintro
    intro p hp
    simp only [Finset.mem_insert] at hp
    rcases hp with hp | hp | hp | hp | hp | hp | hp
    · exact .inr (hp ▸ rfl)
    · exact .inr (hp ▸ rfl)
    · exact .inr (hp ▸ rfl)
    · exact .inr (hp ▸ rfl)
    · exact .inr (hp ▸ rfl)
    · exact .inr (hp ▸ rfl)
    · exact hW' p hp
  isplitl [Hnid Hn1 Hn2 Ha1 Ha2 Hr7 Hr8 Hr9 Hr10 Hr11 Hr12 Hr13 Hr14 Hr15 Hr16 Hr17 Hr18]
  · isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb; isplitr; · ipureintro; exact hfb
    iexact Hs12
  isplitl [Hs13]
  · iexists _; isplitr; swap; · iexact Hs13
    ipureintro
    intro x
    exact sq_row1 I d L k.val hN fsq hfsq acc hacc' x
  isplitl [Hs0 Hs2 Hs4 Hs6 Hs8 Hm14 Hm15 Hsp0 Hap0]
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0]
    · iapply (Entails.of_eq (congrArg (fun S => ((m_sp).view.loc (thr d L) ↦[S]{Transfers.shareTokN (rsh (wL L)) 12} I.sp d : sProp 𝕄)) spSl_set)) $$ Hsp0
    · iapply (Entails.of_eq (congrArg (fun S => ((m_ap).view.loc (thr d L) ↦[S]{Transfers.shareTokN (rsh (wL L)) 13} I.ap d : sProp 𝕄)) apSl_set)) $$ Hap0
  isplitl [Hs5 Hm16 Hm17]
  · isplitl [Hs5]
    · iexists _; isplitr; swap; · iexact Hs5
      ipureintro
      intro x hx
      exact wts5_vals I d L k c4 _ f5 x hx
    isplitl [Hm16]
    · iapply (Transfers.Flight_mono countersEmb (thr d L) ?_) $$ Hm16
      iintro ⟨⟨H7, H1⟩, Hsp⟩
      iexists _, g1
      isplitr; swap
      · isplitl [H7]; · iexact H7
        isplitl [H1]; · iexact H1
        iexact Hsp
      ipureintro
      exact ⟨hg1, fun x => land7_vals I d L (rA L k.val + 32) g1 hg1 _ hin1 f7 x⟩
    · iapply (Transfers.Flight_mono countersEmb (thr d L) ?_) $$ Hm17
      iintro ⟨⟨H9, H3⟩, Hap⟩
      iexists _, g3
      isplitr; swap
      · isplitl [H9]; · iexact H9
        isplitl [H3]; · iexact H3
        iexact Hap
      ipureintro
      exact ⟨hg3, fun x => land9_vals I d L (rA L k.val + 32) g3 hg3 _ hin3 f9 x⟩
  isplitl [Hm18]
  · iapply (Transfers.Flight_mono countersEmb (thr d L) ?_) $$ Hm18
    iintro ⟨Hrows, H10⟩
    isplitl [H10]
    · iexists fo
      iapply (Entails.of_eq (congrArg (fun S => ((s_10).view.loc (thr d L) ↦[S]{fullShare} fo : sProp 𝕄)) (View.set_whole cc1_scratch10))) $$ H10
    iapply (out_rows I d L k c7 hN fn (tripA_N_pos.sl.dma3 d L fo) (fun j => hfo' j))
    iexact Hrows
  isplitl [Hm19]; · iexact Hm19
  isplitl [Het]
  · iexists ft
    iapply (Entails.of_eq (by rw [tRem_of_ge (wL L) (rA L k.val) (rA L k.val + 32) hN (by omega)])) $$ Het
  isplitl [Hen]
  · iexists fn
    iapply (Entails.of_eq (by rw [e1n_win_set L k c7, nRem_sdiff L k.val hk22 hN])) $$ Hen
  iapply (done_step I d L k.val hk0 hk22 hN) $$ [Hdt Hdn Hod0]
  isplitl [Hdt]; · iexact Hdt
  isplitl [Hdn]; · iexact Hdn
  iexact Hod0

set_option maxHeartbeats 4000000 in
theorem tripA_N_zero (hpre : PreOK I) (O : CellTallies nD τ sig (HIx 1)) (W : Waits sig (HIx 1)) (k : Fin k1_t1_loop.trips) (hN : 4096 ≤ rA L k.val) (hk0 : k.val = 0) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  have hk22 : k.val < 22 := Nat.lt_of_lt_of_eq k.isLt trips22
  unfold Inv
  have hO0 : Outs I d L k.val = iprop((∃ f, (s_10).view.loc (thr d L) ↦{fullShare} f) ∗ (∃ f, (s_11).view.loc (thr d L) ↦{fullShare} f)
      ∗ semVal ((thr d L, SemLoc.dma cc1_scratch18.sem) : GSem nD τ sig) 0 ∗ semVal ((thr d L, SemLoc.dma cc1_scratch19.sem) : GSem nD τ sig) 0) := by
    rw [hk0]; exact Outs_zero I d L
  have hO1 : Outs1 I d L k.val = iprop((∃ f, (s_11).view.loc (thr d L) ↦{fullShare} f) ∗ semVal ((thr d L, SemLoc.dma cc1_scratch19.sem) : GSem nD τ sig) 0) := by
    rw [hk0]; exact Outs1_zero I d L
  rw [Set0_lt I d L hk22, hO0]
  unfold Loaded0 Idle1 LoopRO Pieces FlS0 FlN0
  iintro ⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%fal, %hfal, Hs4⟩, Hm14, Hm15⟩, ⟨⟨%f1, Hs1⟩, ⟨%f3, Hs3⟩, ⟨%f5, Hs5⟩, ⟨%f7, Hs7⟩, ⟨%f9, Hs9⟩, Hm16, Hm17, Hsp1, Hap1⟩, ⟨⟨%f10, Hs10⟩, ⟨%f11, Hs11⟩, Hm18, Hm19⟩,
    ⟨⟨%ft, Het⟩, ⟨%fn, Hen⟩, Hdt, Hdn⟩⟩
  have c3 : ¬ k1_cond3 L k = 1#1 := fun h => by have := (k1_cond3_iff L k).mp h; unfold rA base at hN; omega
  have c4 : k1_cond4 L k = 1#1 := (k1_cond4_iff L k).mpr (by unfold rA base at hN; omega)
  have c6 : ¬ k1_cond6 L k = 1#1 := fun h => by have := (k1_cond6_iff L k).mp h; unfold rA base at hN; omega
  have c7 : k1_cond7 L k = 1#1 := (k1_cond7_iff L k).mpr (by unfold rA base at hN; omega)
  have h32 : 32 ∣ rA L k.val := ⟨wL L * 44 + 2 * k.val, by rw [rA_eq]; omega⟩
  unfold tripA
  sl_exec
  ihave Hs1' : iprop(∃ g : Buf (Elt F) ((s_1).view.loc (thr d L)), ((s_1).view.loc (thr d L) ↦{fullShare} g) ∗ ⌜∀ x : S32.Idx, g x = selfIdx I d (rA L k.val + 32) (x 0).val⌝) $$ [Hs1]
  · iexists _
    isplitl [Hs1]
    · iexact Hs1
    · ipureintro
      intro x
      exact list1_vals I d L k c4 _ f1 x
  icases Hs1' with ⟨%g1, Hs1, %hg1⟩
  ihave Hs3' : iprop(∃ g : Buf (Elt F) ((s_3).view.loc (thr d L)), ((s_3).view.loc (thr d L) ↦{fullShare} g) ∗ ⌜∀ x : S320.Idx, g x = nbrIdx I d (rA L k.val + 32) (x 0).val⌝) $$ [Hs3]
  · iexists _
    isplitl [Hs3]
    · iexact Hs3
    · ipureintro
      intro x
      exact list3_vals I d L k c4 _ f3 x
  icases Hs3' with ⟨%g3, Hs3, %hg3⟩
  have hin1 : ∀ x, ((s_1).view.read (Elt F) g1 x).toNat < S100000x128.size (gathers_S100000x128_S32x128).axis := fun x => by
    rw [show (s_1).view.read (Elt F) g1 x = g1 x from rfl, hg1]; exact selfIdx_lt I d hpre _ _
  have hin3 : ∀ x, ((s_3).view.read (Elt F) g3 x).toNat < S100000x128.size (gathers_S100000x128_S320x128).axis := fun x => by
    rw [show (s_3).view.read (Elt F) g3 x = g3 x from rfl, hg3]; exact nbrIdx_lt I d hpre _ _
  sl_exec
  have hN_Hm14 : (s_6).view.dmaCredit = 131072 := by decide
  iapply (Transfers.wp_waitLocalO countersEmb 𝒱₀ (thr d L) none (none : HIx 1) (dstw := s_6) (hN := hN_Hm14)) $$ [Hm14 HO]
  · isplitl [Hm14]; · iexact Hm14
    isplitl [HO]; · iexact HO
    iapply (Transfers.MayWaits.elim _) $$ Hmw
  iintro ⟨HD, Hm14, HO⟩
  icases HD with ⟨%fs0, %g0, %hfg0, Hs6, Hs0, Hsp0⟩
  sl_step
  sl_exec
  have hN_Hm15 : (s_8).view.dmaCredit = 1310720 := by decide
  iapply (Transfers.wp_waitLocalO countersEmb 𝒱₀ (thr d L) none (none : HIx 1) (dstw := s_8) (hN := hN_Hm15)) $$ [Hm15 HO]
  · isplitl [Hm15]; · iexact Hm15
    isplitl [HO]; · iexact HO
    iapply (Transfers.MayWaits.elim _) $$ Hmw
  iintro ⟨HD, Hm15, HO⟩
  icases HD with ⟨%fn0, %g2, %hfg2, Hs8, Hs2, Hap0⟩
  sl_step
  sl_exec
  have hv43 : ¬ tripA_N_zero.sl.v43 k = 1#1 := v43_zero k hk0
  sl_exec
  sl_for (RowInv0 d L fal fs0 fn0 fb) $$ [Hs4 Hs6 Hs8 Hs12 Hs10]
  case region => exact row_trip0 d L (v2 L) k fal fs0 fn0 fb
  · unfold RowInv0
    isplitr; · ipureintro; rfl
    isplitl [Hs4]; · iexact Hs4
    isplitl [Hs6]; · iexact Hs6
    isplitl [Hs8]; · iexact Hs8
    isplitl [Hs12]; · iexact Hs12
    iexists f10; isplitr; · ipureintro; intro x hx; exact absurd hx (Nat.not_lt_zero _)
    iexact Hs10
  iintro %acc Hinv
  unfold RowInv0
  icases Hinv with ⟨%hacc, Hs4, Hs6, Hs8, Hs12, ⟨%fo, %hfo, Hs10⟩⟩
  have hro : ∀ i col, i < 32 → col < 128 → rowOut fal fs0 fn0 fb i col = E1 I d (rA L k.val + i) col := fun i col hi hc =>
    rowOut_eq_E1 I d (rA L k.val) h32 fal fs0 fn0 fb hfal hfg0.2 hfg2.2 hfb i col hi hc
  have hacc' : ∀ l : S16.Idx, acc l = chunkSq I d (rA L k.val) (l 0).val := fun l => by
    rw [hacc]; exact sqAcc_eq_chunkSq I d (rA L k.val) _ hro l
  have hfo' : ∀ j : S32x128.Idx, fo j = E1 I d (rA L k.val + (j 0).val) (j 1).val := fun j => by
    rw [hfo j (j 0).isLt]; exact hro _ _ (j 0).isLt (j 1).isLt
  have hsub : ((m_e1n).slice (Rect.unit (s := S40960x128) (k1_off27 L k) S32x128.size (k1_off27_inb L k c7)) (fun _ => rfl)).view.set ⊆ nRem (wL L) (rA L k.val) := by
    rw [e1n_win_set L k c7]; exact cN_sub L k.val hk22 hN
  ihave Hsplit := (pointsTo_split_subset hsub).1 $$ Hen
  icases Hsplit with ⟨Hdst, Hen⟩
  ihave Hdst := (show ((m_e1n).view.loc (thr d L) ↦[((m_e1n).slice (Rect.unit (s := S40960x128) (k1_off27 L k) S32x128.size (k1_off27_inb L k c7)) (fun _ => rfl)).view.set]{fullShare} fn : sProp 𝕄)
      ⊢ (((m_e1n).slice (Rect.unit (s := S40960x128) (k1_off27 L k) S32x128.size (k1_off27_inb L k c7)) (fun _ => rfl)).view.loc (thr d L) ↦[((m_e1n).slice (Rect.unit (s := S40960x128) (k1_off27 L k) S32x128.size (k1_off27_inb L k c7)) (fun _ => rfl)).view.set]{fullShare} fn) from .rfl) $$ Hdst
  sl_exec
  sl_step
  unfold Mid Idle0 Loaded1 LoopRO FlS1 FlN1 FlW0
  rw [hO1]
  isplitr; · ipureintro; rfl
  isplitr; · iexact Hmw
  isplitl [HO]
  · iexists _
    isplitr; swap; · iexact HO
    ipureintro
    intro p hp
    simp only [Finset.mem_insert] at hp
    rcases hp with hp | hp | hp | hp | hp | hp
    · exact .inr (hp ▸ rfl)
    · exact .inr (hp ▸ rfl)
    · exact .inr (hp ▸ rfl)
    · exact .inr (hp ▸ rfl)
    · exact .inr (hp ▸ rfl)
    · exact hW' p hp
  isplitl [Hnid Hn1 Hn2 Ha1 Ha2 Hr7 Hr8 Hr9 Hr10 Hr11 Hr12 Hr13 Hr14 Hr15 Hr16 Hr17 Hr18]
  · isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb; isplitr; · ipureintro; exact hfb
    iexact Hs12
  isplitl [Hs13]
  · iexists _; isplitr; swap; · iexact Hs13
    ipureintro
    intro x
    exact sq_row1 I d L k.val hN fsq hfsq acc hacc' x
  isplitl [Hs0 Hs2 Hs4 Hs6 Hs8 Hm14 Hm15 Hsp0 Hap0]
  · isplitl [Hs0]; · iexists _; iexact Hs0
    isplitl [Hs2]; · iexists _; iexact Hs2
    isplitl [Hs4]; · iexists _; iexact Hs4
    isplitl [Hs6]; · iexists _; iexact Hs6
    isplitl [Hs8]; · iexists _; iexact Hs8
    isplitl [Hm14]; · iexact Hm14
    isplitl [Hm15]; · iexact Hm15
    isplitl [Hsp0]
    · iapply (Entails.of_eq (congrArg (fun S => ((m_sp).view.loc (thr d L) ↦[S]{Transfers.shareTokN (rsh (wL L)) 12} I.sp d : sProp 𝕄)) spSl_set)) $$ Hsp0
    · iapply (Entails.of_eq (congrArg (fun S => ((m_ap).view.loc (thr d L) ↦[S]{Transfers.shareTokN (rsh (wL L)) 13} I.ap d : sProp 𝕄)) apSl_set)) $$ Hap0
  isplitl [Hs5 Hm16 Hm17]
  · isplitl [Hs5]
    · iexists _; isplitr; swap; · iexact Hs5
      ipureintro
      intro x hx
      exact wts5_vals I d L k c4 _ f5 x hx
    isplitl [Hm16]
    · iapply (Transfers.Flight_mono countersEmb (thr d L) ?_) $$ Hm16
      iintro ⟨⟨H7, H1⟩, Hsp⟩
      iexists _, g1
      isplitr; swap
      · isplitl [H7]; · iexact H7
        isplitl [H1]; · iexact H1
        iexact Hsp
      ipureintro
      exact ⟨hg1, fun x => land7_vals I d L (rA L k.val + 32) g1 hg1 _ hin1 f7 x⟩
    · iapply (Transfers.Flight_mono countersEmb (thr d L) ?_) $$ Hm17
      iintro ⟨⟨H9, H3⟩, Hap⟩
      iexists _, g3
      isplitr; swap
      · isplitl [H9]; · iexact H9
        isplitl [H3]; · iexact H3
        iexact Hap
      ipureintro
      exact ⟨hg3, fun x => land9_vals I d L (rA L k.val + 32) g3 hg3 _ hin3 f9 x⟩
  isplitl [Hm18]
  · iapply (Transfers.Flight_mono countersEmb (thr d L) ?_) $$ Hm18
    iintro ⟨Hrows, H10⟩
    isplitl [H10]
    · iexists fo
      iapply (Entails.of_eq (congrArg (fun S => ((s_10).view.loc (thr d L) ↦[S]{fullShare} fo : sProp 𝕄)) (View.set_whole cc1_scratch10))) $$ H10
    iapply (out_rows I d L k c7 hN fn (tripA_N_zero.sl.dma3 d L fo) (fun j => hfo' j))
    iexact Hrows
  isplitl [Hs11 Hm19]
  · isplitl [Hs11]; · iexists f11; iexact Hs11
    iexact Hm19
  isplitl [Het]
  · iexists ft
    iapply (Entails.of_eq (by rw [tRem_of_ge (wL L) (rA L k.val) (rA L k.val + 32) hN (by omega)])) $$ Het
  isplitl [Hen]
  · iexists fn
    iapply (Entails.of_eq (by rw [e1n_win_set L k c7, nRem_sdiff L k.val hk22 hN])) $$ Hen
  isplitl [Hdt]
  · iapply (Entails.of_eq (by rw [tDone_base (wL L) (rA L k.val - 64) (by rw [rA_eq]; omega), tDone_base (wL L) (rA L k.val - 32) (by rw [rA_eq]; omega)])) $$ Hdt
  · iapply (Entails.of_eq (by rw [nDone_base (wL L) (rA L k.val - 64) (by rw [rA_eq]; omega), nDone_base (wL L) (rA L k.val - 32) (by rw [rA_eq]; omega)])) $$ Hdn

set_option maxHeartbeats 4000000 in
/-- THE FIRST HALF OF A PAIR OF NEIGHBOUR CHUNKS: by cases on whether the pair is the worker's first. -/
theorem tripA_N (hpre : PreOK I) (O : CellTallies nD τ sig (HIx 1)) (W : Waits sig (HIx 1)) (k : Fin k1_t1_loop.trips) (hN : 4096 ≤ rA L k.val) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  by_cases hk0 : k.val = 0
  · exact tripA_N_zero I d L hpre O W k hN hk0
  · exact tripA_N_pos I d L hpre O W k hN hk0

end Tile
end Cert.Kernel.Tile
end
-- ==== Proof.Twin.TileTripA.lean ====
/-
  The first half of a pair of chunks on a vector subcore: from the pair loop's invariant to the middle of the pair, by
  the kind of the pair's chunks.
-/
import proofs.«213116_g69346541961480_cont_9to1_m_612_34_alg».proof.Proof.Twin.TileTripAT
import proofs.«213116_g69346541961480_cont_9to1_m_612_34_alg».proof.Proof.Twin.TileTripAN
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripA_run (hpre : PreOK I) (O : CellTallies nD τ sig (HIx 1)) (W : Waits sig (HIx 1)) (k : Fin k1_t1_loop.trips) :
    Inv I d L O W k.val ()
      ⊢ wp frame (wpE (defs₀ (F := F)) 𝒱₀ (thr d L) none) Set.univ
          (tripA (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k) (fun r => Mid I d L O W k.val r.1) := by
  rcases Nat.lt_or_ge (rA L k.val) 4096 with hT | hN
  · exact tripA_T I d L hpre O W k hT
  · exact tripA_N I d L hpre O W k hN

end Tile
end Cert.Kernel.Tile
end
-- ==== Proof.Twin.TileTripBX.lean ====
/-
  What a run of the second half of a pair leaves, restated as the pair loop's invariant wants it: the subcore's two rows of
  sums after a target chunk's sum is added (one more chunk in the running sum of the worker's target chunks), and the
  transfers the run has started — the two gathers into buffer set 0 and the copy-out of buffer set 1's rows into the first
  result — with what their landing hands back: the rows the lists name, and the chunk's rows at their values.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueLayout
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## The subcore's two rows of sums, a target chunk's sum added -/

theorem sq13_target (fsq : Buf (Elt F) ((s_13).view.loc (thr d L))) (acc : FVec F S16 .f32) (w n : ℕ)
    (hfsq : ∀ x : S2x16.Idx, fsq x = tileSqUpto I d w n (decide ((x 0).val = 0)) (x 1).val)
    (ht : w * 1408 + 32 * n < 4096)
    (hacc : ∀ l : S16.Idx, acc l = chunkSq I d (w * 1408 + 32 * n) (l 0).val) (x : S2x16.Idx) :
    (s_13).view.writes (Elt F) fsq [⟨Rect.unit (s := S2x16) ![0, 0] S1x16.size inb_S2x16_S1x16_0_0,
        k1_pay121 acc ((s_13).view.readAt (Elt F) (Rect.unit (s := S2x16) ![0, 0] S1x16.size inb_S2x16_S1x16_0_0).toLoadRect fsq)⟩] x
      = tileSqUpto I d w (n + 1) (decide ((x 0).val = 0)) (x 1).val := by
  have hx0 : (x 0).val < 2 := (x 0).isLt
  have hx1 : (x 1).val < 16 := (x 1).isLt
  rw [tileSqUpto_succ]
  by_cases h0 : (x 0).val = 0
  · have ex : (Rect.unit (s := S2x16) ![0, 0] S1x16.size inb_S2x16_S1x16_0_0).emb (ValueIdx.ix2 (0 : Fin 1) (x 1)) = x := by
      funext a
      match a with
      | ⟨0, _⟩ => apply Fin.ext; show 0 + 1 * 0 = (x 0).val; omega
      | ⟨1, _⟩ => apply Fin.ext; show 0 + 1 * (x 1).val = (x 1).val; omega
    have hr := View.read_writes_cons_emb (s_13).view fsq (Rect.unit (s := S2x16) ![0, 0] S1x16.size inb_S2x16_S1x16_0_0)
      (k1_pay121 acc ((s_13).view.readAt (Elt F) (Rect.unit (s := S2x16) ![0, 0] S1x16.size inb_S2x16_S1x16_0_0).toLoadRect fsq)) []
      (ValueIdx.ix2 (0 : Fin 1) (x 1))
    rw [ex] at hr
    refine (show _ = _ from hr).trans ?_
    unfold k1_pay121
    refine (ValueIdx.shapeCast_a_1a_apply (a := 16) _ shapeCasts_S16_S1x16 (0 : Fin 1) (x 1)).trans ?_
    show FloatOps.addf (shapeCast S16 ((s_13).view.readAt (Elt F) (Rect.unit (s := S2x16) ![0, 0] S1x16.size inb_S2x16_S1x16_0_0).toLoadRect fsq) shapeCasts_S1x16_S16 (ValueIdx.ix1 (x 1)))
      (acc (ValueIdx.ix1 (x 1))) = _
    rw [ValueIdx.shapeCast_1a_a_apply (a := 16) _ shapeCasts_S1x16_S16 (x 1), hacc]
    have hv : (s_13).view.readAt (Elt F) (Rect.unit (s := S2x16) ![0, 0] S1x16.size inb_S2x16_S1x16_0_0).toLoadRect fsq (ValueIdx.ix2 (0 : Fin 1) (x 1)) = fsq x := by
      show fsq ((Rect.unit (s := S2x16) ![0, 0] S1x16.size inb_S2x16_S1x16_0_0).emb (ValueIdx.ix2 (0 : Fin 1) (x 1))) = fsq x
      rw [ex]
    rw [hv, hfsq, if_pos (by rw [decide_eq_true ht, decide_eq_true h0])]
  · have hne : ∀ p ∈ ([⟨Rect.unit (s := S2x16) ![0, 0] S1x16.size inb_S2x16_S1x16_0_0,
        k1_pay121 acc ((s_13).view.readAt (Elt F) (Rect.unit (s := S2x16) ![0, 0] S1x16.size inb_S2x16_S1x16_0_0).toLoadRect fsq)⟩] : List (View.Piece (Elt F) S2x16 .f32)),
        x ∉ p.1.set := by
      intro p hp
      rw [List.mem_singleton] at hp
      subst hp
      rw [Rect.mem_set_unit]
      intro h
      have := h 0
      simp only [Matrix.cons_val_zero] at this
      omega
    have hr := View.read_writes_apply_of_forall_not_mem (s_13).view fsq x _ hne
    refine (show _ = _ from hr).trans ?_
    show fsq x = _
    rw [hfsq, if_neg (by rw [decide_eq_true ht, decide_eq_false h0]; decide)]

/-! ## The flights a run leaves are the invariant's -/

/-- The first table's gather into buffer set 0, as the run issues it. -/
theorem FlS0_of (r0 : ℕ) (f6 : Buf (Elt F) ((s_6).view.loc (thr d L))) (g0 : Buf (Elt F) ((s_0).view.loc (thr d L)))
    (P : (Rect.whole S32x128).shape.Idx → F .f32)
    (hg : ∀ x : S32.Idx, g0 x = selfIdx I d r0 (x 0).val)
    (hP : ∀ x : S32x128.Idx, P x = I.sp d (ixTab (g0 (mkIdx S32 (by decide) ![(x 0).val])).toNat (x 1).val)) :
    (Transfers.Flight countersEmb (thr d L) (SemLoc.dma cc1_scratch14.sem) default 131072
      iprop((((s_6).view.loc (thr d L) ↦{fullShare} (s_6).view.writes (Elt F) f6 [⟨Rect.whole S32x128, P⟩]) ∗ ((s_0).view.loc (thr d L) ↦{fullShare} g0))
        ∗ ((m_sp).view.loc (thr d L) ↦[(spSl).view.set]{Transfers.shareTokN (rsh (wL L)) 12} I.sp d)) : sProp 𝕄)
      ⊢ FlS0 I d L r0 := by
  unfold FlS0
  refine Transfers.Flight_mono countersEmb (thr d L) ?_
  iintro ⟨⟨H6, H0⟩, Hsp⟩
  iexists ((s_6).view.writes (Elt F) f6 [⟨Rect.whole S32x128, P⟩]), g0
  isplitr
  · ipureintro
    refine ⟨hg, fun x => ?_⟩
    rw [landing_s6_writes d L, hP, hg, mkIdx_val S32 (by decide) ![(x 0).val] 0 (x 0).isLt]
    rfl
  isplitl [H6]; · iexact H6
  isplitl [H0]; · iexact H0
  iexact Hsp

/-- The second table's gather into buffer set 0. -/
theorem FlN0_of (r0 : ℕ) (f8 : Buf (Elt F) ((s_8).view.loc (thr d L))) (g2 : Buf (Elt F) ((s_2).view.loc (thr d L)))
    (P : (Rect.whole S320x128).shape.Idx → F .f32)
    (hg : ∀ x : S320.Idx, g2 x = nbrIdx I d r0 (x 0).val)
    (hP : ∀ x : S320x128.Idx, P x = I.ap d (ixTab (g2 (mkIdx S320 (by decide) ![(x 0).val])).toNat (x 1).val)) :
    (Transfers.Flight countersEmb (thr d L) (SemLoc.dma cc1_scratch15.sem) default 1310720
      iprop((((s_8).view.loc (thr d L) ↦{fullShare} (s_8).view.writes (Elt F) f8 [⟨Rect.whole S320x128, P⟩]) ∗ ((s_2).view.loc (thr d L) ↦{fullShare} g2))
        ∗ ((m_ap).view.loc (thr d L) ↦[(apSl).view.set]{Transfers.shareTokN (rsh (wL L)) 13} I.ap d)) : sProp 𝕄)
      ⊢ FlN0 I d L r0 := by
  unfold FlN0
  refine Transfers.Flight_mono countersEmb (thr d L) ?_
  iintro ⟨⟨H8, H2⟩, Hap⟩
  iexists ((s_8).view.writes (Elt F) f8 [⟨Rect.whole S320x128, P⟩]), g2
  isplitr
  · ipureintro
    refine ⟨hg, fun x => ?_⟩
    rw [landing_s8_writes d L, hP, hg, mkIdx_val S320 (by decide) ![(x 0).val] 0 (x 0).isLt]
    rfl
  isplitl [H8]; · iexact H8
  isplitl [H2]; · iexact H2
  iexact Hap

/-- The copy-out of buffer set 1's rows into the first result, as the run issues it: on landing the buffer is back and the
    chunk's rows hold their values. -/
theorem FlW1_of (r0 : ℕ) (hr0 : r0 < 4096) (off : Fin 2 → ℕ) (inb : ∀ a, off a + S32x128.size a ≤ S4096x128.size a)
    (h0 : off 0 = r0) (h1 : off 1 = 0) (ft : Buf (Elt F) ((m_e1t).view.loc (thr d L))) (fo : Buf (Elt F) ((s_11).view.loc (thr d L)))
    (P : (Rect.whole (Rect.unit (s := S4096x128) off S32x128.size inb).shape).shape.Idx → F .f32)
    (hP : ∀ y : S32x128.Idx, P y = E1 I d (r0 + (y 0).val) (y 1).val) :
    (Transfers.Flight countersEmb (thr d L) (SemLoc.dma cc1_scratch19.sem) default 131072
      iprop((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩])
        ∗ ((s_11).view.loc (thr d L) ↦[(s_11).view.set]{fullShare} fo)) : sProp 𝕄)
      ⊢ FlW1 I d L r0 := by
  have hEq : ((((m_e1t).slice (Rect.unit (s := S4096x128) off S32x128.size inb) (fun _ => rfl)).view.loc (thr d L)
            ↦[((m_e1t).slice (Rect.unit (s := S4096x128) off S32x128.size inb) (fun _ => rfl)).view.set]{fullShare}
              ((m_e1t).slice (Rect.unit (s := S4096x128) off S32x128.size inb) (fun _ => rfl)).view.writes (Elt F) ft
                [⟨Rect.whole (Rect.unit (s := S4096x128) off S32x128.size inb).shape, P⟩]) : sProp 𝕄)
      = ((m_e1t).view.loc (thr d L) ↦[cT r0]{fullShare} E1t I d) := by
    rw [set_e1t_slice off inb h1, h0]
    refine pointsTo_congr fun i hi => ?_
    unfold cT at hi
    rw [Finset.mem_filter] at hi
    obtain ⟨-, hlo, hhi⟩ := hi
    have hi1 : (i 1).val < 128 := (i 1).isLt
    let y : S32x128.Idx := ValueIdx.ix2 (⟨(i 0).val - r0, by omega⟩ : Fin 32) (⟨(i 1).val, hi1⟩ : Fin 128)
    have hy : ((m_e1t).slice (Rect.unit (s := S4096x128) off S32x128.size inb) (fun _ => rfl)).view.emb y = i := by
      funext a
      match a with
      | ⟨0, _⟩ => apply Fin.ext; show off 0 + 1 * ((i 0).val - r0) = (i 0).val; omega
      | ⟨1, _⟩ => apply Fin.ext; show off 1 + 1 * (i 1).val = (i 1).val; omega
    have hr := View.read_writes_cons_emb ((m_e1t).slice (Rect.unit (s := S4096x128) off S32x128.size inb) (fun _ => rfl)).view ft
      (Rect.whole (Rect.unit (s := S4096x128) off S32x128.size inb).shape) P [] y
    have hw : (Rect.whole (Rect.unit (s := S4096x128) off S32x128.size inb).shape).emb y = y := by
      funext a; apply Fin.ext
      show 0 + 1 * (y a).val = (y a).val
      omega
    rw [hw] at hr
    have hr2 : ((m_e1t).slice (Rect.unit (s := S4096x128) off S32x128.size inb) (fun _ => rfl)).view.writes (Elt F) ft
        [⟨Rect.whole (Rect.unit (s := S4096x128) off S32x128.size inb).shape, P⟩]
        (((m_e1t).slice (Rect.unit (s := S4096x128) off S32x128.size inb) (fun _ => rfl)).view.emb y) = P y := hr
    rw [hy] at hr2
    rw [hr2, hP]
    show E1 I d (r0 + ((i 0).val - r0)) (i 1).val = E1 I d (i 0).val (i 1).val
    rw [Nat.add_sub_cancel' hlo]
  unfold FlW1 outDone
  rw [if_pos hr0]
  refine Transfers.Flight_mono countersEmb (thr d L) ?_
  iintro ⟨Hd, Hs⟩
  isplitl [Hs]
  · iexists fo
    iapply (Entails.of_eq (show ((s_11).view.loc (thr d L) ↦[(s_11).view.set]{fullShare} fo : sProp 𝕄) = ((s_11).view.loc (thr d L) ↦{fullShare} fo) from by
      rw [show (s_11).view.set = Finset.univ from View.set_whole _]))
    iexact Hs
  · iapply (Entails.of_eq hEq)
    iexact Hd

end Tile
end Cert.Kernel.Tile
end
-- ==== Proof.Twin.TileTripBTl.lean ====
/-
  The second half of the last pair of target chunks on a vector subcore: no further chunk is fetched.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import proofs.«213116_g69346541961480_cont_9to1_m_612_34_alg».proof.Proof.Twin.TileTripBX
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- The pair loop's induction value is its trip number: the second half's test on it is the test that the pair is not the first. -/
theorem btl_v62_iff : ∀ t : Fin k1_t1_loop.trips,
    Scalar.cmpi .ne (Scalar.extui (Scalar.xori (Scalar.cmpi .eq (Scf.iv 0#32 1#32 t.val) 0#32) 1#1) : BitVec 32) 0#32 = 1#1 ↔ t.val ≠ 0 := by decide +kernel

set_option maxHeartbeats 4000000 in
theorem tripB_T_last (hpre : PreOK I) (O : CellTallies nD τ sig (HIx 1)) (W : Waits sig (HIx 1)) (k : Fin k1_t1_loop.trips) (arg34 : BitVec 32)
    (hT : rA L k.val < 4096) (hk : ¬ k.val + 1 < 22) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  have hk0 : k.val ≠ 0 := by omega
  unfold Mid
  iintro ⟨%hk', #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk'
  have hrA : rA L k.val = 2816 * (L 1).val + 1408 * (L 0).val + 64 * k.val := by unfold rA base; rfl
  have h12 : k1_cond12 L k = 1#1 := (k1_cond12_iff L k).mpr (by omega)
  have h13 : ¬ k1_cond13 L k = 1#1 := fun h => by have := (k1_cond13_iff L k).mp h; omega
  have h8 : ¬ k1_cond8 k = 1#1 := fun h => hk ((k1_cond8_iff k).mp h)
  have h11 : Scalar.cmpi .ne (Scalar.extui (Scalar.xori (Scalar.cmpi .eq (Scf.iv 0#32 1#32 k.val) 0#32) 1#1) : BitVec 32) 0#32 = 1#1 := (btl_v62_iff k).mpr hk0
  unfold Loaded1 LoopRO FlS1 FlN1
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  ihave Hout1 := (Entails.of_eq (Outs1_pos I d L hk0)) $$ Hout1
  unfold FlW1
  unfold tripB
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the previous pair's second copy-out lands: its buffer and its rows, written
  ihave Hmw19 := (Transfers.MayWaits.elim (SemLoc.dma cc1_scratch19.sem)) $$ Hmw
  iapply (Transfers.wp_waitLocalO countersEmb 𝒱₀ (thr d L) none (default : HIx 1) rfl) $$ [Hout1 HO Hmw19]
  · isplitl [Hout1]; · iexact Hout1
    isplitl [HO]; · iexact HO
    iexact Hmw19
  iintro ⟨⟨⟨%f11, Hs11⟩, Hod⟩, Hm19, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  sl_step
  -- THE END OF THE RUN: the invariant after the last pair
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo
      (tripB_T_last.sl.dma3 d L fo) (fun y => by
        unfold tripB_T_last.sl.dma3
        show fo y = _
        rw [hfo y (y 0).isLt]; exact hro _ _ (y 0).isLt (y 1).isLt))
    iexact Hm19
  -- buffer set 0 stays at rest: no chunk follows
  ihave Hset0 : Set0 I d L (k.val + 1) $$ [Hidle0]
  · rw [Set0_ge I d L hk]; iexact Hidle0
  -- the previous pair's second chunk's rows join the written rows
  have hrm : rA L k.val - 32 = wL L * 1408 + 32 * (2 * k.val - 1) := by unfold rA; rw [base_eq]; omega
  have e3 : wL L * 1408 + 32 * (2 * k.val - 1) + 32 = rA L k.val := by unfold rA; rw [base_eq]; omega
  have hjoin : tDone (wL L) (rA L k.val - 32) ∪ cT (rA L k.val - 32) = tDone (wL L) (rA L k.val) := by
    rw [hrm, tDone_union_cT (wL L) (2 * k.val - 1) (by omega) (by omega), e3]
  unfold outDone
  ihave Hod := (Entails.of_eq (if_pos (show rA L k.val - 32 < 4096 by omega))) $$ Hod
  ihave Htd := (pointsTo_union (ℓ := (m_e1t).view.loc (thr d L)) (q := fullShare) (f := E1t I d) (tDone_disjoint_cT (wL L) (rA L k.val - 32))).2 $$ [Htd Hod]
  · isplitl [Htd]; · iexact Htd
    iexact Hod
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      rw [hrw, tRem_sdiff_cT (wL L) (2 * k.val + 1) (by omega) (by omega)]
      exact congrArg (tRem (wL L)) (by omega)
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄))
        (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega,
      show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

end Tile
end Cert.Kernel.Tile
end
-- ==== Proof.Twin.TileTripBT.lean ====
/-
  The second half of a pair of chunks on a vector subcore, when the pair's chunks are target chunks.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import proofs.«213116_g69346541961480_cont_9to1_m_612_34_alg».proof.Proof.Twin.TileTripBX
import proofs.«213116_g69346541961480_cont_9to1_m_612_34_alg».proof.Proof.Twin.TileTripBTl
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueLayout
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem v62_iff : ∀ t : Fin k1_t1_loop.trips,
    Scalar.cmpi .ne (Scalar.extui (Scalar.xori (Scalar.cmpi .eq (Scf.iv 0#32 1#32 t.val) 0#32) 1#1) : BitVec 32) 0#32 = 1#1 ↔ t.val ≠ 0 := by decide +kernel

set_option maxHeartbeats 4000000 in
/-- The next pair's first chunk is a target chunk; the pair is not the worker's first. -/
theorem tripB_T_B1 (hpre : PreOK I) (O : CellTallies nD τ sig (HIx 1)) (W : Waits sig (HIx 1)) (k : Fin k1_t1_loop.trips) (arg34 : BitVec 32) (hT : rA L k.val < 4096) (hk1 : k.val + 1 < 22) (hc : rA L k.val + 64 < 4096) (hk0 : k.val ≠ 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  unfold Mid
  iintro ⟨%hk, #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk
  have hk22 : k.val < 22 := Nat.lt_of_lt_of_eq k.isLt trips22
  have hrA : rA L k.val = 2816 * (L 1).val + 1408 * (L 0).val + 64 * k.val := by unfold rA base; rfl
  have h12 : k1_cond12 L k = 1#1 := (k1_cond12_iff L k).mpr (by have := (L 0).isLt; have := (L 1).isLt; omega)
  have h13 : ¬ k1_cond13 L k = 1#1 := fun h => by have := (k1_cond13_iff L k).mp h; have := (L 0).isLt; have := (L 1).isLt; omega
  unfold Idle0 Loaded1 LoopRO FlS1 FlN1
  icases Hidle0 with ⟨⟨%f0, Hs0⟩, ⟨%f2, Hs2⟩, ⟨%f4, Hs4⟩, ⟨%f6, Hs6⟩, ⟨%f8, Hs8⟩, Hm14, Hm15, Hsp12, Hap13⟩
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  unfold tripB
  have hc' : 2816 * (L 1).val + 1408 * (L 0).val + 64 * k.val + 64 < 4096 := by omega
  have h8 : k1_cond8 k = 1#1 := (k1_cond8_iff k).mpr hk1
  have h9 : k1_cond9 L k = 1#1 := (k1_cond9_iff L k).mpr hc'
  have h10 : ¬ k1_cond10 L k = 1#1 := fun h => by have := (k1_cond10_iff L k).mp h; omega
  have h11 : Scalar.cmpi .ne (Scalar.extui (Scalar.xori (Scalar.cmpi .eq (Scf.iv 0#32 1#32 k.val) 0#32) 1#1) : BitVec 32) 0#32 = 1#1 := (v62_iff k).mpr hk0
  ihave Hout1 := (Entails.of_eq (Outs1_pos I d L hk0)) $$ Hout1
  unfold FlW1
  sl_exec
  -- the next pair's first chunk's lists: the indices and weights of the chunk's rows
  have e28 : (![2816 * (L 1).val + 1408 * (L 0).val + 64 * k.val + 64] : Fin 1 → ℕ) 0 = rA L k.val + 64 := by
    rw [hrA]; rfl
  have e29 : (![28160 * (L 1).val + 14080 * (L 0).val + 640 * k.val + 640] : Fin 1 → ℕ) 0 = (rA L k.val + 64) * 10 := by
    rw [hrA]; show 28160 * (L 1).val + 14080 * (L 0).val + 640 * k.val + 640 = _; omega
  ihave Hs0' : iprop(∃ g : Buf (Elt F) ((s_0).view.loc (thr d L)), ((s_0).view.loc (thr d L) ↦{fullShare} g) ∗ ⌜∀ x : S32.Idx, g x = selfIdx I d (rA L k.val + 64) (x 0).val⌝) $$ [Hs0]
  · iexists _
    isplitl [Hs0]; · iexact Hs0
    ipureintro
    intro x
    rw [View.write_whole_univ]
    unfold tripB_T_B1.sl.dma0
    refine (read_nid32 d L (k1_off28 L k) _ (I.nid d) x).trans ?_
    rw [k1_off28_eq, e28]
    unfold selfIdx
    rw [if_pos hc]
  icases Hs0' with ⟨%g0, Hs0, %hg0⟩
  ihave Hs2' : iprop(∃ g : Buf (Elt F) ((s_2).view.loc (thr d L)), ((s_2).view.loc (thr d L) ↦{fullShare} g) ∗ ⌜∀ x : S320.Idx, g x = nbrIdx I d (rA L k.val + 64) (x 0).val⌝) $$ [Hs2]
  · iexists _
    isplitl [Hs2]; · iexact Hs2
    ipureintro
    intro x
    rw [View.write_whole_univ]
    unfold tripB_T_B1.sl.dma0_1
    refine (read_n1_320 d L (k1_off29 L k) _ (I.n1 d) x).trans ?_
    rw [k1_off29_eq, e29]
    unfold nbrIdx
    rw [if_pos hc]
  icases Hs2' with ⟨%g2, Hs2, %hg2⟩
  ihave Hs4' : iprop(∃ fal0 : Buf (Elt F) ((s_4).view.loc (thr d L)), ((s_4).view.loc (thr d L) ↦{fullShare} fal0) ∗ ⌜∀ x : S336.Idx, (x 0).val < 320 → fal0 x = alph I d (rA L k.val + 64) (x 0).val⌝) $$ [Hs4]
  · iexists _
    isplitl [Hs4]; · iexact Hs4
    ipureintro
    intro x hx
    rw [writes_s4 d L _ _ x hx]
    unfold tripB_T_B1.sl.dma0_2
    refine (read_a1_320 d L (k1_off29 L k) _ (I.a1 d) _).trans ?_
    rw [k1_off29_eq, e29, mkIdx_val S320 (by decide) ![(x 0).val] 0 hx]
    unfold alph
    rw [if_pos hc]
    rfl
  icases Hs4' with ⟨%fal0, Hs4, %hfal0⟩
  have hin0 : ∀ x, ((s_0).view.read (Elt F) g0 x).toNat < S100000x128.size (gathers_S100000x128_S32x128).axis := fun x => by
    show (g0 x).toNat < 100000
    rw [hg0]; exact selfIdx_lt I d hpre _ _
  have hin2 : ∀ x, ((s_2).view.read (Elt F) g2 x).toNat < S100000x128.size (gathers_S100000x128_S320x128).axis := fun x => by
    show (g2 x).toNat < 100000
    rw [hg2]; exact nbrIdx_lt I d hpre _ _
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the previous pair's second copy-out lands: its buffer and its rows, written
  ihave Hmw19 := (Transfers.MayWaits.elim (SemLoc.dma cc1_scratch19.sem)) $$ Hmw
  iapply (Transfers.wp_waitLocalO countersEmb 𝒱₀ (thr d L) none (default : HIx 1) rfl) $$ [Hout1 HO Hmw19]
  · isplitl [Hout1]; · iexact Hout1
    isplitl [HO]; · iexact HO
    iexact Hmw19
  iintro ⟨⟨⟨%f11, Hs11⟩, Hod⟩, Hm19, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  -- THE END OF THE RUN: the invariant before the next pair
  sl_step
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo (tripB_T_B1.sl.dma3 d L fo) (fun y => by
      unfold tripB_T_B1.sl.dma3
      show fo y = _
      rw [hfo y (y 0).isLt]; exact hro _ _ (y 0).isLt (y 1).isLt))
    iexact Hm19
  -- buffer set 0 loaded with the next pair's first chunk
  ihave HflS0 : FlS0 I d L (rA L k.val + 64) $$ [Hm14]
  · iapply (FlS0_of I d L (rA L k.val + 64) f6 g0 (tripB_T_B1.sl.gather0 I d L g0 hin0) hg0 (fun x => by unfold tripB_T_B1.sl.gather0; exact gather_sp0 d L (I.sp d) g0 _ hin0 x))
    iexact Hm14
  ihave HflN0 : FlN0 I d L (rA L k.val + 64) $$ [Hm15]
  · iapply (FlN0_of I d L (rA L k.val + 64) f8 g2 (tripB_T_B1.sl.gather1 I d L g2 hin2) hg2 (fun x => by unfold tripB_T_B1.sl.gather1; exact gather_ap2 d L (I.ap d) g2 _ hin2 x))
    iexact Hm15
  iclear Hsp12 Hap13
  ihave Hset0 : Set0 I d L (k.val + 1) $$ [Hs4 HflS0 HflN0]
  · rw [Set0_lt I d L hk1, erA1]
    unfold Loaded0
    isplitl [Hs4]
    · iexists fal0
      isplitr; · ipureintro; exact hfal0
      iexact Hs4
    isplitl [HflS0]; · iexact HflS0
    iexact HflN0
  -- the previous pair's second chunk's rows join the written rows
  have hrm : rA L k.val - 32 = wL L * 1408 + 32 * (2 * k.val - 1) := by unfold rA; rw [base_eq]; omega
  have e3 : wL L * 1408 + 32 * (2 * k.val - 1) + 32 = rA L k.val := by unfold rA; rw [base_eq]; omega
  have hjoin : tDone (wL L) (rA L k.val - 32) ∪ cT (rA L k.val - 32) = tDone (wL L) (rA L k.val) := by
    rw [hrm, tDone_union_cT (wL L) (2 * k.val - 1) (by omega) (by omega), e3]
  unfold outDone
  ihave Hod := (Entails.of_eq (if_pos (show rA L k.val - 32 < 4096 by omega))) $$ Hod
  ihave Htd := (pointsTo_union (ℓ := (m_e1t).view.loc (thr d L)) (q := fullShare) (f := E1t I d) (tDone_disjoint_cT (wL L) (rA L k.val - 32))).2 $$ [Htd Hod]
  · isplitl [Htd]; · iexact Htd
    iexact Hod
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      have e4 : wL L * 1408 + 32 * (2 * k.val + 1) + 32 = rA L k.val + 64 := by omega
      rw [hrw, tRem_sdiff_cT (wL L) (2 * k.val + 1) (by omega) (by omega), e4]
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄)) (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega, show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

set_option maxHeartbeats 4000000 in
/-- The next pair's first chunk is a target chunk; the pair is the worker's first: no copy-out of buffer set 1 is under way. -/
theorem tripB_T_B0 (hpre : PreOK I) (O : CellTallies nD τ sig (HIx 1)) (W : Waits sig (HIx 1)) (k : Fin k1_t1_loop.trips) (arg34 : BitVec 32) (hT : rA L k.val < 4096) (hk1 : k.val + 1 < 22) (hc : rA L k.val + 64 < 4096) (hk0 : k.val = 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  unfold Mid
  iintro ⟨%hk, #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk
  have hk22 : k.val < 22 := Nat.lt_of_lt_of_eq k.isLt trips22
  have hrA : rA L k.val = 2816 * (L 1).val + 1408 * (L 0).val + 64 * k.val := by unfold rA base; rfl
  have h12 : k1_cond12 L k = 1#1 := (k1_cond12_iff L k).mpr (by have := (L 0).isLt; have := (L 1).isLt; omega)
  have h13 : ¬ k1_cond13 L k = 1#1 := fun h => by have := (k1_cond13_iff L k).mp h; have := (L 0).isLt; have := (L 1).isLt; omega
  unfold Idle0 Loaded1 LoopRO FlS1 FlN1
  icases Hidle0 with ⟨⟨%f0, Hs0⟩, ⟨%f2, Hs2⟩, ⟨%f4, Hs4⟩, ⟨%f6, Hs6⟩, ⟨%f8, Hs8⟩, Hm14, Hm15, Hsp12, Hap13⟩
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  unfold tripB
  have hc' : 2816 * (L 1).val + 1408 * (L 0).val + 64 * k.val + 64 < 4096 := by omega
  have h8 : k1_cond8 k = 1#1 := (k1_cond8_iff k).mpr hk1
  have h9 : k1_cond9 L k = 1#1 := (k1_cond9_iff L k).mpr hc'
  have h10 : ¬ k1_cond10 L k = 1#1 := fun h => by have := (k1_cond10_iff L k).mp h; omega
  have h11 : ¬ Scalar.cmpi .ne (Scalar.extui (Scalar.xori (Scalar.cmpi .eq (Scf.iv 0#32 1#32 k.val) 0#32) 1#1) : BitVec 32) 0#32 = 1#1 := fun h => (v62_iff k).mp h hk0
  ihave Hout1 := (Entails.of_eq ((congrArg (Outs1 I d L) hk0).trans (Outs1_zero I d L))) $$ Hout1
  icases Hout1 with ⟨⟨%f11, Hs11⟩, Hm19⟩
  sl_exec
  -- the next pair's first chunk's lists: the indices and weights of the chunk's rows
  have e28 : (![2816 * (L 1).val + 1408 * (L 0).val + 64 * k.val + 64] : Fin 1 → ℕ) 0 = rA L k.val + 64 := by
    rw [hrA]; rfl
  have e29 : (![28160 * (L 1).val + 14080 * (L 0).val + 640 * k.val + 640] : Fin 1 → ℕ) 0 = (rA L k.val + 64) * 10 := by
    rw [hrA]; show 28160 * (L 1).val + 14080 * (L 0).val + 640 * k.val + 640 = _; omega
  ihave Hs0' : iprop(∃ g : Buf (Elt F) ((s_0).view.loc (thr d L)), ((s_0).view.loc (thr d L) ↦{fullShare} g) ∗ ⌜∀ x : S32.Idx, g x = selfIdx I d (rA L k.val + 64) (x 0).val⌝) $$ [Hs0]
  · iexists _
    isplitl [Hs0]; · iexact Hs0
    ipureintro
    intro x
    rw [View.write_whole_univ]
    unfold tripB_T_B0.sl.dma0
    refine (read_nid32 d L (k1_off28 L k) _ (I.nid d) x).trans ?_
    rw [k1_off28_eq, e28]
    unfold selfIdx
    rw [if_pos hc]
  icases Hs0' with ⟨%g0, Hs0, %hg0⟩
  ihave Hs2' : iprop(∃ g : Buf (Elt F) ((s_2).view.loc (thr d L)), ((s_2).view.loc (thr d L) ↦{fullShare} g) ∗ ⌜∀ x : S320.Idx, g x = nbrIdx I d (rA L k.val + 64) (x 0).val⌝) $$ [Hs2]
  · iexists _
    isplitl [Hs2]; · iexact Hs2
    ipureintro
    intro x
    rw [View.write_whole_univ]
    unfold tripB_T_B0.sl.dma0_1
    refine (read_n1_320 d L (k1_off29 L k) _ (I.n1 d) x).trans ?_
    rw [k1_off29_eq, e29]
    unfold nbrIdx
    rw [if_pos hc]
  icases Hs2' with ⟨%g2, Hs2, %hg2⟩
  ihave Hs4' : iprop(∃ fal0 : Buf (Elt F) ((s_4).view.loc (thr d L)), ((s_4).view.loc (thr d L) ↦{fullShare} fal0) ∗ ⌜∀ x : S336.Idx, (x 0).val < 320 → fal0 x = alph I d (rA L k.val + 64) (x 0).val⌝) $$ [Hs4]
  · iexists _
    isplitl [Hs4]; · iexact Hs4
    ipureintro
    intro x hx
    rw [writes_s4 d L _ _ x hx]
    unfold tripB_T_B0.sl.dma0_2
    refine (read_a1_320 d L (k1_off29 L k) _ (I.a1 d) _).trans ?_
    rw [k1_off29_eq, e29, mkIdx_val S320 (by decide) ![(x 0).val] 0 hx]
    unfold alph
    rw [if_pos hc]
    rfl
  icases Hs4' with ⟨%fal0, Hs4, %hfal0⟩
  have hin0 : ∀ x, ((s_0).view.read (Elt F) g0 x).toNat < S100000x128.size (gathers_S100000x128_S32x128).axis := fun x => by
    show (g0 x).toNat < 100000
    rw [hg0]; exact selfIdx_lt I d hpre _ _
  have hin2 : ∀ x, ((s_2).view.read (Elt F) g2 x).toNat < S100000x128.size (gathers_S100000x128_S320x128).axis := fun x => by
    show (g2 x).toNat < 100000
    rw [hg2]; exact nbrIdx_lt I d hpre _ _
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  -- THE END OF THE RUN: the invariant before the next pair
  sl_step
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo (tripB_T_B0.sl.dma3 d L fo) (fun y => by
      unfold tripB_T_B0.sl.dma3
      show fo y = _
      rw [hfo y (y 0).isLt]; exact hro _ _ (y 0).isLt (y 1).isLt))
    iexact Hm19
  -- buffer set 0 loaded with the next pair's first chunk
  ihave HflS0 : FlS0 I d L (rA L k.val + 64) $$ [Hm14]
  · iapply (FlS0_of I d L (rA L k.val + 64) f6 g0 (tripB_T_B0.sl.gather0 I d L g0 hin0) hg0 (fun x => by unfold tripB_T_B0.sl.gather0; exact gather_sp0 d L (I.sp d) g0 _ hin0 x))
    iexact Hm14
  ihave HflN0 : FlN0 I d L (rA L k.val + 64) $$ [Hm15]
  · iapply (FlN0_of I d L (rA L k.val + 64) f8 g2 (tripB_T_B0.sl.gather1 I d L g2 hin2) hg2 (fun x => by unfold tripB_T_B0.sl.gather1; exact gather_ap2 d L (I.ap d) g2 _ hin2 x))
    iexact Hm15
  iclear Hsp12 Hap13
  ihave Hset0 : Set0 I d L (k.val + 1) $$ [Hs4 HflS0 HflN0]
  · rw [Set0_lt I d L hk1, erA1]
    unfold Loaded0
    isplitl [Hs4]
    · iexists fal0
      isplitr; · ipureintro; exact hfal0
      iexact Hs4
    isplitl [HflS0]; · iexact HflS0
    iexact HflN0
  -- before the worker's first pair no row is written
  have hb0 : rA L k.val = wL L * 1408 := by unfold rA; rw [base_eq, hk0]; omega
  have hjoin : tDone (wL L) (rA L k.val - 32) = tDone (wL L) (rA L k.val) := by
    rw [tDone_base (wL L) _ (by omega), tDone_base (wL L) _ (by omega)]
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      have e4 : wL L * 1408 + 32 * (2 * k.val + 1) + 32 = rA L k.val + 64 := by omega
      rw [hrw, tRem_sdiff_cT (wL L) (2 * k.val + 1) (by omega) (by omega), e4]
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄)) (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega, show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

set_option maxHeartbeats 4000000 in
/-- The next pair's first chunk is a chunk of one-hop neighbours (the worker's rows cross row 4096 there). -/
theorem tripB_T_C1 (hpre : PreOK I) (O : CellTallies nD τ sig (HIx 1)) (W : Waits sig (HIx 1)) (k : Fin k1_t1_loop.trips) (arg34 : BitVec 32) (hT : rA L k.val < 4096) (hk1 : k.val + 1 < 22) (hcN : 4096 ≤ rA L k.val + 64) (hk0 : k.val ≠ 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  unfold Mid
  iintro ⟨%hk, #Hmw, ⟨%W', %hW', HO⟩, Hro, ⟨%fb, %hfb, Hs12⟩, ⟨%fsq, %hfsq, Hs13⟩, Hidle0, Hld1, Hfw0, Hout1, ⟨%ft, Hte⟩, ⟨%fn, Hne⟩, Htd, Hnd⟩
  subst hk
  have hk22 : k.val < 22 := Nat.lt_of_lt_of_eq k.isLt trips22
  have hrA : rA L k.val = 2816 * (L 1).val + 1408 * (L 0).val + 64 * k.val := by unfold rA base; rfl
  have h12 : k1_cond12 L k = 1#1 := (k1_cond12_iff L k).mpr (by have := (L 0).isLt; have := (L 1).isLt; omega)
  have h13 : ¬ k1_cond13 L k = 1#1 := fun h => by have := (k1_cond13_iff L k).mp h; have := (L 0).isLt; have := (L 1).isLt; omega
  unfold Idle0 Loaded1 LoopRO FlS1 FlN1
  icases Hidle0 with ⟨⟨%f0, Hs0⟩, ⟨%f2, Hs2⟩, ⟨%f4, Hs4⟩, ⟨%f6, Hs6⟩, ⟨%f8, Hs8⟩, Hm14, Hm15, Hsp12, Hap13⟩
  icases Hld1 with ⟨⟨%fal, %hfal, Hs5⟩, HflS1, HflN1⟩
  icases Hro with ⟨Hnid, Hn1, Hn2, Ha1, Ha2, Hr7, Hr8, Hr9, Hr10, Hr11, Hr12, Hr13, Hr14, Hr15, Hr16, Hr17, Hr18⟩
  unfold tripB
  have hc' : 4096 ≤ 2816 * (L 1).val + 1408 * (L 0).val + 64 * k.val + 64 := by omega
  have hc : ¬ rA L k.val + 64 < 4096 := by omega
  have h8 : k1_cond8 k = 1#1 := (k1_cond8_iff k).mpr hk1
  have h9 : ¬ k1_cond9 L k = 1#1 := fun h => by have := (k1_cond9_iff L k).mp h; omega
  have h10 : k1_cond10 L k = 1#1 := (k1_cond10_iff L k).mpr hc'
  have h11 : Scalar.cmpi .ne (Scalar.extui (Scalar.xori (Scalar.cmpi .eq (Scf.iv 0#32 1#32 k.val) 0#32) 1#1) : BitVec 32) 0#32 = 1#1 := (v62_iff k).mpr hk0
  ihave Hout1 := (Entails.of_eq (Outs1_pos I d L hk0)) $$ Hout1
  unfold FlW1
  sl_exec
  -- the next pair's first chunk's lists: the indices and weights of the chunk's rows (a chunk of one-hop neighbours)
  have e30 : (![2816 * (L 1).val + 1408 * (L 0).val + 64 * k.val + 64 - 4096] : Fin 1 → ℕ) 0 = rA L k.val + 64 - 4096 := by
    rw [hrA]; rfl
  have e31 : (![(2816 * (L 1).val + 1408 * (L 0).val + 64 * k.val + 64 - 4096) * 10] : Fin 1 → ℕ) 0 = (rA L k.val + 64 - 4096) * 10 := by
    rw [hrA]; rfl
  ihave Hs0' : iprop(∃ g : Buf (Elt F) ((s_0).view.loc (thr d L)), ((s_0).view.loc (thr d L) ↦{fullShare} g) ∗ ⌜∀ x : S32.Idx, g x = selfIdx I d (rA L k.val + 64) (x 0).val⌝) $$ [Hs0]
  · iexists _
    isplitl [Hs0]; · iexact Hs0
    ipureintro
    intro x
    rw [View.write_whole_univ]
    unfold tripB_T_C1.sl.dma0
    refine (read_n1_32 d L (k1_off30 L k) _ (I.n1 d) x).trans ?_
    rw [k1_off30_eq' L k h10, e30]
    unfold selfIdx
    rw [if_neg hc]
  icases Hs0' with ⟨%g0, Hs0, %hg0⟩
  ihave Hs2' : iprop(∃ g : Buf (Elt F) ((s_2).view.loc (thr d L)), ((s_2).view.loc (thr d L) ↦{fullShare} g) ∗ ⌜∀ x : S320.Idx, g x = nbrIdx I d (rA L k.val + 64) (x 0).val⌝) $$ [Hs2]
  · iexists _
    isplitl [Hs2]; · iexact Hs2
    ipureintro
    intro x
    rw [View.write_whole_univ]
    unfold tripB_T_C1.sl.dma0_1
    refine (read_n2_320 d L (k1_off31 L k) _ (I.n2 d) x).trans ?_
    rw [k1_off31_eq' L k h10, e31]
    unfold nbrIdx
    rw [if_neg hc]
  icases Hs2' with ⟨%g2, Hs2, %hg2⟩
  ihave Hs4' : iprop(∃ fal0 : Buf (Elt F) ((s_4).view.loc (thr d L)), ((s_4).view.loc (thr d L) ↦{fullShare} fal0) ∗ ⌜∀ x : S336.Idx, (x 0).val < 320 → fal0 x = alph I d (rA L k.val + 64) (x 0).val⌝) $$ [Hs4]
  · iexists _
    isplitl [Hs4]; · iexact Hs4
    ipureintro
    intro x hx
    rw [writes_s4 d L _ _ x hx]
    unfold tripB_T_C1.sl.dma0_2
    refine (read_a2_320 d L (k1_off31 L k) _ (I.a2 d) _).trans ?_
    rw [k1_off31_eq' L k h10, e31, mkIdx_val S320 (by decide) ![(x 0).val] 0 hx]
    unfold alph
    rw [if_neg hc]
    rfl
  icases Hs4' with ⟨%fal0, Hs4, %hfal0⟩
  have hin0 : ∀ x, ((s_0).view.read (Elt F) g0 x).toNat < S100000x128.size (gathers_S100000x128_S32x128).axis := fun x => by
    show (g0 x).toNat < 100000
    rw [hg0]; exact selfIdx_lt I d hpre _ _
  have hin2 : ∀ x, ((s_2).view.read (Elt F) g2 x).toNat < S100000x128.size (gathers_S100000x128_S320x128).axis := fun x => by
    show (g2 x).toNat < 100000
    rw [hg2]; exact nbrIdx_lt I d hpre _ _
  sl_exec
  -- the second chunk's two gathers land: its rows, its lists and the tables' tokens come back
  ihave Hmw16 := (Transfers.MayWaits.elim (SemLoc.dma cc1_scratch16.sem)) $$ Hmw
  iapply (Transfers.wp_waitLocalO countersEmb 𝒱₀ (thr d L) none (default : HIx 1) rfl) $$ [HflS1 HO Hmw16]
  · isplitl [HflS1]; · iexact HflS1
    isplitl [HO]; · iexact HO
    iexact Hmw16
  iintro ⟨⟨%fs7, %g1, %hS1, Hs7, Hs1, Hsp14⟩, Hm16, HO⟩
  sl_exec
  ihave Hmw17 := (Transfers.MayWaits.elim (SemLoc.dma cc1_scratch17.sem)) $$ Hmw
  iapply (Transfers.wp_waitLocalO countersEmb 𝒱₀ (thr d L) none (default : HIx 1) rfl) $$ [HflN1 HO Hmw17]
  · isplitl [HflN1]; · iexact HflN1
    isplitl [HO]; · iexact HO
    iexact Hmw17
  iintro ⟨⟨%fs9, %g3, %hN1, Hs9, Hs3, Hap15⟩, Hm17, HO⟩
  sl_exec
  -- the previous pair's second copy-out lands: its buffer and its rows, written
  ihave Hmw19 := (Transfers.MayWaits.elim (SemLoc.dma cc1_scratch19.sem)) $$ Hmw
  iapply (Transfers.wp_waitLocalO countersEmb 𝒱₀ (thr d L) none (default : HIx 1) rfl) $$ [Hout1 HO Hmw19]
  · isplitl [Hout1]; · iexact Hout1
    isplitl [HO]; · iexact HO
    iexact Hmw19
  iintro ⟨⟨⟨%f11, Hs11⟩, Hod⟩, Hm19, HO⟩
  sl_exec
  -- the chunk's 32 rows
  sl_for (RowInv1 d L fal fs7 fs9 fb) $$ [Hs5 Hs7 Hs9 Hs12 Hs11]
  · exact row_trip1 d L fal fs7 fs9 fb
  · unfold RowInv1
    isplitr; · ipureintro; rfl
    isplitl [Hs5]; · iexact Hs5
    isplitl [Hs7]; · iexact Hs7
    isplitl [Hs9]; · iexact Hs9
    isplitl [Hs12]; · iexact Hs12
    iexists f11
    isplitr; · ipureintro; intro x hx; exact absurd hx (Nat.not_lt_zero _)
    iexact Hs11
  iintro %acc HI
  unfold RowInv1
  icases HI with ⟨%hacc, Hs5, Hs7, Hs9, Hs12, ⟨%fo, %hfo, Hs11⟩⟩
  -- the chunk's rows of the first result, carved out of the rows not yet written
  have hrw : rA L k.val + 32 = wL L * 1408 + 32 * (2 * k.val + 1) := by unfold rA; rw [base_eq]; omega
  have h49 : k1_off49 L k = ![rA L k.val + 32, 0] := by rw [k1_off49_eq, hrA]
  have hset : ((m_e1t).slice (Rect.unit (s := S4096x128) (k1_off49 L k) S32x128.size (k1_off49_inb L k h12)) (fun _ => rfl)).view.set = cT (rA L k.val + 32) := by
    have h0 : (k1_off49 L k) 0 = rA L k.val + 32 := by rw [h49]; rfl
    rw [set_e1t_slice (k1_off49 L k) (k1_off49_inb L k h12) (by rw [h49]; rfl), h0]
  have hsub : cT (rA L k.val + 32) ⊆ tRem (wL L) (rA L k.val + 32) := by
    rw [hrw]; exact cT_subset_tRem (wL L) (2 * k.val + 1) (by omega) (by omega)
  ihave Hcut := (pointsTo_split_subset hsub).1 $$ Hte
  icases Hcut with ⟨Hdst, Hte⟩
  ihave Hdst := (Entails.of_eq (show ((m_e1t).view.loc (thr d L) ↦[cT (rA L k.val + 32)]{fullShare} ft : sProp 𝕄)
      = (((m_e1t).slice (Rect.unit (s := S4096x128) (k1_off49 L k) S32x128.size (k1_off49_inb L k h12)) (fun _ => rfl)).view.loc (thr d L)
          ↦[((m_e1t).slice (Rect.unit (s := S4096x128) (k1_off49 L k) S32x128.size (k1_off49_inb L k h12)) (fun _ => rfl)).view.set]{fullShare} ft) from by
    rw [hset])) $$ Hdst
  sl_exec
  -- THE END OF THE RUN: the invariant before the next pair
  sl_step
  have htr32 : Scf.trips k1_t3_loop.lb k1_t3_loop.ub k1_t3_loop.st = 32 := by decide
  rw [htr32] at hacc hfo
  have h32 : 32 ∣ rA L k.val + 32 := by rw [hrA]; omega
  have hro : ∀ i col, i < 32 → col < 128 → rowOut fal fs7 fs9 fb i col = E1 I d (rA L k.val + 32 + i) col :=
    fun i col hi hcl => rowOut_eq_E1 I d (rA L k.val + 32) h32 fal fs7 fs9 fb hfal hS1.2 hN1.2 hfb i col hi hcl
  have haccE : ∀ l : S16.Idx, acc l = chunkSq I d (wL L * 1408 + 32 * (2 * k.val + 1)) (l 0).val := fun l => by
    rw [hacc, ← hrw]; exact sqAcc_eq_chunkSq I d (rA L k.val + 32) _ hro l
  have erA1 : rA L (k.val + 1) = rA L k.val + 64 := by unfold rA; omega
  -- the second chunk's copy-out under way
  ihave HflW1 : FlW1 I d L (rA L k.val + 32) $$ [Hm19]
  · iapply (FlW1_of I d L (rA L k.val + 32) (by omega) (k1_off49 L k) (k1_off49_inb L k h12) (by rw [h49]; rfl) (by rw [h49]; rfl) ft fo (tripB_T_C1.sl.dma3 d L fo) (fun y => by
      unfold tripB_T_C1.sl.dma3
      show fo y = _
      rw [hfo y (y 0).isLt]; exact hro _ _ (y 0).isLt (y 1).isLt))
    iexact Hm19
  -- buffer set 0 loaded with the next pair's first chunk
  ihave HflS0 : FlS0 I d L (rA L k.val + 64) $$ [Hm14]
  · iapply (FlS0_of I d L (rA L k.val + 64) f6 g0 (tripB_T_C1.sl.gather0 I d L g0 hin0) hg0 (fun x => by unfold tripB_T_C1.sl.gather0; exact gather_sp0 d L (I.sp d) g0 _ hin0 x))
    iexact Hm14
  ihave HflN0 : FlN0 I d L (rA L k.val + 64) $$ [Hm15]
  · iapply (FlN0_of I d L (rA L k.val + 64) f8 g2 (tripB_T_C1.sl.gather1 I d L g2 hin2) hg2 (fun x => by unfold tripB_T_C1.sl.gather1; exact gather_ap2 d L (I.ap d) g2 _ hin2 x))
    iexact Hm15
  iclear Hsp12 Hap13
  ihave Hset0 : Set0 I d L (k.val + 1) $$ [Hs4 HflS0 HflN0]
  · rw [Set0_lt I d L hk1, erA1]
    unfold Loaded0
    isplitl [Hs4]
    · iexists fal0
      isplitr; · ipureintro; exact hfal0
      iexact Hs4
    isplitl [HflS0]; · iexact HflS0
    iexact HflN0
  -- the previous pair's second chunk's rows join the written rows
  have hrm : rA L k.val - 32 = wL L * 1408 + 32 * (2 * k.val - 1) := by unfold rA; rw [base_eq]; omega
  have e3 : wL L * 1408 + 32 * (2 * k.val - 1) + 32 = rA L k.val := by unfold rA; rw [base_eq]; omega
  have hjoin : tDone (wL L) (rA L k.val - 32) ∪ cT (rA L k.val - 32) = tDone (wL L) (rA L k.val) := by
    rw [hrm, tDone_union_cT (wL L) (2 * k.val - 1) (by omega) (by omega), e3]
  unfold outDone
  ihave Hod := (Entails.of_eq (if_pos (show rA L k.val - 32 < 4096 by omega))) $$ Hod
  ihave Htd := (pointsTo_union (ℓ := (m_e1t).view.loc (thr d L)) (q := fullShare) (f := E1t I d) (tDone_disjoint_cT (wL L) (rA L k.val - 32))).2 $$ [Htd Hod]
  · isplitl [Htd]; · iexact Htd
    iexact Hod
  ihave Htd := (Entails.of_eq (congrArg (fun S => ((m_e1t).view.loc (thr d L) ↦[S]{fullShare} E1t I d : sProp 𝕄)) hjoin)) $$ Htd
  -- the rows of the two results
  ihave Hpieces : Pieces I d L (k.val + 1) $$ [Hte Hne Htd Hnd]
  · unfold Pieces
    rw [erA1]
    have et : tRem (wL L) (rA L k.val + 32) \ cT (rA L k.val + 32) = tRem (wL L) (rA L k.val + 64) := by
      have e4 : wL L * 1408 + 32 * (2 * k.val + 1) + 32 = rA L k.val + 64 := by omega
      rw [hrw, tRem_sdiff_cT (wL L) (2 * k.val + 1) (by omega) (by omega), e4]
    have en : nRem (wL L) (rA L k.val + 32) = nRem (wL L) (rA L k.val + 64) := nRem_of_lt (wL L) _ _ (by omega) (by omega)
    have ed : nDone (wL L) (rA L k.val - 32) = nDone (wL L) (rA L k.val + 64 - 64) := nDone_of_lt (wL L) _ _ (by omega) (by omega)
    isplitl [Hte]
    · iexists ft
      iapply (Entails.of_eq (congrArg (fun S => ((m_e1t).view.loc (thr d L) ↦[S]{fullShare} ft : sProp 𝕄)) et))
      iexact Hte
    isplitl [Hne]
    · iexists fn
      iapply (Entails.of_eq (congrArg (fun S => ((m_e1n).view.loc (thr d L) ↦[S]{fullShare} fn : sProp 𝕄)) en))
      iexact Hne
    isplitl [Htd]
    · iapply (Entails.of_eq (congrArg (fun S => ((m_e1t).view.loc (thr d L) ↦[S]{fullShare} E1t I d : sProp 𝕄)) (show tDone (wL L) (rA L k.val) = tDone (wL L) (rA L k.val + 64 - 64) by rw [Nat.add_sub_cancel])))
      iexact Htd
    iapply (Entails.of_eq (congrArg (fun S => ((m_e1n).view.loc (thr d L) ↦[S]{fullShare} E1n I d : sProp 𝕄)) ed))
    iexact Hnd
  -- the two output buffers: both copy-outs under way
  ihave Houts : Outs I d L (k.val + 1) $$ [Hfw0 HflW1]
  · rw [Outs_pos I d L (Nat.succ_ne_zero k.val), erA1, show rA L k.val + 64 - 64 = rA L k.val by omega, show rA L k.val + 64 - 32 = rA L k.val + 32 by omega]
    isplitl [Hfw0]; · iexact Hfw0
    iexact HflW1
  -- buffer set 1 at rest
  ihave Hidle1 : Idle1 I d L $$ [Hs1 Hs3 Hs5 Hs7 Hs9 Hm16 Hm17 Hsp14 Hap15]
  · unfold Idle1
    isplitl [Hs1]; · iexists g1; iexact Hs1
    isplitl [Hs3]; · iexists g3; iexact Hs3
    isplitl [Hs5]; · iexists fal; iexact Hs5
    isplitl [Hs7]; · iexists fs7; iexact Hs7
    isplitl [Hs9]; · iexists fs9; iexact Hs9
    isplitl [Hm16]; · iexact Hm16
    isplitl [Hm17]; · iexact Hm17
    isplitl [Hsp14]
    · iapply (Entails.of_eq (congrArg (fun S => ((m_sp).view.loc (thr d L) ↦[S]{Transfers.shareTokN (rsh (wL L)) 14} I.sp d : sProp 𝕄)) (spSl_set)))
      iexact Hsp14
    iapply (Entails.of_eq (congrArg (fun S => ((m_ap).view.loc (thr d L) ↦[S]{Transfers.shareTokN (rsh (wL L)) 15} I.ap d : sProp 𝕄)) (apSl_set)))
    iexact Hap15
  iclear Hs11
  unfold Inv
  isplitr; · iexact Hmw
  isplitl [HO]
  · iexists _; isplitr
    swap; · iexact HO
    ipureintro; intro p hp
    repeat (rcases Finset.mem_insert.mp hp with hp | hp; · exact .inr (hp ▸ rfl))
    exact hW' p hp
  isplitl [Hnid Hn1 Hn2 Ha1 Ha2 Hr7 Hr8 Hr9 Hr10 Hr11 Hr12 Hr13 Hr14 Hr15 Hr16 Hr17 Hr18]
  · unfold LoopRO
    isplitl [Hnid]; · iexact Hnid
    isplitl [Hn1]; · iexact Hn1
    isplitl [Hn2]; · iexact Hn2
    isplitl [Ha1]; · iexact Ha1
    isplitl [Ha2]; · iexact Ha2
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    iexact Hr18
  isplitl [Hs12]
  · iexists fb
    isplitr; · ipureintro; exact hfb
    iexact Hs12
  isplitl [Hs13]
  · iexists _
    isplitr
    swap; · iexact Hs13
    ipureintro
    intro x
    rw [show 2 * (k.val + 1) = 2 * k.val + 1 + 1 by omega]
    exact sq13_target I d L fsq acc (wL L) (2 * k.val + 1) hfsq (by omega) haccE x
  isplitl [Hset0]; · iexact Hset0
  isplitl [Hidle1]; · iexact Hidle1
  isplitl [Houts]; · iexact Houts
  iexact Hpieces

set_option maxHeartbeats 4000000 in
/-- THE SECOND HALF OF A PAIR OF TARGET CHUNKS, in every case: the pair is the worker's last (nothing is fetched), or the next
    pair's first chunk is a target chunk or a chunk of one-hop neighbours; the pair is the worker's first (no copy-out to
    await) or not. -/
theorem tripB_T (hpre : PreOK I) (O : CellTallies nD τ sig (HIx 1)) (W : Waits sig (HIx 1)) (k : Fin k1_t1_loop.trips) (arg34 : BitVec 32) (hT : rA L k.val < 4096) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  by_cases hk1 : k.val + 1 < 22
  · by_cases hc : rA L k.val + 64 < 4096
    · by_cases hk0 : k.val = 0
      · exact tripB_T_B0 I d L hpre O W k arg34 hT hk1 hc hk0
      · exact tripB_T_B1 I d L hpre O W k arg34 hT hk1 hc hk0
    · have hcN : 4096 ≤ rA L k.val + 64 := Nat.le_of_not_lt hc
      have hk0 : k.val ≠ 0 := by
        intro h0
        have h1 := (L 0).isLt
        have h2 := (L 1).isLt
        unfold rA base at hT hcN
        rw [h0] at hT hcN
        omega
      exact tripB_T_C1 I d L hpre O W k arg34 hT hk1 hcN hk0
  · exact tripB_T_last I d L hpre O W k arg34 hT hk1

end Tile
end Cert.Kernel.Tile
end
-- ==== Proof.Twin.TileFlight.lean ====
/-
  A gather of a chunk's rows, once issued, is one of the flights the pair loop's invariants name: its landing hands back
  the buffer holding, row by row, the rows of the table the chunk's list names, the list itself, and the table's share.
-/
import proofs.«213116_g69346541961480_cont_9to1_m_612_34_alg».proof.Proof.Twin.TileInv

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F)

section Tile
variable (d : Dev nD) (L : grid1.Coords)

local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem fl_rowMajor_symm_val1 {n : ℕ} (j : Fin (⟨1, ![n]⟩ : Shape).numel) : (((⟨1, ![n]⟩ : Shape).rowMajor.symm j) 0).val = j.val := by
  have h := Shape.rowMajor_val_one (d := ![n]) ((⟨1, ![n]⟩ : Shape).rowMajor.symm j)
  rw [Equiv.apply_symm_apply] at h
  exact h.symm

/-- Every self index names a row of the tables. -/
theorem fl_selfIdx_lt (hpre : PreOK I) (r0 i : ℕ) : (selfIdx I d r0 i).toNat < 100000 := by
  unfold selfIdx; split
  · exact (hpre d).1 _
  · exact (hpre d).2.1 _
/-- Every neighbour index names a row of the tables. -/
theorem fl_nbrIdx_lt (hpre : PreOK I) (r0 j : ℕ) : (nbrIdx I d r0 j).toNat < 100000 := by
  unfold nbrIdx; split
  · exact (hpre d).2.1 _
  · exact (hpre d).2.2 _

/-- One write through the whole rectangle leaves its payload. -/
theorem fl_writes_whole_apply (b : Ref sig .scVector) (f : b.ty.Contents (Elt F)) (p : b.ty.shape.Idx → Elt F b.ty.elt) (x : b.ty.shape.Idx) :
    (Memref.whole b).view.writes (Elt F) f [⟨Rect.whole b.ty.shape, p⟩] x = p x := by
  have h := View.read_writes_cons_emb (v := (Memref.whole b).view) (f := f) (Rect.whole b.ty.shape) p [] x
  rw [Rect.emb_whole_apply] at h
  exact h

variable [FloatOps F]

omit [FloatOps F] in
theorem fl_gatherS0_apply (r0 : ℕ) (g : Buf (Elt F) ((s_0).view.loc (thr d L))) (hpre : PreOK I)
    (hg : ∀ x : S32.Idx, g x = selfIdx I d r0 (x 0).val)
    (hin : ∀ x, ((s_0).view.read (Elt F) g x).toNat < S100000x128.size (gathers_S100000x128_S32x128).axis) (x : S32x128.Idx) :
    SparseCore.gatherPayload gathers_S100000x128_S32x128 ((spSl).view.read (Elt F) (I.sp d))
        (SparseCore.rows ((s_0).view.read (Elt F) g) rfl hin) x
      = I.sp d (ixTab (selfIdx I d r0 (x 0).val).toNat (x 1).val) := by
  unfold SparseCore.gatherPayload
  show I.sp d _ = I.sp d _
  congr 1
  have hx1 : (x 1).val < 128 := (x 1).isLt
  have hs := fl_selfIdx_lt I d hpre r0 (x 0).val
  funext a; apply Fin.ext
  match a with
  | ⟨0, _⟩ =>
    show 0 + 1 * ((gathers_S100000x128_S32x128).idx (SparseCore.rows ((s_0).view.read (Elt F) g) rfl hin) x (0 : Fin 2)).val = (selfIdx I d r0 (x 0).val).toNat % 100000
    rw [Nat.mod_eq_of_lt hs]
    have h0 : ((gathers_S100000x128_S32x128).idx (SparseCore.rows ((s_0).view.read (Elt F) g) rfl hin) x (0 : Fin 2)).val
        = (g (S32.rowMajor.symm ((x 0).cast rfl))).toNat := rfl
    rw [h0, hg, fl_rowMajor_symm_val1]
    show 0 + 1 * (selfIdx I d r0 (x 0).val).toNat = _
    omega
  | ⟨1, _⟩ =>
    show 0 + 1 * ((gathers_S100000x128_S32x128).idx (SparseCore.rows ((s_0).view.read (Elt F) g) rfl hin) x (1 : Fin 2)).val = (x 1).val % 128
    rw [Nat.mod_eq_of_lt hx1]
    have h1 : ((gathers_S100000x128_S32x128).idx (SparseCore.rows ((s_0).view.read (Elt F) g) rfl hin) x (1 : Fin 2)).val = (x 1).val := rfl
    rw [h1]; omega

/-- The gather into this buffer as issued over the list contents `g` and the buffer's prior contents `f`. -/
def issS0 (f : Buf (Elt F) ((s_6).view.loc (thr d L))) (g : Buf (Elt F) ((s_0).view.loc (thr d L)))
    (hin : ∀ x, ((s_0).view.read (Elt F) g x).toNat < S100000x128.size (gathers_S100000x128_S32x128).axis) : sProp 𝕄 :=
  Transfers.Flight countersEmb (thr d L) (SemLoc.dma cc1_scratch14.sem) default 131072
      iprop((((s_6).view.loc (thr d L) ↦{fullShare} (s_6).view.writes (Elt F) f
          [⟨Rect.whole cc1_scratch6.ty.shape, SparseCore.gatherPayload gathers_S100000x128_S32x128 ((spSl).view.read (Elt F) (I.sp d))
            (SparseCore.rows ((s_0).view.read (Elt F) g) rfl hin)⟩])
        ∗ ((s_0).view.loc (thr d L) ↦{fullShare} g))
        ∗ ((m_sp).view.loc (thr d L) ↦[(spSl).view.set]{Transfers.shareTokN (rsh (wL L)) 12} I.sp d))

/-- Issued over a list that holds the chunk's indices, it is the invariant's flight for the chunk starting at row `r0`. -/
theorem FlS0_of_iss (hpre : PreOK I) (r0 : ℕ) (f : Buf (Elt F) ((s_6).view.loc (thr d L))) (g : Buf (Elt F) ((s_0).view.loc (thr d L)))
    (hg : ∀ x : S32.Idx, g x = selfIdx I d r0 (x 0).val)
    (hin : ∀ x, ((s_0).view.read (Elt F) g x).toNat < S100000x128.size (gathers_S100000x128_S32x128).axis) :
    issS0 I d L f g hin ⊢ FlS0 I d L r0 := by
  unfold issS0 FlS0
  refine Transfers.Flight_mono countersEmb (thr d L) ?_
  iintro ⟨⟨Hd, Hl⟩, Ht⟩
  iexists _, g
  isplitr
  · ipureintro
    exact ⟨hg, fun x => (fl_writes_whole_apply cc1_scratch6 f _ x).trans (fl_gatherS0_apply I d L r0 g hpre hg hin x)⟩
  isplitl [Hd]; · iexact Hd
  isplitl [Hl]; · iexact Hl
  iexact Ht

omit [FloatOps F] in
theorem fl_gatherN0_apply (r0 : ℕ) (g : Buf (Elt F) ((s_2).view.loc (thr d L))) (hpre : PreOK I)
    (hg : ∀ x : S320.Idx, g x = nbrIdx I d r0 (x 0).val)
    (hin : ∀ x, ((s_2).view.read (Elt F) g x).toNat < S100000x128.size (gathers_S100000x128_S320x128).axis) (x : S320x128.Idx) :
    SparseCore.gatherPayload gathers_S100000x128_S320x128 ((apSl).view.read (Elt F) (I.ap d))
        (SparseCore.rows ((s_2).view.read (Elt F) g) rfl hin) x
      = I.ap d (ixTab (nbrIdx I d r0 (x 0).val).toNat (x 1).val) := by
  unfold SparseCore.gatherPayload
  show I.ap d _ = I.ap d _
  congr 1
  have hx1 : (x 1).val < 128 := (x 1).isLt
  have hs := fl_nbrIdx_lt I d hpre r0 (x 0).val
  funext a; apply Fin.ext
  match a with
  | ⟨0, _⟩ =>
    show 0 + 1 * ((gathers_S100000x128_S320x128).idx (SparseCore.rows ((s_2).view.read (Elt F) g) rfl hin) x (0 : Fin 2)).val = (nbrIdx I d r0 (x 0).val).toNat % 100000
    rw [Nat.mod_eq_of_lt hs]
    have h0 : ((gathers_S100000x128_S320x128).idx (SparseCore.rows ((s_2).view.read (Elt F) g) rfl hin) x (0 : Fin 2)).val
        = (g (S320.rowMajor.symm ((x 0).cast rfl))).toNat := rfl
    rw [h0, hg, fl_rowMajor_symm_val1]
    show 0 + 1 * (nbrIdx I d r0 (x 0).val).toNat = _
    omega
  | ⟨1, _⟩ =>
    show 0 + 1 * ((gathers_S100000x128_S320x128).idx (SparseCore.rows ((s_2).view.read (Elt F) g) rfl hin) x (1 : Fin 2)).val = (x 1).val % 128
    rw [Nat.mod_eq_of_lt hx1]
    have h1 : ((gathers_S100000x128_S320x128).idx (SparseCore.rows ((s_2).view.read (Elt F) g) rfl hin) x (1 : Fin 2)).val = (x 1).val := rfl
    rw [h1]; omega

/-- The gather into this buffer as issued over the list contents `g` and the buffer's prior contents `f`. -/
def issN0 (f : Buf (Elt F) ((s_8).view.loc (thr d L))) (g : Buf (Elt F) ((s_2).view.loc (thr d L)))
    (hin : ∀ x, ((s_2).view.read (Elt F) g x).toNat < S100000x128.size (gathers_S100000x128_S320x128).axis) : sProp 𝕄 :=
  Transfers.Flight countersEmb (thr d L) (SemLoc.dma cc1_scratch15.sem) default 1310720
      iprop((((s_8).view.loc (thr d L) ↦{fullShare} (s_8).view.writes (Elt F) f
          [⟨Rect.whole cc1_scratch8.ty.shape, SparseCore.gatherPayload gathers_S100000x128_S320x128 ((apSl).view.read (Elt F) (I.ap d))
            (SparseCore.rows ((s_2).view.read (Elt F) g) rfl hin)⟩])
        ∗ ((s_2).view.loc (thr d L) ↦{fullShare} g))
        ∗ ((m_ap).view.loc (thr d L) ↦[(apSl).view.set]{Transfers.shareTokN (rsh (wL L)) 13} I.ap d))

/-- Issued over a list that holds the chunk's indices, it is the invariant's flight for the chunk starting at row `r0`. -/
theorem FlN0_of_iss (hpre : PreOK I) (r0 : ℕ) (f : Buf (Elt F) ((s_8).view.loc (thr d L))) (g : Buf (Elt F) ((s_2).view.loc (thr d L)))
    (hg : ∀ x : S320.Idx, g x = nbrIdx I d r0 (x 0).val)
    (hin : ∀ x, ((s_2).view.read (Elt F) g x).toNat < S100000x128.size (gathers_S100000x128_S320x128).axis) :
    issN0 I d L f g hin ⊢ FlN0 I d L r0 := by
  unfold issN0 FlN0
  refine Transfers.Flight_mono countersEmb (thr d L) ?_
  iintro ⟨⟨Hd, Hl⟩, Ht⟩
  iexists _, g
  isplitr
  · ipureintro
    exact ⟨hg, fun x => (fl_writes_whole_apply cc1_scratch8 f _ x).trans (fl_gatherN0_apply I d L r0 g hpre hg hin x)⟩
  isplitl [Hd]; · iexact Hd
  isplitl [Hl]; · iexact Hl
  iexact Ht

omit [FloatOps F] in
theorem fl_gatherS1_apply (r0 : ℕ) (g : Buf (Elt F) ((s_1).view.loc (thr d L))) (hpre : PreOK I)
    (hg : ∀ x : S32.Idx, g x = selfIdx I d r0 (x 0).val)
    (hin : ∀ x, ((s_1).view.read (Elt F) g x).toNat < S100000x128.size (gathers_S100000x128_S32x128).axis) (x : S32x128.Idx) :
    SparseCore.gatherPayload gathers_S100000x128_S32x128 ((spSl).view.read (Elt F) (I.sp d))
        (SparseCore.rows ((s_1).view.read (Elt F) g) rfl hin) x
      = I.sp d (ixTab (selfIdx I d r0 (x 0).val).toNat (x 1).val) := by
  unfold SparseCore.gatherPayload
  show I.sp d _ = I.sp d _
  congr 1
  have hx1 : (x 1).val < 128 := (x 1).isLt
  have hs := fl_selfIdx_lt I d hpre r0 (x 0).val
  funext a; apply Fin.ext
  match a with
  | ⟨0, _⟩ =>
    show 0 + 1 * ((gathers_S100000x128_S32x128).idx (SparseCore.rows ((s_1).view.read (Elt F) g) rfl hin) x (0 : Fin 2)).val = (selfIdx I d r0 (x 0).val).toNat % 100000
    rw [Nat.mod_eq_of_lt hs]
    have h0 : ((gathers_S100000x128_S32x128).idx (SparseCore.rows ((s_1).view.read (Elt F) g) rfl hin) x (0 : Fin 2)).val
        = (g (S32.rowMajor.symm ((x 0).cast rfl))).toNat := rfl
    rw [h0, hg, fl_rowMajor_symm_val1]
    show 0 + 1 * (selfIdx I d r0 (x 0).val).toNat = _
    omega
  | ⟨1, _⟩ =>
    show 0 + 1 * ((gathers_S100000x128_S32x128).idx (SparseCore.rows ((s_1).view.read (Elt F) g) rfl hin) x (1 : Fin 2)).val = (x 1).val % 128
    rw [Nat.mod_eq_of_lt hx1]
    have h1 : ((gathers_S100000x128_S32x128).idx (SparseCore.rows ((s_1).view.read (Elt F) g) rfl hin) x (1 : Fin 2)).val = (x 1).val := rfl
    rw [h1]; omega

/-- The gather into this buffer as issued over the list contents `g` and the buffer's prior contents `f`. -/
def issS1 (f : Buf (Elt F) ((s_7).view.loc (thr d L))) (g : Buf (Elt F) ((s_1).view.loc (thr d L)))
    (hin : ∀ x, ((s_1).view.read (Elt F) g x).toNat < S100000x128.size (gathers_S100000x128_S32x128).axis) : sProp 𝕄 :=
  Transfers.Flight countersEmb (thr d L) (SemLoc.dma cc1_scratch16.sem) default 131072
      iprop((((s_7).view.loc (thr d L) ↦{fullShare} (s_7).view.writes (Elt F) f
          [⟨Rect.whole cc1_scratch7.ty.shape, SparseCore.gatherPayload gathers_S100000x128_S32x128 ((spSl).view.read (Elt F) (I.sp d))
            (SparseCore.rows ((s_1).view.read (Elt F) g) rfl hin)⟩])
        ∗ ((s_1).view.loc (thr d L) ↦{fullShare} g))
        ∗ ((m_sp).view.loc (thr d L) ↦[(spSl).view.set]{Transfers.shareTokN (rsh (wL L)) 14} I.sp d))

/-- Issued over a list that holds the chunk's indices, it is the invariant's flight for the chunk starting at row `r0`. -/
theorem FlS1_of_iss (hpre : PreOK I) (r0 : ℕ) (f : Buf (Elt F) ((s_7).view.loc (thr d L))) (g : Buf (Elt F) ((s_1).view.loc (thr d L)))
    (hg : ∀ x : S32.Idx, g x = selfIdx I d r0 (x 0).val)
    (hin : ∀ x, ((s_1).view.read (Elt F) g x).toNat < S100000x128.size (gathers_S100000x128_S32x128).axis) :
    issS1 I d L f g hin ⊢ FlS1 I d L r0 := by
  unfold issS1 FlS1
  refine Transfers.Flight_mono countersEmb (thr d L) ?_
  iintro ⟨⟨Hd, Hl⟩, Ht⟩
  iexists _, g
  isplitr
  · ipureintro
    exact ⟨hg, fun x => (fl_writes_whole_apply cc1_scratch7 f _ x).trans (fl_gatherS1_apply I d L r0 g hpre hg hin x)⟩
  isplitl [Hd]; · iexact Hd
  isplitl [Hl]; · iexact Hl
  iexact Ht

omit [FloatOps F] in
theorem fl_gatherN1_apply (r0 : ℕ) (g : Buf (Elt F) ((s_3).view.loc (thr d L))) (hpre : PreOK I)
    (hg : ∀ x : S320.Idx, g x = nbrIdx I d r0 (x 0).val)
    (hin : ∀ x, ((s_3).view.read (Elt F) g x).toNat < S100000x128.size (gathers_S100000x128_S320x128).axis) (x : S320x128.Idx) :
    SparseCore.gatherPayload gathers_S100000x128_S320x128 ((apSl).view.read (Elt F) (I.ap d))
        (SparseCore.rows ((s_3).view.read (Elt F) g) rfl hin) x
      = I.ap d (ixTab (nbrIdx I d r0 (x 0).val).toNat (x 1).val) := by
  unfold SparseCore.gatherPayload
  show I.ap d _ = I.ap d _
  congr 1
  have hx1 : (x 1).val < 128 := (x 1).isLt
  have hs := fl_nbrIdx_lt I d hpre r0 (x 0).val
  funext a; apply Fin.ext
  match a with
  | ⟨0, _⟩ =>
    show 0 + 1 * ((gathers_S100000x128_S320x128).idx (SparseCore.rows ((s_3).view.read (Elt F) g) rfl hin) x (0 : Fin 2)).val = (nbrIdx I d r0 (x 0).val).toNat % 100000
    rw [Nat.mod_eq_of_lt hs]
    have h0 : ((gathers_S100000x128_S320x128).idx (SparseCore.rows ((s_3).view.read (Elt F) g) rfl hin) x (0 : Fin 2)).val
        = (g (S320.rowMajor.symm ((x 0).cast rfl))).toNat := rfl
    rw [h0, hg, fl_rowMajor_symm_val1]
    show 0 + 1 * (nbrIdx I d r0 (x 0).val).toNat = _
    omega
  | ⟨1, _⟩ =>
    show 0 + 1 * ((gathers_S100000x128_S320x128).idx (SparseCore.rows ((s_3).view.read (Elt F) g) rfl hin) x (1 : Fin 2)).val = (x 1).val % 128
    rw [Nat.mod_eq_of_lt hx1]
    have h1 : ((gathers_S100000x128_S320x128).idx (SparseCore.rows ((s_3).view.read (Elt F) g) rfl hin) x (1 : Fin 2)).val = (x 1).val := rfl
    rw [h1]; omega

/-- The gather into this buffer as issued over the list contents `g` and the buffer's prior contents `f`. -/
def issN1 (f : Buf (Elt F) ((s_9).view.loc (thr d L))) (g : Buf (Elt F) ((s_3).view.loc (thr d L)))
    (hin : ∀ x, ((s_3).view.read (Elt F) g x).toNat < S100000x128.size (gathers_S100000x128_S320x128).axis) : sProp 𝕄 :=
  Transfers.Flight countersEmb (thr d L) (SemLoc.dma cc1_scratch17.sem) default 1310720
      iprop((((s_9).view.loc (thr d L) ↦{fullShare} (s_9).view.writes (Elt F) f
          [⟨Rect.whole cc1_scratch9.ty.shape, SparseCore.gatherPayload gathers_S100000x128_S320x128 ((apSl).view.read (Elt F) (I.ap d))
            (SparseCore.rows ((s_3).view.read (Elt F) g) rfl hin)⟩])
        ∗ ((s_3).view.loc (thr d L) ↦{fullShare} g))
        ∗ ((m_ap).view.loc (thr d L) ↦[(apSl).view.set]{Transfers.shareTokN (rsh (wL L)) 15} I.ap d))

/-- Issued over a list that holds the chunk's indices, it is the invariant's flight for the chunk starting at row `r0`. -/
theorem FlN1_of_iss (hpre : PreOK I) (r0 : ℕ) (f : Buf (Elt F) ((s_9).view.loc (thr d L))) (g : Buf (Elt F) ((s_3).view.loc (thr d L)))
    (hg : ∀ x : S320.Idx, g x = nbrIdx I d r0 (x 0).val)
    (hin : ∀ x, ((s_3).view.read (Elt F) g x).toNat < S100000x128.size (gathers_S100000x128_S320x128).axis) :
    issN1 I d L f g hin ⊢ FlN1 I d L r0 := by
  unfold issN1 FlN1
  refine Transfers.Flight_mono countersEmb (thr d L) ?_
  iintro ⟨⟨Hd, Hl⟩, Ht⟩
  iexists _, g
  isplitr
  · ipureintro
    exact ⟨hg, fun x => (fl_writes_whole_apply cc1_scratch9 f _ x).trans (fl_gatherN1_apply I d L r0 g hpre hg hin x)⟩
  isplitl [Hd]; · iexact Hd
  isplitl [Hl]; · iexact Hl
  iexact Ht

end Tile
end Cert.Kernel.Tile
end
-- ==== Proof.Twin.TileTripBNLem.lean ====
/-
  Pure facts for the second half of a pair of neighbour chunks on a vector subcore: what the next chunk's lists and weights
  are, the sums' buffer after the chunk, the chunk's rows copied out, and the pair loop's dynamic test on its trip number.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import proofs.«213116_g69346541961480_cont_9to1_m_612_34_alg».proof.Proof.Twin.TileFlight
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## What the next chunk's lists and weights are, read off the index and weight arrays -/

omit [FloatOps F] in
/-- 32 consecutive entries of the one-hop index array; -/
theorem read_n1_slice (off : Fin 1 → ℕ) (inb : ∀ a, off a + S32.size a ≤ S40960.size a) (x : S32.Idx) :
    ReadAs.same.apply (View.read (Elt F) ((Memref.whole main_v5_scv : Memref sig Kind.scVector Space.hbm S40960 EltTy.i32).slice (Rect.unit (s := S40960) off S32.size inb) (fun _ => rfl)).view (I.n1 d)) x
      = I.n1 d (ix40960 (off 0 + (x 0).val)) := by
  have hx : (x 0).val < 32 := (x 0).isLt
  have hb : off 0 + 32 ≤ 40960 := inb 0
  show I.n1 d _ = I.n1 d _
  congr 1
  funext a
  apply Fin.ext
  rcases a with ⟨_ | n, hn⟩
  swap
  · exact absurd hn (by change ¬ n + 1 < 1; omega)
  show off 0 + 1 * (x 0).val = (off 0 + (x 0).val) % 40960
  omega

omit [FloatOps F] in
/-- 320 consecutive entries of the two-hop index array; -/
theorem read_n2_slice (off : Fin 1 → ℕ) (inb : ∀ a, off a + S320.size a ≤ S409600.size a) (x : S320.Idx) :
    ReadAs.same.apply (View.read (Elt F) ((Memref.whole main_v6_scv : Memref sig Kind.scVector Space.hbm S409600 EltTy.i32).slice (Rect.unit (s := S409600) off S320.size inb) (fun _ => rfl)).view (I.n2 d)) x
      = I.n2 d (ix409600 (off 0 + (x 0).val)) := by
  have hx : (x 0).val < 320 := (x 0).isLt
  have hb : off 0 + 320 ≤ 409600 := inb 0
  show I.n2 d _ = I.n2 d _
  congr 1
  funext a
  apply Fin.ext
  rcases a with ⟨_ | n, hn⟩
  swap
  · exact absurd hn (by change ¬ n + 1 < 1; omega)
  show off 0 + 1 * (x 0).val = (off 0 + (x 0).val) % 409600
  omega

omit [FloatOps F] in
/-- 320 consecutive entries of the two-hop weight array. -/
theorem read_a2_slice (off : Fin 1 → ℕ) (inb : ∀ a, off a + S320.size a ≤ S409600.size a) (x : S320.Idx) :
    ReadAs.same.apply (View.read (Elt F) ((Memref.whole main_v8_scv : Memref sig Kind.scVector Space.hbm S409600 EltTy.f32).slice (Rect.unit (s := S409600) off S320.size inb) (fun _ => rfl)).view (I.a2 d)) x
      = I.a2 d (ix409600 (off 0 + (x 0).val)) := by
  have hx : (x 0).val < 320 := (x 0).isLt
  have hb : off 0 + 320 ≤ 409600 := inb 0
  show I.a2 d _ = I.a2 d _
  congr 1
  funext a
  apply Fin.ext
  rcases a with ⟨_ | n, hn⟩
  swap
  · exact absurd hn (by change ¬ n + 1 < 1; omega)
  show off 0 + 1 * (x 0).val = (off 0 + (x 0).val) % 409600
  omega

omit [FloatOps F] in
/-- Past row 4096 a chunk's lists are entries of the one-hop and two-hop arrays. -/
theorem selfIdx_of_ge (r0 i : ℕ) (h : 4096 ≤ r0) : selfIdx I d r0 i = I.n1 d (ix40960 (r0 - 4096 + i)) := by
  unfold selfIdx; rw [if_neg (by omega)]
omit [FloatOps F] in
theorem nbrIdx_of_ge (r0 j : ℕ) (h : 4096 ≤ r0) : nbrIdx I d r0 j = I.n2 d (ix409600 ((r0 - 4096) * 10 + j)) := by
  unfold nbrIdx; rw [if_neg (by omega)]
omit [FloatOps F] in
theorem alph_of_ge (r0 j : ℕ) (h : 4096 ≤ r0) : alph I d r0 j = I.a2 d (ix409600 ((r0 - 4096) * 10 + j)) := by
  unfold alph; rw [if_neg (by omega)]

/-! ## What the second half leaves, value by value -/

/-- The next chunk's weights, copied into the head of the weights' buffer. -/
theorem s4_alph (f4 : Buf (Elt F) ((s_4).view.loc (thr d L))) (w : S320.Idx → F .f32) (r0 off : ℕ) (hr : 4096 ≤ r0)
    (ho : off = (r0 - 4096) * 10) (hw : ∀ y : S320.Idx, w y = I.a2 d (ix409600 (off + (y 0).val)))
    (x : S336.Idx) (hx : (x 0).val < 320) :
    (s_4).view.writes (Elt F) f4 [⟨Rect.unit (s := S336) ![0] S320.size inb_S336_S320_0, w⟩] x = alph I d r0 (x 0).val := by
  rw [writes_s4 d L f4 w x hx, hw, alph_of_ge I d _ _ hr, ho]
  show I.a2 d (ix409600 ((r0 - 4096) * 10 + (x 0).val % 320)) = _
  rw [Nat.mod_eq_of_lt hx]

/-- The sums' buffer after a neighbour chunk's sum is added to its second row. -/
theorem sq13_after (fsq : Buf (Elt F) ((s_13).view.loc (thr d L))) (acc : FVec F S16 .f32) (x : S2x16.Idx) :
    (s_13).view.writes (Elt F) fsq [⟨(Rect.unit (s := S2x16) ![1, 0] S1x16.size inb_S2x16_S1x16_1_0),
        k1_pay122 acc (View.readAt (Elt F) (s_13).view (Rect.unit (s := S2x16) ![1, 0] S1x16.size inb_S2x16_S1x16_1_0).toLoadRect fsq)⟩] x
      = if (x 0).val = 0 then fsq x else FloatOps.addf (fsq x) (acc (ix16 (x 1).val)) := by
  have hx0 : (x 0).val < 2 := (x 0).isLt
  have hx1 : (x 1).val < 16 := (x 1).isLt
  by_cases h0 : (x 0).val = 0
  · rw [if_pos h0]
    exact View.read_writes_apply_of_forall_not_mem (s_13).view fsq x
      [⟨(Rect.unit (s := S2x16) ![1, 0] S1x16.size inb_S2x16_S1x16_1_0), k1_pay122 acc (View.readAt (Elt F) (s_13).view (Rect.unit (s := S2x16) ![1, 0] S1x16.size inb_S2x16_S1x16_1_0).toLoadRect fsq)⟩] (by
      intro p hp
      rw [List.mem_singleton] at hp
      subst hp
      rw [Rect.mem_set_unit]
      intro hm
      have h1 : 1 ≤ (x 0).val := (hm 0).1
      omega)
  · rw [if_neg h0]
    have hone : (x 0).val = 1 := by omega
    let i : Fin 16 := ⟨(x 1).val, hx1⟩
    have hy : (Rect.unit (s := S2x16) ![1, 0] S1x16.size inb_S2x16_S1x16_1_0).emb (ValueIdx.ix2 (0 : Fin 1) i) = x := by
      funext a
      apply Fin.ext
      match a with
      | ⟨0, _⟩ => show 1 + 1 * 0 = (x 0).val; omega
      | ⟨1, _⟩ => show 0 + 1 * (x 1).val = (x 1).val; omega
    have h := View.read_writes_cons_emb (s_13).view fsq (Rect.unit (s := S2x16) ![1, 0] S1x16.size inb_S2x16_S1x16_1_0)
      (k1_pay122 acc (View.readAt (Elt F) (s_13).view (Rect.unit (s := S2x16) ![1, 0] S1x16.size inb_S2x16_S1x16_1_0).toLoadRect fsq)) [] (ValueIdx.ix2 (0 : Fin 1) i)
    rw [hy] at h
    refine h.trans ?_
    unfold k1_pay122
    rw [ValueIdx.shapeCast_a_1a_apply]
    show FloatOps.addf (shapeCast S16 _ _ (ValueIdx.ix1 i)) (acc (ValueIdx.ix1 i)) = _
    rw [ValueIdx.shapeCast_1a_a_apply]
    have e1 : (ValueIdx.ix1 i : S16.Idx) = ix16 (x 1).val := by
      funext a
      apply Fin.ext
      match a with
      | ⟨0, _⟩ => show (x 1).val = (x 1).val % 16; omega
    rw [e1]
    congr 1
    show fsq ((Rect.unit (s := S2x16) ![1, 0] S1x16.size inb_S2x16_S1x16_1_0).emb (ValueIdx.ix2 (0 : Fin 1) i)) = fsq x
    rw [hy]

/-- 32 divides the first row of every chunk. -/
theorem dvd_rA (L : grid1.Coords) (k : ℕ) : 32 ∣ rA L k + 32 := by
  refine ⟨wL L * 44 + 2 * k + 1, ?_⟩
  unfold rA; rw [base_eq L]; omega

/-- The sums' buffer before the next pair, after a pair whose second chunk is a neighbour chunk. -/
theorem sq_post (k : ℕ) (fsq : Buf (Elt F) ((s_13).view.loc (thr d L))) (acc : FVec F S16 .f32)
    (ro : ℕ → ℕ → F .f32) (hN : 4096 ≤ rA L k)
    (hfsq : ∀ x : S2x16.Idx, fsq x = tileSqUpto I d (wL L) (2 * k + 1) (decide ((x 0).val = 0)) (x 1).val)
    (hacc : acc = sqAcc ro 32)
    (hro : ∀ i col, i < 32 → col < 128 → ro i col = E1 I d (rA L k + 32 + i) col) (x : S2x16.Idx) :
    (s_13).view.writes (Elt F) fsq [⟨(Rect.unit (s := S2x16) ![1, 0] S1x16.size inb_S2x16_S1x16_1_0),
        k1_pay122 acc (View.readAt (Elt F) (s_13).view (Rect.unit (s := S2x16) ![1, 0] S1x16.size inb_S2x16_S1x16_1_0).toLoadRect fsq)⟩] x
      = tileSqUpto I d (wL L) (2 * (k + 1)) (decide ((x 0).val = 0)) (x 1).val := by
  have hx1 : (x 1).val < 16 := (x 1).isLt
  have hb : wL L * 1408 + 32 * (2 * k + 1) = rA L k + 32 := by unfold rA; rw [base_eq L]; omega
  rw [sq13_after d L fsq acc x, show 2 * (k + 1) = (2 * k + 1) + 1 from by omega, tileSqUpto_succ I d, hb]
  by_cases h0 : (x 0).val = 0
  · rw [if_pos h0, if_neg (by simp only [h0, decide_true]; intro h; have := of_decide_eq_true h; omega), hfsq x]
  · rw [if_neg h0, if_pos (by simp only [h0, decide_false]; exact decide_eq_false (by omega)), hfsq x]
    congr 1
    rw [hacc, sqAcc_eq_chunkSq I d (rA L k + 32) ro hro (ix16 (x 1).val)]
    congr 1
    show (x 1).val % 16 = (x 1).val
    omega

set_option maxHeartbeats 1000000 in
/-- The second chunk's copy-out, landed: the output buffer back, and the chunk's rows of the second result at their values. -/
theorem out_payload (k : ℕ) (hN : 4096 ≤ rA L k) (off : Fin 2 → ℕ) (inb : ∀ a, off a + S32x128.size a ≤ S40960x128.size a)
    (hoff0 : off 0 = rA L k + 32 - 4096) (hoff1 : off 1 = 0)
    (fn : Buf (Elt F) ((m_e1n).view.loc (thr d L))) (fo : Buf (Elt F) ((s_11).view.loc (thr d L)))
    (P : (Rect.whole (Rect.unit (s := S40960x128) off S32x128.size inb).shape).shape.Idx → F .f32) (hP : ∀ y, P y = fo y)
    (hfo : ∀ x : S32x128.Idx, (x 0).val < 32 → fo x = E1 I d (rA L k + 32 + (x 0).val) (x 1).val) :
    iprop((((Memref.whole main_v9_1_scv : Memref sig Kind.scVector Space.hbm S40960x128 EltTy.f32).slice (Rect.unit (s := S40960x128) off S32x128.size inb) (fun _ => rfl)).view.loc (thr d L) ↦[((Memref.whole main_v9_1_scv : Memref sig Kind.scVector Space.hbm S40960x128 EltTy.f32).slice (Rect.unit (s := S40960x128) off S32x128.size inb) (fun _ => rfl)).view.set]{fullShare}
              (((Memref.whole main_v9_1_scv : Memref sig Kind.scVector Space.hbm S40960x128 EltTy.f32).slice (Rect.unit (s := S40960x128) off S32x128.size inb) (fun _ => rfl)).view.writes (Elt F) fn [⟨Rect.whole _, P⟩]))
          ∗ ((s_11).view.loc (thr d L) ↦[(s_11).view.set]{fullShare} fo))
      ⊢ (iprop((∃ f, (s_11).view.loc (thr d L) ↦{fullShare} f) ∗ outDone I d L (rA L k + 32)) : sProp 𝕄) := by
  have hset : ((Memref.whole main_v9_1_scv : Memref sig Kind.scVector Space.hbm S40960x128 EltTy.f32).slice (Rect.unit (s := S40960x128) off S32x128.size inb) (fun _ => rfl)).view.set = cN (rA L k + 32 - 4096) := by
    have h := set_e1n_slice off inb hoff1
    rw [hoff0] at h
    exact h
  have hvals : ∀ i ∈ cN (rA L k + 32 - 4096), (((Memref.whole main_v9_1_scv : Memref sig Kind.scVector Space.hbm S40960x128 EltTy.f32).slice (Rect.unit (s := S40960x128) off S32x128.size inb) (fun _ => rfl)).view.writes (Elt F) fn [⟨Rect.whole _, P⟩]) i = E1n I d i := by
    intro i hi
    simp only [cN, Finset.mem_filter, Finset.mem_univ, _root_.true_and] at hi
    have hi1 : (i 1).val < 128 := (i 1).isLt
    let y : S32x128.Idx := mkIdx S32x128 (by decide) ![(i 0).val - (rA L k + 32 - 4096), (i 1).val]
    have he : (((Memref.whole main_v9_1_scv : Memref sig Kind.scVector Space.hbm S40960x128 EltTy.f32).slice (Rect.unit (s := S40960x128) off S32x128.size inb) (fun _ => rfl)).view.slice (Rect.whole _)).emb y = i := by
      funext a
      apply Fin.ext
      match a with
      | ⟨0, _⟩ =>
        show off 0 + 1 * (0 + 1 * (((i 0).val - (rA L k + 32 - 4096)) % 32)) = (i 0).val
        rw [hoff0, Nat.mod_eq_of_lt (by omega)]; omega
      | ⟨1, _⟩ =>
        show off 1 + 1 * (0 + 1 * ((i 1).val % 128)) = (i 1).val
        rw [hoff1, Nat.mod_eq_of_lt hi1]; omega
    have h := View.write_emb_of_mem (v := ((Memref.whole main_v9_1_scv : Memref sig Kind.scVector Space.hbm S40960x128 EltTy.f32).slice (Rect.unit (s := S40960x128) off S32x128.size inb) (fun _ => rfl)).view.slice (Rect.whole _)) fn P (Finset.mem_univ y)
    rw [he] at h
    refine h.trans ?_
    have ea : rA L k + 32 + (y 0).val = 4096 + (i 0).val := by
      show rA L k + 32 + ((i 0).val - (rA L k + 32 - 4096)) % 32 = 4096 + (i 0).val
      rw [Nat.mod_eq_of_lt (by omega)]; omega
    have eb : (y 1).val = (i 1).val := by
      show (i 1).val % 128 = (i 1).val
      exact Nat.mod_eq_of_lt hi1
    have ey : (y 0).val < 32 := by
      show ((i 0).val - (rA L k + 32 - 4096)) % 32 < 32
      omega
    rw [hP, hfo y ey, ea, eb]
    rfl
  unfold outDone
  rw [if_neg (by omega), show (s_11).view.set = Finset.univ from View.set_whole _, hset]
  iintro ⟨Hd, Hs⟩
  isplitl [Hs]
  · iexists fo; iexact Hs
  · ihave Hd := (Entails.of_eq (pointsTo_congr (ℓ := (m_e1n).view.loc (thr d L)) (I := cN (rA L k + 32 - 4096)) (q := fullShare)
        (f := ((Memref.whole main_v9_1_scv : Memref sig Kind.scVector Space.hbm S40960x128 EltTy.f32).slice (Rect.unit (s := S40960x128) off S32x128.size inb) (fun _ => rfl)).view.writes (Elt F) fn [⟨Rect.whole _, P⟩]) (g := E1n I d) hvals)) $$ Hd
    iexact Hd

/-- The pair loop's induction value is its trip number: the second half's dynamic test on it is the test `k ≠ 0`. -/
theorem iv_test_pos : ∀ t : Fin k1_t1_loop.trips, t.val ≠ 0 →
    Scalar.cmpi CmpIPredicate.ne (Scalar.extui (Scalar.xori (Scalar.cmpi CmpIPredicate.eq (Scf.iv 0#32 1#32 t.val) 0#32) 1#1)) 0#32 = 1#1 := by decide +kernel
theorem iv_test_zero : ∀ t : Fin k1_t1_loop.trips, t.val = 0 →
    ¬ Scalar.cmpi CmpIPredicate.ne (Scalar.extui (Scalar.xori (Scalar.cmpi CmpIPredicate.eq (Scf.iv 0#32 1#32 t.val) 0#32) 1#1)) 0#32 = 1#1 := by decide +kernel

end Tile
end Cert.Kernel.Tile
end
-- ==== Proof.Twin.TileTripBNFirst.lean ====
/-
  The second half of a pair of neighbour chunks on a vector subcore, the first pair.
-/
import proofs.«213116_g69346541961480_cont_9to1_m_612_34_alg».proof.Proof.Twin.TileTripBNLem
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_N_first (hpre : PreOK I) (O : CellTallies nD τ sig (HIx 1)) (W : Waits sig (HIx 1)) (k : Fin k1_t1_loop.trips) (arg34 : BitVec 32) (hN : 4096 ≤ rA L k.val) (hk0 : k.val = 0) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  have hk1 : k.val + 1 < 22 := by omega
  unfold Mid
  have hO1 : Outs1 I d L k.val = Outs1 I d L 0 := by rw [hk0]
  rw [hO1, Outs1_zero I d L]
  unfold LoopRO Idle0 Loaded1 FlS1 FlN1 FlW0
  iintro ⟨%harg, #Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%f0, Hs0⟩, ⟨%f2, Hs2⟩, ⟨%f4, Hs4⟩, ⟨%f6, Hs6⟩, ⟨%f8, Hs8⟩, Hm14, Hm15, Hsp0, Hap0⟩,
    ⟨⟨%fal, %hfal, Hs5⟩, Hm16, Hm17⟩, Hm18, ⟨⟨%f11, Hs11⟩, Hm19⟩, ⟨%ft, Het⟩, ⟨%fn, Hen⟩, Hdt, Hdn⟩
  subst harg
  have c8 : k1_cond8 k = 1#1 := (k1_cond8_iff k).mpr hk1
  have c9 : ¬ k1_cond9 L k = 1#1 := fun h => by have := (k1_cond9_iff L k).mp h; unfold rA base at hN; omega
  have c10 : k1_cond10 L k = 1#1 := (k1_cond10_iff L k).mpr (by unfold rA base at hN; omega)
  have c12 : ¬ k1_cond12 L k = 1#1 := fun h => by have := (k1_cond12_iff L k).mp h; unfold rA base at hN; omega
  have c13 : k1_cond13 L k = 1#1 := (k1_cond13_iff L k).mpr (by unfold rA base at hN; omega)
  have hv62 := iv_test_zero k hk0
  unfold tripB
  sl_exec
  -- what the next chunk's two lists now hold
  have hg0 : ∀ x : S32.Idx, tripB_N_first.sl.dma0 I d L k c8 c10 x = selfIdx I d (rA L k.val + 64) (x 0).val := fun x => by
    unfold tripB_N_first.sl.dma0
    rw [read_n1_slice I d, selfIdx_of_ge I d _ _ (by omega), k1_off30_eq' L k c10]
    rfl
  have hg2 : ∀ x : S320.Idx, tripB_N_first.sl.dma0_1 I d L k c8 c10 x = nbrIdx I d (rA L k.val + 64) (x 0).val := fun x => by
    unfold tripB_N_first.sl.dma0_1
    rw [read_n2_slice I d, nbrIdx_of_ge I d _ _ (by omega), k1_off31_eq' L k c10]
    rfl
  rw [show View.write (Elt F) (Memref.whole cc1_scratch0).view f0 (tripB_N_first.sl.dma0 I d L k c8 c10) Finset.univ = tripB_N_first.sl.dma0 I d L k c8 c10 from View.write_whole_univ _ _ _,
    show View.write (Elt F) (Memref.whole cc1_scratch2).view f2 (tripB_N_first.sl.dma0_1 I d L k c8 c10) Finset.univ = tripB_N_first.sl.dma0_1 I d L k c8 c10 from View.write_whole_univ _ _ _]
  generalize tripB_N_first.sl.dma0 I d L k c8 c10 = g0 at hg0 ⊢
  generalize tripB_N_first.sl.dma0_1 I d L k c8 c10 = g2 at hg2 ⊢
  have hin0 : ∀ x, ((Memref.whole cc1_scratch0 : Memref sig Kind.scVector Space.vmem S32 EltTy.i32).view.read (Elt F) g0 x).toNat < S100000x128.size (gathers_S100000x128_S32x128).axis :=
    fun x => by rw [show (Memref.whole cc1_scratch0 : Memref sig Kind.scVector Space.vmem S32 EltTy.i32).view.read (Elt F) g0 x = g0 x from rfl, hg0]; exact selfIdx_lt I d hpre _ _
  have hin2 : ∀ x, ((Memref.whole cc1_scratch2 : Memref sig Kind.scVector Space.vmem S320 EltTy.i32).view.read (Elt F) g2 x).toNat < S100000x128.size (gathers_S100000x128_S320x128).axis :=
    fun x => by rw [show (Memref.whole cc1_scratch2 : Memref sig Kind.scVector Space.vmem S320 EltTy.i32).view.read (Elt F) g2 x = g2 x from rfl, hg2]; exact nbrIdx_lt I d hpre _ _
  sl_exec
  -- the second chunk's self rows land
  ihave Hw16 := (Transfers.MayWaits.elim (c := thr d L) (ι := (none : HIx 1)) (O := O) (SemLoc.dma cc1_scratch16.sem)) $$ Hmw
  iapply (Transfers.wp_waitLocalO countersEmb 𝒱₀ (thr d L) none (none : HIx 1) (N := 131072) rfl) $$ [Hm16 HO Hw16]
  · isplitl [Hm16]; · iexact Hm16
    isplitl [HO]; · iexact HO
    iexact Hw16
  iintro ⟨⟨%fs7, %g1, %h1, Hs7, Hs1, Hsp1⟩, Hm16, HO⟩
  rw [wp_ret]; imodintro
  sl_exec
  -- its neighbour rows land
  ihave Hw17 := (Transfers.MayWaits.elim (c := thr d L) (ι := (none : HIx 1)) (O := O) (SemLoc.dma cc1_scratch17.sem)) $$ Hmw
  iapply (Transfers.wp_waitLocalO countersEmb 𝒱₀ (thr d L) none (none : HIx 1) (N := 1310720) rfl) $$ [Hm17 HO Hw17]
  · isplitl [Hm17]; · iexact Hm17
    isplitl [HO]; · iexact HO
    iexact Hw17
  iintro ⟨⟨%fs9, %g3, %h3, Hs9, Hs3, Hap1⟩, Hm17, HO⟩
  rw [wp_ret]; imodintro
  sl_exec
  try beta_reduce
  sl_for (RowInv1 d L fal fs7 fs9 fb) $$ [Hs5 Hs7 Hs9 Hs12 Hs11]
  case region => exact row_trip1 d L fal fs7 fs9 fb
  · -- before the first row nothing is summed and nothing is written
    unfold RowInv1
    isplitr [Hs5 Hs7 Hs9 Hs12 Hs11]
    · ipureintro; rfl
    isplitl [Hs5]; · iexact Hs5
    isplitl [Hs7]; · iexact Hs7
    isplitl [Hs9]; · iexact Hs9
    isplitl [Hs12]; · iexact Hs12
    iexists f11
    isplitr [Hs11]
    · ipureintro; intro x hx; exact absurd hx (Nat.not_lt_zero _)
    iexact Hs11
  unfold RowInv1
  iintro %acc ⟨%hacc, Hs5, Hs7, Hs9, Hs12, ⟨%fo, %hfo, Hs11⟩⟩
  sl_exec
  -- the copy-out's rows, carved from the rows not yet written
  have hoff : k1_off50 L k = ![rA L k.val + 32 - 4096, 0] := by rw [k1_off50_eq' L k c13]; rfl
  have hbase : wL L * 1408 + 32 * (2 * k.val + 1) = rA L k.val + 32 := by unfold rA; rw [base_eq L]; omega
  have hsub : cN (rA L k.val + 32 - 4096) ⊆ nRem (wL L) (rA L k.val + 32) := by
    have h := cN_subset_nRem (wL L) (2 * k.val + 1) (by omega) (by rw [hbase]; omega)
    rwa [hbase] at h
  have hset : ((Memref.whole main_v9_1_scv : Memref sig Kind.scVector Space.hbm S40960x128 EltTy.f32).slice (Rect.unit (s := S40960x128) (k1_off50 L k) S32x128.size (k1_off50_inb L k c13)) (fun _ => rfl)).view.set = cN (rA L k.val + 32 - 4096) := by
    have h := set_e1n_slice (k1_off50 L k) (k1_off50_inb L k c13) (by rw [hoff]; rfl)
    have h0 : k1_off50 L k 0 = rA L k.val + 32 - 4096 := by rw [hoff]; rfl
    rw [h0] at h
    exact h
  ihave Hen := (pointsTo_split_subset (ℓ := (Memref.whole main_v9_1_scv : Memref sig Kind.scVector Space.hbm S40960x128 EltTy.f32).view.loc (thr d L)) (q := fullShare) (f := fn) hsub).1 $$ Hen
  icases Hen with ⟨Hc, Hen⟩
  ihave Hc' : iprop(((Memref.whole main_v9_1_scv : Memref sig Kind.scVector Space.hbm S40960x128 EltTy.f32).slice (Rect.unit (s := S40960x128) (k1_off50 L k) S32x128.size (k1_off50_inb L k c13)) (fun _ => rfl)).view.loc (thr d L) ↦[((Memref.whole main_v9_1_scv : Memref sig Kind.scVector Space.hbm S40960x128 EltTy.f32).slice (Rect.unit (s := S40960x128) (k1_off50 L k) S32x128.size (k1_off50_inb L k c13)) (fun _ => rfl)).view.set]{fullShare} fn) $$ [Hc]
  · rw [hset]; iexact Hc
  sl_exec
  -- the invariant before the next pair
  rw [wp_ret]; imodintro
  have hr1 : rA L (k.val + 1) = rA L k.val + 64 := by unfold rA; omega
  have e64 : rA L k.val + 64 - 64 = rA L k.val := by omega
  have e32 : rA L k.val + 64 - 32 = rA L k.val + 32 := by omega
  have h64 : rA L k.val = 64 * (wL L * 22 + k.val) := by unfold rA; rw [base_eq L]; omega
  have ht : Scf.trips k1_t3_loop.lb k1_t3_loop.ub k1_t3_loop.st = 32 := by decide
  rw [ht] at hacc hfo
  have hro : ∀ i col, i < 32 → col < 128 → rowOut fal fs7 fs9 fb i col = E1 I d (rA L k.val + 32 + i) col := fun i col hi hc =>
    rowOut_eq_E1 I d (rA L k.val + 32) (dvd_rA L k.val) fal fs7 fs9 fb hfal h1.2 h3.2 hfb i col hi hc
  have hw4 : ∀ y : S320.Idx, tripB_N_first.sl.dma0_2 I d L k c8 c10 y = I.a2 d (ix409600 (k1_off31 L k 0 + (y 0).val)) := fun y => by
    unfold tripB_N_first.sl.dma0_2; exact read_a2_slice I d _ _ y
  have ho31 : k1_off31 L k 0 = (rA L k.val + 64 - 4096) * 10 := by rw [k1_off31_eq' L k c10]; rfl
  -- the two gathers just issued are the next chunk's
  ihave Hm14' : issS0 I d L f6 g0 hin0 $$ [Hm14]
  · unfold issS0; iexact Hm14
  ihave Hm14 := (FlS0_of_iss I d L hpre (rA L k.val + 64) f6 g0 hg0 hin0) $$ Hm14'
  ihave Hm15' : issN0 I d L f8 g2 hin2 $$ [Hm15]
  · unfold issN0; iexact Hm15
  ihave Hm15 := (FlN0_of_iss I d L hpre (rA L k.val + 64) f8 g2 hg2 hin2) $$ Hm15'
  -- the tables' shares the landed gathers gave back, on the whole tables
  have esp : ((Memref.whole main_v4_0_scv : Memref sig Kind.scVector Space.hbm S100000x128 EltTy.f32).view.loc (thr d L) ↦[(spSl).view.set]{Transfers.shareTokN (rsh (wL L)) 14} I.sp d : sProp 𝕄)
      = ((Memref.whole main_v4_0_scv : Memref sig Kind.scVector Space.hbm S100000x128 EltTy.f32).view.loc (thr d L) ↦{Transfers.shareTokN (rsh (wL L)) 14} I.sp d) := by rw [spSl_set]
  have eap : ((Memref.whole main_v4_1_scv : Memref sig Kind.scVector Space.hbm S100000x128 EltTy.f32).view.loc (thr d L) ↦[(apSl).view.set]{Transfers.shareTokN (rsh (wL L)) 15} I.ap d : sProp 𝕄)
      = ((Memref.whole main_v4_1_scv : Memref sig Kind.scVector Space.hbm S100000x128 EltTy.f32).view.loc (thr d L) ↦{Transfers.shareTokN (rsh (wL L)) 15} I.ap d) := by rw [apSl_set]
  ihave Hsp1 := (Entails.of_eq esp) $$ Hsp1
  ihave Hap1 := (Entails.of_eq eap) $$ Hap1
  have hfo' : ∀ x : S32x128.Idx, (x 0).val < 32 → fo x = E1 I d (rA L k.val + 32 + (x 0).val) (x 1).val :=
    fun x hx => (hfo x hx).trans (hro _ _ hx (x 1).isLt)
  have ho50a : k1_off50 L k 0 = rA L k.val + 32 - 4096 := by rw [hoff]; rfl
  have ho50b : k1_off50 L k 1 = 0 := by rw [hoff]; rfl
  unfold Inv
  rw [Set0_lt I d L hk1, Outs_pos I d L (Nat.succ_ne_zero _)]
  unfold Loaded0 Idle1 LoopRO Pieces FlW0 FlW1
  rw [hr1, e64, e32]
  iclear Hsp0 Hap0 Hs11
  isplitl []
  · iexact Hmw
  isplitl [HO]
  · iexists _
    isplitr [HO]
    swap
    · iexact HO
    · ipureintro
      intro p hp
      simp only [Finset.mem_insert] at hp
      rcases hp with rfl | rfl | rfl | rfl | rfl | hp
      · exact Or.inr rfl
      · exact Or.inr rfl
      · exact Or.inr rfl
      · exact Or.inr rfl
      · exact Or.inr rfl
      · exact hW' p hp
  isplitl [Hnid Hn1 Hn2 Ha1 Ha2 Hr7 Hr8 Hr9 Hr10 Hr11 Hr12 Hr13 Hr14 Hr15 Hr16 Hr17 Hr18]
  · iframe Hnid Hn1 Hn2 Ha1 Ha2 Hr7 Hr8 Hr9 Hr10 Hr11 Hr12 Hr13 Hr14 Hr15
    isplitl [Hr16]
    · iexact Hr16
    isplitl [Hr17]
    · iexact Hr17
    iexact Hr18
  isplitl [Hs12]
  · iexists fb
    isplitr [Hs12]
    · ipureintro; exact hfb
    iexact Hs12
  isplitl [Hs13]
  · iexists _
    isplitr [Hs13]
    swap
    · iexact Hs13
    · ipureintro
      exact fun x => sq_post I d L k.val fsq acc (rowOut fal fs7 fs9 fb) hN hfsq hacc hro x
  isplitl [Hs4 Hm14 Hm15]
  · isplitl [Hs4]
    · iexists _
      isplitr [Hs4]
      swap
      · iexact Hs4
      · ipureintro
        exact fun x hx => s4_alph I d L f4 _ (rA L k.val + 64) _ (by omega) ho31 hw4 x hx
    isplitl [Hm14]
    · iexact Hm14
    iexact Hm15
  isplitl [Hs1 Hs3 Hs5 Hs7 Hs9 Hm16 Hm17 Hsp1 Hap1]
  · isplitl [Hs1]
    · iexists _; iexact Hs1
    isplitl [Hs3]
    · iexists _; iexact Hs3
    isplitl [Hs5]
    · iexists _; iexact Hs5
    isplitl [Hs7]
    · iexists _; iexact Hs7
    isplitl [Hs9]
    · iexists _; iexact Hs9
    isplitl [Hm16]
    · iexact Hm16
    isplitl [Hm17]
    · iexact Hm17
    isplitl [Hsp1]
    · iexact Hsp1
    iexact Hap1
  isplitl [Hm18 Hm19]
  · isplitl [Hm18]
    · iexact Hm18
    iapply (Transfers.Flight_mono countersEmb (thr d L)
      (out_payload I d L k.val hN (k1_off50 L k) (k1_off50_inb L k c13) ho50a ho50b fn fo (tripB_N_first.sl.dma0_3 d L fo) (fun y => rfl) hfo')) $$ Hm19
  -- the rows of the two results
  have eTr : tRem (wL L) (rA L k.val + 32) = tRem (wL L) (rA L k.val + 64) := tRem_of_ge _ _ _ (by omega) (by omega)
  have eNr : nRem (wL L) (rA L k.val + 32) \ cN (rA L k.val + 32 - 4096) = nRem (wL L) (rA L k.val + 64) := by
    have h := nRem_sdiff_cN (wL L) (2 * k.val + 1) (by omega) (by rw [hbase]; omega)
    rw [hbase, show rA L k.val + 32 + 32 = rA L k.val + 64 from by omega] at h
    exact h
  isplitl [Het]
  · iexists ft
    rw [← eTr]
    iexact Het
  isplitl [Hen]
  · iexists fn
    rw [← eNr]
    iexact Hen
  have hle32 : rA L k.val - 32 ≤ wL L * 1408 := by rw [← base_eq L]; unfold rA; omega
  have hle0 : rA L k.val ≤ wL L * 1408 := by rw [← base_eq L]; unfold rA; omega
  isplitl [Hdt]
  · rw [show tDone (wL L) (rA L k.val) = tDone (wL L) (rA L k.val - 32) from by
      rw [tDone_base (wL L) _ hle0, tDone_base (wL L) _ hle32]]
    iexact Hdt
  · rw [show nDone (wL L) (rA L k.val) = nDone (wL L) (rA L k.val - 32) from by
      rw [nDone_base (wL L) _ hle0, nDone_base (wL L) _ hle32]]
    iexact Hdn

end Tile
end Cert.Kernel.Tile
end
-- ==== Proof.Twin.TileTripBNMid.lean ====
/-
  The second half of a pair of neighbour chunks on a vector subcore, for a pair that is neither the first nor the last:
  the next pair's first chunk is issued, the second chunk's gathers and the previous pair's second copy-out land, the
  chunk's rows and sum of squares are computed, and the rows are copied out.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import proofs.«213116_g69346541961480_cont_9to1_m_612_34_alg».proof.Proof.Twin.TileFlight
import proofs.«213116_g69346541961480_cont_9to1_m_612_34_alg».proof.Proof.Twin.TileTripBNLem
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_N_mid (hpre : PreOK I) (O : CellTallies nD τ sig (HIx 1)) (W : Waits sig (HIx 1)) (k : Fin k1_t1_loop.trips) (arg34 : BitVec 32) (hN : 4096 ≤ rA L k.val) (hk0 : ¬ k.val = 0) (hk1 : k.val + 1 < 22) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  unfold Mid
  rw [Outs1_pos I d L hk0]
  unfold LoopRO Idle0 Loaded1 FlS1 FlN1 FlW0 FlW1
  iintro ⟨%harg, #Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%f0, Hs0⟩, ⟨%f2, Hs2⟩, ⟨%f4, Hs4⟩, ⟨%f6, Hs6⟩, ⟨%f8, Hs8⟩, Hm14, Hm15, Hsp0, Hap0⟩,
    ⟨⟨%fal, %hfal, Hs5⟩, Hm16, Hm17⟩, Hm18, Hm19, ⟨%ft, Het⟩, ⟨%fn, Hen⟩, Hdt, Hdn⟩
  subst harg
  have c8 : k1_cond8 k = 1#1 := (k1_cond8_iff k).mpr hk1
  have c9 : ¬ k1_cond9 L k = 1#1 := fun h => by have := (k1_cond9_iff L k).mp h; unfold rA base at hN; omega
  have c10 : k1_cond10 L k = 1#1 := (k1_cond10_iff L k).mpr (by unfold rA base at hN; omega)
  have c12 : ¬ k1_cond12 L k = 1#1 := fun h => by have := (k1_cond12_iff L k).mp h; unfold rA base at hN; omega
  have c13 : k1_cond13 L k = 1#1 := (k1_cond13_iff L k).mpr (by unfold rA base at hN; omega)
  have hv62 := iv_test_pos k hk0
  unfold tripB
  sl_exec
  -- what the next chunk's two lists now hold
  have hg0 : ∀ x : S32.Idx, tripB_N_mid.sl.dma0 I d L k c8 c10 x = selfIdx I d (rA L k.val + 64) (x 0).val := fun x => by
    unfold tripB_N_mid.sl.dma0
    rw [read_n1_slice I d, selfIdx_of_ge I d _ _ (by omega), k1_off30_eq' L k c10]
    rfl
  have hg2 : ∀ x : S320.Idx, tripB_N_mid.sl.dma0_1 I d L k c8 c10 x = nbrIdx I d (rA L k.val + 64) (x 0).val := fun x => by
    unfold tripB_N_mid.sl.dma0_1
    rw [read_n2_slice I d, nbrIdx_of_ge I d _ _ (by omega), k1_off31_eq' L k c10]
    rfl
  rw [show View.write (Elt F) (Memref.whole cc1_scratch0).view f0 (tripB_N_mid.sl.dma0 I d L k c8 c10) Finset.univ = tripB_N_mid.sl.dma0 I d L k c8 c10 from View.write_whole_univ _ _ _,
    show View.write (Elt F) (Memref.whole cc1_scratch2).view f2 (tripB_N_mid.sl.dma0_1 I d L k c8 c10) Finset.univ = tripB_N_mid.sl.dma0_1 I d L k c8 c10 from View.write_whole_univ _ _ _]
  generalize tripB_N_mid.sl.dma0 I d L k c8 c10 = g0 at hg0 ⊢
  generalize tripB_N_mid.sl.dma0_1 I d L k c8 c10 = g2 at hg2 ⊢
  have hin0 : ∀ x, ((Memref.whole cc1_scratch0 : Memref sig Kind.scVector Space.vmem S32 EltTy.i32).view.read (Elt F) g0 x).toNat < S100000x128.size (gathers_S100000x128_S32x128).axis :=
    fun x => by rw [show (Memref.whole cc1_scratch0 : Memref sig Kind.scVector Space.vmem S32 EltTy.i32).view.read (Elt F) g0 x = g0 x from rfl, hg0]; exact selfIdx_lt I d hpre _ _
  have hin2 : ∀ x, ((Memref.whole cc1_scratch2 : Memref sig Kind.scVector Space.vmem S320 EltTy.i32).view.read (Elt F) g2 x).toNat < S100000x128.size (gathers_S100000x128_S320x128).axis :=
    fun x => by rw [show (Memref.whole cc1_scratch2 : Memref sig Kind.scVector Space.vmem S320 EltTy.i32).view.read (Elt F) g2 x = g2 x from rfl, hg2]; exact nbrIdx_lt I d hpre _ _
  sl_exec
  -- the second chunk's self rows land
  ihave Hw16 := (Transfers.MayWaits.elim (c := thr d L) (ι := (none : HIx 1)) (O := O) (SemLoc.dma cc1_scratch16.sem)) $$ Hmw
  iapply (Transfers.wp_waitLocalO countersEmb 𝒱₀ (thr d L) none (none : HIx 1) (N := 131072) rfl) $$ [Hm16 HO Hw16]
  · isplitl [Hm16]; · iexact Hm16
    isplitl [HO]; · iexact HO
    iexact Hw16
  iintro ⟨⟨%fs7, %g1, %h1, Hs7, Hs1, Hsp1⟩, Hm16, HO⟩
  rw [wp_ret]; imodintro
  sl_exec
  -- its neighbour rows land
  ihave Hw17 := (Transfers.MayWaits.elim (c := thr d L) (ι := (none : HIx 1)) (O := O) (SemLoc.dma cc1_scratch17.sem)) $$ Hmw
  iapply (Transfers.wp_waitLocalO countersEmb 𝒱₀ (thr d L) none (none : HIx 1) (N := 1310720) rfl) $$ [Hm17 HO Hw17]
  · isplitl [Hm17]; · iexact Hm17
    isplitl [HO]; · iexact HO
    iexact Hw17
  iintro ⟨⟨%fs9, %g3, %h3, Hs9, Hs3, Hap1⟩, Hm17, HO⟩
  rw [wp_ret]; imodintro
  sl_exec
  -- the previous pair's second copy-out lands
  ihave Hw19 := (Transfers.MayWaits.elim (c := thr d L) (ι := (none : HIx 1)) (O := O) (SemLoc.dma cc1_scratch19.sem)) $$ Hmw
  iapply (Transfers.wp_waitLocalO countersEmb 𝒱₀ (thr d L) none (none : HIx 1) (N := 131072) rfl) $$ [Hm19 HO Hw19]
  · isplitl [Hm19]; · iexact Hm19
    isplitl [HO]; · iexact HO
    iexact Hw19
  iintro ⟨⟨⟨%f11, Hs11⟩, Hout1⟩, Hm19, HO⟩
  beta_reduce
  sl_for (RowInv1 d L fal fs7 fs9 fb) $$ [Hs5 Hs7 Hs9 Hs12 Hs11]
  case region => exact row_trip1 d L fal fs7 fs9 fb
  · -- before the first row nothing is summed and nothing is written
    unfold RowInv1
    isplitr [Hs5 Hs7 Hs9 Hs12 Hs11]
    · ipureintro; rfl
    isplitl [Hs5]; · iexact Hs5
    isplitl [Hs7]; · iexact Hs7
    isplitl [Hs9]; · iexact Hs9
    isplitl [Hs12]; · iexact Hs12
    iexists f11
    isplitr [Hs11]
    · ipureintro; intro x hx; exact absurd hx (Nat.not_lt_zero _)
    iexact Hs11
  unfold RowInv1
  iintro %acc ⟨%hacc, Hs5, Hs7, Hs9, Hs12, ⟨%fo, %hfo, Hs11⟩⟩
  sl_exec
  -- the copy-out's rows, carved from the rows not yet written
  have hoff : k1_off50 L k = ![rA L k.val + 32 - 4096, 0] := by rw [k1_off50_eq' L k c13]; rfl
  have hbase : wL L * 1408 + 32 * (2 * k.val + 1) = rA L k.val + 32 := by unfold rA; rw [base_eq L]; omega
  have hsub : cN (rA L k.val + 32 - 4096) ⊆ nRem (wL L) (rA L k.val + 32) := by
    have h := cN_subset_nRem (wL L) (2 * k.val + 1) (by omega) (by rw [hbase]; omega)
    rwa [hbase] at h
  have hset : ((Memref.whole main_v9_1_scv : Memref sig Kind.scVector Space.hbm S40960x128 EltTy.f32).slice (Rect.unit (s := S40960x128) (k1_off50 L k) S32x128.size (k1_off50_inb L k c13)) (fun _ => rfl)).view.set = cN (rA L k.val + 32 - 4096) := by
    have h := set_e1n_slice (k1_off50 L k) (k1_off50_inb L k c13) (by rw [hoff]; rfl)
    have h0 : k1_off50 L k 0 = rA L k.val + 32 - 4096 := by rw [hoff]; rfl
    rw [h0] at h
    exact h
  ihave Hen := (pointsTo_split_subset (ℓ := (Memref.whole main_v9_1_scv : Memref sig Kind.scVector Space.hbm S40960x128 EltTy.f32).view.loc (thr d L)) (q := fullShare) (f := fn) hsub).1 $$ Hen
  icases Hen with ⟨Hc, Hen⟩
  ihave Hc' : iprop(((Memref.whole main_v9_1_scv : Memref sig Kind.scVector Space.hbm S40960x128 EltTy.f32).slice (Rect.unit (s := S40960x128) (k1_off50 L k) S32x128.size (k1_off50_inb L k c13)) (fun _ => rfl)).view.loc (thr d L) ↦[((Memref.whole main_v9_1_scv : Memref sig Kind.scVector Space.hbm S40960x128 EltTy.f32).slice (Rect.unit (s := S40960x128) (k1_off50 L k) S32x128.size (k1_off50_inb L k c13)) (fun _ => rfl)).view.set]{fullShare} fn) $$ [Hc]
  · rw [hset]; iexact Hc
  sl_exec
  -- the invariant before the next pair
  rw [wp_ret]; imodintro
  have hr1 : rA L (k.val + 1) = rA L k.val + 64 := by unfold rA; omega
  have e64 : rA L k.val + 64 - 64 = rA L k.val := by omega
  have e32 : rA L k.val + 64 - 32 = rA L k.val + 32 := by omega
  have h64 : rA L k.val = 64 * (wL L * 22 + k.val) := by unfold rA; rw [base_eq L]; omega
  have hbm : wL L * 1408 + 32 * (2 * k.val - 1) = rA L k.val - 32 := by unfold rA; rw [base_eq L]; omega
  have ht : Scf.trips k1_t3_loop.lb k1_t3_loop.ub k1_t3_loop.st = 32 := by decide
  rw [ht] at hacc hfo
  have hro : ∀ i col, i < 32 → col < 128 → rowOut fal fs7 fs9 fb i col = E1 I d (rA L k.val + 32 + i) col := fun i col hi hc =>
    rowOut_eq_E1 I d (rA L k.val + 32) (dvd_rA L k.val) fal fs7 fs9 fb hfal h1.2 h3.2 hfb i col hi hc
  have hw4 : ∀ y : S320.Idx, tripB_N_mid.sl.dma0_2 I d L k c8 c10 y = I.a2 d (ix409600 (k1_off31 L k 0 + (y 0).val)) := fun y => by
    unfold tripB_N_mid.sl.dma0_2; exact read_a2_slice I d _ _ y
  have ho31 : k1_off31 L k 0 = (rA L k.val + 64 - 4096) * 10 := by rw [k1_off31_eq' L k c10]; rfl
  -- the two gathers just issued are the next chunk's
  ihave Hm14' : issS0 I d L f6 g0 hin0 $$ [Hm14]
  · unfold issS0; iexact Hm14
  ihave Hm14 := (FlS0_of_iss I d L hpre (rA L k.val + 64) f6 g0 hg0 hin0) $$ Hm14'
  ihave Hm15' : issN0 I d L f8 g2 hin2 $$ [Hm15]
  · unfold issN0; iexact Hm15
  ihave Hm15 := (FlN0_of_iss I d L hpre (rA L k.val + 64) f8 g2 hg2 hin2) $$ Hm15'
  -- the tables' shares the landed gathers gave back, on the whole tables
  have esp : ((Memref.whole main_v4_0_scv : Memref sig Kind.scVector Space.hbm S100000x128 EltTy.f32).view.loc (thr d L) ↦[(spSl).view.set]{Transfers.shareTokN (rsh (wL L)) 14} I.sp d : sProp 𝕄)
      = ((Memref.whole main_v4_0_scv : Memref sig Kind.scVector Space.hbm S100000x128 EltTy.f32).view.loc (thr d L) ↦{Transfers.shareTokN (rsh (wL L)) 14} I.sp d) := by rw [spSl_set]
  have eap : ((Memref.whole main_v4_1_scv : Memref sig Kind.scVector Space.hbm S100000x128 EltTy.f32).view.loc (thr d L) ↦[(apSl).view.set]{Transfers.shareTokN (rsh (wL L)) 15} I.ap d : sProp 𝕄)
      = ((Memref.whole main_v4_1_scv : Memref sig Kind.scVector Space.hbm S100000x128 EltTy.f32).view.loc (thr d L) ↦{Transfers.shareTokN (rsh (wL L)) 15} I.ap d) := by rw [apSl_set]
  ihave Hsp1 := (Entails.of_eq esp) $$ Hsp1
  ihave Hap1 := (Entails.of_eq eap) $$ Hap1
  have hfo' : ∀ x : S32x128.Idx, (x 0).val < 32 → fo x = E1 I d (rA L k.val + 32 + (x 0).val) (x 1).val :=
    fun x hx => (hfo x hx).trans (hro _ _ hx (x 1).isLt)
  have ho50a : k1_off50 L k 0 = rA L k.val + 32 - 4096 := by rw [hoff]; rfl
  have ho50b : k1_off50 L k 1 = 0 := by rw [hoff]; rfl
  unfold Inv
  rw [Set0_lt I d L hk1, Outs_pos I d L (Nat.succ_ne_zero _)]
  unfold Loaded0 Idle1 LoopRO Pieces FlW0 FlW1
  rw [hr1, e64, e32]
  iclear Hsp0 Hap0 Hs11
  isplitl []
  · iexact Hmw
  isplitl [HO]
  · iexists _
    isplitr [HO]
    swap
    · iexact HO
    · ipureintro
      intro p hp
      simp only [Finset.mem_insert] at hp
      rcases hp with rfl | rfl | rfl | rfl | rfl | rfl | hp
      · exact Or.inr rfl
      · exact Or.inr rfl
      · exact Or.inr rfl
      · exact Or.inr rfl
      · exact Or.inr rfl
      · exact Or.inr rfl
      · exact hW' p hp
  isplitl [Hnid Hn1 Hn2 Ha1 Ha2 Hr7 Hr8 Hr9 Hr10 Hr11 Hr12 Hr13 Hr14 Hr15 Hr16 Hr17 Hr18]
  · iframe Hnid Hn1 Hn2 Ha1 Ha2 Hr7 Hr8 Hr9 Hr10 Hr11 Hr12 Hr13 Hr14 Hr15
    isplitl [Hr16]
    · iexact Hr16
    isplitl [Hr17]
    · iexact Hr17
    iexact Hr18
  isplitl [Hs12]
  · iexists fb
    isplitr [Hs12]
    · ipureintro; exact hfb
    iexact Hs12
  isplitl [Hs13]
  · iexists _
    isplitr [Hs13]
    swap
    · iexact Hs13
    · ipureintro
      exact fun x => sq_post I d L k.val fsq acc (rowOut fal fs7 fs9 fb) hN hfsq hacc hro x
  isplitl [Hs4 Hm14 Hm15]
  · isplitl [Hs4]
    · iexists _
      isplitr [Hs4]
      swap
      · iexact Hs4
      · ipureintro
        exact fun x hx => s4_alph I d L f4 _ (rA L k.val + 64) _ (by omega) ho31 hw4 x hx
    isplitl [Hm14]
    · iexact Hm14
    iexact Hm15
  isplitl [Hs1 Hs3 Hs5 Hs7 Hs9 Hm16 Hm17 Hsp1 Hap1]
  · isplitl [Hs1]
    · iexists _; iexact Hs1
    isplitl [Hs3]
    · iexists _; iexact Hs3
    isplitl [Hs5]
    · iexists _; iexact Hs5
    isplitl [Hs7]
    · iexists _; iexact Hs7
    isplitl [Hs9]
    · iexists _; iexact Hs9
    isplitl [Hm16]
    · iexact Hm16
    isplitl [Hm17]
    · iexact Hm17
    isplitl [Hsp1]
    · iexact Hsp1
    iexact Hap1
  isplitl [Hm18 Hm19]
  · isplitl [Hm18]
    · iexact Hm18
    iapply (Transfers.Flight_mono countersEmb (thr d L)
      (out_payload I d L k.val hN (k1_off50 L k) (k1_off50_inb L k c13) ho50a ho50b fn fo (tripB_N_mid.sl.dma0_3 d L fo) (fun y => rfl) hfo')) $$ Hm19
  -- the rows of the two results
  have eTr : tRem (wL L) (rA L k.val + 32) = tRem (wL L) (rA L k.val + 64) := tRem_of_ge _ _ _ (by omega) (by omega)
  have eNr : nRem (wL L) (rA L k.val + 32) \ cN (rA L k.val + 32 - 4096) = nRem (wL L) (rA L k.val + 64) := by
    have h := nRem_sdiff_cN (wL L) (2 * k.val + 1) (by omega) (by rw [hbase]; omega)
    rw [hbase, show rA L k.val + 32 + 32 = rA L k.val + 64 from by omega] at h
    exact h
  isplitl [Het]
  · iexists ft
    rw [← eTr]
    iexact Het
  isplitl [Hen]
  · iexists fn
    rw [← eNr]
    iexact Hen
  rcases Nat.lt_or_ge (rA L k.val - 32) 4096 with hB | hB
  · -- the copy-out that landed was of the last target chunk
    have eo : outDone I d L (rA L k.val - 32) = iprop((Memref.whole main_v9_0_scv : Memref sig Kind.scVector Space.hbm S4096x128 EltTy.f32).view.loc (thr d L) ↦[cT (rA L k.val - 32)]{fullShare} E1t I d) := by
      unfold outDone; rw [if_pos hB]
    ihave Hout1 := (Entails.of_eq eo) $$ Hout1
    have eT : tDone (wL L) (rA L k.val - 32) ∪ cT (rA L k.val - 32) = tDone (wL L) (rA L k.val) := by
      have h := tDone_union_cT (wL L) (2 * k.val - 1) (by omega) (by rw [hbm]; exact hB)
      rw [hbm, show rA L k.val - 32 + 32 = rA L k.val from by omega] at h
      exact h
    have eN : nDone (wL L) (rA L k.val - 32) = nDone (wL L) (rA L k.val) := nDone_of_lt _ _ _ (by omega) (by omega)
    isplitl [Hdt Hout1]
    · rw [← eT]
      iapply (pointsTo_union (ℓ := (Memref.whole main_v9_0_scv : Memref sig Kind.scVector Space.hbm S4096x128 EltTy.f32).view.loc (thr d L)) (q := fullShare) (f := E1t I d) (tDone_disjoint_cT (wL L) (rA L k.val - 32))).2
      isplitl [Hdt]
      · iexact Hdt
      iexact Hout1
    · rw [← eN]
      iexact Hdn
  · -- it was of a neighbour chunk
    have eo : outDone I d L (rA L k.val - 32) = iprop((Memref.whole main_v9_1_scv : Memref sig Kind.scVector Space.hbm S40960x128 EltTy.f32).view.loc (thr d L) ↦[cN (rA L k.val - 32 - 4096)]{fullShare} E1n I d) := by
      unfold outDone; rw [if_neg (by omega)]
    ihave Hout1 := (Entails.of_eq eo) $$ Hout1
    have eT : tDone (wL L) (rA L k.val - 32) = tDone (wL L) (rA L k.val) := tDone_of_ge _ _ _ (by omega) (by omega)
    have eN : nDone (wL L) (rA L k.val - 32) ∪ cN (rA L k.val - 32 - 4096) = nDone (wL L) (rA L k.val) := by
      have h := nDone_union_cN (wL L) (2 * k.val - 1) (by omega) (by rw [hbm]; exact hB)
      rw [hbm, show rA L k.val - 32 + 32 = rA L k.val from by omega] at h
      exact h
    isplitl [Hdt]
    · rw [← eT]
      iexact Hdt
    · rw [← eN]
      iapply (pointsTo_union (ℓ := (Memref.whole main_v9_1_scv : Memref sig Kind.scVector Space.hbm S40960x128 EltTy.f32).view.loc (thr d L)) (q := fullShare) (f := E1n I d) (nDone_disjoint_cN (wL L) (rA L k.val - 32) hB)).2
      isplitl [Hdn]
      · iexact Hdn
      iexact Hout1

end Tile
end Cert.Kernel.Tile
end
-- ==== Proof.Twin.TileTripBNLast.lean ====
/-
  The second half of the last pair of chunks on a vector subcore when they are neighbour chunks: no further chunk is
  fetched, buffer set 0 stays at rest.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileRead
import proofs.«213116_g69346541961480_cont_9to1_m_612_34_alg».proof.Proof.Twin.TileFlight
import proofs.«213116_g69346541961480_cont_9to1_m_612_34_alg».proof.Proof.Twin.TileTripBNLem
import Idealize.ShloMosaic.Lib.ValueLayout
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_N_last (hpre : PreOK I) (O : CellTallies nD τ sig (HIx 1)) (W : Waits sig (HIx 1)) (k : Fin k1_t1_loop.trips) (arg34 : BitVec 32) (hN : 4096 ≤ rA L k.val) (hk1 : ¬ k.val + 1 < 22) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  have hk22 : k.val < 22 := Nat.lt_of_lt_of_eq k.isLt trips22
  have hk0 : k.val ≠ 0 := by omega
  unfold Mid
  rw [Outs1_pos I d L hk0]
  unfold LoopRO Loaded1 FlS1 FlN1 FlW0 FlW1
  iintro ⟨%harg, #Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    Hidle0,
    ⟨⟨%fal, %hfal, Hs5⟩, Hm16, Hm17⟩, Hm18, Hm19, ⟨%ft, Het⟩, ⟨%fn, Hen⟩, Hdt, Hdn⟩
  subst harg
  have c8 : ¬ k1_cond8 k = 1#1 := fun h => hk1 ((k1_cond8_iff k).mp h)
  have c12 : ¬ k1_cond12 L k = 1#1 := fun h => by have := (k1_cond12_iff L k).mp h; unfold rA base at hN; omega
  have c13 : k1_cond13 L k = 1#1 := (k1_cond13_iff L k).mpr (by unfold rA base at hN; omega)
  have hv62 := iv_test_pos k hk0
  unfold tripB
  sl_exec
  -- the second chunk's self rows land
  ihave Hw16 := (Transfers.MayWaits.elim (c := thr d L) (ι := (none : HIx 1)) (O := O) (SemLoc.dma cc1_scratch16.sem)) $$ Hmw
  iapply (Transfers.wp_waitLocalO countersEmb 𝒱₀ (thr d L) none (none : HIx 1) (N := 131072) rfl) $$ [Hm16 HO Hw16]
  · isplitl [Hm16]; · iexact Hm16
    isplitl [HO]; · iexact HO
    iexact Hw16
  iintro ⟨⟨%fs7, %g1, %h1, Hs7, Hs1, Hsp1⟩, Hm16, HO⟩
  rw [wp_ret]; imodintro
  sl_exec
  -- its neighbour rows land
  ihave Hw17 := (Transfers.MayWaits.elim (c := thr d L) (ι := (none : HIx 1)) (O := O) (SemLoc.dma cc1_scratch17.sem)) $$ Hmw
  iapply (Transfers.wp_waitLocalO countersEmb 𝒱₀ (thr d L) none (none : HIx 1) (N := 1310720) rfl) $$ [Hm17 HO Hw17]
  · isplitl [Hm17]; · iexact Hm17
    isplitl [HO]; · iexact HO
    iexact Hw17
  iintro ⟨⟨%fs9, %g3, %h3, Hs9, Hs3, Hap1⟩, Hm17, HO⟩
  rw [wp_ret]; imodintro
  sl_exec
  -- the previous pair's second copy-out lands
  ihave Hw19 := (Transfers.MayWaits.elim (c := thr d L) (ι := (none : HIx 1)) (O := O) (SemLoc.dma cc1_scratch19.sem)) $$ Hmw
  iapply (Transfers.wp_waitLocalO countersEmb 𝒱₀ (thr d L) none (none : HIx 1) (N := 131072) rfl) $$ [Hm19 HO Hw19]
  · isplitl [Hm19]; · iexact Hm19
    isplitl [HO]; · iexact HO
    iexact Hw19
  iintro ⟨⟨⟨%f11, Hs11⟩, Hout1⟩, Hm19, HO⟩
  beta_reduce
  sl_for (RowInv1 d L fal fs7 fs9 fb) $$ [Hs5 Hs7 Hs9 Hs12 Hs11]
  case region => exact row_trip1 d L fal fs7 fs9 fb
  · -- before the first row nothing is summed and nothing is written
    unfold RowInv1
    isplitr [Hs5 Hs7 Hs9 Hs12 Hs11]
    · ipureintro; rfl
    isplitl [Hs5]; · iexact Hs5
    isplitl [Hs7]; · iexact Hs7
    isplitl [Hs9]; · iexact Hs9
    isplitl [Hs12]; · iexact Hs12
    iexists f11
    isplitr [Hs11]
    · ipureintro; intro x hx; exact absurd hx (Nat.not_lt_zero _)
    iexact Hs11
  unfold RowInv1
  iintro %acc ⟨%hacc, Hs5, Hs7, Hs9, Hs12, ⟨%fo, %hfo, Hs11⟩⟩
  sl_exec
  -- the copy-out's rows, carved from the rows not yet written
  have hoff : k1_off50 L k = ![rA L k.val + 32 - 4096, 0] := by rw [k1_off50_eq' L k c13]; rfl
  have hbase : wL L * 1408 + 32 * (2 * k.val + 1) = rA L k.val + 32 := by unfold rA; rw [base_eq L]; omega
  have hsub : cN (rA L k.val + 32 - 4096) ⊆ nRem (wL L) (rA L k.val + 32) := by
    have h := cN_subset_nRem (wL L) (2 * k.val + 1) (by omega) (by rw [hbase]; omega)
    rwa [hbase] at h
  have hset : ((Memref.whole main_v9_1_scv : Memref sig Kind.scVector Space.hbm S40960x128 EltTy.f32).slice (Rect.unit (s := S40960x128) (k1_off50 L k) S32x128.size (k1_off50_inb L k c13)) (fun _ => rfl)).view.set = cN (rA L k.val + 32 - 4096) := by
    have h := set_e1n_slice (k1_off50 L k) (k1_off50_inb L k c13) (by rw [hoff]; rfl)
    have h0 : k1_off50 L k 0 = rA L k.val + 32 - 4096 := by rw [hoff]; rfl
    rw [h0] at h
    exact h
  ihave Hen := (pointsTo_split_subset (ℓ := (Memref.whole main_v9_1_scv : Memref sig Kind.scVector Space.hbm S40960x128 EltTy.f32).view.loc (thr d L)) (q := fullShare) (f := fn) hsub).1 $$ Hen
  icases Hen with ⟨Hc, Hen⟩
  ihave Hc' : iprop(((Memref.whole main_v9_1_scv : Memref sig Kind.scVector Space.hbm S40960x128 EltTy.f32).slice (Rect.unit (s := S40960x128) (k1_off50 L k) S32x128.size (k1_off50_inb L k c13)) (fun _ => rfl)).view.loc (thr d L) ↦[((Memref.whole main_v9_1_scv : Memref sig Kind.scVector Space.hbm S40960x128 EltTy.f32).slice (Rect.unit (s := S40960x128) (k1_off50 L k) S32x128.size (k1_off50_inb L k c13)) (fun _ => rfl)).view.set]{fullShare} fn) $$ [Hc]
  · rw [hset]; iexact Hc
  sl_exec
  -- the invariant before the next pair
  rw [wp_ret]; imodintro
  have hr1 : rA L (k.val + 1) = rA L k.val + 64 := by unfold rA; omega
  have e64 : rA L k.val + 64 - 64 = rA L k.val := by omega
  have e32 : rA L k.val + 64 - 32 = rA L k.val + 32 := by omega
  have h64 : rA L k.val = 64 * (wL L * 22 + k.val) := by unfold rA; rw [base_eq L]; omega
  have hbm : wL L * 1408 + 32 * (2 * k.val - 1) = rA L k.val - 32 := by unfold rA; rw [base_eq L]; omega
  have ht : Scf.trips k1_t3_loop.lb k1_t3_loop.ub k1_t3_loop.st = 32 := by decide
  rw [ht] at hacc hfo
  have hro : ∀ i col, i < 32 → col < 128 → rowOut fal fs7 fs9 fb i col = E1 I d (rA L k.val + 32 + i) col := fun i col hi hc =>
    rowOut_eq_E1 I d (rA L k.val + 32) (dvd_rA L k.val) fal fs7 fs9 fb hfal h1.2 h3.2 hfb i col hi hc
  -- the tables' shares the landed gathers gave back, on the whole tables
  have esp : ((Memref.whole main_v4_0_scv : Memref sig Kind.scVector Space.hbm S100000x128 EltTy.f32).view.loc (thr d L) ↦[(spSl).view.set]{Transfers.shareTokN (rsh (wL L)) 14} I.sp d : sProp 𝕄)
      = ((Memref.whole main_v4_0_scv : Memref sig Kind.scVector Space.hbm S100000x128 EltTy.f32).view.loc (thr d L) ↦{Transfers.shareTokN (rsh (wL L)) 14} I.sp d) := by rw [spSl_set]
  have eap : ((Memref.whole main_v4_1_scv : Memref sig Kind.scVector Space.hbm S100000x128 EltTy.f32).view.loc (thr d L) ↦[(apSl).view.set]{Transfers.shareTokN (rsh (wL L)) 15} I.ap d : sProp 𝕄)
      = ((Memref.whole main_v4_1_scv : Memref sig Kind.scVector Space.hbm S100000x128 EltTy.f32).view.loc (thr d L) ↦{Transfers.shareTokN (rsh (wL L)) 15} I.ap d) := by rw [apSl_set]
  ihave Hsp1 := (Entails.of_eq esp) $$ Hsp1
  ihave Hap1 := (Entails.of_eq eap) $$ Hap1
  have hfo' : ∀ x : S32x128.Idx, (x 0).val < 32 → fo x = E1 I d (rA L k.val + 32 + (x 0).val) (x 1).val :=
    fun x hx => (hfo x hx).trans (hro _ _ hx (x 1).isLt)
  have ho50a : k1_off50 L k 0 = rA L k.val + 32 - 4096 := by rw [hoff]; rfl
  have ho50b : k1_off50 L k 1 = 0 := by rw [hoff]; rfl
  unfold Inv
  rw [Set0_ge I d L hk1, Outs_pos I d L (Nat.succ_ne_zero _)]
  unfold Idle1 LoopRO Pieces FlW0 FlW1
  rw [hr1, e64, e32]
  iclear Hs11
  isplitl []
  · iexact Hmw
  isplitl [HO]
  · iexists _
    isplitr [HO]
    swap
    · iexact HO
    · ipureintro
      intro p hp
      repeat (rcases Finset.mem_insert.mp hp with hp | hp; · exact .inr (hp ▸ rfl))
      exact hW' p hp
  isplitl [Hnid Hn1 Hn2 Ha1 Ha2 Hr7 Hr8 Hr9 Hr10 Hr11 Hr12 Hr13 Hr14 Hr15 Hr16 Hr17 Hr18]
  · iframe Hnid Hn1 Hn2 Ha1 Ha2 Hr7 Hr8 Hr9 Hr10 Hr11 Hr12 Hr13 Hr14 Hr15
    isplitl [Hr16]
    · iexact Hr16
    isplitl [Hr17]
    · iexact Hr17
    iexact Hr18
  isplitl [Hs12]
  · iexists fb
    isplitr [Hs12]
    · ipureintro; exact hfb
    iexact Hs12
  isplitl [Hs13]
  · iexists _
    isplitr [Hs13]
    swap
    · iexact Hs13
    · ipureintro
      exact fun x => sq_post I d L k.val fsq acc (rowOut fal fs7 fs9 fb) hN hfsq hacc hro x
  isplitl [Hidle0]
  · iexact Hidle0
  isplitl [Hs1 Hs3 Hs5 Hs7 Hs9 Hm16 Hm17 Hsp1 Hap1]
  · isplitl [Hs1]
    · iexists _; iexact Hs1
    isplitl [Hs3]
    · iexists _; iexact Hs3
    isplitl [Hs5]
    · iexists _; iexact Hs5
    isplitl [Hs7]
    · iexists _; iexact Hs7
    isplitl [Hs9]
    · iexists _; iexact Hs9
    isplitl [Hm16]
    · iexact Hm16
    isplitl [Hm17]
    · iexact Hm17
    isplitl [Hsp1]
    · iexact Hsp1
    iexact Hap1
  isplitl [Hm18 Hm19]
  · isplitl [Hm18]
    · iexact Hm18
    iapply (Transfers.Flight_mono countersEmb (thr d L)
      (out_payload I d L k.val hN (k1_off50 L k) (k1_off50_inb L k c13) ho50a ho50b fn fo (tripB_N_last.sl.dma0 d L fo) (fun y => rfl) hfo')) $$ Hm19
  -- the rows of the two results
  have eTr : tRem (wL L) (rA L k.val + 32) = tRem (wL L) (rA L k.val + 64) := tRem_of_ge _ _ _ (by omega) (by omega)
  have eNr : nRem (wL L) (rA L k.val + 32) \ cN (rA L k.val + 32 - 4096) = nRem (wL L) (rA L k.val + 64) := by
    have h := nRem_sdiff_cN (wL L) (2 * k.val + 1) (by omega) (by rw [hbase]; omega)
    rw [hbase, show rA L k.val + 32 + 32 = rA L k.val + 64 from by omega] at h
    exact h
  isplitl [Het]
  · iexists ft
    rw [← eTr]
    iexact Het
  isplitl [Hen]
  · iexists fn
    rw [← eNr]
    iexact Hen
  rcases Nat.lt_or_ge (rA L k.val - 32) 4096 with hB | hB
  · -- the copy-out that landed was of the last target chunk
    have eo : outDone I d L (rA L k.val - 32) = iprop((Memref.whole main_v9_0_scv : Memref sig Kind.scVector Space.hbm S4096x128 EltTy.f32).view.loc (thr d L) ↦[cT (rA L k.val - 32)]{fullShare} E1t I d) := by
      unfold outDone; rw [if_pos hB]
    ihave Hout1 := (Entails.of_eq eo) $$ Hout1
    have eT : tDone (wL L) (rA L k.val - 32) ∪ cT (rA L k.val - 32) = tDone (wL L) (rA L k.val) := by
      have h := tDone_union_cT (wL L) (2 * k.val - 1) (by omega) (by rw [hbm]; exact hB)
      rw [hbm, show rA L k.val - 32 + 32 = rA L k.val from by omega] at h
      exact h
    have eN : nDone (wL L) (rA L k.val - 32) = nDone (wL L) (rA L k.val) := nDone_of_lt _ _ _ (by omega) (by omega)
    isplitl [Hdt Hout1]
    · rw [← eT]
      iapply (pointsTo_union (ℓ := (Memref.whole main_v9_0_scv : Memref sig Kind.scVector Space.hbm S4096x128 EltTy.f32).view.loc (thr d L)) (q := fullShare) (f := E1t I d) (tDone_disjoint_cT (wL L) (rA L k.val - 32))).2
      isplitl [Hdt]
      · iexact Hdt
      iexact Hout1
    · rw [← eN]
      iexact Hdn
  · -- it was of a neighbour chunk
    have eo : outDone I d L (rA L k.val - 32) = iprop((Memref.whole main_v9_1_scv : Memref sig Kind.scVector Space.hbm S40960x128 EltTy.f32).view.loc (thr d L) ↦[cN (rA L k.val - 32 - 4096)]{fullShare} E1n I d) := by
      unfold outDone; rw [if_neg (by omega)]
    ihave Hout1 := (Entails.of_eq eo) $$ Hout1
    have eT : tDone (wL L) (rA L k.val - 32) = tDone (wL L) (rA L k.val) := tDone_of_ge _ _ _ (by omega) (by omega)
    have eN : nDone (wL L) (rA L k.val - 32) ∪ cN (rA L k.val - 32 - 4096) = nDone (wL L) (rA L k.val) := by
      have h := nDone_union_cN (wL L) (2 * k.val - 1) (by omega) (by rw [hbm]; exact hB)
      rw [hbm, show rA L k.val - 32 + 32 = rA L k.val from by omega] at h
      exact h
    isplitl [Hdt]
    · rw [← eT]
      iexact Hdt
    · rw [← eN]
      iapply (pointsTo_union (ℓ := (Memref.whole main_v9_1_scv : Memref sig Kind.scVector Space.hbm S40960x128 EltTy.f32).view.loc (thr d L)) (q := fullShare) (f := E1n I d) (nDone_disjoint_cN (wL L) (rA L k.val - 32) hB)).2
      isplitl [Hdn]
      · iexact Hdn
      iexact Hout1

end Tile
end Cert.Kernel.Tile
end
-- ==== Proof.Twin.TileTripBN.lean ====
/-
  The second half of a pair of chunks on a vector subcore, when the pair's chunks are neighbour chunks.
-/
import proofs.«213116_g69346541961480_cont_9to1_m_612_34_alg».proof.Proof.Twin.TileMid
import proofs.«213116_g69346541961480_cont_9to1_m_612_34_alg».proof.Proof.Twin.TileFacts
import proofs.«213116_g69346541961480_cont_9to1_m_612_34_alg».proof.Proof.Twin.TileVals
import proofs.«213116_g69346541961480_cont_9to1_m_612_34_alg».proof.Proof.Twin.TileTripBNFirst
import proofs.«213116_g69346541961480_cont_9to1_m_612_34_alg».proof.Proof.Twin.TileTripBNMid
import proofs.«213116_g69346541961480_cont_9to1_m_612_34_alg».proof.Proof.Twin.TileTripBNLast
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

theorem tripB_N (hpre : PreOK I) (O : CellTallies nD τ sig (HIx 1)) (W : Waits sig (HIx 1)) (k : Fin k1_t1_loop.trips) (arg34 : BitVec 32) (hN : 4096 ≤ rA L k.val) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  by_cases hk0 : k.val = 0
  · exact tripB_N_first I d L hpre O W k arg34 hN hk0
  by_cases hk1 : k.val + 1 < 22
  · exact tripB_N_mid I d L hpre O W k arg34 hN hk0 hk1
  · exact tripB_N_last I d L hpre O W k arg34 hN hk1

end Tile
end Cert.Kernel.Tile
end
-- ==== Proof.Twin.TileTripB.lean ====
/-
  The second half of a pair of chunks on a vector subcore: from the middle of the pair to the pair loop's invariant
  after it, by the kind of the pair's chunks.
-/
import proofs.«213116_g69346541961480_cont_9to1_m_612_34_alg».proof.Proof.Twin.TileTripBT
import proofs.«213116_g69346541961480_cont_9to1_m_612_34_alg».proof.Proof.Twin.TileTripBN
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem tripB_run (hpre : PreOK I) (O : CellTallies nD τ sig (HIx 1)) (W : Waits sig (HIx 1)) (k : Fin k1_t1_loop.trips) (arg34 : BitVec 32) :
    Mid I d L O W k.val arg34
      ⊢ wp frame (wpE (defs₀ (F := F)) 𝒱₀ (thr d L) none) Set.univ
          (tripB (F := F) L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k arg34) (Inv I d L O W (k.val + 1)) := by
  rcases Nat.lt_or_ge (rA L k.val) 4096 with hT | hN
  · exact tripB_T I d L hpre O W k arg34 hT
  · exact tripB_N I d L hpre O W k arg34 hN

end Tile
end Cert.Kernel.Tile
end
-- ==== Proof.Twin.TileTrip.lean ====
/-
  One pair of chunks on a vector subcore, from the pair loop's invariant before the pair to the invariant after it: its
  two halves in sequence.
-/
import proofs.«213116_g69346541961480_cont_9to1_m_612_34_alg».proof.Proof.Twin.TileTripA
import proofs.«213116_g69346541961480_cont_9to1_m_612_34_alg».proof.Proof.Twin.TileTripB
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
theorem trip (hpre : PreOK I) (O : CellTallies nD τ sig (HIx 1)) (W : Waits sig (HIx 1)) :
    ∀ (k : Fin k1_t1_loop.trips) (acc : Unit), Inv I d L O W k.val acc
      ⊢ wp frame (wpE (defs₀ (F := F)) 𝒱₀ (thr d L) none) Set.univ
          (k1_t1_body L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 (v2 L) k acc) (Inv I d L O W (k.val + 1)) := by
  intro k acc
  rw [k1_t1_body_cut, wp_bind]
  exact (tripA_run I d L hpre O W k).trans (wp_mono frame _ _ fun r => tripB_run I d L hpre O W k r.1)

end Tile
end Cert.Kernel.Tile
end
-- ==== Proof.Twin.TilePro.lean ====
/-
  The first part of a vector subcore's run: the bias fetched, the two sums zeroed, the first chunk's lists fetched and its
  gathers started, and the 22 pairs of chunks by the pair loop's invariant.
-/
import proofs.«213116_g69346541961480_cont_9to1_m_612_34_alg».proof.Proof.Twin.TileTrip
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-! ## What the first chunk's lists hold -/

omit [FloatOps F] in
theorem pro_base_lt_of_cond1 (hc : k1_cond1 L = 1#1) : base L < 4096 := (k1_cond1_iff L).mp hc
omit [FloatOps F] in
theorem pro_base_ge_of_cond2 (hc : k1_cond2 L = 1#1) : 4096 ≤ base L := (k1_cond2_iff L).mp hc

omit [FloatOps F] in
theorem pro_self_lo (hc : k1_cond1 L = 1#1) (x : S32.Idx) :
    ReadAs.same.apply (View.read (Elt F) ((m_nid).slice (Rect.unit (s := S4096) (k1_off1 L) S32.size (k1_off1_inb L hc)) (fun _ => rfl)).view (I.nid d)) x
      = selfIdx I d (base L) (x 0).val := by
  have hb : base L < 4096 := pro_base_lt_of_cond1 L hc
  have hx : (x 0).val < 32 := (x 0).isLt
  have hinb : k1_off1 L 0 + 32 ≤ 4096 := k1_off1_inb L hc 0
  have ho : k1_off1 L 0 = base L := by rw [k1_off1_eq]; rfl
  unfold selfIdx; rw [if_pos hb]
  show I.nid d _ = I.nid d _
  congr 1
  funext a; apply Fin.ext
  match a with
  | ⟨0, _⟩ =>
    show k1_off1 L 0 + 1 * (x 0).val = (base L + (x 0).val) % 4096
    rw [ho] at hinb ⊢
    rw [Nat.mod_eq_of_lt (by omega)]; omega

omit [FloatOps F] in
theorem pro_self_hi (hc : k1_cond2 L = 1#1) (x : S32.Idx) :
    ReadAs.same.apply (View.read (Elt F) ((m_n1).slice (Rect.unit (s := S40960) (k1_off3 L) S32.size (k1_off3_inb L hc)) (fun _ => rfl)).view (I.n1 d)) x
      = selfIdx I d (base L) (x 0).val := by
  have hb : ¬ base L < 4096 := Nat.not_lt.mpr (pro_base_ge_of_cond2 L hc)
  have hx : (x 0).val < 32 := (x 0).isLt
  have hinb : k1_off3 L 0 + 32 ≤ 40960 := k1_off3_inb L hc 0
  have ho : k1_off3 L 0 = base L - 4096 := by rw [k1_off3_eq' L hc]; rfl
  unfold selfIdx; rw [if_neg hb]
  show I.n1 d _ = I.n1 d _
  congr 1
  funext a; apply Fin.ext
  match a with
  | ⟨0, _⟩ =>
    show k1_off3 L 0 + 1 * (x 0).val = (base L - 4096 + (x 0).val) % 40960
    rw [ho] at hinb ⊢
    rw [Nat.mod_eq_of_lt (by omega)]; omega

omit [FloatOps F] in
theorem pro_off2_eq_base : k1_off2 L 0 = base L * 10 := by
  rw [k1_off2_eq]; show 28160 * (L 1).val + 14080 * (L 0).val = (2816 * (L 1).val + 1408 * (L 0).val) * 10; omega
omit [FloatOps F] in
theorem pro_off4_eq_base (hc : k1_cond2 L = 1#1) : k1_off4 L 0 = (base L - 4096) * 10 := by rw [k1_off4_eq' L hc]; rfl

omit [FloatOps F] in
theorem pro_nbr_lo (hc : k1_cond1 L = 1#1) (x : S320.Idx) :
    ReadAs.same.apply (View.read (Elt F) ((m_n1).slice (Rect.unit (s := S40960) (k1_off2 L) S320.size (k1_off2_inb L hc)) (fun _ => rfl)).view (I.n1 d)) x
      = nbrIdx I d (base L) (x 0).val := by
  have hb : base L < 4096 := pro_base_lt_of_cond1 L hc
  have hx : (x 0).val < 320 := (x 0).isLt
  have hinb : k1_off2 L 0 + 320 ≤ 40960 := k1_off2_inb L hc 0
  have ho := pro_off2_eq_base L
  unfold nbrIdx; rw [if_pos hb]
  show I.n1 d _ = I.n1 d _
  congr 1
  funext a; apply Fin.ext
  match a with
  | ⟨0, _⟩ =>
    show k1_off2 L 0 + 1 * (x 0).val = (base L * 10 + (x 0).val) % 40960
    rw [ho] at hinb ⊢
    rw [Nat.mod_eq_of_lt (by omega)]; omega

omit [FloatOps F] in
theorem pro_nbr_hi (hc : k1_cond2 L = 1#1) (x : S320.Idx) :
    ReadAs.same.apply (View.read (Elt F) ((m_n2).slice (Rect.unit (s := S409600) (k1_off4 L) S320.size (k1_off4_inb L hc)) (fun _ => rfl)).view (I.n2 d)) x
      = nbrIdx I d (base L) (x 0).val := by
  have hb : ¬ base L < 4096 := Nat.not_lt.mpr (pro_base_ge_of_cond2 L hc)
  have hx : (x 0).val < 320 := (x 0).isLt
  have hinb : k1_off4 L 0 + 320 ≤ 409600 := k1_off4_inb L hc 0
  have ho := pro_off4_eq_base L hc
  unfold nbrIdx; rw [if_neg hb]
  show I.n2 d _ = I.n2 d _
  congr 1
  funext a; apply Fin.ext
  match a with
  | ⟨0, _⟩ =>
    show k1_off4 L 0 + 1 * (x 0).val = ((base L - 4096) * 10 + (x 0).val) % 409600
    rw [ho] at hinb ⊢
    rw [Nat.mod_eq_of_lt (by omega)]; omega

omit [FloatOps F] in
theorem pro_al_lo (hc : k1_cond1 L = 1#1) (x : S320.Idx) :
    ReadAs.same.apply (View.read (Elt F) ((m_a1).slice (Rect.unit (s := S40960) (k1_off2 L) S320.size (k1_off2_inb L hc)) (fun _ => rfl)).view (I.a1 d)) x
      = alph I d (base L) (x 0).val := by
  have hb : base L < 4096 := pro_base_lt_of_cond1 L hc
  have hx : (x 0).val < 320 := (x 0).isLt
  have hinb : k1_off2 L 0 + 320 ≤ 40960 := k1_off2_inb L hc 0
  have ho := pro_off2_eq_base L
  unfold alph; rw [if_pos hb]
  show I.a1 d _ = I.a1 d _
  congr 1
  funext a; apply Fin.ext
  match a with
  | ⟨0, _⟩ =>
    show k1_off2 L 0 + 1 * (x 0).val = (base L * 10 + (x 0).val) % 40960
    rw [ho] at hinb ⊢
    rw [Nat.mod_eq_of_lt (by omega)]; omega

omit [FloatOps F] in
theorem pro_al_hi (hc : k1_cond2 L = 1#1) (x : S320.Idx) :
    ReadAs.same.apply (View.read (Elt F) ((m_a2).slice (Rect.unit (s := S409600) (k1_off4 L) S320.size (k1_off4_inb L hc)) (fun _ => rfl)).view (I.a2 d)) x
      = alph I d (base L) (x 0).val := by
  have hb : ¬ base L < 4096 := Nat.not_lt.mpr (pro_base_ge_of_cond2 L hc)
  have hx : (x 0).val < 320 := (x 0).isLt
  have hinb : k1_off4 L 0 + 320 ≤ 409600 := k1_off4_inb L hc 0
  have ho := pro_off4_eq_base L hc
  unfold alph; rw [if_neg hb]
  show I.a2 d _ = I.a2 d _
  congr 1
  funext a; apply Fin.ext
  match a with
  | ⟨0, _⟩ =>
    show k1_off4 L 0 + 1 * (x 0).val = ((base L - 4096) * 10 + (x 0).val) % 409600
    rw [ho] at hinb ⊢
    rw [Nat.mod_eq_of_lt (by omega)]; omega

omit [FloatOps F] in
/-- Exactly one of the two guarded fetches of a list ran; it wrote the whole buffer. -/
theorem pro_pick_whole {b : Ref sig .scVector} (f0 : b.ty.Contents (Elt F))
    (pA : k1_cond1 L = 1#1 → b.ty.shape.Idx → Elt F b.ty.elt) (pB : k1_cond2 L = 1#1 → b.ty.shape.Idx → Elt F b.ty.elt)
    (G : b.ty.shape.Idx → Elt F b.ty.elt) (hA : ∀ hc x, pA hc x = G x) (hB : ∀ hc x, pB hc x = G x) (x : b.ty.shape.Idx) :
    (if hc : k1_cond2 L = 1#1 then
        View.write (Elt F) (Memref.whole b).view
          (if hc : k1_cond1 L = 1#1 then View.write (Elt F) (Memref.whole b).view f0 (pA hc) Finset.univ else f0) (pB hc) Finset.univ
      else if hc : k1_cond1 L = 1#1 then View.write (Elt F) (Memref.whole b).view f0 (pA hc) Finset.univ else f0) x = G x := by
  by_cases h2 : k1_cond2 L = 1#1
  · rw [dif_pos h2]
    exact (congrFun (View.write_whole_univ b _ (pB h2)) x).trans (hB h2 x)
  · have h1 : k1_cond1 L = 1#1 := (k1_cond1_iff L).mpr (by have := mt (k1_cond2_iff L).mpr h2; unfold base at *; omega)
    rw [dif_neg h2, dif_pos h1]
    exact (congrFun (View.write_whole_univ b _ (pA h1)) x).trans (hA h1 x)

/-- The index below 320 of the 336-entry buffer, as an index of its 320-entry front. -/
def pro_frontIdx (x : S336.Idx) (hx : (x 0).val < 320) : S320.Idx := fun a => match a with | ⟨0, _⟩ => (⟨(x 0).val, hx⟩ : Fin 320)

omit [FloatOps F] in
/-- One fetch of 320 weights into the front of the 336-entry buffer: the entries below 320 are the fetched ones. -/
theorem pro_writes_front (f : cc1_scratch4.ty.Contents (Elt F)) (p : S320.Idx → Elt F .f32) (x : S336.Idx) (hx : (x 0).val < 320) :
    (s_4).view.writes (Elt F) f [⟨Rect.unit (s := S336) ![0] S320.size inb_S336_S320_0, p⟩] x
      = p (pro_frontIdx x hx) := by
  have h := View.read_writes_cons_emb (v := (s_4).view) (f := f) (Rect.unit (s := S336) ![0] S320.size inb_S336_S320_0) p []
    (pro_frontIdx x hx)
  have he : (Rect.unit (s := S336) ![0] S320.size inb_S336_S320_0).emb (pro_frontIdx x hx) = x := by
    funext a; apply Fin.ext
    match a with
    | ⟨0, _⟩ => show 0 + 1 * (x 0).val = (x 0).val; omega
  rw [he] at h
  exact h

omit [FloatOps F] in
theorem pro_pick_al (f4 : cc1_scratch4.ty.Contents (Elt F))
    (pA : k1_cond1 L = 1#1 → S320.Idx → Elt F .f32) (pB : k1_cond2 L = 1#1 → S320.Idx → Elt F .f32)
    (hA : ∀ hc x, pA hc x = alph I d (base L) (x 0).val) (hB : ∀ hc x, pB hc x = alph I d (base L) (x 0).val)
    (x : S336.Idx) (hx : (x 0).val < 320) :
    (if hc : k1_cond2 L = 1#1 then
        (s_4).view.writes (Elt F)
          (if hc : k1_cond1 L = 1#1 then (s_4).view.writes (Elt F) f4 [⟨Rect.unit (s := S336) ![0] S320.size inb_S336_S320_0, pA hc⟩] else f4)
          [⟨Rect.unit (s := S336) ![0] S320.size inb_S336_S320_0, pB hc⟩]
      else if hc : k1_cond1 L = 1#1 then (s_4).view.writes (Elt F) f4 [⟨Rect.unit (s := S336) ![0] S320.size inb_S336_S320_0, pA hc⟩] else f4) x
      = alph I d (base L) (x 0).val := by
  by_cases h2 : k1_cond2 L = 1#1
  · rw [dif_pos h2, pro_writes_front _ _ x hx]; exact hB h2 _
  · have h1 : k1_cond1 L = 1#1 := (k1_cond1_iff L).mpr (by have := mt (k1_cond2_iff L).mpr h2; unfold base at *; omega)
    rw [dif_neg h2, dif_pos h1, pro_writes_front _ _ x hx]; exact hA h1 _

/-- The two rows of sums, zeroed one row at a time, hold zeros. -/
theorem pro_zeros_eq (f13 : cc1_scratch13.ty.Contents (Elt F)) (x : S2x16.Idx) :
    (s_13).view.writes (Elt F) f13
        [⟨Rect.unit (s := S2x16) ![1, 0] S1x16.size inb_S2x16_S1x16_1_0, k1_pay115 (F := F)⟩,
         ⟨Rect.unit (s := S2x16) ![0, 0] S1x16.size inb_S2x16_S1x16_0_0, k1_pay114 (F := F)⟩] x
      = tileSqUpto I d (wL L) (2 * 0) (decide ((x 0).val = 0)) (x 1).val := by
  have hx0 : (x 0).val < 2 := (x 0).isLt
  have h := View.read_writes_apply_of_pieces (v := (s_13).view) (f := f13) (fun _ : S2x16.Idx => (Scalar.ofBits .f32 0x00000000#32 : F .f32))
    [⟨Rect.unit (s := S2x16) ![1, 0] S1x16.size inb_S2x16_S1x16_1_0, k1_pay115 (F := F)⟩,
     ⟨Rect.unit (s := S2x16) ![0, 0] S1x16.size inb_S2x16_S1x16_0_0, k1_pay114 (F := F)⟩]
    (fun p hp y => by
      rcases List.mem_cons.mp hp with rfl | hp
      · rfl
      · rcases List.mem_cons.mp hp with rfl | hp
        · rfl
        · exact absurd hp List.not_mem_nil)
    x (by
      by_cases h0 : (x 0).val = 0
      · refine ⟨_, List.mem_cons_of_mem _ List.mem_cons_self, ?_⟩
        rw [Rect.mem_set_unit]
        intro a
        match a with
        | ⟨0, _⟩ => show 0 ≤ (x 0).val ∧ (x 0).val < 0 + 1; omega
        | ⟨1, _⟩ => show 0 ≤ (x 1).val ∧ (x 1).val < 0 + 16; have h1 : (x 1).val < 16 := (x 1).isLt; omega
      · refine ⟨_, List.mem_cons_self, ?_⟩
        rw [Rect.mem_set_unit]
        intro a
        match a with
        | ⟨0, _⟩ => show 1 ≤ (x 0).val ∧ (x 0).val < 1 + 1; omega
        | ⟨1, _⟩ => show 0 ≤ (x 1).val ∧ (x 1).val < 0 + 16; have h1 : (x 1).val < 16 := (x 1).isLt; omega)
  exact h

omit [FloatOps F] in
/-- The bias copied whole. -/
theorem pro_bias_eq (f12 : cc1_scratch12.ty.Contents (Elt F)) (x : S128.Idx) :
    View.write (Elt F) (s_12).view f12 (ReadAs.same.apply (View.read (Elt F) (m_b).view (I.b d))) Finset.univ x = I.b d x :=
  congrFun (View.write_whole_univ cc1_scratch12 f12 _) x

omit [FloatOps F] in
theorem pro_selfIdx_lt (hpre : PreOK I) (r0 i : ℕ) : (selfIdx I d r0 i).toNat < 100000 := by
  unfold selfIdx; split
  · exact (hpre d).1 _
  · exact (hpre d).2.1 _
omit [FloatOps F] in
theorem pro_nbrIdx_lt (hpre : PreOK I) (r0 j : ℕ) : (nbrIdx I d r0 j).toNat < 100000 := by
  unfold nbrIdx; split
  · exact (hpre d).2.1 _
  · exact (hpre d).2.2 _

omit [FloatOps F] in
theorem pro_rowMajor_symm_val1 {n : ℕ} (j : Fin (⟨1, ![n]⟩ : Shape).numel) : (((⟨1, ![n]⟩ : Shape).rowMajor.symm j) 0).val = j.val := by
  have h := Shape.rowMajor_val_one (d := ![n]) ((⟨1, ![n]⟩ : Shape).rowMajor.symm j)
  rw [Equiv.apply_symm_apply] at h
  exact h.symm

omit [FloatOps F] in
theorem pro_gatherS_apply (r0 : ℕ) (g0 : Buf (Elt F) ((s_0).view.loc (thr d L))) (hpre : PreOK I)
    (hg0 : ∀ x : S32.Idx, g0 x = selfIdx I d r0 (x 0).val)
    (hin0 : ∀ x, ((s_0).view.read (Elt F) g0 x).toNat < S100000x128.size (gathers_S100000x128_S32x128).axis) (x : S32x128.Idx) :
    SparseCore.gatherPayload gathers_S100000x128_S32x128 ((spSl).view.read (Elt F) (I.sp d))
        (SparseCore.rows ((s_0).view.read (Elt F) g0) rfl hin0) x
      = I.sp d (ixTab (selfIdx I d r0 (x 0).val).toNat (x 1).val) := by
  unfold SparseCore.gatherPayload
  show I.sp d _ = I.sp d _
  congr 1
  have hx1 : (x 1).val < 128 := (x 1).isLt
  have hs := pro_selfIdx_lt I d hpre r0 (x 0).val
  funext a; apply Fin.ext
  match a with
  | ⟨0, _⟩ =>
    show 0 + 1 * ((gathers_S100000x128_S32x128).idx (SparseCore.rows ((s_0).view.read (Elt F) g0) rfl hin0) x (0 : Fin 2)).val = (selfIdx I d r0 (x 0).val).toNat % 100000
    rw [Nat.mod_eq_of_lt hs]
    have h0 : ((gathers_S100000x128_S32x128).idx (SparseCore.rows ((s_0).view.read (Elt F) g0) rfl hin0) x (0 : Fin 2)).val
        = (g0 (S32.rowMajor.symm ((x 0).cast rfl))).toNat := rfl
    rw [h0, hg0, pro_rowMajor_symm_val1]
    show 0 + 1 * (selfIdx I d r0 (x 0).val).toNat = _
    omega
  | ⟨1, _⟩ =>
    show 0 + 1 * ((gathers_S100000x128_S32x128).idx (SparseCore.rows ((s_0).view.read (Elt F) g0) rfl hin0) x (1 : Fin 2)).val = (x 1).val % 128
    rw [Nat.mod_eq_of_lt hx1]
    have h1 : ((gathers_S100000x128_S32x128).idx (SparseCore.rows ((s_0).view.read (Elt F) g0) rfl hin0) x (1 : Fin 2)).val = (x 1).val := rfl
    rw [h1]; omega

omit [FloatOps F] in
theorem pro_gatherN_apply (r0 : ℕ) (g2 : Buf (Elt F) ((s_2).view.loc (thr d L))) (hpre : PreOK I)
    (hg2 : ∀ x : S320.Idx, g2 x = nbrIdx I d r0 (x 0).val)
    (hin2 : ∀ x, ((s_2).view.read (Elt F) g2 x).toNat < S100000x128.size (gathers_S100000x128_S320x128).axis) (x : S320x128.Idx) :
    SparseCore.gatherPayload gathers_S100000x128_S320x128 ((apSl).view.read (Elt F) (I.ap d))
        (SparseCore.rows ((s_2).view.read (Elt F) g2) rfl hin2) x
      = I.ap d (ixTab (nbrIdx I d r0 (x 0).val).toNat (x 1).val) := by
  unfold SparseCore.gatherPayload
  show I.ap d _ = I.ap d _
  congr 1
  have hx1 : (x 1).val < 128 := (x 1).isLt
  have hs := pro_nbrIdx_lt I d hpre r0 (x 0).val
  funext a; apply Fin.ext
  match a with
  | ⟨0, _⟩ =>
    show 0 + 1 * ((gathers_S100000x128_S320x128).idx (SparseCore.rows ((s_2).view.read (Elt F) g2) rfl hin2) x (0 : Fin 2)).val = (nbrIdx I d r0 (x 0).val).toNat % 100000
    rw [Nat.mod_eq_of_lt hs]
    have h0 : ((gathers_S100000x128_S320x128).idx (SparseCore.rows ((s_2).view.read (Elt F) g2) rfl hin2) x (0 : Fin 2)).val
        = (g2 (S320.rowMajor.symm ((x 0).cast rfl))).toNat := rfl
    rw [h0, hg2, pro_rowMajor_symm_val1]
    show 0 + 1 * (nbrIdx I d r0 (x 0).val).toNat = _
    omega
  | ⟨1, _⟩ =>
    show 0 + 1 * ((gathers_S100000x128_S320x128).idx (SparseCore.rows ((s_2).view.read (Elt F) g2) rfl hin2) x (1 : Fin 2)).val = (x 1).val % 128
    rw [Nat.mod_eq_of_lt hx1]
    have h1 : ((gathers_S100000x128_S320x128).idx (SparseCore.rows ((s_2).view.read (Elt F) g2) rfl hin2) x (1 : Fin 2)).val = (x 1).val := rfl
    rw [h1]; omega

omit [FloatOps F] in
/-- One write through the whole rectangle leaves its payload. -/
theorem pro_writes_whole_apply (b : Ref sig .scVector) (f : b.ty.Contents (Elt F)) (p : b.ty.shape.Idx → Elt F b.ty.elt) (x : b.ty.shape.Idx) :
    (Memref.whole b).view.writes (Elt F) f [⟨Rect.whole b.ty.shape, p⟩] x = p x := by
  have h := View.read_writes_cons_emb (v := (Memref.whole b).view) (f := f) (Rect.whole b.ty.shape) p [] x
  rw [Rect.emb_whole_apply] at h
  exact h

/-- The first chunk's self gather as issued: its landing hands back the buffer written with the gathered rows, the
    list, and the table's share. -/
def pro_issuedS (f6 : Buf (Elt F) ((s_6).view.loc (thr d L))) (g0 : Buf (Elt F) ((s_0).view.loc (thr d L)))
    (hin0 : ∀ x, ((s_0).view.read (Elt F) g0 x).toNat < S100000x128.size (gathers_S100000x128_S32x128).axis) : sProp 𝕄 :=
  Transfers.Flight countersEmb (thr d L) (SemLoc.dma cc1_scratch14.sem) default 131072
      iprop((((s_6).view.loc (thr d L) ↦{fullShare} (s_6).view.writes (Elt F) f6
          [⟨Rect.whole cc1_scratch6.ty.shape, SparseCore.gatherPayload gathers_S100000x128_S32x128 ((spSl).view.read (Elt F) (I.sp d))
            (SparseCore.rows ((s_0).view.read (Elt F) g0) rfl hin0)⟩])
        ∗ ((s_0).view.loc (thr d L) ↦{fullShare} g0))
        ∗ ((m_sp).view.loc (thr d L) ↦[(spSl).view.set]{Transfers.shareTokN (rsh (wL L)) 12} I.sp d))
/-- The first chunk's neighbour gather as issued. -/
def pro_issuedN (f8 : Buf (Elt F) ((s_8).view.loc (thr d L))) (g2 : Buf (Elt F) ((s_2).view.loc (thr d L)))
    (hin2 : ∀ x, ((s_2).view.read (Elt F) g2 x).toNat < S100000x128.size (gathers_S100000x128_S320x128).axis) : sProp 𝕄 :=
  Transfers.Flight countersEmb (thr d L) (SemLoc.dma cc1_scratch15.sem) default 1310720
      iprop((((s_8).view.loc (thr d L) ↦{fullShare} (s_8).view.writes (Elt F) f8
          [⟨Rect.whole cc1_scratch8.ty.shape, SparseCore.gatherPayload gathers_S100000x128_S320x128 ((apSl).view.read (Elt F) (I.ap d))
            (SparseCore.rows ((s_2).view.read (Elt F) g2) rfl hin2)⟩])
        ∗ ((s_2).view.loc (thr d L) ↦{fullShare} g2))
        ∗ ((m_ap).view.loc (thr d L) ↦[(apSl).view.set]{Transfers.shareTokN (rsh (wL L)) 13} I.ap d))

/-- The first chunk's self gather, as issued, is the flight the pair loop's invariant names. -/
theorem pro_flS0_intro (hpre : PreOK I) (r0 : ℕ) (f6 : Buf (Elt F) ((s_6).view.loc (thr d L))) (g0 : Buf (Elt F) ((s_0).view.loc (thr d L)))
    (hg0 : ∀ x : S32.Idx, g0 x = selfIdx I d r0 (x 0).val)
    (hin0 : ∀ x, ((s_0).view.read (Elt F) g0 x).toNat < S100000x128.size (gathers_S100000x128_S32x128).axis) :
    (Transfers.Flight countersEmb (thr d L) (SemLoc.dma cc1_scratch14.sem) default 131072
      iprop((((s_6).view.loc (thr d L) ↦{fullShare} (s_6).view.writes (Elt F) f6
          [⟨Rect.whole cc1_scratch6.ty.shape, SparseCore.gatherPayload gathers_S100000x128_S32x128 ((spSl).view.read (Elt F) (I.sp d))
            (SparseCore.rows ((s_0).view.read (Elt F) g0) rfl hin0)⟩])
        ∗ ((s_0).view.loc (thr d L) ↦{fullShare} g0))
        ∗ ((m_sp).view.loc (thr d L) ↦[(spSl).view.set]{Transfers.shareTokN (rsh (wL L)) 12} I.sp d)) : sProp 𝕄)
      ⊢ FlS0 I d L r0 := by
  unfold FlS0
  refine Transfers.Flight_mono countersEmb (thr d L) ?_
  iintro ⟨⟨H6, H0⟩, Hsp⟩
  iexists _, g0
  isplitr
  · ipureintro
    exact ⟨hg0, fun x => (pro_writes_whole_apply cc1_scratch6 f6 _ x).trans (pro_gatherS_apply I d L r0 g0 hpre hg0 hin0 x)⟩
  isplitl [H6]; · iexact H6
  isplitl [H0]; · iexact H0
  iexact Hsp

theorem pro_flN0_intro (hpre : PreOK I) (r0 : ℕ) (f8 : Buf (Elt F) ((s_8).view.loc (thr d L))) (g2 : Buf (Elt F) ((s_2).view.loc (thr d L)))
    (hg2 : ∀ x : S320.Idx, g2 x = nbrIdx I d r0 (x 0).val)
    (hin2 : ∀ x, ((s_2).view.read (Elt F) g2 x).toNat < S100000x128.size (gathers_S100000x128_S320x128).axis) :
    (Transfers.Flight countersEmb (thr d L) (SemLoc.dma cc1_scratch15.sem) default 1310720
      iprop((((s_8).view.loc (thr d L) ↦{fullShare} (s_8).view.writes (Elt F) f8
          [⟨Rect.whole cc1_scratch8.ty.shape, SparseCore.gatherPayload gathers_S100000x128_S320x128 ((apSl).view.read (Elt F) (I.ap d))
            (SparseCore.rows ((s_2).view.read (Elt F) g2) rfl hin2)⟩])
        ∗ ((s_2).view.loc (thr d L) ↦{fullShare} g2))
        ∗ ((m_ap).view.loc (thr d L) ↦[(apSl).view.set]{Transfers.shareTokN (rsh (wL L)) 13} I.ap d)) : sProp 𝕄)
      ⊢ FlN0 I d L r0 := by
  unfold FlN0
  refine Transfers.Flight_mono countersEmb (thr d L) ?_
  iintro ⟨⟨H8, H2⟩, Hap⟩
  iexists _, g2
  isplitr
  · ipureintro
    exact ⟨hg2, fun x => (pro_writes_whole_apply cc1_scratch8 f8 _ x).trans (pro_gatherN_apply I d L r0 g2 hpre hg2 hin2 x)⟩
  isplitl [H8]; · iexact H8
  isplitl [H2]; · iexact H2
  iexact Hap

theorem pro_flS0_of_issued (hpre : PreOK I) (r0 : ℕ) (f6 : Buf (Elt F) ((s_6).view.loc (thr d L))) (g0 : Buf (Elt F) ((s_0).view.loc (thr d L)))
    (hg0 : ∀ x : S32.Idx, g0 x = selfIdx I d r0 (x 0).val)
    (hin0 : ∀ x, ((s_0).view.read (Elt F) g0 x).toNat < S100000x128.size (gathers_S100000x128_S32x128).axis) :
    pro_issuedS I d L f6 g0 hin0 ⊢ FlS0 I d L r0 := by
  unfold pro_issuedS; exact pro_flS0_intro I d L hpre r0 f6 g0 hg0 hin0
theorem pro_flN0_of_issued (hpre : PreOK I) (r0 : ℕ) (f8 : Buf (Elt F) ((s_8).view.loc (thr d L))) (g2 : Buf (Elt F) ((s_2).view.loc (thr d L)))
    (hg2 : ∀ x : S320.Idx, g2 x = nbrIdx I d r0 (x 0).val)
    (hin2 : ∀ x, ((s_2).view.read (Elt F) g2 x).toNat < S100000x128.size (gathers_S100000x128_S320x128).axis) :
    pro_issuedN I d L f8 g2 hin2 ⊢ FlN0 I d L r0 := by
  unfold pro_issuedN; exact pro_flN0_intro I d L hpre r0 f8 g2 hg2 hin2
/-! ## The rows not yet written, before the first pair -/

omit [FloatOps F] in
theorem pro_rA_zero_eq : rA L 0 = wL L * 1408 := by
  show 2816 * (L 1).val + 1408 * (L 0).val + 64 * 0 = ((L 1).val * 2 + (L 0).val) * 1408
  omega

omit [FloatOps F] in
theorem pro_tRem_base : tRem (wL L) (rA L 0) = tSet (wL L) := by
  unfold tRem
  refine Finset.filter_true_of_mem fun x hx => ?_
  have h := (Finset.mem_filter.mp hx).2
  rw [pro_rA_zero_eq]; exact h.1
omit [FloatOps F] in
theorem pro_tDone_base : tDone (wL L) (rA L 0 - 64) = ∅ := by
  unfold tDone
  refine Finset.filter_false_of_mem fun x hx => ?_
  have h := (Finset.mem_filter.mp hx).2
  rw [pro_rA_zero_eq]; omega
omit [FloatOps F] in
theorem pro_nRem_base : nRem (wL L) (rA L 0) = nSet (wL L) := by
  unfold nRem
  refine Finset.filter_true_of_mem fun x hx => ?_
  have h := (Finset.mem_filter.mp hx).2
  rw [pro_rA_zero_eq]; exact h.1
omit [FloatOps F] in
theorem pro_nDone_base : nDone (wL L) (rA L 0 - 64) = ∅ := by
  unfold nDone
  refine Finset.filter_false_of_mem fun x hx => ?_
  have h := (Finset.mem_filter.mp hx).2
  rw [pro_rA_zero_eq]; omega

omit [FloatOps F] in
/-- A wait recorded at the index no call uses keeps the recorded pairs within the bound. -/
theorem pro_waits_insert {W W' : Waits sig (HIx 1)} (s : SemLoc sig) (h : ∀ p ∈ W', p ∈ W ∨ p.2 = none) :
    ∀ p ∈ insert (s, (default : HIx 1)) W', p ∈ W ∨ p.2 = none :=
  fun p hp => (Finset.mem_insert.mp hp).elim (fun e => Or.inr (by rw [e]; rfl)) (h p)

set_option maxHeartbeats 4000000 in
theorem part36_run (hF : (K (F := F)).Facts) (hpre : PreOK I) (O : CellTallies nD τ sig (HIx 1)) (W : Waits sig (HIx 1)) (hO : ∀ g, O g none = 0) :
    iprop(levAts (K (F := F)).L (K (F := F)).lev ∗ emp ∗ goAt I d (wL L) ∗ scopedBufs (thr d L) ∗ scopedSems0 (thr d L) ∗ owes (thr d L) O W)
      ⊢ wp frame (wpE (defs₀ (F := F)) 𝒱₀ (thr d L) none) Set.univ
          (k1_part36 L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20)
          fun _ => iprop(Inv I d L O W 22 () ∗ Rest I d L) := by
  simp only [k1_part36_eq_skeleton]; unfold k1_part36_skel
  rw [(K (F := F)).scopedBufs_V hF d (cV L) (jV L), SparseCore.Cfg.scopedSems0_V (Val := Elt F) d (cV L) (jV L), ownSems0_V, ownBufs_V]
  unfold goAt readsAt
  simp only [semList, bufList, bigSepL_cons_cons, bigSepL_singleton, sep_eq']
  iintro ⟨#Hlv, -, ⟨⟨Hsp, Hap, Hnid, Hn1, Hn2, Ha1, Ha2, Hb⟩, ⟨%fe1t, He1t⟩, ⟨%fe1n, He1n⟩, ⟨%fsqt, Hsqt⟩, ⟨%fsqn, Hsqn⟩⟩,
    ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩⟩, Hbufs⟩,
    ⟨⟨Hm14, Hm15, Hm16, Hm17, Hm18, Hm19, Hr0, Hr1, Hr2, Hr3, Hr4, Hr5, Hr6, Hr7, Hr8, Hr9, Hr10, Hr11, Hr12, Hr13, Hr14, Hr15, Hr16, Hr17, Hr18, Hr19, Hr20⟩, Hsems⟩, HO⟩
  ihave Hmw := ((K (F := F)).mayWaits_none (thr := thr d L) hO) $$ Hlv
  ihave Hsp := (Entails.of_eq (pts_sp (F := F) d L _ _)) $$ Hsp
  ihave Hap := (Entails.of_eq (pts_ap (F := F) d L _ _)) $$ Hap
  ihave Hnid := (Entails.of_eq (pts_nid (F := F) d L _ _)) $$ Hnid
  ihave Hn1 := (Entails.of_eq (pts_n1 (F := F) d L _ _)) $$ Hn1
  ihave Hn2 := (Entails.of_eq (pts_n2 (F := F) d L _ _)) $$ Hn2
  ihave Ha1 := (Entails.of_eq (pts_a1 (F := F) d L _ _)) $$ Ha1
  ihave Ha2 := (Entails.of_eq (pts_a2 (F := F) d L _ _)) $$ Ha2
  ihave Hb := (Entails.of_eq (pts_b (F := F) d L _ _)) $$ Hb
  ihave Hs0 := (Entails.of_eq (pts_s0 (F := F) d L _)) $$ Hs0
  ihave Hs1 := (Entails.of_eq (pts_s1 (F := F) d L _)) $$ Hs1
  ihave Hs2 := (Entails.of_eq (pts_s2 (F := F) d L _)) $$ Hs2
  ihave Hs3 := (Entails.of_eq (pts_s3 (F := F) d L _)) $$ Hs3
  ihave Hs4 := (Entails.of_eq (pts_s4 (F := F) d L _)) $$ Hs4
  ihave Hs5 := (Entails.of_eq (pts_s5 (F := F) d L _)) $$ Hs5
  ihave Hs6 := (Entails.of_eq (pts_s6 (F := F) d L _)) $$ Hs6
  ihave Hs7 := (Entails.of_eq (pts_s7 (F := F) d L _)) $$ Hs7
  ihave Hs8 := (Entails.of_eq (pts_s8 (F := F) d L _)) $$ Hs8
  ihave Hs9 := (Entails.of_eq (pts_s9 (F := F) d L _)) $$ Hs9
  ihave Hs10 := (Entails.of_eq (pts_s10 (F := F) d L _)) $$ Hs10
  ihave Hs11 := (Entails.of_eq (pts_s11 (F := F) d L _)) $$ Hs11
  ihave Hs12 := (Entails.of_eq (pts_s12 (F := F) d L _)) $$ Hs12
  ihave Hs13 := (Entails.of_eq (pts_s13 (F := F) d L _)) $$ Hs13
  ihave Hsp := (share_toks_split (ℓ := (m_sp).view.loc (thr d L)) (I.sp d) (rsh (wL L)) 12 14 (by decide)) $$ Hsp
  icases Hsp with ⟨Hsp12, Hsp14, HspR⟩
  ihave Hap := (share_toks_split (ℓ := (m_ap).view.loc (thr d L)) (I.ap d) (rsh (wL L)) 13 15 (by decide)) $$ Hap
  icases Hap with ⟨Hap13, Hap15, HapR⟩
  sl_exec
  -- what the first chunk's two lists hold: the rows' self indices and their neighbours' indices
  ihave Hs0' : iprop(∃ g : Buf (Elt F) ((s_0).view.loc (thr d L)), ((s_0).view.loc (thr d L) ↦{fullShare} g)
      ∗ ⌜∀ x : S32.Idx, g x = selfIdx I d (base L) (x 0).val⌝) $$ [Hs0]
  · iexists _
    isplitl [Hs0]
    · iexact Hs0
    · ipureintro
      exact pro_pick_whole L (b := cc1_scratch0) f0 _ _ (fun x => selfIdx I d (base L) (x 0).val)
        (fun hc x => pro_self_lo I d L hc x) (fun hc x => pro_self_hi I d L hc x)
  icases Hs0' with ⟨%g0, Hs0, %hg0⟩
  ihave Hs2' : iprop(∃ g : Buf (Elt F) ((s_2).view.loc (thr d L)), ((s_2).view.loc (thr d L) ↦{fullShare} g)
      ∗ ⌜∀ x : S320.Idx, g x = nbrIdx I d (base L) (x 0).val⌝) $$ [Hs2]
  · iexists _
    isplitl [Hs2]
    · iexact Hs2
    · ipureintro
      exact pro_pick_whole L (b := cc1_scratch2) f2 _ _ (fun x => nbrIdx I d (base L) (x 0).val)
        (fun hc x => pro_nbr_lo I d L hc x) (fun hc x => pro_nbr_hi I d L hc x)
  icases Hs2' with ⟨%g2, Hs2, %hg2⟩
  have hin0 : ∀ x, ((s_0).view.read (Elt F) g0 x).toNat < S100000x128.size (gathers_S100000x128_S32x128).axis :=
    fun x => (congrArg BitVec.toNat (hg0 x)).trans_lt (pro_selfIdx_lt I d hpre _ _)
  have hin2 : ∀ x, ((s_2).view.read (Elt F) g2 x).toNat < S100000x128.size (gathers_S100000x128_S320x128).axis :=
    fun x => (congrArg BitVec.toNat (hg2 x)).trans_lt (pro_nbrIdx_lt I d hpre _ _)
  sl_exec
  -- the two gathers under way deliver the chunk's rows
  ihave Hm14' : pro_issuedS I d L f6 g0 hin0 $$ [Hm14]
  · unfold pro_issuedS; iexact Hm14
  ihave Hm14 := (pro_flS0_of_issued I d L hpre (rA L 0) f6 g0 hg0 hin0) $$ Hm14'
  ihave Hm15' : pro_issuedN I d L f8 g2 hin2 $$ [Hm15]
  · unfold pro_issuedN; iexact Hm15
  ihave Hm15 := (pro_flN0_of_issued I d L hpre (rA L 0) f8 g2 hg2 hin2) $$ Hm15'
  have hW0 : ∀ p ∈ part36_run.sl.W0 L W, p ∈ W ∨ p.2 = none := by
    unfold part36_run.sl.W0; split
    · exact pro_waits_insert _ (pro_waits_insert _ (pro_waits_insert _ (pro_waits_insert _ fun p hp => Or.inl hp)))
    · exact pro_waits_insert _ fun p hp => Or.inl hp
  have hW1 : ∀ p ∈ part36_run.sl.W1 L W, p ∈ W ∨ p.2 = none := by
    unfold part36_run.sl.W1; split
    · exact pro_waits_insert _ (pro_waits_insert _ (pro_waits_insert _ hW0))
    · exact hW0
  sl_for (Inv I d L O W) $$ [HO Hnid Hn1 Hn2 Ha1 Ha2 Hr7 Hr8 Hr9 Hr10 Hr11 Hr12 Hr13 Hr14 Hr15 Hr16 Hr17 Hr18 Hs12 Hs13 Hs4 Hm14 Hm15 Hs1 Hs3 Hs5 Hs7 Hs9 Hm16 Hm17 Hsp14 Hap15 Hs10 Hs11 Hm18 Hm19 He1t He1n]
  case region => exact trip I d L hpre O W
  · -- before the first pair
    unfold Inv
    isplitr; · iexact Hmw
    isplitl [HO]
    · iexists _; isplitr; · ipureintro; exact hW1
      iexact HO
    isplitl [Hnid Hn1 Hn2 Ha1 Ha2 Hr7 Hr8 Hr9 Hr10 Hr11 Hr12 Hr13 Hr14 Hr15 Hr16 Hr17 Hr18]
    · unfold LoopRO
      isplitl [Hnid]; · iexact Hnid
      isplitl [Hn1]; · iexact Hn1
      isplitl [Hn2]; · iexact Hn2
      isplitl [Ha1]; · iexact Ha1
      isplitl [Ha2]; · iexact Ha2
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hr13]; · iexact Hr13
      isplitl [Hr14]; · iexact Hr14
      isplitl [Hr15]; · iexact Hr15
      isplitl [Hr16]; · iexact Hr16
      isplitl [Hr17]; · iexact Hr17
      iexact Hr18
    isplitl [Hs12]
    · iexists _; isplitr
      swap; · iexact Hs12
      ipureintro; exact fun x => pro_bias_eq I d f12 x
    isplitl [Hs13]
    · iexists _; isplitr
      swap; · iexact Hs13
      ipureintro; exact fun x => pro_zeros_eq I d L _ x
    isplitl [Hs4 Hm14 Hm15]
    · rw [Set0_lt I d L (by decide : 0 < 22)]; unfold Loaded0
      isplitl [Hs4]
      · iexists _; isplitr
        swap; · iexact Hs4
        ipureintro
        exact fun x hx => pro_pick_al I d L f4 _ _ (fun hc y => pro_al_lo I d L hc y) (fun hc y => pro_al_hi I d L hc y) x hx
      isplitl [Hm14]; · iexact Hm14
      iexact Hm15
    isplitl [Hs1 Hs3 Hs5 Hs7 Hs9 Hm16 Hm17 Hsp14 Hap15]
    · unfold Idle1
      isplitl [Hs1]; · iexists _; iexact Hs1
      isplitl [Hs3]; · iexists _; iexact Hs3
      isplitl [Hs5]; · iexists _; iexact Hs5
      isplitl [Hs7]; · iexists _; iexact Hs7
      isplitl [Hs9]; · iexists _; iexact Hs9
      isplitl [Hm16]; · iexact Hm16
      isplitl [Hm17]; · iexact Hm17
      isplitl [Hsp14]; · iexact Hsp14
      iexact Hap15
    isplitl [Hs10 Hs11 Hm18 Hm19]
    · rw [Outs_zero]
      isplitl [Hs10]; · iexists _; iexact Hs10
      isplitl [Hs11]; · iexists _; iexact Hs11
      isplitl [Hm18]; · iexact Hm18
      iexact Hm19
    · unfold Pieces
      rw [pro_tRem_base, pro_nRem_base, pro_tDone_base, pro_nDone_base, pointsTo_empty, pointsTo_empty]
      isplitl [He1t]; · iexists _; iexact He1t
      isplitl [He1n]; · iexists _; iexact He1n
      isplitr; · iempintro
      iempintro
  · -- after the last pair: what the loop did not touch goes with the rest
    iintro %acc HI
    have e22 : Inv I d L O W k1_t1_loop.trips acc = Inv I d L O W 22 () := by rw [trips22]
    ihave HI := (Entails.of_eq e22) $$ HI
    sl_step
    isplitl [HI]; · iexact HI
    unfold Rest
    isplitl [Hb]; · iexact Hb
    isplitl [HspR]; · iexact HspR
    isplitl [HapR]; · iexact HapR
    isplitl [Hsqt]; · iexists _; iexact Hsqt
    isplitl [Hsqn]; · iexists _; iexact Hsqn
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr19]; · iexact Hr19
    isplitl [Hr20]; · iexact Hr20
    isplitl [Hbufs]; · iexact Hbufs
    iexact Hsems

end Tile
end Cert.Kernel.Tile
end
-- ==== Proof.Twin.TileEpi.lean ====
/-
  The end of a vector subcore's run: the two last copy-outs awaited, the two rows of sums copied out, and the task's
  results and the subcore's storage handed back.
-/
import proofs.«213116_g69346541961480_cont_9to1_m_612_34_alg».proof.Proof.Twin.TileKit
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

/-- Row `wid` of the targets' sums array, as the epilogue slices it. -/
abbrev sqtSl (L : grid1.Coords) : Memref sig .scVector .hbm S16 .f32 :=
  ((m_sqt).slice (Rect.unit (s := S32x16) (k1_off51 L) S1x16.size (k1_off51_inb L)) (fun _ => rfl)).squeeze S16 squeezes_S1x16_S16
/-- Row `wid` of the neighbours' sums array, as the epilogue slices it. -/
abbrev sqnSl (L : grid1.Coords) : Memref sig .scVector .hbm S16 .f32 :=
  ((m_sqn).slice (Rect.unit (s := S32x16) (k1_off51 L) S1x16.size (k1_off51_inb L)) (fun _ => rfl)).squeeze S16 squeezes_S1x16_S16

omit [FloatOps F] in
/-- The worker's number is its place in the grid: `2 j + c`. -/
theorem wL_eq (L : grid1.Coords) : wL L = 2 * (L 1).val + (L 0).val := by
  show (L 1).val * 2 + (L 0).val = _
  omega

omit [FloatOps F] in
/-- The sliced row is the worker's row. -/
theorem mem_off51_iff (L : grid1.Coords) (x : S32x16.Idx) :
    x ∈ (Rect.unit (s := S32x16) (k1_off51 L) S1x16.size (k1_off51_inb L)).set ↔ (x 0).val = wL L := by
  rw [Rect.mem_set_unit, k1_off51_eq, wL_eq, Fin.forall_fin_two]
  have h1 := (x 1).isLt
  change (x 1).val < 16 at h1
  show ((2 * (L 1).val + (L 0).val ≤ (x 0).val ∧ (x 0).val < 2 * (L 1).val + (L 0).val + 1) ∧ (0 ≤ (x 1).val ∧ (x 1).val < 0 + 16)) ↔ _
  omega

omit [FloatOps F] in
theorem sqtSl_set (L : grid1.Coords) : (sqtSl L).view.set = sqRow (wL L) :=
  (View.set_reshape _ _).trans ((View.set_slice_whole _ _).trans (Finset.ext fun x => by
    rw [mem_off51_iff]
    unfold sqRow
    rw [Finset.mem_filter]
    exact ⟨fun h => ⟨Finset.mem_univ _, h⟩, fun h => h.2⟩))

omit [FloatOps F] in
theorem sqnSl_set (L : grid1.Coords) : (sqnSl L).view.set = sqRow (wL L) :=
  (View.set_reshape _ _).trans ((View.set_slice_whole _ _).trans (Finset.ext fun x => by
    rw [mem_off51_iff]
    unfold sqRow
    rw [Finset.mem_filter]
    exact ⟨fun h => ⟨Finset.mem_univ _, h⟩, fun h => h.2⟩))

/-! ## The worker's rows at the end of the pair loop -/

omit [FloatOps F] in
theorem L0_lt (L : grid1.Coords) : (L 0).val < 2 := (L 0).isLt
omit [FloatOps F] in
theorem L1_lt (L : grid1.Coords) : (L 1).val < 16 := (L 1).isLt
omit [FloatOps F] in
/-- The worker's first row is 1408 times its number. -/
theorem wbase (L : grid1.Coords) : wL L * 1408 = base L := by unfold base; rw [wL_eq]; omega
omit [FloatOps F] in
theorem rA22 (L : grid1.Coords) : rA L 22 = base L + 1408 := by unfold rA; omega
omit [FloatOps F] in
/-- A worker's last two chunks are both target chunks or both neighbour chunks. -/
theorem last_chunks (L : grid1.Coords) : base L + 1408 ≤ 4096 ∨ 4096 ≤ base L + 1344 := by
  have h0 := L0_lt L; have h1 := L1_lt L; unfold base; omega

omit [FloatOps F] in
theorem tSet_A (L : grid1.Coords) (hA : base L + 1408 ≤ 4096) :
    tSet (wL L) = tDone (wL L) (base L + 1344) ∪ (cT (base L + 1344) ∪ cT (base L + 1376)) := by
  ext x
  have hx : (x 0).val < 4096 := (x 0).isLt
  simp only [tSet, tDone, cT, Finset.mem_union, Finset.mem_filter, Finset.mem_univ, true_and, wbase]
  omega
omit [FloatOps F] in
theorem tDisj1 (L : grid1.Coords) : Disjoint (tDone (wL L) (base L + 1344)) (cT (base L + 1344) ∪ cT (base L + 1376)) :=
  Finset.disjoint_left.2 fun x h1 h2 => by
    simp only [tSet, tDone, cT, Finset.mem_union, Finset.mem_filter, Finset.mem_univ, true_and] at h1 h2
    omega
omit [FloatOps F] in
theorem tDisj2 (r : ℕ) : Disjoint (cT r) (cT (r + 32)) :=
  Finset.disjoint_left.2 fun x h1 h2 => by
    simp only [cT, Finset.mem_filter, Finset.mem_univ, true_and] at h1 h2
    omega
omit [FloatOps F] in
theorem nDone_A (L : grid1.Coords) (hA : base L + 1408 ≤ 4096) : nDone (wL L) (base L + 1344) = nSet (wL L) := by
  ext x
  simp only [nSet, nDone, Finset.mem_filter, Finset.mem_univ, true_and, wbase]
  omega
omit [FloatOps F] in
theorem tRem_end (L : grid1.Coords) : tRem (wL L) (base L + 1408) = ∅ := by
  ext x
  simp only [tSet, tRem, Finset.mem_filter, Finset.mem_univ, true_and, wbase, Finset.notMem_empty, iff_false]
  omega
omit [FloatOps F] in
theorem nRem_end (L : grid1.Coords) : nRem (wL L) (base L + 1408) = ∅ := by
  ext x
  simp only [nSet, nRem, Finset.mem_filter, Finset.mem_univ, true_and, wbase, Finset.notMem_empty, iff_false]
  omega

omit [FloatOps F] in
theorem nSet_B (L : grid1.Coords) (hB : 4096 ≤ base L + 1344) :
    nSet (wL L) = nDone (wL L) (base L + 1344) ∪ (cN (base L + 1344 - 4096) ∪ cN (base L + 1376 - 4096)) := by
  ext x
  have hx : (x 0).val < 40960 := (x 0).isLt
  simp only [nSet, nDone, cN, Finset.mem_union, Finset.mem_filter, Finset.mem_univ, true_and, wbase]
  omega
omit [FloatOps F] in
theorem nDisj1 (L : grid1.Coords) (hB : 4096 ≤ base L + 1344) :
    Disjoint (nDone (wL L) (base L + 1344)) (cN (base L + 1344 - 4096) ∪ cN (base L + 1376 - 4096)) :=
  Finset.disjoint_left.2 fun x h1 h2 => by
    simp only [nSet, nDone, cN, Finset.mem_union, Finset.mem_filter, Finset.mem_univ, true_and] at h1 h2
    omega
omit [FloatOps F] in
theorem nDisj2 (L : grid1.Coords) (hB : 4096 ≤ base L + 1344) : Disjoint (cN (base L + 1344 - 4096)) (cN (base L + 1376 - 4096)) :=
  Finset.disjoint_left.2 fun x h1 h2 => by
    simp only [cN, Finset.mem_filter, Finset.mem_univ, true_and] at h1 h2
    omega
omit [FloatOps F] in
theorem tDone_B (L : grid1.Coords) (hB : 4096 ≤ base L + 1344) : tDone (wL L) (base L + 1344) = tSet (wL L) := by
  ext x
  have hx : (x 0).val < 4096 := (x 0).isLt
  simp only [tSet, tDone, Finset.mem_filter, Finset.mem_univ, true_and, wbase]
  omega

set_option maxHeartbeats 1600000 in
/-- THE ROWS JOINED: the rows landed before the last pair and the last pair's two chunks are the worker's rows of the
    two results. -/
theorem rows_join :
    iprop(((m_e1t).view.loc (thr d L) ↦[tDone (wL L) (rA L 22 - 64)]{fullShare} E1t I d)
        ∗ ((m_e1n).view.loc (thr d L) ↦[nDone (wL L) (rA L 22 - 64)]{fullShare} E1n I d)
        ∗ outDone I d L (rA L 22 - 64) ∗ outDone I d L (rA L 22 - 32))
      ⊢ iprop(((m_e1t).view.loc (thr d L) ↦[tSet (wL L)]{fullShare} E1t I d)
        ∗ ((m_e1n).view.loc (thr d L) ↦[nSet (wL L)]{fullShare} E1n I d)) := by
  have e1 : rA L 22 - 64 = base L + 1344 := by rw [rA22]; omega
  have e2 : rA L 22 - 32 = base L + 1376 := by rw [rA22]; omega
  rw [e1, e2]
  unfold outDone
  rcases last_chunks L with hA | hB
  · rw [if_pos (by omega), if_pos (by omega), tSet_A L hA, ← nDone_A L hA]
    iintro ⟨Ht, Hn, H1, H2⟩
    isplitr [Hn]
    · iapply (pointsTo_union (ℓ := (m_e1t).view.loc (thr d L)) (q := fullShare) (f := E1t I d) (tDisj1 L)).2
      isplitl [Ht]; · iexact Ht
      iapply (pointsTo_union (ℓ := (m_e1t).view.loc (thr d L)) (q := fullShare) (f := E1t I d) (tDisj2 (base L + 1344))).2
      isplitl [H1]; · iexact H1
      iexact H2
    · iexact Hn
  · rw [if_neg (by omega), if_neg (by omega), nSet_B L hB, ← tDone_B L hB]
    iintro ⟨Ht, Hn, H1, H2⟩
    isplitl [Ht]; · iexact Ht
    iapply (pointsTo_union (ℓ := (m_e1n).view.loc (thr d L)) (q := fullShare) (f := E1n I d) (nDisj1 L hB)).2
    isplitl [Hn]; · iexact Hn
    iapply (pointsTo_union (ℓ := (m_e1n).view.loc (thr d L)) (q := fullShare) (f := E1n I d) (nDisj2 L hB)).2
    isplitl [H1]; · iexact H1
    iexact H2

omit [FloatOps F] in
/-- The fourteen scratch buffers, one by one. -/
theorem bufs_explicit (Φ : Ref sig .scVector → sProp 𝕄) :
    bigSepL bufList Φ = iprop(Φ cc1_scratch0 ∗ Φ cc1_scratch1 ∗ Φ cc1_scratch2 ∗ Φ cc1_scratch3 ∗ Φ cc1_scratch4 ∗ Φ cc1_scratch5
      ∗ Φ cc1_scratch6 ∗ Φ cc1_scratch7 ∗ Φ cc1_scratch8 ∗ Φ cc1_scratch9 ∗ Φ cc1_scratch10 ∗ Φ cc1_scratch11 ∗ Φ cc1_scratch12
      ∗ Φ cc1_scratch13 ∗ emp) := by
  unfold bufList
  simp only [bigSepL_cons, bigSepL_nil]
  rfl

omit [FloatOps F] in
/-- The twenty-seven semaphores, one by one. -/
theorem sems_explicit (Φ : DmaSem sig → sProp 𝕄) :
    bigSepL semList Φ = iprop(Φ cc1_scratch14.sem ∗ Φ cc1_scratch15.sem ∗ Φ cc1_scratch16.sem ∗ Φ cc1_scratch17.sem ∗ Φ cc1_scratch18.sem
      ∗ Φ cc1_scratch19.sem ∗ Φ cc1_scoped0.sem ∗ Φ cc1_scoped1.sem ∗ Φ cc1_scoped2.sem ∗ Φ cc1_scoped3.sem ∗ Φ cc1_scoped4.sem
      ∗ Φ cc1_scoped5.sem ∗ Φ cc1_scoped6.sem ∗ Φ cc1_scoped7.sem ∗ Φ cc1_scoped8.sem ∗ Φ cc1_scoped9.sem ∗ Φ cc1_scoped10.sem
      ∗ Φ cc1_scoped11.sem ∗ Φ cc1_scoped12.sem ∗ Φ cc1_scoped13.sem ∗ Φ cc1_scoped14.sem ∗ Φ cc1_scoped15.sem ∗ Φ cc1_scoped16.sem
      ∗ Φ cc1_scoped17.sem ∗ Φ cc1_scoped18.sem ∗ Φ cc1_scoped19.sem ∗ Φ cc1_scoped20.sem ∗ emp) := by
  unfold semList
  simp only [bigSepL_cons, bigSepL_nil]
  rfl

/-! ## The two rows of sums, entry by entry -/

/-- Row 0 of the subcore's sums buffer, as the epilogue slices it. -/
abbrev sq0Sl : Memref sig .scVector .vmem S16 .f32 :=
  ((s_13).slice (Rect.unit (s := S2x16) ![0, 0] S1x16.size inb_S2x16_S1x16_0_0) (fun _ => rfl)).squeeze S16 squeezes_S1x16_S16
/-- Row 1. -/
abbrev sq1Sl : Memref sig .scVector .vmem S16 .f32 :=
  ((s_13).slice (Rect.unit (s := S2x16) ![1, 0] S1x16.size inb_S2x16_S1x16_1_0) (fun _ => rfl)).squeeze S16 squeezes_S1x16_S16

omit [FloatOps F] in
/-- A length-16 index read as a 1 × 16 index: row 0, the same column. -/
theorem resh16 (j : S16.Idx) :
    Shape.reshapeEquiv (squeezes_S1x16_S16).numel_eq j = (Fin.cons ⟨0, Nat.one_pos⟩ j : S1x16.Idx) :=
  Shape.reshapeEquiv_cons_one _ j

omit [FloatOps F] in
theorem sqtSl_emb (L : grid1.Coords) (j : S16.Idx) :
    ((sqtSl L).view.emb j 0).val = wL L ∧ ((sqtSl L).view.emb j 1).val = (j 0).val := by
  constructor
  · show (k1_off51 L) 0 + 1 * ((Shape.reshapeEquiv (squeezes_S1x16_S16).numel_eq j) 0).val = _
    rw [resh16, k1_off51_eq, wL_eq]
    show 2 * (L 1).val + (L 0).val + 1 * 0 = _
    omega
  · show (k1_off51 L) 1 + 1 * ((Shape.reshapeEquiv (squeezes_S1x16_S16).numel_eq j) 1).val = _
    rw [resh16, k1_off51_eq]
    show 0 + 1 * (j 0).val = _
    omega

omit [FloatOps F] in
theorem sqnSl_emb (L : grid1.Coords) (j : S16.Idx) :
    ((sqnSl L).view.emb j 0).val = wL L ∧ ((sqnSl L).view.emb j 1).val = (j 0).val := by
  constructor
  · show (k1_off51 L) 0 + 1 * ((Shape.reshapeEquiv (squeezes_S1x16_S16).numel_eq j) 0).val = _
    rw [resh16, k1_off51_eq, wL_eq]
    show 2 * (L 1).val + (L 0).val + 1 * 0 = _
    omega
  · show (k1_off51 L) 1 + 1 * ((Shape.reshapeEquiv (squeezes_S1x16_S16).numel_eq j) 1).val = _
    rw [resh16, k1_off51_eq]
    show 0 + 1 * (j 0).val = _
    omega

omit [FloatOps F] in
theorem sq0Sl_emb (j : S16.Idx) : ((sq0Sl).view.emb j 0).val = 0 ∧ ((sq0Sl).view.emb j 1).val = (j 0).val := by
  constructor
  · show 0 + 1 * ((Shape.reshapeEquiv (squeezes_S1x16_S16).numel_eq j) 0).val = _
    rw [resh16]
    show 0 + 1 * 0 = _
    omega
  · show 0 + 1 * ((Shape.reshapeEquiv (squeezes_S1x16_S16).numel_eq j) 1).val = _
    rw [resh16]
    show 0 + 1 * (j 0).val = _
    omega

omit [FloatOps F] in
theorem sq1Sl_emb (j : S16.Idx) : ((sq1Sl).view.emb j 0).val = 1 ∧ ((sq1Sl).view.emb j 1).val = (j 0).val := by
  constructor
  · show 1 + 1 * ((Shape.reshapeEquiv (squeezes_S1x16_S16).numel_eq j) 0).val = _
    rw [resh16]
    show 1 + 1 * 0 = _
    omega
  · show 0 + 1 * ((Shape.reshapeEquiv (squeezes_S1x16_S16).numel_eq j) 1).val = _
    rw [resh16]
    show 0 + 1 * (j 0).val = _
    omega

/-- The accumulated sums over all 44 chunks are the worker's sums. -/
theorem tileSqUpto_44 (w : ℕ) (tgt : Bool) (lane : ℕ) : tileSqUpto I d w 44 tgt lane = tileSq I d w tgt lane := rfl

/-- THE TARGETS' ROW OF SUMS: the worker's row of the first sums array, written with row 0 of the subcore's sums, holds
    the worker's target sums. -/
theorem sqt_vals (fqt : Buf (Elt F) ((m_sqt).view.loc (thr d L))) (fsq : Buf (Elt F) ((s_13).view.loc (thr d L)))
    (hfsq : ∀ x : S2x16.Idx, fsq x = tileSqUpto I d (wL L) (2 * 22) (decide ((x 0).val = 0)) (x 1).val)
    (P : S16.Idx → Elt F .f32) (hP : ∀ j, P j = fsq ((sq0Sl).view.emb j)) :
    ((sqtSl L).view.loc (thr d L) ↦[(sqtSl L).view.set]{fullShare} (sqtSl L).view.writes (Elt F) fqt [⟨Rect.whole S16, P⟩] : sProp 𝕄)
      = ((m_sqt).view.loc (thr d L) ↦[sqRow (wL L)]{fullShare} Sqt I d) := by
  rw [sqtSl_set]
  refine pointsTo_congr fun i hi => ?_
  rw [← sqtSl_set] at hi
  obtain ⟨j, -, rfl⟩ := Finset.mem_map.mp hi
  have hr := View.read_writes_cons_emb (sqtSl L).view fqt (Rect.whole S16) P [] j
  rw [Rect.emb_whole_apply, View.read_apply] at hr
  have hw : (sqtSl L).view.writes (Elt F) fqt [⟨Rect.whole S16, P⟩] ((sqtSl L).view.emb j) = P j := hr
  rw [hw, hP j, hfsq]
  obtain ⟨a0, a1⟩ := sq0Sl_emb j
  obtain ⟨b0, b1⟩ := sqtSl_emb L j
  show _ = tileSq I d ((sqtSl L).view.emb j 0).val true ((sqtSl L).view.emb j 1).val
  rw [a0, a1, b0, b1]
  rfl

/-- THE NEIGHBOURS' ROW OF SUMS. -/
theorem sqn_vals (fqn : Buf (Elt F) ((m_sqn).view.loc (thr d L))) (fsq : Buf (Elt F) ((s_13).view.loc (thr d L)))
    (hfsq : ∀ x : S2x16.Idx, fsq x = tileSqUpto I d (wL L) (2 * 22) (decide ((x 0).val = 0)) (x 1).val)
    (P : S16.Idx → Elt F .f32) (hP : ∀ j, P j = fsq ((sq1Sl).view.emb j)) :
    ((sqnSl L).view.loc (thr d L) ↦[(sqnSl L).view.set]{fullShare} (sqnSl L).view.writes (Elt F) fqn [⟨Rect.whole S16, P⟩] : sProp 𝕄)
      = ((m_sqn).view.loc (thr d L) ↦[sqRow (wL L)]{fullShare} Sqn I d) := by
  rw [sqnSl_set]
  refine pointsTo_congr fun i hi => ?_
  rw [← sqnSl_set] at hi
  obtain ⟨j, -, rfl⟩ := Finset.mem_map.mp hi
  have hr := View.read_writes_cons_emb (sqnSl L).view fqn (Rect.whole S16) P [] j
  rw [Rect.emb_whole_apply, View.read_apply] at hr
  have hw : (sqnSl L).view.writes (Elt F) fqn [⟨Rect.whole S16, P⟩] ((sqnSl L).view.emb j) = P j := hr
  rw [hw, hP j, hfsq]
  obtain ⟨a0, a1⟩ := sq1Sl_emb j
  obtain ⟨b0, b1⟩ := sqnSl_emb L j
  show _ = tileSq I d ((sqnSl L).view.emb j 0).val false ((sqnSl L).view.emb j 1).val
  rw [a0, a1, b0, b1]
  rfl
set_option maxHeartbeats 4000000 in
theorem epilogue_run (hF : (K (F := F)).Facts) (O : CellTallies nD τ sig (HIx 1)) (W : Waits sig (HIx 1)) :
    iprop(Inv I d L O W 22 () ∗ Rest I d L)
      ⊢ wp frame (wpE (defs₀ (F := F)) 𝒱₀ (thr d L) none) Set.univ (epi (F := F) L)
          fun _ => iprop(tdAt I d (wL L) ∗ scopedBufs (thr d L) ∗ scopedSems0 (thr d L)
            ∗ ∃ W', ⌜∀ p ∈ W', p ∈ W ∨ p.2 = none⌝ ∗ owes (thr d L) O W') := by
  have pe1t : ∀ (S : Finset S4096x128.Idx) (f : Buf (Elt F) (e1tLoc d)), (e1tLoc d ↦[S]{fullShare} f : sProp 𝕄) = ((m_e1t).view.loc (thr d L) ↦[S]{fullShare} f) := fun _ _ => rfl
  have pe1n : ∀ (S : Finset S40960x128.Idx) (f : Buf (Elt F) (e1nLoc d)), (e1nLoc d ↦[S]{fullShare} f : sProp 𝕄) = ((m_e1n).view.loc (thr d L) ↦[S]{fullShare} f) := fun _ _ => rfl
  have psqt : ∀ (S : Finset S32x16.Idx) (f : Buf (Elt F) (sqtLoc d)), (sqtLoc d ↦[S]{fullShare} f : sProp 𝕄) = ((m_sqt).view.loc (thr d L) ↦[S]{fullShare} f) := fun _ _ => rfl
  have psqn : ∀ (S : Finset S32x16.Idx) (f : Buf (Elt F) (sqnLoc d)), (sqnLoc d ↦[S]{fullShare} f : sProp 𝕄) = ((m_sqn).view.loc (thr d L) ↦[S]{fullShare} f) := fun _ _ => rfl
  rw [show (scopedBufs (thr d L) : sProp 𝕄) = ownBufs (thr d L) from (K (F := F)).scopedBufs_V hF d (cV L) (jV L),
    show (scopedSems0 (thr d L) : sProp 𝕄) = ownSems0 (thr d L) from SparseCore.Cfg.scopedSems0_V (Val := Elt F) d (cV L) (jV L),
    ownSems0_V, ownBufs_V, bufs_explicit, sems_explicit]
  unfold tdAt readsAt
  rw [pts_sp d L, pts_ap d L, pts_nid d L, pts_n1 d L, pts_n2 d L, pts_a1 d L, pts_a2 d L, pts_b d L, pe1t, pe1n, psqt, psqn]
  unfold epi
  rw [wp_bind]
  unfold Inv
  rw [Set0_ge I d L (by omega), Outs_pos I d L (by omega)]
  unfold Idle0 Idle1 LoopRO Pieces FlW0 FlW1 Rest
  iintro ⟨⟨#Hmw, ⟨%W', %hW', HO⟩, ⟨Hnid, Hn1, Hn2, Ha1, Ha2, Hr7, Hr8, Hr9, Hr10, Hr11, Hr12, Hr13, Hr14, Hr15, Hr16, Hr17, Hr18⟩, ⟨%fb, %hfb, Hs12⟩, ⟨%fsq, %hfsq, Hs13⟩,
    ⟨⟨%f0, Hs0⟩, ⟨%f2, Hs2⟩, ⟨%f4, Hs4⟩, ⟨%f6, Hs6⟩, ⟨%f8, Hs8⟩, Hm14, Hm15, Hsp0, Hap0⟩,
    ⟨⟨%f1, Hs1⟩, ⟨%f3, Hs3⟩, ⟨%f5, Hs5⟩, ⟨%f7, Hs7⟩, ⟨%f9, Hs9⟩, Hm16, Hm17, Hsp1, Hap1⟩, ⟨Hm18, Hm19⟩,
    ⟨⟨%ft, Het⟩, ⟨%fn, Hen⟩, Hdt, Hdn⟩⟩,
    ⟨Hb, Hspr, Hapr, ⟨%fqt, Hsqt⟩, ⟨%fqn, Hsqn⟩, Hr0, Hr1, Hr2, Hr3, Hr4, Hr5, Hr6, Hr19, Hr20, Hob, Hoc⟩⟩
  ihave Hsqt' := (Entails.of_eq (show ((m_sqt).view.loc (thr d L) ↦[sqRow (wL L)]{fullShare} fqt : sProp 𝕄)
      = (sqtSl L).view.loc (thr d L) ↦[(sqtSl L).view.set]{fullShare} fqt by rw [sqtSl_set])) $$ Hsqt
  ihave Hsqn' := (Entails.of_eq (show ((m_sqn).view.loc (thr d L) ↦[sqRow (wL L)]{fullShare} fqn : sProp 𝕄)
      = (sqnSl L).view.loc (thr d L) ↦[(sqnSl L).view.set]{fullShare} fqn by rw [sqnSl_set])) $$ Hsqn
  have hret : ∀ {E : Type → Type} {α β : Type} (a : α) (k : α → Prog E β), (Prog.ret a).bind k = k a := fun _ _ => rfl
  unfold k1_part37
  iapply (Transfers.wp_waitLocalO countersEmb 𝒱₀ (thr d L) none (default : HIx 1) (by decide : _ = 131072)) $$ [Hm18 HO]
  · isplitl [Hm18]; · iexact Hm18
    isplitl [HO]; · iexact HO
    iapply (Transfers.MayWaits.elim (SemLoc.dma cc1_scratch18.sem)) $$ Hmw
  iintro ⟨⟨⟨%f10, Hs10⟩, Hout0⟩, Hm18, HO⟩
  beta_reduce
  iapply (Transfers.wp_waitLocalO countersEmb 𝒱₀ (thr d L) none (default : HIx 1) (by decide : _ = 131072)) $$ [Hm19 HO]
  · isplitl [Hm19]; · iexact Hm19
    isplitl [HO]; · iexact HO
    iapply (Transfers.MayWaits.elim (SemLoc.dma cc1_scratch19.sem)) $$ Hmw
  iintro ⟨⟨⟨%f11, Hs11⟩, Hout1⟩, Hm19, HO⟩
  beta_reduce
  sl_rw [hret]
  sl_exec
  sl_step
  ihave Hrows := (rows_join I d L) $$ [Hdt Hdn Hout0 Hout1]
  · isplitl [Hdt]; · iexact Hdt
    isplitl [Hdn]; · iexact Hdn
    isplitl [Hout0]; · iexact Hout0
    iexact Hout1
  icases Hrows with ⟨Ht, Hn⟩
  ihave Hsp := (share_toks_join (ℓ := (m_sp).view.loc (thr d L)) (I.sp d) (rsh (wL L)) 12 14 (by decide)) $$ [Hsp0 Hsp1 Hspr]
  · isplitl [Hsp0]; · iexact Hsp0
    isplitl [Hsp1]; · iexact Hsp1
    iexact Hspr
  ihave Hap := (share_toks_join (ℓ := (m_ap).view.loc (thr d L)) (I.ap d) (rsh (wL L)) 13 15 (by decide)) $$ [Hap0 Hap1 Hapr]
  · isplitl [Hap0]; · iexact Hap0
    isplitl [Hap1]; · iexact Hap1
    iexact Hapr
  have hP0 : ∀ j, epilogue_run.sl.dma0 d L fsq j = fsq ((sq0Sl).view.emb j) := fun j => rfl
  have hP1 : ∀ j, epilogue_run.sl.dma0_1 d L fsq j = fsq ((sq1Sl).view.emb j) := fun j => rfl
  ihave Hqt := (Entails.of_eq (sqt_vals I d L fqt fsq hfsq _ hP0)) $$ Hsqt'
  ihave Hqn := (Entails.of_eq (sqn_vals I d L fqn fsq hfsq _ hP1)) $$ Hsqn'
  iclear Het Hen
  isplitl [Hsp Hap Hnid Hn1 Hn2 Ha1 Ha2 Hb Ht Hn Hqt Hqn]
  · isplitl [Hsp Hap Hnid Hn1 Hn2 Ha1 Ha2 Hb]
    · isplitl [Hsp]; · iexact Hsp
      isplitl [Hap]; · iexact Hap
      isplitl [Hnid]; · iexact Hnid
      isplitl [Hn1]; · iexact Hn1
      isplitl [Hn2]; · iexact Hn2
      isplitl [Ha1]; · iexact Ha1
      isplitl [Ha2]; · iexact Ha2
      iexact Hb
    isplitl [Ht]; · iexact Ht
    isplitl [Hn]; · iexact Hn
    isplitl [Hqt]; · iexact Hqt
    iexact Hqn
  isplitl [Hs0 Hs1 Hs2 Hs3 Hs4 Hs5 Hs6 Hs7 Hs8 Hs9 Hs10 Hs11 Hs12 Hs13 Hob]
  · isplitr [Hob]
    · isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      isplitl [Hs6]; · iexists _; iexact Hs6
      isplitl [Hs7]; · iexists _; iexact Hs7
      isplitl [Hs8]; · iexists _; iexact Hs8
      isplitl [Hs9]; · iexists _; iexact Hs9
      isplitl [Hs10]; · iexists _; iexact Hs10
      isplitl [Hs11]; · iexists _; iexact Hs11
      isplitl [Hs12]; · iexists _; iexact Hs12
      isplitl [Hs13]; · iexists _; iexact Hs13
      iempintro
    · iexact Hob
  isplitl [Hm14 Hm15 Hm16 Hm17 Hm18 Hm19 Hr0 Hr1 Hr2 Hr3 Hr4 Hr5 Hr6 Hr7 Hr8 Hr9 Hr10 Hr11 Hr12 Hr13 Hr14 Hr15 Hr16 Hr17 Hr18 Hr19 Hr20 Hoc]
  · isplitr [Hoc]
    · isplitl [Hm14]; · iexact Hm14
      isplitl [Hm15]; · iexact Hm15
      isplitl [Hm16]; · iexact Hm16
      isplitl [Hm17]; · iexact Hm17
      isplitl [Hm18]; · iexact Hm18
      isplitl [Hm19]; · iexact Hm19
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hr13]; · iexact Hr13
      isplitl [Hr14]; · iexact Hr14
      isplitl [Hr15]; · iexact Hr15
      isplitl [Hr16]; · iexact Hr16
      isplitl [Hr17]; · iexact Hr17
      isplitl [Hr18]; · iexact Hr18
      isplitl [Hr19]; · iexact Hr19
      isplitl [Hr20]; · iexact Hr20
      iempintro
    · iexact Hoc
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile
end Cert.Kernel.Tile
end
-- ==== Proof.Twin.TileBody.lean ====
/-
  One vector subcore's task of the graph-convolution kernel, whole: its first part (prologue and pair loop) and its end,
  and the task as the launch theorem's obligation.
-/
import proofs.«213116_g69346541961480_cont_9to1_m_612_34_alg».proof.Proof.Twin.TilePro
import proofs.«213116_g69346541961480_cont_9to1_m_612_34_alg».proof.Proof.Twin.TileEpi
import proofs.«213116_g69346541961480_cont_9to1_m_612_34_alg».proof.Proof.Twin.TilePay
import Idealize.ShloMosaic.Lib.SparseCore.Launch
import Idealize.ShloMosaic.Lib.StableHlo.Run
import Idealize.ShloMosaic.Lib.Pipeline.Kit
import Idealize.ShloMosaic.Lib.Tactic
import proofs.«213116_g69346541961480_cont_9to1_m_612_34_alg».proof.Proof.Gen.Kernel
import proofs.«213116_g69346541961480_cont_9to1_m_612_34_alg».proof.Proof.Gen.Kernel.Skeleton

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : Ins F) [FloatOps F]

section Tile
variable (d : Dev nD) (L : grid1.Coords)
local notation "m_sp" => (Memref.whole main_v4_0_scv : Memref sig Kind.scVector Space.hbm S100000x128 EltTy.f32)
local notation "m_ap" => (Memref.whole main_v4_1_scv : Memref sig Kind.scVector Space.hbm S100000x128 EltTy.f32)
local notation "m_nid" => (Memref.whole main_arg1_scv : Memref sig Kind.scVector Space.hbm S4096 EltTy.i32)
local notation "m_n1" => (Memref.whole main_v5_scv : Memref sig Kind.scVector Space.hbm S40960 EltTy.i32)
local notation "m_n2" => (Memref.whole main_v6_scv : Memref sig Kind.scVector Space.hbm S409600 EltTy.i32)
local notation "m_a1" => (Memref.whole main_v7_scv : Memref sig Kind.scVector Space.hbm S40960 EltTy.f32)
local notation "m_a2" => (Memref.whole main_v8_scv : Memref sig Kind.scVector Space.hbm S409600 EltTy.f32)
local notation "m_b" => (Memref.whole main_arg11_scv : Memref sig Kind.scVector Space.hbm S128 EltTy.f32)
local notation "m_e1t" => (Memref.whole main_v9_0_scv : Memref sig Kind.scVector Space.hbm S4096x128 EltTy.f32)
local notation "m_e1n" => (Memref.whole main_v9_1_scv : Memref sig Kind.scVector Space.hbm S40960x128 EltTy.f32)
local notation "m_sqt" => (Memref.whole main_v9_2_scv : Memref sig Kind.scVector Space.hbm S32x16 EltTy.f32)
local notation "m_sqn" => (Memref.whole main_v9_3_scv : Memref sig Kind.scVector Space.hbm S32x16 EltTy.f32)
local notation "s_0" => (Memref.whole cc1_scratch0 : Memref sig Kind.scVector Space.vmem S32 EltTy.i32)
local notation "s_1" => (Memref.whole cc1_scratch1 : Memref sig Kind.scVector Space.vmem S32 EltTy.i32)
local notation "s_2" => (Memref.whole cc1_scratch2 : Memref sig Kind.scVector Space.vmem S320 EltTy.i32)
local notation "s_3" => (Memref.whole cc1_scratch3 : Memref sig Kind.scVector Space.vmem S320 EltTy.i32)
local notation "s_4" => (Memref.whole cc1_scratch4 : Memref sig Kind.scVector Space.vmem S336 EltTy.f32)
local notation "s_5" => (Memref.whole cc1_scratch5 : Memref sig Kind.scVector Space.vmem S336 EltTy.f32)
local notation "s_6" => (Memref.whole cc1_scratch6 : Memref sig Kind.scVector Space.vmem S32x128 EltTy.f32)
local notation "s_7" => (Memref.whole cc1_scratch7 : Memref sig Kind.scVector Space.vmem S32x128 EltTy.f32)
local notation "s_8" => (Memref.whole cc1_scratch8 : Memref sig Kind.scVector Space.vmem S320x128 EltTy.f32)
local notation "s_9" => (Memref.whole cc1_scratch9 : Memref sig Kind.scVector Space.vmem S320x128 EltTy.f32)
local notation "s_10" => (Memref.whole cc1_scratch10 : Memref sig Kind.scVector Space.vmem S32x128 EltTy.f32)
local notation "s_11" => (Memref.whole cc1_scratch11 : Memref sig Kind.scVector Space.vmem S32x128 EltTy.f32)
local notation "s_12" => (Memref.whole cc1_scratch12 : Memref sig Kind.scVector Space.vmem S128 EltTy.f32)
local notation "s_13" => (Memref.whole cc1_scratch13 : Memref sig Kind.scVector Space.vmem S2x16 EltTy.f32)

set_option maxHeartbeats 4000000 in
/-- The task on vector subcore `(L 0, L 1)`: from its operands to its results at their values. -/
theorem tile_body (hF : (K (F := F)).Facts) (hpre : PreOK I) (O : CellTallies nD τ sig (HIx 1)) (W : Waits sig (HIx 1)) (hO : ∀ g, O g none = 0) :
    iprop(levAts (K (F := F)).L (K (F := F)).lev ∗ emp ∗ goAt I d (wL L) ∗ scopedBufs (thr d L) ∗ scopedSems0 (thr d L) ∗ owes (thr d L) O W)
      ⊢ wp frame (wpE (defs₀ (F := F)) 𝒱₀ (thr d L) none) Set.univ
          (cc1__sc_body L (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20)
          fun _ => iprop(tdAt I d (wL L) ∗ scopedBufs (thr d L) ∗ scopedSems0 (thr d L)
            ∗ ∃ W', ⌜∀ p ∈ W', p ∈ W ∨ p.2 = none⌝ ∗ owes (thr d L) O W') := by
  rw [body_cut, wp_bind]
  exact (part36_run I d L hF hpre O W hO).trans (wp_mono frame _ _ fun _ => epilogue_run I d L hF O W)

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

set_option maxHeartbeats 4000000 in
theorem defs₀_vector (c : Fin τ.nSC) (s : Fin τ.nSub) :
    defs₀ (F := F) (.scVector c s) 1 ()
      = SparseCore.onTile hcore1 hsub1 (fun c s => cc1__sc_body (coordsV c s) (Memref.whole main_v4_0_scv) (Memref.isWhole_whole _) (Memref.whole main_v4_1_scv) (Memref.isWhole_whole _) (Memref.whole main_arg1_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_arg11_scv) (Memref.isWhole_whole _) (Memref.whole main_v9_0_scv) (Memref.isWhole_whole _) (Memref.whole main_v9_1_scv) (Memref.isWhole_whole _) (Memref.whole main_v9_2_scv) (Memref.isWhole_whole _) (Memref.whole main_v9_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scratch18 cc1_scratch19 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
theorem tileObl (hF : (K (F := F)).Facts) (hpre : PreOK I) : (K (F := F)).TileObl (D (F := F)) 𝒱 (P I) v₀ 0 := by
  intro d c i O W hO _ _
  simp only [show (P I).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body I d (coordsV ⟨_, hc.1⟩ ⟨_, hc.2⟩) hF hpre O W hO).trans (wp_mono frame _ _ fun _ => obl_post)

end Cert.Kernel.Tile
end
-- ==== Proof.Twin.Tile.lean ====
/-
  The launch theorem's obligations for the graph-convolution kernel on the vector subcores: one task's run with its
  values, and the dealing of a core's operands to its sixteen tasks.
-/
import proofs.«213116_g69346541961480_cont_9to1_m_612_34_alg».proof.Proof.Twin.TileBody

noncomputable section

namespace Cert.Kernel.Tile

open Cert.Kernel Cert.Kernel.Gen Cert.Kernel.Ghost

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (I : Ins F) [FloatOps F]

theorem vecSplit : (K (F := F)).VecSplit' (P I) 0 := by
  intro d c
  show (bigSep Finset.univ fun i : Fin 16 => goAt I d (wid (Fin.cast nCore_zero c) i)) ⊢ |={Set.univ}=> iprop(
      (bigSep Finset.univ fun i : Fin ((K (F := F)).nSub 0) => goAt I d (wid (Fin.cast nCore_zero c) (Fin.cast nSub_zero i)))
      ∗ ((bigSep Finset.univ fun i : Fin ((K (F := F)).nSub 0) => tdAt I d (wid (Fin.cast nCore_zero c) (Fin.cast nSub_zero i)))
          -∗ bigSep Finset.univ fun i : Fin 16 => tdAt I d (wid (Fin.cast nCore_zero c) i)))
  have e1 : (bigSep Finset.univ fun i : Fin ((K (F := F)).nSub 0) => goAt I d (wid (Fin.cast nCore_zero c) (Fin.cast nSub_zero i)))
      = bigSep Finset.univ fun i : Fin 16 => goAt I d (wid (Fin.cast nCore_zero c) i) :=
    bigSep_congr fun _ _ => congrArg (fun j => goAt I d (wid (Fin.cast nCore_zero c) j)) (Fin.ext rfl)
  have e2 : (bigSep Finset.univ fun i : Fin ((K (F := F)).nSub 0) => tdAt I d (wid (Fin.cast nCore_zero c) (Fin.cast nSub_zero i)))
      = bigSep Finset.univ fun i : Fin 16 => tdAt I d (wid (Fin.cast nCore_zero c) i) :=
    bigSep_congr fun _ _ => congrArg (fun j => tdAt I d (wid (Fin.cast nCore_zero c) j)) (Fin.ext rfl)
  rw [e1, e2]
  iintro H; imodintro
  isplitl [H]; · iexact H
  iintro H; iexact H

end Cert.Kernel.Tile

end
-- ==== Proof.Twin.MainMain.lean ====
/-
  The kernel program's run: @main on the TensorCore threaded through its two lifted halves and the SparseCore call,
  the launch theorem applied, and the final memory read. Every weakly fair execution of the device's thirty-five
  threads terminates, nothing faulting, and the TensorCore's unscoped buffers end at the contents the fold names:
  the arguments as launched, the result at the third region's pure function of what it was entered with.
-/
import proofs.«213116_g69346541961480_cont_9to1_m_612_34_alg».proof.Proof.Twin.MainRegions
import proofs.«213116_g69346541961480_cont_9to1_m_612_34_alg».proof.Proof.Twin.MainGhost
import proofs.«213116_g69346541961480_cont_9to1_m_612_34_alg».proof.Proof.Twin.TileSplit
import proofs.«213116_g69346541961480_cont_9to1_m_612_34_alg».proof.Proof.Twin.Tile

noncomputable section

namespace Cert.Kernel.Main

open Cert.Kernel Cert.Kernel.Gen Cert.Kernel.Ghost Cert.Kernel.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- What the SparseCore call's read-only operands hold when it is entered. -/
abbrev I₀ : Tile.Ins F := insOf (W3 m)
/-- What the launch handshakes carry: the tile kernel's payloads at those contents. -/
abbrev Pm : (K (F := F)).Pay (nD := nD) (Val := Elt F) (Name := ℕ) (U := UU) := Tile.P (I₀ m)

/-! ## The TensorCore's handshake state: what it owes, and the rest -/

/-- The TensorCore's state before call `n` without what it owes: its position on its `done` cell, the rounds reached,
    the later calls' start tokens and credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- The state before call `n` is what the core owes, its recorded pairs below the call's level, beside the rest. -/
theorem tcSt_split (d : Dev nD) (n : ℕ) :
    ((K (F := F)).tcSt EH d n : sProp 𝕄)
      = iprop(Pipeline.owesWithin d ((K (F := F)).Otc d n) (Bn (F := F) d n) ∗ tcRest (F := F) d n) := rfl

/-! ## @main on the TensorCore -/

/-- The thread's last state: every unscoped buffer at the fold's final contents. -/
abbrev FIN (d : Dev nD) : sProp 𝕄 := StableHlo.held (T d) (Pipeline.ucRefs τ sig) (W8 m d)

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 1 ∗ FIN m d) := by
  rw [main_eq, G_split, tcSt_split, tcSt_split]
  unfold SparseCore.Cfg.tcRes
  rw [Pipeline.unscopedBufs_held d (W0 m d)]
  simp only [wp_bind]
  iintro ⟨#Hctx, ⟨HO, Hts0⟩, ⟨Hbd, Hub, -, Hpr⟩, ⟨Hg0, Hg12⟩⟩
  ihave #Hlev := (SparseCore.Cfg.ctx_levAts κ) $$ Hctx
  iapply ((K (F := F)).wp_liftProg (D (F := F)) 𝒱 (T d) Set.univ none _ _)
  iapply (wp_progA m d) $$ [Hbd Hub Hpr HO Hg0 Hts0 Hg12]
  isplitr [Hbd Hub Hpr HO Hg0]
  · -- from the first half's last boundary: the SparseCore call
    iintro ⟨Hbd, Hub, Hpr, HO⟩
    iapply (wp_call (W3 m) (Tile.st_of_whole (I₀ m)) (Tile.whole_of_dn (I₀ m)) κ d) $$ [HO Hts0 Hub Hbd Hpr Hg12]
    isplitr; · iexact Hctx
    isplitl [HO Hts0]
    · rw [tcSt_split]
      isplitl [HO]; · iexact HO
      iexact Hts0
    isplitl [Hub]; · iexact Hub
    iintro ⟨Hst1, Hub⟩
    ihave Hst1' := (Entails.of_eq (tcSt_split (F := F) d 1)) $$ Hst1
    icases Hst1' with ⟨HO, Hts1⟩
    iapply ((K (F := F)).wp_liftProg (D (F := F)) 𝒱 (T d) Set.univ none _ _)
    iapply (wp_progB m d) $$ [Hbd Hub Hpr HO Hg12 Hts1]
    isplitr [Hbd Hub Hpr HO Hg12]
    · iintro ⟨Hbd, Hub, Hpr, HO⟩
      isplitl [HO Hts1]
      · isplitl [HO]; · iexact HO
        iexact Hts1
      iexact Hub
    isplitl [Hbd]; · iexact Hbd
    isplitl [Hub Hpr HO]
    · isplitl [Hub]; · iexact Hub
      isplitl [Hpr]; · iexact Hpr
      iexact HO
    isplitr; · iexact Hlev
    iexact Hg12
  isplitl [Hbd]; · iexact Hbd
  isplitl [Hub Hpr HO]
  · isplitl [Hub]; · iexact Hub
    isplitl [Hpr]; · iexists _; iexact Hpr
    iexact HO
  isplitr; · iexact Hlev
  iexact Hg0

/-! ## The final memory -/

/-- What the claim reads of the final memory: every unscoped buffer of the TensorCore at the fold's last contents. -/
def fq (d : Dev nD) (s' : Phys nD τ sig (Elt F)) : Prop := ∀ b ∈ Pipeline.ucRefs τ sig, s'.mem.mem ((d : Dev nD), b) = W8 m d b

theorem hfin (d : Dev nD) (s' : Phys nD τ sig (Elt F)) : iprop(FIN m d ∗ SI s') ⊢ (⌜fq m d s'⌝ : sProp 𝕄) := by
  exact (pointsTo_read_all (Pipeline.ucRefs τ sig) (fun b => ((d : Dev nD), b)) (W8 m d) s').trans sep_elim_left

/-- The post of the run: on every device, every unscoped buffer ends at the fold's last contents. -/
def QC : PUnit × MemSt nD τ sig (Elt F) → Prop := fun r => ∀ d : Dev nD, ∀ b ∈ Pipeline.ucRefs τ sig, r.2.mem ((d : Dev nD), b) = W8 m d b

/-! ## The run -/

theorem run_main [∀ e, Nonempty (Elt F e)] (hpre : Tile.PreOK (I₀ m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := Pm m) Tile.facts v₀
    (fun q hq => match q with | 0 => nomatch hq)
    (fun q _ => match q with | 0 => Tile.tileObl (I₀ m) Tile.facts hpre)
    (fun q _ => match q with | 0 => SparseCore.Cfg.VecSplit.of_plain (Tile.vecSplit (I₀ m)))
    m ρ main (G (F := F)) (FIN m) (u₀ (F := F)) (hu₀ (I₀ m)) (hmain m ρ) (fq m) (hfin m) (QC m) (fun _ h => h)

end Cert.Kernel.Main

end
-- ==== Proof.Twin.MainPreHost.lean ====
/-
  What the two host stretches before the SparseCore call do to the three index arrays: neither writes an argument, and the
  second leaves, in the two flat neighbour tables, the one-hop and two-hop index arrays reshaped row-major.
-/
import proofs.«213116_g69346541961480_cont_9to1_m_612_34_alg».proof.Proof.Twin.MainHost

noncomputable section

namespace Cert.Kernel.Main

open Cert.Kernel Cert.Kernel.Gen Cert.Kernel.Ghost Cert.Kernel.Facts
open Idealize.ShloMosaic
open Idealize.SL Idealize.SL.Sem

variable {F : FTy → Type} [FloatOps F]

/-- Stretch A writes none of the three index arguments. -/
theorem afterA_of_arg (V : Valuation τ sig (Elt F)) {b : Ref sig .tc}
    (h0 : b ≠ main_v0) (h1 : b ≠ main_v1) (h2 : b ≠ main_v2) (h3 : b ≠ main_v3) :
    StableHlo.after hostOpsA V (Proc.devRef .tc b) = V (Proc.devRef .tc b) :=
  StableHlo.after_of_forall_not_mem (b := Proc.devRef .tc b) _ _ (List.forall_iff_forall_mem.mp (by
    simp only [hostOpsA, List.Forall, StableHlo.reshape_writes, StableHlo.unary_writes, Finset.mem_singleton]
    exact ⟨StableHlo.devRef_ne_of_ne h0, StableHlo.devRef_ne_of_ne h1, StableHlo.devRef_ne_of_ne h2,
      StableHlo.devRef_ne_of_ne h3⟩))

/-- Stretch B writes only the four flat tables. -/
theorem afterB_of_arg (V : Valuation τ sig (Elt F)) {b : Ref sig .tc}
    (h5 : b ≠ main_v5) (h6 : b ≠ main_v6) (h7 : b ≠ main_v7) (h8 : b ≠ main_v8) :
    StableHlo.after hostOpsB V (Proc.devRef .tc b) = V (Proc.devRef .tc b) :=
  StableHlo.after_of_forall_not_mem (b := Proc.devRef .tc b) _ _ (List.forall_iff_forall_mem.mp (by
    simp only [hostOpsB, List.Forall, StableHlo.reshape_writes, Finset.mem_singleton]
    exact ⟨StableHlo.devRef_ne_of_ne h5, StableHlo.devRef_ne_of_ne h6, StableHlo.devRef_ne_of_ne h7,
      StableHlo.devRef_ne_of_ne h8⟩))

/-- After stretch B the flat one-hop table is the one-hop index argument reshaped to one row-major list. -/
theorem afterB_v5 (V : Valuation τ sig (Elt F)) :
    StableHlo.after hostOpsB V (Proc.devRef .tc main_v5)
      = shapeCast S40960 (V (Proc.devRef .tc main_arg2)) shapeCasts_S4096x10_S40960 := by
  show StableHlo.after _ ((StableHlo.reshape main_arg2 main_v5 rfl shapeCasts_S4096x10_S40960).result V) (Proc.devRef .tc main_v5) = _
  rw [StableHlo.after_of_forall_not_mem (b := Proc.devRef .tc main_v5) _ _ (List.forall_iff_forall_mem.mp (by
    simp only [List.Forall, StableHlo.reshape_writes, Finset.mem_singleton]
    exact ⟨StableHlo.devRef_ne_of_ne (by decide), StableHlo.devRef_ne_of_ne (by decide), StableHlo.devRef_ne_of_ne (by decide)⟩)),
    StableHlo.reshape_result']
  rfl

/-- After stretch B the flat two-hop table is the two-hop index argument reshaped to one row-major list. -/
theorem afterB_v6 (V : Valuation τ sig (Elt F)) :
    StableHlo.after hostOpsB V (Proc.devRef .tc main_v6)
      = shapeCast S409600 (V (Proc.devRef .tc main_arg4)) shapeCasts_S40960x10_S409600 := by
  show StableHlo.after _ ((StableHlo.reshape main_arg4 main_v6 rfl shapeCasts_S40960x10_S409600).result
    ((StableHlo.reshape main_arg2 main_v5 rfl shapeCasts_S4096x10_S40960).result V)) (Proc.devRef .tc main_v6) = _
  rw [StableHlo.after_of_forall_not_mem (b := Proc.devRef .tc main_v6) _ _ (List.forall_iff_forall_mem.mp (by
    simp only [List.Forall, StableHlo.reshape_writes, Finset.mem_singleton]
    exact ⟨StableHlo.devRef_ne_of_ne (by decide), StableHlo.devRef_ne_of_ne (by decide)⟩)),
    StableHlo.reshape_result', StableHlo.reshape_result_ne' _ _ _ _ _ (by decide)]
  rfl

end Cert.Kernel.Main

end
-- ==== Proof.Twin.MainArgs.lean ====
/-
  The arguments of @main end as launched, and the result ends at what the third region leaves.

  The contents of the TensorCore's buffers are folded through @main: four host stretches, three pipelined regions
  and the SparseCore call. A host stretch changes only the buffers its operations write; the call only its four
  results; a region only the arrays of its output windows — an array it reads through an input window ends at the
  contents it was entered with, and a buffer it has no window on is untouched. So at any buffer that nothing writes the
  fold walks back to the launch memory: that is every argument. The result buffer is the third region's output array.
-/
import proofs.«213116_g69346541961480_cont_9to1_m_612_34_alg».proof.Proof.Twin.MainFold
import proofs.«213116_g69346541961480_cont_9to1_m_612_34_alg».proof.Proof.Twin.MainPreHost

noncomputable section

namespace Cert.Kernel.Main

open Cert.Kernel Cert.Kernel.Gen Cert.Kernel.Ghost Cert.Kernel.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The stretches and the call leave what they do not write -/

/-- Stretch C writes only the regrouped neighbour rows, three bias rows and the two halves of the second output weight. -/
theorem afterC_of_arg (V : Valuation τ sig (Elt F)) {b : Ref sig .tc}
    (h10 : b ≠ main_v10) (h11 : b ≠ main_v11) (h12 : b ≠ main_v12) (h13 : b ≠ main_v13) (h14 : b ≠ main_v14) (h15 : b ≠ main_v15) :
    StableHlo.after hostOpsC V (Proc.devRef .tc b) = V (Proc.devRef .tc b) :=
  StableHlo.after_of_forall_not_mem (b := Proc.devRef .tc b) _ _ (List.forall_iff_forall_mem.mp (by
    simp only [hostOpsC, List.Forall, StableHlo.reshape_writes, StableHlo.unary_writes, Finset.mem_singleton]
    exact ⟨StableHlo.devRef_ne_of_ne h10, StableHlo.devRef_ne_of_ne h11, StableHlo.devRef_ne_of_ne h12,
      StableHlo.devRef_ne_of_ne h13, StableHlo.devRef_ne_of_ne h14, StableHlo.devRef_ne_of_ne h15⟩))

/-- Stretch D writes only the last bias row. -/
theorem afterD_of_arg (V : Valuation τ sig (Elt F)) {b : Ref sig .tc} (h17 : b ≠ main_v17) :
    StableHlo.after hostOpsD V (Proc.devRef .tc b) = V (Proc.devRef .tc b) :=
  StableHlo.after_of_forall_not_mem (b := Proc.devRef .tc b) _ _ (List.forall_iff_forall_mem.mp (by
    simp only [hostOpsD, List.Forall, StableHlo.reshape_writes, Finset.mem_singleton]
    exact StableHlo.devRef_ne_of_ne h17))

/-- The SparseCore call writes only its four results. -/
theorem W4_of_unwritten (c : Dev nD) {b : Ref sig .tc} (h0 : b ≠ main_v9_0) (h1 : b ≠ main_v9_1) (h2 : b ≠ main_v9_2) (h3 : b ≠ main_v9_3) :
    W4 m c (Proc.devRef .tc b) = W3 m c (Proc.devRef .tc b) :=
  afterCall_of_notMem (W3 m) c (StableHlo.devRef_ne_of_ne h0.symm) (StableHlo.devRef_ne_of_ne h1.symm)
    (StableHlo.devRef_ne_of_ne h2.symm) (StableHlo.devRef_ne_of_ne h3.symm)

/-! ## A region leaves what it only reads: an input window's array ends at the entry contents -/

/-- Every window of the first region is an input window but the two that carry its results. -/
theorem wins0 : ∀ w : Fin cfg0.W, (cfg0.win w).isOut = false ∨ Pipeline.arrRef spec0 w = main_v4_0 ∨ Pipeline.arrRef spec0 w = main_v4_1 := by
  decide

/-- Every window of the second region is an input window but the two that carry its results. -/
theorem wins2 : ∀ w : Fin cfg2.W, (cfg2.win w).isOut = false ∨ Pipeline.arrRef spec2 w = main_v16_0 ∨ Pipeline.arrRef spec2 w = main_v16_1 := by
  decide

/-- Every window of the third region is an input window but the one that carries the result. -/
theorem wins3 : ∀ w : Fin cfg3.W, (cfg3.win w).isOut = false ∨ Pipeline.arrRef spec3 w = main_v18 := by
  decide

/-- The first region changes only its two results: a buffer it reads through a window ends as entered, a buffer it has no
    window on is bypassed. -/
theorem W2_of_unwritten (c : Dev nD) {b : Ref sig .tc} (h0 : b ≠ main_v4_0) (h1 : b ≠ main_v4_1) :
    W2 m c (Proc.devRef .tc b) = W1 m c (Proc.devRef .tc b) := by
  by_cases hb : ∃ w, Pipeline.arrRef spec0 w = b
  · obtain ⟨w, rfl⟩ := hb
    rcases wins0 w with hw | e | e
    · exact (W2_arr m c w).trans (((dat0 m c).arrAt_in w hw _).trans (Region0.A_eq (V1 m) _ _ c w))
    · exact absurd e h0
    · exact absurd e h1
  · exact W2_of_ne m c b fun w e => hb ⟨w, e⟩

/-- The second region changes only its two results. -/
theorem W6_of_unwritten (c : Dev nD) {b : Ref sig .tc} (h0 : b ≠ main_v16_0) (h1 : b ≠ main_v16_1) :
    W6 m c (Proc.devRef .tc b) = W5 m c (Proc.devRef .tc b) := by
  by_cases hb : ∃ w, Pipeline.arrRef spec2 w = b
  · obtain ⟨w, rfl⟩ := hb
    rcases wins2 w with hw | e | e
    · exact (W6_arr m c w).trans (((dat1 m c).arrAt_in w hw _).trans (Region1.A_eq (V5 m) _ _ c w))
    · exact absurd e h0
    · exact absurd e h1
  · exact W6_of_ne m c b fun w e => hb ⟨w, e⟩

/-- The third region changes only its result. -/
theorem W8_of_unwritten (c : Dev nD) {b : Ref sig .tc} (h0 : b ≠ main_v18) :
    W8 m c (Proc.devRef .tc b) = W7 m c (Proc.devRef .tc b) := by
  by_cases hb : ∃ w, Pipeline.arrRef spec3 w = b
  · obtain ⟨w, rfl⟩ := hb
    rcases wins3 w with hw | e
    · exact (W8_arr m c w).trans (((dat2 m c).arrAt_in w hw _).trans (Region2.A_eq (V7 m) _ _ c w))
    · exact absurd e h0
  · exact W8_of_ne m c b fun w e => hb ⟨w, e⟩

/-! ## A buffer nothing writes ends as launched -/

/-- The buffers some host operation, some region or the SparseCore call writes. -/
def written : Finset (Ref sig .tc) :=
  {main_v0, main_v1, main_v2, main_v3, main_v4_0, main_v4_1, main_v5, main_v6, main_v7, main_v8, main_v9_0, main_v9_1, main_v9_2, main_v9_3,
    main_v10, main_v11, main_v12, main_v13, main_v14, main_v15, main_v16_0, main_v16_1, main_v17, main_v18}

/-- The fold at a buffer outside that set walks back, stage by stage, to the launch memory. -/
theorem W8_of_notWritten (c : Dev nD) {b : Ref sig .tc} (hb : b ∉ written) :
    W8 m c (Proc.devRef .tc b) = m ((c : Thread nD τ).loc b) := by
  have ne : ∀ x ∈ written, b ≠ x := fun x hx e => hb (e ▸ hx)
  calc W8 m c (Proc.devRef .tc b)
    _ = W7 m c (Proc.devRef .tc b) := W8_of_unwritten m c (ne _ (by decide))
    _ = W6 m c (Proc.devRef .tc b) := afterD_of_arg _ (ne _ (by decide))
    _ = W5 m c (Proc.devRef .tc b) := W6_of_unwritten m c (ne _ (by decide)) (ne _ (by decide))
    _ = W4 m c (Proc.devRef .tc b) := afterC_of_arg _ (ne _ (by decide)) (ne _ (by decide)) (ne _ (by decide)) (ne _ (by decide)) (ne _ (by decide)) (ne _ (by decide))
    _ = W3 m c (Proc.devRef .tc b) := W4_of_unwritten m c (ne _ (by decide)) (ne _ (by decide)) (ne _ (by decide)) (ne _ (by decide))
    _ = W2 m c (Proc.devRef .tc b) := afterB_of_arg _ (ne _ (by decide)) (ne _ (by decide)) (ne _ (by decide)) (ne _ (by decide))
    _ = W1 m c (Proc.devRef .tc b) := W2_of_unwritten m c (ne _ (by decide)) (ne _ (by decide))
    _ = W0 m c (Proc.devRef .tc b) := afterA_of_arg _ (ne _ (by decide)) (ne _ (by decide)) (ne _ (by decide)) (ne _ (by decide))
    _ = m ((c : Thread nD τ).loc b) := rfl

/-! ## The twenty arguments, and the result -/

theorem W8_main_arg0 (c : Dev nD) : W8 m c (Proc.devRef .tc main_arg0) = m ((c : Thread nD τ).loc main_arg0) :=
  W8_of_notWritten m c (by decide)
theorem W8_main_arg1 (c : Dev nD) : W8 m c (Proc.devRef .tc main_arg1) = m ((c : Thread nD τ).loc main_arg1) :=
  W8_of_notWritten m c (by decide)
theorem W8_main_arg2 (c : Dev nD) : W8 m c (Proc.devRef .tc main_arg2) = m ((c : Thread nD τ).loc main_arg2) :=
  W8_of_notWritten m c (by decide)
theorem W8_main_arg3 (c : Dev nD) : W8 m c (Proc.devRef .tc main_arg3) = m ((c : Thread nD τ).loc main_arg3) :=
  W8_of_notWritten m c (by decide)
theorem W8_main_arg4 (c : Dev nD) : W8 m c (Proc.devRef .tc main_arg4) = m ((c : Thread nD τ).loc main_arg4) :=
  W8_of_notWritten m c (by decide)
theorem W8_main_arg5 (c : Dev nD) : W8 m c (Proc.devRef .tc main_arg5) = m ((c : Thread nD τ).loc main_arg5) :=
  W8_of_notWritten m c (by decide)
theorem W8_main_arg6 (c : Dev nD) : W8 m c (Proc.devRef .tc main_arg6) = m ((c : Thread nD τ).loc main_arg6) :=
  W8_of_notWritten m c (by decide)
theorem W8_main_arg7 (c : Dev nD) : W8 m c (Proc.devRef .tc main_arg7) = m ((c : Thread nD τ).loc main_arg7) :=
  W8_of_notWritten m c (by decide)
theorem W8_main_arg8 (c : Dev nD) : W8 m c (Proc.devRef .tc main_arg8) = m ((c : Thread nD τ).loc main_arg8) :=
  W8_of_notWritten m c (by decide)
theorem W8_main_arg9 (c : Dev nD) : W8 m c (Proc.devRef .tc main_arg9) = m ((c : Thread nD τ).loc main_arg9) :=
  W8_of_notWritten m c (by decide)
theorem W8_main_arg10 (c : Dev nD) : W8 m c (Proc.devRef .tc main_arg10) = m ((c : Thread nD τ).loc main_arg10) :=
  W8_of_notWritten m c (by decide)
theorem W8_main_arg11 (c : Dev nD) : W8 m c (Proc.devRef .tc main_arg11) = m ((c : Thread nD τ).loc main_arg11) :=
  W8_of_notWritten m c (by decide)
theorem W8_main_arg12 (c : Dev nD) : W8 m c (Proc.devRef .tc main_arg12) = m ((c : Thread nD τ).loc main_arg12) :=
  W8_of_notWritten m c (by decide)
theorem W8_main_arg13 (c : Dev nD) : W8 m c (Proc.devRef .tc main_arg13) = m ((c : Thread nD τ).loc main_arg13) :=
  W8_of_notWritten m c (by decide)
theorem W8_main_arg14 (c : Dev nD) : W8 m c (Proc.devRef .tc main_arg14) = m ((c : Thread nD τ).loc main_arg14) :=
  W8_of_notWritten m c (by decide)
theorem W8_main_arg15 (c : Dev nD) : W8 m c (Proc.devRef .tc main_arg15) = m ((c : Thread nD τ).loc main_arg15) :=
  W8_of_notWritten m c (by decide)
theorem W8_main_arg16 (c : Dev nD) : W8 m c (Proc.devRef .tc main_arg16) = m ((c : Thread nD τ).loc main_arg16) :=
  W8_of_notWritten m c (by decide)
theorem W8_main_arg17 (c : Dev nD) : W8 m c (Proc.devRef .tc main_arg17) = m ((c : Thread nD τ).loc main_arg17) :=
  W8_of_notWritten m c (by decide)
theorem W8_main_arg18 (c : Dev nD) : W8 m c (Proc.devRef .tc main_arg18) = m ((c : Thread nD τ).loc main_arg18) :=
  W8_of_notWritten m c (by decide)
theorem W8_main_arg19 (c : Dev nD) : W8 m c (Proc.devRef .tc main_arg19) = m ((c : Thread nD τ).loc main_arg19) :=
  W8_of_notWritten m c (by decide)

/-- The result buffer ends at what the third region's pipeline leaves in its output window's array. -/
theorem W8_result (c : Dev nD) : W8 m c (Proc.devRef .tc main_v18) = (dat2 m c).arrAt 4 cfg3.N :=
  W8_arr m c 4

end Cert.Kernel.Main

end
-- ==== Proof.Twin.MainPost.lean ====
/-
  The final memory at the arguments and at the result. The run leaves every unscoped buffer of the TensorCore at the
  last contents of the fold through @main; the arguments and the result are unscoped buffers, and the fold at them is
  the launch memory and the third region's output array.
-/
import proofs.«213116_g69346541961480_cont_9to1_m_612_34_alg».proof.Proof.Twin.MainMain
import proofs.«213116_g69346541961480_cont_9to1_m_612_34_alg».proof.Proof.Twin.MainArgs

noncomputable section

namespace Cert.Kernel.Main

open Cert.Kernel Cert.Kernel.Gen Cert.Kernel.Ghost Cert.Kernel.Facts
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- A TensorCore reference that is not scoped is among the buffers the thread holds between segments. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The final memory at an unscoped buffer that nothing writes is the launch memory. -/
theorem arg_of_QC (r : PUnit × MemSt nD τ sig (Elt F)) (h : QC m r) (c : Dev nD) {b : Ref sig .tc}
    (hs : ¬ (Proc.devRef .tc b : DevRef τ sig).isScoped) (hb : b ∉ written) :
    r.2.mem ((c.tc : Thread nD τ).loc b) = m ((c.tc : Thread nD τ).loc b) :=
  (h c _ (mem_ucRefs b hs)).trans (W8_of_notWritten m c hb)

/-- Every argument ends as launched. -/
theorem args_of_QC (r : PUnit × MemSt nD τ sig (Elt F)) (h : QC m r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  fun c => ⟨arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide),
    arg_of_QC m r h c (by decide) (by decide)⟩

/-- The result ends at what the third region's pipeline leaves in its output window's array. -/
theorem result_of_QC (r : PUnit × MemSt nD τ sig (Elt F)) (h : QC m r) (c : Dev nD) :
    r.2.mem ((c.tc : Thread nD τ).loc main_v18) = (dat2 m c).arrAt 4 cfg3.N :=
  (h c _ (mem_ucRefs main_v18 (by decide))).trans (W8_result m c)

end Cert.Kernel.Main

end
-- ==== Proof.Twin.MainPre.lean ====
/-
  The input domain's index ranges at the SparseCore call's entry. The three index operands of the call are the target
  indices as launched and the one-hop and two-hop index arrays reshaped row-major (no host operation and no region
  writes an index argument before the call), so every index word the call reads is a natural number below 100000.
-/
import proofs.«213116_g69346541961480_cont_9to1_m_612_34_alg».proof.Proof.Twin.MainFold
import proofs.«213116_g69346541961480_cont_9to1_m_612_34_alg».proof.Proof.Twin.MainPreHost
import proofs.«213116_g69346541961480_cont_9to1_m_612_34_alg».proof.Proof.PreRanges

noncomputable section

namespace Cert.Kernel.Main

open Cert.Kernel Cert.Kernel.Gen Cert.Kernel.Ghost Cert.Kernel.Facts
open Idealize.ShloMosaic
open Idealize.ShloMosaic.SparseCore (S V T)
open Idealize.SL Idealize.SL.Sem

variable {F : FTy → Type} [FloatOps F]

variable (m : (ℓ : Loc nD τ sig) → Buf (Elt F) ℓ)

/-- A buffer that neither stretch A nor region 0 writes holds, when region 0 is left, what it held at launch. -/
theorem W2_of_arg (c : Dev nD) {b : Ref sig .tc}
    (h0 : b ≠ main_v0) (h1 : b ≠ main_v1) (h2 : b ≠ main_v2) (h3 : b ≠ main_v3) (hw : ∀ w, Pipeline.arrRef spec0 w ≠ b) :
    W2 m c (Proc.devRef .tc b) = m ((c.tc : Thread nD τ).loc b) :=
  calc W2 m c (Proc.devRef .tc b)
    _ = W1 m c (Proc.devRef .tc b) := W2_of_ne m c b hw
    _ = W0 m c (Proc.devRef .tc b) := afterA_of_arg _ h0 h1 h2 h3
    _ = m ((c.tc : Thread nD τ).loc b) := rfl

/-- At the call's entry the target indices are as launched. -/
theorem W3_main_arg1 (c : Dev nD) : W3 m c (Proc.devRef .tc main_arg1) = m ((c.tc : Thread nD τ).loc main_arg1) :=
  (afterB_of_arg (W2 m c) (by decide) (by decide) (by decide) (by decide)).trans
    (W2_of_arg m c (by decide) (by decide) (by decide) (by decide) (by decide))

/-- At the call's entry the flat one-hop table is the launched one-hop index array, reshaped. -/
theorem W3_main_v5 (c : Dev nD) :
    W3 m c (Proc.devRef .tc main_v5) = shapeCast S40960 (m ((c.tc : Thread nD τ).loc main_arg2)) shapeCasts_S4096x10_S40960 :=
  (afterB_v5 (W2 m c)).trans
    (congrArg (fun a => shapeCast S40960 a shapeCasts_S4096x10_S40960)
      (W2_of_arg m c (b := main_arg2) (by decide) (by decide) (by decide) (by decide) (by decide)))

/-- At the call's entry the flat two-hop table is the launched two-hop index array, reshaped. -/
theorem W3_main_v6 (c : Dev nD) :
    W3 m c (Proc.devRef .tc main_v6) = shapeCast S409600 (m ((c.tc : Thread nD τ).loc main_arg4)) shapeCasts_S40960x10_S409600 :=
  (afterB_v6 (W2 m c)).trans
    (congrArg (fun a => shapeCast S409600 a shapeCasts_S40960x10_S409600)
      (W2_of_arg m c (b := main_arg4) (by decide) (by decide) (by decide) (by decide) (by decide)))

/-- THE CALL'S PRECONDITION: on a launch memory in the input domain every index the SparseCore call reads names a row of
    the 100000-row tables. -/
theorem preOK_of_pre
    (h : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12))
      (m ((c.tc : Thread nD τ).loc main_arg13)) (m ((c.tc : Thread nD τ).loc main_arg14))
      (m ((c.tc : Thread nD τ).loc main_arg15)) (m ((c.tc : Thread nD τ).loc main_arg16))
      (m ((c.tc : Thread nD τ).loc main_arg17)) (m ((c.tc : Thread nD τ).loc main_arg18))
      (m ((c.tc : Thread nD τ).loc main_arg19)) = fun _ => 1#1) :
    Tile.PreOK (insOf (W3 m)) := by
  intro d
  obtain ⟨h1, h2, h4⟩ := Cert.PreDecode.ranges_of_fn _ _ _ _ _ _ _ _ _ _ _ _ _ _ _ _ _ _ _ _ (h d)
  refine ⟨fun x => ?_, fun x => ?_, fun x => ?_⟩
  · show ((W3 m d (Proc.devRef .tc main_arg1)) x).toNat < 100000
    rw [W3_main_arg1]
    exact h1 x
  · show ((W3 m d (Proc.devRef .tc main_v5)) x).toNat < 100000
    rw [W3_main_v5]
    exact h2 _
  · show ((W3 m d (Proc.devRef .tc main_v6)) x).toNat < 100000
    rw [W3_main_v6]
    exact h4 _

end Cert.Kernel.Main

end
-- ==== Proof.lean ====
/-
  THE CERTIFICATE. Three programs are run: a kernel program as printed (at bit-exact floats), the same text read over the
  extended reals, and a reference read over the extended reals. All compute a two-layer graph convolution of 4096 target
  nodes over a feature table of 100000 rows: gather the rows of the targets, of their ten one-hop neighbours and of the
  hundred two-hop neighbours; a convolution embeds a node by one dense relu layer, its ten neighbours by another, takes the
  importance-weighted sum of the neighbour embeddings, and passes both through a third dense relu layer; the result is
  divided by the Euclidean norm of the whole embedding matrix. Level one embeds the targets and their one-hop neighbours
  with shared weights, level zero convolves the level-one embeddings, and a last dense relu layer gives the 4096 × 128 result.

  The reference does this line by line. The kernel rearranges it. (1) On the TensorCore, for EVERY row of the table: the
  node layer and the neighbour layer, each already multiplied into its half of the third layer's matrix (two tables, Sp and
  Ap). (2) On the 32 vector subcores, 1408 rows each of the 4096 + 40960 level-one rows: the row's own Sp entry plus the bias
  plus the ten weighted Ap entries of its neighbours, rectified and NOT normalised, and per worker the partial sums of the
  squares. (3) On the TensorCore, level zero on the unnormalised rows with the two norms folded in — a bias is multiplied by
  the norm its inputs were not divided by, a half of the output layer is divided by it afterwards — and the last layer
  likewise, times the reciprocal of the level-zero norm.

  Why the two agree over the extended reals: where every argument entry is a real number and the three norms are positive,
  every intermediate value is a real number, so sums distribute over products (the third layer's matrix passes through the
  weighted sum; the sum of the workers' partial sums is the whole sum), and relu (ν z) = ν relu z, (ν z) / ν = z for a
  positive real ν. Hence the precondition: every float argument finite, every index in [0, 99999] (outside it the reference
  gathers NaN rows and the kernel has no row to read), and the reference's three norms positive (at a zero norm the reference
  divides zero by zero, the kernel multiplies zero by infinity: both undefined values, not comparable).

  The frames: each program terminates with its twenty arguments unchanged; the kernel's two readings are the same text.
-/
import proofs.«213116_g69346541961480_cont_9to1_m_612_34_alg».proof.Defs
import proofs.«213116_g69346541961480_cont_9to1_m_612_34_alg».proof.Proof.Gen.Kernel
import proofs.«213116_g69346541961480_cont_9to1_m_612_34_alg».proof.Proof.Gen.KernelIdeal
import proofs.«213116_g69346541961480_cont_9to1_m_612_34_alg».proof.Proof.Gen.ReferenceIdeal
import proofs.«213116_g69346541961480_cont_9to1_m_612_34_alg».proof.Proof.Gen.Pre_input_domain
import proofs.«213116_g69346541961480_cont_9to1_m_612_34_alg».proof.Proof.MainArgs
import proofs.«213116_g69346541961480_cont_9to1_m_612_34_alg».proof.Proof.MainMain
import proofs.«213116_g69346541961480_cont_9to1_m_612_34_alg».proof.Proof.MainPost
import proofs.«213116_g69346541961480_cont_9to1_m_612_34_alg».proof.Proof.MainPre
import proofs.«213116_g69346541961480_cont_9to1_m_612_34_alg».proof.Proof.RefRun
import proofs.«213116_g69346541961480_cont_9to1_m_612_34_alg».proof.Proof.RefBridge
import proofs.«213116_g69346541961480_cont_9to1_m_612_34_alg».proof.Proof.PreDecode
import proofs.«213116_g69346541961480_cont_9to1_m_612_34_alg».proof.Proof.KerBridge
import proofs.«213116_g69346541961480_cont_9to1_m_612_34_alg».proof.Proof.PreBridge
import proofs.«213116_g69346541961480_cont_9to1_m_612_34_alg».proof.Proof.SpecAlgebra
import proofs.«213116_g69346541961480_cont_9to1_m_612_34_alg».proof.Proof.Twin.MainMain
import proofs.«213116_g69346541961480_cont_9to1_m_612_34_alg».proof.Proof.Twin.MainPost
import proofs.«213116_g69346541961480_cont_9to1_m_612_34_alg».proof.Proof.Twin.MainPre
import Idealize.ShloMosaic.Lib.ValueIdx
import Idealize.ShloMosaic.Adequacy
import Idealize.ShloMosaic.Init

noncomputable section

namespace Cert.Proof

open Idealize.ShloMosaic Idealize.SL.Sem Idealize.ShloMosaic.ValueIdx

/-- The kernel as printed runs and leaves its arguments unchanged. -/
theorem frame_Kernel : Cert.frame_Kernel := fun m g hpre =>
  (θ_run (Cert.Kernel.defs (F := Bits)) _ _).mono (fun r h => Cert.Kernel.Main.args_of_QC m r h)
    (Cert.Kernel.Main.run_main m g (Cert.Kernel.Main.preOK_of_pre m hpre))

/-- The kernel over the extended reals runs and leaves its arguments unchanged. -/
theorem frame_KernelIdeal : Cert.frame_KernelIdeal := fun m g hpre =>
  (θ_run (Cert.KernelIdeal.defs (F := Ideal)) _ _).mono (fun r h => Cert.KernelIdeal.Main.args_of_QC m r h)
    (Cert.KernelIdeal.Main.run_main m g (Cert.KernelIdeal.Main.preOK_of_pre m hpre))

/-- The reference's value is the kernel's: on arguments in the input domain, entry by entry, the reference's result is the
    reference form of the specification, the two forms of the specification agree, and the rearranged form is what the
    third region leaves in the result array. The reference's arguments are the kernel's. -/
theorem ref_value (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.RefRun.result (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17))
        (m' ((c.tc : Thread Cert.ReferenceIdeal.nD Cert.ReferenceIdeal.τ).loc Cert.ReferenceIdeal.main_arg18))
        (m' ((c.tc : Thread Cert.ReferenceIdeal.nD Cert.ReferenceIdeal.τ).loc Cert.ReferenceIdeal.main_arg19))
      = (Cert.KernelIdeal.Main.dat2 m c).arrAt 4 Cert.KernelIdeal.cfg3.N := by
  obtain ⟨e0, e1, e2, e3, e4, e5, e6, e7, e8, e9, e10, e11, e12, e13, e14, e15, e16, e17, e18, e19⟩ := hag
  rw [e0, e1, e2, e3, e4, e5, e6, e7, e8, e9, e10, e11, e12, e13, e14, e15, e16, e17, e18, e19]
  have hd := Cert.PreDecode.decode _ _ _ _ _ _ _ _ _ _ _ _ _ _ _ _ _ _ _ _ (hpre c)
  funext i
  obtain ⟨r, u, rfl⟩ : ∃ (r : Fin 4096) (u : Fin 128), i = ix2 r u := ⟨i 0, i 1, eq_ix2 i⟩
  exact ((Cert.RefBridge.result_eq _ _ _ _ _ _ _ _ _ _ _ _ _ _ _ _ _ _ _ _ hd r u).trans
    (Cert.Spec.OUT_eq (Cert.PreBridge.real_of_decoded _ _ _ _ _ _ _ _ _ _ _ _ _ _ _ _ _ _ _ _ hd) (Cert.PreBridge.pos_of_decoded _ _ _ _ _ _ _ _ _ _ _ _ _ _ _ _ _ _ _ _ hd) r u).symm).trans
    (Cert.KerBridge.ker_value m c hd r u).symm

/-- Over the extended reals, from memories that agree on the arguments, the kernel and the reference both run, end with the
    same result, and leave their arguments unchanged. -/
theorem algebraic : Cert.algebraic_KernelIdeal_ReferenceIdeal := fun m g m' g' hpre hag =>
  ⟨fun c => (Cert.KernelIdeal.Main.dat2 m c).arrAt 4 Cert.KernelIdeal.cfg3.N,
    (θ_run (Cert.KernelIdeal.defs (F := Ideal)) _ _).mono
      (fun r h c => ⟨Cert.KernelIdeal.Main.result_of_QC m r h c, Cert.KernelIdeal.Main.args_of_QC m r h c⟩)
      (Cert.KernelIdeal.Main.run_main m g (Cert.KernelIdeal.Main.preOK_of_pre m hpre)),
    (θ_run (Cert.ReferenceIdeal.defs (F := Ideal)) _ _).mono
      (fun r h c => ⟨(h c).1.trans (ref_value m m' hpre c (hag c)), (h c).2⟩)
      (Cert.ReferenceIdeal.RefRun.run m' g')⟩

theorem claim : Cert.Claim :=
  ⟨Cert.Kernel.Gen.facts, Cert.KernelIdeal.Gen.facts, Cert.ReferenceIdeal.Gen.facts, Cert.Pre_input_domain.Gen.facts,
    frame_Kernel, frame_KernelIdeal, Cert.ReferenceIdeal.RefRun.frame, trivial, algebraic⟩

end Cert.Proof

end
